-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S512x256 : Shape := ⟨2, ![512, 256]⟩
abbrev S32x16x256 : Shape := ⟨3, ![32, 16, 256]⟩
abbrev S16x256 : Shape := ⟨2, ![16, 256]⟩
abbrev S_ : Shape := ⟨0, ![]⟩
abbrev S32 : Shape := ⟨1, ![32]⟩
abbrev S1 : Shape := ⟨1, ![1]⟩
abbrev S1x16x256 : Shape := ⟨3, ![1, 16, 256]⟩

abbrev nBuf : Space → Nat
  | .hbm => 2
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .bf16⟩
  | .local _ .vmem, ⟨2, _⟩ => ⟨S32x16x256, .bf16⟩
  | .local _ .vmem, ⟨3, _⟩ => ⟨S16x256, .bf16⟩
  | .local _ .vmem, ⟨4, _⟩ => ⟨S32x16x256, .bf16⟩
  | .local _ .vmem, ⟨5, _⟩ => ⟨S32x16x256, .f32⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 161 → Bool
  | ⟨i, _⟩ => dmaSemScopedAt i

abbrev sig : RefSig :=
  (ofTc nBuf bufTy 1 161 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_283 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v412 : BitVec 32 := Scalar.addi v2 c1_i32_283
  let c32_i32_284 : BitVec 32 := 32#32
  let c0_i32_285 : BitVec 32 := 0#32
  let v413 : BitVec 1 := Scalar.cmpi .eq c32_i32_284 c0_i32_285
  let c1_i32_286 : BitVec 32 := 1#32
  let v414 : BitVec 32 := Scalar.select v413 c1_i32_286 c32_i32_284
  let v415 : BitVec 32 := Scalar.remsi v412 v414
  let c0_i32_288 : BitVec 32 := 0#32
  let v417 : BitVec 1 := Scalar.cmpi .slt v415 c0_i32_288
  let c0_i32_289 : BitVec 32 := 0#32
  let v418 : BitVec 1 := Scalar.cmpi .slt v414 c0_i32_289
  let v419 : BitVec 1 := Scalar.xori v417 v418
  let c0_i32_287 : BitVec 32 := 0#32
  let v416 : BitVec 1 := Scalar.cmpi .ne v415 c0_i32_287
  let v420 : BitVec 1 := Scalar.andi v419 v416
  let v421 : BitVec 32 := Scalar.addi v415 v414
  let v422 : BitVec 32 := Scalar.select v420 v421 v415
  let c16_i32_290 : BitVec 32 := 16#32
  let v423 : BitVec 32 := Scalar.muli v422 c16_i32_290
  let c0_i32_298 : BitVec 32 := 0#32
  ![v423.toNat, 0]
def k0_dev32 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v412 : BitVec 32 := Scalar.addi v2 c1_i32_283
  let c32_i32_284 : BitVec 32 := 32#32
  let c0_i32_285 : BitVec 32 := 0#32
  let v413 : BitVec 1 := Scalar.cmpi .eq c32_i32_284 c0_i32_285
  let c1_i32_286 : BitVec 32 := 1#32
  let v414 : BitVec 32 := Scalar.select v413 c1_i32_286 c32_i32_284
  let v415 : BitVec 32 := Scalar.remsi v412 v414
  let c0_i32_288 : BitVec 32 := 0#32
  let v417 : BitVec 1 := Scalar.cmpi .slt v415 c0_i32_288
  let c0_i32_289 : BitVec 32 := 0#32
  let v418 : BitVec 1 := Scalar.cmpi .slt v414 c0_i32_289
  let v419 : BitVec 1 := Scalar.xori v417 v418
  let c0_i32_287 : BitVec 32 := 0#32
  let v416 : BitVec 1 := Scalar.cmpi .ne v415 c0_i32_287
  let v420 : BitVec 1 := Scalar.andi v419 v416
  let v421 : BitVec 32 := Scalar.addi v415 v414
  let v422 : BitVec 32 := Scalar.select v420 v421 v415
  let c1_i32_294 : BitVec 32 := 1#32
  let v424 : BitVec 32 := Scalar.muli v422 c1_i32_294
  let v425 : BitVec 32 := Scalar.addi c0_i32_295 v424
  v425.toNat
def k0_dev33 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_299 : BitVec 32 := 2#32
  let v433 : BitVec 32 := Scalar.addi v2 c2_i32_299
  let c32_i32_300 : BitVec 32 := 32#32
  let c0_i32_301 : BitVec 32 := 0#32
  let v434 : BitVec 1 := Scalar.cmpi .eq c32_i32_300 c0_i32_301
  let c1_i32_302 : BitVec 32 := 1#32
  let v435 : BitVec 32 := Scalar.select v434 c1_i32_302 c32_i32_300
  let v436 : BitVec 32 := Scalar.remsi v433 v435
  let c0_i32_304 : BitVec 32 := 0#32
  let v438 : BitVec 1 := Scalar.cmpi .slt v436 c0_i32_304
  let c0_i32_305 : BitVec 32 := 0#32
  let v439 : BitVec 1 := Scalar.cmpi .slt v435 c0_i32_305
  let v440 : BitVec 1 := Scalar.xori v438 v439
  let c0_i32_303 : BitVec 32 := 0#32
  let v437 : BitVec 1 := Scalar.cmpi .ne v436 c0_i32_303
  let v441 : BitVec 1 := Scalar.andi v440 v437
  let v442 : BitVec 32 := Scalar.addi v436 v435
  let v443 : BitVec 32 := Scalar.select v441 v442 v436
  let c1_i32_310 : BitVec 32 := 1#32
  let v445 : BitVec 32 := Scalar.muli v443 c1_i32_310
  let v446 : BitVec 32 := Scalar.addi c0_i32_311 v445
  v446.toNat
def k0_dev34 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_315 : BitVec 32 := 3#32
  let v454 : BitVec 32 := Scalar.addi v2 c3_i32_315
  let c32_i32_316 : BitVec 32 := 32#32
  let c0_i32_317 : BitVec 32 := 0#32
  let v455 : BitVec 1 := Scalar.cmpi .eq c32_i32_316 c0_i32_317
  let c1_i32_318 : BitVec 32 := 1#32
  let v456 : BitVec 32 := Scalar.select v455 c1_i32_318 c32_i32_316
  let v457 : BitVec 32 := Scalar.remsi v454 v456
  let c0_i32_320 : BitVec 32 := 0#32
  let v459 : BitVec 1 := Scalar.cmpi .slt v457 c0_i32_320
  let c0_i32_321 : BitVec 32 := 0#32
  let v460 : BitVec 1 := Scalar.cmpi .slt v456 c0_i32_321
  let v461 : BitVec 1 := Scalar.xori v459 v460
  let c0_i32_319 : BitVec 32 := 0#32
  let v458 : BitVec 1 := Scalar.cmpi .ne v457 c0_i32_319
  let v462 : BitVec 1 := Scalar.andi v461 v458
  let v463 : BitVec 32 := Scalar.addi v457 v456
  let v464 : BitVec 32 := Scalar.select v462 v463 v457
  let c1_i32_326 : BitVec 32 := 1#32
  let v466 : BitVec 32 := Scalar.muli v464 c1_i32_326
  let v467 : BitVec 32 := Scalar.addi c0_i32_327 v466
  v467.toNat
def k0_dev35 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_331 : BitVec 32 := 4#32
  let v475 : BitVec 32 := Scalar.addi v2 c4_i32_331
  let c32_i32_332 : BitVec 32 := 32#32
  let c0_i32_333 : BitVec 32 := 0#32
  let v476 : BitVec 1 := Scalar.cmpi .eq c32_i32_332 c0_i32_333
  let c1_i32_334 : BitVec 32 := 1#32
  let v477 : BitVec 32 := Scalar.select v476 c1_i32_334 c32_i32_332
  let v478 : BitVec 32 := Scalar.remsi v475 v477
  let c0_i32_336 : BitVec 32 := 0#32
  let v480 : BitVec 1 := Scalar.cmpi .slt v478 c0_i32_336
  let c0_i32_337 : BitVec 32 := 0#32
  let v481 : BitVec 1 := Scalar.cmpi .slt v477 c0_i32_337
  let v482 : BitVec 1 := Scalar.xori v480 v481
  let c0_i32_335 : BitVec 32 := 0#32
  let v479 : BitVec 1 := Scalar.cmpi .ne v478 c0_i32_335
  let v483 : BitVec 1 := Scalar.andi v482 v479
  let v484 : BitVec 32 := Scalar.addi v478 v477
  let v485 : BitVec 32 := Scalar.select v483 v484 v478
  let c1_i32_342 : BitVec 32 := 1#32
  let v487 : BitVec 32 := Scalar.muli v485 c1_i32_342
  let v488 : BitVec 32 := Scalar.addi c0_i32_343 v487
  v488.toNat
def k0_dev36 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_347 : BitVec 32 := 5#32
  let v496 : BitVec 32 := Scalar.addi v2 c5_i32_347
  let c32_i32_348 : BitVec 32 := 32#32
  let c0_i32_349 : BitVec 32 := 0#32
  let v497 : BitVec 1 := Scalar.cmpi .eq c32_i32_348 c0_i32_349
  let c1_i32_350 : BitVec 32 := 1#32
  let v498 : BitVec 32 := Scalar.select v497 c1_i32_350 c32_i32_348
  let v499 : BitVec 32 := Scalar.remsi v496 v498
  let c0_i32_352 : BitVec 32 := 0#32
  let v501 : BitVec 1 := Scalar.cmpi .slt v499 c0_i32_352
  let c0_i32_353 : BitVec 32 := 0#32
  let v502 : BitVec 1 := Scalar.cmpi .slt v498 c0_i32_353
  let v503 : BitVec 1 := Scalar.xori v501 v502
  let c0_i32_351 : BitVec 32 := 0#32
  let v500 : BitVec 1 := Scalar.cmpi .ne v499 c0_i32_351
  let v504 : BitVec 1 := Scalar.andi v503 v500
  let v505 : BitVec 32 := Scalar.addi v499 v498
  let v506 : BitVec 32 := Scalar.select v504 v505 v499
  let c1_i32_358 : BitVec 32 := 1#32
  let v508 : BitVec 32 := Scalar.muli v506 c1_i32_358
  let v509 : BitVec 32 := Scalar.addi c0_i32_359 v508
  v509.toNat
def k0_dev37 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_363 : BitVec 32 := 6#32
  let v517 : BitVec 32 := Scalar.addi v2 c6_i32_363
  let c32_i32_364 : BitVec 32 := 32#32
  let c0_i32_365 : BitVec 32 := 0#32
  let v518 : BitVec 1 := Scalar.cmpi .eq c32_i32_364 c0_i32_365
  let c1_i32_366 : BitVec 32 := 1#32
  let v519 : BitVec 32 := Scalar.select v518 c1_i32_366 c32_i32_364
  let v520 : BitVec 32 := Scalar.remsi v517 v519
  let c0_i32_368 : BitVec 32 := 0#32
  let v522 : BitVec 1 := Scalar.cmpi .slt v520 c0_i32_368
  let c0_i32_369 : BitVec 32 := 0#32
  let v523 : BitVec 1 := Scalar.cmpi .slt v519 c0_i32_369
  let v524 : BitVec 1 := Scalar.xori v522 v523
  let c0_i32_367 : BitVec 32 := 0#32
  let v521 : BitVec 1 := Scalar.cmpi .ne v520 c0_i32_367
  let v525 : BitVec 1 := Scalar.andi v524 v521
  let v526 : BitVec 32 := Scalar.addi v520 v519
  let v527 : BitVec 32 := Scalar.select v525 v526 v520
  let c1_i32_374 : BitVec 32 := 1#32
  let v529 : BitVec 32 := Scalar.muli v527 c1_i32_374
  let v530 : BitVec 32 := Scalar.addi c0_i32_375 v529
  v530.toNat
def k0_dev38 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_379 : BitVec 32 := 7#32
  let v538 : BitVec 32 := Scalar.addi v2 c7_i32_379
  let c32_i32_380 : BitVec 32 := 32#32
  let c0_i32_381 : BitVec 32 := 0#32
  let v539 : BitVec 1 := Scalar.cmpi .eq c32_i32_380 c0_i32_381
  let c1_i32_382 : BitVec 32 := 1#32
  let v540 : BitVec 32 := Scalar.select v539 c1_i32_382 c32_i32_380
  let v541 : BitVec 32 := Scalar.remsi v538 v540
  let c0_i32_384 : BitVec 32 := 0#32
  let v543 : BitVec 1 := Scalar.cmpi .slt v541 c0_i32_384
  let c0_i32_385 : BitVec 32 := 0#32
  let v544 : BitVec 1 := Scalar.cmpi .slt v540 c0_i32_385
  let v545 : BitVec 1 := Scalar.xori v543 v544
  let c0_i32_383 : BitVec 32 := 0#32
  let v542 : BitVec 1 := Scalar.cmpi .ne v541 c0_i32_383
  let v546 : BitVec 1 := Scalar.andi v545 v542
  let v547 : BitVec 32 := Scalar.addi v541 v540
  let v548 : BitVec 32 := Scalar.select v546 v547 v541
  let c1_i32_390 : BitVec 32 := 1#32
  let v550 : BitVec 32 := Scalar.muli v548 c1_i32_390
  let v551 : BitVec 32 := Scalar.addi c0_i32_391 v550
  v551.toNat
def k0_dev39 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_395 : BitVec 32 := 8#32
  let v559 : BitVec 32 := Scalar.addi v2 c8_i32_395
  let c32_i32_396 : BitVec 32 := 32#32
  let c0_i32_397 : BitVec 32 := 0#32
  let v560 : BitVec 1 := Scalar.cmpi .eq c32_i32_396 c0_i32_397
  let c1_i32_398 : BitVec 32 := 1#32
  let v561 : BitVec 32 := Scalar.select v560 c1_i32_398 c32_i32_396
  let v562 : BitVec 32 := Scalar.remsi v559 v561
  let c0_i32_400 : BitVec 32 := 0#32
  let v564 : BitVec 1 := Scalar.cmpi .slt v562 c0_i32_400
  let c0_i32_401 : BitVec 32 := 0#32
  let v565 : BitVec 1 := Scalar.cmpi .slt v561 c0_i32_401
  let v566 : BitVec 1 := Scalar.xori v564 v565
  let c0_i32_399 : BitVec 32 := 0#32
  let v563 : BitVec 1 := Scalar.cmpi .ne v562 c0_i32_399
  let v567 : BitVec 1 := Scalar.andi v566 v563
  let v568 : BitVec 32 := Scalar.addi v562 v561
  let v569 : BitVec 32 := Scalar.select v567 v568 v562
  let c1_i32_406 : BitVec 32 := 1#32
  let v571 : BitVec 32 := Scalar.muli v569 c1_i32_406
  let v572 : BitVec 32 := Scalar.addi c0_i32_407 v571
  v572.toNat
def k0_dev40 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_411 : BitVec 32 := 9#32
  let v580 : BitVec 32 := Scalar.addi v2 c9_i32_411
  let c32_i32_412 : BitVec 32 := 32#32
  let c0_i32_413 : BitVec 32 := 0#32
  let v581 : BitVec 1 := Scalar.cmpi .eq c32_i32_412 c0_i32_413
  let c1_i32_414 : BitVec 32 := 1#32
  let v582 : BitVec 32 := Scalar.select v581 c1_i32_414 c32_i32_412
  let v583 : BitVec 32 := Scalar.remsi v580 v582
  let c0_i32_416 : BitVec 32 := 0#32
  let v585 : BitVec 1 := Scalar.cmpi .slt v583 c0_i32_416
  let c0_i32_417 : BitVec 32 := 0#32
  let v586 : BitVec 1 := Scalar.cmpi .slt v582 c0_i32_417
  let v587 : BitVec 1 := Scalar.xori v585 v586
  let c0_i32_415 : BitVec 32 := 0#32
  let v584 : BitVec 1 := Scalar.cmpi .ne v583 c0_i32_415
  let v588 : BitVec 1 := Scalar.andi v587 v584
  let v589 : BitVec 32 := Scalar.addi v583 v582
  let v590 : BitVec 32 := Scalar.select v588 v589 v583
  let c1_i32_422 : BitVec 32 := 1#32
  let v592 : BitVec 32 := Scalar.muli v590 c1_i32_422
  let v593 : BitVec 32 := Scalar.addi c0_i32_423 v592
  v593.toNat
def k0_dev41 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_427 : BitVec 32 := 10#32
  let v601 : BitVec 32 := Scalar.addi v2 c10_i32_427
  let c32_i32_428 : BitVec 32 := 32#32
  let c0_i32_429 : BitVec 32 := 0#32
  let v602 : BitVec 1 := Scalar.cmpi .eq c32_i32_428 c0_i32_429
  let c1_i32_430 : BitVec 32 := 1#32
  let v603 : BitVec 32 := Scalar.select v602 c1_i32_430 c32_i32_428
  let v604 : BitVec 32 := Scalar.remsi v601 v603
  let c0_i32_432 : BitVec 32 := 0#32
  let v606 : BitVec 1 := Scalar.cmpi .slt v604 c0_i32_432
  let c0_i32_433 : BitVec 32 := 0#32
  let v607 : BitVec 1 := Scalar.cmpi .slt v603 c0_i32_433
  let v608 : BitVec 1 := Scalar.xori v606 v607
  let c0_i32_431 : BitVec 32 := 0#32
  let v605 : BitVec 1 := Scalar.cmpi .ne v604 c0_i32_431
  let v609 : BitVec 1 := Scalar.andi v608 v605
  let v610 : BitVec 32 := Scalar.addi v604 v603
  let v611 : BitVec 32 := Scalar.select v609 v610 v604
  let c1_i32_438 : BitVec 32 := 1#32
  let v613 : BitVec 32 := Scalar.muli v611 c1_i32_438
  let v614 : BitVec 32 := Scalar.addi c0_i32_439 v613
  v614.toNat
def k0_dev42 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_443 : BitVec 32 := 11#32
  let v622 : BitVec 32 := Scalar.addi v2 c11_i32_443
  let c32_i32_444 : BitVec 32 := 32#32
  let c0_i32_445 : BitVec 32 := 0#32
  let v623 : BitVec 1 := Scalar.cmpi .eq c32_i32_444 c0_i32_445
  let c1_i32_446 : BitVec 32 := 1#32
  let v624 : BitVec 32 := Scalar.select v623 c1_i32_446 c32_i32_444
  let v625 : BitVec 32 := Scalar.remsi v622 v624
  let c0_i32_448 : BitVec 32 := 0#32
  let v627 : BitVec 1 := Scalar.cmpi .slt v625 c0_i32_448
  let c0_i32_449 : BitVec 32 := 0#32
  let v628 : BitVec 1 := Scalar.cmpi .slt v624 c0_i32_449
  let v629 : BitVec 1 := Scalar.xori v627 v628
  let c0_i32_447 : BitVec 32 := 0#32
  let v626 : BitVec 1 := Scalar.cmpi .ne v625 c0_i32_447
  let v630 : BitVec 1 := Scalar.andi v629 v626
  let v631 : BitVec 32 := Scalar.addi v625 v624
  let v632 : BitVec 32 := Scalar.select v630 v631 v625
  let c1_i32_454 : BitVec 32 := 1#32
  let v634 : BitVec 32 := Scalar.muli v632 c1_i32_454
  let v635 : BitVec 32 := Scalar.addi c0_i32_455 v634
  v635.toNat
def k0_dev43 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_459 : BitVec 32 := 12#32
  let v643 : BitVec 32 := Scalar.addi v2 c12_i32_459
  let c32_i32_460 : BitVec 32 := 32#32
  let c0_i32_461 : BitVec 32 := 0#32
  let v644 : BitVec 1 := Scalar.cmpi .eq c32_i32_460 c0_i32_461
  let c1_i32_462 : BitVec 32 := 1#32
  let v645 : BitVec 32 := Scalar.select v644 c1_i32_462 c32_i32_460
  let v646 : BitVec 32 := Scalar.remsi v643 v645
  let c0_i32_464 : BitVec 32 := 0#32
  let v648 : BitVec 1 := Scalar.cmpi .slt v646 c0_i32_464
  let c0_i32_465 : BitVec 32 := 0#32
  let v649 : BitVec 1 := Scalar.cmpi .slt v645 c0_i32_465
  let v650 : BitVec 1 := Scalar.xori v648 v649
  let c0_i32_463 : BitVec 32 := 0#32
  let v647 : BitVec 1 := Scalar.cmpi .ne v646 c0_i32_463
  let v651 : BitVec 1 := Scalar.andi v650 v647
  let v652 : BitVec 32 := Scalar.addi v646 v645
  let v653 : BitVec 32 := Scalar.select v651 v652 v646
  let c1_i32_470 : BitVec 32 := 1#32
  let v655 : BitVec 32 := Scalar.muli v653 c1_i32_470
  let v656 : BitVec 32 := Scalar.addi c0_i32_471 v655
  v656.toNat
def k0_dev44 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_475 : BitVec 32 := 13#32
  let v664 : BitVec 32 := Scalar.addi v2 c13_i32_475
  let c32_i32_476 : BitVec 32 := 32#32
  let c0_i32_477 : BitVec 32 := 0#32
  let v665 : BitVec 1 := Scalar.cmpi .eq c32_i32_476 c0_i32_477
  let c1_i32_478 : BitVec 32 := 1#32
  let v666 : BitVec 32 := Scalar.select v665 c1_i32_478 c32_i32_476
  let v667 : BitVec 32 := Scalar.remsi v664 v666
  let c0_i32_480 : BitVec 32 := 0#32
  let v669 : BitVec 1 := Scalar.cmpi .slt v667 c0_i32_480
  let c0_i32_481 : BitVec 32 := 0#32
  let v670 : BitVec 1 := Scalar.cmpi .slt v666 c0_i32_481
  let v671 : BitVec 1 := Scalar.xori v669 v670
  let c0_i32_479 : BitVec 32 := 0#32
  let v668 : BitVec 1 := Scalar.cmpi .ne v667 c0_i32_479
  let v672 : BitVec 1 := Scalar.andi v671 v668
  let v673 : BitVec 32 := Scalar.addi v667 v666
  let v674 : BitVec 32 := Scalar.select v672 v673 v667
  let c1_i32_486 : BitVec 32 := 1#32
  let v676 : BitVec 32 := Scalar.muli v674 c1_i32_486
  let v677 : BitVec 32 := Scalar.addi c0_i32_487 v676
  v677.toNat
def k0_dev45 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_491 : BitVec 32 := 14#32
  let v685 : BitVec 32 := Scalar.addi v2 c14_i32_491
  let c32_i32_492 : BitVec 32 := 32#32
  let c0_i32_493 : BitVec 32 := 0#32
  let v686 : BitVec 1 := Scalar.cmpi .eq c32_i32_492 c0_i32_493
  let c1_i32_494 : BitVec 32 := 1#32
  let v687 : BitVec 32 := Scalar.select v686 c1_i32_494 c32_i32_492
  let v688 : BitVec 32 := Scalar.remsi v685 v687
  let c0_i32_496 : BitVec 32 := 0#32
  let v690 : BitVec 1 := Scalar.cmpi .slt v688 c0_i32_496
  let c0_i32_497 : BitVec 32 := 0#32
  let v691 : BitVec 1 := Scalar.cmpi .slt v687 c0_i32_497
  let v692 : BitVec 1 := Scalar.xori v690 v691
  let c0_i32_495 : BitVec 32 := 0#32
  let v689 : BitVec 1 := Scalar.cmpi .ne v688 c0_i32_495
  let v693 : BitVec 1 := Scalar.andi v692 v689
  let v694 : BitVec 32 := Scalar.addi v688 v687
  let v695 : BitVec 32 := Scalar.select v693 v694 v688
  let c1_i32_502 : BitVec 32 := 1#32
  let v697 : BitVec 32 := Scalar.muli v695 c1_i32_502
  let v698 : BitVec 32 := Scalar.addi c0_i32_503 v697
  v698.toNat
def k0_dev46 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_507 : BitVec 32 := 15#32
  let v706 : BitVec 32 := Scalar.addi v2 c15_i32_507
  let c32_i32_508 : BitVec 32 := 32#32
  let c0_i32_509 : BitVec 32 := 0#32
  let v707 : BitVec 1 := Scalar.cmpi .eq c32_i32_508 c0_i32_509
  let c1_i32_510 : BitVec 32 := 1#32
  let v708 : BitVec 32 := Scalar.select v707 c1_i32_510 c32_i32_508
  let v709 : BitVec 32 := Scalar.remsi v706 v708
  let c0_i32_512 : BitVec 32 := 0#32
  let v711 : BitVec 1 := Scalar.cmpi .slt v709 c0_i32_512
  let c0_i32_513 : BitVec 32 := 0#32
  let v712 : BitVec 1 := Scalar.cmpi .slt v708 c0_i32_513
  let v713 : BitVec 1 := Scalar.xori v711 v712
  let c0_i32_511 : BitVec 32 := 0#32
  let v710 : BitVec 1 := Scalar.cmpi .ne v709 c0_i32_511
  let v714 : BitVec 1 := Scalar.andi v713 v710
  let v715 : BitVec 32 := Scalar.addi v709 v708
  let v716 : BitVec 32 := Scalar.select v714 v715 v709
  let c1_i32_518 : BitVec 32 := 1#32
  let v718 : BitVec 32 := Scalar.muli v716 c1_i32_518
  let v719 : BitVec 32 := Scalar.addi c0_i32_519 v718
  v719.toNat
def k0_dev47 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_523 : BitVec 32 := 16#32
  let v727 : BitVec 32 := Scalar.addi v2 c16_i32_523
  let c32_i32_524 : BitVec 32 := 32#32
  let c0_i32_525 : BitVec 32 := 0#32
  let v728 : BitVec 1 := Scalar.cmpi .eq c32_i32_524 c0_i32_525
  let c1_i32_526 : BitVec 32 := 1#32
  let v729 : BitVec 32 := Scalar.select v728 c1_i32_526 c32_i32_524
  let v730 : BitVec 32 := Scalar.remsi v727 v729
  let c0_i32_528 : BitVec 32 := 0#32
  let v732 : BitVec 1 := Scalar.cmpi .slt v730 c0_i32_528
  let c0_i32_529 : BitVec 32 := 0#32
  let v733 : BitVec 1 := Scalar.cmpi .slt v729 c0_i32_529
  let v734 : BitVec 1 := Scalar.xori v732 v733
  let c0_i32_527 : BitVec 32 := 0#32
  let v731 : BitVec 1 := Scalar.cmpi .ne v730 c0_i32_527
  let v735 : BitVec 1 := Scalar.andi v734 v731
  let v736 : BitVec 32 := Scalar.addi v730 v729
  let v737 : BitVec 32 := Scalar.select v735 v736 v730
  let c1_i32_534 : BitVec 32 := 1#32
  let v739 : BitVec 32 := Scalar.muli v737 c1_i32_534
  let v740 : BitVec 32 := Scalar.addi c0_i32_535 v739
  v740.toNat
def k0_dev48 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_539 : BitVec 32 := 17#32
  let v748 : BitVec 32 := Scalar.addi v2 c17_i32_539
  let c32_i32_540 : BitVec 32 := 32#32
  let c0_i32_541 : BitVec 32 := 0#32
  let v749 : BitVec 1 := Scalar.cmpi .eq c32_i32_540 c0_i32_541
  let c1_i32_542 : BitVec 32 := 1#32
  let v750 : BitVec 32 := Scalar.select v749 c1_i32_542 c32_i32_540
  let v751 : BitVec 32 := Scalar.remsi v748 v750
  let c0_i32_544 : BitVec 32 := 0#32
  let v753 : BitVec 1 := Scalar.cmpi .slt v751 c0_i32_544
  let c0_i32_545 : BitVec 32 := 0#32
  let v754 : BitVec 1 := Scalar.cmpi .slt v750 c0_i32_545
  let v755 : BitVec 1 := Scalar.xori v753 v754
  let c0_i32_543 : BitVec 32 := 0#32
  let v752 : BitVec 1 := Scalar.cmpi .ne v751 c0_i32_543
  let v756 : BitVec 1 := Scalar.andi v755 v752
  let v757 : BitVec 32 := Scalar.addi v751 v750
  let v758 : BitVec 32 := Scalar.select v756 v757 v751
  let c1_i32_550 : BitVec 32 := 1#32
  let v760 : BitVec 32 := Scalar.muli v758 c1_i32_550
  let v761 : BitVec 32 := Scalar.addi c0_i32_551 v760
  v761.toNat
def k0_dev49 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_555 : BitVec 32 := 18#32
  let v769 : BitVec 32 := Scalar.addi v2 c18_i32_555
  let c32_i32_556 : BitVec 32 := 32#32
  let c0_i32_557 : BitVec 32 := 0#32
  let v770 : BitVec 1 := Scalar.cmpi .eq c32_i32_556 c0_i32_557
  let c1_i32_558 : BitVec 32 := 1#32
  let v771 : BitVec 32 := Scalar.select v770 c1_i32_558 c32_i32_556
  let v772 : BitVec 32 := Scalar.remsi v769 v771
  let c0_i32_560 : BitVec 32 := 0#32
  let v774 : BitVec 1 := Scalar.cmpi .slt v772 c0_i32_560
  let c0_i32_561 : BitVec 32 := 0#32
  let v775 : BitVec 1 := Scalar.cmpi .slt v771 c0_i32_561
  let v776 : BitVec 1 := Scalar.xori v774 v775
  let c0_i32_559 : BitVec 32 := 0#32
  let v773 : BitVec 1 := Scalar.cmpi .ne v772 c0_i32_559
  let v777 : BitVec 1 := Scalar.andi v776 v773
  let v778 : BitVec 32 := Scalar.addi v772 v771
  let v779 : BitVec 32 := Scalar.select v777 v778 v772
  let c1_i32_566 : BitVec 32 := 1#32
  let v781 : BitVec 32 := Scalar.muli v779 c1_i32_566
  let v782 : BitVec 32 := Scalar.addi c0_i32_567 v781
  v782.toNat
def k0_dev50 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_571 : BitVec 32 := 19#32
  let v790 : BitVec 32 := Scalar.addi v2 c19_i32_571
  let c32_i32_572 : BitVec 32 := 32#32
  let c0_i32_573 : BitVec 32 := 0#32
  let v791 : BitVec 1 := Scalar.cmpi .eq c32_i32_572 c0_i32_573
  let c1_i32_574 : BitVec 32 := 1#32
  let v792 : BitVec 32 := Scalar.select v791 c1_i32_574 c32_i32_572
  let v793 : BitVec 32 := Scalar.remsi v790 v792
  let c0_i32_576 : BitVec 32 := 0#32
  let v795 : BitVec 1 := Scalar.cmpi .slt v793 c0_i32_576
  let c0_i32_577 : BitVec 32 := 0#32
  let v796 : BitVec 1 := Scalar.cmpi .slt v792 c0_i32_577
  let v797 : BitVec 1 := Scalar.xori v795 v796
  let c0_i32_575 : BitVec 32 := 0#32
  let v794 : BitVec 1 := Scalar.cmpi .ne v793 c0_i32_575
  let v798 : BitVec 1 := Scalar.andi v797 v794
  let v799 : BitVec 32 := Scalar.addi v793 v792
  let v800 : BitVec 32 := Scalar.select v798 v799 v793
  let c1_i32_582 : BitVec 32 := 1#32
  let v802 : BitVec 32 := Scalar.muli v800 c1_i32_582
  let v803 : BitVec 32 := Scalar.addi c0_i32_583 v802
  v803.toNat
def k0_dev51 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_587 : BitVec 32 := 20#32
  let v811 : BitVec 32 := Scalar.addi v2 c20_i32_587
  let c32_i32_588 : BitVec 32 := 32#32
  let c0_i32_589 : BitVec 32 := 0#32
  let v812 : BitVec 1 := Scalar.cmpi .eq c32_i32_588 c0_i32_589
  let c1_i32_590 : BitVec 32 := 1#32
  let v813 : BitVec 32 := Scalar.select v812 c1_i32_590 c32_i32_588
  let v814 : BitVec 32 := Scalar.remsi v811 v813
  let c0_i32_592 : BitVec 32 := 0#32
  let v816 : BitVec 1 := Scalar.cmpi .slt v814 c0_i32_592
  let c0_i32_593 : BitVec 32 := 0#32
  let v817 : BitVec 1 := Scalar.cmpi .slt v813 c0_i32_593
  let v818 : BitVec 1 := Scalar.xori v816 v817
  let c0_i32_591 : BitVec 32 := 0#32
  let v815 : BitVec 1 := Scalar.cmpi .ne v814 c0_i32_591
  let v819 : BitVec 1 := Scalar.andi v818 v815
  let v820 : BitVec 32 := Scalar.addi v814 v813
  let v821 : BitVec 32 := Scalar.select v819 v820 v814
  let c1_i32_598 : BitVec 32 := 1#32
  let v823 : BitVec 32 := Scalar.muli v821 c1_i32_598
  let v824 : BitVec 32 := Scalar.addi c0_i32_599 v823
  v824.toNat
def k0_dev52 (d0 : Dev nD) : Nat :=
  let c0_i32_615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_603 : BitVec 32 := 21#32
  let v832 : BitVec 32 := Scalar.addi v2 c21_i32_603
  let c32_i32_604 : BitVec 32 := 32#32
  let c0_i32_605 : BitVec 32 := 0#32
  let v833 : BitVec 1 := Scalar.cmpi .eq c32_i32_604 c0_i32_605
  let c1_i32_606 : BitVec 32 := 1#32
  let v834 : BitVec 32 := Scalar.select v833 c1_i32_606 c32_i32_604
  let v835 : BitVec 32 := Scalar.remsi v832 v834
  let c0_i32_608 : BitVec 32 := 0#32
  let v837 : BitVec 1 := Scalar.cmpi .slt v835 c0_i32_608
  let c0_i32_609 : BitVec 32 := 0#32
  let v838 : BitVec 1 := Scalar.cmpi .slt v834 c0_i32_609
  let v839 : BitVec 1 := Scalar.xori v837 v838
  let c0_i32_607 : BitVec 32 := 0#32
  let v836 : BitVec 1 := Scalar.cmpi .ne v835 c0_i32_607
  let v840 : BitVec 1 := Scalar.andi v839 v836
  let v841 : BitVec 32 := Scalar.addi v835 v834
  let v842 : BitVec 32 := Scalar.select v840 v841 v835
  let c1_i32_614 : BitVec 32 := 1#32
  let v844 : BitVec 32 := Scalar.muli v842 c1_i32_614
  let v845 : BitVec 32 := Scalar.addi c0_i32_615 v844
  v845.toNat
def k0_dev53 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_619 : BitVec 32 := 22#32
  let v853 : BitVec 32 := Scalar.addi v2 c22_i32_619
  let c32_i32_620 : BitVec 32 := 32#32
  let c0_i32_621 : BitVec 32 := 0#32
  let v854 : BitVec 1 := Scalar.cmpi .eq c32_i32_620 c0_i32_621
  let c1_i32_622 : BitVec 32 := 1#32
  let v855 : BitVec 32 := Scalar.select v854 c1_i32_622 c32_i32_620
  let v856 : BitVec 32 := Scalar.remsi v853 v855
  let c0_i32_624 : BitVec 32 := 0#32
  let v858 : BitVec 1 := Scalar.cmpi .slt v856 c0_i32_624
  let c0_i32_625 : BitVec 32 := 0#32
  let v859 : BitVec 1 := Scalar.cmpi .slt v855 c0_i32_625
  let v860 : BitVec 1 := Scalar.xori v858 v859
  let c0_i32_623 : BitVec 32 := 0#32
  let v857 : BitVec 1 := Scalar.cmpi .ne v856 c0_i32_623
  let v861 : BitVec 1 := Scalar.andi v860 v857
  let v862 : BitVec 32 := Scalar.addi v856 v855
  let v863 : BitVec 32 := Scalar.select v861 v862 v856
  let c1_i32_630 : BitVec 32 := 1#32
  let v865 : BitVec 32 := Scalar.muli v863 c1_i32_630
  let v866 : BitVec 32 := Scalar.addi c0_i32_631 v865
  v866.toNat
def k0_dev54 (d0 : Dev nD) : Nat :=
  let c0_i32_647 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_635 : BitVec 32 := 23#32
  let v874 : BitVec 32 := Scalar.addi v2 c23_i32_635
  let c32_i32_636 : BitVec 32 := 32#32
  let c0_i32_637 : BitVec 32 := 0#32
  let v875 : BitVec 1 := Scalar.cmpi .eq c32_i32_636 c0_i32_637
  let c1_i32_638 : BitVec 32 := 1#32
  let v876 : BitVec 32 := Scalar.select v875 c1_i32_638 c32_i32_636
  let v877 : BitVec 32 := Scalar.remsi v874 v876
  let c0_i32_640 : BitVec 32 := 0#32
  let v879 : BitVec 1 := Scalar.cmpi .slt v877 c0_i32_640
  let c0_i32_641 : BitVec 32 := 0#32
  let v880 : BitVec 1 := Scalar.cmpi .slt v876 c0_i32_641
  let v881 : BitVec 1 := Scalar.xori v879 v880
  let c0_i32_639 : BitVec 32 := 0#32
  let v878 : BitVec 1 := Scalar.cmpi .ne v877 c0_i32_639
  let v882 : BitVec 1 := Scalar.andi v881 v878
  let v883 : BitVec 32 := Scalar.addi v877 v876
  let v884 : BitVec 32 := Scalar.select v882 v883 v877
  let c1_i32_646 : BitVec 32 := 1#32
  let v886 : BitVec 32 := Scalar.muli v884 c1_i32_646
  let v887 : BitVec 32 := Scalar.addi c0_i32_647 v886
  v887.toNat
def k0_dev55 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_651 : BitVec 32 := 24#32
  let v895 : BitVec 32 := Scalar.addi v2 c24_i32_651
  let c32_i32_652 : BitVec 32 := 32#32
  let c0_i32_653 : BitVec 32 := 0#32
  let v896 : BitVec 1 := Scalar.cmpi .eq c32_i32_652 c0_i32_653
  let c1_i32_654 : BitVec 32 := 1#32
  let v897 : BitVec 32 := Scalar.select v896 c1_i32_654 c32_i32_652
  let v898 : BitVec 32 := Scalar.remsi v895 v897
  let c0_i32_656 : BitVec 32 := 0#32
  let v900 : BitVec 1 := Scalar.cmpi .slt v898 c0_i32_656
  let c0_i32_657 : BitVec 32 := 0#32
  let v901 : BitVec 1 := Scalar.cmpi .slt v897 c0_i32_657
  let v902 : BitVec 1 := Scalar.xori v900 v901
  let c0_i32_655 : BitVec 32 := 0#32
  let v899 : BitVec 1 := Scalar.cmpi .ne v898 c0_i32_655
  let v903 : BitVec 1 := Scalar.andi v902 v899
  let v904 : BitVec 32 := Scalar.addi v898 v897
  let v905 : BitVec 32 := Scalar.select v903 v904 v898
  let c1_i32_662 : BitVec 32 := 1#32
  let v907 : BitVec 32 := Scalar.muli v905 c1_i32_662
  let v908 : BitVec 32 := Scalar.addi c0_i32_663 v907
  v908.toNat
def k0_dev56 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_667 : BitVec 32 := 25#32
  let v916 : BitVec 32 := Scalar.addi v2 c25_i32_667
  let c32_i32_668 : BitVec 32 := 32#32
  let c0_i32_669 : BitVec 32 := 0#32
  let v917 : BitVec 1 := Scalar.cmpi .eq c32_i32_668 c0_i32_669
  let c1_i32_670 : BitVec 32 := 1#32
  let v918 : BitVec 32 := Scalar.select v917 c1_i32_670 c32_i32_668
  let v919 : BitVec 32 := Scalar.remsi v916 v918
  let c0_i32_672 : BitVec 32 := 0#32
  let v921 : BitVec 1 := Scalar.cmpi .slt v919 c0_i32_672
  let c0_i32_673 : BitVec 32 := 0#32
  let v922 : BitVec 1 := Scalar.cmpi .slt v918 c0_i32_673
  let v923 : BitVec 1 := Scalar.xori v921 v922
  let c0_i32_671 : BitVec 32 := 0#32
  let v920 : BitVec 1 := Scalar.cmpi .ne v919 c0_i32_671
  let v924 : BitVec 1 := Scalar.andi v923 v920
  let v925 : BitVec 32 := Scalar.addi v919 v918
  let v926 : BitVec 32 := Scalar.select v924 v925 v919
  let c1_i32_678 : BitVec 32 := 1#32
  let v928 : BitVec 32 := Scalar.muli v926 c1_i32_678
  let v929 : BitVec 32 := Scalar.addi c0_i32_679 v928
  v929.toNat
def k0_dev57 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_683 : BitVec 32 := 26#32
  let v937 : BitVec 32 := Scalar.addi v2 c26_i32_683
  let c32_i32_684 : BitVec 32 := 32#32
  let c0_i32_685 : BitVec 32 := 0#32
  let v938 : BitVec 1 := Scalar.cmpi .eq c32_i32_684 c0_i32_685
  let c1_i32_686 : BitVec 32 := 1#32
  let v939 : BitVec 32 := Scalar.select v938 c1_i32_686 c32_i32_684
  let v940 : BitVec 32 := Scalar.remsi v937 v939
  let c0_i32_688 : BitVec 32 := 0#32
  let v942 : BitVec 1 := Scalar.cmpi .slt v940 c0_i32_688
  let c0_i32_689 : BitVec 32 := 0#32
  let v943 : BitVec 1 := Scalar.cmpi .slt v939 c0_i32_689
  let v944 : BitVec 1 := Scalar.xori v942 v943
  let c0_i32_687 : BitVec 32 := 0#32
  let v941 : BitVec 1 := Scalar.cmpi .ne v940 c0_i32_687
  let v945 : BitVec 1 := Scalar.andi v944 v941
  let v946 : BitVec 32 := Scalar.addi v940 v939
  let v947 : BitVec 32 := Scalar.select v945 v946 v940
  let c1_i32_694 : BitVec 32 := 1#32
  let v949 : BitVec 32 := Scalar.muli v947 c1_i32_694
  let v950 : BitVec 32 := Scalar.addi c0_i32_695 v949
  v950.toNat
def k0_dev58 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_699 : BitVec 32 := 27#32
  let v958 : BitVec 32 := Scalar.addi v2 c27_i32_699
  let c32_i32_700 : BitVec 32 := 32#32
  let c0_i32_701 : BitVec 32 := 0#32
  let v959 : BitVec 1 := Scalar.cmpi .eq c32_i32_700 c0_i32_701
  let c1_i32_702 : BitVec 32 := 1#32
  let v960 : BitVec 32 := Scalar.select v959 c1_i32_702 c32_i32_700
  let v961 : BitVec 32 := Scalar.remsi v958 v960
  let c0_i32_704 : BitVec 32 := 0#32
  let v963 : BitVec 1 := Scalar.cmpi .slt v961 c0_i32_704
  let c0_i32_705 : BitVec 32 := 0#32
  let v964 : BitVec 1 := Scalar.cmpi .slt v960 c0_i32_705
  let v965 : BitVec 1 := Scalar.xori v963 v964
  let c0_i32_703 : BitVec 32 := 0#32
  let v962 : BitVec 1 := Scalar.cmpi .ne v961 c0_i32_703
  let v966 : BitVec 1 := Scalar.andi v965 v962
  let v967 : BitVec 32 := Scalar.addi v961 v960
  let v968 : BitVec 32 := Scalar.select v966 v967 v961
  let c1_i32_710 : BitVec 32 := 1#32
  let v970 : BitVec 32 := Scalar.muli v968 c1_i32_710
  let v971 : BitVec 32 := Scalar.addi c0_i32_711 v970
  v971.toNat
def k0_dev59 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_715 : BitVec 32 := 28#32
  let v979 : BitVec 32 := Scalar.addi v2 c28_i32_715
  let c32_i32_716 : BitVec 32 := 32#32
  let c0_i32_717 : BitVec 32 := 0#32
  let v980 : BitVec 1 := Scalar.cmpi .eq c32_i32_716 c0_i32_717
  let c1_i32_718 : BitVec 32 := 1#32
  let v981 : BitVec 32 := Scalar.select v980 c1_i32_718 c32_i32_716
  let v982 : BitVec 32 := Scalar.remsi v979 v981
  let c0_i32_720 : BitVec 32 := 0#32
  let v984 : BitVec 1 := Scalar.cmpi .slt v982 c0_i32_720
  let c0_i32_721 : BitVec 32 := 0#32
  let v985 : BitVec 1 := Scalar.cmpi .slt v981 c0_i32_721
  let v986 : BitVec 1 := Scalar.xori v984 v985
  let c0_i32_719 : BitVec 32 := 0#32
  let v983 : BitVec 1 := Scalar.cmpi .ne v982 c0_i32_719
  let v987 : BitVec 1 := Scalar.andi v986 v983
  let v988 : BitVec 32 := Scalar.addi v982 v981
  let v989 : BitVec 32 := Scalar.select v987 v988 v982
  let c1_i32_726 : BitVec 32 := 1#32
  let v991 : BitVec 32 := Scalar.muli v989 c1_i32_726
  let v992 : BitVec 32 := Scalar.addi c0_i32_727 v991
  v992.toNat
def k0_dev60 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_731 : BitVec 32 := 29#32
  let v1000 : BitVec 32 := Scalar.addi v2 c29_i32_731
  let c32_i32_732 : BitVec 32 := 32#32
  let c0_i32_733 : BitVec 32 := 0#32
  let v1001 : BitVec 1 := Scalar.cmpi .eq c32_i32_732 c0_i32_733
  let c1_i32_734 : BitVec 32 := 1#32
  let v1002 : BitVec 32 := Scalar.select v1001 c1_i32_734 c32_i32_732
  let v1003 : BitVec 32 := Scalar.remsi v1000 v1002
  let c0_i32_736 : BitVec 32 := 0#32
  let v1005 : BitVec 1 := Scalar.cmpi .slt v1003 c0_i32_736
  let c0_i32_737 : BitVec 32 := 0#32
  let v1006 : BitVec 1 := Scalar.cmpi .slt v1002 c0_i32_737
  let v1007 : BitVec 1 := Scalar.xori v1005 v1006
  let c0_i32_735 : BitVec 32 := 0#32
  let v1004 : BitVec 1 := Scalar.cmpi .ne v1003 c0_i32_735
  let v1008 : BitVec 1 := Scalar.andi v1007 v1004
  let v1009 : BitVec 32 := Scalar.addi v1003 v1002
  let v1010 : BitVec 32 := Scalar.select v1008 v1009 v1003
  let c1_i32_742 : BitVec 32 := 1#32
  let v1012 : BitVec 32 := Scalar.muli v1010 c1_i32_742
  let v1013 : BitVec 32 := Scalar.addi c0_i32_743 v1012
  v1013.toNat
def k0_dev61 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_747 : BitVec 32 := 30#32
  let v1021 : BitVec 32 := Scalar.addi v2 c30_i32_747
  let c32_i32_748 : BitVec 32 := 32#32
  let c0_i32_749 : BitVec 32 := 0#32
  let v1022 : BitVec 1 := Scalar.cmpi .eq c32_i32_748 c0_i32_749
  let c1_i32_750 : BitVec 32 := 1#32
  let v1023 : BitVec 32 := Scalar.select v1022 c1_i32_750 c32_i32_748
  let v1024 : BitVec 32 := Scalar.remsi v1021 v1023
  let c0_i32_752 : BitVec 32 := 0#32
  let v1026 : BitVec 1 := Scalar.cmpi .slt v1024 c0_i32_752
  let c0_i32_753 : BitVec 32 := 0#32
  let v1027 : BitVec 1 := Scalar.cmpi .slt v1023 c0_i32_753
  let v1028 : BitVec 1 := Scalar.xori v1026 v1027
  let c0_i32_751 : BitVec 32 := 0#32
  let v1025 : BitVec 1 := Scalar.cmpi .ne v1024 c0_i32_751
  let v1029 : BitVec 1 := Scalar.andi v1028 v1025
  let v1030 : BitVec 32 := Scalar.addi v1024 v1023
  let v1031 : BitVec 32 := Scalar.select v1029 v1030 v1024
  let c1_i32_758 : BitVec 32 := 1#32
  let v1033 : BitVec 32 := Scalar.muli v1031 c1_i32_758
  let v1034 : BitVec 32 := Scalar.addi c0_i32_759 v1033
  v1034.toNat
def k0_dev62 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_763 : BitVec 32 := 31#32
  let v1042 : BitVec 32 := Scalar.addi v2 c31_i32_763
  let c32_i32_764 : BitVec 32 := 32#32
  let c0_i32_765 : BitVec 32 := 0#32
  let v1043 : BitVec 1 := Scalar.cmpi .eq c32_i32_764 c0_i32_765
  let c1_i32_766 : BitVec 32 := 1#32
  let v1044 : BitVec 32 := Scalar.select v1043 c1_i32_766 c32_i32_764
  let v1045 : BitVec 32 := Scalar.remsi v1042 v1044
  let c0_i32_768 : BitVec 32 := 0#32
  let v1047 : BitVec 1 := Scalar.cmpi .slt v1045 c0_i32_768
  let c0_i32_769 : BitVec 32 := 0#32
  let v1048 : BitVec 1 := Scalar.cmpi .slt v1044 c0_i32_769
  let v1049 : BitVec 1 := Scalar.xori v1047 v1048
  let c0_i32_767 : BitVec 32 := 0#32
  let v1046 : BitVec 1 := Scalar.cmpi .ne v1045 c0_i32_767
  let v1050 : BitVec 1 := Scalar.andi v1049 v1046
  let v1051 : BitVec 32 := Scalar.addi v1045 v1044
  let v1052 : BitVec 32 := Scalar.select v1050 v1051 v1045
  let c1_i32_774 : BitVec 32 := 1#32
  let v1054 : BitVec 32 := Scalar.muli v1052 c1_i32_774
  let v1055 : BitVec 32 := Scalar.addi c0_i32_775 v1054
  v1055.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_779 : BitVec 32 := 16#32
  let v1063 : BitVec 32 := Scalar.muli v2 c16_i32_779
  let v1064 : Index := Scalar.indexCast v1063
  let c0_780 : Index := 0#32
  ![v1064.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1096 : BitVec 32 := 16#32
  let v1422 : BitVec 32 := Scalar.muli v2 c16_i32_1096
  let c0_i32_1099 : BitVec 32 := 0#32
  ![v1422.toNat, 0]
def k0_dev63 (d0 : Dev nD) : Nat :=
  let c0_i32_1113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1102 : BitVec 32 := 1#32
  let v1428 : BitVec 32 := Scalar.addi v2 c1_i32_1102
  let c32_i32_1103 : BitVec 32 := 32#32
  let c0_i32_1104 : BitVec 32 := 0#32
  let v1429 : BitVec 1 := Scalar.cmpi .eq c32_i32_1103 c0_i32_1104
  let c1_i32_1105 : BitVec 32 := 1#32
  let v1430 : BitVec 32 := Scalar.select v1429 c1_i32_1105 c32_i32_1103
  let v1431 : BitVec 32 := Scalar.remsi v1428 v1430
  let c0_i32_1107 : BitVec 32 := 0#32
  let v1433 : BitVec 1 := Scalar.cmpi .slt v1431 c0_i32_1107
  let c0_i32_1108 : BitVec 32 := 0#32
  let v1434 : BitVec 1 := Scalar.cmpi .slt v1430 c0_i32_1108
  let v1435 : BitVec 1 := Scalar.xori v1433 v1434
  let c0_i32_1106 : BitVec 32 := 0#32
  let v1432 : BitVec 1 := Scalar.cmpi .ne v1431 c0_i32_1106
  let v1436 : BitVec 1 := Scalar.andi v1435 v1432
  let v1437 : BitVec 32 := Scalar.addi v1431 v1430
  let v1438 : BitVec 32 := Scalar.select v1436 v1437 v1431
  let c1_i32_1112 : BitVec 32 := 1#32
  let v1439 : BitVec 32 := Scalar.muli v1438 c1_i32_1112
  let v1440 : BitVec 32 := Scalar.addi c0_i32_1113 v1439
  v1440.toNat
def k0_dev64 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1116 : BitVec 32 := 2#32
  let v1447 : BitVec 32 := Scalar.addi v2 c2_i32_1116
  let c32_i32_1117 : BitVec 32 := 32#32
  let c0_i32_1118 : BitVec 32 := 0#32
  let v1448 : BitVec 1 := Scalar.cmpi .eq c32_i32_1117 c0_i32_1118
  let c1_i32_1119 : BitVec 32 := 1#32
  let v1449 : BitVec 32 := Scalar.select v1448 c1_i32_1119 c32_i32_1117
  let v1450 : BitVec 32 := Scalar.remsi v1447 v1449
  let c0_i32_1121 : BitVec 32 := 0#32
  let v1452 : BitVec 1 := Scalar.cmpi .slt v1450 c0_i32_1121
  let c0_i32_1122 : BitVec 32 := 0#32
  let v1453 : BitVec 1 := Scalar.cmpi .slt v1449 c0_i32_1122
  let v1454 : BitVec 1 := Scalar.xori v1452 v1453
  let c0_i32_1120 : BitVec 32 := 0#32
  let v1451 : BitVec 1 := Scalar.cmpi .ne v1450 c0_i32_1120
  let v1455 : BitVec 1 := Scalar.andi v1454 v1451
  let v1456 : BitVec 32 := Scalar.addi v1450 v1449
  let v1457 : BitVec 32 := Scalar.select v1455 v1456 v1450
  let c1_i32_1126 : BitVec 32 := 1#32
  let v1458 : BitVec 32 := Scalar.muli v1457 c1_i32_1126
  let v1459 : BitVec 32 := Scalar.addi c0_i32_1127 v1458
  v1459.toNat
def k0_dev65 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1130 : BitVec 32 := 3#32
  let v1466 : BitVec 32 := Scalar.addi v2 c3_i32_1130
  let c32_i32_1131 : BitVec 32 := 32#32
  let c0_i32_1132 : BitVec 32 := 0#32
  let v1467 : BitVec 1 := Scalar.cmpi .eq c32_i32_1131 c0_i32_1132
  let c1_i32_1133 : BitVec 32 := 1#32
  let v1468 : BitVec 32 := Scalar.select v1467 c1_i32_1133 c32_i32_1131
  let v1469 : BitVec 32 := Scalar.remsi v1466 v1468
  let c0_i32_1135 : BitVec 32 := 0#32
  let v1471 : BitVec 1 := Scalar.cmpi .slt v1469 c0_i32_1135
  let c0_i32_1136 : BitVec 32 := 0#32
  let v1472 : BitVec 1 := Scalar.cmpi .slt v1468 c0_i32_1136
  let v1473 : BitVec 1 := Scalar.xori v1471 v1472
  let c0_i32_1134 : BitVec 32 := 0#32
  let v1470 : BitVec 1 := Scalar.cmpi .ne v1469 c0_i32_1134
  let v1474 : BitVec 1 := Scalar.andi v1473 v1470
  let v1475 : BitVec 32 := Scalar.addi v1469 v1468
  let v1476 : BitVec 32 := Scalar.select v1474 v1475 v1469
  let c1_i32_1140 : BitVec 32 := 1#32
  let v1477 : BitVec 32 := Scalar.muli v1476 c1_i32_1140
  let v1478 : BitVec 32 := Scalar.addi c0_i32_1141 v1477
  v1478.toNat
def k0_dev66 (d0 : Dev nD) : Nat :=
  let c0_i32_1155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1144 : BitVec 32 := 4#32
  let v1485 : BitVec 32 := Scalar.addi v2 c4_i32_1144
  let c32_i32_1145 : BitVec 32 := 32#32
  let c0_i32_1146 : BitVec 32 := 0#32
  let v1486 : BitVec 1 := Scalar.cmpi .eq c32_i32_1145 c0_i32_1146
  let c1_i32_1147 : BitVec 32 := 1#32
  let v1487 : BitVec 32 := Scalar.select v1486 c1_i32_1147 c32_i32_1145
  let v1488 : BitVec 32 := Scalar.remsi v1485 v1487
  let c0_i32_1149 : BitVec 32 := 0#32
  let v1490 : BitVec 1 := Scalar.cmpi .slt v1488 c0_i32_1149
  let c0_i32_1150 : BitVec 32 := 0#32
  let v1491 : BitVec 1 := Scalar.cmpi .slt v1487 c0_i32_1150
  let v1492 : BitVec 1 := Scalar.xori v1490 v1491
  let c0_i32_1148 : BitVec 32 := 0#32
  let v1489 : BitVec 1 := Scalar.cmpi .ne v1488 c0_i32_1148
  let v1493 : BitVec 1 := Scalar.andi v1492 v1489
  let v1494 : BitVec 32 := Scalar.addi v1488 v1487
  let v1495 : BitVec 32 := Scalar.select v1493 v1494 v1488
  let c1_i32_1154 : BitVec 32 := 1#32
  let v1496 : BitVec 32 := Scalar.muli v1495 c1_i32_1154
  let v1497 : BitVec 32 := Scalar.addi c0_i32_1155 v1496
  v1497.toNat
def k0_dev67 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1158 : BitVec 32 := 5#32
  let v1504 : BitVec 32 := Scalar.addi v2 c5_i32_1158
  let c32_i32_1159 : BitVec 32 := 32#32
  let c0_i32_1160 : BitVec 32 := 0#32
  let v1505 : BitVec 1 := Scalar.cmpi .eq c32_i32_1159 c0_i32_1160
  let c1_i32_1161 : BitVec 32 := 1#32
  let v1506 : BitVec 32 := Scalar.select v1505 c1_i32_1161 c32_i32_1159
  let v1507 : BitVec 32 := Scalar.remsi v1504 v1506
  let c0_i32_1163 : BitVec 32 := 0#32
  let v1509 : BitVec 1 := Scalar.cmpi .slt v1507 c0_i32_1163
  let c0_i32_1164 : BitVec 32 := 0#32
  let v1510 : BitVec 1 := Scalar.cmpi .slt v1506 c0_i32_1164
  let v1511 : BitVec 1 := Scalar.xori v1509 v1510
  let c0_i32_1162 : BitVec 32 := 0#32
  let v1508 : BitVec 1 := Scalar.cmpi .ne v1507 c0_i32_1162
  let v1512 : BitVec 1 := Scalar.andi v1511 v1508
  let v1513 : BitVec 32 := Scalar.addi v1507 v1506
  let v1514 : BitVec 32 := Scalar.select v1512 v1513 v1507
  let c1_i32_1168 : BitVec 32 := 1#32
  let v1515 : BitVec 32 := Scalar.muli v1514 c1_i32_1168
  let v1516 : BitVec 32 := Scalar.addi c0_i32_1169 v1515
  v1516.toNat
def k0_dev68 (d0 : Dev nD) : Nat :=
  let c0_i32_1183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1172 : BitVec 32 := 6#32
  let v1523 : BitVec 32 := Scalar.addi v2 c6_i32_1172
  let c32_i32_1173 : BitVec 32 := 32#32
  let c0_i32_1174 : BitVec 32 := 0#32
  let v1524 : BitVec 1 := Scalar.cmpi .eq c32_i32_1173 c0_i32_1174
  let c1_i32_1175 : BitVec 32 := 1#32
  let v1525 : BitVec 32 := Scalar.select v1524 c1_i32_1175 c32_i32_1173
  let v1526 : BitVec 32 := Scalar.remsi v1523 v1525
  let c0_i32_1177 : BitVec 32 := 0#32
  let v1528 : BitVec 1 := Scalar.cmpi .slt v1526 c0_i32_1177
  let c0_i32_1178 : BitVec 32 := 0#32
  let v1529 : BitVec 1 := Scalar.cmpi .slt v1525 c0_i32_1178
  let v1530 : BitVec 1 := Scalar.xori v1528 v1529
  let c0_i32_1176 : BitVec 32 := 0#32
  let v1527 : BitVec 1 := Scalar.cmpi .ne v1526 c0_i32_1176
  let v1531 : BitVec 1 := Scalar.andi v1530 v1527
  let v1532 : BitVec 32 := Scalar.addi v1526 v1525
  let v1533 : BitVec 32 := Scalar.select v1531 v1532 v1526
  let c1_i32_1182 : BitVec 32 := 1#32
  let v1534 : BitVec 32 := Scalar.muli v1533 c1_i32_1182
  let v1535 : BitVec 32 := Scalar.addi c0_i32_1183 v1534
  v1535.toNat
def k0_dev69 (d0 : Dev nD) : Nat :=
  let c0_i32_1197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1186 : BitVec 32 := 7#32
  let v1542 : BitVec 32 := Scalar.addi v2 c7_i32_1186
  let c32_i32_1187 : BitVec 32 := 32#32
  let c0_i32_1188 : BitVec 32 := 0#32
  let v1543 : BitVec 1 := Scalar.cmpi .eq c32_i32_1187 c0_i32_1188
  let c1_i32_1189 : BitVec 32 := 1#32
  let v1544 : BitVec 32 := Scalar.select v1543 c1_i32_1189 c32_i32_1187
  let v1545 : BitVec 32 := Scalar.remsi v1542 v1544
  let c0_i32_1191 : BitVec 32 := 0#32
  let v1547 : BitVec 1 := Scalar.cmpi .slt v1545 c0_i32_1191
  let c0_i32_1192 : BitVec 32 := 0#32
  let v1548 : BitVec 1 := Scalar.cmpi .slt v1544 c0_i32_1192
  let v1549 : BitVec 1 := Scalar.xori v1547 v1548
  let c0_i32_1190 : BitVec 32 := 0#32
  let v1546 : BitVec 1 := Scalar.cmpi .ne v1545 c0_i32_1190
  let v1550 : BitVec 1 := Scalar.andi v1549 v1546
  let v1551 : BitVec 32 := Scalar.addi v1545 v1544
  let v1552 : BitVec 32 := Scalar.select v1550 v1551 v1545
  let c1_i32_1196 : BitVec 32 := 1#32
  let v1553 : BitVec 32 := Scalar.muli v1552 c1_i32_1196
  let v1554 : BitVec 32 := Scalar.addi c0_i32_1197 v1553
  v1554.toNat
def k0_dev70 (d0 : Dev nD) : Nat :=
  let c0_i32_1211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1200 : BitVec 32 := 8#32
  let v1561 : BitVec 32 := Scalar.addi v2 c8_i32_1200
  let c32_i32_1201 : BitVec 32 := 32#32
  let c0_i32_1202 : BitVec 32 := 0#32
  let v1562 : BitVec 1 := Scalar.cmpi .eq c32_i32_1201 c0_i32_1202
  let c1_i32_1203 : BitVec 32 := 1#32
  let v1563 : BitVec 32 := Scalar.select v1562 c1_i32_1203 c32_i32_1201
  let v1564 : BitVec 32 := Scalar.remsi v1561 v1563
  let c0_i32_1205 : BitVec 32 := 0#32
  let v1566 : BitVec 1 := Scalar.cmpi .slt v1564 c0_i32_1205
  let c0_i32_1206 : BitVec 32 := 0#32
  let v1567 : BitVec 1 := Scalar.cmpi .slt v1563 c0_i32_1206
  let v1568 : BitVec 1 := Scalar.xori v1566 v1567
  let c0_i32_1204 : BitVec 32 := 0#32
  let v1565 : BitVec 1 := Scalar.cmpi .ne v1564 c0_i32_1204
  let v1569 : BitVec 1 := Scalar.andi v1568 v1565
  let v1570 : BitVec 32 := Scalar.addi v1564 v1563
  let v1571 : BitVec 32 := Scalar.select v1569 v1570 v1564
  let c1_i32_1210 : BitVec 32 := 1#32
  let v1572 : BitVec 32 := Scalar.muli v1571 c1_i32_1210
  let v1573 : BitVec 32 := Scalar.addi c0_i32_1211 v1572
  v1573.toNat
def k0_dev71 (d0 : Dev nD) : Nat :=
  let c0_i32_1225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1214 : BitVec 32 := 9#32
  let v1580 : BitVec 32 := Scalar.addi v2 c9_i32_1214
  let c32_i32_1215 : BitVec 32 := 32#32
  let c0_i32_1216 : BitVec 32 := 0#32
  let v1581 : BitVec 1 := Scalar.cmpi .eq c32_i32_1215 c0_i32_1216
  let c1_i32_1217 : BitVec 32 := 1#32
  let v1582 : BitVec 32 := Scalar.select v1581 c1_i32_1217 c32_i32_1215
  let v1583 : BitVec 32 := Scalar.remsi v1580 v1582
  let c0_i32_1219 : BitVec 32 := 0#32
  let v1585 : BitVec 1 := Scalar.cmpi .slt v1583 c0_i32_1219
  let c0_i32_1220 : BitVec 32 := 0#32
  let v1586 : BitVec 1 := Scalar.cmpi .slt v1582 c0_i32_1220
  let v1587 : BitVec 1 := Scalar.xori v1585 v1586
  let c0_i32_1218 : BitVec 32 := 0#32
  let v1584 : BitVec 1 := Scalar.cmpi .ne v1583 c0_i32_1218
  let v1588 : BitVec 1 := Scalar.andi v1587 v1584
  let v1589 : BitVec 32 := Scalar.addi v1583 v1582
  let v1590 : BitVec 32 := Scalar.select v1588 v1589 v1583
  let c1_i32_1224 : BitVec 32 := 1#32
  let v1591 : BitVec 32 := Scalar.muli v1590 c1_i32_1224
  let v1592 : BitVec 32 := Scalar.addi c0_i32_1225 v1591
  v1592.toNat
def k0_dev72 (d0 : Dev nD) : Nat :=
  let c0_i32_1239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1228 : BitVec 32 := 10#32
  let v1599 : BitVec 32 := Scalar.addi v2 c10_i32_1228
  let c32_i32_1229 : BitVec 32 := 32#32
  let c0_i32_1230 : BitVec 32 := 0#32
  let v1600 : BitVec 1 := Scalar.cmpi .eq c32_i32_1229 c0_i32_1230
  let c1_i32_1231 : BitVec 32 := 1#32
  let v1601 : BitVec 32 := Scalar.select v1600 c1_i32_1231 c32_i32_1229
  let v1602 : BitVec 32 := Scalar.remsi v1599 v1601
  let c0_i32_1233 : BitVec 32 := 0#32
  let v1604 : BitVec 1 := Scalar.cmpi .slt v1602 c0_i32_1233
  let c0_i32_1234 : BitVec 32 := 0#32
  let v1605 : BitVec 1 := Scalar.cmpi .slt v1601 c0_i32_1234
  let v1606 : BitVec 1 := Scalar.xori v1604 v1605
  let c0_i32_1232 : BitVec 32 := 0#32
  let v1603 : BitVec 1 := Scalar.cmpi .ne v1602 c0_i32_1232
  let v1607 : BitVec 1 := Scalar.andi v1606 v1603
  let v1608 : BitVec 32 := Scalar.addi v1602 v1601
  let v1609 : BitVec 32 := Scalar.select v1607 v1608 v1602
  let c1_i32_1238 : BitVec 32 := 1#32
  let v1610 : BitVec 32 := Scalar.muli v1609 c1_i32_1238
  let v1611 : BitVec 32 := Scalar.addi c0_i32_1239 v1610
  v1611.toNat
def k0_dev73 (d0 : Dev nD) : Nat :=
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1242 : BitVec 32 := 11#32
  let v1618 : BitVec 32 := Scalar.addi v2 c11_i32_1242
  let c32_i32_1243 : BitVec 32 := 32#32
  let c0_i32_1244 : BitVec 32 := 0#32
  let v1619 : BitVec 1 := Scalar.cmpi .eq c32_i32_1243 c0_i32_1244
  let c1_i32_1245 : BitVec 32 := 1#32
  let v1620 : BitVec 32 := Scalar.select v1619 c1_i32_1245 c32_i32_1243
  let v1621 : BitVec 32 := Scalar.remsi v1618 v1620
  let c0_i32_1247 : BitVec 32 := 0#32
  let v1623 : BitVec 1 := Scalar.cmpi .slt v1621 c0_i32_1247
  let c0_i32_1248 : BitVec 32 := 0#32
  let v1624 : BitVec 1 := Scalar.cmpi .slt v1620 c0_i32_1248
  let v1625 : BitVec 1 := Scalar.xori v1623 v1624
  let c0_i32_1246 : BitVec 32 := 0#32
  let v1622 : BitVec 1 := Scalar.cmpi .ne v1621 c0_i32_1246
  let v1626 : BitVec 1 := Scalar.andi v1625 v1622
  let v1627 : BitVec 32 := Scalar.addi v1621 v1620
  let v1628 : BitVec 32 := Scalar.select v1626 v1627 v1621
  let c1_i32_1252 : BitVec 32 := 1#32
  let v1629 : BitVec 32 := Scalar.muli v1628 c1_i32_1252
  let v1630 : BitVec 32 := Scalar.addi c0_i32_1253 v1629
  v1630.toNat
def k0_dev74 (d0 : Dev nD) : Nat :=
  let c0_i32_1267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1256 : BitVec 32 := 12#32
  let v1637 : BitVec 32 := Scalar.addi v2 c12_i32_1256
  let c32_i32_1257 : BitVec 32 := 32#32
  let c0_i32_1258 : BitVec 32 := 0#32
  let v1638 : BitVec 1 := Scalar.cmpi .eq c32_i32_1257 c0_i32_1258
  let c1_i32_1259 : BitVec 32 := 1#32
  let v1639 : BitVec 32 := Scalar.select v1638 c1_i32_1259 c32_i32_1257
  let v1640 : BitVec 32 := Scalar.remsi v1637 v1639
  let c0_i32_1261 : BitVec 32 := 0#32
  let v1642 : BitVec 1 := Scalar.cmpi .slt v1640 c0_i32_1261
  let c0_i32_1262 : BitVec 32 := 0#32
  let v1643 : BitVec 1 := Scalar.cmpi .slt v1639 c0_i32_1262
  let v1644 : BitVec 1 := Scalar.xori v1642 v1643
  let c0_i32_1260 : BitVec 32 := 0#32
  let v1641 : BitVec 1 := Scalar.cmpi .ne v1640 c0_i32_1260
  let v1645 : BitVec 1 := Scalar.andi v1644 v1641
  let v1646 : BitVec 32 := Scalar.addi v1640 v1639
  let v1647 : BitVec 32 := Scalar.select v1645 v1646 v1640
  let c1_i32_1266 : BitVec 32 := 1#32
  let v1648 : BitVec 32 := Scalar.muli v1647 c1_i32_1266
  let v1649 : BitVec 32 := Scalar.addi c0_i32_1267 v1648
  v1649.toNat
def k0_dev75 (d0 : Dev nD) : Nat :=
  let c0_i32_1281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1270 : BitVec 32 := 13#32
  let v1656 : BitVec 32 := Scalar.addi v2 c13_i32_1270
  let c32_i32_1271 : BitVec 32 := 32#32
  let c0_i32_1272 : BitVec 32 := 0#32
  let v1657 : BitVec 1 := Scalar.cmpi .eq c32_i32_1271 c0_i32_1272
  let c1_i32_1273 : BitVec 32 := 1#32
  let v1658 : BitVec 32 := Scalar.select v1657 c1_i32_1273 c32_i32_1271
  let v1659 : BitVec 32 := Scalar.remsi v1656 v1658
  let c0_i32_1275 : BitVec 32 := 0#32
  let v1661 : BitVec 1 := Scalar.cmpi .slt v1659 c0_i32_1275
  let c0_i32_1276 : BitVec 32 := 0#32
  let v1662 : BitVec 1 := Scalar.cmpi .slt v1658 c0_i32_1276
  let v1663 : BitVec 1 := Scalar.xori v1661 v1662
  let c0_i32_1274 : BitVec 32 := 0#32
  let v1660 : BitVec 1 := Scalar.cmpi .ne v1659 c0_i32_1274
  let v1664 : BitVec 1 := Scalar.andi v1663 v1660
  let v1665 : BitVec 32 := Scalar.addi v1659 v1658
  let v1666 : BitVec 32 := Scalar.select v1664 v1665 v1659
  let c1_i32_1280 : BitVec 32 := 1#32
  let v1667 : BitVec 32 := Scalar.muli v1666 c1_i32_1280
  let v1668 : BitVec 32 := Scalar.addi c0_i32_1281 v1667
  v1668.toNat
def k0_dev76 (d0 : Dev nD) : Nat :=
  let c0_i32_1295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1284 : BitVec 32 := 14#32
  let v1675 : BitVec 32 := Scalar.addi v2 c14_i32_1284
  let c32_i32_1285 : BitVec 32 := 32#32
  let c0_i32_1286 : BitVec 32 := 0#32
  let v1676 : BitVec 1 := Scalar.cmpi .eq c32_i32_1285 c0_i32_1286
  let c1_i32_1287 : BitVec 32 := 1#32
  let v1677 : BitVec 32 := Scalar.select v1676 c1_i32_1287 c32_i32_1285
  let v1678 : BitVec 32 := Scalar.remsi v1675 v1677
  let c0_i32_1289 : BitVec 32 := 0#32
  let v1680 : BitVec 1 := Scalar.cmpi .slt v1678 c0_i32_1289
  let c0_i32_1290 : BitVec 32 := 0#32
  let v1681 : BitVec 1 := Scalar.cmpi .slt v1677 c0_i32_1290
  let v1682 : BitVec 1 := Scalar.xori v1680 v1681
  let c0_i32_1288 : BitVec 32 := 0#32
  let v1679 : BitVec 1 := Scalar.cmpi .ne v1678 c0_i32_1288
  let v1683 : BitVec 1 := Scalar.andi v1682 v1679
  let v1684 : BitVec 32 := Scalar.addi v1678 v1677
  let v1685 : BitVec 32 := Scalar.select v1683 v1684 v1678
  let c1_i32_1294 : BitVec 32 := 1#32
  let v1686 : BitVec 32 := Scalar.muli v1685 c1_i32_1294
  let v1687 : BitVec 32 := Scalar.addi c0_i32_1295 v1686
  v1687.toNat
def k0_dev77 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1298 : BitVec 32 := 15#32
  let v1694 : BitVec 32 := Scalar.addi v2 c15_i32_1298
  let c32_i32_1299 : BitVec 32 := 32#32
  let c0_i32_1300 : BitVec 32 := 0#32
  let v1695 : BitVec 1 := Scalar.cmpi .eq c32_i32_1299 c0_i32_1300
  let c1_i32_1301 : BitVec 32 := 1#32
  let v1696 : BitVec 32 := Scalar.select v1695 c1_i32_1301 c32_i32_1299
  let v1697 : BitVec 32 := Scalar.remsi v1694 v1696
  let c0_i32_1303 : BitVec 32 := 0#32
  let v1699 : BitVec 1 := Scalar.cmpi .slt v1697 c0_i32_1303
  let c0_i32_1304 : BitVec 32 := 0#32
  let v1700 : BitVec 1 := Scalar.cmpi .slt v1696 c0_i32_1304
  let v1701 : BitVec 1 := Scalar.xori v1699 v1700
  let c0_i32_1302 : BitVec 32 := 0#32
  let v1698 : BitVec 1 := Scalar.cmpi .ne v1697 c0_i32_1302
  let v1702 : BitVec 1 := Scalar.andi v1701 v1698
  let v1703 : BitVec 32 := Scalar.addi v1697 v1696
  let v1704 : BitVec 32 := Scalar.select v1702 v1703 v1697
  let c1_i32_1308 : BitVec 32 := 1#32
  let v1705 : BitVec 32 := Scalar.muli v1704 c1_i32_1308
  let v1706 : BitVec 32 := Scalar.addi c0_i32_1309 v1705
  v1706.toNat
def k0_dev78 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1312 : BitVec 32 := 16#32
  let v1713 : BitVec 32 := Scalar.addi v2 c16_i32_1312
  let c32_i32_1313 : BitVec 32 := 32#32
  let c0_i32_1314 : BitVec 32 := 0#32
  let v1714 : BitVec 1 := Scalar.cmpi .eq c32_i32_1313 c0_i32_1314
  let c1_i32_1315 : BitVec 32 := 1#32
  let v1715 : BitVec 32 := Scalar.select v1714 c1_i32_1315 c32_i32_1313
  let v1716 : BitVec 32 := Scalar.remsi v1713 v1715
  let c0_i32_1317 : BitVec 32 := 0#32
  let v1718 : BitVec 1 := Scalar.cmpi .slt v1716 c0_i32_1317
  let c0_i32_1318 : BitVec 32 := 0#32
  let v1719 : BitVec 1 := Scalar.cmpi .slt v1715 c0_i32_1318
  let v1720 : BitVec 1 := Scalar.xori v1718 v1719
  let c0_i32_1316 : BitVec 32 := 0#32
  let v1717 : BitVec 1 := Scalar.cmpi .ne v1716 c0_i32_1316
  let v1721 : BitVec 1 := Scalar.andi v1720 v1717
  let v1722 : BitVec 32 := Scalar.addi v1716 v1715
  let v1723 : BitVec 32 := Scalar.select v1721 v1722 v1716
  let c1_i32_1322 : BitVec 32 := 1#32
  let v1724 : BitVec 32 := Scalar.muli v1723 c1_i32_1322
  let v1725 : BitVec 32 := Scalar.addi c0_i32_1323 v1724
  v1725.toNat
def k0_dev79 (d0 : Dev nD) : Nat :=
  let c0_i32_1337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1326 : BitVec 32 := 17#32
  let v1732 : BitVec 32 := Scalar.addi v2 c17_i32_1326
  let c32_i32_1327 : BitVec 32 := 32#32
  let c0_i32_1328 : BitVec 32 := 0#32
  let v1733 : BitVec 1 := Scalar.cmpi .eq c32_i32_1327 c0_i32_1328
  let c1_i32_1329 : BitVec 32 := 1#32
  let v1734 : BitVec 32 := Scalar.select v1733 c1_i32_1329 c32_i32_1327
  let v1735 : BitVec 32 := Scalar.remsi v1732 v1734
  let c0_i32_1331 : BitVec 32 := 0#32
  let v1737 : BitVec 1 := Scalar.cmpi .slt v1735 c0_i32_1331
  let c0_i32_1332 : BitVec 32 := 0#32
  let v1738 : BitVec 1 := Scalar.cmpi .slt v1734 c0_i32_1332
  let v1739 : BitVec 1 := Scalar.xori v1737 v1738
  let c0_i32_1330 : BitVec 32 := 0#32
  let v1736 : BitVec 1 := Scalar.cmpi .ne v1735 c0_i32_1330
  let v1740 : BitVec 1 := Scalar.andi v1739 v1736
  let v1741 : BitVec 32 := Scalar.addi v1735 v1734
  let v1742 : BitVec 32 := Scalar.select v1740 v1741 v1735
  let c1_i32_1336 : BitVec 32 := 1#32
  let v1743 : BitVec 32 := Scalar.muli v1742 c1_i32_1336
  let v1744 : BitVec 32 := Scalar.addi c0_i32_1337 v1743
  v1744.toNat
def k0_dev80 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1340 : BitVec 32 := 18#32
  let v1751 : BitVec 32 := Scalar.addi v2 c18_i32_1340
  let c32_i32_1341 : BitVec 32 := 32#32
  let c0_i32_1342 : BitVec 32 := 0#32
  let v1752 : BitVec 1 := Scalar.cmpi .eq c32_i32_1341 c0_i32_1342
  let c1_i32_1343 : BitVec 32 := 1#32
  let v1753 : BitVec 32 := Scalar.select v1752 c1_i32_1343 c32_i32_1341
  let v1754 : BitVec 32 := Scalar.remsi v1751 v1753
  let c0_i32_1345 : BitVec 32 := 0#32
  let v1756 : BitVec 1 := Scalar.cmpi .slt v1754 c0_i32_1345
  let c0_i32_1346 : BitVec 32 := 0#32
  let v1757 : BitVec 1 := Scalar.cmpi .slt v1753 c0_i32_1346
  let v1758 : BitVec 1 := Scalar.xori v1756 v1757
  let c0_i32_1344 : BitVec 32 := 0#32
  let v1755 : BitVec 1 := Scalar.cmpi .ne v1754 c0_i32_1344
  let v1759 : BitVec 1 := Scalar.andi v1758 v1755
  let v1760 : BitVec 32 := Scalar.addi v1754 v1753
  let v1761 : BitVec 32 := Scalar.select v1759 v1760 v1754
  let c1_i32_1350 : BitVec 32 := 1#32
  let v1762 : BitVec 32 := Scalar.muli v1761 c1_i32_1350
  let v1763 : BitVec 32 := Scalar.addi c0_i32_1351 v1762
  v1763.toNat
def k0_dev81 (d0 : Dev nD) : Nat :=
  let c0_i32_1365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1354 : BitVec 32 := 19#32
  let v1770 : BitVec 32 := Scalar.addi v2 c19_i32_1354
  let c32_i32_1355 : BitVec 32 := 32#32
  let c0_i32_1356 : BitVec 32 := 0#32
  let v1771 : BitVec 1 := Scalar.cmpi .eq c32_i32_1355 c0_i32_1356
  let c1_i32_1357 : BitVec 32 := 1#32
  let v1772 : BitVec 32 := Scalar.select v1771 c1_i32_1357 c32_i32_1355
  let v1773 : BitVec 32 := Scalar.remsi v1770 v1772
  let c0_i32_1359 : BitVec 32 := 0#32
  let v1775 : BitVec 1 := Scalar.cmpi .slt v1773 c0_i32_1359
  let c0_i32_1360 : BitVec 32 := 0#32
  let v1776 : BitVec 1 := Scalar.cmpi .slt v1772 c0_i32_1360
  let v1777 : BitVec 1 := Scalar.xori v1775 v1776
  let c0_i32_1358 : BitVec 32 := 0#32
  let v1774 : BitVec 1 := Scalar.cmpi .ne v1773 c0_i32_1358
  let v1778 : BitVec 1 := Scalar.andi v1777 v1774
  let v1779 : BitVec 32 := Scalar.addi v1773 v1772
  let v1780 : BitVec 32 := Scalar.select v1778 v1779 v1773
  let c1_i32_1364 : BitVec 32 := 1#32
  let v1781 : BitVec 32 := Scalar.muli v1780 c1_i32_1364
  let v1782 : BitVec 32 := Scalar.addi c0_i32_1365 v1781
  v1782.toNat
def k0_dev82 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1368 : BitVec 32 := 20#32
  let v1789 : BitVec 32 := Scalar.addi v2 c20_i32_1368
  let c32_i32_1369 : BitVec 32 := 32#32
  let c0_i32_1370 : BitVec 32 := 0#32
  let v1790 : BitVec 1 := Scalar.cmpi .eq c32_i32_1369 c0_i32_1370
  let c1_i32_1371 : BitVec 32 := 1#32
  let v1791 : BitVec 32 := Scalar.select v1790 c1_i32_1371 c32_i32_1369
  let v1792 : BitVec 32 := Scalar.remsi v1789 v1791
  let c0_i32_1373 : BitVec 32 := 0#32
  let v1794 : BitVec 1 := Scalar.cmpi .slt v1792 c0_i32_1373
  let c0_i32_1374 : BitVec 32 := 0#32
  let v1795 : BitVec 1 := Scalar.cmpi .slt v1791 c0_i32_1374
  let v1796 : BitVec 1 := Scalar.xori v1794 v1795
  let c0_i32_1372 : BitVec 32 := 0#32
  let v1793 : BitVec 1 := Scalar.cmpi .ne v1792 c0_i32_1372
  let v1797 : BitVec 1 := Scalar.andi v1796 v1793
  let v1798 : BitVec 32 := Scalar.addi v1792 v1791
  let v1799 : BitVec 32 := Scalar.select v1797 v1798 v1792
  let c1_i32_1378 : BitVec 32 := 1#32
  let v1800 : BitVec 32 := Scalar.muli v1799 c1_i32_1378
  let v1801 : BitVec 32 := Scalar.addi c0_i32_1379 v1800
  v1801.toNat
def k0_dev83 (d0 : Dev nD) : Nat :=
  let c0_i32_1393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1382 : BitVec 32 := 21#32
  let v1808 : BitVec 32 := Scalar.addi v2 c21_i32_1382
  let c32_i32_1383 : BitVec 32 := 32#32
  let c0_i32_1384 : BitVec 32 := 0#32
  let v1809 : BitVec 1 := Scalar.cmpi .eq c32_i32_1383 c0_i32_1384
  let c1_i32_1385 : BitVec 32 := 1#32
  let v1810 : BitVec 32 := Scalar.select v1809 c1_i32_1385 c32_i32_1383
  let v1811 : BitVec 32 := Scalar.remsi v1808 v1810
  let c0_i32_1387 : BitVec 32 := 0#32
  let v1813 : BitVec 1 := Scalar.cmpi .slt v1811 c0_i32_1387
  let c0_i32_1388 : BitVec 32 := 0#32
  let v1814 : BitVec 1 := Scalar.cmpi .slt v1810 c0_i32_1388
  let v1815 : BitVec 1 := Scalar.xori v1813 v1814
  let c0_i32_1386 : BitVec 32 := 0#32
  let v1812 : BitVec 1 := Scalar.cmpi .ne v1811 c0_i32_1386
  let v1816 : BitVec 1 := Scalar.andi v1815 v1812
  let v1817 : BitVec 32 := Scalar.addi v1811 v1810
  let v1818 : BitVec 32 := Scalar.select v1816 v1817 v1811
  let c1_i32_1392 : BitVec 32 := 1#32
  let v1819 : BitVec 32 := Scalar.muli v1818 c1_i32_1392
  let v1820 : BitVec 32 := Scalar.addi c0_i32_1393 v1819
  v1820.toNat
def k0_dev84 (d0 : Dev nD) : Nat :=
  let c0_i32_1407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1396 : BitVec 32 := 22#32
  let v1827 : BitVec 32 := Scalar.addi v2 c22_i32_1396
  let c32_i32_1397 : BitVec 32 := 32#32
  let c0_i32_1398 : BitVec 32 := 0#32
  let v1828 : BitVec 1 := Scalar.cmpi .eq c32_i32_1397 c0_i32_1398
  let c1_i32_1399 : BitVec 32 := 1#32
  let v1829 : BitVec 32 := Scalar.select v1828 c1_i32_1399 c32_i32_1397
  let v1830 : BitVec 32 := Scalar.remsi v1827 v1829
  let c0_i32_1401 : BitVec 32 := 0#32
  let v1832 : BitVec 1 := Scalar.cmpi .slt v1830 c0_i32_1401
  let c0_i32_1402 : BitVec 32 := 0#32
  let v1833 : BitVec 1 := Scalar.cmpi .slt v1829 c0_i32_1402
  let v1834 : BitVec 1 := Scalar.xori v1832 v1833
  let c0_i32_1400 : BitVec 32 := 0#32
  let v1831 : BitVec 1 := Scalar.cmpi .ne v1830 c0_i32_1400
  let v1835 : BitVec 1 := Scalar.andi v1834 v1831
  let v1836 : BitVec 32 := Scalar.addi v1830 v1829
  let v1837 : BitVec 32 := Scalar.select v1835 v1836 v1830
  let c1_i32_1406 : BitVec 32 := 1#32
  let v1838 : BitVec 32 := Scalar.muli v1837 c1_i32_1406
  let v1839 : BitVec 32 := Scalar.addi c0_i32_1407 v1838
  v1839.toNat
def k0_dev85 (d0 : Dev nD) : Nat :=
  let c0_i32_1421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1410 : BitVec 32 := 23#32
  let v1846 : BitVec 32 := Scalar.addi v2 c23_i32_1410
  let c32_i32_1411 : BitVec 32 := 32#32
  let c0_i32_1412 : BitVec 32 := 0#32
  let v1847 : BitVec 1 := Scalar.cmpi .eq c32_i32_1411 c0_i32_1412
  let c1_i32_1413 : BitVec 32 := 1#32
  let v1848 : BitVec 32 := Scalar.select v1847 c1_i32_1413 c32_i32_1411
  let v1849 : BitVec 32 := Scalar.remsi v1846 v1848
  let c0_i32_1415 : BitVec 32 := 0#32
  let v1851 : BitVec 1 := Scalar.cmpi .slt v1849 c0_i32_1415
  let c0_i32_1416 : BitVec 32 := 0#32
  let v1852 : BitVec 1 := Scalar.cmpi .slt v1848 c0_i32_1416
  let v1853 : BitVec 1 := Scalar.xori v1851 v1852
  let c0_i32_1414 : BitVec 32 := 0#32
  let v1850 : BitVec 1 := Scalar.cmpi .ne v1849 c0_i32_1414
  let v1854 : BitVec 1 := Scalar.andi v1853 v1850
  let v1855 : BitVec 32 := Scalar.addi v1849 v1848
  let v1856 : BitVec 32 := Scalar.select v1854 v1855 v1849
  let c1_i32_1420 : BitVec 32 := 1#32
  let v1857 : BitVec 32 := Scalar.muli v1856 c1_i32_1420
  let v1858 : BitVec 32 := Scalar.addi c0_i32_1421 v1857
  v1858.toNat
def k0_dev86 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1424 : BitVec 32 := 24#32
  let v1865 : BitVec 32 := Scalar.addi v2 c24_i32_1424
  let c32_i32_1425 : BitVec 32 := 32#32
  let c0_i32_1426 : BitVec 32 := 0#32
  let v1866 : BitVec 1 := Scalar.cmpi .eq c32_i32_1425 c0_i32_1426
  let c1_i32_1427 : BitVec 32 := 1#32
  let v1867 : BitVec 32 := Scalar.select v1866 c1_i32_1427 c32_i32_1425
  let v1868 : BitVec 32 := Scalar.remsi v1865 v1867
  let c0_i32_1429 : BitVec 32 := 0#32
  let v1870 : BitVec 1 := Scalar.cmpi .slt v1868 c0_i32_1429
  let c0_i32_1430 : BitVec 32 := 0#32
  let v1871 : BitVec 1 := Scalar.cmpi .slt v1867 c0_i32_1430
  let v1872 : BitVec 1 := Scalar.xori v1870 v1871
  let c0_i32_1428 : BitVec 32 := 0#32
  let v1869 : BitVec 1 := Scalar.cmpi .ne v1868 c0_i32_1428
  let v1873 : BitVec 1 := Scalar.andi v1872 v1869
  let v1874 : BitVec 32 := Scalar.addi v1868 v1867
  let v1875 : BitVec 32 := Scalar.select v1873 v1874 v1868
  let c1_i32_1434 : BitVec 32 := 1#32
  let v1876 : BitVec 32 := Scalar.muli v1875 c1_i32_1434
  let v1877 : BitVec 32 := Scalar.addi c0_i32_1435 v1876
  v1877.toNat
def k0_dev87 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1438 : BitVec 32 := 25#32
  let v1884 : BitVec 32 := Scalar.addi v2 c25_i32_1438
  let c32_i32_1439 : BitVec 32 := 32#32
  let c0_i32_1440 : BitVec 32 := 0#32
  let v1885 : BitVec 1 := Scalar.cmpi .eq c32_i32_1439 c0_i32_1440
  let c1_i32_1441 : BitVec 32 := 1#32
  let v1886 : BitVec 32 := Scalar.select v1885 c1_i32_1441 c32_i32_1439
  let v1887 : BitVec 32 := Scalar.remsi v1884 v1886
  let c0_i32_1443 : BitVec 32 := 0#32
  let v1889 : BitVec 1 := Scalar.cmpi .slt v1887 c0_i32_1443
  let c0_i32_1444 : BitVec 32 := 0#32
  let v1890 : BitVec 1 := Scalar.cmpi .slt v1886 c0_i32_1444
  let v1891 : BitVec 1 := Scalar.xori v1889 v1890
  let c0_i32_1442 : BitVec 32 := 0#32
  let v1888 : BitVec 1 := Scalar.cmpi .ne v1887 c0_i32_1442
  let v1892 : BitVec 1 := Scalar.andi v1891 v1888
  let v1893 : BitVec 32 := Scalar.addi v1887 v1886
  let v1894 : BitVec 32 := Scalar.select v1892 v1893 v1887
  let c1_i32_1448 : BitVec 32 := 1#32
  let v1895 : BitVec 32 := Scalar.muli v1894 c1_i32_1448
  let v1896 : BitVec 32 := Scalar.addi c0_i32_1449 v1895
  v1896.toNat
def k0_dev88 (d0 : Dev nD) : Nat :=
  let c0_i32_1463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1452 : BitVec 32 := 26#32
  let v1903 : BitVec 32 := Scalar.addi v2 c26_i32_1452
  let c32_i32_1453 : BitVec 32 := 32#32
  let c0_i32_1454 : BitVec 32 := 0#32
  let v1904 : BitVec 1 := Scalar.cmpi .eq c32_i32_1453 c0_i32_1454
  let c1_i32_1455 : BitVec 32 := 1#32
  let v1905 : BitVec 32 := Scalar.select v1904 c1_i32_1455 c32_i32_1453
  let v1906 : BitVec 32 := Scalar.remsi v1903 v1905
  let c0_i32_1457 : BitVec 32 := 0#32
  let v1908 : BitVec 1 := Scalar.cmpi .slt v1906 c0_i32_1457
  let c0_i32_1458 : BitVec 32 := 0#32
  let v1909 : BitVec 1 := Scalar.cmpi .slt v1905 c0_i32_1458
  let v1910 : BitVec 1 := Scalar.xori v1908 v1909
  let c0_i32_1456 : BitVec 32 := 0#32
  let v1907 : BitVec 1 := Scalar.cmpi .ne v1906 c0_i32_1456
  let v1911 : BitVec 1 := Scalar.andi v1910 v1907
  let v1912 : BitVec 32 := Scalar.addi v1906 v1905
  let v1913 : BitVec 32 := Scalar.select v1911 v1912 v1906
  let c1_i32_1462 : BitVec 32 := 1#32
  let v1914 : BitVec 32 := Scalar.muli v1913 c1_i32_1462
  let v1915 : BitVec 32 := Scalar.addi c0_i32_1463 v1914
  v1915.toNat
def k0_dev89 (d0 : Dev nD) : Nat :=
  let c0_i32_1477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1466 : BitVec 32 := 27#32
  let v1922 : BitVec 32 := Scalar.addi v2 c27_i32_1466
  let c32_i32_1467 : BitVec 32 := 32#32
  let c0_i32_1468 : BitVec 32 := 0#32
  let v1923 : BitVec 1 := Scalar.cmpi .eq c32_i32_1467 c0_i32_1468
  let c1_i32_1469 : BitVec 32 := 1#32
  let v1924 : BitVec 32 := Scalar.select v1923 c1_i32_1469 c32_i32_1467
  let v1925 : BitVec 32 := Scalar.remsi v1922 v1924
  let c0_i32_1471 : BitVec 32 := 0#32
  let v1927 : BitVec 1 := Scalar.cmpi .slt v1925 c0_i32_1471
  let c0_i32_1472 : BitVec 32 := 0#32
  let v1928 : BitVec 1 := Scalar.cmpi .slt v1924 c0_i32_1472
  let v1929 : BitVec 1 := Scalar.xori v1927 v1928
  let c0_i32_1470 : BitVec 32 := 0#32
  let v1926 : BitVec 1 := Scalar.cmpi .ne v1925 c0_i32_1470
  let v1930 : BitVec 1 := Scalar.andi v1929 v1926
  let v1931 : BitVec 32 := Scalar.addi v1925 v1924
  let v1932 : BitVec 32 := Scalar.select v1930 v1931 v1925
  let c1_i32_1476 : BitVec 32 := 1#32
  let v1933 : BitVec 32 := Scalar.muli v1932 c1_i32_1476
  let v1934 : BitVec 32 := Scalar.addi c0_i32_1477 v1933
  v1934.toNat
def k0_dev90 (d0 : Dev nD) : Nat :=
  let c0_i32_1491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1480 : BitVec 32 := 28#32
  let v1941 : BitVec 32 := Scalar.addi v2 c28_i32_1480
  let c32_i32_1481 : BitVec 32 := 32#32
  let c0_i32_1482 : BitVec 32 := 0#32
  let v1942 : BitVec 1 := Scalar.cmpi .eq c32_i32_1481 c0_i32_1482
  let c1_i32_1483 : BitVec 32 := 1#32
  let v1943 : BitVec 32 := Scalar.select v1942 c1_i32_1483 c32_i32_1481
  let v1944 : BitVec 32 := Scalar.remsi v1941 v1943
  let c0_i32_1485 : BitVec 32 := 0#32
  let v1946 : BitVec 1 := Scalar.cmpi .slt v1944 c0_i32_1485
  let c0_i32_1486 : BitVec 32 := 0#32
  let v1947 : BitVec 1 := Scalar.cmpi .slt v1943 c0_i32_1486
  let v1948 : BitVec 1 := Scalar.xori v1946 v1947
  let c0_i32_1484 : BitVec 32 := 0#32
  let v1945 : BitVec 1 := Scalar.cmpi .ne v1944 c0_i32_1484
  let v1949 : BitVec 1 := Scalar.andi v1948 v1945
  let v1950 : BitVec 32 := Scalar.addi v1944 v1943
  let v1951 : BitVec 32 := Scalar.select v1949 v1950 v1944
  let c1_i32_1490 : BitVec 32 := 1#32
  let v1952 : BitVec 32 := Scalar.muli v1951 c1_i32_1490
  let v1953 : BitVec 32 := Scalar.addi c0_i32_1491 v1952
  v1953.toNat
def k0_dev91 (d0 : Dev nD) : Nat :=
  let c0_i32_1505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1494 : BitVec 32 := 29#32
  let v1960 : BitVec 32 := Scalar.addi v2 c29_i32_1494
  let c32_i32_1495 : BitVec 32 := 32#32
  let c0_i32_1496 : BitVec 32 := 0#32
  let v1961 : BitVec 1 := Scalar.cmpi .eq c32_i32_1495 c0_i32_1496
  let c1_i32_1497 : BitVec 32 := 1#32
  let v1962 : BitVec 32 := Scalar.select v1961 c1_i32_1497 c32_i32_1495
  let v1963 : BitVec 32 := Scalar.remsi v1960 v1962
  let c0_i32_1499 : BitVec 32 := 0#32
  let v1965 : BitVec 1 := Scalar.cmpi .slt v1963 c0_i32_1499
  let c0_i32_1500 : BitVec 32 := 0#32
  let v1966 : BitVec 1 := Scalar.cmpi .slt v1962 c0_i32_1500
  let v1967 : BitVec 1 := Scalar.xori v1965 v1966
  let c0_i32_1498 : BitVec 32 := 0#32
  let v1964 : BitVec 1 := Scalar.cmpi .ne v1963 c0_i32_1498
  let v1968 : BitVec 1 := Scalar.andi v1967 v1964
  let v1969 : BitVec 32 := Scalar.addi v1963 v1962
  let v1970 : BitVec 32 := Scalar.select v1968 v1969 v1963
  let c1_i32_1504 : BitVec 32 := 1#32
  let v1971 : BitVec 32 := Scalar.muli v1970 c1_i32_1504
  let v1972 : BitVec 32 := Scalar.addi c0_i32_1505 v1971
  v1972.toNat
def k0_dev92 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1508 : BitVec 32 := 30#32
  let v1979 : BitVec 32 := Scalar.addi v2 c30_i32_1508
  let c32_i32_1509 : BitVec 32 := 32#32
  let c0_i32_1510 : BitVec 32 := 0#32
  let v1980 : BitVec 1 := Scalar.cmpi .eq c32_i32_1509 c0_i32_1510
  let c1_i32_1511 : BitVec 32 := 1#32
  let v1981 : BitVec 32 := Scalar.select v1980 c1_i32_1511 c32_i32_1509
  let v1982 : BitVec 32 := Scalar.remsi v1979 v1981
  let c0_i32_1513 : BitVec 32 := 0#32
  let v1984 : BitVec 1 := Scalar.cmpi .slt v1982 c0_i32_1513
  let c0_i32_1514 : BitVec 32 := 0#32
  let v1985 : BitVec 1 := Scalar.cmpi .slt v1981 c0_i32_1514
  let v1986 : BitVec 1 := Scalar.xori v1984 v1985
  let c0_i32_1512 : BitVec 32 := 0#32
  let v1983 : BitVec 1 := Scalar.cmpi .ne v1982 c0_i32_1512
  let v1987 : BitVec 1 := Scalar.andi v1986 v1983
  let v1988 : BitVec 32 := Scalar.addi v1982 v1981
  let v1989 : BitVec 32 := Scalar.select v1987 v1988 v1982
  let c1_i32_1518 : BitVec 32 := 1#32
  let v1990 : BitVec 32 := Scalar.muli v1989 c1_i32_1518
  let v1991 : BitVec 32 := Scalar.addi c0_i32_1519 v1990
  v1991.toNat
def k0_dev93 (d0 : Dev nD) : Nat :=
  let c0_i32_1533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1522 : BitVec 32 := 31#32
  let v1998 : BitVec 32 := Scalar.addi v2 c31_i32_1522
  let c32_i32_1523 : BitVec 32 := 32#32
  let c0_i32_1524 : BitVec 32 := 0#32
  let v1999 : BitVec 1 := Scalar.cmpi .eq c32_i32_1523 c0_i32_1524
  let c1_i32_1525 : BitVec 32 := 1#32
  let v2000 : BitVec 32 := Scalar.select v1999 c1_i32_1525 c32_i32_1523
  let v2001 : BitVec 32 := Scalar.remsi v1998 v2000
  let c0_i32_1527 : BitVec 32 := 0#32
  let v2003 : BitVec 1 := Scalar.cmpi .slt v2001 c0_i32_1527
  let c0_i32_1528 : BitVec 32 := 0#32
  let v2004 : BitVec 1 := Scalar.cmpi .slt v2000 c0_i32_1528
  let v2005 : BitVec 1 := Scalar.xori v2003 v2004
  let c0_i32_1526 : BitVec 32 := 0#32
  let v2002 : BitVec 1 := Scalar.cmpi .ne v2001 c0_i32_1526
  let v2006 : BitVec 1 := Scalar.andi v2005 v2002
  let v2007 : BitVec 32 := Scalar.addi v2001 v2000
  let v2008 : BitVec 32 := Scalar.select v2006 v2007 v2001
  let c1_i32_1532 : BitVec 32 := 1#32
  let v2009 : BitVec 32 := Scalar.muli v2008 c1_i32_1532
  let v2010 : BitVec 32 := Scalar.addi c0_i32_1533 v2009
  v2010.toNat
def k0_off4 (d0 : Dev nD) (c1_i32_1543 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2023 : BitVec 32 := Scalar.subi v2 c1_i32_1543
  let c32_i32_1544 : BitVec 32 := 32#32
  let c0_i32_1545 : BitVec 32 := 0#32
  let v2024 : BitVec 1 := Scalar.cmpi .eq c32_i32_1544 c0_i32_1545
  let c1_i32_1546 : BitVec 32 := 1#32
  let v2025 : BitVec 32 := Scalar.select v2024 c1_i32_1546 c32_i32_1544
  let v2026 : BitVec 32 := Scalar.remsi v2023 v2025
  let c0_i32_1548 : BitVec 32 := 0#32
  let v2028 : BitVec 1 := Scalar.cmpi .slt v2026 c0_i32_1548
  let c0_i32_1549 : BitVec 32 := 0#32
  let v2029 : BitVec 1 := Scalar.cmpi .slt v2025 c0_i32_1549
  let v2030 : BitVec 1 := Scalar.xori v2028 v2029
  let c0_i32_1547 : BitVec 32 := 0#32
  let v2027 : BitVec 1 := Scalar.cmpi .ne v2026 c0_i32_1547
  let v2031 : BitVec 1 := Scalar.andi v2030 v2027
  let v2032 : BitVec 32 := Scalar.addi v2026 v2025
  let v2033 : BitVec 32 := Scalar.select v2031 v2032 v2026
  let c16_i32_1556 : BitVec 32 := 16#32
  let v2040 : BitVec 32 := Scalar.muli v2033 c16_i32_1556
  let c0_i32_1559 : BitVec 32 := 0#32
  ![v2040.toNat, 0]

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  shapeCasts_S512x256_S512x256 : S512x256.ShapeCasts S512x256
  packedbf16_S512x256_S512x256_0_0 : (Rect.unit (s := S512x256) ![0, 0] S512x256.size inb_S512x256_S512x256_0_0).PackedRows (EltTy.packing .bf16)
  hamt_31 : (31#32 : BitVec 32).msb = false
  inb_S32_S1_1 : ∀ a, (![1] : Fin 1 → Nat) a + S1.size a ≤ S32.size a
  squeezes_S1_S_ : S1.Squeezes S_
  inb_S32x16x256_S1x16x256_1_0_0 : ∀ a, (![1, 0, 0] : Fin 3 → Nat) a + S1x16x256.size a ≤ S32x16x256.size a
  squeezes_S1x16x256_S16x256 : S1x16x256.Squeezes S16x256
  wordsbf16_S32x16x256_S1x16x256_1_0_0 : (Rect.unit (s := S32x16x256) ![1, 0, 0] S1x16x256.size inb_S32x16x256_S1x16x256_1_0_0).WholeWords (EltTy.packing .bf16)
  inb_S32_S1_2 : ∀ a, (![2] : Fin 1 → Nat) a + S1.size a ≤ S32.size a
  inb_S32x16x256_S1x16x256_2_0_0 : ∀ a, (![2, 0, 0] : Fin 3 → Nat) a + S1x16x256.size a ≤ S32x16x256.size a
  wordsbf16_S32x16x256_S1x16x256_2_0_0 : (Rect.unit (s := S32x16x256) ![2, 0, 0] S1x16x256.size inb_S32x16x256_S1x16x256_2_0_0).WholeWords (EltTy.packing .bf16)
  inb_S32_S1_3 : ∀ a, (![3] : Fin 1 → Nat) a + S1.size a ≤ S32.size a
  inb_S32x16x256_S1x16x256_3_0_0 : ∀ a, (![3, 0, 0] : Fin 3 → Nat) a + S1x16x256.size a ≤ S32x16x256.size a
  wordsbf16_S32x16x256_S1x16x256_3_0_0 : (Rect.unit (s := S32x16x256) ![3, 0, 0] S1x16x256.size inb_S32x16x256_S1x16x256_3_0_0).WholeWords (EltTy.packing .bf16)
  inb_S32_S1_4 : ∀ a, (![4] : Fin 1 → Nat) a + S1.size a ≤ S32.size a
  inb_S32x16x256_S1x16x256_4_0_0 : ∀ a, (![4, 0, 0] : Fin 3 → Nat) a + S1x16x256.size a ≤ S32x16x256.size a
  wordsbf16_S32x16x256_S1x16x256_4_0_0 : (Rect.unit (s := S32x16x256) ![4, 0, 0] S1x16x256.size inb_S32x16x256_S1x16x256_4_0_0).WholeWords (EltTy.packing .bf16)
  inb_S32_S1_5 : ∀ a, (![5] : Fin 1 → Nat) a + S1.size a ≤ S32.size a
  inb_S32x16x256_S1x16x256_5_0_0 : ∀ a, (![5, 0, 0] : Fin 3 → Nat) a + S1x16x256.size a ≤ S32x16x256.size a
  wordsbf16_S32x16x256_S1x16x256_5_0_0 : (Rect.unit (s := S32x16x256) ![5, 0, 0] S1x16x256.size inb_S32x16x256_S1x16x256_5_0_0).WholeWords (EltTy.packing .bf16)
  inb_S32_S1_6 : ∀ a, (![6] : Fin 1 → Nat) a + S1.size a ≤ S32.size a
  inb_S32x16x256_S1x16x256_6_0_0 : ∀ a, (![6, 0, 0] : Fin 3 → Nat) a + S1x16x256.size a ≤ S32x16x256.size a
  wordsbf16_S32x16x256_S1x16x256_6_0_0 : (Rect.unit (s := S32x16x256) ![6, 0, 0] S1x16x256.size inb_S32x16x256_S1x16x256_6_0_0).WholeWords (EltTy.packing .bf16)
  inb_S32_S1_7 : ∀ a, (![7] : Fin 1 → Nat) a + S1.size a ≤ S32.size a
  inb_S32x16x256_S1x16x256_7_0_0 : ∀ a, (![7, 0, 0] : Fin 3 → Nat) a + S1x16x256.size a ≤ S32x16x256.size a
  wordsbf16_S32x16x256_S1x16x256_7_0_0 : (Rect.unit (s := S32x16x256) ![7, 0, 0] S1x16x256.size inb_S32x16x256_S1x16x256_7_0_0).WholeWords (EltTy.packing .bf16)
  inb_S32_S1_8 : ∀ a, (![8] : Fin 1 → Nat) a + S1.size a ≤ S32.size a
  inb_S32x16x256_S1x16x256_8_0_0 : ∀ a, (![8, 0, 0] : Fin 3 → Nat) a + S1x16x256.size a ≤ S32x16x256.size a
  wordsbf16_S32x16x256_S1x16x256_8_0_0 : (Rect.unit (s := S32x16x256) ![8, 0, 0] S1x16x256.size inb_S32x16x256_S1x16x256_8_0_0).WholeWords (EltTy.packing .bf16)
  inb_S32_S1_9 : ∀ a, (![9] : Fin 1 → Nat) a + S1.size a ≤ S32.size a
  inb_S32x16x256_S1x16x256_9_0_0 : ∀ a, (![9, 0, 0] : Fin 3 → Nat) a + S1x16x256.size a ≤ S32x16x256.size a
  wordsbf16_S32x16x256_S1x16x256_9_0_0 : (Rect.unit (s := S32x16x256) ![9, 0, 0] S1x16x256.size inb_S32x16x256_S1x16x256_9_0_0).WholeWords (EltTy.packing .bf16)
  inb_S32_S1_10 : ∀ a, (![10] : Fin 1 → Nat) a + S1.size a ≤ S32.size a
  inb_S32x16x256_S1x16x256_10_0_0 : ∀ a, (![10, 0, 0] : Fin 3 → Nat) a + S1x16x256.size a ≤ S32x16x256.size a
  wordsbf16_S32x16x256_S1x16x256_10_0_0 : (Rect.unit (s := S32x16x256) ![10, 0, 0] S1x16x256.size inb_S32x16x256_S1x16x256_10_0_0).WholeWords (EltTy.packing .bf16)
  inb_S32_S1_11 : ∀ a, (![11] : Fin 1 → Nat) a + S1.size a ≤ S32.size a
  inb_S32x16x256_S1x16x256_11_0_0 : ∀ a, (![11, 0, 0] : Fin 3 → Nat) a + S1x16x256.size a ≤ S32x16x256.size a
  wordsbf16_S32x16x256_S1x16x256_11_0_0 : (Rect.unit (s := S32x16x256) ![11, 0, 0] S1x16x256.size inb_S32x16x256_S1x16x256_11_0_0).WholeWords (EltTy.packing .bf16)
  inb_S32_S1_12 : ∀ a, (![12] : Fin 1 → Nat) a + S1.size a ≤ S32.size a
  inb_S32x16x256_S1x16x256_12_0_0 : ∀ a, (![12, 0, 0] : Fin 3 → Nat) a + S1x16x256.size a ≤ S32x16x256.size a
  wordsbf16_S32x16x256_S1x16x256_12_0_0 : (Rect.unit (s := S32x16x256) ![12, 0, 0] S1x16x256.size inb_S32x16x256_S1x16x256_12_0_0).WholeWords (EltTy.packing .bf16)
  inb_S32_S1_13 : ∀ a, (![13] : Fin 1 → Nat) a + S1.size a ≤ S32.size a
  inb_S32x16x256_S1x16x256_13_0_0 : ∀ a, (![13, 0, 0] : Fin 3 → Nat) a + S1x16x256.size a ≤ S32x16x256.size a
  wordsbf16_S32x16x256_S1x16x256_13_0_0 : (Rect.unit (s := S32x16x256) ![13, 0, 0] S1x16x256.size inb_S32x16x256_S1x16x256_13_0_0).WholeWords (EltTy.packing .bf16)
  inb_S32_S1_14 : ∀ a, (![14] : Fin 1 → Nat) a + S1.size a ≤ S32.size a
  inb_S32x16x256_S1x16x256_14_0_0 : ∀ a, (![14, 0, 0] : Fin 3 → Nat) a + S1x16x256.size a ≤ S32x16x256.size a
  wordsbf16_S32x16x256_S1x16x256_14_0_0 : (Rect.unit (s := S32x16x256) ![14, 0, 0] S1x16x256.size inb_S32x16x256_S1x16x256_14_0_0).WholeWords (EltTy.packing .bf16)
  inb_S32_S1_15 : ∀ a, (![15] : Fin 1 → Nat) a + S1.size a ≤ S32.size a
  inb_S32x16x256_S1x16x256_15_0_0 : ∀ a, (![15, 0, 0] : Fin 3 → Nat) a + S1x16x256.size a ≤ S32x16x256.size a
  wordsbf16_S32x16x256_S1x16x256_15_0_0 : (Rect.unit (s := S32x16x256) ![15, 0, 0] S1x16x256.size inb_S32x16x256_S1x16x256_15_0_0).WholeWords (EltTy.packing .bf16)
  inb_S32_S1_16 : ∀ a, (![16] : Fin 1 → Nat) a + S1.size a ≤ S32.size a
  inb_S32x16x256_S1x16x256_16_0_0 : ∀ a, (![16, 0, 0] : Fin 3 → Nat) a + S1x16x256.size a ≤ S32x16x256.size a
  wordsbf16_S32x16x256_S1x16x256_16_0_0 : (Rect.unit (s := S32x16x256) ![16, 0, 0] S1x16x256.size inb_S32x16x256_S1x16x256_16_0_0).WholeWords (EltTy.packing .bf16)
  inb_S32_S1_17 : ∀ a, (![17] : Fin 1 → Nat) a + S1.size a ≤ S32.size a
  inb_S32x16x256_S1x16x256_17_0_0 : ∀ a, (![17, 0, 0] : Fin 3 → Nat) a + S1x16x256.size a ≤ S32x16x256.size a
  wordsbf16_S32x16x256_S1x16x256_17_0_0 : (Rect.unit (s := S32x16x256) ![17, 0, 0] S1x16x256.size inb_S32x16x256_S1x16x256_17_0_0).WholeWords (EltTy.packing .bf16)
  inb_S32_S1_18 : ∀ a, (![18] : Fin 1 → Nat) a + S1.size a ≤ S32.size a
  inb_S32x16x256_S1x16x256_18_0_0 : ∀ a, (![18, 0, 0] : Fin 3 → Nat) a + S1x16x256.size a ≤ S32x16x256.size a
  wordsbf16_S32x16x256_S1x16x256_18_0_0 : (Rect.unit (s := S32x16x256) ![18, 0, 0] S1x16x256.size inb_S32x16x256_S1x16x256_18_0_0).WholeWords (EltTy.packing .bf16)
  inb_S32_S1_19 : ∀ a, (![19] : Fin 1 → Nat) a + S1.size a ≤ S32.size a
  inb_S32x16x256_S1x16x256_19_0_0 : ∀ a, (![19, 0, 0] : Fin 3 → Nat) a + S1x16x256.size a ≤ S32x16x256.size a
  wordsbf16_S32x16x256_S1x16x256_19_0_0 : (Rect.unit (s := S32x16x256) ![19, 0, 0] S1x16x256.size inb_S32x16x256_S1x16x256_19_0_0).WholeWords (EltTy.packing .bf16)
  inb_S32_S1_20 : ∀ a, (![20] : Fin 1 → Nat) a + S1.size a ≤ S32.size a
  inb_S32x16x256_S1x16x256_20_0_0 : ∀ a, (![20, 0, 0] : Fin 3 → Nat) a + S1x16x256.size a ≤ S32x16x256.size a
  wordsbf16_S32x16x256_S1x16x256_20_0_0 : (Rect.unit (s := S32x16x256) ![20, 0, 0] S1x16x256.size inb_S32x16x256_S1x16x256_20_0_0).WholeWords (EltTy.packing .bf16)
  inb_S32_S1_21 : ∀ a, (![21] : Fin 1 → Nat) a + S1.size a ≤ S32.size a
  inb_S32x16x256_S1x16x256_21_0_0 : ∀ a, (![21, 0, 0] : Fin 3 → Nat) a + S1x16x256.size a ≤ S32x16x256.size a
  wordsbf16_S32x16x256_S1x16x256_21_0_0 : (Rect.unit (s := S32x16x256) ![21, 0, 0] S1x16x256.size inb_S32x16x256_S1x16x256_21_0_0).WholeWords (EltTy.packing .bf16)
  inb_S32_S1_22 : ∀ a, (![22] : Fin 1 → Nat) a + S1.size a ≤ S32.size a
  inb_S32x16x256_S1x16x256_22_0_0 : ∀ a, (![22, 0, 0] : Fin 3 → Nat) a + S1x16x256.size a ≤ S32x16x256.size a
  wordsbf16_S32x16x256_S1x16x256_22_0_0 : (Rect.unit (s := S32x16x256) ![22, 0, 0] S1x16x256.size inb_S32x16x256_S1x16x256_22_0_0).WholeWords (EltTy.packing .bf16)
  inb_S32_S1_23 : ∀ a, (![23] : Fin 1 → Nat) a + S1.size a ≤ S32.size a
  inb_S32x16x256_S1x16x256_23_0_0 : ∀ a, (![23, 0, 0] : Fin 3 → Nat) a + S1x16x256.size a ≤ S32x16x256.size a
  wordsbf16_S32x16x256_S1x16x256_23_0_0 : (Rect.unit (s := S32x16x256) ![23, 0, 0] S1x16x256.size inb_S32x16x256_S1x16x256_23_0_0).WholeWords (EltTy.packing .bf16)
  inb_S32_S1_24 : ∀ a, (![24] : Fin 1 → Nat) a + S1.size a ≤ S32.size a
  inb_S32x16x256_S1x16x256_24_0_0 : ∀ a, (![24, 0, 0] : Fin 3 → Nat) a + S1x16x256.size a ≤ S32x16x256.size a
  wordsbf16_S32x16x256_S1x16x256_24_0_0 : (Rect.unit (s := S32x16x256) ![24, 0, 0] S1x16x256.size inb_S32x16x256_S1x16x256_24_0_0).WholeWords (EltTy.packing .bf16)
  inb_S32_S1_25 : ∀ a, (![25] : Fin 1 → Nat) a + S1.size a ≤ S32.size a
  inb_S32x16x256_S1x16x256_25_0_0 : ∀ a, (![25, 0, 0] : Fin 3 → Nat) a + S1x16x256.size a ≤ S32x16x256.size a
  wordsbf16_S32x16x256_S1x16x256_25_0_0 : (Rect.unit (s := S32x16x256) ![25, 0, 0] S1x16x256.size inb_S32x16x256_S1x16x256_25_0_0).WholeWords (EltTy.packing .bf16)
  inb_S32_S1_26 : ∀ a, (![26] : Fin 1 → Nat) a + S1.size a ≤ S32.size a
  inb_S32x16x256_S1x16x256_26_0_0 : ∀ a, (![26, 0, 0] : Fin 3 → Nat) a + S1x16x256.size a ≤ S32x16x256.size a
  wordsbf16_S32x16x256_S1x16x256_26_0_0 : (Rect.unit (s := S32x16x256) ![26, 0, 0] S1x16x256.size inb_S32x16x256_S1x16x256_26_0_0).WholeWords (EltTy.packing .bf16)
  inb_S32_S1_27 : ∀ a, (![27] : Fin 1 → Nat) a + S1.size a ≤ S32.size a
  inb_S32x16x256_S1x16x256_27_0_0 : ∀ a, (![27, 0, 0] : Fin 3 → Nat) a + S1x16x256.size a ≤ S32x16x256.size a
  wordsbf16_S32x16x256_S1x16x256_27_0_0 : (Rect.unit (s := S32x16x256) ![27, 0, 0] S1x16x256.size inb_S32x16x256_S1x16x256_27_0_0).WholeWords (EltTy.packing .bf16)
  inb_S32_S1_28 : ∀ a, (![28] : Fin 1 → Nat) a + S1.size a ≤ S32.size a
  inb_S32x16x256_S1x16x256_28_0_0 : ∀ a, (![28, 0, 0] : Fin 3 → Nat) a + S1x16x256.size a ≤ S32x16x256.size a
  wordsbf16_S32x16x256_S1x16x256_28_0_0 : (Rect.unit (s := S32x16x256) ![28, 0, 0] S1x16x256.size inb_S32x16x256_S1x16x256_28_0_0).WholeWords (EltTy.packing .bf16)
  inb_S32_S1_29 : ∀ a, (![29] : Fin 1 → Nat) a + S1.size a ≤ S32.size a
  inb_S32x16x256_S1x16x256_29_0_0 : ∀ a, (![29, 0, 0] : Fin 3 → Nat) a + S1x16x256.size a ≤ S32x16x256.size a
  wordsbf16_S32x16x256_S1x16x256_29_0_0 : (Rect.unit (s := S32x16x256) ![29, 0, 0] S1x16x256.size inb_S32x16x256_S1x16x256_29_0_0).WholeWords (EltTy.packing .bf16)
  inb_S32_S1_30 : ∀ a, (![30] : Fin 1 → Nat) a + S1.size a ≤ S32.size a
  inb_S32x16x256_S1x16x256_30_0_0 : ∀ a, (![30, 0, 0] : Fin 3 → Nat) a + S1x16x256.size a ≤ S32x16x256.size a
  wordsbf16_S32x16x256_S1x16x256_30_0_0 : (Rect.unit (s := S32x16x256) ![30, 0, 0] S1x16x256.size inb_S32x16x256_S1x16x256_30_0_0).WholeWords (EltTy.packing .bf16)
  inb_S32_S1_31 : ∀ a, (![31] : Fin 1 → Nat) a + S1.size a ≤ S32.size a
  inb_S32x16x256_S1x16x256_31_0_0 : ∀ a, (![31, 0, 0] : Fin 3 → Nat) a + S1x16x256.size a ≤ S32x16x256.size a
  wordsbf16_S32x16x256_S1x16x256_31_0_0 : (Rect.unit (s := S32x16x256) ![31, 0, 0] S1x16x256.size inb_S32x16x256_S1x16x256_31_0_0).WholeWords (EltTy.packing .bf16)
  h_S16x256 : 0 < S16x256.numel
  h_S1x16x256 : 0 < S1x16x256.numel
  shapeCasts_S1x16x256_S16x256 : S1x16x256.ShapeCasts S16x256
  inb_S32x16x256_S1x16x256_0_0_0 : ∀ a, (![0, 0, 0] : Fin 3 → Nat) a + S1x16x256.size a ≤ S32x16x256.size a
  shapeCasts_S16x256_S1x16x256 : S16x256.ShapeCasts S1x16x256
  inb_S16x256_S16x256_0_0 : ∀ a, (![0, 0] : Fin 2 → Nat) a + S16x256.size a ≤ S16x256.size a
  shapeCasts_S16x256_S16x256 : S16x256.ShapeCasts S16x256
  packedbf16_S16x256_S16x256_0_0 : (Rect.unit (s := S16x256) ![0, 0] S16x256.size inb_S16x256_S16x256_0_0).PackedRows (EltTy.packing .bf16)
  inb_S32_S1_0 : ∀ a, (![0] : Fin 1 → Nat) a + S1.size a ≤ S32.size a
  hcc0_scratch6 : 0 + S_.numel ≤ 161
  hcc0_scratch7 : 1 + S32.numel ≤ 161
  hcc0_scratch8 : 33 + S32.numel ≤ 161
  hcc0_scratch9 : 65 + S32.numel ≤ 161
  hcc0_scratch10 : 97 + S32.numel ≤ 161
  hcc0_scratch11 : 129 + S32.numel ≤ 161
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ (r : Fin 31), ∀ a, (k0_off1 d0 (BitVec.ofNat 32 (1 + r.val))) a + S16x256.size a ≤ S512x256.size a
  k0_off1_wordsbf16 : ∀ d0 : Dev nD, ∀ (r : Fin 31), (Rect.unit (s := S512x256) (k0_off1 d0 (BitVec.ofNat 32 (1 + r.val))) S16x256.size (k0_off1_inb d0 r)).WholeWords (EltTy.packing .bf16)
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off2_inb : ∀ d0 : Dev nD, ∀ a, (k0_off2 d0) a + S16x256.size a ≤ S512x256.size a
  k0_off3_inb : ∀ d0 : Dev nD, ∀ a, (k0_off3 d0) a + S16x256.size a ≤ S512x256.size a
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_off4_inb : ∀ d0 : Dev nD, ∀ (r : Fin 31), ∀ a, (k0_off4 d0 (BitVec.ofNat 32 (1 + r.val))) a + S16x256.size a ≤ S512x256.size a

variable [Facts₀]

abbrev cc0_scratch6 : DmaSems sig S_ := SemArray.consecutive 0 S_ hcc0_scratch6
abbrev cc0_scratch7 : DmaSems sig S32 := SemArray.consecutive 1 S32 hcc0_scratch7
abbrev cc0_scratch8 : DmaSems sig S32 := SemArray.consecutive 33 S32 hcc0_scratch8
abbrev cc0_scratch9 : DmaSems sig S32 := SemArray.consecutive 65 S32 hcc0_scratch9
abbrev cc0_scratch10 : DmaSems sig S32 := SemArray.consecutive 97 S32 hcc0_scratch10
abbrev cc0_scratch11 : DmaSems sig S32 := SemArray.consecutive 129 S32 hcc0_scratch11

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x256 : Shape := ⟨2, ![16384, 256]⟩
abbrev S32x512x256 : Shape := ⟨3, ![32, 512, 256]⟩
abbrev S_ : Shape := ⟨0, ![]⟩
abbrev S512x256 : Shape := ⟨2, ![512, 256]⟩

abbrev nBuf : Space → Nat
  | .hbm => 13
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S32x512x256, .f32⟩
  | .hbm, ⟨2, _⟩ => ⟨S_, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  shapeCasts_S16384x256_S32x512x256 : S16384x256.ShapeCasts S32x512x256
  reducesTo_S32x512x256_S512x256_d0 : S32x512x256.ReducesTo [0] S512x256
  h_S_ : 0 < S_.numel
  bcast_S_S512x256 : S_.BroadcastsInDim S512x256 (![] : Fin 0 → Fin S512x256.rank)

variable [Facts₀]

class Facts : Prop extends Facts₀ where

variable [Facts]
-- ==== Proof.Spec.lean ====
/-
  The specification both programs are compared against, and the pure mathematics of the comparison.
  Thirty-two devices each hold one block of 512 rows of an array of 16384 rows and 256 columns. The result,
  the same on every device, is `f` of the sum of the thirty-two blocks, element by element, where
  `f s = tanh s · s · s + max s 0 · max s 0 · max s 0` on the extended reals.
  A device adds the blocks in the order: its own, then the block of the device one place before it on the
  ring, two places before it, and so on around the ring. Addition on the extended reals is commutative and
  associative, so that order gives the same sum as the order of the devices' numbers; no finiteness is used.
-/
import Idealize.ShloMosaic.PureOps.Ideal
import Idealize.ShloMosaic.Lib.ValueIdx
import Idealize.ShloMosaic.Lib.Layout
import Mathlib.Algebra.BigOperators.Fin

noncomputable section

namespace Cert.Spec

open Idealize.ShloMosaic
open scoped BigOperators

/-! ## The function applied to the sum -/

/-- `tanh s · s · s + (max s 0)³`, grouped as both programs group it: each product taken from the left, the
    two products added last. `Ideal.tanh` is the hyperbolic tangent continued by `-1` and `1` at the infinities. -/
def f (s : EReal) : EReal :=
  Ideal.tanh s * s * s + max s 0 * max s 0 * max s 0

theorem f_def (s : EReal) : f s = Ideal.tanh s * s * s + max s 0 * max s 0 * max s 0 := rfl

/-- The common result: at each of the 512 × 256 places, `f` of the sum of the thirty-two blocks there. -/
def K (x : Fin 32 → (⟨2, ![512, 256]⟩ : Shape).Idx → EReal) : (⟨2, ![512, 256]⟩ : Shape).Idx → EReal :=
  fun i => f (∑ k : Fin 32, x k i)

theorem K_apply (x : Fin 32 → (⟨2, ![512, 256]⟩ : Shape).Idx → EReal) (i : (⟨2, ![512, 256]⟩ : Shape).Idx) :
    K x i = f (∑ k : Fin 32, x k i) := rfl

/-! ## The ring order of a device's sum -/

/-- The device `o` places before `c` on the ring of thirty-two. -/
def rot (c : Fin 32) (o : Nat) : Fin 32 := ⟨(c.val + 32 - o) % 32, Nat.mod_lt _ (by decide)⟩

@[simp] theorem rot_val (c : Fin 32) (o : Nat) : (rot c o).val = (c.val + 32 - o) % 32 := rfl

/-- Zero places before `c` is `c`. -/
@[simp] theorem rot_zero (c : Fin 32) : rot c 0 = c := by
  apply Fin.ext; have := c.isLt; simp only [rot_val]; omega

/-- On the ring, `o ↦ c - o` undoes itself: `c - (c - o) = o`. -/
theorem rot_rot (c o : Fin 32) : rot c (rot c o.val).val = o := by
  apply Fin.ext; have := c.isLt; have := o.isLt; simp only [rot_val]; omega

/-- Summing over the places back from `c` is summing over the devices: `o ↦ c - o` is a bijection of the
    ring. -/
theorem sum_rot {M : Type} [AddCommMonoid M] (c : Fin 32) (x : Fin 32 → M) :
    (∑ o : Fin 32, x ⟨(c.val + 32 - o.val) % 32, Nat.mod_lt _ (by decide)⟩) = ∑ k : Fin 32, x k :=
  (Function.Involutive.bijective (f := fun o : Fin 32 => rot c o.val) (rot_rot c)).sum_comp x

/-- A sum accumulated from the left over a list is the start plus the list's sum. -/
theorem foldl_add {M α : Type} [AddCommMonoid M] (g : α → M) (l : List α) (a : M) :
    l.foldl (fun acc o => acc + g o) a = a + (l.map g).sum := by
  induction l generalizing a with
  | nil => simp
  | cons h t ih => simp [ih, add_assoc]

/-- A term `y 0` and then `y 1`, …, `y n` added to it one after the other, is the sum of all of them. -/
theorem foldl_succ_eq_sum {M : Type} [AddCommMonoid M] {n : Nat} (y : Fin (n + 1) → M) :
    (List.finRange n).foldl (fun acc o => acc + y o.succ) (y 0) = ∑ o : Fin (n + 1), y o := by
  rw [foldl_add (fun o : Fin n => y o.succ), Fin.sum_univ_succ, Fin.sum_univ_def]

/-- The device's own block first, then the thirty-one others in ring order, as a head term and a sum. -/
theorem sum_rot_head {M : Type} [AddCommMonoid M] (c : Fin 32) (x : Fin 32 → M) :
    x c + ∑ o : Fin 31, x (rot c (o.val + 1)) = ∑ k : Fin 32, x k := by
  rw [← sum_rot c x, Fin.sum_univ_succ]
  congr 1
  exact congrArg x (rot_zero c).symm

/-- The same as an accumulation from the left: start from the device's own block and add the block from
    one place back, two places back, …, thirty-one places back. -/
theorem sum_rot_foldl {M : Type} [AddCommMonoid M] (c : Fin 32) (x : Fin 32 → M) :
    (List.finRange 31).foldl (fun acc o => acc + x (rot c (o.val + 1))) (x c) = ∑ k : Fin 32, x k := by
  rw [foldl_add (fun o : Fin 31 => x (rot c (o.val + 1))), ← Fin.sum_univ_def]
  exact sum_rot_head c x

/-- Thirty-two terms written out and added from the left are their sum. -/
theorem sum_univ_32 {M : Type} [AddCommMonoid M] (y : Fin 32 → M) :
    y 0 + y 1 + y 2 + y 3 + y 4 + y 5 + y 6 + y 7 + y 8 + y 9 + y 10 + y 11 + y 12
      + y 13 + y 14 + y 15 + y 16 + y 17 + y 18 + y 19 + y 20 + y 21 + y 22 + y 23 + y 24
      + y 25 + y 26 + y 27 + y 28 + y 29 + y 30 + y 31
      = ∑ o : Fin 32, y o := by
  simp only [Fin.sum_univ_castSucc, Fin.sum_univ_zero, zero_add]
  rfl

/-- The device's sum written out: its own block, then each of the thirty-one others in ring order, added
    from the left. -/
theorem sum_rot_nested {M : Type} [AddCommMonoid M] (c : Fin 32) (x : Fin 32 → M) :
    x c + x (rot c 1) + x (rot c 2) + x (rot c 3) + x (rot c 4) + x (rot c 5) + x (rot c 6)
      + x (rot c 7) + x (rot c 8) + x (rot c 9) + x (rot c 10) + x (rot c 11) + x (rot c 12)
      + x (rot c 13) + x (rot c 14) + x (rot c 15) + x (rot c 16) + x (rot c 17) + x (rot c 18)
      + x (rot c 19) + x (rot c 20) + x (rot c 21) + x (rot c 22) + x (rot c 23) + x (rot c 24)
      + x (rot c 25) + x (rot c 26) + x (rot c 27) + x (rot c 28) + x (rot c 29) + x (rot c 30)
      + x (rot c 31)
      = ∑ k : Fin 32, x k := by
  have h0 : x c = x (rot c 0) := congrArg x (rot_zero c).symm
  rw [h0]
  exact (sum_univ_32 (fun o : Fin 32 => x (rot c o.val))).trans (sum_rot c x)

/-- info: 'Cert.Spec.sum_rot' depends on axioms: [propext, Classical.choice, Quot.sound] -/
#guard_msgs in #print axioms sum_rot

/-- info: 'Cert.Spec.sum_rot_nested' depends on axioms: [propext, Classical.choice, Quot.sound] -/
#guard_msgs in #print axioms sum_rot_nested

/-- info: 'Cert.Spec.sum_rot_foldl' depends on axioms: [propext, Classical.choice, Quot.sound] -/
#guard_msgs in #print axioms sum_rot_foldl

end Cert.Spec

end
-- ==== Proof.RefValue.lean ====
/-
  The reference side of the comparison. The reference runs on one device over the whole array of 16384 rows
  and 256 columns: it views the array as thirty-two slabs of 512 rows, adds the slabs element by element
  starting from zero, and applies `tanh s · s · s + (max s 0)³` to each sum. Slab `k` of the reshaped array is
  rows `k·512 … k·512 + 511` of the whole, which is block `k` of the array cut along its rows into thirty-two;
  so the reference's result is the specification `Cert.Spec.K` of the thirty-two blocks. Nothing here needs
  the inputs finite: the only law used is `0 + s = s`.
-/
import proofs.«900784_g7700000000000785_dist_f_of_ar_i_m512_n256_v7x_i32_bf16_1_alg».proof.Defs
import proofs.«900784_g7700000000000785_dist_f_of_ar_i_m512_n256_v7x_i32_bf16_1_alg».proof.Proof.Gen.ReferenceIdeal
import proofs.«900784_g7700000000000785_dist_f_of_ar_i_m512_n256_v7x_i32_bf16_1_alg».proof.Proof.Gen.ReferenceIdeal.Run
import proofs.«900784_g7700000000000785_dist_f_of_ar_i_m512_n256_v7x_i32_bf16_1_alg».proof.Proof.Gen.ReferenceIdeal.Read
import proofs.«900784_g7700000000000785_dist_f_of_ar_i_m512_n256_v7x_i32_bf16_1_alg».proof.Proof.Gen.Pre_finite_inputs_ReferenceIdeal
import proofs.«900784_g7700000000000785_dist_f_of_ar_i_m512_n256_v7x_i32_bf16_1_alg».proof.Proof.Spec
import Idealize.ShloMosaic.PureOps.Ideal.Laws

noncomputable section

namespace Cert.RefValue

open Idealize.ShloMosaic Idealize.ShloMosaic.TcCoe Idealize.SL.Sem
open Cert.ReferenceIdeal Cert.ReferenceIdeal.Gen Cert.ReferenceIdeal.Read
open scoped BigOperators

/-- The whole array cut along its rows into thirty-two blocks of 512 rows. -/
theorem tiles : Layout.Tiles (⟨2, ![512, 256]⟩ : Shape) (⟨2, ![16384, 256]⟩ : Shape) 0 32 := by decide

/-- Element `(r, q)` of slab `k` of the reshaped array is element `(k·512 + r, q)` of the whole array: the
    place of element `(r, q)` of block `k`. In row-major order the element's position is
    `((k·512 + r)·256 + q)`, whose quotient and remainder by the row length 256 are `k·512 + r` and `q`. -/
theorem slab_idx (i : S512x256.Idx) (k : Fin 32) :
    idx_main_v0 (idx_main_v1 i k) = tiles.idx k i := by
  funext a
  apply Fin.ext
  have h0 : (i 0).val < 512 := (i 0).isLt
  have h1 : (i 1).val < 256 := (i 1).isLt
  have hk : k.val < 32 := k.isLt
  match a with
  | ⟨0, _⟩ =>
    show ((k.val * 512 + (i 0).val) * 256 + (i 1).val) / 256 = k.val * 512 + (i 0).val
    omega
  | ⟨1, _⟩ =>
    show ((k.val * 512 + (i 0).val) * 256 + (i 1).val) % 256 = (i 1).val
    omega

/-- The sum of the slabs at a place is the sum of the thirty-two blocks there. -/
theorem slab_sum (X : (⟨S16384x256, .f32⟩ : BufTy).Contents (Elt Ideal)) (i : S512x256.Idx) :
    val_main_v1 (F := Ideal) X i
      = ∑ k : Fin 32, Layout.block ⟨2, ![512, 256]⟩ ⟨2, ![16384, 256]⟩ 0 32 k X tiles i := by
  rw [val_main_v1_apply, val_main_cst_apply, Ideal.ofBits_def, Ideal.ofBits_zero_f32, zero_add]
  refine Finset.sum_congr rfl fun k _ => ?_
  rw [val_main_v0_apply, slab_idx, Layout.block_apply]

/-- The zero the maximum is taken against. -/
theorem zero_at (i : S512x256.Idx) : val_main_v2 (F := Ideal) i = (0 : EReal) := by
  rw [val_main_v2_apply, val_main_cst_0_apply, Ideal.ofBits_def, Ideal.ofBits_zero_f32]

/-- The last stage of the reference, as a function of the whole array, is the specification of its blocks. -/
theorem ref_stage (X : (⟨S16384x256, .f32⟩ : BufTy).Contents (Elt Ideal)) :
    val_main_v9 (F := Ideal) X
      = Cert.Spec.K (fun k => Layout.block ⟨2, ![512, 256]⟩ ⟨2, ![16384, 256]⟩ 0 32 k X) := by
  funext i
  rw [val_main_v9_apply, val_main_v6_apply, val_main_v5_apply, val_main_v4_apply, val_main_v8_apply,
    val_main_v7_apply, val_main_v3_apply, zero_at, slab_sum]
  simp only [Ideal.addf_def, Ideal.mulf_def, Ideal.maximumf_def, Ideal.hostUnary_tanh_def]
  rfl

/-- The result term of the reference's run, of the whole array `X`, is the specification of `X`'s blocks. -/
theorem ref_value (X : (⟨S16384x256, .f32⟩ : BufTy).Contents (Elt Ideal)) :
    addf (F := Ideal) (mulf (mulf (Host.tanh (Host.reduceAdd (shapeCast _ (X) shapeCasts_S16384x256_S32x512x256) (constant S_ .f32 0x00000000#32) reducesTo_S32x512x256_S512x256_d0 h_S_)) (Host.reduceAdd (shapeCast _ (X) shapeCasts_S16384x256_S32x512x256) (constant S_ .f32 0x00000000#32) reducesTo_S32x512x256_S512x256_d0 h_S_)) (Host.reduceAdd (shapeCast _ (X) shapeCasts_S16384x256_S32x512x256) (constant S_ .f32 0x00000000#32) reducesTo_S32x512x256_S512x256_d0 h_S_)) (mulf (mulf (maximumf (Host.reduceAdd (shapeCast _ (X) shapeCasts_S16384x256_S32x512x256) (constant S_ .f32 0x00000000#32) reducesTo_S32x512x256_S512x256_d0 h_S_) (broadcastInDim S512x256 ![] bcast_S_S512x256 (constant S_ .f32 0x00000000#32))) (maximumf (Host.reduceAdd (shapeCast _ (X) shapeCasts_S16384x256_S32x512x256) (constant S_ .f32 0x00000000#32) reducesTo_S32x512x256_S512x256_d0 h_S_) (broadcastInDim S512x256 ![] bcast_S_S512x256 (constant S_ .f32 0x00000000#32)))) (maximumf (Host.reduceAdd (shapeCast _ (X) shapeCasts_S16384x256_S32x512x256) (constant S_ .f32 0x00000000#32) reducesTo_S32x512x256_S512x256_d0 h_S_) (broadcastInDim S512x256 ![] bcast_S_S512x256 (constant S_ .f32 0x00000000#32))))
      = Cert.Spec.K (fun k => Layout.block ⟨2, ![512, 256]⟩ ⟨2, ![16384, 256]⟩ 0 32 k X) :=
  (val_main_v9_eq (F := Ideal) X).trans (ref_stage X)

/-- The reference runs to the end, nothing faulting, and ends with its result at the specification of the
    blocks of its argument array, the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v9)
          = Cert.Spec.K (fun k => Layout.block ⟨2, ![512, 256]⟩ ⟨2, ![16384, 256]⟩ 0 32 k (m' (((0 : Dev Cert.ReferenceIdeal.nD).tc : Thread Cert.ReferenceIdeal.nD Cert.ReferenceIdeal.τ).loc Cert.ReferenceIdeal.main_arg0)))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (ref_value _), (h 0).2⟩)
    (Cert.ReferenceIdeal.Value.run (F := Ideal) m' g')

/-- The reference's frame: its run with the value dropped. -/
theorem frame_ri : Cert.frame_ReferenceIdeal := fun m ρ _ =>
  (θ_run Cert.ReferenceIdeal.defs _ _).mono (fun _ h c => (h c).2) (Cert.ReferenceIdeal.Value.run (F := Ideal) m ρ)

/-- info: 'Cert.RefValue.ref_run' depends on axioms: [propext, Classical.choice, Quot.sound] -/
#guard_msgs in #print axioms ref_run

/-- info: 'Cert.RefValue.frame_ri' depends on axioms: [propext, Classical.choice, Quot.sound] -/
#guard_msgs in #print axioms frame_ri

end Cert.RefValue

end
-- ==== Proof.KernelIdealProto.lean ====
import proofs.«900784_g7700000000000785_dist_f_of_ar_i_m512_n256_v7x_i32_bf16_1_alg».proof.Proof.Gen.KernelIdeal
import proofs.«900784_g7700000000000785_dist_f_of_ar_i_m512_n256_v7x_i32_bf16_1_alg».proof.Proof.Gen.KernelIdeal.Skeleton
import proofs.«900784_g7700000000000785_dist_f_of_ar_i_m512_n256_v7x_i32_bf16_1_alg».proof.Proof.Gen.KernelIdeal.Launch
import Idealize.ShloMosaic.Lib.Pipeline.Launch
import Idealize.ShloMosaic.Lib.Pipeline.Kit
import Idealize.ShloMosaic.Lib.Ring
import Idealize.ShloMosaic.Lib.Tactic

/-!
# The all-to-all protocol of the fused reduce-scatter / all-gather kernel, on 32 devices

Device `c` signals every other device's barrier semaphore once and waits for 31 units on its own: after that
wait every peer is inside the kernel. In the first exchange it sends, for `k = 1 … 31`, rows
`[16·d, 16·d + 16)` (`d = (c + k) mod 32`) of its narrowed block to slot `k` of device `d`'s first landing
buffer; device `d` adds what landed in its slots to its own rows `[16·d, 16·d + 16)`. In the second exchange
every device sends its 16 result rows to slot `k` of device `(c + k) mod 32`'s second landing buffer, so that
each device collects all 32 row blocks of the result.

The cells of the rounds discipline, per device: the barrier cell (31 duties of one unit, duty `o` paid by the
device `o` positions before the owner), and for each offset `k = 1 … 31` a send and a receive cell of each
exchange, one duty each. Duty `o` of device `d`'s barrier cell hands `d` the payer's two landing slots
`32 - o` (the slots `d` writes on the payer) and the fact that their receive cells stand at round 0.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds, this protocol's rounds (duties numbered), the local transfers' counters -/

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## The ring of devices -/

/-- the device `k` positions after `c` -/
def rot (c : Dev nD) (k : ℕ) : Dev nD := ⟨(c.val + k) % 32, Nat.mod_lt _ (by decide)⟩

theorem rot_val (c : Dev nD) (k : ℕ) : (rot c k).val = (c.val + k) % 32 := rfl
theorem rot_rot_sub (c : Dev nD) (k : ℕ) (hk : 1 ≤ k ∧ k ≤ 31) : rot (rot c k) (32 - k) = c := by
  apply Fin.ext; have h : c.val < 32 := c.isLt; show ((c.val + k) % 32 + (32 - k)) % 32 = c.val; omega
theorem rot_sub_rot (c : Dev nD) (k : ℕ) (hk : 1 ≤ k ∧ k ≤ 31) : rot (rot c (32 - k)) k = c := by
  apply Fin.ext; have h : c.val < 32 := c.isLt; show ((c.val + (32 - k)) % 32 + k) % 32 = c.val; omega
theorem rot_ne (c : Dev nD) (k : ℕ) (hk : 1 ≤ k ∧ k ≤ 31) : rot c k ≠ c := by
  intro h; have h1 := congrArg Fin.val h; have h2 : c.val < 32 := c.isLt; simp only [rot_val] at h1; omega

/-! ## The buffers -/

abbrev tR : Memref sig .tc .hbm S512x256 .f32 := Memref.whole main_arg0
abbrev oR : Memref sig .tc .hbm S512x256 .f32 := Memref.whole main_v1
abbrev tV : Memref sig .tc .vmem S512x256 .f32 := Memref.whole cc0_scratch0
abbrev st1 : Memref sig .tc .vmem S512x256 .bf16 := Memref.whole cc0_scratch1
abbrev cm1 : Memref sig .tc .vmem S32x16x256 .bf16 := Memref.whole cc0_scratch2
abbrev st2 : Memref sig .tc .vmem S16x256 .bf16 := Memref.whole cc0_scratch3
abbrev cm2 : Memref sig .tc .vmem S32x16x256 .bf16 := Memref.whole cc0_scratch4
abbrev sto : Memref sig .tc .vmem S32x16x256 .f32 := Memref.whole cc0_scratch5

theorem slot_inb (o : ℕ) (ho : o < 32) : ∀ a, (![o, 0, 0] : Fin 3 → Nat) a + S1x16x256.size a ≤ S32x16x256.size a := by
  intro a; fin_cases a <;> simp [Shape.size] <;> omega
/-- slot `o` of a 32-slot buffer, as the program spells a transfer's destination -/
abbrev slotM {e : EltTy} (M : Memref sig .tc .vmem S32x16x256 e) (o : ℕ) (ho : o < 32) : Memref sig .tc .vmem S16x256 e :=
  (M.slice (Rect.unit (s := S32x16x256) ![o, 0, 0] S1x16x256.size (slot_inb o ho)) (fun _ => rfl)).squeeze S16x256 squeezes_S1x16x256_S16x256

theorem off1_inb (c : Dev nD) (k : ℕ) (hk : 1 ≤ k ∧ k ≤ 31) : ∀ a, (k0_off1 c (BitVec.ofNat 32 k)) a + S16x256.size a ≤ S512x256.size a := by
  have := k0_off1_inb c ⟨k - 1, by omega⟩
  have e : 1 + (k - 1) = k := by omega
  simpa only [e] using this
/-- the rows of the narrowed block sent at offset `k`, as the program spells the transfer's source -/
abbrev srcM1 (c : Dev nD) (k : ℕ) (hk : 1 ≤ k ∧ k ≤ 31) : Memref sig .tc .vmem S16x256 .bf16 :=
  st1.slice (Rect.unit (s := S512x256) (k0_off1 c (BitVec.ofNat 32 k)) S16x256.size (off1_inb c k hk)) (fun _ => rfl)

/-! ## The cells -/

abbrev barS : Sem sig := (SemArray.scalar (sig.barrier 0 rfl) : Sems sig S_).sem
theorem sem_inb (o : ℕ) (ho : o < 32) : ∀ a, (![o] : Fin 1 → Nat) a + S1.size a ≤ S32.size a := by
  intro a; fin_cases a; simp [Shape.size]; omega
abbrev semAt (A : DmaSems sig S32) (o : ℕ) (ho : o < 32) : DmaSem sig :=
  ((A.slice (Rect.unit (s := S32) ![o] S1.size (sem_inb o ho))).squeeze S_ squeezes_S1_S_).sem
abbrev barCell (c : Dev nD) : GSem nD τ sig := ((c : Thread nD τ), .reg barS)
abbrev s1Cell (c : Dev nD) (o : ℕ) (ho : o < 32) : GSem nD τ sig := ((c : Thread nD τ), .dma (semAt cc0_scratch7 o ho))
abbrev r1Cell (c : Dev nD) (o : ℕ) (ho : o < 32) : GSem nD τ sig := ((c : Thread nD τ), .dma (semAt cc0_scratch8 o ho))
abbrev s2Cell (c : Dev nD) (o : ℕ) (ho : o < 32) : GSem nD τ sig := ((c : Thread nD τ), .dma (semAt cc0_scratch9 o ho))
abbrev r2Cell (c : Dev nD) (o : ℕ) (ho : o < 32) : GSem nD τ sig := ((c : Thread nD τ), .dma (semAt cc0_scratch10 o ho))

/-- The units a 16 × 256 two-byte transfer credits. -/
abbrev NX : ℕ := (slotM cm1 1 (by decide)).view.dmaCredit
theorem NX_pos : 0 < NX := View.dmaCredit_pos _ (by decide)

/-! ## What the transfers carry -/

section Sched
variable (S1c : (c : Dev nD) → Buf (Elt F) (st1.view.loc (c : Thread nD τ)))
variable (Y2c : (c : Dev nD) → Buf (Elt F) (st2.view.loc (c : Thread nD τ)))

/-- Slot `j` of device `c`'s first landing buffer once its transfer has landed: the rows `[16·c, 16·c + 16)` of the
    narrowed block of the device `j` positions before `c`. -/
def land1 (c : Dev nD) (j : ℕ) (hj : 1 ≤ j ∧ j ≤ 31) : Buf (Elt F) ((slotM cm1 j (by omega)).view.loc (c : Thread nD τ)) :=
  (slotM cm1 j (by omega)).view.write (Elt F) (slotM cm1 j (by omega)).view.junk
    ((srcM1 (rot c (32 - j)) j hj).view.read (Elt F) (S1c (rot c (32 - j)))) Finset.univ
/-- Slot `j` of device `c`'s second landing buffer once landed: the result rows of the device `j` positions before `c`. -/
def land2 (c : Dev nD) (j : ℕ) (hj : 1 ≤ j ∧ j ≤ 31) : Buf (Elt F) ((slotM cm2 j (by omega)).view.loc (c : Thread nD τ)) :=
  (slotM cm2 j (by omega)).view.write (Elt F) (slotM cm2 j (by omega)).view.junk
    (st2.view.read (Elt F) (Y2c (rot c (32 - j)))) Finset.univ

/-- What device `p`'s barrier signal hands the signalled device: `p`'s two landing slots `j` and that their receive cells stand at round 0. -/
def barPay (p : Dev nD) (j : ℕ) (hj : j < 32) : sProp 𝕄 :=
  iprop((∃ f, ((slotM cm1 j hj).view.loc (p : Thread nD τ) ↦[(slotM cm1 j hj).view.set]{fullShare} f : sProp 𝕄))
    ∗ (∃ f, ((slotM cm2 j hj).view.loc (p : Thread nD τ) ↦[(slotM cm2 j hj).view.set]{fullShare} f : sProp 𝕄))
    ∗ reached ER (r1Cell p j hj) 0 ∗ reached ER (r2Cell p j hj) 0)

/-- Which exchange cell a DMA semaphore is, and its offset: the four arrays of 32 follow the one input-copy semaphore. -/
def decode (q : DmaSem sig) : Option (Fin 4 × ℕ) :=
  if 2 ≤ q.val ∧ q.val ≤ 32 then some (0, q.val - 1) else if 34 ≤ q.val ∧ q.val ≤ 64 then some (1, q.val - 33)
  else if 66 ≤ q.val ∧ q.val ≤ 96 then some (2, q.val - 65) else if 98 ≤ q.val ∧ q.val ≤ 128 then some (3, q.val - 97) else none

def xferPay (c : Dev nD) (a : Fin 4) (k : ℕ) : sProp 𝕄 :=
  if hk : 1 ≤ k ∧ k ≤ 31 then
    match a with
    | 0 => ((srcM1 c k hk).view.loc (c : Thread nD τ) ↦[(srcM1 c k hk).view.set]{fullShare} S1c c : sProp 𝕄)
    | 1 => ((slotM cm1 k (by omega)).view.loc (c : Thread nD τ) ↦[(slotM cm1 k (by omega)).view.set]{fullShare} land1 S1c c k hk : sProp 𝕄)
    | 2 => (st2.view.loc (c : Thread nD τ) ↦[st2.view.set]{Transfers.shareTokN fullShare (k - 1)} Y2c c : sProp 𝕄)
    | 3 => ((slotM cm2 k (by omega)).view.loc (c : Thread nD τ) ↦[(slotM cm2 k (by omega)).view.set]{fullShare} land2 Y2c c k hk : sProp 𝕄)
  else iprop(emp)

/-- One round. A barrier cell has the duties `1 … 31` of one unit; an exchange cell one duty `0` of a transfer's credit. -/
def sched : Rounds.Schedule (GSem nD τ sig) ℕ 𝕄 where
  duties g r := if r = 0 ∧ g.1.2 = .tc then
      (match g.2 with
        | .reg s => if s = barS then Finset.Icc 1 31 else ∅
        | .dma q => if (decode q).isSome then {0} else ∅)
    else ∅
  amount g _ _ := if g.2 = .reg barS then 1 else NX
  payload g _ d := match g.2 with
    | .reg s => if h : s = barS ∧ 1 ≤ d ∧ d ≤ 31 then barPay (F := F) (rot g.1.1 (32 - d)) (32 - d) (by omega) else iprop(emp)
    | .dma q => match decode q with
      | some (a, k) => xferPay S1c Y2c g.1.1 a k
      | none => iprop(emp)
  amount_pos g _ _ _ := by
    by_cases h : g.2 = .reg barS
    · rw [if_pos h]; exact Nat.one_pos
    · rw [if_neg h]; exact NX_pos

instance sched_payload_storable (g : GSem nD τ sig) (r : ℕ) (d : ℕ) :
    BI.Storable (upEmb : UEmb _ 𝕄) ((sched (F := F) S1c Y2c).payload g r d) := by
  dsimp only [sched]
  unfold barPay xferPay
  (repeat' split) <;> infer_instance

end Sched

/-! ## The schedule's tables -/

section Tables
variable (S1c : (c : Dev nD) → Buf (Elt F) (st1.view.loc (c : Thread nD τ)))
variable (Y2c : (c : Dev nD) → Buf (Elt F) (st2.view.loc (c : Thread nD τ)))
variable (c : Dev nD)

theorem duties_bar : (sched (F := F) S1c Y2c).duties (barCell c) 0 = Finset.Icc 1 31 := by
  dsimp only [sched]; rw [if_pos ⟨rfl, rfl⟩]; exact if_pos rfl
theorem amount_bar (d : ℕ) : (sched (F := F) S1c Y2c).amount (barCell c) 0 d = 1 := by dsimp only [sched]; exact if_pos rfl
theorem amount_dma (q : DmaSem sig) (r d : ℕ) : (sched (F := F) S1c Y2c).amount ((c : Thread nD τ), .dma q) r d = NX := by
  dsimp only [sched]; exact if_neg (fun h => by cases h)
theorem expect_bar : (sched (F := F) S1c Y2c).expect (barCell c) 0 = 31 := by
  unfold Schedule.expect Schedule.amountOf
  rw [duties_bar, Finset.sum_congr rfl fun d _ => amount_bar S1c Y2c c d, Finset.sum_const, smul_eq_mul, Nat.card_Icc]

theorem duties_dma (q : DmaSem sig) (a : Fin 4) (k : ℕ) (h : decode q = some (a, k)) :
    (sched (F := F) S1c Y2c).duties ((c : Thread nD τ), .dma q) 0 = {0} := by
  dsimp only [sched]; rw [if_pos ⟨rfl, rfl⟩, h]; rfl
theorem expect_dma (q : DmaSem sig) (a : Fin 4) (k : ℕ) (h : decode q = some (a, k)) :
    (sched (F := F) S1c Y2c).expect ((c : Thread nD τ), .dma q) 0 = NX := by
  unfold Schedule.expect Schedule.amountOf; rw [duties_dma S1c Y2c c q a k h, Finset.sum_singleton, amount_dma]
theorem duties_later (g : GSem nD τ sig) : ∀ r, 1 ≤ r → (sched (F := F) S1c Y2c).duties g r = ∅ :=
  fun r hr => by dsimp only [sched]; rw [if_neg fun h => by omega]
theorem payload_dma (q : DmaSem sig) (a : Fin 4) (k : ℕ) (h : decode q = some (a, k)) (r d : ℕ) :
    (sched (F := F) S1c Y2c).payload ((c : Thread nD τ), .dma q) r d = xferPay S1c Y2c c a k := by
  dsimp only [sched]; rw [h]

end Tables

omit [FloatOps F] in
theorem barPay_congr {p p' : Dev nD} (h : p = p') (j : ℕ) (hj : j < 32) : barPay (F := F) p j hj = barPay p' j hj := by subst h; rfl

/-! ## What each device owes at launch; the levels -/

/-- What device `c` owes at offset `k`: the credit of its two transfers into the receive cells of the device `k`
    positions after it, and one unit on that device's barrier cell. -/
def owedAt (c : Dev nD) (k : ℕ) (ho : k < 32) : CellTallies nD τ sig Unit :=
  tallyAt (r2Cell (rot c k) k ho) () NX + tallyAt (r1Cell (rot c k) k ho) () NX + tallyAt (barCell (rot c k)) () 1
def O₀ (c : Dev nD) : CellTallies nD τ sig Unit := ∑ k : Fin 31, owedAt c (k.val + 1) (by omega)

def L (g : GSem nD τ sig) : Finset Unit := if g.1.2 = .tc then {()} else ∅
/-- Barrier cells at 1, the first exchange's receive cells at 2, the second's at 3, every other cell at 0: a device
    waits on a cell only while everything it still owes lies strictly above it. -/
def lv (g : GSem nD τ sig) (_ : Unit) : ℕ := match g.2 with
  | .reg s => if s = barS then 1 else 0
  | .dma q => match decode q with
    | some (1, _) => 2
    | some (3, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The cells by index, and each device's share of the ghost state -/

/-- A device's cells under the rounds discipline: its barrier cell (`none`) and, per kind (first send, first receive,
    second send, second receive) and offset `k + 1`, an exchange cell. -/
abbrev CK : Type := Option (Fin 4 × Fin 31)

def csem : CK → SemLoc sig
  | none => .reg barS
  | some (0, k) => .dma (semAt cc0_scratch7 (k.val + 1) (by omega))
  | some (1, k) => .dma (semAt cc0_scratch8 (k.val + 1) (by omega))
  | some (2, k) => .dma (semAt cc0_scratch9 (k.val + 1) (by omega))
  | some (3, k) => .dma (semAt cc0_scratch10 (k.val + 1) (by omega))
abbrev kcell (ck : Dev nD × CK) : GSem nD τ sig := ((ck.1 : Thread nD τ), csem ck.2)

section Ghost
variable (S1c : (c : Dev nD) → Buf (Elt F) (st1.view.loc (c : Thread nD τ)))
variable (Y2c : (c : Dev nD) → Buf (Elt F) (st2.view.loc (c : Thread nD τ)))
variable (OUTc : (c : Dev nD) → Buf (Elt F) ((c : Thread nD τ).loc main_v1))
variable (m : (ℓ : Loc nD τ sig) → Buf (Elt F) ℓ) (ρ : Dev nD → PrngReg)

/-- Every cell's invariant under the name the launch allocated it at, and that every cell stands at round 0. -/
def records (K : Dev nD × CK → ℕ) : sProp 𝕄 :=
  iprop((bigSep Finset.univ fun ck : Dev nD × CK => cellInv ER (sched (F := F) S1c Y2c) (K ck) (kcell ck))
    ∗ bigSep Finset.univ fun ck : Dev nD × CK => reached ER (kcell ck) 0)
instance records_persistent (K : Dev nD × CK → ℕ) : BI.Persistent (records (F := F) S1c Y2c K) := by unfold records; infer_instance

/-- The tokens of the five duties device `c` pays at offset `k + 1`: the barrier unit of the device `k + 1` after it,
    and the send and receive duty of each of its two transfers to that device. -/
def payToksAt (c : Dev nD) (k : Fin 31) : sProp 𝕄 :=
  iprop(dutyTok ER (barCell (rot c (k.val + 1))) 0 (k.val + 1)
    ∗ dutyTok ER (s1Cell c (k.val + 1) (by omega)) 0 0 ∗ dutyTok ER (r1Cell (rot c (k.val + 1)) (k.val + 1) (by omega)) 0 0
    ∗ dutyTok ER (s2Cell c (k.val + 1) (by omega)) 0 0 ∗ dutyTok ER (r2Cell (rot c (k.val + 1)) (k.val + 1) (by omega)) 0 0)
/-- What stays with device `c`: its positions at round 0 of its own cells, and the tokens of the duties it pays. -/
def linear (c : Dev nD) : sProp 𝕄 :=
  iprop((bigSep Finset.univ fun ck : CK => atPos ER (kcell (c, ck)) 0 ∅ 0) ∗ bigSep Finset.univ (payToksAt (F := F) c))
def ghost (K : Dev nD × CK → ℕ) (c : Dev nD) : sProp 𝕄 := iprop(records (F := F) S1c Y2c K ∗ linear (F := F) c)

/-- The credit the launch deals device `c`: the 31 units its peers owe its barrier cell, and a transfer's credit on each receive cell. -/
def credsOf (c : Dev nD) : sProp 𝕄 :=
  iprop(cred (tallyAt (barCell c) () 31)
    ∗ bigSep Finset.univ fun k : Fin 31 => iprop(cred (tallyAt (r1Cell c (k.val + 1) (by omega)) () NX) ∗ cred (tallyAt (r2Cell c (k.val + 1) (by omega)) () NX)))
/-- The semaphores no other device touches, at zero: the input copy's, the 32 output copies', and the four index-0 semaphores the kernel never uses. -/
def locSems (c : Dev nD) : sProp 𝕄 :=
  iprop(semVal ((c : Thread nD τ), .dma cc0_scratch6.sem) 0
    ∗ (bigSep Finset.univ fun o : Fin 32 => semVal ((c : Thread nD τ), .dma (semAt cc0_scratch11 o.val o.isLt)) 0)
    ∗ semVal (s1Cell c 0 (by decide)) 0 ∗ semVal (r1Cell c 0 (by decide)) 0 ∗ semVal (s2Cell c 0 (by decide)) 0 ∗ semVal (r2Cell c 0 (by decide)) 0)
/-- Every DMA semaphore of the device at zero: what the kernel's exit hands back. -/
def allSems0 (c : Dev nD) : sProp 𝕄 := bigSep Finset.univ fun q : DmaSem sig => semVal ((c : Thread nD τ), .dma q) 0
/-- The six scratch buffers, each whole at some contents. -/
def scratches (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))

/-- What device `c`'s kernel starts from, scratch apart. -/
def start (c : Dev nD) : sProp 𝕄 :=
  iprop((∃ K, ghost (F := F) S1c Y2c K c) ∗ credsOf (F := F) c ∗ levAts L lv ∗ locSems (F := F) c
    ∗ (((c : Thread nD τ).loc main_arg0) ↦{fullShare} m ((c : Thread nD τ).loc main_arg0))
    ∗ (((c : Thread nD τ).loc main_v1) ↦{fullShare} m ((c : Thread nD τ).loc main_v1)))
def Φ₀ (c : Dev nD) : sProp 𝕄 := iprop(start (F := F) S1c Y2c m c ∗ scratches (F := F) c)
/-- After the kernel: the argument as it was, the result at its closed form, the scratch buffers back, every DMA semaphore at zero. -/
def Φ₁ (c : Dev nD) : sProp 𝕄 :=
  iprop((((c : Thread nD τ).loc main_arg0) ↦{fullShare} m ((c : Thread nD τ).loc main_arg0))
    ∗ (((c : Thread nD τ).loc main_v1) ↦{fullShare} OUTc c) ∗ scratches (F := F) c ∗ allSems0 (F := F) c)

/-- The pipeline library's proof data: no window; the invariant before and after the one point. -/
def dats (_ : Fin 1) (c : Dev nD) : Dat τ (Elt F) Unit ℕ UU ℕ cfg0 c where
  A w := w.elim0
  after w _ := w.elim0
  Φ t := match t with
    | ⟨0, _⟩ => Φ₀ (F := F) S1c Y2c m c
    | ⟨_ + 1, _⟩ => Φ₁ (F := F) OUTc m c
  q _ := fullShare
  owed t := match t with
    | ⟨0, _⟩ => O₀ c
    | ⟨_ + 1, _⟩ => 0

end Ghost

-- From here on the device `k` positions after another is never computed: it is told from the device itself, and from
-- the device at another offset, by its name alone.
attribute [irreducible] rot

end Cert.KernelIdealProto
end
-- ==== Proof.KernelIdealLaunch.lean ====
import proofs.«900784_g7700000000000785_dist_f_of_ar_i_m512_n256_v7x_i32_bf16_1_alg».proof.Proof.KernelIdealProto

/-!
# The launch of the all-to-all kernel on 32 devices

From "every device's body is proved from what it starts with" to the run of the whole mesh. The launch's ghost
element funds the pipeline library's (empty) share and this protocol's 125 cells per device at round 0; under one
update every device's cells get their invariants from its semaphore counters at zero, and the duty tokens are dealt
to the devices that pay them: device `c` pays, at offset `k`, the barrier unit and the two receive duties of the
device `k` positions after it, and its own two send duties. The credit each device is dealt is the 31 barrier
units its peers owe it and one transfer's credit on each of its receive cells.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores: every DMA semaphore; the barrier semaphore is the one unscoped semaphore -/

abbrev osem : DmaSem sig → SemLoc sig := fun q => .dma q

theorem ownSemFacts : Pipeline.OwnSemFacts cfg0.spec osem :=
  ⟨by decide, fun a b h => by cases h; rfl, fun k w s => w.elim0⟩

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and tokens the launch element is taken at -/

/-- A semaphore's place among the core's semaphores: the regular ones after every DMA semaphore. -/
def semKey : SemLoc sig → ℕ
  | .reg s => 1000 + s.val
  | .dma q => q.val
/-- The place of a cell's semaphore, by kind and offset: the four arrays of 32 follow the input copy's one. -/
def ckKey : CK → ℕ
  | none => 1000
  | some (a, k) => 2 + 32 * a.val + k.val
theorem csem_key : ∀ ck : CK, semKey (csem ck) = ckKey ck := by decide

theorem csem_injective : Function.Injective csem := fun x y h => by
  have h' : ckKey x = ckKey y := by rw [← csem_key, ← csem_key, h]
  rcases x with _ | ⟨a, k⟩ <;> rcases y with _ | ⟨b, l⟩ <;> simp only [ckKey] at h'
  · rfl
  · omega
  · omega
  · have ha : a = b := Fin.ext (by omega)
    have hk : k = l := Fin.ext (by omega)
    subst ha hk; rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def myCells : Finset (GSem nD τ sig) := Finset.univ.map ⟨kcell, kcell_injective⟩

/-- The duty tokens of a device's own cells as minted, by offset `k + 1`: the barrier cell's duty `k + 1`, and the one
    duty of each of the four exchange cells at that offset. -/
def tokCK : Fin 31 × Option (Fin 4) → CK × ℕ
  | (k, none) => (none, k.val + 1)
  | (k, some a) => (some (a, k), 0)
theorem tokCK_injective : Function.Injective tokCK := by
  rintro ⟨k, _ | a⟩ ⟨k', _ | a'⟩ h
  · have h2 : k.val + 1 = k'.val + 1 := congrArg Prod.snd h
    have : k = k' := Fin.ext (by omega)
    subst this; rfl
  · exact absurd (show (none : CK) = some (a', k') from congrArg Prod.fst h) (fun h' => by cases h')
  · exact absurd (show (some (a, k) : CK) = none from congrArg Prod.fst h) (fun h' => by cases h')
  · have h1 : (some (a, k) : CK) = some (a', k') := congrArg Prod.fst h
    cases h1; rfl
abbrev tokOf (x : Dev nD × Fin 31 × Option (Fin 4)) : GSem nD τ sig × ℕ × ℕ := (kcell (x.1, (tokCK x.2).1), 0, (tokCK x.2).2)
theorem tokOf_injective : Function.Injective tokOf := by
  rintro ⟨c, kj⟩ ⟨c', kj'⟩ h
  have h1 : (c, (tokCK kj).1) = (c', (tokCK kj').1) := kcell_injective (congrArg Prod.fst h)
  have h2 : (tokCK kj).2 = (tokCK kj').2 := congrArg (fun x : GSem nD τ sig × ℕ × ℕ => x.2.2) h
  have hc : c = c' := congrArg Prod.fst h1
  have h3 : (tokCK kj).1 = (tokCK kj').1 := congrArg Prod.snd h1
  subst hc
  rw [tokCK_injective (Prod.ext h3 h2)]
def myToks : Finset (GSem nD τ sig × ℕ × ℕ) := Finset.univ.map ⟨tokOf, tokOf_injective⟩

def u₀ : UU := (initOf (Pipeline.cells cfgs cellOf_inj) (Pipeline.launchToks cfgs cellOf_inj), (initOf myCells myToks, 1))

/-- The tokens of device `c`'s own cells at offset `k + 1`. -/
def ownToksAt (c : Dev nD) (k : Fin 31) : sProp 𝕄 :=
  iprop(dutyTok ER (barCell c) 0 (k.val + 1)
    ∗ dutyTok ER (s1Cell c (k.val + 1) (by omega)) 0 0 ∗ dutyTok ER (r1Cell c (k.val + 1) (by omega)) 0 0
    ∗ dutyTok ER (s2Cell c (k.val + 1) (by omega)) 0 0 ∗ dutyTok ER (r2Cell c (k.val + 1) (by omega)) 0 0)

section Launch
variable (S1c : (c : Dev nD) → Buf (Elt F) (st1.view.loc (c : Thread nD τ)))
variable (Y2c : (c : Dev nD) → Buf (Elt F) (st2.view.loc (c : Thread nD τ)))
variable (OUTc : (c : Dev nD) → Buf (Elt F) ((c : Thread nD τ).loc main_v1))
variable (m : (ℓ : Loc nD τ sig) → Buf (Elt F) ℓ) (ρ : Dev nD → PrngReg)

/-- What the launch element deals device `c` (the theorem's `G`). -/
def G (c : Dev nD) : sProp 𝕄 :=
  iprop((bigSep Finset.univ fun ck : CK => roundState ER (sched (F := F) S1c Y2c) (kcell (c, ck)) 0)
    ∗ (bigSep Finset.univ fun ck : CK => iprop(atPos ER (kcell (c, ck)) 0 ∅ 0 ∗ reached ER (kcell (c, ck)) 0))
    ∗ bigSep Finset.univ (ownToksAt (F := F) c))

/-- What the global step makes of it (`G'`): the device's share of the ghost state, and the semaphores no protocol
    cell stands on, still at zero. -/
def G' (c : Dev nD) : sProp 𝕄 := iprop((∃ K, ghost (F := F) S1c Y2c K c) ∗ locSems (F := F) c)

theorem share_eq (c : Dev nD) (w : Fin cfg0.W) : (dats (F := F) S1c Y2c OUTc m 0 c).share w = fullShare := w.elim0

/-! ### The launch element -/

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

omit [FloatOps F] in
theorem bigSep_univ_option {α : Type} [Fintype α] (Φ : Option α → sProp 𝕄) :
    bigSep Finset.univ Φ = iprop(Φ none ∗ bigSep Finset.univ fun a => Φ (some a)) := by
  rw [bigSep_univ_equiv (Equiv.optionEquivSumPUnit.{0, 0} α).symm Φ, bigSep_univ_sum, bigSep_univ_of_subsingleton (PUnit.unit : PUnit.{1})]
  exact BI.Entails.antisymm BI.sep_comm BI.sep_comm

omit [FloatOps F] in
theorem myToks_eq : bigSep myToks (fun x => (dutyTok ER x.1 x.2.1 x.2.2 : sProp 𝕄)) = bigSep Finset.univ fun c : Dev nD => bigSep Finset.univ (ownToksAt (F := F) c) := by
  unfold myToks; rw [bigSep_map, bigSep_univ_prod]
  refine bigSep_congr fun c _ => ?_
  rw [bigSep_univ_prod]
  exact bigSep_congr fun k _ => by unfold ownToksAt; rw [bigSep_univ_option, bigSep_fin4]; rfl

theorem fund_mine : BI.own (ER (initOf myCells myToks)) ⊢ (|==> bigSep Finset.univ (G (F := F) S1c Y2c) : sProp 𝕄) := by
  have hX (Φ : GSem nD τ sig → sProp 𝕄) : bigSep myCells Φ = bigSep Finset.univ fun c : Dev nD => bigSep Finset.univ fun ck : CK => Φ (kcell (c, ck)) := by
    unfold myCells; rw [bigSep_map, bigSep_univ_prod]; rfl
  iintro HX
  imod (Rounds.fund ER (sched (F := F) S1c Y2c) myCells myToks) $$ HX with ⟨Hst, Hr, Hat, Htok⟩
  imodintro
  ihave Hst' := (Entails.of_eq (hX fun g => roundState ER (sched (F := F) S1c Y2c) g 0)) $$ Hst
  ihave Hat' := (Entails.of_eq (hX fun g => atPos ER g 0 ∅ 0)) $$ Hat
  ihave Hr' := (Entails.of_eq (hX fun g => reached ER g 0)) $$ Hr
  ihave Htok' := (Entails.of_eq (myToks_eq (F := F))) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj)))
        ∗ bigSep Finset.univ (G (F := F) S1c Y2c)) := by
  unfold u₀
  iintro Hu
  ihave H := (ownU_split _ _) $$ Hu
  icases H with ⟨HP, HX⟩
  imod (fund_mine S1c Y2c) $$ HX with HG
  imodintro
  isplitl [HP] <;> iassumption

/-! ### The global step -/

/-- The exchange cells' semaphores, by kind and offset. -/
def xsem : Fin 4 × Fin 31 → DmaSem sig
  | (0, k) => semAt cc0_scratch7 (k.val + 1) (by omega)
  | (1, k) => semAt cc0_scratch8 (k.val + 1) (by omega)
  | (2, k) => semAt cc0_scratch9 (k.val + 1) (by omega)
  | (3, k) => semAt cc0_scratch10 (k.val + 1) (by omega)
theorem csem_some (ak : Fin 4 × Fin 31) : csem (some ak) = .dma (xsem ak) := by
  rcases ak with ⟨a, k⟩; fin_cases a <;> rfl

/-- The DMA semaphores that are no protocol cell: the input copy's, the 32 output copies', the four at index 0. -/
def lsem : Unit ⊕ (Fin 32 ⊕ Fin 4) → DmaSem sig
  | .inl _ => cc0_scratch6.sem
  | .inr (.inl o) => semAt cc0_scratch11 o.val o.isLt
  | .inr (.inr 0) => semAt cc0_scratch7 0 (by decide)
  | .inr (.inr 1) => semAt cc0_scratch8 0 (by decide)
  | .inr (.inr 2) => semAt cc0_scratch9 0 (by decide)
  | .inr (.inr 3) => semAt cc0_scratch10 0 (by decide)
/-- Every DMA semaphore the launch sorts, once. -/
def jsem : (Fin 4 × Fin 31) ⊕ (Unit ⊕ (Fin 32 ⊕ Fin 4)) → DmaSem sig
  | .inl ak => xsem ak
  | .inr l => lsem l
def jkey : (Fin 4 × Fin 31) ⊕ (Unit ⊕ (Fin 32 ⊕ Fin 4)) → ℕ
  | .inl (a, k) => 2 + 32 * a.val + k.val
  | .inr (.inl _) => 0
  | .inr (.inr (.inl o)) => 129 + o.val
  | .inr (.inr (.inr b)) => 1 + 32 * b.val
theorem jsem_key : ∀ j, (jsem j).val = jkey j := by decide
theorem jsem_injective : Function.Injective jsem := fun x y h => by
  have h' : jkey x = jkey y := by rw [← jsem_key, ← jsem_key, h]
  rcases x with ⟨a, k⟩ | _ | o | b <;> rcases y with ⟨a', k'⟩ | _ | o' | b' <;> simp only [jkey] at h' <;>
    first
    | rfl
    | (exfalso; omega)
    | (have ha : a = a' := Fin.ext (by omega); have hk : k = k' := Fin.ext (by omega); subst ha hk; rfl)
    | (have ho : o = o' := Fin.ext (by omega); subst ho; rfl)
    | (have hb : b = b' := Fin.ext (by omega); subst hb; rfl)

omit [FloatOps F] in
/-- A device's semaphores at zero, sorted: its 125 protocol cells', and the rest. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun ck : CK => semVal (kcell (c, ck)) 0) ∗ locSems (F := F) c) : sProp 𝕄) := by
  have hx : (bigSep Finset.univ fun ak : Fin 4 × Fin 31 => (semVal (kcell (c, some ak)) 0 : sProp 𝕄))
      = bigSep Finset.univ fun ak : Fin 4 × Fin 31 => semVal ((c : Thread nD τ), SemLoc.dma (xsem ak)) 0 :=
    bigSep_congr fun ak _ => by
      show (semVal ((c : Thread nD τ), csem (some ak)) 0 : sProp 𝕄) = _
      rw [csem_some]
  have hsplit : (bigSep Finset.univ fun j => (semVal ((c : Thread nD τ), SemLoc.dma (jsem j)) 0 : sProp 𝕄))
      = iprop((bigSep Finset.univ fun ak : Fin 4 × Fin 31 => semVal ((c : Thread nD τ), SemLoc.dma (xsem ak)) 0) ∗ locSems (F := F) c) := by
    rw [bigSep_univ_sum, bigSep_univ_sum, bigSep_univ_sum, bigSep_univ_of_subsingleton (), bigSep_fin4]
    rfl
  have hall : (Pipeline.ownSems0 (Ix := Unit) (Name := ℕ) (U := UU) (Lvl := ℕ) (Val := Elt F) (τ := τ) osem c : sProp 𝕄)
      ⊢ bigSep Finset.univ fun j => (semVal ((c : Thread nD τ), SemLoc.dma (jsem j)) 0 : sProp 𝕄) :=
    bigSep_along (fun j => some (jsem j)) (fun j j' i hj hj' => jsem_injective ((Option.some.inj hj).trans (Option.some.inj hj').symm))
      (fun q : DmaSem sig => (semVal ((c : Thread nD τ), SemLoc.dma q) 0 : sProp 𝕄))
  have hb : (semVal (kcell (c, none)) 0 : sProp 𝕄) = semVal (barCell c) 0 := rfl
  rw [unscopedSems0_eq, bigSep_univ_option, hx, hb]
  rw [hsplit] at hall
  iintro ⟨Hall, HB⟩
  ihave H := hall $$ Hall
  icases H with ⟨HX, HL⟩
  isplitl [HB HX]
  · isplitl [HB] <;> iassumption
  · iexact HL

theorem core_alloc (c : Dev nD) :
    iprop(Pipeline.ownSems0 (Ix := Unit) (Name := ℕ) (U := UU) (Lvl := ℕ) (Val := Elt F) (τ := τ) osem c ∗ unscopedSems0 c ∗ G (F := F) S1c Y2c c)
      ⊢ |={Set.univ}=> iprop((bigSep Finset.univ fun ck : CK => iprop(∃ κ : ℕ, cellInv ER (sched (F := F) S1c Y2c) κ (kcell (c, ck))))
          ∗ (bigSep Finset.univ fun ck : CK => iprop(atPos ER (kcell (c, ck)) 0 ∅ 0 ∗ reached ER (kcell (c, ck)) 0))
          ∗ bigSep Finset.univ (ownToksAt (F := F) c) ∗ locSems (F := F) c) := by
  unfold G
  iintro ⟨Hos, Hus, Hst, Hat, Htok⟩
  ihave Hv := (sems0_split (F := F) c) $$ [Hos Hus]
  · isplitl [Hos] <;> iassumption
  icases Hv with ⟨Hv, Hloc⟩
  imod (show iprop((bigSep Finset.univ fun ck : CK => semVal (kcell (c, ck)) 0) ∗ bigSep Finset.univ fun ck : CK => roundState ER (sched (F := F) S1c Y2c) (kcell (c, ck)) 0)
      ⊢ (|={Set.univ}=> bigSep Finset.univ fun ck : CK => iprop(∃ κ : ℕ, cellInv ER (sched (F := F) S1c Y2c) κ (kcell (c, ck))) : sProp 𝕄) from by
        rw [← bigSep_sep']
        exact (bigSep_mono fun k _ => (Rounds.body_intro ER (sched (F := F) S1c Y2c) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The devices re-indexed at offset `k + 1`: each takes the place of the device `k + 1` positions before it. -/
def rotE : Dev nD × Fin 31 ≃ Dev nD × Fin 31 where
  toFun x := (rot x.1 (x.2.val + 1), x.2)
  invFun x := (rot x.1 (32 - (x.2.val + 1)), x.2)
  left_inv x := by
    show (rot (rot x.1 (x.2.val + 1)) (32 - (x.2.val + 1)), x.2) = x
    rw [rot_rot_sub x.1 (x.2.val + 1) ⟨by omega, by omega⟩]
  right_inv x := by
    show (rot (rot x.1 (32 - (x.2.val + 1))) (x.2.val + 1), x.2) = x
    rw [rot_sub_rot x.1 (x.2.val + 1) ⟨by omega, by omega⟩]

omit [FloatOps F] in
/-- The tokens dealt to their payers: at offset `k + 1` a device's barrier token and its two receive tokens go to the
    device `k + 1` positions before it; its two send tokens stay. -/
theorem toks_around : (bigSep Finset.univ fun c : Dev nD => bigSep Finset.univ (ownToksAt (F := F) c))
    ⊢ bigSep Finset.univ fun c : Dev nD => bigSep Finset.univ (payToksAt (F := F) c) := by
  have e1 : (bigSep Finset.univ fun c : Dev nD => bigSep Finset.univ (ownToksAt (F := F) c))
      = bigSep Finset.univ fun x : Dev nD × Fin 31 => ownToksAt (F := F) x.1 x.2 :=
    (bigSep_univ_prod (fun x : Dev nD × Fin 31 => ownToksAt (F := F) x.1 x.2)).symm
  have e2 : (bigSep Finset.univ fun c : Dev nD => bigSep Finset.univ (payToksAt (F := F) c))
      = bigSep Finset.univ fun x : Dev nD × Fin 31 => payToksAt (F := F) x.1 x.2 :=
    (bigSep_univ_prod (fun x : Dev nD × Fin 31 => payToksAt (F := F) x.1 x.2)).symm
  rw [e1, e2]
  unfold ownToksAt payToksAt
  rw [bigSep_sep', bigSep_sep', bigSep_sep', bigSep_sep', bigSep_sep', bigSep_sep', bigSep_sep', bigSep_sep',
    bigSep_univ_equiv rotE (fun x : Dev nD × Fin 31 => (dutyTok ER (barCell x.1) 0 (x.2.val + 1) : sProp 𝕄)),
    bigSep_univ_equiv rotE (fun x : Dev nD × Fin 31 => (dutyTok ER (r1Cell x.1 (x.2.val + 1) (by omega)) 0 0 : sProp 𝕄)),
    bigSep_univ_equiv rotE (fun x : Dev nD × Fin 31 => (dutyTok ER (r2Cell x.1 (x.2.val + 1) (by omega)) 0 0 : sProp 𝕄))]
  exact .rfl

theorem ghost_intro (K : Dev nD × CK → ℕ) (c : Dev nD) :
    iprop(records (F := F) S1c Y2c K ∗ (linear (F := F) c ∗ locSems (F := F) c)) ⊢ G' (F := F) S1c Y2c c := by
  unfold G' ghost
  iintro ⟨#HR, Hl, Hloc⟩
  isplitl [Hl]
  · iexists K
    isplitr; · iexact HR
    iexact Hl
  · iexact Hloc

theorem regroup :
    (bigSep Finset.univ fun c : Dev nD => iprop((bigSep Finset.univ fun ck : CK => iprop(∃ κ : ℕ, cellInv ER (sched (F := F) S1c Y2c) κ (kcell (c, ck))))
          ∗ (bigSep Finset.univ fun ck : CK => iprop(atPos ER (kcell (c, ck)) 0 ∅ 0 ∗ reached ER (kcell (c, ck)) 0))
          ∗ bigSep Finset.univ (ownToksAt (F := F) c) ∗ locSems (F := F) c) : sProp 𝕄)
      ⊢ bigSep Finset.univ (G' (F := F) S1c Y2c) := by
  rw [bigSep_sep', bigSep_sep', bigSep_sep', ← bigSep_univ_prod (fun ck : Dev nD × CK => iprop(∃ κ : ℕ, cellInv ER (sched (F := F) S1c Y2c) κ (kcell ck))),
    bigSep_congr (s := Finset.univ) (fun (c : Dev nD) _ => bigSep_sep' Finset.univ (fun ck : CK => (atPos ER (kcell (c, ck)) 0 ∅ 0 : sProp 𝕄)) (fun ck => reached ER (kcell (c, ck)) 0)),
    bigSep_sep', ← bigSep_univ_prod (fun ck : Dev nD × CK => (reached ER (kcell ck) 0 : sProp 𝕄))]
  iintro ⟨HI, ⟨Hat, #HR⟩, Htok, Hloc⟩
  ihave HK := (BI.bigSep_exists_pi Finset.univ (fun (ck : Dev nD × CK) (κ : ℕ) => (cellInv ER (sched (F := F) S1c Y2c) κ (kcell ck) : sProp 𝕄))) $$ HI
  icases HK with ⟨%K, #HI⟩
  ihave Htk := (toks_around (F := F)) $$ Htok
  iapply (bigSep_with_persistent (R := records (F := F) S1c Y2c K) fun c _ => ghost_intro S1c Y2c K c)
  isplitr
  · unfold records; isplitl; · iexact HI
    iexact HR
  · iapply (Entails.of_eq (bigSep_sep' Finset.univ (fun c : Dev nD => linear (F := F) c) (fun c : Dev nD => locSems (F := F) c)).symm)
    isplitl [Hat Htk]
    · iapply ((Entails.of_eq (bigSep_sep' Finset.univ (fun c : Dev nD => bigSep Finset.univ fun ck : CK => (atPos ER (kcell (c, ck)) 0 ∅ 0 : sProp 𝕄))
          (fun c : Dev nD => bigSep Finset.univ (payToksAt (F := F) c))).symm).trans
        (bigSep_mono fun c _ => show _ ⊢ linear (F := F) c from Entails.of_eq (by unfold linear; rfl)))
      isplitl [Hat] <;> iassumption
    · iexact Hloc

theorem glob : (bigSep Finset.univ fun c => iprop(Pipeline.ownSems0 (Ix := Unit) (Name := ℕ) (U := UU) (Lvl := ℕ) (Val := Elt F) (τ := τ) osem c
      ∗ unscopedSems0 c ∗ G (F := F) S1c Y2c c) : sProp 𝕄)
    ⊢ |={Set.univ}=> bigSep Finset.univ (G' (F := F) S1c Y2c) :=
  ((bigSep_mono fun c _ => core_alloc S1c Y2c c).trans (bigSep_fupd _ _)).trans (BI.fupd_mono (regroup S1c Y2c))

/-! ### The launch credit -/

omit [FloatOps F] in
theorem nsmul_tallyAt (g : GSem nD τ sig) : ∀ n : ℕ, n • (tallyAt g () 1 : CellTallies nD τ sig Unit) = tallyAt g () n
  | 0 => by rw [zero_nsmul, tallyAt_zero]
  | n + 1 => by rw [succ_nsmul, nsmul_tallyAt g n, tallyAt_add]

omit [FloatOps F] in
/-- The credit at one offset: every device owes the device `k` positions after it, so each is owed by the device `k` before. -/
theorem creds_at (c : Dev nD) (k : ℕ) (hk : 1 ≤ k ∧ k ≤ 31) (ho : k < 32) :
    (Pipeline.launchCred (fun d => owedAt d k ho) c : sProp 𝕄)
      ⊢ iprop(cred (tallyAt (r2Cell c k ho) () NX) ∗ cred (tallyAt (r1Cell c k ho) () NX) ∗ cred (tallyAt (barCell c) () 1)) := by
  unfold owedAt
  rw [Pipeline.launchCred_add, Pipeline.launchCred_add]
  have h2 := Pipeline.launchCred_tallyAt (τ := τ) (Val := Elt F) (Name := ℕ) (U := UU) (Lvl := ℕ) (SemLoc.dma (semAt cc0_scratch10 k ho)) (fun d => rot d k) (fun d => rot d (32 - k))
      (fun c => rot_sub_rot c k hk) (fun d => rot_rot_sub d k hk) () NX c
  have h1 := Pipeline.launchCred_tallyAt (τ := τ) (Val := Elt F) (Name := ℕ) (U := UU) (Lvl := ℕ) (SemLoc.dma (semAt cc0_scratch8 k ho)) (fun d => rot d k) (fun d => rot d (32 - k))
      (fun c => rot_sub_rot c k hk) (fun d => rot_rot_sub d k hk) () NX c
  have hb := Pipeline.launchCred_tallyAt (τ := τ) (Val := Elt F) (Name := ℕ) (U := UU) (Lvl := ℕ) (SemLoc.reg barS) (fun d => rot d k) (fun d => rot d (32 - k))
      (fun c => rot_sub_rot c k hk) (fun d => rot_rot_sub d k hk) () 1 c
  iintro ⟨⟨H2, H1⟩, HB⟩
  isplitl [H2]
  · iapply h2; iexact H2
  isplitl [H1]
  · iapply h1; iexact H1
  · iapply hb; iexact HB

omit [FloatOps F] in
theorem creds (c : Dev nD) : (Pipeline.launchCred O₀ c : sProp 𝕄) ⊢ credsOf (F := F) c := by
  have hO : (O₀ : Dev nD → CellTallies nD τ sig Unit) = fun d => ∑ k ∈ (Finset.univ : Finset (Fin 31)), owedAt d (k.val + 1) (by omega) := rfl
  have hB : (bigSep Finset.univ fun _ : Fin 31 => (cred (tallyAt (barCell c) () 1) : sProp 𝕄)) = cred (tallyAt (barCell c) () 31) := by
    rw [← Pipeline.cred_finsetSum, Finset.sum_const, Finset.card_univ, Fintype.card_fin, nsmul_tallyAt]
  rw [hO, Pipeline.launchCred_sum]
  refine (bigSep_mono fun k _ => creds_at (F := F) c (k.val + 1) ⟨by omega, by omega⟩ (by omega)).trans (show _ ⊢ (_ : sProp 𝕄) from ?_)
  rw [bigSep_sep', bigSep_sep', hB]
  unfold credsOf
  rw [bigSep_sep']
  iintro ⟨H2, H1, HB⟩
  isplitl [HB]; · iexact HB
  isplitl [H1] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) S1c Y2c c)
      ⊢ |={Set.univ}=> iprop(start (F := F) S1c Y2c m c ∗ emp) := by
  rw [Pipeline.unscopedRestP_none, unscopedRest0_eq]
  unfold G'
  iintro ⟨⟨Ha, Ho⟩, Hlev, Hcr, -, HG, Hloc⟩
  ihave Hc := (creds (F := F) c) $$ Hcr
  imodintro
  unfold start
  isplitl
  · isplitl [HG]; · iexact HG
    isplitl [Hc]; · iexact Hc
    isplitl [Hlev]; · iexact Hlev
    isplitl [Hloc]; · iexact Hloc
    isplitl [Ha] <;> iassumption
  · iempintro

theorem phi0_intro (c : Dev nD) :
    iprop(start (F := F) S1c Y2c m c ∗ Pipeline.prefHeld Pipeline.Prefetch.none c (fun _ => fullShare.right) (fun k => k.elim0) ∗ Pipeline.scopedRest cfg0.spec c)
      ⊢ (dats (F := F) S1c Y2c OUTc m 0 c).Φ 0 := by
  rw [show (dats (F := F) S1c Y2c OUTc m 0 c).Φ 0 = Φ₀ (F := F) S1c Y2c m c from rfl, scopedRest0_eq]
  unfold Φ₀ scratches
  iintro ⟨Hs, -, Hr⟩
  isplitl [Hs]; · iexact Hs
  iexact Hr

/-- What the kernel's exit leaves outside the scoped storage: the argument as it was, the result at its closed form. -/
def Yc (c : Dev nD) : sProp 𝕄 :=
  iprop((((c : Thread nD τ).loc main_arg0) ↦{fullShare} m ((c : Thread nD τ).loc main_arg0))
    ∗ (((c : Thread nD τ).loc main_v1) ↦{fullShare} OUTc c))

theorem phi1_exit (c : Dev nD) :
    (dats (F := F) S1c Y2c OUTc m 0 c).Φ (Fin.last cfg0.N) ⊢ iprop(Yc (F := F) OUTc m c ∗ Pipeline.ownSems0 osem c ∗ Pipeline.scopedRest cfg0.spec c) := by
  rw [show (dats (F := F) S1c Y2c OUTc m 0 c).Φ (Fin.last cfg0.N) = Φ₁ (F := F) OUTc m c from rfl, scopedRest0_eq]
  unfold Φ₁ Yc scratches allSems0 Pipeline.ownSems0
  iintro ⟨Ha, Ho, Hscr, Hsems⟩
  isplitl [Ha Ho]
  · isplitl [Ha] <;> iassumption
  isplitl [Hsems]; · iexact Hsems
  iexact Hscr

theorem waits (c : Dev nD) : (levAts L lv : sProp 𝕄) ⊢ Pipeline.cellsWaits cfgs (dats (F := F) S1c Y2c OUTc m) () 0 c :=
  Pipeline.cellsWaits_intro cfgs (dats (F := F) S1c Y2c OUTc m) () 0 c fun w s t => w.elim0

theorem read_out (c : Dev nD) (s' : Phys nD τ sig (Elt F)) :
    iprop(Yc (F := F) OUTc m c ∗ emp ∗ SI s') ⊢ |={Set.univ}=> iprop(⌜s'.mem.mem ((c : Thread nD τ).loc main_v1) = OUTc c
      ∧ s'.mem.mem ((c : Thread nD τ).loc main_arg0) = m ((c : Thread nD τ).loc main_arg0)⌝ ∗ SI s') := by
  unfold Yc
  iintro ⟨⟨Ha, Ho⟩, -, HSI⟩
  icombine HSI Ha gives %ha
  icombine HSI Ho gives %ho
  imodintro
  isplitr; · ipureintro; exact ⟨Buf.eq_of_forall_mem_univ ho, Buf.eq_of_forall_mem_univ ha⟩
  iexact HSI

/-! ### The run -/

set_option maxRecDepth 100000 in
/-- At the compiled mesh of 32 devices, for any float values, from any memory with zero counters: given every device's
    body from its share of the launch, every weakly fair execution of @main terminates, and every final state has each
    device's result array at `OUTc` and its argument unchanged. -/
theorem run_main (S1c : (c : Dev nD) → Buf (Elt F) (st1.view.loc (c : Thread nD τ))) (Y2c : (c : Dev nD) → Buf (Elt F) (st2.view.loc (c : Thread nD τ)))
    (OUTc : (c : Dev nD) → Buf (Elt F) ((c : Thread nD τ).loc main_v1)) (m : (ℓ : Loc nD τ sig) → Buf (Elt F) ℓ) (ρ : Dev nD → PrngReg)
    (hbody : ∀ c, BodyObligation (dats (F := F) S1c Y2c OUTc m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = OUTc c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats (F := F) S1c Y2c OUTc m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq S1c Y2c OUTc m)
    (hdistinct := winFacts0.arr_inj)
    (O₀ := O₀) (howed₀ := fun _ => rfl) (howedN := fun _ => rfl)
    (L := L) (lv := lv) (hL := L_of_ne) (hwaits := waits S1c Y2c OUTc m)
    (G := G (F := F) S1c Y2c) (G' := G' (F := F) S1c Y2c) (u₀ := u₀)
    (hu₀ := hu₀ S1c Y2c)
    (hglob := glob S1c Y2c)
    (hA := fun _ w => w.elim0) (hpf := fun _ k => k.elim0)
    (X := start (F := F) S1c Y2c m) (Y := Yc (F := F) OUTc m) (Z := fun _ => iprop(emp))
    (hX := start_intro S1c Y2c m ρ) (hin := phi0_intro S1c Y2c OUTc m) (hout := phi1_exit S1c Y2c OUTc m)
    (QY := fun c s => s.mem ((c : Thread nD τ).loc main_v1) = OUTc c ∧ s.mem ((c : Thread nD τ).loc main_arg0) = m ((c : Thread nD τ).loc main_arg0))
    (hY := read_out OUTc m)
    (hQ := fun s h c => (h c).2.2)

/-- info: 'Cert.KernelIdealProto.run_main' depends on axioms: [propext, Classical.choice, Quot.sound] -/
#guard_msgs in #print axioms run_main

end Launch

end Cert.KernelIdealProto

end
-- ==== Proof.KernelProto.lean ====
import proofs.«900784_g7700000000000785_dist_f_of_ar_i_m512_n256_v7x_i32_bf16_1_alg».proof.Proof.Gen.Kernel
import proofs.«900784_g7700000000000785_dist_f_of_ar_i_m512_n256_v7x_i32_bf16_1_alg».proof.Proof.Gen.Kernel.Skeleton
import proofs.«900784_g7700000000000785_dist_f_of_ar_i_m512_n256_v7x_i32_bf16_1_alg».proof.Proof.Gen.Kernel.Launch
import Idealize.ShloMosaic.Lib.Pipeline.Launch
import Idealize.ShloMosaic.Lib.Pipeline.Kit
import Idealize.ShloMosaic.Lib.Ring
import Idealize.ShloMosaic.Lib.Tactic

/-!
# The all-to-all protocol of the fused reduce-scatter / all-gather kernel, on 32 devices

Device `c` signals every other device's barrier semaphore once and waits for 31 units on its own: after that
wait every peer is inside the kernel. In the first exchange it sends, for `k = 1 … 31`, rows
`[16·d, 16·d + 16)` (`d = (c + k) mod 32`) of its narrowed block to slot `k` of device `d`'s first landing
buffer; device `d` adds what landed in its slots to its own rows `[16·d, 16·d + 16)`. In the second exchange
every device sends its 16 result rows to slot `k` of device `(c + k) mod 32`'s second landing buffer, so that
each device collects all 32 row blocks of the result.

The cells of the rounds discipline, per device: the barrier cell (31 duties of one unit, duty `o` paid by the
device `o` positions before the owner), and for each offset `k = 1 … 31` a send and a receive cell of each
exchange, one duty each. Duty `o` of device `d`'s barrier cell hands `d` the payer's two landing slots
`32 - o` (the slots `d` writes on the payer) and the fact that their receive cells stand at round 0.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds, this protocol's rounds (duties numbered), the local transfers' counters -/

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## The ring of devices -/

/-- the device `k` positions after `c` -/
def rot (c : Dev nD) (k : ℕ) : Dev nD := ⟨(c.val + k) % 32, Nat.mod_lt _ (by decide)⟩

theorem rot_val (c : Dev nD) (k : ℕ) : (rot c k).val = (c.val + k) % 32 := rfl
theorem rot_rot_sub (c : Dev nD) (k : ℕ) (hk : 1 ≤ k ∧ k ≤ 31) : rot (rot c k) (32 - k) = c := by
  apply Fin.ext; have h : c.val < 32 := c.isLt; show ((c.val + k) % 32 + (32 - k)) % 32 = c.val; omega
theorem rot_sub_rot (c : Dev nD) (k : ℕ) (hk : 1 ≤ k ∧ k ≤ 31) : rot (rot c (32 - k)) k = c := by
  apply Fin.ext; have h : c.val < 32 := c.isLt; show ((c.val + (32 - k)) % 32 + k) % 32 = c.val; omega
theorem rot_ne (c : Dev nD) (k : ℕ) (hk : 1 ≤ k ∧ k ≤ 31) : rot c k ≠ c := by
  intro h; have h1 := congrArg Fin.val h; have h2 : c.val < 32 := c.isLt; simp only [rot_val] at h1; omega

/-! ## The buffers -/

abbrev tR : Memref sig .tc .hbm S512x256 .f32 := Memref.whole main_arg0
abbrev oR : Memref sig .tc .hbm S512x256 .f32 := Memref.whole main_v1
abbrev tV : Memref sig .tc .vmem S512x256 .f32 := Memref.whole cc0_scratch0
abbrev st1 : Memref sig .tc .vmem S512x256 .bf16 := Memref.whole cc0_scratch1
abbrev cm1 : Memref sig .tc .vmem S32x16x256 .bf16 := Memref.whole cc0_scratch2
abbrev st2 : Memref sig .tc .vmem S16x256 .bf16 := Memref.whole cc0_scratch3
abbrev cm2 : Memref sig .tc .vmem S32x16x256 .bf16 := Memref.whole cc0_scratch4
abbrev sto : Memref sig .tc .vmem S32x16x256 .f32 := Memref.whole cc0_scratch5

theorem slot_inb (o : ℕ) (ho : o < 32) : ∀ a, (![o, 0, 0] : Fin 3 → Nat) a + S1x16x256.size a ≤ S32x16x256.size a := by
  intro a; fin_cases a <;> simp [Shape.size] <;> omega
/-- slot `o` of a 32-slot buffer, as the program spells a transfer's destination -/
abbrev slotM {e : EltTy} (M : Memref sig .tc .vmem S32x16x256 e) (o : ℕ) (ho : o < 32) : Memref sig .tc .vmem S16x256 e :=
  (M.slice (Rect.unit (s := S32x16x256) ![o, 0, 0] S1x16x256.size (slot_inb o ho)) (fun _ => rfl)).squeeze S16x256 squeezes_S1x16x256_S16x256

theorem off1_inb (c : Dev nD) (k : ℕ) (hk : 1 ≤ k ∧ k ≤ 31) : ∀ a, (k0_off1 c (BitVec.ofNat 32 k)) a + S16x256.size a ≤ S512x256.size a := by
  have := k0_off1_inb c ⟨k - 1, by omega⟩
  have e : 1 + (k - 1) = k := by omega
  simpa only [e] using this
/-- the rows of the narrowed block sent at offset `k`, as the program spells the transfer's source -/
abbrev srcM1 (c : Dev nD) (k : ℕ) (hk : 1 ≤ k ∧ k ≤ 31) : Memref sig .tc .vmem S16x256 .bf16 :=
  st1.slice (Rect.unit (s := S512x256) (k0_off1 c (BitVec.ofNat 32 k)) S16x256.size (off1_inb c k hk)) (fun _ => rfl)

/-! ## The cells -/

abbrev barS : Sem sig := (SemArray.scalar (sig.barrier 0 rfl) : Sems sig S_).sem
theorem sem_inb (o : ℕ) (ho : o < 32) : ∀ a, (![o] : Fin 1 → Nat) a + S1.size a ≤ S32.size a := by
  intro a; fin_cases a; simp [Shape.size]; omega
abbrev semAt (A : DmaSems sig S32) (o : ℕ) (ho : o < 32) : DmaSem sig :=
  ((A.slice (Rect.unit (s := S32) ![o] S1.size (sem_inb o ho))).squeeze S_ squeezes_S1_S_).sem
abbrev barCell (c : Dev nD) : GSem nD τ sig := ((c : Thread nD τ), .reg barS)
abbrev s1Cell (c : Dev nD) (o : ℕ) (ho : o < 32) : GSem nD τ sig := ((c : Thread nD τ), .dma (semAt cc0_scratch7 o ho))
abbrev r1Cell (c : Dev nD) (o : ℕ) (ho : o < 32) : GSem nD τ sig := ((c : Thread nD τ), .dma (semAt cc0_scratch8 o ho))
abbrev s2Cell (c : Dev nD) (o : ℕ) (ho : o < 32) : GSem nD τ sig := ((c : Thread nD τ), .dma (semAt cc0_scratch9 o ho))
abbrev r2Cell (c : Dev nD) (o : ℕ) (ho : o < 32) : GSem nD τ sig := ((c : Thread nD τ), .dma (semAt cc0_scratch10 o ho))

/-- The units a 16 × 256 two-byte transfer credits. -/
abbrev NX : ℕ := (slotM cm1 1 (by decide)).view.dmaCredit
theorem NX_pos : 0 < NX := View.dmaCredit_pos _ (by decide)

/-! ## What the transfers carry -/

section Sched
variable (S1c : (c : Dev nD) → Buf (Elt F) (st1.view.loc (c : Thread nD τ)))
variable (Y2c : (c : Dev nD) → Buf (Elt F) (st2.view.loc (c : Thread nD τ)))

/-- Slot `j` of device `c`'s first landing buffer once its transfer has landed: the rows `[16·c, 16·c + 16)` of the
    narrowed block of the device `j` positions before `c`. -/
def land1 (c : Dev nD) (j : ℕ) (hj : 1 ≤ j ∧ j ≤ 31) : Buf (Elt F) ((slotM cm1 j (by omega)).view.loc (c : Thread nD τ)) :=
  (slotM cm1 j (by omega)).view.write (Elt F) (slotM cm1 j (by omega)).view.junk
    ((srcM1 (rot c (32 - j)) j hj).view.read (Elt F) (S1c (rot c (32 - j)))) Finset.univ
/-- Slot `j` of device `c`'s second landing buffer once landed: the result rows of the device `j` positions before `c`. -/
def land2 (c : Dev nD) (j : ℕ) (hj : 1 ≤ j ∧ j ≤ 31) : Buf (Elt F) ((slotM cm2 j (by omega)).view.loc (c : Thread nD τ)) :=
  (slotM cm2 j (by omega)).view.write (Elt F) (slotM cm2 j (by omega)).view.junk
    (st2.view.read (Elt F) (Y2c (rot c (32 - j)))) Finset.univ

/-- What device `p`'s barrier signal hands the signalled device: `p`'s two landing slots `j` and that their receive cells stand at round 0. -/
def barPay (p : Dev nD) (j : ℕ) (hj : j < 32) : sProp 𝕄 :=
  iprop((∃ f, ((slotM cm1 j hj).view.loc (p : Thread nD τ) ↦[(slotM cm1 j hj).view.set]{fullShare} f : sProp 𝕄))
    ∗ (∃ f, ((slotM cm2 j hj).view.loc (p : Thread nD τ) ↦[(slotM cm2 j hj).view.set]{fullShare} f : sProp 𝕄))
    ∗ reached ER (r1Cell p j hj) 0 ∗ reached ER (r2Cell p j hj) 0)

/-- Which exchange cell a DMA semaphore is, and its offset: the four arrays of 32 follow the one input-copy semaphore. -/
def decode (q : DmaSem sig) : Option (Fin 4 × ℕ) :=
  if 2 ≤ q.val ∧ q.val ≤ 32 then some (0, q.val - 1) else if 34 ≤ q.val ∧ q.val ≤ 64 then some (1, q.val - 33)
  else if 66 ≤ q.val ∧ q.val ≤ 96 then some (2, q.val - 65) else if 98 ≤ q.val ∧ q.val ≤ 128 then some (3, q.val - 97) else none

def xferPay (c : Dev nD) (a : Fin 4) (k : ℕ) : sProp 𝕄 :=
  if hk : 1 ≤ k ∧ k ≤ 31 then
    match a with
    | 0 => ((srcM1 c k hk).view.loc (c : Thread nD τ) ↦[(srcM1 c k hk).view.set]{fullShare} S1c c : sProp 𝕄)
    | 1 => ((slotM cm1 k (by omega)).view.loc (c : Thread nD τ) ↦[(slotM cm1 k (by omega)).view.set]{fullShare} land1 S1c c k hk : sProp 𝕄)
    | 2 => (st2.view.loc (c : Thread nD τ) ↦[st2.view.set]{Transfers.shareTokN fullShare (k - 1)} Y2c c : sProp 𝕄)
    | 3 => ((slotM cm2 k (by omega)).view.loc (c : Thread nD τ) ↦[(slotM cm2 k (by omega)).view.set]{fullShare} land2 Y2c c k hk : sProp 𝕄)
  else iprop(emp)

/-- One round. A barrier cell has the duties `1 … 31` of one unit; an exchange cell one duty `0` of a transfer's credit. -/
def sched : Rounds.Schedule (GSem nD τ sig) ℕ 𝕄 where
  duties g r := if r = 0 ∧ g.1.2 = .tc then
      (match g.2 with
        | .reg s => if s = barS then Finset.Icc 1 31 else ∅
        | .dma q => if (decode q).isSome then {0} else ∅)
    else ∅
  amount g _ _ := if g.2 = .reg barS then 1 else NX
  payload g _ d := match g.2 with
    | .reg s => if h : s = barS ∧ 1 ≤ d ∧ d ≤ 31 then barPay (F := F) (rot g.1.1 (32 - d)) (32 - d) (by omega) else iprop(emp)
    | .dma q => match decode q with
      | some (a, k) => xferPay S1c Y2c g.1.1 a k
      | none => iprop(emp)
  amount_pos g _ _ _ := by
    by_cases h : g.2 = .reg barS
    · rw [if_pos h]; exact Nat.one_pos
    · rw [if_neg h]; exact NX_pos

instance sched_payload_storable (g : GSem nD τ sig) (r : ℕ) (d : ℕ) :
    BI.Storable (upEmb : UEmb _ 𝕄) ((sched (F := F) S1c Y2c).payload g r d) := by
  dsimp only [sched]
  unfold barPay xferPay
  (repeat' split) <;> infer_instance

end Sched

/-! ## The schedule's tables -/

section Tables
variable (S1c : (c : Dev nD) → Buf (Elt F) (st1.view.loc (c : Thread nD τ)))
variable (Y2c : (c : Dev nD) → Buf (Elt F) (st2.view.loc (c : Thread nD τ)))
variable (c : Dev nD)

theorem duties_bar : (sched (F := F) S1c Y2c).duties (barCell c) 0 = Finset.Icc 1 31 := by
  dsimp only [sched]; rw [if_pos ⟨rfl, rfl⟩]; exact if_pos rfl
theorem amount_bar (d : ℕ) : (sched (F := F) S1c Y2c).amount (barCell c) 0 d = 1 := by dsimp only [sched]; exact if_pos rfl
theorem amount_dma (q : DmaSem sig) (r d : ℕ) : (sched (F := F) S1c Y2c).amount ((c : Thread nD τ), .dma q) r d = NX := by
  dsimp only [sched]; exact if_neg (fun h => by cases h)
theorem expect_bar : (sched (F := F) S1c Y2c).expect (barCell c) 0 = 31 := by
  unfold Schedule.expect Schedule.amountOf
  rw [duties_bar, Finset.sum_congr rfl fun d _ => amount_bar S1c Y2c c d, Finset.sum_const, smul_eq_mul, Nat.card_Icc]

theorem duties_dma (q : DmaSem sig) (a : Fin 4) (k : ℕ) (h : decode q = some (a, k)) :
    (sched (F := F) S1c Y2c).duties ((c : Thread nD τ), .dma q) 0 = {0} := by
  dsimp only [sched]; rw [if_pos ⟨rfl, rfl⟩, h]; rfl
theorem expect_dma (q : DmaSem sig) (a : Fin 4) (k : ℕ) (h : decode q = some (a, k)) :
    (sched (F := F) S1c Y2c).expect ((c : Thread nD τ), .dma q) 0 = NX := by
  unfold Schedule.expect Schedule.amountOf; rw [duties_dma S1c Y2c c q a k h, Finset.sum_singleton, amount_dma]
theorem duties_later (g : GSem nD τ sig) : ∀ r, 1 ≤ r → (sched (F := F) S1c Y2c).duties g r = ∅ :=
  fun r hr => by dsimp only [sched]; rw [if_neg fun h => by omega]
theorem payload_dma (q : DmaSem sig) (a : Fin 4) (k : ℕ) (h : decode q = some (a, k)) (r d : ℕ) :
    (sched (F := F) S1c Y2c).payload ((c : Thread nD τ), .dma q) r d = xferPay S1c Y2c c a k := by
  dsimp only [sched]; rw [h]

end Tables

omit [FloatOps F] in
theorem barPay_congr {p p' : Dev nD} (h : p = p') (j : ℕ) (hj : j < 32) : barPay (F := F) p j hj = barPay p' j hj := by subst h; rfl

/-! ## What each device owes at launch; the levels -/

/-- What device `c` owes at offset `k`: the credit of its two transfers into the receive cells of the device `k`
    positions after it, and one unit on that device's barrier cell. -/
def owedAt (c : Dev nD) (k : ℕ) (ho : k < 32) : CellTallies nD τ sig Unit :=
  tallyAt (r2Cell (rot c k) k ho) () NX + tallyAt (r1Cell (rot c k) k ho) () NX + tallyAt (barCell (rot c k)) () 1
def O₀ (c : Dev nD) : CellTallies nD τ sig Unit := ∑ k : Fin 31, owedAt c (k.val + 1) (by omega)

def L (g : GSem nD τ sig) : Finset Unit := if g.1.2 = .tc then {()} else ∅
/-- Barrier cells at 1, the first exchange's receive cells at 2, the second's at 3, every other cell at 0: a device
    waits on a cell only while everything it still owes lies strictly above it. -/
def lv (g : GSem nD τ sig) (_ : Unit) : ℕ := match g.2 with
  | .reg s => if s = barS then 1 else 0
  | .dma q => match decode q with
    | some (1, _) => 2
    | some (3, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The cells by index, and each device's share of the ghost state -/

/-- A device's cells under the rounds discipline: its barrier cell (`none`) and, per kind (first send, first receive,
    second send, second receive) and offset `k + 1`, an exchange cell. -/
abbrev CK : Type := Option (Fin 4 × Fin 31)

def csem : CK → SemLoc sig
  | none => .reg barS
  | some (0, k) => .dma (semAt cc0_scratch7 (k.val + 1) (by omega))
  | some (1, k) => .dma (semAt cc0_scratch8 (k.val + 1) (by omega))
  | some (2, k) => .dma (semAt cc0_scratch9 (k.val + 1) (by omega))
  | some (3, k) => .dma (semAt cc0_scratch10 (k.val + 1) (by omega))
abbrev kcell (ck : Dev nD × CK) : GSem nD τ sig := ((ck.1 : Thread nD τ), csem ck.2)

section Ghost
variable (S1c : (c : Dev nD) → Buf (Elt F) (st1.view.loc (c : Thread nD τ)))
variable (Y2c : (c : Dev nD) → Buf (Elt F) (st2.view.loc (c : Thread nD τ)))
variable (OUTc : (c : Dev nD) → Buf (Elt F) ((c : Thread nD τ).loc main_v1))
variable (m : (ℓ : Loc nD τ sig) → Buf (Elt F) ℓ) (ρ : Dev nD → PrngReg)

/-- Every cell's invariant under the name the launch allocated it at, and that every cell stands at round 0. -/
def records (K : Dev nD × CK → ℕ) : sProp 𝕄 :=
  iprop((bigSep Finset.univ fun ck : Dev nD × CK => cellInv ER (sched (F := F) S1c Y2c) (K ck) (kcell ck))
    ∗ bigSep Finset.univ fun ck : Dev nD × CK => reached ER (kcell ck) 0)
instance records_persistent (K : Dev nD × CK → ℕ) : BI.Persistent (records (F := F) S1c Y2c K) := by unfold records; infer_instance

/-- The tokens of the five duties device `c` pays at offset `k + 1`: the barrier unit of the device `k + 1` after it,
    and the send and receive duty of each of its two transfers to that device. -/
def payToksAt (c : Dev nD) (k : Fin 31) : sProp 𝕄 :=
  iprop(dutyTok ER (barCell (rot c (k.val + 1))) 0 (k.val + 1)
    ∗ dutyTok ER (s1Cell c (k.val + 1) (by omega)) 0 0 ∗ dutyTok ER (r1Cell (rot c (k.val + 1)) (k.val + 1) (by omega)) 0 0
    ∗ dutyTok ER (s2Cell c (k.val + 1) (by omega)) 0 0 ∗ dutyTok ER (r2Cell (rot c (k.val + 1)) (k.val + 1) (by omega)) 0 0)
/-- What stays with device `c`: its positions at round 0 of its own cells, and the tokens of the duties it pays. -/
def linear (c : Dev nD) : sProp 𝕄 :=
  iprop((bigSep Finset.univ fun ck : CK => atPos ER (kcell (c, ck)) 0 ∅ 0) ∗ bigSep Finset.univ (payToksAt (F := F) c))
def ghost (K : Dev nD × CK → ℕ) (c : Dev nD) : sProp 𝕄 := iprop(records (F := F) S1c Y2c K ∗ linear (F := F) c)

/-- The credit the launch deals device `c`: the 31 units its peers owe its barrier cell, and a transfer's credit on each receive cell. -/
def credsOf (c : Dev nD) : sProp 𝕄 :=
  iprop(cred (tallyAt (barCell c) () 31)
    ∗ bigSep Finset.univ fun k : Fin 31 => iprop(cred (tallyAt (r1Cell c (k.val + 1) (by omega)) () NX) ∗ cred (tallyAt (r2Cell c (k.val + 1) (by omega)) () NX)))
/-- The semaphores no other device touches, at zero: the input copy's, the 32 output copies', and the four index-0 semaphores the kernel never uses. -/
def locSems (c : Dev nD) : sProp 𝕄 :=
  iprop(semVal ((c : Thread nD τ), .dma cc0_scratch6.sem) 0
    ∗ (bigSep Finset.univ fun o : Fin 32 => semVal ((c : Thread nD τ), .dma (semAt cc0_scratch11 o.val o.isLt)) 0)
    ∗ semVal (s1Cell c 0 (by decide)) 0 ∗ semVal (r1Cell c 0 (by decide)) 0 ∗ semVal (s2Cell c 0 (by decide)) 0 ∗ semVal (r2Cell c 0 (by decide)) 0)
/-- Every DMA semaphore of the device at zero: what the kernel's exit hands back. -/
def allSems0 (c : Dev nD) : sProp 𝕄 := bigSep Finset.univ fun q : DmaSem sig => semVal ((c : Thread nD τ), .dma q) 0
/-- The six scratch buffers, each whole at some contents. -/
def scratches (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))

/-- What device `c`'s kernel starts from, scratch apart. -/
def start (c : Dev nD) : sProp 𝕄 :=
  iprop((∃ K, ghost (F := F) S1c Y2c K c) ∗ credsOf (F := F) c ∗ levAts L lv ∗ locSems (F := F) c
    ∗ (((c : Thread nD τ).loc main_arg0) ↦{fullShare} m ((c : Thread nD τ).loc main_arg0))
    ∗ (((c : Thread nD τ).loc main_v1) ↦{fullShare} m ((c : Thread nD τ).loc main_v1)))
def Φ₀ (c : Dev nD) : sProp 𝕄 := iprop(start (F := F) S1c Y2c m c ∗ scratches (F := F) c)
/-- After the kernel: the argument as it was, the result at its closed form, the scratch buffers back, every DMA semaphore at zero. -/
def Φ₁ (c : Dev nD) : sProp 𝕄 :=
  iprop((((c : Thread nD τ).loc main_arg0) ↦{fullShare} m ((c : Thread nD τ).loc main_arg0))
    ∗ (((c : Thread nD τ).loc main_v1) ↦{fullShare} OUTc c) ∗ scratches (F := F) c ∗ allSems0 (F := F) c)

/-- The pipeline library's proof data: no window; the invariant before and after the one point. -/
def dats (_ : Fin 1) (c : Dev nD) : Dat τ (Elt F) Unit ℕ UU ℕ cfg0 c where
  A w := w.elim0
  after w _ := w.elim0
  Φ t := match t with
    | ⟨0, _⟩ => Φ₀ (F := F) S1c Y2c m c
    | ⟨_ + 1, _⟩ => Φ₁ (F := F) OUTc m c
  q _ := fullShare
  owed t := match t with
    | ⟨0, _⟩ => O₀ c
    | ⟨_ + 1, _⟩ => 0

end Ghost

-- From here on the device `k` positions after another is never computed: it is told from the device itself, and from
-- the device at another offset, by its name alone.
attribute [irreducible] rot

end Cert.KernelProto
end
-- ==== Proof.KernelLaunch.lean ====
import proofs.«900784_g7700000000000785_dist_f_of_ar_i_m512_n256_v7x_i32_bf16_1_alg».proof.Proof.KernelProto

/-!
# The launch of the all-to-all kernel on 32 devices

From "every device's body is proved from what it starts with" to the run of the whole mesh. The launch's ghost
element funds the pipeline library's (empty) share and this protocol's 125 cells per device at round 0; under one
update every device's cells get their invariants from its semaphore counters at zero, and the duty tokens are dealt
to the devices that pay them: device `c` pays, at offset `k`, the barrier unit and the two receive duties of the
device `k` positions after it, and its own two send duties. The credit each device is dealt is the 31 barrier
units its peers owe it and one transfer's credit on each of its receive cells.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores: every DMA semaphore; the barrier semaphore is the one unscoped semaphore -/

abbrev osem : DmaSem sig → SemLoc sig := fun q => .dma q

theorem ownSemFacts : Pipeline.OwnSemFacts cfg0.spec osem :=
  ⟨by decide, fun a b h => by cases h; rfl, fun k w s => w.elim0⟩

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and tokens the launch element is taken at -/

/-- A semaphore's place among the core's semaphores: the regular ones after every DMA semaphore. -/
def semKey : SemLoc sig → ℕ
  | .reg s => 1000 + s.val
  | .dma q => q.val
/-- The place of a cell's semaphore, by kind and offset: the four arrays of 32 follow the input copy's one. -/
def ckKey : CK → ℕ
  | none => 1000
  | some (a, k) => 2 + 32 * a.val + k.val
theorem csem_key : ∀ ck : CK, semKey (csem ck) = ckKey ck := by decide

theorem csem_injective : Function.Injective csem := fun x y h => by
  have h' : ckKey x = ckKey y := by rw [← csem_key, ← csem_key, h]
  rcases x with _ | ⟨a, k⟩ <;> rcases y with _ | ⟨b, l⟩ <;> simp only [ckKey] at h'
  · rfl
  · omega
  · omega
  · have ha : a = b := Fin.ext (by omega)
    have hk : k = l := Fin.ext (by omega)
    subst ha hk; rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def myCells : Finset (GSem nD τ sig) := Finset.univ.map ⟨kcell, kcell_injective⟩

/-- The duty tokens of a device's own cells as minted, by offset `k + 1`: the barrier cell's duty `k + 1`, and the one
    duty of each of the four exchange cells at that offset. -/
def tokCK : Fin 31 × Option (Fin 4) → CK × ℕ
  | (k, none) => (none, k.val + 1)
  | (k, some a) => (some (a, k), 0)
theorem tokCK_injective : Function.Injective tokCK := by
  rintro ⟨k, _ | a⟩ ⟨k', _ | a'⟩ h
  · have h2 : k.val + 1 = k'.val + 1 := congrArg Prod.snd h
    have : k = k' := Fin.ext (by omega)
    subst this; rfl
  · exact absurd (show (none : CK) = some (a', k') from congrArg Prod.fst h) (fun h' => by cases h')
  · exact absurd (show (some (a, k) : CK) = none from congrArg Prod.fst h) (fun h' => by cases h')
  · have h1 : (some (a, k) : CK) = some (a', k') := congrArg Prod.fst h
    cases h1; rfl
abbrev tokOf (x : Dev nD × Fin 31 × Option (Fin 4)) : GSem nD τ sig × ℕ × ℕ := (kcell (x.1, (tokCK x.2).1), 0, (tokCK x.2).2)
theorem tokOf_injective : Function.Injective tokOf := by
  rintro ⟨c, kj⟩ ⟨c', kj'⟩ h
  have h1 : (c, (tokCK kj).1) = (c', (tokCK kj').1) := kcell_injective (congrArg Prod.fst h)
  have h2 : (tokCK kj).2 = (tokCK kj').2 := congrArg (fun x : GSem nD τ sig × ℕ × ℕ => x.2.2) h
  have hc : c = c' := congrArg Prod.fst h1
  have h3 : (tokCK kj).1 = (tokCK kj').1 := congrArg Prod.snd h1
  subst hc
  rw [tokCK_injective (Prod.ext h3 h2)]
def myToks : Finset (GSem nD τ sig × ℕ × ℕ) := Finset.univ.map ⟨tokOf, tokOf_injective⟩

def u₀ : UU := (initOf (Pipeline.cells cfgs cellOf_inj) (Pipeline.launchToks cfgs cellOf_inj), (initOf myCells myToks, 1))

/-- The tokens of device `c`'s own cells at offset `k + 1`. -/
def ownToksAt (c : Dev nD) (k : Fin 31) : sProp 𝕄 :=
  iprop(dutyTok ER (barCell c) 0 (k.val + 1)
    ∗ dutyTok ER (s1Cell c (k.val + 1) (by omega)) 0 0 ∗ dutyTok ER (r1Cell c (k.val + 1) (by omega)) 0 0
    ∗ dutyTok ER (s2Cell c (k.val + 1) (by omega)) 0 0 ∗ dutyTok ER (r2Cell c (k.val + 1) (by omega)) 0 0)

section Launch
variable (S1c : (c : Dev nD) → Buf (Elt F) (st1.view.loc (c : Thread nD τ)))
variable (Y2c : (c : Dev nD) → Buf (Elt F) (st2.view.loc (c : Thread nD τ)))
variable (OUTc : (c : Dev nD) → Buf (Elt F) ((c : Thread nD τ).loc main_v1))
variable (m : (ℓ : Loc nD τ sig) → Buf (Elt F) ℓ) (ρ : Dev nD → PrngReg)

/-- What the launch element deals device `c` (the theorem's `G`). -/
def G (c : Dev nD) : sProp 𝕄 :=
  iprop((bigSep Finset.univ fun ck : CK => roundState ER (sched (F := F) S1c Y2c) (kcell (c, ck)) 0)
    ∗ (bigSep Finset.univ fun ck : CK => iprop(atPos ER (kcell (c, ck)) 0 ∅ 0 ∗ reached ER (kcell (c, ck)) 0))
    ∗ bigSep Finset.univ (ownToksAt (F := F) c))

/-- What the global step makes of it (`G'`): the device's share of the ghost state, and the semaphores no protocol
    cell stands on, still at zero. -/
def G' (c : Dev nD) : sProp 𝕄 := iprop((∃ K, ghost (F := F) S1c Y2c K c) ∗ locSems (F := F) c)

theorem share_eq (c : Dev nD) (w : Fin cfg0.W) : (dats (F := F) S1c Y2c OUTc m 0 c).share w = fullShare := w.elim0

/-! ### The launch element -/

omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

omit [FloatOps F] in
theorem bigSep_univ_option {α : Type} [Fintype α] (Φ : Option α → sProp 𝕄) :
    bigSep Finset.univ Φ = iprop(Φ none ∗ bigSep Finset.univ fun a => Φ (some a)) := by
  rw [bigSep_univ_equiv (Equiv.optionEquivSumPUnit.{0, 0} α).symm Φ, bigSep_univ_sum, bigSep_univ_of_subsingleton (PUnit.unit : PUnit.{1})]
  exact BI.Entails.antisymm BI.sep_comm BI.sep_comm

omit [FloatOps F] in
theorem myToks_eq : bigSep myToks (fun x => (dutyTok ER x.1 x.2.1 x.2.2 : sProp 𝕄)) = bigSep Finset.univ fun c : Dev nD => bigSep Finset.univ (ownToksAt (F := F) c) := by
  unfold myToks; rw [bigSep_map, bigSep_univ_prod]
  refine bigSep_congr fun c _ => ?_
  rw [bigSep_univ_prod]
  exact bigSep_congr fun k _ => by unfold ownToksAt; rw [bigSep_univ_option, bigSep_fin4]; rfl

theorem fund_mine : BI.own (ER (initOf myCells myToks)) ⊢ (|==> bigSep Finset.univ (G (F := F) S1c Y2c) : sProp 𝕄) := by
  have hX (Φ : GSem nD τ sig → sProp 𝕄) : bigSep myCells Φ = bigSep Finset.univ fun c : Dev nD => bigSep Finset.univ fun ck : CK => Φ (kcell (c, ck)) := by
    unfold myCells; rw [bigSep_map, bigSep_univ_prod]; rfl
  iintro HX
  imod (Rounds.fund ER (sched (F := F) S1c Y2c) myCells myToks) $$ HX with ⟨Hst, Hr, Hat, Htok⟩
  imodintro
  ihave Hst' := (Entails.of_eq (hX fun g => roundState ER (sched (F := F) S1c Y2c) g 0)) $$ Hst
  ihave Hat' := (Entails.of_eq (hX fun g => atPos ER g 0 ∅ 0)) $$ Hat
  ihave Hr' := (Entails.of_eq (hX fun g => reached ER g 0)) $$ Hr
  ihave Htok' := (Entails.of_eq (myToks_eq (F := F))) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj)))
        ∗ bigSep Finset.univ (G (F := F) S1c Y2c)) := by
  unfold u₀
  iintro Hu
  ihave H := (ownU_split _ _) $$ Hu
  icases H with ⟨HP, HX⟩
  imod (fund_mine S1c Y2c) $$ HX with HG
  imodintro
  isplitl [HP] <;> iassumption

/-! ### The global step -/

/-- The exchange cells' semaphores, by kind and offset. -/
def xsem : Fin 4 × Fin 31 → DmaSem sig
  | (0, k) => semAt cc0_scratch7 (k.val + 1) (by omega)
  | (1, k) => semAt cc0_scratch8 (k.val + 1) (by omega)
  | (2, k) => semAt cc0_scratch9 (k.val + 1) (by omega)
  | (3, k) => semAt cc0_scratch10 (k.val + 1) (by omega)
theorem csem_some (ak : Fin 4 × Fin 31) : csem (some ak) = .dma (xsem ak) := by
  rcases ak with ⟨a, k⟩; fin_cases a <;> rfl

/-- The DMA semaphores that are no protocol cell: the input copy's, the 32 output copies', the four at index 0. -/
def lsem : Unit ⊕ (Fin 32 ⊕ Fin 4) → DmaSem sig
  | .inl _ => cc0_scratch6.sem
  | .inr (.inl o) => semAt cc0_scratch11 o.val o.isLt
  | .inr (.inr 0) => semAt cc0_scratch7 0 (by decide)
  | .inr (.inr 1) => semAt cc0_scratch8 0 (by decide)
  | .inr (.inr 2) => semAt cc0_scratch9 0 (by decide)
  | .inr (.inr 3) => semAt cc0_scratch10 0 (by decide)
/-- Every DMA semaphore the launch sorts, once. -/
def jsem : (Fin 4 × Fin 31) ⊕ (Unit ⊕ (Fin 32 ⊕ Fin 4)) → DmaSem sig
  | .inl ak => xsem ak
  | .inr l => lsem l
def jkey : (Fin 4 × Fin 31) ⊕ (Unit ⊕ (Fin 32 ⊕ Fin 4)) → ℕ
  | .inl (a, k) => 2 + 32 * a.val + k.val
  | .inr (.inl _) => 0
  | .inr (.inr (.inl o)) => 129 + o.val
  | .inr (.inr (.inr b)) => 1 + 32 * b.val
theorem jsem_key : ∀ j, (jsem j).val = jkey j := by decide
theorem jsem_injective : Function.Injective jsem := fun x y h => by
  have h' : jkey x = jkey y := by rw [← jsem_key, ← jsem_key, h]
  rcases x with ⟨a, k⟩ | _ | o | b <;> rcases y with ⟨a', k'⟩ | _ | o' | b' <;> simp only [jkey] at h' <;>
    first
    | rfl
    | (exfalso; omega)
    | (have ha : a = a' := Fin.ext (by omega); have hk : k = k' := Fin.ext (by omega); subst ha hk; rfl)
    | (have ho : o = o' := Fin.ext (by omega); subst ho; rfl)
    | (have hb : b = b' := Fin.ext (by omega); subst hb; rfl)

omit [FloatOps F] in
/-- A device's semaphores at zero, sorted: its 125 protocol cells', and the rest. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun ck : CK => semVal (kcell (c, ck)) 0) ∗ locSems (F := F) c) : sProp 𝕄) := by
  have hx : (bigSep Finset.univ fun ak : Fin 4 × Fin 31 => (semVal (kcell (c, some ak)) 0 : sProp 𝕄))
      = bigSep Finset.univ fun ak : Fin 4 × Fin 31 => semVal ((c : Thread nD τ), SemLoc.dma (xsem ak)) 0 :=
    bigSep_congr fun ak _ => by
      show (semVal ((c : Thread nD τ), csem (some ak)) 0 : sProp 𝕄) = _
      rw [csem_some]
  have hsplit : (bigSep Finset.univ fun j => (semVal ((c : Thread nD τ), SemLoc.dma (jsem j)) 0 : sProp 𝕄))
      = iprop((bigSep Finset.univ fun ak : Fin 4 × Fin 31 => semVal ((c : Thread nD τ), SemLoc.dma (xsem ak)) 0) ∗ locSems (F := F) c) := by
    rw [bigSep_univ_sum, bigSep_univ_sum, bigSep_univ_sum, bigSep_univ_of_subsingleton (), bigSep_fin4]
    rfl
  have hall : (Pipeline.ownSems0 (Ix := Unit) (Name := ℕ) (U := UU) (Lvl := ℕ) (Val := Elt F) (τ := τ) osem c : sProp 𝕄)
      ⊢ bigSep Finset.univ fun j => (semVal ((c : Thread nD τ), SemLoc.dma (jsem j)) 0 : sProp 𝕄) :=
    bigSep_along (fun j => some (jsem j)) (fun j j' i hj hj' => jsem_injective ((Option.some.inj hj).trans (Option.some.inj hj').symm))
      (fun q : DmaSem sig => (semVal ((c : Thread nD τ), SemLoc.dma q) 0 : sProp 𝕄))
  have hb : (semVal (kcell (c, none)) 0 : sProp 𝕄) = semVal (barCell c) 0 := rfl
  rw [unscopedSems0_eq, bigSep_univ_option, hx, hb]
  rw [hsplit] at hall
  iintro ⟨Hall, HB⟩
  ihave H := hall $$ Hall
  icases H with ⟨HX, HL⟩
  isplitl [HB HX]
  · isplitl [HB] <;> iassumption
  · iexact HL

theorem core_alloc (c : Dev nD) :
    iprop(Pipeline.ownSems0 (Ix := Unit) (Name := ℕ) (U := UU) (Lvl := ℕ) (Val := Elt F) (τ := τ) osem c ∗ unscopedSems0 c ∗ G (F := F) S1c Y2c c)
      ⊢ |={Set.univ}=> iprop((bigSep Finset.univ fun ck : CK => iprop(∃ κ : ℕ, cellInv ER (sched (F := F) S1c Y2c) κ (kcell (c, ck))))
          ∗ (bigSep Finset.univ fun ck : CK => iprop(atPos ER (kcell (c, ck)) 0 ∅ 0 ∗ reached ER (kcell (c, ck)) 0))
          ∗ bigSep Finset.univ (ownToksAt (F := F) c) ∗ locSems (F := F) c) := by
  unfold G
  iintro ⟨Hos, Hus, Hst, Hat, Htok⟩
  ihave Hv := (sems0_split (F := F) c) $$ [Hos Hus]
  · isplitl [Hos] <;> iassumption
  icases Hv with ⟨Hv, Hloc⟩
  imod (show iprop((bigSep Finset.univ fun ck : CK => semVal (kcell (c, ck)) 0) ∗ bigSep Finset.univ fun ck : CK => roundState ER (sched (F := F) S1c Y2c) (kcell (c, ck)) 0)
      ⊢ (|={Set.univ}=> bigSep Finset.univ fun ck : CK => iprop(∃ κ : ℕ, cellInv ER (sched (F := F) S1c Y2c) κ (kcell (c, ck))) : sProp 𝕄) from by
        rw [← bigSep_sep']
        exact (bigSep_mono fun k _ => (Rounds.body_intro ER (sched (F := F) S1c Y2c) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- The devices re-indexed at offset `k + 1`: each takes the place of the device `k + 1` positions before it. -/
def rotE : Dev nD × Fin 31 ≃ Dev nD × Fin 31 where
  toFun x := (rot x.1 (x.2.val + 1), x.2)
  invFun x := (rot x.1 (32 - (x.2.val + 1)), x.2)
  left_inv x := by
    show (rot (rot x.1 (x.2.val + 1)) (32 - (x.2.val + 1)), x.2) = x
    rw [rot_rot_sub x.1 (x.2.val + 1) ⟨by omega, by omega⟩]
  right_inv x := by
    show (rot (rot x.1 (32 - (x.2.val + 1))) (x.2.val + 1), x.2) = x
    rw [rot_sub_rot x.1 (x.2.val + 1) ⟨by omega, by omega⟩]

omit [FloatOps F] in
/-- The tokens dealt to their payers: at offset `k + 1` a device's barrier token and its two receive tokens go to the
    device `k + 1` positions before it; its two send tokens stay. -/
theorem toks_around : (bigSep Finset.univ fun c : Dev nD => bigSep Finset.univ (ownToksAt (F := F) c))
    ⊢ bigSep Finset.univ fun c : Dev nD => bigSep Finset.univ (payToksAt (F := F) c) := by
  have e1 : (bigSep Finset.univ fun c : Dev nD => bigSep Finset.univ (ownToksAt (F := F) c))
      = bigSep Finset.univ fun x : Dev nD × Fin 31 => ownToksAt (F := F) x.1 x.2 :=
    (bigSep_univ_prod (fun x : Dev nD × Fin 31 => ownToksAt (F := F) x.1 x.2)).symm
  have e2 : (bigSep Finset.univ fun c : Dev nD => bigSep Finset.univ (payToksAt (F := F) c))
      = bigSep Finset.univ fun x : Dev nD × Fin 31 => payToksAt (F := F) x.1 x.2 :=
    (bigSep_univ_prod (fun x : Dev nD × Fin 31 => payToksAt (F := F) x.1 x.2)).symm
  rw [e1, e2]
  unfold ownToksAt payToksAt
  rw [bigSep_sep', bigSep_sep', bigSep_sep', bigSep_sep', bigSep_sep', bigSep_sep', bigSep_sep', bigSep_sep',
    bigSep_univ_equiv rotE (fun x : Dev nD × Fin 31 => (dutyTok ER (barCell x.1) 0 (x.2.val + 1) : sProp 𝕄)),
    bigSep_univ_equiv rotE (fun x : Dev nD × Fin 31 => (dutyTok ER (r1Cell x.1 (x.2.val + 1) (by omega)) 0 0 : sProp 𝕄)),
    bigSep_univ_equiv rotE (fun x : Dev nD × Fin 31 => (dutyTok ER (r2Cell x.1 (x.2.val + 1) (by omega)) 0 0 : sProp 𝕄))]
  exact .rfl

theorem ghost_intro (K : Dev nD × CK → ℕ) (c : Dev nD) :
    iprop(records (F := F) S1c Y2c K ∗ (linear (F := F) c ∗ locSems (F := F) c)) ⊢ G' (F := F) S1c Y2c c := by
  unfold G' ghost
  iintro ⟨#HR, Hl, Hloc⟩
  isplitl [Hl]
  · iexists K
    isplitr; · iexact HR
    iexact Hl
  · iexact Hloc

theorem regroup :
    (bigSep Finset.univ fun c : Dev nD => iprop((bigSep Finset.univ fun ck : CK => iprop(∃ κ : ℕ, cellInv ER (sched (F := F) S1c Y2c) κ (kcell (c, ck))))
          ∗ (bigSep Finset.univ fun ck : CK => iprop(atPos ER (kcell (c, ck)) 0 ∅ 0 ∗ reached ER (kcell (c, ck)) 0))
          ∗ bigSep Finset.univ (ownToksAt (F := F) c) ∗ locSems (F := F) c) : sProp 𝕄)
      ⊢ bigSep Finset.univ (G' (F := F) S1c Y2c) := by
  rw [bigSep_sep', bigSep_sep', bigSep_sep', ← bigSep_univ_prod (fun ck : Dev nD × CK => iprop(∃ κ : ℕ, cellInv ER (sched (F := F) S1c Y2c) κ (kcell ck))),
    bigSep_congr (s := Finset.univ) (fun (c : Dev nD) _ => bigSep_sep' Finset.univ (fun ck : CK => (atPos ER (kcell (c, ck)) 0 ∅ 0 : sProp 𝕄)) (fun ck => reached ER (kcell (c, ck)) 0)),
    bigSep_sep', ← bigSep_univ_prod (fun ck : Dev nD × CK => (reached ER (kcell ck) 0 : sProp 𝕄))]
  iintro ⟨HI, ⟨Hat, #HR⟩, Htok, Hloc⟩
  ihave HK := (BI.bigSep_exists_pi Finset.univ (fun (ck : Dev nD × CK) (κ : ℕ) => (cellInv ER (sched (F := F) S1c Y2c) κ (kcell ck) : sProp 𝕄))) $$ HI
  icases HK with ⟨%K, #HI⟩
  ihave Htk := (toks_around (F := F)) $$ Htok
  iapply (bigSep_with_persistent (R := records (F := F) S1c Y2c K) fun c _ => ghost_intro S1c Y2c K c)
  isplitr
  · unfold records; isplitl; · iexact HI
    iexact HR
  · iapply (Entails.of_eq (bigSep_sep' Finset.univ (fun c : Dev nD => linear (F := F) c) (fun c : Dev nD => locSems (F := F) c)).symm)
    isplitl [Hat Htk]
    · iapply ((Entails.of_eq (bigSep_sep' Finset.univ (fun c : Dev nD => bigSep Finset.univ fun ck : CK => (atPos ER (kcell (c, ck)) 0 ∅ 0 : sProp 𝕄))
          (fun c : Dev nD => bigSep Finset.univ (payToksAt (F := F) c))).symm).trans
        (bigSep_mono fun c _ => show _ ⊢ linear (F := F) c from Entails.of_eq (by unfold linear; rfl)))
      isplitl [Hat] <;> iassumption
    · iexact Hloc

theorem glob : (bigSep Finset.univ fun c => iprop(Pipeline.ownSems0 (Ix := Unit) (Name := ℕ) (U := UU) (Lvl := ℕ) (Val := Elt F) (τ := τ) osem c
      ∗ unscopedSems0 c ∗ G (F := F) S1c Y2c c) : sProp 𝕄)
    ⊢ |={Set.univ}=> bigSep Finset.univ (G' (F := F) S1c Y2c) :=
  ((bigSep_mono fun c _ => core_alloc S1c Y2c c).trans (bigSep_fupd _ _)).trans (BI.fupd_mono (regroup S1c Y2c))

/-! ### The launch credit -/

omit [FloatOps F] in
theorem nsmul_tallyAt (g : GSem nD τ sig) : ∀ n : ℕ, n • (tallyAt g () 1 : CellTallies nD τ sig Unit) = tallyAt g () n
  | 0 => by rw [zero_nsmul, tallyAt_zero]
  | n + 1 => by rw [succ_nsmul, nsmul_tallyAt g n, tallyAt_add]

omit [FloatOps F] in
/-- The credit at one offset: every device owes the device `k` positions after it, so each is owed by the device `k` before. -/
theorem creds_at (c : Dev nD) (k : ℕ) (hk : 1 ≤ k ∧ k ≤ 31) (ho : k < 32) :
    (Pipeline.launchCred (fun d => owedAt d k ho) c : sProp 𝕄)
      ⊢ iprop(cred (tallyAt (r2Cell c k ho) () NX) ∗ cred (tallyAt (r1Cell c k ho) () NX) ∗ cred (tallyAt (barCell c) () 1)) := by
  unfold owedAt
  rw [Pipeline.launchCred_add, Pipeline.launchCred_add]
  have h2 := Pipeline.launchCred_tallyAt (τ := τ) (Val := Elt F) (Name := ℕ) (U := UU) (Lvl := ℕ) (SemLoc.dma (semAt cc0_scratch10 k ho)) (fun d => rot d k) (fun d => rot d (32 - k))
      (fun c => rot_sub_rot c k hk) (fun d => rot_rot_sub d k hk) () NX c
  have h1 := Pipeline.launchCred_tallyAt (τ := τ) (Val := Elt F) (Name := ℕ) (U := UU) (Lvl := ℕ) (SemLoc.dma (semAt cc0_scratch8 k ho)) (fun d => rot d k) (fun d => rot d (32 - k))
      (fun c => rot_sub_rot c k hk) (fun d => rot_rot_sub d k hk) () NX c
  have hb := Pipeline.launchCred_tallyAt (τ := τ) (Val := Elt F) (Name := ℕ) (U := UU) (Lvl := ℕ) (SemLoc.reg barS) (fun d => rot d k) (fun d => rot d (32 - k))
      (fun c => rot_sub_rot c k hk) (fun d => rot_rot_sub d k hk) () 1 c
  iintro ⟨⟨H2, H1⟩, HB⟩
  isplitl [H2]
  · iapply h2; iexact H2
  isplitl [H1]
  · iapply h1; iexact H1
  · iapply hb; iexact HB

omit [FloatOps F] in
theorem creds (c : Dev nD) : (Pipeline.launchCred O₀ c : sProp 𝕄) ⊢ credsOf (F := F) c := by
  have hO : (O₀ : Dev nD → CellTallies nD τ sig Unit) = fun d => ∑ k ∈ (Finset.univ : Finset (Fin 31)), owedAt d (k.val + 1) (by omega) := rfl
  have hB : (bigSep Finset.univ fun _ : Fin 31 => (cred (tallyAt (barCell c) () 1) : sProp 𝕄)) = cred (tallyAt (barCell c) () 31) := by
    rw [← Pipeline.cred_finsetSum, Finset.sum_const, Finset.card_univ, Fintype.card_fin, nsmul_tallyAt]
  rw [hO, Pipeline.launchCred_sum]
  refine (bigSep_mono fun k _ => creds_at (F := F) c (k.val + 1) ⟨by omega, by omega⟩ (by omega)).trans (show _ ⊢ (_ : sProp 𝕄) from ?_)
  rw [bigSep_sep', bigSep_sep', hB]
  unfold credsOf
  rw [bigSep_sep']
  iintro ⟨H2, H1, HB⟩
  isplitl [HB]; · iexact HB
  isplitl [H1] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) S1c Y2c c)
      ⊢ |={Set.univ}=> iprop(start (F := F) S1c Y2c m c ∗ emp) := by
  rw [Pipeline.unscopedRestP_none, unscopedRest0_eq]
  unfold G'
  iintro ⟨⟨Ha, Ho⟩, Hlev, Hcr, -, HG, Hloc⟩
  ihave Hc := (creds (F := F) c) $$ Hcr
  imodintro
  unfold start
  isplitl
  · isplitl [HG]; · iexact HG
    isplitl [Hc]; · iexact Hc
    isplitl [Hlev]; · iexact Hlev
    isplitl [Hloc]; · iexact Hloc
    isplitl [Ha] <;> iassumption
  · iempintro

theorem phi0_intro (c : Dev nD) :
    iprop(start (F := F) S1c Y2c m c ∗ Pipeline.prefHeld Pipeline.Prefetch.none c (fun _ => fullShare.right) (fun k => k.elim0) ∗ Pipeline.scopedRest cfg0.spec c)
      ⊢ (dats (F := F) S1c Y2c OUTc m 0 c).Φ 0 := by
  rw [show (dats (F := F) S1c Y2c OUTc m 0 c).Φ 0 = Φ₀ (F := F) S1c Y2c m c from rfl, scopedRest0_eq]
  unfold Φ₀ scratches
  iintro ⟨Hs, -, Hr⟩
  isplitl [Hs]; · iexact Hs
  iexact Hr

/-- What the kernel's exit leaves outside the scoped storage: the argument as it was, the result at its closed form. -/
def Yc (c : Dev nD) : sProp 𝕄 :=
  iprop((((c : Thread nD τ).loc main_arg0) ↦{fullShare} m ((c : Thread nD τ).loc main_arg0))
    ∗ (((c : Thread nD τ).loc main_v1) ↦{fullShare} OUTc c))

theorem phi1_exit (c : Dev nD) :
    (dats (F := F) S1c Y2c OUTc m 0 c).Φ (Fin.last cfg0.N) ⊢ iprop(Yc (F := F) OUTc m c ∗ Pipeline.ownSems0 osem c ∗ Pipeline.scopedRest cfg0.spec c) := by
  rw [show (dats (F := F) S1c Y2c OUTc m 0 c).Φ (Fin.last cfg0.N) = Φ₁ (F := F) OUTc m c from rfl, scopedRest0_eq]
  unfold Φ₁ Yc scratches allSems0 Pipeline.ownSems0
  iintro ⟨Ha, Ho, Hscr, Hsems⟩
  isplitl [Ha Ho]
  · isplitl [Ha] <;> iassumption
  isplitl [Hsems]; · iexact Hsems
  iexact Hscr

theorem waits (c : Dev nD) : (levAts L lv : sProp 𝕄) ⊢ Pipeline.cellsWaits cfgs (dats (F := F) S1c Y2c OUTc m) () 0 c :=
  Pipeline.cellsWaits_intro cfgs (dats (F := F) S1c Y2c OUTc m) () 0 c fun w s t => w.elim0

theorem read_out (c : Dev nD) (s' : Phys nD τ sig (Elt F)) :
    iprop(Yc (F := F) OUTc m c ∗ emp ∗ SI s') ⊢ |={Set.univ}=> iprop(⌜s'.mem.mem ((c : Thread nD τ).loc main_v1) = OUTc c
      ∧ s'.mem.mem ((c : Thread nD τ).loc main_arg0) = m ((c : Thread nD τ).loc main_arg0)⌝ ∗ SI s') := by
  unfold Yc
  iintro ⟨⟨Ha, Ho⟩, -, HSI⟩
  icombine HSI Ha gives %ha
  icombine HSI Ho gives %ho
  imodintro
  isplitr; · ipureintro; exact ⟨Buf.eq_of_forall_mem_univ ho, Buf.eq_of_forall_mem_univ ha⟩
  iexact HSI

/-! ### The run -/

set_option maxRecDepth 100000 in
/-- At the compiled mesh of 32 devices, for any float values, from any memory with zero counters: given every device's
    body from its share of the launch, every weakly fair execution of @main terminates, and every final state has each
    device's result array at `OUTc` and its argument unchanged. -/
theorem run_main (S1c : (c : Dev nD) → Buf (Elt F) (st1.view.loc (c : Thread nD τ))) (Y2c : (c : Dev nD) → Buf (Elt F) (st2.view.loc (c : Thread nD τ)))
    (OUTc : (c : Dev nD) → Buf (Elt F) ((c : Thread nD τ).loc main_v1)) (m : (ℓ : Loc nD τ sig) → Buf (Elt F) ℓ) (ρ : Dev nD → PrngReg)
    (hbody : ∀ c, BodyObligation (dats (F := F) S1c Y2c OUTc m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = OUTc c ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats (F := F) S1c Y2c OUTc m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := share_eq S1c Y2c OUTc m)
    (hdistinct := winFacts0.arr_inj)
    (O₀ := O₀) (howed₀ := fun _ => rfl) (howedN := fun _ => rfl)
    (L := L) (lv := lv) (hL := L_of_ne) (hwaits := waits S1c Y2c OUTc m)
    (G := G (F := F) S1c Y2c) (G' := G' (F := F) S1c Y2c) (u₀ := u₀)
    (hu₀ := hu₀ S1c Y2c)
    (hglob := glob S1c Y2c)
    (hA := fun _ w => w.elim0) (hpf := fun _ k => k.elim0)
    (X := start (F := F) S1c Y2c m) (Y := Yc (F := F) OUTc m) (Z := fun _ => iprop(emp))
    (hX := start_intro S1c Y2c m ρ) (hin := phi0_intro S1c Y2c OUTc m) (hout := phi1_exit S1c Y2c OUTc m)
    (QY := fun c s => s.mem ((c : Thread nD τ).loc main_v1) = OUTc c ∧ s.mem ((c : Thread nD τ).loc main_arg0) = m ((c : Thread nD τ).loc main_arg0))
    (hY := read_out OUTc m)
    (hQ := fun s h c => (h c).2.2)

/-- info: 'Cert.KernelProto.run_main' depends on axioms: [propext, Classical.choice, Quot.sound] -/
#guard_msgs in #print axioms run_main

end Launch

end Cert.KernelProto

end
-- ==== Proof.KernelIdealTables.lean ====
import proofs.«900784_g7700000000000785_dist_f_of_ar_i_m512_n256_v7x_i32_bf16_1_alg».proof.Proof.KernelIdealProto

/-!
# The schedule's tables and the device chains at each offset

For each offset `k = 1 … 31`: which exchange cell each DMA semaphore is, each exchange cell's one duty, its expected
units and its payload; the barrier duty a device pays at offset `k` read from the payer's side (its own two landing slots
`32 - k`); and that the program's three device chains at offset `k` name the device `k` positions after the running one.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem ho_0 : 0 < 32 := by decide
theorem hk_1 : 1 ≤ 1 ∧ 1 ≤ 31 := by decide
theorem ho_1 : 1 < 32 := by decide
theorem hk_2 : 1 ≤ 2 ∧ 2 ≤ 31 := by decide
theorem ho_2 : 2 < 32 := by decide
theorem hk_3 : 1 ≤ 3 ∧ 3 ≤ 31 := by decide
theorem ho_3 : 3 < 32 := by decide
theorem hk_4 : 1 ≤ 4 ∧ 4 ≤ 31 := by decide
theorem ho_4 : 4 < 32 := by decide
theorem hk_5 : 1 ≤ 5 ∧ 5 ≤ 31 := by decide
theorem ho_5 : 5 < 32 := by decide
theorem hk_6 : 1 ≤ 6 ∧ 6 ≤ 31 := by decide
theorem ho_6 : 6 < 32 := by decide
theorem hk_7 : 1 ≤ 7 ∧ 7 ≤ 31 := by decide
theorem ho_7 : 7 < 32 := by decide
theorem hk_8 : 1 ≤ 8 ∧ 8 ≤ 31 := by decide
theorem ho_8 : 8 < 32 := by decide
theorem hk_9 : 1 ≤ 9 ∧ 9 ≤ 31 := by decide
theorem ho_9 : 9 < 32 := by decide
theorem hk_10 : 1 ≤ 10 ∧ 10 ≤ 31 := by decide
theorem ho_10 : 10 < 32 := by decide
theorem hk_11 : 1 ≤ 11 ∧ 11 ≤ 31 := by decide
theorem ho_11 : 11 < 32 := by decide
theorem hk_12 : 1 ≤ 12 ∧ 12 ≤ 31 := by decide
theorem ho_12 : 12 < 32 := by decide
theorem hk_13 : 1 ≤ 13 ∧ 13 ≤ 31 := by decide
theorem ho_13 : 13 < 32 := by decide
theorem hk_14 : 1 ≤ 14 ∧ 14 ≤ 31 := by decide
theorem ho_14 : 14 < 32 := by decide
theorem hk_15 : 1 ≤ 15 ∧ 15 ≤ 31 := by decide
theorem ho_15 : 15 < 32 := by decide
theorem hk_16 : 1 ≤ 16 ∧ 16 ≤ 31 := by decide
theorem ho_16 : 16 < 32 := by decide
theorem hk_17 : 1 ≤ 17 ∧ 17 ≤ 31 := by decide
theorem ho_17 : 17 < 32 := by decide
theorem hk_18 : 1 ≤ 18 ∧ 18 ≤ 31 := by decide
theorem ho_18 : 18 < 32 := by decide
theorem hk_19 : 1 ≤ 19 ∧ 19 ≤ 31 := by decide
theorem ho_19 : 19 < 32 := by decide
theorem hk_20 : 1 ≤ 20 ∧ 20 ≤ 31 := by decide
theorem ho_20 : 20 < 32 := by decide
theorem hk_21 : 1 ≤ 21 ∧ 21 ≤ 31 := by decide
theorem ho_21 : 21 < 32 := by decide
theorem hk_22 : 1 ≤ 22 ∧ 22 ≤ 31 := by decide
theorem ho_22 : 22 < 32 := by decide
theorem hk_23 : 1 ≤ 23 ∧ 23 ≤ 31 := by decide
theorem ho_23 : 23 < 32 := by decide
theorem hk_24 : 1 ≤ 24 ∧ 24 ≤ 31 := by decide
theorem ho_24 : 24 < 32 := by decide
theorem hk_25 : 1 ≤ 25 ∧ 25 ≤ 31 := by decide
theorem ho_25 : 25 < 32 := by decide
theorem hk_26 : 1 ≤ 26 ∧ 26 ≤ 31 := by decide
theorem ho_26 : 26 < 32 := by decide
theorem hk_27 : 1 ≤ 27 ∧ 27 ≤ 31 := by decide
theorem ho_27 : 27 < 32 := by decide
theorem hk_28 : 1 ≤ 28 ∧ 28 ≤ 31 := by decide
theorem ho_28 : 28 < 32 := by decide
theorem hk_29 : 1 ≤ 29 ∧ 29 ≤ 31 := by decide
theorem ho_29 : 29 < 32 := by decide
theorem hk_30 : 1 ≤ 30 ∧ 30 ≤ 31 := by decide
theorem ho_30 : 30 < 32 := by decide
theorem hk_31 : 1 ≤ 31 ∧ 31 ≤ 31 := by decide
theorem ho_31 : 31 < 32 := by decide

/-! ## The device chains -/

@[sl_canon] theorem dev1_eq (c : Dev nD) : (⟨k0_dev1 c, k0_dev1_lt c⟩ : Dev nD) = rot c 1 := by revert c; decide +kernel
@[sl_canon] theorem dev32_eq (c : Dev nD) : (⟨k0_dev32 c, k0_dev32_lt c⟩ : Dev nD) = rot c 1 := by revert c; decide +kernel
@[sl_canon] theorem dev63_eq (c : Dev nD) : (⟨k0_dev63 c, k0_dev63_lt c⟩ : Dev nD) = rot c 1 := by revert c; decide +kernel
@[sl_canon] theorem dev2_eq (c : Dev nD) : (⟨k0_dev2 c, k0_dev2_lt c⟩ : Dev nD) = rot c 2 := by revert c; decide +kernel
@[sl_canon] theorem dev33_eq (c : Dev nD) : (⟨k0_dev33 c, k0_dev33_lt c⟩ : Dev nD) = rot c 2 := by revert c; decide +kernel
@[sl_canon] theorem dev64_eq (c : Dev nD) : (⟨k0_dev64 c, k0_dev64_lt c⟩ : Dev nD) = rot c 2 := by revert c; decide +kernel
@[sl_canon] theorem dev3_eq (c : Dev nD) : (⟨k0_dev3 c, k0_dev3_lt c⟩ : Dev nD) = rot c 3 := by revert c; decide +kernel
@[sl_canon] theorem dev34_eq (c : Dev nD) : (⟨k0_dev34 c, k0_dev34_lt c⟩ : Dev nD) = rot c 3 := by revert c; decide +kernel
@[sl_canon] theorem dev65_eq (c : Dev nD) : (⟨k0_dev65 c, k0_dev65_lt c⟩ : Dev nD) = rot c 3 := by revert c; decide +kernel
@[sl_canon] theorem dev4_eq (c : Dev nD) : (⟨k0_dev4 c, k0_dev4_lt c⟩ : Dev nD) = rot c 4 := by revert c; decide +kernel
@[sl_canon] theorem dev35_eq (c : Dev nD) : (⟨k0_dev35 c, k0_dev35_lt c⟩ : Dev nD) = rot c 4 := by revert c; decide +kernel
@[sl_canon] theorem dev66_eq (c : Dev nD) : (⟨k0_dev66 c, k0_dev66_lt c⟩ : Dev nD) = rot c 4 := by revert c; decide +kernel
@[sl_canon] theorem dev5_eq (c : Dev nD) : (⟨k0_dev5 c, k0_dev5_lt c⟩ : Dev nD) = rot c 5 := by revert c; decide +kernel
@[sl_canon] theorem dev36_eq (c : Dev nD) : (⟨k0_dev36 c, k0_dev36_lt c⟩ : Dev nD) = rot c 5 := by revert c; decide +kernel
@[sl_canon] theorem dev67_eq (c : Dev nD) : (⟨k0_dev67 c, k0_dev67_lt c⟩ : Dev nD) = rot c 5 := by revert c; decide +kernel
@[sl_canon] theorem dev6_eq (c : Dev nD) : (⟨k0_dev6 c, k0_dev6_lt c⟩ : Dev nD) = rot c 6 := by revert c; decide +kernel
@[sl_canon] theorem dev37_eq (c : Dev nD) : (⟨k0_dev37 c, k0_dev37_lt c⟩ : Dev nD) = rot c 6 := by revert c; decide +kernel
@[sl_canon] theorem dev68_eq (c : Dev nD) : (⟨k0_dev68 c, k0_dev68_lt c⟩ : Dev nD) = rot c 6 := by revert c; decide +kernel
@[sl_canon] theorem dev7_eq (c : Dev nD) : (⟨k0_dev7 c, k0_dev7_lt c⟩ : Dev nD) = rot c 7 := by revert c; decide +kernel
@[sl_canon] theorem dev38_eq (c : Dev nD) : (⟨k0_dev38 c, k0_dev38_lt c⟩ : Dev nD) = rot c 7 := by revert c; decide +kernel
@[sl_canon] theorem dev69_eq (c : Dev nD) : (⟨k0_dev69 c, k0_dev69_lt c⟩ : Dev nD) = rot c 7 := by revert c; decide +kernel
@[sl_canon] theorem dev8_eq (c : Dev nD) : (⟨k0_dev8 c, k0_dev8_lt c⟩ : Dev nD) = rot c 8 := by revert c; decide +kernel
@[sl_canon] theorem dev39_eq (c : Dev nD) : (⟨k0_dev39 c, k0_dev39_lt c⟩ : Dev nD) = rot c 8 := by revert c; decide +kernel
@[sl_canon] theorem dev70_eq (c : Dev nD) : (⟨k0_dev70 c, k0_dev70_lt c⟩ : Dev nD) = rot c 8 := by revert c; decide +kernel
@[sl_canon] theorem dev9_eq (c : Dev nD) : (⟨k0_dev9 c, k0_dev9_lt c⟩ : Dev nD) = rot c 9 := by revert c; decide +kernel
@[sl_canon] theorem dev40_eq (c : Dev nD) : (⟨k0_dev40 c, k0_dev40_lt c⟩ : Dev nD) = rot c 9 := by revert c; decide +kernel
@[sl_canon] theorem dev71_eq (c : Dev nD) : (⟨k0_dev71 c, k0_dev71_lt c⟩ : Dev nD) = rot c 9 := by revert c; decide +kernel
@[sl_canon] theorem dev10_eq (c : Dev nD) : (⟨k0_dev10 c, k0_dev10_lt c⟩ : Dev nD) = rot c 10 := by revert c; decide +kernel
@[sl_canon] theorem dev41_eq (c : Dev nD) : (⟨k0_dev41 c, k0_dev41_lt c⟩ : Dev nD) = rot c 10 := by revert c; decide +kernel
@[sl_canon] theorem dev72_eq (c : Dev nD) : (⟨k0_dev72 c, k0_dev72_lt c⟩ : Dev nD) = rot c 10 := by revert c; decide +kernel
@[sl_canon] theorem dev11_eq (c : Dev nD) : (⟨k0_dev11 c, k0_dev11_lt c⟩ : Dev nD) = rot c 11 := by revert c; decide +kernel
@[sl_canon] theorem dev42_eq (c : Dev nD) : (⟨k0_dev42 c, k0_dev42_lt c⟩ : Dev nD) = rot c 11 := by revert c; decide +kernel
@[sl_canon] theorem dev73_eq (c : Dev nD) : (⟨k0_dev73 c, k0_dev73_lt c⟩ : Dev nD) = rot c 11 := by revert c; decide +kernel
@[sl_canon] theorem dev12_eq (c : Dev nD) : (⟨k0_dev12 c, k0_dev12_lt c⟩ : Dev nD) = rot c 12 := by revert c; decide +kernel
@[sl_canon] theorem dev43_eq (c : Dev nD) : (⟨k0_dev43 c, k0_dev43_lt c⟩ : Dev nD) = rot c 12 := by revert c; decide +kernel
@[sl_canon] theorem dev74_eq (c : Dev nD) : (⟨k0_dev74 c, k0_dev74_lt c⟩ : Dev nD) = rot c 12 := by revert c; decide +kernel
@[sl_canon] theorem dev13_eq (c : Dev nD) : (⟨k0_dev13 c, k0_dev13_lt c⟩ : Dev nD) = rot c 13 := by revert c; decide +kernel
@[sl_canon] theorem dev44_eq (c : Dev nD) : (⟨k0_dev44 c, k0_dev44_lt c⟩ : Dev nD) = rot c 13 := by revert c; decide +kernel
@[sl_canon] theorem dev75_eq (c : Dev nD) : (⟨k0_dev75 c, k0_dev75_lt c⟩ : Dev nD) = rot c 13 := by revert c; decide +kernel
@[sl_canon] theorem dev14_eq (c : Dev nD) : (⟨k0_dev14 c, k0_dev14_lt c⟩ : Dev nD) = rot c 14 := by revert c; decide +kernel
@[sl_canon] theorem dev45_eq (c : Dev nD) : (⟨k0_dev45 c, k0_dev45_lt c⟩ : Dev nD) = rot c 14 := by revert c; decide +kernel
@[sl_canon] theorem dev76_eq (c : Dev nD) : (⟨k0_dev76 c, k0_dev76_lt c⟩ : Dev nD) = rot c 14 := by revert c; decide +kernel
@[sl_canon] theorem dev15_eq (c : Dev nD) : (⟨k0_dev15 c, k0_dev15_lt c⟩ : Dev nD) = rot c 15 := by revert c; decide +kernel
@[sl_canon] theorem dev46_eq (c : Dev nD) : (⟨k0_dev46 c, k0_dev46_lt c⟩ : Dev nD) = rot c 15 := by revert c; decide +kernel
@[sl_canon] theorem dev77_eq (c : Dev nD) : (⟨k0_dev77 c, k0_dev77_lt c⟩ : Dev nD) = rot c 15 := by revert c; decide +kernel
@[sl_canon] theorem dev16_eq (c : Dev nD) : (⟨k0_dev16 c, k0_dev16_lt c⟩ : Dev nD) = rot c 16 := by revert c; decide +kernel
@[sl_canon] theorem dev47_eq (c : Dev nD) : (⟨k0_dev47 c, k0_dev47_lt c⟩ : Dev nD) = rot c 16 := by revert c; decide +kernel
@[sl_canon] theorem dev78_eq (c : Dev nD) : (⟨k0_dev78 c, k0_dev78_lt c⟩ : Dev nD) = rot c 16 := by revert c; decide +kernel
@[sl_canon] theorem dev17_eq (c : Dev nD) : (⟨k0_dev17 c, k0_dev17_lt c⟩ : Dev nD) = rot c 17 := by revert c; decide +kernel
@[sl_canon] theorem dev48_eq (c : Dev nD) : (⟨k0_dev48 c, k0_dev48_lt c⟩ : Dev nD) = rot c 17 := by revert c; decide +kernel
@[sl_canon] theorem dev79_eq (c : Dev nD) : (⟨k0_dev79 c, k0_dev79_lt c⟩ : Dev nD) = rot c 17 := by revert c; decide +kernel
@[sl_canon] theorem dev18_eq (c : Dev nD) : (⟨k0_dev18 c, k0_dev18_lt c⟩ : Dev nD) = rot c 18 := by revert c; decide +kernel
@[sl_canon] theorem dev49_eq (c : Dev nD) : (⟨k0_dev49 c, k0_dev49_lt c⟩ : Dev nD) = rot c 18 := by revert c; decide +kernel
@[sl_canon] theorem dev80_eq (c : Dev nD) : (⟨k0_dev80 c, k0_dev80_lt c⟩ : Dev nD) = rot c 18 := by revert c; decide +kernel
@[sl_canon] theorem dev19_eq (c : Dev nD) : (⟨k0_dev19 c, k0_dev19_lt c⟩ : Dev nD) = rot c 19 := by revert c; decide +kernel
@[sl_canon] theorem dev50_eq (c : Dev nD) : (⟨k0_dev50 c, k0_dev50_lt c⟩ : Dev nD) = rot c 19 := by revert c; decide +kernel
@[sl_canon] theorem dev81_eq (c : Dev nD) : (⟨k0_dev81 c, k0_dev81_lt c⟩ : Dev nD) = rot c 19 := by revert c; decide +kernel
@[sl_canon] theorem dev20_eq (c : Dev nD) : (⟨k0_dev20 c, k0_dev20_lt c⟩ : Dev nD) = rot c 20 := by revert c; decide +kernel
@[sl_canon] theorem dev51_eq (c : Dev nD) : (⟨k0_dev51 c, k0_dev51_lt c⟩ : Dev nD) = rot c 20 := by revert c; decide +kernel
@[sl_canon] theorem dev82_eq (c : Dev nD) : (⟨k0_dev82 c, k0_dev82_lt c⟩ : Dev nD) = rot c 20 := by revert c; decide +kernel
@[sl_canon] theorem dev21_eq (c : Dev nD) : (⟨k0_dev21 c, k0_dev21_lt c⟩ : Dev nD) = rot c 21 := by revert c; decide +kernel
@[sl_canon] theorem dev52_eq (c : Dev nD) : (⟨k0_dev52 c, k0_dev52_lt c⟩ : Dev nD) = rot c 21 := by revert c; decide +kernel
@[sl_canon] theorem dev83_eq (c : Dev nD) : (⟨k0_dev83 c, k0_dev83_lt c⟩ : Dev nD) = rot c 21 := by revert c; decide +kernel
@[sl_canon] theorem dev22_eq (c : Dev nD) : (⟨k0_dev22 c, k0_dev22_lt c⟩ : Dev nD) = rot c 22 := by revert c; decide +kernel
@[sl_canon] theorem dev53_eq (c : Dev nD) : (⟨k0_dev53 c, k0_dev53_lt c⟩ : Dev nD) = rot c 22 := by revert c; decide +kernel
@[sl_canon] theorem dev84_eq (c : Dev nD) : (⟨k0_dev84 c, k0_dev84_lt c⟩ : Dev nD) = rot c 22 := by revert c; decide +kernel
@[sl_canon] theorem dev23_eq (c : Dev nD) : (⟨k0_dev23 c, k0_dev23_lt c⟩ : Dev nD) = rot c 23 := by revert c; decide +kernel
@[sl_canon] theorem dev54_eq (c : Dev nD) : (⟨k0_dev54 c, k0_dev54_lt c⟩ : Dev nD) = rot c 23 := by revert c; decide +kernel
@[sl_canon] theorem dev85_eq (c : Dev nD) : (⟨k0_dev85 c, k0_dev85_lt c⟩ : Dev nD) = rot c 23 := by revert c; decide +kernel
@[sl_canon] theorem dev24_eq (c : Dev nD) : (⟨k0_dev24 c, k0_dev24_lt c⟩ : Dev nD) = rot c 24 := by revert c; decide +kernel
@[sl_canon] theorem dev55_eq (c : Dev nD) : (⟨k0_dev55 c, k0_dev55_lt c⟩ : Dev nD) = rot c 24 := by revert c; decide +kernel
@[sl_canon] theorem dev86_eq (c : Dev nD) : (⟨k0_dev86 c, k0_dev86_lt c⟩ : Dev nD) = rot c 24 := by revert c; decide +kernel
@[sl_canon] theorem dev25_eq (c : Dev nD) : (⟨k0_dev25 c, k0_dev25_lt c⟩ : Dev nD) = rot c 25 := by revert c; decide +kernel
@[sl_canon] theorem dev56_eq (c : Dev nD) : (⟨k0_dev56 c, k0_dev56_lt c⟩ : Dev nD) = rot c 25 := by revert c; decide +kernel
@[sl_canon] theorem dev87_eq (c : Dev nD) : (⟨k0_dev87 c, k0_dev87_lt c⟩ : Dev nD) = rot c 25 := by revert c; decide +kernel
@[sl_canon] theorem dev26_eq (c : Dev nD) : (⟨k0_dev26 c, k0_dev26_lt c⟩ : Dev nD) = rot c 26 := by revert c; decide +kernel
@[sl_canon] theorem dev57_eq (c : Dev nD) : (⟨k0_dev57 c, k0_dev57_lt c⟩ : Dev nD) = rot c 26 := by revert c; decide +kernel
@[sl_canon] theorem dev88_eq (c : Dev nD) : (⟨k0_dev88 c, k0_dev88_lt c⟩ : Dev nD) = rot c 26 := by revert c; decide +kernel
@[sl_canon] theorem dev27_eq (c : Dev nD) : (⟨k0_dev27 c, k0_dev27_lt c⟩ : Dev nD) = rot c 27 := by revert c; decide +kernel
@[sl_canon] theorem dev58_eq (c : Dev nD) : (⟨k0_dev58 c, k0_dev58_lt c⟩ : Dev nD) = rot c 27 := by revert c; decide +kernel
@[sl_canon] theorem dev89_eq (c : Dev nD) : (⟨k0_dev89 c, k0_dev89_lt c⟩ : Dev nD) = rot c 27 := by revert c; decide +kernel
@[sl_canon] theorem dev28_eq (c : Dev nD) : (⟨k0_dev28 c, k0_dev28_lt c⟩ : Dev nD) = rot c 28 := by revert c; decide +kernel
@[sl_canon] theorem dev59_eq (c : Dev nD) : (⟨k0_dev59 c, k0_dev59_lt c⟩ : Dev nD) = rot c 28 := by revert c; decide +kernel
@[sl_canon] theorem dev90_eq (c : Dev nD) : (⟨k0_dev90 c, k0_dev90_lt c⟩ : Dev nD) = rot c 28 := by revert c; decide +kernel
@[sl_canon] theorem dev29_eq (c : Dev nD) : (⟨k0_dev29 c, k0_dev29_lt c⟩ : Dev nD) = rot c 29 := by revert c; decide +kernel
@[sl_canon] theorem dev60_eq (c : Dev nD) : (⟨k0_dev60 c, k0_dev60_lt c⟩ : Dev nD) = rot c 29 := by revert c; decide +kernel
@[sl_canon] theorem dev91_eq (c : Dev nD) : (⟨k0_dev91 c, k0_dev91_lt c⟩ : Dev nD) = rot c 29 := by revert c; decide +kernel
@[sl_canon] theorem dev30_eq (c : Dev nD) : (⟨k0_dev30 c, k0_dev30_lt c⟩ : Dev nD) = rot c 30 := by revert c; decide +kernel
@[sl_canon] theorem dev61_eq (c : Dev nD) : (⟨k0_dev61 c, k0_dev61_lt c⟩ : Dev nD) = rot c 30 := by revert c; decide +kernel
@[sl_canon] theorem dev92_eq (c : Dev nD) : (⟨k0_dev92 c, k0_dev92_lt c⟩ : Dev nD) = rot c 30 := by revert c; decide +kernel
@[sl_canon] theorem dev31_eq (c : Dev nD) : (⟨k0_dev31 c, k0_dev31_lt c⟩ : Dev nD) = rot c 31 := by revert c; decide +kernel
@[sl_canon] theorem dev62_eq (c : Dev nD) : (⟨k0_dev62 c, k0_dev62_lt c⟩ : Dev nD) = rot c 31 := by revert c; decide +kernel
@[sl_canon] theorem dev93_eq (c : Dev nD) : (⟨k0_dev93 c, k0_dev93_lt c⟩ : Dev nD) = rot c 31 := by revert c; decide +kernel

/-! ## Which cell each semaphore is -/

theorem dec0_1 : decode (semAt cc0_scratch7 1 ho_1) = some (0, 1) := rfl
theorem dec0_2 : decode (semAt cc0_scratch7 2 ho_2) = some (0, 2) := rfl
theorem dec0_3 : decode (semAt cc0_scratch7 3 ho_3) = some (0, 3) := rfl
theorem dec0_4 : decode (semAt cc0_scratch7 4 ho_4) = some (0, 4) := rfl
theorem dec0_5 : decode (semAt cc0_scratch7 5 ho_5) = some (0, 5) := rfl
theorem dec0_6 : decode (semAt cc0_scratch7 6 ho_6) = some (0, 6) := rfl
theorem dec0_7 : decode (semAt cc0_scratch7 7 ho_7) = some (0, 7) := rfl
theorem dec0_8 : decode (semAt cc0_scratch7 8 ho_8) = some (0, 8) := rfl
theorem dec0_9 : decode (semAt cc0_scratch7 9 ho_9) = some (0, 9) := rfl
theorem dec0_10 : decode (semAt cc0_scratch7 10 ho_10) = some (0, 10) := rfl
theorem dec0_11 : decode (semAt cc0_scratch7 11 ho_11) = some (0, 11) := rfl
theorem dec0_12 : decode (semAt cc0_scratch7 12 ho_12) = some (0, 12) := rfl
theorem dec0_13 : decode (semAt cc0_scratch7 13 ho_13) = some (0, 13) := rfl
theorem dec0_14 : decode (semAt cc0_scratch7 14 ho_14) = some (0, 14) := rfl
theorem dec0_15 : decode (semAt cc0_scratch7 15 ho_15) = some (0, 15) := rfl
theorem dec0_16 : decode (semAt cc0_scratch7 16 ho_16) = some (0, 16) := rfl
theorem dec0_17 : decode (semAt cc0_scratch7 17 ho_17) = some (0, 17) := rfl
theorem dec0_18 : decode (semAt cc0_scratch7 18 ho_18) = some (0, 18) := rfl
theorem dec0_19 : decode (semAt cc0_scratch7 19 ho_19) = some (0, 19) := rfl
theorem dec0_20 : decode (semAt cc0_scratch7 20 ho_20) = some (0, 20) := rfl
theorem dec0_21 : decode (semAt cc0_scratch7 21 ho_21) = some (0, 21) := rfl
theorem dec0_22 : decode (semAt cc0_scratch7 22 ho_22) = some (0, 22) := rfl
theorem dec0_23 : decode (semAt cc0_scratch7 23 ho_23) = some (0, 23) := rfl
theorem dec0_24 : decode (semAt cc0_scratch7 24 ho_24) = some (0, 24) := rfl
theorem dec0_25 : decode (semAt cc0_scratch7 25 ho_25) = some (0, 25) := rfl
theorem dec0_26 : decode (semAt cc0_scratch7 26 ho_26) = some (0, 26) := rfl
theorem dec0_27 : decode (semAt cc0_scratch7 27 ho_27) = some (0, 27) := rfl
theorem dec0_28 : decode (semAt cc0_scratch7 28 ho_28) = some (0, 28) := rfl
theorem dec0_29 : decode (semAt cc0_scratch7 29 ho_29) = some (0, 29) := rfl
theorem dec0_30 : decode (semAt cc0_scratch7 30 ho_30) = some (0, 30) := rfl
theorem dec0_31 : decode (semAt cc0_scratch7 31 ho_31) = some (0, 31) := rfl
theorem dec1_1 : decode (semAt cc0_scratch8 1 ho_1) = some (1, 1) := rfl
theorem dec1_2 : decode (semAt cc0_scratch8 2 ho_2) = some (1, 2) := rfl
theorem dec1_3 : decode (semAt cc0_scratch8 3 ho_3) = some (1, 3) := rfl
theorem dec1_4 : decode (semAt cc0_scratch8 4 ho_4) = some (1, 4) := rfl
theorem dec1_5 : decode (semAt cc0_scratch8 5 ho_5) = some (1, 5) := rfl
theorem dec1_6 : decode (semAt cc0_scratch8 6 ho_6) = some (1, 6) := rfl
theorem dec1_7 : decode (semAt cc0_scratch8 7 ho_7) = some (1, 7) := rfl
theorem dec1_8 : decode (semAt cc0_scratch8 8 ho_8) = some (1, 8) := rfl
theorem dec1_9 : decode (semAt cc0_scratch8 9 ho_9) = some (1, 9) := rfl
theorem dec1_10 : decode (semAt cc0_scratch8 10 ho_10) = some (1, 10) := rfl
theorem dec1_11 : decode (semAt cc0_scratch8 11 ho_11) = some (1, 11) := rfl
theorem dec1_12 : decode (semAt cc0_scratch8 12 ho_12) = some (1, 12) := rfl
theorem dec1_13 : decode (semAt cc0_scratch8 13 ho_13) = some (1, 13) := rfl
theorem dec1_14 : decode (semAt cc0_scratch8 14 ho_14) = some (1, 14) := rfl
theorem dec1_15 : decode (semAt cc0_scratch8 15 ho_15) = some (1, 15) := rfl
theorem dec1_16 : decode (semAt cc0_scratch8 16 ho_16) = some (1, 16) := rfl
theorem dec1_17 : decode (semAt cc0_scratch8 17 ho_17) = some (1, 17) := rfl
theorem dec1_18 : decode (semAt cc0_scratch8 18 ho_18) = some (1, 18) := rfl
theorem dec1_19 : decode (semAt cc0_scratch8 19 ho_19) = some (1, 19) := rfl
theorem dec1_20 : decode (semAt cc0_scratch8 20 ho_20) = some (1, 20) := rfl
theorem dec1_21 : decode (semAt cc0_scratch8 21 ho_21) = some (1, 21) := rfl
theorem dec1_22 : decode (semAt cc0_scratch8 22 ho_22) = some (1, 22) := rfl
theorem dec1_23 : decode (semAt cc0_scratch8 23 ho_23) = some (1, 23) := rfl
theorem dec1_24 : decode (semAt cc0_scratch8 24 ho_24) = some (1, 24) := rfl
theorem dec1_25 : decode (semAt cc0_scratch8 25 ho_25) = some (1, 25) := rfl
theorem dec1_26 : decode (semAt cc0_scratch8 26 ho_26) = some (1, 26) := rfl
theorem dec1_27 : decode (semAt cc0_scratch8 27 ho_27) = some (1, 27) := rfl
theorem dec1_28 : decode (semAt cc0_scratch8 28 ho_28) = some (1, 28) := rfl
theorem dec1_29 : decode (semAt cc0_scratch8 29 ho_29) = some (1, 29) := rfl
theorem dec1_30 : decode (semAt cc0_scratch8 30 ho_30) = some (1, 30) := rfl
theorem dec1_31 : decode (semAt cc0_scratch8 31 ho_31) = some (1, 31) := rfl
theorem dec2_1 : decode (semAt cc0_scratch9 1 ho_1) = some (2, 1) := rfl
theorem dec2_2 : decode (semAt cc0_scratch9 2 ho_2) = some (2, 2) := rfl
theorem dec2_3 : decode (semAt cc0_scratch9 3 ho_3) = some (2, 3) := rfl
theorem dec2_4 : decode (semAt cc0_scratch9 4 ho_4) = some (2, 4) := rfl
theorem dec2_5 : decode (semAt cc0_scratch9 5 ho_5) = some (2, 5) := rfl
theorem dec2_6 : decode (semAt cc0_scratch9 6 ho_6) = some (2, 6) := rfl
theorem dec2_7 : decode (semAt cc0_scratch9 7 ho_7) = some (2, 7) := rfl
theorem dec2_8 : decode (semAt cc0_scratch9 8 ho_8) = some (2, 8) := rfl
theorem dec2_9 : decode (semAt cc0_scratch9 9 ho_9) = some (2, 9) := rfl
theorem dec2_10 : decode (semAt cc0_scratch9 10 ho_10) = some (2, 10) := rfl
theorem dec2_11 : decode (semAt cc0_scratch9 11 ho_11) = some (2, 11) := rfl
theorem dec2_12 : decode (semAt cc0_scratch9 12 ho_12) = some (2, 12) := rfl
theorem dec2_13 : decode (semAt cc0_scratch9 13 ho_13) = some (2, 13) := rfl
theorem dec2_14 : decode (semAt cc0_scratch9 14 ho_14) = some (2, 14) := rfl
theorem dec2_15 : decode (semAt cc0_scratch9 15 ho_15) = some (2, 15) := rfl
theorem dec2_16 : decode (semAt cc0_scratch9 16 ho_16) = some (2, 16) := rfl
theorem dec2_17 : decode (semAt cc0_scratch9 17 ho_17) = some (2, 17) := rfl
theorem dec2_18 : decode (semAt cc0_scratch9 18 ho_18) = some (2, 18) := rfl
theorem dec2_19 : decode (semAt cc0_scratch9 19 ho_19) = some (2, 19) := rfl
theorem dec2_20 : decode (semAt cc0_scratch9 20 ho_20) = some (2, 20) := rfl
theorem dec2_21 : decode (semAt cc0_scratch9 21 ho_21) = some (2, 21) := rfl
theorem dec2_22 : decode (semAt cc0_scratch9 22 ho_22) = some (2, 22) := rfl
theorem dec2_23 : decode (semAt cc0_scratch9 23 ho_23) = some (2, 23) := rfl
theorem dec2_24 : decode (semAt cc0_scratch9 24 ho_24) = some (2, 24) := rfl
theorem dec2_25 : decode (semAt cc0_scratch9 25 ho_25) = some (2, 25) := rfl
theorem dec2_26 : decode (semAt cc0_scratch9 26 ho_26) = some (2, 26) := rfl
theorem dec2_27 : decode (semAt cc0_scratch9 27 ho_27) = some (2, 27) := rfl
theorem dec2_28 : decode (semAt cc0_scratch9 28 ho_28) = some (2, 28) := rfl
theorem dec2_29 : decode (semAt cc0_scratch9 29 ho_29) = some (2, 29) := rfl
theorem dec2_30 : decode (semAt cc0_scratch9 30 ho_30) = some (2, 30) := rfl
theorem dec2_31 : decode (semAt cc0_scratch9 31 ho_31) = some (2, 31) := rfl
theorem dec3_1 : decode (semAt cc0_scratch10 1 ho_1) = some (3, 1) := rfl
theorem dec3_2 : decode (semAt cc0_scratch10 2 ho_2) = some (3, 2) := rfl
theorem dec3_3 : decode (semAt cc0_scratch10 3 ho_3) = some (3, 3) := rfl
theorem dec3_4 : decode (semAt cc0_scratch10 4 ho_4) = some (3, 4) := rfl
theorem dec3_5 : decode (semAt cc0_scratch10 5 ho_5) = some (3, 5) := rfl
theorem dec3_6 : decode (semAt cc0_scratch10 6 ho_6) = some (3, 6) := rfl
theorem dec3_7 : decode (semAt cc0_scratch10 7 ho_7) = some (3, 7) := rfl
theorem dec3_8 : decode (semAt cc0_scratch10 8 ho_8) = some (3, 8) := rfl
theorem dec3_9 : decode (semAt cc0_scratch10 9 ho_9) = some (3, 9) := rfl
theorem dec3_10 : decode (semAt cc0_scratch10 10 ho_10) = some (3, 10) := rfl
theorem dec3_11 : decode (semAt cc0_scratch10 11 ho_11) = some (3, 11) := rfl
theorem dec3_12 : decode (semAt cc0_scratch10 12 ho_12) = some (3, 12) := rfl
theorem dec3_13 : decode (semAt cc0_scratch10 13 ho_13) = some (3, 13) := rfl
theorem dec3_14 : decode (semAt cc0_scratch10 14 ho_14) = some (3, 14) := rfl
theorem dec3_15 : decode (semAt cc0_scratch10 15 ho_15) = some (3, 15) := rfl
theorem dec3_16 : decode (semAt cc0_scratch10 16 ho_16) = some (3, 16) := rfl
theorem dec3_17 : decode (semAt cc0_scratch10 17 ho_17) = some (3, 17) := rfl
theorem dec3_18 : decode (semAt cc0_scratch10 18 ho_18) = some (3, 18) := rfl
theorem dec3_19 : decode (semAt cc0_scratch10 19 ho_19) = some (3, 19) := rfl
theorem dec3_20 : decode (semAt cc0_scratch10 20 ho_20) = some (3, 20) := rfl
theorem dec3_21 : decode (semAt cc0_scratch10 21 ho_21) = some (3, 21) := rfl
theorem dec3_22 : decode (semAt cc0_scratch10 22 ho_22) = some (3, 22) := rfl
theorem dec3_23 : decode (semAt cc0_scratch10 23 ho_23) = some (3, 23) := rfl
theorem dec3_24 : decode (semAt cc0_scratch10 24 ho_24) = some (3, 24) := rfl
theorem dec3_25 : decode (semAt cc0_scratch10 25 ho_25) = some (3, 25) := rfl
theorem dec3_26 : decode (semAt cc0_scratch10 26 ho_26) = some (3, 26) := rfl
theorem dec3_27 : decode (semAt cc0_scratch10 27 ho_27) = some (3, 27) := rfl
theorem dec3_28 : decode (semAt cc0_scratch10 28 ho_28) = some (3, 28) := rfl
theorem dec3_29 : decode (semAt cc0_scratch10 29 ho_29) = some (3, 29) := rfl
theorem dec3_30 : decode (semAt cc0_scratch10 30 ho_30) = some (3, 30) := rfl
theorem dec3_31 : decode (semAt cc0_scratch10 31 ho_31) = some (3, 31) := rfl

section TablesK
variable (S1c : (c : Dev nD) → Buf (Elt F) (st1.view.loc (c : Thread nD τ)))
variable (Y2c : (c : Dev nD) → Buf (Elt F) (st2.view.loc (c : Thread nD τ)))

@[sl_rounds] theorem duties_0_1 (c : Dev nD) : (sched (F := F) S1c Y2c).duties (s1Cell c 1 ho_1) 0 = {0} := duties_dma S1c Y2c c _ 0 1 dec0_1
@[sl_rounds] theorem expect_0_1 (c : Dev nD) : (sched (F := F) S1c Y2c).expect (s1Cell c 1 ho_1) 0 = NX := expect_dma S1c Y2c c _ 0 1 dec0_1
@[sl_rounds] theorem pay_0_1 (c : Dev nD) (r d : ℕ) : (sched (F := F) S1c Y2c).payload (s1Cell c 1 ho_1) r d = ((srcM1 c 1 hk_1).view.loc (c : Thread nD τ) ↦[(srcM1 c 1 hk_1).view.set]{fullShare} S1c c : sProp 𝕄) :=
  (payload_dma S1c Y2c c _ 0 1 dec0_1 r d).trans (by unfold xferPay; rw [dif_pos hk_1])
@[sl_rounds] theorem duties_0_2 (c : Dev nD) : (sched (F := F) S1c Y2c).duties (s1Cell c 2 ho_2) 0 = {0} := duties_dma S1c Y2c c _ 0 2 dec0_2
@[sl_rounds] theorem expect_0_2 (c : Dev nD) : (sched (F := F) S1c Y2c).expect (s1Cell c 2 ho_2) 0 = NX := expect_dma S1c Y2c c _ 0 2 dec0_2
@[sl_rounds] theorem pay_0_2 (c : Dev nD) (r d : ℕ) : (sched (F := F) S1c Y2c).payload (s1Cell c 2 ho_2) r d = ((srcM1 c 2 hk_2).view.loc (c : Thread nD τ) ↦[(srcM1 c 2 hk_2).view.set]{fullShare} S1c c : sProp 𝕄) :=
  (payload_dma S1c Y2c c _ 0 2 dec0_2 r d).trans (by unfold xferPay; rw [dif_pos hk_2])
@[sl_rounds] theorem duties_0_3 (c : Dev nD) : (sched (F := F) S1c Y2c).duties (s1Cell c 3 ho_3) 0 = {0} := duties_dma S1c Y2c c _ 0 3 dec0_3
@[sl_rounds] theorem expect_0_3 (c : Dev nD) : (sched (F := F) S1c Y2c).expect (s1Cell c 3 ho_3) 0 = NX := expect_dma S1c Y2c c _ 0 3 dec0_3
@[sl_rounds] theorem pay_0_3 (c : Dev nD) (r d : ℕ) : (sched (F := F) S1c Y2c).payload (s1Cell c 3 ho_3) r d = ((srcM1 c 3 hk_3).view.loc (c : Thread nD τ) ↦[(srcM1 c 3 hk_3).view.set]{fullShare} S1c c : sProp 𝕄) :=
  (payload_dma S1c Y2c c _ 0 3 dec0_3 r d).trans (by unfold xferPay; rw [dif_pos hk_3])
@[sl_rounds] theorem duties_0_4 (c : Dev nD) : (sched (F := F) S1c Y2c).duties (s1Cell c 4 ho_4) 0 = {0} := duties_dma S1c Y2c c _ 0 4 dec0_4
@[sl_rounds] theorem expect_0_4 (c : Dev nD) : (sched (F := F) S1c Y2c).expect (s1Cell c 4 ho_4) 0 = NX := expect_dma S1c Y2c c _ 0 4 dec0_4
@[sl_rounds] theorem pay_0_4 (c : Dev nD) (r d : ℕ) : (sched (F := F) S1c Y2c).payload (s1Cell c 4 ho_4) r d = ((srcM1 c 4 hk_4).view.loc (c : Thread nD τ) ↦[(srcM1 c 4 hk_4).view.set]{fullShare} S1c c : sProp 𝕄) :=
  (payload_dma S1c Y2c c _ 0 4 dec0_4 r d).trans (by unfold xferPay; rw [dif_pos hk_4])
@[sl_rounds] theorem duties_0_5 (c : Dev nD) : (sched (F := F) S1c Y2c).duties (s1Cell c 5 ho_5) 0 = {0} := duties_dma S1c Y2c c _ 0 5 dec0_5
@[sl_rounds] theorem expect_0_5 (c : Dev nD) : (sched (F := F) S1c Y2c).expect (s1Cell c 5 ho_5) 0 = NX := expect_dma S1c Y2c c _ 0 5 dec0_5
@[sl_rounds] theorem pay_0_5 (c : Dev nD) (r d : ℕ) : (sched (F := F) S1c Y2c).payload (s1Cell c 5 ho_5) r d = ((srcM1 c 5 hk_5).view.loc (c : Thread nD τ) ↦[(srcM1 c 5 hk_5).view.set]{fullShare} S1c c : sProp 𝕄) :=
  (payload_dma S1c Y2c c _ 0 5 dec0_5 r d).trans (by unfold xferPay; rw [dif_pos hk_5])
@[sl_rounds] theorem duties_0_6 (c : Dev nD) : (sched (F := F) S1c Y2c).duties (s1Cell c 6 ho_6) 0 = {0} := duties_dma S1c Y2c c _ 0 6 dec0_6
@[sl_rounds] theorem expect_0_6 (c : Dev nD) : (sched (F := F) S1c Y2c).expect (s1Cell c 6 ho_6) 0 = NX := expect_dma S1c Y2c c _ 0 6 dec0_6
@[sl_rounds] theorem pay_0_6 (c : Dev nD) (r d : ℕ) : (sched (F := F) S1c Y2c).payload (s1Cell c 6 ho_6) r d = ((srcM1 c 6 hk_6).view.loc (c : Thread nD τ) ↦[(srcM1 c 6 hk_6).view.set]{fullShare} S1c c : sProp 𝕄) :=
  (payload_dma S1c Y2c c _ 0 6 dec0_6 r d).trans (by unfold xferPay; rw [dif_pos hk_6])
@[sl_rounds] theorem duties_0_7 (c : Dev nD) : (sched (F := F) S1c Y2c).duties (s1Cell c 7 ho_7) 0 = {0} := duties_dma S1c Y2c c _ 0 7 dec0_7
@[sl_rounds] theorem expect_0_7 (c : Dev nD) : (sched (F := F) S1c Y2c).expect (s1Cell c 7 ho_7) 0 = NX := expect_dma S1c Y2c c _ 0 7 dec0_7
@[sl_rounds] theorem pay_0_7 (c : Dev nD) (r d : ℕ) : (sched (F := F) S1c Y2c).payload (s1Cell c 7 ho_7) r d = ((srcM1 c 7 hk_7).view.loc (c : Thread nD τ) ↦[(srcM1 c 7 hk_7).view.set]{fullShare} S1c c : sProp 𝕄) :=
  (payload_dma S1c Y2c c _ 0 7 dec0_7 r d).trans (by unfold xferPay; rw [dif_pos hk_7])
@[sl_rounds] theorem duties_0_8 (c : Dev nD) : (sched (F := F) S1c Y2c).duties (s1Cell c 8 ho_8) 0 = {0} := duties_dma S1c Y2c c _ 0 8 dec0_8
@[sl_rounds] theorem expect_0_8 (c : Dev nD) : (sched (F := F) S1c Y2c).expect (s1Cell c 8 ho_8) 0 = NX := expect_dma S1c Y2c c _ 0 8 dec0_8
@[sl_rounds] theorem pay_0_8 (c : Dev nD) (r d : ℕ) : (sched (F := F) S1c Y2c).payload (s1Cell c 8 ho_8) r d = ((srcM1 c 8 hk_8).view.loc (c : Thread nD τ) ↦[(srcM1 c 8 hk_8).view.set]{fullShare} S1c c : sProp 𝕄) :=
  (payload_dma S1c Y2c c _ 0 8 dec0_8 r d).trans (by unfold xferPay; rw [dif_pos hk_8])
@[sl_rounds] theorem duties_0_9 (c : Dev nD) : (sched (F := F) S1c Y2c).duties (s1Cell c 9 ho_9) 0 = {0} := duties_dma S1c Y2c c _ 0 9 dec0_9
@[sl_rounds] theorem expect_0_9 (c : Dev nD) : (sched (F := F) S1c Y2c).expect (s1Cell c 9 ho_9) 0 = NX := expect_dma S1c Y2c c _ 0 9 dec0_9
@[sl_rounds] theorem pay_0_9 (c : Dev nD) (r d : ℕ) : (sched (F := F) S1c Y2c).payload (s1Cell c 9 ho_9) r d = ((srcM1 c 9 hk_9).view.loc (c : Thread nD τ) ↦[(srcM1 c 9 hk_9).view.set]{fullShare} S1c c : sProp 𝕄) :=
  (payload_dma S1c Y2c c _ 0 9 dec0_9 r d).trans (by unfold xferPay; rw [dif_pos hk_9])
@[sl_rounds] theorem duties_0_10 (c : Dev nD) : (sched (F := F) S1c Y2c).duties (s1Cell c 10 ho_10) 0 = {0} := duties_dma S1c Y2c c _ 0 10 dec0_10
@[sl_rounds] theorem expect_0_10 (c : Dev nD) : (sched (F := F) S1c Y2c).expect (s1Cell c 10 ho_10) 0 = NX := expect_dma S1c Y2c c _ 0 10 dec0_10
@[sl_rounds] theorem pay_0_10 (c : Dev nD) (r d : ℕ) : (sched (F := F) S1c Y2c).payload (s1Cell c 10 ho_10) r d = ((srcM1 c 10 hk_10).view.loc (c : Thread nD τ) ↦[(srcM1 c 10 hk_10).view.set]{fullShare} S1c c : sProp 𝕄) :=
  (payload_dma S1c Y2c c _ 0 10 dec0_10 r d).trans (by unfold xferPay; rw [dif_pos hk_10])
@[sl_rounds] theorem duties_0_11 (c : Dev nD) : (sched (F := F) S1c Y2c).duties (s1Cell c 11 ho_11) 0 = {0} := duties_dma S1c Y2c c _ 0 11 dec0_11
@[sl_rounds] theorem expect_0_11 (c : Dev nD) : (sched (F := F) S1c Y2c).expect (s1Cell c 11 ho_11) 0 = NX := expect_dma S1c Y2c c _ 0 11 dec0_11
@[sl_rounds] theorem pay_0_11 (c : Dev nD) (r d : ℕ) : (sched (F := F) S1c Y2c).payload (s1Cell c 11 ho_11) r d = ((srcM1 c 11 hk_11).view.loc (c : Thread nD τ) ↦[(srcM1 c 11 hk_11).view.set]{fullShare} S1c c : sProp 𝕄) :=
  (payload_dma S1c Y2c c _ 0 11 dec0_11 r d).trans (by unfold xferPay; rw [dif_pos hk_11])
@[sl_rounds] theorem duties_0_12 (c : Dev nD) : (sched (F := F) S1c Y2c).duties (s1Cell c 12 ho_12) 0 = {0} := duties_dma S1c Y2c c _ 0 12 dec0_12
@[sl_rounds] theorem expect_0_12 (c : Dev nD) : (sched (F := F) S1c Y2c).expect (s1Cell c 12 ho_12) 0 = NX := expect_dma S1c Y2c c _ 0 12 dec0_12
@[sl_rounds] theorem pay_0_12 (c : Dev nD) (r d : ℕ) : (sched (F := F) S1c Y2c).payload (s1Cell c 12 ho_12) r d = ((srcM1 c 12 hk_12).view.loc (c : Thread nD τ) ↦[(srcM1 c 12 hk_12).view.set]{fullShare} S1c c : sProp 𝕄) :=
  (payload_dma S1c Y2c c _ 0 12 dec0_12 r d).trans (by unfold xferPay; rw [dif_pos hk_12])
@[sl_rounds] theorem duties_0_13 (c : Dev nD) : (sched (F := F) S1c Y2c).duties (s1Cell c 13 ho_13) 0 = {0} := duties_dma S1c Y2c c _ 0 13 dec0_13
@[sl_rounds] theorem expect_0_13 (c : Dev nD) : (sched (F := F) S1c Y2c).expect (s1Cell c 13 ho_13) 0 = NX := expect_dma S1c Y2c c _ 0 13 dec0_13
@[sl_rounds] theorem pay_0_13 (c : Dev nD) (r d : ℕ) : (sched (F := F) S1c Y2c).payload (s1Cell c 13 ho_13) r d = ((srcM1 c 13 hk_13).view.loc (c : Thread nD τ) ↦[(srcM1 c 13 hk_13).view.set]{fullShare} S1c c : sProp 𝕄) :=
  (payload_dma S1c Y2c c _ 0 13 dec0_13 r d).trans (by unfold xferPay; rw [dif_pos hk_13])
@[sl_rounds] theorem duties_0_14 (c : Dev nD) : (sched (F := F) S1c Y2c).duties (s1Cell c 14 ho_14) 0 = {0} := duties_dma S1c Y2c c _ 0 14 dec0_14
@[sl_rounds] theorem expect_0_14 (c : Dev nD) : (sched (F := F) S1c Y2c).expect (s1Cell c 14 ho_14) 0 = NX := expect_dma S1c Y2c c _ 0 14 dec0_14
@[sl_rounds] theorem pay_0_14 (c : Dev nD) (r d : ℕ) : (sched (F := F) S1c Y2c).payload (s1Cell c 14 ho_14) r d = ((srcM1 c 14 hk_14).view.loc (c : Thread nD τ) ↦[(srcM1 c 14 hk_14).view.set]{fullShare} S1c c : sProp 𝕄) :=
  (payload_dma S1c Y2c c _ 0 14 dec0_14 r d).trans (by unfold xferPay; rw [dif_pos hk_14])
@[sl_rounds] theorem duties_0_15 (c : Dev nD) : (sched (F := F) S1c Y2c).duties (s1Cell c 15 ho_15) 0 = {0} := duties_dma S1c Y2c c _ 0 15 dec0_15
@[sl_rounds] theorem expect_0_15 (c : Dev nD) : (sched (F := F) S1c Y2c).expect (s1Cell c 15 ho_15) 0 = NX := expect_dma S1c Y2c c _ 0 15 dec0_15
@[sl_rounds] theorem pay_0_15 (c : Dev nD) (r d : ℕ) : (sched (F := F) S1c Y2c).payload (s1Cell c 15 ho_15) r d = ((srcM1 c 15 hk_15).view.loc (c : Thread nD τ) ↦[(srcM1 c 15 hk_15).view.set]{fullShare} S1c c : sProp 𝕄) :=
  (payload_dma S1c Y2c c _ 0 15 dec0_15 r d).trans (by unfold xferPay; rw [dif_pos hk_15])
@[sl_rounds] theorem duties_0_16 (c : Dev nD) : (sched (F := F) S1c Y2c).duties (s1Cell c 16 ho_16) 0 = {0} := duties_dma S1c Y2c c _ 0 16 dec0_16
@[sl_rounds] theorem expect_0_16 (c : Dev nD) : (sched (F := F) S1c Y2c).expect (s1Cell c 16 ho_16) 0 = NX := expect_dma S1c Y2c c _ 0 16 dec0_16
@[sl_rounds] theorem pay_0_16 (c : Dev nD) (r d : ℕ) : (sched (F := F) S1c Y2c).payload (s1Cell c 16 ho_16) r d = ((srcM1 c 16 hk_16).view.loc (c : Thread nD τ) ↦[(srcM1 c 16 hk_16).view.set]{fullShare} S1c c : sProp 𝕄) :=
  (payload_dma S1c Y2c c _ 0 16 dec0_16 r d).trans (by unfold xferPay; rw [dif_pos hk_16])
@[sl_rounds] theorem duties_0_17 (c : Dev nD) : (sched (F := F) S1c Y2c).duties (s1Cell c 17 ho_17) 0 = {0} := duties_dma S1c Y2c c _ 0 17 dec0_17
@[sl_rounds] theorem expect_0_17 (c : Dev nD) : (sched (F := F) S1c Y2c).expect (s1Cell c 17 ho_17) 0 = NX := expect_dma S1c Y2c c _ 0 17 dec0_17
@[sl_rounds] theorem pay_0_17 (c : Dev nD) (r d : ℕ) : (sched (F := F) S1c Y2c).payload (s1Cell c 17 ho_17) r d = ((srcM1 c 17 hk_17).view.loc (c : Thread nD τ) ↦[(srcM1 c 17 hk_17).view.set]{fullShare} S1c c : sProp 𝕄) :=
  (payload_dma S1c Y2c c _ 0 17 dec0_17 r d).trans (by unfold xferPay; rw [dif_pos hk_17])
@[sl_rounds] theorem duties_0_18 (c : Dev nD) : (sched (F := F) S1c Y2c).duties (s1Cell c 18 ho_18) 0 = {0} := duties_dma S1c Y2c c _ 0 18 dec0_18
@[sl_rounds] theorem expect_0_18 (c : Dev nD) : (sched (F := F) S1c Y2c).expect (s1Cell c 18 ho_18) 0 = NX := expect_dma S1c Y2c c _ 0 18 dec0_18
@[sl_rounds] theorem pay_0_18 (c : Dev nD) (r d : ℕ) : (sched (F := F) S1c Y2c).payload (s1Cell c 18 ho_18) r d = ((srcM1 c 18 hk_18).view.loc (c : Thread nD τ) ↦[(srcM1 c 18 hk_18).view.set]{fullShare} S1c c : sProp 𝕄) :=
  (payload_dma S1c Y2c c _ 0 18 dec0_18 r d).trans (by unfold xferPay; rw [dif_pos hk_18])
@[sl_rounds] theorem duties_0_19 (c : Dev nD) : (sched (F := F) S1c Y2c).duties (s1Cell c 19 ho_19) 0 = {0} := duties_dma S1c Y2c c _ 0 19 dec0_19
@[sl_rounds] theorem expect_0_19 (c : Dev nD) : (sched (F := F) S1c Y2c).expect (s1Cell c 19 ho_19) 0 = NX := expect_dma S1c Y2c c _ 0 19 dec0_19
@[sl_rounds] theorem pay_0_19 (c : Dev nD) (r d : ℕ) : (sched (F := F) S1c Y2c).payload (s1Cell c 19 ho_19) r d = ((srcM1 c 19 hk_19).view.loc (c : Thread nD τ) ↦[(srcM1 c 19 hk_19).view.set]{fullShare} S1c c : sProp 𝕄) :=
  (payload_dma S1c Y2c c _ 0 19 dec0_19 r d).trans (by unfold xferPay; rw [dif_pos hk_19])
@[sl_rounds] theorem duties_0_20 (c : Dev nD) : (sched (F := F) S1c Y2c).duties (s1Cell c 20 ho_20) 0 = {0} := duties_dma S1c Y2c c _ 0 20 dec0_20
@[sl_rounds] theorem expect_0_20 (c : Dev nD) : (sched (F := F) S1c Y2c).expect (s1Cell c 20 ho_20) 0 = NX := expect_dma S1c Y2c c _ 0 20 dec0_20
@[sl_rounds] theorem pay_0_20 (c : Dev nD) (r d : ℕ) : (sched (F := F) S1c Y2c).payload (s1Cell c 20 ho_20) r d = ((srcM1 c 20 hk_20).view.loc (c : Thread nD τ) ↦[(srcM1 c 20 hk_20).view.set]{fullShare} S1c c : sProp 𝕄) :=
  (payload_dma S1c Y2c c _ 0 20 dec0_20 r d).trans (by unfold xferPay; rw [dif_pos hk_20])
@[sl_rounds] theorem duties_0_21 (c : Dev nD) : (sched (F := F) S1c Y2c).duties (s1Cell c 21 ho_21) 0 = {0} := duties_dma S1c Y2c c _ 0 21 dec0_21
@[sl_rounds] theorem expect_0_21 (c : Dev nD) : (sched (F := F) S1c Y2c).expect (s1Cell c 21 ho_21) 0 = NX := expect_dma S1c Y2c c _ 0 21 dec0_21
@[sl_rounds] theorem pay_0_21 (c : Dev nD) (r d : ℕ) : (sched (F := F) S1c Y2c).payload (s1Cell c 21 ho_21) r d = ((srcM1 c 21 hk_21).view.loc (c : Thread nD τ) ↦[(srcM1 c 21 hk_21).view.set]{fullShare} S1c c : sProp 𝕄) :=
  (payload_dma S1c Y2c c _ 0 21 dec0_21 r d).trans (by unfold xferPay; rw [dif_pos hk_21])
@[sl_rounds] theorem duties_0_22 (c : Dev nD) : (sched (F := F) S1c Y2c).duties (s1Cell c 22 ho_22) 0 = {0} := duties_dma S1c Y2c c _ 0 22 dec0_22
@[sl_rounds] theorem expect_0_22 (c : Dev nD) : (sched (F := F) S1c Y2c).expect (s1Cell c 22 ho_22) 0 = NX := expect_dma S1c Y2c c _ 0 22 dec0_22
@[sl_rounds] theorem pay_0_22 (c : Dev nD) (r d : ℕ) : (sched (F := F) S1c Y2c).payload (s1Cell c 22 ho_22) r d = ((srcM1 c 22 hk_22).view.loc (c : Thread nD τ) ↦[(srcM1 c 22 hk_22).view.set]{fullShare} S1c c : sProp 𝕄) :=
  (payload_dma S1c Y2c c _ 0 22 dec0_22 r d).trans (by unfold xferPay; rw [dif_pos hk_22])
@[sl_rounds] theorem duties_0_23 (c : Dev nD) : (sched (F := F) S1c Y2c).duties (s1Cell c 23 ho_23) 0 = {0} := duties_dma S1c Y2c c _ 0 23 dec0_23
@[sl_rounds] theorem expect_0_23 (c : Dev nD) : (sched (F := F) S1c Y2c).expect (s1Cell c 23 ho_23) 0 = NX := expect_dma S1c Y2c c _ 0 23 dec0_23
@[sl_rounds] theorem pay_0_23 (c : Dev nD) (r d : ℕ) : (sched (F := F) S1c Y2c).payload (s1Cell c 23 ho_23) r d = ((srcM1 c 23 hk_23).view.loc (c : Thread nD τ) ↦[(srcM1 c 23 hk_23).view.set]{fullShare} S1c c : sProp 𝕄) :=
  (payload_dma S1c Y2c c _ 0 23 dec0_23 r d).trans (by unfold xferPay; rw [dif_pos hk_23])
@[sl_rounds] theorem duties_0_24 (c : Dev nD) : (sched (F := F) S1c Y2c).duties (s1Cell c 24 ho_24) 0 = {0} := duties_dma S1c Y2c c _ 0 24 dec0_24
@[sl_rounds] theorem expect_0_24 (c : Dev nD) : (sched (F := F) S1c Y2c).expect (s1Cell c 24 ho_24) 0 = NX := expect_dma S1c Y2c c _ 0 24 dec0_24
@[sl_rounds] theorem pay_0_24 (c : Dev nD) (r d : ℕ) : (sched (F := F) S1c Y2c).payload (s1Cell c 24 ho_24) r d = ((srcM1 c 24 hk_24).view.loc (c : Thread nD τ) ↦[(srcM1 c 24 hk_24).view.set]{fullShare} S1c c : sProp 𝕄) :=
  (payload_dma S1c Y2c c _ 0 24 dec0_24 r d).trans (by unfold xferPay; rw [dif_pos hk_24])
@[sl_rounds] theorem duties_0_25 (c : Dev nD) : (sched (F := F) S1c Y2c).duties (s1Cell c 25 ho_25) 0 = {0} := duties_dma S1c Y2c c _ 0 25 dec0_25
@[sl_rounds] theorem expect_0_25 (c : Dev nD) : (sched (F := F) S1c Y2c).expect (s1Cell c 25 ho_25) 0 = NX := expect_dma S1c Y2c c _ 0 25 dec0_25
@[sl_rounds] theorem pay_0_25 (c : Dev nD) (r d : ℕ) : (sched (F := F) S1c Y2c).payload (s1Cell c 25 ho_25) r d = ((srcM1 c 25 hk_25).view.loc (c : Thread nD τ) ↦[(srcM1 c 25 hk_25).view.set]{fullShare} S1c c : sProp 𝕄) :=
  (payload_dma S1c Y2c c _ 0 25 dec0_25 r d).trans (by unfold xferPay; rw [dif_pos hk_25])
@[sl_rounds] theorem duties_0_26 (c : Dev nD) : (sched (F := F) S1c Y2c).duties (s1Cell c 26 ho_26) 0 = {0} := duties_dma S1c Y2c c _ 0 26 dec0_26
@[sl_rounds] theorem expect_0_26 (c : Dev nD) : (sched (F := F) S1c Y2c).expect (s1Cell c 26 ho_26) 0 = NX := expect_dma S1c Y2c c _ 0 26 dec0_26
@[sl_rounds] theorem pay_0_26 (c : Dev nD) (r d : ℕ) : (sched (F := F) S1c Y2c).payload (s1Cell c 26 ho_26) r d = ((srcM1 c 26 hk_26).view.loc (c : Thread nD τ) ↦[(srcM1 c 26 hk_26).view.set]{fullShare} S1c c : sProp 𝕄) :=
  (payload_dma S1c Y2c c _ 0 26 dec0_26 r d).trans (by unfold xferPay; rw [dif_pos hk_26])
@[sl_rounds] theorem duties_0_27 (c : Dev nD) : (sched (F := F) S1c Y2c).duties (s1Cell c 27 ho_27) 0 = {0} := duties_dma S1c Y2c c _ 0 27 dec0_27
@[sl_rounds] theorem expect_0_27 (c : Dev nD) : (sched (F := F) S1c Y2c).expect (s1Cell c 27 ho_27) 0 = NX := expect_dma S1c Y2c c _ 0 27 dec0_27
@[sl_rounds] theorem pay_0_27 (c : Dev nD) (r d : ℕ) : (sched (F := F) S1c Y2c).payload (s1Cell c 27 ho_27) r d = ((srcM1 c 27 hk_27).view.loc (c : Thread nD τ) ↦[(srcM1 c 27 hk_27).view.set]{fullShare} S1c c : sProp 𝕄) :=
  (payload_dma S1c Y2c c _ 0 27 dec0_27 r d).trans (by unfold xferPay; rw [dif_pos hk_27])
@[sl_rounds] theorem duties_0_28 (c : Dev nD) : (sched (F := F) S1c Y2c).duties (s1Cell c 28 ho_28) 0 = {0} := duties_dma S1c Y2c c _ 0 28 dec0_28
@[sl_rounds] theorem expect_0_28 (c : Dev nD) : (sched (F := F) S1c Y2c).expect (s1Cell c 28 ho_28) 0 = NX := expect_dma S1c Y2c c _ 0 28 dec0_28
@[sl_rounds] theorem pay_0_28 (c : Dev nD) (r d : ℕ) : (sched (F := F) S1c Y2c).payload (s1Cell c 28 ho_28) r d = ((srcM1 c 28 hk_28).view.loc (c : Thread nD τ) ↦[(srcM1 c 28 hk_28).view.set]{fullShare} S1c c : sProp 𝕄) :=
  (payload_dma S1c Y2c c _ 0 28 dec0_28 r d).trans (by unfold xferPay; rw [dif_pos hk_28])
@[sl_rounds] theorem duties_0_29 (c : Dev nD) : (sched (F := F) S1c Y2c).duties (s1Cell c 29 ho_29) 0 = {0} := duties_dma S1c Y2c c _ 0 29 dec0_29
@[sl_rounds] theorem expect_0_29 (c : Dev nD) : (sched (F := F) S1c Y2c).expect (s1Cell c 29 ho_29) 0 = NX := expect_dma S1c Y2c c _ 0 29 dec0_29
@[sl_rounds] theorem pay_0_29 (c : Dev nD) (r d : ℕ) : (sched (F := F) S1c Y2c).payload (s1Cell c 29 ho_29) r d = ((srcM1 c 29 hk_29).view.loc (c : Thread nD τ) ↦[(srcM1 c 29 hk_29).view.set]{fullShare} S1c c : sProp 𝕄) :=
  (payload_dma S1c Y2c c _ 0 29 dec0_29 r d).trans (by unfold xferPay; rw [dif_pos hk_29])
@[sl_rounds] theorem duties_0_30 (c : Dev nD) : (sched (F := F) S1c Y2c).duties (s1Cell c 30 ho_30) 0 = {0} := duties_dma S1c Y2c c _ 0 30 dec0_30
@[sl_rounds] theorem expect_0_30 (c : Dev nD) : (sched (F := F) S1c Y2c).expect (s1Cell c 30 ho_30) 0 = NX := expect_dma S1c Y2c c _ 0 30 dec0_30
@[sl_rounds] theorem pay_0_30 (c : Dev nD) (r d : ℕ) : (sched (F := F) S1c Y2c).payload (s1Cell c 30 ho_30) r d = ((srcM1 c 30 hk_30).view.loc (c : Thread nD τ) ↦[(srcM1 c 30 hk_30).view.set]{fullShare} S1c c : sProp 𝕄) :=
  (payload_dma S1c Y2c c _ 0 30 dec0_30 r d).trans (by unfold xferPay; rw [dif_pos hk_30])
@[sl_rounds] theorem duties_0_31 (c : Dev nD) : (sched (F := F) S1c Y2c).duties (s1Cell c 31 ho_31) 0 = {0} := duties_dma S1c Y2c c _ 0 31 dec0_31
@[sl_rounds] theorem expect_0_31 (c : Dev nD) : (sched (F := F) S1c Y2c).expect (s1Cell c 31 ho_31) 0 = NX := expect_dma S1c Y2c c _ 0 31 dec0_31
@[sl_rounds] theorem pay_0_31 (c : Dev nD) (r d : ℕ) : (sched (F := F) S1c Y2c).payload (s1Cell c 31 ho_31) r d = ((srcM1 c 31 hk_31).view.loc (c : Thread nD τ) ↦[(srcM1 c 31 hk_31).view.set]{fullShare} S1c c : sProp 𝕄) :=
  (payload_dma S1c Y2c c _ 0 31 dec0_31 r d).trans (by unfold xferPay; rw [dif_pos hk_31])
@[sl_rounds] theorem duties_1_1 (c : Dev nD) : (sched (F := F) S1c Y2c).duties (r1Cell c 1 ho_1) 0 = {0} := duties_dma S1c Y2c c _ 1 1 dec1_1
@[sl_rounds] theorem expect_1_1 (c : Dev nD) : (sched (F := F) S1c Y2c).expect (r1Cell c 1 ho_1) 0 = NX := expect_dma S1c Y2c c _ 1 1 dec1_1
@[sl_rounds] theorem pay_1_1 (c : Dev nD) (r d : ℕ) : (sched (F := F) S1c Y2c).payload (r1Cell c 1 ho_1) r d = ((slotM cm1 1 ho_1).view.loc (c : Thread nD τ) ↦[(slotM cm1 1 ho_1).view.set]{fullShare} land1 S1c c 1 hk_1 : sProp 𝕄) :=
  (payload_dma S1c Y2c c _ 1 1 dec1_1 r d).trans (by unfold xferPay; rw [dif_pos hk_1])
@[sl_rounds] theorem duties_1_2 (c : Dev nD) : (sched (F := F) S1c Y2c).duties (r1Cell c 2 ho_2) 0 = {0} := duties_dma S1c Y2c c _ 1 2 dec1_2
@[sl_rounds] theorem expect_1_2 (c : Dev nD) : (sched (F := F) S1c Y2c).expect (r1Cell c 2 ho_2) 0 = NX := expect_dma S1c Y2c c _ 1 2 dec1_2
@[sl_rounds] theorem pay_1_2 (c : Dev nD) (r d : ℕ) : (sched (F := F) S1c Y2c).payload (r1Cell c 2 ho_2) r d = ((slotM cm1 2 ho_2).view.loc (c : Thread nD τ) ↦[(slotM cm1 2 ho_2).view.set]{fullShare} land1 S1c c 2 hk_2 : sProp 𝕄) :=
  (payload_dma S1c Y2c c _ 1 2 dec1_2 r d).trans (by unfold xferPay; rw [dif_pos hk_2])
@[sl_rounds] theorem duties_1_3 (c : Dev nD) : (sched (F := F) S1c Y2c).duties (r1Cell c 3 ho_3) 0 = {0} := duties_dma S1c Y2c c _ 1 3 dec1_3
@[sl_rounds] theorem expect_1_3 (c : Dev nD) : (sched (F := F) S1c Y2c).expect (r1Cell c 3 ho_3) 0 = NX := expect_dma S1c Y2c c _ 1 3 dec1_3
@[sl_rounds] theorem pay_1_3 (c : Dev nD) (r d : ℕ) : (sched (F := F) S1c Y2c).payload (r1Cell c 3 ho_3) r d = ((slotM cm1 3 ho_3).view.loc (c : Thread nD τ) ↦[(slotM cm1 3 ho_3).view.set]{fullShare} land1 S1c c 3 hk_3 : sProp 𝕄) :=
  (payload_dma S1c Y2c c _ 1 3 dec1_3 r d).trans (by unfold xferPay; rw [dif_pos hk_3])
@[sl_rounds] theorem duties_1_4 (c : Dev nD) : (sched (F := F) S1c Y2c).duties (r1Cell c 4 ho_4) 0 = {0} := duties_dma S1c Y2c c _ 1 4 dec1_4
@[sl_rounds] theorem expect_1_4 (c : Dev nD) : (sched (F := F) S1c Y2c).expect (r1Cell c 4 ho_4) 0 = NX := expect_dma S1c Y2c c _ 1 4 dec1_4
@[sl_rounds] theorem pay_1_4 (c : Dev nD) (r d : ℕ) : (sched (F := F) S1c Y2c).payload (r1Cell c 4 ho_4) r d = ((slotM cm1 4 ho_4).view.loc (c : Thread nD τ) ↦[(slotM cm1 4 ho_4).view.set]{fullShare} land1 S1c c 4 hk_4 : sProp 𝕄) :=
  (payload_dma S1c Y2c c _ 1 4 dec1_4 r d).trans (by unfold xferPay; rw [dif_pos hk_4])
@[sl_rounds] theorem duties_1_5 (c : Dev nD) : (sched (F := F) S1c Y2c).duties (r1Cell c 5 ho_5) 0 = {0} := duties_dma S1c Y2c c _ 1 5 dec1_5
@[sl_rounds] theorem expect_1_5 (c : Dev nD) : (sched (F := F) S1c Y2c).expect (r1Cell c 5 ho_5) 0 = NX := expect_dma S1c Y2c c _ 1 5 dec1_5
@[sl_rounds] theorem pay_1_5 (c : Dev nD) (r d : ℕ) : (sched (F := F) S1c Y2c).payload (r1Cell c 5 ho_5) r d = ((slotM cm1 5 ho_5).view.loc (c : Thread nD τ) ↦[(slotM cm1 5 ho_5).view.set]{fullShare} land1 S1c c 5 hk_5 : sProp 𝕄) :=
  (payload_dma S1c Y2c c _ 1 5 dec1_5 r d).trans (by unfold xferPay; rw [dif_pos hk_5])
@[sl_rounds] theorem duties_1_6 (c : Dev nD) : (sched (F := F) S1c Y2c).duties (r1Cell c 6 ho_6) 0 = {0} := duties_dma S1c Y2c c _ 1 6 dec1_6
@[sl_rounds] theorem expect_1_6 (c : Dev nD) : (sched (F := F) S1c Y2c).expect (r1Cell c 6 ho_6) 0 = NX := expect_dma S1c Y2c c _ 1 6 dec1_6
@[sl_rounds] theorem pay_1_6 (c : Dev nD) (r d : ℕ) : (sched (F := F) S1c Y2c).payload (r1Cell c 6 ho_6) r d = ((slotM cm1 6 ho_6).view.loc (c : Thread nD τ) ↦[(slotM cm1 6 ho_6).view.set]{fullShare} land1 S1c c 6 hk_6 : sProp 𝕄) :=
  (payload_dma S1c Y2c c _ 1 6 dec1_6 r d).trans (by unfold xferPay; rw [dif_pos hk_6])
@[sl_rounds] theorem duties_1_7 (c : Dev nD) : (sched (F := F) S1c Y2c).duties (r1Cell c 7 ho_7) 0 = {0} := duties_dma S1c Y2c c _ 1 7 dec1_7
@[sl_rounds] theorem expect_1_7 (c : Dev nD) : (sched (F := F) S1c Y2c).expect (r1Cell c 7 ho_7) 0 = NX := expect_dma S1c Y2c c _ 1 7 dec1_7
@[sl_rounds] theorem pay_1_7 (c : Dev nD) (r d : ℕ) : (sched (F := F) S1c Y2c).payload (r1Cell c 7 ho_7) r d = ((slotM cm1 7 ho_7).view.loc (c : Thread nD τ) ↦[(slotM cm1 7 ho_7).view.set]{fullShare} land1 S1c c 7 hk_7 : sProp 𝕄) :=
  (payload_dma S1c Y2c c _ 1 7 dec1_7 r d).trans (by unfold xferPay; rw [dif_pos hk_7])
@[sl_rounds] theorem duties_1_8 (c : Dev nD) : (sched (F := F) S1c Y2c).duties (r1Cell c 8 ho_8) 0 = {0} := duties_dma S1c Y2c c _ 1 8 dec1_8
@[sl_rounds] theorem expect_1_8 (c : Dev nD) : (sched (F := F) S1c Y2c).expect (r1Cell c 8 ho_8) 0 = NX := expect_dma S1c Y2c c _ 1 8 dec1_8
@[sl_rounds] theorem pay_1_8 (c : Dev nD) (r d : ℕ) : (sched (F := F) S1c Y2c).payload (r1Cell c 8 ho_8) r d = ((slotM cm1 8 ho_8).view.loc (c : Thread nD τ) ↦[(slotM cm1 8 ho_8).view.set]{fullShare} land1 S1c c 8 hk_8 : sProp 𝕄) :=
  (payload_dma S1c Y2c c _ 1 8 dec1_8 r d).trans (by unfold xferPay; rw [dif_pos hk_8])
@[sl_rounds] theorem duties_1_9 (c : Dev nD) : (sched (F := F) S1c Y2c).duties (r1Cell c 9 ho_9) 0 = {0} := duties_dma S1c Y2c c _ 1 9 dec1_9
@[sl_rounds] theorem expect_1_9 (c : Dev nD) : (sched (F := F) S1c Y2c).expect (r1Cell c 9 ho_9) 0 = NX := expect_dma S1c Y2c c _ 1 9 dec1_9
@[sl_rounds] theorem pay_1_9 (c : Dev nD) (r d : ℕ) : (sched (F := F) S1c Y2c).payload (r1Cell c 9 ho_9) r d = ((slotM cm1 9 ho_9).view.loc (c : Thread nD τ) ↦[(slotM cm1 9 ho_9).view.set]{fullShare} land1 S1c c 9 hk_9 : sProp 𝕄) :=
  (payload_dma S1c Y2c c _ 1 9 dec1_9 r d).trans (by unfold xferPay; rw [dif_pos hk_9])
@[sl_rounds] theorem duties_1_10 (c : Dev nD) : (sched (F := F) S1c Y2c).duties (r1Cell c 10 ho_10) 0 = {0} := duties_dma S1c Y2c c _ 1 10 dec1_10
@[sl_rounds] theorem expect_1_10 (c : Dev nD) : (sched (F := F) S1c Y2c).expect (r1Cell c 10 ho_10) 0 = NX := expect_dma S1c Y2c c _ 1 10 dec1_10
@[sl_rounds] theorem pay_1_10 (c : Dev nD) (r d : ℕ) : (sched (F := F) S1c Y2c).payload (r1Cell c 10 ho_10) r d = ((slotM cm1 10 ho_10).view.loc (c : Thread nD τ) ↦[(slotM cm1 10 ho_10).view.set]{fullShare} land1 S1c c 10 hk_10 : sProp 𝕄) :=
  (payload_dma S1c Y2c c _ 1 10 dec1_10 r d).trans (by unfold xferPay; rw [dif_pos hk_10])
@[sl_rounds] theorem duties_1_11 (c : Dev nD) : (sched (F := F) S1c Y2c).duties (r1Cell c 11 ho_11) 0 = {0} := duties_dma S1c Y2c c _ 1 11 dec1_11
@[sl_rounds] theorem expect_1_11 (c : Dev nD) : (sched (F := F) S1c Y2c).expect (r1Cell c 11 ho_11) 0 = NX := expect_dma S1c Y2c c _ 1 11 dec1_11
@[sl_rounds] theorem pay_1_11 (c : Dev nD) (r d : ℕ) : (sched (F := F) S1c Y2c).payload (r1Cell c 11 ho_11) r d = ((slotM cm1 11 ho_11).view.loc (c : Thread nD τ) ↦[(slotM cm1 11 ho_11).view.set]{fullShare} land1 S1c c 11 hk_11 : sProp 𝕄) :=
  (payload_dma S1c Y2c c _ 1 11 dec1_11 r d).trans (by unfold xferPay; rw [dif_pos hk_11])
@[sl_rounds] theorem duties_1_12 (c : Dev nD) : (sched (F := F) S1c Y2c).duties (r1Cell c 12 ho_12) 0 = {0} := duties_dma S1c Y2c c _ 1 12 dec1_12
@[sl_rounds] theorem expect_1_12 (c : Dev nD) : (sched (F := F) S1c Y2c).expect (r1Cell c 12 ho_12) 0 = NX := expect_dma S1c Y2c c _ 1 12 dec1_12
@[sl_rounds] theorem pay_1_12 (c : Dev nD) (r d : ℕ) : (sched (F := F) S1c Y2c).payload (r1Cell c 12 ho_12) r d = ((slotM cm1 12 ho_12).view.loc (c : Thread nD τ) ↦[(slotM cm1 12 ho_12).view.set]{fullShare} land1 S1c c 12 hk_12 : sProp 𝕄) :=
  (payload_dma S1c Y2c c _ 1 12 dec1_12 r d).trans (by unfold xferPay; rw [dif_pos hk_12])
@[sl_rounds] theorem duties_1_13 (c : Dev nD) : (sched (F := F) S1c Y2c).duties (r1Cell c 13 ho_13) 0 = {0} := duties_dma S1c Y2c c _ 1 13 dec1_13
@[sl_rounds] theorem expect_1_13 (c : Dev nD) : (sched (F := F) S1c Y2c).expect (r1Cell c 13 ho_13) 0 = NX := expect_dma S1c Y2c c _ 1 13 dec1_13
@[sl_rounds] theorem pay_1_13 (c : Dev nD) (r d : ℕ) : (sched (F := F) S1c Y2c).payload (r1Cell c 13 ho_13) r d = ((slotM cm1 13 ho_13).view.loc (c : Thread nD τ) ↦[(slotM cm1 13 ho_13).view.set]{fullShare} land1 S1c c 13 hk_13 : sProp 𝕄) :=
  (payload_dma S1c Y2c c _ 1 13 dec1_13 r d).trans (by unfold xferPay; rw [dif_pos hk_13])
@[sl_rounds] theorem duties_1_14 (c : Dev nD) : (sched (F := F) S1c Y2c).duties (r1Cell c 14 ho_14) 0 = {0} := duties_dma S1c Y2c c _ 1 14 dec1_14
@[sl_rounds] theorem expect_1_14 (c : Dev nD) : (sched (F := F) S1c Y2c).expect (r1Cell c 14 ho_14) 0 = NX := expect_dma S1c Y2c c _ 1 14 dec1_14
@[sl_rounds] theorem pay_1_14 (c : Dev nD) (r d : ℕ) : (sched (F := F) S1c Y2c).payload (r1Cell c 14 ho_14) r d = ((slotM cm1 14 ho_14).view.loc (c : Thread nD τ) ↦[(slotM cm1 14 ho_14).view.set]{fullShare} land1 S1c c 14 hk_14 : sProp 𝕄) :=
  (payload_dma S1c Y2c c _ 1 14 dec1_14 r d).trans (by unfold xferPay; rw [dif_pos hk_14])
@[sl_rounds] theorem duties_1_15 (c : Dev nD) : (sched (F := F) S1c Y2c).duties (r1Cell c 15 ho_15) 0 = {0} := duties_dma S1c Y2c c _ 1 15 dec1_15
@[sl_rounds] theorem expect_1_15 (c : Dev nD) : (sched (F := F) S1c Y2c).expect (r1Cell c 15 ho_15) 0 = NX := expect_dma S1c Y2c c _ 1 15 dec1_15
@[sl_rounds] theorem pay_1_15 (c : Dev nD) (r d : ℕ) : (sched (F := F) S1c Y2c).payload (r1Cell c 15 ho_15) r d = ((slotM cm1 15 ho_15).view.loc (c : Thread nD τ) ↦[(slotM cm1 15 ho_15).view.set]{fullShare} land1 S1c c 15 hk_15 : sProp 𝕄) :=
  (payload_dma S1c Y2c c _ 1 15 dec1_15 r d).trans (by unfold xferPay; rw [dif_pos hk_15])
@[sl_rounds] theorem duties_1_16 (c : Dev nD) : (sched (F := F) S1c Y2c).duties (r1Cell c 16 ho_16) 0 = {0} := duties_dma S1c Y2c c _ 1 16 dec1_16
@[sl_rounds] theorem expect_1_16 (c : Dev nD) : (sched (F := F) S1c Y2c).expect (r1Cell c 16 ho_16) 0 = NX := expect_dma S1c Y2c c _ 1 16 dec1_16
@[sl_rounds] theorem pay_1_16 (c : Dev nD) (r d : ℕ) : (sched (F := F) S1c Y2c).payload (r1Cell c 16 ho_16) r d = ((slotM cm1 16 ho_16).view.loc (c : Thread nD τ) ↦[(slotM cm1 16 ho_16).view.set]{fullShare} land1 S1c c 16 hk_16 : sProp 𝕄) :=
  (payload_dma S1c Y2c c _ 1 16 dec1_16 r d).trans (by unfold xferPay; rw [dif_pos hk_16])
@[sl_rounds] theorem duties_1_17 (c : Dev nD) : (sched (F := F) S1c Y2c).duties (r1Cell c 17 ho_17) 0 = {0} := duties_dma S1c Y2c c _ 1 17 dec1_17
@[sl_rounds] theorem expect_1_17 (c : Dev nD) : (sched (F := F) S1c Y2c).expect (r1Cell c 17 ho_17) 0 = NX := expect_dma S1c Y2c c _ 1 17 dec1_17
@[sl_rounds] theorem pay_1_17 (c : Dev nD) (r d : ℕ) : (sched (F := F) S1c Y2c).payload (r1Cell c 17 ho_17) r d = ((slotM cm1 17 ho_17).view.loc (c : Thread nD τ) ↦[(slotM cm1 17 ho_17).view.set]{fullShare} land1 S1c c 17 hk_17 : sProp 𝕄) :=
  (payload_dma S1c Y2c c _ 1 17 dec1_17 r d).trans (by unfold xferPay; rw [dif_pos hk_17])
@[sl_rounds] theorem duties_1_18 (c : Dev nD) : (sched (F := F) S1c Y2c).duties (r1Cell c 18 ho_18) 0 = {0} := duties_dma S1c Y2c c _ 1 18 dec1_18
@[sl_rounds] theorem expect_1_18 (c : Dev nD) : (sched (F := F) S1c Y2c).expect (r1Cell c 18 ho_18) 0 = NX := expect_dma S1c Y2c c _ 1 18 dec1_18
@[sl_rounds] theorem pay_1_18 (c : Dev nD) (r d : ℕ) : (sched (F := F) S1c Y2c).payload (r1Cell c 18 ho_18) r d = ((slotM cm1 18 ho_18).view.loc (c : Thread nD τ) ↦[(slotM cm1 18 ho_18).view.set]{fullShare} land1 S1c c 18 hk_18 : sProp 𝕄) :=
  (payload_dma S1c Y2c c _ 1 18 dec1_18 r d).trans (by unfold xferPay; rw [dif_pos hk_18])
@[sl_rounds] theorem duties_1_19 (c : Dev nD) : (sched (F := F) S1c Y2c).duties (r1Cell c 19 ho_19) 0 = {0} := duties_dma S1c Y2c c _ 1 19 dec1_19
@[sl_rounds] theorem expect_1_19 (c : Dev nD) : (sched (F := F) S1c Y2c).expect (r1Cell c 19 ho_19) 0 = NX := expect_dma S1c Y2c c _ 1 19 dec1_19
@[sl_rounds] theorem pay_1_19 (c : Dev nD) (r d : ℕ) : (sched (F := F) S1c Y2c).payload (r1Cell c 19 ho_19) r d = ((slotM cm1 19 ho_19).view.loc (c : Thread nD τ) ↦[(slotM cm1 19 ho_19).view.set]{fullShare} land1 S1c c 19 hk_19 : sProp 𝕄) :=
  (payload_dma S1c Y2c c _ 1 19 dec1_19 r d).trans (by unfold xferPay; rw [dif_pos hk_19])
@[sl_rounds] theorem duties_1_20 (c : Dev nD) : (sched (F := F) S1c Y2c).duties (r1Cell c 20 ho_20) 0 = {0} := duties_dma S1c Y2c c _ 1 20 dec1_20
@[sl_rounds] theorem expect_1_20 (c : Dev nD) : (sched (F := F) S1c Y2c).expect (r1Cell c 20 ho_20) 0 = NX := expect_dma S1c Y2c c _ 1 20 dec1_20
@[sl_rounds] theorem pay_1_20 (c : Dev nD) (r d : ℕ) : (sched (F := F) S1c Y2c).payload (r1Cell c 20 ho_20) r d = ((slotM cm1 20 ho_20).view.loc (c : Thread nD τ) ↦[(slotM cm1 20 ho_20).view.set]{fullShare} land1 S1c c 20 hk_20 : sProp 𝕄) :=
  (payload_dma S1c Y2c c _ 1 20 dec1_20 r d).trans (by unfold xferPay; rw [dif_pos hk_20])
@[sl_rounds] theorem duties_1_21 (c : Dev nD) : (sched (F := F) S1c Y2c).duties (r1Cell c 21 ho_21) 0 = {0} := duties_dma S1c Y2c c _ 1 21 dec1_21
@[sl_rounds] theorem expect_1_21 (c : Dev nD) : (sched (F := F) S1c Y2c).expect (r1Cell c 21 ho_21) 0 = NX := expect_dma S1c Y2c c _ 1 21 dec1_21
@[sl_rounds] theorem pay_1_21 (c : Dev nD) (r d : ℕ) : (sched (F := F) S1c Y2c).payload (r1Cell c 21 ho_21) r d = ((slotM cm1 21 ho_21).view.loc (c : Thread nD τ) ↦[(slotM cm1 21 ho_21).view.set]{fullShare} land1 S1c c 21 hk_21 : sProp 𝕄) :=
  (payload_dma S1c Y2c c _ 1 21 dec1_21 r d).trans (by unfold xferPay; rw [dif_pos hk_21])
@[sl_rounds] theorem duties_1_22 (c : Dev nD) : (sched (F := F) S1c Y2c).duties (r1Cell c 22 ho_22) 0 = {0} := duties_dma S1c Y2c c _ 1 22 dec1_22
@[sl_rounds] theorem expect_1_22 (c : Dev nD) : (sched (F := F) S1c Y2c).expect (r1Cell c 22 ho_22) 0 = NX := expect_dma S1c Y2c c _ 1 22 dec1_22
@[sl_rounds] theorem pay_1_22 (c : Dev nD) (r d : ℕ) : (sched (F := F) S1c Y2c).payload (r1Cell c 22 ho_22) r d = ((slotM cm1 22 ho_22).view.loc (c : Thread nD τ) ↦[(slotM cm1 22 ho_22).view.set]{fullShare} land1 S1c c 22 hk_22 : sProp 𝕄) :=
  (payload_dma S1c Y2c c _ 1 22 dec1_22 r d).trans (by unfold xferPay; rw [dif_pos hk_22])
@[sl_rounds] theorem duties_1_23 (c : Dev nD) : (sched (F := F) S1c Y2c).duties (r1Cell c 23 ho_23) 0 = {0} := duties_dma S1c Y2c c _ 1 23 dec1_23
@[sl_rounds] theorem expect_1_23 (c : Dev nD) : (sched (F := F) S1c Y2c).expect (r1Cell c 23 ho_23) 0 = NX := expect_dma S1c Y2c c _ 1 23 dec1_23
@[sl_rounds] theorem pay_1_23 (c : Dev nD) (r d : ℕ) : (sched (F := F) S1c Y2c).payload (r1Cell c 23 ho_23) r d = ((slotM cm1 23 ho_23).view.loc (c : Thread nD τ) ↦[(slotM cm1 23 ho_23).view.set]{fullShare} land1 S1c c 23 hk_23 : sProp 𝕄) :=
  (payload_dma S1c Y2c c _ 1 23 dec1_23 r d).trans (by unfold xferPay; rw [dif_pos hk_23])
@[sl_rounds] theorem duties_1_24 (c : Dev nD) : (sched (F := F) S1c Y2c).duties (r1Cell c 24 ho_24) 0 = {0} := duties_dma S1c Y2c c _ 1 24 dec1_24
@[sl_rounds] theorem expect_1_24 (c : Dev nD) : (sched (F := F) S1c Y2c).expect (r1Cell c 24 ho_24) 0 = NX := expect_dma S1c Y2c c _ 1 24 dec1_24
@[sl_rounds] theorem pay_1_24 (c : Dev nD) (r d : ℕ) : (sched (F := F) S1c Y2c).payload (r1Cell c 24 ho_24) r d = ((slotM cm1 24 ho_24).view.loc (c : Thread nD τ) ↦[(slotM cm1 24 ho_24).view.set]{fullShare} land1 S1c c 24 hk_24 : sProp 𝕄) :=
  (payload_dma S1c Y2c c _ 1 24 dec1_24 r d).trans (by unfold xferPay; rw [dif_pos hk_24])
@[sl_rounds] theorem duties_1_25 (c : Dev nD) : (sched (F := F) S1c Y2c).duties (r1Cell c 25 ho_25) 0 = {0} := duties_dma S1c Y2c c _ 1 25 dec1_25
@[sl_rounds] theorem expect_1_25 (c : Dev nD) : (sched (F := F) S1c Y2c).expect (r1Cell c 25 ho_25) 0 = NX := expect_dma S1c Y2c c _ 1 25 dec1_25
@[sl_rounds] theorem pay_1_25 (c : Dev nD) (r d : ℕ) : (sched (F := F) S1c Y2c).payload (r1Cell c 25 ho_25) r d = ((slotM cm1 25 ho_25).view.loc (c : Thread nD τ) ↦[(slotM cm1 25 ho_25).view.set]{fullShare} land1 S1c c 25 hk_25 : sProp 𝕄) :=
  (payload_dma S1c Y2c c _ 1 25 dec1_25 r d).trans (by unfold xferPay; rw [dif_pos hk_25])
@[sl_rounds] theorem duties_1_26 (c : Dev nD) : (sched (F := F) S1c Y2c).duties (r1Cell c 26 ho_26) 0 = {0} := duties_dma S1c Y2c c _ 1 26 dec1_26
@[sl_rounds] theorem expect_1_26 (c : Dev nD) : (sched (F := F) S1c Y2c).expect (r1Cell c 26 ho_26) 0 = NX := expect_dma S1c Y2c c _ 1 26 dec1_26
@[sl_rounds] theorem pay_1_26 (c : Dev nD) (r d : ℕ) : (sched (F := F) S1c Y2c).payload (r1Cell c 26 ho_26) r d = ((slotM cm1 26 ho_26).view.loc (c : Thread nD τ) ↦[(slotM cm1 26 ho_26).view.set]{fullShare} land1 S1c c 26 hk_26 : sProp 𝕄) :=
  (payload_dma S1c Y2c c _ 1 26 dec1_26 r d).trans (by unfold xferPay; rw [dif_pos hk_26])
@[sl_rounds] theorem duties_1_27 (c : Dev nD) : (sched (F := F) S1c Y2c).duties (r1Cell c 27 ho_27) 0 = {0} := duties_dma S1c Y2c c _ 1 27 dec1_27
@[sl_rounds] theorem expect_1_27 (c : Dev nD) : (sched (F := F) S1c Y2c).expect (r1Cell c 27 ho_27) 0 = NX := expect_dma S1c Y2c c _ 1 27 dec1_27
@[sl_rounds] theorem pay_1_27 (c : Dev nD) (r d : ℕ) : (sched (F := F) S1c Y2c).payload (r1Cell c 27 ho_27) r d = ((slotM cm1 27 ho_27).view.loc (c : Thread nD τ) ↦[(slotM cm1 27 ho_27).view.set]{fullShare} land1 S1c c 27 hk_27 : sProp 𝕄) :=
  (payload_dma S1c Y2c c _ 1 27 dec1_27 r d).trans (by unfold xferPay; rw [dif_pos hk_27])
@[sl_rounds] theorem duties_1_28 (c : Dev nD) : (sched (F := F) S1c Y2c).duties (r1Cell c 28 ho_28) 0 = {0} := duties_dma S1c Y2c c _ 1 28 dec1_28
@[sl_rounds] theorem expect_1_28 (c : Dev nD) : (sched (F := F) S1c Y2c).expect (r1Cell c 28 ho_28) 0 = NX := expect_dma S1c Y2c c _ 1 28 dec1_28
@[sl_rounds] theorem pay_1_28 (c : Dev nD) (r d : ℕ) : (sched (F := F) S1c Y2c).payload (r1Cell c 28 ho_28) r d = ((slotM cm1 28 ho_28).view.loc (c : Thread nD τ) ↦[(slotM cm1 28 ho_28).view.set]{fullShare} land1 S1c c 28 hk_28 : sProp 𝕄) :=
  (payload_dma S1c Y2c c _ 1 28 dec1_28 r d).trans (by unfold xferPay; rw [dif_pos hk_28])
@[sl_rounds] theorem duties_1_29 (c : Dev nD) : (sched (F := F) S1c Y2c).duties (r1Cell c 29 ho_29) 0 = {0} := duties_dma S1c Y2c c _ 1 29 dec1_29
@[sl_rounds] theorem expect_1_29 (c : Dev nD) : (sched (F := F) S1c Y2c).expect (r1Cell c 29 ho_29) 0 = NX := expect_dma S1c Y2c c _ 1 29 dec1_29
@[sl_rounds] theorem pay_1_29 (c : Dev nD) (r d : ℕ) : (sched (F := F) S1c Y2c).payload (r1Cell c 29 ho_29) r d = ((slotM cm1 29 ho_29).view.loc (c : Thread nD τ) ↦[(slotM cm1 29 ho_29).view.set]{fullShare} land1 S1c c 29 hk_29 : sProp 𝕄) :=
  (payload_dma S1c Y2c c _ 1 29 dec1_29 r d).trans (by unfold xferPay; rw [dif_pos hk_29])
@[sl_rounds] theorem duties_1_30 (c : Dev nD) : (sched (F := F) S1c Y2c).duties (r1Cell c 30 ho_30) 0 = {0} := duties_dma S1c Y2c c _ 1 30 dec1_30
@[sl_rounds] theorem expect_1_30 (c : Dev nD) : (sched (F := F) S1c Y2c).expect (r1Cell c 30 ho_30) 0 = NX := expect_dma S1c Y2c c _ 1 30 dec1_30
@[sl_rounds] theorem pay_1_30 (c : Dev nD) (r d : ℕ) : (sched (F := F) S1c Y2c).payload (r1Cell c 30 ho_30) r d = ((slotM cm1 30 ho_30).view.loc (c : Thread nD τ) ↦[(slotM cm1 30 ho_30).view.set]{fullShare} land1 S1c c 30 hk_30 : sProp 𝕄) :=
  (payload_dma S1c Y2c c _ 1 30 dec1_30 r d).trans (by unfold xferPay; rw [dif_pos hk_30])
@[sl_rounds] theorem duties_1_31 (c : Dev nD) : (sched (F := F) S1c Y2c).duties (r1Cell c 31 ho_31) 0 = {0} := duties_dma S1c Y2c c _ 1 31 dec1_31
@[sl_rounds] theorem expect_1_31 (c : Dev nD) : (sched (F := F) S1c Y2c).expect (r1Cell c 31 ho_31) 0 = NX := expect_dma S1c Y2c c _ 1 31 dec1_31
@[sl_rounds] theorem pay_1_31 (c : Dev nD) (r d : ℕ) : (sched (F := F) S1c Y2c).payload (r1Cell c 31 ho_31) r d = ((slotM cm1 31 ho_31).view.loc (c : Thread nD τ) ↦[(slotM cm1 31 ho_31).view.set]{fullShare} land1 S1c c 31 hk_31 : sProp 𝕄) :=
  (payload_dma S1c Y2c c _ 1 31 dec1_31 r d).trans (by unfold xferPay; rw [dif_pos hk_31])
@[sl_rounds] theorem duties_2_1 (c : Dev nD) : (sched (F := F) S1c Y2c).duties (s2Cell c 1 ho_1) 0 = {0} := duties_dma S1c Y2c c _ 2 1 dec2_1
@[sl_rounds] theorem expect_2_1 (c : Dev nD) : (sched (F := F) S1c Y2c).expect (s2Cell c 1 ho_1) 0 = NX := expect_dma S1c Y2c c _ 2 1 dec2_1
@[sl_rounds] theorem pay_2_1 (c : Dev nD) (r d : ℕ) : (sched (F := F) S1c Y2c).payload (s2Cell c 1 ho_1) r d = (st2.view.loc (c : Thread nD τ) ↦[st2.view.set]{Transfers.shareTokN fullShare 0} Y2c c : sProp 𝕄) :=
  (payload_dma S1c Y2c c _ 2 1 dec2_1 r d).trans (by unfold xferPay; rw [dif_pos hk_1])
@[sl_rounds] theorem duties_2_2 (c : Dev nD) : (sched (F := F) S1c Y2c).duties (s2Cell c 2 ho_2) 0 = {0} := duties_dma S1c Y2c c _ 2 2 dec2_2
@[sl_rounds] theorem expect_2_2 (c : Dev nD) : (sched (F := F) S1c Y2c).expect (s2Cell c 2 ho_2) 0 = NX := expect_dma S1c Y2c c _ 2 2 dec2_2
@[sl_rounds] theorem pay_2_2 (c : Dev nD) (r d : ℕ) : (sched (F := F) S1c Y2c).payload (s2Cell c 2 ho_2) r d = (st2.view.loc (c : Thread nD τ) ↦[st2.view.set]{Transfers.shareTokN fullShare 1} Y2c c : sProp 𝕄) :=
  (payload_dma S1c Y2c c _ 2 2 dec2_2 r d).trans (by unfold xferPay; rw [dif_pos hk_2])
@[sl_rounds] theorem duties_2_3 (c : Dev nD) : (sched (F := F) S1c Y2c).duties (s2Cell c 3 ho_3) 0 = {0} := duties_dma S1c Y2c c _ 2 3 dec2_3
@[sl_rounds] theorem expect_2_3 (c : Dev nD) : (sched (F := F) S1c Y2c).expect (s2Cell c 3 ho_3) 0 = NX := expect_dma S1c Y2c c _ 2 3 dec2_3
@[sl_rounds] theorem pay_2_3 (c : Dev nD) (r d : ℕ) : (sched (F := F) S1c Y2c).payload (s2Cell c 3 ho_3) r d = (st2.view.loc (c : Thread nD τ) ↦[st2.view.set]{Transfers.shareTokN fullShare 2} Y2c c : sProp 𝕄) :=
  (payload_dma S1c Y2c c _ 2 3 dec2_3 r d).trans (by unfold xferPay; rw [dif_pos hk_3])
@[sl_rounds] theorem duties_2_4 (c : Dev nD) : (sched (F := F) S1c Y2c).duties (s2Cell c 4 ho_4) 0 = {0} := duties_dma S1c Y2c c _ 2 4 dec2_4
@[sl_rounds] theorem expect_2_4 (c : Dev nD) : (sched (F := F) S1c Y2c).expect (s2Cell c 4 ho_4) 0 = NX := expect_dma S1c Y2c c _ 2 4 dec2_4
@[sl_rounds] theorem pay_2_4 (c : Dev nD) (r d : ℕ) : (sched (F := F) S1c Y2c).payload (s2Cell c 4 ho_4) r d = (st2.view.loc (c : Thread nD τ) ↦[st2.view.set]{Transfers.shareTokN fullShare 3} Y2c c : sProp 𝕄) :=
  (payload_dma S1c Y2c c _ 2 4 dec2_4 r d).trans (by unfold xferPay; rw [dif_pos hk_4])
@[sl_rounds] theorem duties_2_5 (c : Dev nD) : (sched (F := F) S1c Y2c).duties (s2Cell c 5 ho_5) 0 = {0} := duties_dma S1c Y2c c _ 2 5 dec2_5
@[sl_rounds] theorem expect_2_5 (c : Dev nD) : (sched (F := F) S1c Y2c).expect (s2Cell c 5 ho_5) 0 = NX := expect_dma S1c Y2c c _ 2 5 dec2_5
@[sl_rounds] theorem pay_2_5 (c : Dev nD) (r d : ℕ) : (sched (F := F) S1c Y2c).payload (s2Cell c 5 ho_5) r d = (st2.view.loc (c : Thread nD τ) ↦[st2.view.set]{Transfers.shareTokN fullShare 4} Y2c c : sProp 𝕄) :=
  (payload_dma S1c Y2c c _ 2 5 dec2_5 r d).trans (by unfold xferPay; rw [dif_pos hk_5])
@[sl_rounds] theorem duties_2_6 (c : Dev nD) : (sched (F := F) S1c Y2c).duties (s2Cell c 6 ho_6) 0 = {0} := duties_dma S1c Y2c c _ 2 6 dec2_6
@[sl_rounds] theorem expect_2_6 (c : Dev nD) : (sched (F := F) S1c Y2c).expect (s2Cell c 6 ho_6) 0 = NX := expect_dma S1c Y2c c _ 2 6 dec2_6
@[sl_rounds] theorem pay_2_6 (c : Dev nD) (r d : ℕ) : (sched (F := F) S1c Y2c).payload (s2Cell c 6 ho_6) r d = (st2.view.loc (c : Thread nD τ) ↦[st2.view.set]{Transfers.shareTokN fullShare 5} Y2c c : sProp 𝕄) :=
  (payload_dma S1c Y2c c _ 2 6 dec2_6 r d).trans (by unfold xferPay; rw [dif_pos hk_6])
@[sl_rounds] theorem duties_2_7 (c : Dev nD) : (sched (F := F) S1c Y2c).duties (s2Cell c 7 ho_7) 0 = {0} := duties_dma S1c Y2c c _ 2 7 dec2_7
@[sl_rounds] theorem expect_2_7 (c : Dev nD) : (sched (F := F) S1c Y2c).expect (s2Cell c 7 ho_7) 0 = NX := expect_dma S1c Y2c c _ 2 7 dec2_7
@[sl_rounds] theorem pay_2_7 (c : Dev nD) (r d : ℕ) : (sched (F := F) S1c Y2c).payload (s2Cell c 7 ho_7) r d = (st2.view.loc (c : Thread nD τ) ↦[st2.view.set]{Transfers.shareTokN fullShare 6} Y2c c : sProp 𝕄) :=
  (payload_dma S1c Y2c c _ 2 7 dec2_7 r d).trans (by unfold xferPay; rw [dif_pos hk_7])
@[sl_rounds] theorem duties_2_8 (c : Dev nD) : (sched (F := F) S1c Y2c).duties (s2Cell c 8 ho_8) 0 = {0} := duties_dma S1c Y2c c _ 2 8 dec2_8
@[sl_rounds] theorem expect_2_8 (c : Dev nD) : (sched (F := F) S1c Y2c).expect (s2Cell c 8 ho_8) 0 = NX := expect_dma S1c Y2c c _ 2 8 dec2_8
@[sl_rounds] theorem pay_2_8 (c : Dev nD) (r d : ℕ) : (sched (F := F) S1c Y2c).payload (s2Cell c 8 ho_8) r d = (st2.view.loc (c : Thread nD τ) ↦[st2.view.set]{Transfers.shareTokN fullShare 7} Y2c c : sProp 𝕄) :=
  (payload_dma S1c Y2c c _ 2 8 dec2_8 r d).trans (by unfold xferPay; rw [dif_pos hk_8])
@[sl_rounds] theorem duties_2_9 (c : Dev nD) : (sched (F := F) S1c Y2c).duties (s2Cell c 9 ho_9) 0 = {0} := duties_dma S1c Y2c c _ 2 9 dec2_9
@[sl_rounds] theorem expect_2_9 (c : Dev nD) : (sched (F := F) S1c Y2c).expect (s2Cell c 9 ho_9) 0 = NX := expect_dma S1c Y2c c _ 2 9 dec2_9
@[sl_rounds] theorem pay_2_9 (c : Dev nD) (r d : ℕ) : (sched (F := F) S1c Y2c).payload (s2Cell c 9 ho_9) r d = (st2.view.loc (c : Thread nD τ) ↦[st2.view.set]{Transfers.shareTokN fullShare 8} Y2c c : sProp 𝕄) :=
  (payload_dma S1c Y2c c _ 2 9 dec2_9 r d).trans (by unfold xferPay; rw [dif_pos hk_9])
@[sl_rounds] theorem duties_2_10 (c : Dev nD) : (sched (F := F) S1c Y2c).duties (s2Cell c 10 ho_10) 0 = {0} := duties_dma S1c Y2c c _ 2 10 dec2_10
@[sl_rounds] theorem expect_2_10 (c : Dev nD) : (sched (F := F) S1c Y2c).expect (s2Cell c 10 ho_10) 0 = NX := expect_dma S1c Y2c c _ 2 10 dec2_10
@[sl_rounds] theorem pay_2_10 (c : Dev nD) (r d : ℕ) : (sched (F := F) S1c Y2c).payload (s2Cell c 10 ho_10) r d = (st2.view.loc (c : Thread nD τ) ↦[st2.view.set]{Transfers.shareTokN fullShare 9} Y2c c : sProp 𝕄) :=
  (payload_dma S1c Y2c c _ 2 10 dec2_10 r d).trans (by unfold xferPay; rw [dif_pos hk_10])
@[sl_rounds] theorem duties_2_11 (c : Dev nD) : (sched (F := F) S1c Y2c).duties (s2Cell c 11 ho_11) 0 = {0} := duties_dma S1c Y2c c _ 2 11 dec2_11
@[sl_rounds] theorem expect_2_11 (c : Dev nD) : (sched (F := F) S1c Y2c).expect (s2Cell c 11 ho_11) 0 = NX := expect_dma S1c Y2c c _ 2 11 dec2_11
@[sl_rounds] theorem pay_2_11 (c : Dev nD) (r d : ℕ) : (sched (F := F) S1c Y2c).payload (s2Cell c 11 ho_11) r d = (st2.view.loc (c : Thread nD τ) ↦[st2.view.set]{Transfers.shareTokN fullShare 10} Y2c c : sProp 𝕄) :=
  (payload_dma S1c Y2c c _ 2 11 dec2_11 r d).trans (by unfold xferPay; rw [dif_pos hk_11])
@[sl_rounds] theorem duties_2_12 (c : Dev nD) : (sched (F := F) S1c Y2c).duties (s2Cell c 12 ho_12) 0 = {0} := duties_dma S1c Y2c c _ 2 12 dec2_12
@[sl_rounds] theorem expect_2_12 (c : Dev nD) : (sched (F := F) S1c Y2c).expect (s2Cell c 12 ho_12) 0 = NX := expect_dma S1c Y2c c _ 2 12 dec2_12
@[sl_rounds] theorem pay_2_12 (c : Dev nD) (r d : ℕ) : (sched (F := F) S1c Y2c).payload (s2Cell c 12 ho_12) r d = (st2.view.loc (c : Thread nD τ) ↦[st2.view.set]{Transfers.shareTokN fullShare 11} Y2c c : sProp 𝕄) :=
  (payload_dma S1c Y2c c _ 2 12 dec2_12 r d).trans (by unfold xferPay; rw [dif_pos hk_12])
@[sl_rounds] theorem duties_2_13 (c : Dev nD) : (sched (F := F) S1c Y2c).duties (s2Cell c 13 ho_13) 0 = {0} := duties_dma S1c Y2c c _ 2 13 dec2_13
@[sl_rounds] theorem expect_2_13 (c : Dev nD) : (sched (F := F) S1c Y2c).expect (s2Cell c 13 ho_13) 0 = NX := expect_dma S1c Y2c c _ 2 13 dec2_13
@[sl_rounds] theorem pay_2_13 (c : Dev nD) (r d : ℕ) : (sched (F := F) S1c Y2c).payload (s2Cell c 13 ho_13) r d = (st2.view.loc (c : Thread nD τ) ↦[st2.view.set]{Transfers.shareTokN fullShare 12} Y2c c : sProp 𝕄) :=
  (payload_dma S1c Y2c c _ 2 13 dec2_13 r d).trans (by unfold xferPay; rw [dif_pos hk_13])
@[sl_rounds] theorem duties_2_14 (c : Dev nD) : (sched (F := F) S1c Y2c).duties (s2Cell c 14 ho_14) 0 = {0} := duties_dma S1c Y2c c _ 2 14 dec2_14
@[sl_rounds] theorem expect_2_14 (c : Dev nD) : (sched (F := F) S1c Y2c).expect (s2Cell c 14 ho_14) 0 = NX := expect_dma S1c Y2c c _ 2 14 dec2_14
@[sl_rounds] theorem pay_2_14 (c : Dev nD) (r d : ℕ) : (sched (F := F) S1c Y2c).payload (s2Cell c 14 ho_14) r d = (st2.view.loc (c : Thread nD τ) ↦[st2.view.set]{Transfers.shareTokN fullShare 13} Y2c c : sProp 𝕄) :=
  (payload_dma S1c Y2c c _ 2 14 dec2_14 r d).trans (by unfold xferPay; rw [dif_pos hk_14])
@[sl_rounds] theorem duties_2_15 (c : Dev nD) : (sched (F := F) S1c Y2c).duties (s2Cell c 15 ho_15) 0 = {0} := duties_dma S1c Y2c c _ 2 15 dec2_15
@[sl_rounds] theorem expect_2_15 (c : Dev nD) : (sched (F := F) S1c Y2c).expect (s2Cell c 15 ho_15) 0 = NX := expect_dma S1c Y2c c _ 2 15 dec2_15
@[sl_rounds] theorem pay_2_15 (c : Dev nD) (r d : ℕ) : (sched (F := F) S1c Y2c).payload (s2Cell c 15 ho_15) r d = (st2.view.loc (c : Thread nD τ) ↦[st2.view.set]{Transfers.shareTokN fullShare 14} Y2c c : sProp 𝕄) :=
  (payload_dma S1c Y2c c _ 2 15 dec2_15 r d).trans (by unfold xferPay; rw [dif_pos hk_15])
@[sl_rounds] theorem duties_2_16 (c : Dev nD) : (sched (F := F) S1c Y2c).duties (s2Cell c 16 ho_16) 0 = {0} := duties_dma S1c Y2c c _ 2 16 dec2_16
@[sl_rounds] theorem expect_2_16 (c : Dev nD) : (sched (F := F) S1c Y2c).expect (s2Cell c 16 ho_16) 0 = NX := expect_dma S1c Y2c c _ 2 16 dec2_16
@[sl_rounds] theorem pay_2_16 (c : Dev nD) (r d : ℕ) : (sched (F := F) S1c Y2c).payload (s2Cell c 16 ho_16) r d = (st2.view.loc (c : Thread nD τ) ↦[st2.view.set]{Transfers.shareTokN fullShare 15} Y2c c : sProp 𝕄) :=
  (payload_dma S1c Y2c c _ 2 16 dec2_16 r d).trans (by unfold xferPay; rw [dif_pos hk_16])
@[sl_rounds] theorem duties_2_17 (c : Dev nD) : (sched (F := F) S1c Y2c).duties (s2Cell c 17 ho_17) 0 = {0} := duties_dma S1c Y2c c _ 2 17 dec2_17
@[sl_rounds] theorem expect_2_17 (c : Dev nD) : (sched (F := F) S1c Y2c).expect (s2Cell c 17 ho_17) 0 = NX := expect_dma S1c Y2c c _ 2 17 dec2_17
@[sl_rounds] theorem pay_2_17 (c : Dev nD) (r d : ℕ) : (sched (F := F) S1c Y2c).payload (s2Cell c 17 ho_17) r d = (st2.view.loc (c : Thread nD τ) ↦[st2.view.set]{Transfers.shareTokN fullShare 16} Y2c c : sProp 𝕄) :=
  (payload_dma S1c Y2c c _ 2 17 dec2_17 r d).trans (by unfold xferPay; rw [dif_pos hk_17])
@[sl_rounds] theorem duties_2_18 (c : Dev nD) : (sched (F := F) S1c Y2c).duties (s2Cell c 18 ho_18) 0 = {0} := duties_dma S1c Y2c c _ 2 18 dec2_18
@[sl_rounds] theorem expect_2_18 (c : Dev nD) : (sched (F := F) S1c Y2c).expect (s2Cell c 18 ho_18) 0 = NX := expect_dma S1c Y2c c _ 2 18 dec2_18
@[sl_rounds] theorem pay_2_18 (c : Dev nD) (r d : ℕ) : (sched (F := F) S1c Y2c).payload (s2Cell c 18 ho_18) r d = (st2.view.loc (c : Thread nD τ) ↦[st2.view.set]{Transfers.shareTokN fullShare 17} Y2c c : sProp 𝕄) :=
  (payload_dma S1c Y2c c _ 2 18 dec2_18 r d).trans (by unfold xferPay; rw [dif_pos hk_18])
@[sl_rounds] theorem duties_2_19 (c : Dev nD) : (sched (F := F) S1c Y2c).duties (s2Cell c 19 ho_19) 0 = {0} := duties_dma S1c Y2c c _ 2 19 dec2_19
@[sl_rounds] theorem expect_2_19 (c : Dev nD) : (sched (F := F) S1c Y2c).expect (s2Cell c 19 ho_19) 0 = NX := expect_dma S1c Y2c c _ 2 19 dec2_19
@[sl_rounds] theorem pay_2_19 (c : Dev nD) (r d : ℕ) : (sched (F := F) S1c Y2c).payload (s2Cell c 19 ho_19) r d = (st2.view.loc (c : Thread nD τ) ↦[st2.view.set]{Transfers.shareTokN fullShare 18} Y2c c : sProp 𝕄) :=
  (payload_dma S1c Y2c c _ 2 19 dec2_19 r d).trans (by unfold xferPay; rw [dif_pos hk_19])
@[sl_rounds] theorem duties_2_20 (c : Dev nD) : (sched (F := F) S1c Y2c).duties (s2Cell c 20 ho_20) 0 = {0} := duties_dma S1c Y2c c _ 2 20 dec2_20
@[sl_rounds] theorem expect_2_20 (c : Dev nD) : (sched (F := F) S1c Y2c).expect (s2Cell c 20 ho_20) 0 = NX := expect_dma S1c Y2c c _ 2 20 dec2_20
@[sl_rounds] theorem pay_2_20 (c : Dev nD) (r d : ℕ) : (sched (F := F) S1c Y2c).payload (s2Cell c 20 ho_20) r d = (st2.view.loc (c : Thread nD τ) ↦[st2.view.set]{Transfers.shareTokN fullShare 19} Y2c c : sProp 𝕄) :=
  (payload_dma S1c Y2c c _ 2 20 dec2_20 r d).trans (by unfold xferPay; rw [dif_pos hk_20])
@[sl_rounds] theorem duties_2_21 (c : Dev nD) : (sched (F := F) S1c Y2c).duties (s2Cell c 21 ho_21) 0 = {0} := duties_dma S1c Y2c c _ 2 21 dec2_21
@[sl_rounds] theorem expect_2_21 (c : Dev nD) : (sched (F := F) S1c Y2c).expect (s2Cell c 21 ho_21) 0 = NX := expect_dma S1c Y2c c _ 2 21 dec2_21
@[sl_rounds] theorem pay_2_21 (c : Dev nD) (r d : ℕ) : (sched (F := F) S1c Y2c).payload (s2Cell c 21 ho_21) r d = (st2.view.loc (c : Thread nD τ) ↦[st2.view.set]{Transfers.shareTokN fullShare 20} Y2c c : sProp 𝕄) :=
  (payload_dma S1c Y2c c _ 2 21 dec2_21 r d).trans (by unfold xferPay; rw [dif_pos hk_21])
@[sl_rounds] theorem duties_2_22 (c : Dev nD) : (sched (F := F) S1c Y2c).duties (s2Cell c 22 ho_22) 0 = {0} := duties_dma S1c Y2c c _ 2 22 dec2_22
@[sl_rounds] theorem expect_2_22 (c : Dev nD) : (sched (F := F) S1c Y2c).expect (s2Cell c 22 ho_22) 0 = NX := expect_dma S1c Y2c c _ 2 22 dec2_22
@[sl_rounds] theorem pay_2_22 (c : Dev nD) (r d : ℕ) : (sched (F := F) S1c Y2c).payload (s2Cell c 22 ho_22) r d = (st2.view.loc (c : Thread nD τ) ↦[st2.view.set]{Transfers.shareTokN fullShare 21} Y2c c : sProp 𝕄) :=
  (payload_dma S1c Y2c c _ 2 22 dec2_22 r d).trans (by unfold xferPay; rw [dif_pos hk_22])
@[sl_rounds] theorem duties_2_23 (c : Dev nD) : (sched (F := F) S1c Y2c).duties (s2Cell c 23 ho_23) 0 = {0} := duties_dma S1c Y2c c _ 2 23 dec2_23
@[sl_rounds] theorem expect_2_23 (c : Dev nD) : (sched (F := F) S1c Y2c).expect (s2Cell c 23 ho_23) 0 = NX := expect_dma S1c Y2c c _ 2 23 dec2_23
@[sl_rounds] theorem pay_2_23 (c : Dev nD) (r d : ℕ) : (sched (F := F) S1c Y2c).payload (s2Cell c 23 ho_23) r d = (st2.view.loc (c : Thread nD τ) ↦[st2.view.set]{Transfers.shareTokN fullShare 22} Y2c c : sProp 𝕄) :=
  (payload_dma S1c Y2c c _ 2 23 dec2_23 r d).trans (by unfold xferPay; rw [dif_pos hk_23])
@[sl_rounds] theorem duties_2_24 (c : Dev nD) : (sched (F := F) S1c Y2c).duties (s2Cell c 24 ho_24) 0 = {0} := duties_dma S1c Y2c c _ 2 24 dec2_24
@[sl_rounds] theorem expect_2_24 (c : Dev nD) : (sched (F := F) S1c Y2c).expect (s2Cell c 24 ho_24) 0 = NX := expect_dma S1c Y2c c _ 2 24 dec2_24
@[sl_rounds] theorem pay_2_24 (c : Dev nD) (r d : ℕ) : (sched (F := F) S1c Y2c).payload (s2Cell c 24 ho_24) r d = (st2.view.loc (c : Thread nD τ) ↦[st2.view.set]{Transfers.shareTokN fullShare 23} Y2c c : sProp 𝕄) :=
  (payload_dma S1c Y2c c _ 2 24 dec2_24 r d).trans (by unfold xferPay; rw [dif_pos hk_24])
@[sl_rounds] theorem duties_2_25 (c : Dev nD) : (sched (F := F) S1c Y2c).duties (s2Cell c 25 ho_25) 0 = {0} := duties_dma S1c Y2c c _ 2 25 dec2_25
@[sl_rounds] theorem expect_2_25 (c : Dev nD) : (sched (F := F) S1c Y2c).expect (s2Cell c 25 ho_25) 0 = NX := expect_dma S1c Y2c c _ 2 25 dec2_25
@[sl_rounds] theorem pay_2_25 (c : Dev nD) (r d : ℕ) : (sched (F := F) S1c Y2c).payload (s2Cell c 25 ho_25) r d = (st2.view.loc (c : Thread nD τ) ↦[st2.view.set]{Transfers.shareTokN fullShare 24} Y2c c : sProp 𝕄) :=
  (payload_dma S1c Y2c c _ 2 25 dec2_25 r d).trans (by unfold xferPay; rw [dif_pos hk_25])
@[sl_rounds] theorem duties_2_26 (c : Dev nD) : (sched (F := F) S1c Y2c).duties (s2Cell c 26 ho_26) 0 = {0} := duties_dma S1c Y2c c _ 2 26 dec2_26
@[sl_rounds] theorem expect_2_26 (c : Dev nD) : (sched (F := F) S1c Y2c).expect (s2Cell c 26 ho_26) 0 = NX := expect_dma S1c Y2c c _ 2 26 dec2_26
@[sl_rounds] theorem pay_2_26 (c : Dev nD) (r d : ℕ) : (sched (F := F) S1c Y2c).payload (s2Cell c 26 ho_26) r d = (st2.view.loc (c : Thread nD τ) ↦[st2.view.set]{Transfers.shareTokN fullShare 25} Y2c c : sProp 𝕄) :=
  (payload_dma S1c Y2c c _ 2 26 dec2_26 r d).trans (by unfold xferPay; rw [dif_pos hk_26])
@[sl_rounds] theorem duties_2_27 (c : Dev nD) : (sched (F := F) S1c Y2c).duties (s2Cell c 27 ho_27) 0 = {0} := duties_dma S1c Y2c c _ 2 27 dec2_27
@[sl_rounds] theorem expect_2_27 (c : Dev nD) : (sched (F := F) S1c Y2c).expect (s2Cell c 27 ho_27) 0 = NX := expect_dma S1c Y2c c _ 2 27 dec2_27
@[sl_rounds] theorem pay_2_27 (c : Dev nD) (r d : ℕ) : (sched (F := F) S1c Y2c).payload (s2Cell c 27 ho_27) r d = (st2.view.loc (c : Thread nD τ) ↦[st2.view.set]{Transfers.shareTokN fullShare 26} Y2c c : sProp 𝕄) :=
  (payload_dma S1c Y2c c _ 2 27 dec2_27 r d).trans (by unfold xferPay; rw [dif_pos hk_27])
@[sl_rounds] theorem duties_2_28 (c : Dev nD) : (sched (F := F) S1c Y2c).duties (s2Cell c 28 ho_28) 0 = {0} := duties_dma S1c Y2c c _ 2 28 dec2_28
@[sl_rounds] theorem expect_2_28 (c : Dev nD) : (sched (F := F) S1c Y2c).expect (s2Cell c 28 ho_28) 0 = NX := expect_dma S1c Y2c c _ 2 28 dec2_28
@[sl_rounds] theorem pay_2_28 (c : Dev nD) (r d : ℕ) : (sched (F := F) S1c Y2c).payload (s2Cell c 28 ho_28) r d = (st2.view.loc (c : Thread nD τ) ↦[st2.view.set]{Transfers.shareTokN fullShare 27} Y2c c : sProp 𝕄) :=
  (payload_dma S1c Y2c c _ 2 28 dec2_28 r d).trans (by unfold xferPay; rw [dif_pos hk_28])
@[sl_rounds] theorem duties_2_29 (c : Dev nD) : (sched (F := F) S1c Y2c).duties (s2Cell c 29 ho_29) 0 = {0} := duties_dma S1c Y2c c _ 2 29 dec2_29
@[sl_rounds] theorem expect_2_29 (c : Dev nD) : (sched (F := F) S1c Y2c).expect (s2Cell c 29 ho_29) 0 = NX := expect_dma S1c Y2c c _ 2 29 dec2_29
@[sl_rounds] theorem pay_2_29 (c : Dev nD) (r d : ℕ) : (sched (F := F) S1c Y2c).payload (s2Cell c 29 ho_29) r d = (st2.view.loc (c : Thread nD τ) ↦[st2.view.set]{Transfers.shareTokN fullShare 28} Y2c c : sProp 𝕄) :=
  (payload_dma S1c Y2c c _ 2 29 dec2_29 r d).trans (by unfold xferPay; rw [dif_pos hk_29])
@[sl_rounds] theorem duties_2_30 (c : Dev nD) : (sched (F := F) S1c Y2c).duties (s2Cell c 30 ho_30) 0 = {0} := duties_dma S1c Y2c c _ 2 30 dec2_30
@[sl_rounds] theorem expect_2_30 (c : Dev nD) : (sched (F := F) S1c Y2c).expect (s2Cell c 30 ho_30) 0 = NX := expect_dma S1c Y2c c _ 2 30 dec2_30
@[sl_rounds] theorem pay_2_30 (c : Dev nD) (r d : ℕ) : (sched (F := F) S1c Y2c).payload (s2Cell c 30 ho_30) r d = (st2.view.loc (c : Thread nD τ) ↦[st2.view.set]{Transfers.shareTokN fullShare 29} Y2c c : sProp 𝕄) :=
  (payload_dma S1c Y2c c _ 2 30 dec2_30 r d).trans (by unfold xferPay; rw [dif_pos hk_30])
@[sl_rounds] theorem duties_2_31 (c : Dev nD) : (sched (F := F) S1c Y2c).duties (s2Cell c 31 ho_31) 0 = {0} := duties_dma S1c Y2c c _ 2 31 dec2_31
@[sl_rounds] theorem expect_2_31 (c : Dev nD) : (sched (F := F) S1c Y2c).expect (s2Cell c 31 ho_31) 0 = NX := expect_dma S1c Y2c c _ 2 31 dec2_31
@[sl_rounds] theorem pay_2_31 (c : Dev nD) (r d : ℕ) : (sched (F := F) S1c Y2c).payload (s2Cell c 31 ho_31) r d = (st2.view.loc (c : Thread nD τ) ↦[st2.view.set]{Transfers.shareTokN fullShare 30} Y2c c : sProp 𝕄) :=
  (payload_dma S1c Y2c c _ 2 31 dec2_31 r d).trans (by unfold xferPay; rw [dif_pos hk_31])
@[sl_rounds] theorem duties_3_1 (c : Dev nD) : (sched (F := F) S1c Y2c).duties (r2Cell c 1 ho_1) 0 = {0} := duties_dma S1c Y2c c _ 3 1 dec3_1
@[sl_rounds] theorem expect_3_1 (c : Dev nD) : (sched (F := F) S1c Y2c).expect (r2Cell c 1 ho_1) 0 = NX := expect_dma S1c Y2c c _ 3 1 dec3_1
@[sl_rounds] theorem pay_3_1 (c : Dev nD) (r d : ℕ) : (sched (F := F) S1c Y2c).payload (r2Cell c 1 ho_1) r d = ((slotM cm2 1 ho_1).view.loc (c : Thread nD τ) ↦[(slotM cm2 1 ho_1).view.set]{fullShare} land2 Y2c c 1 hk_1 : sProp 𝕄) :=
  (payload_dma S1c Y2c c _ 3 1 dec3_1 r d).trans (by unfold xferPay; rw [dif_pos hk_1])
@[sl_rounds] theorem duties_3_2 (c : Dev nD) : (sched (F := F) S1c Y2c).duties (r2Cell c 2 ho_2) 0 = {0} := duties_dma S1c Y2c c _ 3 2 dec3_2
@[sl_rounds] theorem expect_3_2 (c : Dev nD) : (sched (F := F) S1c Y2c).expect (r2Cell c 2 ho_2) 0 = NX := expect_dma S1c Y2c c _ 3 2 dec3_2
@[sl_rounds] theorem pay_3_2 (c : Dev nD) (r d : ℕ) : (sched (F := F) S1c Y2c).payload (r2Cell c 2 ho_2) r d = ((slotM cm2 2 ho_2).view.loc (c : Thread nD τ) ↦[(slotM cm2 2 ho_2).view.set]{fullShare} land2 Y2c c 2 hk_2 : sProp 𝕄) :=
  (payload_dma S1c Y2c c _ 3 2 dec3_2 r d).trans (by unfold xferPay; rw [dif_pos hk_2])
@[sl_rounds] theorem duties_3_3 (c : Dev nD) : (sched (F := F) S1c Y2c).duties (r2Cell c 3 ho_3) 0 = {0} := duties_dma S1c Y2c c _ 3 3 dec3_3
@[sl_rounds] theorem expect_3_3 (c : Dev nD) : (sched (F := F) S1c Y2c).expect (r2Cell c 3 ho_3) 0 = NX := expect_dma S1c Y2c c _ 3 3 dec3_3
@[sl_rounds] theorem pay_3_3 (c : Dev nD) (r d : ℕ) : (sched (F := F) S1c Y2c).payload (r2Cell c 3 ho_3) r d = ((slotM cm2 3 ho_3).view.loc (c : Thread nD τ) ↦[(slotM cm2 3 ho_3).view.set]{fullShare} land2 Y2c c 3 hk_3 : sProp 𝕄) :=
  (payload_dma S1c Y2c c _ 3 3 dec3_3 r d).trans (by unfold xferPay; rw [dif_pos hk_3])
@[sl_rounds] theorem duties_3_4 (c : Dev nD) : (sched (F := F) S1c Y2c).duties (r2Cell c 4 ho_4) 0 = {0} := duties_dma S1c Y2c c _ 3 4 dec3_4
@[sl_rounds] theorem expect_3_4 (c : Dev nD) : (sched (F := F) S1c Y2c).expect (r2Cell c 4 ho_4) 0 = NX := expect_dma S1c Y2c c _ 3 4 dec3_4
@[sl_rounds] theorem pay_3_4 (c : Dev nD) (r d : ℕ) : (sched (F := F) S1c Y2c).payload (r2Cell c 4 ho_4) r d = ((slotM cm2 4 ho_4).view.loc (c : Thread nD τ) ↦[(slotM cm2 4 ho_4).view.set]{fullShare} land2 Y2c c 4 hk_4 : sProp 𝕄) :=
  (payload_dma S1c Y2c c _ 3 4 dec3_4 r d).trans (by unfold xferPay; rw [dif_pos hk_4])
@[sl_rounds] theorem duties_3_5 (c : Dev nD) : (sched (F := F) S1c Y2c).duties (r2Cell c 5 ho_5) 0 = {0} := duties_dma S1c Y2c c _ 3 5 dec3_5
@[sl_rounds] theorem expect_3_5 (c : Dev nD) : (sched (F := F) S1c Y2c).expect (r2Cell c 5 ho_5) 0 = NX := expect_dma S1c Y2c c _ 3 5 dec3_5
@[sl_rounds] theorem pay_3_5 (c : Dev nD) (r d : ℕ) : (sched (F := F) S1c Y2c).payload (r2Cell c 5 ho_5) r d = ((slotM cm2 5 ho_5).view.loc (c : Thread nD τ) ↦[(slotM cm2 5 ho_5).view.set]{fullShare} land2 Y2c c 5 hk_5 : sProp 𝕄) :=
  (payload_dma S1c Y2c c _ 3 5 dec3_5 r d).trans (by unfold xferPay; rw [dif_pos hk_5])
@[sl_rounds] theorem duties_3_6 (c : Dev nD) : (sched (F := F) S1c Y2c).duties (r2Cell c 6 ho_6) 0 = {0} := duties_dma S1c Y2c c _ 3 6 dec3_6
@[sl_rounds] theorem expect_3_6 (c : Dev nD) : (sched (F := F) S1c Y2c).expect (r2Cell c 6 ho_6) 0 = NX := expect_dma S1c Y2c c _ 3 6 dec3_6
@[sl_rounds] theorem pay_3_6 (c : Dev nD) (r d : ℕ) : (sched (F := F) S1c Y2c).payload (r2Cell c 6 ho_6) r d = ((slotM cm2 6 ho_6).view.loc (c : Thread nD τ) ↦[(slotM cm2 6 ho_6).view.set]{fullShare} land2 Y2c c 6 hk_6 : sProp 𝕄) :=
  (payload_dma S1c Y2c c _ 3 6 dec3_6 r d).trans (by unfold xferPay; rw [dif_pos hk_6])
@[sl_rounds] theorem duties_3_7 (c : Dev nD) : (sched (F := F) S1c Y2c).duties (r2Cell c 7 ho_7) 0 = {0} := duties_dma S1c Y2c c _ 3 7 dec3_7
@[sl_rounds] theorem expect_3_7 (c : Dev nD) : (sched (F := F) S1c Y2c).expect (r2Cell c 7 ho_7) 0 = NX := expect_dma S1c Y2c c _ 3 7 dec3_7
@[sl_rounds] theorem pay_3_7 (c : Dev nD) (r d : ℕ) : (sched (F := F) S1c Y2c).payload (r2Cell c 7 ho_7) r d = ((slotM cm2 7 ho_7).view.loc (c : Thread nD τ) ↦[(slotM cm2 7 ho_7).view.set]{fullShare} land2 Y2c c 7 hk_7 : sProp 𝕄) :=
  (payload_dma S1c Y2c c _ 3 7 dec3_7 r d).trans (by unfold xferPay; rw [dif_pos hk_7])
@[sl_rounds] theorem duties_3_8 (c : Dev nD) : (sched (F := F) S1c Y2c).duties (r2Cell c 8 ho_8) 0 = {0} := duties_dma S1c Y2c c _ 3 8 dec3_8
@[sl_rounds] theorem expect_3_8 (c : Dev nD) : (sched (F := F) S1c Y2c).expect (r2Cell c 8 ho_8) 0 = NX := expect_dma S1c Y2c c _ 3 8 dec3_8
@[sl_rounds] theorem pay_3_8 (c : Dev nD) (r d : ℕ) : (sched (F := F) S1c Y2c).payload (r2Cell c 8 ho_8) r d = ((slotM cm2 8 ho_8).view.loc (c : Thread nD τ) ↦[(slotM cm2 8 ho_8).view.set]{fullShare} land2 Y2c c 8 hk_8 : sProp 𝕄) :=
  (payload_dma S1c Y2c c _ 3 8 dec3_8 r d).trans (by unfold xferPay; rw [dif_pos hk_8])
@[sl_rounds] theorem duties_3_9 (c : Dev nD) : (sched (F := F) S1c Y2c).duties (r2Cell c 9 ho_9) 0 = {0} := duties_dma S1c Y2c c _ 3 9 dec3_9
@[sl_rounds] theorem expect_3_9 (c : Dev nD) : (sched (F := F) S1c Y2c).expect (r2Cell c 9 ho_9) 0 = NX := expect_dma S1c Y2c c _ 3 9 dec3_9
@[sl_rounds] theorem pay_3_9 (c : Dev nD) (r d : ℕ) : (sched (F := F) S1c Y2c).payload (r2Cell c 9 ho_9) r d = ((slotM cm2 9 ho_9).view.loc (c : Thread nD τ) ↦[(slotM cm2 9 ho_9).view.set]{fullShare} land2 Y2c c 9 hk_9 : sProp 𝕄) :=
  (payload_dma S1c Y2c c _ 3 9 dec3_9 r d).trans (by unfold xferPay; rw [dif_pos hk_9])
@[sl_rounds] theorem duties_3_10 (c : Dev nD) : (sched (F := F) S1c Y2c).duties (r2Cell c 10 ho_10) 0 = {0} := duties_dma S1c Y2c c _ 3 10 dec3_10
@[sl_rounds] theorem expect_3_10 (c : Dev nD) : (sched (F := F) S1c Y2c).expect (r2Cell c 10 ho_10) 0 = NX := expect_dma S1c Y2c c _ 3 10 dec3_10
@[sl_rounds] theorem pay_3_10 (c : Dev nD) (r d : ℕ) : (sched (F := F) S1c Y2c).payload (r2Cell c 10 ho_10) r d = ((slotM cm2 10 ho_10).view.loc (c : Thread nD τ) ↦[(slotM cm2 10 ho_10).view.set]{fullShare} land2 Y2c c 10 hk_10 : sProp 𝕄) :=
  (payload_dma S1c Y2c c _ 3 10 dec3_10 r d).trans (by unfold xferPay; rw [dif_pos hk_10])
@[sl_rounds] theorem duties_3_11 (c : Dev nD) : (sched (F := F) S1c Y2c).duties (r2Cell c 11 ho_11) 0 = {0} := duties_dma S1c Y2c c _ 3 11 dec3_11
@[sl_rounds] theorem expect_3_11 (c : Dev nD) : (sched (F := F) S1c Y2c).expect (r2Cell c 11 ho_11) 0 = NX := expect_dma S1c Y2c c _ 3 11 dec3_11
@[sl_rounds] theorem pay_3_11 (c : Dev nD) (r d : ℕ) : (sched (F := F) S1c Y2c).payload (r2Cell c 11 ho_11) r d = ((slotM cm2 11 ho_11).view.loc (c : Thread nD τ) ↦[(slotM cm2 11 ho_11).view.set]{fullShare} land2 Y2c c 11 hk_11 : sProp 𝕄) :=
  (payload_dma S1c Y2c c _ 3 11 dec3_11 r d).trans (by unfold xferPay; rw [dif_pos hk_11])
@[sl_rounds] theorem duties_3_12 (c : Dev nD) : (sched (F := F) S1c Y2c).duties (r2Cell c 12 ho_12) 0 = {0} := duties_dma S1c Y2c c _ 3 12 dec3_12
@[sl_rounds] theorem expect_3_12 (c : Dev nD) : (sched (F := F) S1c Y2c).expect (r2Cell c 12 ho_12) 0 = NX := expect_dma S1c Y2c c _ 3 12 dec3_12
@[sl_rounds] theorem pay_3_12 (c : Dev nD) (r d : ℕ) : (sched (F := F) S1c Y2c).payload (r2Cell c 12 ho_12) r d = ((slotM cm2 12 ho_12).view.loc (c : Thread nD τ) ↦[(slotM cm2 12 ho_12).view.set]{fullShare} land2 Y2c c 12 hk_12 : sProp 𝕄) :=
  (payload_dma S1c Y2c c _ 3 12 dec3_12 r d).trans (by unfold xferPay; rw [dif_pos hk_12])
@[sl_rounds] theorem duties_3_13 (c : Dev nD) : (sched (F := F) S1c Y2c).duties (r2Cell c 13 ho_13) 0 = {0} := duties_dma S1c Y2c c _ 3 13 dec3_13
@[sl_rounds] theorem expect_3_13 (c : Dev nD) : (sched (F := F) S1c Y2c).expect (r2Cell c 13 ho_13) 0 = NX := expect_dma S1c Y2c c _ 3 13 dec3_13
@[sl_rounds] theorem pay_3_13 (c : Dev nD) (r d : ℕ) : (sched (F := F) S1c Y2c).payload (r2Cell c 13 ho_13) r d = ((slotM cm2 13 ho_13).view.loc (c : Thread nD τ) ↦[(slotM cm2 13 ho_13).view.set]{fullShare} land2 Y2c c 13 hk_13 : sProp 𝕄) :=
  (payload_dma S1c Y2c c _ 3 13 dec3_13 r d).trans (by unfold xferPay; rw [dif_pos hk_13])
@[sl_rounds] theorem duties_3_14 (c : Dev nD) : (sched (F := F) S1c Y2c).duties (r2Cell c 14 ho_14) 0 = {0} := duties_dma S1c Y2c c _ 3 14 dec3_14
@[sl_rounds] theorem expect_3_14 (c : Dev nD) : (sched (F := F) S1c Y2c).expect (r2Cell c 14 ho_14) 0 = NX := expect_dma S1c Y2c c _ 3 14 dec3_14
@[sl_rounds] theorem pay_3_14 (c : Dev nD) (r d : ℕ) : (sched (F := F) S1c Y2c).payload (r2Cell c 14 ho_14) r d = ((slotM cm2 14 ho_14).view.loc (c : Thread nD τ) ↦[(slotM cm2 14 ho_14).view.set]{fullShare} land2 Y2c c 14 hk_14 : sProp 𝕄) :=
  (payload_dma S1c Y2c c _ 3 14 dec3_14 r d).trans (by unfold xferPay; rw [dif_pos hk_14])
@[sl_rounds] theorem duties_3_15 (c : Dev nD) : (sched (F := F) S1c Y2c).duties (r2Cell c 15 ho_15) 0 = {0} := duties_dma S1c Y2c c _ 3 15 dec3_15
@[sl_rounds] theorem expect_3_15 (c : Dev nD) : (sched (F := F) S1c Y2c).expect (r2Cell c 15 ho_15) 0 = NX := expect_dma S1c Y2c c _ 3 15 dec3_15
@[sl_rounds] theorem pay_3_15 (c : Dev nD) (r d : ℕ) : (sched (F := F) S1c Y2c).payload (r2Cell c 15 ho_15) r d = ((slotM cm2 15 ho_15).view.loc (c : Thread nD τ) ↦[(slotM cm2 15 ho_15).view.set]{fullShare} land2 Y2c c 15 hk_15 : sProp 𝕄) :=
  (payload_dma S1c Y2c c _ 3 15 dec3_15 r d).trans (by unfold xferPay; rw [dif_pos hk_15])
@[sl_rounds] theorem duties_3_16 (c : Dev nD) : (sched (F := F) S1c Y2c).duties (r2Cell c 16 ho_16) 0 = {0} := duties_dma S1c Y2c c _ 3 16 dec3_16
@[sl_rounds] theorem expect_3_16 (c : Dev nD) : (sched (F := F) S1c Y2c).expect (r2Cell c 16 ho_16) 0 = NX := expect_dma S1c Y2c c _ 3 16 dec3_16
@[sl_rounds] theorem pay_3_16 (c : Dev nD) (r d : ℕ) : (sched (F := F) S1c Y2c).payload (r2Cell c 16 ho_16) r d = ((slotM cm2 16 ho_16).view.loc (c : Thread nD τ) ↦[(slotM cm2 16 ho_16).view.set]{fullShare} land2 Y2c c 16 hk_16 : sProp 𝕄) :=
  (payload_dma S1c Y2c c _ 3 16 dec3_16 r d).trans (by unfold xferPay; rw [dif_pos hk_16])
@[sl_rounds] theorem duties_3_17 (c : Dev nD) : (sched (F := F) S1c Y2c).duties (r2Cell c 17 ho_17) 0 = {0} := duties_dma S1c Y2c c _ 3 17 dec3_17
@[sl_rounds] theorem expect_3_17 (c : Dev nD) : (sched (F := F) S1c Y2c).expect (r2Cell c 17 ho_17) 0 = NX := expect_dma S1c Y2c c _ 3 17 dec3_17
@[sl_rounds] theorem pay_3_17 (c : Dev nD) (r d : ℕ) : (sched (F := F) S1c Y2c).payload (r2Cell c 17 ho_17) r d = ((slotM cm2 17 ho_17).view.loc (c : Thread nD τ) ↦[(slotM cm2 17 ho_17).view.set]{fullShare} land2 Y2c c 17 hk_17 : sProp 𝕄) :=
  (payload_dma S1c Y2c c _ 3 17 dec3_17 r d).trans (by unfold xferPay; rw [dif_pos hk_17])
@[sl_rounds] theorem duties_3_18 (c : Dev nD) : (sched (F := F) S1c Y2c).duties (r2Cell c 18 ho_18) 0 = {0} := duties_dma S1c Y2c c _ 3 18 dec3_18
@[sl_rounds] theorem expect_3_18 (c : Dev nD) : (sched (F := F) S1c Y2c).expect (r2Cell c 18 ho_18) 0 = NX := expect_dma S1c Y2c c _ 3 18 dec3_18
@[sl_rounds] theorem pay_3_18 (c : Dev nD) (r d : ℕ) : (sched (F := F) S1c Y2c).payload (r2Cell c 18 ho_18) r d = ((slotM cm2 18 ho_18).view.loc (c : Thread nD τ) ↦[(slotM cm2 18 ho_18).view.set]{fullShare} land2 Y2c c 18 hk_18 : sProp 𝕄) :=
  (payload_dma S1c Y2c c _ 3 18 dec3_18 r d).trans (by unfold xferPay; rw [dif_pos hk_18])
@[sl_rounds] theorem duties_3_19 (c : Dev nD) : (sched (F := F) S1c Y2c).duties (r2Cell c 19 ho_19) 0 = {0} := duties_dma S1c Y2c c _ 3 19 dec3_19
@[sl_rounds] theorem expect_3_19 (c : Dev nD) : (sched (F := F) S1c Y2c).expect (r2Cell c 19 ho_19) 0 = NX := expect_dma S1c Y2c c _ 3 19 dec3_19
@[sl_rounds] theorem pay_3_19 (c : Dev nD) (r d : ℕ) : (sched (F := F) S1c Y2c).payload (r2Cell c 19 ho_19) r d = ((slotM cm2 19 ho_19).view.loc (c : Thread nD τ) ↦[(slotM cm2 19 ho_19).view.set]{fullShare} land2 Y2c c 19 hk_19 : sProp 𝕄) :=
  (payload_dma S1c Y2c c _ 3 19 dec3_19 r d).trans (by unfold xferPay; rw [dif_pos hk_19])
@[sl_rounds] theorem duties_3_20 (c : Dev nD) : (sched (F := F) S1c Y2c).duties (r2Cell c 20 ho_20) 0 = {0} := duties_dma S1c Y2c c _ 3 20 dec3_20
@[sl_rounds] theorem expect_3_20 (c : Dev nD) : (sched (F := F) S1c Y2c).expect (r2Cell c 20 ho_20) 0 = NX := expect_dma S1c Y2c c _ 3 20 dec3_20
@[sl_rounds] theorem pay_3_20 (c : Dev nD) (r d : ℕ) : (sched (F := F) S1c Y2c).payload (r2Cell c 20 ho_20) r d = ((slotM cm2 20 ho_20).view.loc (c : Thread nD τ) ↦[(slotM cm2 20 ho_20).view.set]{fullShare} land2 Y2c c 20 hk_20 : sProp 𝕄) :=
  (payload_dma S1c Y2c c _ 3 20 dec3_20 r d).trans (by unfold xferPay; rw [dif_pos hk_20])
@[sl_rounds] theorem duties_3_21 (c : Dev nD) : (sched (F := F) S1c Y2c).duties (r2Cell c 21 ho_21) 0 = {0} := duties_dma S1c Y2c c _ 3 21 dec3_21
@[sl_rounds] theorem expect_3_21 (c : Dev nD) : (sched (F := F) S1c Y2c).expect (r2Cell c 21 ho_21) 0 = NX := expect_dma S1c Y2c c _ 3 21 dec3_21
@[sl_rounds] theorem pay_3_21 (c : Dev nD) (r d : ℕ) : (sched (F := F) S1c Y2c).payload (r2Cell c 21 ho_21) r d = ((slotM cm2 21 ho_21).view.loc (c : Thread nD τ) ↦[(slotM cm2 21 ho_21).view.set]{fullShare} land2 Y2c c 21 hk_21 : sProp 𝕄) :=
  (payload_dma S1c Y2c c _ 3 21 dec3_21 r d).trans (by unfold xferPay; rw [dif_pos hk_21])
@[sl_rounds] theorem duties_3_22 (c : Dev nD) : (sched (F := F) S1c Y2c).duties (r2Cell c 22 ho_22) 0 = {0} := duties_dma S1c Y2c c _ 3 22 dec3_22
@[sl_rounds] theorem expect_3_22 (c : Dev nD) : (sched (F := F) S1c Y2c).expect (r2Cell c 22 ho_22) 0 = NX := expect_dma S1c Y2c c _ 3 22 dec3_22
@[sl_rounds] theorem pay_3_22 (c : Dev nD) (r d : ℕ) : (sched (F := F) S1c Y2c).payload (r2Cell c 22 ho_22) r d = ((slotM cm2 22 ho_22).view.loc (c : Thread nD τ) ↦[(slotM cm2 22 ho_22).view.set]{fullShare} land2 Y2c c 22 hk_22 : sProp 𝕄) :=
  (payload_dma S1c Y2c c _ 3 22 dec3_22 r d).trans (by unfold xferPay; rw [dif_pos hk_22])
@[sl_rounds] theorem duties_3_23 (c : Dev nD) : (sched (F := F) S1c Y2c).duties (r2Cell c 23 ho_23) 0 = {0} := duties_dma S1c Y2c c _ 3 23 dec3_23
@[sl_rounds] theorem expect_3_23 (c : Dev nD) : (sched (F := F) S1c Y2c).expect (r2Cell c 23 ho_23) 0 = NX := expect_dma S1c Y2c c _ 3 23 dec3_23
@[sl_rounds] theorem pay_3_23 (c : Dev nD) (r d : ℕ) : (sched (F := F) S1c Y2c).payload (r2Cell c 23 ho_23) r d = ((slotM cm2 23 ho_23).view.loc (c : Thread nD τ) ↦[(slotM cm2 23 ho_23).view.set]{fullShare} land2 Y2c c 23 hk_23 : sProp 𝕄) :=
  (payload_dma S1c Y2c c _ 3 23 dec3_23 r d).trans (by unfold xferPay; rw [dif_pos hk_23])
@[sl_rounds] theorem duties_3_24 (c : Dev nD) : (sched (F := F) S1c Y2c).duties (r2Cell c 24 ho_24) 0 = {0} := duties_dma S1c Y2c c _ 3 24 dec3_24
@[sl_rounds] theorem expect_3_24 (c : Dev nD) : (sched (F := F) S1c Y2c).expect (r2Cell c 24 ho_24) 0 = NX := expect_dma S1c Y2c c _ 3 24 dec3_24
@[sl_rounds] theorem pay_3_24 (c : Dev nD) (r d : ℕ) : (sched (F := F) S1c Y2c).payload (r2Cell c 24 ho_24) r d = ((slotM cm2 24 ho_24).view.loc (c : Thread nD τ) ↦[(slotM cm2 24 ho_24).view.set]{fullShare} land2 Y2c c 24 hk_24 : sProp 𝕄) :=
  (payload_dma S1c Y2c c _ 3 24 dec3_24 r d).trans (by unfold xferPay; rw [dif_pos hk_24])
@[sl_rounds] theorem duties_3_25 (c : Dev nD) : (sched (F := F) S1c Y2c).duties (r2Cell c 25 ho_25) 0 = {0} := duties_dma S1c Y2c c _ 3 25 dec3_25
@[sl_rounds] theorem expect_3_25 (c : Dev nD) : (sched (F := F) S1c Y2c).expect (r2Cell c 25 ho_25) 0 = NX := expect_dma S1c Y2c c _ 3 25 dec3_25
@[sl_rounds] theorem pay_3_25 (c : Dev nD) (r d : ℕ) : (sched (F := F) S1c Y2c).payload (r2Cell c 25 ho_25) r d = ((slotM cm2 25 ho_25).view.loc (c : Thread nD τ) ↦[(slotM cm2 25 ho_25).view.set]{fullShare} land2 Y2c c 25 hk_25 : sProp 𝕄) :=
  (payload_dma S1c Y2c c _ 3 25 dec3_25 r d).trans (by unfold xferPay; rw [dif_pos hk_25])
@[sl_rounds] theorem duties_3_26 (c : Dev nD) : (sched (F := F) S1c Y2c).duties (r2Cell c 26 ho_26) 0 = {0} := duties_dma S1c Y2c c _ 3 26 dec3_26
@[sl_rounds] theorem expect_3_26 (c : Dev nD) : (sched (F := F) S1c Y2c).expect (r2Cell c 26 ho_26) 0 = NX := expect_dma S1c Y2c c _ 3 26 dec3_26
@[sl_rounds] theorem pay_3_26 (c : Dev nD) (r d : ℕ) : (sched (F := F) S1c Y2c).payload (r2Cell c 26 ho_26) r d = ((slotM cm2 26 ho_26).view.loc (c : Thread nD τ) ↦[(slotM cm2 26 ho_26).view.set]{fullShare} land2 Y2c c 26 hk_26 : sProp 𝕄) :=
  (payload_dma S1c Y2c c _ 3 26 dec3_26 r d).trans (by unfold xferPay; rw [dif_pos hk_26])
@[sl_rounds] theorem duties_3_27 (c : Dev nD) : (sched (F := F) S1c Y2c).duties (r2Cell c 27 ho_27) 0 = {0} := duties_dma S1c Y2c c _ 3 27 dec3_27
@[sl_rounds] theorem expect_3_27 (c : Dev nD) : (sched (F := F) S1c Y2c).expect (r2Cell c 27 ho_27) 0 = NX := expect_dma S1c Y2c c _ 3 27 dec3_27
@[sl_rounds] theorem pay_3_27 (c : Dev nD) (r d : ℕ) : (sched (F := F) S1c Y2c).payload (r2Cell c 27 ho_27) r d = ((slotM cm2 27 ho_27).view.loc (c : Thread nD τ) ↦[(slotM cm2 27 ho_27).view.set]{fullShare} land2 Y2c c 27 hk_27 : sProp 𝕄) :=
  (payload_dma S1c Y2c c _ 3 27 dec3_27 r d).trans (by unfold xferPay; rw [dif_pos hk_27])
@[sl_rounds] theorem duties_3_28 (c : Dev nD) : (sched (F := F) S1c Y2c).duties (r2Cell c 28 ho_28) 0 = {0} := duties_dma S1c Y2c c _ 3 28 dec3_28
@[sl_rounds] theorem expect_3_28 (c : Dev nD) : (sched (F := F) S1c Y2c).expect (r2Cell c 28 ho_28) 0 = NX := expect_dma S1c Y2c c _ 3 28 dec3_28
@[sl_rounds] theorem pay_3_28 (c : Dev nD) (r d : ℕ) : (sched (F := F) S1c Y2c).payload (r2Cell c 28 ho_28) r d = ((slotM cm2 28 ho_28).view.loc (c : Thread nD τ) ↦[(slotM cm2 28 ho_28).view.set]{fullShare} land2 Y2c c 28 hk_28 : sProp 𝕄) :=
  (payload_dma S1c Y2c c _ 3 28 dec3_28 r d).trans (by unfold xferPay; rw [dif_pos hk_28])
@[sl_rounds] theorem duties_3_29 (c : Dev nD) : (sched (F := F) S1c Y2c).duties (r2Cell c 29 ho_29) 0 = {0} := duties_dma S1c Y2c c _ 3 29 dec3_29
@[sl_rounds] theorem expect_3_29 (c : Dev nD) : (sched (F := F) S1c Y2c).expect (r2Cell c 29 ho_29) 0 = NX := expect_dma S1c Y2c c _ 3 29 dec3_29
@[sl_rounds] theorem pay_3_29 (c : Dev nD) (r d : ℕ) : (sched (F := F) S1c Y2c).payload (r2Cell c 29 ho_29) r d = ((slotM cm2 29 ho_29).view.loc (c : Thread nD τ) ↦[(slotM cm2 29 ho_29).view.set]{fullShare} land2 Y2c c 29 hk_29 : sProp 𝕄) :=
  (payload_dma S1c Y2c c _ 3 29 dec3_29 r d).trans (by unfold xferPay; rw [dif_pos hk_29])
@[sl_rounds] theorem duties_3_30 (c : Dev nD) : (sched (F := F) S1c Y2c).duties (r2Cell c 30 ho_30) 0 = {0} := duties_dma S1c Y2c c _ 3 30 dec3_30
@[sl_rounds] theorem expect_3_30 (c : Dev nD) : (sched (F := F) S1c Y2c).expect (r2Cell c 30 ho_30) 0 = NX := expect_dma S1c Y2c c _ 3 30 dec3_30
@[sl_rounds] theorem pay_3_30 (c : Dev nD) (r d : ℕ) : (sched (F := F) S1c Y2c).payload (r2Cell c 30 ho_30) r d = ((slotM cm2 30 ho_30).view.loc (c : Thread nD τ) ↦[(slotM cm2 30 ho_30).view.set]{fullShare} land2 Y2c c 30 hk_30 : sProp 𝕄) :=
  (payload_dma S1c Y2c c _ 3 30 dec3_30 r d).trans (by unfold xferPay; rw [dif_pos hk_30])
@[sl_rounds] theorem duties_3_31 (c : Dev nD) : (sched (F := F) S1c Y2c).duties (r2Cell c 31 ho_31) 0 = {0} := duties_dma S1c Y2c c _ 3 31 dec3_31
@[sl_rounds] theorem expect_3_31 (c : Dev nD) : (sched (F := F) S1c Y2c).expect (r2Cell c 31 ho_31) 0 = NX := expect_dma S1c Y2c c _ 3 31 dec3_31
@[sl_rounds] theorem pay_3_31 (c : Dev nD) (r d : ℕ) : (sched (F := F) S1c Y2c).payload (r2Cell c 31 ho_31) r d = ((slotM cm2 31 ho_31).view.loc (c : Thread nD τ) ↦[(slotM cm2 31 ho_31).view.set]{fullShare} land2 Y2c c 31 hk_31 : sProp 𝕄) :=
  (payload_dma S1c Y2c c _ 3 31 dec3_31 r d).trans (by unfold xferPay; rw [dif_pos hk_31])

/-! ## The barrier duty a device pays at offset `k`, from the payer's side -/

@[sl_rounds] theorem pay_bar_1 (c : Dev nD) : (sched (F := F) S1c Y2c).payload (barCell (rot c 1)) 0 1
    = iprop((∃ f, ((slotM cm1 31 ho_31).view.loc (c : Thread nD τ) ↦[(slotM cm1 31 ho_31).view.set]{fullShare} f : sProp 𝕄))
      ∗ (∃ f, ((slotM cm2 31 ho_31).view.loc (c : Thread nD τ) ↦[(slotM cm2 31 ho_31).view.set]{fullShare} f : sProp 𝕄))
      ∗ reached ER (r1Cell c 31 ho_31) 0 ∗ reached ER (r2Cell c 31 ho_31) 0) := by
  dsimp only [sched]; rw [dif_pos ⟨rfl, hk_1⟩]
  exact (barPay_congr (rot_rot_sub c 1 hk_1) _ _).trans rfl
@[sl_rounds] theorem pay_bar_2 (c : Dev nD) : (sched (F := F) S1c Y2c).payload (barCell (rot c 2)) 0 2
    = iprop((∃ f, ((slotM cm1 30 ho_30).view.loc (c : Thread nD τ) ↦[(slotM cm1 30 ho_30).view.set]{fullShare} f : sProp 𝕄))
      ∗ (∃ f, ((slotM cm2 30 ho_30).view.loc (c : Thread nD τ) ↦[(slotM cm2 30 ho_30).view.set]{fullShare} f : sProp 𝕄))
      ∗ reached ER (r1Cell c 30 ho_30) 0 ∗ reached ER (r2Cell c 30 ho_30) 0) := by
  dsimp only [sched]; rw [dif_pos ⟨rfl, hk_2⟩]
  exact (barPay_congr (rot_rot_sub c 2 hk_2) _ _).trans rfl
@[sl_rounds] theorem pay_bar_3 (c : Dev nD) : (sched (F := F) S1c Y2c).payload (barCell (rot c 3)) 0 3
    = iprop((∃ f, ((slotM cm1 29 ho_29).view.loc (c : Thread nD τ) ↦[(slotM cm1 29 ho_29).view.set]{fullShare} f : sProp 𝕄))
      ∗ (∃ f, ((slotM cm2 29 ho_29).view.loc (c : Thread nD τ) ↦[(slotM cm2 29 ho_29).view.set]{fullShare} f : sProp 𝕄))
      ∗ reached ER (r1Cell c 29 ho_29) 0 ∗ reached ER (r2Cell c 29 ho_29) 0) := by
  dsimp only [sched]; rw [dif_pos ⟨rfl, hk_3⟩]
  exact (barPay_congr (rot_rot_sub c 3 hk_3) _ _).trans rfl
@[sl_rounds] theorem pay_bar_4 (c : Dev nD) : (sched (F := F) S1c Y2c).payload (barCell (rot c 4)) 0 4
    = iprop((∃ f, ((slotM cm1 28 ho_28).view.loc (c : Thread nD τ) ↦[(slotM cm1 28 ho_28).view.set]{fullShare} f : sProp 𝕄))
      ∗ (∃ f, ((slotM cm2 28 ho_28).view.loc (c : Thread nD τ) ↦[(slotM cm2 28 ho_28).view.set]{fullShare} f : sProp 𝕄))
      ∗ reached ER (r1Cell c 28 ho_28) 0 ∗ reached ER (r2Cell c 28 ho_28) 0) := by
  dsimp only [sched]; rw [dif_pos ⟨rfl, hk_4⟩]
  exact (barPay_congr (rot_rot_sub c 4 hk_4) _ _).trans rfl
@[sl_rounds] theorem pay_bar_5 (c : Dev nD) : (sched (F := F) S1c Y2c).payload (barCell (rot c 5)) 0 5
    = iprop((∃ f, ((slotM cm1 27 ho_27).view.loc (c : Thread nD τ) ↦[(slotM cm1 27 ho_27).view.set]{fullShare} f : sProp 𝕄))
      ∗ (∃ f, ((slotM cm2 27 ho_27).view.loc (c : Thread nD τ) ↦[(slotM cm2 27 ho_27).view.set]{fullShare} f : sProp 𝕄))
      ∗ reached ER (r1Cell c 27 ho_27) 0 ∗ reached ER (r2Cell c 27 ho_27) 0) := by
  dsimp only [sched]; rw [dif_pos ⟨rfl, hk_5⟩]
  exact (barPay_congr (rot_rot_sub c 5 hk_5) _ _).trans rfl
@[sl_rounds] theorem pay_bar_6 (c : Dev nD) : (sched (F := F) S1c Y2c).payload (barCell (rot c 6)) 0 6
    = iprop((∃ f, ((slotM cm1 26 ho_26).view.loc (c : Thread nD τ) ↦[(slotM cm1 26 ho_26).view.set]{fullShare} f : sProp 𝕄))
      ∗ (∃ f, ((slotM cm2 26 ho_26).view.loc (c : Thread nD τ) ↦[(slotM cm2 26 ho_26).view.set]{fullShare} f : sProp 𝕄))
      ∗ reached ER (r1Cell c 26 ho_26) 0 ∗ reached ER (r2Cell c 26 ho_26) 0) := by
  dsimp only [sched]; rw [dif_pos ⟨rfl, hk_6⟩]
  exact (barPay_congr (rot_rot_sub c 6 hk_6) _ _).trans rfl
@[sl_rounds] theorem pay_bar_7 (c : Dev nD) : (sched (F := F) S1c Y2c).payload (barCell (rot c 7)) 0 7
    = iprop((∃ f, ((slotM cm1 25 ho_25).view.loc (c : Thread nD τ) ↦[(slotM cm1 25 ho_25).view.set]{fullShare} f : sProp 𝕄))
      ∗ (∃ f, ((slotM cm2 25 ho_25).view.loc (c : Thread nD τ) ↦[(slotM cm2 25 ho_25).view.set]{fullShare} f : sProp 𝕄))
      ∗ reached ER (r1Cell c 25 ho_25) 0 ∗ reached ER (r2Cell c 25 ho_25) 0) := by
  dsimp only [sched]; rw [dif_pos ⟨rfl, hk_7⟩]
  exact (barPay_congr (rot_rot_sub c 7 hk_7) _ _).trans rfl
@[sl_rounds] theorem pay_bar_8 (c : Dev nD) : (sched (F := F) S1c Y2c).payload (barCell (rot c 8)) 0 8
    = iprop((∃ f, ((slotM cm1 24 ho_24).view.loc (c : Thread nD τ) ↦[(slotM cm1 24 ho_24).view.set]{fullShare} f : sProp 𝕄))
      ∗ (∃ f, ((slotM cm2 24 ho_24).view.loc (c : Thread nD τ) ↦[(slotM cm2 24 ho_24).view.set]{fullShare} f : sProp 𝕄))
      ∗ reached ER (r1Cell c 24 ho_24) 0 ∗ reached ER (r2Cell c 24 ho_24) 0) := by
  dsimp only [sched]; rw [dif_pos ⟨rfl, hk_8⟩]
  exact (barPay_congr (rot_rot_sub c 8 hk_8) _ _).trans rfl
@[sl_rounds] theorem pay_bar_9 (c : Dev nD) : (sched (F := F) S1c Y2c).payload (barCell (rot c 9)) 0 9
    = iprop((∃ f, ((slotM cm1 23 ho_23).view.loc (c : Thread nD τ) ↦[(slotM cm1 23 ho_23).view.set]{fullShare} f : sProp 𝕄))
      ∗ (∃ f, ((slotM cm2 23 ho_23).view.loc (c : Thread nD τ) ↦[(slotM cm2 23 ho_23).view.set]{fullShare} f : sProp 𝕄))
      ∗ reached ER (r1Cell c 23 ho_23) 0 ∗ reached ER (r2Cell c 23 ho_23) 0) := by
  dsimp only [sched]; rw [dif_pos ⟨rfl, hk_9⟩]
  exact (barPay_congr (rot_rot_sub c 9 hk_9) _ _).trans rfl
@[sl_rounds] theorem pay_bar_10 (c : Dev nD) : (sched (F := F) S1c Y2c).payload (barCell (rot c 10)) 0 10
    = iprop((∃ f, ((slotM cm1 22 ho_22).view.loc (c : Thread nD τ) ↦[(slotM cm1 22 ho_22).view.set]{fullShare} f : sProp 𝕄))
      ∗ (∃ f, ((slotM cm2 22 ho_22).view.loc (c : Thread nD τ) ↦[(slotM cm2 22 ho_22).view.set]{fullShare} f : sProp 𝕄))
      ∗ reached ER (r1Cell c 22 ho_22) 0 ∗ reached ER (r2Cell c 22 ho_22) 0) := by
  dsimp only [sched]; rw [dif_pos ⟨rfl, hk_10⟩]
  exact (barPay_congr (rot_rot_sub c 10 hk_10) _ _).trans rfl
@[sl_rounds] theorem pay_bar_11 (c : Dev nD) : (sched (F := F) S1c Y2c).payload (barCell (rot c 11)) 0 11
    = iprop((∃ f, ((slotM cm1 21 ho_21).view.loc (c : Thread nD τ) ↦[(slotM cm1 21 ho_21).view.set]{fullShare} f : sProp 𝕄))
      ∗ (∃ f, ((slotM cm2 21 ho_21).view.loc (c : Thread nD τ) ↦[(slotM cm2 21 ho_21).view.set]{fullShare} f : sProp 𝕄))
      ∗ reached ER (r1Cell c 21 ho_21) 0 ∗ reached ER (r2Cell c 21 ho_21) 0) := by
  dsimp only [sched]; rw [dif_pos ⟨rfl, hk_11⟩]
  exact (barPay_congr (rot_rot_sub c 11 hk_11) _ _).trans rfl
@[sl_rounds] theorem pay_bar_12 (c : Dev nD) : (sched (F := F) S1c Y2c).payload (barCell (rot c 12)) 0 12
    = iprop((∃ f, ((slotM cm1 20 ho_20).view.loc (c : Thread nD τ) ↦[(slotM cm1 20 ho_20).view.set]{fullShare} f : sProp 𝕄))
      ∗ (∃ f, ((slotM cm2 20 ho_20).view.loc (c : Thread nD τ) ↦[(slotM cm2 20 ho_20).view.set]{fullShare} f : sProp 𝕄))
      ∗ reached ER (r1Cell c 20 ho_20) 0 ∗ reached ER (r2Cell c 20 ho_20) 0) := by
  dsimp only [sched]; rw [dif_pos ⟨rfl, hk_12⟩]
  exact (barPay_congr (rot_rot_sub c 12 hk_12) _ _).trans rfl
@[sl_rounds] theorem pay_bar_13 (c : Dev nD) : (sched (F := F) S1c Y2c).payload (barCell (rot c 13)) 0 13
    = iprop((∃ f, ((slotM cm1 19 ho_19).view.loc (c : Thread nD τ) ↦[(slotM cm1 19 ho_19).view.set]{fullShare} f : sProp 𝕄))
      ∗ (∃ f, ((slotM cm2 19 ho_19).view.loc (c : Thread nD τ) ↦[(slotM cm2 19 ho_19).view.set]{fullShare} f : sProp 𝕄))
      ∗ reached ER (r1Cell c 19 ho_19) 0 ∗ reached ER (r2Cell c 19 ho_19) 0) := by
  dsimp only [sched]; rw [dif_pos ⟨rfl, hk_13⟩]
  exact (barPay_congr (rot_rot_sub c 13 hk_13) _ _).trans rfl
@[sl_rounds] theorem pay_bar_14 (c : Dev nD) : (sched (F := F) S1c Y2c).payload (barCell (rot c 14)) 0 14
    = iprop((∃ f, ((slotM cm1 18 ho_18).view.loc (c : Thread nD τ) ↦[(slotM cm1 18 ho_18).view.set]{fullShare} f : sProp 𝕄))
      ∗ (∃ f, ((slotM cm2 18 ho_18).view.loc (c : Thread nD τ) ↦[(slotM cm2 18 ho_18).view.set]{fullShare} f : sProp 𝕄))
      ∗ reached ER (r1Cell c 18 ho_18) 0 ∗ reached ER (r2Cell c 18 ho_18) 0) := by
  dsimp only [sched]; rw [dif_pos ⟨rfl, hk_14⟩]
  exact (barPay_congr (rot_rot_sub c 14 hk_14) _ _).trans rfl
@[sl_rounds] theorem pay_bar_15 (c : Dev nD) : (sched (F := F) S1c Y2c).payload (barCell (rot c 15)) 0 15
    = iprop((∃ f, ((slotM cm1 17 ho_17).view.loc (c : Thread nD τ) ↦[(slotM cm1 17 ho_17).view.set]{fullShare} f : sProp 𝕄))
      ∗ (∃ f, ((slotM cm2 17 ho_17).view.loc (c : Thread nD τ) ↦[(slotM cm2 17 ho_17).view.set]{fullShare} f : sProp 𝕄))
      ∗ reached ER (r1Cell c 17 ho_17) 0 ∗ reached ER (r2Cell c 17 ho_17) 0) := by
  dsimp only [sched]; rw [dif_pos ⟨rfl, hk_15⟩]
  exact (barPay_congr (rot_rot_sub c 15 hk_15) _ _).trans rfl
@[sl_rounds] theorem pay_bar_16 (c : Dev nD) : (sched (F := F) S1c Y2c).payload (barCell (rot c 16)) 0 16
    = iprop((∃ f, ((slotM cm1 16 ho_16).view.loc (c : Thread nD τ) ↦[(slotM cm1 16 ho_16).view.set]{fullShare} f : sProp 𝕄))
      ∗ (∃ f, ((slotM cm2 16 ho_16).view.loc (c : Thread nD τ) ↦[(slotM cm2 16 ho_16).view.set]{fullShare} f : sProp 𝕄))
      ∗ reached ER (r1Cell c 16 ho_16) 0 ∗ reached ER (r2Cell c 16 ho_16) 0) := by
  dsimp only [sched]; rw [dif_pos ⟨rfl, hk_16⟩]
  exact (barPay_congr (rot_rot_sub c 16 hk_16) _ _).trans rfl
@[sl_rounds] theorem pay_bar_17 (c : Dev nD) : (sched (F := F) S1c Y2c).payload (barCell (rot c 17)) 0 17
    = iprop((∃ f, ((slotM cm1 15 ho_15).view.loc (c : Thread nD τ) ↦[(slotM cm1 15 ho_15).view.set]{fullShare} f : sProp 𝕄))
      ∗ (∃ f, ((slotM cm2 15 ho_15).view.loc (c : Thread nD τ) ↦[(slotM cm2 15 ho_15).view.set]{fullShare} f : sProp 𝕄))
      ∗ reached ER (r1Cell c 15 ho_15) 0 ∗ reached ER (r2Cell c 15 ho_15) 0) := by
  dsimp only [sched]; rw [dif_pos ⟨rfl, hk_17⟩]
  exact (barPay_congr (rot_rot_sub c 17 hk_17) _ _).trans rfl
@[sl_rounds] theorem pay_bar_18 (c : Dev nD) : (sched (F := F) S1c Y2c).payload (barCell (rot c 18)) 0 18
    = iprop((∃ f, ((slotM cm1 14 ho_14).view.loc (c : Thread nD τ) ↦[(slotM cm1 14 ho_14).view.set]{fullShare} f : sProp 𝕄))
      ∗ (∃ f, ((slotM cm2 14 ho_14).view.loc (c : Thread nD τ) ↦[(slotM cm2 14 ho_14).view.set]{fullShare} f : sProp 𝕄))
      ∗ reached ER (r1Cell c 14 ho_14) 0 ∗ reached ER (r2Cell c 14 ho_14) 0) := by
  dsimp only [sched]; rw [dif_pos ⟨rfl, hk_18⟩]
  exact (barPay_congr (rot_rot_sub c 18 hk_18) _ _).trans rfl
@[sl_rounds] theorem pay_bar_19 (c : Dev nD) : (sched (F := F) S1c Y2c).payload (barCell (rot c 19)) 0 19
    = iprop((∃ f, ((slotM cm1 13 ho_13).view.loc (c : Thread nD τ) ↦[(slotM cm1 13 ho_13).view.set]{fullShare} f : sProp 𝕄))
      ∗ (∃ f, ((slotM cm2 13 ho_13).view.loc (c : Thread nD τ) ↦[(slotM cm2 13 ho_13).view.set]{fullShare} f : sProp 𝕄))
      ∗ reached ER (r1Cell c 13 ho_13) 0 ∗ reached ER (r2Cell c 13 ho_13) 0) := by
  dsimp only [sched]; rw [dif_pos ⟨rfl, hk_19⟩]
  exact (barPay_congr (rot_rot_sub c 19 hk_19) _ _).trans rfl
@[sl_rounds] theorem pay_bar_20 (c : Dev nD) : (sched (F := F) S1c Y2c).payload (barCell (rot c 20)) 0 20
    = iprop((∃ f, ((slotM cm1 12 ho_12).view.loc (c : Thread nD τ) ↦[(slotM cm1 12 ho_12).view.set]{fullShare} f : sProp 𝕄))
      ∗ (∃ f, ((slotM cm2 12 ho_12).view.loc (c : Thread nD τ) ↦[(slotM cm2 12 ho_12).view.set]{fullShare} f : sProp 𝕄))
      ∗ reached ER (r1Cell c 12 ho_12) 0 ∗ reached ER (r2Cell c 12 ho_12) 0) := by
  dsimp only [sched]; rw [dif_pos ⟨rfl, hk_20⟩]
  exact (barPay_congr (rot_rot_sub c 20 hk_20) _ _).trans rfl
@[sl_rounds] theorem pay_bar_21 (c : Dev nD) : (sched (F := F) S1c Y2c).payload (barCell (rot c 21)) 0 21
    = iprop((∃ f, ((slotM cm1 11 ho_11).view.loc (c : Thread nD τ) ↦[(slotM cm1 11 ho_11).view.set]{fullShare} f : sProp 𝕄))
      ∗ (∃ f, ((slotM cm2 11 ho_11).view.loc (c : Thread nD τ) ↦[(slotM cm2 11 ho_11).view.set]{fullShare} f : sProp 𝕄))
      ∗ reached ER (r1Cell c 11 ho_11) 0 ∗ reached ER (r2Cell c 11 ho_11) 0) := by
  dsimp only [sched]; rw [dif_pos ⟨rfl, hk_21⟩]
  exact (barPay_congr (rot_rot_sub c 21 hk_21) _ _).trans rfl
@[sl_rounds] theorem pay_bar_22 (c : Dev nD) : (sched (F := F) S1c Y2c).payload (barCell (rot c 22)) 0 22
    = iprop((∃ f, ((slotM cm1 10 ho_10).view.loc (c : Thread nD τ) ↦[(slotM cm1 10 ho_10).view.set]{fullShare} f : sProp 𝕄))
      ∗ (∃ f, ((slotM cm2 10 ho_10).view.loc (c : Thread nD τ) ↦[(slotM cm2 10 ho_10).view.set]{fullShare} f : sProp 𝕄))
      ∗ reached ER (r1Cell c 10 ho_10) 0 ∗ reached ER (r2Cell c 10 ho_10) 0) := by
  dsimp only [sched]; rw [dif_pos ⟨rfl, hk_22⟩]
  exact (barPay_congr (rot_rot_sub c 22 hk_22) _ _).trans rfl
@[sl_rounds] theorem pay_bar_23 (c : Dev nD) : (sched (F := F) S1c Y2c).payload (barCell (rot c 23)) 0 23
    = iprop((∃ f, ((slotM cm1 9 ho_9).view.loc (c : Thread nD τ) ↦[(slotM cm1 9 ho_9).view.set]{fullShare} f : sProp 𝕄))
      ∗ (∃ f, ((slotM cm2 9 ho_9).view.loc (c : Thread nD τ) ↦[(slotM cm2 9 ho_9).view.set]{fullShare} f : sProp 𝕄))
      ∗ reached ER (r1Cell c 9 ho_9) 0 ∗ reached ER (r2Cell c 9 ho_9) 0) := by
  dsimp only [sched]; rw [dif_pos ⟨rfl, hk_23⟩]
  exact (barPay_congr (rot_rot_sub c 23 hk_23) _ _).trans rfl
@[sl_rounds] theorem pay_bar_24 (c : Dev nD) : (sched (F := F) S1c Y2c).payload (barCell (rot c 24)) 0 24
    = iprop((∃ f, ((slotM cm1 8 ho_8).view.loc (c : Thread nD τ) ↦[(slotM cm1 8 ho_8).view.set]{fullShare} f : sProp 𝕄))
      ∗ (∃ f, ((slotM cm2 8 ho_8).view.loc (c : Thread nD τ) ↦[(slotM cm2 8 ho_8).view.set]{fullShare} f : sProp 𝕄))
      ∗ reached ER (r1Cell c 8 ho_8) 0 ∗ reached ER (r2Cell c 8 ho_8) 0) := by
  dsimp only [sched]; rw [dif_pos ⟨rfl, hk_24⟩]
  exact (barPay_congr (rot_rot_sub c 24 hk_24) _ _).trans rfl
@[sl_rounds] theorem pay_bar_25 (c : Dev nD) : (sched (F := F) S1c Y2c).payload (barCell (rot c 25)) 0 25
    = iprop((∃ f, ((slotM cm1 7 ho_7).view.loc (c : Thread nD τ) ↦[(slotM cm1 7 ho_7).view.set]{fullShare} f : sProp 𝕄))
      ∗ (∃ f, ((slotM cm2 7 ho_7).view.loc (c : Thread nD τ) ↦[(slotM cm2 7 ho_7).view.set]{fullShare} f : sProp 𝕄))
      ∗ reached ER (r1Cell c 7 ho_7) 0 ∗ reached ER (r2Cell c 7 ho_7) 0) := by
  dsimp only [sched]; rw [dif_pos ⟨rfl, hk_25⟩]
  exact (barPay_congr (rot_rot_sub c 25 hk_25) _ _).trans rfl
@[sl_rounds] theorem pay_bar_26 (c : Dev nD) : (sched (F := F) S1c Y2c).payload (barCell (rot c 26)) 0 26
    = iprop((∃ f, ((slotM cm1 6 ho_6).view.loc (c : Thread nD τ) ↦[(slotM cm1 6 ho_6).view.set]{fullShare} f : sProp 𝕄))
      ∗ (∃ f, ((slotM cm2 6 ho_6).view.loc (c : Thread nD τ) ↦[(slotM cm2 6 ho_6).view.set]{fullShare} f : sProp 𝕄))
      ∗ reached ER (r1Cell c 6 ho_6) 0 ∗ reached ER (r2Cell c 6 ho_6) 0) := by
  dsimp only [sched]; rw [dif_pos ⟨rfl, hk_26⟩]
  exact (barPay_congr (rot_rot_sub c 26 hk_26) _ _).trans rfl
@[sl_rounds] theorem pay_bar_27 (c : Dev nD) : (sched (F := F) S1c Y2c).payload (barCell (rot c 27)) 0 27
    = iprop((∃ f, ((slotM cm1 5 ho_5).view.loc (c : Thread nD τ) ↦[(slotM cm1 5 ho_5).view.set]{fullShare} f : sProp 𝕄))
      ∗ (∃ f, ((slotM cm2 5 ho_5).view.loc (c : Thread nD τ) ↦[(slotM cm2 5 ho_5).view.set]{fullShare} f : sProp 𝕄))
      ∗ reached ER (r1Cell c 5 ho_5) 0 ∗ reached ER (r2Cell c 5 ho_5) 0) := by
  dsimp only [sched]; rw [dif_pos ⟨rfl, hk_27⟩]
  exact (barPay_congr (rot_rot_sub c 27 hk_27) _ _).trans rfl
@[sl_rounds] theorem pay_bar_28 (c : Dev nD) : (sched (F := F) S1c Y2c).payload (barCell (rot c 28)) 0 28
    = iprop((∃ f, ((slotM cm1 4 ho_4).view.loc (c : Thread nD τ) ↦[(slotM cm1 4 ho_4).view.set]{fullShare} f : sProp 𝕄))
      ∗ (∃ f, ((slotM cm2 4 ho_4).view.loc (c : Thread nD τ) ↦[(slotM cm2 4 ho_4).view.set]{fullShare} f : sProp 𝕄))
      ∗ reached ER (r1Cell c 4 ho_4) 0 ∗ reached ER (r2Cell c 4 ho_4) 0) := by
  dsimp only [sched]; rw [dif_pos ⟨rfl, hk_28⟩]
  exact (barPay_congr (rot_rot_sub c 28 hk_28) _ _).trans rfl
@[sl_rounds] theorem pay_bar_29 (c : Dev nD) : (sched (F := F) S1c Y2c).payload (barCell (rot c 29)) 0 29
    = iprop((∃ f, ((slotM cm1 3 ho_3).view.loc (c : Thread nD τ) ↦[(slotM cm1 3 ho_3).view.set]{fullShare} f : sProp 𝕄))
      ∗ (∃ f, ((slotM cm2 3 ho_3).view.loc (c : Thread nD τ) ↦[(slotM cm2 3 ho_3).view.set]{fullShare} f : sProp 𝕄))
      ∗ reached ER (r1Cell c 3 ho_3) 0 ∗ reached ER (r2Cell c 3 ho_3) 0) := by
  dsimp only [sched]; rw [dif_pos ⟨rfl, hk_29⟩]
  exact (barPay_congr (rot_rot_sub c 29 hk_29) _ _).trans rfl
@[sl_rounds] theorem pay_bar_30 (c : Dev nD) : (sched (F := F) S1c Y2c).payload (barCell (rot c 30)) 0 30
    = iprop((∃ f, ((slotM cm1 2 ho_2).view.loc (c : Thread nD τ) ↦[(slotM cm1 2 ho_2).view.set]{fullShare} f : sProp 𝕄))
      ∗ (∃ f, ((slotM cm2 2 ho_2).view.loc (c : Thread nD τ) ↦[(slotM cm2 2 ho_2).view.set]{fullShare} f : sProp 𝕄))
      ∗ reached ER (r1Cell c 2 ho_2) 0 ∗ reached ER (r2Cell c 2 ho_2) 0) := by
  dsimp only [sched]; rw [dif_pos ⟨rfl, hk_30⟩]
  exact (barPay_congr (rot_rot_sub c 30 hk_30) _ _).trans rfl
@[sl_rounds] theorem pay_bar_31 (c : Dev nD) : (sched (F := F) S1c Y2c).payload (barCell (rot c 31)) 0 31
    = iprop((∃ f, ((slotM cm1 1 ho_1).view.loc (c : Thread nD τ) ↦[(slotM cm1 1 ho_1).view.set]{fullShare} f : sProp 𝕄))
      ∗ (∃ f, ((slotM cm2 1 ho_1).view.loc (c : Thread nD τ) ↦[(slotM cm2 1 ho_1).view.set]{fullShare} f : sProp 𝕄))
      ∗ reached ER (r1Cell c 1 ho_1) 0 ∗ reached ER (r2Cell c 1 ho_1) 0) := by
  dsimp only [sched]; rw [dif_pos ⟨rfl, hk_31⟩]
  exact (barPay_congr (rot_rot_sub c 31 hk_31) _ _).trans rfl

attribute [sl_rounds] duties_bar amount_bar amount_dma expect_bar

end TablesK

end Cert.KernelIdealProto

end
-- ==== Proof.KernelIdealCuts.lean ====
import proofs.«900784_g7700000000000785_dist_f_of_ar_i_m512_n256_v7x_i32_bf16_1_alg».proof.Proof.KernelIdealProto
import proofs.«900784_g7700000000000785_dist_f_of_ar_i_m512_n256_v7x_i32_bf16_1_alg».proof.Proof.KernelIdealTables

/-!
# A buffer held whole, cut into the pieces its transfers lend, and joined back

A landing buffer of thirty-two slots is held as its slots: slot `o` is the unit rectangle at offset `(o, 0, 0)` of
sizes `(1, 16, 256)`, and the thirty-two of them are pairwise disjoint and cover the buffer (they differ only in
their offset along the first axis, one apart, and are whole on the other two). A points-to on the whole buffer is
therefore the separating conjunction of the points-tos on the slots' element sets, and slots held at contents of
their own join to the whole buffer held at some contents.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slices of a whole buffer along a family of rectangles -/

section Pieces

variable {sp : Space} {s : Shape} {e : EltTy} {B : Type}

/-- The elements of a memref's buffer under its slice through the rectangle `r`. -/
abbrev sliceSet (M : Memref sig .tc sp s e) (r : Rect s) : Finset M.view.ty.Idx := (M.view.slice r).set

/-- Slices of one memref through disjoint rectangles have disjoint element sets: a view places distinct indices at
    distinct elements. -/
theorem slices_disjoint (M : Memref sig .tc sp s e) (r : B → Rect s)
    (hd : ∀ b b', b ≠ b' → Disjoint (r b).set (r b').set) (b b' : B) (h : b ≠ b') :
    Disjoint (sliceSet M (r b)) (sliceSet M (r b')) := by
  show Disjoint (M.view.slice (r b)).set (M.view.slice (r b')).set
  rw [View.set_slice, View.set_slice]
  exact (Finset.disjoint_map _).mpr (hd b b' h)

/-- Slices of a whole buffer through rectangles that cover its shape cover its elements. -/
theorem slices_cover [Fintype B] (M : Memref sig .tc sp s e) (hM : M.IsWhole) (r : B → Rect s)
    (hc : Finset.univ.biUnion (fun b => (r b).set) = Finset.univ) :
    Finset.univ.biUnion (fun b => sliceSet M (r b)) = Finset.univ := by
  ext i
  simp only [Finset.mem_biUnion, Finset.mem_univ, true_and, iff_true]
  have hi : i ∈ M.view.set := hM.set_eq_univ ▸ Finset.mem_univ i
  obtain ⟨x, -, rfl⟩ := Finset.mem_map.mp hi
  have hx : x ∈ Finset.univ.biUnion (fun b => (r b).set) := hc ▸ Finset.mem_univ x
  obtain ⟨b, -, hb⟩ := Finset.mem_biUnion.mp hx
  refine ⟨b, ?_⟩
  show M.view.emb x ∈ (M.view.slice (r b)).set
  rw [View.set_slice]; exact Finset.mem_map_of_mem _ hb

end Pieces

/-! ## A landing buffer as its thirty-two slots -/

/-- Slot `o`'s rectangle. -/
abbrev slotR (o : Fin 32) : Rect S32x16x256 := Rect.unit (s := S32x16x256) ![o.val, 0, 0] S1x16x256.size (slot_inb o.val o.isLt)

theorem slotR_disjoint (o o' : Fin 32) (h : o ≠ o') : Disjoint (slotR o).set (slotR o').set :=
  Ring.lead_disjoint (s := S32x16x256) (NB := 32) 0 1 (fun o : Fin 32 => ![o.val, 0, 0]) S1x16x256.size
    (fun o => slot_inb o.val o.isLt) (fun o => (Nat.one_mul _).symm) rfl o o' h

theorem slotR_cover : Finset.univ.biUnion (fun o : Fin 32 => (slotR o).set) = Finset.univ :=
  Ring.lead_cover (s := S32x16x256) (NB := 32) 0 1 (fun o : Fin 32 => ![o.val, 0, 0]) S1x16x256.size
    (fun o => slot_inb o.val o.isLt) (fun o => (Nat.one_mul _).symm)
    (fun o a ha => by fin_cases a <;> first | exact absurd rfl ha | rfl) rfl
    (fun a ha => by fin_cases a <;> first | exact absurd rfl ha | rfl) (by decide)

/-- Slot `o`'s elements, among the buffer's on device `c`. -/
abbrev slotSet {e : EltTy} (M : Memref sig .tc .vmem S32x16x256 e) (c : Dev nD) (o : Fin 32) :
    Finset (Idx (M.view.loc (c : Thread nD τ))) :=
  (slotM M o.val o.isLt).view.set

/-- A slot's elements are its rectangle's: dropping the unit axis moves no element. -/
theorem slot_set {e : EltTy} (M : Memref sig .tc .vmem S32x16x256 e) (c : Dev nD) (o : Fin 32) :
    slotSet M c o = sliceSet M (slotR o) :=
  View.set_reshape _ _

theorem slot_disjoint {e : EltTy} (M : Memref sig .tc .vmem S32x16x256 e) (c : Dev nD) (o o' : Fin 32) (h : o ≠ o') :
    Disjoint (slotSet M c o) (slotSet M c o') := by
  rw [slot_set, slot_set]; exact slices_disjoint M slotR slotR_disjoint o o' h

theorem slot_cover {e : EltTy} (M : Memref sig .tc .vmem S32x16x256 e) (hM : M.IsWhole) (c : Dev nD) :
    Finset.univ.biUnion (slotSet M c) = Finset.univ := by
  rw [show slotSet M c = fun o => sliceSet M (slotR o) from funext (slot_set M c)]
  exact slices_cover M hM slotR slotR_cover

/-- The whole buffer at `f` is its thirty-two slots at `f`, as an equation. -/
theorem cm_split_eq {e : EltTy} (M : Memref sig .tc .vmem S32x16x256 e) (hM : M.IsWhole) (c : Dev nD)
    (f : Buf (Elt F) (M.view.loc (c : Thread nD τ))) :
    (M.view.loc (c : Thread nD τ) ↦{fullShare} f : sProp 𝕄)
      = bigSep Finset.univ fun o : Fin 32 => (M.view.loc (c : Thread nD τ) ↦[slotSet M c o]{fullShare} f : sProp 𝕄) :=
  Ring.pointsTo_blocks (ℓ := M.view.loc (c : Thread nD τ)) (Ix := Unit) (Name := ℕ) (U := UU) (Lvl := ℕ)
    (slotSet M c) (slot_disjoint M c) (slot_cover M hM c) f

/-- The whole buffer at `f` is its thirty-two slots at `f`. -/
theorem cm_split {e : EltTy} (M : Memref sig .tc .vmem S32x16x256 e) (hM : M.IsWhole) (c : Dev nD)
    (f : Buf (Elt F) (M.view.loc (c : Thread nD τ))) :
    (M.view.loc (c : Thread nD τ) ↦{fullShare} f : sProp 𝕄)
      ⊢ bigSep Finset.univ fun o : Fin 32 =>
          ((slotM M o.val o.isLt).view.loc (c : Thread nD τ) ↦[(slotM M o.val o.isLt).view.set]{fullShare} f : sProp 𝕄) :=
  Entails.of_eq (cm_split_eq M hM c f)

/-- The thirty-two slots, each at some contents, are the whole buffer at some contents. -/
theorem cm_join {e : EltTy} (M : Memref sig .tc .vmem S32x16x256 e) (hM : M.IsWhole) (c : Dev nD) :
    bigSep Finset.univ (fun o : Fin 32 =>
        iprop(∃ g, ((slotM M o.val o.isLt).view.loc (c : Thread nD τ) ↦[(slotM M o.val o.isLt).view.set]{fullShare} g : sProp 𝕄)))
      ⊢ iprop(∃ g, (M.view.loc (c : Thread nD τ) ↦{fullShare} g : sProp 𝕄)) :=
  Ring.pointsTo_blocks_join_exists (ℓ := M.view.loc (c : Thread nD τ)) (Ix := Unit) (Name := ℕ) (U := UU) (Lvl := ℕ)
    (q := fullShare) (slotSet M c) (slot_disjoint M c) (slot_cover M hM c) (M.view.junk (Val := Elt F))

/-- The same with the slots written out, slot 0 first. -/
theorem cm_split_chain {e : EltTy} (M : Memref sig .tc .vmem S32x16x256 e) (hM : M.IsWhole) (c : Dev nD)
    (f : Buf (Elt F) (M.view.loc (c : Thread nD τ))) :
    (M.view.loc (c : Thread nD τ) ↦{fullShare} f : sProp 𝕄)
      ⊢ iprop(((slotM M 0 ho_0).view.loc (c : Thread nD τ) ↦[(slotM M 0 ho_0).view.set]{fullShare} f : sProp 𝕄)
        ∗ ((slotM M 1 ho_1).view.loc (c : Thread nD τ) ↦[(slotM M 1 ho_1).view.set]{fullShare} f : sProp 𝕄)
        ∗ ((slotM M 2 ho_2).view.loc (c : Thread nD τ) ↦[(slotM M 2 ho_2).view.set]{fullShare} f : sProp 𝕄)
        ∗ ((slotM M 3 ho_3).view.loc (c : Thread nD τ) ↦[(slotM M 3 ho_3).view.set]{fullShare} f : sProp 𝕄)
        ∗ ((slotM M 4 ho_4).view.loc (c : Thread nD τ) ↦[(slotM M 4 ho_4).view.set]{fullShare} f : sProp 𝕄)
        ∗ ((slotM M 5 ho_5).view.loc (c : Thread nD τ) ↦[(slotM M 5 ho_5).view.set]{fullShare} f : sProp 𝕄)
        ∗ ((slotM M 6 ho_6).view.loc (c : Thread nD τ) ↦[(slotM M 6 ho_6).view.set]{fullShare} f : sProp 𝕄)
        ∗ ((slotM M 7 ho_7).view.loc (c : Thread nD τ) ↦[(slotM M 7 ho_7).view.set]{fullShare} f : sProp 𝕄)
        ∗ ((slotM M 8 ho_8).view.loc (c : Thread nD τ) ↦[(slotM M 8 ho_8).view.set]{fullShare} f : sProp 𝕄)
        ∗ ((slotM M 9 ho_9).view.loc (c : Thread nD τ) ↦[(slotM M 9 ho_9).view.set]{fullShare} f : sProp 𝕄)
        ∗ ((slotM M 10 ho_10).view.loc (c : Thread nD τ) ↦[(slotM M 10 ho_10).view.set]{fullShare} f : sProp 𝕄)
        ∗ ((slotM M 11 ho_11).view.loc (c : Thread nD τ) ↦[(slotM M 11 ho_11).view.set]{fullShare} f : sProp 𝕄)
        ∗ ((slotM M 12 ho_12).view.loc (c : Thread nD τ) ↦[(slotM M 12 ho_12).view.set]{fullShare} f : sProp 𝕄)
        ∗ ((slotM M 13 ho_13).view.loc (c : Thread nD τ) ↦[(slotM M 13 ho_13).view.set]{fullShare} f : sProp 𝕄)
        ∗ ((slotM M 14 ho_14).view.loc (c : Thread nD τ) ↦[(slotM M 14 ho_14).view.set]{fullShare} f : sProp 𝕄)
        ∗ ((slotM M 15 ho_15).view.loc (c : Thread nD τ) ↦[(slotM M 15 ho_15).view.set]{fullShare} f : sProp 𝕄)
        ∗ ((slotM M 16 ho_16).view.loc (c : Thread nD τ) ↦[(slotM M 16 ho_16).view.set]{fullShare} f : sProp 𝕄)
        ∗ ((slotM M 17 ho_17).view.loc (c : Thread nD τ) ↦[(slotM M 17 ho_17).view.set]{fullShare} f : sProp 𝕄)
        ∗ ((slotM M 18 ho_18).view.loc (c : Thread nD τ) ↦[(slotM M 18 ho_18).view.set]{fullShare} f : sProp 𝕄)
        ∗ ((slotM M 19 ho_19).view.loc (c : Thread nD τ) ↦[(slotM M 19 ho_19).view.set]{fullShare} f : sProp 𝕄)
        ∗ ((slotM M 20 ho_20).view.loc (c : Thread nD τ) ↦[(slotM M 20 ho_20).view.set]{fullShare} f : sProp 𝕄)
        ∗ ((slotM M 21 ho_21).view.loc (c : Thread nD τ) ↦[(slotM M 21 ho_21).view.set]{fullShare} f : sProp 𝕄)
        ∗ ((slotM M 22 ho_22).view.loc (c : Thread nD τ) ↦[(slotM M 22 ho_22).view.set]{fullShare} f : sProp 𝕄)
        ∗ ((slotM M 23 ho_23).view.loc (c : Thread nD τ) ↦[(slotM M 23 ho_23).view.set]{fullShare} f : sProp 𝕄)
        ∗ ((slotM M 24 ho_24).view.loc (c : Thread nD τ) ↦[(slotM M 24 ho_24).view.set]{fullShare} f : sProp 𝕄)
        ∗ ((slotM M 25 ho_25).view.loc (c : Thread nD τ) ↦[(slotM M 25 ho_25).view.set]{fullShare} f : sProp 𝕄)
        ∗ ((slotM M 26 ho_26).view.loc (c : Thread nD τ) ↦[(slotM M 26 ho_26).view.set]{fullShare} f : sProp 𝕄)
        ∗ ((slotM M 27 ho_27).view.loc (c : Thread nD τ) ↦[(slotM M 27 ho_27).view.set]{fullShare} f : sProp 𝕄)
        ∗ ((slotM M 28 ho_28).view.loc (c : Thread nD τ) ↦[(slotM M 28 ho_28).view.set]{fullShare} f : sProp 𝕄)
        ∗ ((slotM M 29 ho_29).view.loc (c : Thread nD τ) ↦[(slotM M 29 ho_29).view.set]{fullShare} f : sProp 𝕄)
        ∗ ((slotM M 30 ho_30).view.loc (c : Thread nD τ) ↦[(slotM M 30 ho_30).view.set]{fullShare} f : sProp 𝕄)
        ∗ ((slotM M 31 ho_31).view.loc (c : Thread nD τ) ↦[(slotM M 31 ho_31).view.set]{fullShare} f : sProp 𝕄)) :=
  (cm_split M hM c f).trans (Entails.of_eq (bigSep_univ_eq_bigSepL [0, 1, 2, 3, 4, 5, 6, 7, 8, 9, 10, 11, 12, 13, 14, 15, 16, 17, 18, 19, 20, 21, 22, 23, 24, 25, 26, 27, 28, 29, 30, 31] (by decide) (by decide) _))

theorem cm_join_chain {e : EltTy} (M : Memref sig .tc .vmem S32x16x256 e) (hM : M.IsWhole) (c : Dev nD) :
    iprop((∃ g, ((slotM M 0 ho_0).view.loc (c : Thread nD τ) ↦[(slotM M 0 ho_0).view.set]{fullShare} g : sProp 𝕄))
        ∗ (∃ g, ((slotM M 1 ho_1).view.loc (c : Thread nD τ) ↦[(slotM M 1 ho_1).view.set]{fullShare} g : sProp 𝕄))
        ∗ (∃ g, ((slotM M 2 ho_2).view.loc (c : Thread nD τ) ↦[(slotM M 2 ho_2).view.set]{fullShare} g : sProp 𝕄))
        ∗ (∃ g, ((slotM M 3 ho_3).view.loc (c : Thread nD τ) ↦[(slotM M 3 ho_3).view.set]{fullShare} g : sProp 𝕄))
        ∗ (∃ g, ((slotM M 4 ho_4).view.loc (c : Thread nD τ) ↦[(slotM M 4 ho_4).view.set]{fullShare} g : sProp 𝕄))
        ∗ (∃ g, ((slotM M 5 ho_5).view.loc (c : Thread nD τ) ↦[(slotM M 5 ho_5).view.set]{fullShare} g : sProp 𝕄))
        ∗ (∃ g, ((slotM M 6 ho_6).view.loc (c : Thread nD τ) ↦[(slotM M 6 ho_6).view.set]{fullShare} g : sProp 𝕄))
        ∗ (∃ g, ((slotM M 7 ho_7).view.loc (c : Thread nD τ) ↦[(slotM M 7 ho_7).view.set]{fullShare} g : sProp 𝕄))
        ∗ (∃ g, ((slotM M 8 ho_8).view.loc (c : Thread nD τ) ↦[(slotM M 8 ho_8).view.set]{fullShare} g : sProp 𝕄))
        ∗ (∃ g, ((slotM M 9 ho_9).view.loc (c : Thread nD τ) ↦[(slotM M 9 ho_9).view.set]{fullShare} g : sProp 𝕄))
        ∗ (∃ g, ((slotM M 10 ho_10).view.loc (c : Thread nD τ) ↦[(slotM M 10 ho_10).view.set]{fullShare} g : sProp 𝕄))
        ∗ (∃ g, ((slotM M 11 ho_11).view.loc (c : Thread nD τ) ↦[(slotM M 11 ho_11).view.set]{fullShare} g : sProp 𝕄))
        ∗ (∃ g, ((slotM M 12 ho_12).view.loc (c : Thread nD τ) ↦[(slotM M 12 ho_12).view.set]{fullShare} g : sProp 𝕄))
        ∗ (∃ g, ((slotM M 13 ho_13).view.loc (c : Thread nD τ) ↦[(slotM M 13 ho_13).view.set]{fullShare} g : sProp 𝕄))
        ∗ (∃ g, ((slotM M 14 ho_14).view.loc (c : Thread nD τ) ↦[(slotM M 14 ho_14).view.set]{fullShare} g : sProp 𝕄))
        ∗ (∃ g, ((slotM M 15 ho_15).view.loc (c : Thread nD τ) ↦[(slotM M 15 ho_15).view.set]{fullShare} g : sProp 𝕄))
        ∗ (∃ g, ((slotM M 16 ho_16).view.loc (c : Thread nD τ) ↦[(slotM M 16 ho_16).view.set]{fullShare} g : sProp 𝕄))
        ∗ (∃ g, ((slotM M 17 ho_17).view.loc (c : Thread nD τ) ↦[(slotM M 17 ho_17).view.set]{fullShare} g : sProp 𝕄))
        ∗ (∃ g, ((slotM M 18 ho_18).view.loc (c : Thread nD τ) ↦[(slotM M 18 ho_18).view.set]{fullShare} g : sProp 𝕄))
        ∗ (∃ g, ((slotM M 19 ho_19).view.loc (c : Thread nD τ) ↦[(slotM M 19 ho_19).view.set]{fullShare} g : sProp 𝕄))
        ∗ (∃ g, ((slotM M 20 ho_20).view.loc (c : Thread nD τ) ↦[(slotM M 20 ho_20).view.set]{fullShare} g : sProp 𝕄))
        ∗ (∃ g, ((slotM M 21 ho_21).view.loc (c : Thread nD τ) ↦[(slotM M 21 ho_21).view.set]{fullShare} g : sProp 𝕄))
        ∗ (∃ g, ((slotM M 22 ho_22).view.loc (c : Thread nD τ) ↦[(slotM M 22 ho_22).view.set]{fullShare} g : sProp 𝕄))
        ∗ (∃ g, ((slotM M 23 ho_23).view.loc (c : Thread nD τ) ↦[(slotM M 23 ho_23).view.set]{fullShare} g : sProp 𝕄))
        ∗ (∃ g, ((slotM M 24 ho_24).view.loc (c : Thread nD τ) ↦[(slotM M 24 ho_24).view.set]{fullShare} g : sProp 𝕄))
        ∗ (∃ g, ((slotM M 25 ho_25).view.loc (c : Thread nD τ) ↦[(slotM M 25 ho_25).view.set]{fullShare} g : sProp 𝕄))
        ∗ (∃ g, ((slotM M 26 ho_26).view.loc (c : Thread nD τ) ↦[(slotM M 26 ho_26).view.set]{fullShare} g : sProp 𝕄))
        ∗ (∃ g, ((slotM M 27 ho_27).view.loc (c : Thread nD τ) ↦[(slotM M 27 ho_27).view.set]{fullShare} g : sProp 𝕄))
        ∗ (∃ g, ((slotM M 28 ho_28).view.loc (c : Thread nD τ) ↦[(slotM M 28 ho_28).view.set]{fullShare} g : sProp 𝕄))
        ∗ (∃ g, ((slotM M 29 ho_29).view.loc (c : Thread nD τ) ↦[(slotM M 29 ho_29).view.set]{fullShare} g : sProp 𝕄))
        ∗ (∃ g, ((slotM M 30 ho_30).view.loc (c : Thread nD τ) ↦[(slotM M 30 ho_30).view.set]{fullShare} g : sProp 𝕄))
        ∗ (∃ g, ((slotM M 31 ho_31).view.loc (c : Thread nD τ) ↦[(slotM M 31 ho_31).view.set]{fullShare} g : sProp 𝕄)))
      ⊢ iprop(∃ g, (M.view.loc (c : Thread nD τ) ↦{fullShare} g : sProp 𝕄)) :=
  (Entails.of_eq (bigSep_univ_eq_bigSepL [0, 1, 2, 3, 4, 5, 6, 7, 8, 9, 10, 11, 12, 13, 14, 15, 16, 17, 18, 19, 20, 21, 22, 23, 24, 25, 26, 27, 28, 29, 30, 31] (by decide) (by decide) _).symm).trans (cm_join M hM c)

/-! ## The result rows, read by thirty-one transfers at once

The second exchange sends the same sixteen result rows to every other device. The thirty-one transfers read the rows
at the same time, each under a read share of its own: the full share is halved thirty-one times, the transfer at
offset `k` holds the right half cut off at the `k`-th halving, and what is left after the last halving stays with the
device. The halves join back to the full share. -/

theorem st2_split (c : Dev nD) (f : Buf (Elt F) (st2.view.loc (c : Thread nD τ))) :
    (st2.view.loc (c : Thread nD τ) ↦[st2.view.set]{fullShare} f : sProp 𝕄)
      ⊢ iprop((st2.view.loc (c : Thread nD τ) ↦[st2.view.set]{Transfers.shareDrop fullShare 31} f : sProp 𝕄)
        ∗ (st2.view.loc (c : Thread nD τ) ↦[st2.view.set]{Transfers.shareTokN fullShare 0} f : sProp 𝕄)
        ∗ (st2.view.loc (c : Thread nD τ) ↦[st2.view.set]{Transfers.shareTokN fullShare 1} f : sProp 𝕄)
        ∗ (st2.view.loc (c : Thread nD τ) ↦[st2.view.set]{Transfers.shareTokN fullShare 2} f : sProp 𝕄)
        ∗ (st2.view.loc (c : Thread nD τ) ↦[st2.view.set]{Transfers.shareTokN fullShare 3} f : sProp 𝕄)
        ∗ (st2.view.loc (c : Thread nD τ) ↦[st2.view.set]{Transfers.shareTokN fullShare 4} f : sProp 𝕄)
        ∗ (st2.view.loc (c : Thread nD τ) ↦[st2.view.set]{Transfers.shareTokN fullShare 5} f : sProp 𝕄)
        ∗ (st2.view.loc (c : Thread nD τ) ↦[st2.view.set]{Transfers.shareTokN fullShare 6} f : sProp 𝕄)
        ∗ (st2.view.loc (c : Thread nD τ) ↦[st2.view.set]{Transfers.shareTokN fullShare 7} f : sProp 𝕄)
        ∗ (st2.view.loc (c : Thread nD τ) ↦[st2.view.set]{Transfers.shareTokN fullShare 8} f : sProp 𝕄)
        ∗ (st2.view.loc (c : Thread nD τ) ↦[st2.view.set]{Transfers.shareTokN fullShare 9} f : sProp 𝕄)
        ∗ (st2.view.loc (c : Thread nD τ) ↦[st2.view.set]{Transfers.shareTokN fullShare 10} f : sProp 𝕄)
        ∗ (st2.view.loc (c : Thread nD τ) ↦[st2.view.set]{Transfers.shareTokN fullShare 11} f : sProp 𝕄)
        ∗ (st2.view.loc (c : Thread nD τ) ↦[st2.view.set]{Transfers.shareTokN fullShare 12} f : sProp 𝕄)
        ∗ (st2.view.loc (c : Thread nD τ) ↦[st2.view.set]{Transfers.shareTokN fullShare 13} f : sProp 𝕄)
        ∗ (st2.view.loc (c : Thread nD τ) ↦[st2.view.set]{Transfers.shareTokN fullShare 14} f : sProp 𝕄)
        ∗ (st2.view.loc (c : Thread nD τ) ↦[st2.view.set]{Transfers.shareTokN fullShare 15} f : sProp 𝕄)
        ∗ (st2.view.loc (c : Thread nD τ) ↦[st2.view.set]{Transfers.shareTokN fullShare 16} f : sProp 𝕄)
        ∗ (st2.view.loc (c : Thread nD τ) ↦[st2.view.set]{Transfers.shareTokN fullShare 17} f : sProp 𝕄)
        ∗ (st2.view.loc (c : Thread nD τ) ↦[st2.view.set]{Transfers.shareTokN fullShare 18} f : sProp 𝕄)
        ∗ (st2.view.loc (c : Thread nD τ) ↦[st2.view.set]{Transfers.shareTokN fullShare 19} f : sProp 𝕄)
        ∗ (st2.view.loc (c : Thread nD τ) ↦[st2.view.set]{Transfers.shareTokN fullShare 20} f : sProp 𝕄)
        ∗ (st2.view.loc (c : Thread nD τ) ↦[st2.view.set]{Transfers.shareTokN fullShare 21} f : sProp 𝕄)
        ∗ (st2.view.loc (c : Thread nD τ) ↦[st2.view.set]{Transfers.shareTokN fullShare 22} f : sProp 𝕄)
        ∗ (st2.view.loc (c : Thread nD τ) ↦[st2.view.set]{Transfers.shareTokN fullShare 23} f : sProp 𝕄)
        ∗ (st2.view.loc (c : Thread nD τ) ↦[st2.view.set]{Transfers.shareTokN fullShare 24} f : sProp 𝕄)
        ∗ (st2.view.loc (c : Thread nD τ) ↦[st2.view.set]{Transfers.shareTokN fullShare 25} f : sProp 𝕄)
        ∗ (st2.view.loc (c : Thread nD τ) ↦[st2.view.set]{Transfers.shareTokN fullShare 26} f : sProp 𝕄)
        ∗ (st2.view.loc (c : Thread nD τ) ↦[st2.view.set]{Transfers.shareTokN fullShare 27} f : sProp 𝕄)
        ∗ (st2.view.loc (c : Thread nD τ) ↦[st2.view.set]{Transfers.shareTokN fullShare 28} f : sProp 𝕄)
        ∗ (st2.view.loc (c : Thread nD τ) ↦[st2.view.set]{Transfers.shareTokN fullShare 29} f : sProp 𝕄)
        ∗ (st2.view.loc (c : Thread nD τ) ↦[st2.view.set]{Transfers.shareTokN fullShare 30} f : sProp 𝕄)) :=
  (Transfers.pointsTo_toks_split (ℓ := st2.view.loc (c : Thread nD τ)) (Ix := Unit) (Name := ℕ) (U := UU) (Lvl := ℕ)
      (S := st2.view.set) (f := f) fullShare 31).trans
    (sep_mono_right (Entails.of_eq (bigSep_univ_eq_bigSepL [0, 1, 2, 3, 4, 5, 6, 7, 8, 9, 10, 11, 12, 13, 14, 15, 16, 17, 18, 19, 20, 21, 22, 23, 24, 25, 26, 27, 28, 29, 30] (by decide) (by decide) _)))

theorem st2_join (c : Dev nD) (f : Buf (Elt F) (st2.view.loc (c : Thread nD τ))) :
    iprop((st2.view.loc (c : Thread nD τ) ↦[st2.view.set]{Transfers.shareDrop fullShare 31} f : sProp 𝕄)
        ∗ (st2.view.loc (c : Thread nD τ) ↦[st2.view.set]{Transfers.shareTokN fullShare 0} f : sProp 𝕄)
        ∗ (st2.view.loc (c : Thread nD τ) ↦[st2.view.set]{Transfers.shareTokN fullShare 1} f : sProp 𝕄)
        ∗ (st2.view.loc (c : Thread nD τ) ↦[st2.view.set]{Transfers.shareTokN fullShare 2} f : sProp 𝕄)
        ∗ (st2.view.loc (c : Thread nD τ) ↦[st2.view.set]{Transfers.shareTokN fullShare 3} f : sProp 𝕄)
        ∗ (st2.view.loc (c : Thread nD τ) ↦[st2.view.set]{Transfers.shareTokN fullShare 4} f : sProp 𝕄)
        ∗ (st2.view.loc (c : Thread nD τ) ↦[st2.view.set]{Transfers.shareTokN fullShare 5} f : sProp 𝕄)
        ∗ (st2.view.loc (c : Thread nD τ) ↦[st2.view.set]{Transfers.shareTokN fullShare 6} f : sProp 𝕄)
        ∗ (st2.view.loc (c : Thread nD τ) ↦[st2.view.set]{Transfers.shareTokN fullShare 7} f : sProp 𝕄)
        ∗ (st2.view.loc (c : Thread nD τ) ↦[st2.view.set]{Transfers.shareTokN fullShare 8} f : sProp 𝕄)
        ∗ (st2.view.loc (c : Thread nD τ) ↦[st2.view.set]{Transfers.shareTokN fullShare 9} f : sProp 𝕄)
        ∗ (st2.view.loc (c : Thread nD τ) ↦[st2.view.set]{Transfers.shareTokN fullShare 10} f : sProp 𝕄)
        ∗ (st2.view.loc (c : Thread nD τ) ↦[st2.view.set]{Transfers.shareTokN fullShare 11} f : sProp 𝕄)
        ∗ (st2.view.loc (c : Thread nD τ) ↦[st2.view.set]{Transfers.shareTokN fullShare 12} f : sProp 𝕄)
        ∗ (st2.view.loc (c : Thread nD τ) ↦[st2.view.set]{Transfers.shareTokN fullShare 13} f : sProp 𝕄)
        ∗ (st2.view.loc (c : Thread nD τ) ↦[st2.view.set]{Transfers.shareTokN fullShare 14} f : sProp 𝕄)
        ∗ (st2.view.loc (c : Thread nD τ) ↦[st2.view.set]{Transfers.shareTokN fullShare 15} f : sProp 𝕄)
        ∗ (st2.view.loc (c : Thread nD τ) ↦[st2.view.set]{Transfers.shareTokN fullShare 16} f : sProp 𝕄)
        ∗ (st2.view.loc (c : Thread nD τ) ↦[st2.view.set]{Transfers.shareTokN fullShare 17} f : sProp 𝕄)
        ∗ (st2.view.loc (c : Thread nD τ) ↦[st2.view.set]{Transfers.shareTokN fullShare 18} f : sProp 𝕄)
        ∗ (st2.view.loc (c : Thread nD τ) ↦[st2.view.set]{Transfers.shareTokN fullShare 19} f : sProp 𝕄)
        ∗ (st2.view.loc (c : Thread nD τ) ↦[st2.view.set]{Transfers.shareTokN fullShare 20} f : sProp 𝕄)
        ∗ (st2.view.loc (c : Thread nD τ) ↦[st2.view.set]{Transfers.shareTokN fullShare 21} f : sProp 𝕄)
        ∗ (st2.view.loc (c : Thread nD τ) ↦[st2.view.set]{Transfers.shareTokN fullShare 22} f : sProp 𝕄)
        ∗ (st2.view.loc (c : Thread nD τ) ↦[st2.view.set]{Transfers.shareTokN fullShare 23} f : sProp 𝕄)
        ∗ (st2.view.loc (c : Thread nD τ) ↦[st2.view.set]{Transfers.shareTokN fullShare 24} f : sProp 𝕄)
        ∗ (st2.view.loc (c : Thread nD τ) ↦[st2.view.set]{Transfers.shareTokN fullShare 25} f : sProp 𝕄)
        ∗ (st2.view.loc (c : Thread nD τ) ↦[st2.view.set]{Transfers.shareTokN fullShare 26} f : sProp 𝕄)
        ∗ (st2.view.loc (c : Thread nD τ) ↦[st2.view.set]{Transfers.shareTokN fullShare 27} f : sProp 𝕄)
        ∗ (st2.view.loc (c : Thread nD τ) ↦[st2.view.set]{Transfers.shareTokN fullShare 28} f : sProp 𝕄)
        ∗ (st2.view.loc (c : Thread nD τ) ↦[st2.view.set]{Transfers.shareTokN fullShare 29} f : sProp 𝕄)
        ∗ (st2.view.loc (c : Thread nD τ) ↦[st2.view.set]{Transfers.shareTokN fullShare 30} f : sProp 𝕄))
      ⊢ (st2.view.loc (c : Thread nD τ) ↦[st2.view.set]{fullShare} f : sProp 𝕄) :=
  (sep_mono_right (Entails.of_eq (bigSep_univ_eq_bigSepL [0, 1, 2, 3, 4, 5, 6, 7, 8, 9, 10, 11, 12, 13, 14, 15, 16, 17, 18, 19, 20, 21, 22, 23, 24, 25, 26, 27, 28, 29, 30] (by decide) (by decide) _).symm)).trans
    (Transfers.pointsTo_toks_join (ℓ := st2.view.loc (c : Thread nD τ)) (Ix := Unit) (Name := ℕ) (U := UU) (Lvl := ℕ)
      (S := st2.view.set) (f := f) fullShare 31)

end Cert.KernelIdealProto

end
-- ==== Proof.KernelIdealCutsRows.lean ====
import proofs.«900784_g7700000000000785_dist_f_of_ar_i_m512_n256_v7x_i32_bf16_1_alg».proof.Proof.KernelIdealCuts

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The narrowed block as its thirty-two blocks of sixteen rows

The narrowed block has 512 rows; rows `[16·b, 16·b + 16)` are its row block `b`. The device keeps its own row block
`c` and lends, at offset `k = 1 … 31`, the row block of the device `k` places after it, `(c + k) mod 32`: the program
computes that block's first row from the device's number, and the computation's value is `16 · ((c + k) mod 32)`.
As `k` runs over `0 … 31` the blocks `(c + k) mod 32` are all thirty-two, each once, so the own block and the
thirty-one lent ones are pairwise disjoint and cover the buffer. -/

theorem row_inb (b : Fin 32) : ∀ a, (![16 * b.val, 0] : Fin 2 → Nat) a + S16x256.size a ≤ S512x256.size a := by
  intro a; have := b.isLt; fin_cases a <;> simp [Shape.size] <;> omega

/-- Row block `b`'s rectangle. -/
abbrev rowR (b : Fin 32) : Rect S512x256 := Rect.unit (s := S512x256) ![16 * b.val, 0] S16x256.size (row_inb b)

theorem rowR_disjoint (b b' : Fin 32) (h : b ≠ b') : Disjoint (rowR b).set (rowR b').set :=
  Ring.lead_disjoint (s := S512x256) (NB := 32) 0 16 (fun b : Fin 32 => ![16 * b.val, 0]) S16x256.size row_inb
    (fun _ => rfl) rfl b b' h

theorem rowR_cover : Finset.univ.biUnion (fun b : Fin 32 => (rowR b).set) = Finset.univ :=
  Ring.lead_cover (s := S512x256) (NB := 32) 0 16 (fun b : Fin 32 => ![16 * b.val, 0]) S16x256.size row_inb
    (fun _ => rfl)
    (fun b a ha => by fin_cases a <;> first | exact absurd rfl ha | rfl) rfl
    (fun a ha => by fin_cases a <;> first | exact absurd rfl ha | rfl) (by decide)

/-- The row block of the device `k` places after `c`. -/
def ringB (c : Dev nD) (k : Fin 32) : Fin 32 := ⟨(c.val + k.val) % 32, Nat.mod_lt _ (by decide)⟩

theorem ringB_val (c : Dev nD) (k : Fin 32) : (ringB c k).val = (c.val + k.val) % 32 := rfl

theorem ringB_injective (c : Dev nD) : Function.Injective (ringB c) := by
  intro k k' h
  have h1 := congrArg Fin.val h
  simp only [ringB_val] at h1
  apply Fin.ext; have hc : c.val < 32 := c.isLt; have := k.isLt; have := k'.isLt; omega

theorem ringB_surjective (c : Dev nD) : Function.Surjective (ringB c) := by
  intro b
  refine ⟨⟨(b.val + 32 - c.val) % 32, Nat.mod_lt _ (by decide)⟩, ?_⟩
  apply Fin.ext; have hc : c.val < 32 := c.isLt; have := b.isLt; simp only [ringB_val]; omega

/-- The first row of the block lent at offset `1 + r`, as the program computes it from the device's number, and the
    column offset: checked case by case over the thirty-two devices and thirty-one offsets. -/
theorem off1_closed : ∀ d0 : Dev nD, ∀ r : Fin 31,
    k0_off1 d0 (BitVec.ofNat 32 (1 + r.val)) 0 = 16 * ((d0.val + (1 + r.val)) % 32)
      ∧ k0_off1 d0 (BitVec.ofNat 32 (1 + r.val)) 1 = 0 := by decide +kernel

theorem off1_eq (c : Dev nD) (k : ℕ) (hk : 1 ≤ k ∧ k ≤ 31) :
    k0_off1 c (BitVec.ofNat 32 k) = ![16 * ((c.val + k) % 32), 0] := by
  have h := off1_closed c ⟨k - 1, by omega⟩
  have e : 1 + (k - 1) = k := by omega
  simp only [e] at h
  funext a
  fin_cases a
  · exact h.1
  · exact h.2

/-- Slices through unit rectangles of the same sizes at equal offsets have the same elements. -/
theorem sliceSet_unit_congr {sp : Space} {s : Shape} {e : EltTy} (M : Memref sig .tc sp s e) {off off' size : Fin s.rank → Nat}
    (h : off = off') (p : ∀ a, off a + size a ≤ s.size a) (p' : ∀ a, off' a + size a ≤ s.size a) :
    sliceSet M (Rect.unit off size p) = sliceSet M (Rect.unit off' size p') := by
  subst h; rfl

/-- The device's own row block, as a memref. -/
abbrev ownM1 (c : Dev nD) : Memref sig .tc .vmem S16x256 .bf16 :=
  st1.slice (rowR ⟨c.val, c.isLt⟩) (fun _ => rfl)

/-- The own row block's elements, and those of the block lent at offset `k`, among the narrowed block's. -/
abbrev ownSet (c : Dev nD) : Finset (Idx (st1.view.loc (c : Thread nD τ))) := (ownM1 c).view.set
abbrev srcSet (c : Dev nD) (k : ℕ) (hk : 1 ≤ k ∧ k ≤ 31) : Finset (Idx (st1.view.loc (c : Thread nD τ))) :=
  (srcM1 c k hk).view.set

/-- The piece of the narrowed block at offset `k`: row block `(c + k) mod 32`. -/
def piece1 (c : Dev nD) (k : Fin 32) : Finset (Idx (st1.view.loc (c : Thread nD τ))) := sliceSet st1 (rowR (ringB c k))

/-- At offset 0 it is the device's own row block; -/
theorem own1_set (c : Dev nD) (h0 : 0 < 32) : piece1 c ⟨0, h0⟩ = ownSet c := by
  have hc : (c.val + 0) % 32 = c.val := by have : c.val < 32 := c.isLt; omega
  refine sliceSet_unit_congr st1 ?_ _ _
  show (![16 * ((c.val + 0) % 32), 0] : Fin 2 → Nat) = ![16 * c.val, 0]
  rw [hc]

/-- at offset `k = 1 … 31` the block the program lends there. -/
theorem src1_set (c : Dev nD) (k : ℕ) (hk : 1 ≤ k ∧ k ≤ 31) (hlt : k < 32) : piece1 c ⟨k, hlt⟩ = srcSet c k hk :=
  (sliceSet_unit_congr st1 (off1_eq c k hk) _ _).symm

theorem piece1_disjoint (c : Dev nD) (k k' : Fin 32) (h : k ≠ k') : Disjoint (piece1 c k) (piece1 c k') :=
  slices_disjoint st1 rowR rowR_disjoint _ _ (fun e => h (ringB_injective c e))

theorem piece1_cover (c : Dev nD) : Finset.univ.biUnion (piece1 c) = Finset.univ := by
  ext i
  simp only [Finset.mem_biUnion, Finset.mem_univ, true_and, iff_true]
  have hi : i ∈ Finset.univ.biUnion (fun b => sliceSet st1 (rowR b)) :=
    (slices_cover st1 (Memref.isWhole_whole _) rowR rowR_cover) ▸ Finset.mem_univ i
  obtain ⟨b, -, hb⟩ := Finset.mem_biUnion.mp hi
  obtain ⟨k, rfl⟩ := ringB_surjective c b
  exact ⟨k, hb⟩

/-- The offsets `0 … 31`, listed. -/
abbrev offs32 : List (Fin 32) := [⟨0, ho_0⟩, ⟨1, ho_1⟩, ⟨2, ho_2⟩, ⟨3, ho_3⟩, ⟨4, ho_4⟩, ⟨5, ho_5⟩, ⟨6, ho_6⟩, ⟨7, ho_7⟩, ⟨8, ho_8⟩, ⟨9, ho_9⟩, ⟨10, ho_10⟩, ⟨11, ho_11⟩, ⟨12, ho_12⟩, ⟨13, ho_13⟩, ⟨14, ho_14⟩, ⟨15, ho_15⟩, ⟨16, ho_16⟩, ⟨17, ho_17⟩, ⟨18, ho_18⟩, ⟨19, ho_19⟩, ⟨20, ho_20⟩, ⟨21, ho_21⟩, ⟨22, ho_22⟩, ⟨23, ho_23⟩, ⟨24, ho_24⟩, ⟨25, ho_25⟩, ⟨26, ho_26⟩, ⟨27, ho_27⟩, ⟨28, ho_28⟩, ⟨29, ho_29⟩, ⟨30, ho_30⟩, ⟨31, ho_31⟩]
theorem offs32_univ : (Finset.univ : Finset (Fin 32)) = offs32.toFinset := by decide
theorem offs32_nodup : offs32.Nodup := by decide

/-- The narrowed block at `f` is its thirty-two pieces at `f`, as an equation. -/
theorem st1_split_eq (c : Dev nD) (f : Buf (Elt F) (st1.view.loc (c : Thread nD τ))) :
    (st1.view.loc (c : Thread nD τ) ↦{fullShare} f : sProp 𝕄)
      = bigSep Finset.univ fun k : Fin 32 => (st1.view.loc (c : Thread nD τ) ↦[piece1 c k]{fullShare} f : sProp 𝕄) :=
  Ring.pointsTo_blocks (ℓ := st1.view.loc (c : Thread nD τ)) (Ix := Unit) (Name := ℕ) (U := UU) (Lvl := ℕ)
    (piece1 c) (piece1_disjoint c) (piece1_cover c) f

/-- Equal conjuncts give equal separating conjunctions. -/
theorem sep_congr {P P' Q Q' : sProp 𝕄} (h1 : P = P') (h2 : Q = Q') : iprop(P ∗ Q) = iprop(P' ∗ Q') := by rw [h1, h2]

theorem own1_pt (c : Dev nD) (f : Buf (Elt F) (st1.view.loc (c : Thread nD τ))) (h0 : 0 < 32) :
    (st1.view.loc (c : Thread nD τ) ↦[piece1 c ⟨0, h0⟩]{fullShare} f : sProp 𝕄)
      = ((ownM1 c).view.loc (c : Thread nD τ) ↦[(ownM1 c).view.set]{fullShare} f : sProp 𝕄) := by
  rw [own1_set c h0]

theorem src1_pt (c : Dev nD) (f : Buf (Elt F) (st1.view.loc (c : Thread nD τ))) (k : ℕ) (hk : 1 ≤ k ∧ k ≤ 31) (hlt : k < 32) :
    (st1.view.loc (c : Thread nD τ) ↦[piece1 c ⟨k, hlt⟩]{fullShare} f : sProp 𝕄)
      = ((srcM1 c k hk).view.loc (c : Thread nD τ) ↦[(srcM1 c k hk).view.set]{fullShare} f : sProp 𝕄) := by
  rw [src1_set c k hk hlt]

theorem own1_ex (c : Dev nD) (h0 : 0 < 32) :
    iprop(∃ g, (st1.view.loc (c : Thread nD τ) ↦[piece1 c ⟨0, h0⟩]{fullShare} g : sProp 𝕄))
      = iprop(∃ g, ((ownM1 c).view.loc (c : Thread nD τ) ↦[(ownM1 c).view.set]{fullShare} g : sProp 𝕄)) := by
  rw [own1_set c h0]

theorem src1_ex (c : Dev nD) (k : ℕ) (hk : 1 ≤ k ∧ k ≤ 31) (hlt : k < 32) :
    iprop(∃ g, (st1.view.loc (c : Thread nD τ) ↦[piece1 c ⟨k, hlt⟩]{fullShare} g : sProp 𝕄))
      = iprop(∃ g, ((srcM1 c k hk).view.loc (c : Thread nD τ) ↦[(srcM1 c k hk).view.set]{fullShare} g : sProp 𝕄)) := by
  rw [src1_set c k hk hlt]

/-- The pieces written out are the own row block and the thirty-one blocks lent, offset 1 first. -/
theorem st1_chain_eq (c : Dev nD) (f : Buf (Elt F) (st1.view.loc (c : Thread nD τ))) :
    bigSepL offs32 (fun k : Fin 32 => (st1.view.loc (c : Thread nD τ) ↦[piece1 c k]{fullShare} f : sProp 𝕄))
      = iprop(((ownM1 c).view.loc (c : Thread nD τ) ↦[(ownM1 c).view.set]{fullShare} f : sProp 𝕄)
        ∗ ((srcM1 c 1 hk_1).view.loc (c : Thread nD τ) ↦[(srcM1 c 1 hk_1).view.set]{fullShare} f : sProp 𝕄)
        ∗ ((srcM1 c 2 hk_2).view.loc (c : Thread nD τ) ↦[(srcM1 c 2 hk_2).view.set]{fullShare} f : sProp 𝕄)
        ∗ ((srcM1 c 3 hk_3).view.loc (c : Thread nD τ) ↦[(srcM1 c 3 hk_3).view.set]{fullShare} f : sProp 𝕄)
        ∗ ((srcM1 c 4 hk_4).view.loc (c : Thread nD τ) ↦[(srcM1 c 4 hk_4).view.set]{fullShare} f : sProp 𝕄)
        ∗ ((srcM1 c 5 hk_5).view.loc (c : Thread nD τ) ↦[(srcM1 c 5 hk_5).view.set]{fullShare} f : sProp 𝕄)
        ∗ ((srcM1 c 6 hk_6).view.loc (c : Thread nD τ) ↦[(srcM1 c 6 hk_6).view.set]{fullShare} f : sProp 𝕄)
        ∗ ((srcM1 c 7 hk_7).view.loc (c : Thread nD τ) ↦[(srcM1 c 7 hk_7).view.set]{fullShare} f : sProp 𝕄)
        ∗ ((srcM1 c 8 hk_8).view.loc (c : Thread nD τ) ↦[(srcM1 c 8 hk_8).view.set]{fullShare} f : sProp 𝕄)
        ∗ ((srcM1 c 9 hk_9).view.loc (c : Thread nD τ) ↦[(srcM1 c 9 hk_9).view.set]{fullShare} f : sProp 𝕄)
        ∗ ((srcM1 c 10 hk_10).view.loc (c : Thread nD τ) ↦[(srcM1 c 10 hk_10).view.set]{fullShare} f : sProp 𝕄)
        ∗ ((srcM1 c 11 hk_11).view.loc (c : Thread nD τ) ↦[(srcM1 c 11 hk_11).view.set]{fullShare} f : sProp 𝕄)
        ∗ ((srcM1 c 12 hk_12).view.loc (c : Thread nD τ) ↦[(srcM1 c 12 hk_12).view.set]{fullShare} f : sProp 𝕄)
        ∗ ((srcM1 c 13 hk_13).view.loc (c : Thread nD τ) ↦[(srcM1 c 13 hk_13).view.set]{fullShare} f : sProp 𝕄)
        ∗ ((srcM1 c 14 hk_14).view.loc (c : Thread nD τ) ↦[(srcM1 c 14 hk_14).view.set]{fullShare} f : sProp 𝕄)
        ∗ ((srcM1 c 15 hk_15).view.loc (c : Thread nD τ) ↦[(srcM1 c 15 hk_15).view.set]{fullShare} f : sProp 𝕄)
        ∗ ((srcM1 c 16 hk_16).view.loc (c : Thread nD τ) ↦[(srcM1 c 16 hk_16).view.set]{fullShare} f : sProp 𝕄)
        ∗ ((srcM1 c 17 hk_17).view.loc (c : Thread nD τ) ↦[(srcM1 c 17 hk_17).view.set]{fullShare} f : sProp 𝕄)
        ∗ ((srcM1 c 18 hk_18).view.loc (c : Thread nD τ) ↦[(srcM1 c 18 hk_18).view.set]{fullShare} f : sProp 𝕄)
        ∗ ((srcM1 c 19 hk_19).view.loc (c : Thread nD τ) ↦[(srcM1 c 19 hk_19).view.set]{fullShare} f : sProp 𝕄)
        ∗ ((srcM1 c 20 hk_20).view.loc (c : Thread nD τ) ↦[(srcM1 c 20 hk_20).view.set]{fullShare} f : sProp 𝕄)
        ∗ ((srcM1 c 21 hk_21).view.loc (c : Thread nD τ) ↦[(srcM1 c 21 hk_21).view.set]{fullShare} f : sProp 𝕄)
        ∗ ((srcM1 c 22 hk_22).view.loc (c : Thread nD τ) ↦[(srcM1 c 22 hk_22).view.set]{fullShare} f : sProp 𝕄)
        ∗ ((srcM1 c 23 hk_23).view.loc (c : Thread nD τ) ↦[(srcM1 c 23 hk_23).view.set]{fullShare} f : sProp 𝕄)
        ∗ ((srcM1 c 24 hk_24).view.loc (c : Thread nD τ) ↦[(srcM1 c 24 hk_24).view.set]{fullShare} f : sProp 𝕄)
        ∗ ((srcM1 c 25 hk_25).view.loc (c : Thread nD τ) ↦[(srcM1 c 25 hk_25).view.set]{fullShare} f : sProp 𝕄)
        ∗ ((srcM1 c 26 hk_26).view.loc (c : Thread nD τ) ↦[(srcM1 c 26 hk_26).view.set]{fullShare} f : sProp 𝕄)
        ∗ ((srcM1 c 27 hk_27).view.loc (c : Thread nD τ) ↦[(srcM1 c 27 hk_27).view.set]{fullShare} f : sProp 𝕄)
        ∗ ((srcM1 c 28 hk_28).view.loc (c : Thread nD τ) ↦[(srcM1 c 28 hk_28).view.set]{fullShare} f : sProp 𝕄)
        ∗ ((srcM1 c 29 hk_29).view.loc (c : Thread nD τ) ↦[(srcM1 c 29 hk_29).view.set]{fullShare} f : sProp 𝕄)
        ∗ ((srcM1 c 30 hk_30).view.loc (c : Thread nD τ) ↦[(srcM1 c 30 hk_30).view.set]{fullShare} f : sProp 𝕄)
        ∗ ((srcM1 c 31 hk_31).view.loc (c : Thread nD τ) ↦[(srcM1 c 31 hk_31).view.set]{fullShare} f : sProp 𝕄)) :=
  sep_congr (own1_pt c f ho_0) (sep_congr (src1_pt c f 1 hk_1 ho_1) (sep_congr (src1_pt c f 2 hk_2 ho_2) (sep_congr (src1_pt c f 3 hk_3 ho_3) (sep_congr (src1_pt c f 4 hk_4 ho_4) (sep_congr (src1_pt c f 5 hk_5 ho_5) (sep_congr (src1_pt c f 6 hk_6 ho_6) (sep_congr (src1_pt c f 7 hk_7 ho_7) (sep_congr (src1_pt c f 8 hk_8 ho_8) (sep_congr (src1_pt c f 9 hk_9 ho_9) (sep_congr (src1_pt c f 10 hk_10 ho_10) (sep_congr (src1_pt c f 11 hk_11 ho_11) (sep_congr (src1_pt c f 12 hk_12 ho_12) (sep_congr (src1_pt c f 13 hk_13 ho_13) (sep_congr (src1_pt c f 14 hk_14 ho_14) (sep_congr (src1_pt c f 15 hk_15 ho_15) (sep_congr (src1_pt c f 16 hk_16 ho_16) (sep_congr (src1_pt c f 17 hk_17 ho_17) (sep_congr (src1_pt c f 18 hk_18 ho_18) (sep_congr (src1_pt c f 19 hk_19 ho_19) (sep_congr (src1_pt c f 20 hk_20 ho_20) (sep_congr (src1_pt c f 21 hk_21 ho_21) (sep_congr (src1_pt c f 22 hk_22 ho_22) (sep_congr (src1_pt c f 23 hk_23 ho_23) (sep_congr (src1_pt c f 24 hk_24 ho_24) (sep_congr (src1_pt c f 25 hk_25 ho_25) (sep_congr (src1_pt c f 26 hk_26 ho_26) (sep_congr (src1_pt c f 27 hk_27 ho_27) (sep_congr (src1_pt c f 28 hk_28 ho_28) (sep_congr (src1_pt c f 29 hk_29 ho_29) (sep_congr (src1_pt c f 30 hk_30 ho_30) (src1_pt c f 31 hk_31 ho_31)))))))))))))))))))))))))))))))

/-- The same with each piece at some contents. -/
theorem st1_chain_ex_eq (c : Dev nD) :
    bigSepL offs32 (fun k : Fin 32 => iprop(∃ g, (st1.view.loc (c : Thread nD τ) ↦[piece1 c k]{fullShare} g : sProp 𝕄)))
      = iprop((∃ g, ((ownM1 c).view.loc (c : Thread nD τ) ↦[(ownM1 c).view.set]{fullShare} g : sProp 𝕄))
        ∗ (∃ g, ((srcM1 c 1 hk_1).view.loc (c : Thread nD τ) ↦[(srcM1 c 1 hk_1).view.set]{fullShare} g : sProp 𝕄))
        ∗ (∃ g, ((srcM1 c 2 hk_2).view.loc (c : Thread nD τ) ↦[(srcM1 c 2 hk_2).view.set]{fullShare} g : sProp 𝕄))
        ∗ (∃ g, ((srcM1 c 3 hk_3).view.loc (c : Thread nD τ) ↦[(srcM1 c 3 hk_3).view.set]{fullShare} g : sProp 𝕄))
        ∗ (∃ g, ((srcM1 c 4 hk_4).view.loc (c : Thread nD τ) ↦[(srcM1 c 4 hk_4).view.set]{fullShare} g : sProp 𝕄))
        ∗ (∃ g, ((srcM1 c 5 hk_5).view.loc (c : Thread nD τ) ↦[(srcM1 c 5 hk_5).view.set]{fullShare} g : sProp 𝕄))
        ∗ (∃ g, ((srcM1 c 6 hk_6).view.loc (c : Thread nD τ) ↦[(srcM1 c 6 hk_6).view.set]{fullShare} g : sProp 𝕄))
        ∗ (∃ g, ((srcM1 c 7 hk_7).view.loc (c : Thread nD τ) ↦[(srcM1 c 7 hk_7).view.set]{fullShare} g : sProp 𝕄))
        ∗ (∃ g, ((srcM1 c 8 hk_8).view.loc (c : Thread nD τ) ↦[(srcM1 c 8 hk_8).view.set]{fullShare} g : sProp 𝕄))
        ∗ (∃ g, ((srcM1 c 9 hk_9).view.loc (c : Thread nD τ) ↦[(srcM1 c 9 hk_9).view.set]{fullShare} g : sProp 𝕄))
        ∗ (∃ g, ((srcM1 c 10 hk_10).view.loc (c : Thread nD τ) ↦[(srcM1 c 10 hk_10).view.set]{fullShare} g : sProp 𝕄))
        ∗ (∃ g, ((srcM1 c 11 hk_11).view.loc (c : Thread nD τ) ↦[(srcM1 c 11 hk_11).view.set]{fullShare} g : sProp 𝕄))
        ∗ (∃ g, ((srcM1 c 12 hk_12).view.loc (c : Thread nD τ) ↦[(srcM1 c 12 hk_12).view.set]{fullShare} g : sProp 𝕄))
        ∗ (∃ g, ((srcM1 c 13 hk_13).view.loc (c : Thread nD τ) ↦[(srcM1 c 13 hk_13).view.set]{fullShare} g : sProp 𝕄))
        ∗ (∃ g, ((srcM1 c 14 hk_14).view.loc (c : Thread nD τ) ↦[(srcM1 c 14 hk_14).view.set]{fullShare} g : sProp 𝕄))
        ∗ (∃ g, ((srcM1 c 15 hk_15).view.loc (c : Thread nD τ) ↦[(srcM1 c 15 hk_15).view.set]{fullShare} g : sProp 𝕄))
        ∗ (∃ g, ((srcM1 c 16 hk_16).view.loc (c : Thread nD τ) ↦[(srcM1 c 16 hk_16).view.set]{fullShare} g : sProp 𝕄))
        ∗ (∃ g, ((srcM1 c 17 hk_17).view.loc (c : Thread nD τ) ↦[(srcM1 c 17 hk_17).view.set]{fullShare} g : sProp 𝕄))
        ∗ (∃ g, ((srcM1 c 18 hk_18).view.loc (c : Thread nD τ) ↦[(srcM1 c 18 hk_18).view.set]{fullShare} g : sProp 𝕄))
        ∗ (∃ g, ((srcM1 c 19 hk_19).view.loc (c : Thread nD τ) ↦[(srcM1 c 19 hk_19).view.set]{fullShare} g : sProp 𝕄))
        ∗ (∃ g, ((srcM1 c 20 hk_20).view.loc (c : Thread nD τ) ↦[(srcM1 c 20 hk_20).view.set]{fullShare} g : sProp 𝕄))
        ∗ (∃ g, ((srcM1 c 21 hk_21).view.loc (c : Thread nD τ) ↦[(srcM1 c 21 hk_21).view.set]{fullShare} g : sProp 𝕄))
        ∗ (∃ g, ((srcM1 c 22 hk_22).view.loc (c : Thread nD τ) ↦[(srcM1 c 22 hk_22).view.set]{fullShare} g : sProp 𝕄))
        ∗ (∃ g, ((srcM1 c 23 hk_23).view.loc (c : Thread nD τ) ↦[(srcM1 c 23 hk_23).view.set]{fullShare} g : sProp 𝕄))
        ∗ (∃ g, ((srcM1 c 24 hk_24).view.loc (c : Thread nD τ) ↦[(srcM1 c 24 hk_24).view.set]{fullShare} g : sProp 𝕄))
        ∗ (∃ g, ((srcM1 c 25 hk_25).view.loc (c : Thread nD τ) ↦[(srcM1 c 25 hk_25).view.set]{fullShare} g : sProp 𝕄))
        ∗ (∃ g, ((srcM1 c 26 hk_26).view.loc (c : Thread nD τ) ↦[(srcM1 c 26 hk_26).view.set]{fullShare} g : sProp 𝕄))
        ∗ (∃ g, ((srcM1 c 27 hk_27).view.loc (c : Thread nD τ) ↦[(srcM1 c 27 hk_27).view.set]{fullShare} g : sProp 𝕄))
        ∗ (∃ g, ((srcM1 c 28 hk_28).view.loc (c : Thread nD τ) ↦[(srcM1 c 28 hk_28).view.set]{fullShare} g : sProp 𝕄))
        ∗ (∃ g, ((srcM1 c 29 hk_29).view.loc (c : Thread nD τ) ↦[(srcM1 c 29 hk_29).view.set]{fullShare} g : sProp 𝕄))
        ∗ (∃ g, ((srcM1 c 30 hk_30).view.loc (c : Thread nD τ) ↦[(srcM1 c 30 hk_30).view.set]{fullShare} g : sProp 𝕄))
        ∗ (∃ g, ((srcM1 c 31 hk_31).view.loc (c : Thread nD τ) ↦[(srcM1 c 31 hk_31).view.set]{fullShare} g : sProp 𝕄))) :=
  sep_congr (own1_ex (F := F) c ho_0) (sep_congr (src1_ex (F := F) c 1 hk_1 ho_1) (sep_congr (src1_ex (F := F) c 2 hk_2 ho_2) (sep_congr (src1_ex (F := F) c 3 hk_3 ho_3) (sep_congr (src1_ex (F := F) c 4 hk_4 ho_4) (sep_congr (src1_ex (F := F) c 5 hk_5 ho_5) (sep_congr (src1_ex (F := F) c 6 hk_6 ho_6) (sep_congr (src1_ex (F := F) c 7 hk_7 ho_7) (sep_congr (src1_ex (F := F) c 8 hk_8 ho_8) (sep_congr (src1_ex (F := F) c 9 hk_9 ho_9) (sep_congr (src1_ex (F := F) c 10 hk_10 ho_10) (sep_congr (src1_ex (F := F) c 11 hk_11 ho_11) (sep_congr (src1_ex (F := F) c 12 hk_12 ho_12) (sep_congr (src1_ex (F := F) c 13 hk_13 ho_13) (sep_congr (src1_ex (F := F) c 14 hk_14 ho_14) (sep_congr (src1_ex (F := F) c 15 hk_15 ho_15) (sep_congr (src1_ex (F := F) c 16 hk_16 ho_16) (sep_congr (src1_ex (F := F) c 17 hk_17 ho_17) (sep_congr (src1_ex (F := F) c 18 hk_18 ho_18) (sep_congr (src1_ex (F := F) c 19 hk_19 ho_19) (sep_congr (src1_ex (F := F) c 20 hk_20 ho_20) (sep_congr (src1_ex (F := F) c 21 hk_21 ho_21) (sep_congr (src1_ex (F := F) c 22 hk_22 ho_22) (sep_congr (src1_ex (F := F) c 23 hk_23 ho_23) (sep_congr (src1_ex (F := F) c 24 hk_24 ho_24) (sep_congr (src1_ex (F := F) c 25 hk_25 ho_25) (sep_congr (src1_ex (F := F) c 26 hk_26 ho_26) (sep_congr (src1_ex (F := F) c 27 hk_27 ho_27) (sep_congr (src1_ex (F := F) c 28 hk_28 ho_28) (sep_congr (src1_ex (F := F) c 29 hk_29 ho_29) (sep_congr (src1_ex (F := F) c 30 hk_30 ho_30) (src1_ex (F := F) c 31 hk_31 ho_31)))))))))))))))))))))))))))))))

/-- The narrowed block held whole is the own row block and the thirty-one blocks lent, offset 1 first. -/
theorem st1_split (c : Dev nD) (f : Buf (Elt F) (st1.view.loc (c : Thread nD τ))) :
    (st1.view.loc (c : Thread nD τ) ↦{fullShare} f : sProp 𝕄)
      ⊢ iprop(((ownM1 c).view.loc (c : Thread nD τ) ↦[(ownM1 c).view.set]{fullShare} f : sProp 𝕄)
        ∗ ((srcM1 c 1 hk_1).view.loc (c : Thread nD τ) ↦[(srcM1 c 1 hk_1).view.set]{fullShare} f : sProp 𝕄)
        ∗ ((srcM1 c 2 hk_2).view.loc (c : Thread nD τ) ↦[(srcM1 c 2 hk_2).view.set]{fullShare} f : sProp 𝕄)
        ∗ ((srcM1 c 3 hk_3).view.loc (c : Thread nD τ) ↦[(srcM1 c 3 hk_3).view.set]{fullShare} f : sProp 𝕄)
        ∗ ((srcM1 c 4 hk_4).view.loc (c : Thread nD τ) ↦[(srcM1 c 4 hk_4).view.set]{fullShare} f : sProp 𝕄)
        ∗ ((srcM1 c 5 hk_5).view.loc (c : Thread nD τ) ↦[(srcM1 c 5 hk_5).view.set]{fullShare} f : sProp 𝕄)
        ∗ ((srcM1 c 6 hk_6).view.loc (c : Thread nD τ) ↦[(srcM1 c 6 hk_6).view.set]{fullShare} f : sProp 𝕄)
        ∗ ((srcM1 c 7 hk_7).view.loc (c : Thread nD τ) ↦[(srcM1 c 7 hk_7).view.set]{fullShare} f : sProp 𝕄)
        ∗ ((srcM1 c 8 hk_8).view.loc (c : Thread nD τ) ↦[(srcM1 c 8 hk_8).view.set]{fullShare} f : sProp 𝕄)
        ∗ ((srcM1 c 9 hk_9).view.loc (c : Thread nD τ) ↦[(srcM1 c 9 hk_9).view.set]{fullShare} f : sProp 𝕄)
        ∗ ((srcM1 c 10 hk_10).view.loc (c : Thread nD τ) ↦[(srcM1 c 10 hk_10).view.set]{fullShare} f : sProp 𝕄)
        ∗ ((srcM1 c 11 hk_11).view.loc (c : Thread nD τ) ↦[(srcM1 c 11 hk_11).view.set]{fullShare} f : sProp 𝕄)
        ∗ ((srcM1 c 12 hk_12).view.loc (c : Thread nD τ) ↦[(srcM1 c 12 hk_12).view.set]{fullShare} f : sProp 𝕄)
        ∗ ((srcM1 c 13 hk_13).view.loc (c : Thread nD τ) ↦[(srcM1 c 13 hk_13).view.set]{fullShare} f : sProp 𝕄)
        ∗ ((srcM1 c 14 hk_14).view.loc (c : Thread nD τ) ↦[(srcM1 c 14 hk_14).view.set]{fullShare} f : sProp 𝕄)
        ∗ ((srcM1 c 15 hk_15).view.loc (c : Thread nD τ) ↦[(srcM1 c 15 hk_15).view.set]{fullShare} f : sProp 𝕄)
        ∗ ((srcM1 c 16 hk_16).view.loc (c : Thread nD τ) ↦[(srcM1 c 16 hk_16).view.set]{fullShare} f : sProp 𝕄)
        ∗ ((srcM1 c 17 hk_17).view.loc (c : Thread nD τ) ↦[(srcM1 c 17 hk_17).view.set]{fullShare} f : sProp 𝕄)
        ∗ ((srcM1 c 18 hk_18).view.loc (c : Thread nD τ) ↦[(srcM1 c 18 hk_18).view.set]{fullShare} f : sProp 𝕄)
        ∗ ((srcM1 c 19 hk_19).view.loc (c : Thread nD τ) ↦[(srcM1 c 19 hk_19).view.set]{fullShare} f : sProp 𝕄)
        ∗ ((srcM1 c 20 hk_20).view.loc (c : Thread nD τ) ↦[(srcM1 c 20 hk_20).view.set]{fullShare} f : sProp 𝕄)
        ∗ ((srcM1 c 21 hk_21).view.loc (c : Thread nD τ) ↦[(srcM1 c 21 hk_21).view.set]{fullShare} f : sProp 𝕄)
        ∗ ((srcM1 c 22 hk_22).view.loc (c : Thread nD τ) ↦[(srcM1 c 22 hk_22).view.set]{fullShare} f : sProp 𝕄)
        ∗ ((srcM1 c 23 hk_23).view.loc (c : Thread nD τ) ↦[(srcM1 c 23 hk_23).view.set]{fullShare} f : sProp 𝕄)
        ∗ ((srcM1 c 24 hk_24).view.loc (c : Thread nD τ) ↦[(srcM1 c 24 hk_24).view.set]{fullShare} f : sProp 𝕄)
        ∗ ((srcM1 c 25 hk_25).view.loc (c : Thread nD τ) ↦[(srcM1 c 25 hk_25).view.set]{fullShare} f : sProp 𝕄)
        ∗ ((srcM1 c 26 hk_26).view.loc (c : Thread nD τ) ↦[(srcM1 c 26 hk_26).view.set]{fullShare} f : sProp 𝕄)
        ∗ ((srcM1 c 27 hk_27).view.loc (c : Thread nD τ) ↦[(srcM1 c 27 hk_27).view.set]{fullShare} f : sProp 𝕄)
        ∗ ((srcM1 c 28 hk_28).view.loc (c : Thread nD τ) ↦[(srcM1 c 28 hk_28).view.set]{fullShare} f : sProp 𝕄)
        ∗ ((srcM1 c 29 hk_29).view.loc (c : Thread nD τ) ↦[(srcM1 c 29 hk_29).view.set]{fullShare} f : sProp 𝕄)
        ∗ ((srcM1 c 30 hk_30).view.loc (c : Thread nD τ) ↦[(srcM1 c 30 hk_30).view.set]{fullShare} f : sProp 𝕄)
        ∗ ((srcM1 c 31 hk_31).view.loc (c : Thread nD τ) ↦[(srcM1 c 31 hk_31).view.set]{fullShare} f : sProp 𝕄)) :=
  Entails.of_eq ((st1_split_eq c f).trans ((bigSep_univ_eq_bigSepL offs32 offs32_univ offs32_nodup _).trans (st1_chain_eq c f)))

/-- The own row block and the thirty-one lent ones, each at some contents, are the narrowed block at some contents. -/
theorem st1_join (c : Dev nD) :
    iprop((∃ g, ((ownM1 c).view.loc (c : Thread nD τ) ↦[(ownM1 c).view.set]{fullShare} g : sProp 𝕄))
        ∗ (∃ g, ((srcM1 c 1 hk_1).view.loc (c : Thread nD τ) ↦[(srcM1 c 1 hk_1).view.set]{fullShare} g : sProp 𝕄))
        ∗ (∃ g, ((srcM1 c 2 hk_2).view.loc (c : Thread nD τ) ↦[(srcM1 c 2 hk_2).view.set]{fullShare} g : sProp 𝕄))
        ∗ (∃ g, ((srcM1 c 3 hk_3).view.loc (c : Thread nD τ) ↦[(srcM1 c 3 hk_3).view.set]{fullShare} g : sProp 𝕄))
        ∗ (∃ g, ((srcM1 c 4 hk_4).view.loc (c : Thread nD τ) ↦[(srcM1 c 4 hk_4).view.set]{fullShare} g : sProp 𝕄))
        ∗ (∃ g, ((srcM1 c 5 hk_5).view.loc (c : Thread nD τ) ↦[(srcM1 c 5 hk_5).view.set]{fullShare} g : sProp 𝕄))
        ∗ (∃ g, ((srcM1 c 6 hk_6).view.loc (c : Thread nD τ) ↦[(srcM1 c 6 hk_6).view.set]{fullShare} g : sProp 𝕄))
        ∗ (∃ g, ((srcM1 c 7 hk_7).view.loc (c : Thread nD τ) ↦[(srcM1 c 7 hk_7).view.set]{fullShare} g : sProp 𝕄))
        ∗ (∃ g, ((srcM1 c 8 hk_8).view.loc (c : Thread nD τ) ↦[(srcM1 c 8 hk_8).view.set]{fullShare} g : sProp 𝕄))
        ∗ (∃ g, ((srcM1 c 9 hk_9).view.loc (c : Thread nD τ) ↦[(srcM1 c 9 hk_9).view.set]{fullShare} g : sProp 𝕄))
        ∗ (∃ g, ((srcM1 c 10 hk_10).view.loc (c : Thread nD τ) ↦[(srcM1 c 10 hk_10).view.set]{fullShare} g : sProp 𝕄))
        ∗ (∃ g, ((srcM1 c 11 hk_11).view.loc (c : Thread nD τ) ↦[(srcM1 c 11 hk_11).view.set]{fullShare} g : sProp 𝕄))
        ∗ (∃ g, ((srcM1 c 12 hk_12).view.loc (c : Thread nD τ) ↦[(srcM1 c 12 hk_12).view.set]{fullShare} g : sProp 𝕄))
        ∗ (∃ g, ((srcM1 c 13 hk_13).view.loc (c : Thread nD τ) ↦[(srcM1 c 13 hk_13).view.set]{fullShare} g : sProp 𝕄))
        ∗ (∃ g, ((srcM1 c 14 hk_14).view.loc (c : Thread nD τ) ↦[(srcM1 c 14 hk_14).view.set]{fullShare} g : sProp 𝕄))
        ∗ (∃ g, ((srcM1 c 15 hk_15).view.loc (c : Thread nD τ) ↦[(srcM1 c 15 hk_15).view.set]{fullShare} g : sProp 𝕄))
        ∗ (∃ g, ((srcM1 c 16 hk_16).view.loc (c : Thread nD τ) ↦[(srcM1 c 16 hk_16).view.set]{fullShare} g : sProp 𝕄))
        ∗ (∃ g, ((srcM1 c 17 hk_17).view.loc (c : Thread nD τ) ↦[(srcM1 c 17 hk_17).view.set]{fullShare} g : sProp 𝕄))
        ∗ (∃ g, ((srcM1 c 18 hk_18).view.loc (c : Thread nD τ) ↦[(srcM1 c 18 hk_18).view.set]{fullShare} g : sProp 𝕄))
        ∗ (∃ g, ((srcM1 c 19 hk_19).view.loc (c : Thread nD τ) ↦[(srcM1 c 19 hk_19).view.set]{fullShare} g : sProp 𝕄))
        ∗ (∃ g, ((srcM1 c 20 hk_20).view.loc (c : Thread nD τ) ↦[(srcM1 c 20 hk_20).view.set]{fullShare} g : sProp 𝕄))
        ∗ (∃ g, ((srcM1 c 21 hk_21).view.loc (c : Thread nD τ) ↦[(srcM1 c 21 hk_21).view.set]{fullShare} g : sProp 𝕄))
        ∗ (∃ g, ((srcM1 c 22 hk_22).view.loc (c : Thread nD τ) ↦[(srcM1 c 22 hk_22).view.set]{fullShare} g : sProp 𝕄))
        ∗ (∃ g, ((srcM1 c 23 hk_23).view.loc (c : Thread nD τ) ↦[(srcM1 c 23 hk_23).view.set]{fullShare} g : sProp 𝕄))
        ∗ (∃ g, ((srcM1 c 24 hk_24).view.loc (c : Thread nD τ) ↦[(srcM1 c 24 hk_24).view.set]{fullShare} g : sProp 𝕄))
        ∗ (∃ g, ((srcM1 c 25 hk_25).view.loc (c : Thread nD τ) ↦[(srcM1 c 25 hk_25).view.set]{fullShare} g : sProp 𝕄))
        ∗ (∃ g, ((srcM1 c 26 hk_26).view.loc (c : Thread nD τ) ↦[(srcM1 c 26 hk_26).view.set]{fullShare} g : sProp 𝕄))
        ∗ (∃ g, ((srcM1 c 27 hk_27).view.loc (c : Thread nD τ) ↦[(srcM1 c 27 hk_27).view.set]{fullShare} g : sProp 𝕄))
        ∗ (∃ g, ((srcM1 c 28 hk_28).view.loc (c : Thread nD τ) ↦[(srcM1 c 28 hk_28).view.set]{fullShare} g : sProp 𝕄))
        ∗ (∃ g, ((srcM1 c 29 hk_29).view.loc (c : Thread nD τ) ↦[(srcM1 c 29 hk_29).view.set]{fullShare} g : sProp 𝕄))
        ∗ (∃ g, ((srcM1 c 30 hk_30).view.loc (c : Thread nD τ) ↦[(srcM1 c 30 hk_30).view.set]{fullShare} g : sProp 𝕄))
        ∗ (∃ g, ((srcM1 c 31 hk_31).view.loc (c : Thread nD τ) ↦[(srcM1 c 31 hk_31).view.set]{fullShare} g : sProp 𝕄)))
      ⊢ iprop(∃ g, (st1.view.loc (c : Thread nD τ) ↦{fullShare} g : sProp 𝕄)) :=
  (Entails.of_eq ((bigSep_univ_eq_bigSepL offs32 offs32_univ offs32_nodup _).trans (st1_chain_ex_eq (F := F) c)).symm).trans
    (Ring.pointsTo_blocks_join_exists (ℓ := st1.view.loc (c : Thread nD τ)) (Ix := Unit) (Name := ℕ) (U := UU) (Lvl := ℕ)
      (q := fullShare) (piece1 c) (piece1_disjoint c) (piece1_cover c) (st1.view.junk (Val := Elt F)))

/-- info: 'Cert.KernelIdealProto.cm_split_chain' depends on axioms: [propext, Classical.choice, Quot.sound] -/
#guard_msgs in #print axioms cm_split_chain

/-- info: 'Cert.KernelIdealProto.cm_join_chain' depends on axioms: [propext, Classical.choice, Quot.sound] -/
#guard_msgs in #print axioms cm_join_chain

/-- info: 'Cert.KernelIdealProto.st2_split' depends on axioms: [propext, Classical.choice, Quot.sound] -/
#guard_msgs in #print axioms st2_split

/-- info: 'Cert.KernelIdealProto.st2_join' depends on axioms: [propext, Classical.choice, Quot.sound] -/
#guard_msgs in #print axioms st2_join

/-- info: 'Cert.KernelIdealProto.st1_split' depends on axioms: [propext, Classical.choice, Quot.sound] -/
#guard_msgs in #print axioms st1_split

/-- info: 'Cert.KernelIdealProto.st1_join' depends on axioms: [propext, Classical.choice, Quot.sound] -/
#guard_msgs in #print axioms st1_join

end Cert.KernelIdealProto

end
-- ==== Proof.KernelIdealBodyDefs.lean ====
import proofs.«900784_g7700000000000785_dist_f_of_ar_i_m512_n256_v7x_i32_bf16_1_alg».proof.Proof.KernelIdealCutsRows

/-!
# The kernel body's starting state, laid out offset by offset

What a device holds when its kernel starts, grouped by the offset `k = 1 … 31` at which it is used: the resources of
the barrier signal at offset `k` (its token and the two landing slots `32 - k` it hands over), and the resources of
the two exchanges at offset `k` (the four tokens it pays with, its positions and credit on its own four cells, the
output copy's semaphore). A group not in use is `Held`: kept, not looked into.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A resource set aside: held, not looked into. -/
def Held (P : sProp 𝕄) : sProp 𝕄 := P
omit [FloatOps F] in
theorem held_eq (P : sProp 𝕄) : Held P = P := rfl
omit [FloatOps F] in
theorem held_intro (P : sProp 𝕄) : P ⊢ Held P := Entails.of_eq (held_eq P).symm
omit [FloatOps F] in
theorem held_elim (P : sProp 𝕄) : Held P ⊢ P := Entails.of_eq (held_eq P)
attribute [irreducible] Held

/-- What a device owes at launch, summand by summand: the second exchange's receive credits, then the first's, then the
    barrier units, each from offset 31 down to 1 (the kernel pays them from the right). -/
abbrev owed93 (c : Dev nD) : CellTallies nD τ sig Unit := tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX + tallyAt (r1Cell (rot c 31) 31 ho_31) () NX + tallyAt (r1Cell (rot c 30) 30 ho_30) () NX + tallyAt (r1Cell (rot c 29) 29 ho_29) () NX + tallyAt (r1Cell (rot c 28) 28 ho_28) () NX + tallyAt (r1Cell (rot c 27) 27 ho_27) () NX + tallyAt (r1Cell (rot c 26) 26 ho_26) () NX + tallyAt (r1Cell (rot c 25) 25 ho_25) () NX + tallyAt (r1Cell (rot c 24) 24 ho_24) () NX + tallyAt (r1Cell (rot c 23) 23 ho_23) () NX + tallyAt (r1Cell (rot c 22) 22 ho_22) () NX + tallyAt (r1Cell (rot c 21) 21 ho_21) () NX + tallyAt (r1Cell (rot c 20) 20 ho_20) () NX + tallyAt (r1Cell (rot c 19) 19 ho_19) () NX + tallyAt (r1Cell (rot c 18) 18 ho_18) () NX + tallyAt (r1Cell (rot c 17) 17 ho_17) () NX + tallyAt (r1Cell (rot c 16) 16 ho_16) () NX + tallyAt (r1Cell (rot c 15) 15 ho_15) () NX + tallyAt (r1Cell (rot c 14) 14 ho_14) () NX + tallyAt (r1Cell (rot c 13) 13 ho_13) () NX + tallyAt (r1Cell (rot c 12) 12 ho_12) () NX + tallyAt (r1Cell (rot c 11) 11 ho_11) () NX + tallyAt (r1Cell (rot c 10) 10 ho_10) () NX + tallyAt (r1Cell (rot c 9) 9 ho_9) () NX + tallyAt (r1Cell (rot c 8) 8 ho_8) () NX + tallyAt (r1Cell (rot c 7) 7 ho_7) () NX + tallyAt (r1Cell (rot c 6) 6 ho_6) () NX + tallyAt (r1Cell (rot c 5) 5 ho_5) () NX + tallyAt (r1Cell (rot c 4) 4 ho_4) () NX + tallyAt (r1Cell (rot c 3) 3 ho_3) () NX + tallyAt (r1Cell (rot c 2) 2 ho_2) () NX + tallyAt (r1Cell (rot c 1) 1 ho_1) () NX + tallyAt (barCell (rot c 31)) () 1 + tallyAt (barCell (rot c 30)) () 1 + tallyAt (barCell (rot c 29)) () 1 + tallyAt (barCell (rot c 28)) () 1 + tallyAt (barCell (rot c 27)) () 1 + tallyAt (barCell (rot c 26)) () 1 + tallyAt (barCell (rot c 25)) () 1 + tallyAt (barCell (rot c 24)) () 1 + tallyAt (barCell (rot c 23)) () 1 + tallyAt (barCell (rot c 22)) () 1 + tallyAt (barCell (rot c 21)) () 1 + tallyAt (barCell (rot c 20)) () 1 + tallyAt (barCell (rot c 19)) () 1 + tallyAt (barCell (rot c 18)) () 1 + tallyAt (barCell (rot c 17)) () 1 + tallyAt (barCell (rot c 16)) () 1 + tallyAt (barCell (rot c 15)) () 1 + tallyAt (barCell (rot c 14)) () 1 + tallyAt (barCell (rot c 13)) () 1 + tallyAt (barCell (rot c 12)) () 1 + tallyAt (barCell (rot c 11)) () 1 + tallyAt (barCell (rot c 10)) () 1 + tallyAt (barCell (rot c 9)) () 1 + tallyAt (barCell (rot c 8)) () 1 + tallyAt (barCell (rot c 7)) () 1 + tallyAt (barCell (rot c 6)) () 1 + tallyAt (barCell (rot c 5)) () 1 + tallyAt (barCell (rot c 4)) () 1 + tallyAt (barCell (rot c 3)) () 1 + tallyAt (barCell (rot c 2)) () 1 + tallyAt (barCell (rot c 1)) () 1
abbrev owed62 (c : Dev nD) : CellTallies nD τ sig Unit := tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX + tallyAt (r1Cell (rot c 31) 31 ho_31) () NX + tallyAt (r1Cell (rot c 30) 30 ho_30) () NX + tallyAt (r1Cell (rot c 29) 29 ho_29) () NX + tallyAt (r1Cell (rot c 28) 28 ho_28) () NX + tallyAt (r1Cell (rot c 27) 27 ho_27) () NX + tallyAt (r1Cell (rot c 26) 26 ho_26) () NX + tallyAt (r1Cell (rot c 25) 25 ho_25) () NX + tallyAt (r1Cell (rot c 24) 24 ho_24) () NX + tallyAt (r1Cell (rot c 23) 23 ho_23) () NX + tallyAt (r1Cell (rot c 22) 22 ho_22) () NX + tallyAt (r1Cell (rot c 21) 21 ho_21) () NX + tallyAt (r1Cell (rot c 20) 20 ho_20) () NX + tallyAt (r1Cell (rot c 19) 19 ho_19) () NX + tallyAt (r1Cell (rot c 18) 18 ho_18) () NX + tallyAt (r1Cell (rot c 17) 17 ho_17) () NX + tallyAt (r1Cell (rot c 16) 16 ho_16) () NX + tallyAt (r1Cell (rot c 15) 15 ho_15) () NX + tallyAt (r1Cell (rot c 14) 14 ho_14) () NX + tallyAt (r1Cell (rot c 13) 13 ho_13) () NX + tallyAt (r1Cell (rot c 12) 12 ho_12) () NX + tallyAt (r1Cell (rot c 11) 11 ho_11) () NX + tallyAt (r1Cell (rot c 10) 10 ho_10) () NX + tallyAt (r1Cell (rot c 9) 9 ho_9) () NX + tallyAt (r1Cell (rot c 8) 8 ho_8) () NX + tallyAt (r1Cell (rot c 7) 7 ho_7) () NX + tallyAt (r1Cell (rot c 6) 6 ho_6) () NX + tallyAt (r1Cell (rot c 5) 5 ho_5) () NX + tallyAt (r1Cell (rot c 4) 4 ho_4) () NX + tallyAt (r1Cell (rot c 3) 3 ho_3) () NX + tallyAt (r1Cell (rot c 2) 2 ho_2) () NX + tallyAt (r1Cell (rot c 1) 1 ho_1) () NX
abbrev owed31 (c : Dev nD) : CellTallies nD τ sig Unit := tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX

section Start
variable (S1c : (c : Dev nD) → Buf (Elt F) (st1.view.loc (c : Thread nD τ)))
variable (Y2c : (c : Dev nD) → Buf (Elt F) (st2.view.loc (c : Thread nD τ)))
variable (c : Dev nD) (g1 : Buf (Elt F) (cm1.view.loc (c : Thread nD τ))) (g2 : Buf (Elt F) (cm2.view.loc (c : Thread nD τ)))

/-- the barrier signal at offset `k`: its token and the two landing slots `32 - k` -/
abbrev sigRes_1 : sProp 𝕄 := iprop(dutyTok ER (barCell (rot c 1)) 0 1 ∗ ((slotM cm1 31 ho_31).view.loc (c : Thread nD τ) ↦[(slotM cm1 31 ho_31).view.set]{fullShare} g1) ∗ ((slotM cm2 31 ho_31).view.loc (c : Thread nD τ) ↦[(slotM cm2 31 ho_31).view.set]{fullShare} g2))
abbrev sigRes_2 : sProp 𝕄 := iprop(dutyTok ER (barCell (rot c 2)) 0 2 ∗ ((slotM cm1 30 ho_30).view.loc (c : Thread nD τ) ↦[(slotM cm1 30 ho_30).view.set]{fullShare} g1) ∗ ((slotM cm2 30 ho_30).view.loc (c : Thread nD τ) ↦[(slotM cm2 30 ho_30).view.set]{fullShare} g2))
abbrev sigRes_3 : sProp 𝕄 := iprop(dutyTok ER (barCell (rot c 3)) 0 3 ∗ ((slotM cm1 29 ho_29).view.loc (c : Thread nD τ) ↦[(slotM cm1 29 ho_29).view.set]{fullShare} g1) ∗ ((slotM cm2 29 ho_29).view.loc (c : Thread nD τ) ↦[(slotM cm2 29 ho_29).view.set]{fullShare} g2))
abbrev sigRes_4 : sProp 𝕄 := iprop(dutyTok ER (barCell (rot c 4)) 0 4 ∗ ((slotM cm1 28 ho_28).view.loc (c : Thread nD τ) ↦[(slotM cm1 28 ho_28).view.set]{fullShare} g1) ∗ ((slotM cm2 28 ho_28).view.loc (c : Thread nD τ) ↦[(slotM cm2 28 ho_28).view.set]{fullShare} g2))
abbrev sigRes_5 : sProp 𝕄 := iprop(dutyTok ER (barCell (rot c 5)) 0 5 ∗ ((slotM cm1 27 ho_27).view.loc (c : Thread nD τ) ↦[(slotM cm1 27 ho_27).view.set]{fullShare} g1) ∗ ((slotM cm2 27 ho_27).view.loc (c : Thread nD τ) ↦[(slotM cm2 27 ho_27).view.set]{fullShare} g2))
abbrev sigRes_6 : sProp 𝕄 := iprop(dutyTok ER (barCell (rot c 6)) 0 6 ∗ ((slotM cm1 26 ho_26).view.loc (c : Thread nD τ) ↦[(slotM cm1 26 ho_26).view.set]{fullShare} g1) ∗ ((slotM cm2 26 ho_26).view.loc (c : Thread nD τ) ↦[(slotM cm2 26 ho_26).view.set]{fullShare} g2))
abbrev sigRes_7 : sProp 𝕄 := iprop(dutyTok ER (barCell (rot c 7)) 0 7 ∗ ((slotM cm1 25 ho_25).view.loc (c : Thread nD τ) ↦[(slotM cm1 25 ho_25).view.set]{fullShare} g1) ∗ ((slotM cm2 25 ho_25).view.loc (c : Thread nD τ) ↦[(slotM cm2 25 ho_25).view.set]{fullShare} g2))
abbrev sigRes_8 : sProp 𝕄 := iprop(dutyTok ER (barCell (rot c 8)) 0 8 ∗ ((slotM cm1 24 ho_24).view.loc (c : Thread nD τ) ↦[(slotM cm1 24 ho_24).view.set]{fullShare} g1) ∗ ((slotM cm2 24 ho_24).view.loc (c : Thread nD τ) ↦[(slotM cm2 24 ho_24).view.set]{fullShare} g2))
abbrev sigRes_9 : sProp 𝕄 := iprop(dutyTok ER (barCell (rot c 9)) 0 9 ∗ ((slotM cm1 23 ho_23).view.loc (c : Thread nD τ) ↦[(slotM cm1 23 ho_23).view.set]{fullShare} g1) ∗ ((slotM cm2 23 ho_23).view.loc (c : Thread nD τ) ↦[(slotM cm2 23 ho_23).view.set]{fullShare} g2))
abbrev sigRes_10 : sProp 𝕄 := iprop(dutyTok ER (barCell (rot c 10)) 0 10 ∗ ((slotM cm1 22 ho_22).view.loc (c : Thread nD τ) ↦[(slotM cm1 22 ho_22).view.set]{fullShare} g1) ∗ ((slotM cm2 22 ho_22).view.loc (c : Thread nD τ) ↦[(slotM cm2 22 ho_22).view.set]{fullShare} g2))
abbrev sigRes_11 : sProp 𝕄 := iprop(dutyTok ER (barCell (rot c 11)) 0 11 ∗ ((slotM cm1 21 ho_21).view.loc (c : Thread nD τ) ↦[(slotM cm1 21 ho_21).view.set]{fullShare} g1) ∗ ((slotM cm2 21 ho_21).view.loc (c : Thread nD τ) ↦[(slotM cm2 21 ho_21).view.set]{fullShare} g2))
abbrev sigRes_12 : sProp 𝕄 := iprop(dutyTok ER (barCell (rot c 12)) 0 12 ∗ ((slotM cm1 20 ho_20).view.loc (c : Thread nD τ) ↦[(slotM cm1 20 ho_20).view.set]{fullShare} g1) ∗ ((slotM cm2 20 ho_20).view.loc (c : Thread nD τ) ↦[(slotM cm2 20 ho_20).view.set]{fullShare} g2))
abbrev sigRes_13 : sProp 𝕄 := iprop(dutyTok ER (barCell (rot c 13)) 0 13 ∗ ((slotM cm1 19 ho_19).view.loc (c : Thread nD τ) ↦[(slotM cm1 19 ho_19).view.set]{fullShare} g1) ∗ ((slotM cm2 19 ho_19).view.loc (c : Thread nD τ) ↦[(slotM cm2 19 ho_19).view.set]{fullShare} g2))
abbrev sigRes_14 : sProp 𝕄 := iprop(dutyTok ER (barCell (rot c 14)) 0 14 ∗ ((slotM cm1 18 ho_18).view.loc (c : Thread nD τ) ↦[(slotM cm1 18 ho_18).view.set]{fullShare} g1) ∗ ((slotM cm2 18 ho_18).view.loc (c : Thread nD τ) ↦[(slotM cm2 18 ho_18).view.set]{fullShare} g2))
abbrev sigRes_15 : sProp 𝕄 := iprop(dutyTok ER (barCell (rot c 15)) 0 15 ∗ ((slotM cm1 17 ho_17).view.loc (c : Thread nD τ) ↦[(slotM cm1 17 ho_17).view.set]{fullShare} g1) ∗ ((slotM cm2 17 ho_17).view.loc (c : Thread nD τ) ↦[(slotM cm2 17 ho_17).view.set]{fullShare} g2))
abbrev sigRes_16 : sProp 𝕄 := iprop(dutyTok ER (barCell (rot c 16)) 0 16 ∗ ((slotM cm1 16 ho_16).view.loc (c : Thread nD τ) ↦[(slotM cm1 16 ho_16).view.set]{fullShare} g1) ∗ ((slotM cm2 16 ho_16).view.loc (c : Thread nD τ) ↦[(slotM cm2 16 ho_16).view.set]{fullShare} g2))
abbrev sigRes_17 : sProp 𝕄 := iprop(dutyTok ER (barCell (rot c 17)) 0 17 ∗ ((slotM cm1 15 ho_15).view.loc (c : Thread nD τ) ↦[(slotM cm1 15 ho_15).view.set]{fullShare} g1) ∗ ((slotM cm2 15 ho_15).view.loc (c : Thread nD τ) ↦[(slotM cm2 15 ho_15).view.set]{fullShare} g2))
abbrev sigRes_18 : sProp 𝕄 := iprop(dutyTok ER (barCell (rot c 18)) 0 18 ∗ ((slotM cm1 14 ho_14).view.loc (c : Thread nD τ) ↦[(slotM cm1 14 ho_14).view.set]{fullShare} g1) ∗ ((slotM cm2 14 ho_14).view.loc (c : Thread nD τ) ↦[(slotM cm2 14 ho_14).view.set]{fullShare} g2))
abbrev sigRes_19 : sProp 𝕄 := iprop(dutyTok ER (barCell (rot c 19)) 0 19 ∗ ((slotM cm1 13 ho_13).view.loc (c : Thread nD τ) ↦[(slotM cm1 13 ho_13).view.set]{fullShare} g1) ∗ ((slotM cm2 13 ho_13).view.loc (c : Thread nD τ) ↦[(slotM cm2 13 ho_13).view.set]{fullShare} g2))
abbrev sigRes_20 : sProp 𝕄 := iprop(dutyTok ER (barCell (rot c 20)) 0 20 ∗ ((slotM cm1 12 ho_12).view.loc (c : Thread nD τ) ↦[(slotM cm1 12 ho_12).view.set]{fullShare} g1) ∗ ((slotM cm2 12 ho_12).view.loc (c : Thread nD τ) ↦[(slotM cm2 12 ho_12).view.set]{fullShare} g2))
abbrev sigRes_21 : sProp 𝕄 := iprop(dutyTok ER (barCell (rot c 21)) 0 21 ∗ ((slotM cm1 11 ho_11).view.loc (c : Thread nD τ) ↦[(slotM cm1 11 ho_11).view.set]{fullShare} g1) ∗ ((slotM cm2 11 ho_11).view.loc (c : Thread nD τ) ↦[(slotM cm2 11 ho_11).view.set]{fullShare} g2))
abbrev sigRes_22 : sProp 𝕄 := iprop(dutyTok ER (barCell (rot c 22)) 0 22 ∗ ((slotM cm1 10 ho_10).view.loc (c : Thread nD τ) ↦[(slotM cm1 10 ho_10).view.set]{fullShare} g1) ∗ ((slotM cm2 10 ho_10).view.loc (c : Thread nD τ) ↦[(slotM cm2 10 ho_10).view.set]{fullShare} g2))
abbrev sigRes_23 : sProp 𝕄 := iprop(dutyTok ER (barCell (rot c 23)) 0 23 ∗ ((slotM cm1 9 ho_9).view.loc (c : Thread nD τ) ↦[(slotM cm1 9 ho_9).view.set]{fullShare} g1) ∗ ((slotM cm2 9 ho_9).view.loc (c : Thread nD τ) ↦[(slotM cm2 9 ho_9).view.set]{fullShare} g2))
abbrev sigRes_24 : sProp 𝕄 := iprop(dutyTok ER (barCell (rot c 24)) 0 24 ∗ ((slotM cm1 8 ho_8).view.loc (c : Thread nD τ) ↦[(slotM cm1 8 ho_8).view.set]{fullShare} g1) ∗ ((slotM cm2 8 ho_8).view.loc (c : Thread nD τ) ↦[(slotM cm2 8 ho_8).view.set]{fullShare} g2))
abbrev sigRes_25 : sProp 𝕄 := iprop(dutyTok ER (barCell (rot c 25)) 0 25 ∗ ((slotM cm1 7 ho_7).view.loc (c : Thread nD τ) ↦[(slotM cm1 7 ho_7).view.set]{fullShare} g1) ∗ ((slotM cm2 7 ho_7).view.loc (c : Thread nD τ) ↦[(slotM cm2 7 ho_7).view.set]{fullShare} g2))
abbrev sigRes_26 : sProp 𝕄 := iprop(dutyTok ER (barCell (rot c 26)) 0 26 ∗ ((slotM cm1 6 ho_6).view.loc (c : Thread nD τ) ↦[(slotM cm1 6 ho_6).view.set]{fullShare} g1) ∗ ((slotM cm2 6 ho_6).view.loc (c : Thread nD τ) ↦[(slotM cm2 6 ho_6).view.set]{fullShare} g2))
abbrev sigRes_27 : sProp 𝕄 := iprop(dutyTok ER (barCell (rot c 27)) 0 27 ∗ ((slotM cm1 5 ho_5).view.loc (c : Thread nD τ) ↦[(slotM cm1 5 ho_5).view.set]{fullShare} g1) ∗ ((slotM cm2 5 ho_5).view.loc (c : Thread nD τ) ↦[(slotM cm2 5 ho_5).view.set]{fullShare} g2))
abbrev sigRes_28 : sProp 𝕄 := iprop(dutyTok ER (barCell (rot c 28)) 0 28 ∗ ((slotM cm1 4 ho_4).view.loc (c : Thread nD τ) ↦[(slotM cm1 4 ho_4).view.set]{fullShare} g1) ∗ ((slotM cm2 4 ho_4).view.loc (c : Thread nD τ) ↦[(slotM cm2 4 ho_4).view.set]{fullShare} g2))
abbrev sigRes_29 : sProp 𝕄 := iprop(dutyTok ER (barCell (rot c 29)) 0 29 ∗ ((slotM cm1 3 ho_3).view.loc (c : Thread nD τ) ↦[(slotM cm1 3 ho_3).view.set]{fullShare} g1) ∗ ((slotM cm2 3 ho_3).view.loc (c : Thread nD τ) ↦[(slotM cm2 3 ho_3).view.set]{fullShare} g2))
abbrev sigRes_30 : sProp 𝕄 := iprop(dutyTok ER (barCell (rot c 30)) 0 30 ∗ ((slotM cm1 2 ho_2).view.loc (c : Thread nD τ) ↦[(slotM cm1 2 ho_2).view.set]{fullShare} g1) ∗ ((slotM cm2 2 ho_2).view.loc (c : Thread nD τ) ↦[(slotM cm2 2 ho_2).view.set]{fullShare} g2))
abbrev sigRes_31 : sProp 𝕄 := iprop(dutyTok ER (barCell (rot c 31)) 0 31 ∗ ((slotM cm1 1 ho_1).view.loc (c : Thread nD τ) ↦[(slotM cm1 1 ho_1).view.set]{fullShare} g1) ∗ ((slotM cm2 1 ho_1).view.loc (c : Thread nD τ) ↦[(slotM cm2 1 ho_1).view.set]{fullShare} g2))
/-- the first exchange's transfer at offset `k`: the tokens of its send and receive duties -/
abbrev bRes_1 : sProp 𝕄 := iprop(dutyTok ER (s1Cell c 1 ho_1) 0 0 ∗ dutyTok ER (r1Cell (rot c 1) 1 ho_1) 0 0)
abbrev bRes_2 : sProp 𝕄 := iprop(dutyTok ER (s1Cell c 2 ho_2) 0 0 ∗ dutyTok ER (r1Cell (rot c 2) 2 ho_2) 0 0)
abbrev bRes_3 : sProp 𝕄 := iprop(dutyTok ER (s1Cell c 3 ho_3) 0 0 ∗ dutyTok ER (r1Cell (rot c 3) 3 ho_3) 0 0)
abbrev bRes_4 : sProp 𝕄 := iprop(dutyTok ER (s1Cell c 4 ho_4) 0 0 ∗ dutyTok ER (r1Cell (rot c 4) 4 ho_4) 0 0)
abbrev bRes_5 : sProp 𝕄 := iprop(dutyTok ER (s1Cell c 5 ho_5) 0 0 ∗ dutyTok ER (r1Cell (rot c 5) 5 ho_5) 0 0)
abbrev bRes_6 : sProp 𝕄 := iprop(dutyTok ER (s1Cell c 6 ho_6) 0 0 ∗ dutyTok ER (r1Cell (rot c 6) 6 ho_6) 0 0)
abbrev bRes_7 : sProp 𝕄 := iprop(dutyTok ER (s1Cell c 7 ho_7) 0 0 ∗ dutyTok ER (r1Cell (rot c 7) 7 ho_7) 0 0)
abbrev bRes_8 : sProp 𝕄 := iprop(dutyTok ER (s1Cell c 8 ho_8) 0 0 ∗ dutyTok ER (r1Cell (rot c 8) 8 ho_8) 0 0)
abbrev bRes_9 : sProp 𝕄 := iprop(dutyTok ER (s1Cell c 9 ho_9) 0 0 ∗ dutyTok ER (r1Cell (rot c 9) 9 ho_9) 0 0)
abbrev bRes_10 : sProp 𝕄 := iprop(dutyTok ER (s1Cell c 10 ho_10) 0 0 ∗ dutyTok ER (r1Cell (rot c 10) 10 ho_10) 0 0)
abbrev bRes_11 : sProp 𝕄 := iprop(dutyTok ER (s1Cell c 11 ho_11) 0 0 ∗ dutyTok ER (r1Cell (rot c 11) 11 ho_11) 0 0)
abbrev bRes_12 : sProp 𝕄 := iprop(dutyTok ER (s1Cell c 12 ho_12) 0 0 ∗ dutyTok ER (r1Cell (rot c 12) 12 ho_12) 0 0)
abbrev bRes_13 : sProp 𝕄 := iprop(dutyTok ER (s1Cell c 13 ho_13) 0 0 ∗ dutyTok ER (r1Cell (rot c 13) 13 ho_13) 0 0)
abbrev bRes_14 : sProp 𝕄 := iprop(dutyTok ER (s1Cell c 14 ho_14) 0 0 ∗ dutyTok ER (r1Cell (rot c 14) 14 ho_14) 0 0)
abbrev bRes_15 : sProp 𝕄 := iprop(dutyTok ER (s1Cell c 15 ho_15) 0 0 ∗ dutyTok ER (r1Cell (rot c 15) 15 ho_15) 0 0)
abbrev bRes_16 : sProp 𝕄 := iprop(dutyTok ER (s1Cell c 16 ho_16) 0 0 ∗ dutyTok ER (r1Cell (rot c 16) 16 ho_16) 0 0)
abbrev bRes_17 : sProp 𝕄 := iprop(dutyTok ER (s1Cell c 17 ho_17) 0 0 ∗ dutyTok ER (r1Cell (rot c 17) 17 ho_17) 0 0)
abbrev bRes_18 : sProp 𝕄 := iprop(dutyTok ER (s1Cell c 18 ho_18) 0 0 ∗ dutyTok ER (r1Cell (rot c 18) 18 ho_18) 0 0)
abbrev bRes_19 : sProp 𝕄 := iprop(dutyTok ER (s1Cell c 19 ho_19) 0 0 ∗ dutyTok ER (r1Cell (rot c 19) 19 ho_19) 0 0)
abbrev bRes_20 : sProp 𝕄 := iprop(dutyTok ER (s1Cell c 20 ho_20) 0 0 ∗ dutyTok ER (r1Cell (rot c 20) 20 ho_20) 0 0)
abbrev bRes_21 : sProp 𝕄 := iprop(dutyTok ER (s1Cell c 21 ho_21) 0 0 ∗ dutyTok ER (r1Cell (rot c 21) 21 ho_21) 0 0)
abbrev bRes_22 : sProp 𝕄 := iprop(dutyTok ER (s1Cell c 22 ho_22) 0 0 ∗ dutyTok ER (r1Cell (rot c 22) 22 ho_22) 0 0)
abbrev bRes_23 : sProp 𝕄 := iprop(dutyTok ER (s1Cell c 23 ho_23) 0 0 ∗ dutyTok ER (r1Cell (rot c 23) 23 ho_23) 0 0)
abbrev bRes_24 : sProp 𝕄 := iprop(dutyTok ER (s1Cell c 24 ho_24) 0 0 ∗ dutyTok ER (r1Cell (rot c 24) 24 ho_24) 0 0)
abbrev bRes_25 : sProp 𝕄 := iprop(dutyTok ER (s1Cell c 25 ho_25) 0 0 ∗ dutyTok ER (r1Cell (rot c 25) 25 ho_25) 0 0)
abbrev bRes_26 : sProp 𝕄 := iprop(dutyTok ER (s1Cell c 26 ho_26) 0 0 ∗ dutyTok ER (r1Cell (rot c 26) 26 ho_26) 0 0)
abbrev bRes_27 : sProp 𝕄 := iprop(dutyTok ER (s1Cell c 27 ho_27) 0 0 ∗ dutyTok ER (r1Cell (rot c 27) 27 ho_27) 0 0)
abbrev bRes_28 : sProp 𝕄 := iprop(dutyTok ER (s1Cell c 28 ho_28) 0 0 ∗ dutyTok ER (r1Cell (rot c 28) 28 ho_28) 0 0)
abbrev bRes_29 : sProp 𝕄 := iprop(dutyTok ER (s1Cell c 29 ho_29) 0 0 ∗ dutyTok ER (r1Cell (rot c 29) 29 ho_29) 0 0)
abbrev bRes_30 : sProp 𝕄 := iprop(dutyTok ER (s1Cell c 30 ho_30) 0 0 ∗ dutyTok ER (r1Cell (rot c 30) 30 ho_30) 0 0)
abbrev bRes_31 : sProp 𝕄 := iprop(dutyTok ER (s1Cell c 31 ho_31) 0 0 ∗ dutyTok ER (r1Cell (rot c 31) 31 ho_31) 0 0)
/-- the first exchange's receive wait at offset `k`: the position and the credit on the receive cell -/
abbrev cRes_1 : sProp 𝕄 := iprop(atPos ER (r1Cell c 1 ho_1) 0 ∅ 0 ∗ cred (tallyAt (r1Cell c 1 ho_1) () NX))
abbrev cRes_2 : sProp 𝕄 := iprop(atPos ER (r1Cell c 2 ho_2) 0 ∅ 0 ∗ cred (tallyAt (r1Cell c 2 ho_2) () NX))
abbrev cRes_3 : sProp 𝕄 := iprop(atPos ER (r1Cell c 3 ho_3) 0 ∅ 0 ∗ cred (tallyAt (r1Cell c 3 ho_3) () NX))
abbrev cRes_4 : sProp 𝕄 := iprop(atPos ER (r1Cell c 4 ho_4) 0 ∅ 0 ∗ cred (tallyAt (r1Cell c 4 ho_4) () NX))
abbrev cRes_5 : sProp 𝕄 := iprop(atPos ER (r1Cell c 5 ho_5) 0 ∅ 0 ∗ cred (tallyAt (r1Cell c 5 ho_5) () NX))
abbrev cRes_6 : sProp 𝕄 := iprop(atPos ER (r1Cell c 6 ho_6) 0 ∅ 0 ∗ cred (tallyAt (r1Cell c 6 ho_6) () NX))
abbrev cRes_7 : sProp 𝕄 := iprop(atPos ER (r1Cell c 7 ho_7) 0 ∅ 0 ∗ cred (tallyAt (r1Cell c 7 ho_7) () NX))
abbrev cRes_8 : sProp 𝕄 := iprop(atPos ER (r1Cell c 8 ho_8) 0 ∅ 0 ∗ cred (tallyAt (r1Cell c 8 ho_8) () NX))
abbrev cRes_9 : sProp 𝕄 := iprop(atPos ER (r1Cell c 9 ho_9) 0 ∅ 0 ∗ cred (tallyAt (r1Cell c 9 ho_9) () NX))
abbrev cRes_10 : sProp 𝕄 := iprop(atPos ER (r1Cell c 10 ho_10) 0 ∅ 0 ∗ cred (tallyAt (r1Cell c 10 ho_10) () NX))
abbrev cRes_11 : sProp 𝕄 := iprop(atPos ER (r1Cell c 11 ho_11) 0 ∅ 0 ∗ cred (tallyAt (r1Cell c 11 ho_11) () NX))
abbrev cRes_12 : sProp 𝕄 := iprop(atPos ER (r1Cell c 12 ho_12) 0 ∅ 0 ∗ cred (tallyAt (r1Cell c 12 ho_12) () NX))
abbrev cRes_13 : sProp 𝕄 := iprop(atPos ER (r1Cell c 13 ho_13) 0 ∅ 0 ∗ cred (tallyAt (r1Cell c 13 ho_13) () NX))
abbrev cRes_14 : sProp 𝕄 := iprop(atPos ER (r1Cell c 14 ho_14) 0 ∅ 0 ∗ cred (tallyAt (r1Cell c 14 ho_14) () NX))
abbrev cRes_15 : sProp 𝕄 := iprop(atPos ER (r1Cell c 15 ho_15) 0 ∅ 0 ∗ cred (tallyAt (r1Cell c 15 ho_15) () NX))
abbrev cRes_16 : sProp 𝕄 := iprop(atPos ER (r1Cell c 16 ho_16) 0 ∅ 0 ∗ cred (tallyAt (r1Cell c 16 ho_16) () NX))
abbrev cRes_17 : sProp 𝕄 := iprop(atPos ER (r1Cell c 17 ho_17) 0 ∅ 0 ∗ cred (tallyAt (r1Cell c 17 ho_17) () NX))
abbrev cRes_18 : sProp 𝕄 := iprop(atPos ER (r1Cell c 18 ho_18) 0 ∅ 0 ∗ cred (tallyAt (r1Cell c 18 ho_18) () NX))
abbrev cRes_19 : sProp 𝕄 := iprop(atPos ER (r1Cell c 19 ho_19) 0 ∅ 0 ∗ cred (tallyAt (r1Cell c 19 ho_19) () NX))
abbrev cRes_20 : sProp 𝕄 := iprop(atPos ER (r1Cell c 20 ho_20) 0 ∅ 0 ∗ cred (tallyAt (r1Cell c 20 ho_20) () NX))
abbrev cRes_21 : sProp 𝕄 := iprop(atPos ER (r1Cell c 21 ho_21) 0 ∅ 0 ∗ cred (tallyAt (r1Cell c 21 ho_21) () NX))
abbrev cRes_22 : sProp 𝕄 := iprop(atPos ER (r1Cell c 22 ho_22) 0 ∅ 0 ∗ cred (tallyAt (r1Cell c 22 ho_22) () NX))
abbrev cRes_23 : sProp 𝕄 := iprop(atPos ER (r1Cell c 23 ho_23) 0 ∅ 0 ∗ cred (tallyAt (r1Cell c 23 ho_23) () NX))
abbrev cRes_24 : sProp 𝕄 := iprop(atPos ER (r1Cell c 24 ho_24) 0 ∅ 0 ∗ cred (tallyAt (r1Cell c 24 ho_24) () NX))
abbrev cRes_25 : sProp 𝕄 := iprop(atPos ER (r1Cell c 25 ho_25) 0 ∅ 0 ∗ cred (tallyAt (r1Cell c 25 ho_25) () NX))
abbrev cRes_26 : sProp 𝕄 := iprop(atPos ER (r1Cell c 26 ho_26) 0 ∅ 0 ∗ cred (tallyAt (r1Cell c 26 ho_26) () NX))
abbrev cRes_27 : sProp 𝕄 := iprop(atPos ER (r1Cell c 27 ho_27) 0 ∅ 0 ∗ cred (tallyAt (r1Cell c 27 ho_27) () NX))
abbrev cRes_28 : sProp 𝕄 := iprop(atPos ER (r1Cell c 28 ho_28) 0 ∅ 0 ∗ cred (tallyAt (r1Cell c 28 ho_28) () NX))
abbrev cRes_29 : sProp 𝕄 := iprop(atPos ER (r1Cell c 29 ho_29) 0 ∅ 0 ∗ cred (tallyAt (r1Cell c 29 ho_29) () NX))
abbrev cRes_30 : sProp 𝕄 := iprop(atPos ER (r1Cell c 30 ho_30) 0 ∅ 0 ∗ cred (tallyAt (r1Cell c 30 ho_30) () NX))
abbrev cRes_31 : sProp 𝕄 := iprop(atPos ER (r1Cell c 31 ho_31) 0 ∅ 0 ∗ cred (tallyAt (r1Cell c 31 ho_31) () NX))
/-- the second exchange's transfer at offset `k` -/
abbrev dRes_1 : sProp 𝕄 := iprop(dutyTok ER (s2Cell c 1 ho_1) 0 0 ∗ dutyTok ER (r2Cell (rot c 1) 1 ho_1) 0 0)
abbrev dRes_2 : sProp 𝕄 := iprop(dutyTok ER (s2Cell c 2 ho_2) 0 0 ∗ dutyTok ER (r2Cell (rot c 2) 2 ho_2) 0 0)
abbrev dRes_3 : sProp 𝕄 := iprop(dutyTok ER (s2Cell c 3 ho_3) 0 0 ∗ dutyTok ER (r2Cell (rot c 3) 3 ho_3) 0 0)
abbrev dRes_4 : sProp 𝕄 := iprop(dutyTok ER (s2Cell c 4 ho_4) 0 0 ∗ dutyTok ER (r2Cell (rot c 4) 4 ho_4) 0 0)
abbrev dRes_5 : sProp 𝕄 := iprop(dutyTok ER (s2Cell c 5 ho_5) 0 0 ∗ dutyTok ER (r2Cell (rot c 5) 5 ho_5) 0 0)
abbrev dRes_6 : sProp 𝕄 := iprop(dutyTok ER (s2Cell c 6 ho_6) 0 0 ∗ dutyTok ER (r2Cell (rot c 6) 6 ho_6) 0 0)
abbrev dRes_7 : sProp 𝕄 := iprop(dutyTok ER (s2Cell c 7 ho_7) 0 0 ∗ dutyTok ER (r2Cell (rot c 7) 7 ho_7) 0 0)
abbrev dRes_8 : sProp 𝕄 := iprop(dutyTok ER (s2Cell c 8 ho_8) 0 0 ∗ dutyTok ER (r2Cell (rot c 8) 8 ho_8) 0 0)
abbrev dRes_9 : sProp 𝕄 := iprop(dutyTok ER (s2Cell c 9 ho_9) 0 0 ∗ dutyTok ER (r2Cell (rot c 9) 9 ho_9) 0 0)
abbrev dRes_10 : sProp 𝕄 := iprop(dutyTok ER (s2Cell c 10 ho_10) 0 0 ∗ dutyTok ER (r2Cell (rot c 10) 10 ho_10) 0 0)
abbrev dRes_11 : sProp 𝕄 := iprop(dutyTok ER (s2Cell c 11 ho_11) 0 0 ∗ dutyTok ER (r2Cell (rot c 11) 11 ho_11) 0 0)
abbrev dRes_12 : sProp 𝕄 := iprop(dutyTok ER (s2Cell c 12 ho_12) 0 0 ∗ dutyTok ER (r2Cell (rot c 12) 12 ho_12) 0 0)
abbrev dRes_13 : sProp 𝕄 := iprop(dutyTok ER (s2Cell c 13 ho_13) 0 0 ∗ dutyTok ER (r2Cell (rot c 13) 13 ho_13) 0 0)
abbrev dRes_14 : sProp 𝕄 := iprop(dutyTok ER (s2Cell c 14 ho_14) 0 0 ∗ dutyTok ER (r2Cell (rot c 14) 14 ho_14) 0 0)
abbrev dRes_15 : sProp 𝕄 := iprop(dutyTok ER (s2Cell c 15 ho_15) 0 0 ∗ dutyTok ER (r2Cell (rot c 15) 15 ho_15) 0 0)
abbrev dRes_16 : sProp 𝕄 := iprop(dutyTok ER (s2Cell c 16 ho_16) 0 0 ∗ dutyTok ER (r2Cell (rot c 16) 16 ho_16) 0 0)
abbrev dRes_17 : sProp 𝕄 := iprop(dutyTok ER (s2Cell c 17 ho_17) 0 0 ∗ dutyTok ER (r2Cell (rot c 17) 17 ho_17) 0 0)
abbrev dRes_18 : sProp 𝕄 := iprop(dutyTok ER (s2Cell c 18 ho_18) 0 0 ∗ dutyTok ER (r2Cell (rot c 18) 18 ho_18) 0 0)
abbrev dRes_19 : sProp 𝕄 := iprop(dutyTok ER (s2Cell c 19 ho_19) 0 0 ∗ dutyTok ER (r2Cell (rot c 19) 19 ho_19) 0 0)
abbrev dRes_20 : sProp 𝕄 := iprop(dutyTok ER (s2Cell c 20 ho_20) 0 0 ∗ dutyTok ER (r2Cell (rot c 20) 20 ho_20) 0 0)
abbrev dRes_21 : sProp 𝕄 := iprop(dutyTok ER (s2Cell c 21 ho_21) 0 0 ∗ dutyTok ER (r2Cell (rot c 21) 21 ho_21) 0 0)
abbrev dRes_22 : sProp 𝕄 := iprop(dutyTok ER (s2Cell c 22 ho_22) 0 0 ∗ dutyTok ER (r2Cell (rot c 22) 22 ho_22) 0 0)
abbrev dRes_23 : sProp 𝕄 := iprop(dutyTok ER (s2Cell c 23 ho_23) 0 0 ∗ dutyTok ER (r2Cell (rot c 23) 23 ho_23) 0 0)
abbrev dRes_24 : sProp 𝕄 := iprop(dutyTok ER (s2Cell c 24 ho_24) 0 0 ∗ dutyTok ER (r2Cell (rot c 24) 24 ho_24) 0 0)
abbrev dRes_25 : sProp 𝕄 := iprop(dutyTok ER (s2Cell c 25 ho_25) 0 0 ∗ dutyTok ER (r2Cell (rot c 25) 25 ho_25) 0 0)
abbrev dRes_26 : sProp 𝕄 := iprop(dutyTok ER (s2Cell c 26 ho_26) 0 0 ∗ dutyTok ER (r2Cell (rot c 26) 26 ho_26) 0 0)
abbrev dRes_27 : sProp 𝕄 := iprop(dutyTok ER (s2Cell c 27 ho_27) 0 0 ∗ dutyTok ER (r2Cell (rot c 27) 27 ho_27) 0 0)
abbrev dRes_28 : sProp 𝕄 := iprop(dutyTok ER (s2Cell c 28 ho_28) 0 0 ∗ dutyTok ER (r2Cell (rot c 28) 28 ho_28) 0 0)
abbrev dRes_29 : sProp 𝕄 := iprop(dutyTok ER (s2Cell c 29 ho_29) 0 0 ∗ dutyTok ER (r2Cell (rot c 29) 29 ho_29) 0 0)
abbrev dRes_30 : sProp 𝕄 := iprop(dutyTok ER (s2Cell c 30 ho_30) 0 0 ∗ dutyTok ER (r2Cell (rot c 30) 30 ho_30) 0 0)
abbrev dRes_31 : sProp 𝕄 := iprop(dutyTok ER (s2Cell c 31 ho_31) 0 0 ∗ dutyTok ER (r2Cell (rot c 31) 31 ho_31) 0 0)
/-- the second exchange's receive wait at offset `k`, and the semaphore of the output copy that follows it -/
abbrev eRes_1 : sProp 𝕄 := iprop(atPos ER (r2Cell c 1 ho_1) 0 ∅ 0 ∗ cred (tallyAt (r2Cell c 1 ho_1) () NX) ∗ semVal ((c : Thread nD τ), .dma (semAt cc0_scratch11 1 ho_1)) 0)
abbrev eRes_2 : sProp 𝕄 := iprop(atPos ER (r2Cell c 2 ho_2) 0 ∅ 0 ∗ cred (tallyAt (r2Cell c 2 ho_2) () NX) ∗ semVal ((c : Thread nD τ), .dma (semAt cc0_scratch11 2 ho_2)) 0)
abbrev eRes_3 : sProp 𝕄 := iprop(atPos ER (r2Cell c 3 ho_3) 0 ∅ 0 ∗ cred (tallyAt (r2Cell c 3 ho_3) () NX) ∗ semVal ((c : Thread nD τ), .dma (semAt cc0_scratch11 3 ho_3)) 0)
abbrev eRes_4 : sProp 𝕄 := iprop(atPos ER (r2Cell c 4 ho_4) 0 ∅ 0 ∗ cred (tallyAt (r2Cell c 4 ho_4) () NX) ∗ semVal ((c : Thread nD τ), .dma (semAt cc0_scratch11 4 ho_4)) 0)
abbrev eRes_5 : sProp 𝕄 := iprop(atPos ER (r2Cell c 5 ho_5) 0 ∅ 0 ∗ cred (tallyAt (r2Cell c 5 ho_5) () NX) ∗ semVal ((c : Thread nD τ), .dma (semAt cc0_scratch11 5 ho_5)) 0)
abbrev eRes_6 : sProp 𝕄 := iprop(atPos ER (r2Cell c 6 ho_6) 0 ∅ 0 ∗ cred (tallyAt (r2Cell c 6 ho_6) () NX) ∗ semVal ((c : Thread nD τ), .dma (semAt cc0_scratch11 6 ho_6)) 0)
abbrev eRes_7 : sProp 𝕄 := iprop(atPos ER (r2Cell c 7 ho_7) 0 ∅ 0 ∗ cred (tallyAt (r2Cell c 7 ho_7) () NX) ∗ semVal ((c : Thread nD τ), .dma (semAt cc0_scratch11 7 ho_7)) 0)
abbrev eRes_8 : sProp 𝕄 := iprop(atPos ER (r2Cell c 8 ho_8) 0 ∅ 0 ∗ cred (tallyAt (r2Cell c 8 ho_8) () NX) ∗ semVal ((c : Thread nD τ), .dma (semAt cc0_scratch11 8 ho_8)) 0)
abbrev eRes_9 : sProp 𝕄 := iprop(atPos ER (r2Cell c 9 ho_9) 0 ∅ 0 ∗ cred (tallyAt (r2Cell c 9 ho_9) () NX) ∗ semVal ((c : Thread nD τ), .dma (semAt cc0_scratch11 9 ho_9)) 0)
abbrev eRes_10 : sProp 𝕄 := iprop(atPos ER (r2Cell c 10 ho_10) 0 ∅ 0 ∗ cred (tallyAt (r2Cell c 10 ho_10) () NX) ∗ semVal ((c : Thread nD τ), .dma (semAt cc0_scratch11 10 ho_10)) 0)
abbrev eRes_11 : sProp 𝕄 := iprop(atPos ER (r2Cell c 11 ho_11) 0 ∅ 0 ∗ cred (tallyAt (r2Cell c 11 ho_11) () NX) ∗ semVal ((c : Thread nD τ), .dma (semAt cc0_scratch11 11 ho_11)) 0)
abbrev eRes_12 : sProp 𝕄 := iprop(atPos ER (r2Cell c 12 ho_12) 0 ∅ 0 ∗ cred (tallyAt (r2Cell c 12 ho_12) () NX) ∗ semVal ((c : Thread nD τ), .dma (semAt cc0_scratch11 12 ho_12)) 0)
abbrev eRes_13 : sProp 𝕄 := iprop(atPos ER (r2Cell c 13 ho_13) 0 ∅ 0 ∗ cred (tallyAt (r2Cell c 13 ho_13) () NX) ∗ semVal ((c : Thread nD τ), .dma (semAt cc0_scratch11 13 ho_13)) 0)
abbrev eRes_14 : sProp 𝕄 := iprop(atPos ER (r2Cell c 14 ho_14) 0 ∅ 0 ∗ cred (tallyAt (r2Cell c 14 ho_14) () NX) ∗ semVal ((c : Thread nD τ), .dma (semAt cc0_scratch11 14 ho_14)) 0)
abbrev eRes_15 : sProp 𝕄 := iprop(atPos ER (r2Cell c 15 ho_15) 0 ∅ 0 ∗ cred (tallyAt (r2Cell c 15 ho_15) () NX) ∗ semVal ((c : Thread nD τ), .dma (semAt cc0_scratch11 15 ho_15)) 0)
abbrev eRes_16 : sProp 𝕄 := iprop(atPos ER (r2Cell c 16 ho_16) 0 ∅ 0 ∗ cred (tallyAt (r2Cell c 16 ho_16) () NX) ∗ semVal ((c : Thread nD τ), .dma (semAt cc0_scratch11 16 ho_16)) 0)
abbrev eRes_17 : sProp 𝕄 := iprop(atPos ER (r2Cell c 17 ho_17) 0 ∅ 0 ∗ cred (tallyAt (r2Cell c 17 ho_17) () NX) ∗ semVal ((c : Thread nD τ), .dma (semAt cc0_scratch11 17 ho_17)) 0)
abbrev eRes_18 : sProp 𝕄 := iprop(atPos ER (r2Cell c 18 ho_18) 0 ∅ 0 ∗ cred (tallyAt (r2Cell c 18 ho_18) () NX) ∗ semVal ((c : Thread nD τ), .dma (semAt cc0_scratch11 18 ho_18)) 0)
abbrev eRes_19 : sProp 𝕄 := iprop(atPos ER (r2Cell c 19 ho_19) 0 ∅ 0 ∗ cred (tallyAt (r2Cell c 19 ho_19) () NX) ∗ semVal ((c : Thread nD τ), .dma (semAt cc0_scratch11 19 ho_19)) 0)
abbrev eRes_20 : sProp 𝕄 := iprop(atPos ER (r2Cell c 20 ho_20) 0 ∅ 0 ∗ cred (tallyAt (r2Cell c 20 ho_20) () NX) ∗ semVal ((c : Thread nD τ), .dma (semAt cc0_scratch11 20 ho_20)) 0)
abbrev eRes_21 : sProp 𝕄 := iprop(atPos ER (r2Cell c 21 ho_21) 0 ∅ 0 ∗ cred (tallyAt (r2Cell c 21 ho_21) () NX) ∗ semVal ((c : Thread nD τ), .dma (semAt cc0_scratch11 21 ho_21)) 0)
abbrev eRes_22 : sProp 𝕄 := iprop(atPos ER (r2Cell c 22 ho_22) 0 ∅ 0 ∗ cred (tallyAt (r2Cell c 22 ho_22) () NX) ∗ semVal ((c : Thread nD τ), .dma (semAt cc0_scratch11 22 ho_22)) 0)
abbrev eRes_23 : sProp 𝕄 := iprop(atPos ER (r2Cell c 23 ho_23) 0 ∅ 0 ∗ cred (tallyAt (r2Cell c 23 ho_23) () NX) ∗ semVal ((c : Thread nD τ), .dma (semAt cc0_scratch11 23 ho_23)) 0)
abbrev eRes_24 : sProp 𝕄 := iprop(atPos ER (r2Cell c 24 ho_24) 0 ∅ 0 ∗ cred (tallyAt (r2Cell c 24 ho_24) () NX) ∗ semVal ((c : Thread nD τ), .dma (semAt cc0_scratch11 24 ho_24)) 0)
abbrev eRes_25 : sProp 𝕄 := iprop(atPos ER (r2Cell c 25 ho_25) 0 ∅ 0 ∗ cred (tallyAt (r2Cell c 25 ho_25) () NX) ∗ semVal ((c : Thread nD τ), .dma (semAt cc0_scratch11 25 ho_25)) 0)
abbrev eRes_26 : sProp 𝕄 := iprop(atPos ER (r2Cell c 26 ho_26) 0 ∅ 0 ∗ cred (tallyAt (r2Cell c 26 ho_26) () NX) ∗ semVal ((c : Thread nD τ), .dma (semAt cc0_scratch11 26 ho_26)) 0)
abbrev eRes_27 : sProp 𝕄 := iprop(atPos ER (r2Cell c 27 ho_27) 0 ∅ 0 ∗ cred (tallyAt (r2Cell c 27 ho_27) () NX) ∗ semVal ((c : Thread nD τ), .dma (semAt cc0_scratch11 27 ho_27)) 0)
abbrev eRes_28 : sProp 𝕄 := iprop(atPos ER (r2Cell c 28 ho_28) 0 ∅ 0 ∗ cred (tallyAt (r2Cell c 28 ho_28) () NX) ∗ semVal ((c : Thread nD τ), .dma (semAt cc0_scratch11 28 ho_28)) 0)
abbrev eRes_29 : sProp 𝕄 := iprop(atPos ER (r2Cell c 29 ho_29) 0 ∅ 0 ∗ cred (tallyAt (r2Cell c 29 ho_29) () NX) ∗ semVal ((c : Thread nD τ), .dma (semAt cc0_scratch11 29 ho_29)) 0)
abbrev eRes_30 : sProp 𝕄 := iprop(atPos ER (r2Cell c 30 ho_30) 0 ∅ 0 ∗ cred (tallyAt (r2Cell c 30 ho_30) () NX) ∗ semVal ((c : Thread nD τ), .dma (semAt cc0_scratch11 30 ho_30)) 0)
abbrev eRes_31 : sProp 𝕄 := iprop(atPos ER (r2Cell c 31 ho_31) 0 ∅ 0 ∗ cred (tallyAt (r2Cell c 31 ho_31) () NX) ∗ semVal ((c : Thread nD τ), .dma (semAt cc0_scratch11 31 ho_31)) 0)
/-- the two send waits at offset `k`: the positions on the send cells -/
abbrev fRes_1 : sProp 𝕄 := iprop(atPos ER (s1Cell c 1 ho_1) 0 ∅ 0 ∗ atPos ER (s2Cell c 1 ho_1) 0 ∅ 0)
abbrev fRes_2 : sProp 𝕄 := iprop(atPos ER (s1Cell c 2 ho_2) 0 ∅ 0 ∗ atPos ER (s2Cell c 2 ho_2) 0 ∅ 0)
abbrev fRes_3 : sProp 𝕄 := iprop(atPos ER (s1Cell c 3 ho_3) 0 ∅ 0 ∗ atPos ER (s2Cell c 3 ho_3) 0 ∅ 0)
abbrev fRes_4 : sProp 𝕄 := iprop(atPos ER (s1Cell c 4 ho_4) 0 ∅ 0 ∗ atPos ER (s2Cell c 4 ho_4) 0 ∅ 0)
abbrev fRes_5 : sProp 𝕄 := iprop(atPos ER (s1Cell c 5 ho_5) 0 ∅ 0 ∗ atPos ER (s2Cell c 5 ho_5) 0 ∅ 0)
abbrev fRes_6 : sProp 𝕄 := iprop(atPos ER (s1Cell c 6 ho_6) 0 ∅ 0 ∗ atPos ER (s2Cell c 6 ho_6) 0 ∅ 0)
abbrev fRes_7 : sProp 𝕄 := iprop(atPos ER (s1Cell c 7 ho_7) 0 ∅ 0 ∗ atPos ER (s2Cell c 7 ho_7) 0 ∅ 0)
abbrev fRes_8 : sProp 𝕄 := iprop(atPos ER (s1Cell c 8 ho_8) 0 ∅ 0 ∗ atPos ER (s2Cell c 8 ho_8) 0 ∅ 0)
abbrev fRes_9 : sProp 𝕄 := iprop(atPos ER (s1Cell c 9 ho_9) 0 ∅ 0 ∗ atPos ER (s2Cell c 9 ho_9) 0 ∅ 0)
abbrev fRes_10 : sProp 𝕄 := iprop(atPos ER (s1Cell c 10 ho_10) 0 ∅ 0 ∗ atPos ER (s2Cell c 10 ho_10) 0 ∅ 0)
abbrev fRes_11 : sProp 𝕄 := iprop(atPos ER (s1Cell c 11 ho_11) 0 ∅ 0 ∗ atPos ER (s2Cell c 11 ho_11) 0 ∅ 0)
abbrev fRes_12 : sProp 𝕄 := iprop(atPos ER (s1Cell c 12 ho_12) 0 ∅ 0 ∗ atPos ER (s2Cell c 12 ho_12) 0 ∅ 0)
abbrev fRes_13 : sProp 𝕄 := iprop(atPos ER (s1Cell c 13 ho_13) 0 ∅ 0 ∗ atPos ER (s2Cell c 13 ho_13) 0 ∅ 0)
abbrev fRes_14 : sProp 𝕄 := iprop(atPos ER (s1Cell c 14 ho_14) 0 ∅ 0 ∗ atPos ER (s2Cell c 14 ho_14) 0 ∅ 0)
abbrev fRes_15 : sProp 𝕄 := iprop(atPos ER (s1Cell c 15 ho_15) 0 ∅ 0 ∗ atPos ER (s2Cell c 15 ho_15) 0 ∅ 0)
abbrev fRes_16 : sProp 𝕄 := iprop(atPos ER (s1Cell c 16 ho_16) 0 ∅ 0 ∗ atPos ER (s2Cell c 16 ho_16) 0 ∅ 0)
abbrev fRes_17 : sProp 𝕄 := iprop(atPos ER (s1Cell c 17 ho_17) 0 ∅ 0 ∗ atPos ER (s2Cell c 17 ho_17) 0 ∅ 0)
abbrev fRes_18 : sProp 𝕄 := iprop(atPos ER (s1Cell c 18 ho_18) 0 ∅ 0 ∗ atPos ER (s2Cell c 18 ho_18) 0 ∅ 0)
abbrev fRes_19 : sProp 𝕄 := iprop(atPos ER (s1Cell c 19 ho_19) 0 ∅ 0 ∗ atPos ER (s2Cell c 19 ho_19) 0 ∅ 0)
abbrev fRes_20 : sProp 𝕄 := iprop(atPos ER (s1Cell c 20 ho_20) 0 ∅ 0 ∗ atPos ER (s2Cell c 20 ho_20) 0 ∅ 0)
abbrev fRes_21 : sProp 𝕄 := iprop(atPos ER (s1Cell c 21 ho_21) 0 ∅ 0 ∗ atPos ER (s2Cell c 21 ho_21) 0 ∅ 0)
abbrev fRes_22 : sProp 𝕄 := iprop(atPos ER (s1Cell c 22 ho_22) 0 ∅ 0 ∗ atPos ER (s2Cell c 22 ho_22) 0 ∅ 0)
abbrev fRes_23 : sProp 𝕄 := iprop(atPos ER (s1Cell c 23 ho_23) 0 ∅ 0 ∗ atPos ER (s2Cell c 23 ho_23) 0 ∅ 0)
abbrev fRes_24 : sProp 𝕄 := iprop(atPos ER (s1Cell c 24 ho_24) 0 ∅ 0 ∗ atPos ER (s2Cell c 24 ho_24) 0 ∅ 0)
abbrev fRes_25 : sProp 𝕄 := iprop(atPos ER (s1Cell c 25 ho_25) 0 ∅ 0 ∗ atPos ER (s2Cell c 25 ho_25) 0 ∅ 0)
abbrev fRes_26 : sProp 𝕄 := iprop(atPos ER (s1Cell c 26 ho_26) 0 ∅ 0 ∗ atPos ER (s2Cell c 26 ho_26) 0 ∅ 0)
abbrev fRes_27 : sProp 𝕄 := iprop(atPos ER (s1Cell c 27 ho_27) 0 ∅ 0 ∗ atPos ER (s2Cell c 27 ho_27) 0 ∅ 0)
abbrev fRes_28 : sProp 𝕄 := iprop(atPos ER (s1Cell c 28 ho_28) 0 ∅ 0 ∗ atPos ER (s2Cell c 28 ho_28) 0 ∅ 0)
abbrev fRes_29 : sProp 𝕄 := iprop(atPos ER (s1Cell c 29 ho_29) 0 ∅ 0 ∗ atPos ER (s2Cell c 29 ho_29) 0 ∅ 0)
abbrev fRes_30 : sProp 𝕄 := iprop(atPos ER (s1Cell c 30 ho_30) 0 ∅ 0 ∗ atPos ER (s2Cell c 30 ho_30) 0 ∅ 0)
abbrev fRes_31 : sProp 𝕄 := iprop(atPos ER (s1Cell c 31 ho_31) 0 ∅ 0 ∗ atPos ER (s2Cell c 31 ho_31) 0 ∅ 0)
/-- what no offset uses but the first output copy: the index-0 semaphores and slots -/
abbrev locRes : sProp 𝕄 := iprop(semVal ((c : Thread nD τ), .dma (semAt cc0_scratch11 0 ho_0)) 0 ∗ ((slotM cm1 0 ho_0).view.loc (c : Thread nD τ) ↦[(slotM cm1 0 ho_0).view.set]{fullShare} g1) ∗ ((slotM cm2 0 ho_0).view.loc (c : Thread nD τ) ↦[(slotM cm2 0 ho_0).view.set]{fullShare} g2)
      ∗ semVal (s1Cell c 0 ho_0) 0 ∗ semVal (r1Cell c 0 ho_0) 0 ∗ semVal (s2Cell c 0 ho_0) 0 ∗ semVal (r2Cell c 0 ho_0) 0)

/-- The groups of one stage of the kernel, each held, all held together until the stage begins. -/
abbrev sigAll : sProp 𝕄 := iprop(Held (sigRes_1 (F := F) c g1 g2) ∗ Held (sigRes_2 (F := F) c g1 g2) ∗ Held (sigRes_3 (F := F) c g1 g2) ∗ Held (sigRes_4 (F := F) c g1 g2) ∗ Held (sigRes_5 (F := F) c g1 g2) ∗ Held (sigRes_6 (F := F) c g1 g2) ∗ Held (sigRes_7 (F := F) c g1 g2) ∗ Held (sigRes_8 (F := F) c g1 g2) ∗ Held (sigRes_9 (F := F) c g1 g2) ∗ Held (sigRes_10 (F := F) c g1 g2) ∗ Held (sigRes_11 (F := F) c g1 g2) ∗ Held (sigRes_12 (F := F) c g1 g2) ∗ Held (sigRes_13 (F := F) c g1 g2) ∗ Held (sigRes_14 (F := F) c g1 g2) ∗ Held (sigRes_15 (F := F) c g1 g2) ∗ Held (sigRes_16 (F := F) c g1 g2) ∗ Held (sigRes_17 (F := F) c g1 g2) ∗ Held (sigRes_18 (F := F) c g1 g2) ∗ Held (sigRes_19 (F := F) c g1 g2) ∗ Held (sigRes_20 (F := F) c g1 g2) ∗ Held (sigRes_21 (F := F) c g1 g2) ∗ Held (sigRes_22 (F := F) c g1 g2) ∗ Held (sigRes_23 (F := F) c g1 g2) ∗ Held (sigRes_24 (F := F) c g1 g2) ∗ Held (sigRes_25 (F := F) c g1 g2) ∗ Held (sigRes_26 (F := F) c g1 g2) ∗ Held (sigRes_27 (F := F) c g1 g2) ∗ Held (sigRes_28 (F := F) c g1 g2) ∗ Held (sigRes_29 (F := F) c g1 g2) ∗ Held (sigRes_30 (F := F) c g1 g2) ∗ Held (sigRes_31 (F := F) c g1 g2))
abbrev bAll : sProp 𝕄 := iprop(Held (bRes_1 (F := F) c) ∗ Held (bRes_2 (F := F) c) ∗ Held (bRes_3 (F := F) c) ∗ Held (bRes_4 (F := F) c) ∗ Held (bRes_5 (F := F) c) ∗ Held (bRes_6 (F := F) c) ∗ Held (bRes_7 (F := F) c) ∗ Held (bRes_8 (F := F) c) ∗ Held (bRes_9 (F := F) c) ∗ Held (bRes_10 (F := F) c) ∗ Held (bRes_11 (F := F) c) ∗ Held (bRes_12 (F := F) c) ∗ Held (bRes_13 (F := F) c) ∗ Held (bRes_14 (F := F) c) ∗ Held (bRes_15 (F := F) c) ∗ Held (bRes_16 (F := F) c) ∗ Held (bRes_17 (F := F) c) ∗ Held (bRes_18 (F := F) c) ∗ Held (bRes_19 (F := F) c) ∗ Held (bRes_20 (F := F) c) ∗ Held (bRes_21 (F := F) c) ∗ Held (bRes_22 (F := F) c) ∗ Held (bRes_23 (F := F) c) ∗ Held (bRes_24 (F := F) c) ∗ Held (bRes_25 (F := F) c) ∗ Held (bRes_26 (F := F) c) ∗ Held (bRes_27 (F := F) c) ∗ Held (bRes_28 (F := F) c) ∗ Held (bRes_29 (F := F) c) ∗ Held (bRes_30 (F := F) c) ∗ Held (bRes_31 (F := F) c))
abbrev cAll : sProp 𝕄 := iprop(Held (cRes_1 (F := F) c) ∗ Held (cRes_2 (F := F) c) ∗ Held (cRes_3 (F := F) c) ∗ Held (cRes_4 (F := F) c) ∗ Held (cRes_5 (F := F) c) ∗ Held (cRes_6 (F := F) c) ∗ Held (cRes_7 (F := F) c) ∗ Held (cRes_8 (F := F) c) ∗ Held (cRes_9 (F := F) c) ∗ Held (cRes_10 (F := F) c) ∗ Held (cRes_11 (F := F) c) ∗ Held (cRes_12 (F := F) c) ∗ Held (cRes_13 (F := F) c) ∗ Held (cRes_14 (F := F) c) ∗ Held (cRes_15 (F := F) c) ∗ Held (cRes_16 (F := F) c) ∗ Held (cRes_17 (F := F) c) ∗ Held (cRes_18 (F := F) c) ∗ Held (cRes_19 (F := F) c) ∗ Held (cRes_20 (F := F) c) ∗ Held (cRes_21 (F := F) c) ∗ Held (cRes_22 (F := F) c) ∗ Held (cRes_23 (F := F) c) ∗ Held (cRes_24 (F := F) c) ∗ Held (cRes_25 (F := F) c) ∗ Held (cRes_26 (F := F) c) ∗ Held (cRes_27 (F := F) c) ∗ Held (cRes_28 (F := F) c) ∗ Held (cRes_29 (F := F) c) ∗ Held (cRes_30 (F := F) c) ∗ Held (cRes_31 (F := F) c))
abbrev dAll : sProp 𝕄 := iprop(Held (dRes_1 (F := F) c) ∗ Held (dRes_2 (F := F) c) ∗ Held (dRes_3 (F := F) c) ∗ Held (dRes_4 (F := F) c) ∗ Held (dRes_5 (F := F) c) ∗ Held (dRes_6 (F := F) c) ∗ Held (dRes_7 (F := F) c) ∗ Held (dRes_8 (F := F) c) ∗ Held (dRes_9 (F := F) c) ∗ Held (dRes_10 (F := F) c) ∗ Held (dRes_11 (F := F) c) ∗ Held (dRes_12 (F := F) c) ∗ Held (dRes_13 (F := F) c) ∗ Held (dRes_14 (F := F) c) ∗ Held (dRes_15 (F := F) c) ∗ Held (dRes_16 (F := F) c) ∗ Held (dRes_17 (F := F) c) ∗ Held (dRes_18 (F := F) c) ∗ Held (dRes_19 (F := F) c) ∗ Held (dRes_20 (F := F) c) ∗ Held (dRes_21 (F := F) c) ∗ Held (dRes_22 (F := F) c) ∗ Held (dRes_23 (F := F) c) ∗ Held (dRes_24 (F := F) c) ∗ Held (dRes_25 (F := F) c) ∗ Held (dRes_26 (F := F) c) ∗ Held (dRes_27 (F := F) c) ∗ Held (dRes_28 (F := F) c) ∗ Held (dRes_29 (F := F) c) ∗ Held (dRes_30 (F := F) c) ∗ Held (dRes_31 (F := F) c))
abbrev eAll : sProp 𝕄 := iprop(Held (eRes_1 (F := F) c) ∗ Held (eRes_2 (F := F) c) ∗ Held (eRes_3 (F := F) c) ∗ Held (eRes_4 (F := F) c) ∗ Held (eRes_5 (F := F) c) ∗ Held (eRes_6 (F := F) c) ∗ Held (eRes_7 (F := F) c) ∗ Held (eRes_8 (F := F) c) ∗ Held (eRes_9 (F := F) c) ∗ Held (eRes_10 (F := F) c) ∗ Held (eRes_11 (F := F) c) ∗ Held (eRes_12 (F := F) c) ∗ Held (eRes_13 (F := F) c) ∗ Held (eRes_14 (F := F) c) ∗ Held (eRes_15 (F := F) c) ∗ Held (eRes_16 (F := F) c) ∗ Held (eRes_17 (F := F) c) ∗ Held (eRes_18 (F := F) c) ∗ Held (eRes_19 (F := F) c) ∗ Held (eRes_20 (F := F) c) ∗ Held (eRes_21 (F := F) c) ∗ Held (eRes_22 (F := F) c) ∗ Held (eRes_23 (F := F) c) ∗ Held (eRes_24 (F := F) c) ∗ Held (eRes_25 (F := F) c) ∗ Held (eRes_26 (F := F) c) ∗ Held (eRes_27 (F := F) c) ∗ Held (eRes_28 (F := F) c) ∗ Held (eRes_29 (F := F) c) ∗ Held (eRes_30 (F := F) c) ∗ Held (eRes_31 (F := F) c))
abbrev fAll : sProp 𝕄 := iprop(Held (fRes_1 (F := F) c) ∗ Held (fRes_2 (F := F) c) ∗ Held (fRes_3 (F := F) c) ∗ Held (fRes_4 (F := F) c) ∗ Held (fRes_5 (F := F) c) ∗ Held (fRes_6 (F := F) c) ∗ Held (fRes_7 (F := F) c) ∗ Held (fRes_8 (F := F) c) ∗ Held (fRes_9 (F := F) c) ∗ Held (fRes_10 (F := F) c) ∗ Held (fRes_11 (F := F) c) ∗ Held (fRes_12 (F := F) c) ∗ Held (fRes_13 (F := F) c) ∗ Held (fRes_14 (F := F) c) ∗ Held (fRes_15 (F := F) c) ∗ Held (fRes_16 (F := F) c) ∗ Held (fRes_17 (F := F) c) ∗ Held (fRes_18 (F := F) c) ∗ Held (fRes_19 (F := F) c) ∗ Held (fRes_20 (F := F) c) ∗ Held (fRes_21 (F := F) c) ∗ Held (fRes_22 (F := F) c) ∗ Held (fRes_23 (F := F) c) ∗ Held (fRes_24 (F := F) c) ∗ Held (fRes_25 (F := F) c) ∗ Held (fRes_26 (F := F) c) ∗ Held (fRes_27 (F := F) c) ∗ Held (fRes_28 (F := F) c) ∗ Held (fRes_29 (F := F) c) ∗ Held (fRes_30 (F := F) c) ∗ Held (fRes_31 (F := F) c))

/-- The starting state: the records of every cell, the levels, what the device owes, the input copy's semaphore, the
    argument and the result arrays, the four scratch buffers no transfer lands in, its position and credit on its barrier
    cell, and the groups stage by stage. -/
def bodyStart (K : Dev nD × CK → ℕ) (W : Waits sig Unit)
    (fO : Buf (Elt F) (oR.view.loc (c : Thread nD τ))) (f0 : Buf (Elt F) (tV.view.loc (c : Thread nD τ)))
    (f1 : Buf (Elt F) (st1.view.loc (c : Thread nD τ))) (f3 : Buf (Elt F) (st2.view.loc (c : Thread nD τ)))
    (f5 : Buf (Elt F) (sto.view.loc (c : Thread nD τ))) (m : (ℓ : Loc nD τ sig) → Buf (Elt F) ℓ) : sProp 𝕄 :=
  iprop(records (F := F) S1c Y2c K ∗ levAts L lv ∗ owes (c : Thread nD τ) (owed93 c) W
    ∗ semVal ((c : Thread nD τ), .dma cc0_scratch6.sem) 0
    ∗ (tR.view.loc (c : Thread nD τ) ↦{fullShare} m ((c : Thread nD τ).loc main_arg0)) ∗ (oR.view.loc (c : Thread nD τ) ↦{fullShare} fO)
    ∗ (tV.view.loc (c : Thread nD τ) ↦{fullShare} f0) ∗ (st1.view.loc (c : Thread nD τ) ↦{fullShare} f1)
    ∗ (st2.view.loc (c : Thread nD τ) ↦{fullShare} f3) ∗ (sto.view.loc (c : Thread nD τ) ↦{fullShare} f5)
    ∗ atPos ER (barCell c) 0 ∅ 0 ∗ cred (tallyAt (barCell c) () 31)
    ∗ Held (locRes (F := F) c g1 g2)
    ∗ Held (sigAll (F := F) c g1 g2) ∗ Held (bAll (F := F) c) ∗ Held (cAll (F := F) c) ∗ Held (dAll (F := F) c)
    ∗ Held (eAll (F := F) c) ∗ Held (fAll (F := F) c))

end Start

section End
variable (c : Dev nD)

/-- What the kernel body leaves: nothing owed; the argument as it was and the result at its closed form; every scratch
    buffer back (the narrowed block and the two landing buffers piece by piece, at some contents); every DMA semaphore at zero. -/
def bodyEnd (OUTc : (c : Dev nD) → Buf (Elt F) ((c : Thread nD τ).loc main_v1)) (m : (ℓ : Loc nD τ sig) → Buf (Elt F) ℓ) (W : Waits sig Unit) : sProp 𝕄 :=
  iprop(owes (c : Thread nD τ) 0 W
    ∗ (tR.view.loc (c : Thread nD τ) ↦{fullShare} m ((c : Thread nD τ).loc main_arg0)) ∗ (oR.view.loc (c : Thread nD τ) ↦{fullShare} OUTc c)
    ∗ (∃ f, (tV.view.loc (c : Thread nD τ) ↦{fullShare} f : sProp 𝕄)) ∗ (∃ f, (st2.view.loc (c : Thread nD τ) ↦{fullShare} f : sProp 𝕄)) ∗ (∃ f, (sto.view.loc (c : Thread nD τ) ↦{fullShare} f : sProp 𝕄))
    ∗ ((∃ g, ((ownM1 c).view.loc (c : Thread nD τ) ↦[(ownM1 c).view.set]{fullShare} g : sProp 𝕄)) ∗ (∃ g, ((srcM1 c 1 hk_1).view.loc (c : Thread nD τ) ↦[(srcM1 c 1 hk_1).view.set]{fullShare} g : sProp 𝕄)) ∗ (∃ g, ((srcM1 c 2 hk_2).view.loc (c : Thread nD τ) ↦[(srcM1 c 2 hk_2).view.set]{fullShare} g : sProp 𝕄)) ∗ (∃ g, ((srcM1 c 3 hk_3).view.loc (c : Thread nD τ) ↦[(srcM1 c 3 hk_3).view.set]{fullShare} g : sProp 𝕄)) ∗ (∃ g, ((srcM1 c 4 hk_4).view.loc (c : Thread nD τ) ↦[(srcM1 c 4 hk_4).view.set]{fullShare} g : sProp 𝕄)) ∗ (∃ g, ((srcM1 c 5 hk_5).view.loc (c : Thread nD τ) ↦[(srcM1 c 5 hk_5).view.set]{fullShare} g : sProp 𝕄)) ∗ (∃ g, ((srcM1 c 6 hk_6).view.loc (c : Thread nD τ) ↦[(srcM1 c 6 hk_6).view.set]{fullShare} g : sProp 𝕄)) ∗ (∃ g, ((srcM1 c 7 hk_7).view.loc (c : Thread nD τ) ↦[(srcM1 c 7 hk_7).view.set]{fullShare} g : sProp 𝕄)) ∗ (∃ g, ((srcM1 c 8 hk_8).view.loc (c : Thread nD τ) ↦[(srcM1 c 8 hk_8).view.set]{fullShare} g : sProp 𝕄)) ∗ (∃ g, ((srcM1 c 9 hk_9).view.loc (c : Thread nD τ) ↦[(srcM1 c 9 hk_9).view.set]{fullShare} g : sProp 𝕄)) ∗ (∃ g, ((srcM1 c 10 hk_10).view.loc (c : Thread nD τ) ↦[(srcM1 c 10 hk_10).view.set]{fullShare} g : sProp 𝕄)) ∗ (∃ g, ((srcM1 c 11 hk_11).view.loc (c : Thread nD τ) ↦[(srcM1 c 11 hk_11).view.set]{fullShare} g : sProp 𝕄)) ∗ (∃ g, ((srcM1 c 12 hk_12).view.loc (c : Thread nD τ) ↦[(srcM1 c 12 hk_12).view.set]{fullShare} g : sProp 𝕄)) ∗ (∃ g, ((srcM1 c 13 hk_13).view.loc (c : Thread nD τ) ↦[(srcM1 c 13 hk_13).view.set]{fullShare} g : sProp 𝕄)) ∗ (∃ g, ((srcM1 c 14 hk_14).view.loc (c : Thread nD τ) ↦[(srcM1 c 14 hk_14).view.set]{fullShare} g : sProp 𝕄)) ∗ (∃ g, ((srcM1 c 15 hk_15).view.loc (c : Thread nD τ) ↦[(srcM1 c 15 hk_15).view.set]{fullShare} g : sProp 𝕄)) ∗ (∃ g, ((srcM1 c 16 hk_16).view.loc (c : Thread nD τ) ↦[(srcM1 c 16 hk_16).view.set]{fullShare} g : sProp 𝕄)) ∗ (∃ g, ((srcM1 c 17 hk_17).view.loc (c : Thread nD τ) ↦[(srcM1 c 17 hk_17).view.set]{fullShare} g : sProp 𝕄)) ∗ (∃ g, ((srcM1 c 18 hk_18).view.loc (c : Thread nD τ) ↦[(srcM1 c 18 hk_18).view.set]{fullShare} g : sProp 𝕄)) ∗ (∃ g, ((srcM1 c 19 hk_19).view.loc (c : Thread nD τ) ↦[(srcM1 c 19 hk_19).view.set]{fullShare} g : sProp 𝕄)) ∗ (∃ g, ((srcM1 c 20 hk_20).view.loc (c : Thread nD τ) ↦[(srcM1 c 20 hk_20).view.set]{fullShare} g : sProp 𝕄)) ∗ (∃ g, ((srcM1 c 21 hk_21).view.loc (c : Thread nD τ) ↦[(srcM1 c 21 hk_21).view.set]{fullShare} g : sProp 𝕄)) ∗ (∃ g, ((srcM1 c 22 hk_22).view.loc (c : Thread nD τ) ↦[(srcM1 c 22 hk_22).view.set]{fullShare} g : sProp 𝕄)) ∗ (∃ g, ((srcM1 c 23 hk_23).view.loc (c : Thread nD τ) ↦[(srcM1 c 23 hk_23).view.set]{fullShare} g : sProp 𝕄)) ∗ (∃ g, ((srcM1 c 24 hk_24).view.loc (c : Thread nD τ) ↦[(srcM1 c 24 hk_24).view.set]{fullShare} g : sProp 𝕄)) ∗ (∃ g, ((srcM1 c 25 hk_25).view.loc (c : Thread nD τ) ↦[(srcM1 c 25 hk_25).view.set]{fullShare} g : sProp 𝕄)) ∗ (∃ g, ((srcM1 c 26 hk_26).view.loc (c : Thread nD τ) ↦[(srcM1 c 26 hk_26).view.set]{fullShare} g : sProp 𝕄)) ∗ (∃ g, ((srcM1 c 27 hk_27).view.loc (c : Thread nD τ) ↦[(srcM1 c 27 hk_27).view.set]{fullShare} g : sProp 𝕄)) ∗ (∃ g, ((srcM1 c 28 hk_28).view.loc (c : Thread nD τ) ↦[(srcM1 c 28 hk_28).view.set]{fullShare} g : sProp 𝕄)) ∗ (∃ g, ((srcM1 c 29 hk_29).view.loc (c : Thread nD τ) ↦[(srcM1 c 29 hk_29).view.set]{fullShare} g : sProp 𝕄)) ∗ (∃ g, ((srcM1 c 30 hk_30).view.loc (c : Thread nD τ) ↦[(srcM1 c 30 hk_30).view.set]{fullShare} g : sProp 𝕄)) ∗ (∃ g, ((srcM1 c 31 hk_31).view.loc (c : Thread nD τ) ↦[(srcM1 c 31 hk_31).view.set]{fullShare} g : sProp 𝕄)))
    ∗ ((∃ g, ((slotM cm1 0 ho_0).view.loc (c : Thread nD τ) ↦[(slotM cm1 0 ho_0).view.set]{fullShare} g : sProp 𝕄)) ∗ (∃ g, ((slotM cm1 1 ho_1).view.loc (c : Thread nD τ) ↦[(slotM cm1 1 ho_1).view.set]{fullShare} g : sProp 𝕄)) ∗ (∃ g, ((slotM cm1 2 ho_2).view.loc (c : Thread nD τ) ↦[(slotM cm1 2 ho_2).view.set]{fullShare} g : sProp 𝕄)) ∗ (∃ g, ((slotM cm1 3 ho_3).view.loc (c : Thread nD τ) ↦[(slotM cm1 3 ho_3).view.set]{fullShare} g : sProp 𝕄)) ∗ (∃ g, ((slotM cm1 4 ho_4).view.loc (c : Thread nD τ) ↦[(slotM cm1 4 ho_4).view.set]{fullShare} g : sProp 𝕄)) ∗ (∃ g, ((slotM cm1 5 ho_5).view.loc (c : Thread nD τ) ↦[(slotM cm1 5 ho_5).view.set]{fullShare} g : sProp 𝕄)) ∗ (∃ g, ((slotM cm1 6 ho_6).view.loc (c : Thread nD τ) ↦[(slotM cm1 6 ho_6).view.set]{fullShare} g : sProp 𝕄)) ∗ (∃ g, ((slotM cm1 7 ho_7).view.loc (c : Thread nD τ) ↦[(slotM cm1 7 ho_7).view.set]{fullShare} g : sProp 𝕄)) ∗ (∃ g, ((slotM cm1 8 ho_8).view.loc (c : Thread nD τ) ↦[(slotM cm1 8 ho_8).view.set]{fullShare} g : sProp 𝕄)) ∗ (∃ g, ((slotM cm1 9 ho_9).view.loc (c : Thread nD τ) ↦[(slotM cm1 9 ho_9).view.set]{fullShare} g : sProp 𝕄)) ∗ (∃ g, ((slotM cm1 10 ho_10).view.loc (c : Thread nD τ) ↦[(slotM cm1 10 ho_10).view.set]{fullShare} g : sProp 𝕄)) ∗ (∃ g, ((slotM cm1 11 ho_11).view.loc (c : Thread nD τ) ↦[(slotM cm1 11 ho_11).view.set]{fullShare} g : sProp 𝕄)) ∗ (∃ g, ((slotM cm1 12 ho_12).view.loc (c : Thread nD τ) ↦[(slotM cm1 12 ho_12).view.set]{fullShare} g : sProp 𝕄)) ∗ (∃ g, ((slotM cm1 13 ho_13).view.loc (c : Thread nD τ) ↦[(slotM cm1 13 ho_13).view.set]{fullShare} g : sProp 𝕄)) ∗ (∃ g, ((slotM cm1 14 ho_14).view.loc (c : Thread nD τ) ↦[(slotM cm1 14 ho_14).view.set]{fullShare} g : sProp 𝕄)) ∗ (∃ g, ((slotM cm1 15 ho_15).view.loc (c : Thread nD τ) ↦[(slotM cm1 15 ho_15).view.set]{fullShare} g : sProp 𝕄)) ∗ (∃ g, ((slotM cm1 16 ho_16).view.loc (c : Thread nD τ) ↦[(slotM cm1 16 ho_16).view.set]{fullShare} g : sProp 𝕄)) ∗ (∃ g, ((slotM cm1 17 ho_17).view.loc (c : Thread nD τ) ↦[(slotM cm1 17 ho_17).view.set]{fullShare} g : sProp 𝕄)) ∗ (∃ g, ((slotM cm1 18 ho_18).view.loc (c : Thread nD τ) ↦[(slotM cm1 18 ho_18).view.set]{fullShare} g : sProp 𝕄)) ∗ (∃ g, ((slotM cm1 19 ho_19).view.loc (c : Thread nD τ) ↦[(slotM cm1 19 ho_19).view.set]{fullShare} g : sProp 𝕄)) ∗ (∃ g, ((slotM cm1 20 ho_20).view.loc (c : Thread nD τ) ↦[(slotM cm1 20 ho_20).view.set]{fullShare} g : sProp 𝕄)) ∗ (∃ g, ((slotM cm1 21 ho_21).view.loc (c : Thread nD τ) ↦[(slotM cm1 21 ho_21).view.set]{fullShare} g : sProp 𝕄)) ∗ (∃ g, ((slotM cm1 22 ho_22).view.loc (c : Thread nD τ) ↦[(slotM cm1 22 ho_22).view.set]{fullShare} g : sProp 𝕄)) ∗ (∃ g, ((slotM cm1 23 ho_23).view.loc (c : Thread nD τ) ↦[(slotM cm1 23 ho_23).view.set]{fullShare} g : sProp 𝕄)) ∗ (∃ g, ((slotM cm1 24 ho_24).view.loc (c : Thread nD τ) ↦[(slotM cm1 24 ho_24).view.set]{fullShare} g : sProp 𝕄)) ∗ (∃ g, ((slotM cm1 25 ho_25).view.loc (c : Thread nD τ) ↦[(slotM cm1 25 ho_25).view.set]{fullShare} g : sProp 𝕄)) ∗ (∃ g, ((slotM cm1 26 ho_26).view.loc (c : Thread nD τ) ↦[(slotM cm1 26 ho_26).view.set]{fullShare} g : sProp 𝕄)) ∗ (∃ g, ((slotM cm1 27 ho_27).view.loc (c : Thread nD τ) ↦[(slotM cm1 27 ho_27).view.set]{fullShare} g : sProp 𝕄)) ∗ (∃ g, ((slotM cm1 28 ho_28).view.loc (c : Thread nD τ) ↦[(slotM cm1 28 ho_28).view.set]{fullShare} g : sProp 𝕄)) ∗ (∃ g, ((slotM cm1 29 ho_29).view.loc (c : Thread nD τ) ↦[(slotM cm1 29 ho_29).view.set]{fullShare} g : sProp 𝕄)) ∗ (∃ g, ((slotM cm1 30 ho_30).view.loc (c : Thread nD τ) ↦[(slotM cm1 30 ho_30).view.set]{fullShare} g : sProp 𝕄)) ∗ (∃ g, ((slotM cm1 31 ho_31).view.loc (c : Thread nD τ) ↦[(slotM cm1 31 ho_31).view.set]{fullShare} g : sProp 𝕄)))
    ∗ ((∃ g, ((slotM cm2 0 ho_0).view.loc (c : Thread nD τ) ↦[(slotM cm2 0 ho_0).view.set]{fullShare} g : sProp 𝕄)) ∗ (∃ g, ((slotM cm2 1 ho_1).view.loc (c : Thread nD τ) ↦[(slotM cm2 1 ho_1).view.set]{fullShare} g : sProp 𝕄)) ∗ (∃ g, ((slotM cm2 2 ho_2).view.loc (c : Thread nD τ) ↦[(slotM cm2 2 ho_2).view.set]{fullShare} g : sProp 𝕄)) ∗ (∃ g, ((slotM cm2 3 ho_3).view.loc (c : Thread nD τ) ↦[(slotM cm2 3 ho_3).view.set]{fullShare} g : sProp 𝕄)) ∗ (∃ g, ((slotM cm2 4 ho_4).view.loc (c : Thread nD τ) ↦[(slotM cm2 4 ho_4).view.set]{fullShare} g : sProp 𝕄)) ∗ (∃ g, ((slotM cm2 5 ho_5).view.loc (c : Thread nD τ) ↦[(slotM cm2 5 ho_5).view.set]{fullShare} g : sProp 𝕄)) ∗ (∃ g, ((slotM cm2 6 ho_6).view.loc (c : Thread nD τ) ↦[(slotM cm2 6 ho_6).view.set]{fullShare} g : sProp 𝕄)) ∗ (∃ g, ((slotM cm2 7 ho_7).view.loc (c : Thread nD τ) ↦[(slotM cm2 7 ho_7).view.set]{fullShare} g : sProp 𝕄)) ∗ (∃ g, ((slotM cm2 8 ho_8).view.loc (c : Thread nD τ) ↦[(slotM cm2 8 ho_8).view.set]{fullShare} g : sProp 𝕄)) ∗ (∃ g, ((slotM cm2 9 ho_9).view.loc (c : Thread nD τ) ↦[(slotM cm2 9 ho_9).view.set]{fullShare} g : sProp 𝕄)) ∗ (∃ g, ((slotM cm2 10 ho_10).view.loc (c : Thread nD τ) ↦[(slotM cm2 10 ho_10).view.set]{fullShare} g : sProp 𝕄)) ∗ (∃ g, ((slotM cm2 11 ho_11).view.loc (c : Thread nD τ) ↦[(slotM cm2 11 ho_11).view.set]{fullShare} g : sProp 𝕄)) ∗ (∃ g, ((slotM cm2 12 ho_12).view.loc (c : Thread nD τ) ↦[(slotM cm2 12 ho_12).view.set]{fullShare} g : sProp 𝕄)) ∗ (∃ g, ((slotM cm2 13 ho_13).view.loc (c : Thread nD τ) ↦[(slotM cm2 13 ho_13).view.set]{fullShare} g : sProp 𝕄)) ∗ (∃ g, ((slotM cm2 14 ho_14).view.loc (c : Thread nD τ) ↦[(slotM cm2 14 ho_14).view.set]{fullShare} g : sProp 𝕄)) ∗ (∃ g, ((slotM cm2 15 ho_15).view.loc (c : Thread nD τ) ↦[(slotM cm2 15 ho_15).view.set]{fullShare} g : sProp 𝕄)) ∗ (∃ g, ((slotM cm2 16 ho_16).view.loc (c : Thread nD τ) ↦[(slotM cm2 16 ho_16).view.set]{fullShare} g : sProp 𝕄)) ∗ (∃ g, ((slotM cm2 17 ho_17).view.loc (c : Thread nD τ) ↦[(slotM cm2 17 ho_17).view.set]{fullShare} g : sProp 𝕄)) ∗ (∃ g, ((slotM cm2 18 ho_18).view.loc (c : Thread nD τ) ↦[(slotM cm2 18 ho_18).view.set]{fullShare} g : sProp 𝕄)) ∗ (∃ g, ((slotM cm2 19 ho_19).view.loc (c : Thread nD τ) ↦[(slotM cm2 19 ho_19).view.set]{fullShare} g : sProp 𝕄)) ∗ (∃ g, ((slotM cm2 20 ho_20).view.loc (c : Thread nD τ) ↦[(slotM cm2 20 ho_20).view.set]{fullShare} g : sProp 𝕄)) ∗ (∃ g, ((slotM cm2 21 ho_21).view.loc (c : Thread nD τ) ↦[(slotM cm2 21 ho_21).view.set]{fullShare} g : sProp 𝕄)) ∗ (∃ g, ((slotM cm2 22 ho_22).view.loc (c : Thread nD τ) ↦[(slotM cm2 22 ho_22).view.set]{fullShare} g : sProp 𝕄)) ∗ (∃ g, ((slotM cm2 23 ho_23).view.loc (c : Thread nD τ) ↦[(slotM cm2 23 ho_23).view.set]{fullShare} g : sProp 𝕄)) ∗ (∃ g, ((slotM cm2 24 ho_24).view.loc (c : Thread nD τ) ↦[(slotM cm2 24 ho_24).view.set]{fullShare} g : sProp 𝕄)) ∗ (∃ g, ((slotM cm2 25 ho_25).view.loc (c : Thread nD τ) ↦[(slotM cm2 25 ho_25).view.set]{fullShare} g : sProp 𝕄)) ∗ (∃ g, ((slotM cm2 26 ho_26).view.loc (c : Thread nD τ) ↦[(slotM cm2 26 ho_26).view.set]{fullShare} g : sProp 𝕄)) ∗ (∃ g, ((slotM cm2 27 ho_27).view.loc (c : Thread nD τ) ↦[(slotM cm2 27 ho_27).view.set]{fullShare} g : sProp 𝕄)) ∗ (∃ g, ((slotM cm2 28 ho_28).view.loc (c : Thread nD τ) ↦[(slotM cm2 28 ho_28).view.set]{fullShare} g : sProp 𝕄)) ∗ (∃ g, ((slotM cm2 29 ho_29).view.loc (c : Thread nD τ) ↦[(slotM cm2 29 ho_29).view.set]{fullShare} g : sProp 𝕄)) ∗ (∃ g, ((slotM cm2 30 ho_30).view.loc (c : Thread nD τ) ↦[(slotM cm2 30 ho_30).view.set]{fullShare} g : sProp 𝕄)) ∗ (∃ g, ((slotM cm2 31 ho_31).view.loc (c : Thread nD τ) ↦[(slotM cm2 31 ho_31).view.set]{fullShare} g : sProp 𝕄)))
    ∗ semVal ((c : Thread nD τ), .dma cc0_scratch6.sem) 0
    ∗ (semVal ((c : Thread nD τ), .dma (semAt cc0_scratch11 0 ho_0)) 0 ∗ semVal ((c : Thread nD τ), .dma (semAt cc0_scratch11 1 ho_1)) 0 ∗ semVal ((c : Thread nD τ), .dma (semAt cc0_scratch11 2 ho_2)) 0 ∗ semVal ((c : Thread nD τ), .dma (semAt cc0_scratch11 3 ho_3)) 0 ∗ semVal ((c : Thread nD τ), .dma (semAt cc0_scratch11 4 ho_4)) 0 ∗ semVal ((c : Thread nD τ), .dma (semAt cc0_scratch11 5 ho_5)) 0 ∗ semVal ((c : Thread nD τ), .dma (semAt cc0_scratch11 6 ho_6)) 0 ∗ semVal ((c : Thread nD τ), .dma (semAt cc0_scratch11 7 ho_7)) 0 ∗ semVal ((c : Thread nD τ), .dma (semAt cc0_scratch11 8 ho_8)) 0 ∗ semVal ((c : Thread nD τ), .dma (semAt cc0_scratch11 9 ho_9)) 0 ∗ semVal ((c : Thread nD τ), .dma (semAt cc0_scratch11 10 ho_10)) 0 ∗ semVal ((c : Thread nD τ), .dma (semAt cc0_scratch11 11 ho_11)) 0 ∗ semVal ((c : Thread nD τ), .dma (semAt cc0_scratch11 12 ho_12)) 0 ∗ semVal ((c : Thread nD τ), .dma (semAt cc0_scratch11 13 ho_13)) 0 ∗ semVal ((c : Thread nD τ), .dma (semAt cc0_scratch11 14 ho_14)) 0 ∗ semVal ((c : Thread nD τ), .dma (semAt cc0_scratch11 15 ho_15)) 0 ∗ semVal ((c : Thread nD τ), .dma (semAt cc0_scratch11 16 ho_16)) 0 ∗ semVal ((c : Thread nD τ), .dma (semAt cc0_scratch11 17 ho_17)) 0 ∗ semVal ((c : Thread nD τ), .dma (semAt cc0_scratch11 18 ho_18)) 0 ∗ semVal ((c : Thread nD τ), .dma (semAt cc0_scratch11 19 ho_19)) 0 ∗ semVal ((c : Thread nD τ), .dma (semAt cc0_scratch11 20 ho_20)) 0 ∗ semVal ((c : Thread nD τ), .dma (semAt cc0_scratch11 21 ho_21)) 0 ∗ semVal ((c : Thread nD τ), .dma (semAt cc0_scratch11 22 ho_22)) 0 ∗ semVal ((c : Thread nD τ), .dma (semAt cc0_scratch11 23 ho_23)) 0 ∗ semVal ((c : Thread nD τ), .dma (semAt cc0_scratch11 24 ho_24)) 0 ∗ semVal ((c : Thread nD τ), .dma (semAt cc0_scratch11 25 ho_25)) 0 ∗ semVal ((c : Thread nD τ), .dma (semAt cc0_scratch11 26 ho_26)) 0 ∗ semVal ((c : Thread nD τ), .dma (semAt cc0_scratch11 27 ho_27)) 0 ∗ semVal ((c : Thread nD τ), .dma (semAt cc0_scratch11 28 ho_28)) 0 ∗ semVal ((c : Thread nD τ), .dma (semAt cc0_scratch11 29 ho_29)) 0 ∗ semVal ((c : Thread nD τ), .dma (semAt cc0_scratch11 30 ho_30)) 0 ∗ semVal ((c : Thread nD τ), .dma (semAt cc0_scratch11 31 ho_31)) 0)
    ∗ semVal (s1Cell c 0 ho_0) 0 ∗ semVal (r1Cell c 0 ho_0) 0 ∗ semVal (s2Cell c 0 ho_0) 0 ∗ semVal (r2Cell c 0 ho_0) 0
    ∗ ((semVal (s1Cell c 1 ho_1) 0 ∗ semVal (r1Cell c 1 ho_1) 0 ∗ semVal (s2Cell c 1 ho_1) 0 ∗ semVal (r2Cell c 1 ho_1) 0) ∗ (semVal (s1Cell c 2 ho_2) 0 ∗ semVal (r1Cell c 2 ho_2) 0 ∗ semVal (s2Cell c 2 ho_2) 0 ∗ semVal (r2Cell c 2 ho_2) 0) ∗ (semVal (s1Cell c 3 ho_3) 0 ∗ semVal (r1Cell c 3 ho_3) 0 ∗ semVal (s2Cell c 3 ho_3) 0 ∗ semVal (r2Cell c 3 ho_3) 0) ∗ (semVal (s1Cell c 4 ho_4) 0 ∗ semVal (r1Cell c 4 ho_4) 0 ∗ semVal (s2Cell c 4 ho_4) 0 ∗ semVal (r2Cell c 4 ho_4) 0) ∗ (semVal (s1Cell c 5 ho_5) 0 ∗ semVal (r1Cell c 5 ho_5) 0 ∗ semVal (s2Cell c 5 ho_5) 0 ∗ semVal (r2Cell c 5 ho_5) 0) ∗ (semVal (s1Cell c 6 ho_6) 0 ∗ semVal (r1Cell c 6 ho_6) 0 ∗ semVal (s2Cell c 6 ho_6) 0 ∗ semVal (r2Cell c 6 ho_6) 0) ∗ (semVal (s1Cell c 7 ho_7) 0 ∗ semVal (r1Cell c 7 ho_7) 0 ∗ semVal (s2Cell c 7 ho_7) 0 ∗ semVal (r2Cell c 7 ho_7) 0) ∗ (semVal (s1Cell c 8 ho_8) 0 ∗ semVal (r1Cell c 8 ho_8) 0 ∗ semVal (s2Cell c 8 ho_8) 0 ∗ semVal (r2Cell c 8 ho_8) 0) ∗ (semVal (s1Cell c 9 ho_9) 0 ∗ semVal (r1Cell c 9 ho_9) 0 ∗ semVal (s2Cell c 9 ho_9) 0 ∗ semVal (r2Cell c 9 ho_9) 0) ∗ (semVal (s1Cell c 10 ho_10) 0 ∗ semVal (r1Cell c 10 ho_10) 0 ∗ semVal (s2Cell c 10 ho_10) 0 ∗ semVal (r2Cell c 10 ho_10) 0) ∗ (semVal (s1Cell c 11 ho_11) 0 ∗ semVal (r1Cell c 11 ho_11) 0 ∗ semVal (s2Cell c 11 ho_11) 0 ∗ semVal (r2Cell c 11 ho_11) 0) ∗ (semVal (s1Cell c 12 ho_12) 0 ∗ semVal (r1Cell c 12 ho_12) 0 ∗ semVal (s2Cell c 12 ho_12) 0 ∗ semVal (r2Cell c 12 ho_12) 0) ∗ (semVal (s1Cell c 13 ho_13) 0 ∗ semVal (r1Cell c 13 ho_13) 0 ∗ semVal (s2Cell c 13 ho_13) 0 ∗ semVal (r2Cell c 13 ho_13) 0) ∗ (semVal (s1Cell c 14 ho_14) 0 ∗ semVal (r1Cell c 14 ho_14) 0 ∗ semVal (s2Cell c 14 ho_14) 0 ∗ semVal (r2Cell c 14 ho_14) 0) ∗ (semVal (s1Cell c 15 ho_15) 0 ∗ semVal (r1Cell c 15 ho_15) 0 ∗ semVal (s2Cell c 15 ho_15) 0 ∗ semVal (r2Cell c 15 ho_15) 0) ∗ (semVal (s1Cell c 16 ho_16) 0 ∗ semVal (r1Cell c 16 ho_16) 0 ∗ semVal (s2Cell c 16 ho_16) 0 ∗ semVal (r2Cell c 16 ho_16) 0) ∗ (semVal (s1Cell c 17 ho_17) 0 ∗ semVal (r1Cell c 17 ho_17) 0 ∗ semVal (s2Cell c 17 ho_17) 0 ∗ semVal (r2Cell c 17 ho_17) 0) ∗ (semVal (s1Cell c 18 ho_18) 0 ∗ semVal (r1Cell c 18 ho_18) 0 ∗ semVal (s2Cell c 18 ho_18) 0 ∗ semVal (r2Cell c 18 ho_18) 0) ∗ (semVal (s1Cell c 19 ho_19) 0 ∗ semVal (r1Cell c 19 ho_19) 0 ∗ semVal (s2Cell c 19 ho_19) 0 ∗ semVal (r2Cell c 19 ho_19) 0) ∗ (semVal (s1Cell c 20 ho_20) 0 ∗ semVal (r1Cell c 20 ho_20) 0 ∗ semVal (s2Cell c 20 ho_20) 0 ∗ semVal (r2Cell c 20 ho_20) 0) ∗ (semVal (s1Cell c 21 ho_21) 0 ∗ semVal (r1Cell c 21 ho_21) 0 ∗ semVal (s2Cell c 21 ho_21) 0 ∗ semVal (r2Cell c 21 ho_21) 0) ∗ (semVal (s1Cell c 22 ho_22) 0 ∗ semVal (r1Cell c 22 ho_22) 0 ∗ semVal (s2Cell c 22 ho_22) 0 ∗ semVal (r2Cell c 22 ho_22) 0) ∗ (semVal (s1Cell c 23 ho_23) 0 ∗ semVal (r1Cell c 23 ho_23) 0 ∗ semVal (s2Cell c 23 ho_23) 0 ∗ semVal (r2Cell c 23 ho_23) 0) ∗ (semVal (s1Cell c 24 ho_24) 0 ∗ semVal (r1Cell c 24 ho_24) 0 ∗ semVal (s2Cell c 24 ho_24) 0 ∗ semVal (r2Cell c 24 ho_24) 0) ∗ (semVal (s1Cell c 25 ho_25) 0 ∗ semVal (r1Cell c 25 ho_25) 0 ∗ semVal (s2Cell c 25 ho_25) 0 ∗ semVal (r2Cell c 25 ho_25) 0) ∗ (semVal (s1Cell c 26 ho_26) 0 ∗ semVal (r1Cell c 26 ho_26) 0 ∗ semVal (s2Cell c 26 ho_26) 0 ∗ semVal (r2Cell c 26 ho_26) 0) ∗ (semVal (s1Cell c 27 ho_27) 0 ∗ semVal (r1Cell c 27 ho_27) 0 ∗ semVal (s2Cell c 27 ho_27) 0 ∗ semVal (r2Cell c 27 ho_27) 0) ∗ (semVal (s1Cell c 28 ho_28) 0 ∗ semVal (r1Cell c 28 ho_28) 0 ∗ semVal (s2Cell c 28 ho_28) 0 ∗ semVal (r2Cell c 28 ho_28) 0) ∗ (semVal (s1Cell c 29 ho_29) 0 ∗ semVal (r1Cell c 29 ho_29) 0 ∗ semVal (s2Cell c 29 ho_29) 0 ∗ semVal (r2Cell c 29 ho_29) 0) ∗ (semVal (s1Cell c 30 ho_30) 0 ∗ semVal (r1Cell c 30 ho_30) 0 ∗ semVal (s2Cell c 30 ho_30) 0 ∗ semVal (r2Cell c 30 ho_30) 0) ∗ (semVal (s1Cell c 31 ho_31) 0 ∗ semVal (r1Cell c 31 ho_31) 0 ∗ semVal (s2Cell c 31 ho_31) 0 ∗ semVal (r2Cell c 31 ho_31) 0)))

end End

end Cert.KernelIdealProto
end
-- ==== Proof.KernelIdealGlue.lean ====
import proofs.«900784_g7700000000000785_dist_f_of_ar_i_m512_n256_v7x_i32_bf16_1_alg».proof.Proof.KernelIdealBodyDefs
import proofs.«900784_g7700000000000785_dist_f_of_ar_i_m512_n256_v7x_i32_bf16_1_alg».proof.Proof.KernelIdealLaunch
import proofs.«900784_g7700000000000785_dist_f_of_ar_i_m512_n256_v7x_i32_bf16_1_alg».proof.Proof.KernelIdealCuts

/-!
# From the launch's invariant to the kernel body's starting state

What a device owes at launch, summed over the offsets, is the explicit sum the body pays from; and the invariant the
launch establishes before the kernel's one point, with what the device owes, is the body's starting state: the two
landing buffers cut into their 32 slots, every family of per-offset resources regrouped offset by offset, each group
set aside.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What a device owes, summand by summand -/

/-- A sum over the offsets `1 … 31`, written out from 31 down to 1. -/
theorem sum31 {M : Type} [AddCommMonoid M] (g : ℕ → M) :
    ∑ k : Fin 31, g (k.val + 1) = g 31 + g 30 + g 29 + g 28 + g 27 + g 26 + g 25 + g 24 + g 23 + g 22 + g 21 + g 20 + g 19 + g 18 + g 17 + g 16 + g 15 + g 14 + g 13 + g 12 + g 11 + g 10 + g 9 + g 8 + g 7 + g 6 + g 5 + g 4 + g 3 + g 2 + g 1 := by
  rw [← Equiv.sum_comp Fin.revPerm (fun k : Fin 31 => g (k.val + 1)),
    Finset.sum_congr rfl (fun k _ => show g ((Fin.revPerm k).val + 1) = g (31 - k.val) from
      congrArg g (by rw [Fin.revPerm_apply, Fin.val_rev]; omega)),
    Fin.sum_univ_eq_sum_range (fun i => g (31 - i)) 31]
  simp only [Finset.sum_range_succ, Finset.sum_range_zero, zero_add, Nat.reduceSub, Nat.sub_zero]

theorem owed93_eq (c : Dev nD) : O₀ c = owed93 c := by
  let g2 : ℕ → CellTallies nD τ sig Unit := fun k => if h : k < 32 then tallyAt (r2Cell (rot c k) k h) () NX else 0
  let g1 : ℕ → CellTallies nD τ sig Unit := fun k => if h : k < 32 then tallyAt (r1Cell (rot c k) k h) () NX else 0
  let gb : ℕ → CellTallies nD τ sig Unit := fun k => tallyAt (barCell (rot c k)) () 1
  have h (k : Fin 31) : owedAt c (k.val + 1) (by omega) = g2 (k.val + 1) + g1 (k.val + 1) + gb (k.val + 1) := by
    simp only [g2, g1, gb, owedAt, dif_pos (show k.val + 1 < 32 by omega)]
  unfold O₀
  rw [Finset.sum_congr rfl fun k _ => h k, Finset.sum_add_distrib, Finset.sum_add_distrib, sum31 g2, sum31 g1, sum31 gb]
  simp only [g2, g1, gb, dif_pos ho_1, dif_pos ho_2, dif_pos ho_3, dif_pos ho_4, dif_pos ho_5, dif_pos ho_6, dif_pos ho_7, dif_pos ho_8, dif_pos ho_9, dif_pos ho_10, dif_pos ho_11, dif_pos ho_12, dif_pos ho_13, dif_pos ho_14, dif_pos ho_15, dif_pos ho_16, dif_pos ho_17, dif_pos ho_18, dif_pos ho_19, dif_pos ho_20, dif_pos ho_21, dif_pos ho_22, dif_pos ho_23, dif_pos ho_24, dif_pos ho_25, dif_pos ho_26, dif_pos ho_27, dif_pos ho_28, dif_pos ho_29, dif_pos ho_30, dif_pos ho_31, owed93, add_assoc]

/-! ## Families over the offsets, taken apart -/

omit [FloatOps F] in
theorem bigSep_fin_succ {n : ℕ} (Φ : Fin (n + 1) → sProp 𝕄) :
    bigSep Finset.univ Φ = iprop(Φ 0 ∗ bigSep Finset.univ fun j : Fin n => Φ j.succ) := by
  rw [bigSep_univ_equiv (finSuccEquiv n).symm Φ, bigSep_univ_option]
  simp only [finSuccEquiv_symm_none, finSuccEquiv_symm_some]

omit [FloatOps F] in
theorem bigSep_fin31 (Φ : Fin 31 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

section Groups
variable (c : Dev nD) (g1 : Buf (Elt F) (cm1.view.loc (c : Thread nD τ))) (g2 : Buf (Elt F) (cm2.view.loc (c : Thread nD τ)))

/-- Slot `o` of a landing buffer, held at the buffer's contents. -/
abbrev slot1 (o : Fin 32) : sProp 𝕄 :=
  ((slotM cm1 o.val o.isLt).view.loc (c : Thread nD τ) ↦[(slotM cm1 o.val o.isLt).view.set]{fullShare} g1)
abbrev slot2 (o : Fin 32) : sProp 𝕄 :=
  ((slotM cm2 o.val o.isLt).view.loc (c : Thread nD τ) ↦[(slotM cm2 o.val o.isLt).view.set]{fullShare} g2)

/-- The barrier signal's resources at offset `k + 1`: its token and the two landing slots `31 - k`. -/
def sigResG (k : Fin 31) : sProp 𝕄 :=
  iprop(dutyTok ER (barCell (rot c (k.val + 1))) 0 (k.val + 1) ∗ slot1 (F := F) c g1 (Fin.rev k).succ ∗ slot2 (F := F) c g2 (Fin.rev k).succ)
/-- The first exchange's transfer at offset `k + 1`: the tokens of its send and receive duties. -/
def bResG (k : Fin 31) : sProp 𝕄 :=
  iprop(dutyTok ER (s1Cell c (k.val + 1) (by omega)) 0 0 ∗ dutyTok ER (r1Cell (rot c (k.val + 1)) (k.val + 1) (by omega)) 0 0)
/-- The first exchange's receive wait at offset `k + 1`: the position and the credit on the receive cell. -/
def cResG (k : Fin 31) : sProp 𝕄 :=
  iprop(atPos ER (r1Cell c (k.val + 1) (by omega)) 0 ∅ 0 ∗ cred (tallyAt (r1Cell c (k.val + 1) (by omega)) () NX))
/-- The second exchange's transfer at offset `k + 1`. -/
def dResG (k : Fin 31) : sProp 𝕄 :=
  iprop(dutyTok ER (s2Cell c (k.val + 1) (by omega)) 0 0 ∗ dutyTok ER (r2Cell (rot c (k.val + 1)) (k.val + 1) (by omega)) 0 0)
/-- The second exchange's receive wait at offset `k + 1`, and the semaphore of the output copy that follows it. -/
def eResG (k : Fin 31) : sProp 𝕄 :=
  iprop(atPos ER (r2Cell c (k.val + 1) (by omega)) 0 ∅ 0 ∗ cred (tallyAt (r2Cell c (k.val + 1) (by omega)) () NX)
    ∗ semVal ((c : Thread nD τ), .dma (semAt cc0_scratch11 (k.val + 1) (by omega))) 0)
/-- The two send waits at offset `k + 1`: the positions on the send cells. -/
def fResG (k : Fin 31) : sProp 𝕄 :=
  iprop(atPos ER (s1Cell c (k.val + 1) (by omega)) 0 ∅ 0 ∗ atPos ER (s2Cell c (k.val + 1) (by omega)) 0 ∅ 0)

omit [FloatOps F] in
theorem sig_chain : (bigSep Finset.univ fun k : Fin 31 => Held (sigResG (F := F) c g1 g2 k)) = sigAll (F := F) c g1 g2 := bigSep_fin31 _
omit [FloatOps F] in
theorem b_chain : (bigSep Finset.univ fun k : Fin 31 => Held (bResG (F := F) c k)) = bAll (F := F) c := bigSep_fin31 _
omit [FloatOps F] in
theorem c_chain : (bigSep Finset.univ fun k : Fin 31 => Held (cResG (F := F) c k)) = cAll (F := F) c := bigSep_fin31 _
omit [FloatOps F] in
theorem d_chain : (bigSep Finset.univ fun k : Fin 31 => Held (dResG (F := F) c k)) = dAll (F := F) c := bigSep_fin31 _
omit [FloatOps F] in
theorem e_chain : (bigSep Finset.univ fun k : Fin 31 => Held (eResG (F := F) c k)) = eAll (F := F) c := bigSep_fin31 _
omit [FloatOps F] in
theorem f_chain : (bigSep Finset.univ fun k : Fin 31 => Held (fResG (F := F) c k)) = fAll (F := F) c := bigSep_fin31 _

omit [FloatOps F] in
theorem sig_split : bigSep Finset.univ (sigResG (F := F) c g1 g2)
    = iprop((bigSep Finset.univ fun k : Fin 31 => dutyTok ER (barCell (rot c (k.val + 1))) 0 (k.val + 1))
      ∗ (bigSep Finset.univ fun k : Fin 31 => slot1 (F := F) c g1 (Fin.rev k).succ)
      ∗ (bigSep Finset.univ fun k : Fin 31 => slot2 (F := F) c g2 (Fin.rev k).succ)) := by
  unfold sigResG; rw [bigSep_sep', bigSep_sep']
omit [FloatOps F] in
theorem b_split : bigSep Finset.univ (bResG (F := F) c)
    = iprop((bigSep Finset.univ fun k : Fin 31 => dutyTok ER (s1Cell c (k.val + 1) (by omega)) 0 0)
      ∗ (bigSep Finset.univ fun k : Fin 31 => dutyTok ER (r1Cell (rot c (k.val + 1)) (k.val + 1) (by omega)) 0 0)) := by
  unfold bResG; rw [bigSep_sep']
omit [FloatOps F] in
theorem c_split : bigSep Finset.univ (cResG (F := F) c)
    = iprop((bigSep Finset.univ fun k : Fin 31 => atPos ER (r1Cell c (k.val + 1) (by omega)) 0 ∅ 0)
      ∗ (bigSep Finset.univ fun k : Fin 31 => cred (tallyAt (r1Cell c (k.val + 1) (by omega)) () NX))) := by
  unfold cResG; rw [bigSep_sep']
omit [FloatOps F] in
theorem d_split : bigSep Finset.univ (dResG (F := F) c)
    = iprop((bigSep Finset.univ fun k : Fin 31 => dutyTok ER (s2Cell c (k.val + 1) (by omega)) 0 0)
      ∗ (bigSep Finset.univ fun k : Fin 31 => dutyTok ER (r2Cell (rot c (k.val + 1)) (k.val + 1) (by omega)) 0 0)) := by
  unfold dResG; rw [bigSep_sep']
omit [FloatOps F] in
theorem e_split : bigSep Finset.univ (eResG (F := F) c)
    = iprop((bigSep Finset.univ fun k : Fin 31 => atPos ER (r2Cell c (k.val + 1) (by omega)) 0 ∅ 0)
      ∗ (bigSep Finset.univ fun k : Fin 31 => cred (tallyAt (r2Cell c (k.val + 1) (by omega)) () NX))
      ∗ (bigSep Finset.univ fun k : Fin 31 => semVal ((c : Thread nD τ), .dma (semAt cc0_scratch11 (k.val + 1) (by omega))) 0)) := by
  unfold eResG; rw [bigSep_sep', bigSep_sep']
omit [FloatOps F] in
theorem f_split : bigSep Finset.univ (fResG (F := F) c)
    = iprop((bigSep Finset.univ fun k : Fin 31 => atPos ER (s1Cell c (k.val + 1) (by omega)) 0 ∅ 0)
      ∗ (bigSep Finset.univ fun k : Fin 31 => atPos ER (s2Cell c (k.val + 1) (by omega)) 0 ∅ 0)) := by
  unfold fResG; rw [bigSep_sep']

omit [FloatOps F] in
/-- A device's positions: on its barrier cell, and on its four exchange cells offset by offset. -/
theorem atPos_split : (bigSep Finset.univ fun ck : CK => (atPos ER (kcell (c, ck)) 0 ∅ 0 : sProp 𝕄))
    = iprop(atPos ER (barCell c) 0 ∅ 0
      ∗ (bigSep Finset.univ fun k : Fin 31 => atPos ER (s1Cell c (k.val + 1) (by omega)) 0 ∅ 0)
      ∗ (bigSep Finset.univ fun k : Fin 31 => atPos ER (r1Cell c (k.val + 1) (by omega)) 0 ∅ 0)
      ∗ (bigSep Finset.univ fun k : Fin 31 => atPos ER (s2Cell c (k.val + 1) (by omega)) 0 ∅ 0)
      ∗ (bigSep Finset.univ fun k : Fin 31 => atPos ER (r2Cell c (k.val + 1) (by omega)) 0 ∅ 0)) := by
  rw [bigSep_univ_option, bigSep_univ_prod, bigSep_fin4]; rfl
omit [FloatOps F] in
theorem payToks_split : bigSep Finset.univ (payToksAt (F := F) c)
    = iprop((bigSep Finset.univ fun k : Fin 31 => dutyTok ER (barCell (rot c (k.val + 1))) 0 (k.val + 1))
      ∗ (bigSep Finset.univ fun k : Fin 31 => dutyTok ER (s1Cell c (k.val + 1) (by omega)) 0 0)
      ∗ (bigSep Finset.univ fun k : Fin 31 => dutyTok ER (r1Cell (rot c (k.val + 1)) (k.val + 1) (by omega)) 0 0)
      ∗ (bigSep Finset.univ fun k : Fin 31 => dutyTok ER (s2Cell c (k.val + 1) (by omega)) 0 0)
      ∗ (bigSep Finset.univ fun k : Fin 31 => dutyTok ER (r2Cell (rot c (k.val + 1)) (k.val + 1) (by omega)) 0 0)) := by
  unfold payToksAt; rw [bigSep_sep', bigSep_sep', bigSep_sep', bigSep_sep']
omit [FloatOps F] in
theorem outSems_split : (bigSep Finset.univ fun o : Fin 32 => (semVal ((c : Thread nD τ), .dma (semAt cc0_scratch11 o.val o.isLt)) 0 : sProp 𝕄))
    = iprop(semVal ((c : Thread nD τ), .dma (semAt cc0_scratch11 0 ho_0)) 0
      ∗ bigSep Finset.univ fun k : Fin 31 => semVal ((c : Thread nD τ), .dma (semAt cc0_scratch11 (k.val + 1) (by omega))) 0) := by
  rw [bigSep_fin_succ]; rfl
omit [FloatOps F] in
theorem slots1_split : (bigSep Finset.univ fun o : Fin 32 => slot1 (F := F) c g1 o)
    = iprop(slot1 (F := F) c g1 0 ∗ bigSep Finset.univ fun k : Fin 31 => slot1 (F := F) c g1 (Fin.rev k).succ) := by
  rw [bigSep_fin_succ, bigSep_univ_equiv Fin.revPerm (fun j : Fin 31 => slot1 (F := F) c g1 j.succ)]; rfl
omit [FloatOps F] in
theorem slots2_split : (bigSep Finset.univ fun o : Fin 32 => slot2 (F := F) c g2 o)
    = iprop(slot2 (F := F) c g2 0 ∗ bigSep Finset.univ fun k : Fin 31 => slot2 (F := F) c g2 (Fin.rev k).succ) := by
  rw [bigSep_fin_succ, bigSep_univ_equiv Fin.revPerm (fun j : Fin 31 => slot2 (F := F) c g2 j.succ)]; rfl

end Groups

/-! ## The body's starting state -/

omit [FloatOps F] in
theorem creds_split (c : Dev nD) :
    (bigSep Finset.univ fun k : Fin 31 => iprop(cred (tallyAt (r1Cell c (k.val + 1) (by omega)) () NX) ∗ cred (tallyAt (r2Cell c (k.val + 1) (by omega)) () NX)) : sProp 𝕄)
      = iprop((bigSep Finset.univ fun k : Fin 31 => cred (tallyAt (r1Cell c (k.val + 1) (by omega)) () NX))
        ∗ (bigSep Finset.univ fun k : Fin 31 => cred (tallyAt (r2Cell c (k.val + 1) (by omega)) () NX))) :=
  bigSep_sep' _ _ _

section Start
variable (S1c : (c : Dev nD) → Buf (Elt F) (st1.view.loc (c : Thread nD τ)))
variable (Y2c : (c : Dev nD) → Buf (Elt F) (st2.view.loc (c : Thread nD τ)))
variable (OUTc : (c : Dev nD) → Buf (Elt F) ((c : Thread nD τ).loc main_v1))
variable (m : (ℓ : Loc nD τ sig) → Buf (Elt F) ℓ)

set_option maxRecDepth 100000 in
/-- The invariant before the kernel's one point, with what the device owes, is the body's starting state: the landing
    buffers cut into their slots, the per-offset families regrouped offset by offset, every group set aside. -/
theorem body_start (c : Dev nD) :
    iprop(Φ₀ (F := F) S1c Y2c m c ∗ (dats (F := F) S1c Y2c OUTc m 0 c).owesAt () t₀.castSucc)
      ⊢ iprop(∃ K W fO f0 f1 f3 f5 g1 g2, ⌜∀ p ∈ W, True⌝ ∗ bodyStart (F := F) S1c Y2c c g1 g2 K W fO f0 f1 f3 f5 m) := by
  unfold Φ₀ start scratches ghost linear credsOf locSems Dat.owesAt Pipeline.owesWithin
  rw [show (dats (F := F) S1c Y2c OUTc m 0 c).owed t₀.castSucc = O₀ c from rfl, owed93_eq,
    atPos_split, payToks_split, creds_split, outSems_split]
  iintro ⟨⟨⟨⟨%K, #Hrec, ⟨HaB, HaS1, HaR1, HaS2, HaR2⟩, ⟨HtB, HtS1, HtR1, HtS2, HtR2⟩⟩, ⟨HcB, HcR1, HcR2⟩, Hlev,
      ⟨H6, ⟨H110, H11⟩, Hs10, Hr10, Hs20, Hr20⟩, Harg, Hout⟩,
      ⟨%f0, H0⟩, ⟨%f1, H1⟩, ⟨%g1, Hg1⟩, ⟨%f3, H3⟩, ⟨%g2, Hg2⟩, ⟨%f5, H5⟩⟩, ⟨%W, %hW, HO⟩⟩
  ihave Hsl1 := ((cm_split cm1 (Memref.isWhole_whole _) c g1).trans (Entails.of_eq (slots1_split (F := F) c g1))) $$ Hg1
  ihave Hsl2 := ((cm_split cm2 (Memref.isWhole_whole _) c g2).trans (Entails.of_eq (slots2_split (F := F) c g2))) $$ Hg2
  icases Hsl1 with ⟨Hs1z, Hs1⟩
  icases Hsl2 with ⟨Hs2z, Hs2⟩
  ihave HS := ((Entails.of_eq (sig_split (F := F) c g1 g2).symm).trans
      (((bigSep_mono fun k _ => held_intro (sigResG (F := F) c g1 g2 k)).trans (Entails.of_eq (sig_chain (F := F) c g1 g2))).trans (held_intro _))) $$ [HtB Hs1 Hs2]
  ·
    isplitl [HtB]; · iexact HtB
    isplitl [Hs1]; · iexact Hs1
    iexact Hs2
  ihave HB := ((Entails.of_eq (b_split (F := F) c).symm).trans
      (((bigSep_mono fun k _ => held_intro (bResG (F := F) c k)).trans (Entails.of_eq (b_chain (F := F) c))).trans (held_intro _))) $$ [HtS1 HtR1]
  ·
    isplitl [HtS1]; · iexact HtS1
    iexact HtR1
  ihave HC := ((Entails.of_eq (c_split (F := F) c).symm).trans
      (((bigSep_mono fun k _ => held_intro (cResG (F := F) c k)).trans (Entails.of_eq (c_chain (F := F) c))).trans (held_intro _))) $$ [HaR1 HcR1]
  ·
    isplitl [HaR1]; · iexact HaR1
    iexact HcR1
  ihave HD := ((Entails.of_eq (d_split (F := F) c).symm).trans
      (((bigSep_mono fun k _ => held_intro (dResG (F := F) c k)).trans (Entails.of_eq (d_chain (F := F) c))).trans (held_intro _))) $$ [HtS2 HtR2]
  ·
    isplitl [HtS2]; · iexact HtS2
    iexact HtR2
  ihave HE := ((Entails.of_eq (e_split (F := F) c).symm).trans
      (((bigSep_mono fun k _ => held_intro (eResG (F := F) c k)).trans (Entails.of_eq (e_chain (F := F) c))).trans (held_intro _))) $$ [HaR2 HcR2 H11]
  ·
    isplitl [HaR2]; · iexact HaR2
    isplitl [HcR2]; · iexact HcR2
    iexact H11
  ihave HF := ((Entails.of_eq (f_split (F := F) c).symm).trans
      (((bigSep_mono fun k _ => held_intro (fResG (F := F) c k)).trans (Entails.of_eq (f_chain (F := F) c))).trans (held_intro _))) $$ [HaS1 HaS2]
  ·
    isplitl [HaS1]; · iexact HaS1
    iexact HaS2
  ihave HL := (held_intro (locRes (F := F) c g1 g2)) $$ [H110 Hs1z Hs2z Hs10 Hr10 Hs20 Hr20]
  ·
    isplitl [H110]; · iexact H110
    isplitl [Hs1z]; · iexact Hs1z
    isplitl [Hs2z]; · iexact Hs2z
    isplitl [Hs10]; · iexact Hs10
    isplitl [Hr10]; · iexact Hr10
    isplitl [Hs20]; · iexact Hs20
    iexact Hr20
  iexists K; iexists W; iexists (m ((c : Thread nD τ).loc main_v1)); iexists f0; iexists f1; iexists f3; iexists f5; iexists g1; iexists g2
  isplitr; · ipureintro; exact fun _ _ => trivial
  unfold bodyStart
  isplitr; · iexact Hrec
  isplitl [Hlev]; · iexact Hlev
  isplitl [HO]; · iexact HO
  isplitl [H6]; · iexact H6
  isplitl [Harg]; · iexact Harg
  isplitl [Hout]; · iexact Hout
  isplitl [H0]; · iexact H0
  isplitl [H1]; · iexact H1
  isplitl [H3]; · iexact H3
  isplitl [H5]; · iexact H5
  isplitl [HaB]; · iexact HaB
  isplitl [HcB]; · iexact HcB
  isplitl [HL]; · iexact HL
  isplitl [HS]; · iexact HS
  isplitl [HB]; · iexact HB
  isplitl [HC]; · iexact HC
  isplitl [HD]; · iexact HD
  isplitl [HE]; · iexact HE
  iexact HF

/-- info: 'Cert.KernelIdealProto.body_start' depends on axioms: [propext, Classical.choice, Quot.sound] -/
#guard_msgs in #print axioms body_start

end Start

end Cert.KernelIdealProto

end
-- ==== Proof.KernelIdealGlueEnd.lean ====
import proofs.«900784_g7700000000000785_dist_f_of_ar_i_m512_n256_v7x_i32_bf16_1_alg».proof.Proof.KernelIdealGlue
import proofs.«900784_g7700000000000785_dist_f_of_ar_i_m512_n256_v7x_i32_bf16_1_alg».proof.Proof.KernelIdealCutsRows

/-!
# From what the kernel body leaves to the launch's invariant after the kernel

The body ends with nothing owed, the argument and the result in place, every scratch buffer back — the narrowed block and
the two landing buffers piece by piece — and every DMA semaphore at zero, listed one by one. The pieces join to whole
buffers at some contents, and the listed semaphores are all of the device's DMA semaphores, each once.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Every DMA semaphore, once -/

/-- The semaphores the launch sorted are all of them: as many, and no two alike. -/
theorem jsem_bijective : Function.Bijective jsem :=
  (Fintype.bijective_iff_injective_and_card jsem).mpr ⟨jsem_injective, by decide⟩

omit [FloatOps F] in
/-- Every DMA semaphore of a device at zero, from the list of them. -/
theorem sems_join (c : Dev nD) :
    iprop(semVal ((c : Thread nD τ), .dma cc0_scratch6.sem) 0
      ∗ (semVal ((c : Thread nD τ), .dma (semAt cc0_scratch11 0 ho_0)) 0 ∗ semVal ((c : Thread nD τ), .dma (semAt cc0_scratch11 1 ho_1)) 0 ∗ semVal ((c : Thread nD τ), .dma (semAt cc0_scratch11 2 ho_2)) 0 ∗ semVal ((c : Thread nD τ), .dma (semAt cc0_scratch11 3 ho_3)) 0 ∗ semVal ((c : Thread nD τ), .dma (semAt cc0_scratch11 4 ho_4)) 0 ∗ semVal ((c : Thread nD τ), .dma (semAt cc0_scratch11 5 ho_5)) 0 ∗ semVal ((c : Thread nD τ), .dma (semAt cc0_scratch11 6 ho_6)) 0 ∗ semVal ((c : Thread nD τ), .dma (semAt cc0_scratch11 7 ho_7)) 0 ∗ semVal ((c : Thread nD τ), .dma (semAt cc0_scratch11 8 ho_8)) 0 ∗ semVal ((c : Thread nD τ), .dma (semAt cc0_scratch11 9 ho_9)) 0 ∗ semVal ((c : Thread nD τ), .dma (semAt cc0_scratch11 10 ho_10)) 0 ∗ semVal ((c : Thread nD τ), .dma (semAt cc0_scratch11 11 ho_11)) 0 ∗ semVal ((c : Thread nD τ), .dma (semAt cc0_scratch11 12 ho_12)) 0 ∗ semVal ((c : Thread nD τ), .dma (semAt cc0_scratch11 13 ho_13)) 0 ∗ semVal ((c : Thread nD τ), .dma (semAt cc0_scratch11 14 ho_14)) 0 ∗ semVal ((c : Thread nD τ), .dma (semAt cc0_scratch11 15 ho_15)) 0 ∗ semVal ((c : Thread nD τ), .dma (semAt cc0_scratch11 16 ho_16)) 0 ∗ semVal ((c : Thread nD τ), .dma (semAt cc0_scratch11 17 ho_17)) 0 ∗ semVal ((c : Thread nD τ), .dma (semAt cc0_scratch11 18 ho_18)) 0 ∗ semVal ((c : Thread nD τ), .dma (semAt cc0_scratch11 19 ho_19)) 0 ∗ semVal ((c : Thread nD τ), .dma (semAt cc0_scratch11 20 ho_20)) 0 ∗ semVal ((c : Thread nD τ), .dma (semAt cc0_scratch11 21 ho_21)) 0 ∗ semVal ((c : Thread nD τ), .dma (semAt cc0_scratch11 22 ho_22)) 0 ∗ semVal ((c : Thread nD τ), .dma (semAt cc0_scratch11 23 ho_23)) 0 ∗ semVal ((c : Thread nD τ), .dma (semAt cc0_scratch11 24 ho_24)) 0 ∗ semVal ((c : Thread nD τ), .dma (semAt cc0_scratch11 25 ho_25)) 0 ∗ semVal ((c : Thread nD τ), .dma (semAt cc0_scratch11 26 ho_26)) 0 ∗ semVal ((c : Thread nD τ), .dma (semAt cc0_scratch11 27 ho_27)) 0 ∗ semVal ((c : Thread nD τ), .dma (semAt cc0_scratch11 28 ho_28)) 0 ∗ semVal ((c : Thread nD τ), .dma (semAt cc0_scratch11 29 ho_29)) 0 ∗ semVal ((c : Thread nD τ), .dma (semAt cc0_scratch11 30 ho_30)) 0 ∗ semVal ((c : Thread nD τ), .dma (semAt cc0_scratch11 31 ho_31)) 0)
      ∗ semVal (s1Cell c 0 ho_0) 0 ∗ semVal (r1Cell c 0 ho_0) 0 ∗ semVal (s2Cell c 0 ho_0) 0 ∗ semVal (r2Cell c 0 ho_0) 0
      ∗ ((semVal (s1Cell c 1 ho_1) 0 ∗ semVal (r1Cell c 1 ho_1) 0 ∗ semVal (s2Cell c 1 ho_1) 0 ∗ semVal (r2Cell c 1 ho_1) 0) ∗ (semVal (s1Cell c 2 ho_2) 0 ∗ semVal (r1Cell c 2 ho_2) 0 ∗ semVal (s2Cell c 2 ho_2) 0 ∗ semVal (r2Cell c 2 ho_2) 0) ∗ (semVal (s1Cell c 3 ho_3) 0 ∗ semVal (r1Cell c 3 ho_3) 0 ∗ semVal (s2Cell c 3 ho_3) 0 ∗ semVal (r2Cell c 3 ho_3) 0) ∗ (semVal (s1Cell c 4 ho_4) 0 ∗ semVal (r1Cell c 4 ho_4) 0 ∗ semVal (s2Cell c 4 ho_4) 0 ∗ semVal (r2Cell c 4 ho_4) 0) ∗ (semVal (s1Cell c 5 ho_5) 0 ∗ semVal (r1Cell c 5 ho_5) 0 ∗ semVal (s2Cell c 5 ho_5) 0 ∗ semVal (r2Cell c 5 ho_5) 0) ∗ (semVal (s1Cell c 6 ho_6) 0 ∗ semVal (r1Cell c 6 ho_6) 0 ∗ semVal (s2Cell c 6 ho_6) 0 ∗ semVal (r2Cell c 6 ho_6) 0) ∗ (semVal (s1Cell c 7 ho_7) 0 ∗ semVal (r1Cell c 7 ho_7) 0 ∗ semVal (s2Cell c 7 ho_7) 0 ∗ semVal (r2Cell c 7 ho_7) 0) ∗ (semVal (s1Cell c 8 ho_8) 0 ∗ semVal (r1Cell c 8 ho_8) 0 ∗ semVal (s2Cell c 8 ho_8) 0 ∗ semVal (r2Cell c 8 ho_8) 0) ∗ (semVal (s1Cell c 9 ho_9) 0 ∗ semVal (r1Cell c 9 ho_9) 0 ∗ semVal (s2Cell c 9 ho_9) 0 ∗ semVal (r2Cell c 9 ho_9) 0) ∗ (semVal (s1Cell c 10 ho_10) 0 ∗ semVal (r1Cell c 10 ho_10) 0 ∗ semVal (s2Cell c 10 ho_10) 0 ∗ semVal (r2Cell c 10 ho_10) 0) ∗ (semVal (s1Cell c 11 ho_11) 0 ∗ semVal (r1Cell c 11 ho_11) 0 ∗ semVal (s2Cell c 11 ho_11) 0 ∗ semVal (r2Cell c 11 ho_11) 0) ∗ (semVal (s1Cell c 12 ho_12) 0 ∗ semVal (r1Cell c 12 ho_12) 0 ∗ semVal (s2Cell c 12 ho_12) 0 ∗ semVal (r2Cell c 12 ho_12) 0) ∗ (semVal (s1Cell c 13 ho_13) 0 ∗ semVal (r1Cell c 13 ho_13) 0 ∗ semVal (s2Cell c 13 ho_13) 0 ∗ semVal (r2Cell c 13 ho_13) 0) ∗ (semVal (s1Cell c 14 ho_14) 0 ∗ semVal (r1Cell c 14 ho_14) 0 ∗ semVal (s2Cell c 14 ho_14) 0 ∗ semVal (r2Cell c 14 ho_14) 0) ∗ (semVal (s1Cell c 15 ho_15) 0 ∗ semVal (r1Cell c 15 ho_15) 0 ∗ semVal (s2Cell c 15 ho_15) 0 ∗ semVal (r2Cell c 15 ho_15) 0) ∗ (semVal (s1Cell c 16 ho_16) 0 ∗ semVal (r1Cell c 16 ho_16) 0 ∗ semVal (s2Cell c 16 ho_16) 0 ∗ semVal (r2Cell c 16 ho_16) 0) ∗ (semVal (s1Cell c 17 ho_17) 0 ∗ semVal (r1Cell c 17 ho_17) 0 ∗ semVal (s2Cell c 17 ho_17) 0 ∗ semVal (r2Cell c 17 ho_17) 0) ∗ (semVal (s1Cell c 18 ho_18) 0 ∗ semVal (r1Cell c 18 ho_18) 0 ∗ semVal (s2Cell c 18 ho_18) 0 ∗ semVal (r2Cell c 18 ho_18) 0) ∗ (semVal (s1Cell c 19 ho_19) 0 ∗ semVal (r1Cell c 19 ho_19) 0 ∗ semVal (s2Cell c 19 ho_19) 0 ∗ semVal (r2Cell c 19 ho_19) 0) ∗ (semVal (s1Cell c 20 ho_20) 0 ∗ semVal (r1Cell c 20 ho_20) 0 ∗ semVal (s2Cell c 20 ho_20) 0 ∗ semVal (r2Cell c 20 ho_20) 0) ∗ (semVal (s1Cell c 21 ho_21) 0 ∗ semVal (r1Cell c 21 ho_21) 0 ∗ semVal (s2Cell c 21 ho_21) 0 ∗ semVal (r2Cell c 21 ho_21) 0) ∗ (semVal (s1Cell c 22 ho_22) 0 ∗ semVal (r1Cell c 22 ho_22) 0 ∗ semVal (s2Cell c 22 ho_22) 0 ∗ semVal (r2Cell c 22 ho_22) 0) ∗ (semVal (s1Cell c 23 ho_23) 0 ∗ semVal (r1Cell c 23 ho_23) 0 ∗ semVal (s2Cell c 23 ho_23) 0 ∗ semVal (r2Cell c 23 ho_23) 0) ∗ (semVal (s1Cell c 24 ho_24) 0 ∗ semVal (r1Cell c 24 ho_24) 0 ∗ semVal (s2Cell c 24 ho_24) 0 ∗ semVal (r2Cell c 24 ho_24) 0) ∗ (semVal (s1Cell c 25 ho_25) 0 ∗ semVal (r1Cell c 25 ho_25) 0 ∗ semVal (s2Cell c 25 ho_25) 0 ∗ semVal (r2Cell c 25 ho_25) 0) ∗ (semVal (s1Cell c 26 ho_26) 0 ∗ semVal (r1Cell c 26 ho_26) 0 ∗ semVal (s2Cell c 26 ho_26) 0 ∗ semVal (r2Cell c 26 ho_26) 0) ∗ (semVal (s1Cell c 27 ho_27) 0 ∗ semVal (r1Cell c 27 ho_27) 0 ∗ semVal (s2Cell c 27 ho_27) 0 ∗ semVal (r2Cell c 27 ho_27) 0) ∗ (semVal (s1Cell c 28 ho_28) 0 ∗ semVal (r1Cell c 28 ho_28) 0 ∗ semVal (s2Cell c 28 ho_28) 0 ∗ semVal (r2Cell c 28 ho_28) 0) ∗ (semVal (s1Cell c 29 ho_29) 0 ∗ semVal (r1Cell c 29 ho_29) 0 ∗ semVal (s2Cell c 29 ho_29) 0 ∗ semVal (r2Cell c 29 ho_29) 0) ∗ (semVal (s1Cell c 30 ho_30) 0 ∗ semVal (r1Cell c 30 ho_30) 0 ∗ semVal (s2Cell c 30 ho_30) 0 ∗ semVal (r2Cell c 30 ho_30) 0) ∗ (semVal (s1Cell c 31 ho_31) 0 ∗ semVal (r1Cell c 31 ho_31) 0 ∗ semVal (s2Cell c 31 ho_31) 0 ∗ semVal (r2Cell c 31 ho_31) 0)))
      ⊢ (allSems0 (F := F) c : sProp 𝕄) := by
  have hx : (bigSep Finset.univ fun ak : Fin 4 × Fin 31 => (semVal ((c : Thread nD τ), SemLoc.dma (xsem ak)) 0 : sProp 𝕄))
      = iprop((semVal (s1Cell c 1 ho_1) 0 ∗ semVal (r1Cell c 1 ho_1) 0 ∗ semVal (s2Cell c 1 ho_1) 0 ∗ semVal (r2Cell c 1 ho_1) 0) ∗ (semVal (s1Cell c 2 ho_2) 0 ∗ semVal (r1Cell c 2 ho_2) 0 ∗ semVal (s2Cell c 2 ho_2) 0 ∗ semVal (r2Cell c 2 ho_2) 0) ∗ (semVal (s1Cell c 3 ho_3) 0 ∗ semVal (r1Cell c 3 ho_3) 0 ∗ semVal (s2Cell c 3 ho_3) 0 ∗ semVal (r2Cell c 3 ho_3) 0) ∗ (semVal (s1Cell c 4 ho_4) 0 ∗ semVal (r1Cell c 4 ho_4) 0 ∗ semVal (s2Cell c 4 ho_4) 0 ∗ semVal (r2Cell c 4 ho_4) 0) ∗ (semVal (s1Cell c 5 ho_5) 0 ∗ semVal (r1Cell c 5 ho_5) 0 ∗ semVal (s2Cell c 5 ho_5) 0 ∗ semVal (r2Cell c 5 ho_5) 0) ∗ (semVal (s1Cell c 6 ho_6) 0 ∗ semVal (r1Cell c 6 ho_6) 0 ∗ semVal (s2Cell c 6 ho_6) 0 ∗ semVal (r2Cell c 6 ho_6) 0) ∗ (semVal (s1Cell c 7 ho_7) 0 ∗ semVal (r1Cell c 7 ho_7) 0 ∗ semVal (s2Cell c 7 ho_7) 0 ∗ semVal (r2Cell c 7 ho_7) 0) ∗ (semVal (s1Cell c 8 ho_8) 0 ∗ semVal (r1Cell c 8 ho_8) 0 ∗ semVal (s2Cell c 8 ho_8) 0 ∗ semVal (r2Cell c 8 ho_8) 0) ∗ (semVal (s1Cell c 9 ho_9) 0 ∗ semVal (r1Cell c 9 ho_9) 0 ∗ semVal (s2Cell c 9 ho_9) 0 ∗ semVal (r2Cell c 9 ho_9) 0) ∗ (semVal (s1Cell c 10 ho_10) 0 ∗ semVal (r1Cell c 10 ho_10) 0 ∗ semVal (s2Cell c 10 ho_10) 0 ∗ semVal (r2Cell c 10 ho_10) 0) ∗ (semVal (s1Cell c 11 ho_11) 0 ∗ semVal (r1Cell c 11 ho_11) 0 ∗ semVal (s2Cell c 11 ho_11) 0 ∗ semVal (r2Cell c 11 ho_11) 0) ∗ (semVal (s1Cell c 12 ho_12) 0 ∗ semVal (r1Cell c 12 ho_12) 0 ∗ semVal (s2Cell c 12 ho_12) 0 ∗ semVal (r2Cell c 12 ho_12) 0) ∗ (semVal (s1Cell c 13 ho_13) 0 ∗ semVal (r1Cell c 13 ho_13) 0 ∗ semVal (s2Cell c 13 ho_13) 0 ∗ semVal (r2Cell c 13 ho_13) 0) ∗ (semVal (s1Cell c 14 ho_14) 0 ∗ semVal (r1Cell c 14 ho_14) 0 ∗ semVal (s2Cell c 14 ho_14) 0 ∗ semVal (r2Cell c 14 ho_14) 0) ∗ (semVal (s1Cell c 15 ho_15) 0 ∗ semVal (r1Cell c 15 ho_15) 0 ∗ semVal (s2Cell c 15 ho_15) 0 ∗ semVal (r2Cell c 15 ho_15) 0) ∗ (semVal (s1Cell c 16 ho_16) 0 ∗ semVal (r1Cell c 16 ho_16) 0 ∗ semVal (s2Cell c 16 ho_16) 0 ∗ semVal (r2Cell c 16 ho_16) 0) ∗ (semVal (s1Cell c 17 ho_17) 0 ∗ semVal (r1Cell c 17 ho_17) 0 ∗ semVal (s2Cell c 17 ho_17) 0 ∗ semVal (r2Cell c 17 ho_17) 0) ∗ (semVal (s1Cell c 18 ho_18) 0 ∗ semVal (r1Cell c 18 ho_18) 0 ∗ semVal (s2Cell c 18 ho_18) 0 ∗ semVal (r2Cell c 18 ho_18) 0) ∗ (semVal (s1Cell c 19 ho_19) 0 ∗ semVal (r1Cell c 19 ho_19) 0 ∗ semVal (s2Cell c 19 ho_19) 0 ∗ semVal (r2Cell c 19 ho_19) 0) ∗ (semVal (s1Cell c 20 ho_20) 0 ∗ semVal (r1Cell c 20 ho_20) 0 ∗ semVal (s2Cell c 20 ho_20) 0 ∗ semVal (r2Cell c 20 ho_20) 0) ∗ (semVal (s1Cell c 21 ho_21) 0 ∗ semVal (r1Cell c 21 ho_21) 0 ∗ semVal (s2Cell c 21 ho_21) 0 ∗ semVal (r2Cell c 21 ho_21) 0) ∗ (semVal (s1Cell c 22 ho_22) 0 ∗ semVal (r1Cell c 22 ho_22) 0 ∗ semVal (s2Cell c 22 ho_22) 0 ∗ semVal (r2Cell c 22 ho_22) 0) ∗ (semVal (s1Cell c 23 ho_23) 0 ∗ semVal (r1Cell c 23 ho_23) 0 ∗ semVal (s2Cell c 23 ho_23) 0 ∗ semVal (r2Cell c 23 ho_23) 0) ∗ (semVal (s1Cell c 24 ho_24) 0 ∗ semVal (r1Cell c 24 ho_24) 0 ∗ semVal (s2Cell c 24 ho_24) 0 ∗ semVal (r2Cell c 24 ho_24) 0) ∗ (semVal (s1Cell c 25 ho_25) 0 ∗ semVal (r1Cell c 25 ho_25) 0 ∗ semVal (s2Cell c 25 ho_25) 0 ∗ semVal (r2Cell c 25 ho_25) 0) ∗ (semVal (s1Cell c 26 ho_26) 0 ∗ semVal (r1Cell c 26 ho_26) 0 ∗ semVal (s2Cell c 26 ho_26) 0 ∗ semVal (r2Cell c 26 ho_26) 0) ∗ (semVal (s1Cell c 27 ho_27) 0 ∗ semVal (r1Cell c 27 ho_27) 0 ∗ semVal (s2Cell c 27 ho_27) 0 ∗ semVal (r2Cell c 27 ho_27) 0) ∗ (semVal (s1Cell c 28 ho_28) 0 ∗ semVal (r1Cell c 28 ho_28) 0 ∗ semVal (s2Cell c 28 ho_28) 0 ∗ semVal (r2Cell c 28 ho_28) 0) ∗ (semVal (s1Cell c 29 ho_29) 0 ∗ semVal (r1Cell c 29 ho_29) 0 ∗ semVal (s2Cell c 29 ho_29) 0 ∗ semVal (r2Cell c 29 ho_29) 0) ∗ (semVal (s1Cell c 30 ho_30) 0 ∗ semVal (r1Cell c 30 ho_30) 0 ∗ semVal (s2Cell c 30 ho_30) 0 ∗ semVal (r2Cell c 30 ho_30) 0) ∗ (semVal (s1Cell c 31 ho_31) 0 ∗ semVal (r1Cell c 31 ho_31) 0 ∗ semVal (s2Cell c 31 ho_31) 0 ∗ semVal (r2Cell c 31 ho_31) 0)) := by
    rw [bigSep_univ_prod, bigSep_univ_comm, bigSep_congr (s := Finset.univ) (fun (k : Fin 31) _ => bigSep_fin4 (F := F) _), bigSep_fin31]
    rfl
  have ho : (bigSep Finset.univ fun o : Fin 32 => (semVal ((c : Thread nD τ), SemLoc.dma (semAt cc0_scratch11 o.val o.isLt)) 0 : sProp 𝕄))
      = iprop(semVal ((c : Thread nD τ), .dma (semAt cc0_scratch11 0 ho_0)) 0 ∗ semVal ((c : Thread nD τ), .dma (semAt cc0_scratch11 1 ho_1)) 0 ∗ semVal ((c : Thread nD τ), .dma (semAt cc0_scratch11 2 ho_2)) 0 ∗ semVal ((c : Thread nD τ), .dma (semAt cc0_scratch11 3 ho_3)) 0 ∗ semVal ((c : Thread nD τ), .dma (semAt cc0_scratch11 4 ho_4)) 0 ∗ semVal ((c : Thread nD τ), .dma (semAt cc0_scratch11 5 ho_5)) 0 ∗ semVal ((c : Thread nD τ), .dma (semAt cc0_scratch11 6 ho_6)) 0 ∗ semVal ((c : Thread nD τ), .dma (semAt cc0_scratch11 7 ho_7)) 0 ∗ semVal ((c : Thread nD τ), .dma (semAt cc0_scratch11 8 ho_8)) 0 ∗ semVal ((c : Thread nD τ), .dma (semAt cc0_scratch11 9 ho_9)) 0 ∗ semVal ((c : Thread nD τ), .dma (semAt cc0_scratch11 10 ho_10)) 0 ∗ semVal ((c : Thread nD τ), .dma (semAt cc0_scratch11 11 ho_11)) 0 ∗ semVal ((c : Thread nD τ), .dma (semAt cc0_scratch11 12 ho_12)) 0 ∗ semVal ((c : Thread nD τ), .dma (semAt cc0_scratch11 13 ho_13)) 0 ∗ semVal ((c : Thread nD τ), .dma (semAt cc0_scratch11 14 ho_14)) 0 ∗ semVal ((c : Thread nD τ), .dma (semAt cc0_scratch11 15 ho_15)) 0 ∗ semVal ((c : Thread nD τ), .dma (semAt cc0_scratch11 16 ho_16)) 0 ∗ semVal ((c : Thread nD τ), .dma (semAt cc0_scratch11 17 ho_17)) 0 ∗ semVal ((c : Thread nD τ), .dma (semAt cc0_scratch11 18 ho_18)) 0 ∗ semVal ((c : Thread nD τ), .dma (semAt cc0_scratch11 19 ho_19)) 0 ∗ semVal ((c : Thread nD τ), .dma (semAt cc0_scratch11 20 ho_20)) 0 ∗ semVal ((c : Thread nD τ), .dma (semAt cc0_scratch11 21 ho_21)) 0 ∗ semVal ((c : Thread nD τ), .dma (semAt cc0_scratch11 22 ho_22)) 0 ∗ semVal ((c : Thread nD τ), .dma (semAt cc0_scratch11 23 ho_23)) 0 ∗ semVal ((c : Thread nD τ), .dma (semAt cc0_scratch11 24 ho_24)) 0 ∗ semVal ((c : Thread nD τ), .dma (semAt cc0_scratch11 25 ho_25)) 0 ∗ semVal ((c : Thread nD τ), .dma (semAt cc0_scratch11 26 ho_26)) 0 ∗ semVal ((c : Thread nD τ), .dma (semAt cc0_scratch11 27 ho_27)) 0 ∗ semVal ((c : Thread nD τ), .dma (semAt cc0_scratch11 28 ho_28)) 0 ∗ semVal ((c : Thread nD τ), .dma (semAt cc0_scratch11 29 ho_29)) 0 ∗ semVal ((c : Thread nD τ), .dma (semAt cc0_scratch11 30 ho_30)) 0 ∗ semVal ((c : Thread nD τ), .dma (semAt cc0_scratch11 31 ho_31)) 0) :=
    bigSep_univ_eq_bigSepL offs32 offs32_univ offs32_nodup _
  have hall : (allSems0 (F := F) c : sProp 𝕄)
      = iprop((bigSep Finset.univ fun ak : Fin 4 × Fin 31 => semVal ((c : Thread nD τ), SemLoc.dma (xsem ak)) 0)
        ∗ semVal ((c : Thread nD τ), SemLoc.dma cc0_scratch6.sem) 0
        ∗ (bigSep Finset.univ fun o : Fin 32 => semVal ((c : Thread nD τ), SemLoc.dma (semAt cc0_scratch11 o.val o.isLt)) 0)
        ∗ semVal (s1Cell c 0 ho_0) 0 ∗ semVal (r1Cell c 0 ho_0) 0 ∗ semVal (s2Cell c 0 ho_0) 0 ∗ semVal (r2Cell c 0 ho_0) 0) := by
    unfold allSems0
    rw [bigSep_univ_equiv (Equiv.ofBijective jsem jsem_bijective) (fun q : DmaSem sig => (semVal ((c : Thread nD τ), SemLoc.dma q) 0 : sProp 𝕄)),
      bigSep_univ_sum, bigSep_univ_sum, bigSep_univ_sum, bigSep_univ_of_subsingleton (), bigSep_fin4]
    rfl
  rw [hall, hx, ho]
  iintro ⟨H6, H11, Hz1, Hz2, Hz3, Hz4, HX⟩
  isplitl [HX]; · iexact HX
  isplitl [H6]; · iexact H6
  isplitl [H11]; · iexact H11
  isplitl [Hz1]; · iexact Hz1
  isplitl [Hz2]; · iexact Hz2
  isplitl [Hz3]; · iexact Hz3
  iexact Hz4

/-! ## The end of the kernel body -/

section End
variable (S1c : (c : Dev nD) → Buf (Elt F) (st1.view.loc (c : Thread nD τ)))
variable (Y2c : (c : Dev nD) → Buf (Elt F) (st2.view.loc (c : Thread nD τ)))
variable (OUTc : (c : Dev nD) → Buf (Elt F) ((c : Thread nD τ).loc main_v1))
variable (m : (ℓ : Loc nD τ sig) → Buf (Elt F) ℓ)

set_option maxRecDepth 100000 in
/-- What the kernel body leaves is the invariant after the kernel's one point, with nothing owed. -/
theorem body_end (c : Dev nD) (W : Waits sig Unit) :
    bodyEnd (F := F) c OUTc m W ⊢ iprop(Φ₁ (F := F) OUTc m c ∗ (dats (F := F) S1c Y2c OUTc m 0 c).owesAt () t₀.succ) := by
  unfold bodyEnd Φ₁ scratches Dat.owesAt Pipeline.owesWithin
  rw [show (dats (F := F) S1c Y2c OUTc m 0 c).owed t₀.succ = 0 from rfl]
  iintro ⟨HO, Harg, Hout, HtV, Hst2, Hsto, HST1, HCM1, HCM2, H6, H11, Hz1, Hz2, Hz3, Hz4, HX⟩
  ihave H1 := (st1_join (F := F) c) $$ HST1
  ihave H2 := (cm_join_chain cm1 (Memref.isWhole_whole _) c) $$ HCM1
  ihave H4 := (cm_join_chain cm2 (Memref.isWhole_whole _) c) $$ HCM2
  ihave HS := (sems_join (F := F) c) $$ [H6 H11 Hz1 Hz2 Hz3 Hz4 HX]
  · isplitl [H6]; · iexact H6
    isplitl [H11]; · iexact H11
    isplitl [Hz1]; · iexact Hz1
    isplitl [Hz2]; · iexact Hz2
    isplitl [Hz3]; · iexact Hz3
    isplitl [Hz4]; · iexact Hz4
    iexact HX
  isplitr [HO]
  · isplitl [Harg]; · iexact Harg
    isplitl [Hout]; · iexact Hout
    isplitr [HS]
    · isplitl [HtV]; · iexact HtV
      isplitl [H1]; · iexact H1
      isplitl [H2]; · iexact H2
      isplitl [Hst2]; · iexact Hst2
      isplitl [H4]; · iexact H4
      iexact Hsto
    · iexact HS
  · iexists W
    isplitr; · ipureintro; exact fun _ _ => Or.inl trivial
    iexact HO

/-- info: 'Cert.KernelIdealProto.body_end' depends on axioms: [propext, Classical.choice, Quot.sound] -/
#guard_msgs in #print axioms body_end

end End

/-! ## The body obligation

The kernel has one point and no window: what the launch asks of a device's body is that, from the invariant before the
point and what the device owes, the kernel's text runs to the invariant after it with nothing owed. -/

set_option maxRecDepth 100000 in
/-- The library's body obligation on every device, from a run of the kernel's text between the body's starting state
    and what it leaves. -/
theorem body_obligation (S1c : (c : Dev nD) → Buf (Elt F) (st1.view.loc (c : Thread nD τ))) (Y2c : (c : Dev nD) → Buf (Elt F) (st2.view.loc (c : Thread nD τ)))
    (OUTc : (c : Dev nD) → Buf (Elt F) ((c : Thread nD τ).loc main_v1)) (m : (ℓ : Loc nD τ sig) → Buf (Elt F) ℓ)
    (hrun : ∀ (c : Dev nD) K W fO f0 f1 f3 f5 g1 g2 (Kt : PUnit → sProp 𝕄),
      iprop(bodyStart (F := F) S1c Y2c c g1 g2 K W fO f0 f1 f3 f5 m ∗ ((∃ W', bodyEnd (F := F) c OUTc m W') -∗ Kt ⟨⟩))
        ⊢ wp frame (wpE (defs₀ (F := F)) 𝒱₀ (c : Thread nD τ) none) Set.univ
            (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Kt) :
    ∀ c, BodyObligation (dats (F := F) S1c Y2c OUTc m 0 c) (defs₀ (F := F)) 𝒱₀ () Set.univ := fun c t => by
  rw [fin_N t]
  show iprop(Φ₀ (F := F) S1c Y2c m c ∗ (dats (F := F) S1c Y2c OUTc m 0 c).owesAt () t₀.castSucc ∗ emp)
    ⊢ wp frame (wpE (defs₀ (F := F)) 𝒱₀ (c : Thread nD τ) none) Set.univ
        (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11)
        (fun _ => iprop(Φ₁ (F := F) OUTc m c ∗ (dats (F := F) S1c Y2c OUTc m 0 c).owesAt () t₀.succ ∗ emp))
  iintro ⟨HΦ, HO, -⟩
  ihave Hs := (body_start S1c Y2c OUTc m c) $$ [HΦ HO]
  · isplitl [HΦ] <;> iassumption
  icases Hs with ⟨%K, %W, %fO, %f0, %f1, %f3, %f5, %g1, %g2, -, Hs⟩
  iapply (hrun c K W fO f0 f1 f3 f5 g1 g2 _)
  isplitl [Hs]; · iexact Hs
  iintro ⟨%W', He⟩
  ihave H := (body_end S1c Y2c OUTc m c W') $$ He
  icases H with ⟨H1, H2⟩
  isplitl [H1]; · iexact H1
  isplitl [H2]; · iexact H2
  iempintro

/-- info: 'Cert.KernelIdealProto.body_obligation' depends on axioms: [propext, Classical.choice, Quot.sound] -/
#guard_msgs in #print axioms body_obligation

end Cert.KernelIdealProto

end
-- ==== Proof.KernelTables.lean ====
import proofs.«900784_g7700000000000785_dist_f_of_ar_i_m512_n256_v7x_i32_bf16_1_alg».proof.Proof.KernelProto

/-!
# The schedule's tables and the device chains at each offset

For each offset `k = 1 … 31`: which exchange cell each DMA semaphore is, each exchange cell's one duty, its expected
units and its payload; the barrier duty a device pays at offset `k` read from the payer's side (its own two landing slots
`32 - k`); and that the program's three device chains at offset `k` name the device `k` positions after the running one.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem ho_0 : 0 < 32 := by decide
theorem hk_1 : 1 ≤ 1 ∧ 1 ≤ 31 := by decide
theorem ho_1 : 1 < 32 := by decide
theorem hk_2 : 1 ≤ 2 ∧ 2 ≤ 31 := by decide
theorem ho_2 : 2 < 32 := by decide
theorem hk_3 : 1 ≤ 3 ∧ 3 ≤ 31 := by decide
theorem ho_3 : 3 < 32 := by decide
theorem hk_4 : 1 ≤ 4 ∧ 4 ≤ 31 := by decide
theorem ho_4 : 4 < 32 := by decide
theorem hk_5 : 1 ≤ 5 ∧ 5 ≤ 31 := by decide
theorem ho_5 : 5 < 32 := by decide
theorem hk_6 : 1 ≤ 6 ∧ 6 ≤ 31 := by decide
theorem ho_6 : 6 < 32 := by decide
theorem hk_7 : 1 ≤ 7 ∧ 7 ≤ 31 := by decide
theorem ho_7 : 7 < 32 := by decide
theorem hk_8 : 1 ≤ 8 ∧ 8 ≤ 31 := by decide
theorem ho_8 : 8 < 32 := by decide
theorem hk_9 : 1 ≤ 9 ∧ 9 ≤ 31 := by decide
theorem ho_9 : 9 < 32 := by decide
theorem hk_10 : 1 ≤ 10 ∧ 10 ≤ 31 := by decide
theorem ho_10 : 10 < 32 := by decide
theorem hk_11 : 1 ≤ 11 ∧ 11 ≤ 31 := by decide
theorem ho_11 : 11 < 32 := by decide
theorem hk_12 : 1 ≤ 12 ∧ 12 ≤ 31 := by decide
theorem ho_12 : 12 < 32 := by decide
theorem hk_13 : 1 ≤ 13 ∧ 13 ≤ 31 := by decide
theorem ho_13 : 13 < 32 := by decide
theorem hk_14 : 1 ≤ 14 ∧ 14 ≤ 31 := by decide
theorem ho_14 : 14 < 32 := by decide
theorem hk_15 : 1 ≤ 15 ∧ 15 ≤ 31 := by decide
theorem ho_15 : 15 < 32 := by decide
theorem hk_16 : 1 ≤ 16 ∧ 16 ≤ 31 := by decide
theorem ho_16 : 16 < 32 := by decide
theorem hk_17 : 1 ≤ 17 ∧ 17 ≤ 31 := by decide
theorem ho_17 : 17 < 32 := by decide
theorem hk_18 : 1 ≤ 18 ∧ 18 ≤ 31 := by decide
theorem ho_18 : 18 < 32 := by decide
theorem hk_19 : 1 ≤ 19 ∧ 19 ≤ 31 := by decide
theorem ho_19 : 19 < 32 := by decide
theorem hk_20 : 1 ≤ 20 ∧ 20 ≤ 31 := by decide
theorem ho_20 : 20 < 32 := by decide
theorem hk_21 : 1 ≤ 21 ∧ 21 ≤ 31 := by decide
theorem ho_21 : 21 < 32 := by decide
theorem hk_22 : 1 ≤ 22 ∧ 22 ≤ 31 := by decide
theorem ho_22 : 22 < 32 := by decide
theorem hk_23 : 1 ≤ 23 ∧ 23 ≤ 31 := by decide
theorem ho_23 : 23 < 32 := by decide
theorem hk_24 : 1 ≤ 24 ∧ 24 ≤ 31 := by decide
theorem ho_24 : 24 < 32 := by decide
theorem hk_25 : 1 ≤ 25 ∧ 25 ≤ 31 := by decide
theorem ho_25 : 25 < 32 := by decide
theorem hk_26 : 1 ≤ 26 ∧ 26 ≤ 31 := by decide
theorem ho_26 : 26 < 32 := by decide
theorem hk_27 : 1 ≤ 27 ∧ 27 ≤ 31 := by decide
theorem ho_27 : 27 < 32 := by decide
theorem hk_28 : 1 ≤ 28 ∧ 28 ≤ 31 := by decide
theorem ho_28 : 28 < 32 := by decide
theorem hk_29 : 1 ≤ 29 ∧ 29 ≤ 31 := by decide
theorem ho_29 : 29 < 32 := by decide
theorem hk_30 : 1 ≤ 30 ∧ 30 ≤ 31 := by decide
theorem ho_30 : 30 < 32 := by decide
theorem hk_31 : 1 ≤ 31 ∧ 31 ≤ 31 := by decide
theorem ho_31 : 31 < 32 := by decide

/-! ## The device chains -/

@[sl_canon] theorem dev1_eq (c : Dev nD) : (⟨k0_dev1 c, k0_dev1_lt c⟩ : Dev nD) = rot c 1 := by revert c; decide +kernel
@[sl_canon] theorem dev32_eq (c : Dev nD) : (⟨k0_dev32 c, k0_dev32_lt c⟩ : Dev nD) = rot c 1 := by revert c; decide +kernel
@[sl_canon] theorem dev63_eq (c : Dev nD) : (⟨k0_dev63 c, k0_dev63_lt c⟩ : Dev nD) = rot c 1 := by revert c; decide +kernel
@[sl_canon] theorem dev2_eq (c : Dev nD) : (⟨k0_dev2 c, k0_dev2_lt c⟩ : Dev nD) = rot c 2 := by revert c; decide +kernel
@[sl_canon] theorem dev33_eq (c : Dev nD) : (⟨k0_dev33 c, k0_dev33_lt c⟩ : Dev nD) = rot c 2 := by revert c; decide +kernel
@[sl_canon] theorem dev64_eq (c : Dev nD) : (⟨k0_dev64 c, k0_dev64_lt c⟩ : Dev nD) = rot c 2 := by revert c; decide +kernel
@[sl_canon] theorem dev3_eq (c : Dev nD) : (⟨k0_dev3 c, k0_dev3_lt c⟩ : Dev nD) = rot c 3 := by revert c; decide +kernel
@[sl_canon] theorem dev34_eq (c : Dev nD) : (⟨k0_dev34 c, k0_dev34_lt c⟩ : Dev nD) = rot c 3 := by revert c; decide +kernel
@[sl_canon] theorem dev65_eq (c : Dev nD) : (⟨k0_dev65 c, k0_dev65_lt c⟩ : Dev nD) = rot c 3 := by revert c; decide +kernel
@[sl_canon] theorem dev4_eq (c : Dev nD) : (⟨k0_dev4 c, k0_dev4_lt c⟩ : Dev nD) = rot c 4 := by revert c; decide +kernel
@[sl_canon] theorem dev35_eq (c : Dev nD) : (⟨k0_dev35 c, k0_dev35_lt c⟩ : Dev nD) = rot c 4 := by revert c; decide +kernel
@[sl_canon] theorem dev66_eq (c : Dev nD) : (⟨k0_dev66 c, k0_dev66_lt c⟩ : Dev nD) = rot c 4 := by revert c; decide +kernel
@[sl_canon] theorem dev5_eq (c : Dev nD) : (⟨k0_dev5 c, k0_dev5_lt c⟩ : Dev nD) = rot c 5 := by revert c; decide +kernel
@[sl_canon] theorem dev36_eq (c : Dev nD) : (⟨k0_dev36 c, k0_dev36_lt c⟩ : Dev nD) = rot c 5 := by revert c; decide +kernel
@[sl_canon] theorem dev67_eq (c : Dev nD) : (⟨k0_dev67 c, k0_dev67_lt c⟩ : Dev nD) = rot c 5 := by revert c; decide +kernel
@[sl_canon] theorem dev6_eq (c : Dev nD) : (⟨k0_dev6 c, k0_dev6_lt c⟩ : Dev nD) = rot c 6 := by revert c; decide +kernel
@[sl_canon] theorem dev37_eq (c : Dev nD) : (⟨k0_dev37 c, k0_dev37_lt c⟩ : Dev nD) = rot c 6 := by revert c; decide +kernel
@[sl_canon] theorem dev68_eq (c : Dev nD) : (⟨k0_dev68 c, k0_dev68_lt c⟩ : Dev nD) = rot c 6 := by revert c; decide +kernel
@[sl_canon] theorem dev7_eq (c : Dev nD) : (⟨k0_dev7 c, k0_dev7_lt c⟩ : Dev nD) = rot c 7 := by revert c; decide +kernel
@[sl_canon] theorem dev38_eq (c : Dev nD) : (⟨k0_dev38 c, k0_dev38_lt c⟩ : Dev nD) = rot c 7 := by revert c; decide +kernel
@[sl_canon] theorem dev69_eq (c : Dev nD) : (⟨k0_dev69 c, k0_dev69_lt c⟩ : Dev nD) = rot c 7 := by revert c; decide +kernel
@[sl_canon] theorem dev8_eq (c : Dev nD) : (⟨k0_dev8 c, k0_dev8_lt c⟩ : Dev nD) = rot c 8 := by revert c; decide +kernel
@[sl_canon] theorem dev39_eq (c : Dev nD) : (⟨k0_dev39 c, k0_dev39_lt c⟩ : Dev nD) = rot c 8 := by revert c; decide +kernel
@[sl_canon] theorem dev70_eq (c : Dev nD) : (⟨k0_dev70 c, k0_dev70_lt c⟩ : Dev nD) = rot c 8 := by revert c; decide +kernel
@[sl_canon] theorem dev9_eq (c : Dev nD) : (⟨k0_dev9 c, k0_dev9_lt c⟩ : Dev nD) = rot c 9 := by revert c; decide +kernel
@[sl_canon] theorem dev40_eq (c : Dev nD) : (⟨k0_dev40 c, k0_dev40_lt c⟩ : Dev nD) = rot c 9 := by revert c; decide +kernel
@[sl_canon] theorem dev71_eq (c : Dev nD) : (⟨k0_dev71 c, k0_dev71_lt c⟩ : Dev nD) = rot c 9 := by revert c; decide +kernel
@[sl_canon] theorem dev10_eq (c : Dev nD) : (⟨k0_dev10 c, k0_dev10_lt c⟩ : Dev nD) = rot c 10 := by revert c; decide +kernel
@[sl_canon] theorem dev41_eq (c : Dev nD) : (⟨k0_dev41 c, k0_dev41_lt c⟩ : Dev nD) = rot c 10 := by revert c; decide +kernel
@[sl_canon] theorem dev72_eq (c : Dev nD) : (⟨k0_dev72 c, k0_dev72_lt c⟩ : Dev nD) = rot c 10 := by revert c; decide +kernel
@[sl_canon] theorem dev11_eq (c : Dev nD) : (⟨k0_dev11 c, k0_dev11_lt c⟩ : Dev nD) = rot c 11 := by revert c; decide +kernel
@[sl_canon] theorem dev42_eq (c : Dev nD) : (⟨k0_dev42 c, k0_dev42_lt c⟩ : Dev nD) = rot c 11 := by revert c; decide +kernel
@[sl_canon] theorem dev73_eq (c : Dev nD) : (⟨k0_dev73 c, k0_dev73_lt c⟩ : Dev nD) = rot c 11 := by revert c; decide +kernel
@[sl_canon] theorem dev12_eq (c : Dev nD) : (⟨k0_dev12 c, k0_dev12_lt c⟩ : Dev nD) = rot c 12 := by revert c; decide +kernel
@[sl_canon] theorem dev43_eq (c : Dev nD) : (⟨k0_dev43 c, k0_dev43_lt c⟩ : Dev nD) = rot c 12 := by revert c; decide +kernel
@[sl_canon] theorem dev74_eq (c : Dev nD) : (⟨k0_dev74 c, k0_dev74_lt c⟩ : Dev nD) = rot c 12 := by revert c; decide +kernel
@[sl_canon] theorem dev13_eq (c : Dev nD) : (⟨k0_dev13 c, k0_dev13_lt c⟩ : Dev nD) = rot c 13 := by revert c; decide +kernel
@[sl_canon] theorem dev44_eq (c : Dev nD) : (⟨k0_dev44 c, k0_dev44_lt c⟩ : Dev nD) = rot c 13 := by revert c; decide +kernel
@[sl_canon] theorem dev75_eq (c : Dev nD) : (⟨k0_dev75 c, k0_dev75_lt c⟩ : Dev nD) = rot c 13 := by revert c; decide +kernel
@[sl_canon] theorem dev14_eq (c : Dev nD) : (⟨k0_dev14 c, k0_dev14_lt c⟩ : Dev nD) = rot c 14 := by revert c; decide +kernel
@[sl_canon] theorem dev45_eq (c : Dev nD) : (⟨k0_dev45 c, k0_dev45_lt c⟩ : Dev nD) = rot c 14 := by revert c; decide +kernel
@[sl_canon] theorem dev76_eq (c : Dev nD) : (⟨k0_dev76 c, k0_dev76_lt c⟩ : Dev nD) = rot c 14 := by revert c; decide +kernel
@[sl_canon] theorem dev15_eq (c : Dev nD) : (⟨k0_dev15 c, k0_dev15_lt c⟩ : Dev nD) = rot c 15 := by revert c; decide +kernel
@[sl_canon] theorem dev46_eq (c : Dev nD) : (⟨k0_dev46 c, k0_dev46_lt c⟩ : Dev nD) = rot c 15 := by revert c; decide +kernel
@[sl_canon] theorem dev77_eq (c : Dev nD) : (⟨k0_dev77 c, k0_dev77_lt c⟩ : Dev nD) = rot c 15 := by revert c; decide +kernel
@[sl_canon] theorem dev16_eq (c : Dev nD) : (⟨k0_dev16 c, k0_dev16_lt c⟩ : Dev nD) = rot c 16 := by revert c; decide +kernel
@[sl_canon] theorem dev47_eq (c : Dev nD) : (⟨k0_dev47 c, k0_dev47_lt c⟩ : Dev nD) = rot c 16 := by revert c; decide +kernel
@[sl_canon] theorem dev78_eq (c : Dev nD) : (⟨k0_dev78 c, k0_dev78_lt c⟩ : Dev nD) = rot c 16 := by revert c; decide +kernel
@[sl_canon] theorem dev17_eq (c : Dev nD) : (⟨k0_dev17 c, k0_dev17_lt c⟩ : Dev nD) = rot c 17 := by revert c; decide +kernel
@[sl_canon] theorem dev48_eq (c : Dev nD) : (⟨k0_dev48 c, k0_dev48_lt c⟩ : Dev nD) = rot c 17 := by revert c; decide +kernel
@[sl_canon] theorem dev79_eq (c : Dev nD) : (⟨k0_dev79 c, k0_dev79_lt c⟩ : Dev nD) = rot c 17 := by revert c; decide +kernel
@[sl_canon] theorem dev18_eq (c : Dev nD) : (⟨k0_dev18 c, k0_dev18_lt c⟩ : Dev nD) = rot c 18 := by revert c; decide +kernel
@[sl_canon] theorem dev49_eq (c : Dev nD) : (⟨k0_dev49 c, k0_dev49_lt c⟩ : Dev nD) = rot c 18 := by revert c; decide +kernel
@[sl_canon] theorem dev80_eq (c : Dev nD) : (⟨k0_dev80 c, k0_dev80_lt c⟩ : Dev nD) = rot c 18 := by revert c; decide +kernel
@[sl_canon] theorem dev19_eq (c : Dev nD) : (⟨k0_dev19 c, k0_dev19_lt c⟩ : Dev nD) = rot c 19 := by revert c; decide +kernel
@[sl_canon] theorem dev50_eq (c : Dev nD) : (⟨k0_dev50 c, k0_dev50_lt c⟩ : Dev nD) = rot c 19 := by revert c; decide +kernel
@[sl_canon] theorem dev81_eq (c : Dev nD) : (⟨k0_dev81 c, k0_dev81_lt c⟩ : Dev nD) = rot c 19 := by revert c; decide +kernel
@[sl_canon] theorem dev20_eq (c : Dev nD) : (⟨k0_dev20 c, k0_dev20_lt c⟩ : Dev nD) = rot c 20 := by revert c; decide +kernel
@[sl_canon] theorem dev51_eq (c : Dev nD) : (⟨k0_dev51 c, k0_dev51_lt c⟩ : Dev nD) = rot c 20 := by revert c; decide +kernel
@[sl_canon] theorem dev82_eq (c : Dev nD) : (⟨k0_dev82 c, k0_dev82_lt c⟩ : Dev nD) = rot c 20 := by revert c; decide +kernel
@[sl_canon] theorem dev21_eq (c : Dev nD) : (⟨k0_dev21 c, k0_dev21_lt c⟩ : Dev nD) = rot c 21 := by revert c; decide +kernel
@[sl_canon] theorem dev52_eq (c : Dev nD) : (⟨k0_dev52 c, k0_dev52_lt c⟩ : Dev nD) = rot c 21 := by revert c; decide +kernel
@[sl_canon] theorem dev83_eq (c : Dev nD) : (⟨k0_dev83 c, k0_dev83_lt c⟩ : Dev nD) = rot c 21 := by revert c; decide +kernel
@[sl_canon] theorem dev22_eq (c : Dev nD) : (⟨k0_dev22 c, k0_dev22_lt c⟩ : Dev nD) = rot c 22 := by revert c; decide +kernel
@[sl_canon] theorem dev53_eq (c : Dev nD) : (⟨k0_dev53 c, k0_dev53_lt c⟩ : Dev nD) = rot c 22 := by revert c; decide +kernel
@[sl_canon] theorem dev84_eq (c : Dev nD) : (⟨k0_dev84 c, k0_dev84_lt c⟩ : Dev nD) = rot c 22 := by revert c; decide +kernel
@[sl_canon] theorem dev23_eq (c : Dev nD) : (⟨k0_dev23 c, k0_dev23_lt c⟩ : Dev nD) = rot c 23 := by revert c; decide +kernel
@[sl_canon] theorem dev54_eq (c : Dev nD) : (⟨k0_dev54 c, k0_dev54_lt c⟩ : Dev nD) = rot c 23 := by revert c; decide +kernel
@[sl_canon] theorem dev85_eq (c : Dev nD) : (⟨k0_dev85 c, k0_dev85_lt c⟩ : Dev nD) = rot c 23 := by revert c; decide +kernel
@[sl_canon] theorem dev24_eq (c : Dev nD) : (⟨k0_dev24 c, k0_dev24_lt c⟩ : Dev nD) = rot c 24 := by revert c; decide +kernel
@[sl_canon] theorem dev55_eq (c : Dev nD) : (⟨k0_dev55 c, k0_dev55_lt c⟩ : Dev nD) = rot c 24 := by revert c; decide +kernel
@[sl_canon] theorem dev86_eq (c : Dev nD) : (⟨k0_dev86 c, k0_dev86_lt c⟩ : Dev nD) = rot c 24 := by revert c; decide +kernel
@[sl_canon] theorem dev25_eq (c : Dev nD) : (⟨k0_dev25 c, k0_dev25_lt c⟩ : Dev nD) = rot c 25 := by revert c; decide +kernel
@[sl_canon] theorem dev56_eq (c : Dev nD) : (⟨k0_dev56 c, k0_dev56_lt c⟩ : Dev nD) = rot c 25 := by revert c; decide +kernel
@[sl_canon] theorem dev87_eq (c : Dev nD) : (⟨k0_dev87 c, k0_dev87_lt c⟩ : Dev nD) = rot c 25 := by revert c; decide +kernel
@[sl_canon] theorem dev26_eq (c : Dev nD) : (⟨k0_dev26 c, k0_dev26_lt c⟩ : Dev nD) = rot c 26 := by revert c; decide +kernel
@[sl_canon] theorem dev57_eq (c : Dev nD) : (⟨k0_dev57 c, k0_dev57_lt c⟩ : Dev nD) = rot c 26 := by revert c; decide +kernel
@[sl_canon] theorem dev88_eq (c : Dev nD) : (⟨k0_dev88 c, k0_dev88_lt c⟩ : Dev nD) = rot c 26 := by revert c; decide +kernel
@[sl_canon] theorem dev27_eq (c : Dev nD) : (⟨k0_dev27 c, k0_dev27_lt c⟩ : Dev nD) = rot c 27 := by revert c; decide +kernel
@[sl_canon] theorem dev58_eq (c : Dev nD) : (⟨k0_dev58 c, k0_dev58_lt c⟩ : Dev nD) = rot c 27 := by revert c; decide +kernel
@[sl_canon] theorem dev89_eq (c : Dev nD) : (⟨k0_dev89 c, k0_dev89_lt c⟩ : Dev nD) = rot c 27 := by revert c; decide +kernel
@[sl_canon] theorem dev28_eq (c : Dev nD) : (⟨k0_dev28 c, k0_dev28_lt c⟩ : Dev nD) = rot c 28 := by revert c; decide +kernel
@[sl_canon] theorem dev59_eq (c : Dev nD) : (⟨k0_dev59 c, k0_dev59_lt c⟩ : Dev nD) = rot c 28 := by revert c; decide +kernel
@[sl_canon] theorem dev90_eq (c : Dev nD) : (⟨k0_dev90 c, k0_dev90_lt c⟩ : Dev nD) = rot c 28 := by revert c; decide +kernel
@[sl_canon] theorem dev29_eq (c : Dev nD) : (⟨k0_dev29 c, k0_dev29_lt c⟩ : Dev nD) = rot c 29 := by revert c; decide +kernel
@[sl_canon] theorem dev60_eq (c : Dev nD) : (⟨k0_dev60 c, k0_dev60_lt c⟩ : Dev nD) = rot c 29 := by revert c; decide +kernel
@[sl_canon] theorem dev91_eq (c : Dev nD) : (⟨k0_dev91 c, k0_dev91_lt c⟩ : Dev nD) = rot c 29 := by revert c; decide +kernel
@[sl_canon] theorem dev30_eq (c : Dev nD) : (⟨k0_dev30 c, k0_dev30_lt c⟩ : Dev nD) = rot c 30 := by revert c; decide +kernel
@[sl_canon] theorem dev61_eq (c : Dev nD) : (⟨k0_dev61 c, k0_dev61_lt c⟩ : Dev nD) = rot c 30 := by revert c; decide +kernel
@[sl_canon] theorem dev92_eq (c : Dev nD) : (⟨k0_dev92 c, k0_dev92_lt c⟩ : Dev nD) = rot c 30 := by revert c; decide +kernel
@[sl_canon] theorem dev31_eq (c : Dev nD) : (⟨k0_dev31 c, k0_dev31_lt c⟩ : Dev nD) = rot c 31 := by revert c; decide +kernel
@[sl_canon] theorem dev62_eq (c : Dev nD) : (⟨k0_dev62 c, k0_dev62_lt c⟩ : Dev nD) = rot c 31 := by revert c; decide +kernel
@[sl_canon] theorem dev93_eq (c : Dev nD) : (⟨k0_dev93 c, k0_dev93_lt c⟩ : Dev nD) = rot c 31 := by revert c; decide +kernel

/-! ## Which cell each semaphore is -/

theorem dec0_1 : decode (semAt cc0_scratch7 1 ho_1) = some (0, 1) := rfl
theorem dec0_2 : decode (semAt cc0_scratch7 2 ho_2) = some (0, 2) := rfl
theorem dec0_3 : decode (semAt cc0_scratch7 3 ho_3) = some (0, 3) := rfl
theorem dec0_4 : decode (semAt cc0_scratch7 4 ho_4) = some (0, 4) := rfl
theorem dec0_5 : decode (semAt cc0_scratch7 5 ho_5) = some (0, 5) := rfl
theorem dec0_6 : decode (semAt cc0_scratch7 6 ho_6) = some (0, 6) := rfl
theorem dec0_7 : decode (semAt cc0_scratch7 7 ho_7) = some (0, 7) := rfl
theorem dec0_8 : decode (semAt cc0_scratch7 8 ho_8) = some (0, 8) := rfl
theorem dec0_9 : decode (semAt cc0_scratch7 9 ho_9) = some (0, 9) := rfl
theorem dec0_10 : decode (semAt cc0_scratch7 10 ho_10) = some (0, 10) := rfl
theorem dec0_11 : decode (semAt cc0_scratch7 11 ho_11) = some (0, 11) := rfl
theorem dec0_12 : decode (semAt cc0_scratch7 12 ho_12) = some (0, 12) := rfl
theorem dec0_13 : decode (semAt cc0_scratch7 13 ho_13) = some (0, 13) := rfl
theorem dec0_14 : decode (semAt cc0_scratch7 14 ho_14) = some (0, 14) := rfl
theorem dec0_15 : decode (semAt cc0_scratch7 15 ho_15) = some (0, 15) := rfl
theorem dec0_16 : decode (semAt cc0_scratch7 16 ho_16) = some (0, 16) := rfl
theorem dec0_17 : decode (semAt cc0_scratch7 17 ho_17) = some (0, 17) := rfl
theorem dec0_18 : decode (semAt cc0_scratch7 18 ho_18) = some (0, 18) := rfl
theorem dec0_19 : decode (semAt cc0_scratch7 19 ho_19) = some (0, 19) := rfl
theorem dec0_20 : decode (semAt cc0_scratch7 20 ho_20) = some (0, 20) := rfl
theorem dec0_21 : decode (semAt cc0_scratch7 21 ho_21) = some (0, 21) := rfl
theorem dec0_22 : decode (semAt cc0_scratch7 22 ho_22) = some (0, 22) := rfl
theorem dec0_23 : decode (semAt cc0_scratch7 23 ho_23) = some (0, 23) := rfl
theorem dec0_24 : decode (semAt cc0_scratch7 24 ho_24) = some (0, 24) := rfl
theorem dec0_25 : decode (semAt cc0_scratch7 25 ho_25) = some (0, 25) := rfl
theorem dec0_26 : decode (semAt cc0_scratch7 26 ho_26) = some (0, 26) := rfl
theorem dec0_27 : decode (semAt cc0_scratch7 27 ho_27) = some (0, 27) := rfl
theorem dec0_28 : decode (semAt cc0_scratch7 28 ho_28) = some (0, 28) := rfl
theorem dec0_29 : decode (semAt cc0_scratch7 29 ho_29) = some (0, 29) := rfl
theorem dec0_30 : decode (semAt cc0_scratch7 30 ho_30) = some (0, 30) := rfl
theorem dec0_31 : decode (semAt cc0_scratch7 31 ho_31) = some (0, 31) := rfl
theorem dec1_1 : decode (semAt cc0_scratch8 1 ho_1) = some (1, 1) := rfl
theorem dec1_2 : decode (semAt cc0_scratch8 2 ho_2) = some (1, 2) := rfl
theorem dec1_3 : decode (semAt cc0_scratch8 3 ho_3) = some (1, 3) := rfl
theorem dec1_4 : decode (semAt cc0_scratch8 4 ho_4) = some (1, 4) := rfl
theorem dec1_5 : decode (semAt cc0_scratch8 5 ho_5) = some (1, 5) := rfl
theorem dec1_6 : decode (semAt cc0_scratch8 6 ho_6) = some (1, 6) := rfl
theorem dec1_7 : decode (semAt cc0_scratch8 7 ho_7) = some (1, 7) := rfl
theorem dec1_8 : decode (semAt cc0_scratch8 8 ho_8) = some (1, 8) := rfl
theorem dec1_9 : decode (semAt cc0_scratch8 9 ho_9) = some (1, 9) := rfl
theorem dec1_10 : decode (semAt cc0_scratch8 10 ho_10) = some (1, 10) := rfl
theorem dec1_11 : decode (semAt cc0_scratch8 11 ho_11) = some (1, 11) := rfl
theorem dec1_12 : decode (semAt cc0_scratch8 12 ho_12) = some (1, 12) := rfl
theorem dec1_13 : decode (semAt cc0_scratch8 13 ho_13) = some (1, 13) := rfl
theorem dec1_14 : decode (semAt cc0_scratch8 14 ho_14) = some (1, 14) := rfl
theorem dec1_15 : decode (semAt cc0_scratch8 15 ho_15) = some (1, 15) := rfl
theorem dec1_16 : decode (semAt cc0_scratch8 16 ho_16) = some (1, 16) := rfl
theorem dec1_17 : decode (semAt cc0_scratch8 17 ho_17) = some (1, 17) := rfl
theorem dec1_18 : decode (semAt cc0_scratch8 18 ho_18) = some (1, 18) := rfl
theorem dec1_19 : decode (semAt cc0_scratch8 19 ho_19) = some (1, 19) := rfl
theorem dec1_20 : decode (semAt cc0_scratch8 20 ho_20) = some (1, 20) := rfl
theorem dec1_21 : decode (semAt cc0_scratch8 21 ho_21) = some (1, 21) := rfl
theorem dec1_22 : decode (semAt cc0_scratch8 22 ho_22) = some (1, 22) := rfl
theorem dec1_23 : decode (semAt cc0_scratch8 23 ho_23) = some (1, 23) := rfl
theorem dec1_24 : decode (semAt cc0_scratch8 24 ho_24) = some (1, 24) := rfl
theorem dec1_25 : decode (semAt cc0_scratch8 25 ho_25) = some (1, 25) := rfl
theorem dec1_26 : decode (semAt cc0_scratch8 26 ho_26) = some (1, 26) := rfl
theorem dec1_27 : decode (semAt cc0_scratch8 27 ho_27) = some (1, 27) := rfl
theorem dec1_28 : decode (semAt cc0_scratch8 28 ho_28) = some (1, 28) := rfl
theorem dec1_29 : decode (semAt cc0_scratch8 29 ho_29) = some (1, 29) := rfl
theorem dec1_30 : decode (semAt cc0_scratch8 30 ho_30) = some (1, 30) := rfl
theorem dec1_31 : decode (semAt cc0_scratch8 31 ho_31) = some (1, 31) := rfl
theorem dec2_1 : decode (semAt cc0_scratch9 1 ho_1) = some (2, 1) := rfl
theorem dec2_2 : decode (semAt cc0_scratch9 2 ho_2) = some (2, 2) := rfl
theorem dec2_3 : decode (semAt cc0_scratch9 3 ho_3) = some (2, 3) := rfl
theorem dec2_4 : decode (semAt cc0_scratch9 4 ho_4) = some (2, 4) := rfl
theorem dec2_5 : decode (semAt cc0_scratch9 5 ho_5) = some (2, 5) := rfl
theorem dec2_6 : decode (semAt cc0_scratch9 6 ho_6) = some (2, 6) := rfl
theorem dec2_7 : decode (semAt cc0_scratch9 7 ho_7) = some (2, 7) := rfl
theorem dec2_8 : decode (semAt cc0_scratch9 8 ho_8) = some (2, 8) := rfl
theorem dec2_9 : decode (semAt cc0_scratch9 9 ho_9) = some (2, 9) := rfl
theorem dec2_10 : decode (semAt cc0_scratch9 10 ho_10) = some (2, 10) := rfl
theorem dec2_11 : decode (semAt cc0_scratch9 11 ho_11) = some (2, 11) := rfl
theorem dec2_12 : decode (semAt cc0_scratch9 12 ho_12) = some (2, 12) := rfl
theorem dec2_13 : decode (semAt cc0_scratch9 13 ho_13) = some (2, 13) := rfl
theorem dec2_14 : decode (semAt cc0_scratch9 14 ho_14) = some (2, 14) := rfl
theorem dec2_15 : decode (semAt cc0_scratch9 15 ho_15) = some (2, 15) := rfl
theorem dec2_16 : decode (semAt cc0_scratch9 16 ho_16) = some (2, 16) := rfl
theorem dec2_17 : decode (semAt cc0_scratch9 17 ho_17) = some (2, 17) := rfl
theorem dec2_18 : decode (semAt cc0_scratch9 18 ho_18) = some (2, 18) := rfl
theorem dec2_19 : decode (semAt cc0_scratch9 19 ho_19) = some (2, 19) := rfl
theorem dec2_20 : decode (semAt cc0_scratch9 20 ho_20) = some (2, 20) := rfl
theorem dec2_21 : decode (semAt cc0_scratch9 21 ho_21) = some (2, 21) := rfl
theorem dec2_22 : decode (semAt cc0_scratch9 22 ho_22) = some (2, 22) := rfl
theorem dec2_23 : decode (semAt cc0_scratch9 23 ho_23) = some (2, 23) := rfl
theorem dec2_24 : decode (semAt cc0_scratch9 24 ho_24) = some (2, 24) := rfl
theorem dec2_25 : decode (semAt cc0_scratch9 25 ho_25) = some (2, 25) := rfl
theorem dec2_26 : decode (semAt cc0_scratch9 26 ho_26) = some (2, 26) := rfl
theorem dec2_27 : decode (semAt cc0_scratch9 27 ho_27) = some (2, 27) := rfl
theorem dec2_28 : decode (semAt cc0_scratch9 28 ho_28) = some (2, 28) := rfl
theorem dec2_29 : decode (semAt cc0_scratch9 29 ho_29) = some (2, 29) := rfl
theorem dec2_30 : decode (semAt cc0_scratch9 30 ho_30) = some (2, 30) := rfl
theorem dec2_31 : decode (semAt cc0_scratch9 31 ho_31) = some (2, 31) := rfl
theorem dec3_1 : decode (semAt cc0_scratch10 1 ho_1) = some (3, 1) := rfl
theorem dec3_2 : decode (semAt cc0_scratch10 2 ho_2) = some (3, 2) := rfl
theorem dec3_3 : decode (semAt cc0_scratch10 3 ho_3) = some (3, 3) := rfl
theorem dec3_4 : decode (semAt cc0_scratch10 4 ho_4) = some (3, 4) := rfl
theorem dec3_5 : decode (semAt cc0_scratch10 5 ho_5) = some (3, 5) := rfl
theorem dec3_6 : decode (semAt cc0_scratch10 6 ho_6) = some (3, 6) := rfl
theorem dec3_7 : decode (semAt cc0_scratch10 7 ho_7) = some (3, 7) := rfl
theorem dec3_8 : decode (semAt cc0_scratch10 8 ho_8) = some (3, 8) := rfl
theorem dec3_9 : decode (semAt cc0_scratch10 9 ho_9) = some (3, 9) := rfl
theorem dec3_10 : decode (semAt cc0_scratch10 10 ho_10) = some (3, 10) := rfl
theorem dec3_11 : decode (semAt cc0_scratch10 11 ho_11) = some (3, 11) := rfl
theorem dec3_12 : decode (semAt cc0_scratch10 12 ho_12) = some (3, 12) := rfl
theorem dec3_13 : decode (semAt cc0_scratch10 13 ho_13) = some (3, 13) := rfl
theorem dec3_14 : decode (semAt cc0_scratch10 14 ho_14) = some (3, 14) := rfl
theorem dec3_15 : decode (semAt cc0_scratch10 15 ho_15) = some (3, 15) := rfl
theorem dec3_16 : decode (semAt cc0_scratch10 16 ho_16) = some (3, 16) := rfl
theorem dec3_17 : decode (semAt cc0_scratch10 17 ho_17) = some (3, 17) := rfl
theorem dec3_18 : decode (semAt cc0_scratch10 18 ho_18) = some (3, 18) := rfl
theorem dec3_19 : decode (semAt cc0_scratch10 19 ho_19) = some (3, 19) := rfl
theorem dec3_20 : decode (semAt cc0_scratch10 20 ho_20) = some (3, 20) := rfl
theorem dec3_21 : decode (semAt cc0_scratch10 21 ho_21) = some (3, 21) := rfl
theorem dec3_22 : decode (semAt cc0_scratch10 22 ho_22) = some (3, 22) := rfl
theorem dec3_23 : decode (semAt cc0_scratch10 23 ho_23) = some (3, 23) := rfl
theorem dec3_24 : decode (semAt cc0_scratch10 24 ho_24) = some (3, 24) := rfl
theorem dec3_25 : decode (semAt cc0_scratch10 25 ho_25) = some (3, 25) := rfl
theorem dec3_26 : decode (semAt cc0_scratch10 26 ho_26) = some (3, 26) := rfl
theorem dec3_27 : decode (semAt cc0_scratch10 27 ho_27) = some (3, 27) := rfl
theorem dec3_28 : decode (semAt cc0_scratch10 28 ho_28) = some (3, 28) := rfl
theorem dec3_29 : decode (semAt cc0_scratch10 29 ho_29) = some (3, 29) := rfl
theorem dec3_30 : decode (semAt cc0_scratch10 30 ho_30) = some (3, 30) := rfl
theorem dec3_31 : decode (semAt cc0_scratch10 31 ho_31) = some (3, 31) := rfl

section TablesK
variable (S1c : (c : Dev nD) → Buf (Elt F) (st1.view.loc (c : Thread nD τ)))
variable (Y2c : (c : Dev nD) → Buf (Elt F) (st2.view.loc (c : Thread nD τ)))

@[sl_rounds] theorem duties_0_1 (c : Dev nD) : (sched (F := F) S1c Y2c).duties (s1Cell c 1 ho_1) 0 = {0} := duties_dma S1c Y2c c _ 0 1 dec0_1
@[sl_rounds] theorem expect_0_1 (c : Dev nD) : (sched (F := F) S1c Y2c).expect (s1Cell c 1 ho_1) 0 = NX := expect_dma S1c Y2c c _ 0 1 dec0_1
@[sl_rounds] theorem pay_0_1 (c : Dev nD) (r d : ℕ) : (sched (F := F) S1c Y2c).payload (s1Cell c 1 ho_1) r d = ((srcM1 c 1 hk_1).view.loc (c : Thread nD τ) ↦[(srcM1 c 1 hk_1).view.set]{fullShare} S1c c : sProp 𝕄) :=
  (payload_dma S1c Y2c c _ 0 1 dec0_1 r d).trans (by unfold xferPay; rw [dif_pos hk_1])
@[sl_rounds] theorem duties_0_2 (c : Dev nD) : (sched (F := F) S1c Y2c).duties (s1Cell c 2 ho_2) 0 = {0} := duties_dma S1c Y2c c _ 0 2 dec0_2
@[sl_rounds] theorem expect_0_2 (c : Dev nD) : (sched (F := F) S1c Y2c).expect (s1Cell c 2 ho_2) 0 = NX := expect_dma S1c Y2c c _ 0 2 dec0_2
@[sl_rounds] theorem pay_0_2 (c : Dev nD) (r d : ℕ) : (sched (F := F) S1c Y2c).payload (s1Cell c 2 ho_2) r d = ((srcM1 c 2 hk_2).view.loc (c : Thread nD τ) ↦[(srcM1 c 2 hk_2).view.set]{fullShare} S1c c : sProp 𝕄) :=
  (payload_dma S1c Y2c c _ 0 2 dec0_2 r d).trans (by unfold xferPay; rw [dif_pos hk_2])
@[sl_rounds] theorem duties_0_3 (c : Dev nD) : (sched (F := F) S1c Y2c).duties (s1Cell c 3 ho_3) 0 = {0} := duties_dma S1c Y2c c _ 0 3 dec0_3
@[sl_rounds] theorem expect_0_3 (c : Dev nD) : (sched (F := F) S1c Y2c).expect (s1Cell c 3 ho_3) 0 = NX := expect_dma S1c Y2c c _ 0 3 dec0_3
@[sl_rounds] theorem pay_0_3 (c : Dev nD) (r d : ℕ) : (sched (F := F) S1c Y2c).payload (s1Cell c 3 ho_3) r d = ((srcM1 c 3 hk_3).view.loc (c : Thread nD τ) ↦[(srcM1 c 3 hk_3).view.set]{fullShare} S1c c : sProp 𝕄) :=
  (payload_dma S1c Y2c c _ 0 3 dec0_3 r d).trans (by unfold xferPay; rw [dif_pos hk_3])
@[sl_rounds] theorem duties_0_4 (c : Dev nD) : (sched (F := F) S1c Y2c).duties (s1Cell c 4 ho_4) 0 = {0} := duties_dma S1c Y2c c _ 0 4 dec0_4
@[sl_rounds] theorem expect_0_4 (c : Dev nD) : (sched (F := F) S1c Y2c).expect (s1Cell c 4 ho_4) 0 = NX := expect_dma S1c Y2c c _ 0 4 dec0_4
@[sl_rounds] theorem pay_0_4 (c : Dev nD) (r d : ℕ) : (sched (F := F) S1c Y2c).payload (s1Cell c 4 ho_4) r d = ((srcM1 c 4 hk_4).view.loc (c : Thread nD τ) ↦[(srcM1 c 4 hk_4).view.set]{fullShare} S1c c : sProp 𝕄) :=
  (payload_dma S1c Y2c c _ 0 4 dec0_4 r d).trans (by unfold xferPay; rw [dif_pos hk_4])
@[sl_rounds] theorem duties_0_5 (c : Dev nD) : (sched (F := F) S1c Y2c).duties (s1Cell c 5 ho_5) 0 = {0} := duties_dma S1c Y2c c _ 0 5 dec0_5
@[sl_rounds] theorem expect_0_5 (c : Dev nD) : (sched (F := F) S1c Y2c).expect (s1Cell c 5 ho_5) 0 = NX := expect_dma S1c Y2c c _ 0 5 dec0_5
@[sl_rounds] theorem pay_0_5 (c : Dev nD) (r d : ℕ) : (sched (F := F) S1c Y2c).payload (s1Cell c 5 ho_5) r d = ((srcM1 c 5 hk_5).view.loc (c : Thread nD τ) ↦[(srcM1 c 5 hk_5).view.set]{fullShare} S1c c : sProp 𝕄) :=
  (payload_dma S1c Y2c c _ 0 5 dec0_5 r d).trans (by unfold xferPay; rw [dif_pos hk_5])
@[sl_rounds] theorem duties_0_6 (c : Dev nD) : (sched (F := F) S1c Y2c).duties (s1Cell c 6 ho_6) 0 = {0} := duties_dma S1c Y2c c _ 0 6 dec0_6
@[sl_rounds] theorem expect_0_6 (c : Dev nD) : (sched (F := F) S1c Y2c).expect (s1Cell c 6 ho_6) 0 = NX := expect_dma S1c Y2c c _ 0 6 dec0_6
@[sl_rounds] theorem pay_0_6 (c : Dev nD) (r d : ℕ) : (sched (F := F) S1c Y2c).payload (s1Cell c 6 ho_6) r d = ((srcM1 c 6 hk_6).view.loc (c : Thread nD τ) ↦[(srcM1 c 6 hk_6).view.set]{fullShare} S1c c : sProp 𝕄) :=
  (payload_dma S1c Y2c c _ 0 6 dec0_6 r d).trans (by unfold xferPay; rw [dif_pos hk_6])
@[sl_rounds] theorem duties_0_7 (c : Dev nD) : (sched (F := F) S1c Y2c).duties (s1Cell c 7 ho_7) 0 = {0} := duties_dma S1c Y2c c _ 0 7 dec0_7
@[sl_rounds] theorem expect_0_7 (c : Dev nD) : (sched (F := F) S1c Y2c).expect (s1Cell c 7 ho_7) 0 = NX := expect_dma S1c Y2c c _ 0 7 dec0_7
@[sl_rounds] theorem pay_0_7 (c : Dev nD) (r d : ℕ) : (sched (F := F) S1c Y2c).payload (s1Cell c 7 ho_7) r d = ((srcM1 c 7 hk_7).view.loc (c : Thread nD τ) ↦[(srcM1 c 7 hk_7).view.set]{fullShare} S1c c : sProp 𝕄) :=
  (payload_dma S1c Y2c c _ 0 7 dec0_7 r d).trans (by unfold xferPay; rw [dif_pos hk_7])
@[sl_rounds] theorem duties_0_8 (c : Dev nD) : (sched (F := F) S1c Y2c).duties (s1Cell c 8 ho_8) 0 = {0} := duties_dma S1c Y2c c _ 0 8 dec0_8
@[sl_rounds] theorem expect_0_8 (c : Dev nD) : (sched (F := F) S1c Y2c).expect (s1Cell c 8 ho_8) 0 = NX := expect_dma S1c Y2c c _ 0 8 dec0_8
@[sl_rounds] theorem pay_0_8 (c : Dev nD) (r d : ℕ) : (sched (F := F) S1c Y2c).payload (s1Cell c 8 ho_8) r d = ((srcM1 c 8 hk_8).view.loc (c : Thread nD τ) ↦[(srcM1 c 8 hk_8).view.set]{fullShare} S1c c : sProp 𝕄) :=
  (payload_dma S1c Y2c c _ 0 8 dec0_8 r d).trans (by unfold xferPay; rw [dif_pos hk_8])
@[sl_rounds] theorem duties_0_9 (c : Dev nD) : (sched (F := F) S1c Y2c).duties (s1Cell c 9 ho_9) 0 = {0} := duties_dma S1c Y2c c _ 0 9 dec0_9
@[sl_rounds] theorem expect_0_9 (c : Dev nD) : (sched (F := F) S1c Y2c).expect (s1Cell c 9 ho_9) 0 = NX := expect_dma S1c Y2c c _ 0 9 dec0_9
@[sl_rounds] theorem pay_0_9 (c : Dev nD) (r d : ℕ) : (sched (F := F) S1c Y2c).payload (s1Cell c 9 ho_9) r d = ((srcM1 c 9 hk_9).view.loc (c : Thread nD τ) ↦[(srcM1 c 9 hk_9).view.set]{fullShare} S1c c : sProp 𝕄) :=
  (payload_dma S1c Y2c c _ 0 9 dec0_9 r d).trans (by unfold xferPay; rw [dif_pos hk_9])
@[sl_rounds] theorem duties_0_10 (c : Dev nD) : (sched (F := F) S1c Y2c).duties (s1Cell c 10 ho_10) 0 = {0} := duties_dma S1c Y2c c _ 0 10 dec0_10
@[sl_rounds] theorem expect_0_10 (c : Dev nD) : (sched (F := F) S1c Y2c).expect (s1Cell c 10 ho_10) 0 = NX := expect_dma S1c Y2c c _ 0 10 dec0_10
@[sl_rounds] theorem pay_0_10 (c : Dev nD) (r d : ℕ) : (sched (F := F) S1c Y2c).payload (s1Cell c 10 ho_10) r d = ((srcM1 c 10 hk_10).view.loc (c : Thread nD τ) ↦[(srcM1 c 10 hk_10).view.set]{fullShare} S1c c : sProp 𝕄) :=
  (payload_dma S1c Y2c c _ 0 10 dec0_10 r d).trans (by unfold xferPay; rw [dif_pos hk_10])
@[sl_rounds] theorem duties_0_11 (c : Dev nD) : (sched (F := F) S1c Y2c).duties (s1Cell c 11 ho_11) 0 = {0} := duties_dma S1c Y2c c _ 0 11 dec0_11
@[sl_rounds] theorem expect_0_11 (c : Dev nD) : (sched (F := F) S1c Y2c).expect (s1Cell c 11 ho_11) 0 = NX := expect_dma S1c Y2c c _ 0 11 dec0_11
@[sl_rounds] theorem pay_0_11 (c : Dev nD) (r d : ℕ) : (sched (F := F) S1c Y2c).payload (s1Cell c 11 ho_11) r d = ((srcM1 c 11 hk_11).view.loc (c : Thread nD τ) ↦[(srcM1 c 11 hk_11).view.set]{fullShare} S1c c : sProp 𝕄) :=
  (payload_dma S1c Y2c c _ 0 11 dec0_11 r d).trans (by unfold xferPay; rw [dif_pos hk_11])
@[sl_rounds] theorem duties_0_12 (c : Dev nD) : (sched (F := F) S1c Y2c).duties (s1Cell c 12 ho_12) 0 = {0} := duties_dma S1c Y2c c _ 0 12 dec0_12
@[sl_rounds] theorem expect_0_12 (c : Dev nD) : (sched (F := F) S1c Y2c).expect (s1Cell c 12 ho_12) 0 = NX := expect_dma S1c Y2c c _ 0 12 dec0_12
@[sl_rounds] theorem pay_0_12 (c : Dev nD) (r d : ℕ) : (sched (F := F) S1c Y2c).payload (s1Cell c 12 ho_12) r d = ((srcM1 c 12 hk_12).view.loc (c : Thread nD τ) ↦[(srcM1 c 12 hk_12).view.set]{fullShare} S1c c : sProp 𝕄) :=
  (payload_dma S1c Y2c c _ 0 12 dec0_12 r d).trans (by unfold xferPay; rw [dif_pos hk_12])
@[sl_rounds] theorem duties_0_13 (c : Dev nD) : (sched (F := F) S1c Y2c).duties (s1Cell c 13 ho_13) 0 = {0} := duties_dma S1c Y2c c _ 0 13 dec0_13
@[sl_rounds] theorem expect_0_13 (c : Dev nD) : (sched (F := F) S1c Y2c).expect (s1Cell c 13 ho_13) 0 = NX := expect_dma S1c Y2c c _ 0 13 dec0_13
@[sl_rounds] theorem pay_0_13 (c : Dev nD) (r d : ℕ) : (sched (F := F) S1c Y2c).payload (s1Cell c 13 ho_13) r d = ((srcM1 c 13 hk_13).view.loc (c : Thread nD τ) ↦[(srcM1 c 13 hk_13).view.set]{fullShare} S1c c : sProp 𝕄) :=
  (payload_dma S1c Y2c c _ 0 13 dec0_13 r d).trans (by unfold xferPay; rw [dif_pos hk_13])
@[sl_rounds] theorem duties_0_14 (c : Dev nD) : (sched (F := F) S1c Y2c).duties (s1Cell c 14 ho_14) 0 = {0} := duties_dma S1c Y2c c _ 0 14 dec0_14
@[sl_rounds] theorem expect_0_14 (c : Dev nD) : (sched (F := F) S1c Y2c).expect (s1Cell c 14 ho_14) 0 = NX := expect_dma S1c Y2c c _ 0 14 dec0_14
@[sl_rounds] theorem pay_0_14 (c : Dev nD) (r d : ℕ) : (sched (F := F) S1c Y2c).payload (s1Cell c 14 ho_14) r d = ((srcM1 c 14 hk_14).view.loc (c : Thread nD τ) ↦[(srcM1 c 14 hk_14).view.set]{fullShare} S1c c : sProp 𝕄) :=
  (payload_dma S1c Y2c c _ 0 14 dec0_14 r d).trans (by unfold xferPay; rw [dif_pos hk_14])
@[sl_rounds] theorem duties_0_15 (c : Dev nD) : (sched (F := F) S1c Y2c).duties (s1Cell c 15 ho_15) 0 = {0} := duties_dma S1c Y2c c _ 0 15 dec0_15
@[sl_rounds] theorem expect_0_15 (c : Dev nD) : (sched (F := F) S1c Y2c).expect (s1Cell c 15 ho_15) 0 = NX := expect_dma S1c Y2c c _ 0 15 dec0_15
@[sl_rounds] theorem pay_0_15 (c : Dev nD) (r d : ℕ) : (sched (F := F) S1c Y2c).payload (s1Cell c 15 ho_15) r d = ((srcM1 c 15 hk_15).view.loc (c : Thread nD τ) ↦[(srcM1 c 15 hk_15).view.set]{fullShare} S1c c : sProp 𝕄) :=
  (payload_dma S1c Y2c c _ 0 15 dec0_15 r d).trans (by unfold xferPay; rw [dif_pos hk_15])
@[sl_rounds] theorem duties_0_16 (c : Dev nD) : (sched (F := F) S1c Y2c).duties (s1Cell c 16 ho_16) 0 = {0} := duties_dma S1c Y2c c _ 0 16 dec0_16
@[sl_rounds] theorem expect_0_16 (c : Dev nD) : (sched (F := F) S1c Y2c).expect (s1Cell c 16 ho_16) 0 = NX := expect_dma S1c Y2c c _ 0 16 dec0_16
@[sl_rounds] theorem pay_0_16 (c : Dev nD) (r d : ℕ) : (sched (F := F) S1c Y2c).payload (s1Cell c 16 ho_16) r d = ((srcM1 c 16 hk_16).view.loc (c : Thread nD τ) ↦[(srcM1 c 16 hk_16).view.set]{fullShare} S1c c : sProp 𝕄) :=
  (payload_dma S1c Y2c c _ 0 16 dec0_16 r d).trans (by unfold xferPay; rw [dif_pos hk_16])
@[sl_rounds] theorem duties_0_17 (c : Dev nD) : (sched (F := F) S1c Y2c).duties (s1Cell c 17 ho_17) 0 = {0} := duties_dma S1c Y2c c _ 0 17 dec0_17
@[sl_rounds] theorem expect_0_17 (c : Dev nD) : (sched (F := F) S1c Y2c).expect (s1Cell c 17 ho_17) 0 = NX := expect_dma S1c Y2c c _ 0 17 dec0_17
@[sl_rounds] theorem pay_0_17 (c : Dev nD) (r d : ℕ) : (sched (F := F) S1c Y2c).payload (s1Cell c 17 ho_17) r d = ((srcM1 c 17 hk_17).view.loc (c : Thread nD τ) ↦[(srcM1 c 17 hk_17).view.set]{fullShare} S1c c : sProp 𝕄) :=
  (payload_dma S1c Y2c c _ 0 17 dec0_17 r d).trans (by unfold xferPay; rw [dif_pos hk_17])
@[sl_rounds] theorem duties_0_18 (c : Dev nD) : (sched (F := F) S1c Y2c).duties (s1Cell c 18 ho_18) 0 = {0} := duties_dma S1c Y2c c _ 0 18 dec0_18
@[sl_rounds] theorem expect_0_18 (c : Dev nD) : (sched (F := F) S1c Y2c).expect (s1Cell c 18 ho_18) 0 = NX := expect_dma S1c Y2c c _ 0 18 dec0_18
@[sl_rounds] theorem pay_0_18 (c : Dev nD) (r d : ℕ) : (sched (F := F) S1c Y2c).payload (s1Cell c 18 ho_18) r d = ((srcM1 c 18 hk_18).view.loc (c : Thread nD τ) ↦[(srcM1 c 18 hk_18).view.set]{fullShare} S1c c : sProp 𝕄) :=
  (payload_dma S1c Y2c c _ 0 18 dec0_18 r d).trans (by unfold xferPay; rw [dif_pos hk_18])
@[sl_rounds] theorem duties_0_19 (c : Dev nD) : (sched (F := F) S1c Y2c).duties (s1Cell c 19 ho_19) 0 = {0} := duties_dma S1c Y2c c _ 0 19 dec0_19
@[sl_rounds] theorem expect_0_19 (c : Dev nD) : (sched (F := F) S1c Y2c).expect (s1Cell c 19 ho_19) 0 = NX := expect_dma S1c Y2c c _ 0 19 dec0_19
@[sl_rounds] theorem pay_0_19 (c : Dev nD) (r d : ℕ) : (sched (F := F) S1c Y2c).payload (s1Cell c 19 ho_19) r d = ((srcM1 c 19 hk_19).view.loc (c : Thread nD τ) ↦[(srcM1 c 19 hk_19).view.set]{fullShare} S1c c : sProp 𝕄) :=
  (payload_dma S1c Y2c c _ 0 19 dec0_19 r d).trans (by unfold xferPay; rw [dif_pos hk_19])
@[sl_rounds] theorem duties_0_20 (c : Dev nD) : (sched (F := F) S1c Y2c).duties (s1Cell c 20 ho_20) 0 = {0} := duties_dma S1c Y2c c _ 0 20 dec0_20
@[sl_rounds] theorem expect_0_20 (c : Dev nD) : (sched (F := F) S1c Y2c).expect (s1Cell c 20 ho_20) 0 = NX := expect_dma S1c Y2c c _ 0 20 dec0_20
@[sl_rounds] theorem pay_0_20 (c : Dev nD) (r d : ℕ) : (sched (F := F) S1c Y2c).payload (s1Cell c 20 ho_20) r d = ((srcM1 c 20 hk_20).view.loc (c : Thread nD τ) ↦[(srcM1 c 20 hk_20).view.set]{fullShare} S1c c : sProp 𝕄) :=
  (payload_dma S1c Y2c c _ 0 20 dec0_20 r d).trans (by unfold xferPay; rw [dif_pos hk_20])
@[sl_rounds] theorem duties_0_21 (c : Dev nD) : (sched (F := F) S1c Y2c).duties (s1Cell c 21 ho_21) 0 = {0} := duties_dma S1c Y2c c _ 0 21 dec0_21
@[sl_rounds] theorem expect_0_21 (c : Dev nD) : (sched (F := F) S1c Y2c).expect (s1Cell c 21 ho_21) 0 = NX := expect_dma S1c Y2c c _ 0 21 dec0_21
@[sl_rounds] theorem pay_0_21 (c : Dev nD) (r d : ℕ) : (sched (F := F) S1c Y2c).payload (s1Cell c 21 ho_21) r d = ((srcM1 c 21 hk_21).view.loc (c : Thread nD τ) ↦[(srcM1 c 21 hk_21).view.set]{fullShare} S1c c : sProp 𝕄) :=
  (payload_dma S1c Y2c c _ 0 21 dec0_21 r d).trans (by unfold xferPay; rw [dif_pos hk_21])
@[sl_rounds] theorem duties_0_22 (c : Dev nD) : (sched (F := F) S1c Y2c).duties (s1Cell c 22 ho_22) 0 = {0} := duties_dma S1c Y2c c _ 0 22 dec0_22
@[sl_rounds] theorem expect_0_22 (c : Dev nD) : (sched (F := F) S1c Y2c).expect (s1Cell c 22 ho_22) 0 = NX := expect_dma S1c Y2c c _ 0 22 dec0_22
@[sl_rounds] theorem pay_0_22 (c : Dev nD) (r d : ℕ) : (sched (F := F) S1c Y2c).payload (s1Cell c 22 ho_22) r d = ((srcM1 c 22 hk_22).view.loc (c : Thread nD τ) ↦[(srcM1 c 22 hk_22).view.set]{fullShare} S1c c : sProp 𝕄) :=
  (payload_dma S1c Y2c c _ 0 22 dec0_22 r d).trans (by unfold xferPay; rw [dif_pos hk_22])
@[sl_rounds] theorem duties_0_23 (c : Dev nD) : (sched (F := F) S1c Y2c).duties (s1Cell c 23 ho_23) 0 = {0} := duties_dma S1c Y2c c _ 0 23 dec0_23
@[sl_rounds] theorem expect_0_23 (c : Dev nD) : (sched (F := F) S1c Y2c).expect (s1Cell c 23 ho_23) 0 = NX := expect_dma S1c Y2c c _ 0 23 dec0_23
@[sl_rounds] theorem pay_0_23 (c : Dev nD) (r d : ℕ) : (sched (F := F) S1c Y2c).payload (s1Cell c 23 ho_23) r d = ((srcM1 c 23 hk_23).view.loc (c : Thread nD τ) ↦[(srcM1 c 23 hk_23).view.set]{fullShare} S1c c : sProp 𝕄) :=
  (payload_dma S1c Y2c c _ 0 23 dec0_23 r d).trans (by unfold xferPay; rw [dif_pos hk_23])
@[sl_rounds] theorem duties_0_24 (c : Dev nD) : (sched (F := F) S1c Y2c).duties (s1Cell c 24 ho_24) 0 = {0} := duties_dma S1c Y2c c _ 0 24 dec0_24
@[sl_rounds] theorem expect_0_24 (c : Dev nD) : (sched (F := F) S1c Y2c).expect (s1Cell c 24 ho_24) 0 = NX := expect_dma S1c Y2c c _ 0 24 dec0_24
@[sl_rounds] theorem pay_0_24 (c : Dev nD) (r d : ℕ) : (sched (F := F) S1c Y2c).payload (s1Cell c 24 ho_24) r d = ((srcM1 c 24 hk_24).view.loc (c : Thread nD τ) ↦[(srcM1 c 24 hk_24).view.set]{fullShare} S1c c : sProp 𝕄) :=
  (payload_dma S1c Y2c c _ 0 24 dec0_24 r d).trans (by unfold xferPay; rw [dif_pos hk_24])
@[sl_rounds] theorem duties_0_25 (c : Dev nD) : (sched (F := F) S1c Y2c).duties (s1Cell c 25 ho_25) 0 = {0} := duties_dma S1c Y2c c _ 0 25 dec0_25
@[sl_rounds] theorem expect_0_25 (c : Dev nD) : (sched (F := F) S1c Y2c).expect (s1Cell c 25 ho_25) 0 = NX := expect_dma S1c Y2c c _ 0 25 dec0_25
@[sl_rounds] theorem pay_0_25 (c : Dev nD) (r d : ℕ) : (sched (F := F) S1c Y2c).payload (s1Cell c 25 ho_25) r d = ((srcM1 c 25 hk_25).view.loc (c : Thread nD τ) ↦[(srcM1 c 25 hk_25).view.set]{fullShare} S1c c : sProp 𝕄) :=
  (payload_dma S1c Y2c c _ 0 25 dec0_25 r d).trans (by unfold xferPay; rw [dif_pos hk_25])
@[sl_rounds] theorem duties_0_26 (c : Dev nD) : (sched (F := F) S1c Y2c).duties (s1Cell c 26 ho_26) 0 = {0} := duties_dma S1c Y2c c _ 0 26 dec0_26
@[sl_rounds] theorem expect_0_26 (c : Dev nD) : (sched (F := F) S1c Y2c).expect (s1Cell c 26 ho_26) 0 = NX := expect_dma S1c Y2c c _ 0 26 dec0_26
@[sl_rounds] theorem pay_0_26 (c : Dev nD) (r d : ℕ) : (sched (F := F) S1c Y2c).payload (s1Cell c 26 ho_26) r d = ((srcM1 c 26 hk_26).view.loc (c : Thread nD τ) ↦[(srcM1 c 26 hk_26).view.set]{fullShare} S1c c : sProp 𝕄) :=
  (payload_dma S1c Y2c c _ 0 26 dec0_26 r d).trans (by unfold xferPay; rw [dif_pos hk_26])
@[sl_rounds] theorem duties_0_27 (c : Dev nD) : (sched (F := F) S1c Y2c).duties (s1Cell c 27 ho_27) 0 = {0} := duties_dma S1c Y2c c _ 0 27 dec0_27
@[sl_rounds] theorem expect_0_27 (c : Dev nD) : (sched (F := F) S1c Y2c).expect (s1Cell c 27 ho_27) 0 = NX := expect_dma S1c Y2c c _ 0 27 dec0_27
@[sl_rounds] theorem pay_0_27 (c : Dev nD) (r d : ℕ) : (sched (F := F) S1c Y2c).payload (s1Cell c 27 ho_27) r d = ((srcM1 c 27 hk_27).view.loc (c : Thread nD τ) ↦[(srcM1 c 27 hk_27).view.set]{fullShare} S1c c : sProp 𝕄) :=
  (payload_dma S1c Y2c c _ 0 27 dec0_27 r d).trans (by unfold xferPay; rw [dif_pos hk_27])
@[sl_rounds] theorem duties_0_28 (c : Dev nD) : (sched (F := F) S1c Y2c).duties (s1Cell c 28 ho_28) 0 = {0} := duties_dma S1c Y2c c _ 0 28 dec0_28
@[sl_rounds] theorem expect_0_28 (c : Dev nD) : (sched (F := F) S1c Y2c).expect (s1Cell c 28 ho_28) 0 = NX := expect_dma S1c Y2c c _ 0 28 dec0_28
@[sl_rounds] theorem pay_0_28 (c : Dev nD) (r d : ℕ) : (sched (F := F) S1c Y2c).payload (s1Cell c 28 ho_28) r d = ((srcM1 c 28 hk_28).view.loc (c : Thread nD τ) ↦[(srcM1 c 28 hk_28).view.set]{fullShare} S1c c : sProp 𝕄) :=
  (payload_dma S1c Y2c c _ 0 28 dec0_28 r d).trans (by unfold xferPay; rw [dif_pos hk_28])
@[sl_rounds] theorem duties_0_29 (c : Dev nD) : (sched (F := F) S1c Y2c).duties (s1Cell c 29 ho_29) 0 = {0} := duties_dma S1c Y2c c _ 0 29 dec0_29
@[sl_rounds] theorem expect_0_29 (c : Dev nD) : (sched (F := F) S1c Y2c).expect (s1Cell c 29 ho_29) 0 = NX := expect_dma S1c Y2c c _ 0 29 dec0_29
@[sl_rounds] theorem pay_0_29 (c : Dev nD) (r d : ℕ) : (sched (F := F) S1c Y2c).payload (s1Cell c 29 ho_29) r d = ((srcM1 c 29 hk_29).view.loc (c : Thread nD τ) ↦[(srcM1 c 29 hk_29).view.set]{fullShare} S1c c : sProp 𝕄) :=
  (payload_dma S1c Y2c c _ 0 29 dec0_29 r d).trans (by unfold xferPay; rw [dif_pos hk_29])
@[sl_rounds] theorem duties_0_30 (c : Dev nD) : (sched (F := F) S1c Y2c).duties (s1Cell c 30 ho_30) 0 = {0} := duties_dma S1c Y2c c _ 0 30 dec0_30
@[sl_rounds] theorem expect_0_30 (c : Dev nD) : (sched (F := F) S1c Y2c).expect (s1Cell c 30 ho_30) 0 = NX := expect_dma S1c Y2c c _ 0 30 dec0_30
@[sl_rounds] theorem pay_0_30 (c : Dev nD) (r d : ℕ) : (sched (F := F) S1c Y2c).payload (s1Cell c 30 ho_30) r d = ((srcM1 c 30 hk_30).view.loc (c : Thread nD τ) ↦[(srcM1 c 30 hk_30).view.set]{fullShare} S1c c : sProp 𝕄) :=
  (payload_dma S1c Y2c c _ 0 30 dec0_30 r d).trans (by unfold xferPay; rw [dif_pos hk_30])
@[sl_rounds] theorem duties_0_31 (c : Dev nD) : (sched (F := F) S1c Y2c).duties (s1Cell c 31 ho_31) 0 = {0} := duties_dma S1c Y2c c _ 0 31 dec0_31
@[sl_rounds] theorem expect_0_31 (c : Dev nD) : (sched (F := F) S1c Y2c).expect (s1Cell c 31 ho_31) 0 = NX := expect_dma S1c Y2c c _ 0 31 dec0_31
@[sl_rounds] theorem pay_0_31 (c : Dev nD) (r d : ℕ) : (sched (F := F) S1c Y2c).payload (s1Cell c 31 ho_31) r d = ((srcM1 c 31 hk_31).view.loc (c : Thread nD τ) ↦[(srcM1 c 31 hk_31).view.set]{fullShare} S1c c : sProp 𝕄) :=
  (payload_dma S1c Y2c c _ 0 31 dec0_31 r d).trans (by unfold xferPay; rw [dif_pos hk_31])
@[sl_rounds] theorem duties_1_1 (c : Dev nD) : (sched (F := F) S1c Y2c).duties (r1Cell c 1 ho_1) 0 = {0} := duties_dma S1c Y2c c _ 1 1 dec1_1
@[sl_rounds] theorem expect_1_1 (c : Dev nD) : (sched (F := F) S1c Y2c).expect (r1Cell c 1 ho_1) 0 = NX := expect_dma S1c Y2c c _ 1 1 dec1_1
@[sl_rounds] theorem pay_1_1 (c : Dev nD) (r d : ℕ) : (sched (F := F) S1c Y2c).payload (r1Cell c 1 ho_1) r d = ((slotM cm1 1 ho_1).view.loc (c : Thread nD τ) ↦[(slotM cm1 1 ho_1).view.set]{fullShare} land1 S1c c 1 hk_1 : sProp 𝕄) :=
  (payload_dma S1c Y2c c _ 1 1 dec1_1 r d).trans (by unfold xferPay; rw [dif_pos hk_1])
@[sl_rounds] theorem duties_1_2 (c : Dev nD) : (sched (F := F) S1c Y2c).duties (r1Cell c 2 ho_2) 0 = {0} := duties_dma S1c Y2c c _ 1 2 dec1_2
@[sl_rounds] theorem expect_1_2 (c : Dev nD) : (sched (F := F) S1c Y2c).expect (r1Cell c 2 ho_2) 0 = NX := expect_dma S1c Y2c c _ 1 2 dec1_2
@[sl_rounds] theorem pay_1_2 (c : Dev nD) (r d : ℕ) : (sched (F := F) S1c Y2c).payload (r1Cell c 2 ho_2) r d = ((slotM cm1 2 ho_2).view.loc (c : Thread nD τ) ↦[(slotM cm1 2 ho_2).view.set]{fullShare} land1 S1c c 2 hk_2 : sProp 𝕄) :=
  (payload_dma S1c Y2c c _ 1 2 dec1_2 r d).trans (by unfold xferPay; rw [dif_pos hk_2])
@[sl_rounds] theorem duties_1_3 (c : Dev nD) : (sched (F := F) S1c Y2c).duties (r1Cell c 3 ho_3) 0 = {0} := duties_dma S1c Y2c c _ 1 3 dec1_3
@[sl_rounds] theorem expect_1_3 (c : Dev nD) : (sched (F := F) S1c Y2c).expect (r1Cell c 3 ho_3) 0 = NX := expect_dma S1c Y2c c _ 1 3 dec1_3
@[sl_rounds] theorem pay_1_3 (c : Dev nD) (r d : ℕ) : (sched (F := F) S1c Y2c).payload (r1Cell c 3 ho_3) r d = ((slotM cm1 3 ho_3).view.loc (c : Thread nD τ) ↦[(slotM cm1 3 ho_3).view.set]{fullShare} land1 S1c c 3 hk_3 : sProp 𝕄) :=
  (payload_dma S1c Y2c c _ 1 3 dec1_3 r d).trans (by unfold xferPay; rw [dif_pos hk_3])
@[sl_rounds] theorem duties_1_4 (c : Dev nD) : (sched (F := F) S1c Y2c).duties (r1Cell c 4 ho_4) 0 = {0} := duties_dma S1c Y2c c _ 1 4 dec1_4
@[sl_rounds] theorem expect_1_4 (c : Dev nD) : (sched (F := F) S1c Y2c).expect (r1Cell c 4 ho_4) 0 = NX := expect_dma S1c Y2c c _ 1 4 dec1_4
@[sl_rounds] theorem pay_1_4 (c : Dev nD) (r d : ℕ) : (sched (F := F) S1c Y2c).payload (r1Cell c 4 ho_4) r d = ((slotM cm1 4 ho_4).view.loc (c : Thread nD τ) ↦[(slotM cm1 4 ho_4).view.set]{fullShare} land1 S1c c 4 hk_4 : sProp 𝕄) :=
  (payload_dma S1c Y2c c _ 1 4 dec1_4 r d).trans (by unfold xferPay; rw [dif_pos hk_4])
@[sl_rounds] theorem duties_1_5 (c : Dev nD) : (sched (F := F) S1c Y2c).duties (r1Cell c 5 ho_5) 0 = {0} := duties_dma S1c Y2c c _ 1 5 dec1_5
@[sl_rounds] theorem expect_1_5 (c : Dev nD) : (sched (F := F) S1c Y2c).expect (r1Cell c 5 ho_5) 0 = NX := expect_dma S1c Y2c c _ 1 5 dec1_5
@[sl_rounds] theorem pay_1_5 (c : Dev nD) (r d : ℕ) : (sched (F := F) S1c Y2c).payload (r1Cell c 5 ho_5) r d = ((slotM cm1 5 ho_5).view.loc (c : Thread nD τ) ↦[(slotM cm1 5 ho_5).view.set]{fullShare} land1 S1c c 5 hk_5 : sProp 𝕄) :=
  (payload_dma S1c Y2c c _ 1 5 dec1_5 r d).trans (by unfold xferPay; rw [dif_pos hk_5])
@[sl_rounds] theorem duties_1_6 (c : Dev nD) : (sched (F := F) S1c Y2c).duties (r1Cell c 6 ho_6) 0 = {0} := duties_dma S1c Y2c c _ 1 6 dec1_6
@[sl_rounds] theorem expect_1_6 (c : Dev nD) : (sched (F := F) S1c Y2c).expect (r1Cell c 6 ho_6) 0 = NX := expect_dma S1c Y2c c _ 1 6 dec1_6
@[sl_rounds] theorem pay_1_6 (c : Dev nD) (r d : ℕ) : (sched (F := F) S1c Y2c).payload (r1Cell c 6 ho_6) r d = ((slotM cm1 6 ho_6).view.loc (c : Thread nD τ) ↦[(slotM cm1 6 ho_6).view.set]{fullShare} land1 S1c c 6 hk_6 : sProp 𝕄) :=
  (payload_dma S1c Y2c c _ 1 6 dec1_6 r d).trans (by unfold xferPay; rw [dif_pos hk_6])
@[sl_rounds] theorem duties_1_7 (c : Dev nD) : (sched (F := F) S1c Y2c).duties (r1Cell c 7 ho_7) 0 = {0} := duties_dma S1c Y2c c _ 1 7 dec1_7
@[sl_rounds] theorem expect_1_7 (c : Dev nD) : (sched (F := F) S1c Y2c).expect (r1Cell c 7 ho_7) 0 = NX := expect_dma S1c Y2c c _ 1 7 dec1_7
@[sl_rounds] theorem pay_1_7 (c : Dev nD) (r d : ℕ) : (sched (F := F) S1c Y2c).payload (r1Cell c 7 ho_7) r d = ((slotM cm1 7 ho_7).view.loc (c : Thread nD τ) ↦[(slotM cm1 7 ho_7).view.set]{fullShare} land1 S1c c 7 hk_7 : sProp 𝕄) :=
  (payload_dma S1c Y2c c _ 1 7 dec1_7 r d).trans (by unfold xferPay; rw [dif_pos hk_7])
@[sl_rounds] theorem duties_1_8 (c : Dev nD) : (sched (F := F) S1c Y2c).duties (r1Cell c 8 ho_8) 0 = {0} := duties_dma S1c Y2c c _ 1 8 dec1_8
@[sl_rounds] theorem expect_1_8 (c : Dev nD) : (sched (F := F) S1c Y2c).expect (r1Cell c 8 ho_8) 0 = NX := expect_dma S1c Y2c c _ 1 8 dec1_8
@[sl_rounds] theorem pay_1_8 (c : Dev nD) (r d : ℕ) : (sched (F := F) S1c Y2c).payload (r1Cell c 8 ho_8) r d = ((slotM cm1 8 ho_8).view.loc (c : Thread nD τ) ↦[(slotM cm1 8 ho_8).view.set]{fullShare} land1 S1c c 8 hk_8 : sProp 𝕄) :=
  (payload_dma S1c Y2c c _ 1 8 dec1_8 r d).trans (by unfold xferPay; rw [dif_pos hk_8])
@[sl_rounds] theorem duties_1_9 (c : Dev nD) : (sched (F := F) S1c Y2c).duties (r1Cell c 9 ho_9) 0 = {0} := duties_dma S1c Y2c c _ 1 9 dec1_9
@[sl_rounds] theorem expect_1_9 (c : Dev nD) : (sched (F := F) S1c Y2c).expect (r1Cell c 9 ho_9) 0 = NX := expect_dma S1c Y2c c _ 1 9 dec1_9
@[sl_rounds] theorem pay_1_9 (c : Dev nD) (r d : ℕ) : (sched (F := F) S1c Y2c).payload (r1Cell c 9 ho_9) r d = ((slotM cm1 9 ho_9).view.loc (c : Thread nD τ) ↦[(slotM cm1 9 ho_9).view.set]{fullShare} land1 S1c c 9 hk_9 : sProp 𝕄) :=
  (payload_dma S1c Y2c c _ 1 9 dec1_9 r d).trans (by unfold xferPay; rw [dif_pos hk_9])
@[sl_rounds] theorem duties_1_10 (c : Dev nD) : (sched (F := F) S1c Y2c).duties (r1Cell c 10 ho_10) 0 = {0} := duties_dma S1c Y2c c _ 1 10 dec1_10
@[sl_rounds] theorem expect_1_10 (c : Dev nD) : (sched (F := F) S1c Y2c).expect (r1Cell c 10 ho_10) 0 = NX := expect_dma S1c Y2c c _ 1 10 dec1_10
@[sl_rounds] theorem pay_1_10 (c : Dev nD) (r d : ℕ) : (sched (F := F) S1c Y2c).payload (r1Cell c 10 ho_10) r d = ((slotM cm1 10 ho_10).view.loc (c : Thread nD τ) ↦[(slotM cm1 10 ho_10).view.set]{fullShare} land1 S1c c 10 hk_10 : sProp 𝕄) :=
  (payload_dma S1c Y2c c _ 1 10 dec1_10 r d).trans (by unfold xferPay; rw [dif_pos hk_10])
@[sl_rounds] theorem duties_1_11 (c : Dev nD) : (sched (F := F) S1c Y2c).duties (r1Cell c 11 ho_11) 0 = {0} := duties_dma S1c Y2c c _ 1 11 dec1_11
@[sl_rounds] theorem expect_1_11 (c : Dev nD) : (sched (F := F) S1c Y2c).expect (r1Cell c 11 ho_11) 0 = NX := expect_dma S1c Y2c c _ 1 11 dec1_11
@[sl_rounds] theorem pay_1_11 (c : Dev nD) (r d : ℕ) : (sched (F := F) S1c Y2c).payload (r1Cell c 11 ho_11) r d = ((slotM cm1 11 ho_11).view.loc (c : Thread nD τ) ↦[(slotM cm1 11 ho_11).view.set]{fullShare} land1 S1c c 11 hk_11 : sProp 𝕄) :=
  (payload_dma S1c Y2c c _ 1 11 dec1_11 r d).trans (by unfold xferPay; rw [dif_pos hk_11])
@[sl_rounds] theorem duties_1_12 (c : Dev nD) : (sched (F := F) S1c Y2c).duties (r1Cell c 12 ho_12) 0 = {0} := duties_dma S1c Y2c c _ 1 12 dec1_12
@[sl_rounds] theorem expect_1_12 (c : Dev nD) : (sched (F := F) S1c Y2c).expect (r1Cell c 12 ho_12) 0 = NX := expect_dma S1c Y2c c _ 1 12 dec1_12
@[sl_rounds] theorem pay_1_12 (c : Dev nD) (r d : ℕ) : (sched (F := F) S1c Y2c).payload (r1Cell c 12 ho_12) r d = ((slotM cm1 12 ho_12).view.loc (c : Thread nD τ) ↦[(slotM cm1 12 ho_12).view.set]{fullShare} land1 S1c c 12 hk_12 : sProp 𝕄) :=
  (payload_dma S1c Y2c c _ 1 12 dec1_12 r d).trans (by unfold xferPay; rw [dif_pos hk_12])
@[sl_rounds] theorem duties_1_13 (c : Dev nD) : (sched (F := F) S1c Y2c).duties (r1Cell c 13 ho_13) 0 = {0} := duties_dma S1c Y2c c _ 1 13 dec1_13
@[sl_rounds] theorem expect_1_13 (c : Dev nD) : (sched (F := F) S1c Y2c).expect (r1Cell c 13 ho_13) 0 = NX := expect_dma S1c Y2c c _ 1 13 dec1_13
@[sl_rounds] theorem pay_1_13 (c : Dev nD) (r d : ℕ) : (sched (F := F) S1c Y2c).payload (r1Cell c 13 ho_13) r d = ((slotM cm1 13 ho_13).view.loc (c : Thread nD τ) ↦[(slotM cm1 13 ho_13).view.set]{fullShare} land1 S1c c 13 hk_13 : sProp 𝕄) :=
  (payload_dma S1c Y2c c _ 1 13 dec1_13 r d).trans (by unfold xferPay; rw [dif_pos hk_13])
@[sl_rounds] theorem duties_1_14 (c : Dev nD) : (sched (F := F) S1c Y2c).duties (r1Cell c 14 ho_14) 0 = {0} := duties_dma S1c Y2c c _ 1 14 dec1_14
@[sl_rounds] theorem expect_1_14 (c : Dev nD) : (sched (F := F) S1c Y2c).expect (r1Cell c 14 ho_14) 0 = NX := expect_dma S1c Y2c c _ 1 14 dec1_14
@[sl_rounds] theorem pay_1_14 (c : Dev nD) (r d : ℕ) : (sched (F := F) S1c Y2c).payload (r1Cell c 14 ho_14) r d = ((slotM cm1 14 ho_14).view.loc (c : Thread nD τ) ↦[(slotM cm1 14 ho_14).view.set]{fullShare} land1 S1c c 14 hk_14 : sProp 𝕄) :=
  (payload_dma S1c Y2c c _ 1 14 dec1_14 r d).trans (by unfold xferPay; rw [dif_pos hk_14])
@[sl_rounds] theorem duties_1_15 (c : Dev nD) : (sched (F := F) S1c Y2c).duties (r1Cell c 15 ho_15) 0 = {0} := duties_dma S1c Y2c c _ 1 15 dec1_15
@[sl_rounds] theorem expect_1_15 (c : Dev nD) : (sched (F := F) S1c Y2c).expect (r1Cell c 15 ho_15) 0 = NX := expect_dma S1c Y2c c _ 1 15 dec1_15
@[sl_rounds] theorem pay_1_15 (c : Dev nD) (r d : ℕ) : (sched (F := F) S1c Y2c).payload (r1Cell c 15 ho_15) r d = ((slotM cm1 15 ho_15).view.loc (c : Thread nD τ) ↦[(slotM cm1 15 ho_15).view.set]{fullShare} land1 S1c c 15 hk_15 : sProp 𝕄) :=
  (payload_dma S1c Y2c c _ 1 15 dec1_15 r d).trans (by unfold xferPay; rw [dif_pos hk_15])
@[sl_rounds] theorem duties_1_16 (c : Dev nD) : (sched (F := F) S1c Y2c).duties (r1Cell c 16 ho_16) 0 = {0} := duties_dma S1c Y2c c _ 1 16 dec1_16
@[sl_rounds] theorem expect_1_16 (c : Dev nD) : (sched (F := F) S1c Y2c).expect (r1Cell c 16 ho_16) 0 = NX := expect_dma S1c Y2c c _ 1 16 dec1_16
@[sl_rounds] theorem pay_1_16 (c : Dev nD) (r d : ℕ) : (sched (F := F) S1c Y2c).payload (r1Cell c 16 ho_16) r d = ((slotM cm1 16 ho_16).view.loc (c : Thread nD τ) ↦[(slotM cm1 16 ho_16).view.set]{fullShare} land1 S1c c 16 hk_16 : sProp 𝕄) :=
  (payload_dma S1c Y2c c _ 1 16 dec1_16 r d).trans (by unfold xferPay; rw [dif_pos hk_16])
@[sl_rounds] theorem duties_1_17 (c : Dev nD) : (sched (F := F) S1c Y2c).duties (r1Cell c 17 ho_17) 0 = {0} := duties_dma S1c Y2c c _ 1 17 dec1_17
@[sl_rounds] theorem expect_1_17 (c : Dev nD) : (sched (F := F) S1c Y2c).expect (r1Cell c 17 ho_17) 0 = NX := expect_dma S1c Y2c c _ 1 17 dec1_17
@[sl_rounds] theorem pay_1_17 (c : Dev nD) (r d : ℕ) : (sched (F := F) S1c Y2c).payload (r1Cell c 17 ho_17) r d = ((slotM cm1 17 ho_17).view.loc (c : Thread nD τ) ↦[(slotM cm1 17 ho_17).view.set]{fullShare} land1 S1c c 17 hk_17 : sProp 𝕄) :=
  (payload_dma S1c Y2c c _ 1 17 dec1_17 r d).trans (by unfold xferPay; rw [dif_pos hk_17])
@[sl_rounds] theorem duties_1_18 (c : Dev nD) : (sched (F := F) S1c Y2c).duties (r1Cell c 18 ho_18) 0 = {0} := duties_dma S1c Y2c c _ 1 18 dec1_18
@[sl_rounds] theorem expect_1_18 (c : Dev nD) : (sched (F := F) S1c Y2c).expect (r1Cell c 18 ho_18) 0 = NX := expect_dma S1c Y2c c _ 1 18 dec1_18
@[sl_rounds] theorem pay_1_18 (c : Dev nD) (r d : ℕ) : (sched (F := F) S1c Y2c).payload (r1Cell c 18 ho_18) r d = ((slotM cm1 18 ho_18).view.loc (c : Thread nD τ) ↦[(slotM cm1 18 ho_18).view.set]{fullShare} land1 S1c c 18 hk_18 : sProp 𝕄) :=
  (payload_dma S1c Y2c c _ 1 18 dec1_18 r d).trans (by unfold xferPay; rw [dif_pos hk_18])
@[sl_rounds] theorem duties_1_19 (c : Dev nD) : (sched (F := F) S1c Y2c).duties (r1Cell c 19 ho_19) 0 = {0} := duties_dma S1c Y2c c _ 1 19 dec1_19
@[sl_rounds] theorem expect_1_19 (c : Dev nD) : (sched (F := F) S1c Y2c).expect (r1Cell c 19 ho_19) 0 = NX := expect_dma S1c Y2c c _ 1 19 dec1_19
@[sl_rounds] theorem pay_1_19 (c : Dev nD) (r d : ℕ) : (sched (F := F) S1c Y2c).payload (r1Cell c 19 ho_19) r d = ((slotM cm1 19 ho_19).view.loc (c : Thread nD τ) ↦[(slotM cm1 19 ho_19).view.set]{fullShare} land1 S1c c 19 hk_19 : sProp 𝕄) :=
  (payload_dma S1c Y2c c _ 1 19 dec1_19 r d).trans (by unfold xferPay; rw [dif_pos hk_19])
@[sl_rounds] theorem duties_1_20 (c : Dev nD) : (sched (F := F) S1c Y2c).duties (r1Cell c 20 ho_20) 0 = {0} := duties_dma S1c Y2c c _ 1 20 dec1_20
@[sl_rounds] theorem expect_1_20 (c : Dev nD) : (sched (F := F) S1c Y2c).expect (r1Cell c 20 ho_20) 0 = NX := expect_dma S1c Y2c c _ 1 20 dec1_20
@[sl_rounds] theorem pay_1_20 (c : Dev nD) (r d : ℕ) : (sched (F := F) S1c Y2c).payload (r1Cell c 20 ho_20) r d = ((slotM cm1 20 ho_20).view.loc (c : Thread nD τ) ↦[(slotM cm1 20 ho_20).view.set]{fullShare} land1 S1c c 20 hk_20 : sProp 𝕄) :=
  (payload_dma S1c Y2c c _ 1 20 dec1_20 r d).trans (by unfold xferPay; rw [dif_pos hk_20])
@[sl_rounds] theorem duties_1_21 (c : Dev nD) : (sched (F := F) S1c Y2c).duties (r1Cell c 21 ho_21) 0 = {0} := duties_dma S1c Y2c c _ 1 21 dec1_21
@[sl_rounds] theorem expect_1_21 (c : Dev nD) : (sched (F := F) S1c Y2c).expect (r1Cell c 21 ho_21) 0 = NX := expect_dma S1c Y2c c _ 1 21 dec1_21
@[sl_rounds] theorem pay_1_21 (c : Dev nD) (r d : ℕ) : (sched (F := F) S1c Y2c).payload (r1Cell c 21 ho_21) r d = ((slotM cm1 21 ho_21).view.loc (c : Thread nD τ) ↦[(slotM cm1 21 ho_21).view.set]{fullShare} land1 S1c c 21 hk_21 : sProp 𝕄) :=
  (payload_dma S1c Y2c c _ 1 21 dec1_21 r d).trans (by unfold xferPay; rw [dif_pos hk_21])
@[sl_rounds] theorem duties_1_22 (c : Dev nD) : (sched (F := F) S1c Y2c).duties (r1Cell c 22 ho_22) 0 = {0} := duties_dma S1c Y2c c _ 1 22 dec1_22
@[sl_rounds] theorem expect_1_22 (c : Dev nD) : (sched (F := F) S1c Y2c).expect (r1Cell c 22 ho_22) 0 = NX := expect_dma S1c Y2c c _ 1 22 dec1_22
@[sl_rounds] theorem pay_1_22 (c : Dev nD) (r d : ℕ) : (sched (F := F) S1c Y2c).payload (r1Cell c 22 ho_22) r d = ((slotM cm1 22 ho_22).view.loc (c : Thread nD τ) ↦[(slotM cm1 22 ho_22).view.set]{fullShare} land1 S1c c 22 hk_22 : sProp 𝕄) :=
  (payload_dma S1c Y2c c _ 1 22 dec1_22 r d).trans (by unfold xferPay; rw [dif_pos hk_22])
@[sl_rounds] theorem duties_1_23 (c : Dev nD) : (sched (F := F) S1c Y2c).duties (r1Cell c 23 ho_23) 0 = {0} := duties_dma S1c Y2c c _ 1 23 dec1_23
@[sl_rounds] theorem expect_1_23 (c : Dev nD) : (sched (F := F) S1c Y2c).expect (r1Cell c 23 ho_23) 0 = NX := expect_dma S1c Y2c c _ 1 23 dec1_23
@[sl_rounds] theorem pay_1_23 (c : Dev nD) (r d : ℕ) : (sched (F := F) S1c Y2c).payload (r1Cell c 23 ho_23) r d = ((slotM cm1 23 ho_23).view.loc (c : Thread nD τ) ↦[(slotM cm1 23 ho_23).view.set]{fullShare} land1 S1c c 23 hk_23 : sProp 𝕄) :=
  (payload_dma S1c Y2c c _ 1 23 dec1_23 r d).trans (by unfold xferPay; rw [dif_pos hk_23])
@[sl_rounds] theorem duties_1_24 (c : Dev nD) : (sched (F := F) S1c Y2c).duties (r1Cell c 24 ho_24) 0 = {0} := duties_dma S1c Y2c c _ 1 24 dec1_24
@[sl_rounds] theorem expect_1_24 (c : Dev nD) : (sched (F := F) S1c Y2c).expect (r1Cell c 24 ho_24) 0 = NX := expect_dma S1c Y2c c _ 1 24 dec1_24
@[sl_rounds] theorem pay_1_24 (c : Dev nD) (r d : ℕ) : (sched (F := F) S1c Y2c).payload (r1Cell c 24 ho_24) r d = ((slotM cm1 24 ho_24).view.loc (c : Thread nD τ) ↦[(slotM cm1 24 ho_24).view.set]{fullShare} land1 S1c c 24 hk_24 : sProp 𝕄) :=
  (payload_dma S1c Y2c c _ 1 24 dec1_24 r d).trans (by unfold xferPay; rw [dif_pos hk_24])
@[sl_rounds] theorem duties_1_25 (c : Dev nD) : (sched (F := F) S1c Y2c).duties (r1Cell c 25 ho_25) 0 = {0} := duties_dma S1c Y2c c _ 1 25 dec1_25
@[sl_rounds] theorem expect_1_25 (c : Dev nD) : (sched (F := F) S1c Y2c).expect (r1Cell c 25 ho_25) 0 = NX := expect_dma S1c Y2c c _ 1 25 dec1_25
@[sl_rounds] theorem pay_1_25 (c : Dev nD) (r d : ℕ) : (sched (F := F) S1c Y2c).payload (r1Cell c 25 ho_25) r d = ((slotM cm1 25 ho_25).view.loc (c : Thread nD τ) ↦[(slotM cm1 25 ho_25).view.set]{fullShare} land1 S1c c 25 hk_25 : sProp 𝕄) :=
  (payload_dma S1c Y2c c _ 1 25 dec1_25 r d).trans (by unfold xferPay; rw [dif_pos hk_25])
@[sl_rounds] theorem duties_1_26 (c : Dev nD) : (sched (F := F) S1c Y2c).duties (r1Cell c 26 ho_26) 0 = {0} := duties_dma S1c Y2c c _ 1 26 dec1_26
@[sl_rounds] theorem expect_1_26 (c : Dev nD) : (sched (F := F) S1c Y2c).expect (r1Cell c 26 ho_26) 0 = NX := expect_dma S1c Y2c c _ 1 26 dec1_26
@[sl_rounds] theorem pay_1_26 (c : Dev nD) (r d : ℕ) : (sched (F := F) S1c Y2c).payload (r1Cell c 26 ho_26) r d = ((slotM cm1 26 ho_26).view.loc (c : Thread nD τ) ↦[(slotM cm1 26 ho_26).view.set]{fullShare} land1 S1c c 26 hk_26 : sProp 𝕄) :=
  (payload_dma S1c Y2c c _ 1 26 dec1_26 r d).trans (by unfold xferPay; rw [dif_pos hk_26])
@[sl_rounds] theorem duties_1_27 (c : Dev nD) : (sched (F := F) S1c Y2c).duties (r1Cell c 27 ho_27) 0 = {0} := duties_dma S1c Y2c c _ 1 27 dec1_27
@[sl_rounds] theorem expect_1_27 (c : Dev nD) : (sched (F := F) S1c Y2c).expect (r1Cell c 27 ho_27) 0 = NX := expect_dma S1c Y2c c _ 1 27 dec1_27
@[sl_rounds] theorem pay_1_27 (c : Dev nD) (r d : ℕ) : (sched (F := F) S1c Y2c).payload (r1Cell c 27 ho_27) r d = ((slotM cm1 27 ho_27).view.loc (c : Thread nD τ) ↦[(slotM cm1 27 ho_27).view.set]{fullShare} land1 S1c c 27 hk_27 : sProp 𝕄) :=
  (payload_dma S1c Y2c c _ 1 27 dec1_27 r d).trans (by unfold xferPay; rw [dif_pos hk_27])
@[sl_rounds] theorem duties_1_28 (c : Dev nD) : (sched (F := F) S1c Y2c).duties (r1Cell c 28 ho_28) 0 = {0} := duties_dma S1c Y2c c _ 1 28 dec1_28
@[sl_rounds] theorem expect_1_28 (c : Dev nD) : (sched (F := F) S1c Y2c).expect (r1Cell c 28 ho_28) 0 = NX := expect_dma S1c Y2c c _ 1 28 dec1_28
@[sl_rounds] theorem pay_1_28 (c : Dev nD) (r d : ℕ) : (sched (F := F) S1c Y2c).payload (r1Cell c 28 ho_28) r d = ((slotM cm1 28 ho_28).view.loc (c : Thread nD τ) ↦[(slotM cm1 28 ho_28).view.set]{fullShare} land1 S1c c 28 hk_28 : sProp 𝕄) :=
  (payload_dma S1c Y2c c _ 1 28 dec1_28 r d).trans (by unfold xferPay; rw [dif_pos hk_28])
@[sl_rounds] theorem duties_1_29 (c : Dev nD) : (sched (F := F) S1c Y2c).duties (r1Cell c 29 ho_29) 0 = {0} := duties_dma S1c Y2c c _ 1 29 dec1_29
@[sl_rounds] theorem expect_1_29 (c : Dev nD) : (sched (F := F) S1c Y2c).expect (r1Cell c 29 ho_29) 0 = NX := expect_dma S1c Y2c c _ 1 29 dec1_29
@[sl_rounds] theorem pay_1_29 (c : Dev nD) (r d : ℕ) : (sched (F := F) S1c Y2c).payload (r1Cell c 29 ho_29) r d = ((slotM cm1 29 ho_29).view.loc (c : Thread nD τ) ↦[(slotM cm1 29 ho_29).view.set]{fullShare} land1 S1c c 29 hk_29 : sProp 𝕄) :=
  (payload_dma S1c Y2c c _ 1 29 dec1_29 r d).trans (by unfold xferPay; rw [dif_pos hk_29])
@[sl_rounds] theorem duties_1_30 (c : Dev nD) : (sched (F := F) S1c Y2c).duties (r1Cell c 30 ho_30) 0 = {0} := duties_dma S1c Y2c c _ 1 30 dec1_30
@[sl_rounds] theorem expect_1_30 (c : Dev nD) : (sched (F := F) S1c Y2c).expect (r1Cell c 30 ho_30) 0 = NX := expect_dma S1c Y2c c _ 1 30 dec1_30
@[sl_rounds] theorem pay_1_30 (c : Dev nD) (r d : ℕ) : (sched (F := F) S1c Y2c).payload (r1Cell c 30 ho_30) r d = ((slotM cm1 30 ho_30).view.loc (c : Thread nD τ) ↦[(slotM cm1 30 ho_30).view.set]{fullShare} land1 S1c c 30 hk_30 : sProp 𝕄) :=
  (payload_dma S1c Y2c c _ 1 30 dec1_30 r d).trans (by unfold xferPay; rw [dif_pos hk_30])
@[sl_rounds] theorem duties_1_31 (c : Dev nD) : (sched (F := F) S1c Y2c).duties (r1Cell c 31 ho_31) 0 = {0} := duties_dma S1c Y2c c _ 1 31 dec1_31
@[sl_rounds] theorem expect_1_31 (c : Dev nD) : (sched (F := F) S1c Y2c).expect (r1Cell c 31 ho_31) 0 = NX := expect_dma S1c Y2c c _ 1 31 dec1_31
@[sl_rounds] theorem pay_1_31 (c : Dev nD) (r d : ℕ) : (sched (F := F) S1c Y2c).payload (r1Cell c 31 ho_31) r d = ((slotM cm1 31 ho_31).view.loc (c : Thread nD τ) ↦[(slotM cm1 31 ho_31).view.set]{fullShare} land1 S1c c 31 hk_31 : sProp 𝕄) :=
  (payload_dma S1c Y2c c _ 1 31 dec1_31 r d).trans (by unfold xferPay; rw [dif_pos hk_31])
@[sl_rounds] theorem duties_2_1 (c : Dev nD) : (sched (F := F) S1c Y2c).duties (s2Cell c 1 ho_1) 0 = {0} := duties_dma S1c Y2c c _ 2 1 dec2_1
@[sl_rounds] theorem expect_2_1 (c : Dev nD) : (sched (F := F) S1c Y2c).expect (s2Cell c 1 ho_1) 0 = NX := expect_dma S1c Y2c c _ 2 1 dec2_1
@[sl_rounds] theorem pay_2_1 (c : Dev nD) (r d : ℕ) : (sched (F := F) S1c Y2c).payload (s2Cell c 1 ho_1) r d = (st2.view.loc (c : Thread nD τ) ↦[st2.view.set]{Transfers.shareTokN fullShare 0} Y2c c : sProp 𝕄) :=
  (payload_dma S1c Y2c c _ 2 1 dec2_1 r d).trans (by unfold xferPay; rw [dif_pos hk_1])
@[sl_rounds] theorem duties_2_2 (c : Dev nD) : (sched (F := F) S1c Y2c).duties (s2Cell c 2 ho_2) 0 = {0} := duties_dma S1c Y2c c _ 2 2 dec2_2
@[sl_rounds] theorem expect_2_2 (c : Dev nD) : (sched (F := F) S1c Y2c).expect (s2Cell c 2 ho_2) 0 = NX := expect_dma S1c Y2c c _ 2 2 dec2_2
@[sl_rounds] theorem pay_2_2 (c : Dev nD) (r d : ℕ) : (sched (F := F) S1c Y2c).payload (s2Cell c 2 ho_2) r d = (st2.view.loc (c : Thread nD τ) ↦[st2.view.set]{Transfers.shareTokN fullShare 1} Y2c c : sProp 𝕄) :=
  (payload_dma S1c Y2c c _ 2 2 dec2_2 r d).trans (by unfold xferPay; rw [dif_pos hk_2])
@[sl_rounds] theorem duties_2_3 (c : Dev nD) : (sched (F := F) S1c Y2c).duties (s2Cell c 3 ho_3) 0 = {0} := duties_dma S1c Y2c c _ 2 3 dec2_3
@[sl_rounds] theorem expect_2_3 (c : Dev nD) : (sched (F := F) S1c Y2c).expect (s2Cell c 3 ho_3) 0 = NX := expect_dma S1c Y2c c _ 2 3 dec2_3
@[sl_rounds] theorem pay_2_3 (c : Dev nD) (r d : ℕ) : (sched (F := F) S1c Y2c).payload (s2Cell c 3 ho_3) r d = (st2.view.loc (c : Thread nD τ) ↦[st2.view.set]{Transfers.shareTokN fullShare 2} Y2c c : sProp 𝕄) :=
  (payload_dma S1c Y2c c _ 2 3 dec2_3 r d).trans (by unfold xferPay; rw [dif_pos hk_3])
@[sl_rounds] theorem duties_2_4 (c : Dev nD) : (sched (F := F) S1c Y2c).duties (s2Cell c 4 ho_4) 0 = {0} := duties_dma S1c Y2c c _ 2 4 dec2_4
@[sl_rounds] theorem expect_2_4 (c : Dev nD) : (sched (F := F) S1c Y2c).expect (s2Cell c 4 ho_4) 0 = NX := expect_dma S1c Y2c c _ 2 4 dec2_4
@[sl_rounds] theorem pay_2_4 (c : Dev nD) (r d : ℕ) : (sched (F := F) S1c Y2c).payload (s2Cell c 4 ho_4) r d = (st2.view.loc (c : Thread nD τ) ↦[st2.view.set]{Transfers.shareTokN fullShare 3} Y2c c : sProp 𝕄) :=
  (payload_dma S1c Y2c c _ 2 4 dec2_4 r d).trans (by unfold xferPay; rw [dif_pos hk_4])
@[sl_rounds] theorem duties_2_5 (c : Dev nD) : (sched (F := F) S1c Y2c).duties (s2Cell c 5 ho_5) 0 = {0} := duties_dma S1c Y2c c _ 2 5 dec2_5
@[sl_rounds] theorem expect_2_5 (c : Dev nD) : (sched (F := F) S1c Y2c).expect (s2Cell c 5 ho_5) 0 = NX := expect_dma S1c Y2c c _ 2 5 dec2_5
@[sl_rounds] theorem pay_2_5 (c : Dev nD) (r d : ℕ) : (sched (F := F) S1c Y2c).payload (s2Cell c 5 ho_5) r d = (st2.view.loc (c : Thread nD τ) ↦[st2.view.set]{Transfers.shareTokN fullShare 4} Y2c c : sProp 𝕄) :=
  (payload_dma S1c Y2c c _ 2 5 dec2_5 r d).trans (by unfold xferPay; rw [dif_pos hk_5])
@[sl_rounds] theorem duties_2_6 (c : Dev nD) : (sched (F := F) S1c Y2c).duties (s2Cell c 6 ho_6) 0 = {0} := duties_dma S1c Y2c c _ 2 6 dec2_6
@[sl_rounds] theorem expect_2_6 (c : Dev nD) : (sched (F := F) S1c Y2c).expect (s2Cell c 6 ho_6) 0 = NX := expect_dma S1c Y2c c _ 2 6 dec2_6
@[sl_rounds] theorem pay_2_6 (c : Dev nD) (r d : ℕ) : (sched (F := F) S1c Y2c).payload (s2Cell c 6 ho_6) r d = (st2.view.loc (c : Thread nD τ) ↦[st2.view.set]{Transfers.shareTokN fullShare 5} Y2c c : sProp 𝕄) :=
  (payload_dma S1c Y2c c _ 2 6 dec2_6 r d).trans (by unfold xferPay; rw [dif_pos hk_6])
@[sl_rounds] theorem duties_2_7 (c : Dev nD) : (sched (F := F) S1c Y2c).duties (s2Cell c 7 ho_7) 0 = {0} := duties_dma S1c Y2c c _ 2 7 dec2_7
@[sl_rounds] theorem expect_2_7 (c : Dev nD) : (sched (F := F) S1c Y2c).expect (s2Cell c 7 ho_7) 0 = NX := expect_dma S1c Y2c c _ 2 7 dec2_7
@[sl_rounds] theorem pay_2_7 (c : Dev nD) (r d : ℕ) : (sched (F := F) S1c Y2c).payload (s2Cell c 7 ho_7) r d = (st2.view.loc (c : Thread nD τ) ↦[st2.view.set]{Transfers.shareTokN fullShare 6} Y2c c : sProp 𝕄) :=
  (payload_dma S1c Y2c c _ 2 7 dec2_7 r d).trans (by unfold xferPay; rw [dif_pos hk_7])
@[sl_rounds] theorem duties_2_8 (c : Dev nD) : (sched (F := F) S1c Y2c).duties (s2Cell c 8 ho_8) 0 = {0} := duties_dma S1c Y2c c _ 2 8 dec2_8
@[sl_rounds] theorem expect_2_8 (c : Dev nD) : (sched (F := F) S1c Y2c).expect (s2Cell c 8 ho_8) 0 = NX := expect_dma S1c Y2c c _ 2 8 dec2_8
@[sl_rounds] theorem pay_2_8 (c : Dev nD) (r d : ℕ) : (sched (F := F) S1c Y2c).payload (s2Cell c 8 ho_8) r d = (st2.view.loc (c : Thread nD τ) ↦[st2.view.set]{Transfers.shareTokN fullShare 7} Y2c c : sProp 𝕄) :=
  (payload_dma S1c Y2c c _ 2 8 dec2_8 r d).trans (by unfold xferPay; rw [dif_pos hk_8])
@[sl_rounds] theorem duties_2_9 (c : Dev nD) : (sched (F := F) S1c Y2c).duties (s2Cell c 9 ho_9) 0 = {0} := duties_dma S1c Y2c c _ 2 9 dec2_9
@[sl_rounds] theorem expect_2_9 (c : Dev nD) : (sched (F := F) S1c Y2c).expect (s2Cell c 9 ho_9) 0 = NX := expect_dma S1c Y2c c _ 2 9 dec2_9
@[sl_rounds] theorem pay_2_9 (c : Dev nD) (r d : ℕ) : (sched (F := F) S1c Y2c).payload (s2Cell c 9 ho_9) r d = (st2.view.loc (c : Thread nD τ) ↦[st2.view.set]{Transfers.shareTokN fullShare 8} Y2c c : sProp 𝕄) :=
  (payload_dma S1c Y2c c _ 2 9 dec2_9 r d).trans (by unfold xferPay; rw [dif_pos hk_9])
@[sl_rounds] theorem duties_2_10 (c : Dev nD) : (sched (F := F) S1c Y2c).duties (s2Cell c 10 ho_10) 0 = {0} := duties_dma S1c Y2c c _ 2 10 dec2_10
@[sl_rounds] theorem expect_2_10 (c : Dev nD) : (sched (F := F) S1c Y2c).expect (s2Cell c 10 ho_10) 0 = NX := expect_dma S1c Y2c c _ 2 10 dec2_10
@[sl_rounds] theorem pay_2_10 (c : Dev nD) (r d : ℕ) : (sched (F := F) S1c Y2c).payload (s2Cell c 10 ho_10) r d = (st2.view.loc (c : Thread nD τ) ↦[st2.view.set]{Transfers.shareTokN fullShare 9} Y2c c : sProp 𝕄) :=
  (payload_dma S1c Y2c c _ 2 10 dec2_10 r d).trans (by unfold xferPay; rw [dif_pos hk_10])
@[sl_rounds] theorem duties_2_11 (c : Dev nD) : (sched (F := F) S1c Y2c).duties (s2Cell c 11 ho_11) 0 = {0} := duties_dma S1c Y2c c _ 2 11 dec2_11
@[sl_rounds] theorem expect_2_11 (c : Dev nD) : (sched (F := F) S1c Y2c).expect (s2Cell c 11 ho_11) 0 = NX := expect_dma S1c Y2c c _ 2 11 dec2_11
@[sl_rounds] theorem pay_2_11 (c : Dev nD) (r d : ℕ) : (sched (F := F) S1c Y2c).payload (s2Cell c 11 ho_11) r d = (st2.view.loc (c : Thread nD τ) ↦[st2.view.set]{Transfers.shareTokN fullShare 10} Y2c c : sProp 𝕄) :=
  (payload_dma S1c Y2c c _ 2 11 dec2_11 r d).trans (by unfold xferPay; rw [dif_pos hk_11])
@[sl_rounds] theorem duties_2_12 (c : Dev nD) : (sched (F := F) S1c Y2c).duties (s2Cell c 12 ho_12) 0 = {0} := duties_dma S1c Y2c c _ 2 12 dec2_12
@[sl_rounds] theorem expect_2_12 (c : Dev nD) : (sched (F := F) S1c Y2c).expect (s2Cell c 12 ho_12) 0 = NX := expect_dma S1c Y2c c _ 2 12 dec2_12
@[sl_rounds] theorem pay_2_12 (c : Dev nD) (r d : ℕ) : (sched (F := F) S1c Y2c).payload (s2Cell c 12 ho_12) r d = (st2.view.loc (c : Thread nD τ) ↦[st2.view.set]{Transfers.shareTokN fullShare 11} Y2c c : sProp 𝕄) :=
  (payload_dma S1c Y2c c _ 2 12 dec2_12 r d).trans (by unfold xferPay; rw [dif_pos hk_12])
@[sl_rounds] theorem duties_2_13 (c : Dev nD) : (sched (F := F) S1c Y2c).duties (s2Cell c 13 ho_13) 0 = {0} := duties_dma S1c Y2c c _ 2 13 dec2_13
@[sl_rounds] theorem expect_2_13 (c : Dev nD) : (sched (F := F) S1c Y2c).expect (s2Cell c 13 ho_13) 0 = NX := expect_dma S1c Y2c c _ 2 13 dec2_13
@[sl_rounds] theorem pay_2_13 (c : Dev nD) (r d : ℕ) : (sched (F := F) S1c Y2c).payload (s2Cell c 13 ho_13) r d = (st2.view.loc (c : Thread nD τ) ↦[st2.view.set]{Transfers.shareTokN fullShare 12} Y2c c : sProp 𝕄) :=
  (payload_dma S1c Y2c c _ 2 13 dec2_13 r d).trans (by unfold xferPay; rw [dif_pos hk_13])
@[sl_rounds] theorem duties_2_14 (c : Dev nD) : (sched (F := F) S1c Y2c).duties (s2Cell c 14 ho_14) 0 = {0} := duties_dma S1c Y2c c _ 2 14 dec2_14
@[sl_rounds] theorem expect_2_14 (c : Dev nD) : (sched (F := F) S1c Y2c).expect (s2Cell c 14 ho_14) 0 = NX := expect_dma S1c Y2c c _ 2 14 dec2_14
@[sl_rounds] theorem pay_2_14 (c : Dev nD) (r d : ℕ) : (sched (F := F) S1c Y2c).payload (s2Cell c 14 ho_14) r d = (st2.view.loc (c : Thread nD τ) ↦[st2.view.set]{Transfers.shareTokN fullShare 13} Y2c c : sProp 𝕄) :=
  (payload_dma S1c Y2c c _ 2 14 dec2_14 r d).trans (by unfold xferPay; rw [dif_pos hk_14])
@[sl_rounds] theorem duties_2_15 (c : Dev nD) : (sched (F := F) S1c Y2c).duties (s2Cell c 15 ho_15) 0 = {0} := duties_dma S1c Y2c c _ 2 15 dec2_15
@[sl_rounds] theorem expect_2_15 (c : Dev nD) : (sched (F := F) S1c Y2c).expect (s2Cell c 15 ho_15) 0 = NX := expect_dma S1c Y2c c _ 2 15 dec2_15
@[sl_rounds] theorem pay_2_15 (c : Dev nD) (r d : ℕ) : (sched (F := F) S1c Y2c).payload (s2Cell c 15 ho_15) r d = (st2.view.loc (c : Thread nD τ) ↦[st2.view.set]{Transfers.shareTokN fullShare 14} Y2c c : sProp 𝕄) :=
  (payload_dma S1c Y2c c _ 2 15 dec2_15 r d).trans (by unfold xferPay; rw [dif_pos hk_15])
@[sl_rounds] theorem duties_2_16 (c : Dev nD) : (sched (F := F) S1c Y2c).duties (s2Cell c 16 ho_16) 0 = {0} := duties_dma S1c Y2c c _ 2 16 dec2_16
@[sl_rounds] theorem expect_2_16 (c : Dev nD) : (sched (F := F) S1c Y2c).expect (s2Cell c 16 ho_16) 0 = NX := expect_dma S1c Y2c c _ 2 16 dec2_16
@[sl_rounds] theorem pay_2_16 (c : Dev nD) (r d : ℕ) : (sched (F := F) S1c Y2c).payload (s2Cell c 16 ho_16) r d = (st2.view.loc (c : Thread nD τ) ↦[st2.view.set]{Transfers.shareTokN fullShare 15} Y2c c : sProp 𝕄) :=
  (payload_dma S1c Y2c c _ 2 16 dec2_16 r d).trans (by unfold xferPay; rw [dif_pos hk_16])
@[sl_rounds] theorem duties_2_17 (c : Dev nD) : (sched (F := F) S1c Y2c).duties (s2Cell c 17 ho_17) 0 = {0} := duties_dma S1c Y2c c _ 2 17 dec2_17
@[sl_rounds] theorem expect_2_17 (c : Dev nD) : (sched (F := F) S1c Y2c).expect (s2Cell c 17 ho_17) 0 = NX := expect_dma S1c Y2c c _ 2 17 dec2_17
@[sl_rounds] theorem pay_2_17 (c : Dev nD) (r d : ℕ) : (sched (F := F) S1c Y2c).payload (s2Cell c 17 ho_17) r d = (st2.view.loc (c : Thread nD τ) ↦[st2.view.set]{Transfers.shareTokN fullShare 16} Y2c c : sProp 𝕄) :=
  (payload_dma S1c Y2c c _ 2 17 dec2_17 r d).trans (by unfold xferPay; rw [dif_pos hk_17])
@[sl_rounds] theorem duties_2_18 (c : Dev nD) : (sched (F := F) S1c Y2c).duties (s2Cell c 18 ho_18) 0 = {0} := duties_dma S1c Y2c c _ 2 18 dec2_18
@[sl_rounds] theorem expect_2_18 (c : Dev nD) : (sched (F := F) S1c Y2c).expect (s2Cell c 18 ho_18) 0 = NX := expect_dma S1c Y2c c _ 2 18 dec2_18
@[sl_rounds] theorem pay_2_18 (c : Dev nD) (r d : ℕ) : (sched (F := F) S1c Y2c).payload (s2Cell c 18 ho_18) r d = (st2.view.loc (c : Thread nD τ) ↦[st2.view.set]{Transfers.shareTokN fullShare 17} Y2c c : sProp 𝕄) :=
  (payload_dma S1c Y2c c _ 2 18 dec2_18 r d).trans (by unfold xferPay; rw [dif_pos hk_18])
@[sl_rounds] theorem duties_2_19 (c : Dev nD) : (sched (F := F) S1c Y2c).duties (s2Cell c 19 ho_19) 0 = {0} := duties_dma S1c Y2c c _ 2 19 dec2_19
@[sl_rounds] theorem expect_2_19 (c : Dev nD) : (sched (F := F) S1c Y2c).expect (s2Cell c 19 ho_19) 0 = NX := expect_dma S1c Y2c c _ 2 19 dec2_19
@[sl_rounds] theorem pay_2_19 (c : Dev nD) (r d : ℕ) : (sched (F := F) S1c Y2c).payload (s2Cell c 19 ho_19) r d = (st2.view.loc (c : Thread nD τ) ↦[st2.view.set]{Transfers.shareTokN fullShare 18} Y2c c : sProp 𝕄) :=
  (payload_dma S1c Y2c c _ 2 19 dec2_19 r d).trans (by unfold xferPay; rw [dif_pos hk_19])
@[sl_rounds] theorem duties_2_20 (c : Dev nD) : (sched (F := F) S1c Y2c).duties (s2Cell c 20 ho_20) 0 = {0} := duties_dma S1c Y2c c _ 2 20 dec2_20
@[sl_rounds] theorem expect_2_20 (c : Dev nD) : (sched (F := F) S1c Y2c).expect (s2Cell c 20 ho_20) 0 = NX := expect_dma S1c Y2c c _ 2 20 dec2_20
@[sl_rounds] theorem pay_2_20 (c : Dev nD) (r d : ℕ) : (sched (F := F) S1c Y2c).payload (s2Cell c 20 ho_20) r d = (st2.view.loc (c : Thread nD τ) ↦[st2.view.set]{Transfers.shareTokN fullShare 19} Y2c c : sProp 𝕄) :=
  (payload_dma S1c Y2c c _ 2 20 dec2_20 r d).trans (by unfold xferPay; rw [dif_pos hk_20])
@[sl_rounds] theorem duties_2_21 (c : Dev nD) : (sched (F := F) S1c Y2c).duties (s2Cell c 21 ho_21) 0 = {0} := duties_dma S1c Y2c c _ 2 21 dec2_21
@[sl_rounds] theorem expect_2_21 (c : Dev nD) : (sched (F := F) S1c Y2c).expect (s2Cell c 21 ho_21) 0 = NX := expect_dma S1c Y2c c _ 2 21 dec2_21
@[sl_rounds] theorem pay_2_21 (c : Dev nD) (r d : ℕ) : (sched (F := F) S1c Y2c).payload (s2Cell c 21 ho_21) r d = (st2.view.loc (c : Thread nD τ) ↦[st2.view.set]{Transfers.shareTokN fullShare 20} Y2c c : sProp 𝕄) :=
  (payload_dma S1c Y2c c _ 2 21 dec2_21 r d).trans (by unfold xferPay; rw [dif_pos hk_21])
@[sl_rounds] theorem duties_2_22 (c : Dev nD) : (sched (F := F) S1c Y2c).duties (s2Cell c 22 ho_22) 0 = {0} := duties_dma S1c Y2c c _ 2 22 dec2_22
@[sl_rounds] theorem expect_2_22 (c : Dev nD) : (sched (F := F) S1c Y2c).expect (s2Cell c 22 ho_22) 0 = NX := expect_dma S1c Y2c c _ 2 22 dec2_22
@[sl_rounds] theorem pay_2_22 (c : Dev nD) (r d : ℕ) : (sched (F := F) S1c Y2c).payload (s2Cell c 22 ho_22) r d = (st2.view.loc (c : Thread nD τ) ↦[st2.view.set]{Transfers.shareTokN fullShare 21} Y2c c : sProp 𝕄) :=
  (payload_dma S1c Y2c c _ 2 22 dec2_22 r d).trans (by unfold xferPay; rw [dif_pos hk_22])
@[sl_rounds] theorem duties_2_23 (c : Dev nD) : (sched (F := F) S1c Y2c).duties (s2Cell c 23 ho_23) 0 = {0} := duties_dma S1c Y2c c _ 2 23 dec2_23
@[sl_rounds] theorem expect_2_23 (c : Dev nD) : (sched (F := F) S1c Y2c).expect (s2Cell c 23 ho_23) 0 = NX := expect_dma S1c Y2c c _ 2 23 dec2_23
@[sl_rounds] theorem pay_2_23 (c : Dev nD) (r d : ℕ) : (sched (F := F) S1c Y2c).payload (s2Cell c 23 ho_23) r d = (st2.view.loc (c : Thread nD τ) ↦[st2.view.set]{Transfers.shareTokN fullShare 22} Y2c c : sProp 𝕄) :=
  (payload_dma S1c Y2c c _ 2 23 dec2_23 r d).trans (by unfold xferPay; rw [dif_pos hk_23])
@[sl_rounds] theorem duties_2_24 (c : Dev nD) : (sched (F := F) S1c Y2c).duties (s2Cell c 24 ho_24) 0 = {0} := duties_dma S1c Y2c c _ 2 24 dec2_24
@[sl_rounds] theorem expect_2_24 (c : Dev nD) : (sched (F := F) S1c Y2c).expect (s2Cell c 24 ho_24) 0 = NX := expect_dma S1c Y2c c _ 2 24 dec2_24
@[sl_rounds] theorem pay_2_24 (c : Dev nD) (r d : ℕ) : (sched (F := F) S1c Y2c).payload (s2Cell c 24 ho_24) r d = (st2.view.loc (c : Thread nD τ) ↦[st2.view.set]{Transfers.shareTokN fullShare 23} Y2c c : sProp 𝕄) :=
  (payload_dma S1c Y2c c _ 2 24 dec2_24 r d).trans (by unfold xferPay; rw [dif_pos hk_24])
@[sl_rounds] theorem duties_2_25 (c : Dev nD) : (sched (F := F) S1c Y2c).duties (s2Cell c 25 ho_25) 0 = {0} := duties_dma S1c Y2c c _ 2 25 dec2_25
@[sl_rounds] theorem expect_2_25 (c : Dev nD) : (sched (F := F) S1c Y2c).expect (s2Cell c 25 ho_25) 0 = NX := expect_dma S1c Y2c c _ 2 25 dec2_25
@[sl_rounds] theorem pay_2_25 (c : Dev nD) (r d : ℕ) : (sched (F := F) S1c Y2c).payload (s2Cell c 25 ho_25) r d = (st2.view.loc (c : Thread nD τ) ↦[st2.view.set]{Transfers.shareTokN fullShare 24} Y2c c : sProp 𝕄) :=
  (payload_dma S1c Y2c c _ 2 25 dec2_25 r d).trans (by unfold xferPay; rw [dif_pos hk_25])
@[sl_rounds] theorem duties_2_26 (c : Dev nD) : (sched (F := F) S1c Y2c).duties (s2Cell c 26 ho_26) 0 = {0} := duties_dma S1c Y2c c _ 2 26 dec2_26
@[sl_rounds] theorem expect_2_26 (c : Dev nD) : (sched (F := F) S1c Y2c).expect (s2Cell c 26 ho_26) 0 = NX := expect_dma S1c Y2c c _ 2 26 dec2_26
@[sl_rounds] theorem pay_2_26 (c : Dev nD) (r d : ℕ) : (sched (F := F) S1c Y2c).payload (s2Cell c 26 ho_26) r d = (st2.view.loc (c : Thread nD τ) ↦[st2.view.set]{Transfers.shareTokN fullShare 25} Y2c c : sProp 𝕄) :=
  (payload_dma S1c Y2c c _ 2 26 dec2_26 r d).trans (by unfold xferPay; rw [dif_pos hk_26])
@[sl_rounds] theorem duties_2_27 (c : Dev nD) : (sched (F := F) S1c Y2c).duties (s2Cell c 27 ho_27) 0 = {0} := duties_dma S1c Y2c c _ 2 27 dec2_27
@[sl_rounds] theorem expect_2_27 (c : Dev nD) : (sched (F := F) S1c Y2c).expect (s2Cell c 27 ho_27) 0 = NX := expect_dma S1c Y2c c _ 2 27 dec2_27
@[sl_rounds] theorem pay_2_27 (c : Dev nD) (r d : ℕ) : (sched (F := F) S1c Y2c).payload (s2Cell c 27 ho_27) r d = (st2.view.loc (c : Thread nD τ) ↦[st2.view.set]{Transfers.shareTokN fullShare 26} Y2c c : sProp 𝕄) :=
  (payload_dma S1c Y2c c _ 2 27 dec2_27 r d).trans (by unfold xferPay; rw [dif_pos hk_27])
@[sl_rounds] theorem duties_2_28 (c : Dev nD) : (sched (F := F) S1c Y2c).duties (s2Cell c 28 ho_28) 0 = {0} := duties_dma S1c Y2c c _ 2 28 dec2_28
@[sl_rounds] theorem expect_2_28 (c : Dev nD) : (sched (F := F) S1c Y2c).expect (s2Cell c 28 ho_28) 0 = NX := expect_dma S1c Y2c c _ 2 28 dec2_28
@[sl_rounds] theorem pay_2_28 (c : Dev nD) (r d : ℕ) : (sched (F := F) S1c Y2c).payload (s2Cell c 28 ho_28) r d = (st2.view.loc (c : Thread nD τ) ↦[st2.view.set]{Transfers.shareTokN fullShare 27} Y2c c : sProp 𝕄) :=
  (payload_dma S1c Y2c c _ 2 28 dec2_28 r d).trans (by unfold xferPay; rw [dif_pos hk_28])
@[sl_rounds] theorem duties_2_29 (c : Dev nD) : (sched (F := F) S1c Y2c).duties (s2Cell c 29 ho_29) 0 = {0} := duties_dma S1c Y2c c _ 2 29 dec2_29
@[sl_rounds] theorem expect_2_29 (c : Dev nD) : (sched (F := F) S1c Y2c).expect (s2Cell c 29 ho_29) 0 = NX := expect_dma S1c Y2c c _ 2 29 dec2_29
@[sl_rounds] theorem pay_2_29 (c : Dev nD) (r d : ℕ) : (sched (F := F) S1c Y2c).payload (s2Cell c 29 ho_29) r d = (st2.view.loc (c : Thread nD τ) ↦[st2.view.set]{Transfers.shareTokN fullShare 28} Y2c c : sProp 𝕄) :=
  (payload_dma S1c Y2c c _ 2 29 dec2_29 r d).trans (by unfold xferPay; rw [dif_pos hk_29])
@[sl_rounds] theorem duties_2_30 (c : Dev nD) : (sched (F := F) S1c Y2c).duties (s2Cell c 30 ho_30) 0 = {0} := duties_dma S1c Y2c c _ 2 30 dec2_30
@[sl_rounds] theorem expect_2_30 (c : Dev nD) : (sched (F := F) S1c Y2c).expect (s2Cell c 30 ho_30) 0 = NX := expect_dma S1c Y2c c _ 2 30 dec2_30
@[sl_rounds] theorem pay_2_30 (c : Dev nD) (r d : ℕ) : (sched (F := F) S1c Y2c).payload (s2Cell c 30 ho_30) r d = (st2.view.loc (c : Thread nD τ) ↦[st2.view.set]{Transfers.shareTokN fullShare 29} Y2c c : sProp 𝕄) :=
  (payload_dma S1c Y2c c _ 2 30 dec2_30 r d).trans (by unfold xferPay; rw [dif_pos hk_30])
@[sl_rounds] theorem duties_2_31 (c : Dev nD) : (sched (F := F) S1c Y2c).duties (s2Cell c 31 ho_31) 0 = {0} := duties_dma S1c Y2c c _ 2 31 dec2_31
@[sl_rounds] theorem expect_2_31 (c : Dev nD) : (sched (F := F) S1c Y2c).expect (s2Cell c 31 ho_31) 0 = NX := expect_dma S1c Y2c c _ 2 31 dec2_31
@[sl_rounds] theorem pay_2_31 (c : Dev nD) (r d : ℕ) : (sched (F := F) S1c Y2c).payload (s2Cell c 31 ho_31) r d = (st2.view.loc (c : Thread nD τ) ↦[st2.view.set]{Transfers.shareTokN fullShare 30} Y2c c : sProp 𝕄) :=
  (payload_dma S1c Y2c c _ 2 31 dec2_31 r d).trans (by unfold xferPay; rw [dif_pos hk_31])
@[sl_rounds] theorem duties_3_1 (c : Dev nD) : (sched (F := F) S1c Y2c).duties (r2Cell c 1 ho_1) 0 = {0} := duties_dma S1c Y2c c _ 3 1 dec3_1
@[sl_rounds] theorem expect_3_1 (c : Dev nD) : (sched (F := F) S1c Y2c).expect (r2Cell c 1 ho_1) 0 = NX := expect_dma S1c Y2c c _ 3 1 dec3_1
@[sl_rounds] theorem pay_3_1 (c : Dev nD) (r d : ℕ) : (sched (F := F) S1c Y2c).payload (r2Cell c 1 ho_1) r d = ((slotM cm2 1 ho_1).view.loc (c : Thread nD τ) ↦[(slotM cm2 1 ho_1).view.set]{fullShare} land2 Y2c c 1 hk_1 : sProp 𝕄) :=
  (payload_dma S1c Y2c c _ 3 1 dec3_1 r d).trans (by unfold xferPay; rw [dif_pos hk_1])
@[sl_rounds] theorem duties_3_2 (c : Dev nD) : (sched (F := F) S1c Y2c).duties (r2Cell c 2 ho_2) 0 = {0} := duties_dma S1c Y2c c _ 3 2 dec3_2
@[sl_rounds] theorem expect_3_2 (c : Dev nD) : (sched (F := F) S1c Y2c).expect (r2Cell c 2 ho_2) 0 = NX := expect_dma S1c Y2c c _ 3 2 dec3_2
@[sl_rounds] theorem pay_3_2 (c : Dev nD) (r d : ℕ) : (sched (F := F) S1c Y2c).payload (r2Cell c 2 ho_2) r d = ((slotM cm2 2 ho_2).view.loc (c : Thread nD τ) ↦[(slotM cm2 2 ho_2).view.set]{fullShare} land2 Y2c c 2 hk_2 : sProp 𝕄) :=
  (payload_dma S1c Y2c c _ 3 2 dec3_2 r d).trans (by unfold xferPay; rw [dif_pos hk_2])
@[sl_rounds] theorem duties_3_3 (c : Dev nD) : (sched (F := F) S1c Y2c).duties (r2Cell c 3 ho_3) 0 = {0} := duties_dma S1c Y2c c _ 3 3 dec3_3
@[sl_rounds] theorem expect_3_3 (c : Dev nD) : (sched (F := F) S1c Y2c).expect (r2Cell c 3 ho_3) 0 = NX := expect_dma S1c Y2c c _ 3 3 dec3_3
@[sl_rounds] theorem pay_3_3 (c : Dev nD) (r d : ℕ) : (sched (F := F) S1c Y2c).payload (r2Cell c 3 ho_3) r d = ((slotM cm2 3 ho_3).view.loc (c : Thread nD τ) ↦[(slotM cm2 3 ho_3).view.set]{fullShare} land2 Y2c c 3 hk_3 : sProp 𝕄) :=
  (payload_dma S1c Y2c c _ 3 3 dec3_3 r d).trans (by unfold xferPay; rw [dif_pos hk_3])
@[sl_rounds] theorem duties_3_4 (c : Dev nD) : (sched (F := F) S1c Y2c).duties (r2Cell c 4 ho_4) 0 = {0} := duties_dma S1c Y2c c _ 3 4 dec3_4
@[sl_rounds] theorem expect_3_4 (c : Dev nD) : (sched (F := F) S1c Y2c).expect (r2Cell c 4 ho_4) 0 = NX := expect_dma S1c Y2c c _ 3 4 dec3_4
@[sl_rounds] theorem pay_3_4 (c : Dev nD) (r d : ℕ) : (sched (F := F) S1c Y2c).payload (r2Cell c 4 ho_4) r d = ((slotM cm2 4 ho_4).view.loc (c : Thread nD τ) ↦[(slotM cm2 4 ho_4).view.set]{fullShare} land2 Y2c c 4 hk_4 : sProp 𝕄) :=
  (payload_dma S1c Y2c c _ 3 4 dec3_4 r d).trans (by unfold xferPay; rw [dif_pos hk_4])
@[sl_rounds] theorem duties_3_5 (c : Dev nD) : (sched (F := F) S1c Y2c).duties (r2Cell c 5 ho_5) 0 = {0} := duties_dma S1c Y2c c _ 3 5 dec3_5
@[sl_rounds] theorem expect_3_5 (c : Dev nD) : (sched (F := F) S1c Y2c).expect (r2Cell c 5 ho_5) 0 = NX := expect_dma S1c Y2c c _ 3 5 dec3_5
@[sl_rounds] theorem pay_3_5 (c : Dev nD) (r d : ℕ) : (sched (F := F) S1c Y2c).payload (r2Cell c 5 ho_5) r d = ((slotM cm2 5 ho_5).view.loc (c : Thread nD τ) ↦[(slotM cm2 5 ho_5).view.set]{fullShare} land2 Y2c c 5 hk_5 : sProp 𝕄) :=
  (payload_dma S1c Y2c c _ 3 5 dec3_5 r d).trans (by unfold xferPay; rw [dif_pos hk_5])
@[sl_rounds] theorem duties_3_6 (c : Dev nD) : (sched (F := F) S1c Y2c).duties (r2Cell c 6 ho_6) 0 = {0} := duties_dma S1c Y2c c _ 3 6 dec3_6
@[sl_rounds] theorem expect_3_6 (c : Dev nD) : (sched (F := F) S1c Y2c).expect (r2Cell c 6 ho_6) 0 = NX := expect_dma S1c Y2c c _ 3 6 dec3_6
@[sl_rounds] theorem pay_3_6 (c : Dev nD) (r d : ℕ) : (sched (F := F) S1c Y2c).payload (r2Cell c 6 ho_6) r d = ((slotM cm2 6 ho_6).view.loc (c : Thread nD τ) ↦[(slotM cm2 6 ho_6).view.set]{fullShare} land2 Y2c c 6 hk_6 : sProp 𝕄) :=
  (payload_dma S1c Y2c c _ 3 6 dec3_6 r d).trans (by unfold xferPay; rw [dif_pos hk_6])
@[sl_rounds] theorem duties_3_7 (c : Dev nD) : (sched (F := F) S1c Y2c).duties (r2Cell c 7 ho_7) 0 = {0} := duties_dma S1c Y2c c _ 3 7 dec3_7
@[sl_rounds] theorem expect_3_7 (c : Dev nD) : (sched (F := F) S1c Y2c).expect (r2Cell c 7 ho_7) 0 = NX := expect_dma S1c Y2c c _ 3 7 dec3_7
@[sl_rounds] theorem pay_3_7 (c : Dev nD) (r d : ℕ) : (sched (F := F) S1c Y2c).payload (r2Cell c 7 ho_7) r d = ((slotM cm2 7 ho_7).view.loc (c : Thread nD τ) ↦[(slotM cm2 7 ho_7).view.set]{fullShare} land2 Y2c c 7 hk_7 : sProp 𝕄) :=
  (payload_dma S1c Y2c c _ 3 7 dec3_7 r d).trans (by unfold xferPay; rw [dif_pos hk_7])
@[sl_rounds] theorem duties_3_8 (c : Dev nD) : (sched (F := F) S1c Y2c).duties (r2Cell c 8 ho_8) 0 = {0} := duties_dma S1c Y2c c _ 3 8 dec3_8
@[sl_rounds] theorem expect_3_8 (c : Dev nD) : (sched (F := F) S1c Y2c).expect (r2Cell c 8 ho_8) 0 = NX := expect_dma S1c Y2c c _ 3 8 dec3_8
@[sl_rounds] theorem pay_3_8 (c : Dev nD) (r d : ℕ) : (sched (F := F) S1c Y2c).payload (r2Cell c 8 ho_8) r d = ((slotM cm2 8 ho_8).view.loc (c : Thread nD τ) ↦[(slotM cm2 8 ho_8).view.set]{fullShare} land2 Y2c c 8 hk_8 : sProp 𝕄) :=
  (payload_dma S1c Y2c c _ 3 8 dec3_8 r d).trans (by unfold xferPay; rw [dif_pos hk_8])
@[sl_rounds] theorem duties_3_9 (c : Dev nD) : (sched (F := F) S1c Y2c).duties (r2Cell c 9 ho_9) 0 = {0} := duties_dma S1c Y2c c _ 3 9 dec3_9
@[sl_rounds] theorem expect_3_9 (c : Dev nD) : (sched (F := F) S1c Y2c).expect (r2Cell c 9 ho_9) 0 = NX := expect_dma S1c Y2c c _ 3 9 dec3_9
@[sl_rounds] theorem pay_3_9 (c : Dev nD) (r d : ℕ) : (sched (F := F) S1c Y2c).payload (r2Cell c 9 ho_9) r d = ((slotM cm2 9 ho_9).view.loc (c : Thread nD τ) ↦[(slotM cm2 9 ho_9).view.set]{fullShare} land2 Y2c c 9 hk_9 : sProp 𝕄) :=
  (payload_dma S1c Y2c c _ 3 9 dec3_9 r d).trans (by unfold xferPay; rw [dif_pos hk_9])
@[sl_rounds] theorem duties_3_10 (c : Dev nD) : (sched (F := F) S1c Y2c).duties (r2Cell c 10 ho_10) 0 = {0} := duties_dma S1c Y2c c _ 3 10 dec3_10
@[sl_rounds] theorem expect_3_10 (c : Dev nD) : (sched (F := F) S1c Y2c).expect (r2Cell c 10 ho_10) 0 = NX := expect_dma S1c Y2c c _ 3 10 dec3_10
@[sl_rounds] theorem pay_3_10 (c : Dev nD) (r d : ℕ) : (sched (F := F) S1c Y2c).payload (r2Cell c 10 ho_10) r d = ((slotM cm2 10 ho_10).view.loc (c : Thread nD τ) ↦[(slotM cm2 10 ho_10).view.set]{fullShare} land2 Y2c c 10 hk_10 : sProp 𝕄) :=
  (payload_dma S1c Y2c c _ 3 10 dec3_10 r d).trans (by unfold xferPay; rw [dif_pos hk_10])
@[sl_rounds] theorem duties_3_11 (c : Dev nD) : (sched (F := F) S1c Y2c).duties (r2Cell c 11 ho_11) 0 = {0} := duties_dma S1c Y2c c _ 3 11 dec3_11
@[sl_rounds] theorem expect_3_11 (c : Dev nD) : (sched (F := F) S1c Y2c).expect (r2Cell c 11 ho_11) 0 = NX := expect_dma S1c Y2c c _ 3 11 dec3_11
@[sl_rounds] theorem pay_3_11 (c : Dev nD) (r d : ℕ) : (sched (F := F) S1c Y2c).payload (r2Cell c 11 ho_11) r d = ((slotM cm2 11 ho_11).view.loc (c : Thread nD τ) ↦[(slotM cm2 11 ho_11).view.set]{fullShare} land2 Y2c c 11 hk_11 : sProp 𝕄) :=
  (payload_dma S1c Y2c c _ 3 11 dec3_11 r d).trans (by unfold xferPay; rw [dif_pos hk_11])
@[sl_rounds] theorem duties_3_12 (c : Dev nD) : (sched (F := F) S1c Y2c).duties (r2Cell c 12 ho_12) 0 = {0} := duties_dma S1c Y2c c _ 3 12 dec3_12
@[sl_rounds] theorem expect_3_12 (c : Dev nD) : (sched (F := F) S1c Y2c).expect (r2Cell c 12 ho_12) 0 = NX := expect_dma S1c Y2c c _ 3 12 dec3_12
@[sl_rounds] theorem pay_3_12 (c : Dev nD) (r d : ℕ) : (sched (F := F) S1c Y2c).payload (r2Cell c 12 ho_12) r d = ((slotM cm2 12 ho_12).view.loc (c : Thread nD τ) ↦[(slotM cm2 12 ho_12).view.set]{fullShare} land2 Y2c c 12 hk_12 : sProp 𝕄) :=
  (payload_dma S1c Y2c c _ 3 12 dec3_12 r d).trans (by unfold xferPay; rw [dif_pos hk_12])
@[sl_rounds] theorem duties_3_13 (c : Dev nD) : (sched (F := F) S1c Y2c).duties (r2Cell c 13 ho_13) 0 = {0} := duties_dma S1c Y2c c _ 3 13 dec3_13
@[sl_rounds] theorem expect_3_13 (c : Dev nD) : (sched (F := F) S1c Y2c).expect (r2Cell c 13 ho_13) 0 = NX := expect_dma S1c Y2c c _ 3 13 dec3_13
@[sl_rounds] theorem pay_3_13 (c : Dev nD) (r d : ℕ) : (sched (F := F) S1c Y2c).payload (r2Cell c 13 ho_13) r d = ((slotM cm2 13 ho_13).view.loc (c : Thread nD τ) ↦[(slotM cm2 13 ho_13).view.set]{fullShare} land2 Y2c c 13 hk_13 : sProp 𝕄) :=
  (payload_dma S1c Y2c c _ 3 13 dec3_13 r d).trans (by unfold xferPay; rw [dif_pos hk_13])
@[sl_rounds] theorem duties_3_14 (c : Dev nD) : (sched (F := F) S1c Y2c).duties (r2Cell c 14 ho_14) 0 = {0} := duties_dma S1c Y2c c _ 3 14 dec3_14
@[sl_rounds] theorem expect_3_14 (c : Dev nD) : (sched (F := F) S1c Y2c).expect (r2Cell c 14 ho_14) 0 = NX := expect_dma S1c Y2c c _ 3 14 dec3_14
@[sl_rounds] theorem pay_3_14 (c : Dev nD) (r d : ℕ) : (sched (F := F) S1c Y2c).payload (r2Cell c 14 ho_14) r d = ((slotM cm2 14 ho_14).view.loc (c : Thread nD τ) ↦[(slotM cm2 14 ho_14).view.set]{fullShare} land2 Y2c c 14 hk_14 : sProp 𝕄) :=
  (payload_dma S1c Y2c c _ 3 14 dec3_14 r d).trans (by unfold xferPay; rw [dif_pos hk_14])
@[sl_rounds] theorem duties_3_15 (c : Dev nD) : (sched (F := F) S1c Y2c).duties (r2Cell c 15 ho_15) 0 = {0} := duties_dma S1c Y2c c _ 3 15 dec3_15
@[sl_rounds] theorem expect_3_15 (c : Dev nD) : (sched (F := F) S1c Y2c).expect (r2Cell c 15 ho_15) 0 = NX := expect_dma S1c Y2c c _ 3 15 dec3_15
@[sl_rounds] theorem pay_3_15 (c : Dev nD) (r d : ℕ) : (sched (F := F) S1c Y2c).payload (r2Cell c 15 ho_15) r d = ((slotM cm2 15 ho_15).view.loc (c : Thread nD τ) ↦[(slotM cm2 15 ho_15).view.set]{fullShare} land2 Y2c c 15 hk_15 : sProp 𝕄) :=
  (payload_dma S1c Y2c c _ 3 15 dec3_15 r d).trans (by unfold xferPay; rw [dif_pos hk_15])
@[sl_rounds] theorem duties_3_16 (c : Dev nD) : (sched (F := F) S1c Y2c).duties (r2Cell c 16 ho_16) 0 = {0} := duties_dma S1c Y2c c _ 3 16 dec3_16
@[sl_rounds] theorem expect_3_16 (c : Dev nD) : (sched (F := F) S1c Y2c).expect (r2Cell c 16 ho_16) 0 = NX := expect_dma S1c Y2c c _ 3 16 dec3_16
@[sl_rounds] theorem pay_3_16 (c : Dev nD) (r d : ℕ) : (sched (F := F) S1c Y2c).payload (r2Cell c 16 ho_16) r d = ((slotM cm2 16 ho_16).view.loc (c : Thread nD τ) ↦[(slotM cm2 16 ho_16).view.set]{fullShare} land2 Y2c c 16 hk_16 : sProp 𝕄) :=
  (payload_dma S1c Y2c c _ 3 16 dec3_16 r d).trans (by unfold xferPay; rw [dif_pos hk_16])
@[sl_rounds] theorem duties_3_17 (c : Dev nD) : (sched (F := F) S1c Y2c).duties (r2Cell c 17 ho_17) 0 = {0} := duties_dma S1c Y2c c _ 3 17 dec3_17
@[sl_rounds] theorem expect_3_17 (c : Dev nD) : (sched (F := F) S1c Y2c).expect (r2Cell c 17 ho_17) 0 = NX := expect_dma S1c Y2c c _ 3 17 dec3_17
@[sl_rounds] theorem pay_3_17 (c : Dev nD) (r d : ℕ) : (sched (F := F) S1c Y2c).payload (r2Cell c 17 ho_17) r d = ((slotM cm2 17 ho_17).view.loc (c : Thread nD τ) ↦[(slotM cm2 17 ho_17).view.set]{fullShare} land2 Y2c c 17 hk_17 : sProp 𝕄) :=
  (payload_dma S1c Y2c c _ 3 17 dec3_17 r d).trans (by unfold xferPay; rw [dif_pos hk_17])
@[sl_rounds] theorem duties_3_18 (c : Dev nD) : (sched (F := F) S1c Y2c).duties (r2Cell c 18 ho_18) 0 = {0} := duties_dma S1c Y2c c _ 3 18 dec3_18
@[sl_rounds] theorem expect_3_18 (c : Dev nD) : (sched (F := F) S1c Y2c).expect (r2Cell c 18 ho_18) 0 = NX := expect_dma S1c Y2c c _ 3 18 dec3_18
@[sl_rounds] theorem pay_3_18 (c : Dev nD) (r d : ℕ) : (sched (F := F) S1c Y2c).payload (r2Cell c 18 ho_18) r d = ((slotM cm2 18 ho_18).view.loc (c : Thread nD τ) ↦[(slotM cm2 18 ho_18).view.set]{fullShare} land2 Y2c c 18 hk_18 : sProp 𝕄) :=
  (payload_dma S1c Y2c c _ 3 18 dec3_18 r d).trans (by unfold xferPay; rw [dif_pos hk_18])
@[sl_rounds] theorem duties_3_19 (c : Dev nD) : (sched (F := F) S1c Y2c).duties (r2Cell c 19 ho_19) 0 = {0} := duties_dma S1c Y2c c _ 3 19 dec3_19
@[sl_rounds] theorem expect_3_19 (c : Dev nD) : (sched (F := F) S1c Y2c).expect (r2Cell c 19 ho_19) 0 = NX := expect_dma S1c Y2c c _ 3 19 dec3_19
@[sl_rounds] theorem pay_3_19 (c : Dev nD) (r d : ℕ) : (sched (F := F) S1c Y2c).payload (r2Cell c 19 ho_19) r d = ((slotM cm2 19 ho_19).view.loc (c : Thread nD τ) ↦[(slotM cm2 19 ho_19).view.set]{fullShare} land2 Y2c c 19 hk_19 : sProp 𝕄) :=
  (payload_dma S1c Y2c c _ 3 19 dec3_19 r d).trans (by unfold xferPay; rw [dif_pos hk_19])
@[sl_rounds] theorem duties_3_20 (c : Dev nD) : (sched (F := F) S1c Y2c).duties (r2Cell c 20 ho_20) 0 = {0} := duties_dma S1c Y2c c _ 3 20 dec3_20
@[sl_rounds] theorem expect_3_20 (c : Dev nD) : (sched (F := F) S1c Y2c).expect (r2Cell c 20 ho_20) 0 = NX := expect_dma S1c Y2c c _ 3 20 dec3_20
@[sl_rounds] theorem pay_3_20 (c : Dev nD) (r d : ℕ) : (sched (F := F) S1c Y2c).payload (r2Cell c 20 ho_20) r d = ((slotM cm2 20 ho_20).view.loc (c : Thread nD τ) ↦[(slotM cm2 20 ho_20).view.set]{fullShare} land2 Y2c c 20 hk_20 : sProp 𝕄) :=
  (payload_dma S1c Y2c c _ 3 20 dec3_20 r d).trans (by unfold xferPay; rw [dif_pos hk_20])
@[sl_rounds] theorem duties_3_21 (c : Dev nD) : (sched (F := F) S1c Y2c).duties (r2Cell c 21 ho_21) 0 = {0} := duties_dma S1c Y2c c _ 3 21 dec3_21
@[sl_rounds] theorem expect_3_21 (c : Dev nD) : (sched (F := F) S1c Y2c).expect (r2Cell c 21 ho_21) 0 = NX := expect_dma S1c Y2c c _ 3 21 dec3_21
@[sl_rounds] theorem pay_3_21 (c : Dev nD) (r d : ℕ) : (sched (F := F) S1c Y2c).payload (r2Cell c 21 ho_21) r d = ((slotM cm2 21 ho_21).view.loc (c : Thread nD τ) ↦[(slotM cm2 21 ho_21).view.set]{fullShare} land2 Y2c c 21 hk_21 : sProp 𝕄) :=
  (payload_dma S1c Y2c c _ 3 21 dec3_21 r d).trans (by unfold xferPay; rw [dif_pos hk_21])
@[sl_rounds] theorem duties_3_22 (c : Dev nD) : (sched (F := F) S1c Y2c).duties (r2Cell c 22 ho_22) 0 = {0} := duties_dma S1c Y2c c _ 3 22 dec3_22
@[sl_rounds] theorem expect_3_22 (c : Dev nD) : (sched (F := F) S1c Y2c).expect (r2Cell c 22 ho_22) 0 = NX := expect_dma S1c Y2c c _ 3 22 dec3_22
@[sl_rounds] theorem pay_3_22 (c : Dev nD) (r d : ℕ) : (sched (F := F) S1c Y2c).payload (r2Cell c 22 ho_22) r d = ((slotM cm2 22 ho_22).view.loc (c : Thread nD τ) ↦[(slotM cm2 22 ho_22).view.set]{fullShare} land2 Y2c c 22 hk_22 : sProp 𝕄) :=
  (payload_dma S1c Y2c c _ 3 22 dec3_22 r d).trans (by unfold xferPay; rw [dif_pos hk_22])
@[sl_rounds] theorem duties_3_23 (c : Dev nD) : (sched (F := F) S1c Y2c).duties (r2Cell c 23 ho_23) 0 = {0} := duties_dma S1c Y2c c _ 3 23 dec3_23
@[sl_rounds] theorem expect_3_23 (c : Dev nD) : (sched (F := F) S1c Y2c).expect (r2Cell c 23 ho_23) 0 = NX := expect_dma S1c Y2c c _ 3 23 dec3_23
@[sl_rounds] theorem pay_3_23 (c : Dev nD) (r d : ℕ) : (sched (F := F) S1c Y2c).payload (r2Cell c 23 ho_23) r d = ((slotM cm2 23 ho_23).view.loc (c : Thread nD τ) ↦[(slotM cm2 23 ho_23).view.set]{fullShare} land2 Y2c c 23 hk_23 : sProp 𝕄) :=
  (payload_dma S1c Y2c c _ 3 23 dec3_23 r d).trans (by unfold xferPay; rw [dif_pos hk_23])
@[sl_rounds] theorem duties_3_24 (c : Dev nD) : (sched (F := F) S1c Y2c).duties (r2Cell c 24 ho_24) 0 = {0} := duties_dma S1c Y2c c _ 3 24 dec3_24
@[sl_rounds] theorem expect_3_24 (c : Dev nD) : (sched (F := F) S1c Y2c).expect (r2Cell c 24 ho_24) 0 = NX := expect_dma S1c Y2c c _ 3 24 dec3_24
@[sl_rounds] theorem pay_3_24 (c : Dev nD) (r d : ℕ) : (sched (F := F) S1c Y2c).payload (r2Cell c 24 ho_24) r d = ((slotM cm2 24 ho_24).view.loc (c : Thread nD τ) ↦[(slotM cm2 24 ho_24).view.set]{fullShare} land2 Y2c c 24 hk_24 : sProp 𝕄) :=
  (payload_dma S1c Y2c c _ 3 24 dec3_24 r d).trans (by unfold xferPay; rw [dif_pos hk_24])
@[sl_rounds] theorem duties_3_25 (c : Dev nD) : (sched (F := F) S1c Y2c).duties (r2Cell c 25 ho_25) 0 = {0} := duties_dma S1c Y2c c _ 3 25 dec3_25
@[sl_rounds] theorem expect_3_25 (c : Dev nD) : (sched (F := F) S1c Y2c).expect (r2Cell c 25 ho_25) 0 = NX := expect_dma S1c Y2c c _ 3 25 dec3_25
@[sl_rounds] theorem pay_3_25 (c : Dev nD) (r d : ℕ) : (sched (F := F) S1c Y2c).payload (r2Cell c 25 ho_25) r d = ((slotM cm2 25 ho_25).view.loc (c : Thread nD τ) ↦[(slotM cm2 25 ho_25).view.set]{fullShare} land2 Y2c c 25 hk_25 : sProp 𝕄) :=
  (payload_dma S1c Y2c c _ 3 25 dec3_25 r d).trans (by unfold xferPay; rw [dif_pos hk_25])
@[sl_rounds] theorem duties_3_26 (c : Dev nD) : (sched (F := F) S1c Y2c).duties (r2Cell c 26 ho_26) 0 = {0} := duties_dma S1c Y2c c _ 3 26 dec3_26
@[sl_rounds] theorem expect_3_26 (c : Dev nD) : (sched (F := F) S1c Y2c).expect (r2Cell c 26 ho_26) 0 = NX := expect_dma S1c Y2c c _ 3 26 dec3_26
@[sl_rounds] theorem pay_3_26 (c : Dev nD) (r d : ℕ) : (sched (F := F) S1c Y2c).payload (r2Cell c 26 ho_26) r d = ((slotM cm2 26 ho_26).view.loc (c : Thread nD τ) ↦[(slotM cm2 26 ho_26).view.set]{fullShare} land2 Y2c c 26 hk_26 : sProp 𝕄) :=
  (payload_dma S1c Y2c c _ 3 26 dec3_26 r d).trans (by unfold xferPay; rw [dif_pos hk_26])
@[sl_rounds] theorem duties_3_27 (c : Dev nD) : (sched (F := F) S1c Y2c).duties (r2Cell c 27 ho_27) 0 = {0} := duties_dma S1c Y2c c _ 3 27 dec3_27
@[sl_rounds] theorem expect_3_27 (c : Dev nD) : (sched (F := F) S1c Y2c).expect (r2Cell c 27 ho_27) 0 = NX := expect_dma S1c Y2c c _ 3 27 dec3_27
@[sl_rounds] theorem pay_3_27 (c : Dev nD) (r d : ℕ) : (sched (F := F) S1c Y2c).payload (r2Cell c 27 ho_27) r d = ((slotM cm2 27 ho_27).view.loc (c : Thread nD τ) ↦[(slotM cm2 27 ho_27).view.set]{fullShare} land2 Y2c c 27 hk_27 : sProp 𝕄) :=
  (payload_dma S1c Y2c c _ 3 27 dec3_27 r d).trans (by unfold xferPay; rw [dif_pos hk_27])
@[sl_rounds] theorem duties_3_28 (c : Dev nD) : (sched (F := F) S1c Y2c).duties (r2Cell c 28 ho_28) 0 = {0} := duties_dma S1c Y2c c _ 3 28 dec3_28
@[sl_rounds] theorem expect_3_28 (c : Dev nD) : (sched (F := F) S1c Y2c).expect (r2Cell c 28 ho_28) 0 = NX := expect_dma S1c Y2c c _ 3 28 dec3_28
@[sl_rounds] theorem pay_3_28 (c : Dev nD) (r d : ℕ) : (sched (F := F) S1c Y2c).payload (r2Cell c 28 ho_28) r d = ((slotM cm2 28 ho_28).view.loc (c : Thread nD τ) ↦[(slotM cm2 28 ho_28).view.set]{fullShare} land2 Y2c c 28 hk_28 : sProp 𝕄) :=
  (payload_dma S1c Y2c c _ 3 28 dec3_28 r d).trans (by unfold xferPay; rw [dif_pos hk_28])
@[sl_rounds] theorem duties_3_29 (c : Dev nD) : (sched (F := F) S1c Y2c).duties (r2Cell c 29 ho_29) 0 = {0} := duties_dma S1c Y2c c _ 3 29 dec3_29
@[sl_rounds] theorem expect_3_29 (c : Dev nD) : (sched (F := F) S1c Y2c).expect (r2Cell c 29 ho_29) 0 = NX := expect_dma S1c Y2c c _ 3 29 dec3_29
@[sl_rounds] theorem pay_3_29 (c : Dev nD) (r d : ℕ) : (sched (F := F) S1c Y2c).payload (r2Cell c 29 ho_29) r d = ((slotM cm2 29 ho_29).view.loc (c : Thread nD τ) ↦[(slotM cm2 29 ho_29).view.set]{fullShare} land2 Y2c c 29 hk_29 : sProp 𝕄) :=
  (payload_dma S1c Y2c c _ 3 29 dec3_29 r d).trans (by unfold xferPay; rw [dif_pos hk_29])
@[sl_rounds] theorem duties_3_30 (c : Dev nD) : (sched (F := F) S1c Y2c).duties (r2Cell c 30 ho_30) 0 = {0} := duties_dma S1c Y2c c _ 3 30 dec3_30
@[sl_rounds] theorem expect_3_30 (c : Dev nD) : (sched (F := F) S1c Y2c).expect (r2Cell c 30 ho_30) 0 = NX := expect_dma S1c Y2c c _ 3 30 dec3_30
@[sl_rounds] theorem pay_3_30 (c : Dev nD) (r d : ℕ) : (sched (F := F) S1c Y2c).payload (r2Cell c 30 ho_30) r d = ((slotM cm2 30 ho_30).view.loc (c : Thread nD τ) ↦[(slotM cm2 30 ho_30).view.set]{fullShare} land2 Y2c c 30 hk_30 : sProp 𝕄) :=
  (payload_dma S1c Y2c c _ 3 30 dec3_30 r d).trans (by unfold xferPay; rw [dif_pos hk_30])
@[sl_rounds] theorem duties_3_31 (c : Dev nD) : (sched (F := F) S1c Y2c).duties (r2Cell c 31 ho_31) 0 = {0} := duties_dma S1c Y2c c _ 3 31 dec3_31
@[sl_rounds] theorem expect_3_31 (c : Dev nD) : (sched (F := F) S1c Y2c).expect (r2Cell c 31 ho_31) 0 = NX := expect_dma S1c Y2c c _ 3 31 dec3_31
@[sl_rounds] theorem pay_3_31 (c : Dev nD) (r d : ℕ) : (sched (F := F) S1c Y2c).payload (r2Cell c 31 ho_31) r d = ((slotM cm2 31 ho_31).view.loc (c : Thread nD τ) ↦[(slotM cm2 31 ho_31).view.set]{fullShare} land2 Y2c c 31 hk_31 : sProp 𝕄) :=
  (payload_dma S1c Y2c c _ 3 31 dec3_31 r d).trans (by unfold xferPay; rw [dif_pos hk_31])

/-! ## The barrier duty a device pays at offset `k`, from the payer's side -/

@[sl_rounds] theorem pay_bar_1 (c : Dev nD) : (sched (F := F) S1c Y2c).payload (barCell (rot c 1)) 0 1
    = iprop((∃ f, ((slotM cm1 31 ho_31).view.loc (c : Thread nD τ) ↦[(slotM cm1 31 ho_31).view.set]{fullShare} f : sProp 𝕄))
      ∗ (∃ f, ((slotM cm2 31 ho_31).view.loc (c : Thread nD τ) ↦[(slotM cm2 31 ho_31).view.set]{fullShare} f : sProp 𝕄))
      ∗ reached ER (r1Cell c 31 ho_31) 0 ∗ reached ER (r2Cell c 31 ho_31) 0) := by
  dsimp only [sched]; rw [dif_pos ⟨rfl, hk_1⟩]
  exact (barPay_congr (rot_rot_sub c 1 hk_1) _ _).trans rfl
@[sl_rounds] theorem pay_bar_2 (c : Dev nD) : (sched (F := F) S1c Y2c).payload (barCell (rot c 2)) 0 2
    = iprop((∃ f, ((slotM cm1 30 ho_30).view.loc (c : Thread nD τ) ↦[(slotM cm1 30 ho_30).view.set]{fullShare} f : sProp 𝕄))
      ∗ (∃ f, ((slotM cm2 30 ho_30).view.loc (c : Thread nD τ) ↦[(slotM cm2 30 ho_30).view.set]{fullShare} f : sProp 𝕄))
      ∗ reached ER (r1Cell c 30 ho_30) 0 ∗ reached ER (r2Cell c 30 ho_30) 0) := by
  dsimp only [sched]; rw [dif_pos ⟨rfl, hk_2⟩]
  exact (barPay_congr (rot_rot_sub c 2 hk_2) _ _).trans rfl
@[sl_rounds] theorem pay_bar_3 (c : Dev nD) : (sched (F := F) S1c Y2c).payload (barCell (rot c 3)) 0 3
    = iprop((∃ f, ((slotM cm1 29 ho_29).view.loc (c : Thread nD τ) ↦[(slotM cm1 29 ho_29).view.set]{fullShare} f : sProp 𝕄))
      ∗ (∃ f, ((slotM cm2 29 ho_29).view.loc (c : Thread nD τ) ↦[(slotM cm2 29 ho_29).view.set]{fullShare} f : sProp 𝕄))
      ∗ reached ER (r1Cell c 29 ho_29) 0 ∗ reached ER (r2Cell c 29 ho_29) 0) := by
  dsimp only [sched]; rw [dif_pos ⟨rfl, hk_3⟩]
  exact (barPay_congr (rot_rot_sub c 3 hk_3) _ _).trans rfl
@[sl_rounds] theorem pay_bar_4 (c : Dev nD) : (sched (F := F) S1c Y2c).payload (barCell (rot c 4)) 0 4
    = iprop((∃ f, ((slotM cm1 28 ho_28).view.loc (c : Thread nD τ) ↦[(slotM cm1 28 ho_28).view.set]{fullShare} f : sProp 𝕄))
      ∗ (∃ f, ((slotM cm2 28 ho_28).view.loc (c : Thread nD τ) ↦[(slotM cm2 28 ho_28).view.set]{fullShare} f : sProp 𝕄))
      ∗ reached ER (r1Cell c 28 ho_28) 0 ∗ reached ER (r2Cell c 28 ho_28) 0) := by
  dsimp only [sched]; rw [dif_pos ⟨rfl, hk_4⟩]
  exact (barPay_congr (rot_rot_sub c 4 hk_4) _ _).trans rfl
@[sl_rounds] theorem pay_bar_5 (c : Dev nD) : (sched (F := F) S1c Y2c).payload (barCell (rot c 5)) 0 5
    = iprop((∃ f, ((slotM cm1 27 ho_27).view.loc (c : Thread nD τ) ↦[(slotM cm1 27 ho_27).view.set]{fullShare} f : sProp 𝕄))
      ∗ (∃ f, ((slotM cm2 27 ho_27).view.loc (c : Thread nD τ) ↦[(slotM cm2 27 ho_27).view.set]{fullShare} f : sProp 𝕄))
      ∗ reached ER (r1Cell c 27 ho_27) 0 ∗ reached ER (r2Cell c 27 ho_27) 0) := by
  dsimp only [sched]; rw [dif_pos ⟨rfl, hk_5⟩]
  exact (barPay_congr (rot_rot_sub c 5 hk_5) _ _).trans rfl
@[sl_rounds] theorem pay_bar_6 (c : Dev nD) : (sched (F := F) S1c Y2c).payload (barCell (rot c 6)) 0 6
    = iprop((∃ f, ((slotM cm1 26 ho_26).view.loc (c : Thread nD τ) ↦[(slotM cm1 26 ho_26).view.set]{fullShare} f : sProp 𝕄))
      ∗ (∃ f, ((slotM cm2 26 ho_26).view.loc (c : Thread nD τ) ↦[(slotM cm2 26 ho_26).view.set]{fullShare} f : sProp 𝕄))
      ∗ reached ER (r1Cell c 26 ho_26) 0 ∗ reached ER (r2Cell c 26 ho_26) 0) := by
  dsimp only [sched]; rw [dif_pos ⟨rfl, hk_6⟩]
  exact (barPay_congr (rot_rot_sub c 6 hk_6) _ _).trans rfl
@[sl_rounds] theorem pay_bar_7 (c : Dev nD) : (sched (F := F) S1c Y2c).payload (barCell (rot c 7)) 0 7
    = iprop((∃ f, ((slotM cm1 25 ho_25).view.loc (c : Thread nD τ) ↦[(slotM cm1 25 ho_25).view.set]{fullShare} f : sProp 𝕄))
      ∗ (∃ f, ((slotM cm2 25 ho_25).view.loc (c : Thread nD τ) ↦[(slotM cm2 25 ho_25).view.set]{fullShare} f : sProp 𝕄))
      ∗ reached ER (r1Cell c 25 ho_25) 0 ∗ reached ER (r2Cell c 25 ho_25) 0) := by
  dsimp only [sched]; rw [dif_pos ⟨rfl, hk_7⟩]
  exact (barPay_congr (rot_rot_sub c 7 hk_7) _ _).trans rfl
@[sl_rounds] theorem pay_bar_8 (c : Dev nD) : (sched (F := F) S1c Y2c).payload (barCell (rot c 8)) 0 8
    = iprop((∃ f, ((slotM cm1 24 ho_24).view.loc (c : Thread nD τ) ↦[(slotM cm1 24 ho_24).view.set]{fullShare} f : sProp 𝕄))
      ∗ (∃ f, ((slotM cm2 24 ho_24).view.loc (c : Thread nD τ) ↦[(slotM cm2 24 ho_24).view.set]{fullShare} f : sProp 𝕄))
      ∗ reached ER (r1Cell c 24 ho_24) 0 ∗ reached ER (r2Cell c 24 ho_24) 0) := by
  dsimp only [sched]; rw [dif_pos ⟨rfl, hk_8⟩]
  exact (barPay_congr (rot_rot_sub c 8 hk_8) _ _).trans rfl
@[sl_rounds] theorem pay_bar_9 (c : Dev nD) : (sched (F := F) S1c Y2c).payload (barCell (rot c 9)) 0 9
    = iprop((∃ f, ((slotM cm1 23 ho_23).view.loc (c : Thread nD τ) ↦[(slotM cm1 23 ho_23).view.set]{fullShare} f : sProp 𝕄))
      ∗ (∃ f, ((slotM cm2 23 ho_23).view.loc (c : Thread nD τ) ↦[(slotM cm2 23 ho_23).view.set]{fullShare} f : sProp 𝕄))
      ∗ reached ER (r1Cell c 23 ho_23) 0 ∗ reached ER (r2Cell c 23 ho_23) 0) := by
  dsimp only [sched]; rw [dif_pos ⟨rfl, hk_9⟩]
  exact (barPay_congr (rot_rot_sub c 9 hk_9) _ _).trans rfl
@[sl_rounds] theorem pay_bar_10 (c : Dev nD) : (sched (F := F) S1c Y2c).payload (barCell (rot c 10)) 0 10
    = iprop((∃ f, ((slotM cm1 22 ho_22).view.loc (c : Thread nD τ) ↦[(slotM cm1 22 ho_22).view.set]{fullShare} f : sProp 𝕄))
      ∗ (∃ f, ((slotM cm2 22 ho_22).view.loc (c : Thread nD τ) ↦[(slotM cm2 22 ho_22).view.set]{fullShare} f : sProp 𝕄))
      ∗ reached ER (r1Cell c 22 ho_22) 0 ∗ reached ER (r2Cell c 22 ho_22) 0) := by
  dsimp only [sched]; rw [dif_pos ⟨rfl, hk_10⟩]
  exact (barPay_congr (rot_rot_sub c 10 hk_10) _ _).trans rfl
@[sl_rounds] theorem pay_bar_11 (c : Dev nD) : (sched (F := F) S1c Y2c).payload (barCell (rot c 11)) 0 11
    = iprop((∃ f, ((slotM cm1 21 ho_21).view.loc (c : Thread nD τ) ↦[(slotM cm1 21 ho_21).view.set]{fullShare} f : sProp 𝕄))
      ∗ (∃ f, ((slotM cm2 21 ho_21).view.loc (c : Thread nD τ) ↦[(slotM cm2 21 ho_21).view.set]{fullShare} f : sProp 𝕄))
      ∗ reached ER (r1Cell c 21 ho_21) 0 ∗ reached ER (r2Cell c 21 ho_21) 0) := by
  dsimp only [sched]; rw [dif_pos ⟨rfl, hk_11⟩]
  exact (barPay_congr (rot_rot_sub c 11 hk_11) _ _).trans rfl
@[sl_rounds] theorem pay_bar_12 (c : Dev nD) : (sched (F := F) S1c Y2c).payload (barCell (rot c 12)) 0 12
    = iprop((∃ f, ((slotM cm1 20 ho_20).view.loc (c : Thread nD τ) ↦[(slotM cm1 20 ho_20).view.set]{fullShare} f : sProp 𝕄))
      ∗ (∃ f, ((slotM cm2 20 ho_20).view.loc (c : Thread nD τ) ↦[(slotM cm2 20 ho_20).view.set]{fullShare} f : sProp 𝕄))
      ∗ reached ER (r1Cell c 20 ho_20) 0 ∗ reached ER (r2Cell c 20 ho_20) 0) := by
  dsimp only [sched]; rw [dif_pos ⟨rfl, hk_12⟩]
  exact (barPay_congr (rot_rot_sub c 12 hk_12) _ _).trans rfl
@[sl_rounds] theorem pay_bar_13 (c : Dev nD) : (sched (F := F) S1c Y2c).payload (barCell (rot c 13)) 0 13
    = iprop((∃ f, ((slotM cm1 19 ho_19).view.loc (c : Thread nD τ) ↦[(slotM cm1 19 ho_19).view.set]{fullShare} f : sProp 𝕄))
      ∗ (∃ f, ((slotM cm2 19 ho_19).view.loc (c : Thread nD τ) ↦[(slotM cm2 19 ho_19).view.set]{fullShare} f : sProp 𝕄))
      ∗ reached ER (r1Cell c 19 ho_19) 0 ∗ reached ER (r2Cell c 19 ho_19) 0) := by
  dsimp only [sched]; rw [dif_pos ⟨rfl, hk_13⟩]
  exact (barPay_congr (rot_rot_sub c 13 hk_13) _ _).trans rfl
@[sl_rounds] theorem pay_bar_14 (c : Dev nD) : (sched (F := F) S1c Y2c).payload (barCell (rot c 14)) 0 14
    = iprop((∃ f, ((slotM cm1 18 ho_18).view.loc (c : Thread nD τ) ↦[(slotM cm1 18 ho_18).view.set]{fullShare} f : sProp 𝕄))
      ∗ (∃ f, ((slotM cm2 18 ho_18).view.loc (c : Thread nD τ) ↦[(slotM cm2 18 ho_18).view.set]{fullShare} f : sProp 𝕄))
      ∗ reached ER (r1Cell c 18 ho_18) 0 ∗ reached ER (r2Cell c 18 ho_18) 0) := by
  dsimp only [sched]; rw [dif_pos ⟨rfl, hk_14⟩]
  exact (barPay_congr (rot_rot_sub c 14 hk_14) _ _).trans rfl
@[sl_rounds] theorem pay_bar_15 (c : Dev nD) : (sched (F := F) S1c Y2c).payload (barCell (rot c 15)) 0 15
    = iprop((∃ f, ((slotM cm1 17 ho_17).view.loc (c : Thread nD τ) ↦[(slotM cm1 17 ho_17).view.set]{fullShare} f : sProp 𝕄))
      ∗ (∃ f, ((slotM cm2 17 ho_17).view.loc (c : Thread nD τ) ↦[(slotM cm2 17 ho_17).view.set]{fullShare} f : sProp 𝕄))
      ∗ reached ER (r1Cell c 17 ho_17) 0 ∗ reached ER (r2Cell c 17 ho_17) 0) := by
  dsimp only [sched]; rw [dif_pos ⟨rfl, hk_15⟩]
  exact (barPay_congr (rot_rot_sub c 15 hk_15) _ _).trans rfl
@[sl_rounds] theorem pay_bar_16 (c : Dev nD) : (sched (F := F) S1c Y2c).payload (barCell (rot c 16)) 0 16
    = iprop((∃ f, ((slotM cm1 16 ho_16).view.loc (c : Thread nD τ) ↦[(slotM cm1 16 ho_16).view.set]{fullShare} f : sProp 𝕄))
      ∗ (∃ f, ((slotM cm2 16 ho_16).view.loc (c : Thread nD τ) ↦[(slotM cm2 16 ho_16).view.set]{fullShare} f : sProp 𝕄))
      ∗ reached ER (r1Cell c 16 ho_16) 0 ∗ reached ER (r2Cell c 16 ho_16) 0) := by
  dsimp only [sched]; rw [dif_pos ⟨rfl, hk_16⟩]
  exact (barPay_congr (rot_rot_sub c 16 hk_16) _ _).trans rfl
@[sl_rounds] theorem pay_bar_17 (c : Dev nD) : (sched (F := F) S1c Y2c).payload (barCell (rot c 17)) 0 17
    = iprop((∃ f, ((slotM cm1 15 ho_15).view.loc (c : Thread nD τ) ↦[(slotM cm1 15 ho_15).view.set]{fullShare} f : sProp 𝕄))
      ∗ (∃ f, ((slotM cm2 15 ho_15).view.loc (c : Thread nD τ) ↦[(slotM cm2 15 ho_15).view.set]{fullShare} f : sProp 𝕄))
      ∗ reached ER (r1Cell c 15 ho_15) 0 ∗ reached ER (r2Cell c 15 ho_15) 0) := by
  dsimp only [sched]; rw [dif_pos ⟨rfl, hk_17⟩]
  exact (barPay_congr (rot_rot_sub c 17 hk_17) _ _).trans rfl
@[sl_rounds] theorem pay_bar_18 (c : Dev nD) : (sched (F := F) S1c Y2c).payload (barCell (rot c 18)) 0 18
    = iprop((∃ f, ((slotM cm1 14 ho_14).view.loc (c : Thread nD τ) ↦[(slotM cm1 14 ho_14).view.set]{fullShare} f : sProp 𝕄))
      ∗ (∃ f, ((slotM cm2 14 ho_14).view.loc (c : Thread nD τ) ↦[(slotM cm2 14 ho_14).view.set]{fullShare} f : sProp 𝕄))
      ∗ reached ER (r1Cell c 14 ho_14) 0 ∗ reached ER (r2Cell c 14 ho_14) 0) := by
  dsimp only [sched]; rw [dif_pos ⟨rfl, hk_18⟩]
  exact (barPay_congr (rot_rot_sub c 18 hk_18) _ _).trans rfl
@[sl_rounds] theorem pay_bar_19 (c : Dev nD) : (sched (F := F) S1c Y2c).payload (barCell (rot c 19)) 0 19
    = iprop((∃ f, ((slotM cm1 13 ho_13).view.loc (c : Thread nD τ) ↦[(slotM cm1 13 ho_13).view.set]{fullShare} f : sProp 𝕄))
      ∗ (∃ f, ((slotM cm2 13 ho_13).view.loc (c : Thread nD τ) ↦[(slotM cm2 13 ho_13).view.set]{fullShare} f : sProp 𝕄))
      ∗ reached ER (r1Cell c 13 ho_13) 0 ∗ reached ER (r2Cell c 13 ho_13) 0) := by
  dsimp only [sched]; rw [dif_pos ⟨rfl, hk_19⟩]
  exact (barPay_congr (rot_rot_sub c 19 hk_19) _ _).trans rfl
@[sl_rounds] theorem pay_bar_20 (c : Dev nD) : (sched (F := F) S1c Y2c).payload (barCell (rot c 20)) 0 20
    = iprop((∃ f, ((slotM cm1 12 ho_12).view.loc (c : Thread nD τ) ↦[(slotM cm1 12 ho_12).view.set]{fullShare} f : sProp 𝕄))
      ∗ (∃ f, ((slotM cm2 12 ho_12).view.loc (c : Thread nD τ) ↦[(slotM cm2 12 ho_12).view.set]{fullShare} f : sProp 𝕄))
      ∗ reached ER (r1Cell c 12 ho_12) 0 ∗ reached ER (r2Cell c 12 ho_12) 0) := by
  dsimp only [sched]; rw [dif_pos ⟨rfl, hk_20⟩]
  exact (barPay_congr (rot_rot_sub c 20 hk_20) _ _).trans rfl
@[sl_rounds] theorem pay_bar_21 (c : Dev nD) : (sched (F := F) S1c Y2c).payload (barCell (rot c 21)) 0 21
    = iprop((∃ f, ((slotM cm1 11 ho_11).view.loc (c : Thread nD τ) ↦[(slotM cm1 11 ho_11).view.set]{fullShare} f : sProp 𝕄))
      ∗ (∃ f, ((slotM cm2 11 ho_11).view.loc (c : Thread nD τ) ↦[(slotM cm2 11 ho_11).view.set]{fullShare} f : sProp 𝕄))
      ∗ reached ER (r1Cell c 11 ho_11) 0 ∗ reached ER (r2Cell c 11 ho_11) 0) := by
  dsimp only [sched]; rw [dif_pos ⟨rfl, hk_21⟩]
  exact (barPay_congr (rot_rot_sub c 21 hk_21) _ _).trans rfl
@[sl_rounds] theorem pay_bar_22 (c : Dev nD) : (sched (F := F) S1c Y2c).payload (barCell (rot c 22)) 0 22
    = iprop((∃ f, ((slotM cm1 10 ho_10).view.loc (c : Thread nD τ) ↦[(slotM cm1 10 ho_10).view.set]{fullShare} f : sProp 𝕄))
      ∗ (∃ f, ((slotM cm2 10 ho_10).view.loc (c : Thread nD τ) ↦[(slotM cm2 10 ho_10).view.set]{fullShare} f : sProp 𝕄))
      ∗ reached ER (r1Cell c 10 ho_10) 0 ∗ reached ER (r2Cell c 10 ho_10) 0) := by
  dsimp only [sched]; rw [dif_pos ⟨rfl, hk_22⟩]
  exact (barPay_congr (rot_rot_sub c 22 hk_22) _ _).trans rfl
@[sl_rounds] theorem pay_bar_23 (c : Dev nD) : (sched (F := F) S1c Y2c).payload (barCell (rot c 23)) 0 23
    = iprop((∃ f, ((slotM cm1 9 ho_9).view.loc (c : Thread nD τ) ↦[(slotM cm1 9 ho_9).view.set]{fullShare} f : sProp 𝕄))
      ∗ (∃ f, ((slotM cm2 9 ho_9).view.loc (c : Thread nD τ) ↦[(slotM cm2 9 ho_9).view.set]{fullShare} f : sProp 𝕄))
      ∗ reached ER (r1Cell c 9 ho_9) 0 ∗ reached ER (r2Cell c 9 ho_9) 0) := by
  dsimp only [sched]; rw [dif_pos ⟨rfl, hk_23⟩]
  exact (barPay_congr (rot_rot_sub c 23 hk_23) _ _).trans rfl
@[sl_rounds] theorem pay_bar_24 (c : Dev nD) : (sched (F := F) S1c Y2c).payload (barCell (rot c 24)) 0 24
    = iprop((∃ f, ((slotM cm1 8 ho_8).view.loc (c : Thread nD τ) ↦[(slotM cm1 8 ho_8).view.set]{fullShare} f : sProp 𝕄))
      ∗ (∃ f, ((slotM cm2 8 ho_8).view.loc (c : Thread nD τ) ↦[(slotM cm2 8 ho_8).view.set]{fullShare} f : sProp 𝕄))
      ∗ reached ER (r1Cell c 8 ho_8) 0 ∗ reached ER (r2Cell c 8 ho_8) 0) := by
  dsimp only [sched]; rw [dif_pos ⟨rfl, hk_24⟩]
  exact (barPay_congr (rot_rot_sub c 24 hk_24) _ _).trans rfl
@[sl_rounds] theorem pay_bar_25 (c : Dev nD) : (sched (F := F) S1c Y2c).payload (barCell (rot c 25)) 0 25
    = iprop((∃ f, ((slotM cm1 7 ho_7).view.loc (c : Thread nD τ) ↦[(slotM cm1 7 ho_7).view.set]{fullShare} f : sProp 𝕄))
      ∗ (∃ f, ((slotM cm2 7 ho_7).view.loc (c : Thread nD τ) ↦[(slotM cm2 7 ho_7).view.set]{fullShare} f : sProp 𝕄))
      ∗ reached ER (r1Cell c 7 ho_7) 0 ∗ reached ER (r2Cell c 7 ho_7) 0) := by
  dsimp only [sched]; rw [dif_pos ⟨rfl, hk_25⟩]
  exact (barPay_congr (rot_rot_sub c 25 hk_25) _ _).trans rfl
@[sl_rounds] theorem pay_bar_26 (c : Dev nD) : (sched (F := F) S1c Y2c).payload (barCell (rot c 26)) 0 26
    = iprop((∃ f, ((slotM cm1 6 ho_6).view.loc (c : Thread nD τ) ↦[(slotM cm1 6 ho_6).view.set]{fullShare} f : sProp 𝕄))
      ∗ (∃ f, ((slotM cm2 6 ho_6).view.loc (c : Thread nD τ) ↦[(slotM cm2 6 ho_6).view.set]{fullShare} f : sProp 𝕄))
      ∗ reached ER (r1Cell c 6 ho_6) 0 ∗ reached ER (r2Cell c 6 ho_6) 0) := by
  dsimp only [sched]; rw [dif_pos ⟨rfl, hk_26⟩]
  exact (barPay_congr (rot_rot_sub c 26 hk_26) _ _).trans rfl
@[sl_rounds] theorem pay_bar_27 (c : Dev nD) : (sched (F := F) S1c Y2c).payload (barCell (rot c 27)) 0 27
    = iprop((∃ f, ((slotM cm1 5 ho_5).view.loc (c : Thread nD τ) ↦[(slotM cm1 5 ho_5).view.set]{fullShare} f : sProp 𝕄))
      ∗ (∃ f, ((slotM cm2 5 ho_5).view.loc (c : Thread nD τ) ↦[(slotM cm2 5 ho_5).view.set]{fullShare} f : sProp 𝕄))
      ∗ reached ER (r1Cell c 5 ho_5) 0 ∗ reached ER (r2Cell c 5 ho_5) 0) := by
  dsimp only [sched]; rw [dif_pos ⟨rfl, hk_27⟩]
  exact (barPay_congr (rot_rot_sub c 27 hk_27) _ _).trans rfl
@[sl_rounds] theorem pay_bar_28 (c : Dev nD) : (sched (F := F) S1c Y2c).payload (barCell (rot c 28)) 0 28
    = iprop((∃ f, ((slotM cm1 4 ho_4).view.loc (c : Thread nD τ) ↦[(slotM cm1 4 ho_4).view.set]{fullShare} f : sProp 𝕄))
      ∗ (∃ f, ((slotM cm2 4 ho_4).view.loc (c : Thread nD τ) ↦[(slotM cm2 4 ho_4).view.set]{fullShare} f : sProp 𝕄))
      ∗ reached ER (r1Cell c 4 ho_4) 0 ∗ reached ER (r2Cell c 4 ho_4) 0) := by
  dsimp only [sched]; rw [dif_pos ⟨rfl, hk_28⟩]
  exact (barPay_congr (rot_rot_sub c 28 hk_28) _ _).trans rfl
@[sl_rounds] theorem pay_bar_29 (c : Dev nD) : (sched (F := F) S1c Y2c).payload (barCell (rot c 29)) 0 29
    = iprop((∃ f, ((slotM cm1 3 ho_3).view.loc (c : Thread nD τ) ↦[(slotM cm1 3 ho_3).view.set]{fullShare} f : sProp 𝕄))
      ∗ (∃ f, ((slotM cm2 3 ho_3).view.loc (c : Thread nD τ) ↦[(slotM cm2 3 ho_3).view.set]{fullShare} f : sProp 𝕄))
      ∗ reached ER (r1Cell c 3 ho_3) 0 ∗ reached ER (r2Cell c 3 ho_3) 0) := by
  dsimp only [sched]; rw [dif_pos ⟨rfl, hk_29⟩]
  exact (barPay_congr (rot_rot_sub c 29 hk_29) _ _).trans rfl
@[sl_rounds] theorem pay_bar_30 (c : Dev nD) : (sched (F := F) S1c Y2c).payload (barCell (rot c 30)) 0 30
    = iprop((∃ f, ((slotM cm1 2 ho_2).view.loc (c : Thread nD τ) ↦[(slotM cm1 2 ho_2).view.set]{fullShare} f : sProp 𝕄))
      ∗ (∃ f, ((slotM cm2 2 ho_2).view.loc (c : Thread nD τ) ↦[(slotM cm2 2 ho_2).view.set]{fullShare} f : sProp 𝕄))
      ∗ reached ER (r1Cell c 2 ho_2) 0 ∗ reached ER (r2Cell c 2 ho_2) 0) := by
  dsimp only [sched]; rw [dif_pos ⟨rfl, hk_30⟩]
  exact (barPay_congr (rot_rot_sub c 30 hk_30) _ _).trans rfl
@[sl_rounds] theorem pay_bar_31 (c : Dev nD) : (sched (F := F) S1c Y2c).payload (barCell (rot c 31)) 0 31
    = iprop((∃ f, ((slotM cm1 1 ho_1).view.loc (c : Thread nD τ) ↦[(slotM cm1 1 ho_1).view.set]{fullShare} f : sProp 𝕄))
      ∗ (∃ f, ((slotM cm2 1 ho_1).view.loc (c : Thread nD τ) ↦[(slotM cm2 1 ho_1).view.set]{fullShare} f : sProp 𝕄))
      ∗ reached ER (r1Cell c 1 ho_1) 0 ∗ reached ER (r2Cell c 1 ho_1) 0) := by
  dsimp only [sched]; rw [dif_pos ⟨rfl, hk_31⟩]
  exact (barPay_congr (rot_rot_sub c 31 hk_31) _ _).trans rfl

attribute [sl_rounds] duties_bar amount_bar amount_dma expect_bar

end TablesK

end Cert.KernelProto

end
-- ==== Proof.KernelCuts.lean ====
import proofs.«900784_g7700000000000785_dist_f_of_ar_i_m512_n256_v7x_i32_bf16_1_alg».proof.Proof.KernelProto
import proofs.«900784_g7700000000000785_dist_f_of_ar_i_m512_n256_v7x_i32_bf16_1_alg».proof.Proof.KernelTables

/-!
# A buffer held whole, cut into the pieces its transfers lend, and joined back

A landing buffer of thirty-two slots is held as its slots: slot `o` is the unit rectangle at offset `(o, 0, 0)` of
sizes `(1, 16, 256)`, and the thirty-two of them are pairwise disjoint and cover the buffer (they differ only in
their offset along the first axis, one apart, and are whole on the other two). A points-to on the whole buffer is
therefore the separating conjunction of the points-tos on the slots' element sets, and slots held at contents of
their own join to the whole buffer held at some contents.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slices of a whole buffer along a family of rectangles -/

section Pieces

variable {sp : Space} {s : Shape} {e : EltTy} {B : Type}

/-- The elements of a memref's buffer under its slice through the rectangle `r`. -/
abbrev sliceSet (M : Memref sig .tc sp s e) (r : Rect s) : Finset M.view.ty.Idx := (M.view.slice r).set

/-- Slices of one memref through disjoint rectangles have disjoint element sets: a view places distinct indices at
    distinct elements. -/
theorem slices_disjoint (M : Memref sig .tc sp s e) (r : B → Rect s)
    (hd : ∀ b b', b ≠ b' → Disjoint (r b).set (r b').set) (b b' : B) (h : b ≠ b') :
    Disjoint (sliceSet M (r b)) (sliceSet M (r b')) := by
  show Disjoint (M.view.slice (r b)).set (M.view.slice (r b')).set
  rw [View.set_slice, View.set_slice]
  exact (Finset.disjoint_map _).mpr (hd b b' h)

/-- Slices of a whole buffer through rectangles that cover its shape cover its elements. -/
theorem slices_cover [Fintype B] (M : Memref sig .tc sp s e) (hM : M.IsWhole) (r : B → Rect s)
    (hc : Finset.univ.biUnion (fun b => (r b).set) = Finset.univ) :
    Finset.univ.biUnion (fun b => sliceSet M (r b)) = Finset.univ := by
  ext i
  simp only [Finset.mem_biUnion, Finset.mem_univ, true_and, iff_true]
  have hi : i ∈ M.view.set := hM.set_eq_univ ▸ Finset.mem_univ i
  obtain ⟨x, -, rfl⟩ := Finset.mem_map.mp hi
  have hx : x ∈ Finset.univ.biUnion (fun b => (r b).set) := hc ▸ Finset.mem_univ x
  obtain ⟨b, -, hb⟩ := Finset.mem_biUnion.mp hx
  refine ⟨b, ?_⟩
  show M.view.emb x ∈ (M.view.slice (r b)).set
  rw [View.set_slice]; exact Finset.mem_map_of_mem _ hb

end Pieces

/-! ## A landing buffer as its thirty-two slots -/

/-- Slot `o`'s rectangle. -/
abbrev slotR (o : Fin 32) : Rect S32x16x256 := Rect.unit (s := S32x16x256) ![o.val, 0, 0] S1x16x256.size (slot_inb o.val o.isLt)

theorem slotR_disjoint (o o' : Fin 32) (h : o ≠ o') : Disjoint (slotR o).set (slotR o').set :=
  Ring.lead_disjoint (s := S32x16x256) (NB := 32) 0 1 (fun o : Fin 32 => ![o.val, 0, 0]) S1x16x256.size
    (fun o => slot_inb o.val o.isLt) (fun o => (Nat.one_mul _).symm) rfl o o' h

theorem slotR_cover : Finset.univ.biUnion (fun o : Fin 32 => (slotR o).set) = Finset.univ :=
  Ring.lead_cover (s := S32x16x256) (NB := 32) 0 1 (fun o : Fin 32 => ![o.val, 0, 0]) S1x16x256.size
    (fun o => slot_inb o.val o.isLt) (fun o => (Nat.one_mul _).symm)
    (fun o a ha => by fin_cases a <;> first | exact absurd rfl ha | rfl) rfl
    (fun a ha => by fin_cases a <;> first | exact absurd rfl ha | rfl) (by decide)

/-- Slot `o`'s elements, among the buffer's on device `c`. -/
abbrev slotSet {e : EltTy} (M : Memref sig .tc .vmem S32x16x256 e) (c : Dev nD) (o : Fin 32) :
    Finset (Idx (M.view.loc (c : Thread nD τ))) :=
  (slotM M o.val o.isLt).view.set

/-- A slot's elements are its rectangle's: dropping the unit axis moves no element. -/
theorem slot_set {e : EltTy} (M : Memref sig .tc .vmem S32x16x256 e) (c : Dev nD) (o : Fin 32) :
    slotSet M c o = sliceSet M (slotR o) :=
  View.set_reshape _ _

theorem slot_disjoint {e : EltTy} (M : Memref sig .tc .vmem S32x16x256 e) (c : Dev nD) (o o' : Fin 32) (h : o ≠ o') :
    Disjoint (slotSet M c o) (slotSet M c o') := by
  rw [slot_set, slot_set]; exact slices_disjoint M slotR slotR_disjoint o o' h

theorem slot_cover {e : EltTy} (M : Memref sig .tc .vmem S32x16x256 e) (hM : M.IsWhole) (c : Dev nD) :
    Finset.univ.biUnion (slotSet M c) = Finset.univ := by
  rw [show slotSet M c = fun o => sliceSet M (slotR o) from funext (slot_set M c)]
  exact slices_cover M hM slotR slotR_cover

/-- The whole buffer at `f` is its thirty-two slots at `f`, as an equation. -/
theorem cm_split_eq {e : EltTy} (M : Memref sig .tc .vmem S32x16x256 e) (hM : M.IsWhole) (c : Dev nD)
    (f : Buf (Elt F) (M.view.loc (c : Thread nD τ))) :
    (M.view.loc (c : Thread nD τ) ↦{fullShare} f : sProp 𝕄)
      = bigSep Finset.univ fun o : Fin 32 => (M.view.loc (c : Thread nD τ) ↦[slotSet M c o]{fullShare} f : sProp 𝕄) :=
  Ring.pointsTo_blocks (ℓ := M.view.loc (c : Thread nD τ)) (Ix := Unit) (Name := ℕ) (U := UU) (Lvl := ℕ)
    (slotSet M c) (slot_disjoint M c) (slot_cover M hM c) f

/-- The whole buffer at `f` is its thirty-two slots at `f`. -/
theorem cm_split {e : EltTy} (M : Memref sig .tc .vmem S32x16x256 e) (hM : M.IsWhole) (c : Dev nD)
    (f : Buf (Elt F) (M.view.loc (c : Thread nD τ))) :
    (M.view.loc (c : Thread nD τ) ↦{fullShare} f : sProp 𝕄)
      ⊢ bigSep Finset.univ fun o : Fin 32 =>
          ((slotM M o.val o.isLt).view.loc (c : Thread nD τ) ↦[(slotM M o.val o.isLt).view.set]{fullShare} f : sProp 𝕄) :=
  Entails.of_eq (cm_split_eq M hM c f)

/-- The thirty-two slots, each at some contents, are the whole buffer at some contents. -/
theorem cm_join {e : EltTy} (M : Memref sig .tc .vmem S32x16x256 e) (hM : M.IsWhole) (c : Dev nD) :
    bigSep Finset.univ (fun o : Fin 32 =>
        iprop(∃ g, ((slotM M o.val o.isLt).view.loc (c : Thread nD τ) ↦[(slotM M o.val o.isLt).view.set]{fullShare} g : sProp 𝕄)))
      ⊢ iprop(∃ g, (M.view.loc (c : Thread nD τ) ↦{fullShare} g : sProp 𝕄)) :=
  Ring.pointsTo_blocks_join_exists (ℓ := M.view.loc (c : Thread nD τ)) (Ix := Unit) (Name := ℕ) (U := UU) (Lvl := ℕ)
    (q := fullShare) (slotSet M c) (slot_disjoint M c) (slot_cover M hM c) (M.view.junk (Val := Elt F))

/-- The same with the slots written out, slot 0 first. -/
theorem cm_split_chain {e : EltTy} (M : Memref sig .tc .vmem S32x16x256 e) (hM : M.IsWhole) (c : Dev nD)
    (f : Buf (Elt F) (M.view.loc (c : Thread nD τ))) :
    (M.view.loc (c : Thread nD τ) ↦{fullShare} f : sProp 𝕄)
      ⊢ iprop(((slotM M 0 ho_0).view.loc (c : Thread nD τ) ↦[(slotM M 0 ho_0).view.set]{fullShare} f : sProp 𝕄)
        ∗ ((slotM M 1 ho_1).view.loc (c : Thread nD τ) ↦[(slotM M 1 ho_1).view.set]{fullShare} f : sProp 𝕄)
        ∗ ((slotM M 2 ho_2).view.loc (c : Thread nD τ) ↦[(slotM M 2 ho_2).view.set]{fullShare} f : sProp 𝕄)
        ∗ ((slotM M 3 ho_3).view.loc (c : Thread nD τ) ↦[(slotM M 3 ho_3).view.set]{fullShare} f : sProp 𝕄)
        ∗ ((slotM M 4 ho_4).view.loc (c : Thread nD τ) ↦[(slotM M 4 ho_4).view.set]{fullShare} f : sProp 𝕄)
        ∗ ((slotM M 5 ho_5).view.loc (c : Thread nD τ) ↦[(slotM M 5 ho_5).view.set]{fullShare} f : sProp 𝕄)
        ∗ ((slotM M 6 ho_6).view.loc (c : Thread nD τ) ↦[(slotM M 6 ho_6).view.set]{fullShare} f : sProp 𝕄)
        ∗ ((slotM M 7 ho_7).view.loc (c : Thread nD τ) ↦[(slotM M 7 ho_7).view.set]{fullShare} f : sProp 𝕄)
        ∗ ((slotM M 8 ho_8).view.loc (c : Thread nD τ) ↦[(slotM M 8 ho_8).view.set]{fullShare} f : sProp 𝕄)
        ∗ ((slotM M 9 ho_9).view.loc (c : Thread nD τ) ↦[(slotM M 9 ho_9).view.set]{fullShare} f : sProp 𝕄)
        ∗ ((slotM M 10 ho_10).view.loc (c : Thread nD τ) ↦[(slotM M 10 ho_10).view.set]{fullShare} f : sProp 𝕄)
        ∗ ((slotM M 11 ho_11).view.loc (c : Thread nD τ) ↦[(slotM M 11 ho_11).view.set]{fullShare} f : sProp 𝕄)
        ∗ ((slotM M 12 ho_12).view.loc (c : Thread nD τ) ↦[(slotM M 12 ho_12).view.set]{fullShare} f : sProp 𝕄)
        ∗ ((slotM M 13 ho_13).view.loc (c : Thread nD τ) ↦[(slotM M 13 ho_13).view.set]{fullShare} f : sProp 𝕄)
        ∗ ((slotM M 14 ho_14).view.loc (c : Thread nD τ) ↦[(slotM M 14 ho_14).view.set]{fullShare} f : sProp 𝕄)
        ∗ ((slotM M 15 ho_15).view.loc (c : Thread nD τ) ↦[(slotM M 15 ho_15).view.set]{fullShare} f : sProp 𝕄)
        ∗ ((slotM M 16 ho_16).view.loc (c : Thread nD τ) ↦[(slotM M 16 ho_16).view.set]{fullShare} f : sProp 𝕄)
        ∗ ((slotM M 17 ho_17).view.loc (c : Thread nD τ) ↦[(slotM M 17 ho_17).view.set]{fullShare} f : sProp 𝕄)
        ∗ ((slotM M 18 ho_18).view.loc (c : Thread nD τ) ↦[(slotM M 18 ho_18).view.set]{fullShare} f : sProp 𝕄)
        ∗ ((slotM M 19 ho_19).view.loc (c : Thread nD τ) ↦[(slotM M 19 ho_19).view.set]{fullShare} f : sProp 𝕄)
        ∗ ((slotM M 20 ho_20).view.loc (c : Thread nD τ) ↦[(slotM M 20 ho_20).view.set]{fullShare} f : sProp 𝕄)
        ∗ ((slotM M 21 ho_21).view.loc (c : Thread nD τ) ↦[(slotM M 21 ho_21).view.set]{fullShare} f : sProp 𝕄)
        ∗ ((slotM M 22 ho_22).view.loc (c : Thread nD τ) ↦[(slotM M 22 ho_22).view.set]{fullShare} f : sProp 𝕄)
        ∗ ((slotM M 23 ho_23).view.loc (c : Thread nD τ) ↦[(slotM M 23 ho_23).view.set]{fullShare} f : sProp 𝕄)
        ∗ ((slotM M 24 ho_24).view.loc (c : Thread nD τ) ↦[(slotM M 24 ho_24).view.set]{fullShare} f : sProp 𝕄)
        ∗ ((slotM M 25 ho_25).view.loc (c : Thread nD τ) ↦[(slotM M 25 ho_25).view.set]{fullShare} f : sProp 𝕄)
        ∗ ((slotM M 26 ho_26).view.loc (c : Thread nD τ) ↦[(slotM M 26 ho_26).view.set]{fullShare} f : sProp 𝕄)
        ∗ ((slotM M 27 ho_27).view.loc (c : Thread nD τ) ↦[(slotM M 27 ho_27).view.set]{fullShare} f : sProp 𝕄)
        ∗ ((slotM M 28 ho_28).view.loc (c : Thread nD τ) ↦[(slotM M 28 ho_28).view.set]{fullShare} f : sProp 𝕄)
        ∗ ((slotM M 29 ho_29).view.loc (c : Thread nD τ) ↦[(slotM M 29 ho_29).view.set]{fullShare} f : sProp 𝕄)
        ∗ ((slotM M 30 ho_30).view.loc (c : Thread nD τ) ↦[(slotM M 30 ho_30).view.set]{fullShare} f : sProp 𝕄)
        ∗ ((slotM M 31 ho_31).view.loc (c : Thread nD τ) ↦[(slotM M 31 ho_31).view.set]{fullShare} f : sProp 𝕄)) :=
  (cm_split M hM c f).trans (Entails.of_eq (bigSep_univ_eq_bigSepL [0, 1, 2, 3, 4, 5, 6, 7, 8, 9, 10, 11, 12, 13, 14, 15, 16, 17, 18, 19, 20, 21, 22, 23, 24, 25, 26, 27, 28, 29, 30, 31] (by decide) (by decide) _))

theorem cm_join_chain {e : EltTy} (M : Memref sig .tc .vmem S32x16x256 e) (hM : M.IsWhole) (c : Dev nD) :
    iprop((∃ g, ((slotM M 0 ho_0).view.loc (c : Thread nD τ) ↦[(slotM M 0 ho_0).view.set]{fullShare} g : sProp 𝕄))
        ∗ (∃ g, ((slotM M 1 ho_1).view.loc (c : Thread nD τ) ↦[(slotM M 1 ho_1).view.set]{fullShare} g : sProp 𝕄))
        ∗ (∃ g, ((slotM M 2 ho_2).view.loc (c : Thread nD τ) ↦[(slotM M 2 ho_2).view.set]{fullShare} g : sProp 𝕄))
        ∗ (∃ g, ((slotM M 3 ho_3).view.loc (c : Thread nD τ) ↦[(slotM M 3 ho_3).view.set]{fullShare} g : sProp 𝕄))
        ∗ (∃ g, ((slotM M 4 ho_4).view.loc (c : Thread nD τ) ↦[(slotM M 4 ho_4).view.set]{fullShare} g : sProp 𝕄))
        ∗ (∃ g, ((slotM M 5 ho_5).view.loc (c : Thread nD τ) ↦[(slotM M 5 ho_5).view.set]{fullShare} g : sProp 𝕄))
        ∗ (∃ g, ((slotM M 6 ho_6).view.loc (c : Thread nD τ) ↦[(slotM M 6 ho_6).view.set]{fullShare} g : sProp 𝕄))
        ∗ (∃ g, ((slotM M 7 ho_7).view.loc (c : Thread nD τ) ↦[(slotM M 7 ho_7).view.set]{fullShare} g : sProp 𝕄))
        ∗ (∃ g, ((slotM M 8 ho_8).view.loc (c : Thread nD τ) ↦[(slotM M 8 ho_8).view.set]{fullShare} g : sProp 𝕄))
        ∗ (∃ g, ((slotM M 9 ho_9).view.loc (c : Thread nD τ) ↦[(slotM M 9 ho_9).view.set]{fullShare} g : sProp 𝕄))
        ∗ (∃ g, ((slotM M 10 ho_10).view.loc (c : Thread nD τ) ↦[(slotM M 10 ho_10).view.set]{fullShare} g : sProp 𝕄))
        ∗ (∃ g, ((slotM M 11 ho_11).view.loc (c : Thread nD τ) ↦[(slotM M 11 ho_11).view.set]{fullShare} g : sProp 𝕄))
        ∗ (∃ g, ((slotM M 12 ho_12).view.loc (c : Thread nD τ) ↦[(slotM M 12 ho_12).view.set]{fullShare} g : sProp 𝕄))
        ∗ (∃ g, ((slotM M 13 ho_13).view.loc (c : Thread nD τ) ↦[(slotM M 13 ho_13).view.set]{fullShare} g : sProp 𝕄))
        ∗ (∃ g, ((slotM M 14 ho_14).view.loc (c : Thread nD τ) ↦[(slotM M 14 ho_14).view.set]{fullShare} g : sProp 𝕄))
        ∗ (∃ g, ((slotM M 15 ho_15).view.loc (c : Thread nD τ) ↦[(slotM M 15 ho_15).view.set]{fullShare} g : sProp 𝕄))
        ∗ (∃ g, ((slotM M 16 ho_16).view.loc (c : Thread nD τ) ↦[(slotM M 16 ho_16).view.set]{fullShare} g : sProp 𝕄))
        ∗ (∃ g, ((slotM M 17 ho_17).view.loc (c : Thread nD τ) ↦[(slotM M 17 ho_17).view.set]{fullShare} g : sProp 𝕄))
        ∗ (∃ g, ((slotM M 18 ho_18).view.loc (c : Thread nD τ) ↦[(slotM M 18 ho_18).view.set]{fullShare} g : sProp 𝕄))
        ∗ (∃ g, ((slotM M 19 ho_19).view.loc (c : Thread nD τ) ↦[(slotM M 19 ho_19).view.set]{fullShare} g : sProp 𝕄))
        ∗ (∃ g, ((slotM M 20 ho_20).view.loc (c : Thread nD τ) ↦[(slotM M 20 ho_20).view.set]{fullShare} g : sProp 𝕄))
        ∗ (∃ g, ((slotM M 21 ho_21).view.loc (c : Thread nD τ) ↦[(slotM M 21 ho_21).view.set]{fullShare} g : sProp 𝕄))
        ∗ (∃ g, ((slotM M 22 ho_22).view.loc (c : Thread nD τ) ↦[(slotM M 22 ho_22).view.set]{fullShare} g : sProp 𝕄))
        ∗ (∃ g, ((slotM M 23 ho_23).view.loc (c : Thread nD τ) ↦[(slotM M 23 ho_23).view.set]{fullShare} g : sProp 𝕄))
        ∗ (∃ g, ((slotM M 24 ho_24).view.loc (c : Thread nD τ) ↦[(slotM M 24 ho_24).view.set]{fullShare} g : sProp 𝕄))
        ∗ (∃ g, ((slotM M 25 ho_25).view.loc (c : Thread nD τ) ↦[(slotM M 25 ho_25).view.set]{fullShare} g : sProp 𝕄))
        ∗ (∃ g, ((slotM M 26 ho_26).view.loc (c : Thread nD τ) ↦[(slotM M 26 ho_26).view.set]{fullShare} g : sProp 𝕄))
        ∗ (∃ g, ((slotM M 27 ho_27).view.loc (c : Thread nD τ) ↦[(slotM M 27 ho_27).view.set]{fullShare} g : sProp 𝕄))
        ∗ (∃ g, ((slotM M 28 ho_28).view.loc (c : Thread nD τ) ↦[(slotM M 28 ho_28).view.set]{fullShare} g : sProp 𝕄))
        ∗ (∃ g, ((slotM M 29 ho_29).view.loc (c : Thread nD τ) ↦[(slotM M 29 ho_29).view.set]{fullShare} g : sProp 𝕄))
        ∗ (∃ g, ((slotM M 30 ho_30).view.loc (c : Thread nD τ) ↦[(slotM M 30 ho_30).view.set]{fullShare} g : sProp 𝕄))
        ∗ (∃ g, ((slotM M 31 ho_31).view.loc (c : Thread nD τ) ↦[(slotM M 31 ho_31).view.set]{fullShare} g : sProp 𝕄)))
      ⊢ iprop(∃ g, (M.view.loc (c : Thread nD τ) ↦{fullShare} g : sProp 𝕄)) :=
  (Entails.of_eq (bigSep_univ_eq_bigSepL [0, 1, 2, 3, 4, 5, 6, 7, 8, 9, 10, 11, 12, 13, 14, 15, 16, 17, 18, 19, 20, 21, 22, 23, 24, 25, 26, 27, 28, 29, 30, 31] (by decide) (by decide) _).symm).trans (cm_join M hM c)

/-! ## The result rows, read by thirty-one transfers at once

The second exchange sends the same sixteen result rows to every other device. The thirty-one transfers read the rows
at the same time, each under a read share of its own: the full share is halved thirty-one times, the transfer at
offset `k` holds the right half cut off at the `k`-th halving, and what is left after the last halving stays with the
device. The halves join back to the full share. -/

theorem st2_split (c : Dev nD) (f : Buf (Elt F) (st2.view.loc (c : Thread nD τ))) :
    (st2.view.loc (c : Thread nD τ) ↦[st2.view.set]{fullShare} f : sProp 𝕄)
      ⊢ iprop((st2.view.loc (c : Thread nD τ) ↦[st2.view.set]{Transfers.shareDrop fullShare 31} f : sProp 𝕄)
        ∗ (st2.view.loc (c : Thread nD τ) ↦[st2.view.set]{Transfers.shareTokN fullShare 0} f : sProp 𝕄)
        ∗ (st2.view.loc (c : Thread nD τ) ↦[st2.view.set]{Transfers.shareTokN fullShare 1} f : sProp 𝕄)
        ∗ (st2.view.loc (c : Thread nD τ) ↦[st2.view.set]{Transfers.shareTokN fullShare 2} f : sProp 𝕄)
        ∗ (st2.view.loc (c : Thread nD τ) ↦[st2.view.set]{Transfers.shareTokN fullShare 3} f : sProp 𝕄)
        ∗ (st2.view.loc (c : Thread nD τ) ↦[st2.view.set]{Transfers.shareTokN fullShare 4} f : sProp 𝕄)
        ∗ (st2.view.loc (c : Thread nD τ) ↦[st2.view.set]{Transfers.shareTokN fullShare 5} f : sProp 𝕄)
        ∗ (st2.view.loc (c : Thread nD τ) ↦[st2.view.set]{Transfers.shareTokN fullShare 6} f : sProp 𝕄)
        ∗ (st2.view.loc (c : Thread nD τ) ↦[st2.view.set]{Transfers.shareTokN fullShare 7} f : sProp 𝕄)
        ∗ (st2.view.loc (c : Thread nD τ) ↦[st2.view.set]{Transfers.shareTokN fullShare 8} f : sProp 𝕄)
        ∗ (st2.view.loc (c : Thread nD τ) ↦[st2.view.set]{Transfers.shareTokN fullShare 9} f : sProp 𝕄)
        ∗ (st2.view.loc (c : Thread nD τ) ↦[st2.view.set]{Transfers.shareTokN fullShare 10} f : sProp 𝕄)
        ∗ (st2.view.loc (c : Thread nD τ) ↦[st2.view.set]{Transfers.shareTokN fullShare 11} f : sProp 𝕄)
        ∗ (st2.view.loc (c : Thread nD τ) ↦[st2.view.set]{Transfers.shareTokN fullShare 12} f : sProp 𝕄)
        ∗ (st2.view.loc (c : Thread nD τ) ↦[st2.view.set]{Transfers.shareTokN fullShare 13} f : sProp 𝕄)
        ∗ (st2.view.loc (c : Thread nD τ) ↦[st2.view.set]{Transfers.shareTokN fullShare 14} f : sProp 𝕄)
        ∗ (st2.view.loc (c : Thread nD τ) ↦[st2.view.set]{Transfers.shareTokN fullShare 15} f : sProp 𝕄)
        ∗ (st2.view.loc (c : Thread nD τ) ↦[st2.view.set]{Transfers.shareTokN fullShare 16} f : sProp 𝕄)
        ∗ (st2.view.loc (c : Thread nD τ) ↦[st2.view.set]{Transfers.shareTokN fullShare 17} f : sProp 𝕄)
        ∗ (st2.view.loc (c : Thread nD τ) ↦[st2.view.set]{Transfers.shareTokN fullShare 18} f : sProp 𝕄)
        ∗ (st2.view.loc (c : Thread nD τ) ↦[st2.view.set]{Transfers.shareTokN fullShare 19} f : sProp 𝕄)
        ∗ (st2.view.loc (c : Thread nD τ) ↦[st2.view.set]{Transfers.shareTokN fullShare 20} f : sProp 𝕄)
        ∗ (st2.view.loc (c : Thread nD τ) ↦[st2.view.set]{Transfers.shareTokN fullShare 21} f : sProp 𝕄)
        ∗ (st2.view.loc (c : Thread nD τ) ↦[st2.view.set]{Transfers.shareTokN fullShare 22} f : sProp 𝕄)
        ∗ (st2.view.loc (c : Thread nD τ) ↦[st2.view.set]{Transfers.shareTokN fullShare 23} f : sProp 𝕄)
        ∗ (st2.view.loc (c : Thread nD τ) ↦[st2.view.set]{Transfers.shareTokN fullShare 24} f : sProp 𝕄)
        ∗ (st2.view.loc (c : Thread nD τ) ↦[st2.view.set]{Transfers.shareTokN fullShare 25} f : sProp 𝕄)
        ∗ (st2.view.loc (c : Thread nD τ) ↦[st2.view.set]{Transfers.shareTokN fullShare 26} f : sProp 𝕄)
        ∗ (st2.view.loc (c : Thread nD τ) ↦[st2.view.set]{Transfers.shareTokN fullShare 27} f : sProp 𝕄)
        ∗ (st2.view.loc (c : Thread nD τ) ↦[st2.view.set]{Transfers.shareTokN fullShare 28} f : sProp 𝕄)
        ∗ (st2.view.loc (c : Thread nD τ) ↦[st2.view.set]{Transfers.shareTokN fullShare 29} f : sProp 𝕄)
        ∗ (st2.view.loc (c : Thread nD τ) ↦[st2.view.set]{Transfers.shareTokN fullShare 30} f : sProp 𝕄)) :=
  (Transfers.pointsTo_toks_split (ℓ := st2.view.loc (c : Thread nD τ)) (Ix := Unit) (Name := ℕ) (U := UU) (Lvl := ℕ)
      (S := st2.view.set) (f := f) fullShare 31).trans
    (sep_mono_right (Entails.of_eq (bigSep_univ_eq_bigSepL [0, 1, 2, 3, 4, 5, 6, 7, 8, 9, 10, 11, 12, 13, 14, 15, 16, 17, 18, 19, 20, 21, 22, 23, 24, 25, 26, 27, 28, 29, 30] (by decide) (by decide) _)))

theorem st2_join (c : Dev nD) (f : Buf (Elt F) (st2.view.loc (c : Thread nD τ))) :
    iprop((st2.view.loc (c : Thread nD τ) ↦[st2.view.set]{Transfers.shareDrop fullShare 31} f : sProp 𝕄)
        ∗ (st2.view.loc (c : Thread nD τ) ↦[st2.view.set]{Transfers.shareTokN fullShare 0} f : sProp 𝕄)
        ∗ (st2.view.loc (c : Thread nD τ) ↦[st2.view.set]{Transfers.shareTokN fullShare 1} f : sProp 𝕄)
        ∗ (st2.view.loc (c : Thread nD τ) ↦[st2.view.set]{Transfers.shareTokN fullShare 2} f : sProp 𝕄)
        ∗ (st2.view.loc (c : Thread nD τ) ↦[st2.view.set]{Transfers.shareTokN fullShare 3} f : sProp 𝕄)
        ∗ (st2.view.loc (c : Thread nD τ) ↦[st2.view.set]{Transfers.shareTokN fullShare 4} f : sProp 𝕄)
        ∗ (st2.view.loc (c : Thread nD τ) ↦[st2.view.set]{Transfers.shareTokN fullShare 5} f : sProp 𝕄)
        ∗ (st2.view.loc (c : Thread nD τ) ↦[st2.view.set]{Transfers.shareTokN fullShare 6} f : sProp 𝕄)
        ∗ (st2.view.loc (c : Thread nD τ) ↦[st2.view.set]{Transfers.shareTokN fullShare 7} f : sProp 𝕄)
        ∗ (st2.view.loc (c : Thread nD τ) ↦[st2.view.set]{Transfers.shareTokN fullShare 8} f : sProp 𝕄)
        ∗ (st2.view.loc (c : Thread nD τ) ↦[st2.view.set]{Transfers.shareTokN fullShare 9} f : sProp 𝕄)
        ∗ (st2.view.loc (c : Thread nD τ) ↦[st2.view.set]{Transfers.shareTokN fullShare 10} f : sProp 𝕄)
        ∗ (st2.view.loc (c : Thread nD τ) ↦[st2.view.set]{Transfers.shareTokN fullShare 11} f : sProp 𝕄)
        ∗ (st2.view.loc (c : Thread nD τ) ↦[st2.view.set]{Transfers.shareTokN fullShare 12} f : sProp 𝕄)
        ∗ (st2.view.loc (c : Thread nD τ) ↦[st2.view.set]{Transfers.shareTokN fullShare 13} f : sProp 𝕄)
        ∗ (st2.view.loc (c : Thread nD τ) ↦[st2.view.set]{Transfers.shareTokN fullShare 14} f : sProp 𝕄)
        ∗ (st2.view.loc (c : Thread nD τ) ↦[st2.view.set]{Transfers.shareTokN fullShare 15} f : sProp 𝕄)
        ∗ (st2.view.loc (c : Thread nD τ) ↦[st2.view.set]{Transfers.shareTokN fullShare 16} f : sProp 𝕄)
        ∗ (st2.view.loc (c : Thread nD τ) ↦[st2.view.set]{Transfers.shareTokN fullShare 17} f : sProp 𝕄)
        ∗ (st2.view.loc (c : Thread nD τ) ↦[st2.view.set]{Transfers.shareTokN fullShare 18} f : sProp 𝕄)
        ∗ (st2.view.loc (c : Thread nD τ) ↦[st2.view.set]{Transfers.shareTokN fullShare 19} f : sProp 𝕄)
        ∗ (st2.view.loc (c : Thread nD τ) ↦[st2.view.set]{Transfers.shareTokN fullShare 20} f : sProp 𝕄)
        ∗ (st2.view.loc (c : Thread nD τ) ↦[st2.view.set]{Transfers.shareTokN fullShare 21} f : sProp 𝕄)
        ∗ (st2.view.loc (c : Thread nD τ) ↦[st2.view.set]{Transfers.shareTokN fullShare 22} f : sProp 𝕄)
        ∗ (st2.view.loc (c : Thread nD τ) ↦[st2.view.set]{Transfers.shareTokN fullShare 23} f : sProp 𝕄)
        ∗ (st2.view.loc (c : Thread nD τ) ↦[st2.view.set]{Transfers.shareTokN fullShare 24} f : sProp 𝕄)
        ∗ (st2.view.loc (c : Thread nD τ) ↦[st2.view.set]{Transfers.shareTokN fullShare 25} f : sProp 𝕄)
        ∗ (st2.view.loc (c : Thread nD τ) ↦[st2.view.set]{Transfers.shareTokN fullShare 26} f : sProp 𝕄)
        ∗ (st2.view.loc (c : Thread nD τ) ↦[st2.view.set]{Transfers.shareTokN fullShare 27} f : sProp 𝕄)
        ∗ (st2.view.loc (c : Thread nD τ) ↦[st2.view.set]{Transfers.shareTokN fullShare 28} f : sProp 𝕄)
        ∗ (st2.view.loc (c : Thread nD τ) ↦[st2.view.set]{Transfers.shareTokN fullShare 29} f : sProp 𝕄)
        ∗ (st2.view.loc (c : Thread nD τ) ↦[st2.view.set]{Transfers.shareTokN fullShare 30} f : sProp 𝕄))
      ⊢ (st2.view.loc (c : Thread nD τ) ↦[st2.view.set]{fullShare} f : sProp 𝕄) :=
  (sep_mono_right (Entails.of_eq (bigSep_univ_eq_bigSepL [0, 1, 2, 3, 4, 5, 6, 7, 8, 9, 10, 11, 12, 13, 14, 15, 16, 17, 18, 19, 20, 21, 22, 23, 24, 25, 26, 27, 28, 29, 30] (by decide) (by decide) _).symm)).trans
    (Transfers.pointsTo_toks_join (ℓ := st2.view.loc (c : Thread nD τ)) (Ix := Unit) (Name := ℕ) (U := UU) (Lvl := ℕ)
      (S := st2.view.set) (f := f) fullShare 31)

end Cert.KernelProto

end
-- ==== Proof.KernelCutsRows.lean ====
import proofs.«900784_g7700000000000785_dist_f_of_ar_i_m512_n256_v7x_i32_bf16_1_alg».proof.Proof.KernelCuts

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The narrowed block as its thirty-two blocks of sixteen rows

The narrowed block has 512 rows; rows `[16·b, 16·b + 16)` are its row block `b`. The device keeps its own row block
`c` and lends, at offset `k = 1 … 31`, the row block of the device `k` places after it, `(c + k) mod 32`: the program
computes that block's first row from the device's number, and the computation's value is `16 · ((c + k) mod 32)`.
As `k` runs over `0 … 31` the blocks `(c + k) mod 32` are all thirty-two, each once, so the own block and the
thirty-one lent ones are pairwise disjoint and cover the buffer. -/

theorem row_inb (b : Fin 32) : ∀ a, (![16 * b.val, 0] : Fin 2 → Nat) a + S16x256.size a ≤ S512x256.size a := by
  intro a; have := b.isLt; fin_cases a <;> simp [Shape.size] <;> omega

/-- Row block `b`'s rectangle. -/
abbrev rowR (b : Fin 32) : Rect S512x256 := Rect.unit (s := S512x256) ![16 * b.val, 0] S16x256.size (row_inb b)

theorem rowR_disjoint (b b' : Fin 32) (h : b ≠ b') : Disjoint (rowR b).set (rowR b').set :=
  Ring.lead_disjoint (s := S512x256) (NB := 32) 0 16 (fun b : Fin 32 => ![16 * b.val, 0]) S16x256.size row_inb
    (fun _ => rfl) rfl b b' h

theorem rowR_cover : Finset.univ.biUnion (fun b : Fin 32 => (rowR b).set) = Finset.univ :=
  Ring.lead_cover (s := S512x256) (NB := 32) 0 16 (fun b : Fin 32 => ![16 * b.val, 0]) S16x256.size row_inb
    (fun _ => rfl)
    (fun b a ha => by fin_cases a <;> first | exact absurd rfl ha | rfl) rfl
    (fun a ha => by fin_cases a <;> first | exact absurd rfl ha | rfl) (by decide)

/-- The row block of the device `k` places after `c`. -/
def ringB (c : Dev nD) (k : Fin 32) : Fin 32 := ⟨(c.val + k.val) % 32, Nat.mod_lt _ (by decide)⟩

theorem ringB_val (c : Dev nD) (k : Fin 32) : (ringB c k).val = (c.val + k.val) % 32 := rfl

theorem ringB_injective (c : Dev nD) : Function.Injective (ringB c) := by
  intro k k' h
  have h1 := congrArg Fin.val h
  simp only [ringB_val] at h1
  apply Fin.ext; have hc : c.val < 32 := c.isLt; have := k.isLt; have := k'.isLt; omega

theorem ringB_surjective (c : Dev nD) : Function.Surjective (ringB c) := by
  intro b
  refine ⟨⟨(b.val + 32 - c.val) % 32, Nat.mod_lt _ (by decide)⟩, ?_⟩
  apply Fin.ext; have hc : c.val < 32 := c.isLt; have := b.isLt; simp only [ringB_val]; omega

/-- The first row of the block lent at offset `1 + r`, as the program computes it from the device's number, and the
    column offset: checked case by case over the thirty-two devices and thirty-one offsets. -/
theorem off1_closed : ∀ d0 : Dev nD, ∀ r : Fin 31,
    k0_off1 d0 (BitVec.ofNat 32 (1 + r.val)) 0 = 16 * ((d0.val + (1 + r.val)) % 32)
      ∧ k0_off1 d0 (BitVec.ofNat 32 (1 + r.val)) 1 = 0 := by decide +kernel

theorem off1_eq (c : Dev nD) (k : ℕ) (hk : 1 ≤ k ∧ k ≤ 31) :
    k0_off1 c (BitVec.ofNat 32 k) = ![16 * ((c.val + k) % 32), 0] := by
  have h := off1_closed c ⟨k - 1, by omega⟩
  have e : 1 + (k - 1) = k := by omega
  simp only [e] at h
  funext a
  fin_cases a
  · exact h.1
  · exact h.2

/-- Slices through unit rectangles of the same sizes at equal offsets have the same elements. -/
theorem sliceSet_unit_congr {sp : Space} {s : Shape} {e : EltTy} (M : Memref sig .tc sp s e) {off off' size : Fin s.rank → Nat}
    (h : off = off') (p : ∀ a, off a + size a ≤ s.size a) (p' : ∀ a, off' a + size a ≤ s.size a) :
    sliceSet M (Rect.unit off size p) = sliceSet M (Rect.unit off' size p') := by
  subst h; rfl

/-- The device's own row block, as a memref. -/
abbrev ownM1 (c : Dev nD) : Memref sig .tc .vmem S16x256 .bf16 :=
  st1.slice (rowR ⟨c.val, c.isLt⟩) (fun _ => rfl)

/-- The own row block's elements, and those of the block lent at offset `k`, among the narrowed block's. -/
abbrev ownSet (c : Dev nD) : Finset (Idx (st1.view.loc (c : Thread nD τ))) := (ownM1 c).view.set
abbrev srcSet (c : Dev nD) (k : ℕ) (hk : 1 ≤ k ∧ k ≤ 31) : Finset (Idx (st1.view.loc (c : Thread nD τ))) :=
  (srcM1 c k hk).view.set

/-- The piece of the narrowed block at offset `k`: row block `(c + k) mod 32`. -/
def piece1 (c : Dev nD) (k : Fin 32) : Finset (Idx (st1.view.loc (c : Thread nD τ))) := sliceSet st1 (rowR (ringB c k))

/-- At offset 0 it is the device's own row block; -/
theorem own1_set (c : Dev nD) (h0 : 0 < 32) : piece1 c ⟨0, h0⟩ = ownSet c := by
  have hc : (c.val + 0) % 32 = c.val := by have : c.val < 32 := c.isLt; omega
  refine sliceSet_unit_congr st1 ?_ _ _
  show (![16 * ((c.val + 0) % 32), 0] : Fin 2 → Nat) = ![16 * c.val, 0]
  rw [hc]

/-- at offset `k = 1 … 31` the block the program lends there. -/
theorem src1_set (c : Dev nD) (k : ℕ) (hk : 1 ≤ k ∧ k ≤ 31) (hlt : k < 32) : piece1 c ⟨k, hlt⟩ = srcSet c k hk :=
  (sliceSet_unit_congr st1 (off1_eq c k hk) _ _).symm

theorem piece1_disjoint (c : Dev nD) (k k' : Fin 32) (h : k ≠ k') : Disjoint (piece1 c k) (piece1 c k') :=
  slices_disjoint st1 rowR rowR_disjoint _ _ (fun e => h (ringB_injective c e))

theorem piece1_cover (c : Dev nD) : Finset.univ.biUnion (piece1 c) = Finset.univ := by
  ext i
  simp only [Finset.mem_biUnion, Finset.mem_univ, true_and, iff_true]
  have hi : i ∈ Finset.univ.biUnion (fun b => sliceSet st1 (rowR b)) :=
    (slices_cover st1 (Memref.isWhole_whole _) rowR rowR_cover) ▸ Finset.mem_univ i
  obtain ⟨b, -, hb⟩ := Finset.mem_biUnion.mp hi
  obtain ⟨k, rfl⟩ := ringB_surjective c b
  exact ⟨k, hb⟩

/-- The offsets `0 … 31`, listed. -/
abbrev offs32 : List (Fin 32) := [⟨0, ho_0⟩, ⟨1, ho_1⟩, ⟨2, ho_2⟩, ⟨3, ho_3⟩, ⟨4, ho_4⟩, ⟨5, ho_5⟩, ⟨6, ho_6⟩, ⟨7, ho_7⟩, ⟨8, ho_8⟩, ⟨9, ho_9⟩, ⟨10, ho_10⟩, ⟨11, ho_11⟩, ⟨12, ho_12⟩, ⟨13, ho_13⟩, ⟨14, ho_14⟩, ⟨15, ho_15⟩, ⟨16, ho_16⟩, ⟨17, ho_17⟩, ⟨18, ho_18⟩, ⟨19, ho_19⟩, ⟨20, ho_20⟩, ⟨21, ho_21⟩, ⟨22, ho_22⟩, ⟨23, ho_23⟩, ⟨24, ho_24⟩, ⟨25, ho_25⟩, ⟨26, ho_26⟩, ⟨27, ho_27⟩, ⟨28, ho_28⟩, ⟨29, ho_29⟩, ⟨30, ho_30⟩, ⟨31, ho_31⟩]
theorem offs32_univ : (Finset.univ : Finset (Fin 32)) = offs32.toFinset := by decide
theorem offs32_nodup : offs32.Nodup := by decide

/-- The narrowed block at `f` is its thirty-two pieces at `f`, as an equation. -/
theorem st1_split_eq (c : Dev nD) (f : Buf (Elt F) (st1.view.loc (c : Thread nD τ))) :
    (st1.view.loc (c : Thread nD τ) ↦{fullShare} f : sProp 𝕄)
      = bigSep Finset.univ fun k : Fin 32 => (st1.view.loc (c : Thread nD τ) ↦[piece1 c k]{fullShare} f : sProp 𝕄) :=
  Ring.pointsTo_blocks (ℓ := st1.view.loc (c : Thread nD τ)) (Ix := Unit) (Name := ℕ) (U := UU) (Lvl := ℕ)
    (piece1 c) (piece1_disjoint c) (piece1_cover c) f

/-- Equal conjuncts give equal separating conjunctions. -/
theorem sep_congr {P P' Q Q' : sProp 𝕄} (h1 : P = P') (h2 : Q = Q') : iprop(P ∗ Q) = iprop(P' ∗ Q') := by rw [h1, h2]

theorem own1_pt (c : Dev nD) (f : Buf (Elt F) (st1.view.loc (c : Thread nD τ))) (h0 : 0 < 32) :
    (st1.view.loc (c : Thread nD τ) ↦[piece1 c ⟨0, h0⟩]{fullShare} f : sProp 𝕄)
      = ((ownM1 c).view.loc (c : Thread nD τ) ↦[(ownM1 c).view.set]{fullShare} f : sProp 𝕄) := by
  rw [own1_set c h0]

theorem src1_pt (c : Dev nD) (f : Buf (Elt F) (st1.view.loc (c : Thread nD τ))) (k : ℕ) (hk : 1 ≤ k ∧ k ≤ 31) (hlt : k < 32) :
    (st1.view.loc (c : Thread nD τ) ↦[piece1 c ⟨k, hlt⟩]{fullShare} f : sProp 𝕄)
      = ((srcM1 c k hk).view.loc (c : Thread nD τ) ↦[(srcM1 c k hk).view.set]{fullShare} f : sProp 𝕄) := by
  rw [src1_set c k hk hlt]

theorem own1_ex (c : Dev nD) (h0 : 0 < 32) :
    iprop(∃ g, (st1.view.loc (c : Thread nD τ) ↦[piece1 c ⟨0, h0⟩]{fullShare} g : sProp 𝕄))
      = iprop(∃ g, ((ownM1 c).view.loc (c : Thread nD τ) ↦[(ownM1 c).view.set]{fullShare} g : sProp 𝕄)) := by
  rw [own1_set c h0]

theorem src1_ex (c : Dev nD) (k : ℕ) (hk : 1 ≤ k ∧ k ≤ 31) (hlt : k < 32) :
    iprop(∃ g, (st1.view.loc (c : Thread nD τ) ↦[piece1 c ⟨k, hlt⟩]{fullShare} g : sProp 𝕄))
      = iprop(∃ g, ((srcM1 c k hk).view.loc (c : Thread nD τ) ↦[(srcM1 c k hk).view.set]{fullShare} g : sProp 𝕄)) := by
  rw [src1_set c k hk hlt]

/-- The pieces written out are the own row block and the thirty-one blocks lent, offset 1 first. -/
theorem st1_chain_eq (c : Dev nD) (f : Buf (Elt F) (st1.view.loc (c : Thread nD τ))) :
    bigSepL offs32 (fun k : Fin 32 => (st1.view.loc (c : Thread nD τ) ↦[piece1 c k]{fullShare} f : sProp 𝕄))
      = iprop(((ownM1 c).view.loc (c : Thread nD τ) ↦[(ownM1 c).view.set]{fullShare} f : sProp 𝕄)
        ∗ ((srcM1 c 1 hk_1).view.loc (c : Thread nD τ) ↦[(srcM1 c 1 hk_1).view.set]{fullShare} f : sProp 𝕄)
        ∗ ((srcM1 c 2 hk_2).view.loc (c : Thread nD τ) ↦[(srcM1 c 2 hk_2).view.set]{fullShare} f : sProp 𝕄)
        ∗ ((srcM1 c 3 hk_3).view.loc (c : Thread nD τ) ↦[(srcM1 c 3 hk_3).view.set]{fullShare} f : sProp 𝕄)
        ∗ ((srcM1 c 4 hk_4).view.loc (c : Thread nD τ) ↦[(srcM1 c 4 hk_4).view.set]{fullShare} f : sProp 𝕄)
        ∗ ((srcM1 c 5 hk_5).view.loc (c : Thread nD τ) ↦[(srcM1 c 5 hk_5).view.set]{fullShare} f : sProp 𝕄)
        ∗ ((srcM1 c 6 hk_6).view.loc (c : Thread nD τ) ↦[(srcM1 c 6 hk_6).view.set]{fullShare} f : sProp 𝕄)
        ∗ ((srcM1 c 7 hk_7).view.loc (c : Thread nD τ) ↦[(srcM1 c 7 hk_7).view.set]{fullShare} f : sProp 𝕄)
        ∗ ((srcM1 c 8 hk_8).view.loc (c : Thread nD τ) ↦[(srcM1 c 8 hk_8).view.set]{fullShare} f : sProp 𝕄)
        ∗ ((srcM1 c 9 hk_9).view.loc (c : Thread nD τ) ↦[(srcM1 c 9 hk_9).view.set]{fullShare} f : sProp 𝕄)
        ∗ ((srcM1 c 10 hk_10).view.loc (c : Thread nD τ) ↦[(srcM1 c 10 hk_10).view.set]{fullShare} f : sProp 𝕄)
        ∗ ((srcM1 c 11 hk_11).view.loc (c : Thread nD τ) ↦[(srcM1 c 11 hk_11).view.set]{fullShare} f : sProp 𝕄)
        ∗ ((srcM1 c 12 hk_12).view.loc (c : Thread nD τ) ↦[(srcM1 c 12 hk_12).view.set]{fullShare} f : sProp 𝕄)
        ∗ ((srcM1 c 13 hk_13).view.loc (c : Thread nD τ) ↦[(srcM1 c 13 hk_13).view.set]{fullShare} f : sProp 𝕄)
        ∗ ((srcM1 c 14 hk_14).view.loc (c : Thread nD τ) ↦[(srcM1 c 14 hk_14).view.set]{fullShare} f : sProp 𝕄)
        ∗ ((srcM1 c 15 hk_15).view.loc (c : Thread nD τ) ↦[(srcM1 c 15 hk_15).view.set]{fullShare} f : sProp 𝕄)
        ∗ ((srcM1 c 16 hk_16).view.loc (c : Thread nD τ) ↦[(srcM1 c 16 hk_16).view.set]{fullShare} f : sProp 𝕄)
        ∗ ((srcM1 c 17 hk_17).view.loc (c : Thread nD τ) ↦[(srcM1 c 17 hk_17).view.set]{fullShare} f : sProp 𝕄)
        ∗ ((srcM1 c 18 hk_18).view.loc (c : Thread nD τ) ↦[(srcM1 c 18 hk_18).view.set]{fullShare} f : sProp 𝕄)
        ∗ ((srcM1 c 19 hk_19).view.loc (c : Thread nD τ) ↦[(srcM1 c 19 hk_19).view.set]{fullShare} f : sProp 𝕄)
        ∗ ((srcM1 c 20 hk_20).view.loc (c : Thread nD τ) ↦[(srcM1 c 20 hk_20).view.set]{fullShare} f : sProp 𝕄)
        ∗ ((srcM1 c 21 hk_21).view.loc (c : Thread nD τ) ↦[(srcM1 c 21 hk_21).view.set]{fullShare} f : sProp 𝕄)
        ∗ ((srcM1 c 22 hk_22).view.loc (c : Thread nD τ) ↦[(srcM1 c 22 hk_22).view.set]{fullShare} f : sProp 𝕄)
        ∗ ((srcM1 c 23 hk_23).view.loc (c : Thread nD τ) ↦[(srcM1 c 23 hk_23).view.set]{fullShare} f : sProp 𝕄)
        ∗ ((srcM1 c 24 hk_24).view.loc (c : Thread nD τ) ↦[(srcM1 c 24 hk_24).view.set]{fullShare} f : sProp 𝕄)
        ∗ ((srcM1 c 25 hk_25).view.loc (c : Thread nD τ) ↦[(srcM1 c 25 hk_25).view.set]{fullShare} f : sProp 𝕄)
        ∗ ((srcM1 c 26 hk_26).view.loc (c : Thread nD τ) ↦[(srcM1 c 26 hk_26).view.set]{fullShare} f : sProp 𝕄)
        ∗ ((srcM1 c 27 hk_27).view.loc (c : Thread nD τ) ↦[(srcM1 c 27 hk_27).view.set]{fullShare} f : sProp 𝕄)
        ∗ ((srcM1 c 28 hk_28).view.loc (c : Thread nD τ) ↦[(srcM1 c 28 hk_28).view.set]{fullShare} f : sProp 𝕄)
        ∗ ((srcM1 c 29 hk_29).view.loc (c : Thread nD τ) ↦[(srcM1 c 29 hk_29).view.set]{fullShare} f : sProp 𝕄)
        ∗ ((srcM1 c 30 hk_30).view.loc (c : Thread nD τ) ↦[(srcM1 c 30 hk_30).view.set]{fullShare} f : sProp 𝕄)
        ∗ ((srcM1 c 31 hk_31).view.loc (c : Thread nD τ) ↦[(srcM1 c 31 hk_31).view.set]{fullShare} f : sProp 𝕄)) :=
  sep_congr (own1_pt c f ho_0) (sep_congr (src1_pt c f 1 hk_1 ho_1) (sep_congr (src1_pt c f 2 hk_2 ho_2) (sep_congr (src1_pt c f 3 hk_3 ho_3) (sep_congr (src1_pt c f 4 hk_4 ho_4) (sep_congr (src1_pt c f 5 hk_5 ho_5) (sep_congr (src1_pt c f 6 hk_6 ho_6) (sep_congr (src1_pt c f 7 hk_7 ho_7) (sep_congr (src1_pt c f 8 hk_8 ho_8) (sep_congr (src1_pt c f 9 hk_9 ho_9) (sep_congr (src1_pt c f 10 hk_10 ho_10) (sep_congr (src1_pt c f 11 hk_11 ho_11) (sep_congr (src1_pt c f 12 hk_12 ho_12) (sep_congr (src1_pt c f 13 hk_13 ho_13) (sep_congr (src1_pt c f 14 hk_14 ho_14) (sep_congr (src1_pt c f 15 hk_15 ho_15) (sep_congr (src1_pt c f 16 hk_16 ho_16) (sep_congr (src1_pt c f 17 hk_17 ho_17) (sep_congr (src1_pt c f 18 hk_18 ho_18) (sep_congr (src1_pt c f 19 hk_19 ho_19) (sep_congr (src1_pt c f 20 hk_20 ho_20) (sep_congr (src1_pt c f 21 hk_21 ho_21) (sep_congr (src1_pt c f 22 hk_22 ho_22) (sep_congr (src1_pt c f 23 hk_23 ho_23) (sep_congr (src1_pt c f 24 hk_24 ho_24) (sep_congr (src1_pt c f 25 hk_25 ho_25) (sep_congr (src1_pt c f 26 hk_26 ho_26) (sep_congr (src1_pt c f 27 hk_27 ho_27) (sep_congr (src1_pt c f 28 hk_28 ho_28) (sep_congr (src1_pt c f 29 hk_29 ho_29) (sep_congr (src1_pt c f 30 hk_30 ho_30) (src1_pt c f 31 hk_31 ho_31)))))))))))))))))))))))))))))))

/-- The same with each piece at some contents. -/
theorem st1_chain_ex_eq (c : Dev nD) :
    bigSepL offs32 (fun k : Fin 32 => iprop(∃ g, (st1.view.loc (c : Thread nD τ) ↦[piece1 c k]{fullShare} g : sProp 𝕄)))
      = iprop((∃ g, ((ownM1 c).view.loc (c : Thread nD τ) ↦[(ownM1 c).view.set]{fullShare} g : sProp 𝕄))
        ∗ (∃ g, ((srcM1 c 1 hk_1).view.loc (c : Thread nD τ) ↦[(srcM1 c 1 hk_1).view.set]{fullShare} g : sProp 𝕄))
        ∗ (∃ g, ((srcM1 c 2 hk_2).view.loc (c : Thread nD τ) ↦[(srcM1 c 2 hk_2).view.set]{fullShare} g : sProp 𝕄))
        ∗ (∃ g, ((srcM1 c 3 hk_3).view.loc (c : Thread nD τ) ↦[(srcM1 c 3 hk_3).view.set]{fullShare} g : sProp 𝕄))
        ∗ (∃ g, ((srcM1 c 4 hk_4).view.loc (c : Thread nD τ) ↦[(srcM1 c 4 hk_4).view.set]{fullShare} g : sProp 𝕄))
        ∗ (∃ g, ((srcM1 c 5 hk_5).view.loc (c : Thread nD τ) ↦[(srcM1 c 5 hk_5).view.set]{fullShare} g : sProp 𝕄))
        ∗ (∃ g, ((srcM1 c 6 hk_6).view.loc (c : Thread nD τ) ↦[(srcM1 c 6 hk_6).view.set]{fullShare} g : sProp 𝕄))
        ∗ (∃ g, ((srcM1 c 7 hk_7).view.loc (c : Thread nD τ) ↦[(srcM1 c 7 hk_7).view.set]{fullShare} g : sProp 𝕄))
        ∗ (∃ g, ((srcM1 c 8 hk_8).view.loc (c : Thread nD τ) ↦[(srcM1 c 8 hk_8).view.set]{fullShare} g : sProp 𝕄))
        ∗ (∃ g, ((srcM1 c 9 hk_9).view.loc (c : Thread nD τ) ↦[(srcM1 c 9 hk_9).view.set]{fullShare} g : sProp 𝕄))
        ∗ (∃ g, ((srcM1 c 10 hk_10).view.loc (c : Thread nD τ) ↦[(srcM1 c 10 hk_10).view.set]{fullShare} g : sProp 𝕄))
        ∗ (∃ g, ((srcM1 c 11 hk_11).view.loc (c : Thread nD τ) ↦[(srcM1 c 11 hk_11).view.set]{fullShare} g : sProp 𝕄))
        ∗ (∃ g, ((srcM1 c 12 hk_12).view.loc (c : Thread nD τ) ↦[(srcM1 c 12 hk_12).view.set]{fullShare} g : sProp 𝕄))
        ∗ (∃ g, ((srcM1 c 13 hk_13).view.loc (c : Thread nD τ) ↦[(srcM1 c 13 hk_13).view.set]{fullShare} g : sProp 𝕄))
        ∗ (∃ g, ((srcM1 c 14 hk_14).view.loc (c : Thread nD τ) ↦[(srcM1 c 14 hk_14).view.set]{fullShare} g : sProp 𝕄))
        ∗ (∃ g, ((srcM1 c 15 hk_15).view.loc (c : Thread nD τ) ↦[(srcM1 c 15 hk_15).view.set]{fullShare} g : sProp 𝕄))
        ∗ (∃ g, ((srcM1 c 16 hk_16).view.loc (c : Thread nD τ) ↦[(srcM1 c 16 hk_16).view.set]{fullShare} g : sProp 𝕄))
        ∗ (∃ g, ((srcM1 c 17 hk_17).view.loc (c : Thread nD τ) ↦[(srcM1 c 17 hk_17).view.set]{fullShare} g : sProp 𝕄))
        ∗ (∃ g, ((srcM1 c 18 hk_18).view.loc (c : Thread nD τ) ↦[(srcM1 c 18 hk_18).view.set]{fullShare} g : sProp 𝕄))
        ∗ (∃ g, ((srcM1 c 19 hk_19).view.loc (c : Thread nD τ) ↦[(srcM1 c 19 hk_19).view.set]{fullShare} g : sProp 𝕄))
        ∗ (∃ g, ((srcM1 c 20 hk_20).view.loc (c : Thread nD τ) ↦[(srcM1 c 20 hk_20).view.set]{fullShare} g : sProp 𝕄))
        ∗ (∃ g, ((srcM1 c 21 hk_21).view.loc (c : Thread nD τ) ↦[(srcM1 c 21 hk_21).view.set]{fullShare} g : sProp 𝕄))
        ∗ (∃ g, ((srcM1 c 22 hk_22).view.loc (c : Thread nD τ) ↦[(srcM1 c 22 hk_22).view.set]{fullShare} g : sProp 𝕄))
        ∗ (∃ g, ((srcM1 c 23 hk_23).view.loc (c : Thread nD τ) ↦[(srcM1 c 23 hk_23).view.set]{fullShare} g : sProp 𝕄))
        ∗ (∃ g, ((srcM1 c 24 hk_24).view.loc (c : Thread nD τ) ↦[(srcM1 c 24 hk_24).view.set]{fullShare} g : sProp 𝕄))
        ∗ (∃ g, ((srcM1 c 25 hk_25).view.loc (c : Thread nD τ) ↦[(srcM1 c 25 hk_25).view.set]{fullShare} g : sProp 𝕄))
        ∗ (∃ g, ((srcM1 c 26 hk_26).view.loc (c : Thread nD τ) ↦[(srcM1 c 26 hk_26).view.set]{fullShare} g : sProp 𝕄))
        ∗ (∃ g, ((srcM1 c 27 hk_27).view.loc (c : Thread nD τ) ↦[(srcM1 c 27 hk_27).view.set]{fullShare} g : sProp 𝕄))
        ∗ (∃ g, ((srcM1 c 28 hk_28).view.loc (c : Thread nD τ) ↦[(srcM1 c 28 hk_28).view.set]{fullShare} g : sProp 𝕄))
        ∗ (∃ g, ((srcM1 c 29 hk_29).view.loc (c : Thread nD τ) ↦[(srcM1 c 29 hk_29).view.set]{fullShare} g : sProp 𝕄))
        ∗ (∃ g, ((srcM1 c 30 hk_30).view.loc (c : Thread nD τ) ↦[(srcM1 c 30 hk_30).view.set]{fullShare} g : sProp 𝕄))
        ∗ (∃ g, ((srcM1 c 31 hk_31).view.loc (c : Thread nD τ) ↦[(srcM1 c 31 hk_31).view.set]{fullShare} g : sProp 𝕄))) :=
  sep_congr (own1_ex (F := F) c ho_0) (sep_congr (src1_ex (F := F) c 1 hk_1 ho_1) (sep_congr (src1_ex (F := F) c 2 hk_2 ho_2) (sep_congr (src1_ex (F := F) c 3 hk_3 ho_3) (sep_congr (src1_ex (F := F) c 4 hk_4 ho_4) (sep_congr (src1_ex (F := F) c 5 hk_5 ho_5) (sep_congr (src1_ex (F := F) c 6 hk_6 ho_6) (sep_congr (src1_ex (F := F) c 7 hk_7 ho_7) (sep_congr (src1_ex (F := F) c 8 hk_8 ho_8) (sep_congr (src1_ex (F := F) c 9 hk_9 ho_9) (sep_congr (src1_ex (F := F) c 10 hk_10 ho_10) (sep_congr (src1_ex (F := F) c 11 hk_11 ho_11) (sep_congr (src1_ex (F := F) c 12 hk_12 ho_12) (sep_congr (src1_ex (F := F) c 13 hk_13 ho_13) (sep_congr (src1_ex (F := F) c 14 hk_14 ho_14) (sep_congr (src1_ex (F := F) c 15 hk_15 ho_15) (sep_congr (src1_ex (F := F) c 16 hk_16 ho_16) (sep_congr (src1_ex (F := F) c 17 hk_17 ho_17) (sep_congr (src1_ex (F := F) c 18 hk_18 ho_18) (sep_congr (src1_ex (F := F) c 19 hk_19 ho_19) (sep_congr (src1_ex (F := F) c 20 hk_20 ho_20) (sep_congr (src1_ex (F := F) c 21 hk_21 ho_21) (sep_congr (src1_ex (F := F) c 22 hk_22 ho_22) (sep_congr (src1_ex (F := F) c 23 hk_23 ho_23) (sep_congr (src1_ex (F := F) c 24 hk_24 ho_24) (sep_congr (src1_ex (F := F) c 25 hk_25 ho_25) (sep_congr (src1_ex (F := F) c 26 hk_26 ho_26) (sep_congr (src1_ex (F := F) c 27 hk_27 ho_27) (sep_congr (src1_ex (F := F) c 28 hk_28 ho_28) (sep_congr (src1_ex (F := F) c 29 hk_29 ho_29) (sep_congr (src1_ex (F := F) c 30 hk_30 ho_30) (src1_ex (F := F) c 31 hk_31 ho_31)))))))))))))))))))))))))))))))

/-- The narrowed block held whole is the own row block and the thirty-one blocks lent, offset 1 first. -/
theorem st1_split (c : Dev nD) (f : Buf (Elt F) (st1.view.loc (c : Thread nD τ))) :
    (st1.view.loc (c : Thread nD τ) ↦{fullShare} f : sProp 𝕄)
      ⊢ iprop(((ownM1 c).view.loc (c : Thread nD τ) ↦[(ownM1 c).view.set]{fullShare} f : sProp 𝕄)
        ∗ ((srcM1 c 1 hk_1).view.loc (c : Thread nD τ) ↦[(srcM1 c 1 hk_1).view.set]{fullShare} f : sProp 𝕄)
        ∗ ((srcM1 c 2 hk_2).view.loc (c : Thread nD τ) ↦[(srcM1 c 2 hk_2).view.set]{fullShare} f : sProp 𝕄)
        ∗ ((srcM1 c 3 hk_3).view.loc (c : Thread nD τ) ↦[(srcM1 c 3 hk_3).view.set]{fullShare} f : sProp 𝕄)
        ∗ ((srcM1 c 4 hk_4).view.loc (c : Thread nD τ) ↦[(srcM1 c 4 hk_4).view.set]{fullShare} f : sProp 𝕄)
        ∗ ((srcM1 c 5 hk_5).view.loc (c : Thread nD τ) ↦[(srcM1 c 5 hk_5).view.set]{fullShare} f : sProp 𝕄)
        ∗ ((srcM1 c 6 hk_6).view.loc (c : Thread nD τ) ↦[(srcM1 c 6 hk_6).view.set]{fullShare} f : sProp 𝕄)
        ∗ ((srcM1 c 7 hk_7).view.loc (c : Thread nD τ) ↦[(srcM1 c 7 hk_7).view.set]{fullShare} f : sProp 𝕄)
        ∗ ((srcM1 c 8 hk_8).view.loc (c : Thread nD τ) ↦[(srcM1 c 8 hk_8).view.set]{fullShare} f : sProp 𝕄)
        ∗ ((srcM1 c 9 hk_9).view.loc (c : Thread nD τ) ↦[(srcM1 c 9 hk_9).view.set]{fullShare} f : sProp 𝕄)
        ∗ ((srcM1 c 10 hk_10).view.loc (c : Thread nD τ) ↦[(srcM1 c 10 hk_10).view.set]{fullShare} f : sProp 𝕄)
        ∗ ((srcM1 c 11 hk_11).view.loc (c : Thread nD τ) ↦[(srcM1 c 11 hk_11).view.set]{fullShare} f : sProp 𝕄)
        ∗ ((srcM1 c 12 hk_12).view.loc (c : Thread nD τ) ↦[(srcM1 c 12 hk_12).view.set]{fullShare} f : sProp 𝕄)
        ∗ ((srcM1 c 13 hk_13).view.loc (c : Thread nD τ) ↦[(srcM1 c 13 hk_13).view.set]{fullShare} f : sProp 𝕄)
        ∗ ((srcM1 c 14 hk_14).view.loc (c : Thread nD τ) ↦[(srcM1 c 14 hk_14).view.set]{fullShare} f : sProp 𝕄)
        ∗ ((srcM1 c 15 hk_15).view.loc (c : Thread nD τ) ↦[(srcM1 c 15 hk_15).view.set]{fullShare} f : sProp 𝕄)
        ∗ ((srcM1 c 16 hk_16).view.loc (c : Thread nD τ) ↦[(srcM1 c 16 hk_16).view.set]{fullShare} f : sProp 𝕄)
        ∗ ((srcM1 c 17 hk_17).view.loc (c : Thread nD τ) ↦[(srcM1 c 17 hk_17).view.set]{fullShare} f : sProp 𝕄)
        ∗ ((srcM1 c 18 hk_18).view.loc (c : Thread nD τ) ↦[(srcM1 c 18 hk_18).view.set]{fullShare} f : sProp 𝕄)
        ∗ ((srcM1 c 19 hk_19).view.loc (c : Thread nD τ) ↦[(srcM1 c 19 hk_19).view.set]{fullShare} f : sProp 𝕄)
        ∗ ((srcM1 c 20 hk_20).view.loc (c : Thread nD τ) ↦[(srcM1 c 20 hk_20).view.set]{fullShare} f : sProp 𝕄)
        ∗ ((srcM1 c 21 hk_21).view.loc (c : Thread nD τ) ↦[(srcM1 c 21 hk_21).view.set]{fullShare} f : sProp 𝕄)
        ∗ ((srcM1 c 22 hk_22).view.loc (c : Thread nD τ) ↦[(srcM1 c 22 hk_22).view.set]{fullShare} f : sProp 𝕄)
        ∗ ((srcM1 c 23 hk_23).view.loc (c : Thread nD τ) ↦[(srcM1 c 23 hk_23).view.set]{fullShare} f : sProp 𝕄)
        ∗ ((srcM1 c 24 hk_24).view.loc (c : Thread nD τ) ↦[(srcM1 c 24 hk_24).view.set]{fullShare} f : sProp 𝕄)
        ∗ ((srcM1 c 25 hk_25).view.loc (c : Thread nD τ) ↦[(srcM1 c 25 hk_25).view.set]{fullShare} f : sProp 𝕄)
        ∗ ((srcM1 c 26 hk_26).view.loc (c : Thread nD τ) ↦[(srcM1 c 26 hk_26).view.set]{fullShare} f : sProp 𝕄)
        ∗ ((srcM1 c 27 hk_27).view.loc (c : Thread nD τ) ↦[(srcM1 c 27 hk_27).view.set]{fullShare} f : sProp 𝕄)
        ∗ ((srcM1 c 28 hk_28).view.loc (c : Thread nD τ) ↦[(srcM1 c 28 hk_28).view.set]{fullShare} f : sProp 𝕄)
        ∗ ((srcM1 c 29 hk_29).view.loc (c : Thread nD τ) ↦[(srcM1 c 29 hk_29).view.set]{fullShare} f : sProp 𝕄)
        ∗ ((srcM1 c 30 hk_30).view.loc (c : Thread nD τ) ↦[(srcM1 c 30 hk_30).view.set]{fullShare} f : sProp 𝕄)
        ∗ ((srcM1 c 31 hk_31).view.loc (c : Thread nD τ) ↦[(srcM1 c 31 hk_31).view.set]{fullShare} f : sProp 𝕄)) :=
  Entails.of_eq ((st1_split_eq c f).trans ((bigSep_univ_eq_bigSepL offs32 offs32_univ offs32_nodup _).trans (st1_chain_eq c f)))

/-- The own row block and the thirty-one lent ones, each at some contents, are the narrowed block at some contents. -/
theorem st1_join (c : Dev nD) :
    iprop((∃ g, ((ownM1 c).view.loc (c : Thread nD τ) ↦[(ownM1 c).view.set]{fullShare} g : sProp 𝕄))
        ∗ (∃ g, ((srcM1 c 1 hk_1).view.loc (c : Thread nD τ) ↦[(srcM1 c 1 hk_1).view.set]{fullShare} g : sProp 𝕄))
        ∗ (∃ g, ((srcM1 c 2 hk_2).view.loc (c : Thread nD τ) ↦[(srcM1 c 2 hk_2).view.set]{fullShare} g : sProp 𝕄))
        ∗ (∃ g, ((srcM1 c 3 hk_3).view.loc (c : Thread nD τ) ↦[(srcM1 c 3 hk_3).view.set]{fullShare} g : sProp 𝕄))
        ∗ (∃ g, ((srcM1 c 4 hk_4).view.loc (c : Thread nD τ) ↦[(srcM1 c 4 hk_4).view.set]{fullShare} g : sProp 𝕄))
        ∗ (∃ g, ((srcM1 c 5 hk_5).view.loc (c : Thread nD τ) ↦[(srcM1 c 5 hk_5).view.set]{fullShare} g : sProp 𝕄))
        ∗ (∃ g, ((srcM1 c 6 hk_6).view.loc (c : Thread nD τ) ↦[(srcM1 c 6 hk_6).view.set]{fullShare} g : sProp 𝕄))
        ∗ (∃ g, ((srcM1 c 7 hk_7).view.loc (c : Thread nD τ) ↦[(srcM1 c 7 hk_7).view.set]{fullShare} g : sProp 𝕄))
        ∗ (∃ g, ((srcM1 c 8 hk_8).view.loc (c : Thread nD τ) ↦[(srcM1 c 8 hk_8).view.set]{fullShare} g : sProp 𝕄))
        ∗ (∃ g, ((srcM1 c 9 hk_9).view.loc (c : Thread nD τ) ↦[(srcM1 c 9 hk_9).view.set]{fullShare} g : sProp 𝕄))
        ∗ (∃ g, ((srcM1 c 10 hk_10).view.loc (c : Thread nD τ) ↦[(srcM1 c 10 hk_10).view.set]{fullShare} g : sProp 𝕄))
        ∗ (∃ g, ((srcM1 c 11 hk_11).view.loc (c : Thread nD τ) ↦[(srcM1 c 11 hk_11).view.set]{fullShare} g : sProp 𝕄))
        ∗ (∃ g, ((srcM1 c 12 hk_12).view.loc (c : Thread nD τ) ↦[(srcM1 c 12 hk_12).view.set]{fullShare} g : sProp 𝕄))
        ∗ (∃ g, ((srcM1 c 13 hk_13).view.loc (c : Thread nD τ) ↦[(srcM1 c 13 hk_13).view.set]{fullShare} g : sProp 𝕄))
        ∗ (∃ g, ((srcM1 c 14 hk_14).view.loc (c : Thread nD τ) ↦[(srcM1 c 14 hk_14).view.set]{fullShare} g : sProp 𝕄))
        ∗ (∃ g, ((srcM1 c 15 hk_15).view.loc (c : Thread nD τ) ↦[(srcM1 c 15 hk_15).view.set]{fullShare} g : sProp 𝕄))
        ∗ (∃ g, ((srcM1 c 16 hk_16).view.loc (c : Thread nD τ) ↦[(srcM1 c 16 hk_16).view.set]{fullShare} g : sProp 𝕄))
        ∗ (∃ g, ((srcM1 c 17 hk_17).view.loc (c : Thread nD τ) ↦[(srcM1 c 17 hk_17).view.set]{fullShare} g : sProp 𝕄))
        ∗ (∃ g, ((srcM1 c 18 hk_18).view.loc (c : Thread nD τ) ↦[(srcM1 c 18 hk_18).view.set]{fullShare} g : sProp 𝕄))
        ∗ (∃ g, ((srcM1 c 19 hk_19).view.loc (c : Thread nD τ) ↦[(srcM1 c 19 hk_19).view.set]{fullShare} g : sProp 𝕄))
        ∗ (∃ g, ((srcM1 c 20 hk_20).view.loc (c : Thread nD τ) ↦[(srcM1 c 20 hk_20).view.set]{fullShare} g : sProp 𝕄))
        ∗ (∃ g, ((srcM1 c 21 hk_21).view.loc (c : Thread nD τ) ↦[(srcM1 c 21 hk_21).view.set]{fullShare} g : sProp 𝕄))
        ∗ (∃ g, ((srcM1 c 22 hk_22).view.loc (c : Thread nD τ) ↦[(srcM1 c 22 hk_22).view.set]{fullShare} g : sProp 𝕄))
        ∗ (∃ g, ((srcM1 c 23 hk_23).view.loc (c : Thread nD τ) ↦[(srcM1 c 23 hk_23).view.set]{fullShare} g : sProp 𝕄))
        ∗ (∃ g, ((srcM1 c 24 hk_24).view.loc (c : Thread nD τ) ↦[(srcM1 c 24 hk_24).view.set]{fullShare} g : sProp 𝕄))
        ∗ (∃ g, ((srcM1 c 25 hk_25).view.loc (c : Thread nD τ) ↦[(srcM1 c 25 hk_25).view.set]{fullShare} g : sProp 𝕄))
        ∗ (∃ g, ((srcM1 c 26 hk_26).view.loc (c : Thread nD τ) ↦[(srcM1 c 26 hk_26).view.set]{fullShare} g : sProp 𝕄))
        ∗ (∃ g, ((srcM1 c 27 hk_27).view.loc (c : Thread nD τ) ↦[(srcM1 c 27 hk_27).view.set]{fullShare} g : sProp 𝕄))
        ∗ (∃ g, ((srcM1 c 28 hk_28).view.loc (c : Thread nD τ) ↦[(srcM1 c 28 hk_28).view.set]{fullShare} g : sProp 𝕄))
        ∗ (∃ g, ((srcM1 c 29 hk_29).view.loc (c : Thread nD τ) ↦[(srcM1 c 29 hk_29).view.set]{fullShare} g : sProp 𝕄))
        ∗ (∃ g, ((srcM1 c 30 hk_30).view.loc (c : Thread nD τ) ↦[(srcM1 c 30 hk_30).view.set]{fullShare} g : sProp 𝕄))
        ∗ (∃ g, ((srcM1 c 31 hk_31).view.loc (c : Thread nD τ) ↦[(srcM1 c 31 hk_31).view.set]{fullShare} g : sProp 𝕄)))
      ⊢ iprop(∃ g, (st1.view.loc (c : Thread nD τ) ↦{fullShare} g : sProp 𝕄)) :=
  (Entails.of_eq ((bigSep_univ_eq_bigSepL offs32 offs32_univ offs32_nodup _).trans (st1_chain_ex_eq (F := F) c)).symm).trans
    (Ring.pointsTo_blocks_join_exists (ℓ := st1.view.loc (c : Thread nD τ)) (Ix := Unit) (Name := ℕ) (U := UU) (Lvl := ℕ)
      (q := fullShare) (piece1 c) (piece1_disjoint c) (piece1_cover c) (st1.view.junk (Val := Elt F)))

/-- info: 'Cert.KernelProto.cm_split_chain' depends on axioms: [propext, Classical.choice, Quot.sound] -/
#guard_msgs in #print axioms cm_split_chain

/-- info: 'Cert.KernelProto.cm_join_chain' depends on axioms: [propext, Classical.choice, Quot.sound] -/
#guard_msgs in #print axioms cm_join_chain

/-- info: 'Cert.KernelProto.st2_split' depends on axioms: [propext, Classical.choice, Quot.sound] -/
#guard_msgs in #print axioms st2_split

/-- info: 'Cert.KernelProto.st2_join' depends on axioms: [propext, Classical.choice, Quot.sound] -/
#guard_msgs in #print axioms st2_join

/-- info: 'Cert.KernelProto.st1_split' depends on axioms: [propext, Classical.choice, Quot.sound] -/
#guard_msgs in #print axioms st1_split

/-- info: 'Cert.KernelProto.st1_join' depends on axioms: [propext, Classical.choice, Quot.sound] -/
#guard_msgs in #print axioms st1_join

end Cert.KernelProto

end
-- ==== Proof.KernelBodyDefs.lean ====
import proofs.«900784_g7700000000000785_dist_f_of_ar_i_m512_n256_v7x_i32_bf16_1_alg».proof.Proof.KernelCutsRows

/-!
# The kernel body's starting state, laid out offset by offset

What a device holds when its kernel starts, grouped by the offset `k = 1 … 31` at which it is used: the resources of
the barrier signal at offset `k` (its token and the two landing slots `32 - k` it hands over), and the resources of
the two exchanges at offset `k` (the four tokens it pays with, its positions and credit on its own four cells, the
output copy's semaphore). A group not in use is `Held`: kept, not looked into.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A resource set aside: held, not looked into. -/
def Held (P : sProp 𝕄) : sProp 𝕄 := P
omit [FloatOps F] in
theorem held_eq (P : sProp 𝕄) : Held P = P := rfl
omit [FloatOps F] in
theorem held_intro (P : sProp 𝕄) : P ⊢ Held P := Entails.of_eq (held_eq P).symm
omit [FloatOps F] in
theorem held_elim (P : sProp 𝕄) : Held P ⊢ P := Entails.of_eq (held_eq P)
attribute [irreducible] Held

/-- What a device owes at launch, summand by summand: the second exchange's receive credits, then the first's, then the
    barrier units, each from offset 31 down to 1 (the kernel pays them from the right). -/
abbrev owed93 (c : Dev nD) : CellTallies nD τ sig Unit := tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX + tallyAt (r1Cell (rot c 31) 31 ho_31) () NX + tallyAt (r1Cell (rot c 30) 30 ho_30) () NX + tallyAt (r1Cell (rot c 29) 29 ho_29) () NX + tallyAt (r1Cell (rot c 28) 28 ho_28) () NX + tallyAt (r1Cell (rot c 27) 27 ho_27) () NX + tallyAt (r1Cell (rot c 26) 26 ho_26) () NX + tallyAt (r1Cell (rot c 25) 25 ho_25) () NX + tallyAt (r1Cell (rot c 24) 24 ho_24) () NX + tallyAt (r1Cell (rot c 23) 23 ho_23) () NX + tallyAt (r1Cell (rot c 22) 22 ho_22) () NX + tallyAt (r1Cell (rot c 21) 21 ho_21) () NX + tallyAt (r1Cell (rot c 20) 20 ho_20) () NX + tallyAt (r1Cell (rot c 19) 19 ho_19) () NX + tallyAt (r1Cell (rot c 18) 18 ho_18) () NX + tallyAt (r1Cell (rot c 17) 17 ho_17) () NX + tallyAt (r1Cell (rot c 16) 16 ho_16) () NX + tallyAt (r1Cell (rot c 15) 15 ho_15) () NX + tallyAt (r1Cell (rot c 14) 14 ho_14) () NX + tallyAt (r1Cell (rot c 13) 13 ho_13) () NX + tallyAt (r1Cell (rot c 12) 12 ho_12) () NX + tallyAt (r1Cell (rot c 11) 11 ho_11) () NX + tallyAt (r1Cell (rot c 10) 10 ho_10) () NX + tallyAt (r1Cell (rot c 9) 9 ho_9) () NX + tallyAt (r1Cell (rot c 8) 8 ho_8) () NX + tallyAt (r1Cell (rot c 7) 7 ho_7) () NX + tallyAt (r1Cell (rot c 6) 6 ho_6) () NX + tallyAt (r1Cell (rot c 5) 5 ho_5) () NX + tallyAt (r1Cell (rot c 4) 4 ho_4) () NX + tallyAt (r1Cell (rot c 3) 3 ho_3) () NX + tallyAt (r1Cell (rot c 2) 2 ho_2) () NX + tallyAt (r1Cell (rot c 1) 1 ho_1) () NX + tallyAt (barCell (rot c 31)) () 1 + tallyAt (barCell (rot c 30)) () 1 + tallyAt (barCell (rot c 29)) () 1 + tallyAt (barCell (rot c 28)) () 1 + tallyAt (barCell (rot c 27)) () 1 + tallyAt (barCell (rot c 26)) () 1 + tallyAt (barCell (rot c 25)) () 1 + tallyAt (barCell (rot c 24)) () 1 + tallyAt (barCell (rot c 23)) () 1 + tallyAt (barCell (rot c 22)) () 1 + tallyAt (barCell (rot c 21)) () 1 + tallyAt (barCell (rot c 20)) () 1 + tallyAt (barCell (rot c 19)) () 1 + tallyAt (barCell (rot c 18)) () 1 + tallyAt (barCell (rot c 17)) () 1 + tallyAt (barCell (rot c 16)) () 1 + tallyAt (barCell (rot c 15)) () 1 + tallyAt (barCell (rot c 14)) () 1 + tallyAt (barCell (rot c 13)) () 1 + tallyAt (barCell (rot c 12)) () 1 + tallyAt (barCell (rot c 11)) () 1 + tallyAt (barCell (rot c 10)) () 1 + tallyAt (barCell (rot c 9)) () 1 + tallyAt (barCell (rot c 8)) () 1 + tallyAt (barCell (rot c 7)) () 1 + tallyAt (barCell (rot c 6)) () 1 + tallyAt (barCell (rot c 5)) () 1 + tallyAt (barCell (rot c 4)) () 1 + tallyAt (barCell (rot c 3)) () 1 + tallyAt (barCell (rot c 2)) () 1 + tallyAt (barCell (rot c 1)) () 1
abbrev owed62 (c : Dev nD) : CellTallies nD τ sig Unit := tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX + tallyAt (r1Cell (rot c 31) 31 ho_31) () NX + tallyAt (r1Cell (rot c 30) 30 ho_30) () NX + tallyAt (r1Cell (rot c 29) 29 ho_29) () NX + tallyAt (r1Cell (rot c 28) 28 ho_28) () NX + tallyAt (r1Cell (rot c 27) 27 ho_27) () NX + tallyAt (r1Cell (rot c 26) 26 ho_26) () NX + tallyAt (r1Cell (rot c 25) 25 ho_25) () NX + tallyAt (r1Cell (rot c 24) 24 ho_24) () NX + tallyAt (r1Cell (rot c 23) 23 ho_23) () NX + tallyAt (r1Cell (rot c 22) 22 ho_22) () NX + tallyAt (r1Cell (rot c 21) 21 ho_21) () NX + tallyAt (r1Cell (rot c 20) 20 ho_20) () NX + tallyAt (r1Cell (rot c 19) 19 ho_19) () NX + tallyAt (r1Cell (rot c 18) 18 ho_18) () NX + tallyAt (r1Cell (rot c 17) 17 ho_17) () NX + tallyAt (r1Cell (rot c 16) 16 ho_16) () NX + tallyAt (r1Cell (rot c 15) 15 ho_15) () NX + tallyAt (r1Cell (rot c 14) 14 ho_14) () NX + tallyAt (r1Cell (rot c 13) 13 ho_13) () NX + tallyAt (r1Cell (rot c 12) 12 ho_12) () NX + tallyAt (r1Cell (rot c 11) 11 ho_11) () NX + tallyAt (r1Cell (rot c 10) 10 ho_10) () NX + tallyAt (r1Cell (rot c 9) 9 ho_9) () NX + tallyAt (r1Cell (rot c 8) 8 ho_8) () NX + tallyAt (r1Cell (rot c 7) 7 ho_7) () NX + tallyAt (r1Cell (rot c 6) 6 ho_6) () NX + tallyAt (r1Cell (rot c 5) 5 ho_5) () NX + tallyAt (r1Cell (rot c 4) 4 ho_4) () NX + tallyAt (r1Cell (rot c 3) 3 ho_3) () NX + tallyAt (r1Cell (rot c 2) 2 ho_2) () NX + tallyAt (r1Cell (rot c 1) 1 ho_1) () NX
abbrev owed31 (c : Dev nD) : CellTallies nD τ sig Unit := tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX

section Start
variable (S1c : (c : Dev nD) → Buf (Elt F) (st1.view.loc (c : Thread nD τ)))
variable (Y2c : (c : Dev nD) → Buf (Elt F) (st2.view.loc (c : Thread nD τ)))
variable (c : Dev nD) (g1 : Buf (Elt F) (cm1.view.loc (c : Thread nD τ))) (g2 : Buf (Elt F) (cm2.view.loc (c : Thread nD τ)))

/-- the barrier signal at offset `k`: its token and the two landing slots `32 - k` -/
abbrev sigRes_1 : sProp 𝕄 := iprop(dutyTok ER (barCell (rot c 1)) 0 1 ∗ ((slotM cm1 31 ho_31).view.loc (c : Thread nD τ) ↦[(slotM cm1 31 ho_31).view.set]{fullShare} g1) ∗ ((slotM cm2 31 ho_31).view.loc (c : Thread nD τ) ↦[(slotM cm2 31 ho_31).view.set]{fullShare} g2))
abbrev sigRes_2 : sProp 𝕄 := iprop(dutyTok ER (barCell (rot c 2)) 0 2 ∗ ((slotM cm1 30 ho_30).view.loc (c : Thread nD τ) ↦[(slotM cm1 30 ho_30).view.set]{fullShare} g1) ∗ ((slotM cm2 30 ho_30).view.loc (c : Thread nD τ) ↦[(slotM cm2 30 ho_30).view.set]{fullShare} g2))
abbrev sigRes_3 : sProp 𝕄 := iprop(dutyTok ER (barCell (rot c 3)) 0 3 ∗ ((slotM cm1 29 ho_29).view.loc (c : Thread nD τ) ↦[(slotM cm1 29 ho_29).view.set]{fullShare} g1) ∗ ((slotM cm2 29 ho_29).view.loc (c : Thread nD τ) ↦[(slotM cm2 29 ho_29).view.set]{fullShare} g2))
abbrev sigRes_4 : sProp 𝕄 := iprop(dutyTok ER (barCell (rot c 4)) 0 4 ∗ ((slotM cm1 28 ho_28).view.loc (c : Thread nD τ) ↦[(slotM cm1 28 ho_28).view.set]{fullShare} g1) ∗ ((slotM cm2 28 ho_28).view.loc (c : Thread nD τ) ↦[(slotM cm2 28 ho_28).view.set]{fullShare} g2))
abbrev sigRes_5 : sProp 𝕄 := iprop(dutyTok ER (barCell (rot c 5)) 0 5 ∗ ((slotM cm1 27 ho_27).view.loc (c : Thread nD τ) ↦[(slotM cm1 27 ho_27).view.set]{fullShare} g1) ∗ ((slotM cm2 27 ho_27).view.loc (c : Thread nD τ) ↦[(slotM cm2 27 ho_27).view.set]{fullShare} g2))
abbrev sigRes_6 : sProp 𝕄 := iprop(dutyTok ER (barCell (rot c 6)) 0 6 ∗ ((slotM cm1 26 ho_26).view.loc (c : Thread nD τ) ↦[(slotM cm1 26 ho_26).view.set]{fullShare} g1) ∗ ((slotM cm2 26 ho_26).view.loc (c : Thread nD τ) ↦[(slotM cm2 26 ho_26).view.set]{fullShare} g2))
abbrev sigRes_7 : sProp 𝕄 := iprop(dutyTok ER (barCell (rot c 7)) 0 7 ∗ ((slotM cm1 25 ho_25).view.loc (c : Thread nD τ) ↦[(slotM cm1 25 ho_25).view.set]{fullShare} g1) ∗ ((slotM cm2 25 ho_25).view.loc (c : Thread nD τ) ↦[(slotM cm2 25 ho_25).view.set]{fullShare} g2))
abbrev sigRes_8 : sProp 𝕄 := iprop(dutyTok ER (barCell (rot c 8)) 0 8 ∗ ((slotM cm1 24 ho_24).view.loc (c : Thread nD τ) ↦[(slotM cm1 24 ho_24).view.set]{fullShare} g1) ∗ ((slotM cm2 24 ho_24).view.loc (c : Thread nD τ) ↦[(slotM cm2 24 ho_24).view.set]{fullShare} g2))
abbrev sigRes_9 : sProp 𝕄 := iprop(dutyTok ER (barCell (rot c 9)) 0 9 ∗ ((slotM cm1 23 ho_23).view.loc (c : Thread nD τ) ↦[(slotM cm1 23 ho_23).view.set]{fullShare} g1) ∗ ((slotM cm2 23 ho_23).view.loc (c : Thread nD τ) ↦[(slotM cm2 23 ho_23).view.set]{fullShare} g2))
abbrev sigRes_10 : sProp 𝕄 := iprop(dutyTok ER (barCell (rot c 10)) 0 10 ∗ ((slotM cm1 22 ho_22).view.loc (c : Thread nD τ) ↦[(slotM cm1 22 ho_22).view.set]{fullShare} g1) ∗ ((slotM cm2 22 ho_22).view.loc (c : Thread nD τ) ↦[(slotM cm2 22 ho_22).view.set]{fullShare} g2))
abbrev sigRes_11 : sProp 𝕄 := iprop(dutyTok ER (barCell (rot c 11)) 0 11 ∗ ((slotM cm1 21 ho_21).view.loc (c : Thread nD τ) ↦[(slotM cm1 21 ho_21).view.set]{fullShare} g1) ∗ ((slotM cm2 21 ho_21).view.loc (c : Thread nD τ) ↦[(slotM cm2 21 ho_21).view.set]{fullShare} g2))
abbrev sigRes_12 : sProp 𝕄 := iprop(dutyTok ER (barCell (rot c 12)) 0 12 ∗ ((slotM cm1 20 ho_20).view.loc (c : Thread nD τ) ↦[(slotM cm1 20 ho_20).view.set]{fullShare} g1) ∗ ((slotM cm2 20 ho_20).view.loc (c : Thread nD τ) ↦[(slotM cm2 20 ho_20).view.set]{fullShare} g2))
abbrev sigRes_13 : sProp 𝕄 := iprop(dutyTok ER (barCell (rot c 13)) 0 13 ∗ ((slotM cm1 19 ho_19).view.loc (c : Thread nD τ) ↦[(slotM cm1 19 ho_19).view.set]{fullShare} g1) ∗ ((slotM cm2 19 ho_19).view.loc (c : Thread nD τ) ↦[(slotM cm2 19 ho_19).view.set]{fullShare} g2))
abbrev sigRes_14 : sProp 𝕄 := iprop(dutyTok ER (barCell (rot c 14)) 0 14 ∗ ((slotM cm1 18 ho_18).view.loc (c : Thread nD τ) ↦[(slotM cm1 18 ho_18).view.set]{fullShare} g1) ∗ ((slotM cm2 18 ho_18).view.loc (c : Thread nD τ) ↦[(slotM cm2 18 ho_18).view.set]{fullShare} g2))
abbrev sigRes_15 : sProp 𝕄 := iprop(dutyTok ER (barCell (rot c 15)) 0 15 ∗ ((slotM cm1 17 ho_17).view.loc (c : Thread nD τ) ↦[(slotM cm1 17 ho_17).view.set]{fullShare} g1) ∗ ((slotM cm2 17 ho_17).view.loc (c : Thread nD τ) ↦[(slotM cm2 17 ho_17).view.set]{fullShare} g2))
abbrev sigRes_16 : sProp 𝕄 := iprop(dutyTok ER (barCell (rot c 16)) 0 16 ∗ ((slotM cm1 16 ho_16).view.loc (c : Thread nD τ) ↦[(slotM cm1 16 ho_16).view.set]{fullShare} g1) ∗ ((slotM cm2 16 ho_16).view.loc (c : Thread nD τ) ↦[(slotM cm2 16 ho_16).view.set]{fullShare} g2))
abbrev sigRes_17 : sProp 𝕄 := iprop(dutyTok ER (barCell (rot c 17)) 0 17 ∗ ((slotM cm1 15 ho_15).view.loc (c : Thread nD τ) ↦[(slotM cm1 15 ho_15).view.set]{fullShare} g1) ∗ ((slotM cm2 15 ho_15).view.loc (c : Thread nD τ) ↦[(slotM cm2 15 ho_15).view.set]{fullShare} g2))
abbrev sigRes_18 : sProp 𝕄 := iprop(dutyTok ER (barCell (rot c 18)) 0 18 ∗ ((slotM cm1 14 ho_14).view.loc (c : Thread nD τ) ↦[(slotM cm1 14 ho_14).view.set]{fullShare} g1) ∗ ((slotM cm2 14 ho_14).view.loc (c : Thread nD τ) ↦[(slotM cm2 14 ho_14).view.set]{fullShare} g2))
abbrev sigRes_19 : sProp 𝕄 := iprop(dutyTok ER (barCell (rot c 19)) 0 19 ∗ ((slotM cm1 13 ho_13).view.loc (c : Thread nD τ) ↦[(slotM cm1 13 ho_13).view.set]{fullShare} g1) ∗ ((slotM cm2 13 ho_13).view.loc (c : Thread nD τ) ↦[(slotM cm2 13 ho_13).view.set]{fullShare} g2))
abbrev sigRes_20 : sProp 𝕄 := iprop(dutyTok ER (barCell (rot c 20)) 0 20 ∗ ((slotM cm1 12 ho_12).view.loc (c : Thread nD τ) ↦[(slotM cm1 12 ho_12).view.set]{fullShare} g1) ∗ ((slotM cm2 12 ho_12).view.loc (c : Thread nD τ) ↦[(slotM cm2 12 ho_12).view.set]{fullShare} g2))
abbrev sigRes_21 : sProp 𝕄 := iprop(dutyTok ER (barCell (rot c 21)) 0 21 ∗ ((slotM cm1 11 ho_11).view.loc (c : Thread nD τ) ↦[(slotM cm1 11 ho_11).view.set]{fullShare} g1) ∗ ((slotM cm2 11 ho_11).view.loc (c : Thread nD τ) ↦[(slotM cm2 11 ho_11).view.set]{fullShare} g2))
abbrev sigRes_22 : sProp 𝕄 := iprop(dutyTok ER (barCell (rot c 22)) 0 22 ∗ ((slotM cm1 10 ho_10).view.loc (c : Thread nD τ) ↦[(slotM cm1 10 ho_10).view.set]{fullShare} g1) ∗ ((slotM cm2 10 ho_10).view.loc (c : Thread nD τ) ↦[(slotM cm2 10 ho_10).view.set]{fullShare} g2))
abbrev sigRes_23 : sProp 𝕄 := iprop(dutyTok ER (barCell (rot c 23)) 0 23 ∗ ((slotM cm1 9 ho_9).view.loc (c : Thread nD τ) ↦[(slotM cm1 9 ho_9).view.set]{fullShare} g1) ∗ ((slotM cm2 9 ho_9).view.loc (c : Thread nD τ) ↦[(slotM cm2 9 ho_9).view.set]{fullShare} g2))
abbrev sigRes_24 : sProp 𝕄 := iprop(dutyTok ER (barCell (rot c 24)) 0 24 ∗ ((slotM cm1 8 ho_8).view.loc (c : Thread nD τ) ↦[(slotM cm1 8 ho_8).view.set]{fullShare} g1) ∗ ((slotM cm2 8 ho_8).view.loc (c : Thread nD τ) ↦[(slotM cm2 8 ho_8).view.set]{fullShare} g2))
abbrev sigRes_25 : sProp 𝕄 := iprop(dutyTok ER (barCell (rot c 25)) 0 25 ∗ ((slotM cm1 7 ho_7).view.loc (c : Thread nD τ) ↦[(slotM cm1 7 ho_7).view.set]{fullShare} g1) ∗ ((slotM cm2 7 ho_7).view.loc (c : Thread nD τ) ↦[(slotM cm2 7 ho_7).view.set]{fullShare} g2))
abbrev sigRes_26 : sProp 𝕄 := iprop(dutyTok ER (barCell (rot c 26)) 0 26 ∗ ((slotM cm1 6 ho_6).view.loc (c : Thread nD τ) ↦[(slotM cm1 6 ho_6).view.set]{fullShare} g1) ∗ ((slotM cm2 6 ho_6).view.loc (c : Thread nD τ) ↦[(slotM cm2 6 ho_6).view.set]{fullShare} g2))
abbrev sigRes_27 : sProp 𝕄 := iprop(dutyTok ER (barCell (rot c 27)) 0 27 ∗ ((slotM cm1 5 ho_5).view.loc (c : Thread nD τ) ↦[(slotM cm1 5 ho_5).view.set]{fullShare} g1) ∗ ((slotM cm2 5 ho_5).view.loc (c : Thread nD τ) ↦[(slotM cm2 5 ho_5).view.set]{fullShare} g2))
abbrev sigRes_28 : sProp 𝕄 := iprop(dutyTok ER (barCell (rot c 28)) 0 28 ∗ ((slotM cm1 4 ho_4).view.loc (c : Thread nD τ) ↦[(slotM cm1 4 ho_4).view.set]{fullShare} g1) ∗ ((slotM cm2 4 ho_4).view.loc (c : Thread nD τ) ↦[(slotM cm2 4 ho_4).view.set]{fullShare} g2))
abbrev sigRes_29 : sProp 𝕄 := iprop(dutyTok ER (barCell (rot c 29)) 0 29 ∗ ((slotM cm1 3 ho_3).view.loc (c : Thread nD τ) ↦[(slotM cm1 3 ho_3).view.set]{fullShare} g1) ∗ ((slotM cm2 3 ho_3).view.loc (c : Thread nD τ) ↦[(slotM cm2 3 ho_3).view.set]{fullShare} g2))
abbrev sigRes_30 : sProp 𝕄 := iprop(dutyTok ER (barCell (rot c 30)) 0 30 ∗ ((slotM cm1 2 ho_2).view.loc (c : Thread nD τ) ↦[(slotM cm1 2 ho_2).view.set]{fullShare} g1) ∗ ((slotM cm2 2 ho_2).view.loc (c : Thread nD τ) ↦[(slotM cm2 2 ho_2).view.set]{fullShare} g2))
abbrev sigRes_31 : sProp 𝕄 := iprop(dutyTok ER (barCell (rot c 31)) 0 31 ∗ ((slotM cm1 1 ho_1).view.loc (c : Thread nD τ) ↦[(slotM cm1 1 ho_1).view.set]{fullShare} g1) ∗ ((slotM cm2 1 ho_1).view.loc (c : Thread nD τ) ↦[(slotM cm2 1 ho_1).view.set]{fullShare} g2))
/-- the first exchange's transfer at offset `k`: the tokens of its send and receive duties -/
abbrev bRes_1 : sProp 𝕄 := iprop(dutyTok ER (s1Cell c 1 ho_1) 0 0 ∗ dutyTok ER (r1Cell (rot c 1) 1 ho_1) 0 0)
abbrev bRes_2 : sProp 𝕄 := iprop(dutyTok ER (s1Cell c 2 ho_2) 0 0 ∗ dutyTok ER (r1Cell (rot c 2) 2 ho_2) 0 0)
abbrev bRes_3 : sProp 𝕄 := iprop(dutyTok ER (s1Cell c 3 ho_3) 0 0 ∗ dutyTok ER (r1Cell (rot c 3) 3 ho_3) 0 0)
abbrev bRes_4 : sProp 𝕄 := iprop(dutyTok ER (s1Cell c 4 ho_4) 0 0 ∗ dutyTok ER (r1Cell (rot c 4) 4 ho_4) 0 0)
abbrev bRes_5 : sProp 𝕄 := iprop(dutyTok ER (s1Cell c 5 ho_5) 0 0 ∗ dutyTok ER (r1Cell (rot c 5) 5 ho_5) 0 0)
abbrev bRes_6 : sProp 𝕄 := iprop(dutyTok ER (s1Cell c 6 ho_6) 0 0 ∗ dutyTok ER (r1Cell (rot c 6) 6 ho_6) 0 0)
abbrev bRes_7 : sProp 𝕄 := iprop(dutyTok ER (s1Cell c 7 ho_7) 0 0 ∗ dutyTok ER (r1Cell (rot c 7) 7 ho_7) 0 0)
abbrev bRes_8 : sProp 𝕄 := iprop(dutyTok ER (s1Cell c 8 ho_8) 0 0 ∗ dutyTok ER (r1Cell (rot c 8) 8 ho_8) 0 0)
abbrev bRes_9 : sProp 𝕄 := iprop(dutyTok ER (s1Cell c 9 ho_9) 0 0 ∗ dutyTok ER (r1Cell (rot c 9) 9 ho_9) 0 0)
abbrev bRes_10 : sProp 𝕄 := iprop(dutyTok ER (s1Cell c 10 ho_10) 0 0 ∗ dutyTok ER (r1Cell (rot c 10) 10 ho_10) 0 0)
abbrev bRes_11 : sProp 𝕄 := iprop(dutyTok ER (s1Cell c 11 ho_11) 0 0 ∗ dutyTok ER (r1Cell (rot c 11) 11 ho_11) 0 0)
abbrev bRes_12 : sProp 𝕄 := iprop(dutyTok ER (s1Cell c 12 ho_12) 0 0 ∗ dutyTok ER (r1Cell (rot c 12) 12 ho_12) 0 0)
abbrev bRes_13 : sProp 𝕄 := iprop(dutyTok ER (s1Cell c 13 ho_13) 0 0 ∗ dutyTok ER (r1Cell (rot c 13) 13 ho_13) 0 0)
abbrev bRes_14 : sProp 𝕄 := iprop(dutyTok ER (s1Cell c 14 ho_14) 0 0 ∗ dutyTok ER (r1Cell (rot c 14) 14 ho_14) 0 0)
abbrev bRes_15 : sProp 𝕄 := iprop(dutyTok ER (s1Cell c 15 ho_15) 0 0 ∗ dutyTok ER (r1Cell (rot c 15) 15 ho_15) 0 0)
abbrev bRes_16 : sProp 𝕄 := iprop(dutyTok ER (s1Cell c 16 ho_16) 0 0 ∗ dutyTok ER (r1Cell (rot c 16) 16 ho_16) 0 0)
abbrev bRes_17 : sProp 𝕄 := iprop(dutyTok ER (s1Cell c 17 ho_17) 0 0 ∗ dutyTok ER (r1Cell (rot c 17) 17 ho_17) 0 0)
abbrev bRes_18 : sProp 𝕄 := iprop(dutyTok ER (s1Cell c 18 ho_18) 0 0 ∗ dutyTok ER (r1Cell (rot c 18) 18 ho_18) 0 0)
abbrev bRes_19 : sProp 𝕄 := iprop(dutyTok ER (s1Cell c 19 ho_19) 0 0 ∗ dutyTok ER (r1Cell (rot c 19) 19 ho_19) 0 0)
abbrev bRes_20 : sProp 𝕄 := iprop(dutyTok ER (s1Cell c 20 ho_20) 0 0 ∗ dutyTok ER (r1Cell (rot c 20) 20 ho_20) 0 0)
abbrev bRes_21 : sProp 𝕄 := iprop(dutyTok ER (s1Cell c 21 ho_21) 0 0 ∗ dutyTok ER (r1Cell (rot c 21) 21 ho_21) 0 0)
abbrev bRes_22 : sProp 𝕄 := iprop(dutyTok ER (s1Cell c 22 ho_22) 0 0 ∗ dutyTok ER (r1Cell (rot c 22) 22 ho_22) 0 0)
abbrev bRes_23 : sProp 𝕄 := iprop(dutyTok ER (s1Cell c 23 ho_23) 0 0 ∗ dutyTok ER (r1Cell (rot c 23) 23 ho_23) 0 0)
abbrev bRes_24 : sProp 𝕄 := iprop(dutyTok ER (s1Cell c 24 ho_24) 0 0 ∗ dutyTok ER (r1Cell (rot c 24) 24 ho_24) 0 0)
abbrev bRes_25 : sProp 𝕄 := iprop(dutyTok ER (s1Cell c 25 ho_25) 0 0 ∗ dutyTok ER (r1Cell (rot c 25) 25 ho_25) 0 0)
abbrev bRes_26 : sProp 𝕄 := iprop(dutyTok ER (s1Cell c 26 ho_26) 0 0 ∗ dutyTok ER (r1Cell (rot c 26) 26 ho_26) 0 0)
abbrev bRes_27 : sProp 𝕄 := iprop(dutyTok ER (s1Cell c 27 ho_27) 0 0 ∗ dutyTok ER (r1Cell (rot c 27) 27 ho_27) 0 0)
abbrev bRes_28 : sProp 𝕄 := iprop(dutyTok ER (s1Cell c 28 ho_28) 0 0 ∗ dutyTok ER (r1Cell (rot c 28) 28 ho_28) 0 0)
abbrev bRes_29 : sProp 𝕄 := iprop(dutyTok ER (s1Cell c 29 ho_29) 0 0 ∗ dutyTok ER (r1Cell (rot c 29) 29 ho_29) 0 0)
abbrev bRes_30 : sProp 𝕄 := iprop(dutyTok ER (s1Cell c 30 ho_30) 0 0 ∗ dutyTok ER (r1Cell (rot c 30) 30 ho_30) 0 0)
abbrev bRes_31 : sProp 𝕄 := iprop(dutyTok ER (s1Cell c 31 ho_31) 0 0 ∗ dutyTok ER (r1Cell (rot c 31) 31 ho_31) 0 0)
/-- the first exchange's receive wait at offset `k`: the position and the credit on the receive cell -/
abbrev cRes_1 : sProp 𝕄 := iprop(atPos ER (r1Cell c 1 ho_1) 0 ∅ 0 ∗ cred (tallyAt (r1Cell c 1 ho_1) () NX))
abbrev cRes_2 : sProp 𝕄 := iprop(atPos ER (r1Cell c 2 ho_2) 0 ∅ 0 ∗ cred (tallyAt (r1Cell c 2 ho_2) () NX))
abbrev cRes_3 : sProp 𝕄 := iprop(atPos ER (r1Cell c 3 ho_3) 0 ∅ 0 ∗ cred (tallyAt (r1Cell c 3 ho_3) () NX))
abbrev cRes_4 : sProp 𝕄 := iprop(atPos ER (r1Cell c 4 ho_4) 0 ∅ 0 ∗ cred (tallyAt (r1Cell c 4 ho_4) () NX))
abbrev cRes_5 : sProp 𝕄 := iprop(atPos ER (r1Cell c 5 ho_5) 0 ∅ 0 ∗ cred (tallyAt (r1Cell c 5 ho_5) () NX))
abbrev cRes_6 : sProp 𝕄 := iprop(atPos ER (r1Cell c 6 ho_6) 0 ∅ 0 ∗ cred (tallyAt (r1Cell c 6 ho_6) () NX))
abbrev cRes_7 : sProp 𝕄 := iprop(atPos ER (r1Cell c 7 ho_7) 0 ∅ 0 ∗ cred (tallyAt (r1Cell c 7 ho_7) () NX))
abbrev cRes_8 : sProp 𝕄 := iprop(atPos ER (r1Cell c 8 ho_8) 0 ∅ 0 ∗ cred (tallyAt (r1Cell c 8 ho_8) () NX))
abbrev cRes_9 : sProp 𝕄 := iprop(atPos ER (r1Cell c 9 ho_9) 0 ∅ 0 ∗ cred (tallyAt (r1Cell c 9 ho_9) () NX))
abbrev cRes_10 : sProp 𝕄 := iprop(atPos ER (r1Cell c 10 ho_10) 0 ∅ 0 ∗ cred (tallyAt (r1Cell c 10 ho_10) () NX))
abbrev cRes_11 : sProp 𝕄 := iprop(atPos ER (r1Cell c 11 ho_11) 0 ∅ 0 ∗ cred (tallyAt (r1Cell c 11 ho_11) () NX))
abbrev cRes_12 : sProp 𝕄 := iprop(atPos ER (r1Cell c 12 ho_12) 0 ∅ 0 ∗ cred (tallyAt (r1Cell c 12 ho_12) () NX))
abbrev cRes_13 : sProp 𝕄 := iprop(atPos ER (r1Cell c 13 ho_13) 0 ∅ 0 ∗ cred (tallyAt (r1Cell c 13 ho_13) () NX))
abbrev cRes_14 : sProp 𝕄 := iprop(atPos ER (r1Cell c 14 ho_14) 0 ∅ 0 ∗ cred (tallyAt (r1Cell c 14 ho_14) () NX))
abbrev cRes_15 : sProp 𝕄 := iprop(atPos ER (r1Cell c 15 ho_15) 0 ∅ 0 ∗ cred (tallyAt (r1Cell c 15 ho_15) () NX))
abbrev cRes_16 : sProp 𝕄 := iprop(atPos ER (r1Cell c 16 ho_16) 0 ∅ 0 ∗ cred (tallyAt (r1Cell c 16 ho_16) () NX))
abbrev cRes_17 : sProp 𝕄 := iprop(atPos ER (r1Cell c 17 ho_17) 0 ∅ 0 ∗ cred (tallyAt (r1Cell c 17 ho_17) () NX))
abbrev cRes_18 : sProp 𝕄 := iprop(atPos ER (r1Cell c 18 ho_18) 0 ∅ 0 ∗ cred (tallyAt (r1Cell c 18 ho_18) () NX))
abbrev cRes_19 : sProp 𝕄 := iprop(atPos ER (r1Cell c 19 ho_19) 0 ∅ 0 ∗ cred (tallyAt (r1Cell c 19 ho_19) () NX))
abbrev cRes_20 : sProp 𝕄 := iprop(atPos ER (r1Cell c 20 ho_20) 0 ∅ 0 ∗ cred (tallyAt (r1Cell c 20 ho_20) () NX))
abbrev cRes_21 : sProp 𝕄 := iprop(atPos ER (r1Cell c 21 ho_21) 0 ∅ 0 ∗ cred (tallyAt (r1Cell c 21 ho_21) () NX))
abbrev cRes_22 : sProp 𝕄 := iprop(atPos ER (r1Cell c 22 ho_22) 0 ∅ 0 ∗ cred (tallyAt (r1Cell c 22 ho_22) () NX))
abbrev cRes_23 : sProp 𝕄 := iprop(atPos ER (r1Cell c 23 ho_23) 0 ∅ 0 ∗ cred (tallyAt (r1Cell c 23 ho_23) () NX))
abbrev cRes_24 : sProp 𝕄 := iprop(atPos ER (r1Cell c 24 ho_24) 0 ∅ 0 ∗ cred (tallyAt (r1Cell c 24 ho_24) () NX))
abbrev cRes_25 : sProp 𝕄 := iprop(atPos ER (r1Cell c 25 ho_25) 0 ∅ 0 ∗ cred (tallyAt (r1Cell c 25 ho_25) () NX))
abbrev cRes_26 : sProp 𝕄 := iprop(atPos ER (r1Cell c 26 ho_26) 0 ∅ 0 ∗ cred (tallyAt (r1Cell c 26 ho_26) () NX))
abbrev cRes_27 : sProp 𝕄 := iprop(atPos ER (r1Cell c 27 ho_27) 0 ∅ 0 ∗ cred (tallyAt (r1Cell c 27 ho_27) () NX))
abbrev cRes_28 : sProp 𝕄 := iprop(atPos ER (r1Cell c 28 ho_28) 0 ∅ 0 ∗ cred (tallyAt (r1Cell c 28 ho_28) () NX))
abbrev cRes_29 : sProp 𝕄 := iprop(atPos ER (r1Cell c 29 ho_29) 0 ∅ 0 ∗ cred (tallyAt (r1Cell c 29 ho_29) () NX))
abbrev cRes_30 : sProp 𝕄 := iprop(atPos ER (r1Cell c 30 ho_30) 0 ∅ 0 ∗ cred (tallyAt (r1Cell c 30 ho_30) () NX))
abbrev cRes_31 : sProp 𝕄 := iprop(atPos ER (r1Cell c 31 ho_31) 0 ∅ 0 ∗ cred (tallyAt (r1Cell c 31 ho_31) () NX))
/-- the second exchange's transfer at offset `k` -/
abbrev dRes_1 : sProp 𝕄 := iprop(dutyTok ER (s2Cell c 1 ho_1) 0 0 ∗ dutyTok ER (r2Cell (rot c 1) 1 ho_1) 0 0)
abbrev dRes_2 : sProp 𝕄 := iprop(dutyTok ER (s2Cell c 2 ho_2) 0 0 ∗ dutyTok ER (r2Cell (rot c 2) 2 ho_2) 0 0)
abbrev dRes_3 : sProp 𝕄 := iprop(dutyTok ER (s2Cell c 3 ho_3) 0 0 ∗ dutyTok ER (r2Cell (rot c 3) 3 ho_3) 0 0)
abbrev dRes_4 : sProp 𝕄 := iprop(dutyTok ER (s2Cell c 4 ho_4) 0 0 ∗ dutyTok ER (r2Cell (rot c 4) 4 ho_4) 0 0)
abbrev dRes_5 : sProp 𝕄 := iprop(dutyTok ER (s2Cell c 5 ho_5) 0 0 ∗ dutyTok ER (r2Cell (rot c 5) 5 ho_5) 0 0)
abbrev dRes_6 : sProp 𝕄 := iprop(dutyTok ER (s2Cell c 6 ho_6) 0 0 ∗ dutyTok ER (r2Cell (rot c 6) 6 ho_6) 0 0)
abbrev dRes_7 : sProp 𝕄 := iprop(dutyTok ER (s2Cell c 7 ho_7) 0 0 ∗ dutyTok ER (r2Cell (rot c 7) 7 ho_7) 0 0)
abbrev dRes_8 : sProp 𝕄 := iprop(dutyTok ER (s2Cell c 8 ho_8) 0 0 ∗ dutyTok ER (r2Cell (rot c 8) 8 ho_8) 0 0)
abbrev dRes_9 : sProp 𝕄 := iprop(dutyTok ER (s2Cell c 9 ho_9) 0 0 ∗ dutyTok ER (r2Cell (rot c 9) 9 ho_9) 0 0)
abbrev dRes_10 : sProp 𝕄 := iprop(dutyTok ER (s2Cell c 10 ho_10) 0 0 ∗ dutyTok ER (r2Cell (rot c 10) 10 ho_10) 0 0)
abbrev dRes_11 : sProp 𝕄 := iprop(dutyTok ER (s2Cell c 11 ho_11) 0 0 ∗ dutyTok ER (r2Cell (rot c 11) 11 ho_11) 0 0)
abbrev dRes_12 : sProp 𝕄 := iprop(dutyTok ER (s2Cell c 12 ho_12) 0 0 ∗ dutyTok ER (r2Cell (rot c 12) 12 ho_12) 0 0)
abbrev dRes_13 : sProp 𝕄 := iprop(dutyTok ER (s2Cell c 13 ho_13) 0 0 ∗ dutyTok ER (r2Cell (rot c 13) 13 ho_13) 0 0)
abbrev dRes_14 : sProp 𝕄 := iprop(dutyTok ER (s2Cell c 14 ho_14) 0 0 ∗ dutyTok ER (r2Cell (rot c 14) 14 ho_14) 0 0)
abbrev dRes_15 : sProp 𝕄 := iprop(dutyTok ER (s2Cell c 15 ho_15) 0 0 ∗ dutyTok ER (r2Cell (rot c 15) 15 ho_15) 0 0)
abbrev dRes_16 : sProp 𝕄 := iprop(dutyTok ER (s2Cell c 16 ho_16) 0 0 ∗ dutyTok ER (r2Cell (rot c 16) 16 ho_16) 0 0)
abbrev dRes_17 : sProp 𝕄 := iprop(dutyTok ER (s2Cell c 17 ho_17) 0 0 ∗ dutyTok ER (r2Cell (rot c 17) 17 ho_17) 0 0)
abbrev dRes_18 : sProp 𝕄 := iprop(dutyTok ER (s2Cell c 18 ho_18) 0 0 ∗ dutyTok ER (r2Cell (rot c 18) 18 ho_18) 0 0)
abbrev dRes_19 : sProp 𝕄 := iprop(dutyTok ER (s2Cell c 19 ho_19) 0 0 ∗ dutyTok ER (r2Cell (rot c 19) 19 ho_19) 0 0)
abbrev dRes_20 : sProp 𝕄 := iprop(dutyTok ER (s2Cell c 20 ho_20) 0 0 ∗ dutyTok ER (r2Cell (rot c 20) 20 ho_20) 0 0)
abbrev dRes_21 : sProp 𝕄 := iprop(dutyTok ER (s2Cell c 21 ho_21) 0 0 ∗ dutyTok ER (r2Cell (rot c 21) 21 ho_21) 0 0)
abbrev dRes_22 : sProp 𝕄 := iprop(dutyTok ER (s2Cell c 22 ho_22) 0 0 ∗ dutyTok ER (r2Cell (rot c 22) 22 ho_22) 0 0)
abbrev dRes_23 : sProp 𝕄 := iprop(dutyTok ER (s2Cell c 23 ho_23) 0 0 ∗ dutyTok ER (r2Cell (rot c 23) 23 ho_23) 0 0)
abbrev dRes_24 : sProp 𝕄 := iprop(dutyTok ER (s2Cell c 24 ho_24) 0 0 ∗ dutyTok ER (r2Cell (rot c 24) 24 ho_24) 0 0)
abbrev dRes_25 : sProp 𝕄 := iprop(dutyTok ER (s2Cell c 25 ho_25) 0 0 ∗ dutyTok ER (r2Cell (rot c 25) 25 ho_25) 0 0)
abbrev dRes_26 : sProp 𝕄 := iprop(dutyTok ER (s2Cell c 26 ho_26) 0 0 ∗ dutyTok ER (r2Cell (rot c 26) 26 ho_26) 0 0)
abbrev dRes_27 : sProp 𝕄 := iprop(dutyTok ER (s2Cell c 27 ho_27) 0 0 ∗ dutyTok ER (r2Cell (rot c 27) 27 ho_27) 0 0)
abbrev dRes_28 : sProp 𝕄 := iprop(dutyTok ER (s2Cell c 28 ho_28) 0 0 ∗ dutyTok ER (r2Cell (rot c 28) 28 ho_28) 0 0)
abbrev dRes_29 : sProp 𝕄 := iprop(dutyTok ER (s2Cell c 29 ho_29) 0 0 ∗ dutyTok ER (r2Cell (rot c 29) 29 ho_29) 0 0)
abbrev dRes_30 : sProp 𝕄 := iprop(dutyTok ER (s2Cell c 30 ho_30) 0 0 ∗ dutyTok ER (r2Cell (rot c 30) 30 ho_30) 0 0)
abbrev dRes_31 : sProp 𝕄 := iprop(dutyTok ER (s2Cell c 31 ho_31) 0 0 ∗ dutyTok ER (r2Cell (rot c 31) 31 ho_31) 0 0)
/-- the second exchange's receive wait at offset `k`, and the semaphore of the output copy that follows it -/
abbrev eRes_1 : sProp 𝕄 := iprop(atPos ER (r2Cell c 1 ho_1) 0 ∅ 0 ∗ cred (tallyAt (r2Cell c 1 ho_1) () NX) ∗ semVal ((c : Thread nD τ), .dma (semAt cc0_scratch11 1 ho_1)) 0)
abbrev eRes_2 : sProp 𝕄 := iprop(atPos ER (r2Cell c 2 ho_2) 0 ∅ 0 ∗ cred (tallyAt (r2Cell c 2 ho_2) () NX) ∗ semVal ((c : Thread nD τ), .dma (semAt cc0_scratch11 2 ho_2)) 0)
abbrev eRes_3 : sProp 𝕄 := iprop(atPos ER (r2Cell c 3 ho_3) 0 ∅ 0 ∗ cred (tallyAt (r2Cell c 3 ho_3) () NX) ∗ semVal ((c : Thread nD τ), .dma (semAt cc0_scratch11 3 ho_3)) 0)
abbrev eRes_4 : sProp 𝕄 := iprop(atPos ER (r2Cell c 4 ho_4) 0 ∅ 0 ∗ cred (tallyAt (r2Cell c 4 ho_4) () NX) ∗ semVal ((c : Thread nD τ), .dma (semAt cc0_scratch11 4 ho_4)) 0)
abbrev eRes_5 : sProp 𝕄 := iprop(atPos ER (r2Cell c 5 ho_5) 0 ∅ 0 ∗ cred (tallyAt (r2Cell c 5 ho_5) () NX) ∗ semVal ((c : Thread nD τ), .dma (semAt cc0_scratch11 5 ho_5)) 0)
abbrev eRes_6 : sProp 𝕄 := iprop(atPos ER (r2Cell c 6 ho_6) 0 ∅ 0 ∗ cred (tallyAt (r2Cell c 6 ho_6) () NX) ∗ semVal ((c : Thread nD τ), .dma (semAt cc0_scratch11 6 ho_6)) 0)
abbrev eRes_7 : sProp 𝕄 := iprop(atPos ER (r2Cell c 7 ho_7) 0 ∅ 0 ∗ cred (tallyAt (r2Cell c 7 ho_7) () NX) ∗ semVal ((c : Thread nD τ), .dma (semAt cc0_scratch11 7 ho_7)) 0)
abbrev eRes_8 : sProp 𝕄 := iprop(atPos ER (r2Cell c 8 ho_8) 0 ∅ 0 ∗ cred (tallyAt (r2Cell c 8 ho_8) () NX) ∗ semVal ((c : Thread nD τ), .dma (semAt cc0_scratch11 8 ho_8)) 0)
abbrev eRes_9 : sProp 𝕄 := iprop(atPos ER (r2Cell c 9 ho_9) 0 ∅ 0 ∗ cred (tallyAt (r2Cell c 9 ho_9) () NX) ∗ semVal ((c : Thread nD τ), .dma (semAt cc0_scratch11 9 ho_9)) 0)
abbrev eRes_10 : sProp 𝕄 := iprop(atPos ER (r2Cell c 10 ho_10) 0 ∅ 0 ∗ cred (tallyAt (r2Cell c 10 ho_10) () NX) ∗ semVal ((c : Thread nD τ), .dma (semAt cc0_scratch11 10 ho_10)) 0)
abbrev eRes_11 : sProp 𝕄 := iprop(atPos ER (r2Cell c 11 ho_11) 0 ∅ 0 ∗ cred (tallyAt (r2Cell c 11 ho_11) () NX) ∗ semVal ((c : Thread nD τ), .dma (semAt cc0_scratch11 11 ho_11)) 0)
abbrev eRes_12 : sProp 𝕄 := iprop(atPos ER (r2Cell c 12 ho_12) 0 ∅ 0 ∗ cred (tallyAt (r2Cell c 12 ho_12) () NX) ∗ semVal ((c : Thread nD τ), .dma (semAt cc0_scratch11 12 ho_12)) 0)
abbrev eRes_13 : sProp 𝕄 := iprop(atPos ER (r2Cell c 13 ho_13) 0 ∅ 0 ∗ cred (tallyAt (r2Cell c 13 ho_13) () NX) ∗ semVal ((c : Thread nD τ), .dma (semAt cc0_scratch11 13 ho_13)) 0)
abbrev eRes_14 : sProp 𝕄 := iprop(atPos ER (r2Cell c 14 ho_14) 0 ∅ 0 ∗ cred (tallyAt (r2Cell c 14 ho_14) () NX) ∗ semVal ((c : Thread nD τ), .dma (semAt cc0_scratch11 14 ho_14)) 0)
abbrev eRes_15 : sProp 𝕄 := iprop(atPos ER (r2Cell c 15 ho_15) 0 ∅ 0 ∗ cred (tallyAt (r2Cell c 15 ho_15) () NX) ∗ semVal ((c : Thread nD τ), .dma (semAt cc0_scratch11 15 ho_15)) 0)
abbrev eRes_16 : sProp 𝕄 := iprop(atPos ER (r2Cell c 16 ho_16) 0 ∅ 0 ∗ cred (tallyAt (r2Cell c 16 ho_16) () NX) ∗ semVal ((c : Thread nD τ), .dma (semAt cc0_scratch11 16 ho_16)) 0)
abbrev eRes_17 : sProp 𝕄 := iprop(atPos ER (r2Cell c 17 ho_17) 0 ∅ 0 ∗ cred (tallyAt (r2Cell c 17 ho_17) () NX) ∗ semVal ((c : Thread nD τ), .dma (semAt cc0_scratch11 17 ho_17)) 0)
abbrev eRes_18 : sProp 𝕄 := iprop(atPos ER (r2Cell c 18 ho_18) 0 ∅ 0 ∗ cred (tallyAt (r2Cell c 18 ho_18) () NX) ∗ semVal ((c : Thread nD τ), .dma (semAt cc0_scratch11 18 ho_18)) 0)
abbrev eRes_19 : sProp 𝕄 := iprop(atPos ER (r2Cell c 19 ho_19) 0 ∅ 0 ∗ cred (tallyAt (r2Cell c 19 ho_19) () NX) ∗ semVal ((c : Thread nD τ), .dma (semAt cc0_scratch11 19 ho_19)) 0)
abbrev eRes_20 : sProp 𝕄 := iprop(atPos ER (r2Cell c 20 ho_20) 0 ∅ 0 ∗ cred (tallyAt (r2Cell c 20 ho_20) () NX) ∗ semVal ((c : Thread nD τ), .dma (semAt cc0_scratch11 20 ho_20)) 0)
abbrev eRes_21 : sProp 𝕄 := iprop(atPos ER (r2Cell c 21 ho_21) 0 ∅ 0 ∗ cred (tallyAt (r2Cell c 21 ho_21) () NX) ∗ semVal ((c : Thread nD τ), .dma (semAt cc0_scratch11 21 ho_21)) 0)
abbrev eRes_22 : sProp 𝕄 := iprop(atPos ER (r2Cell c 22 ho_22) 0 ∅ 0 ∗ cred (tallyAt (r2Cell c 22 ho_22) () NX) ∗ semVal ((c : Thread nD τ), .dma (semAt cc0_scratch11 22 ho_22)) 0)
abbrev eRes_23 : sProp 𝕄 := iprop(atPos ER (r2Cell c 23 ho_23) 0 ∅ 0 ∗ cred (tallyAt (r2Cell c 23 ho_23) () NX) ∗ semVal ((c : Thread nD τ), .dma (semAt cc0_scratch11 23 ho_23)) 0)
abbrev eRes_24 : sProp 𝕄 := iprop(atPos ER (r2Cell c 24 ho_24) 0 ∅ 0 ∗ cred (tallyAt (r2Cell c 24 ho_24) () NX) ∗ semVal ((c : Thread nD τ), .dma (semAt cc0_scratch11 24 ho_24)) 0)
abbrev eRes_25 : sProp 𝕄 := iprop(atPos ER (r2Cell c 25 ho_25) 0 ∅ 0 ∗ cred (tallyAt (r2Cell c 25 ho_25) () NX) ∗ semVal ((c : Thread nD τ), .dma (semAt cc0_scratch11 25 ho_25)) 0)
abbrev eRes_26 : sProp 𝕄 := iprop(atPos ER (r2Cell c 26 ho_26) 0 ∅ 0 ∗ cred (tallyAt (r2Cell c 26 ho_26) () NX) ∗ semVal ((c : Thread nD τ), .dma (semAt cc0_scratch11 26 ho_26)) 0)
abbrev eRes_27 : sProp 𝕄 := iprop(atPos ER (r2Cell c 27 ho_27) 0 ∅ 0 ∗ cred (tallyAt (r2Cell c 27 ho_27) () NX) ∗ semVal ((c : Thread nD τ), .dma (semAt cc0_scratch11 27 ho_27)) 0)
abbrev eRes_28 : sProp 𝕄 := iprop(atPos ER (r2Cell c 28 ho_28) 0 ∅ 0 ∗ cred (tallyAt (r2Cell c 28 ho_28) () NX) ∗ semVal ((c : Thread nD τ), .dma (semAt cc0_scratch11 28 ho_28)) 0)
abbrev eRes_29 : sProp 𝕄 := iprop(atPos ER (r2Cell c 29 ho_29) 0 ∅ 0 ∗ cred (tallyAt (r2Cell c 29 ho_29) () NX) ∗ semVal ((c : Thread nD τ), .dma (semAt cc0_scratch11 29 ho_29)) 0)
abbrev eRes_30 : sProp 𝕄 := iprop(atPos ER (r2Cell c 30 ho_30) 0 ∅ 0 ∗ cred (tallyAt (r2Cell c 30 ho_30) () NX) ∗ semVal ((c : Thread nD τ), .dma (semAt cc0_scratch11 30 ho_30)) 0)
abbrev eRes_31 : sProp 𝕄 := iprop(atPos ER (r2Cell c 31 ho_31) 0 ∅ 0 ∗ cred (tallyAt (r2Cell c 31 ho_31) () NX) ∗ semVal ((c : Thread nD τ), .dma (semAt cc0_scratch11 31 ho_31)) 0)
/-- the two send waits at offset `k`: the positions on the send cells -/
abbrev fRes_1 : sProp 𝕄 := iprop(atPos ER (s1Cell c 1 ho_1) 0 ∅ 0 ∗ atPos ER (s2Cell c 1 ho_1) 0 ∅ 0)
abbrev fRes_2 : sProp 𝕄 := iprop(atPos ER (s1Cell c 2 ho_2) 0 ∅ 0 ∗ atPos ER (s2Cell c 2 ho_2) 0 ∅ 0)
abbrev fRes_3 : sProp 𝕄 := iprop(atPos ER (s1Cell c 3 ho_3) 0 ∅ 0 ∗ atPos ER (s2Cell c 3 ho_3) 0 ∅ 0)
abbrev fRes_4 : sProp 𝕄 := iprop(atPos ER (s1Cell c 4 ho_4) 0 ∅ 0 ∗ atPos ER (s2Cell c 4 ho_4) 0 ∅ 0)
abbrev fRes_5 : sProp 𝕄 := iprop(atPos ER (s1Cell c 5 ho_5) 0 ∅ 0 ∗ atPos ER (s2Cell c 5 ho_5) 0 ∅ 0)
abbrev fRes_6 : sProp 𝕄 := iprop(atPos ER (s1Cell c 6 ho_6) 0 ∅ 0 ∗ atPos ER (s2Cell c 6 ho_6) 0 ∅ 0)
abbrev fRes_7 : sProp 𝕄 := iprop(atPos ER (s1Cell c 7 ho_7) 0 ∅ 0 ∗ atPos ER (s2Cell c 7 ho_7) 0 ∅ 0)
abbrev fRes_8 : sProp 𝕄 := iprop(atPos ER (s1Cell c 8 ho_8) 0 ∅ 0 ∗ atPos ER (s2Cell c 8 ho_8) 0 ∅ 0)
abbrev fRes_9 : sProp 𝕄 := iprop(atPos ER (s1Cell c 9 ho_9) 0 ∅ 0 ∗ atPos ER (s2Cell c 9 ho_9) 0 ∅ 0)
abbrev fRes_10 : sProp 𝕄 := iprop(atPos ER (s1Cell c 10 ho_10) 0 ∅ 0 ∗ atPos ER (s2Cell c 10 ho_10) 0 ∅ 0)
abbrev fRes_11 : sProp 𝕄 := iprop(atPos ER (s1Cell c 11 ho_11) 0 ∅ 0 ∗ atPos ER (s2Cell c 11 ho_11) 0 ∅ 0)
abbrev fRes_12 : sProp 𝕄 := iprop(atPos ER (s1Cell c 12 ho_12) 0 ∅ 0 ∗ atPos ER (s2Cell c 12 ho_12) 0 ∅ 0)
abbrev fRes_13 : sProp 𝕄 := iprop(atPos ER (s1Cell c 13 ho_13) 0 ∅ 0 ∗ atPos ER (s2Cell c 13 ho_13) 0 ∅ 0)
abbrev fRes_14 : sProp 𝕄 := iprop(atPos ER (s1Cell c 14 ho_14) 0 ∅ 0 ∗ atPos ER (s2Cell c 14 ho_14) 0 ∅ 0)
abbrev fRes_15 : sProp 𝕄 := iprop(atPos ER (s1Cell c 15 ho_15) 0 ∅ 0 ∗ atPos ER (s2Cell c 15 ho_15) 0 ∅ 0)
abbrev fRes_16 : sProp 𝕄 := iprop(atPos ER (s1Cell c 16 ho_16) 0 ∅ 0 ∗ atPos ER (s2Cell c 16 ho_16) 0 ∅ 0)
abbrev fRes_17 : sProp 𝕄 := iprop(atPos ER (s1Cell c 17 ho_17) 0 ∅ 0 ∗ atPos ER (s2Cell c 17 ho_17) 0 ∅ 0)
abbrev fRes_18 : sProp 𝕄 := iprop(atPos ER (s1Cell c 18 ho_18) 0 ∅ 0 ∗ atPos ER (s2Cell c 18 ho_18) 0 ∅ 0)
abbrev fRes_19 : sProp 𝕄 := iprop(atPos ER (s1Cell c 19 ho_19) 0 ∅ 0 ∗ atPos ER (s2Cell c 19 ho_19) 0 ∅ 0)
abbrev fRes_20 : sProp 𝕄 := iprop(atPos ER (s1Cell c 20 ho_20) 0 ∅ 0 ∗ atPos ER (s2Cell c 20 ho_20) 0 ∅ 0)
abbrev fRes_21 : sProp 𝕄 := iprop(atPos ER (s1Cell c 21 ho_21) 0 ∅ 0 ∗ atPos ER (s2Cell c 21 ho_21) 0 ∅ 0)
abbrev fRes_22 : sProp 𝕄 := iprop(atPos ER (s1Cell c 22 ho_22) 0 ∅ 0 ∗ atPos ER (s2Cell c 22 ho_22) 0 ∅ 0)
abbrev fRes_23 : sProp 𝕄 := iprop(atPos ER (s1Cell c 23 ho_23) 0 ∅ 0 ∗ atPos ER (s2Cell c 23 ho_23) 0 ∅ 0)
abbrev fRes_24 : sProp 𝕄 := iprop(atPos ER (s1Cell c 24 ho_24) 0 ∅ 0 ∗ atPos ER (s2Cell c 24 ho_24) 0 ∅ 0)
abbrev fRes_25 : sProp 𝕄 := iprop(atPos ER (s1Cell c 25 ho_25) 0 ∅ 0 ∗ atPos ER (s2Cell c 25 ho_25) 0 ∅ 0)
abbrev fRes_26 : sProp 𝕄 := iprop(atPos ER (s1Cell c 26 ho_26) 0 ∅ 0 ∗ atPos ER (s2Cell c 26 ho_26) 0 ∅ 0)
abbrev fRes_27 : sProp 𝕄 := iprop(atPos ER (s1Cell c 27 ho_27) 0 ∅ 0 ∗ atPos ER (s2Cell c 27 ho_27) 0 ∅ 0)
abbrev fRes_28 : sProp 𝕄 := iprop(atPos ER (s1Cell c 28 ho_28) 0 ∅ 0 ∗ atPos ER (s2Cell c 28 ho_28) 0 ∅ 0)
abbrev fRes_29 : sProp 𝕄 := iprop(atPos ER (s1Cell c 29 ho_29) 0 ∅ 0 ∗ atPos ER (s2Cell c 29 ho_29) 0 ∅ 0)
abbrev fRes_30 : sProp 𝕄 := iprop(atPos ER (s1Cell c 30 ho_30) 0 ∅ 0 ∗ atPos ER (s2Cell c 30 ho_30) 0 ∅ 0)
abbrev fRes_31 : sProp 𝕄 := iprop(atPos ER (s1Cell c 31 ho_31) 0 ∅ 0 ∗ atPos ER (s2Cell c 31 ho_31) 0 ∅ 0)
/-- what no offset uses but the first output copy: the index-0 semaphores and slots -/
abbrev locRes : sProp 𝕄 := iprop(semVal ((c : Thread nD τ), .dma (semAt cc0_scratch11 0 ho_0)) 0 ∗ ((slotM cm1 0 ho_0).view.loc (c : Thread nD τ) ↦[(slotM cm1 0 ho_0).view.set]{fullShare} g1) ∗ ((slotM cm2 0 ho_0).view.loc (c : Thread nD τ) ↦[(slotM cm2 0 ho_0).view.set]{fullShare} g2)
      ∗ semVal (s1Cell c 0 ho_0) 0 ∗ semVal (r1Cell c 0 ho_0) 0 ∗ semVal (s2Cell c 0 ho_0) 0 ∗ semVal (r2Cell c 0 ho_0) 0)

/-- The groups of one stage of the kernel, each held, all held together until the stage begins. -/
abbrev sigAll : sProp 𝕄 := iprop(Held (sigRes_1 (F := F) c g1 g2) ∗ Held (sigRes_2 (F := F) c g1 g2) ∗ Held (sigRes_3 (F := F) c g1 g2) ∗ Held (sigRes_4 (F := F) c g1 g2) ∗ Held (sigRes_5 (F := F) c g1 g2) ∗ Held (sigRes_6 (F := F) c g1 g2) ∗ Held (sigRes_7 (F := F) c g1 g2) ∗ Held (sigRes_8 (F := F) c g1 g2) ∗ Held (sigRes_9 (F := F) c g1 g2) ∗ Held (sigRes_10 (F := F) c g1 g2) ∗ Held (sigRes_11 (F := F) c g1 g2) ∗ Held (sigRes_12 (F := F) c g1 g2) ∗ Held (sigRes_13 (F := F) c g1 g2) ∗ Held (sigRes_14 (F := F) c g1 g2) ∗ Held (sigRes_15 (F := F) c g1 g2) ∗ Held (sigRes_16 (F := F) c g1 g2) ∗ Held (sigRes_17 (F := F) c g1 g2) ∗ Held (sigRes_18 (F := F) c g1 g2) ∗ Held (sigRes_19 (F := F) c g1 g2) ∗ Held (sigRes_20 (F := F) c g1 g2) ∗ Held (sigRes_21 (F := F) c g1 g2) ∗ Held (sigRes_22 (F := F) c g1 g2) ∗ Held (sigRes_23 (F := F) c g1 g2) ∗ Held (sigRes_24 (F := F) c g1 g2) ∗ Held (sigRes_25 (F := F) c g1 g2) ∗ Held (sigRes_26 (F := F) c g1 g2) ∗ Held (sigRes_27 (F := F) c g1 g2) ∗ Held (sigRes_28 (F := F) c g1 g2) ∗ Held (sigRes_29 (F := F) c g1 g2) ∗ Held (sigRes_30 (F := F) c g1 g2) ∗ Held (sigRes_31 (F := F) c g1 g2))
abbrev bAll : sProp 𝕄 := iprop(Held (bRes_1 (F := F) c) ∗ Held (bRes_2 (F := F) c) ∗ Held (bRes_3 (F := F) c) ∗ Held (bRes_4 (F := F) c) ∗ Held (bRes_5 (F := F) c) ∗ Held (bRes_6 (F := F) c) ∗ Held (bRes_7 (F := F) c) ∗ Held (bRes_8 (F := F) c) ∗ Held (bRes_9 (F := F) c) ∗ Held (bRes_10 (F := F) c) ∗ Held (bRes_11 (F := F) c) ∗ Held (bRes_12 (F := F) c) ∗ Held (bRes_13 (F := F) c) ∗ Held (bRes_14 (F := F) c) ∗ Held (bRes_15 (F := F) c) ∗ Held (bRes_16 (F := F) c) ∗ Held (bRes_17 (F := F) c) ∗ Held (bRes_18 (F := F) c) ∗ Held (bRes_19 (F := F) c) ∗ Held (bRes_20 (F := F) c) ∗ Held (bRes_21 (F := F) c) ∗ Held (bRes_22 (F := F) c) ∗ Held (bRes_23 (F := F) c) ∗ Held (bRes_24 (F := F) c) ∗ Held (bRes_25 (F := F) c) ∗ Held (bRes_26 (F := F) c) ∗ Held (bRes_27 (F := F) c) ∗ Held (bRes_28 (F := F) c) ∗ Held (bRes_29 (F := F) c) ∗ Held (bRes_30 (F := F) c) ∗ Held (bRes_31 (F := F) c))
abbrev cAll : sProp 𝕄 := iprop(Held (cRes_1 (F := F) c) ∗ Held (cRes_2 (F := F) c) ∗ Held (cRes_3 (F := F) c) ∗ Held (cRes_4 (F := F) c) ∗ Held (cRes_5 (F := F) c) ∗ Held (cRes_6 (F := F) c) ∗ Held (cRes_7 (F := F) c) ∗ Held (cRes_8 (F := F) c) ∗ Held (cRes_9 (F := F) c) ∗ Held (cRes_10 (F := F) c) ∗ Held (cRes_11 (F := F) c) ∗ Held (cRes_12 (F := F) c) ∗ Held (cRes_13 (F := F) c) ∗ Held (cRes_14 (F := F) c) ∗ Held (cRes_15 (F := F) c) ∗ Held (cRes_16 (F := F) c) ∗ Held (cRes_17 (F := F) c) ∗ Held (cRes_18 (F := F) c) ∗ Held (cRes_19 (F := F) c) ∗ Held (cRes_20 (F := F) c) ∗ Held (cRes_21 (F := F) c) ∗ Held (cRes_22 (F := F) c) ∗ Held (cRes_23 (F := F) c) ∗ Held (cRes_24 (F := F) c) ∗ Held (cRes_25 (F := F) c) ∗ Held (cRes_26 (F := F) c) ∗ Held (cRes_27 (F := F) c) ∗ Held (cRes_28 (F := F) c) ∗ Held (cRes_29 (F := F) c) ∗ Held (cRes_30 (F := F) c) ∗ Held (cRes_31 (F := F) c))
abbrev dAll : sProp 𝕄 := iprop(Held (dRes_1 (F := F) c) ∗ Held (dRes_2 (F := F) c) ∗ Held (dRes_3 (F := F) c) ∗ Held (dRes_4 (F := F) c) ∗ Held (dRes_5 (F := F) c) ∗ Held (dRes_6 (F := F) c) ∗ Held (dRes_7 (F := F) c) ∗ Held (dRes_8 (F := F) c) ∗ Held (dRes_9 (F := F) c) ∗ Held (dRes_10 (F := F) c) ∗ Held (dRes_11 (F := F) c) ∗ Held (dRes_12 (F := F) c) ∗ Held (dRes_13 (F := F) c) ∗ Held (dRes_14 (F := F) c) ∗ Held (dRes_15 (F := F) c) ∗ Held (dRes_16 (F := F) c) ∗ Held (dRes_17 (F := F) c) ∗ Held (dRes_18 (F := F) c) ∗ Held (dRes_19 (F := F) c) ∗ Held (dRes_20 (F := F) c) ∗ Held (dRes_21 (F := F) c) ∗ Held (dRes_22 (F := F) c) ∗ Held (dRes_23 (F := F) c) ∗ Held (dRes_24 (F := F) c) ∗ Held (dRes_25 (F := F) c) ∗ Held (dRes_26 (F := F) c) ∗ Held (dRes_27 (F := F) c) ∗ Held (dRes_28 (F := F) c) ∗ Held (dRes_29 (F := F) c) ∗ Held (dRes_30 (F := F) c) ∗ Held (dRes_31 (F := F) c))
abbrev eAll : sProp 𝕄 := iprop(Held (eRes_1 (F := F) c) ∗ Held (eRes_2 (F := F) c) ∗ Held (eRes_3 (F := F) c) ∗ Held (eRes_4 (F := F) c) ∗ Held (eRes_5 (F := F) c) ∗ Held (eRes_6 (F := F) c) ∗ Held (eRes_7 (F := F) c) ∗ Held (eRes_8 (F := F) c) ∗ Held (eRes_9 (F := F) c) ∗ Held (eRes_10 (F := F) c) ∗ Held (eRes_11 (F := F) c) ∗ Held (eRes_12 (F := F) c) ∗ Held (eRes_13 (F := F) c) ∗ Held (eRes_14 (F := F) c) ∗ Held (eRes_15 (F := F) c) ∗ Held (eRes_16 (F := F) c) ∗ Held (eRes_17 (F := F) c) ∗ Held (eRes_18 (F := F) c) ∗ Held (eRes_19 (F := F) c) ∗ Held (eRes_20 (F := F) c) ∗ Held (eRes_21 (F := F) c) ∗ Held (eRes_22 (F := F) c) ∗ Held (eRes_23 (F := F) c) ∗ Held (eRes_24 (F := F) c) ∗ Held (eRes_25 (F := F) c) ∗ Held (eRes_26 (F := F) c) ∗ Held (eRes_27 (F := F) c) ∗ Held (eRes_28 (F := F) c) ∗ Held (eRes_29 (F := F) c) ∗ Held (eRes_30 (F := F) c) ∗ Held (eRes_31 (F := F) c))
abbrev fAll : sProp 𝕄 := iprop(Held (fRes_1 (F := F) c) ∗ Held (fRes_2 (F := F) c) ∗ Held (fRes_3 (F := F) c) ∗ Held (fRes_4 (F := F) c) ∗ Held (fRes_5 (F := F) c) ∗ Held (fRes_6 (F := F) c) ∗ Held (fRes_7 (F := F) c) ∗ Held (fRes_8 (F := F) c) ∗ Held (fRes_9 (F := F) c) ∗ Held (fRes_10 (F := F) c) ∗ Held (fRes_11 (F := F) c) ∗ Held (fRes_12 (F := F) c) ∗ Held (fRes_13 (F := F) c) ∗ Held (fRes_14 (F := F) c) ∗ Held (fRes_15 (F := F) c) ∗ Held (fRes_16 (F := F) c) ∗ Held (fRes_17 (F := F) c) ∗ Held (fRes_18 (F := F) c) ∗ Held (fRes_19 (F := F) c) ∗ Held (fRes_20 (F := F) c) ∗ Held (fRes_21 (F := F) c) ∗ Held (fRes_22 (F := F) c) ∗ Held (fRes_23 (F := F) c) ∗ Held (fRes_24 (F := F) c) ∗ Held (fRes_25 (F := F) c) ∗ Held (fRes_26 (F := F) c) ∗ Held (fRes_27 (F := F) c) ∗ Held (fRes_28 (F := F) c) ∗ Held (fRes_29 (F := F) c) ∗ Held (fRes_30 (F := F) c) ∗ Held (fRes_31 (F := F) c))

/-- The starting state: the records of every cell, the levels, what the device owes, the input copy's semaphore, the
    argument and the result arrays, the four scratch buffers no transfer lands in, its position and credit on its barrier
    cell, and the groups stage by stage. -/
def bodyStart (K : Dev nD × CK → ℕ) (W : Waits sig Unit)
    (fO : Buf (Elt F) (oR.view.loc (c : Thread nD τ))) (f0 : Buf (Elt F) (tV.view.loc (c : Thread nD τ)))
    (f1 : Buf (Elt F) (st1.view.loc (c : Thread nD τ))) (f3 : Buf (Elt F) (st2.view.loc (c : Thread nD τ)))
    (f5 : Buf (Elt F) (sto.view.loc (c : Thread nD τ))) (m : (ℓ : Loc nD τ sig) → Buf (Elt F) ℓ) : sProp 𝕄 :=
  iprop(records (F := F) S1c Y2c K ∗ levAts L lv ∗ owes (c : Thread nD τ) (owed93 c) W
    ∗ semVal ((c : Thread nD τ), .dma cc0_scratch6.sem) 0
    ∗ (tR.view.loc (c : Thread nD τ) ↦{fullShare} m ((c : Thread nD τ).loc main_arg0)) ∗ (oR.view.loc (c : Thread nD τ) ↦{fullShare} fO)
    ∗ (tV.view.loc (c : Thread nD τ) ↦{fullShare} f0) ∗ (st1.view.loc (c : Thread nD τ) ↦{fullShare} f1)
    ∗ (st2.view.loc (c : Thread nD τ) ↦{fullShare} f3) ∗ (sto.view.loc (c : Thread nD τ) ↦{fullShare} f5)
    ∗ atPos ER (barCell c) 0 ∅ 0 ∗ cred (tallyAt (barCell c) () 31)
    ∗ Held (locRes (F := F) c g1 g2)
    ∗ Held (sigAll (F := F) c g1 g2) ∗ Held (bAll (F := F) c) ∗ Held (cAll (F := F) c) ∗ Held (dAll (F := F) c)
    ∗ Held (eAll (F := F) c) ∗ Held (fAll (F := F) c))

end Start

section End
variable (c : Dev nD)

/-- What the kernel body leaves: nothing owed; the argument as it was and the result at its closed form; every scratch
    buffer back (the narrowed block and the two landing buffers piece by piece, at some contents); every DMA semaphore at zero. -/
def bodyEnd (OUTc : (c : Dev nD) → Buf (Elt F) ((c : Thread nD τ).loc main_v1)) (m : (ℓ : Loc nD τ sig) → Buf (Elt F) ℓ) (W : Waits sig Unit) : sProp 𝕄 :=
  iprop(owes (c : Thread nD τ) 0 W
    ∗ (tR.view.loc (c : Thread nD τ) ↦{fullShare} m ((c : Thread nD τ).loc main_arg0)) ∗ (oR.view.loc (c : Thread nD τ) ↦{fullShare} OUTc c)
    ∗ (∃ f, (tV.view.loc (c : Thread nD τ) ↦{fullShare} f : sProp 𝕄)) ∗ (∃ f, (st2.view.loc (c : Thread nD τ) ↦{fullShare} f : sProp 𝕄)) ∗ (∃ f, (sto.view.loc (c : Thread nD τ) ↦{fullShare} f : sProp 𝕄))
    ∗ ((∃ g, ((ownM1 c).view.loc (c : Thread nD τ) ↦[(ownM1 c).view.set]{fullShare} g : sProp 𝕄)) ∗ (∃ g, ((srcM1 c 1 hk_1).view.loc (c : Thread nD τ) ↦[(srcM1 c 1 hk_1).view.set]{fullShare} g : sProp 𝕄)) ∗ (∃ g, ((srcM1 c 2 hk_2).view.loc (c : Thread nD τ) ↦[(srcM1 c 2 hk_2).view.set]{fullShare} g : sProp 𝕄)) ∗ (∃ g, ((srcM1 c 3 hk_3).view.loc (c : Thread nD τ) ↦[(srcM1 c 3 hk_3).view.set]{fullShare} g : sProp 𝕄)) ∗ (∃ g, ((srcM1 c 4 hk_4).view.loc (c : Thread nD τ) ↦[(srcM1 c 4 hk_4).view.set]{fullShare} g : sProp 𝕄)) ∗ (∃ g, ((srcM1 c 5 hk_5).view.loc (c : Thread nD τ) ↦[(srcM1 c 5 hk_5).view.set]{fullShare} g : sProp 𝕄)) ∗ (∃ g, ((srcM1 c 6 hk_6).view.loc (c : Thread nD τ) ↦[(srcM1 c 6 hk_6).view.set]{fullShare} g : sProp 𝕄)) ∗ (∃ g, ((srcM1 c 7 hk_7).view.loc (c : Thread nD τ) ↦[(srcM1 c 7 hk_7).view.set]{fullShare} g : sProp 𝕄)) ∗ (∃ g, ((srcM1 c 8 hk_8).view.loc (c : Thread nD τ) ↦[(srcM1 c 8 hk_8).view.set]{fullShare} g : sProp 𝕄)) ∗ (∃ g, ((srcM1 c 9 hk_9).view.loc (c : Thread nD τ) ↦[(srcM1 c 9 hk_9).view.set]{fullShare} g : sProp 𝕄)) ∗ (∃ g, ((srcM1 c 10 hk_10).view.loc (c : Thread nD τ) ↦[(srcM1 c 10 hk_10).view.set]{fullShare} g : sProp 𝕄)) ∗ (∃ g, ((srcM1 c 11 hk_11).view.loc (c : Thread nD τ) ↦[(srcM1 c 11 hk_11).view.set]{fullShare} g : sProp 𝕄)) ∗ (∃ g, ((srcM1 c 12 hk_12).view.loc (c : Thread nD τ) ↦[(srcM1 c 12 hk_12).view.set]{fullShare} g : sProp 𝕄)) ∗ (∃ g, ((srcM1 c 13 hk_13).view.loc (c : Thread nD τ) ↦[(srcM1 c 13 hk_13).view.set]{fullShare} g : sProp 𝕄)) ∗ (∃ g, ((srcM1 c 14 hk_14).view.loc (c : Thread nD τ) ↦[(srcM1 c 14 hk_14).view.set]{fullShare} g : sProp 𝕄)) ∗ (∃ g, ((srcM1 c 15 hk_15).view.loc (c : Thread nD τ) ↦[(srcM1 c 15 hk_15).view.set]{fullShare} g : sProp 𝕄)) ∗ (∃ g, ((srcM1 c 16 hk_16).view.loc (c : Thread nD τ) ↦[(srcM1 c 16 hk_16).view.set]{fullShare} g : sProp 𝕄)) ∗ (∃ g, ((srcM1 c 17 hk_17).view.loc (c : Thread nD τ) ↦[(srcM1 c 17 hk_17).view.set]{fullShare} g : sProp 𝕄)) ∗ (∃ g, ((srcM1 c 18 hk_18).view.loc (c : Thread nD τ) ↦[(srcM1 c 18 hk_18).view.set]{fullShare} g : sProp 𝕄)) ∗ (∃ g, ((srcM1 c 19 hk_19).view.loc (c : Thread nD τ) ↦[(srcM1 c 19 hk_19).view.set]{fullShare} g : sProp 𝕄)) ∗ (∃ g, ((srcM1 c 20 hk_20).view.loc (c : Thread nD τ) ↦[(srcM1 c 20 hk_20).view.set]{fullShare} g : sProp 𝕄)) ∗ (∃ g, ((srcM1 c 21 hk_21).view.loc (c : Thread nD τ) ↦[(srcM1 c 21 hk_21).view.set]{fullShare} g : sProp 𝕄)) ∗ (∃ g, ((srcM1 c 22 hk_22).view.loc (c : Thread nD τ) ↦[(srcM1 c 22 hk_22).view.set]{fullShare} g : sProp 𝕄)) ∗ (∃ g, ((srcM1 c 23 hk_23).view.loc (c : Thread nD τ) ↦[(srcM1 c 23 hk_23).view.set]{fullShare} g : sProp 𝕄)) ∗ (∃ g, ((srcM1 c 24 hk_24).view.loc (c : Thread nD τ) ↦[(srcM1 c 24 hk_24).view.set]{fullShare} g : sProp 𝕄)) ∗ (∃ g, ((srcM1 c 25 hk_25).view.loc (c : Thread nD τ) ↦[(srcM1 c 25 hk_25).view.set]{fullShare} g : sProp 𝕄)) ∗ (∃ g, ((srcM1 c 26 hk_26).view.loc (c : Thread nD τ) ↦[(srcM1 c 26 hk_26).view.set]{fullShare} g : sProp 𝕄)) ∗ (∃ g, ((srcM1 c 27 hk_27).view.loc (c : Thread nD τ) ↦[(srcM1 c 27 hk_27).view.set]{fullShare} g : sProp 𝕄)) ∗ (∃ g, ((srcM1 c 28 hk_28).view.loc (c : Thread nD τ) ↦[(srcM1 c 28 hk_28).view.set]{fullShare} g : sProp 𝕄)) ∗ (∃ g, ((srcM1 c 29 hk_29).view.loc (c : Thread nD τ) ↦[(srcM1 c 29 hk_29).view.set]{fullShare} g : sProp 𝕄)) ∗ (∃ g, ((srcM1 c 30 hk_30).view.loc (c : Thread nD τ) ↦[(srcM1 c 30 hk_30).view.set]{fullShare} g : sProp 𝕄)) ∗ (∃ g, ((srcM1 c 31 hk_31).view.loc (c : Thread nD τ) ↦[(srcM1 c 31 hk_31).view.set]{fullShare} g : sProp 𝕄)))
    ∗ ((∃ g, ((slotM cm1 0 ho_0).view.loc (c : Thread nD τ) ↦[(slotM cm1 0 ho_0).view.set]{fullShare} g : sProp 𝕄)) ∗ (∃ g, ((slotM cm1 1 ho_1).view.loc (c : Thread nD τ) ↦[(slotM cm1 1 ho_1).view.set]{fullShare} g : sProp 𝕄)) ∗ (∃ g, ((slotM cm1 2 ho_2).view.loc (c : Thread nD τ) ↦[(slotM cm1 2 ho_2).view.set]{fullShare} g : sProp 𝕄)) ∗ (∃ g, ((slotM cm1 3 ho_3).view.loc (c : Thread nD τ) ↦[(slotM cm1 3 ho_3).view.set]{fullShare} g : sProp 𝕄)) ∗ (∃ g, ((slotM cm1 4 ho_4).view.loc (c : Thread nD τ) ↦[(slotM cm1 4 ho_4).view.set]{fullShare} g : sProp 𝕄)) ∗ (∃ g, ((slotM cm1 5 ho_5).view.loc (c : Thread nD τ) ↦[(slotM cm1 5 ho_5).view.set]{fullShare} g : sProp 𝕄)) ∗ (∃ g, ((slotM cm1 6 ho_6).view.loc (c : Thread nD τ) ↦[(slotM cm1 6 ho_6).view.set]{fullShare} g : sProp 𝕄)) ∗ (∃ g, ((slotM cm1 7 ho_7).view.loc (c : Thread nD τ) ↦[(slotM cm1 7 ho_7).view.set]{fullShare} g : sProp 𝕄)) ∗ (∃ g, ((slotM cm1 8 ho_8).view.loc (c : Thread nD τ) ↦[(slotM cm1 8 ho_8).view.set]{fullShare} g : sProp 𝕄)) ∗ (∃ g, ((slotM cm1 9 ho_9).view.loc (c : Thread nD τ) ↦[(slotM cm1 9 ho_9).view.set]{fullShare} g : sProp 𝕄)) ∗ (∃ g, ((slotM cm1 10 ho_10).view.loc (c : Thread nD τ) ↦[(slotM cm1 10 ho_10).view.set]{fullShare} g : sProp 𝕄)) ∗ (∃ g, ((slotM cm1 11 ho_11).view.loc (c : Thread nD τ) ↦[(slotM cm1 11 ho_11).view.set]{fullShare} g : sProp 𝕄)) ∗ (∃ g, ((slotM cm1 12 ho_12).view.loc (c : Thread nD τ) ↦[(slotM cm1 12 ho_12).view.set]{fullShare} g : sProp 𝕄)) ∗ (∃ g, ((slotM cm1 13 ho_13).view.loc (c : Thread nD τ) ↦[(slotM cm1 13 ho_13).view.set]{fullShare} g : sProp 𝕄)) ∗ (∃ g, ((slotM cm1 14 ho_14).view.loc (c : Thread nD τ) ↦[(slotM cm1 14 ho_14).view.set]{fullShare} g : sProp 𝕄)) ∗ (∃ g, ((slotM cm1 15 ho_15).view.loc (c : Thread nD τ) ↦[(slotM cm1 15 ho_15).view.set]{fullShare} g : sProp 𝕄)) ∗ (∃ g, ((slotM cm1 16 ho_16).view.loc (c : Thread nD τ) ↦[(slotM cm1 16 ho_16).view.set]{fullShare} g : sProp 𝕄)) ∗ (∃ g, ((slotM cm1 17 ho_17).view.loc (c : Thread nD τ) ↦[(slotM cm1 17 ho_17).view.set]{fullShare} g : sProp 𝕄)) ∗ (∃ g, ((slotM cm1 18 ho_18).view.loc (c : Thread nD τ) ↦[(slotM cm1 18 ho_18).view.set]{fullShare} g : sProp 𝕄)) ∗ (∃ g, ((slotM cm1 19 ho_19).view.loc (c : Thread nD τ) ↦[(slotM cm1 19 ho_19).view.set]{fullShare} g : sProp 𝕄)) ∗ (∃ g, ((slotM cm1 20 ho_20).view.loc (c : Thread nD τ) ↦[(slotM cm1 20 ho_20).view.set]{fullShare} g : sProp 𝕄)) ∗ (∃ g, ((slotM cm1 21 ho_21).view.loc (c : Thread nD τ) ↦[(slotM cm1 21 ho_21).view.set]{fullShare} g : sProp 𝕄)) ∗ (∃ g, ((slotM cm1 22 ho_22).view.loc (c : Thread nD τ) ↦[(slotM cm1 22 ho_22).view.set]{fullShare} g : sProp 𝕄)) ∗ (∃ g, ((slotM cm1 23 ho_23).view.loc (c : Thread nD τ) ↦[(slotM cm1 23 ho_23).view.set]{fullShare} g : sProp 𝕄)) ∗ (∃ g, ((slotM cm1 24 ho_24).view.loc (c : Thread nD τ) ↦[(slotM cm1 24 ho_24).view.set]{fullShare} g : sProp 𝕄)) ∗ (∃ g, ((slotM cm1 25 ho_25).view.loc (c : Thread nD τ) ↦[(slotM cm1 25 ho_25).view.set]{fullShare} g : sProp 𝕄)) ∗ (∃ g, ((slotM cm1 26 ho_26).view.loc (c : Thread nD τ) ↦[(slotM cm1 26 ho_26).view.set]{fullShare} g : sProp 𝕄)) ∗ (∃ g, ((slotM cm1 27 ho_27).view.loc (c : Thread nD τ) ↦[(slotM cm1 27 ho_27).view.set]{fullShare} g : sProp 𝕄)) ∗ (∃ g, ((slotM cm1 28 ho_28).view.loc (c : Thread nD τ) ↦[(slotM cm1 28 ho_28).view.set]{fullShare} g : sProp 𝕄)) ∗ (∃ g, ((slotM cm1 29 ho_29).view.loc (c : Thread nD τ) ↦[(slotM cm1 29 ho_29).view.set]{fullShare} g : sProp 𝕄)) ∗ (∃ g, ((slotM cm1 30 ho_30).view.loc (c : Thread nD τ) ↦[(slotM cm1 30 ho_30).view.set]{fullShare} g : sProp 𝕄)) ∗ (∃ g, ((slotM cm1 31 ho_31).view.loc (c : Thread nD τ) ↦[(slotM cm1 31 ho_31).view.set]{fullShare} g : sProp 𝕄)))
    ∗ ((∃ g, ((slotM cm2 0 ho_0).view.loc (c : Thread nD τ) ↦[(slotM cm2 0 ho_0).view.set]{fullShare} g : sProp 𝕄)) ∗ (∃ g, ((slotM cm2 1 ho_1).view.loc (c : Thread nD τ) ↦[(slotM cm2 1 ho_1).view.set]{fullShare} g : sProp 𝕄)) ∗ (∃ g, ((slotM cm2 2 ho_2).view.loc (c : Thread nD τ) ↦[(slotM cm2 2 ho_2).view.set]{fullShare} g : sProp 𝕄)) ∗ (∃ g, ((slotM cm2 3 ho_3).view.loc (c : Thread nD τ) ↦[(slotM cm2 3 ho_3).view.set]{fullShare} g : sProp 𝕄)) ∗ (∃ g, ((slotM cm2 4 ho_4).view.loc (c : Thread nD τ) ↦[(slotM cm2 4 ho_4).view.set]{fullShare} g : sProp 𝕄)) ∗ (∃ g, ((slotM cm2 5 ho_5).view.loc (c : Thread nD τ) ↦[(slotM cm2 5 ho_5).view.set]{fullShare} g : sProp 𝕄)) ∗ (∃ g, ((slotM cm2 6 ho_6).view.loc (c : Thread nD τ) ↦[(slotM cm2 6 ho_6).view.set]{fullShare} g : sProp 𝕄)) ∗ (∃ g, ((slotM cm2 7 ho_7).view.loc (c : Thread nD τ) ↦[(slotM cm2 7 ho_7).view.set]{fullShare} g : sProp 𝕄)) ∗ (∃ g, ((slotM cm2 8 ho_8).view.loc (c : Thread nD τ) ↦[(slotM cm2 8 ho_8).view.set]{fullShare} g : sProp 𝕄)) ∗ (∃ g, ((slotM cm2 9 ho_9).view.loc (c : Thread nD τ) ↦[(slotM cm2 9 ho_9).view.set]{fullShare} g : sProp 𝕄)) ∗ (∃ g, ((slotM cm2 10 ho_10).view.loc (c : Thread nD τ) ↦[(slotM cm2 10 ho_10).view.set]{fullShare} g : sProp 𝕄)) ∗ (∃ g, ((slotM cm2 11 ho_11).view.loc (c : Thread nD τ) ↦[(slotM cm2 11 ho_11).view.set]{fullShare} g : sProp 𝕄)) ∗ (∃ g, ((slotM cm2 12 ho_12).view.loc (c : Thread nD τ) ↦[(slotM cm2 12 ho_12).view.set]{fullShare} g : sProp 𝕄)) ∗ (∃ g, ((slotM cm2 13 ho_13).view.loc (c : Thread nD τ) ↦[(slotM cm2 13 ho_13).view.set]{fullShare} g : sProp 𝕄)) ∗ (∃ g, ((slotM cm2 14 ho_14).view.loc (c : Thread nD τ) ↦[(slotM cm2 14 ho_14).view.set]{fullShare} g : sProp 𝕄)) ∗ (∃ g, ((slotM cm2 15 ho_15).view.loc (c : Thread nD τ) ↦[(slotM cm2 15 ho_15).view.set]{fullShare} g : sProp 𝕄)) ∗ (∃ g, ((slotM cm2 16 ho_16).view.loc (c : Thread nD τ) ↦[(slotM cm2 16 ho_16).view.set]{fullShare} g : sProp 𝕄)) ∗ (∃ g, ((slotM cm2 17 ho_17).view.loc (c : Thread nD τ) ↦[(slotM cm2 17 ho_17).view.set]{fullShare} g : sProp 𝕄)) ∗ (∃ g, ((slotM cm2 18 ho_18).view.loc (c : Thread nD τ) ↦[(slotM cm2 18 ho_18).view.set]{fullShare} g : sProp 𝕄)) ∗ (∃ g, ((slotM cm2 19 ho_19).view.loc (c : Thread nD τ) ↦[(slotM cm2 19 ho_19).view.set]{fullShare} g : sProp 𝕄)) ∗ (∃ g, ((slotM cm2 20 ho_20).view.loc (c : Thread nD τ) ↦[(slotM cm2 20 ho_20).view.set]{fullShare} g : sProp 𝕄)) ∗ (∃ g, ((slotM cm2 21 ho_21).view.loc (c : Thread nD τ) ↦[(slotM cm2 21 ho_21).view.set]{fullShare} g : sProp 𝕄)) ∗ (∃ g, ((slotM cm2 22 ho_22).view.loc (c : Thread nD τ) ↦[(slotM cm2 22 ho_22).view.set]{fullShare} g : sProp 𝕄)) ∗ (∃ g, ((slotM cm2 23 ho_23).view.loc (c : Thread nD τ) ↦[(slotM cm2 23 ho_23).view.set]{fullShare} g : sProp 𝕄)) ∗ (∃ g, ((slotM cm2 24 ho_24).view.loc (c : Thread nD τ) ↦[(slotM cm2 24 ho_24).view.set]{fullShare} g : sProp 𝕄)) ∗ (∃ g, ((slotM cm2 25 ho_25).view.loc (c : Thread nD τ) ↦[(slotM cm2 25 ho_25).view.set]{fullShare} g : sProp 𝕄)) ∗ (∃ g, ((slotM cm2 26 ho_26).view.loc (c : Thread nD τ) ↦[(slotM cm2 26 ho_26).view.set]{fullShare} g : sProp 𝕄)) ∗ (∃ g, ((slotM cm2 27 ho_27).view.loc (c : Thread nD τ) ↦[(slotM cm2 27 ho_27).view.set]{fullShare} g : sProp 𝕄)) ∗ (∃ g, ((slotM cm2 28 ho_28).view.loc (c : Thread nD τ) ↦[(slotM cm2 28 ho_28).view.set]{fullShare} g : sProp 𝕄)) ∗ (∃ g, ((slotM cm2 29 ho_29).view.loc (c : Thread nD τ) ↦[(slotM cm2 29 ho_29).view.set]{fullShare} g : sProp 𝕄)) ∗ (∃ g, ((slotM cm2 30 ho_30).view.loc (c : Thread nD τ) ↦[(slotM cm2 30 ho_30).view.set]{fullShare} g : sProp 𝕄)) ∗ (∃ g, ((slotM cm2 31 ho_31).view.loc (c : Thread nD τ) ↦[(slotM cm2 31 ho_31).view.set]{fullShare} g : sProp 𝕄)))
    ∗ semVal ((c : Thread nD τ), .dma cc0_scratch6.sem) 0
    ∗ (semVal ((c : Thread nD τ), .dma (semAt cc0_scratch11 0 ho_0)) 0 ∗ semVal ((c : Thread nD τ), .dma (semAt cc0_scratch11 1 ho_1)) 0 ∗ semVal ((c : Thread nD τ), .dma (semAt cc0_scratch11 2 ho_2)) 0 ∗ semVal ((c : Thread nD τ), .dma (semAt cc0_scratch11 3 ho_3)) 0 ∗ semVal ((c : Thread nD τ), .dma (semAt cc0_scratch11 4 ho_4)) 0 ∗ semVal ((c : Thread nD τ), .dma (semAt cc0_scratch11 5 ho_5)) 0 ∗ semVal ((c : Thread nD τ), .dma (semAt cc0_scratch11 6 ho_6)) 0 ∗ semVal ((c : Thread nD τ), .dma (semAt cc0_scratch11 7 ho_7)) 0 ∗ semVal ((c : Thread nD τ), .dma (semAt cc0_scratch11 8 ho_8)) 0 ∗ semVal ((c : Thread nD τ), .dma (semAt cc0_scratch11 9 ho_9)) 0 ∗ semVal ((c : Thread nD τ), .dma (semAt cc0_scratch11 10 ho_10)) 0 ∗ semVal ((c : Thread nD τ), .dma (semAt cc0_scratch11 11 ho_11)) 0 ∗ semVal ((c : Thread nD τ), .dma (semAt cc0_scratch11 12 ho_12)) 0 ∗ semVal ((c : Thread nD τ), .dma (semAt cc0_scratch11 13 ho_13)) 0 ∗ semVal ((c : Thread nD τ), .dma (semAt cc0_scratch11 14 ho_14)) 0 ∗ semVal ((c : Thread nD τ), .dma (semAt cc0_scratch11 15 ho_15)) 0 ∗ semVal ((c : Thread nD τ), .dma (semAt cc0_scratch11 16 ho_16)) 0 ∗ semVal ((c : Thread nD τ), .dma (semAt cc0_scratch11 17 ho_17)) 0 ∗ semVal ((c : Thread nD τ), .dma (semAt cc0_scratch11 18 ho_18)) 0 ∗ semVal ((c : Thread nD τ), .dma (semAt cc0_scratch11 19 ho_19)) 0 ∗ semVal ((c : Thread nD τ), .dma (semAt cc0_scratch11 20 ho_20)) 0 ∗ semVal ((c : Thread nD τ), .dma (semAt cc0_scratch11 21 ho_21)) 0 ∗ semVal ((c : Thread nD τ), .dma (semAt cc0_scratch11 22 ho_22)) 0 ∗ semVal ((c : Thread nD τ), .dma (semAt cc0_scratch11 23 ho_23)) 0 ∗ semVal ((c : Thread nD τ), .dma (semAt cc0_scratch11 24 ho_24)) 0 ∗ semVal ((c : Thread nD τ), .dma (semAt cc0_scratch11 25 ho_25)) 0 ∗ semVal ((c : Thread nD τ), .dma (semAt cc0_scratch11 26 ho_26)) 0 ∗ semVal ((c : Thread nD τ), .dma (semAt cc0_scratch11 27 ho_27)) 0 ∗ semVal ((c : Thread nD τ), .dma (semAt cc0_scratch11 28 ho_28)) 0 ∗ semVal ((c : Thread nD τ), .dma (semAt cc0_scratch11 29 ho_29)) 0 ∗ semVal ((c : Thread nD τ), .dma (semAt cc0_scratch11 30 ho_30)) 0 ∗ semVal ((c : Thread nD τ), .dma (semAt cc0_scratch11 31 ho_31)) 0)
    ∗ semVal (s1Cell c 0 ho_0) 0 ∗ semVal (r1Cell c 0 ho_0) 0 ∗ semVal (s2Cell c 0 ho_0) 0 ∗ semVal (r2Cell c 0 ho_0) 0
    ∗ ((semVal (s1Cell c 1 ho_1) 0 ∗ semVal (r1Cell c 1 ho_1) 0 ∗ semVal (s2Cell c 1 ho_1) 0 ∗ semVal (r2Cell c 1 ho_1) 0) ∗ (semVal (s1Cell c 2 ho_2) 0 ∗ semVal (r1Cell c 2 ho_2) 0 ∗ semVal (s2Cell c 2 ho_2) 0 ∗ semVal (r2Cell c 2 ho_2) 0) ∗ (semVal (s1Cell c 3 ho_3) 0 ∗ semVal (r1Cell c 3 ho_3) 0 ∗ semVal (s2Cell c 3 ho_3) 0 ∗ semVal (r2Cell c 3 ho_3) 0) ∗ (semVal (s1Cell c 4 ho_4) 0 ∗ semVal (r1Cell c 4 ho_4) 0 ∗ semVal (s2Cell c 4 ho_4) 0 ∗ semVal (r2Cell c 4 ho_4) 0) ∗ (semVal (s1Cell c 5 ho_5) 0 ∗ semVal (r1Cell c 5 ho_5) 0 ∗ semVal (s2Cell c 5 ho_5) 0 ∗ semVal (r2Cell c 5 ho_5) 0) ∗ (semVal (s1Cell c 6 ho_6) 0 ∗ semVal (r1Cell c 6 ho_6) 0 ∗ semVal (s2Cell c 6 ho_6) 0 ∗ semVal (r2Cell c 6 ho_6) 0) ∗ (semVal (s1Cell c 7 ho_7) 0 ∗ semVal (r1Cell c 7 ho_7) 0 ∗ semVal (s2Cell c 7 ho_7) 0 ∗ semVal (r2Cell c 7 ho_7) 0) ∗ (semVal (s1Cell c 8 ho_8) 0 ∗ semVal (r1Cell c 8 ho_8) 0 ∗ semVal (s2Cell c 8 ho_8) 0 ∗ semVal (r2Cell c 8 ho_8) 0) ∗ (semVal (s1Cell c 9 ho_9) 0 ∗ semVal (r1Cell c 9 ho_9) 0 ∗ semVal (s2Cell c 9 ho_9) 0 ∗ semVal (r2Cell c 9 ho_9) 0) ∗ (semVal (s1Cell c 10 ho_10) 0 ∗ semVal (r1Cell c 10 ho_10) 0 ∗ semVal (s2Cell c 10 ho_10) 0 ∗ semVal (r2Cell c 10 ho_10) 0) ∗ (semVal (s1Cell c 11 ho_11) 0 ∗ semVal (r1Cell c 11 ho_11) 0 ∗ semVal (s2Cell c 11 ho_11) 0 ∗ semVal (r2Cell c 11 ho_11) 0) ∗ (semVal (s1Cell c 12 ho_12) 0 ∗ semVal (r1Cell c 12 ho_12) 0 ∗ semVal (s2Cell c 12 ho_12) 0 ∗ semVal (r2Cell c 12 ho_12) 0) ∗ (semVal (s1Cell c 13 ho_13) 0 ∗ semVal (r1Cell c 13 ho_13) 0 ∗ semVal (s2Cell c 13 ho_13) 0 ∗ semVal (r2Cell c 13 ho_13) 0) ∗ (semVal (s1Cell c 14 ho_14) 0 ∗ semVal (r1Cell c 14 ho_14) 0 ∗ semVal (s2Cell c 14 ho_14) 0 ∗ semVal (r2Cell c 14 ho_14) 0) ∗ (semVal (s1Cell c 15 ho_15) 0 ∗ semVal (r1Cell c 15 ho_15) 0 ∗ semVal (s2Cell c 15 ho_15) 0 ∗ semVal (r2Cell c 15 ho_15) 0) ∗ (semVal (s1Cell c 16 ho_16) 0 ∗ semVal (r1Cell c 16 ho_16) 0 ∗ semVal (s2Cell c 16 ho_16) 0 ∗ semVal (r2Cell c 16 ho_16) 0) ∗ (semVal (s1Cell c 17 ho_17) 0 ∗ semVal (r1Cell c 17 ho_17) 0 ∗ semVal (s2Cell c 17 ho_17) 0 ∗ semVal (r2Cell c 17 ho_17) 0) ∗ (semVal (s1Cell c 18 ho_18) 0 ∗ semVal (r1Cell c 18 ho_18) 0 ∗ semVal (s2Cell c 18 ho_18) 0 ∗ semVal (r2Cell c 18 ho_18) 0) ∗ (semVal (s1Cell c 19 ho_19) 0 ∗ semVal (r1Cell c 19 ho_19) 0 ∗ semVal (s2Cell c 19 ho_19) 0 ∗ semVal (r2Cell c 19 ho_19) 0) ∗ (semVal (s1Cell c 20 ho_20) 0 ∗ semVal (r1Cell c 20 ho_20) 0 ∗ semVal (s2Cell c 20 ho_20) 0 ∗ semVal (r2Cell c 20 ho_20) 0) ∗ (semVal (s1Cell c 21 ho_21) 0 ∗ semVal (r1Cell c 21 ho_21) 0 ∗ semVal (s2Cell c 21 ho_21) 0 ∗ semVal (r2Cell c 21 ho_21) 0) ∗ (semVal (s1Cell c 22 ho_22) 0 ∗ semVal (r1Cell c 22 ho_22) 0 ∗ semVal (s2Cell c 22 ho_22) 0 ∗ semVal (r2Cell c 22 ho_22) 0) ∗ (semVal (s1Cell c 23 ho_23) 0 ∗ semVal (r1Cell c 23 ho_23) 0 ∗ semVal (s2Cell c 23 ho_23) 0 ∗ semVal (r2Cell c 23 ho_23) 0) ∗ (semVal (s1Cell c 24 ho_24) 0 ∗ semVal (r1Cell c 24 ho_24) 0 ∗ semVal (s2Cell c 24 ho_24) 0 ∗ semVal (r2Cell c 24 ho_24) 0) ∗ (semVal (s1Cell c 25 ho_25) 0 ∗ semVal (r1Cell c 25 ho_25) 0 ∗ semVal (s2Cell c 25 ho_25) 0 ∗ semVal (r2Cell c 25 ho_25) 0) ∗ (semVal (s1Cell c 26 ho_26) 0 ∗ semVal (r1Cell c 26 ho_26) 0 ∗ semVal (s2Cell c 26 ho_26) 0 ∗ semVal (r2Cell c 26 ho_26) 0) ∗ (semVal (s1Cell c 27 ho_27) 0 ∗ semVal (r1Cell c 27 ho_27) 0 ∗ semVal (s2Cell c 27 ho_27) 0 ∗ semVal (r2Cell c 27 ho_27) 0) ∗ (semVal (s1Cell c 28 ho_28) 0 ∗ semVal (r1Cell c 28 ho_28) 0 ∗ semVal (s2Cell c 28 ho_28) 0 ∗ semVal (r2Cell c 28 ho_28) 0) ∗ (semVal (s1Cell c 29 ho_29) 0 ∗ semVal (r1Cell c 29 ho_29) 0 ∗ semVal (s2Cell c 29 ho_29) 0 ∗ semVal (r2Cell c 29 ho_29) 0) ∗ (semVal (s1Cell c 30 ho_30) 0 ∗ semVal (r1Cell c 30 ho_30) 0 ∗ semVal (s2Cell c 30 ho_30) 0 ∗ semVal (r2Cell c 30 ho_30) 0) ∗ (semVal (s1Cell c 31 ho_31) 0 ∗ semVal (r1Cell c 31 ho_31) 0 ∗ semVal (s2Cell c 31 ho_31) 0 ∗ semVal (r2Cell c 31 ho_31) 0)))

end End

end Cert.KernelProto
end
-- ==== Proof.KernelGlue.lean ====
import proofs.«900784_g7700000000000785_dist_f_of_ar_i_m512_n256_v7x_i32_bf16_1_alg».proof.Proof.KernelBodyDefs
import proofs.«900784_g7700000000000785_dist_f_of_ar_i_m512_n256_v7x_i32_bf16_1_alg».proof.Proof.KernelLaunch
import proofs.«900784_g7700000000000785_dist_f_of_ar_i_m512_n256_v7x_i32_bf16_1_alg».proof.Proof.KernelCuts

/-!
# From the launch's invariant to the kernel body's starting state

What a device owes at launch, summed over the offsets, is the explicit sum the body pays from; and the invariant the
launch establishes before the kernel's one point, with what the device owes, is the body's starting state: the two
landing buffers cut into their 32 slots, every family of per-offset resources regrouped offset by offset, each group
set aside.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## What a device owes, summand by summand -/

/-- A sum over the offsets `1 … 31`, written out from 31 down to 1. -/
theorem sum31 {M : Type} [AddCommMonoid M] (g : ℕ → M) :
    ∑ k : Fin 31, g (k.val + 1) = g 31 + g 30 + g 29 + g 28 + g 27 + g 26 + g 25 + g 24 + g 23 + g 22 + g 21 + g 20 + g 19 + g 18 + g 17 + g 16 + g 15 + g 14 + g 13 + g 12 + g 11 + g 10 + g 9 + g 8 + g 7 + g 6 + g 5 + g 4 + g 3 + g 2 + g 1 := by
  rw [← Equiv.sum_comp Fin.revPerm (fun k : Fin 31 => g (k.val + 1)),
    Finset.sum_congr rfl (fun k _ => show g ((Fin.revPerm k).val + 1) = g (31 - k.val) from
      congrArg g (by rw [Fin.revPerm_apply, Fin.val_rev]; omega)),
    Fin.sum_univ_eq_sum_range (fun i => g (31 - i)) 31]
  simp only [Finset.sum_range_succ, Finset.sum_range_zero, zero_add, Nat.reduceSub, Nat.sub_zero]

theorem owed93_eq (c : Dev nD) : O₀ c = owed93 c := by
  let g2 : ℕ → CellTallies nD τ sig Unit := fun k => if h : k < 32 then tallyAt (r2Cell (rot c k) k h) () NX else 0
  let g1 : ℕ → CellTallies nD τ sig Unit := fun k => if h : k < 32 then tallyAt (r1Cell (rot c k) k h) () NX else 0
  let gb : ℕ → CellTallies nD τ sig Unit := fun k => tallyAt (barCell (rot c k)) () 1
  have h (k : Fin 31) : owedAt c (k.val + 1) (by omega) = g2 (k.val + 1) + g1 (k.val + 1) + gb (k.val + 1) := by
    simp only [g2, g1, gb, owedAt, dif_pos (show k.val + 1 < 32 by omega)]
  unfold O₀
  rw [Finset.sum_congr rfl fun k _ => h k, Finset.sum_add_distrib, Finset.sum_add_distrib, sum31 g2, sum31 g1, sum31 gb]
  simp only [g2, g1, gb, dif_pos ho_1, dif_pos ho_2, dif_pos ho_3, dif_pos ho_4, dif_pos ho_5, dif_pos ho_6, dif_pos ho_7, dif_pos ho_8, dif_pos ho_9, dif_pos ho_10, dif_pos ho_11, dif_pos ho_12, dif_pos ho_13, dif_pos ho_14, dif_pos ho_15, dif_pos ho_16, dif_pos ho_17, dif_pos ho_18, dif_pos ho_19, dif_pos ho_20, dif_pos ho_21, dif_pos ho_22, dif_pos ho_23, dif_pos ho_24, dif_pos ho_25, dif_pos ho_26, dif_pos ho_27, dif_pos ho_28, dif_pos ho_29, dif_pos ho_30, dif_pos ho_31, owed93, add_assoc]

/-! ## Families over the offsets, taken apart -/

omit [FloatOps F] in
theorem bigSep_fin_succ {n : ℕ} (Φ : Fin (n + 1) → sProp 𝕄) :
    bigSep Finset.univ Φ = iprop(Φ 0 ∗ bigSep Finset.univ fun j : Fin n => Φ j.succ) := by
  rw [bigSep_univ_equiv (finSuccEquiv n).symm Φ, bigSep_univ_option]
  simp only [finSuccEquiv_symm_none, finSuccEquiv_symm_some]

omit [FloatOps F] in
theorem bigSep_fin31 (Φ : Fin 31 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

section Groups
variable (c : Dev nD) (g1 : Buf (Elt F) (cm1.view.loc (c : Thread nD τ))) (g2 : Buf (Elt F) (cm2.view.loc (c : Thread nD τ)))

/-- Slot `o` of a landing buffer, held at the buffer's contents. -/
abbrev slot1 (o : Fin 32) : sProp 𝕄 :=
  ((slotM cm1 o.val o.isLt).view.loc (c : Thread nD τ) ↦[(slotM cm1 o.val o.isLt).view.set]{fullShare} g1)
abbrev slot2 (o : Fin 32) : sProp 𝕄 :=
  ((slotM cm2 o.val o.isLt).view.loc (c : Thread nD τ) ↦[(slotM cm2 o.val o.isLt).view.set]{fullShare} g2)

/-- The barrier signal's resources at offset `k + 1`: its token and the two landing slots `31 - k`. -/
def sigResG (k : Fin 31) : sProp 𝕄 :=
  iprop(dutyTok ER (barCell (rot c (k.val + 1))) 0 (k.val + 1) ∗ slot1 (F := F) c g1 (Fin.rev k).succ ∗ slot2 (F := F) c g2 (Fin.rev k).succ)
/-- The first exchange's transfer at offset `k + 1`: the tokens of its send and receive duties. -/
def bResG (k : Fin 31) : sProp 𝕄 :=
  iprop(dutyTok ER (s1Cell c (k.val + 1) (by omega)) 0 0 ∗ dutyTok ER (r1Cell (rot c (k.val + 1)) (k.val + 1) (by omega)) 0 0)
/-- The first exchange's receive wait at offset `k + 1`: the position and the credit on the receive cell. -/
def cResG (k : Fin 31) : sProp 𝕄 :=
  iprop(atPos ER (r1Cell c (k.val + 1) (by omega)) 0 ∅ 0 ∗ cred (tallyAt (r1Cell c (k.val + 1) (by omega)) () NX))
/-- The second exchange's transfer at offset `k + 1`. -/
def dResG (k : Fin 31) : sProp 𝕄 :=
  iprop(dutyTok ER (s2Cell c (k.val + 1) (by omega)) 0 0 ∗ dutyTok ER (r2Cell (rot c (k.val + 1)) (k.val + 1) (by omega)) 0 0)
/-- The second exchange's receive wait at offset `k + 1`, and the semaphore of the output copy that follows it. -/
def eResG (k : Fin 31) : sProp 𝕄 :=
  iprop(atPos ER (r2Cell c (k.val + 1) (by omega)) 0 ∅ 0 ∗ cred (tallyAt (r2Cell c (k.val + 1) (by omega)) () NX)
    ∗ semVal ((c : Thread nD τ), .dma (semAt cc0_scratch11 (k.val + 1) (by omega))) 0)
/-- The two send waits at offset `k + 1`: the positions on the send cells. -/
def fResG (k : Fin 31) : sProp 𝕄 :=
  iprop(atPos ER (s1Cell c (k.val + 1) (by omega)) 0 ∅ 0 ∗ atPos ER (s2Cell c (k.val + 1) (by omega)) 0 ∅ 0)

omit [FloatOps F] in
theorem sig_chain : (bigSep Finset.univ fun k : Fin 31 => Held (sigResG (F := F) c g1 g2 k)) = sigAll (F := F) c g1 g2 := bigSep_fin31 _
omit [FloatOps F] in
theorem b_chain : (bigSep Finset.univ fun k : Fin 31 => Held (bResG (F := F) c k)) = bAll (F := F) c := bigSep_fin31 _
omit [FloatOps F] in
theorem c_chain : (bigSep Finset.univ fun k : Fin 31 => Held (cResG (F := F) c k)) = cAll (F := F) c := bigSep_fin31 _
omit [FloatOps F] in
theorem d_chain : (bigSep Finset.univ fun k : Fin 31 => Held (dResG (F := F) c k)) = dAll (F := F) c := bigSep_fin31 _
omit [FloatOps F] in
theorem e_chain : (bigSep Finset.univ fun k : Fin 31 => Held (eResG (F := F) c k)) = eAll (F := F) c := bigSep_fin31 _
omit [FloatOps F] in
theorem f_chain : (bigSep Finset.univ fun k : Fin 31 => Held (fResG (F := F) c k)) = fAll (F := F) c := bigSep_fin31 _

omit [FloatOps F] in
theorem sig_split : bigSep Finset.univ (sigResG (F := F) c g1 g2)
    = iprop((bigSep Finset.univ fun k : Fin 31 => dutyTok ER (barCell (rot c (k.val + 1))) 0 (k.val + 1))
      ∗ (bigSep Finset.univ fun k : Fin 31 => slot1 (F := F) c g1 (Fin.rev k).succ)
      ∗ (bigSep Finset.univ fun k : Fin 31 => slot2 (F := F) c g2 (Fin.rev k).succ)) := by
  unfold sigResG; rw [bigSep_sep', bigSep_sep']
omit [FloatOps F] in
theorem b_split : bigSep Finset.univ (bResG (F := F) c)
    = iprop((bigSep Finset.univ fun k : Fin 31 => dutyTok ER (s1Cell c (k.val + 1) (by omega)) 0 0)
      ∗ (bigSep Finset.univ fun k : Fin 31 => dutyTok ER (r1Cell (rot c (k.val + 1)) (k.val + 1) (by omega)) 0 0)) := by
  unfold bResG; rw [bigSep_sep']
omit [FloatOps F] in
theorem c_split : bigSep Finset.univ (cResG (F := F) c)
    = iprop((bigSep Finset.univ fun k : Fin 31 => atPos ER (r1Cell c (k.val + 1) (by omega)) 0 ∅ 0)
      ∗ (bigSep Finset.univ fun k : Fin 31 => cred (tallyAt (r1Cell c (k.val + 1) (by omega)) () NX))) := by
  unfold cResG; rw [bigSep_sep']
omit [FloatOps F] in
theorem d_split : bigSep Finset.univ (dResG (F := F) c)
    = iprop((bigSep Finset.univ fun k : Fin 31 => dutyTok ER (s2Cell c (k.val + 1) (by omega)) 0 0)
      ∗ (bigSep Finset.univ fun k : Fin 31 => dutyTok ER (r2Cell (rot c (k.val + 1)) (k.val + 1) (by omega)) 0 0)) := by
  unfold dResG; rw [bigSep_sep']
omit [FloatOps F] in
theorem e_split : bigSep Finset.univ (eResG (F := F) c)
    = iprop((bigSep Finset.univ fun k : Fin 31 => atPos ER (r2Cell c (k.val + 1) (by omega)) 0 ∅ 0)
      ∗ (bigSep Finset.univ fun k : Fin 31 => cred (tallyAt (r2Cell c (k.val + 1) (by omega)) () NX))
      ∗ (bigSep Finset.univ fun k : Fin 31 => semVal ((c : Thread nD τ), .dma (semAt cc0_scratch11 (k.val + 1) (by omega))) 0)) := by
  unfold eResG; rw [bigSep_sep', bigSep_sep']
omit [FloatOps F] in
theorem f_split : bigSep Finset.univ (fResG (F := F) c)
    = iprop((bigSep Finset.univ fun k : Fin 31 => atPos ER (s1Cell c (k.val + 1) (by omega)) 0 ∅ 0)
      ∗ (bigSep Finset.univ fun k : Fin 31 => atPos ER (s2Cell c (k.val + 1) (by omega)) 0 ∅ 0)) := by
  unfold fResG; rw [bigSep_sep']

omit [FloatOps F] in
/-- A device's positions: on its barrier cell, and on its four exchange cells offset by offset. -/
theorem atPos_split : (bigSep Finset.univ fun ck : CK => (atPos ER (kcell (c, ck)) 0 ∅ 0 : sProp 𝕄))
    = iprop(atPos ER (barCell c) 0 ∅ 0
      ∗ (bigSep Finset.univ fun k : Fin 31 => atPos ER (s1Cell c (k.val + 1) (by omega)) 0 ∅ 0)
      ∗ (bigSep Finset.univ fun k : Fin 31 => atPos ER (r1Cell c (k.val + 1) (by omega)) 0 ∅ 0)
      ∗ (bigSep Finset.univ fun k : Fin 31 => atPos ER (s2Cell c (k.val + 1) (by omega)) 0 ∅ 0)
      ∗ (bigSep Finset.univ fun k : Fin 31 => atPos ER (r2Cell c (k.val + 1) (by omega)) 0 ∅ 0)) := by
  rw [bigSep_univ_option, bigSep_univ_prod, bigSep_fin4]; rfl
omit [FloatOps F] in
theorem payToks_split : bigSep Finset.univ (payToksAt (F := F) c)
    = iprop((bigSep Finset.univ fun k : Fin 31 => dutyTok ER (barCell (rot c (k.val + 1))) 0 (k.val + 1))
      ∗ (bigSep Finset.univ fun k : Fin 31 => dutyTok ER (s1Cell c (k.val + 1) (by omega)) 0 0)
      ∗ (bigSep Finset.univ fun k : Fin 31 => dutyTok ER (r1Cell (rot c (k.val + 1)) (k.val + 1) (by omega)) 0 0)
      ∗ (bigSep Finset.univ fun k : Fin 31 => dutyTok ER (s2Cell c (k.val + 1) (by omega)) 0 0)
      ∗ (bigSep Finset.univ fun k : Fin 31 => dutyTok ER (r2Cell (rot c (k.val + 1)) (k.val + 1) (by omega)) 0 0)) := by
  unfold payToksAt; rw [bigSep_sep', bigSep_sep', bigSep_sep', bigSep_sep']
omit [FloatOps F] in
theorem outSems_split : (bigSep Finset.univ fun o : Fin 32 => (semVal ((c : Thread nD τ), .dma (semAt cc0_scratch11 o.val o.isLt)) 0 : sProp 𝕄))
    = iprop(semVal ((c : Thread nD τ), .dma (semAt cc0_scratch11 0 ho_0)) 0
      ∗ bigSep Finset.univ fun k : Fin 31 => semVal ((c : Thread nD τ), .dma (semAt cc0_scratch11 (k.val + 1) (by omega))) 0) := by
  rw [bigSep_fin_succ]; rfl
omit [FloatOps F] in
theorem slots1_split : (bigSep Finset.univ fun o : Fin 32 => slot1 (F := F) c g1 o)
    = iprop(slot1 (F := F) c g1 0 ∗ bigSep Finset.univ fun k : Fin 31 => slot1 (F := F) c g1 (Fin.rev k).succ) := by
  rw [bigSep_fin_succ, bigSep_univ_equiv Fin.revPerm (fun j : Fin 31 => slot1 (F := F) c g1 j.succ)]; rfl
omit [FloatOps F] in
theorem slots2_split : (bigSep Finset.univ fun o : Fin 32 => slot2 (F := F) c g2 o)
    = iprop(slot2 (F := F) c g2 0 ∗ bigSep Finset.univ fun k : Fin 31 => slot2 (F := F) c g2 (Fin.rev k).succ) := by
  rw [bigSep_fin_succ, bigSep_univ_equiv Fin.revPerm (fun j : Fin 31 => slot2 (F := F) c g2 j.succ)]; rfl

end Groups

/-! ## The body's starting state -/

omit [FloatOps F] in
theorem creds_split (c : Dev nD) :
    (bigSep Finset.univ fun k : Fin 31 => iprop(cred (tallyAt (r1Cell c (k.val + 1) (by omega)) () NX) ∗ cred (tallyAt (r2Cell c (k.val + 1) (by omega)) () NX)) : sProp 𝕄)
      = iprop((bigSep Finset.univ fun k : Fin 31 => cred (tallyAt (r1Cell c (k.val + 1) (by omega)) () NX))
        ∗ (bigSep Finset.univ fun k : Fin 31 => cred (tallyAt (r2Cell c (k.val + 1) (by omega)) () NX))) :=
  bigSep_sep' _ _ _

section Start
variable (S1c : (c : Dev nD) → Buf (Elt F) (st1.view.loc (c : Thread nD τ)))
variable (Y2c : (c : Dev nD) → Buf (Elt F) (st2.view.loc (c : Thread nD τ)))
variable (OUTc : (c : Dev nD) → Buf (Elt F) ((c : Thread nD τ).loc main_v1))
variable (m : (ℓ : Loc nD τ sig) → Buf (Elt F) ℓ)

set_option maxRecDepth 100000 in
/-- The invariant before the kernel's one point, with what the device owes, is the body's starting state: the landing
    buffers cut into their slots, the per-offset families regrouped offset by offset, every group set aside. -/
theorem body_start (c : Dev nD) :
    iprop(Φ₀ (F := F) S1c Y2c m c ∗ (dats (F := F) S1c Y2c OUTc m 0 c).owesAt () t₀.castSucc)
      ⊢ iprop(∃ K W fO f0 f1 f3 f5 g1 g2, ⌜∀ p ∈ W, True⌝ ∗ bodyStart (F := F) S1c Y2c c g1 g2 K W fO f0 f1 f3 f5 m) := by
  unfold Φ₀ start scratches ghost linear credsOf locSems Dat.owesAt Pipeline.owesWithin
  rw [show (dats (F := F) S1c Y2c OUTc m 0 c).owed t₀.castSucc = O₀ c from rfl, owed93_eq,
    atPos_split, payToks_split, creds_split, outSems_split]
  iintro ⟨⟨⟨⟨%K, #Hrec, ⟨HaB, HaS1, HaR1, HaS2, HaR2⟩, ⟨HtB, HtS1, HtR1, HtS2, HtR2⟩⟩, ⟨HcB, HcR1, HcR2⟩, Hlev,
      ⟨H6, ⟨H110, H11⟩, Hs10, Hr10, Hs20, Hr20⟩, Harg, Hout⟩,
      ⟨%f0, H0⟩, ⟨%f1, H1⟩, ⟨%g1, Hg1⟩, ⟨%f3, H3⟩, ⟨%g2, Hg2⟩, ⟨%f5, H5⟩⟩, ⟨%W, %hW, HO⟩⟩
  ihave Hsl1 := ((cm_split cm1 (Memref.isWhole_whole _) c g1).trans (Entails.of_eq (slots1_split (F := F) c g1))) $$ Hg1
  ihave Hsl2 := ((cm_split cm2 (Memref.isWhole_whole _) c g2).trans (Entails.of_eq (slots2_split (F := F) c g2))) $$ Hg2
  icases Hsl1 with ⟨Hs1z, Hs1⟩
  icases Hsl2 with ⟨Hs2z, Hs2⟩
  ihave HS := ((Entails.of_eq (sig_split (F := F) c g1 g2).symm).trans
      (((bigSep_mono fun k _ => held_intro (sigResG (F := F) c g1 g2 k)).trans (Entails.of_eq (sig_chain (F := F) c g1 g2))).trans (held_intro _))) $$ [HtB Hs1 Hs2]
  ·
    isplitl [HtB]; · iexact HtB
    isplitl [Hs1]; · iexact Hs1
    iexact Hs2
  ihave HB := ((Entails.of_eq (b_split (F := F) c).symm).trans
      (((bigSep_mono fun k _ => held_intro (bResG (F := F) c k)).trans (Entails.of_eq (b_chain (F := F) c))).trans (held_intro _))) $$ [HtS1 HtR1]
  ·
    isplitl [HtS1]; · iexact HtS1
    iexact HtR1
  ihave HC := ((Entails.of_eq (c_split (F := F) c).symm).trans
      (((bigSep_mono fun k _ => held_intro (cResG (F := F) c k)).trans (Entails.of_eq (c_chain (F := F) c))).trans (held_intro _))) $$ [HaR1 HcR1]
  ·
    isplitl [HaR1]; · iexact HaR1
    iexact HcR1
  ihave HD := ((Entails.of_eq (d_split (F := F) c).symm).trans
      (((bigSep_mono fun k _ => held_intro (dResG (F := F) c k)).trans (Entails.of_eq (d_chain (F := F) c))).trans (held_intro _))) $$ [HtS2 HtR2]
  ·
    isplitl [HtS2]; · iexact HtS2
    iexact HtR2
  ihave HE := ((Entails.of_eq (e_split (F := F) c).symm).trans
      (((bigSep_mono fun k _ => held_intro (eResG (F := F) c k)).trans (Entails.of_eq (e_chain (F := F) c))).trans (held_intro _))) $$ [HaR2 HcR2 H11]
  ·
    isplitl [HaR2]; · iexact HaR2
    isplitl [HcR2]; · iexact HcR2
    iexact H11
  ihave HF := ((Entails.of_eq (f_split (F := F) c).symm).trans
      (((bigSep_mono fun k _ => held_intro (fResG (F := F) c k)).trans (Entails.of_eq (f_chain (F := F) c))).trans (held_intro _))) $$ [HaS1 HaS2]
  ·
    isplitl [HaS1]; · iexact HaS1
    iexact HaS2
  ihave HL := (held_intro (locRes (F := F) c g1 g2)) $$ [H110 Hs1z Hs2z Hs10 Hr10 Hs20 Hr20]
  ·
    isplitl [H110]; · iexact H110
    isplitl [Hs1z]; · iexact Hs1z
    isplitl [Hs2z]; · iexact Hs2z
    isplitl [Hs10]; · iexact Hs10
    isplitl [Hr10]; · iexact Hr10
    isplitl [Hs20]; · iexact Hs20
    iexact Hr20
  iexists K; iexists W; iexists (m ((c : Thread nD τ).loc main_v1)); iexists f0; iexists f1; iexists f3; iexists f5; iexists g1; iexists g2
  isplitr; · ipureintro; exact fun _ _ => trivial
  unfold bodyStart
  isplitr; · iexact Hrec
  isplitl [Hlev]; · iexact Hlev
  isplitl [HO]; · iexact HO
  isplitl [H6]; · iexact H6
  isplitl [Harg]; · iexact Harg
  isplitl [Hout]; · iexact Hout
  isplitl [H0]; · iexact H0
  isplitl [H1]; · iexact H1
  isplitl [H3]; · iexact H3
  isplitl [H5]; · iexact H5
  isplitl [HaB]; · iexact HaB
  isplitl [HcB]; · iexact HcB
  isplitl [HL]; · iexact HL
  isplitl [HS]; · iexact HS
  isplitl [HB]; · iexact HB
  isplitl [HC]; · iexact HC
  isplitl [HD]; · iexact HD
  isplitl [HE]; · iexact HE
  iexact HF

/-- info: 'Cert.KernelProto.body_start' depends on axioms: [propext, Classical.choice, Quot.sound] -/
#guard_msgs in #print axioms body_start

end Start

end Cert.KernelProto

end
-- ==== Proof.KernelGlueEnd.lean ====
import proofs.«900784_g7700000000000785_dist_f_of_ar_i_m512_n256_v7x_i32_bf16_1_alg».proof.Proof.KernelGlue
import proofs.«900784_g7700000000000785_dist_f_of_ar_i_m512_n256_v7x_i32_bf16_1_alg».proof.Proof.KernelCutsRows

/-!
# From what the kernel body leaves to the launch's invariant after the kernel

The body ends with nothing owed, the argument and the result in place, every scratch buffer back — the narrowed block and
the two landing buffers piece by piece — and every DMA semaphore at zero, listed one by one. The pieces join to whole
buffers at some contents, and the listed semaphores are all of the device's DMA semaphores, each once.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Every DMA semaphore, once -/

/-- The semaphores the launch sorted are all of them: as many, and no two alike. -/
theorem jsem_bijective : Function.Bijective jsem :=
  (Fintype.bijective_iff_injective_and_card jsem).mpr ⟨jsem_injective, by decide⟩

omit [FloatOps F] in
/-- Every DMA semaphore of a device at zero, from the list of them. -/
theorem sems_join (c : Dev nD) :
    iprop(semVal ((c : Thread nD τ), .dma cc0_scratch6.sem) 0
      ∗ (semVal ((c : Thread nD τ), .dma (semAt cc0_scratch11 0 ho_0)) 0 ∗ semVal ((c : Thread nD τ), .dma (semAt cc0_scratch11 1 ho_1)) 0 ∗ semVal ((c : Thread nD τ), .dma (semAt cc0_scratch11 2 ho_2)) 0 ∗ semVal ((c : Thread nD τ), .dma (semAt cc0_scratch11 3 ho_3)) 0 ∗ semVal ((c : Thread nD τ), .dma (semAt cc0_scratch11 4 ho_4)) 0 ∗ semVal ((c : Thread nD τ), .dma (semAt cc0_scratch11 5 ho_5)) 0 ∗ semVal ((c : Thread nD τ), .dma (semAt cc0_scratch11 6 ho_6)) 0 ∗ semVal ((c : Thread nD τ), .dma (semAt cc0_scratch11 7 ho_7)) 0 ∗ semVal ((c : Thread nD τ), .dma (semAt cc0_scratch11 8 ho_8)) 0 ∗ semVal ((c : Thread nD τ), .dma (semAt cc0_scratch11 9 ho_9)) 0 ∗ semVal ((c : Thread nD τ), .dma (semAt cc0_scratch11 10 ho_10)) 0 ∗ semVal ((c : Thread nD τ), .dma (semAt cc0_scratch11 11 ho_11)) 0 ∗ semVal ((c : Thread nD τ), .dma (semAt cc0_scratch11 12 ho_12)) 0 ∗ semVal ((c : Thread nD τ), .dma (semAt cc0_scratch11 13 ho_13)) 0 ∗ semVal ((c : Thread nD τ), .dma (semAt cc0_scratch11 14 ho_14)) 0 ∗ semVal ((c : Thread nD τ), .dma (semAt cc0_scratch11 15 ho_15)) 0 ∗ semVal ((c : Thread nD τ), .dma (semAt cc0_scratch11 16 ho_16)) 0 ∗ semVal ((c : Thread nD τ), .dma (semAt cc0_scratch11 17 ho_17)) 0 ∗ semVal ((c : Thread nD τ), .dma (semAt cc0_scratch11 18 ho_18)) 0 ∗ semVal ((c : Thread nD τ), .dma (semAt cc0_scratch11 19 ho_19)) 0 ∗ semVal ((c : Thread nD τ), .dma (semAt cc0_scratch11 20 ho_20)) 0 ∗ semVal ((c : Thread nD τ), .dma (semAt cc0_scratch11 21 ho_21)) 0 ∗ semVal ((c : Thread nD τ), .dma (semAt cc0_scratch11 22 ho_22)) 0 ∗ semVal ((c : Thread nD τ), .dma (semAt cc0_scratch11 23 ho_23)) 0 ∗ semVal ((c : Thread nD τ), .dma (semAt cc0_scratch11 24 ho_24)) 0 ∗ semVal ((c : Thread nD τ), .dma (semAt cc0_scratch11 25 ho_25)) 0 ∗ semVal ((c : Thread nD τ), .dma (semAt cc0_scratch11 26 ho_26)) 0 ∗ semVal ((c : Thread nD τ), .dma (semAt cc0_scratch11 27 ho_27)) 0 ∗ semVal ((c : Thread nD τ), .dma (semAt cc0_scratch11 28 ho_28)) 0 ∗ semVal ((c : Thread nD τ), .dma (semAt cc0_scratch11 29 ho_29)) 0 ∗ semVal ((c : Thread nD τ), .dma (semAt cc0_scratch11 30 ho_30)) 0 ∗ semVal ((c : Thread nD τ), .dma (semAt cc0_scratch11 31 ho_31)) 0)
      ∗ semVal (s1Cell c 0 ho_0) 0 ∗ semVal (r1Cell c 0 ho_0) 0 ∗ semVal (s2Cell c 0 ho_0) 0 ∗ semVal (r2Cell c 0 ho_0) 0
      ∗ ((semVal (s1Cell c 1 ho_1) 0 ∗ semVal (r1Cell c 1 ho_1) 0 ∗ semVal (s2Cell c 1 ho_1) 0 ∗ semVal (r2Cell c 1 ho_1) 0) ∗ (semVal (s1Cell c 2 ho_2) 0 ∗ semVal (r1Cell c 2 ho_2) 0 ∗ semVal (s2Cell c 2 ho_2) 0 ∗ semVal (r2Cell c 2 ho_2) 0) ∗ (semVal (s1Cell c 3 ho_3) 0 ∗ semVal (r1Cell c 3 ho_3) 0 ∗ semVal (s2Cell c 3 ho_3) 0 ∗ semVal (r2Cell c 3 ho_3) 0) ∗ (semVal (s1Cell c 4 ho_4) 0 ∗ semVal (r1Cell c 4 ho_4) 0 ∗ semVal (s2Cell c 4 ho_4) 0 ∗ semVal (r2Cell c 4 ho_4) 0) ∗ (semVal (s1Cell c 5 ho_5) 0 ∗ semVal (r1Cell c 5 ho_5) 0 ∗ semVal (s2Cell c 5 ho_5) 0 ∗ semVal (r2Cell c 5 ho_5) 0) ∗ (semVal (s1Cell c 6 ho_6) 0 ∗ semVal (r1Cell c 6 ho_6) 0 ∗ semVal (s2Cell c 6 ho_6) 0 ∗ semVal (r2Cell c 6 ho_6) 0) ∗ (semVal (s1Cell c 7 ho_7) 0 ∗ semVal (r1Cell c 7 ho_7) 0 ∗ semVal (s2Cell c 7 ho_7) 0 ∗ semVal (r2Cell c 7 ho_7) 0) ∗ (semVal (s1Cell c 8 ho_8) 0 ∗ semVal (r1Cell c 8 ho_8) 0 ∗ semVal (s2Cell c 8 ho_8) 0 ∗ semVal (r2Cell c 8 ho_8) 0) ∗ (semVal (s1Cell c 9 ho_9) 0 ∗ semVal (r1Cell c 9 ho_9) 0 ∗ semVal (s2Cell c 9 ho_9) 0 ∗ semVal (r2Cell c 9 ho_9) 0) ∗ (semVal (s1Cell c 10 ho_10) 0 ∗ semVal (r1Cell c 10 ho_10) 0 ∗ semVal (s2Cell c 10 ho_10) 0 ∗ semVal (r2Cell c 10 ho_10) 0) ∗ (semVal (s1Cell c 11 ho_11) 0 ∗ semVal (r1Cell c 11 ho_11) 0 ∗ semVal (s2Cell c 11 ho_11) 0 ∗ semVal (r2Cell c 11 ho_11) 0) ∗ (semVal (s1Cell c 12 ho_12) 0 ∗ semVal (r1Cell c 12 ho_12) 0 ∗ semVal (s2Cell c 12 ho_12) 0 ∗ semVal (r2Cell c 12 ho_12) 0) ∗ (semVal (s1Cell c 13 ho_13) 0 ∗ semVal (r1Cell c 13 ho_13) 0 ∗ semVal (s2Cell c 13 ho_13) 0 ∗ semVal (r2Cell c 13 ho_13) 0) ∗ (semVal (s1Cell c 14 ho_14) 0 ∗ semVal (r1Cell c 14 ho_14) 0 ∗ semVal (s2Cell c 14 ho_14) 0 ∗ semVal (r2Cell c 14 ho_14) 0) ∗ (semVal (s1Cell c 15 ho_15) 0 ∗ semVal (r1Cell c 15 ho_15) 0 ∗ semVal (s2Cell c 15 ho_15) 0 ∗ semVal (r2Cell c 15 ho_15) 0) ∗ (semVal (s1Cell c 16 ho_16) 0 ∗ semVal (r1Cell c 16 ho_16) 0 ∗ semVal (s2Cell c 16 ho_16) 0 ∗ semVal (r2Cell c 16 ho_16) 0) ∗ (semVal (s1Cell c 17 ho_17) 0 ∗ semVal (r1Cell c 17 ho_17) 0 ∗ semVal (s2Cell c 17 ho_17) 0 ∗ semVal (r2Cell c 17 ho_17) 0) ∗ (semVal (s1Cell c 18 ho_18) 0 ∗ semVal (r1Cell c 18 ho_18) 0 ∗ semVal (s2Cell c 18 ho_18) 0 ∗ semVal (r2Cell c 18 ho_18) 0) ∗ (semVal (s1Cell c 19 ho_19) 0 ∗ semVal (r1Cell c 19 ho_19) 0 ∗ semVal (s2Cell c 19 ho_19) 0 ∗ semVal (r2Cell c 19 ho_19) 0) ∗ (semVal (s1Cell c 20 ho_20) 0 ∗ semVal (r1Cell c 20 ho_20) 0 ∗ semVal (s2Cell c 20 ho_20) 0 ∗ semVal (r2Cell c 20 ho_20) 0) ∗ (semVal (s1Cell c 21 ho_21) 0 ∗ semVal (r1Cell c 21 ho_21) 0 ∗ semVal (s2Cell c 21 ho_21) 0 ∗ semVal (r2Cell c 21 ho_21) 0) ∗ (semVal (s1Cell c 22 ho_22) 0 ∗ semVal (r1Cell c 22 ho_22) 0 ∗ semVal (s2Cell c 22 ho_22) 0 ∗ semVal (r2Cell c 22 ho_22) 0) ∗ (semVal (s1Cell c 23 ho_23) 0 ∗ semVal (r1Cell c 23 ho_23) 0 ∗ semVal (s2Cell c 23 ho_23) 0 ∗ semVal (r2Cell c 23 ho_23) 0) ∗ (semVal (s1Cell c 24 ho_24) 0 ∗ semVal (r1Cell c 24 ho_24) 0 ∗ semVal (s2Cell c 24 ho_24) 0 ∗ semVal (r2Cell c 24 ho_24) 0) ∗ (semVal (s1Cell c 25 ho_25) 0 ∗ semVal (r1Cell c 25 ho_25) 0 ∗ semVal (s2Cell c 25 ho_25) 0 ∗ semVal (r2Cell c 25 ho_25) 0) ∗ (semVal (s1Cell c 26 ho_26) 0 ∗ semVal (r1Cell c 26 ho_26) 0 ∗ semVal (s2Cell c 26 ho_26) 0 ∗ semVal (r2Cell c 26 ho_26) 0) ∗ (semVal (s1Cell c 27 ho_27) 0 ∗ semVal (r1Cell c 27 ho_27) 0 ∗ semVal (s2Cell c 27 ho_27) 0 ∗ semVal (r2Cell c 27 ho_27) 0) ∗ (semVal (s1Cell c 28 ho_28) 0 ∗ semVal (r1Cell c 28 ho_28) 0 ∗ semVal (s2Cell c 28 ho_28) 0 ∗ semVal (r2Cell c 28 ho_28) 0) ∗ (semVal (s1Cell c 29 ho_29) 0 ∗ semVal (r1Cell c 29 ho_29) 0 ∗ semVal (s2Cell c 29 ho_29) 0 ∗ semVal (r2Cell c 29 ho_29) 0) ∗ (semVal (s1Cell c 30 ho_30) 0 ∗ semVal (r1Cell c 30 ho_30) 0 ∗ semVal (s2Cell c 30 ho_30) 0 ∗ semVal (r2Cell c 30 ho_30) 0) ∗ (semVal (s1Cell c 31 ho_31) 0 ∗ semVal (r1Cell c 31 ho_31) 0 ∗ semVal (s2Cell c 31 ho_31) 0 ∗ semVal (r2Cell c 31 ho_31) 0)))
      ⊢ (allSems0 (F := F) c : sProp 𝕄) := by
  have hx : (bigSep Finset.univ fun ak : Fin 4 × Fin 31 => (semVal ((c : Thread nD τ), SemLoc.dma (xsem ak)) 0 : sProp 𝕄))
      = iprop((semVal (s1Cell c 1 ho_1) 0 ∗ semVal (r1Cell c 1 ho_1) 0 ∗ semVal (s2Cell c 1 ho_1) 0 ∗ semVal (r2Cell c 1 ho_1) 0) ∗ (semVal (s1Cell c 2 ho_2) 0 ∗ semVal (r1Cell c 2 ho_2) 0 ∗ semVal (s2Cell c 2 ho_2) 0 ∗ semVal (r2Cell c 2 ho_2) 0) ∗ (semVal (s1Cell c 3 ho_3) 0 ∗ semVal (r1Cell c 3 ho_3) 0 ∗ semVal (s2Cell c 3 ho_3) 0 ∗ semVal (r2Cell c 3 ho_3) 0) ∗ (semVal (s1Cell c 4 ho_4) 0 ∗ semVal (r1Cell c 4 ho_4) 0 ∗ semVal (s2Cell c 4 ho_4) 0 ∗ semVal (r2Cell c 4 ho_4) 0) ∗ (semVal (s1Cell c 5 ho_5) 0 ∗ semVal (r1Cell c 5 ho_5) 0 ∗ semVal (s2Cell c 5 ho_5) 0 ∗ semVal (r2Cell c 5 ho_5) 0) ∗ (semVal (s1Cell c 6 ho_6) 0 ∗ semVal (r1Cell c 6 ho_6) 0 ∗ semVal (s2Cell c 6 ho_6) 0 ∗ semVal (r2Cell c 6 ho_6) 0) ∗ (semVal (s1Cell c 7 ho_7) 0 ∗ semVal (r1Cell c 7 ho_7) 0 ∗ semVal (s2Cell c 7 ho_7) 0 ∗ semVal (r2Cell c 7 ho_7) 0) ∗ (semVal (s1Cell c 8 ho_8) 0 ∗ semVal (r1Cell c 8 ho_8) 0 ∗ semVal (s2Cell c 8 ho_8) 0 ∗ semVal (r2Cell c 8 ho_8) 0) ∗ (semVal (s1Cell c 9 ho_9) 0 ∗ semVal (r1Cell c 9 ho_9) 0 ∗ semVal (s2Cell c 9 ho_9) 0 ∗ semVal (r2Cell c 9 ho_9) 0) ∗ (semVal (s1Cell c 10 ho_10) 0 ∗ semVal (r1Cell c 10 ho_10) 0 ∗ semVal (s2Cell c 10 ho_10) 0 ∗ semVal (r2Cell c 10 ho_10) 0) ∗ (semVal (s1Cell c 11 ho_11) 0 ∗ semVal (r1Cell c 11 ho_11) 0 ∗ semVal (s2Cell c 11 ho_11) 0 ∗ semVal (r2Cell c 11 ho_11) 0) ∗ (semVal (s1Cell c 12 ho_12) 0 ∗ semVal (r1Cell c 12 ho_12) 0 ∗ semVal (s2Cell c 12 ho_12) 0 ∗ semVal (r2Cell c 12 ho_12) 0) ∗ (semVal (s1Cell c 13 ho_13) 0 ∗ semVal (r1Cell c 13 ho_13) 0 ∗ semVal (s2Cell c 13 ho_13) 0 ∗ semVal (r2Cell c 13 ho_13) 0) ∗ (semVal (s1Cell c 14 ho_14) 0 ∗ semVal (r1Cell c 14 ho_14) 0 ∗ semVal (s2Cell c 14 ho_14) 0 ∗ semVal (r2Cell c 14 ho_14) 0) ∗ (semVal (s1Cell c 15 ho_15) 0 ∗ semVal (r1Cell c 15 ho_15) 0 ∗ semVal (s2Cell c 15 ho_15) 0 ∗ semVal (r2Cell c 15 ho_15) 0) ∗ (semVal (s1Cell c 16 ho_16) 0 ∗ semVal (r1Cell c 16 ho_16) 0 ∗ semVal (s2Cell c 16 ho_16) 0 ∗ semVal (r2Cell c 16 ho_16) 0) ∗ (semVal (s1Cell c 17 ho_17) 0 ∗ semVal (r1Cell c 17 ho_17) 0 ∗ semVal (s2Cell c 17 ho_17) 0 ∗ semVal (r2Cell c 17 ho_17) 0) ∗ (semVal (s1Cell c 18 ho_18) 0 ∗ semVal (r1Cell c 18 ho_18) 0 ∗ semVal (s2Cell c 18 ho_18) 0 ∗ semVal (r2Cell c 18 ho_18) 0) ∗ (semVal (s1Cell c 19 ho_19) 0 ∗ semVal (r1Cell c 19 ho_19) 0 ∗ semVal (s2Cell c 19 ho_19) 0 ∗ semVal (r2Cell c 19 ho_19) 0) ∗ (semVal (s1Cell c 20 ho_20) 0 ∗ semVal (r1Cell c 20 ho_20) 0 ∗ semVal (s2Cell c 20 ho_20) 0 ∗ semVal (r2Cell c 20 ho_20) 0) ∗ (semVal (s1Cell c 21 ho_21) 0 ∗ semVal (r1Cell c 21 ho_21) 0 ∗ semVal (s2Cell c 21 ho_21) 0 ∗ semVal (r2Cell c 21 ho_21) 0) ∗ (semVal (s1Cell c 22 ho_22) 0 ∗ semVal (r1Cell c 22 ho_22) 0 ∗ semVal (s2Cell c 22 ho_22) 0 ∗ semVal (r2Cell c 22 ho_22) 0) ∗ (semVal (s1Cell c 23 ho_23) 0 ∗ semVal (r1Cell c 23 ho_23) 0 ∗ semVal (s2Cell c 23 ho_23) 0 ∗ semVal (r2Cell c 23 ho_23) 0) ∗ (semVal (s1Cell c 24 ho_24) 0 ∗ semVal (r1Cell c 24 ho_24) 0 ∗ semVal (s2Cell c 24 ho_24) 0 ∗ semVal (r2Cell c 24 ho_24) 0) ∗ (semVal (s1Cell c 25 ho_25) 0 ∗ semVal (r1Cell c 25 ho_25) 0 ∗ semVal (s2Cell c 25 ho_25) 0 ∗ semVal (r2Cell c 25 ho_25) 0) ∗ (semVal (s1Cell c 26 ho_26) 0 ∗ semVal (r1Cell c 26 ho_26) 0 ∗ semVal (s2Cell c 26 ho_26) 0 ∗ semVal (r2Cell c 26 ho_26) 0) ∗ (semVal (s1Cell c 27 ho_27) 0 ∗ semVal (r1Cell c 27 ho_27) 0 ∗ semVal (s2Cell c 27 ho_27) 0 ∗ semVal (r2Cell c 27 ho_27) 0) ∗ (semVal (s1Cell c 28 ho_28) 0 ∗ semVal (r1Cell c 28 ho_28) 0 ∗ semVal (s2Cell c 28 ho_28) 0 ∗ semVal (r2Cell c 28 ho_28) 0) ∗ (semVal (s1Cell c 29 ho_29) 0 ∗ semVal (r1Cell c 29 ho_29) 0 ∗ semVal (s2Cell c 29 ho_29) 0 ∗ semVal (r2Cell c 29 ho_29) 0) ∗ (semVal (s1Cell c 30 ho_30) 0 ∗ semVal (r1Cell c 30 ho_30) 0 ∗ semVal (s2Cell c 30 ho_30) 0 ∗ semVal (r2Cell c 30 ho_30) 0) ∗ (semVal (s1Cell c 31 ho_31) 0 ∗ semVal (r1Cell c 31 ho_31) 0 ∗ semVal (s2Cell c 31 ho_31) 0 ∗ semVal (r2Cell c 31 ho_31) 0)) := by
    rw [bigSep_univ_prod, bigSep_univ_comm, bigSep_congr (s := Finset.univ) (fun (k : Fin 31) _ => bigSep_fin4 (F := F) _), bigSep_fin31]
    rfl
  have ho : (bigSep Finset.univ fun o : Fin 32 => (semVal ((c : Thread nD τ), SemLoc.dma (semAt cc0_scratch11 o.val o.isLt)) 0 : sProp 𝕄))
      = iprop(semVal ((c : Thread nD τ), .dma (semAt cc0_scratch11 0 ho_0)) 0 ∗ semVal ((c : Thread nD τ), .dma (semAt cc0_scratch11 1 ho_1)) 0 ∗ semVal ((c : Thread nD τ), .dma (semAt cc0_scratch11 2 ho_2)) 0 ∗ semVal ((c : Thread nD τ), .dma (semAt cc0_scratch11 3 ho_3)) 0 ∗ semVal ((c : Thread nD τ), .dma (semAt cc0_scratch11 4 ho_4)) 0 ∗ semVal ((c : Thread nD τ), .dma (semAt cc0_scratch11 5 ho_5)) 0 ∗ semVal ((c : Thread nD τ), .dma (semAt cc0_scratch11 6 ho_6)) 0 ∗ semVal ((c : Thread nD τ), .dma (semAt cc0_scratch11 7 ho_7)) 0 ∗ semVal ((c : Thread nD τ), .dma (semAt cc0_scratch11 8 ho_8)) 0 ∗ semVal ((c : Thread nD τ), .dma (semAt cc0_scratch11 9 ho_9)) 0 ∗ semVal ((c : Thread nD τ), .dma (semAt cc0_scratch11 10 ho_10)) 0 ∗ semVal ((c : Thread nD τ), .dma (semAt cc0_scratch11 11 ho_11)) 0 ∗ semVal ((c : Thread nD τ), .dma (semAt cc0_scratch11 12 ho_12)) 0 ∗ semVal ((c : Thread nD τ), .dma (semAt cc0_scratch11 13 ho_13)) 0 ∗ semVal ((c : Thread nD τ), .dma (semAt cc0_scratch11 14 ho_14)) 0 ∗ semVal ((c : Thread nD τ), .dma (semAt cc0_scratch11 15 ho_15)) 0 ∗ semVal ((c : Thread nD τ), .dma (semAt cc0_scratch11 16 ho_16)) 0 ∗ semVal ((c : Thread nD τ), .dma (semAt cc0_scratch11 17 ho_17)) 0 ∗ semVal ((c : Thread nD τ), .dma (semAt cc0_scratch11 18 ho_18)) 0 ∗ semVal ((c : Thread nD τ), .dma (semAt cc0_scratch11 19 ho_19)) 0 ∗ semVal ((c : Thread nD τ), .dma (semAt cc0_scratch11 20 ho_20)) 0 ∗ semVal ((c : Thread nD τ), .dma (semAt cc0_scratch11 21 ho_21)) 0 ∗ semVal ((c : Thread nD τ), .dma (semAt cc0_scratch11 22 ho_22)) 0 ∗ semVal ((c : Thread nD τ), .dma (semAt cc0_scratch11 23 ho_23)) 0 ∗ semVal ((c : Thread nD τ), .dma (semAt cc0_scratch11 24 ho_24)) 0 ∗ semVal ((c : Thread nD τ), .dma (semAt cc0_scratch11 25 ho_25)) 0 ∗ semVal ((c : Thread nD τ), .dma (semAt cc0_scratch11 26 ho_26)) 0 ∗ semVal ((c : Thread nD τ), .dma (semAt cc0_scratch11 27 ho_27)) 0 ∗ semVal ((c : Thread nD τ), .dma (semAt cc0_scratch11 28 ho_28)) 0 ∗ semVal ((c : Thread nD τ), .dma (semAt cc0_scratch11 29 ho_29)) 0 ∗ semVal ((c : Thread nD τ), .dma (semAt cc0_scratch11 30 ho_30)) 0 ∗ semVal ((c : Thread nD τ), .dma (semAt cc0_scratch11 31 ho_31)) 0) :=
    bigSep_univ_eq_bigSepL offs32 offs32_univ offs32_nodup _
  have hall : (allSems0 (F := F) c : sProp 𝕄)
      = iprop((bigSep Finset.univ fun ak : Fin 4 × Fin 31 => semVal ((c : Thread nD τ), SemLoc.dma (xsem ak)) 0)
        ∗ semVal ((c : Thread nD τ), SemLoc.dma cc0_scratch6.sem) 0
        ∗ (bigSep Finset.univ fun o : Fin 32 => semVal ((c : Thread nD τ), SemLoc.dma (semAt cc0_scratch11 o.val o.isLt)) 0)
        ∗ semVal (s1Cell c 0 ho_0) 0 ∗ semVal (r1Cell c 0 ho_0) 0 ∗ semVal (s2Cell c 0 ho_0) 0 ∗ semVal (r2Cell c 0 ho_0) 0) := by
    unfold allSems0
    rw [bigSep_univ_equiv (Equiv.ofBijective jsem jsem_bijective) (fun q : DmaSem sig => (semVal ((c : Thread nD τ), SemLoc.dma q) 0 : sProp 𝕄)),
      bigSep_univ_sum, bigSep_univ_sum, bigSep_univ_sum, bigSep_univ_of_subsingleton (), bigSep_fin4]
    rfl
  rw [hall, hx, ho]
  iintro ⟨H6, H11, Hz1, Hz2, Hz3, Hz4, HX⟩
  isplitl [HX]; · iexact HX
  isplitl [H6]; · iexact H6
  isplitl [H11]; · iexact H11
  isplitl [Hz1]; · iexact Hz1
  isplitl [Hz2]; · iexact Hz2
  isplitl [Hz3]; · iexact Hz3
  iexact Hz4

/-! ## The end of the kernel body -/

section End
variable (S1c : (c : Dev nD) → Buf (Elt F) (st1.view.loc (c : Thread nD τ)))
variable (Y2c : (c : Dev nD) → Buf (Elt F) (st2.view.loc (c : Thread nD τ)))
variable (OUTc : (c : Dev nD) → Buf (Elt F) ((c : Thread nD τ).loc main_v1))
variable (m : (ℓ : Loc nD τ sig) → Buf (Elt F) ℓ)

set_option maxRecDepth 100000 in
/-- What the kernel body leaves is the invariant after the kernel's one point, with nothing owed. -/
theorem body_end (c : Dev nD) (W : Waits sig Unit) :
    bodyEnd (F := F) c OUTc m W ⊢ iprop(Φ₁ (F := F) OUTc m c ∗ (dats (F := F) S1c Y2c OUTc m 0 c).owesAt () t₀.succ) := by
  unfold bodyEnd Φ₁ scratches Dat.owesAt Pipeline.owesWithin
  rw [show (dats (F := F) S1c Y2c OUTc m 0 c).owed t₀.succ = 0 from rfl]
  iintro ⟨HO, Harg, Hout, HtV, Hst2, Hsto, HST1, HCM1, HCM2, H6, H11, Hz1, Hz2, Hz3, Hz4, HX⟩
  ihave H1 := (st1_join (F := F) c) $$ HST1
  ihave H2 := (cm_join_chain cm1 (Memref.isWhole_whole _) c) $$ HCM1
  ihave H4 := (cm_join_chain cm2 (Memref.isWhole_whole _) c) $$ HCM2
  ihave HS := (sems_join (F := F) c) $$ [H6 H11 Hz1 Hz2 Hz3 Hz4 HX]
  · isplitl [H6]; · iexact H6
    isplitl [H11]; · iexact H11
    isplitl [Hz1]; · iexact Hz1
    isplitl [Hz2]; · iexact Hz2
    isplitl [Hz3]; · iexact Hz3
    isplitl [Hz4]; · iexact Hz4
    iexact HX
  isplitr [HO]
  · isplitl [Harg]; · iexact Harg
    isplitl [Hout]; · iexact Hout
    isplitr [HS]
    · isplitl [HtV]; · iexact HtV
      isplitl [H1]; · iexact H1
      isplitl [H2]; · iexact H2
      isplitl [Hst2]; · iexact Hst2
      isplitl [H4]; · iexact H4
      iexact Hsto
    · iexact HS
  · iexists W
    isplitr; · ipureintro; exact fun _ _ => Or.inl trivial
    iexact HO

/-- info: 'Cert.KernelProto.body_end' depends on axioms: [propext, Classical.choice, Quot.sound] -/
#guard_msgs in #print axioms body_end

end End

/-! ## The body obligation

The kernel has one point and no window: what the launch asks of a device's body is that, from the invariant before the
point and what the device owes, the kernel's text runs to the invariant after it with nothing owed. -/

set_option maxRecDepth 100000 in
/-- The library's body obligation on every device, from a run of the kernel's text between the body's starting state
    and what it leaves. -/
theorem body_obligation (S1c : (c : Dev nD) → Buf (Elt F) (st1.view.loc (c : Thread nD τ))) (Y2c : (c : Dev nD) → Buf (Elt F) (st2.view.loc (c : Thread nD τ)))
    (OUTc : (c : Dev nD) → Buf (Elt F) ((c : Thread nD τ).loc main_v1)) (m : (ℓ : Loc nD τ sig) → Buf (Elt F) ℓ)
    (hrun : ∀ (c : Dev nD) K W fO f0 f1 f3 f5 g1 g2 (Kt : PUnit → sProp 𝕄),
      iprop(bodyStart (F := F) S1c Y2c c g1 g2 K W fO f0 f1 f3 f5 m ∗ ((∃ W', bodyEnd (F := F) c OUTc m W') -∗ Kt ⟨⟩))
        ⊢ wp frame (wpE (defs₀ (F := F)) 𝒱₀ (c : Thread nD τ) none) Set.univ
            (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Kt) :
    ∀ c, BodyObligation (dats (F := F) S1c Y2c OUTc m 0 c) (defs₀ (F := F)) 𝒱₀ () Set.univ := fun c t => by
  rw [fin_N t]
  show iprop(Φ₀ (F := F) S1c Y2c m c ∗ (dats (F := F) S1c Y2c OUTc m 0 c).owesAt () t₀.castSucc ∗ emp)
    ⊢ wp frame (wpE (defs₀ (F := F)) 𝒱₀ (c : Thread nD τ) none) Set.univ
        (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11)
        (fun _ => iprop(Φ₁ (F := F) OUTc m c ∗ (dats (F := F) S1c Y2c OUTc m 0 c).owesAt () t₀.succ ∗ emp))
  iintro ⟨HΦ, HO, -⟩
  ihave Hs := (body_start S1c Y2c OUTc m c) $$ [HΦ HO]
  · isplitl [HΦ] <;> iassumption
  icases Hs with ⟨%K, %W, %fO, %f0, %f1, %f3, %f5, %g1, %g2, -, Hs⟩
  iapply (hrun c K W fO f0 f1 f3 f5 g1 g2 _)
  isplitl [Hs]; · iexact Hs
  iintro ⟨%W', He⟩
  ihave H := (body_end S1c Y2c OUTc m c W') $$ He
  icases H with ⟨H1, H2⟩
  isplitl [H1]; · iexact H1
  isplitl [H2]; · iexact H2
  iempintro

/-- info: 'Cert.KernelProto.body_obligation' depends on axioms: [propext, Classical.choice, Quot.sound] -/
#guard_msgs in #print axioms body_obligation

end Cert.KernelProto

end
-- ==== Proof.KernelIdealLevels.lean ====
import proofs.«900784_g7700000000000785_dist_f_of_ar_i_m512_n256_v7x_i32_bf16_1_alg».proof.Proof.KernelIdealTables

noncomputable section

namespace Cert.KernelIdealProto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A wait is below everything still owed -/

theorem pos_add {P : GSem nD τ sig → Unit → Prop} {A B : CellTallies nD τ sig Unit}
    (hA : ∀ g i, 0 < A g i → P g i) (hB : ∀ g i, 0 < B g i → P g i) : ∀ g i, 0 < (A + B) g i → P g i :=
  fun g i h => (Pipeline.add_pos_cases h).elim (hA g i) (hB g i)
theorem pos_tally {P : GSem nD τ sig → Unit → Prop} (cell : GSem nD τ sig) (n : ℕ) (hP : P cell ()) :
    ∀ g i, 0 < tallyAt cell () n g i → P g i := by
  intro g i h
  rw [tallyAt_apply] at h
  by_cases hh : g = cell ∧ i = ()
  · obtain ⟨rfl, rfl⟩ := hh; exact hP
  · rw [if_neg hh] at h; exact absurd h (Nat.lt_irrefl 0)

/-- While a device still owes both exchanges' receive credits it may wait on any of its cells below level 2. -/
theorem mayWait62 (c : Dev nD) (sm : SemLoc sig) (h : lv ((c : Thread nD τ), sm) () < 2) :
    (levAts L lv : sProp 𝕄) ⊢ MayWait (c : Thread nD τ) sm () (tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX + tallyAt (r1Cell (rot c 31) 31 ho_31) () NX + tallyAt (r1Cell (rot c 30) 30 ho_30) () NX + tallyAt (r1Cell (rot c 29) 29 ho_29) () NX + tallyAt (r1Cell (rot c 28) 28 ho_28) () NX + tallyAt (r1Cell (rot c 27) 27 ho_27) () NX + tallyAt (r1Cell (rot c 26) 26 ho_26) () NX + tallyAt (r1Cell (rot c 25) 25 ho_25) () NX + tallyAt (r1Cell (rot c 24) 24 ho_24) () NX + tallyAt (r1Cell (rot c 23) 23 ho_23) () NX + tallyAt (r1Cell (rot c 22) 22 ho_22) () NX + tallyAt (r1Cell (rot c 21) 21 ho_21) () NX + tallyAt (r1Cell (rot c 20) 20 ho_20) () NX + tallyAt (r1Cell (rot c 19) 19 ho_19) () NX + tallyAt (r1Cell (rot c 18) 18 ho_18) () NX + tallyAt (r1Cell (rot c 17) 17 ho_17) () NX + tallyAt (r1Cell (rot c 16) 16 ho_16) () NX + tallyAt (r1Cell (rot c 15) 15 ho_15) () NX + tallyAt (r1Cell (rot c 14) 14 ho_14) () NX + tallyAt (r1Cell (rot c 13) 13 ho_13) () NX + tallyAt (r1Cell (rot c 12) 12 ho_12) () NX + tallyAt (r1Cell (rot c 11) 11 ho_11) () NX + tallyAt (r1Cell (rot c 10) 10 ho_10) () NX + tallyAt (r1Cell (rot c 9) 9 ho_9) () NX + tallyAt (r1Cell (rot c 8) 8 ho_8) () NX + tallyAt (r1Cell (rot c 7) 7 ho_7) () NX + tallyAt (r1Cell (rot c 6) 6 ho_6) () NX + tallyAt (r1Cell (rot c 5) 5 ho_5) () NX + tallyAt (r1Cell (rot c 4) 4 ho_4) () NX + tallyAt (r1Cell (rot c 3) 3 ho_3) () NX + tallyAt (r1Cell (rot c 2) 2 ho_2) () NX + tallyAt (r1Cell (rot c 1) 1 ho_1) () NX) :=
  Pipeline.mayWait_of_levAts (by rw [L_tc]; exact Finset.mem_singleton_self _) (by
    repeat' (first | apply pos_add | apply pos_tally)
    all_goals
      refine ⟨by rw [L_tc]; exact Finset.mem_singleton_self _, ?_⟩
      first
        | (show _ < 2; exact h)
        | (show _ < 3; omega))
/-- While it still owes the second exchange's receive credits it may wait on any of its cells below level 3. -/
theorem mayWait31 (c : Dev nD) (sm : SemLoc sig) (h : lv ((c : Thread nD τ), sm) () < 3) :
    (levAts L lv : sProp 𝕄) ⊢ MayWait (c : Thread nD τ) sm () (tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX) :=
  Pipeline.mayWait_of_levAts (by rw [L_tc]; exact Finset.mem_singleton_self _) (by
    repeat' (first | apply pos_add | apply pos_tally)
    all_goals
      refine ⟨by rw [L_tc]; exact Finset.mem_singleton_self _, ?_⟩
      first
        | (show _ < 2; exact h)
        | (show _ < 3; omega))

end Cert.KernelIdealProto
end
-- ==== Proof.KernelIdealSends.lean ====
import proofs.«900784_g7700000000000785_dist_f_of_ar_i_m512_n256_v7x_i32_bf16_1_alg».proof.Proof.KernelIdealTables

noncomputable section

namespace Cert.KernelIdealProto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (S1c : (c : Dev nD) → Buf (Elt F) (st1.view.loc (c : Thread nD τ)))
variable (Y2c : (c : Dev nD) → Buf (Elt F) (st2.view.loc (c : Thread nD τ)))

/-! ## A transfer's landing, stated from the sender's side -/

omit [FloatOps F] in
/-- Over the elements a view owns, what a whole write leaves does not depend on what was there before. -/
theorem write_rebase {κ : Kind} {sp : Space} {s : Shape} {e : EltTy} (v : View sig κ sp s e)
    (f g : v.ty.Contents (Elt F)) (w : s.Idx → Elt F e) : ∀ i ∈ v.set, v.write (Elt F) f w Finset.univ i = v.write (Elt F) g w Finset.univ i := by
  intro i hi
  obtain ⟨z, -, rfl⟩ := Finset.mem_map.mp hi
  rw [View.write_emb_of_mem _ _ (Finset.mem_univ _), View.write_emb_of_mem _ _ (Finset.mem_univ _)]

/-- What lands in slot `k` of the device `k` positions after `c` is what `c` sends there: the two ends of one transfer. -/
theorem land1_rot (c : Dev nD) (k : ℕ) (hk : 1 ≤ k ∧ k ≤ 31) :
    land1 S1c (rot c k) k hk = (slotM cm1 k (by omega)).view.write (Elt F) (slotM cm1 k (by omega)).view.junk
      ((srcM1 c k hk).view.read (Elt F) (S1c c)) Finset.univ := by
  unfold land1
  have h := rot_rot_sub c k hk
  exact congrArg (fun s : Dev nD => (slotM cm1 k (by omega)).view.write (Elt F) (slotM cm1 k (by omega)).view.junk
      ((srcM1 s k hk).view.read (Elt F) (S1c s)) Finset.univ) h
theorem land2_rot (c : Dev nD) (k : ℕ) (hk : 1 ≤ k ∧ k ≤ 31) :
    land2 Y2c (rot c k) k hk = (slotM cm2 k (by omega)).view.write (Elt F) (slotM cm2 k (by omega)).view.junk
      (st2.view.read (Elt F) (Y2c c)) Finset.univ := by
  unfold land2
  have h := rot_rot_sub c k hk
  exact congrArg (fun s : Dev nD => (slotM cm2 k (by omega)).view.write (Elt F) (slotM cm2 k (by omega)).view.junk
      (st2.view.read (Elt F) (Y2c s)) Finset.univ) h

/-- The first exchange's transfer at offset `k`: device `c` lends the rows it sends, writes slot `k` of the device `k`
    positions after it, pays that device's receive duty off what it owes and takes its own send cell's credit. -/
theorem wp_send1 (c n : Dev nD) (k : ℕ) (hn : n = rot c k) (hk : 1 ≤ k ∧ k ≤ 31) (ho : k < 32) (κ₁ κ₂ : ℕ)
    (hd₁ : 0 ∈ (sched (F := F) S1c Y2c).duties (s1Cell c k ho) 0) (hd₂ : 0 ∈ (sched (F := F) S1c Y2c).duties (r1Cell (rot c k) k ho) 0)
    (hp₁ : (sched (F := F) S1c Y2c).payload (s1Cell c k ho) 0 0
      = ((srcM1 c k hk).view.loc (c : Thread nD τ) ↦[(srcM1 c k hk).view.set]{fullShare} S1c c : sProp 𝕄))
    (hp₂ : (sched (F := F) S1c Y2c).payload (r1Cell (rot c k) k ho) 0 0
      = ((slotM cm1 k ho).view.loc (rot c k : Thread nD τ) ↦[(slotM cm1 k ho).view.set]{fullShare} land1 S1c (rot c k) k hk : sProp 𝕄))
    {hsc : (slotM cm1 k ho : Memref sig (Dev.tc n : Thread nD τ).2.kind .vmem S16x256 .bf16).view.ref.isScScratch = false}
    {hsrc : (srcM1 c k hk).view.WordExact} {hdst : (slotM cm1 k ho).view.WordExact}
    {hsem : DmaTarget.Typed .vmem (.dma (semAt cc0_scratch8 k ho)) (.remote (Dev.tc n : Thread nD τ) (slotM cm1 k ho) (.dma (semAt cc0_scratch7 k ho)) hsc)}
    {α : Type} {Q : α → sProp 𝕄} {k' : PUnit → Prog (TpuEff nD τ sig (Elt F) Λ₀ .tc) α}
    (fd : Buf (Elt F) ((slotM cm1 k ho).view.loc (rot c k : Thread nD τ))) (W : Waits sig Unit) (O : CellTallies nD τ sig Unit) :
    iprop(cellInv ER (sched (F := F) S1c Y2c) κ₁ (s1Cell c k ho) ∗ cellInv ER (sched (F := F) S1c Y2c) κ₂ (r1Cell (rot c k) k ho)
        ∗ ((srcM1 c k hk).view.loc (c : Thread nD τ) ↦[(srcM1 c k hk).view.set]{fullShare} S1c c)
        ∗ ((slotM cm1 k ho).view.loc (rot c k : Thread nD τ) ↦[(slotM cm1 k ho).view.set]{fullShare} fd)
        ∗ owes (c : Thread nD τ) (O + tallyAt (r1Cell (rot c k) k ho) () NX) W
        ∗ dutyTok ER (s1Cell c k ho) 0 0 ∗ reached ER (s1Cell c k ho) 0
        ∗ dutyTok ER (r1Cell (rot c k) k ho) 0 0 ∗ reached ER (r1Cell (rot c k) k ho) 0)
      ⊢ iprop(((cred (tallyAt (s1Cell c k ho) () NX) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (srcM1 c k hk) (.remote (Dev.tc n : Thread nD τ) (slotM cm1 k ho) (.dma (semAt cc0_scratch7 k ho)) hsc) (.dma (semAt cc0_scratch8 k ho)) hsrc hdst hsem) k') Q) := by
  subst hn
  exact Rounds.wp_send_pointsTo 𝒱₀ ER (sched (F := F) S1c Y2c) (c : Thread nD τ) none (κ₁ := κ₁) (κ₂ := κ₂)
    (r₁ := 0) (r₂ := 0) (d₁ := 0) (d₂ := 0) (fd := fd) hd₁ hd₂ () () NX rfl (amount_dma S1c Y2c c _ 0 0) (amount_dma S1c Y2c (rot c k) _ 0 0) O rfl (W := W)
    (by rw [hp₁])
    (by
      rw [hp₂, land1_rot]
      refine Entails.of_eq (pointsTo_congr fun i hi => ?_)
      exact write_rebase (F := F) (slotM cm1 k ho).view _ _ _ i hi)

/-- The second exchange's transfer at offset `k`: device `c` lends one read share of its 16 result rows and writes slot
    `k` of the second landing buffer of the device `k` positions after it. -/
theorem wp_send2 (c n : Dev nD) (k : ℕ) (hn : n = rot c k) (hk : 1 ≤ k ∧ k ≤ 31) (ho : k < 32) (κ₁ κ₂ : ℕ)
    (hd₁ : 0 ∈ (sched (F := F) S1c Y2c).duties (s2Cell c k ho) 0) (hd₂ : 0 ∈ (sched (F := F) S1c Y2c).duties (r2Cell (rot c k) k ho) 0)
    (hp₁ : (sched (F := F) S1c Y2c).payload (s2Cell c k ho) 0 0
      = (st2.view.loc (c : Thread nD τ) ↦[st2.view.set]{Transfers.shareTokN fullShare (k - 1)} Y2c c : sProp 𝕄))
    (hp₂ : (sched (F := F) S1c Y2c).payload (r2Cell (rot c k) k ho) 0 0
      = ((slotM cm2 k ho).view.loc (rot c k : Thread nD τ) ↦[(slotM cm2 k ho).view.set]{fullShare} land2 Y2c (rot c k) k hk : sProp 𝕄))
    {hsc : (slotM cm2 k ho : Memref sig (Dev.tc n : Thread nD τ).2.kind .vmem S16x256 .bf16).view.ref.isScScratch = false}
    {hsrc : st2.view.WordExact} {hdst : (slotM cm2 k ho).view.WordExact}
    {hsem : DmaTarget.Typed .vmem (.dma (semAt cc0_scratch10 k ho)) (.remote (Dev.tc n : Thread nD τ) (slotM cm2 k ho) (.dma (semAt cc0_scratch9 k ho)) hsc)}
    {α : Type} {Q : α → sProp 𝕄} {k' : PUnit → Prog (TpuEff nD τ sig (Elt F) Λ₀ .tc) α}
    (fd : Buf (Elt F) ((slotM cm2 k ho).view.loc (rot c k : Thread nD τ))) (W : Waits sig Unit) (O : CellTallies nD τ sig Unit) :
    iprop(cellInv ER (sched (F := F) S1c Y2c) κ₁ (s2Cell c k ho) ∗ cellInv ER (sched (F := F) S1c Y2c) κ₂ (r2Cell (rot c k) k ho)
        ∗ (st2.view.loc (c : Thread nD τ) ↦[st2.view.set]{Transfers.shareTokN fullShare (k - 1)} Y2c c)
        ∗ ((slotM cm2 k ho).view.loc (rot c k : Thread nD τ) ↦[(slotM cm2 k ho).view.set]{fullShare} fd)
        ∗ owes (c : Thread nD τ) (O + tallyAt (r2Cell (rot c k) k ho) () NX) W
        ∗ dutyTok ER (s2Cell c k ho) 0 0 ∗ reached ER (s2Cell c k ho) 0
        ∗ dutyTok ER (r2Cell (rot c k) k ho) 0 0 ∗ reached ER (r2Cell (rot c k) k ho) 0)
      ⊢ iprop(((cred (tallyAt (s2Cell c k ho) () NX) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma st2 (.remote (Dev.tc n : Thread nD τ) (slotM cm2 k ho) (.dma (semAt cc0_scratch9 k ho)) hsc) (.dma (semAt cc0_scratch10 k ho)) hsrc hdst hsem) k') Q) := by
  subst hn
  exact Rounds.wp_send_pointsTo 𝒱₀ ER (sched (F := F) S1c Y2c) (c : Thread nD τ) none (κ₁ := κ₁) (κ₂ := κ₂)
    (r₁ := 0) (r₂ := 0) (d₁ := 0) (d₂ := 0) (fd := fd) hd₁ hd₂ () () NX rfl (amount_dma S1c Y2c c _ 0 0) (amount_dma S1c Y2c (rot c k) _ 0 0) O rfl (W := W)
    (by rw [hp₁])
    (by
      rw [hp₂, land2_rot]
      refine Entails.of_eq (pointsTo_congr fun i hi => ?_)
      exact write_rebase (F := F) (slotM cm2 k ho).view _ _ _ i hi)

end Cert.KernelIdealProto
end
-- ==== Proof.KernelIdealAccess.lean ====
import proofs.«900784_g7700000000000785_dist_f_of_ar_i_m512_n256_v7x_i32_bf16_1_alg».proof.Proof.KernelIdealTables

/-!
# One cell's record out of the records of all

The launch leaves every device the invariant of every cell of the mesh, each under the name it was allocated at, and the
fact that every cell stands at round 0. Here: the record of the device's own barrier cell, and for each offset k = 1 … 31
those of its own four exchange cells at that offset and of the barrier cell and the two receive cells of the device
k positions after it, each stated at the cell as the kernel's text spells it.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Access
variable (S1c : (c : Dev nD) → Buf (Elt F) (st1.view.loc (c : Thread nD τ)))
variable (Y2c : (c : Dev nD) → Buf (Elt F) (st2.view.loc (c : Thread nD τ)))
variable (K : Dev nD × CK → ℕ)

theorem inv_pick (ck : Dev nD × CK) :
    (bigSep Finset.univ fun ck : Dev nD × CK => (cellInv ER (sched (F := F) S1c Y2c) (K ck) (kcell ck) : sProp 𝕄)) ⊢ cellInv ER (sched (F := F) S1c Y2c) (K ck) (kcell ck) :=
  bigSep_elim (Finset.mem_univ ck)
omit [FloatOps F] in
theorem rch_pick (ck : Dev nD × CK) :
    (bigSep Finset.univ fun ck : Dev nD × CK => (reached ER (kcell ck) 0 : sProp 𝕄)) ⊢ reached ER (kcell ck) 0 :=
  bigSep_elim (Finset.mem_univ ck)
/-- One cell's invariant out of the records. -/
theorem inv_at (ck : Dev nD × CK) : records (F := F) S1c Y2c K ⊢ cellInv ER (sched (F := F) S1c Y2c) (K ck) (kcell ck) := by
  unfold records
  iintro ⟨#HI, -⟩
  iapply (inv_pick S1c Y2c K ck)
  iexact HI
/-- That one cell stands at round 0, out of the records. -/
theorem rch_at (ck : Dev nD × CK) : records (F := F) S1c Y2c K ⊢ reached ER (kcell ck) 0 := by
  unfold records
  iintro ⟨-, #HR⟩
  iapply (rch_pick (F := F) ck)
  iexact HR

/-! ## The device's own barrier cell -/

theorem inv_bar (c : Dev nD) : records (F := F) S1c Y2c K ⊢ cellInv ER (sched (F := F) S1c Y2c) (K (c, none)) (barCell c) := inv_at S1c Y2c K (c, none)
theorem rch_bar (c : Dev nD) : records (F := F) S1c Y2c K ⊢ reached ER (barCell c) 0 := rch_at S1c Y2c K (c, none)

/-! ## Offset 1 -/

theorem inv_barp_1 (c : Dev nD) : records (F := F) S1c Y2c K ⊢ cellInv ER (sched (F := F) S1c Y2c) (K (rot c 1, none)) (barCell (rot c 1)) := inv_at S1c Y2c K (rot c 1, none)
theorem rch_barp_1 (c : Dev nD) : records (F := F) S1c Y2c K ⊢ reached ER (barCell (rot c 1)) 0 := rch_at S1c Y2c K (rot c 1, none)
theorem inv_s1_1 (c : Dev nD) : records (F := F) S1c Y2c K ⊢ cellInv ER (sched (F := F) S1c Y2c) (K (c, some (0, (⟨0, by decide⟩ : Fin 31)))) (s1Cell c 1 ho_1) := inv_at S1c Y2c K (c, some (0, (⟨0, by decide⟩ : Fin 31)))
theorem rch_s1_1 (c : Dev nD) : records (F := F) S1c Y2c K ⊢ reached ER (s1Cell c 1 ho_1) 0 := rch_at S1c Y2c K (c, some (0, (⟨0, by decide⟩ : Fin 31)))
theorem inv_r1_1 (c : Dev nD) : records (F := F) S1c Y2c K ⊢ cellInv ER (sched (F := F) S1c Y2c) (K (c, some (1, (⟨0, by decide⟩ : Fin 31)))) (r1Cell c 1 ho_1) := inv_at S1c Y2c K (c, some (1, (⟨0, by decide⟩ : Fin 31)))
theorem rch_r1_1 (c : Dev nD) : records (F := F) S1c Y2c K ⊢ reached ER (r1Cell c 1 ho_1) 0 := rch_at S1c Y2c K (c, some (1, (⟨0, by decide⟩ : Fin 31)))
theorem inv_s2_1 (c : Dev nD) : records (F := F) S1c Y2c K ⊢ cellInv ER (sched (F := F) S1c Y2c) (K (c, some (2, (⟨0, by decide⟩ : Fin 31)))) (s2Cell c 1 ho_1) := inv_at S1c Y2c K (c, some (2, (⟨0, by decide⟩ : Fin 31)))
theorem rch_s2_1 (c : Dev nD) : records (F := F) S1c Y2c K ⊢ reached ER (s2Cell c 1 ho_1) 0 := rch_at S1c Y2c K (c, some (2, (⟨0, by decide⟩ : Fin 31)))
theorem inv_r2_1 (c : Dev nD) : records (F := F) S1c Y2c K ⊢ cellInv ER (sched (F := F) S1c Y2c) (K (c, some (3, (⟨0, by decide⟩ : Fin 31)))) (r2Cell c 1 ho_1) := inv_at S1c Y2c K (c, some (3, (⟨0, by decide⟩ : Fin 31)))
theorem rch_r2_1 (c : Dev nD) : records (F := F) S1c Y2c K ⊢ reached ER (r2Cell c 1 ho_1) 0 := rch_at S1c Y2c K (c, some (3, (⟨0, by decide⟩ : Fin 31)))
theorem inv_r1p_1 (c : Dev nD) : records (F := F) S1c Y2c K ⊢ cellInv ER (sched (F := F) S1c Y2c) (K (rot c 1, some (1, (⟨0, by decide⟩ : Fin 31)))) (r1Cell (rot c 1) 1 ho_1) := inv_at S1c Y2c K (rot c 1, some (1, (⟨0, by decide⟩ : Fin 31)))
theorem rch_r1p_1 (c : Dev nD) : records (F := F) S1c Y2c K ⊢ reached ER (r1Cell (rot c 1) 1 ho_1) 0 := rch_at S1c Y2c K (rot c 1, some (1, (⟨0, by decide⟩ : Fin 31)))
theorem inv_r2p_1 (c : Dev nD) : records (F := F) S1c Y2c K ⊢ cellInv ER (sched (F := F) S1c Y2c) (K (rot c 1, some (3, (⟨0, by decide⟩ : Fin 31)))) (r2Cell (rot c 1) 1 ho_1) := inv_at S1c Y2c K (rot c 1, some (3, (⟨0, by decide⟩ : Fin 31)))
theorem rch_r2p_1 (c : Dev nD) : records (F := F) S1c Y2c K ⊢ reached ER (r2Cell (rot c 1) 1 ho_1) 0 := rch_at S1c Y2c K (rot c 1, some (3, (⟨0, by decide⟩ : Fin 31)))

/-! ## Offset 2 -/

theorem inv_barp_2 (c : Dev nD) : records (F := F) S1c Y2c K ⊢ cellInv ER (sched (F := F) S1c Y2c) (K (rot c 2, none)) (barCell (rot c 2)) := inv_at S1c Y2c K (rot c 2, none)
theorem rch_barp_2 (c : Dev nD) : records (F := F) S1c Y2c K ⊢ reached ER (barCell (rot c 2)) 0 := rch_at S1c Y2c K (rot c 2, none)
theorem inv_s1_2 (c : Dev nD) : records (F := F) S1c Y2c K ⊢ cellInv ER (sched (F := F) S1c Y2c) (K (c, some (0, (⟨1, by decide⟩ : Fin 31)))) (s1Cell c 2 ho_2) := inv_at S1c Y2c K (c, some (0, (⟨1, by decide⟩ : Fin 31)))
theorem rch_s1_2 (c : Dev nD) : records (F := F) S1c Y2c K ⊢ reached ER (s1Cell c 2 ho_2) 0 := rch_at S1c Y2c K (c, some (0, (⟨1, by decide⟩ : Fin 31)))
theorem inv_r1_2 (c : Dev nD) : records (F := F) S1c Y2c K ⊢ cellInv ER (sched (F := F) S1c Y2c) (K (c, some (1, (⟨1, by decide⟩ : Fin 31)))) (r1Cell c 2 ho_2) := inv_at S1c Y2c K (c, some (1, (⟨1, by decide⟩ : Fin 31)))
theorem rch_r1_2 (c : Dev nD) : records (F := F) S1c Y2c K ⊢ reached ER (r1Cell c 2 ho_2) 0 := rch_at S1c Y2c K (c, some (1, (⟨1, by decide⟩ : Fin 31)))
theorem inv_s2_2 (c : Dev nD) : records (F := F) S1c Y2c K ⊢ cellInv ER (sched (F := F) S1c Y2c) (K (c, some (2, (⟨1, by decide⟩ : Fin 31)))) (s2Cell c 2 ho_2) := inv_at S1c Y2c K (c, some (2, (⟨1, by decide⟩ : Fin 31)))
theorem rch_s2_2 (c : Dev nD) : records (F := F) S1c Y2c K ⊢ reached ER (s2Cell c 2 ho_2) 0 := rch_at S1c Y2c K (c, some (2, (⟨1, by decide⟩ : Fin 31)))
theorem inv_r2_2 (c : Dev nD) : records (F := F) S1c Y2c K ⊢ cellInv ER (sched (F := F) S1c Y2c) (K (c, some (3, (⟨1, by decide⟩ : Fin 31)))) (r2Cell c 2 ho_2) := inv_at S1c Y2c K (c, some (3, (⟨1, by decide⟩ : Fin 31)))
theorem rch_r2_2 (c : Dev nD) : records (F := F) S1c Y2c K ⊢ reached ER (r2Cell c 2 ho_2) 0 := rch_at S1c Y2c K (c, some (3, (⟨1, by decide⟩ : Fin 31)))
theorem inv_r1p_2 (c : Dev nD) : records (F := F) S1c Y2c K ⊢ cellInv ER (sched (F := F) S1c Y2c) (K (rot c 2, some (1, (⟨1, by decide⟩ : Fin 31)))) (r1Cell (rot c 2) 2 ho_2) := inv_at S1c Y2c K (rot c 2, some (1, (⟨1, by decide⟩ : Fin 31)))
theorem rch_r1p_2 (c : Dev nD) : records (F := F) S1c Y2c K ⊢ reached ER (r1Cell (rot c 2) 2 ho_2) 0 := rch_at S1c Y2c K (rot c 2, some (1, (⟨1, by decide⟩ : Fin 31)))
theorem inv_r2p_2 (c : Dev nD) : records (F := F) S1c Y2c K ⊢ cellInv ER (sched (F := F) S1c Y2c) (K (rot c 2, some (3, (⟨1, by decide⟩ : Fin 31)))) (r2Cell (rot c 2) 2 ho_2) := inv_at S1c Y2c K (rot c 2, some (3, (⟨1, by decide⟩ : Fin 31)))
theorem rch_r2p_2 (c : Dev nD) : records (F := F) S1c Y2c K ⊢ reached ER (r2Cell (rot c 2) 2 ho_2) 0 := rch_at S1c Y2c K (rot c 2, some (3, (⟨1, by decide⟩ : Fin 31)))

/-! ## Offset 3 -/

theorem inv_barp_3 (c : Dev nD) : records (F := F) S1c Y2c K ⊢ cellInv ER (sched (F := F) S1c Y2c) (K (rot c 3, none)) (barCell (rot c 3)) := inv_at S1c Y2c K (rot c 3, none)
theorem rch_barp_3 (c : Dev nD) : records (F := F) S1c Y2c K ⊢ reached ER (barCell (rot c 3)) 0 := rch_at S1c Y2c K (rot c 3, none)
theorem inv_s1_3 (c : Dev nD) : records (F := F) S1c Y2c K ⊢ cellInv ER (sched (F := F) S1c Y2c) (K (c, some (0, (⟨2, by decide⟩ : Fin 31)))) (s1Cell c 3 ho_3) := inv_at S1c Y2c K (c, some (0, (⟨2, by decide⟩ : Fin 31)))
theorem rch_s1_3 (c : Dev nD) : records (F := F) S1c Y2c K ⊢ reached ER (s1Cell c 3 ho_3) 0 := rch_at S1c Y2c K (c, some (0, (⟨2, by decide⟩ : Fin 31)))
theorem inv_r1_3 (c : Dev nD) : records (F := F) S1c Y2c K ⊢ cellInv ER (sched (F := F) S1c Y2c) (K (c, some (1, (⟨2, by decide⟩ : Fin 31)))) (r1Cell c 3 ho_3) := inv_at S1c Y2c K (c, some (1, (⟨2, by decide⟩ : Fin 31)))
theorem rch_r1_3 (c : Dev nD) : records (F := F) S1c Y2c K ⊢ reached ER (r1Cell c 3 ho_3) 0 := rch_at S1c Y2c K (c, some (1, (⟨2, by decide⟩ : Fin 31)))
theorem inv_s2_3 (c : Dev nD) : records (F := F) S1c Y2c K ⊢ cellInv ER (sched (F := F) S1c Y2c) (K (c, some (2, (⟨2, by decide⟩ : Fin 31)))) (s2Cell c 3 ho_3) := inv_at S1c Y2c K (c, some (2, (⟨2, by decide⟩ : Fin 31)))
theorem rch_s2_3 (c : Dev nD) : records (F := F) S1c Y2c K ⊢ reached ER (s2Cell c 3 ho_3) 0 := rch_at S1c Y2c K (c, some (2, (⟨2, by decide⟩ : Fin 31)))
theorem inv_r2_3 (c : Dev nD) : records (F := F) S1c Y2c K ⊢ cellInv ER (sched (F := F) S1c Y2c) (K (c, some (3, (⟨2, by decide⟩ : Fin 31)))) (r2Cell c 3 ho_3) := inv_at S1c Y2c K (c, some (3, (⟨2, by decide⟩ : Fin 31)))
theorem rch_r2_3 (c : Dev nD) : records (F := F) S1c Y2c K ⊢ reached ER (r2Cell c 3 ho_3) 0 := rch_at S1c Y2c K (c, some (3, (⟨2, by decide⟩ : Fin 31)))
theorem inv_r1p_3 (c : Dev nD) : records (F := F) S1c Y2c K ⊢ cellInv ER (sched (F := F) S1c Y2c) (K (rot c 3, some (1, (⟨2, by decide⟩ : Fin 31)))) (r1Cell (rot c 3) 3 ho_3) := inv_at S1c Y2c K (rot c 3, some (1, (⟨2, by decide⟩ : Fin 31)))
theorem rch_r1p_3 (c : Dev nD) : records (F := F) S1c Y2c K ⊢ reached ER (r1Cell (rot c 3) 3 ho_3) 0 := rch_at S1c Y2c K (rot c 3, some (1, (⟨2, by decide⟩ : Fin 31)))
theorem inv_r2p_3 (c : Dev nD) : records (F := F) S1c Y2c K ⊢ cellInv ER (sched (F := F) S1c Y2c) (K (rot c 3, some (3, (⟨2, by decide⟩ : Fin 31)))) (r2Cell (rot c 3) 3 ho_3) := inv_at S1c Y2c K (rot c 3, some (3, (⟨2, by decide⟩ : Fin 31)))
theorem rch_r2p_3 (c : Dev nD) : records (F := F) S1c Y2c K ⊢ reached ER (r2Cell (rot c 3) 3 ho_3) 0 := rch_at S1c Y2c K (rot c 3, some (3, (⟨2, by decide⟩ : Fin 31)))

/-! ## Offset 4 -/

theorem inv_barp_4 (c : Dev nD) : records (F := F) S1c Y2c K ⊢ cellInv ER (sched (F := F) S1c Y2c) (K (rot c 4, none)) (barCell (rot c 4)) := inv_at S1c Y2c K (rot c 4, none)
theorem rch_barp_4 (c : Dev nD) : records (F := F) S1c Y2c K ⊢ reached ER (barCell (rot c 4)) 0 := rch_at S1c Y2c K (rot c 4, none)
theorem inv_s1_4 (c : Dev nD) : records (F := F) S1c Y2c K ⊢ cellInv ER (sched (F := F) S1c Y2c) (K (c, some (0, (⟨3, by decide⟩ : Fin 31)))) (s1Cell c 4 ho_4) := inv_at S1c Y2c K (c, some (0, (⟨3, by decide⟩ : Fin 31)))
theorem rch_s1_4 (c : Dev nD) : records (F := F) S1c Y2c K ⊢ reached ER (s1Cell c 4 ho_4) 0 := rch_at S1c Y2c K (c, some (0, (⟨3, by decide⟩ : Fin 31)))
theorem inv_r1_4 (c : Dev nD) : records (F := F) S1c Y2c K ⊢ cellInv ER (sched (F := F) S1c Y2c) (K (c, some (1, (⟨3, by decide⟩ : Fin 31)))) (r1Cell c 4 ho_4) := inv_at S1c Y2c K (c, some (1, (⟨3, by decide⟩ : Fin 31)))
theorem rch_r1_4 (c : Dev nD) : records (F := F) S1c Y2c K ⊢ reached ER (r1Cell c 4 ho_4) 0 := rch_at S1c Y2c K (c, some (1, (⟨3, by decide⟩ : Fin 31)))
theorem inv_s2_4 (c : Dev nD) : records (F := F) S1c Y2c K ⊢ cellInv ER (sched (F := F) S1c Y2c) (K (c, some (2, (⟨3, by decide⟩ : Fin 31)))) (s2Cell c 4 ho_4) := inv_at S1c Y2c K (c, some (2, (⟨3, by decide⟩ : Fin 31)))
theorem rch_s2_4 (c : Dev nD) : records (F := F) S1c Y2c K ⊢ reached ER (s2Cell c 4 ho_4) 0 := rch_at S1c Y2c K (c, some (2, (⟨3, by decide⟩ : Fin 31)))
theorem inv_r2_4 (c : Dev nD) : records (F := F) S1c Y2c K ⊢ cellInv ER (sched (F := F) S1c Y2c) (K (c, some (3, (⟨3, by decide⟩ : Fin 31)))) (r2Cell c 4 ho_4) := inv_at S1c Y2c K (c, some (3, (⟨3, by decide⟩ : Fin 31)))
theorem rch_r2_4 (c : Dev nD) : records (F := F) S1c Y2c K ⊢ reached ER (r2Cell c 4 ho_4) 0 := rch_at S1c Y2c K (c, some (3, (⟨3, by decide⟩ : Fin 31)))
theorem inv_r1p_4 (c : Dev nD) : records (F := F) S1c Y2c K ⊢ cellInv ER (sched (F := F) S1c Y2c) (K (rot c 4, some (1, (⟨3, by decide⟩ : Fin 31)))) (r1Cell (rot c 4) 4 ho_4) := inv_at S1c Y2c K (rot c 4, some (1, (⟨3, by decide⟩ : Fin 31)))
theorem rch_r1p_4 (c : Dev nD) : records (F := F) S1c Y2c K ⊢ reached ER (r1Cell (rot c 4) 4 ho_4) 0 := rch_at S1c Y2c K (rot c 4, some (1, (⟨3, by decide⟩ : Fin 31)))
theorem inv_r2p_4 (c : Dev nD) : records (F := F) S1c Y2c K ⊢ cellInv ER (sched (F := F) S1c Y2c) (K (rot c 4, some (3, (⟨3, by decide⟩ : Fin 31)))) (r2Cell (rot c 4) 4 ho_4) := inv_at S1c Y2c K (rot c 4, some (3, (⟨3, by decide⟩ : Fin 31)))
theorem rch_r2p_4 (c : Dev nD) : records (F := F) S1c Y2c K ⊢ reached ER (r2Cell (rot c 4) 4 ho_4) 0 := rch_at S1c Y2c K (rot c 4, some (3, (⟨3, by decide⟩ : Fin 31)))

/-! ## Offset 5 -/

theorem inv_barp_5 (c : Dev nD) : records (F := F) S1c Y2c K ⊢ cellInv ER (sched (F := F) S1c Y2c) (K (rot c 5, none)) (barCell (rot c 5)) := inv_at S1c Y2c K (rot c 5, none)
theorem rch_barp_5 (c : Dev nD) : records (F := F) S1c Y2c K ⊢ reached ER (barCell (rot c 5)) 0 := rch_at S1c Y2c K (rot c 5, none)
theorem inv_s1_5 (c : Dev nD) : records (F := F) S1c Y2c K ⊢ cellInv ER (sched (F := F) S1c Y2c) (K (c, some (0, (⟨4, by decide⟩ : Fin 31)))) (s1Cell c 5 ho_5) := inv_at S1c Y2c K (c, some (0, (⟨4, by decide⟩ : Fin 31)))
theorem rch_s1_5 (c : Dev nD) : records (F := F) S1c Y2c K ⊢ reached ER (s1Cell c 5 ho_5) 0 := rch_at S1c Y2c K (c, some (0, (⟨4, by decide⟩ : Fin 31)))
theorem inv_r1_5 (c : Dev nD) : records (F := F) S1c Y2c K ⊢ cellInv ER (sched (F := F) S1c Y2c) (K (c, some (1, (⟨4, by decide⟩ : Fin 31)))) (r1Cell c 5 ho_5) := inv_at S1c Y2c K (c, some (1, (⟨4, by decide⟩ : Fin 31)))
theorem rch_r1_5 (c : Dev nD) : records (F := F) S1c Y2c K ⊢ reached ER (r1Cell c 5 ho_5) 0 := rch_at S1c Y2c K (c, some (1, (⟨4, by decide⟩ : Fin 31)))
theorem inv_s2_5 (c : Dev nD) : records (F := F) S1c Y2c K ⊢ cellInv ER (sched (F := F) S1c Y2c) (K (c, some (2, (⟨4, by decide⟩ : Fin 31)))) (s2Cell c 5 ho_5) := inv_at S1c Y2c K (c, some (2, (⟨4, by decide⟩ : Fin 31)))
theorem rch_s2_5 (c : Dev nD) : records (F := F) S1c Y2c K ⊢ reached ER (s2Cell c 5 ho_5) 0 := rch_at S1c Y2c K (c, some (2, (⟨4, by decide⟩ : Fin 31)))
theorem inv_r2_5 (c : Dev nD) : records (F := F) S1c Y2c K ⊢ cellInv ER (sched (F := F) S1c Y2c) (K (c, some (3, (⟨4, by decide⟩ : Fin 31)))) (r2Cell c 5 ho_5) := inv_at S1c Y2c K (c, some (3, (⟨4, by decide⟩ : Fin 31)))
theorem rch_r2_5 (c : Dev nD) : records (F := F) S1c Y2c K ⊢ reached ER (r2Cell c 5 ho_5) 0 := rch_at S1c Y2c K (c, some (3, (⟨4, by decide⟩ : Fin 31)))
theorem inv_r1p_5 (c : Dev nD) : records (F := F) S1c Y2c K ⊢ cellInv ER (sched (F := F) S1c Y2c) (K (rot c 5, some (1, (⟨4, by decide⟩ : Fin 31)))) (r1Cell (rot c 5) 5 ho_5) := inv_at S1c Y2c K (rot c 5, some (1, (⟨4, by decide⟩ : Fin 31)))
theorem rch_r1p_5 (c : Dev nD) : records (F := F) S1c Y2c K ⊢ reached ER (r1Cell (rot c 5) 5 ho_5) 0 := rch_at S1c Y2c K (rot c 5, some (1, (⟨4, by decide⟩ : Fin 31)))
theorem inv_r2p_5 (c : Dev nD) : records (F := F) S1c Y2c K ⊢ cellInv ER (sched (F := F) S1c Y2c) (K (rot c 5, some (3, (⟨4, by decide⟩ : Fin 31)))) (r2Cell (rot c 5) 5 ho_5) := inv_at S1c Y2c K (rot c 5, some (3, (⟨4, by decide⟩ : Fin 31)))
theorem rch_r2p_5 (c : Dev nD) : records (F := F) S1c Y2c K ⊢ reached ER (r2Cell (rot c 5) 5 ho_5) 0 := rch_at S1c Y2c K (rot c 5, some (3, (⟨4, by decide⟩ : Fin 31)))

/-! ## Offset 6 -/

theorem inv_barp_6 (c : Dev nD) : records (F := F) S1c Y2c K ⊢ cellInv ER (sched (F := F) S1c Y2c) (K (rot c 6, none)) (barCell (rot c 6)) := inv_at S1c Y2c K (rot c 6, none)
theorem rch_barp_6 (c : Dev nD) : records (F := F) S1c Y2c K ⊢ reached ER (barCell (rot c 6)) 0 := rch_at S1c Y2c K (rot c 6, none)
theorem inv_s1_6 (c : Dev nD) : records (F := F) S1c Y2c K ⊢ cellInv ER (sched (F := F) S1c Y2c) (K (c, some (0, (⟨5, by decide⟩ : Fin 31)))) (s1Cell c 6 ho_6) := inv_at S1c Y2c K (c, some (0, (⟨5, by decide⟩ : Fin 31)))
theorem rch_s1_6 (c : Dev nD) : records (F := F) S1c Y2c K ⊢ reached ER (s1Cell c 6 ho_6) 0 := rch_at S1c Y2c K (c, some (0, (⟨5, by decide⟩ : Fin 31)))
theorem inv_r1_6 (c : Dev nD) : records (F := F) S1c Y2c K ⊢ cellInv ER (sched (F := F) S1c Y2c) (K (c, some (1, (⟨5, by decide⟩ : Fin 31)))) (r1Cell c 6 ho_6) := inv_at S1c Y2c K (c, some (1, (⟨5, by decide⟩ : Fin 31)))
theorem rch_r1_6 (c : Dev nD) : records (F := F) S1c Y2c K ⊢ reached ER (r1Cell c 6 ho_6) 0 := rch_at S1c Y2c K (c, some (1, (⟨5, by decide⟩ : Fin 31)))
theorem inv_s2_6 (c : Dev nD) : records (F := F) S1c Y2c K ⊢ cellInv ER (sched (F := F) S1c Y2c) (K (c, some (2, (⟨5, by decide⟩ : Fin 31)))) (s2Cell c 6 ho_6) := inv_at S1c Y2c K (c, some (2, (⟨5, by decide⟩ : Fin 31)))
theorem rch_s2_6 (c : Dev nD) : records (F := F) S1c Y2c K ⊢ reached ER (s2Cell c 6 ho_6) 0 := rch_at S1c Y2c K (c, some (2, (⟨5, by decide⟩ : Fin 31)))
theorem inv_r2_6 (c : Dev nD) : records (F := F) S1c Y2c K ⊢ cellInv ER (sched (F := F) S1c Y2c) (K (c, some (3, (⟨5, by decide⟩ : Fin 31)))) (r2Cell c 6 ho_6) := inv_at S1c Y2c K (c, some (3, (⟨5, by decide⟩ : Fin 31)))
theorem rch_r2_6 (c : Dev nD) : records (F := F) S1c Y2c K ⊢ reached ER (r2Cell c 6 ho_6) 0 := rch_at S1c Y2c K (c, some (3, (⟨5, by decide⟩ : Fin 31)))
theorem inv_r1p_6 (c : Dev nD) : records (F := F) S1c Y2c K ⊢ cellInv ER (sched (F := F) S1c Y2c) (K (rot c 6, some (1, (⟨5, by decide⟩ : Fin 31)))) (r1Cell (rot c 6) 6 ho_6) := inv_at S1c Y2c K (rot c 6, some (1, (⟨5, by decide⟩ : Fin 31)))
theorem rch_r1p_6 (c : Dev nD) : records (F := F) S1c Y2c K ⊢ reached ER (r1Cell (rot c 6) 6 ho_6) 0 := rch_at S1c Y2c K (rot c 6, some (1, (⟨5, by decide⟩ : Fin 31)))
theorem inv_r2p_6 (c : Dev nD) : records (F := F) S1c Y2c K ⊢ cellInv ER (sched (F := F) S1c Y2c) (K (rot c 6, some (3, (⟨5, by decide⟩ : Fin 31)))) (r2Cell (rot c 6) 6 ho_6) := inv_at S1c Y2c K (rot c 6, some (3, (⟨5, by decide⟩ : Fin 31)))
theorem rch_r2p_6 (c : Dev nD) : records (F := F) S1c Y2c K ⊢ reached ER (r2Cell (rot c 6) 6 ho_6) 0 := rch_at S1c Y2c K (rot c 6, some (3, (⟨5, by decide⟩ : Fin 31)))

/-! ## Offset 7 -/

theorem inv_barp_7 (c : Dev nD) : records (F := F) S1c Y2c K ⊢ cellInv ER (sched (F := F) S1c Y2c) (K (rot c 7, none)) (barCell (rot c 7)) := inv_at S1c Y2c K (rot c 7, none)
theorem rch_barp_7 (c : Dev nD) : records (F := F) S1c Y2c K ⊢ reached ER (barCell (rot c 7)) 0 := rch_at S1c Y2c K (rot c 7, none)
theorem inv_s1_7 (c : Dev nD) : records (F := F) S1c Y2c K ⊢ cellInv ER (sched (F := F) S1c Y2c) (K (c, some (0, (⟨6, by decide⟩ : Fin 31)))) (s1Cell c 7 ho_7) := inv_at S1c Y2c K (c, some (0, (⟨6, by decide⟩ : Fin 31)))
theorem rch_s1_7 (c : Dev nD) : records (F := F) S1c Y2c K ⊢ reached ER (s1Cell c 7 ho_7) 0 := rch_at S1c Y2c K (c, some (0, (⟨6, by decide⟩ : Fin 31)))
theorem inv_r1_7 (c : Dev nD) : records (F := F) S1c Y2c K ⊢ cellInv ER (sched (F := F) S1c Y2c) (K (c, some (1, (⟨6, by decide⟩ : Fin 31)))) (r1Cell c 7 ho_7) := inv_at S1c Y2c K (c, some (1, (⟨6, by decide⟩ : Fin 31)))
theorem rch_r1_7 (c : Dev nD) : records (F := F) S1c Y2c K ⊢ reached ER (r1Cell c 7 ho_7) 0 := rch_at S1c Y2c K (c, some (1, (⟨6, by decide⟩ : Fin 31)))
theorem inv_s2_7 (c : Dev nD) : records (F := F) S1c Y2c K ⊢ cellInv ER (sched (F := F) S1c Y2c) (K (c, some (2, (⟨6, by decide⟩ : Fin 31)))) (s2Cell c 7 ho_7) := inv_at S1c Y2c K (c, some (2, (⟨6, by decide⟩ : Fin 31)))
theorem rch_s2_7 (c : Dev nD) : records (F := F) S1c Y2c K ⊢ reached ER (s2Cell c 7 ho_7) 0 := rch_at S1c Y2c K (c, some (2, (⟨6, by decide⟩ : Fin 31)))
theorem inv_r2_7 (c : Dev nD) : records (F := F) S1c Y2c K ⊢ cellInv ER (sched (F := F) S1c Y2c) (K (c, some (3, (⟨6, by decide⟩ : Fin 31)))) (r2Cell c 7 ho_7) := inv_at S1c Y2c K (c, some (3, (⟨6, by decide⟩ : Fin 31)))
theorem rch_r2_7 (c : Dev nD) : records (F := F) S1c Y2c K ⊢ reached ER (r2Cell c 7 ho_7) 0 := rch_at S1c Y2c K (c, some (3, (⟨6, by decide⟩ : Fin 31)))
theorem inv_r1p_7 (c : Dev nD) : records (F := F) S1c Y2c K ⊢ cellInv ER (sched (F := F) S1c Y2c) (K (rot c 7, some (1, (⟨6, by decide⟩ : Fin 31)))) (r1Cell (rot c 7) 7 ho_7) := inv_at S1c Y2c K (rot c 7, some (1, (⟨6, by decide⟩ : Fin 31)))
theorem rch_r1p_7 (c : Dev nD) : records (F := F) S1c Y2c K ⊢ reached ER (r1Cell (rot c 7) 7 ho_7) 0 := rch_at S1c Y2c K (rot c 7, some (1, (⟨6, by decide⟩ : Fin 31)))
theorem inv_r2p_7 (c : Dev nD) : records (F := F) S1c Y2c K ⊢ cellInv ER (sched (F := F) S1c Y2c) (K (rot c 7, some (3, (⟨6, by decide⟩ : Fin 31)))) (r2Cell (rot c 7) 7 ho_7) := inv_at S1c Y2c K (rot c 7, some (3, (⟨6, by decide⟩ : Fin 31)))
theorem rch_r2p_7 (c : Dev nD) : records (F := F) S1c Y2c K ⊢ reached ER (r2Cell (rot c 7) 7 ho_7) 0 := rch_at S1c Y2c K (rot c 7, some (3, (⟨6, by decide⟩ : Fin 31)))

/-! ## Offset 8 -/

theorem inv_barp_8 (c : Dev nD) : records (F := F) S1c Y2c K ⊢ cellInv ER (sched (F := F) S1c Y2c) (K (rot c 8, none)) (barCell (rot c 8)) := inv_at S1c Y2c K (rot c 8, none)
theorem rch_barp_8 (c : Dev nD) : records (F := F) S1c Y2c K ⊢ reached ER (barCell (rot c 8)) 0 := rch_at S1c Y2c K (rot c 8, none)
theorem inv_s1_8 (c : Dev nD) : records (F := F) S1c Y2c K ⊢ cellInv ER (sched (F := F) S1c Y2c) (K (c, some (0, (⟨7, by decide⟩ : Fin 31)))) (s1Cell c 8 ho_8) := inv_at S1c Y2c K (c, some (0, (⟨7, by decide⟩ : Fin 31)))
theorem rch_s1_8 (c : Dev nD) : records (F := F) S1c Y2c K ⊢ reached ER (s1Cell c 8 ho_8) 0 := rch_at S1c Y2c K (c, some (0, (⟨7, by decide⟩ : Fin 31)))
theorem inv_r1_8 (c : Dev nD) : records (F := F) S1c Y2c K ⊢ cellInv ER (sched (F := F) S1c Y2c) (K (c, some (1, (⟨7, by decide⟩ : Fin 31)))) (r1Cell c 8 ho_8) := inv_at S1c Y2c K (c, some (1, (⟨7, by decide⟩ : Fin 31)))
theorem rch_r1_8 (c : Dev nD) : records (F := F) S1c Y2c K ⊢ reached ER (r1Cell c 8 ho_8) 0 := rch_at S1c Y2c K (c, some (1, (⟨7, by decide⟩ : Fin 31)))
theorem inv_s2_8 (c : Dev nD) : records (F := F) S1c Y2c K ⊢ cellInv ER (sched (F := F) S1c Y2c) (K (c, some (2, (⟨7, by decide⟩ : Fin 31)))) (s2Cell c 8 ho_8) := inv_at S1c Y2c K (c, some (2, (⟨7, by decide⟩ : Fin 31)))
theorem rch_s2_8 (c : Dev nD) : records (F := F) S1c Y2c K ⊢ reached ER (s2Cell c 8 ho_8) 0 := rch_at S1c Y2c K (c, some (2, (⟨7, by decide⟩ : Fin 31)))
theorem inv_r2_8 (c : Dev nD) : records (F := F) S1c Y2c K ⊢ cellInv ER (sched (F := F) S1c Y2c) (K (c, some (3, (⟨7, by decide⟩ : Fin 31)))) (r2Cell c 8 ho_8) := inv_at S1c Y2c K (c, some (3, (⟨7, by decide⟩ : Fin 31)))
theorem rch_r2_8 (c : Dev nD) : records (F := F) S1c Y2c K ⊢ reached ER (r2Cell c 8 ho_8) 0 := rch_at S1c Y2c K (c, some (3, (⟨7, by decide⟩ : Fin 31)))
theorem inv_r1p_8 (c : Dev nD) : records (F := F) S1c Y2c K ⊢ cellInv ER (sched (F := F) S1c Y2c) (K (rot c 8, some (1, (⟨7, by decide⟩ : Fin 31)))) (r1Cell (rot c 8) 8 ho_8) := inv_at S1c Y2c K (rot c 8, some (1, (⟨7, by decide⟩ : Fin 31)))
theorem rch_r1p_8 (c : Dev nD) : records (F := F) S1c Y2c K ⊢ reached ER (r1Cell (rot c 8) 8 ho_8) 0 := rch_at S1c Y2c K (rot c 8, some (1, (⟨7, by decide⟩ : Fin 31)))
theorem inv_r2p_8 (c : Dev nD) : records (F := F) S1c Y2c K ⊢ cellInv ER (sched (F := F) S1c Y2c) (K (rot c 8, some (3, (⟨7, by decide⟩ : Fin 31)))) (r2Cell (rot c 8) 8 ho_8) := inv_at S1c Y2c K (rot c 8, some (3, (⟨7, by decide⟩ : Fin 31)))
theorem rch_r2p_8 (c : Dev nD) : records (F := F) S1c Y2c K ⊢ reached ER (r2Cell (rot c 8) 8 ho_8) 0 := rch_at S1c Y2c K (rot c 8, some (3, (⟨7, by decide⟩ : Fin 31)))

/-! ## Offset 9 -/

theorem inv_barp_9 (c : Dev nD) : records (F := F) S1c Y2c K ⊢ cellInv ER (sched (F := F) S1c Y2c) (K (rot c 9, none)) (barCell (rot c 9)) := inv_at S1c Y2c K (rot c 9, none)
theorem rch_barp_9 (c : Dev nD) : records (F := F) S1c Y2c K ⊢ reached ER (barCell (rot c 9)) 0 := rch_at S1c Y2c K (rot c 9, none)
theorem inv_s1_9 (c : Dev nD) : records (F := F) S1c Y2c K ⊢ cellInv ER (sched (F := F) S1c Y2c) (K (c, some (0, (⟨8, by decide⟩ : Fin 31)))) (s1Cell c 9 ho_9) := inv_at S1c Y2c K (c, some (0, (⟨8, by decide⟩ : Fin 31)))
theorem rch_s1_9 (c : Dev nD) : records (F := F) S1c Y2c K ⊢ reached ER (s1Cell c 9 ho_9) 0 := rch_at S1c Y2c K (c, some (0, (⟨8, by decide⟩ : Fin 31)))
theorem inv_r1_9 (c : Dev nD) : records (F := F) S1c Y2c K ⊢ cellInv ER (sched (F := F) S1c Y2c) (K (c, some (1, (⟨8, by decide⟩ : Fin 31)))) (r1Cell c 9 ho_9) := inv_at S1c Y2c K (c, some (1, (⟨8, by decide⟩ : Fin 31)))
theorem rch_r1_9 (c : Dev nD) : records (F := F) S1c Y2c K ⊢ reached ER (r1Cell c 9 ho_9) 0 := rch_at S1c Y2c K (c, some (1, (⟨8, by decide⟩ : Fin 31)))
theorem inv_s2_9 (c : Dev nD) : records (F := F) S1c Y2c K ⊢ cellInv ER (sched (F := F) S1c Y2c) (K (c, some (2, (⟨8, by decide⟩ : Fin 31)))) (s2Cell c 9 ho_9) := inv_at S1c Y2c K (c, some (2, (⟨8, by decide⟩ : Fin 31)))
theorem rch_s2_9 (c : Dev nD) : records (F := F) S1c Y2c K ⊢ reached ER (s2Cell c 9 ho_9) 0 := rch_at S1c Y2c K (c, some (2, (⟨8, by decide⟩ : Fin 31)))
theorem inv_r2_9 (c : Dev nD) : records (F := F) S1c Y2c K ⊢ cellInv ER (sched (F := F) S1c Y2c) (K (c, some (3, (⟨8, by decide⟩ : Fin 31)))) (r2Cell c 9 ho_9) := inv_at S1c Y2c K (c, some (3, (⟨8, by decide⟩ : Fin 31)))
theorem rch_r2_9 (c : Dev nD) : records (F := F) S1c Y2c K ⊢ reached ER (r2Cell c 9 ho_9) 0 := rch_at S1c Y2c K (c, some (3, (⟨8, by decide⟩ : Fin 31)))
theorem inv_r1p_9 (c : Dev nD) : records (F := F) S1c Y2c K ⊢ cellInv ER (sched (F := F) S1c Y2c) (K (rot c 9, some (1, (⟨8, by decide⟩ : Fin 31)))) (r1Cell (rot c 9) 9 ho_9) := inv_at S1c Y2c K (rot c 9, some (1, (⟨8, by decide⟩ : Fin 31)))
theorem rch_r1p_9 (c : Dev nD) : records (F := F) S1c Y2c K ⊢ reached ER (r1Cell (rot c 9) 9 ho_9) 0 := rch_at S1c Y2c K (rot c 9, some (1, (⟨8, by decide⟩ : Fin 31)))
theorem inv_r2p_9 (c : Dev nD) : records (F := F) S1c Y2c K ⊢ cellInv ER (sched (F := F) S1c Y2c) (K (rot c 9, some (3, (⟨8, by decide⟩ : Fin 31)))) (r2Cell (rot c 9) 9 ho_9) := inv_at S1c Y2c K (rot c 9, some (3, (⟨8, by decide⟩ : Fin 31)))
theorem rch_r2p_9 (c : Dev nD) : records (F := F) S1c Y2c K ⊢ reached ER (r2Cell (rot c 9) 9 ho_9) 0 := rch_at S1c Y2c K (rot c 9, some (3, (⟨8, by decide⟩ : Fin 31)))

/-! ## Offset 10 -/

theorem inv_barp_10 (c : Dev nD) : records (F := F) S1c Y2c K ⊢ cellInv ER (sched (F := F) S1c Y2c) (K (rot c 10, none)) (barCell (rot c 10)) := inv_at S1c Y2c K (rot c 10, none)
theorem rch_barp_10 (c : Dev nD) : records (F := F) S1c Y2c K ⊢ reached ER (barCell (rot c 10)) 0 := rch_at S1c Y2c K (rot c 10, none)
theorem inv_s1_10 (c : Dev nD) : records (F := F) S1c Y2c K ⊢ cellInv ER (sched (F := F) S1c Y2c) (K (c, some (0, (⟨9, by decide⟩ : Fin 31)))) (s1Cell c 10 ho_10) := inv_at S1c Y2c K (c, some (0, (⟨9, by decide⟩ : Fin 31)))
theorem rch_s1_10 (c : Dev nD) : records (F := F) S1c Y2c K ⊢ reached ER (s1Cell c 10 ho_10) 0 := rch_at S1c Y2c K (c, some (0, (⟨9, by decide⟩ : Fin 31)))
theorem inv_r1_10 (c : Dev nD) : records (F := F) S1c Y2c K ⊢ cellInv ER (sched (F := F) S1c Y2c) (K (c, some (1, (⟨9, by decide⟩ : Fin 31)))) (r1Cell c 10 ho_10) := inv_at S1c Y2c K (c, some (1, (⟨9, by decide⟩ : Fin 31)))
theorem rch_r1_10 (c : Dev nD) : records (F := F) S1c Y2c K ⊢ reached ER (r1Cell c 10 ho_10) 0 := rch_at S1c Y2c K (c, some (1, (⟨9, by decide⟩ : Fin 31)))
theorem inv_s2_10 (c : Dev nD) : records (F := F) S1c Y2c K ⊢ cellInv ER (sched (F := F) S1c Y2c) (K (c, some (2, (⟨9, by decide⟩ : Fin 31)))) (s2Cell c 10 ho_10) := inv_at S1c Y2c K (c, some (2, (⟨9, by decide⟩ : Fin 31)))
theorem rch_s2_10 (c : Dev nD) : records (F := F) S1c Y2c K ⊢ reached ER (s2Cell c 10 ho_10) 0 := rch_at S1c Y2c K (c, some (2, (⟨9, by decide⟩ : Fin 31)))
theorem inv_r2_10 (c : Dev nD) : records (F := F) S1c Y2c K ⊢ cellInv ER (sched (F := F) S1c Y2c) (K (c, some (3, (⟨9, by decide⟩ : Fin 31)))) (r2Cell c 10 ho_10) := inv_at S1c Y2c K (c, some (3, (⟨9, by decide⟩ : Fin 31)))
theorem rch_r2_10 (c : Dev nD) : records (F := F) S1c Y2c K ⊢ reached ER (r2Cell c 10 ho_10) 0 := rch_at S1c Y2c K (c, some (3, (⟨9, by decide⟩ : Fin 31)))
theorem inv_r1p_10 (c : Dev nD) : records (F := F) S1c Y2c K ⊢ cellInv ER (sched (F := F) S1c Y2c) (K (rot c 10, some (1, (⟨9, by decide⟩ : Fin 31)))) (r1Cell (rot c 10) 10 ho_10) := inv_at S1c Y2c K (rot c 10, some (1, (⟨9, by decide⟩ : Fin 31)))
theorem rch_r1p_10 (c : Dev nD) : records (F := F) S1c Y2c K ⊢ reached ER (r1Cell (rot c 10) 10 ho_10) 0 := rch_at S1c Y2c K (rot c 10, some (1, (⟨9, by decide⟩ : Fin 31)))
theorem inv_r2p_10 (c : Dev nD) : records (F := F) S1c Y2c K ⊢ cellInv ER (sched (F := F) S1c Y2c) (K (rot c 10, some (3, (⟨9, by decide⟩ : Fin 31)))) (r2Cell (rot c 10) 10 ho_10) := inv_at S1c Y2c K (rot c 10, some (3, (⟨9, by decide⟩ : Fin 31)))
theorem rch_r2p_10 (c : Dev nD) : records (F := F) S1c Y2c K ⊢ reached ER (r2Cell (rot c 10) 10 ho_10) 0 := rch_at S1c Y2c K (rot c 10, some (3, (⟨9, by decide⟩ : Fin 31)))

/-! ## Offset 11 -/

theorem inv_barp_11 (c : Dev nD) : records (F := F) S1c Y2c K ⊢ cellInv ER (sched (F := F) S1c Y2c) (K (rot c 11, none)) (barCell (rot c 11)) := inv_at S1c Y2c K (rot c 11, none)
theorem rch_barp_11 (c : Dev nD) : records (F := F) S1c Y2c K ⊢ reached ER (barCell (rot c 11)) 0 := rch_at S1c Y2c K (rot c 11, none)
theorem inv_s1_11 (c : Dev nD) : records (F := F) S1c Y2c K ⊢ cellInv ER (sched (F := F) S1c Y2c) (K (c, some (0, (⟨10, by decide⟩ : Fin 31)))) (s1Cell c 11 ho_11) := inv_at S1c Y2c K (c, some (0, (⟨10, by decide⟩ : Fin 31)))
theorem rch_s1_11 (c : Dev nD) : records (F := F) S1c Y2c K ⊢ reached ER (s1Cell c 11 ho_11) 0 := rch_at S1c Y2c K (c, some (0, (⟨10, by decide⟩ : Fin 31)))
theorem inv_r1_11 (c : Dev nD) : records (F := F) S1c Y2c K ⊢ cellInv ER (sched (F := F) S1c Y2c) (K (c, some (1, (⟨10, by decide⟩ : Fin 31)))) (r1Cell c 11 ho_11) := inv_at S1c Y2c K (c, some (1, (⟨10, by decide⟩ : Fin 31)))
theorem rch_r1_11 (c : Dev nD) : records (F := F) S1c Y2c K ⊢ reached ER (r1Cell c 11 ho_11) 0 := rch_at S1c Y2c K (c, some (1, (⟨10, by decide⟩ : Fin 31)))
theorem inv_s2_11 (c : Dev nD) : records (F := F) S1c Y2c K ⊢ cellInv ER (sched (F := F) S1c Y2c) (K (c, some (2, (⟨10, by decide⟩ : Fin 31)))) (s2Cell c 11 ho_11) := inv_at S1c Y2c K (c, some (2, (⟨10, by decide⟩ : Fin 31)))
theorem rch_s2_11 (c : Dev nD) : records (F := F) S1c Y2c K ⊢ reached ER (s2Cell c 11 ho_11) 0 := rch_at S1c Y2c K (c, some (2, (⟨10, by decide⟩ : Fin 31)))
theorem inv_r2_11 (c : Dev nD) : records (F := F) S1c Y2c K ⊢ cellInv ER (sched (F := F) S1c Y2c) (K (c, some (3, (⟨10, by decide⟩ : Fin 31)))) (r2Cell c 11 ho_11) := inv_at S1c Y2c K (c, some (3, (⟨10, by decide⟩ : Fin 31)))
theorem rch_r2_11 (c : Dev nD) : records (F := F) S1c Y2c K ⊢ reached ER (r2Cell c 11 ho_11) 0 := rch_at S1c Y2c K (c, some (3, (⟨10, by decide⟩ : Fin 31)))
theorem inv_r1p_11 (c : Dev nD) : records (F := F) S1c Y2c K ⊢ cellInv ER (sched (F := F) S1c Y2c) (K (rot c 11, some (1, (⟨10, by decide⟩ : Fin 31)))) (r1Cell (rot c 11) 11 ho_11) := inv_at S1c Y2c K (rot c 11, some (1, (⟨10, by decide⟩ : Fin 31)))
theorem rch_r1p_11 (c : Dev nD) : records (F := F) S1c Y2c K ⊢ reached ER (r1Cell (rot c 11) 11 ho_11) 0 := rch_at S1c Y2c K (rot c 11, some (1, (⟨10, by decide⟩ : Fin 31)))
theorem inv_r2p_11 (c : Dev nD) : records (F := F) S1c Y2c K ⊢ cellInv ER (sched (F := F) S1c Y2c) (K (rot c 11, some (3, (⟨10, by decide⟩ : Fin 31)))) (r2Cell (rot c 11) 11 ho_11) := inv_at S1c Y2c K (rot c 11, some (3, (⟨10, by decide⟩ : Fin 31)))
theorem rch_r2p_11 (c : Dev nD) : records (F := F) S1c Y2c K ⊢ reached ER (r2Cell (rot c 11) 11 ho_11) 0 := rch_at S1c Y2c K (rot c 11, some (3, (⟨10, by decide⟩ : Fin 31)))

/-! ## Offset 12 -/

theorem inv_barp_12 (c : Dev nD) : records (F := F) S1c Y2c K ⊢ cellInv ER (sched (F := F) S1c Y2c) (K (rot c 12, none)) (barCell (rot c 12)) := inv_at S1c Y2c K (rot c 12, none)
theorem rch_barp_12 (c : Dev nD) : records (F := F) S1c Y2c K ⊢ reached ER (barCell (rot c 12)) 0 := rch_at S1c Y2c K (rot c 12, none)
theorem inv_s1_12 (c : Dev nD) : records (F := F) S1c Y2c K ⊢ cellInv ER (sched (F := F) S1c Y2c) (K (c, some (0, (⟨11, by decide⟩ : Fin 31)))) (s1Cell c 12 ho_12) := inv_at S1c Y2c K (c, some (0, (⟨11, by decide⟩ : Fin 31)))
theorem rch_s1_12 (c : Dev nD) : records (F := F) S1c Y2c K ⊢ reached ER (s1Cell c 12 ho_12) 0 := rch_at S1c Y2c K (c, some (0, (⟨11, by decide⟩ : Fin 31)))
theorem inv_r1_12 (c : Dev nD) : records (F := F) S1c Y2c K ⊢ cellInv ER (sched (F := F) S1c Y2c) (K (c, some (1, (⟨11, by decide⟩ : Fin 31)))) (r1Cell c 12 ho_12) := inv_at S1c Y2c K (c, some (1, (⟨11, by decide⟩ : Fin 31)))
theorem rch_r1_12 (c : Dev nD) : records (F := F) S1c Y2c K ⊢ reached ER (r1Cell c 12 ho_12) 0 := rch_at S1c Y2c K (c, some (1, (⟨11, by decide⟩ : Fin 31)))
theorem inv_s2_12 (c : Dev nD) : records (F := F) S1c Y2c K ⊢ cellInv ER (sched (F := F) S1c Y2c) (K (c, some (2, (⟨11, by decide⟩ : Fin 31)))) (s2Cell c 12 ho_12) := inv_at S1c Y2c K (c, some (2, (⟨11, by decide⟩ : Fin 31)))
theorem rch_s2_12 (c : Dev nD) : records (F := F) S1c Y2c K ⊢ reached ER (s2Cell c 12 ho_12) 0 := rch_at S1c Y2c K (c, some (2, (⟨11, by decide⟩ : Fin 31)))
theorem inv_r2_12 (c : Dev nD) : records (F := F) S1c Y2c K ⊢ cellInv ER (sched (F := F) S1c Y2c) (K (c, some (3, (⟨11, by decide⟩ : Fin 31)))) (r2Cell c 12 ho_12) := inv_at S1c Y2c K (c, some (3, (⟨11, by decide⟩ : Fin 31)))
theorem rch_r2_12 (c : Dev nD) : records (F := F) S1c Y2c K ⊢ reached ER (r2Cell c 12 ho_12) 0 := rch_at S1c Y2c K (c, some (3, (⟨11, by decide⟩ : Fin 31)))
theorem inv_r1p_12 (c : Dev nD) : records (F := F) S1c Y2c K ⊢ cellInv ER (sched (F := F) S1c Y2c) (K (rot c 12, some (1, (⟨11, by decide⟩ : Fin 31)))) (r1Cell (rot c 12) 12 ho_12) := inv_at S1c Y2c K (rot c 12, some (1, (⟨11, by decide⟩ : Fin 31)))
theorem rch_r1p_12 (c : Dev nD) : records (F := F) S1c Y2c K ⊢ reached ER (r1Cell (rot c 12) 12 ho_12) 0 := rch_at S1c Y2c K (rot c 12, some (1, (⟨11, by decide⟩ : Fin 31)))
theorem inv_r2p_12 (c : Dev nD) : records (F := F) S1c Y2c K ⊢ cellInv ER (sched (F := F) S1c Y2c) (K (rot c 12, some (3, (⟨11, by decide⟩ : Fin 31)))) (r2Cell (rot c 12) 12 ho_12) := inv_at S1c Y2c K (rot c 12, some (3, (⟨11, by decide⟩ : Fin 31)))
theorem rch_r2p_12 (c : Dev nD) : records (F := F) S1c Y2c K ⊢ reached ER (r2Cell (rot c 12) 12 ho_12) 0 := rch_at S1c Y2c K (rot c 12, some (3, (⟨11, by decide⟩ : Fin 31)))

/-! ## Offset 13 -/

theorem inv_barp_13 (c : Dev nD) : records (F := F) S1c Y2c K ⊢ cellInv ER (sched (F := F) S1c Y2c) (K (rot c 13, none)) (barCell (rot c 13)) := inv_at S1c Y2c K (rot c 13, none)
theorem rch_barp_13 (c : Dev nD) : records (F := F) S1c Y2c K ⊢ reached ER (barCell (rot c 13)) 0 := rch_at S1c Y2c K (rot c 13, none)
theorem inv_s1_13 (c : Dev nD) : records (F := F) S1c Y2c K ⊢ cellInv ER (sched (F := F) S1c Y2c) (K (c, some (0, (⟨12, by decide⟩ : Fin 31)))) (s1Cell c 13 ho_13) := inv_at S1c Y2c K (c, some (0, (⟨12, by decide⟩ : Fin 31)))
theorem rch_s1_13 (c : Dev nD) : records (F := F) S1c Y2c K ⊢ reached ER (s1Cell c 13 ho_13) 0 := rch_at S1c Y2c K (c, some (0, (⟨12, by decide⟩ : Fin 31)))
theorem inv_r1_13 (c : Dev nD) : records (F := F) S1c Y2c K ⊢ cellInv ER (sched (F := F) S1c Y2c) (K (c, some (1, (⟨12, by decide⟩ : Fin 31)))) (r1Cell c 13 ho_13) := inv_at S1c Y2c K (c, some (1, (⟨12, by decide⟩ : Fin 31)))
theorem rch_r1_13 (c : Dev nD) : records (F := F) S1c Y2c K ⊢ reached ER (r1Cell c 13 ho_13) 0 := rch_at S1c Y2c K (c, some (1, (⟨12, by decide⟩ : Fin 31)))
theorem inv_s2_13 (c : Dev nD) : records (F := F) S1c Y2c K ⊢ cellInv ER (sched (F := F) S1c Y2c) (K (c, some (2, (⟨12, by decide⟩ : Fin 31)))) (s2Cell c 13 ho_13) := inv_at S1c Y2c K (c, some (2, (⟨12, by decide⟩ : Fin 31)))
theorem rch_s2_13 (c : Dev nD) : records (F := F) S1c Y2c K ⊢ reached ER (s2Cell c 13 ho_13) 0 := rch_at S1c Y2c K (c, some (2, (⟨12, by decide⟩ : Fin 31)))
theorem inv_r2_13 (c : Dev nD) : records (F := F) S1c Y2c K ⊢ cellInv ER (sched (F := F) S1c Y2c) (K (c, some (3, (⟨12, by decide⟩ : Fin 31)))) (r2Cell c 13 ho_13) := inv_at S1c Y2c K (c, some (3, (⟨12, by decide⟩ : Fin 31)))
theorem rch_r2_13 (c : Dev nD) : records (F := F) S1c Y2c K ⊢ reached ER (r2Cell c 13 ho_13) 0 := rch_at S1c Y2c K (c, some (3, (⟨12, by decide⟩ : Fin 31)))
theorem inv_r1p_13 (c : Dev nD) : records (F := F) S1c Y2c K ⊢ cellInv ER (sched (F := F) S1c Y2c) (K (rot c 13, some (1, (⟨12, by decide⟩ : Fin 31)))) (r1Cell (rot c 13) 13 ho_13) := inv_at S1c Y2c K (rot c 13, some (1, (⟨12, by decide⟩ : Fin 31)))
theorem rch_r1p_13 (c : Dev nD) : records (F := F) S1c Y2c K ⊢ reached ER (r1Cell (rot c 13) 13 ho_13) 0 := rch_at S1c Y2c K (rot c 13, some (1, (⟨12, by decide⟩ : Fin 31)))
theorem inv_r2p_13 (c : Dev nD) : records (F := F) S1c Y2c K ⊢ cellInv ER (sched (F := F) S1c Y2c) (K (rot c 13, some (3, (⟨12, by decide⟩ : Fin 31)))) (r2Cell (rot c 13) 13 ho_13) := inv_at S1c Y2c K (rot c 13, some (3, (⟨12, by decide⟩ : Fin 31)))
theorem rch_r2p_13 (c : Dev nD) : records (F := F) S1c Y2c K ⊢ reached ER (r2Cell (rot c 13) 13 ho_13) 0 := rch_at S1c Y2c K (rot c 13, some (3, (⟨12, by decide⟩ : Fin 31)))

/-! ## Offset 14 -/

theorem inv_barp_14 (c : Dev nD) : records (F := F) S1c Y2c K ⊢ cellInv ER (sched (F := F) S1c Y2c) (K (rot c 14, none)) (barCell (rot c 14)) := inv_at S1c Y2c K (rot c 14, none)
theorem rch_barp_14 (c : Dev nD) : records (F := F) S1c Y2c K ⊢ reached ER (barCell (rot c 14)) 0 := rch_at S1c Y2c K (rot c 14, none)
theorem inv_s1_14 (c : Dev nD) : records (F := F) S1c Y2c K ⊢ cellInv ER (sched (F := F) S1c Y2c) (K (c, some (0, (⟨13, by decide⟩ : Fin 31)))) (s1Cell c 14 ho_14) := inv_at S1c Y2c K (c, some (0, (⟨13, by decide⟩ : Fin 31)))
theorem rch_s1_14 (c : Dev nD) : records (F := F) S1c Y2c K ⊢ reached ER (s1Cell c 14 ho_14) 0 := rch_at S1c Y2c K (c, some (0, (⟨13, by decide⟩ : Fin 31)))
theorem inv_r1_14 (c : Dev nD) : records (F := F) S1c Y2c K ⊢ cellInv ER (sched (F := F) S1c Y2c) (K (c, some (1, (⟨13, by decide⟩ : Fin 31)))) (r1Cell c 14 ho_14) := inv_at S1c Y2c K (c, some (1, (⟨13, by decide⟩ : Fin 31)))
theorem rch_r1_14 (c : Dev nD) : records (F := F) S1c Y2c K ⊢ reached ER (r1Cell c 14 ho_14) 0 := rch_at S1c Y2c K (c, some (1, (⟨13, by decide⟩ : Fin 31)))
theorem inv_s2_14 (c : Dev nD) : records (F := F) S1c Y2c K ⊢ cellInv ER (sched (F := F) S1c Y2c) (K (c, some (2, (⟨13, by decide⟩ : Fin 31)))) (s2Cell c 14 ho_14) := inv_at S1c Y2c K (c, some (2, (⟨13, by decide⟩ : Fin 31)))
theorem rch_s2_14 (c : Dev nD) : records (F := F) S1c Y2c K ⊢ reached ER (s2Cell c 14 ho_14) 0 := rch_at S1c Y2c K (c, some (2, (⟨13, by decide⟩ : Fin 31)))
theorem inv_r2_14 (c : Dev nD) : records (F := F) S1c Y2c K ⊢ cellInv ER (sched (F := F) S1c Y2c) (K (c, some (3, (⟨13, by decide⟩ : Fin 31)))) (r2Cell c 14 ho_14) := inv_at S1c Y2c K (c, some (3, (⟨13, by decide⟩ : Fin 31)))
theorem rch_r2_14 (c : Dev nD) : records (F := F) S1c Y2c K ⊢ reached ER (r2Cell c 14 ho_14) 0 := rch_at S1c Y2c K (c, some (3, (⟨13, by decide⟩ : Fin 31)))
theorem inv_r1p_14 (c : Dev nD) : records (F := F) S1c Y2c K ⊢ cellInv ER (sched (F := F) S1c Y2c) (K (rot c 14, some (1, (⟨13, by decide⟩ : Fin 31)))) (r1Cell (rot c 14) 14 ho_14) := inv_at S1c Y2c K (rot c 14, some (1, (⟨13, by decide⟩ : Fin 31)))
theorem rch_r1p_14 (c : Dev nD) : records (F := F) S1c Y2c K ⊢ reached ER (r1Cell (rot c 14) 14 ho_14) 0 := rch_at S1c Y2c K (rot c 14, some (1, (⟨13, by decide⟩ : Fin 31)))
theorem inv_r2p_14 (c : Dev nD) : records (F := F) S1c Y2c K ⊢ cellInv ER (sched (F := F) S1c Y2c) (K (rot c 14, some (3, (⟨13, by decide⟩ : Fin 31)))) (r2Cell (rot c 14) 14 ho_14) := inv_at S1c Y2c K (rot c 14, some (3, (⟨13, by decide⟩ : Fin 31)))
theorem rch_r2p_14 (c : Dev nD) : records (F := F) S1c Y2c K ⊢ reached ER (r2Cell (rot c 14) 14 ho_14) 0 := rch_at S1c Y2c K (rot c 14, some (3, (⟨13, by decide⟩ : Fin 31)))

/-! ## Offset 15 -/

theorem inv_barp_15 (c : Dev nD) : records (F := F) S1c Y2c K ⊢ cellInv ER (sched (F := F) S1c Y2c) (K (rot c 15, none)) (barCell (rot c 15)) := inv_at S1c Y2c K (rot c 15, none)
theorem rch_barp_15 (c : Dev nD) : records (F := F) S1c Y2c K ⊢ reached ER (barCell (rot c 15)) 0 := rch_at S1c Y2c K (rot c 15, none)
theorem inv_s1_15 (c : Dev nD) : records (F := F) S1c Y2c K ⊢ cellInv ER (sched (F := F) S1c Y2c) (K (c, some (0, (⟨14, by decide⟩ : Fin 31)))) (s1Cell c 15 ho_15) := inv_at S1c Y2c K (c, some (0, (⟨14, by decide⟩ : Fin 31)))
theorem rch_s1_15 (c : Dev nD) : records (F := F) S1c Y2c K ⊢ reached ER (s1Cell c 15 ho_15) 0 := rch_at S1c Y2c K (c, some (0, (⟨14, by decide⟩ : Fin 31)))
theorem inv_r1_15 (c : Dev nD) : records (F := F) S1c Y2c K ⊢ cellInv ER (sched (F := F) S1c Y2c) (K (c, some (1, (⟨14, by decide⟩ : Fin 31)))) (r1Cell c 15 ho_15) := inv_at S1c Y2c K (c, some (1, (⟨14, by decide⟩ : Fin 31)))
theorem rch_r1_15 (c : Dev nD) : records (F := F) S1c Y2c K ⊢ reached ER (r1Cell c 15 ho_15) 0 := rch_at S1c Y2c K (c, some (1, (⟨14, by decide⟩ : Fin 31)))
theorem inv_s2_15 (c : Dev nD) : records (F := F) S1c Y2c K ⊢ cellInv ER (sched (F := F) S1c Y2c) (K (c, some (2, (⟨14, by decide⟩ : Fin 31)))) (s2Cell c 15 ho_15) := inv_at S1c Y2c K (c, some (2, (⟨14, by decide⟩ : Fin 31)))
theorem rch_s2_15 (c : Dev nD) : records (F := F) S1c Y2c K ⊢ reached ER (s2Cell c 15 ho_15) 0 := rch_at S1c Y2c K (c, some (2, (⟨14, by decide⟩ : Fin 31)))
theorem inv_r2_15 (c : Dev nD) : records (F := F) S1c Y2c K ⊢ cellInv ER (sched (F := F) S1c Y2c) (K (c, some (3, (⟨14, by decide⟩ : Fin 31)))) (r2Cell c 15 ho_15) := inv_at S1c Y2c K (c, some (3, (⟨14, by decide⟩ : Fin 31)))
theorem rch_r2_15 (c : Dev nD) : records (F := F) S1c Y2c K ⊢ reached ER (r2Cell c 15 ho_15) 0 := rch_at S1c Y2c K (c, some (3, (⟨14, by decide⟩ : Fin 31)))
theorem inv_r1p_15 (c : Dev nD) : records (F := F) S1c Y2c K ⊢ cellInv ER (sched (F := F) S1c Y2c) (K (rot c 15, some (1, (⟨14, by decide⟩ : Fin 31)))) (r1Cell (rot c 15) 15 ho_15) := inv_at S1c Y2c K (rot c 15, some (1, (⟨14, by decide⟩ : Fin 31)))
theorem rch_r1p_15 (c : Dev nD) : records (F := F) S1c Y2c K ⊢ reached ER (r1Cell (rot c 15) 15 ho_15) 0 := rch_at S1c Y2c K (rot c 15, some (1, (⟨14, by decide⟩ : Fin 31)))
theorem inv_r2p_15 (c : Dev nD) : records (F := F) S1c Y2c K ⊢ cellInv ER (sched (F := F) S1c Y2c) (K (rot c 15, some (3, (⟨14, by decide⟩ : Fin 31)))) (r2Cell (rot c 15) 15 ho_15) := inv_at S1c Y2c K (rot c 15, some (3, (⟨14, by decide⟩ : Fin 31)))
theorem rch_r2p_15 (c : Dev nD) : records (F := F) S1c Y2c K ⊢ reached ER (r2Cell (rot c 15) 15 ho_15) 0 := rch_at S1c Y2c K (rot c 15, some (3, (⟨14, by decide⟩ : Fin 31)))

/-! ## Offset 16 -/

theorem inv_barp_16 (c : Dev nD) : records (F := F) S1c Y2c K ⊢ cellInv ER (sched (F := F) S1c Y2c) (K (rot c 16, none)) (barCell (rot c 16)) := inv_at S1c Y2c K (rot c 16, none)
theorem rch_barp_16 (c : Dev nD) : records (F := F) S1c Y2c K ⊢ reached ER (barCell (rot c 16)) 0 := rch_at S1c Y2c K (rot c 16, none)
theorem inv_s1_16 (c : Dev nD) : records (F := F) S1c Y2c K ⊢ cellInv ER (sched (F := F) S1c Y2c) (K (c, some (0, (⟨15, by decide⟩ : Fin 31)))) (s1Cell c 16 ho_16) := inv_at S1c Y2c K (c, some (0, (⟨15, by decide⟩ : Fin 31)))
theorem rch_s1_16 (c : Dev nD) : records (F := F) S1c Y2c K ⊢ reached ER (s1Cell c 16 ho_16) 0 := rch_at S1c Y2c K (c, some (0, (⟨15, by decide⟩ : Fin 31)))
theorem inv_r1_16 (c : Dev nD) : records (F := F) S1c Y2c K ⊢ cellInv ER (sched (F := F) S1c Y2c) (K (c, some (1, (⟨15, by decide⟩ : Fin 31)))) (r1Cell c 16 ho_16) := inv_at S1c Y2c K (c, some (1, (⟨15, by decide⟩ : Fin 31)))
theorem rch_r1_16 (c : Dev nD) : records (F := F) S1c Y2c K ⊢ reached ER (r1Cell c 16 ho_16) 0 := rch_at S1c Y2c K (c, some (1, (⟨15, by decide⟩ : Fin 31)))
theorem inv_s2_16 (c : Dev nD) : records (F := F) S1c Y2c K ⊢ cellInv ER (sched (F := F) S1c Y2c) (K (c, some (2, (⟨15, by decide⟩ : Fin 31)))) (s2Cell c 16 ho_16) := inv_at S1c Y2c K (c, some (2, (⟨15, by decide⟩ : Fin 31)))
theorem rch_s2_16 (c : Dev nD) : records (F := F) S1c Y2c K ⊢ reached ER (s2Cell c 16 ho_16) 0 := rch_at S1c Y2c K (c, some (2, (⟨15, by decide⟩ : Fin 31)))
theorem inv_r2_16 (c : Dev nD) : records (F := F) S1c Y2c K ⊢ cellInv ER (sched (F := F) S1c Y2c) (K (c, some (3, (⟨15, by decide⟩ : Fin 31)))) (r2Cell c 16 ho_16) := inv_at S1c Y2c K (c, some (3, (⟨15, by decide⟩ : Fin 31)))
theorem rch_r2_16 (c : Dev nD) : records (F := F) S1c Y2c K ⊢ reached ER (r2Cell c 16 ho_16) 0 := rch_at S1c Y2c K (c, some (3, (⟨15, by decide⟩ : Fin 31)))
theorem inv_r1p_16 (c : Dev nD) : records (F := F) S1c Y2c K ⊢ cellInv ER (sched (F := F) S1c Y2c) (K (rot c 16, some (1, (⟨15, by decide⟩ : Fin 31)))) (r1Cell (rot c 16) 16 ho_16) := inv_at S1c Y2c K (rot c 16, some (1, (⟨15, by decide⟩ : Fin 31)))
theorem rch_r1p_16 (c : Dev nD) : records (F := F) S1c Y2c K ⊢ reached ER (r1Cell (rot c 16) 16 ho_16) 0 := rch_at S1c Y2c K (rot c 16, some (1, (⟨15, by decide⟩ : Fin 31)))
theorem inv_r2p_16 (c : Dev nD) : records (F := F) S1c Y2c K ⊢ cellInv ER (sched (F := F) S1c Y2c) (K (rot c 16, some (3, (⟨15, by decide⟩ : Fin 31)))) (r2Cell (rot c 16) 16 ho_16) := inv_at S1c Y2c K (rot c 16, some (3, (⟨15, by decide⟩ : Fin 31)))
theorem rch_r2p_16 (c : Dev nD) : records (F := F) S1c Y2c K ⊢ reached ER (r2Cell (rot c 16) 16 ho_16) 0 := rch_at S1c Y2c K (rot c 16, some (3, (⟨15, by decide⟩ : Fin 31)))

/-! ## Offset 17 -/

theorem inv_barp_17 (c : Dev nD) : records (F := F) S1c Y2c K ⊢ cellInv ER (sched (F := F) S1c Y2c) (K (rot c 17, none)) (barCell (rot c 17)) := inv_at S1c Y2c K (rot c 17, none)
theorem rch_barp_17 (c : Dev nD) : records (F := F) S1c Y2c K ⊢ reached ER (barCell (rot c 17)) 0 := rch_at S1c Y2c K (rot c 17, none)
theorem inv_s1_17 (c : Dev nD) : records (F := F) S1c Y2c K ⊢ cellInv ER (sched (F := F) S1c Y2c) (K (c, some (0, (⟨16, by decide⟩ : Fin 31)))) (s1Cell c 17 ho_17) := inv_at S1c Y2c K (c, some (0, (⟨16, by decide⟩ : Fin 31)))
theorem rch_s1_17 (c : Dev nD) : records (F := F) S1c Y2c K ⊢ reached ER (s1Cell c 17 ho_17) 0 := rch_at S1c Y2c K (c, some (0, (⟨16, by decide⟩ : Fin 31)))
theorem inv_r1_17 (c : Dev nD) : records (F := F) S1c Y2c K ⊢ cellInv ER (sched (F := F) S1c Y2c) (K (c, some (1, (⟨16, by decide⟩ : Fin 31)))) (r1Cell c 17 ho_17) := inv_at S1c Y2c K (c, some (1, (⟨16, by decide⟩ : Fin 31)))
theorem rch_r1_17 (c : Dev nD) : records (F := F) S1c Y2c K ⊢ reached ER (r1Cell c 17 ho_17) 0 := rch_at S1c Y2c K (c, some (1, (⟨16, by decide⟩ : Fin 31)))
theorem inv_s2_17 (c : Dev nD) : records (F := F) S1c Y2c K ⊢ cellInv ER (sched (F := F) S1c Y2c) (K (c, some (2, (⟨16, by decide⟩ : Fin 31)))) (s2Cell c 17 ho_17) := inv_at S1c Y2c K (c, some (2, (⟨16, by decide⟩ : Fin 31)))
theorem rch_s2_17 (c : Dev nD) : records (F := F) S1c Y2c K ⊢ reached ER (s2Cell c 17 ho_17) 0 := rch_at S1c Y2c K (c, some (2, (⟨16, by decide⟩ : Fin 31)))
theorem inv_r2_17 (c : Dev nD) : records (F := F) S1c Y2c K ⊢ cellInv ER (sched (F := F) S1c Y2c) (K (c, some (3, (⟨16, by decide⟩ : Fin 31)))) (r2Cell c 17 ho_17) := inv_at S1c Y2c K (c, some (3, (⟨16, by decide⟩ : Fin 31)))
theorem rch_r2_17 (c : Dev nD) : records (F := F) S1c Y2c K ⊢ reached ER (r2Cell c 17 ho_17) 0 := rch_at S1c Y2c K (c, some (3, (⟨16, by decide⟩ : Fin 31)))
theorem inv_r1p_17 (c : Dev nD) : records (F := F) S1c Y2c K ⊢ cellInv ER (sched (F := F) S1c Y2c) (K (rot c 17, some (1, (⟨16, by decide⟩ : Fin 31)))) (r1Cell (rot c 17) 17 ho_17) := inv_at S1c Y2c K (rot c 17, some (1, (⟨16, by decide⟩ : Fin 31)))
theorem rch_r1p_17 (c : Dev nD) : records (F := F) S1c Y2c K ⊢ reached ER (r1Cell (rot c 17) 17 ho_17) 0 := rch_at S1c Y2c K (rot c 17, some (1, (⟨16, by decide⟩ : Fin 31)))
theorem inv_r2p_17 (c : Dev nD) : records (F := F) S1c Y2c K ⊢ cellInv ER (sched (F := F) S1c Y2c) (K (rot c 17, some (3, (⟨16, by decide⟩ : Fin 31)))) (r2Cell (rot c 17) 17 ho_17) := inv_at S1c Y2c K (rot c 17, some (3, (⟨16, by decide⟩ : Fin 31)))
theorem rch_r2p_17 (c : Dev nD) : records (F := F) S1c Y2c K ⊢ reached ER (r2Cell (rot c 17) 17 ho_17) 0 := rch_at S1c Y2c K (rot c 17, some (3, (⟨16, by decide⟩ : Fin 31)))

/-! ## Offset 18 -/

theorem inv_barp_18 (c : Dev nD) : records (F := F) S1c Y2c K ⊢ cellInv ER (sched (F := F) S1c Y2c) (K (rot c 18, none)) (barCell (rot c 18)) := inv_at S1c Y2c K (rot c 18, none)
theorem rch_barp_18 (c : Dev nD) : records (F := F) S1c Y2c K ⊢ reached ER (barCell (rot c 18)) 0 := rch_at S1c Y2c K (rot c 18, none)
theorem inv_s1_18 (c : Dev nD) : records (F := F) S1c Y2c K ⊢ cellInv ER (sched (F := F) S1c Y2c) (K (c, some (0, (⟨17, by decide⟩ : Fin 31)))) (s1Cell c 18 ho_18) := inv_at S1c Y2c K (c, some (0, (⟨17, by decide⟩ : Fin 31)))
theorem rch_s1_18 (c : Dev nD) : records (F := F) S1c Y2c K ⊢ reached ER (s1Cell c 18 ho_18) 0 := rch_at S1c Y2c K (c, some (0, (⟨17, by decide⟩ : Fin 31)))
theorem inv_r1_18 (c : Dev nD) : records (F := F) S1c Y2c K ⊢ cellInv ER (sched (F := F) S1c Y2c) (K (c, some (1, (⟨17, by decide⟩ : Fin 31)))) (r1Cell c 18 ho_18) := inv_at S1c Y2c K (c, some (1, (⟨17, by decide⟩ : Fin 31)))
theorem rch_r1_18 (c : Dev nD) : records (F := F) S1c Y2c K ⊢ reached ER (r1Cell c 18 ho_18) 0 := rch_at S1c Y2c K (c, some (1, (⟨17, by decide⟩ : Fin 31)))
theorem inv_s2_18 (c : Dev nD) : records (F := F) S1c Y2c K ⊢ cellInv ER (sched (F := F) S1c Y2c) (K (c, some (2, (⟨17, by decide⟩ : Fin 31)))) (s2Cell c 18 ho_18) := inv_at S1c Y2c K (c, some (2, (⟨17, by decide⟩ : Fin 31)))
theorem rch_s2_18 (c : Dev nD) : records (F := F) S1c Y2c K ⊢ reached ER (s2Cell c 18 ho_18) 0 := rch_at S1c Y2c K (c, some (2, (⟨17, by decide⟩ : Fin 31)))
theorem inv_r2_18 (c : Dev nD) : records (F := F) S1c Y2c K ⊢ cellInv ER (sched (F := F) S1c Y2c) (K (c, some (3, (⟨17, by decide⟩ : Fin 31)))) (r2Cell c 18 ho_18) := inv_at S1c Y2c K (c, some (3, (⟨17, by decide⟩ : Fin 31)))
theorem rch_r2_18 (c : Dev nD) : records (F := F) S1c Y2c K ⊢ reached ER (r2Cell c 18 ho_18) 0 := rch_at S1c Y2c K (c, some (3, (⟨17, by decide⟩ : Fin 31)))
theorem inv_r1p_18 (c : Dev nD) : records (F := F) S1c Y2c K ⊢ cellInv ER (sched (F := F) S1c Y2c) (K (rot c 18, some (1, (⟨17, by decide⟩ : Fin 31)))) (r1Cell (rot c 18) 18 ho_18) := inv_at S1c Y2c K (rot c 18, some (1, (⟨17, by decide⟩ : Fin 31)))
theorem rch_r1p_18 (c : Dev nD) : records (F := F) S1c Y2c K ⊢ reached ER (r1Cell (rot c 18) 18 ho_18) 0 := rch_at S1c Y2c K (rot c 18, some (1, (⟨17, by decide⟩ : Fin 31)))
theorem inv_r2p_18 (c : Dev nD) : records (F := F) S1c Y2c K ⊢ cellInv ER (sched (F := F) S1c Y2c) (K (rot c 18, some (3, (⟨17, by decide⟩ : Fin 31)))) (r2Cell (rot c 18) 18 ho_18) := inv_at S1c Y2c K (rot c 18, some (3, (⟨17, by decide⟩ : Fin 31)))
theorem rch_r2p_18 (c : Dev nD) : records (F := F) S1c Y2c K ⊢ reached ER (r2Cell (rot c 18) 18 ho_18) 0 := rch_at S1c Y2c K (rot c 18, some (3, (⟨17, by decide⟩ : Fin 31)))

/-! ## Offset 19 -/

theorem inv_barp_19 (c : Dev nD) : records (F := F) S1c Y2c K ⊢ cellInv ER (sched (F := F) S1c Y2c) (K (rot c 19, none)) (barCell (rot c 19)) := inv_at S1c Y2c K (rot c 19, none)
theorem rch_barp_19 (c : Dev nD) : records (F := F) S1c Y2c K ⊢ reached ER (barCell (rot c 19)) 0 := rch_at S1c Y2c K (rot c 19, none)
theorem inv_s1_19 (c : Dev nD) : records (F := F) S1c Y2c K ⊢ cellInv ER (sched (F := F) S1c Y2c) (K (c, some (0, (⟨18, by decide⟩ : Fin 31)))) (s1Cell c 19 ho_19) := inv_at S1c Y2c K (c, some (0, (⟨18, by decide⟩ : Fin 31)))
theorem rch_s1_19 (c : Dev nD) : records (F := F) S1c Y2c K ⊢ reached ER (s1Cell c 19 ho_19) 0 := rch_at S1c Y2c K (c, some (0, (⟨18, by decide⟩ : Fin 31)))
theorem inv_r1_19 (c : Dev nD) : records (F := F) S1c Y2c K ⊢ cellInv ER (sched (F := F) S1c Y2c) (K (c, some (1, (⟨18, by decide⟩ : Fin 31)))) (r1Cell c 19 ho_19) := inv_at S1c Y2c K (c, some (1, (⟨18, by decide⟩ : Fin 31)))
theorem rch_r1_19 (c : Dev nD) : records (F := F) S1c Y2c K ⊢ reached ER (r1Cell c 19 ho_19) 0 := rch_at S1c Y2c K (c, some (1, (⟨18, by decide⟩ : Fin 31)))
theorem inv_s2_19 (c : Dev nD) : records (F := F) S1c Y2c K ⊢ cellInv ER (sched (F := F) S1c Y2c) (K (c, some (2, (⟨18, by decide⟩ : Fin 31)))) (s2Cell c 19 ho_19) := inv_at S1c Y2c K (c, some (2, (⟨18, by decide⟩ : Fin 31)))
theorem rch_s2_19 (c : Dev nD) : records (F := F) S1c Y2c K ⊢ reached ER (s2Cell c 19 ho_19) 0 := rch_at S1c Y2c K (c, some (2, (⟨18, by decide⟩ : Fin 31)))
theorem inv_r2_19 (c : Dev nD) : records (F := F) S1c Y2c K ⊢ cellInv ER (sched (F := F) S1c Y2c) (K (c, some (3, (⟨18, by decide⟩ : Fin 31)))) (r2Cell c 19 ho_19) := inv_at S1c Y2c K (c, some (3, (⟨18, by decide⟩ : Fin 31)))
theorem rch_r2_19 (c : Dev nD) : records (F := F) S1c Y2c K ⊢ reached ER (r2Cell c 19 ho_19) 0 := rch_at S1c Y2c K (c, some (3, (⟨18, by decide⟩ : Fin 31)))
theorem inv_r1p_19 (c : Dev nD) : records (F := F) S1c Y2c K ⊢ cellInv ER (sched (F := F) S1c Y2c) (K (rot c 19, some (1, (⟨18, by decide⟩ : Fin 31)))) (r1Cell (rot c 19) 19 ho_19) := inv_at S1c Y2c K (rot c 19, some (1, (⟨18, by decide⟩ : Fin 31)))
theorem rch_r1p_19 (c : Dev nD) : records (F := F) S1c Y2c K ⊢ reached ER (r1Cell (rot c 19) 19 ho_19) 0 := rch_at S1c Y2c K (rot c 19, some (1, (⟨18, by decide⟩ : Fin 31)))
theorem inv_r2p_19 (c : Dev nD) : records (F := F) S1c Y2c K ⊢ cellInv ER (sched (F := F) S1c Y2c) (K (rot c 19, some (3, (⟨18, by decide⟩ : Fin 31)))) (r2Cell (rot c 19) 19 ho_19) := inv_at S1c Y2c K (rot c 19, some (3, (⟨18, by decide⟩ : Fin 31)))
theorem rch_r2p_19 (c : Dev nD) : records (F := F) S1c Y2c K ⊢ reached ER (r2Cell (rot c 19) 19 ho_19) 0 := rch_at S1c Y2c K (rot c 19, some (3, (⟨18, by decide⟩ : Fin 31)))

/-! ## Offset 20 -/

theorem inv_barp_20 (c : Dev nD) : records (F := F) S1c Y2c K ⊢ cellInv ER (sched (F := F) S1c Y2c) (K (rot c 20, none)) (barCell (rot c 20)) := inv_at S1c Y2c K (rot c 20, none)
theorem rch_barp_20 (c : Dev nD) : records (F := F) S1c Y2c K ⊢ reached ER (barCell (rot c 20)) 0 := rch_at S1c Y2c K (rot c 20, none)
theorem inv_s1_20 (c : Dev nD) : records (F := F) S1c Y2c K ⊢ cellInv ER (sched (F := F) S1c Y2c) (K (c, some (0, (⟨19, by decide⟩ : Fin 31)))) (s1Cell c 20 ho_20) := inv_at S1c Y2c K (c, some (0, (⟨19, by decide⟩ : Fin 31)))
theorem rch_s1_20 (c : Dev nD) : records (F := F) S1c Y2c K ⊢ reached ER (s1Cell c 20 ho_20) 0 := rch_at S1c Y2c K (c, some (0, (⟨19, by decide⟩ : Fin 31)))
theorem inv_r1_20 (c : Dev nD) : records (F := F) S1c Y2c K ⊢ cellInv ER (sched (F := F) S1c Y2c) (K (c, some (1, (⟨19, by decide⟩ : Fin 31)))) (r1Cell c 20 ho_20) := inv_at S1c Y2c K (c, some (1, (⟨19, by decide⟩ : Fin 31)))
theorem rch_r1_20 (c : Dev nD) : records (F := F) S1c Y2c K ⊢ reached ER (r1Cell c 20 ho_20) 0 := rch_at S1c Y2c K (c, some (1, (⟨19, by decide⟩ : Fin 31)))
theorem inv_s2_20 (c : Dev nD) : records (F := F) S1c Y2c K ⊢ cellInv ER (sched (F := F) S1c Y2c) (K (c, some (2, (⟨19, by decide⟩ : Fin 31)))) (s2Cell c 20 ho_20) := inv_at S1c Y2c K (c, some (2, (⟨19, by decide⟩ : Fin 31)))
theorem rch_s2_20 (c : Dev nD) : records (F := F) S1c Y2c K ⊢ reached ER (s2Cell c 20 ho_20) 0 := rch_at S1c Y2c K (c, some (2, (⟨19, by decide⟩ : Fin 31)))
theorem inv_r2_20 (c : Dev nD) : records (F := F) S1c Y2c K ⊢ cellInv ER (sched (F := F) S1c Y2c) (K (c, some (3, (⟨19, by decide⟩ : Fin 31)))) (r2Cell c 20 ho_20) := inv_at S1c Y2c K (c, some (3, (⟨19, by decide⟩ : Fin 31)))
theorem rch_r2_20 (c : Dev nD) : records (F := F) S1c Y2c K ⊢ reached ER (r2Cell c 20 ho_20) 0 := rch_at S1c Y2c K (c, some (3, (⟨19, by decide⟩ : Fin 31)))
theorem inv_r1p_20 (c : Dev nD) : records (F := F) S1c Y2c K ⊢ cellInv ER (sched (F := F) S1c Y2c) (K (rot c 20, some (1, (⟨19, by decide⟩ : Fin 31)))) (r1Cell (rot c 20) 20 ho_20) := inv_at S1c Y2c K (rot c 20, some (1, (⟨19, by decide⟩ : Fin 31)))
theorem rch_r1p_20 (c : Dev nD) : records (F := F) S1c Y2c K ⊢ reached ER (r1Cell (rot c 20) 20 ho_20) 0 := rch_at S1c Y2c K (rot c 20, some (1, (⟨19, by decide⟩ : Fin 31)))
theorem inv_r2p_20 (c : Dev nD) : records (F := F) S1c Y2c K ⊢ cellInv ER (sched (F := F) S1c Y2c) (K (rot c 20, some (3, (⟨19, by decide⟩ : Fin 31)))) (r2Cell (rot c 20) 20 ho_20) := inv_at S1c Y2c K (rot c 20, some (3, (⟨19, by decide⟩ : Fin 31)))
theorem rch_r2p_20 (c : Dev nD) : records (F := F) S1c Y2c K ⊢ reached ER (r2Cell (rot c 20) 20 ho_20) 0 := rch_at S1c Y2c K (rot c 20, some (3, (⟨19, by decide⟩ : Fin 31)))

/-! ## Offset 21 -/

theorem inv_barp_21 (c : Dev nD) : records (F := F) S1c Y2c K ⊢ cellInv ER (sched (F := F) S1c Y2c) (K (rot c 21, none)) (barCell (rot c 21)) := inv_at S1c Y2c K (rot c 21, none)
theorem rch_barp_21 (c : Dev nD) : records (F := F) S1c Y2c K ⊢ reached ER (barCell (rot c 21)) 0 := rch_at S1c Y2c K (rot c 21, none)
theorem inv_s1_21 (c : Dev nD) : records (F := F) S1c Y2c K ⊢ cellInv ER (sched (F := F) S1c Y2c) (K (c, some (0, (⟨20, by decide⟩ : Fin 31)))) (s1Cell c 21 ho_21) := inv_at S1c Y2c K (c, some (0, (⟨20, by decide⟩ : Fin 31)))
theorem rch_s1_21 (c : Dev nD) : records (F := F) S1c Y2c K ⊢ reached ER (s1Cell c 21 ho_21) 0 := rch_at S1c Y2c K (c, some (0, (⟨20, by decide⟩ : Fin 31)))
theorem inv_r1_21 (c : Dev nD) : records (F := F) S1c Y2c K ⊢ cellInv ER (sched (F := F) S1c Y2c) (K (c, some (1, (⟨20, by decide⟩ : Fin 31)))) (r1Cell c 21 ho_21) := inv_at S1c Y2c K (c, some (1, (⟨20, by decide⟩ : Fin 31)))
theorem rch_r1_21 (c : Dev nD) : records (F := F) S1c Y2c K ⊢ reached ER (r1Cell c 21 ho_21) 0 := rch_at S1c Y2c K (c, some (1, (⟨20, by decide⟩ : Fin 31)))
theorem inv_s2_21 (c : Dev nD) : records (F := F) S1c Y2c K ⊢ cellInv ER (sched (F := F) S1c Y2c) (K (c, some (2, (⟨20, by decide⟩ : Fin 31)))) (s2Cell c 21 ho_21) := inv_at S1c Y2c K (c, some (2, (⟨20, by decide⟩ : Fin 31)))
theorem rch_s2_21 (c : Dev nD) : records (F := F) S1c Y2c K ⊢ reached ER (s2Cell c 21 ho_21) 0 := rch_at S1c Y2c K (c, some (2, (⟨20, by decide⟩ : Fin 31)))
theorem inv_r2_21 (c : Dev nD) : records (F := F) S1c Y2c K ⊢ cellInv ER (sched (F := F) S1c Y2c) (K (c, some (3, (⟨20, by decide⟩ : Fin 31)))) (r2Cell c 21 ho_21) := inv_at S1c Y2c K (c, some (3, (⟨20, by decide⟩ : Fin 31)))
theorem rch_r2_21 (c : Dev nD) : records (F := F) S1c Y2c K ⊢ reached ER (r2Cell c 21 ho_21) 0 := rch_at S1c Y2c K (c, some (3, (⟨20, by decide⟩ : Fin 31)))
theorem inv_r1p_21 (c : Dev nD) : records (F := F) S1c Y2c K ⊢ cellInv ER (sched (F := F) S1c Y2c) (K (rot c 21, some (1, (⟨20, by decide⟩ : Fin 31)))) (r1Cell (rot c 21) 21 ho_21) := inv_at S1c Y2c K (rot c 21, some (1, (⟨20, by decide⟩ : Fin 31)))
theorem rch_r1p_21 (c : Dev nD) : records (F := F) S1c Y2c K ⊢ reached ER (r1Cell (rot c 21) 21 ho_21) 0 := rch_at S1c Y2c K (rot c 21, some (1, (⟨20, by decide⟩ : Fin 31)))
theorem inv_r2p_21 (c : Dev nD) : records (F := F) S1c Y2c K ⊢ cellInv ER (sched (F := F) S1c Y2c) (K (rot c 21, some (3, (⟨20, by decide⟩ : Fin 31)))) (r2Cell (rot c 21) 21 ho_21) := inv_at S1c Y2c K (rot c 21, some (3, (⟨20, by decide⟩ : Fin 31)))
theorem rch_r2p_21 (c : Dev nD) : records (F := F) S1c Y2c K ⊢ reached ER (r2Cell (rot c 21) 21 ho_21) 0 := rch_at S1c Y2c K (rot c 21, some (3, (⟨20, by decide⟩ : Fin 31)))

/-! ## Offset 22 -/

theorem inv_barp_22 (c : Dev nD) : records (F := F) S1c Y2c K ⊢ cellInv ER (sched (F := F) S1c Y2c) (K (rot c 22, none)) (barCell (rot c 22)) := inv_at S1c Y2c K (rot c 22, none)
theorem rch_barp_22 (c : Dev nD) : records (F := F) S1c Y2c K ⊢ reached ER (barCell (rot c 22)) 0 := rch_at S1c Y2c K (rot c 22, none)
theorem inv_s1_22 (c : Dev nD) : records (F := F) S1c Y2c K ⊢ cellInv ER (sched (F := F) S1c Y2c) (K (c, some (0, (⟨21, by decide⟩ : Fin 31)))) (s1Cell c 22 ho_22) := inv_at S1c Y2c K (c, some (0, (⟨21, by decide⟩ : Fin 31)))
theorem rch_s1_22 (c : Dev nD) : records (F := F) S1c Y2c K ⊢ reached ER (s1Cell c 22 ho_22) 0 := rch_at S1c Y2c K (c, some (0, (⟨21, by decide⟩ : Fin 31)))
theorem inv_r1_22 (c : Dev nD) : records (F := F) S1c Y2c K ⊢ cellInv ER (sched (F := F) S1c Y2c) (K (c, some (1, (⟨21, by decide⟩ : Fin 31)))) (r1Cell c 22 ho_22) := inv_at S1c Y2c K (c, some (1, (⟨21, by decide⟩ : Fin 31)))
theorem rch_r1_22 (c : Dev nD) : records (F := F) S1c Y2c K ⊢ reached ER (r1Cell c 22 ho_22) 0 := rch_at S1c Y2c K (c, some (1, (⟨21, by decide⟩ : Fin 31)))
theorem inv_s2_22 (c : Dev nD) : records (F := F) S1c Y2c K ⊢ cellInv ER (sched (F := F) S1c Y2c) (K (c, some (2, (⟨21, by decide⟩ : Fin 31)))) (s2Cell c 22 ho_22) := inv_at S1c Y2c K (c, some (2, (⟨21, by decide⟩ : Fin 31)))
theorem rch_s2_22 (c : Dev nD) : records (F := F) S1c Y2c K ⊢ reached ER (s2Cell c 22 ho_22) 0 := rch_at S1c Y2c K (c, some (2, (⟨21, by decide⟩ : Fin 31)))
theorem inv_r2_22 (c : Dev nD) : records (F := F) S1c Y2c K ⊢ cellInv ER (sched (F := F) S1c Y2c) (K (c, some (3, (⟨21, by decide⟩ : Fin 31)))) (r2Cell c 22 ho_22) := inv_at S1c Y2c K (c, some (3, (⟨21, by decide⟩ : Fin 31)))
theorem rch_r2_22 (c : Dev nD) : records (F := F) S1c Y2c K ⊢ reached ER (r2Cell c 22 ho_22) 0 := rch_at S1c Y2c K (c, some (3, (⟨21, by decide⟩ : Fin 31)))
theorem inv_r1p_22 (c : Dev nD) : records (F := F) S1c Y2c K ⊢ cellInv ER (sched (F := F) S1c Y2c) (K (rot c 22, some (1, (⟨21, by decide⟩ : Fin 31)))) (r1Cell (rot c 22) 22 ho_22) := inv_at S1c Y2c K (rot c 22, some (1, (⟨21, by decide⟩ : Fin 31)))
theorem rch_r1p_22 (c : Dev nD) : records (F := F) S1c Y2c K ⊢ reached ER (r1Cell (rot c 22) 22 ho_22) 0 := rch_at S1c Y2c K (rot c 22, some (1, (⟨21, by decide⟩ : Fin 31)))
theorem inv_r2p_22 (c : Dev nD) : records (F := F) S1c Y2c K ⊢ cellInv ER (sched (F := F) S1c Y2c) (K (rot c 22, some (3, (⟨21, by decide⟩ : Fin 31)))) (r2Cell (rot c 22) 22 ho_22) := inv_at S1c Y2c K (rot c 22, some (3, (⟨21, by decide⟩ : Fin 31)))
theorem rch_r2p_22 (c : Dev nD) : records (F := F) S1c Y2c K ⊢ reached ER (r2Cell (rot c 22) 22 ho_22) 0 := rch_at S1c Y2c K (rot c 22, some (3, (⟨21, by decide⟩ : Fin 31)))

/-! ## Offset 23 -/

theorem inv_barp_23 (c : Dev nD) : records (F := F) S1c Y2c K ⊢ cellInv ER (sched (F := F) S1c Y2c) (K (rot c 23, none)) (barCell (rot c 23)) := inv_at S1c Y2c K (rot c 23, none)
theorem rch_barp_23 (c : Dev nD) : records (F := F) S1c Y2c K ⊢ reached ER (barCell (rot c 23)) 0 := rch_at S1c Y2c K (rot c 23, none)
theorem inv_s1_23 (c : Dev nD) : records (F := F) S1c Y2c K ⊢ cellInv ER (sched (F := F) S1c Y2c) (K (c, some (0, (⟨22, by decide⟩ : Fin 31)))) (s1Cell c 23 ho_23) := inv_at S1c Y2c K (c, some (0, (⟨22, by decide⟩ : Fin 31)))
theorem rch_s1_23 (c : Dev nD) : records (F := F) S1c Y2c K ⊢ reached ER (s1Cell c 23 ho_23) 0 := rch_at S1c Y2c K (c, some (0, (⟨22, by decide⟩ : Fin 31)))
theorem inv_r1_23 (c : Dev nD) : records (F := F) S1c Y2c K ⊢ cellInv ER (sched (F := F) S1c Y2c) (K (c, some (1, (⟨22, by decide⟩ : Fin 31)))) (r1Cell c 23 ho_23) := inv_at S1c Y2c K (c, some (1, (⟨22, by decide⟩ : Fin 31)))
theorem rch_r1_23 (c : Dev nD) : records (F := F) S1c Y2c K ⊢ reached ER (r1Cell c 23 ho_23) 0 := rch_at S1c Y2c K (c, some (1, (⟨22, by decide⟩ : Fin 31)))
theorem inv_s2_23 (c : Dev nD) : records (F := F) S1c Y2c K ⊢ cellInv ER (sched (F := F) S1c Y2c) (K (c, some (2, (⟨22, by decide⟩ : Fin 31)))) (s2Cell c 23 ho_23) := inv_at S1c Y2c K (c, some (2, (⟨22, by decide⟩ : Fin 31)))
theorem rch_s2_23 (c : Dev nD) : records (F := F) S1c Y2c K ⊢ reached ER (s2Cell c 23 ho_23) 0 := rch_at S1c Y2c K (c, some (2, (⟨22, by decide⟩ : Fin 31)))
theorem inv_r2_23 (c : Dev nD) : records (F := F) S1c Y2c K ⊢ cellInv ER (sched (F := F) S1c Y2c) (K (c, some (3, (⟨22, by decide⟩ : Fin 31)))) (r2Cell c 23 ho_23) := inv_at S1c Y2c K (c, some (3, (⟨22, by decide⟩ : Fin 31)))
theorem rch_r2_23 (c : Dev nD) : records (F := F) S1c Y2c K ⊢ reached ER (r2Cell c 23 ho_23) 0 := rch_at S1c Y2c K (c, some (3, (⟨22, by decide⟩ : Fin 31)))
theorem inv_r1p_23 (c : Dev nD) : records (F := F) S1c Y2c K ⊢ cellInv ER (sched (F := F) S1c Y2c) (K (rot c 23, some (1, (⟨22, by decide⟩ : Fin 31)))) (r1Cell (rot c 23) 23 ho_23) := inv_at S1c Y2c K (rot c 23, some (1, (⟨22, by decide⟩ : Fin 31)))
theorem rch_r1p_23 (c : Dev nD) : records (F := F) S1c Y2c K ⊢ reached ER (r1Cell (rot c 23) 23 ho_23) 0 := rch_at S1c Y2c K (rot c 23, some (1, (⟨22, by decide⟩ : Fin 31)))
theorem inv_r2p_23 (c : Dev nD) : records (F := F) S1c Y2c K ⊢ cellInv ER (sched (F := F) S1c Y2c) (K (rot c 23, some (3, (⟨22, by decide⟩ : Fin 31)))) (r2Cell (rot c 23) 23 ho_23) := inv_at S1c Y2c K (rot c 23, some (3, (⟨22, by decide⟩ : Fin 31)))
theorem rch_r2p_23 (c : Dev nD) : records (F := F) S1c Y2c K ⊢ reached ER (r2Cell (rot c 23) 23 ho_23) 0 := rch_at S1c Y2c K (rot c 23, some (3, (⟨22, by decide⟩ : Fin 31)))

/-! ## Offset 24 -/

theorem inv_barp_24 (c : Dev nD) : records (F := F) S1c Y2c K ⊢ cellInv ER (sched (F := F) S1c Y2c) (K (rot c 24, none)) (barCell (rot c 24)) := inv_at S1c Y2c K (rot c 24, none)
theorem rch_barp_24 (c : Dev nD) : records (F := F) S1c Y2c K ⊢ reached ER (barCell (rot c 24)) 0 := rch_at S1c Y2c K (rot c 24, none)
theorem inv_s1_24 (c : Dev nD) : records (F := F) S1c Y2c K ⊢ cellInv ER (sched (F := F) S1c Y2c) (K (c, some (0, (⟨23, by decide⟩ : Fin 31)))) (s1Cell c 24 ho_24) := inv_at S1c Y2c K (c, some (0, (⟨23, by decide⟩ : Fin 31)))
theorem rch_s1_24 (c : Dev nD) : records (F := F) S1c Y2c K ⊢ reached ER (s1Cell c 24 ho_24) 0 := rch_at S1c Y2c K (c, some (0, (⟨23, by decide⟩ : Fin 31)))
theorem inv_r1_24 (c : Dev nD) : records (F := F) S1c Y2c K ⊢ cellInv ER (sched (F := F) S1c Y2c) (K (c, some (1, (⟨23, by decide⟩ : Fin 31)))) (r1Cell c 24 ho_24) := inv_at S1c Y2c K (c, some (1, (⟨23, by decide⟩ : Fin 31)))
theorem rch_r1_24 (c : Dev nD) : records (F := F) S1c Y2c K ⊢ reached ER (r1Cell c 24 ho_24) 0 := rch_at S1c Y2c K (c, some (1, (⟨23, by decide⟩ : Fin 31)))
theorem inv_s2_24 (c : Dev nD) : records (F := F) S1c Y2c K ⊢ cellInv ER (sched (F := F) S1c Y2c) (K (c, some (2, (⟨23, by decide⟩ : Fin 31)))) (s2Cell c 24 ho_24) := inv_at S1c Y2c K (c, some (2, (⟨23, by decide⟩ : Fin 31)))
theorem rch_s2_24 (c : Dev nD) : records (F := F) S1c Y2c K ⊢ reached ER (s2Cell c 24 ho_24) 0 := rch_at S1c Y2c K (c, some (2, (⟨23, by decide⟩ : Fin 31)))
theorem inv_r2_24 (c : Dev nD) : records (F := F) S1c Y2c K ⊢ cellInv ER (sched (F := F) S1c Y2c) (K (c, some (3, (⟨23, by decide⟩ : Fin 31)))) (r2Cell c 24 ho_24) := inv_at S1c Y2c K (c, some (3, (⟨23, by decide⟩ : Fin 31)))
theorem rch_r2_24 (c : Dev nD) : records (F := F) S1c Y2c K ⊢ reached ER (r2Cell c 24 ho_24) 0 := rch_at S1c Y2c K (c, some (3, (⟨23, by decide⟩ : Fin 31)))
theorem inv_r1p_24 (c : Dev nD) : records (F := F) S1c Y2c K ⊢ cellInv ER (sched (F := F) S1c Y2c) (K (rot c 24, some (1, (⟨23, by decide⟩ : Fin 31)))) (r1Cell (rot c 24) 24 ho_24) := inv_at S1c Y2c K (rot c 24, some (1, (⟨23, by decide⟩ : Fin 31)))
theorem rch_r1p_24 (c : Dev nD) : records (F := F) S1c Y2c K ⊢ reached ER (r1Cell (rot c 24) 24 ho_24) 0 := rch_at S1c Y2c K (rot c 24, some (1, (⟨23, by decide⟩ : Fin 31)))
theorem inv_r2p_24 (c : Dev nD) : records (F := F) S1c Y2c K ⊢ cellInv ER (sched (F := F) S1c Y2c) (K (rot c 24, some (3, (⟨23, by decide⟩ : Fin 31)))) (r2Cell (rot c 24) 24 ho_24) := inv_at S1c Y2c K (rot c 24, some (3, (⟨23, by decide⟩ : Fin 31)))
theorem rch_r2p_24 (c : Dev nD) : records (F := F) S1c Y2c K ⊢ reached ER (r2Cell (rot c 24) 24 ho_24) 0 := rch_at S1c Y2c K (rot c 24, some (3, (⟨23, by decide⟩ : Fin 31)))

/-! ## Offset 25 -/

theorem inv_barp_25 (c : Dev nD) : records (F := F) S1c Y2c K ⊢ cellInv ER (sched (F := F) S1c Y2c) (K (rot c 25, none)) (barCell (rot c 25)) := inv_at S1c Y2c K (rot c 25, none)
theorem rch_barp_25 (c : Dev nD) : records (F := F) S1c Y2c K ⊢ reached ER (barCell (rot c 25)) 0 := rch_at S1c Y2c K (rot c 25, none)
theorem inv_s1_25 (c : Dev nD) : records (F := F) S1c Y2c K ⊢ cellInv ER (sched (F := F) S1c Y2c) (K (c, some (0, (⟨24, by decide⟩ : Fin 31)))) (s1Cell c 25 ho_25) := inv_at S1c Y2c K (c, some (0, (⟨24, by decide⟩ : Fin 31)))
theorem rch_s1_25 (c : Dev nD) : records (F := F) S1c Y2c K ⊢ reached ER (s1Cell c 25 ho_25) 0 := rch_at S1c Y2c K (c, some (0, (⟨24, by decide⟩ : Fin 31)))
theorem inv_r1_25 (c : Dev nD) : records (F := F) S1c Y2c K ⊢ cellInv ER (sched (F := F) S1c Y2c) (K (c, some (1, (⟨24, by decide⟩ : Fin 31)))) (r1Cell c 25 ho_25) := inv_at S1c Y2c K (c, some (1, (⟨24, by decide⟩ : Fin 31)))
theorem rch_r1_25 (c : Dev nD) : records (F := F) S1c Y2c K ⊢ reached ER (r1Cell c 25 ho_25) 0 := rch_at S1c Y2c K (c, some (1, (⟨24, by decide⟩ : Fin 31)))
theorem inv_s2_25 (c : Dev nD) : records (F := F) S1c Y2c K ⊢ cellInv ER (sched (F := F) S1c Y2c) (K (c, some (2, (⟨24, by decide⟩ : Fin 31)))) (s2Cell c 25 ho_25) := inv_at S1c Y2c K (c, some (2, (⟨24, by decide⟩ : Fin 31)))
theorem rch_s2_25 (c : Dev nD) : records (F := F) S1c Y2c K ⊢ reached ER (s2Cell c 25 ho_25) 0 := rch_at S1c Y2c K (c, some (2, (⟨24, by decide⟩ : Fin 31)))
theorem inv_r2_25 (c : Dev nD) : records (F := F) S1c Y2c K ⊢ cellInv ER (sched (F := F) S1c Y2c) (K (c, some (3, (⟨24, by decide⟩ : Fin 31)))) (r2Cell c 25 ho_25) := inv_at S1c Y2c K (c, some (3, (⟨24, by decide⟩ : Fin 31)))
theorem rch_r2_25 (c : Dev nD) : records (F := F) S1c Y2c K ⊢ reached ER (r2Cell c 25 ho_25) 0 := rch_at S1c Y2c K (c, some (3, (⟨24, by decide⟩ : Fin 31)))
theorem inv_r1p_25 (c : Dev nD) : records (F := F) S1c Y2c K ⊢ cellInv ER (sched (F := F) S1c Y2c) (K (rot c 25, some (1, (⟨24, by decide⟩ : Fin 31)))) (r1Cell (rot c 25) 25 ho_25) := inv_at S1c Y2c K (rot c 25, some (1, (⟨24, by decide⟩ : Fin 31)))
theorem rch_r1p_25 (c : Dev nD) : records (F := F) S1c Y2c K ⊢ reached ER (r1Cell (rot c 25) 25 ho_25) 0 := rch_at S1c Y2c K (rot c 25, some (1, (⟨24, by decide⟩ : Fin 31)))
theorem inv_r2p_25 (c : Dev nD) : records (F := F) S1c Y2c K ⊢ cellInv ER (sched (F := F) S1c Y2c) (K (rot c 25, some (3, (⟨24, by decide⟩ : Fin 31)))) (r2Cell (rot c 25) 25 ho_25) := inv_at S1c Y2c K (rot c 25, some (3, (⟨24, by decide⟩ : Fin 31)))
theorem rch_r2p_25 (c : Dev nD) : records (F := F) S1c Y2c K ⊢ reached ER (r2Cell (rot c 25) 25 ho_25) 0 := rch_at S1c Y2c K (rot c 25, some (3, (⟨24, by decide⟩ : Fin 31)))

/-! ## Offset 26 -/

theorem inv_barp_26 (c : Dev nD) : records (F := F) S1c Y2c K ⊢ cellInv ER (sched (F := F) S1c Y2c) (K (rot c 26, none)) (barCell (rot c 26)) := inv_at S1c Y2c K (rot c 26, none)
theorem rch_barp_26 (c : Dev nD) : records (F := F) S1c Y2c K ⊢ reached ER (barCell (rot c 26)) 0 := rch_at S1c Y2c K (rot c 26, none)
theorem inv_s1_26 (c : Dev nD) : records (F := F) S1c Y2c K ⊢ cellInv ER (sched (F := F) S1c Y2c) (K (c, some (0, (⟨25, by decide⟩ : Fin 31)))) (s1Cell c 26 ho_26) := inv_at S1c Y2c K (c, some (0, (⟨25, by decide⟩ : Fin 31)))
theorem rch_s1_26 (c : Dev nD) : records (F := F) S1c Y2c K ⊢ reached ER (s1Cell c 26 ho_26) 0 := rch_at S1c Y2c K (c, some (0, (⟨25, by decide⟩ : Fin 31)))
theorem inv_r1_26 (c : Dev nD) : records (F := F) S1c Y2c K ⊢ cellInv ER (sched (F := F) S1c Y2c) (K (c, some (1, (⟨25, by decide⟩ : Fin 31)))) (r1Cell c 26 ho_26) := inv_at S1c Y2c K (c, some (1, (⟨25, by decide⟩ : Fin 31)))
theorem rch_r1_26 (c : Dev nD) : records (F := F) S1c Y2c K ⊢ reached ER (r1Cell c 26 ho_26) 0 := rch_at S1c Y2c K (c, some (1, (⟨25, by decide⟩ : Fin 31)))
theorem inv_s2_26 (c : Dev nD) : records (F := F) S1c Y2c K ⊢ cellInv ER (sched (F := F) S1c Y2c) (K (c, some (2, (⟨25, by decide⟩ : Fin 31)))) (s2Cell c 26 ho_26) := inv_at S1c Y2c K (c, some (2, (⟨25, by decide⟩ : Fin 31)))
theorem rch_s2_26 (c : Dev nD) : records (F := F) S1c Y2c K ⊢ reached ER (s2Cell c 26 ho_26) 0 := rch_at S1c Y2c K (c, some (2, (⟨25, by decide⟩ : Fin 31)))
theorem inv_r2_26 (c : Dev nD) : records (F := F) S1c Y2c K ⊢ cellInv ER (sched (F := F) S1c Y2c) (K (c, some (3, (⟨25, by decide⟩ : Fin 31)))) (r2Cell c 26 ho_26) := inv_at S1c Y2c K (c, some (3, (⟨25, by decide⟩ : Fin 31)))
theorem rch_r2_26 (c : Dev nD) : records (F := F) S1c Y2c K ⊢ reached ER (r2Cell c 26 ho_26) 0 := rch_at S1c Y2c K (c, some (3, (⟨25, by decide⟩ : Fin 31)))
theorem inv_r1p_26 (c : Dev nD) : records (F := F) S1c Y2c K ⊢ cellInv ER (sched (F := F) S1c Y2c) (K (rot c 26, some (1, (⟨25, by decide⟩ : Fin 31)))) (r1Cell (rot c 26) 26 ho_26) := inv_at S1c Y2c K (rot c 26, some (1, (⟨25, by decide⟩ : Fin 31)))
theorem rch_r1p_26 (c : Dev nD) : records (F := F) S1c Y2c K ⊢ reached ER (r1Cell (rot c 26) 26 ho_26) 0 := rch_at S1c Y2c K (rot c 26, some (1, (⟨25, by decide⟩ : Fin 31)))
theorem inv_r2p_26 (c : Dev nD) : records (F := F) S1c Y2c K ⊢ cellInv ER (sched (F := F) S1c Y2c) (K (rot c 26, some (3, (⟨25, by decide⟩ : Fin 31)))) (r2Cell (rot c 26) 26 ho_26) := inv_at S1c Y2c K (rot c 26, some (3, (⟨25, by decide⟩ : Fin 31)))
theorem rch_r2p_26 (c : Dev nD) : records (F := F) S1c Y2c K ⊢ reached ER (r2Cell (rot c 26) 26 ho_26) 0 := rch_at S1c Y2c K (rot c 26, some (3, (⟨25, by decide⟩ : Fin 31)))

/-! ## Offset 27 -/

theorem inv_barp_27 (c : Dev nD) : records (F := F) S1c Y2c K ⊢ cellInv ER (sched (F := F) S1c Y2c) (K (rot c 27, none)) (barCell (rot c 27)) := inv_at S1c Y2c K (rot c 27, none)
theorem rch_barp_27 (c : Dev nD) : records (F := F) S1c Y2c K ⊢ reached ER (barCell (rot c 27)) 0 := rch_at S1c Y2c K (rot c 27, none)
theorem inv_s1_27 (c : Dev nD) : records (F := F) S1c Y2c K ⊢ cellInv ER (sched (F := F) S1c Y2c) (K (c, some (0, (⟨26, by decide⟩ : Fin 31)))) (s1Cell c 27 ho_27) := inv_at S1c Y2c K (c, some (0, (⟨26, by decide⟩ : Fin 31)))
theorem rch_s1_27 (c : Dev nD) : records (F := F) S1c Y2c K ⊢ reached ER (s1Cell c 27 ho_27) 0 := rch_at S1c Y2c K (c, some (0, (⟨26, by decide⟩ : Fin 31)))
theorem inv_r1_27 (c : Dev nD) : records (F := F) S1c Y2c K ⊢ cellInv ER (sched (F := F) S1c Y2c) (K (c, some (1, (⟨26, by decide⟩ : Fin 31)))) (r1Cell c 27 ho_27) := inv_at S1c Y2c K (c, some (1, (⟨26, by decide⟩ : Fin 31)))
theorem rch_r1_27 (c : Dev nD) : records (F := F) S1c Y2c K ⊢ reached ER (r1Cell c 27 ho_27) 0 := rch_at S1c Y2c K (c, some (1, (⟨26, by decide⟩ : Fin 31)))
theorem inv_s2_27 (c : Dev nD) : records (F := F) S1c Y2c K ⊢ cellInv ER (sched (F := F) S1c Y2c) (K (c, some (2, (⟨26, by decide⟩ : Fin 31)))) (s2Cell c 27 ho_27) := inv_at S1c Y2c K (c, some (2, (⟨26, by decide⟩ : Fin 31)))
theorem rch_s2_27 (c : Dev nD) : records (F := F) S1c Y2c K ⊢ reached ER (s2Cell c 27 ho_27) 0 := rch_at S1c Y2c K (c, some (2, (⟨26, by decide⟩ : Fin 31)))
theorem inv_r2_27 (c : Dev nD) : records (F := F) S1c Y2c K ⊢ cellInv ER (sched (F := F) S1c Y2c) (K (c, some (3, (⟨26, by decide⟩ : Fin 31)))) (r2Cell c 27 ho_27) := inv_at S1c Y2c K (c, some (3, (⟨26, by decide⟩ : Fin 31)))
theorem rch_r2_27 (c : Dev nD) : records (F := F) S1c Y2c K ⊢ reached ER (r2Cell c 27 ho_27) 0 := rch_at S1c Y2c K (c, some (3, (⟨26, by decide⟩ : Fin 31)))
theorem inv_r1p_27 (c : Dev nD) : records (F := F) S1c Y2c K ⊢ cellInv ER (sched (F := F) S1c Y2c) (K (rot c 27, some (1, (⟨26, by decide⟩ : Fin 31)))) (r1Cell (rot c 27) 27 ho_27) := inv_at S1c Y2c K (rot c 27, some (1, (⟨26, by decide⟩ : Fin 31)))
theorem rch_r1p_27 (c : Dev nD) : records (F := F) S1c Y2c K ⊢ reached ER (r1Cell (rot c 27) 27 ho_27) 0 := rch_at S1c Y2c K (rot c 27, some (1, (⟨26, by decide⟩ : Fin 31)))
theorem inv_r2p_27 (c : Dev nD) : records (F := F) S1c Y2c K ⊢ cellInv ER (sched (F := F) S1c Y2c) (K (rot c 27, some (3, (⟨26, by decide⟩ : Fin 31)))) (r2Cell (rot c 27) 27 ho_27) := inv_at S1c Y2c K (rot c 27, some (3, (⟨26, by decide⟩ : Fin 31)))
theorem rch_r2p_27 (c : Dev nD) : records (F := F) S1c Y2c K ⊢ reached ER (r2Cell (rot c 27) 27 ho_27) 0 := rch_at S1c Y2c K (rot c 27, some (3, (⟨26, by decide⟩ : Fin 31)))

/-! ## Offset 28 -/

theorem inv_barp_28 (c : Dev nD) : records (F := F) S1c Y2c K ⊢ cellInv ER (sched (F := F) S1c Y2c) (K (rot c 28, none)) (barCell (rot c 28)) := inv_at S1c Y2c K (rot c 28, none)
theorem rch_barp_28 (c : Dev nD) : records (F := F) S1c Y2c K ⊢ reached ER (barCell (rot c 28)) 0 := rch_at S1c Y2c K (rot c 28, none)
theorem inv_s1_28 (c : Dev nD) : records (F := F) S1c Y2c K ⊢ cellInv ER (sched (F := F) S1c Y2c) (K (c, some (0, (⟨27, by decide⟩ : Fin 31)))) (s1Cell c 28 ho_28) := inv_at S1c Y2c K (c, some (0, (⟨27, by decide⟩ : Fin 31)))
theorem rch_s1_28 (c : Dev nD) : records (F := F) S1c Y2c K ⊢ reached ER (s1Cell c 28 ho_28) 0 := rch_at S1c Y2c K (c, some (0, (⟨27, by decide⟩ : Fin 31)))
theorem inv_r1_28 (c : Dev nD) : records (F := F) S1c Y2c K ⊢ cellInv ER (sched (F := F) S1c Y2c) (K (c, some (1, (⟨27, by decide⟩ : Fin 31)))) (r1Cell c 28 ho_28) := inv_at S1c Y2c K (c, some (1, (⟨27, by decide⟩ : Fin 31)))
theorem rch_r1_28 (c : Dev nD) : records (F := F) S1c Y2c K ⊢ reached ER (r1Cell c 28 ho_28) 0 := rch_at S1c Y2c K (c, some (1, (⟨27, by decide⟩ : Fin 31)))
theorem inv_s2_28 (c : Dev nD) : records (F := F) S1c Y2c K ⊢ cellInv ER (sched (F := F) S1c Y2c) (K (c, some (2, (⟨27, by decide⟩ : Fin 31)))) (s2Cell c 28 ho_28) := inv_at S1c Y2c K (c, some (2, (⟨27, by decide⟩ : Fin 31)))
theorem rch_s2_28 (c : Dev nD) : records (F := F) S1c Y2c K ⊢ reached ER (s2Cell c 28 ho_28) 0 := rch_at S1c Y2c K (c, some (2, (⟨27, by decide⟩ : Fin 31)))
theorem inv_r2_28 (c : Dev nD) : records (F := F) S1c Y2c K ⊢ cellInv ER (sched (F := F) S1c Y2c) (K (c, some (3, (⟨27, by decide⟩ : Fin 31)))) (r2Cell c 28 ho_28) := inv_at S1c Y2c K (c, some (3, (⟨27, by decide⟩ : Fin 31)))
theorem rch_r2_28 (c : Dev nD) : records (F := F) S1c Y2c K ⊢ reached ER (r2Cell c 28 ho_28) 0 := rch_at S1c Y2c K (c, some (3, (⟨27, by decide⟩ : Fin 31)))
theorem inv_r1p_28 (c : Dev nD) : records (F := F) S1c Y2c K ⊢ cellInv ER (sched (F := F) S1c Y2c) (K (rot c 28, some (1, (⟨27, by decide⟩ : Fin 31)))) (r1Cell (rot c 28) 28 ho_28) := inv_at S1c Y2c K (rot c 28, some (1, (⟨27, by decide⟩ : Fin 31)))
theorem rch_r1p_28 (c : Dev nD) : records (F := F) S1c Y2c K ⊢ reached ER (r1Cell (rot c 28) 28 ho_28) 0 := rch_at S1c Y2c K (rot c 28, some (1, (⟨27, by decide⟩ : Fin 31)))
theorem inv_r2p_28 (c : Dev nD) : records (F := F) S1c Y2c K ⊢ cellInv ER (sched (F := F) S1c Y2c) (K (rot c 28, some (3, (⟨27, by decide⟩ : Fin 31)))) (r2Cell (rot c 28) 28 ho_28) := inv_at S1c Y2c K (rot c 28, some (3, (⟨27, by decide⟩ : Fin 31)))
theorem rch_r2p_28 (c : Dev nD) : records (F := F) S1c Y2c K ⊢ reached ER (r2Cell (rot c 28) 28 ho_28) 0 := rch_at S1c Y2c K (rot c 28, some (3, (⟨27, by decide⟩ : Fin 31)))

/-! ## Offset 29 -/

theorem inv_barp_29 (c : Dev nD) : records (F := F) S1c Y2c K ⊢ cellInv ER (sched (F := F) S1c Y2c) (K (rot c 29, none)) (barCell (rot c 29)) := inv_at S1c Y2c K (rot c 29, none)
theorem rch_barp_29 (c : Dev nD) : records (F := F) S1c Y2c K ⊢ reached ER (barCell (rot c 29)) 0 := rch_at S1c Y2c K (rot c 29, none)
theorem inv_s1_29 (c : Dev nD) : records (F := F) S1c Y2c K ⊢ cellInv ER (sched (F := F) S1c Y2c) (K (c, some (0, (⟨28, by decide⟩ : Fin 31)))) (s1Cell c 29 ho_29) := inv_at S1c Y2c K (c, some (0, (⟨28, by decide⟩ : Fin 31)))
theorem rch_s1_29 (c : Dev nD) : records (F := F) S1c Y2c K ⊢ reached ER (s1Cell c 29 ho_29) 0 := rch_at S1c Y2c K (c, some (0, (⟨28, by decide⟩ : Fin 31)))
theorem inv_r1_29 (c : Dev nD) : records (F := F) S1c Y2c K ⊢ cellInv ER (sched (F := F) S1c Y2c) (K (c, some (1, (⟨28, by decide⟩ : Fin 31)))) (r1Cell c 29 ho_29) := inv_at S1c Y2c K (c, some (1, (⟨28, by decide⟩ : Fin 31)))
theorem rch_r1_29 (c : Dev nD) : records (F := F) S1c Y2c K ⊢ reached ER (r1Cell c 29 ho_29) 0 := rch_at S1c Y2c K (c, some (1, (⟨28, by decide⟩ : Fin 31)))
theorem inv_s2_29 (c : Dev nD) : records (F := F) S1c Y2c K ⊢ cellInv ER (sched (F := F) S1c Y2c) (K (c, some (2, (⟨28, by decide⟩ : Fin 31)))) (s2Cell c 29 ho_29) := inv_at S1c Y2c K (c, some (2, (⟨28, by decide⟩ : Fin 31)))
theorem rch_s2_29 (c : Dev nD) : records (F := F) S1c Y2c K ⊢ reached ER (s2Cell c 29 ho_29) 0 := rch_at S1c Y2c K (c, some (2, (⟨28, by decide⟩ : Fin 31)))
theorem inv_r2_29 (c : Dev nD) : records (F := F) S1c Y2c K ⊢ cellInv ER (sched (F := F) S1c Y2c) (K (c, some (3, (⟨28, by decide⟩ : Fin 31)))) (r2Cell c 29 ho_29) := inv_at S1c Y2c K (c, some (3, (⟨28, by decide⟩ : Fin 31)))
theorem rch_r2_29 (c : Dev nD) : records (F := F) S1c Y2c K ⊢ reached ER (r2Cell c 29 ho_29) 0 := rch_at S1c Y2c K (c, some (3, (⟨28, by decide⟩ : Fin 31)))
theorem inv_r1p_29 (c : Dev nD) : records (F := F) S1c Y2c K ⊢ cellInv ER (sched (F := F) S1c Y2c) (K (rot c 29, some (1, (⟨28, by decide⟩ : Fin 31)))) (r1Cell (rot c 29) 29 ho_29) := inv_at S1c Y2c K (rot c 29, some (1, (⟨28, by decide⟩ : Fin 31)))
theorem rch_r1p_29 (c : Dev nD) : records (F := F) S1c Y2c K ⊢ reached ER (r1Cell (rot c 29) 29 ho_29) 0 := rch_at S1c Y2c K (rot c 29, some (1, (⟨28, by decide⟩ : Fin 31)))
theorem inv_r2p_29 (c : Dev nD) : records (F := F) S1c Y2c K ⊢ cellInv ER (sched (F := F) S1c Y2c) (K (rot c 29, some (3, (⟨28, by decide⟩ : Fin 31)))) (r2Cell (rot c 29) 29 ho_29) := inv_at S1c Y2c K (rot c 29, some (3, (⟨28, by decide⟩ : Fin 31)))
theorem rch_r2p_29 (c : Dev nD) : records (F := F) S1c Y2c K ⊢ reached ER (r2Cell (rot c 29) 29 ho_29) 0 := rch_at S1c Y2c K (rot c 29, some (3, (⟨28, by decide⟩ : Fin 31)))

/-! ## Offset 30 -/

theorem inv_barp_30 (c : Dev nD) : records (F := F) S1c Y2c K ⊢ cellInv ER (sched (F := F) S1c Y2c) (K (rot c 30, none)) (barCell (rot c 30)) := inv_at S1c Y2c K (rot c 30, none)
theorem rch_barp_30 (c : Dev nD) : records (F := F) S1c Y2c K ⊢ reached ER (barCell (rot c 30)) 0 := rch_at S1c Y2c K (rot c 30, none)
theorem inv_s1_30 (c : Dev nD) : records (F := F) S1c Y2c K ⊢ cellInv ER (sched (F := F) S1c Y2c) (K (c, some (0, (⟨29, by decide⟩ : Fin 31)))) (s1Cell c 30 ho_30) := inv_at S1c Y2c K (c, some (0, (⟨29, by decide⟩ : Fin 31)))
theorem rch_s1_30 (c : Dev nD) : records (F := F) S1c Y2c K ⊢ reached ER (s1Cell c 30 ho_30) 0 := rch_at S1c Y2c K (c, some (0, (⟨29, by decide⟩ : Fin 31)))
theorem inv_r1_30 (c : Dev nD) : records (F := F) S1c Y2c K ⊢ cellInv ER (sched (F := F) S1c Y2c) (K (c, some (1, (⟨29, by decide⟩ : Fin 31)))) (r1Cell c 30 ho_30) := inv_at S1c Y2c K (c, some (1, (⟨29, by decide⟩ : Fin 31)))
theorem rch_r1_30 (c : Dev nD) : records (F := F) S1c Y2c K ⊢ reached ER (r1Cell c 30 ho_30) 0 := rch_at S1c Y2c K (c, some (1, (⟨29, by decide⟩ : Fin 31)))
theorem inv_s2_30 (c : Dev nD) : records (F := F) S1c Y2c K ⊢ cellInv ER (sched (F := F) S1c Y2c) (K (c, some (2, (⟨29, by decide⟩ : Fin 31)))) (s2Cell c 30 ho_30) := inv_at S1c Y2c K (c, some (2, (⟨29, by decide⟩ : Fin 31)))
theorem rch_s2_30 (c : Dev nD) : records (F := F) S1c Y2c K ⊢ reached ER (s2Cell c 30 ho_30) 0 := rch_at S1c Y2c K (c, some (2, (⟨29, by decide⟩ : Fin 31)))
theorem inv_r2_30 (c : Dev nD) : records (F := F) S1c Y2c K ⊢ cellInv ER (sched (F := F) S1c Y2c) (K (c, some (3, (⟨29, by decide⟩ : Fin 31)))) (r2Cell c 30 ho_30) := inv_at S1c Y2c K (c, some (3, (⟨29, by decide⟩ : Fin 31)))
theorem rch_r2_30 (c : Dev nD) : records (F := F) S1c Y2c K ⊢ reached ER (r2Cell c 30 ho_30) 0 := rch_at S1c Y2c K (c, some (3, (⟨29, by decide⟩ : Fin 31)))
theorem inv_r1p_30 (c : Dev nD) : records (F := F) S1c Y2c K ⊢ cellInv ER (sched (F := F) S1c Y2c) (K (rot c 30, some (1, (⟨29, by decide⟩ : Fin 31)))) (r1Cell (rot c 30) 30 ho_30) := inv_at S1c Y2c K (rot c 30, some (1, (⟨29, by decide⟩ : Fin 31)))
theorem rch_r1p_30 (c : Dev nD) : records (F := F) S1c Y2c K ⊢ reached ER (r1Cell (rot c 30) 30 ho_30) 0 := rch_at S1c Y2c K (rot c 30, some (1, (⟨29, by decide⟩ : Fin 31)))
theorem inv_r2p_30 (c : Dev nD) : records (F := F) S1c Y2c K ⊢ cellInv ER (sched (F := F) S1c Y2c) (K (rot c 30, some (3, (⟨29, by decide⟩ : Fin 31)))) (r2Cell (rot c 30) 30 ho_30) := inv_at S1c Y2c K (rot c 30, some (3, (⟨29, by decide⟩ : Fin 31)))
theorem rch_r2p_30 (c : Dev nD) : records (F := F) S1c Y2c K ⊢ reached ER (r2Cell (rot c 30) 30 ho_30) 0 := rch_at S1c Y2c K (rot c 30, some (3, (⟨29, by decide⟩ : Fin 31)))

/-! ## Offset 31 -/

theorem inv_barp_31 (c : Dev nD) : records (F := F) S1c Y2c K ⊢ cellInv ER (sched (F := F) S1c Y2c) (K (rot c 31, none)) (barCell (rot c 31)) := inv_at S1c Y2c K (rot c 31, none)
theorem rch_barp_31 (c : Dev nD) : records (F := F) S1c Y2c K ⊢ reached ER (barCell (rot c 31)) 0 := rch_at S1c Y2c K (rot c 31, none)
theorem inv_s1_31 (c : Dev nD) : records (F := F) S1c Y2c K ⊢ cellInv ER (sched (F := F) S1c Y2c) (K (c, some (0, (⟨30, by decide⟩ : Fin 31)))) (s1Cell c 31 ho_31) := inv_at S1c Y2c K (c, some (0, (⟨30, by decide⟩ : Fin 31)))
theorem rch_s1_31 (c : Dev nD) : records (F := F) S1c Y2c K ⊢ reached ER (s1Cell c 31 ho_31) 0 := rch_at S1c Y2c K (c, some (0, (⟨30, by decide⟩ : Fin 31)))
theorem inv_r1_31 (c : Dev nD) : records (F := F) S1c Y2c K ⊢ cellInv ER (sched (F := F) S1c Y2c) (K (c, some (1, (⟨30, by decide⟩ : Fin 31)))) (r1Cell c 31 ho_31) := inv_at S1c Y2c K (c, some (1, (⟨30, by decide⟩ : Fin 31)))
theorem rch_r1_31 (c : Dev nD) : records (F := F) S1c Y2c K ⊢ reached ER (r1Cell c 31 ho_31) 0 := rch_at S1c Y2c K (c, some (1, (⟨30, by decide⟩ : Fin 31)))
theorem inv_s2_31 (c : Dev nD) : records (F := F) S1c Y2c K ⊢ cellInv ER (sched (F := F) S1c Y2c) (K (c, some (2, (⟨30, by decide⟩ : Fin 31)))) (s2Cell c 31 ho_31) := inv_at S1c Y2c K (c, some (2, (⟨30, by decide⟩ : Fin 31)))
theorem rch_s2_31 (c : Dev nD) : records (F := F) S1c Y2c K ⊢ reached ER (s2Cell c 31 ho_31) 0 := rch_at S1c Y2c K (c, some (2, (⟨30, by decide⟩ : Fin 31)))
theorem inv_r2_31 (c : Dev nD) : records (F := F) S1c Y2c K ⊢ cellInv ER (sched (F := F) S1c Y2c) (K (c, some (3, (⟨30, by decide⟩ : Fin 31)))) (r2Cell c 31 ho_31) := inv_at S1c Y2c K (c, some (3, (⟨30, by decide⟩ : Fin 31)))
theorem rch_r2_31 (c : Dev nD) : records (F := F) S1c Y2c K ⊢ reached ER (r2Cell c 31 ho_31) 0 := rch_at S1c Y2c K (c, some (3, (⟨30, by decide⟩ : Fin 31)))
theorem inv_r1p_31 (c : Dev nD) : records (F := F) S1c Y2c K ⊢ cellInv ER (sched (F := F) S1c Y2c) (K (rot c 31, some (1, (⟨30, by decide⟩ : Fin 31)))) (r1Cell (rot c 31) 31 ho_31) := inv_at S1c Y2c K (rot c 31, some (1, (⟨30, by decide⟩ : Fin 31)))
theorem rch_r1p_31 (c : Dev nD) : records (F := F) S1c Y2c K ⊢ reached ER (r1Cell (rot c 31) 31 ho_31) 0 := rch_at S1c Y2c K (rot c 31, some (1, (⟨30, by decide⟩ : Fin 31)))
theorem inv_r2p_31 (c : Dev nD) : records (F := F) S1c Y2c K ⊢ cellInv ER (sched (F := F) S1c Y2c) (K (rot c 31, some (3, (⟨30, by decide⟩ : Fin 31)))) (r2Cell (rot c 31) 31 ho_31) := inv_at S1c Y2c K (rot c 31, some (3, (⟨30, by decide⟩ : Fin 31)))
theorem rch_r2p_31 (c : Dev nD) : records (F := F) S1c Y2c K ⊢ reached ER (r2Cell (rot c 31) 31 ho_31) 0 := rch_at S1c Y2c K (rot c 31, some (3, (⟨30, by decide⟩ : Fin 31)))

end Access

end Cert.KernelIdealProto

end
-- ==== Proof.KernelIdealContents.lean ====
import proofs.«900784_g7700000000000785_dist_f_of_ar_i_m512_n256_v7x_i32_bf16_1_alg».proof.Proof.KernelIdealBodyDefs

/-!
# The narrowed block's contents

After the input copy has filled the f32 scratch block with the device's block of the argument, and the store has
written its narrowing over the whole bf16 scratch block, the bf16 block holds the narrowing of the argument's block,
element by element, whatever either scratch block held before.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The narrowed block on device `c`: its block of the argument, every element narrowed. -/
def S1def (m : (ℓ : Loc nD τ sig) → Buf (Elt F) ℓ) (c : Dev nD) : Buf (Elt F) (st1.view.loc (c : Thread nD τ)) :=
  k0_pay1 (F := F) (m ((c : Thread nD τ).loc main_arg0))

omit [FloatOps F] in
theorem zeros2 : (![0, 0] : Fin 2 → Nat) = fun _ => 0 := funext fun a => by fin_cases a <;> rfl

/-- After the input copy the f32 scratch block holds the device's block of the argument, whatever it held before. -/
theorem tv_contents (m : (ℓ : Loc nD τ sig) → Buf (Elt F) ℓ) (c : Dev nD) (f0 : Buf (Elt F) (tV.view.loc (c : Thread nD τ))) :
    View.write (Elt F) (Memref.whole cc0_scratch0).view f0
      (ReadAs.same.apply (View.read (Elt F) (Memref.whole main_arg0).view (m ((c : Thread nD τ).loc main_arg0)))) Finset.univ
      = m ((c : Thread nD τ).loc main_arg0) :=
  View.write_whole_univ cc0_scratch0 f0 _

/-- A store over the whole 16-row block replaces its contents. -/
theorem st2_whole_write (c : Dev nD) (f3 : Buf (Elt F) (st2.view.loc (c : Thread nD τ))) (w : FVec F S16x256 .bf16) :
    st2.view.writes (Elt F) f3 [⟨Rect.unit ![0, 0] S16x256.size inb_S16x256_S16x256_0_0, w⟩] = w := by
  rw [View.writes_singleton]
  exact Memref.write_access_unit_zero_univ (Elt F) cc0_scratch3 zeros2 _ f3 w

/-- A view written whole and read back through a reshaping of it: the payload, re-indexed. -/
theorem read_reshape_write {sig' : RefSig} {κ : Kind} {sp : Space} {s s' : Shape} {e : EltTy} {Val : EltTy → Type}
    (v : View sig' κ sp s e) (h : s'.numel = s.numel) (f : v.ty.Contents Val) (w : s.Idx → Val e) (y : s'.Idx) :
    (v.reshape s' h).read Val (v.write Val f w Finset.univ) y = w (Shape.reshapeEquiv h y) :=
  View.read_write_of_mem (v := v) f w (Finset.mem_univ _)

/-- A slot of the f32 output staging buffer written whole, then read back through the slot as a 16 × 256 block: the
    payload written, whatever was written before, slot `(0, r, q)` at block `(r, q)`. -/
theorem sto_slot_read (c : Dev nD) (k : ℕ) (hk : k < 32) (f5 : Buf (Elt F) (sto.view.loc (c : Thread nD τ)))
    (w : FVec F S1x16x256 .f32) (L : List (View.Piece (Elt F) S32x16x256 .f32)) :
    View.read (Elt F) (((Memref.whole cc0_scratch5).slice (Rect.unit ![k, 0, 0] S1x16x256.size (slot_inb k hk)) (fun _ => rfl)).squeeze S16x256 squeezes_S1x16x256_S16x256).view
        (sto.view.writes (Elt F) f5 (⟨Rect.unit ![k, 0, 0] S1x16x256.size (slot_inb k hk), w⟩ :: L))
      = fun y => w (Shape.reshapeEquiv squeezes_S1x16x256_S16x256.numel_eq y) :=
  funext fun y => read_reshape_write (sto.view.slice (Rect.unit ![k, 0, 0] S1x16x256.size (slot_inb k hk))) squeezes_S1x16x256_S16x256.numel_eq
    (sto.view.writes (Elt F) f5 L) w y

/-- What the copy and the store leave in the narrowed block. -/
theorem st1_contents (m : (ℓ : Loc nD τ sig) → Buf (Elt F) ℓ) (c : Dev nD) (f0 : Buf (Elt F) (tV.view.loc (c : Thread nD τ)))
    (f1 : Buf (Elt F) (st1.view.loc (c : Thread nD τ))) :
    st1.view.writes (Elt F) f1 [⟨Rect.unit ![0, 0] S512x256.size inb_S512x256_S512x256_0_0,
      k0_pay1 (View.readAt (Elt F) tV.view (Rect.unit ![0, 0] S512x256.size inb_S512x256_S512x256_0_0).toLoadRect
        (View.write (Elt F) (Memref.whole cc0_scratch0).view f0
          (ReadAs.same.apply (View.read (Elt F) (Memref.whole main_arg0).view (m ((c : Thread nD τ).loc main_arg0)))) Finset.univ))⟩] = S1def m c := by
  have h1 : View.write (Elt F) (Memref.whole cc0_scratch0).view f0
      (ReadAs.same.apply (View.read (Elt F) (Memref.whole main_arg0).view (m ((c : Thread nD τ).loc main_arg0)))) Finset.univ
      = m ((c : Thread nD τ).loc main_arg0) :=
    View.write_whole_univ cc0_scratch0 f0 _
  have h2 : View.readAt (Elt F) tV.view (Rect.unit ![0, 0] S512x256.size inb_S512x256_S512x256_0_0).toLoadRect (m ((c : Thread nD τ).loc main_arg0))
      = m ((c : Thread nD τ).loc main_arg0) :=
    Memref.readAt_unit_zero (Elt F) cc0_scratch0 zeros2 _ _
  rw [View.writes_singleton, h1, h2]
  exact Memref.write_access_unit_zero_univ (Elt F) cc0_scratch1 zeros2 _ f1 _

end Cert.KernelIdealProto

end
-- ==== Proof.KernelIdealY2.lean ====
import proofs.«900784_g7700000000000785_dist_f_of_ar_i_m512_n256_v7x_i32_bf16_1_alg».proof.Proof.KernelIdealContents
import proofs.«900784_g7700000000000785_dist_f_of_ar_i_m512_n256_v7x_i32_bf16_1_alg».proof.Proof.KernelIdealSends

/-!
# What a device adds up and sends on

The accumulated rows of a device: its own 16 rows of its f32 block plus what landed in the 31 slots of its first
landing buffer, in slot order (the generated payloads cut the unrolled accumulation into groups of one to three
slots; the nest below is that cut); then the pointwise function of the sum, kept at f32 for the device's own rows
of the result and narrowed for the second exchange.
-/

noncomputable section

namespace Cert.KernelIdealProto

open Cert.KernelIdeal Cert.KernelIdeal.Gen
open Idealize.ShloMosaic
open Idealize.ShloMosaic.TcCoe
open Idealize.SL Idealize.SL.Sem

variable {F : FTy → Type} [FloatOps F]

variable (m : (ℓ : Loc nD τ sig) → Buf (Elt F) ℓ) (c : Dev nD)

/-- the device's own 16 rows of its f32 block, as the accumulation loads them -/
def ownRd : Vec F S16x256 .f32 :=
  tV.view.readAt (Elt F) (Rect.unit (s := S512x256) (k0_off2 c) S16x256.size (k0_off2_inb c)).toLoadRect (m ((c : Thread nD τ).loc main_arg0))
/-- what the load of slot `j` of the first landing buffer reads once the slot's transfer has landed -/
def slotRd (j : ℕ) (hj : 1 ≤ j ∧ j ≤ 31) (ho : j < 32) : Vec F S1x16x256 .bf16 :=
  cm1.view.readAt (Elt F) (Rect.unit (s := S32x16x256) ![j, 0, 0] S1x16x256.size (slot_inb j ho)).toLoadRect (land1 (S1def m) c j hj)
/-- the sum of the own rows and slots 1 … 30 -/
def accDef : FVec F S16x256 .f32 :=
  (k0_pay14 (F := F) (k0_pay13 (F := F) (k0_pay12 (F := F) (k0_pay11 (F := F) (k0_pay10 (F := F) (k0_pay9 (F := F) (k0_pay8 (F := F) (k0_pay7 (F := F) (k0_pay6 (F := F) (k0_pay5 (F := F) (k0_pay3 (F := F) (k0_pay2 (F := F) (ownRd m c) (slotRd m c 1 hk_1 ho_1)) (slotRd m c 2 hk_2 ho_2) (slotRd m c 3 hk_3 ho_3)) (k0_pay4 (F := F) (slotRd m c 4 hk_4 ho_4)) (slotRd m c 5 hk_5 ho_5) (slotRd m c 6 hk_6 ho_6)) (slotRd m c 7 hk_7 ho_7) (slotRd m c 8 hk_8 ho_8) (slotRd m c 9 hk_9 ho_9)) (slotRd m c 10 hk_10 ho_10) (slotRd m c 11 hk_11 ho_11)) (slotRd m c 12 hk_12 ho_12) (slotRd m c 13 hk_13 ho_13) (slotRd m c 14 hk_14 ho_14)) (slotRd m c 15 hk_15 ho_15) (slotRd m c 16 hk_16 ho_16) (slotRd m c 17 hk_17 ho_17)) (slotRd m c 18 hk_18 ho_18) (slotRd m c 19 hk_19 ho_19)) (slotRd m c 20 hk_20 ho_20) (slotRd m c 21 hk_21 ho_21) (slotRd m c 22 hk_22 ho_22)) (slotRd m c 23 hk_23 ho_23) (slotRd m c 24 hk_24 ho_24)) (slotRd m c 25 hk_25 ho_25) (slotRd m c 26 hk_26 ho_26) (slotRd m c 27 hk_27 ho_27)) (slotRd m c 28 hk_28 ho_28) (slotRd m c 29 hk_29 ho_29) (slotRd m c 30 hk_30 ho_30))
/-- the 16 result rows narrowed: what the second exchange sends -/
def Y2def : Buf (Elt F) (st2.view.loc (c : Thread nD τ)) := k0_pay17 (F := F) (accDef m c) (slotRd m c 31 hk_31 ho_31)
/-- the 16 result rows at f32, as a slot of the output staging buffer -/
def Y0def : FVec F S1x16x256 .f32 := k0_pay16 (F := F) (accDef m c) (slotRd m c 31 hk_31 ho_31)

end Cert.KernelIdealProto
end
-- ==== Proof.KernelIdealCutsOut.lean ====
import proofs.«900784_g7700000000000785_dist_f_of_ar_i_m512_n256_v7x_i32_bf16_1_alg».proof.Proof.KernelIdealCutsRows

/-!
# An array of 512 rows as thirty-two blocks of sixteen rows, in any order, and the result array so cut

For a whole buffer of 512 rows and 256 columns and an injective (hence bijective) renumbering `π` of the thirty-two
row blocks, the blocks `π 0, …, π 31` are pairwise disjoint and cover the buffer: a points-to on the whole buffer is
the separating conjunction of the points-tos on the blocks, and blocks held at contents of their own join to the whole
buffer at contents that agree with each block's on that block.

The result array is written in that way: the device's own sixteen result rows go to row block `c`, and the rows that
came from the device `k` places before it, `k = 1 … 31`, go to row block `(c - k) mod 32`. The program computes each
block's first row from the device's number; the computations' values are `16 · c` and `16 · ((c + 32 - k) mod 32)`.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any whole buffer of 512 × 256, its row blocks renumbered -/

section Rows

variable {sp : Space} {e : EltTy}

/-- Row block `π k`'s elements, among the buffer's on device `c`. -/
def rowsSet (M : Memref sig .tc sp S512x256 e) (c : Dev nD) (π : Fin 32 → Fin 32) (k : Fin 32) :
    Finset (Idx (M.view.loc (c : Thread nD τ))) :=
  sliceSet M (rowR (π k))

theorem rowsSet_disjoint (M : Memref sig .tc sp S512x256 e) (c : Dev nD) (π : Fin 32 → Fin 32) (hπ : Function.Injective π)
    (k k' : Fin 32) (h : k ≠ k') : Disjoint (rowsSet M c π k) (rowsSet M c π k') :=
  slices_disjoint M rowR rowR_disjoint _ _ (fun e => h (hπ e))

theorem rowsSet_cover (M : Memref sig .tc sp S512x256 e) (hM : M.IsWhole) (c : Dev nD) (π : Fin 32 → Fin 32)
    (hπ : Function.Injective π) : Finset.univ.biUnion (rowsSet M c π) = Finset.univ := by
  have hs : Function.Surjective π := Finite.surjective_of_injective hπ
  ext i
  simp only [Finset.mem_biUnion, Finset.mem_univ, true_and, iff_true]
  have hi : i ∈ Finset.univ.biUnion (fun b => sliceSet M (rowR b)) :=
    (slices_cover M hM rowR rowR_cover) ▸ Finset.mem_univ i
  obtain ⟨b, -, hb⟩ := Finset.mem_biUnion.mp hi
  obtain ⟨k, rfl⟩ := hs b
  exact ⟨k, hb⟩

/-- The whole buffer at `f` is its thirty-two row blocks at `f`. -/
theorem rows_split_eq (M : Memref sig .tc sp S512x256 e) (hM : M.IsWhole) (c : Dev nD) (π : Fin 32 → Fin 32)
    (hπ : Function.Injective π) (f : Buf (Elt F) (M.view.loc (c : Thread nD τ))) :
    (M.view.loc (c : Thread nD τ) ↦{fullShare} f : sProp 𝕄)
      = bigSep Finset.univ fun k : Fin 32 => (M.view.loc (c : Thread nD τ) ↦[rowsSet M c π k]{fullShare} f : sProp 𝕄) :=
  Ring.pointsTo_blocks (ℓ := M.view.loc (c : Thread nD τ)) (Ix := Unit) (Name := ℕ) (U := UU) (Lvl := ℕ)
    (rowsSet M c π) (rowsSet_disjoint M c π hπ) (rowsSet_cover M hM c π hπ) f

/-- The thirty-two row blocks, block `k` at contents `fs k`, are the whole buffer at contents that agree with `fs k`
    on block `k`, for every `k`. -/
theorem rows_join_agree (M : Memref sig .tc sp S512x256 e) (hM : M.IsWhole) (c : Dev nD) (π : Fin 32 → Fin 32)
    (hπ : Function.Injective π) (fs : Fin 32 → Buf (Elt F) (M.view.loc (c : Thread nD τ))) :
    bigSep Finset.univ (fun k : Fin 32 => (M.view.loc (c : Thread nD τ) ↦[rowsSet M c π k]{fullShare} fs k : sProp 𝕄))
      ⊢ iprop(∃ g, ⌜∀ k : Fin 32, ∀ i ∈ rowsSet M c π k, g i = fs k i⌝
          ∗ (M.view.loc (c : Thread nD τ) ↦{fullShare} g : sProp 𝕄)) := by
  refine (pointsTo_biUnion_join (ℓ := M.view.loc (c : Thread nD τ)) (Ix := Unit) (Name := ℕ) (U := UU) (Lvl := ℕ)
    (q := fullShare) Finset.univ (rowsSet M c π) fs (M.view.junk (Val := Elt F))
    (fun k _ k' _ h => rowsSet_disjoint M c π hπ k k' h)).trans ?_
  rw [rowsSet_cover M hM c π hπ]
  iintro ⟨%g, %hg, H⟩
  iexists g
  isplitr
  · ipureintro; exact fun k => hg k (Finset.mem_univ k)
  · iexact H

end Rows

/-! ## The result array -/

/-- The row block of the device `k` places before `c`. -/
def ringO (c : Dev nD) (k : Fin 32) : Fin 32 := ⟨(c.val + 32 - k.val) % 32, Nat.mod_lt _ (by decide)⟩

theorem ringO_val (c : Dev nD) (k : Fin 32) : (ringO c k).val = (c.val + 32 - k.val) % 32 := rfl

theorem ringO_injective (c : Dev nD) : Function.Injective (ringO c) := by
  intro k k' h
  have h1 := congrArg Fin.val h
  simp only [ringO_val] at h1
  apply Fin.ext; have hc : c.val < 32 := c.isLt; have := k.isLt; have := k'.isLt; omega

theorem off4_inb (c : Dev nD) (k : ℕ) (hk : 1 ≤ k ∧ k ≤ 31) :
    ∀ a, (k0_off4 c (BitVec.ofNat 32 k)) a + S16x256.size a ≤ S512x256.size a := by
  have := k0_off4_inb c ⟨k - 1, by omega⟩
  have e : 1 + (k - 1) = k := by omega
  simpa only [e] using this

/-- The rows the first output copy writes, as the program spells the copy's destination; -/
abbrev dstO0 (c : Dev nD) : Memref sig .tc .hbm S16x256 .f32 :=
  oR.slice (Rect.unit (s := S512x256) (k0_off3 c) S16x256.size (k0_off3_inb c)) (fun _ => rfl)

/-- the rows the output copy at offset `k` writes. -/
abbrev dstO (c : Dev nD) (k : ℕ) (hk : 1 ≤ k ∧ k ≤ 31) : Memref sig .tc .hbm S16x256 .f32 :=
  oR.slice (Rect.unit (s := S512x256) (k0_off4 c (BitVec.ofNat 32 k)) S16x256.size (off4_inb c k hk)) (fun _ => rfl)

/-- The first row of the block written at offset `1 + r`, as the program computes it from the device's number, and
    the column offset: checked case by case over the thirty-two devices and thirty-one offsets. -/
theorem off4_closed : ∀ d0 : Dev nD, ∀ r : Fin 31,
    k0_off4 d0 (BitVec.ofNat 32 (1 + r.val)) 0 = 16 * ((d0.val + 32 - (1 + r.val)) % 32)
      ∧ k0_off4 d0 (BitVec.ofNat 32 (1 + r.val)) 1 = 0 := by decide +kernel

theorem off4_eq (c : Dev nD) (k : ℕ) (hk : 1 ≤ k ∧ k ≤ 31) :
    k0_off4 c (BitVec.ofNat 32 k) = ![16 * ((c.val + 32 - k) % 32), 0] := by
  have h := off4_closed c ⟨k - 1, by omega⟩
  have e : 1 + (k - 1) = k := by omega
  simp only [e] at h
  funext a
  fin_cases a
  · exact h.1
  · exact h.2

/-- At offset 0 the block is the one the first output copy writes; -/
theorem dst0_set (c : Dev nD) (h0 : 0 < 32) : rowsSet oR c (ringO c) ⟨0, h0⟩ = (dstO0 c).view.set := by
  have hc : (c.val + 32 - 0) % 32 = c.val := by have : c.val < 32 := c.isLt; omega
  refine (sliceSet_unit_congr oR ?_ _ _).symm
  rw [k0_off3_eq c]
  show (![16 * c.val, 0] : Fin 2 → Nat) = ![16 * ((c.val + 32 - 0) % 32), 0]
  rw [hc]

/-- at offset `k = 1 … 31` the one the output copy at that offset writes. -/
theorem dst_set (c : Dev nD) (k : ℕ) (hk : 1 ≤ k ∧ k ≤ 31) (hlt : k < 32) :
    rowsSet oR c (ringO c) ⟨k, hlt⟩ = (dstO c k hk).view.set :=
  (sliceSet_unit_congr oR (off4_eq c k hk) _ _).symm

theorem dst0_pt (c : Dev nD) (g : Buf (Elt F) (oR.view.loc (c : Thread nD τ))) (h0 : 0 < 32) :
    (oR.view.loc (c : Thread nD τ) ↦[rowsSet oR c (ringO c) ⟨0, h0⟩]{fullShare} g : sProp 𝕄) = ((dstO0 c).view.loc (c : Thread nD τ) ↦[(dstO0 c).view.set]{fullShare} g : sProp 𝕄) := by
  rw [dst0_set c h0]

theorem dst_pt (c : Dev nD) (g : Buf (Elt F) (oR.view.loc (c : Thread nD τ))) (k : ℕ) (hk : 1 ≤ k ∧ k ≤ 31) (hlt : k < 32) :
    (oR.view.loc (c : Thread nD τ) ↦[rowsSet oR c (ringO c) ⟨k, hlt⟩]{fullShare} g : sProp 𝕄)
      = ((dstO c k hk).view.loc (c : Thread nD τ) ↦[(dstO c k hk).view.set]{fullShare} g : sProp 𝕄) := by
  rw [dst_set c k hk hlt]

/-- The blocks written out, block `k` at contents `fs k`: the first output copy's rows, then offsets 1 … 31. -/
theorem out_chain_eq (c : Dev nD) (fs : Fin 32 → Buf (Elt F) (oR.view.loc (c : Thread nD τ))) :
    bigSepL offs32 (fun k : Fin 32 => (oR.view.loc (c : Thread nD τ) ↦[rowsSet oR c (ringO c) k]{fullShare} fs k : sProp 𝕄))
      = iprop(((dstO0 c).view.loc (c : Thread nD τ) ↦[(dstO0 c).view.set]{fullShare} fs ⟨0, ho_0⟩ : sProp 𝕄)
        ∗ ((dstO c 1 hk_1).view.loc (c : Thread nD τ) ↦[(dstO c 1 hk_1).view.set]{fullShare} fs ⟨1, ho_1⟩ : sProp 𝕄)
        ∗ ((dstO c 2 hk_2).view.loc (c : Thread nD τ) ↦[(dstO c 2 hk_2).view.set]{fullShare} fs ⟨2, ho_2⟩ : sProp 𝕄)
        ∗ ((dstO c 3 hk_3).view.loc (c : Thread nD τ) ↦[(dstO c 3 hk_3).view.set]{fullShare} fs ⟨3, ho_3⟩ : sProp 𝕄)
        ∗ ((dstO c 4 hk_4).view.loc (c : Thread nD τ) ↦[(dstO c 4 hk_4).view.set]{fullShare} fs ⟨4, ho_4⟩ : sProp 𝕄)
        ∗ ((dstO c 5 hk_5).view.loc (c : Thread nD τ) ↦[(dstO c 5 hk_5).view.set]{fullShare} fs ⟨5, ho_5⟩ : sProp 𝕄)
        ∗ ((dstO c 6 hk_6).view.loc (c : Thread nD τ) ↦[(dstO c 6 hk_6).view.set]{fullShare} fs ⟨6, ho_6⟩ : sProp 𝕄)
        ∗ ((dstO c 7 hk_7).view.loc (c : Thread nD τ) ↦[(dstO c 7 hk_7).view.set]{fullShare} fs ⟨7, ho_7⟩ : sProp 𝕄)
        ∗ ((dstO c 8 hk_8).view.loc (c : Thread nD τ) ↦[(dstO c 8 hk_8).view.set]{fullShare} fs ⟨8, ho_8⟩ : sProp 𝕄)
        ∗ ((dstO c 9 hk_9).view.loc (c : Thread nD τ) ↦[(dstO c 9 hk_9).view.set]{fullShare} fs ⟨9, ho_9⟩ : sProp 𝕄)
        ∗ ((dstO c 10 hk_10).view.loc (c : Thread nD τ) ↦[(dstO c 10 hk_10).view.set]{fullShare} fs ⟨10, ho_10⟩ : sProp 𝕄)
        ∗ ((dstO c 11 hk_11).view.loc (c : Thread nD τ) ↦[(dstO c 11 hk_11).view.set]{fullShare} fs ⟨11, ho_11⟩ : sProp 𝕄)
        ∗ ((dstO c 12 hk_12).view.loc (c : Thread nD τ) ↦[(dstO c 12 hk_12).view.set]{fullShare} fs ⟨12, ho_12⟩ : sProp 𝕄)
        ∗ ((dstO c 13 hk_13).view.loc (c : Thread nD τ) ↦[(dstO c 13 hk_13).view.set]{fullShare} fs ⟨13, ho_13⟩ : sProp 𝕄)
        ∗ ((dstO c 14 hk_14).view.loc (c : Thread nD τ) ↦[(dstO c 14 hk_14).view.set]{fullShare} fs ⟨14, ho_14⟩ : sProp 𝕄)
        ∗ ((dstO c 15 hk_15).view.loc (c : Thread nD τ) ↦[(dstO c 15 hk_15).view.set]{fullShare} fs ⟨15, ho_15⟩ : sProp 𝕄)
        ∗ ((dstO c 16 hk_16).view.loc (c : Thread nD τ) ↦[(dstO c 16 hk_16).view.set]{fullShare} fs ⟨16, ho_16⟩ : sProp 𝕄)
        ∗ ((dstO c 17 hk_17).view.loc (c : Thread nD τ) ↦[(dstO c 17 hk_17).view.set]{fullShare} fs ⟨17, ho_17⟩ : sProp 𝕄)
        ∗ ((dstO c 18 hk_18).view.loc (c : Thread nD τ) ↦[(dstO c 18 hk_18).view.set]{fullShare} fs ⟨18, ho_18⟩ : sProp 𝕄)
        ∗ ((dstO c 19 hk_19).view.loc (c : Thread nD τ) ↦[(dstO c 19 hk_19).view.set]{fullShare} fs ⟨19, ho_19⟩ : sProp 𝕄)
        ∗ ((dstO c 20 hk_20).view.loc (c : Thread nD τ) ↦[(dstO c 20 hk_20).view.set]{fullShare} fs ⟨20, ho_20⟩ : sProp 𝕄)
        ∗ ((dstO c 21 hk_21).view.loc (c : Thread nD τ) ↦[(dstO c 21 hk_21).view.set]{fullShare} fs ⟨21, ho_21⟩ : sProp 𝕄)
        ∗ ((dstO c 22 hk_22).view.loc (c : Thread nD τ) ↦[(dstO c 22 hk_22).view.set]{fullShare} fs ⟨22, ho_22⟩ : sProp 𝕄)
        ∗ ((dstO c 23 hk_23).view.loc (c : Thread nD τ) ↦[(dstO c 23 hk_23).view.set]{fullShare} fs ⟨23, ho_23⟩ : sProp 𝕄)
        ∗ ((dstO c 24 hk_24).view.loc (c : Thread nD τ) ↦[(dstO c 24 hk_24).view.set]{fullShare} fs ⟨24, ho_24⟩ : sProp 𝕄)
        ∗ ((dstO c 25 hk_25).view.loc (c : Thread nD τ) ↦[(dstO c 25 hk_25).view.set]{fullShare} fs ⟨25, ho_25⟩ : sProp 𝕄)
        ∗ ((dstO c 26 hk_26).view.loc (c : Thread nD τ) ↦[(dstO c 26 hk_26).view.set]{fullShare} fs ⟨26, ho_26⟩ : sProp 𝕄)
        ∗ ((dstO c 27 hk_27).view.loc (c : Thread nD τ) ↦[(dstO c 27 hk_27).view.set]{fullShare} fs ⟨27, ho_27⟩ : sProp 𝕄)
        ∗ ((dstO c 28 hk_28).view.loc (c : Thread nD τ) ↦[(dstO c 28 hk_28).view.set]{fullShare} fs ⟨28, ho_28⟩ : sProp 𝕄)
        ∗ ((dstO c 29 hk_29).view.loc (c : Thread nD τ) ↦[(dstO c 29 hk_29).view.set]{fullShare} fs ⟨29, ho_29⟩ : sProp 𝕄)
        ∗ ((dstO c 30 hk_30).view.loc (c : Thread nD τ) ↦[(dstO c 30 hk_30).view.set]{fullShare} fs ⟨30, ho_30⟩ : sProp 𝕄)
        ∗ ((dstO c 31 hk_31).view.loc (c : Thread nD τ) ↦[(dstO c 31 hk_31).view.set]{fullShare} fs ⟨31, ho_31⟩ : sProp 𝕄)) :=
  sep_congr (dst0_pt c (fs ⟨0, ho_0⟩) ho_0) (sep_congr (dst_pt c (fs ⟨1, ho_1⟩) 1 hk_1 ho_1) (sep_congr (dst_pt c (fs ⟨2, ho_2⟩) 2 hk_2 ho_2) (sep_congr (dst_pt c (fs ⟨3, ho_3⟩) 3 hk_3 ho_3) (sep_congr (dst_pt c (fs ⟨4, ho_4⟩) 4 hk_4 ho_4) (sep_congr (dst_pt c (fs ⟨5, ho_5⟩) 5 hk_5 ho_5) (sep_congr (dst_pt c (fs ⟨6, ho_6⟩) 6 hk_6 ho_6) (sep_congr (dst_pt c (fs ⟨7, ho_7⟩) 7 hk_7 ho_7) (sep_congr (dst_pt c (fs ⟨8, ho_8⟩) 8 hk_8 ho_8) (sep_congr (dst_pt c (fs ⟨9, ho_9⟩) 9 hk_9 ho_9) (sep_congr (dst_pt c (fs ⟨10, ho_10⟩) 10 hk_10 ho_10) (sep_congr (dst_pt c (fs ⟨11, ho_11⟩) 11 hk_11 ho_11) (sep_congr (dst_pt c (fs ⟨12, ho_12⟩) 12 hk_12 ho_12) (sep_congr (dst_pt c (fs ⟨13, ho_13⟩) 13 hk_13 ho_13) (sep_congr (dst_pt c (fs ⟨14, ho_14⟩) 14 hk_14 ho_14) (sep_congr (dst_pt c (fs ⟨15, ho_15⟩) 15 hk_15 ho_15) (sep_congr (dst_pt c (fs ⟨16, ho_16⟩) 16 hk_16 ho_16) (sep_congr (dst_pt c (fs ⟨17, ho_17⟩) 17 hk_17 ho_17) (sep_congr (dst_pt c (fs ⟨18, ho_18⟩) 18 hk_18 ho_18) (sep_congr (dst_pt c (fs ⟨19, ho_19⟩) 19 hk_19 ho_19) (sep_congr (dst_pt c (fs ⟨20, ho_20⟩) 20 hk_20 ho_20) (sep_congr (dst_pt c (fs ⟨21, ho_21⟩) 21 hk_21 ho_21) (sep_congr (dst_pt c (fs ⟨22, ho_22⟩) 22 hk_22 ho_22) (sep_congr (dst_pt c (fs ⟨23, ho_23⟩) 23 hk_23 ho_23) (sep_congr (dst_pt c (fs ⟨24, ho_24⟩) 24 hk_24 ho_24) (sep_congr (dst_pt c (fs ⟨25, ho_25⟩) 25 hk_25 ho_25) (sep_congr (dst_pt c (fs ⟨26, ho_26⟩) 26 hk_26 ho_26) (sep_congr (dst_pt c (fs ⟨27, ho_27⟩) 27 hk_27 ho_27) (sep_congr (dst_pt c (fs ⟨28, ho_28⟩) 28 hk_28 ho_28) (sep_congr (dst_pt c (fs ⟨29, ho_29⟩) 29 hk_29 ho_29) (sep_congr (dst_pt c (fs ⟨30, ho_30⟩) 30 hk_30 ho_30) (dst_pt c (fs ⟨31, ho_31⟩) 31 hk_31 ho_31)))))))))))))))))))))))))))))))

/-- The result array held whole at `f` is the first output copy's rows and those of the copies at offsets 1 … 31, all at `f`. -/
theorem out_split (c : Dev nD) (f : Buf (Elt F) (oR.view.loc (c : Thread nD τ))) :
    (oR.view.loc (c : Thread nD τ) ↦{fullShare} f : sProp 𝕄)
      ⊢ iprop(((dstO0 c).view.loc (c : Thread nD τ) ↦[(dstO0 c).view.set]{fullShare} f : sProp 𝕄)
        ∗ ((dstO c 1 hk_1).view.loc (c : Thread nD τ) ↦[(dstO c 1 hk_1).view.set]{fullShare} f : sProp 𝕄)
        ∗ ((dstO c 2 hk_2).view.loc (c : Thread nD τ) ↦[(dstO c 2 hk_2).view.set]{fullShare} f : sProp 𝕄)
        ∗ ((dstO c 3 hk_3).view.loc (c : Thread nD τ) ↦[(dstO c 3 hk_3).view.set]{fullShare} f : sProp 𝕄)
        ∗ ((dstO c 4 hk_4).view.loc (c : Thread nD τ) ↦[(dstO c 4 hk_4).view.set]{fullShare} f : sProp 𝕄)
        ∗ ((dstO c 5 hk_5).view.loc (c : Thread nD τ) ↦[(dstO c 5 hk_5).view.set]{fullShare} f : sProp 𝕄)
        ∗ ((dstO c 6 hk_6).view.loc (c : Thread nD τ) ↦[(dstO c 6 hk_6).view.set]{fullShare} f : sProp 𝕄)
        ∗ ((dstO c 7 hk_7).view.loc (c : Thread nD τ) ↦[(dstO c 7 hk_7).view.set]{fullShare} f : sProp 𝕄)
        ∗ ((dstO c 8 hk_8).view.loc (c : Thread nD τ) ↦[(dstO c 8 hk_8).view.set]{fullShare} f : sProp 𝕄)
        ∗ ((dstO c 9 hk_9).view.loc (c : Thread nD τ) ↦[(dstO c 9 hk_9).view.set]{fullShare} f : sProp 𝕄)
        ∗ ((dstO c 10 hk_10).view.loc (c : Thread nD τ) ↦[(dstO c 10 hk_10).view.set]{fullShare} f : sProp 𝕄)
        ∗ ((dstO c 11 hk_11).view.loc (c : Thread nD τ) ↦[(dstO c 11 hk_11).view.set]{fullShare} f : sProp 𝕄)
        ∗ ((dstO c 12 hk_12).view.loc (c : Thread nD τ) ↦[(dstO c 12 hk_12).view.set]{fullShare} f : sProp 𝕄)
        ∗ ((dstO c 13 hk_13).view.loc (c : Thread nD τ) ↦[(dstO c 13 hk_13).view.set]{fullShare} f : sProp 𝕄)
        ∗ ((dstO c 14 hk_14).view.loc (c : Thread nD τ) ↦[(dstO c 14 hk_14).view.set]{fullShare} f : sProp 𝕄)
        ∗ ((dstO c 15 hk_15).view.loc (c : Thread nD τ) ↦[(dstO c 15 hk_15).view.set]{fullShare} f : sProp 𝕄)
        ∗ ((dstO c 16 hk_16).view.loc (c : Thread nD τ) ↦[(dstO c 16 hk_16).view.set]{fullShare} f : sProp 𝕄)
        ∗ ((dstO c 17 hk_17).view.loc (c : Thread nD τ) ↦[(dstO c 17 hk_17).view.set]{fullShare} f : sProp 𝕄)
        ∗ ((dstO c 18 hk_18).view.loc (c : Thread nD τ) ↦[(dstO c 18 hk_18).view.set]{fullShare} f : sProp 𝕄)
        ∗ ((dstO c 19 hk_19).view.loc (c : Thread nD τ) ↦[(dstO c 19 hk_19).view.set]{fullShare} f : sProp 𝕄)
        ∗ ((dstO c 20 hk_20).view.loc (c : Thread nD τ) ↦[(dstO c 20 hk_20).view.set]{fullShare} f : sProp 𝕄)
        ∗ ((dstO c 21 hk_21).view.loc (c : Thread nD τ) ↦[(dstO c 21 hk_21).view.set]{fullShare} f : sProp 𝕄)
        ∗ ((dstO c 22 hk_22).view.loc (c : Thread nD τ) ↦[(dstO c 22 hk_22).view.set]{fullShare} f : sProp 𝕄)
        ∗ ((dstO c 23 hk_23).view.loc (c : Thread nD τ) ↦[(dstO c 23 hk_23).view.set]{fullShare} f : sProp 𝕄)
        ∗ ((dstO c 24 hk_24).view.loc (c : Thread nD τ) ↦[(dstO c 24 hk_24).view.set]{fullShare} f : sProp 𝕄)
        ∗ ((dstO c 25 hk_25).view.loc (c : Thread nD τ) ↦[(dstO c 25 hk_25).view.set]{fullShare} f : sProp 𝕄)
        ∗ ((dstO c 26 hk_26).view.loc (c : Thread nD τ) ↦[(dstO c 26 hk_26).view.set]{fullShare} f : sProp 𝕄)
        ∗ ((dstO c 27 hk_27).view.loc (c : Thread nD τ) ↦[(dstO c 27 hk_27).view.set]{fullShare} f : sProp 𝕄)
        ∗ ((dstO c 28 hk_28).view.loc (c : Thread nD τ) ↦[(dstO c 28 hk_28).view.set]{fullShare} f : sProp 𝕄)
        ∗ ((dstO c 29 hk_29).view.loc (c : Thread nD τ) ↦[(dstO c 29 hk_29).view.set]{fullShare} f : sProp 𝕄)
        ∗ ((dstO c 30 hk_30).view.loc (c : Thread nD τ) ↦[(dstO c 30 hk_30).view.set]{fullShare} f : sProp 𝕄)
        ∗ ((dstO c 31 hk_31).view.loc (c : Thread nD τ) ↦[(dstO c 31 hk_31).view.set]{fullShare} f : sProp 𝕄)) :=
  Entails.of_eq ((rows_split_eq oR (Memref.isWhole_whole _) c (ringO c) (ringO_injective c) f).trans
    ((bigSep_univ_eq_bigSepL offs32 offs32_univ offs32_nodup _).trans (out_chain_eq c (fun _ => f))))

/-- The thirty-two blocks of the result array, block `k` at contents `fs ⟨k, _⟩`, are the whole array at contents that
    agree with `fs k` on block `k`, for every `k`. -/
theorem out_join (c : Dev nD) (fs : Fin 32 → Buf (Elt F) (oR.view.loc (c : Thread nD τ))) :
    iprop(((dstO0 c).view.loc (c : Thread nD τ) ↦[(dstO0 c).view.set]{fullShare} fs ⟨0, ho_0⟩ : sProp 𝕄)
        ∗ ((dstO c 1 hk_1).view.loc (c : Thread nD τ) ↦[(dstO c 1 hk_1).view.set]{fullShare} fs ⟨1, ho_1⟩ : sProp 𝕄)
        ∗ ((dstO c 2 hk_2).view.loc (c : Thread nD τ) ↦[(dstO c 2 hk_2).view.set]{fullShare} fs ⟨2, ho_2⟩ : sProp 𝕄)
        ∗ ((dstO c 3 hk_3).view.loc (c : Thread nD τ) ↦[(dstO c 3 hk_3).view.set]{fullShare} fs ⟨3, ho_3⟩ : sProp 𝕄)
        ∗ ((dstO c 4 hk_4).view.loc (c : Thread nD τ) ↦[(dstO c 4 hk_4).view.set]{fullShare} fs ⟨4, ho_4⟩ : sProp 𝕄)
        ∗ ((dstO c 5 hk_5).view.loc (c : Thread nD τ) ↦[(dstO c 5 hk_5).view.set]{fullShare} fs ⟨5, ho_5⟩ : sProp 𝕄)
        ∗ ((dstO c 6 hk_6).view.loc (c : Thread nD τ) ↦[(dstO c 6 hk_6).view.set]{fullShare} fs ⟨6, ho_6⟩ : sProp 𝕄)
        ∗ ((dstO c 7 hk_7).view.loc (c : Thread nD τ) ↦[(dstO c 7 hk_7).view.set]{fullShare} fs ⟨7, ho_7⟩ : sProp 𝕄)
        ∗ ((dstO c 8 hk_8).view.loc (c : Thread nD τ) ↦[(dstO c 8 hk_8).view.set]{fullShare} fs ⟨8, ho_8⟩ : sProp 𝕄)
        ∗ ((dstO c 9 hk_9).view.loc (c : Thread nD τ) ↦[(dstO c 9 hk_9).view.set]{fullShare} fs ⟨9, ho_9⟩ : sProp 𝕄)
        ∗ ((dstO c 10 hk_10).view.loc (c : Thread nD τ) ↦[(dstO c 10 hk_10).view.set]{fullShare} fs ⟨10, ho_10⟩ : sProp 𝕄)
        ∗ ((dstO c 11 hk_11).view.loc (c : Thread nD τ) ↦[(dstO c 11 hk_11).view.set]{fullShare} fs ⟨11, ho_11⟩ : sProp 𝕄)
        ∗ ((dstO c 12 hk_12).view.loc (c : Thread nD τ) ↦[(dstO c 12 hk_12).view.set]{fullShare} fs ⟨12, ho_12⟩ : sProp 𝕄)
        ∗ ((dstO c 13 hk_13).view.loc (c : Thread nD τ) ↦[(dstO c 13 hk_13).view.set]{fullShare} fs ⟨13, ho_13⟩ : sProp 𝕄)
        ∗ ((dstO c 14 hk_14).view.loc (c : Thread nD τ) ↦[(dstO c 14 hk_14).view.set]{fullShare} fs ⟨14, ho_14⟩ : sProp 𝕄)
        ∗ ((dstO c 15 hk_15).view.loc (c : Thread nD τ) ↦[(dstO c 15 hk_15).view.set]{fullShare} fs ⟨15, ho_15⟩ : sProp 𝕄)
        ∗ ((dstO c 16 hk_16).view.loc (c : Thread nD τ) ↦[(dstO c 16 hk_16).view.set]{fullShare} fs ⟨16, ho_16⟩ : sProp 𝕄)
        ∗ ((dstO c 17 hk_17).view.loc (c : Thread nD τ) ↦[(dstO c 17 hk_17).view.set]{fullShare} fs ⟨17, ho_17⟩ : sProp 𝕄)
        ∗ ((dstO c 18 hk_18).view.loc (c : Thread nD τ) ↦[(dstO c 18 hk_18).view.set]{fullShare} fs ⟨18, ho_18⟩ : sProp 𝕄)
        ∗ ((dstO c 19 hk_19).view.loc (c : Thread nD τ) ↦[(dstO c 19 hk_19).view.set]{fullShare} fs ⟨19, ho_19⟩ : sProp 𝕄)
        ∗ ((dstO c 20 hk_20).view.loc (c : Thread nD τ) ↦[(dstO c 20 hk_20).view.set]{fullShare} fs ⟨20, ho_20⟩ : sProp 𝕄)
        ∗ ((dstO c 21 hk_21).view.loc (c : Thread nD τ) ↦[(dstO c 21 hk_21).view.set]{fullShare} fs ⟨21, ho_21⟩ : sProp 𝕄)
        ∗ ((dstO c 22 hk_22).view.loc (c : Thread nD τ) ↦[(dstO c 22 hk_22).view.set]{fullShare} fs ⟨22, ho_22⟩ : sProp 𝕄)
        ∗ ((dstO c 23 hk_23).view.loc (c : Thread nD τ) ↦[(dstO c 23 hk_23).view.set]{fullShare} fs ⟨23, ho_23⟩ : sProp 𝕄)
        ∗ ((dstO c 24 hk_24).view.loc (c : Thread nD τ) ↦[(dstO c 24 hk_24).view.set]{fullShare} fs ⟨24, ho_24⟩ : sProp 𝕄)
        ∗ ((dstO c 25 hk_25).view.loc (c : Thread nD τ) ↦[(dstO c 25 hk_25).view.set]{fullShare} fs ⟨25, ho_25⟩ : sProp 𝕄)
        ∗ ((dstO c 26 hk_26).view.loc (c : Thread nD τ) ↦[(dstO c 26 hk_26).view.set]{fullShare} fs ⟨26, ho_26⟩ : sProp 𝕄)
        ∗ ((dstO c 27 hk_27).view.loc (c : Thread nD τ) ↦[(dstO c 27 hk_27).view.set]{fullShare} fs ⟨27, ho_27⟩ : sProp 𝕄)
        ∗ ((dstO c 28 hk_28).view.loc (c : Thread nD τ) ↦[(dstO c 28 hk_28).view.set]{fullShare} fs ⟨28, ho_28⟩ : sProp 𝕄)
        ∗ ((dstO c 29 hk_29).view.loc (c : Thread nD τ) ↦[(dstO c 29 hk_29).view.set]{fullShare} fs ⟨29, ho_29⟩ : sProp 𝕄)
        ∗ ((dstO c 30 hk_30).view.loc (c : Thread nD τ) ↦[(dstO c 30 hk_30).view.set]{fullShare} fs ⟨30, ho_30⟩ : sProp 𝕄)
        ∗ ((dstO c 31 hk_31).view.loc (c : Thread nD τ) ↦[(dstO c 31 hk_31).view.set]{fullShare} fs ⟨31, ho_31⟩ : sProp 𝕄))
      ⊢ iprop(∃ g, ⌜∀ k : Fin 32, ∀ i ∈ rowsSet oR c (ringO c) k, g i = fs k i⌝
          ∗ (oR.view.loc (c : Thread nD τ) ↦{fullShare} g : sProp 𝕄)) :=
  (Entails.of_eq ((bigSep_univ_eq_bigSepL offs32 offs32_univ offs32_nodup _).trans (out_chain_eq c fs)).symm).trans
    (rows_join_agree oR (Memref.isWhole_whole _) c (ringO c) (ringO_injective c) fs)

/-- info: 'Cert.KernelIdealProto.out_split' depends on axioms: [propext, Classical.choice, Quot.sound] -/
#guard_msgs in #print axioms out_split

/-- info: 'Cert.KernelIdealProto.out_join' depends on axioms: [propext, Classical.choice, Quot.sound] -/
#guard_msgs in #print axioms out_join

end Cert.KernelIdealProto

end
-- ==== Proof.KernelIdealCutsOutFun.lean ====
import proofs.«900784_g7700000000000785_dist_f_of_ar_i_m512_n256_v7x_i32_bf16_1_alg».proof.Proof.KernelIdealCutsOut
import Idealize.ShloMosaic.Lib.ValueIdx

/-!
# The result array's blocks joined to one named contents

The thirty-two row blocks of the result array are pairwise disjoint and cover it, so every element lies in exactly one
block. Contents given block by block, `fs k` on the block at offset `k`, therefore glue to ONE contents of the whole
array: at an element, the value of the `fs k` whose block holds it. The blocks held each at its own `fs k` are the
whole array held at the glued contents. The block at offset `k` is row block `(c - k) mod 32`, and `k ↦ (c - k) mod 32`
undoes itself, so the element in row `16·b + r` is read from `fs ((c - b) mod 32)`.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element of the result array lies in one of the thirty-two row blocks. -/
theorem exists_block (c : Dev nD) (i : Idx (oR.view.loc (c : Thread nD τ))) :
    ∃ k : Fin 32, i ∈ rowsSet oR c (ringO c) k := by
  have hi : i ∈ Finset.univ.biUnion (rowsSet oR c (ringO c)) :=
    (rowsSet_cover oR (Memref.isWhole_whole _) c (ringO c) (ringO_injective c)) ▸ Finset.mem_univ i
  obtain ⟨k, -, hk⟩ := Finset.mem_biUnion.mp hi
  exact ⟨k, hk⟩

/-- The offset whose row block holds the element `i`. -/
def kOfRow (c : Dev nD) (i : Idx (oR.view.loc (c : Thread nD τ))) : Fin 32 := Classical.choose (exists_block c i)

theorem kOfRow_mem (c : Dev nD) (i : Idx (oR.view.loc (c : Thread nD τ))) : i ∈ rowsSet oR c (ringO c) (kOfRow c i) :=
  Classical.choose_spec (exists_block c i)

/-- An element lies in one block only. -/
theorem kOfRow_eq (c : Dev nD) (k : Fin 32) (i : Idx (oR.view.loc (c : Thread nD τ))) (hi : i ∈ rowsSet oR c (ringO c) k) :
    kOfRow c i = k := by
  by_contra h
  exact Finset.disjoint_left.mp (rowsSet_disjoint oR c (ringO c) (ringO_injective c) _ _ h) (kOfRow_mem c i) hi

/-- Contents given block by block, glued: at an element, the contents given for the block that holds it. -/
def glueO (c : Dev nD) (fs : Fin 32 → Buf (Elt F) (oR.view.loc (c : Thread nD τ))) :
    Buf (Elt F) (oR.view.loc (c : Thread nD τ)) :=
  fun i => fs (kOfRow c i) i

theorem glueO_on (c : Dev nD) (fs : Fin 32 → Buf (Elt F) (oR.view.loc (c : Thread nD τ))) (k : Fin 32) :
    ∀ i ∈ rowsSet oR c (ringO c) k, glueO c fs i = fs k i := by
  intro i hi
  show fs (kOfRow c i) i = fs k i
  rw [kOfRow_eq c k i hi]

/-- The thirty-two blocks of the result array, block `k` at contents `fs ⟨k, _⟩`, are the whole array at the glued contents. -/
theorem out_join_glue (c : Dev nD) (fs : Fin 32 → Buf (Elt F) (oR.view.loc (c : Thread nD τ))) :
    iprop(((dstO0 c).view.loc (c : Thread nD τ) ↦[(dstO0 c).view.set]{fullShare} fs ⟨0, ho_0⟩ : sProp 𝕄)
        ∗ ((dstO c 1 hk_1).view.loc (c : Thread nD τ) ↦[(dstO c 1 hk_1).view.set]{fullShare} fs ⟨1, ho_1⟩ : sProp 𝕄)
        ∗ ((dstO c 2 hk_2).view.loc (c : Thread nD τ) ↦[(dstO c 2 hk_2).view.set]{fullShare} fs ⟨2, ho_2⟩ : sProp 𝕄)
        ∗ ((dstO c 3 hk_3).view.loc (c : Thread nD τ) ↦[(dstO c 3 hk_3).view.set]{fullShare} fs ⟨3, ho_3⟩ : sProp 𝕄)
        ∗ ((dstO c 4 hk_4).view.loc (c : Thread nD τ) ↦[(dstO c 4 hk_4).view.set]{fullShare} fs ⟨4, ho_4⟩ : sProp 𝕄)
        ∗ ((dstO c 5 hk_5).view.loc (c : Thread nD τ) ↦[(dstO c 5 hk_5).view.set]{fullShare} fs ⟨5, ho_5⟩ : sProp 𝕄)
        ∗ ((dstO c 6 hk_6).view.loc (c : Thread nD τ) ↦[(dstO c 6 hk_6).view.set]{fullShare} fs ⟨6, ho_6⟩ : sProp 𝕄)
        ∗ ((dstO c 7 hk_7).view.loc (c : Thread nD τ) ↦[(dstO c 7 hk_7).view.set]{fullShare} fs ⟨7, ho_7⟩ : sProp 𝕄)
        ∗ ((dstO c 8 hk_8).view.loc (c : Thread nD τ) ↦[(dstO c 8 hk_8).view.set]{fullShare} fs ⟨8, ho_8⟩ : sProp 𝕄)
        ∗ ((dstO c 9 hk_9).view.loc (c : Thread nD τ) ↦[(dstO c 9 hk_9).view.set]{fullShare} fs ⟨9, ho_9⟩ : sProp 𝕄)
        ∗ ((dstO c 10 hk_10).view.loc (c : Thread nD τ) ↦[(dstO c 10 hk_10).view.set]{fullShare} fs ⟨10, ho_10⟩ : sProp 𝕄)
        ∗ ((dstO c 11 hk_11).view.loc (c : Thread nD τ) ↦[(dstO c 11 hk_11).view.set]{fullShare} fs ⟨11, ho_11⟩ : sProp 𝕄)
        ∗ ((dstO c 12 hk_12).view.loc (c : Thread nD τ) ↦[(dstO c 12 hk_12).view.set]{fullShare} fs ⟨12, ho_12⟩ : sProp 𝕄)
        ∗ ((dstO c 13 hk_13).view.loc (c : Thread nD τ) ↦[(dstO c 13 hk_13).view.set]{fullShare} fs ⟨13, ho_13⟩ : sProp 𝕄)
        ∗ ((dstO c 14 hk_14).view.loc (c : Thread nD τ) ↦[(dstO c 14 hk_14).view.set]{fullShare} fs ⟨14, ho_14⟩ : sProp 𝕄)
        ∗ ((dstO c 15 hk_15).view.loc (c : Thread nD τ) ↦[(dstO c 15 hk_15).view.set]{fullShare} fs ⟨15, ho_15⟩ : sProp 𝕄)
        ∗ ((dstO c 16 hk_16).view.loc (c : Thread nD τ) ↦[(dstO c 16 hk_16).view.set]{fullShare} fs ⟨16, ho_16⟩ : sProp 𝕄)
        ∗ ((dstO c 17 hk_17).view.loc (c : Thread nD τ) ↦[(dstO c 17 hk_17).view.set]{fullShare} fs ⟨17, ho_17⟩ : sProp 𝕄)
        ∗ ((dstO c 18 hk_18).view.loc (c : Thread nD τ) ↦[(dstO c 18 hk_18).view.set]{fullShare} fs ⟨18, ho_18⟩ : sProp 𝕄)
        ∗ ((dstO c 19 hk_19).view.loc (c : Thread nD τ) ↦[(dstO c 19 hk_19).view.set]{fullShare} fs ⟨19, ho_19⟩ : sProp 𝕄)
        ∗ ((dstO c 20 hk_20).view.loc (c : Thread nD τ) ↦[(dstO c 20 hk_20).view.set]{fullShare} fs ⟨20, ho_20⟩ : sProp 𝕄)
        ∗ ((dstO c 21 hk_21).view.loc (c : Thread nD τ) ↦[(dstO c 21 hk_21).view.set]{fullShare} fs ⟨21, ho_21⟩ : sProp 𝕄)
        ∗ ((dstO c 22 hk_22).view.loc (c : Thread nD τ) ↦[(dstO c 22 hk_22).view.set]{fullShare} fs ⟨22, ho_22⟩ : sProp 𝕄)
        ∗ ((dstO c 23 hk_23).view.loc (c : Thread nD τ) ↦[(dstO c 23 hk_23).view.set]{fullShare} fs ⟨23, ho_23⟩ : sProp 𝕄)
        ∗ ((dstO c 24 hk_24).view.loc (c : Thread nD τ) ↦[(dstO c 24 hk_24).view.set]{fullShare} fs ⟨24, ho_24⟩ : sProp 𝕄)
        ∗ ((dstO c 25 hk_25).view.loc (c : Thread nD τ) ↦[(dstO c 25 hk_25).view.set]{fullShare} fs ⟨25, ho_25⟩ : sProp 𝕄)
        ∗ ((dstO c 26 hk_26).view.loc (c : Thread nD τ) ↦[(dstO c 26 hk_26).view.set]{fullShare} fs ⟨26, ho_26⟩ : sProp 𝕄)
        ∗ ((dstO c 27 hk_27).view.loc (c : Thread nD τ) ↦[(dstO c 27 hk_27).view.set]{fullShare} fs ⟨27, ho_27⟩ : sProp 𝕄)
        ∗ ((dstO c 28 hk_28).view.loc (c : Thread nD τ) ↦[(dstO c 28 hk_28).view.set]{fullShare} fs ⟨28, ho_28⟩ : sProp 𝕄)
        ∗ ((dstO c 29 hk_29).view.loc (c : Thread nD τ) ↦[(dstO c 29 hk_29).view.set]{fullShare} fs ⟨29, ho_29⟩ : sProp 𝕄)
        ∗ ((dstO c 30 hk_30).view.loc (c : Thread nD τ) ↦[(dstO c 30 hk_30).view.set]{fullShare} fs ⟨30, ho_30⟩ : sProp 𝕄)
        ∗ ((dstO c 31 hk_31).view.loc (c : Thread nD τ) ↦[(dstO c 31 hk_31).view.set]{fullShare} fs ⟨31, ho_31⟩ : sProp 𝕄))
      ⊢ (oR.view.loc (c : Thread nD τ) ↦{fullShare} glueO c fs : sProp 𝕄) := by
  refine (out_join c fs).trans ?_
  iintro ⟨%g, %hg, H⟩
  have e : (oR.view.loc (c : Thread nD τ) ↦{fullShare} g : sProp 𝕄)
      = (oR.view.loc (c : Thread nD τ) ↦{fullShare} glueO c fs : sProp 𝕄) :=
    pointsTo_congr (fun i _ => hg (kOfRow c i) i (kOfRow_mem c i))
  iapply (Entails.of_eq e)
  iexact H

/-! ## The glued contents read at a row and a column -/

/-- Going `k` places back from `c` and then that many places back again returns to the start. -/
theorem ringO_ringO (c : Dev nD) (b : Fin 32) : ringO c (ringO c b) = b := by
  apply Fin.ext
  have hc : c.val < 32 := c.isLt
  have := b.isLt
  simp only [ringO_val]
  omega

/-- The element in row `a`, column `q` of the result array on device `c`. -/
def outIdx (c : Dev nD) (a : Fin 512) (q : Fin 256) : Idx (oR.view.loc (c : Thread nD τ)) := ValueIdx.ix2 a q

/-- Row `16·b + r` lies in row block `b`, the block at offset `(c - b) mod 32`. -/
theorem outIdx_mem (c : Dev nD) (b : Fin 32) (r : Fin 16) (q : Fin 256) :
    outIdx c ⟨16 * b.val + r.val, by have := b.isLt; have := r.isLt; omega⟩ q ∈ rowsSet oR c (ringO c) (ringO c b) := by
  unfold rowsSet
  rw [ringO_ringO]
  show _ ∈ ((View.whole main_v1).slice (rowR b)).set
  rw [View.set_slice_whole]
  refine Rect.mem_set_unit.mpr (fun a => ?_)
  have := r.isLt
  have := q.isLt
  fin_cases a
  · show 16 * b.val ≤ 16 * b.val + r.val ∧ 16 * b.val + r.val < 16 * b.val + 16
    omega
  · show 0 ≤ q.val ∧ q.val < 0 + 256
    omega

/-- The glued contents at row `16·b + r`, column `q`: the contents given for the block at offset `(c - b) mod 32`. -/
theorem glueO_apply (c : Dev nD) (fs : Fin 32 → Buf (Elt F) (oR.view.loc (c : Thread nD τ))) (b : Fin 32) (r : Fin 16) (q : Fin 256) :
    glueO c fs (outIdx c ⟨16 * b.val + r.val, by have := b.isLt; have := r.isLt; omega⟩ q)
      = fs (ringO c b) (outIdx c ⟨16 * b.val + r.val, by have := b.isLt; have := r.isLt; omega⟩ q) :=
  glueO_on c fs (ringO c b) _ (outIdx_mem c b r q)

/-- info: 'Cert.KernelIdealProto.out_join_glue' depends on axioms: [propext, Classical.choice, Quot.sound] -/
#guard_msgs in #print axioms out_join_glue

/-- info: 'Cert.KernelIdealProto.glueO_apply' depends on axioms: [propext, Classical.choice, Quot.sound] -/
#guard_msgs in #print axioms glueO_apply

end Cert.KernelIdealProto

end
-- ==== Proof.KernelIdealOutDef.lean ====
import proofs.«900784_g7700000000000785_dist_f_of_ar_i_m512_n256_v7x_i32_bf16_1_alg».proof.Proof.KernelIdealY2
import proofs.«900784_g7700000000000785_dist_f_of_ar_i_m512_n256_v7x_i32_bf16_1_alg».proof.Proof.KernelIdealCutsOutFun

/-!
# The result array on a device, row block by row block

Row block `c` of device `c`'s result is its own 16 result rows at f32. Row block `(c - k) mod 32`, `k = 1 … 31`, is what
landed in slot `k` of the second landing buffer — the narrowed result rows of the device `k` positions before — widened
again (the generated payloads k0_pay18 … k0_pay51 are that widening, slot by slot), staged in slot `k` of the output
staging buffer and copied to its rows.
-/

noncomputable section

namespace Cert.KernelIdealProto

open Cert.KernelIdeal Cert.KernelIdeal.Gen
open Idealize.ShloMosaic
open Idealize.ShloMosaic.TcCoe
open Idealize.SL Idealize.SL.Sem

variable {F : FTy → Type} [FloatOps F]

variable (m : (ℓ : Loc nD τ sig) → Buf (Elt F) ℓ) (c : Dev nD)

/-- what the load of slot `j` of the second landing buffer reads once the slot's transfer has landed -/
def slot2Rd (j : ℕ) (hj : 1 ≤ j ∧ j ≤ 31) (ho : j < 32) : Vec F S1x16x256 .bf16 :=
  cm2.view.readAt (Elt F) (Rect.unit (s := S32x16x256) ![j, 0, 0] S1x16x256.size (slot_inb j ho)).toLoadRect (land2 (Y2def m) c j hj)

/-- what is stored in slot `k` of the output staging buffer -/
def stoSlot : (k : ℕ) → FVec F S1x16x256 .f32
  | 0 => Y0def m c
  | 1 => k0_pay18 (F := F) (slot2Rd m c 1 hk_1 ho_1)
  | 2 => k0_pay19 (F := F) (slot2Rd m c 2 hk_2 ho_2)
  | 3 => k0_pay20 (F := F) (slot2Rd m c 3 hk_3 ho_3)
  | 4 => k0_pay21 (F := F) (slot2Rd m c 4 hk_4 ho_4)
  | 5 => k0_pay22 (F := F) (slot2Rd m c 5 hk_5 ho_5)
  | 6 => k0_pay24 (F := F) (k0_pay23 (F := F) (slot2Rd m c 6 hk_6 ho_6))
  | 7 => k0_pay26 (F := F) (k0_pay25 (F := F) (slot2Rd m c 7 hk_7 ho_7))
  | 8 => k0_pay28 (F := F) (k0_pay27 (F := F) (slot2Rd m c 8 hk_8 ho_8))
  | 9 => k0_pay29 (F := F) (slot2Rd m c 9 hk_9 ho_9)
  | 10 => k0_pay30 (F := F) (slot2Rd m c 10 hk_10 ho_10)
  | 11 => k0_pay31 (F := F) (slot2Rd m c 11 hk_11 ho_11)
  | 12 => k0_pay32 (F := F) (slot2Rd m c 12 hk_12 ho_12)
  | 13 => k0_pay33 (F := F) (slot2Rd m c 13 hk_13 ho_13)
  | 14 => k0_pay34 (F := F) (slot2Rd m c 14 hk_14 ho_14)
  | 15 => k0_pay35 (F := F) (slot2Rd m c 15 hk_15 ho_15)
  | 16 => k0_pay36 (F := F) (slot2Rd m c 16 hk_16 ho_16)
  | 17 => k0_pay37 (F := F) (slot2Rd m c 17 hk_17 ho_17)
  | 18 => k0_pay38 (F := F) (slot2Rd m c 18 hk_18 ho_18)
  | 19 => k0_pay39 (F := F) (slot2Rd m c 19 hk_19 ho_19)
  | 20 => k0_pay40 (F := F) (slot2Rd m c 20 hk_20 ho_20)
  | 21 => k0_pay41 (F := F) (slot2Rd m c 21 hk_21 ho_21)
  | 22 => k0_pay42 (F := F) (slot2Rd m c 22 hk_22 ho_22)
  | 23 => k0_pay43 (F := F) (slot2Rd m c 23 hk_23 ho_23)
  | 24 => k0_pay44 (F := F) (slot2Rd m c 24 hk_24 ho_24)
  | 25 => k0_pay45 (F := F) (slot2Rd m c 25 hk_25 ho_25)
  | 26 => k0_pay46 (F := F) (slot2Rd m c 26 hk_26 ho_26)
  | 27 => k0_pay47 (F := F) (slot2Rd m c 27 hk_27 ho_27)
  | 28 => k0_pay48 (F := F) (slot2Rd m c 28 hk_28 ho_28)
  | 29 => k0_pay49 (F := F) (slot2Rd m c 29 hk_29 ho_29)
  | 30 => k0_pay50 (F := F) (slot2Rd m c 30 hk_30 ho_30)
  | 31 => k0_pay51 (F := F) (slot2Rd m c 31 hk_31 ho_31)
  | _ + 32 => Y0def m c

/-- the 16 × 256 block the output copy at offset `k` carries: slot `k` of the staging buffer with its unit axis dropped -/
def outVec (k : ℕ) : S16x256.Idx → Elt F .f32 :=
  fun y => stoSlot m c k (Shape.reshapeEquiv squeezes_S1x16x256_S16x256.numel_eq y)

/-- the row block the output copy at offset `k` leaves, as contents of the result array (what is outside the block is not used) -/
def fsOutAt (k : ℕ) (hk : 1 ≤ k ∧ k ≤ 31) : Buf (Elt F) (oR.view.loc (c : Thread nD τ)) :=
  (dstO c k hk).view.write (Elt F) (dstO c k hk).view.junk (outVec m c k) Finset.univ
def fsOut0 : Buf (Elt F) (oR.view.loc (c : Thread nD τ)) :=
  (dstO0 c).view.write (Elt F) (dstO0 c).view.junk (outVec m c 0) Finset.univ
def fsOut (k : Fin 32) : Buf (Elt F) (oR.view.loc (c : Thread nD τ)) :=
  if h : 1 ≤ k.val then fsOutAt m c k.val ⟨h, Nat.lt_succ_iff.mp k.isLt⟩ else fsOut0 m c

/-- the result array of device `c` after the kernel -/
def OUTdef : Buf (Elt F) ((c : Thread nD τ).loc main_v1) := glueO c (fsOut m c)

end Cert.KernelIdealProto
end
-- ==== Proof.KernelIdealOutAgree.lean ====
import proofs.«900784_g7700000000000785_dist_f_of_ar_i_m512_n256_v7x_i32_bf16_1_alg».proof.Proof.KernelIdealOutDef
import proofs.«900784_g7700000000000785_dist_f_of_ar_i_m512_n256_v7x_i32_bf16_1_alg».proof.Proof.KernelIdealSends

/-!
# A copied row block, at the closed form

What an output copy leaves in its row block — a whole write over whatever the result array held — is, on the block's
own elements, the closed form `fsOut` of `KernelIdealOutDef.lean`.
-/

noncomputable section

namespace Cert.KernelIdealProto

open Cert.KernelIdeal Cert.KernelIdeal.Gen
open Idealize.ShloMosaic
open Idealize.ShloMosaic.TcCoe
open Idealize.SL Idealize.SL.Sem

variable {F : FTy → Type} [FloatOps F]

variable (m : (ℓ : Loc nD τ sig) → Buf (Elt F) ℓ) (c : Dev nD)

theorem out_block_agree (k : ℕ) (hk : 1 ≤ k ∧ k ≤ 31) (ho : k < 32) (fO : Buf (Elt F) (oR.view.loc (c : Thread nD τ)))
    (w : S16x256.Idx → Elt F .f32) (hw : w = outVec m c k) :
    ∀ i ∈ (dstO c k hk).view.set, (dstO c k hk).view.writes (Elt F) fO [⟨Rect.whole S16x256, w⟩] i = fsOut m c ⟨k, ho⟩ i := by
  subst hw
  have e : fsOut m c ⟨k, ho⟩ = fsOutAt m c k hk := dif_pos hk.1
  rw [e]; unfold fsOutAt
  intro i hi
  rw [← View.write_univ_eq_writes_whole, View.writes_nil]
  exact write_rebase (F := F) (dstO c k hk).view _ _ _ i hi

theorem out_block0_agree (fO : Buf (Elt F) (oR.view.loc (c : Thread nD τ)))
    (w : S16x256.Idx → Elt F .f32) (hw : w = outVec m c 0) :
    ∀ i ∈ (dstO0 c).view.set, (dstO0 c).view.writes (Elt F) fO [⟨Rect.whole S16x256, w⟩] i = fsOut m c ⟨0, by decide⟩ i := by
  subst hw
  have e : fsOut m c ⟨0, by decide⟩ = fsOut0 m c := dif_neg (by decide)
  rw [e]; unfold fsOut0
  intro i hi
  rw [← View.write_univ_eq_writes_whole, View.writes_nil]
  exact write_rebase (F := F) (dstO0 c).view _ _ _ i hi

end Cert.KernelIdealProto
end
-- ==== Proof.KernelIdealCutsSto.lean ====
import proofs.«900784_g7700000000000785_dist_f_of_ar_i_m512_n256_v7x_i32_bf16_1_alg».proof.Proof.KernelIdealCuts

/-!
# A buffer held as a rest and the pieces carved out of it, joined back

Pairwise disjoint pieces `A₀, A₁, …` carved one after the other out of a set `X` of a buffer's elements leave the rest
`((X \ A₀) \ A₁) \ …`. The rest and the pieces, each held at some contents, are `X` held at some contents: putting
the last piece back gives the rest before it was carved, and so on back to `X`. For the output staging buffer, held at
the end as the rest after its first sixteen slots and those sixteen slots apart, this gives the buffer whole.
-/

noncomputable section

namespace Cert.KernelIdealProto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece put back into the set it was carved out of, each at some contents. -/
theorem join_sdiff {ℓ : Loc nD τ sig} {q : PosShare TreeShare} (X A : Finset (Idx ℓ)) (h : A ⊆ X) :
    iprop((∃ g, (ℓ ↦[X \ A]{q} g : sProp 𝕄)) ∗ (∃ g, (ℓ ↦[A]{q} g : sProp 𝕄))) ⊢ iprop(∃ g, (ℓ ↦[X]{q} g : sProp 𝕄)) := by
  iintro ⟨⟨%f, Hf⟩, ⟨%g, Hg⟩⟩
  iexists (A.piecewise g f)
  iapply (pointsTo_join_subset h)
  isplitl [Hg]
  · iexact Hg
  · iexact Hf

/-- Pairwise disjoint pieces carved one after the other out of `X`, and the rest, each at some contents, are `X` at some
    contents. -/
theorem rejoin_sdiff {ℓ : Loc nD τ sig} {q : PosShare TreeShare} :
    ∀ (l : List (Finset (Idx ℓ))) (X : Finset (Idx ℓ)), (∀ A ∈ l, A ⊆ X) → l.Pairwise Disjoint →
      (iprop((∃ g, (ℓ ↦[l.foldl (· \ ·) X]{q} g : sProp 𝕄)) ∗ bigSepL l (fun A => iprop(∃ g, (ℓ ↦[A]{q} g : sProp 𝕄))))
        ⊢ iprop(∃ g, (ℓ ↦[X]{q} g : sProp 𝕄)))
  | [], X, _, _ => Laws.sep_emp.mp
  | A :: l, X, hX, hd => by
    rw [bigSepL_cons, List.foldl_cons]
    have hA : A ⊆ X := hX A List.mem_cons_self
    have hd' := List.pairwise_cons.mp hd
    have hX' : ∀ B ∈ l, B ⊆ X \ A := fun B hB =>
      Finset.subset_sdiff.mpr ⟨hX B (List.mem_cons_of_mem _ hB), (hd'.1 B hB).symm⟩
    have ih := rejoin_sdiff (q := q) l (X \ A) hX' hd'.2
    refine (show iprop((∃ g, (ℓ ↦[l.foldl (· \ ·) (X \ A)]{q} g : sProp 𝕄)) ∗ (∃ g, (ℓ ↦[A]{q} g : sProp 𝕄))
        ∗ bigSepL l (fun A => iprop(∃ g, (ℓ ↦[A]{q} g : sProp 𝕄)))) ⊢ _ from ?_)
    iintro ⟨HR, HA, HL⟩
    iapply (join_sdiff X A hA)
    isplitl [HR HL]
    · iapply ih
      isplitl [HR]
      · iexact HR
      · iexact HL
    · iexact HA

/-- The first sixteen slots of a landing or staging buffer, listed. -/
abbrev slots16 : List (Fin 32) := [⟨0, ho_0⟩, ⟨1, ho_1⟩, ⟨2, ho_2⟩, ⟨3, ho_3⟩, ⟨4, ho_4⟩, ⟨5, ho_5⟩, ⟨6, ho_6⟩, ⟨7, ho_7⟩, ⟨8, ho_8⟩, ⟨9, ho_9⟩, ⟨10, ho_10⟩, ⟨11, ho_11⟩, ⟨12, ho_12⟩, ⟨13, ho_13⟩, ⟨14, ho_14⟩, ⟨15, ho_15⟩]

theorem slots16_nodup : slots16.Nodup := by decide

/-- The first sixteen slots carved out of a buffer of thirty-two, and the rest, each at some contents, are the buffer
    at some contents. -/
theorem rejoin16 {e : EltTy} (M : Memref sig .tc .vmem S32x16x256 e) (c : Dev nD) :
    iprop((∃ g, (M.view.loc (c : Thread nD τ) ↦[(slots16.map (slotSet M c)).foldl (· \ ·) Finset.univ]{fullShare} g : sProp 𝕄))
        ∗ bigSepL (slots16.map (slotSet M c)) (fun A => iprop(∃ g, (M.view.loc (c : Thread nD τ) ↦[A]{fullShare} g : sProp 𝕄))))
      ⊢ iprop(∃ g, (M.view.loc (c : Thread nD τ) ↦{fullShare} g : sProp 𝕄)) :=
  rejoin_sdiff (slots16.map (slotSet M c)) Finset.univ (fun A _ => Finset.subset_univ A)
    (List.pairwise_map.mpr (slots16_nodup.imp (fun h => slot_disjoint M c _ _ h)))

/-- The output staging buffer, held as the rest after its first sixteen slots and those sixteen slots apart, each at
    some contents, is the buffer whole at some contents. -/
theorem sto_rejoin16 (c : Dev nD) :
    iprop((∃ g, (sto.view.loc (c : Thread nD τ) ↦[((((((((((((((((Finset.univ \ (slotM sto 0 ho_0).view.set) \ (slotM sto 1 ho_1).view.set) \ (slotM sto 2 ho_2).view.set) \ (slotM sto 3 ho_3).view.set) \ (slotM sto 4 ho_4).view.set) \ (slotM sto 5 ho_5).view.set) \ (slotM sto 6 ho_6).view.set) \ (slotM sto 7 ho_7).view.set) \ (slotM sto 8 ho_8).view.set) \ (slotM sto 9 ho_9).view.set) \ (slotM sto 10 ho_10).view.set) \ (slotM sto 11 ho_11).view.set) \ (slotM sto 12 ho_12).view.set) \ (slotM sto 13 ho_13).view.set) \ (slotM sto 14 ho_14).view.set) \ (slotM sto 15 ho_15).view.set)]{fullShare} g : sProp 𝕄))
        ∗ (∃ g, (sto.view.loc (c : Thread nD τ) ↦[(slotM sto 0 ho_0).view.set]{fullShare} g : sProp 𝕄))
        ∗ (∃ g, (sto.view.loc (c : Thread nD τ) ↦[(slotM sto 1 ho_1).view.set]{fullShare} g : sProp 𝕄))
        ∗ (∃ g, (sto.view.loc (c : Thread nD τ) ↦[(slotM sto 2 ho_2).view.set]{fullShare} g : sProp 𝕄))
        ∗ (∃ g, (sto.view.loc (c : Thread nD τ) ↦[(slotM sto 3 ho_3).view.set]{fullShare} g : sProp 𝕄))
        ∗ (∃ g, (sto.view.loc (c : Thread nD τ) ↦[(slotM sto 4 ho_4).view.set]{fullShare} g : sProp 𝕄))
        ∗ (∃ g, (sto.view.loc (c : Thread nD τ) ↦[(slotM sto 5 ho_5).view.set]{fullShare} g : sProp 𝕄))
        ∗ (∃ g, (sto.view.loc (c : Thread nD τ) ↦[(slotM sto 6 ho_6).view.set]{fullShare} g : sProp 𝕄))
        ∗ (∃ g, (sto.view.loc (c : Thread nD τ) ↦[(slotM sto 7 ho_7).view.set]{fullShare} g : sProp 𝕄))
        ∗ (∃ g, (sto.view.loc (c : Thread nD τ) ↦[(slotM sto 8 ho_8).view.set]{fullShare} g : sProp 𝕄))
        ∗ (∃ g, (sto.view.loc (c : Thread nD τ) ↦[(slotM sto 9 ho_9).view.set]{fullShare} g : sProp 𝕄))
        ∗ (∃ g, (sto.view.loc (c : Thread nD τ) ↦[(slotM sto 10 ho_10).view.set]{fullShare} g : sProp 𝕄))
        ∗ (∃ g, (sto.view.loc (c : Thread nD τ) ↦[(slotM sto 11 ho_11).view.set]{fullShare} g : sProp 𝕄))
        ∗ (∃ g, (sto.view.loc (c : Thread nD τ) ↦[(slotM sto 12 ho_12).view.set]{fullShare} g : sProp 𝕄))
        ∗ (∃ g, (sto.view.loc (c : Thread nD τ) ↦[(slotM sto 13 ho_13).view.set]{fullShare} g : sProp 𝕄))
        ∗ (∃ g, (sto.view.loc (c : Thread nD τ) ↦[(slotM sto 14 ho_14).view.set]{fullShare} g : sProp 𝕄))
        ∗ (∃ g, (sto.view.loc (c : Thread nD τ) ↦[(slotM sto 15 ho_15).view.set]{fullShare} g : sProp 𝕄)))
      ⊢ iprop(∃ g, (sto.view.loc (c : Thread nD τ) ↦{fullShare} g : sProp 𝕄)) :=
  rejoin16 (F := F) sto c

/-- info: 'Cert.KernelIdealProto.sto_rejoin16' depends on axioms: [propext, Classical.choice, Quot.sound] -/
#guard_msgs in #print axioms sto_rejoin16

end Cert.KernelIdealProto

end
-- ==== Proof.KernelIdealBody.lean ====
import proofs.«900784_g7700000000000785_dist_f_of_ar_i_m512_n256_v7x_i32_bf16_1_alg».proof.Proof.KernelIdealBodyDefs
import proofs.«900784_g7700000000000785_dist_f_of_ar_i_m512_n256_v7x_i32_bf16_1_alg».proof.Proof.KernelIdealLevels
import proofs.«900784_g7700000000000785_dist_f_of_ar_i_m512_n256_v7x_i32_bf16_1_alg».proof.Proof.KernelIdealSends
import proofs.«900784_g7700000000000785_dist_f_of_ar_i_m512_n256_v7x_i32_bf16_1_alg».proof.Proof.KernelIdealAccess
import proofs.«900784_g7700000000000785_dist_f_of_ar_i_m512_n256_v7x_i32_bf16_1_alg».proof.Proof.KernelIdealOutAgree
import proofs.«900784_g7700000000000785_dist_f_of_ar_i_m512_n256_v7x_i32_bf16_1_alg».proof.Proof.KernelIdealCutsSto

/-!
# The kernel's text, run on one device

From the body's starting state to what it leaves, in the order of the text. The 31 barrier signals, each handing the
signalled device this device's two landing slots for it; the input copy's wait and the narrowing of the block; the wait for
the 31 barrier units, which hands this device its 31 peers' landing slots; the first exchange's 31 transfers, each lending
the 16 rows it sends; its 31 receive waits, what landed being added to the device's own rows; the result rows, kept at f32
for the device's own row block of the result and narrowed for the second exchange; the second exchange's 31 transfers, each
lending one read share of the narrowed rows; its 31 receive waits, each landed block widened, staged and copied to its row
block of the result; the waits of the 32 output copies and of the 62 sends, which bring back what was lent. A resource
not in use at a stage is held aside and opened when its stage begins; each cell is closed as soon as its wait is done, which
returns its semaphore at zero. At the end the pieces are joined into the whole buffers the kernel started from.
-/

noncomputable section

namespace Cert.KernelIdealProto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Setting a resource aside, and taking it back -/

omit [FloatOps F] in
theorem held_push (A B : sProp 𝕄) : iprop(A ∗ Held B) ⊢ Held (iprop(A ∗ B)) :=
  (sep_mono_right (held_elim B)).trans (held_intro _)
omit [FloatOps F] in
theorem held_pop (A B : sProp 𝕄) : Held (iprop(A ∗ B)) ⊢ iprop(A ∗ Held B) :=
  (held_elim _).trans (sep_mono_right (held_intro B))
omit [FloatOps F] in
/-- The 31 barrier duties' payloads, one by one. -/
theorem icc_chain (Φ : ℕ → sProp 𝕄) : bigSep (Finset.Icc 1 31) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [bigSep_eq_bigSepL_of_eq [1, 2, 3, 4, 5, 6, 7, 8, 9, 10, 11, 12, 13, 14, 15, 16, 17, 18, 19, 20, 21, 22, 23, 24, 25, 26, 27, 28, 29, 30, 31] (by decide) (by decide)]; rfl
/-- What the barrier duty `o` of device `c` hands `c`: the two landing slots `32 - o` of the device that paid it. -/
theorem pay_barown (S1c : (c : Dev nD) → Buf (Elt F) (st1.view.loc (c : Thread nD τ))) (Y2c : (c : Dev nD) → Buf (Elt F) (st2.view.loc (c : Thread nD τ)))
    (c : Dev nD) (o : ℕ) (ho : 1 ≤ o ∧ o ≤ 31) (h32 : 32 - o < 32) : (sched (F := F) S1c Y2c).payload (barCell c) 0 o
    = iprop((∃ fa, ((slotM cm1 (32 - o) h32).view.loc (rot c (32 - o) : Thread nD τ) ↦[(slotM cm1 (32 - o) h32).view.set]{fullShare} fa : sProp 𝕄))
      ∗ (∃ fb, ((slotM cm2 (32 - o) h32).view.loc (rot c (32 - o) : Thread nD τ) ↦[(slotM cm2 (32 - o) h32).view.set]{fullShare} fb : sProp 𝕄))
      ∗ reached ER (r1Cell (rot c (32 - o)) (32 - o) h32) 0 ∗ reached ER (r2Cell (rot c (32 - o)) (32 - o) h32) 0) := by
  dsimp only [sched]; rw [dif_pos ⟨rfl, ho⟩]; rfl

/-! ## The run -/

set_option maxHeartbeats 32000000 in
set_option maxRecDepth 65536 in
theorem body_run (K : Dev nD × CK → ℕ) (c : Dev nD) (W : Waits sig Unit) (m : (ℓ : Loc nD τ sig) → Buf (Elt F) ℓ)
    (fO : Buf (Elt F) (oR.view.loc (c : Thread nD τ))) (f0 : Buf (Elt F) (tV.view.loc (c : Thread nD τ)))
    (f1 : Buf (Elt F) (st1.view.loc (c : Thread nD τ))) (f3 : Buf (Elt F) (st2.view.loc (c : Thread nD τ)))
    (f5 : Buf (Elt F) (sto.view.loc (c : Thread nD τ)))
    (g1 : Buf (Elt F) (cm1.view.loc (c : Thread nD τ))) (g2 : Buf (Elt F) (cm2.view.loc (c : Thread nD τ)))
    (Kt : PUnit → sProp 𝕄) :
    iprop(bodyStart (F := F) (S1def m) (Y2def m) c g1 g2 K W fO f0 f1 f3 f5 m ∗ ((∃ W', bodyEnd (F := F) c (OUTdef m) m W') -∗ Kt ⟨⟩))
      ⊢ wp frame (wpE (defs₀ (F := F)) 𝒱₀ (c : Thread nD τ) none) Set.univ
          (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Kt := by
  unfold bodyStart owed93
  iintro ⟨⟨#Hrec, #Hlev, HO, HzIn, HT, HOo, Hs0, Hs1, Hs3, Hs5, HaBar, HcBar, HLoc, HSigAll, HBAll, HCAll, HDAll, HEAll, HFAll⟩, Hk⟩
  -- the 31 barrier signals
  ihave Hx := (held_elim _) $$ HSigAll
  icases Hx with ⟨HSig1, HSig2, HSig3, HSig4, HSig5, HSig6, HSig7, HSig8, HSig9, HSig10, HSig11, HSig12, HSig13, HSig14, HSig15, HSig16, HSig17, HSig18, HSig19, HSig20, HSig21, HSig22, HSig23, HSig24, HSig25, HSig26, HSig27, HSig28, HSig29, HSig30, HSig31⟩
  -- the barrier signal at offset 1: its token and the two landing slots 31 go to the device 1 positions after
  ihave #HIb := (inv_barp_1 (S1def m) (Y2def m) K c) $$ Hrec
  ihave #Hrb := (rch_barp_1 (S1def m) (Y2def m) K c) $$ Hrec
  ihave #Hq1 := (rch_r1_31 (S1def m) (Y2def m) K c) $$ Hrec
  ihave #Hq2 := (rch_r2_31 (S1def m) (Y2def m) K c) $$ Hrec
  ihave Hx := (held_elim _) $$ HSig1
  icases Hx with ⟨Htb, Hc1, Hc2⟩
  sl_exec_parts
  iclear HIb Hrb Hq1 Hq2
  -- the barrier signal at offset 2: its token and the two landing slots 30 go to the device 2 positions after
  ihave #HIb := (inv_barp_2 (S1def m) (Y2def m) K c) $$ Hrec
  ihave #Hrb := (rch_barp_2 (S1def m) (Y2def m) K c) $$ Hrec
  ihave #Hq1 := (rch_r1_30 (S1def m) (Y2def m) K c) $$ Hrec
  ihave #Hq2 := (rch_r2_30 (S1def m) (Y2def m) K c) $$ Hrec
  ihave Hx := (held_elim _) $$ HSig2
  icases Hx with ⟨Htb, Hc1, Hc2⟩
  sl_exec_parts
  iclear HIb Hrb Hq1 Hq2
  -- the barrier signal at offset 3: its token and the two landing slots 29 go to the device 3 positions after
  ihave #HIb := (inv_barp_3 (S1def m) (Y2def m) K c) $$ Hrec
  ihave #Hrb := (rch_barp_3 (S1def m) (Y2def m) K c) $$ Hrec
  ihave #Hq1 := (rch_r1_29 (S1def m) (Y2def m) K c) $$ Hrec
  ihave #Hq2 := (rch_r2_29 (S1def m) (Y2def m) K c) $$ Hrec
  ihave Hx := (held_elim _) $$ HSig3
  icases Hx with ⟨Htb, Hc1, Hc2⟩
  sl_exec_parts
  iclear HIb Hrb Hq1 Hq2
  -- the barrier signal at offset 4: its token and the two landing slots 28 go to the device 4 positions after
  ihave #HIb := (inv_barp_4 (S1def m) (Y2def m) K c) $$ Hrec
  ihave #Hrb := (rch_barp_4 (S1def m) (Y2def m) K c) $$ Hrec
  ihave #Hq1 := (rch_r1_28 (S1def m) (Y2def m) K c) $$ Hrec
  ihave #Hq2 := (rch_r2_28 (S1def m) (Y2def m) K c) $$ Hrec
  ihave Hx := (held_elim _) $$ HSig4
  icases Hx with ⟨Htb, Hc1, Hc2⟩
  sl_exec_parts
  iclear HIb Hrb Hq1 Hq2
  -- the barrier signal at offset 5: its token and the two landing slots 27 go to the device 5 positions after
  ihave #HIb := (inv_barp_5 (S1def m) (Y2def m) K c) $$ Hrec
  ihave #Hrb := (rch_barp_5 (S1def m) (Y2def m) K c) $$ Hrec
  ihave #Hq1 := (rch_r1_27 (S1def m) (Y2def m) K c) $$ Hrec
  ihave #Hq2 := (rch_r2_27 (S1def m) (Y2def m) K c) $$ Hrec
  ihave Hx := (held_elim _) $$ HSig5
  icases Hx with ⟨Htb, Hc1, Hc2⟩
  sl_exec_parts
  iclear HIb Hrb Hq1 Hq2
  -- the barrier signal at offset 6: its token and the two landing slots 26 go to the device 6 positions after
  ihave #HIb := (inv_barp_6 (S1def m) (Y2def m) K c) $$ Hrec
  ihave #Hrb := (rch_barp_6 (S1def m) (Y2def m) K c) $$ Hrec
  ihave #Hq1 := (rch_r1_26 (S1def m) (Y2def m) K c) $$ Hrec
  ihave #Hq2 := (rch_r2_26 (S1def m) (Y2def m) K c) $$ Hrec
  ihave Hx := (held_elim _) $$ HSig6
  icases Hx with ⟨Htb, Hc1, Hc2⟩
  sl_exec_parts
  iclear HIb Hrb Hq1 Hq2
  -- the barrier signal at offset 7: its token and the two landing slots 25 go to the device 7 positions after
  ihave #HIb := (inv_barp_7 (S1def m) (Y2def m) K c) $$ Hrec
  ihave #Hrb := (rch_barp_7 (S1def m) (Y2def m) K c) $$ Hrec
  ihave #Hq1 := (rch_r1_25 (S1def m) (Y2def m) K c) $$ Hrec
  ihave #Hq2 := (rch_r2_25 (S1def m) (Y2def m) K c) $$ Hrec
  ihave Hx := (held_elim _) $$ HSig7
  icases Hx with ⟨Htb, Hc1, Hc2⟩
  sl_exec_parts
  iclear HIb Hrb Hq1 Hq2
  -- the barrier signal at offset 8: its token and the two landing slots 24 go to the device 8 positions after
  ihave #HIb := (inv_barp_8 (S1def m) (Y2def m) K c) $$ Hrec
  ihave #Hrb := (rch_barp_8 (S1def m) (Y2def m) K c) $$ Hrec
  ihave #Hq1 := (rch_r1_24 (S1def m) (Y2def m) K c) $$ Hrec
  ihave #Hq2 := (rch_r2_24 (S1def m) (Y2def m) K c) $$ Hrec
  ihave Hx := (held_elim _) $$ HSig8
  icases Hx with ⟨Htb, Hc1, Hc2⟩
  sl_exec_parts
  iclear HIb Hrb Hq1 Hq2
  -- the barrier signal at offset 9: its token and the two landing slots 23 go to the device 9 positions after
  ihave #HIb := (inv_barp_9 (S1def m) (Y2def m) K c) $$ Hrec
  ihave #Hrb := (rch_barp_9 (S1def m) (Y2def m) K c) $$ Hrec
  ihave #Hq1 := (rch_r1_23 (S1def m) (Y2def m) K c) $$ Hrec
  ihave #Hq2 := (rch_r2_23 (S1def m) (Y2def m) K c) $$ Hrec
  ihave Hx := (held_elim _) $$ HSig9
  icases Hx with ⟨Htb, Hc1, Hc2⟩
  sl_exec_parts
  iclear HIb Hrb Hq1 Hq2
  -- the barrier signal at offset 10: its token and the two landing slots 22 go to the device 10 positions after
  ihave #HIb := (inv_barp_10 (S1def m) (Y2def m) K c) $$ Hrec
  ihave #Hrb := (rch_barp_10 (S1def m) (Y2def m) K c) $$ Hrec
  ihave #Hq1 := (rch_r1_22 (S1def m) (Y2def m) K c) $$ Hrec
  ihave #Hq2 := (rch_r2_22 (S1def m) (Y2def m) K c) $$ Hrec
  ihave Hx := (held_elim _) $$ HSig10
  icases Hx with ⟨Htb, Hc1, Hc2⟩
  sl_exec_parts
  iclear HIb Hrb Hq1 Hq2
  -- the barrier signal at offset 11: its token and the two landing slots 21 go to the device 11 positions after
  ihave #HIb := (inv_barp_11 (S1def m) (Y2def m) K c) $$ Hrec
  ihave #Hrb := (rch_barp_11 (S1def m) (Y2def m) K c) $$ Hrec
  ihave #Hq1 := (rch_r1_21 (S1def m) (Y2def m) K c) $$ Hrec
  ihave #Hq2 := (rch_r2_21 (S1def m) (Y2def m) K c) $$ Hrec
  ihave Hx := (held_elim _) $$ HSig11
  icases Hx with ⟨Htb, Hc1, Hc2⟩
  sl_exec_parts
  iclear HIb Hrb Hq1 Hq2
  -- the barrier signal at offset 12: its token and the two landing slots 20 go to the device 12 positions after
  ihave #HIb := (inv_barp_12 (S1def m) (Y2def m) K c) $$ Hrec
  ihave #Hrb := (rch_barp_12 (S1def m) (Y2def m) K c) $$ Hrec
  ihave #Hq1 := (rch_r1_20 (S1def m) (Y2def m) K c) $$ Hrec
  ihave #Hq2 := (rch_r2_20 (S1def m) (Y2def m) K c) $$ Hrec
  ihave Hx := (held_elim _) $$ HSig12
  icases Hx with ⟨Htb, Hc1, Hc2⟩
  sl_exec_parts
  iclear HIb Hrb Hq1 Hq2
  -- the barrier signal at offset 13: its token and the two landing slots 19 go to the device 13 positions after
  ihave #HIb := (inv_barp_13 (S1def m) (Y2def m) K c) $$ Hrec
  ihave #Hrb := (rch_barp_13 (S1def m) (Y2def m) K c) $$ Hrec
  ihave #Hq1 := (rch_r1_19 (S1def m) (Y2def m) K c) $$ Hrec
  ihave #Hq2 := (rch_r2_19 (S1def m) (Y2def m) K c) $$ Hrec
  ihave Hx := (held_elim _) $$ HSig13
  icases Hx with ⟨Htb, Hc1, Hc2⟩
  sl_exec_parts
  iclear HIb Hrb Hq1 Hq2
  -- the barrier signal at offset 14: its token and the two landing slots 18 go to the device 14 positions after
  ihave #HIb := (inv_barp_14 (S1def m) (Y2def m) K c) $$ Hrec
  ihave #Hrb := (rch_barp_14 (S1def m) (Y2def m) K c) $$ Hrec
  ihave #Hq1 := (rch_r1_18 (S1def m) (Y2def m) K c) $$ Hrec
  ihave #Hq2 := (rch_r2_18 (S1def m) (Y2def m) K c) $$ Hrec
  ihave Hx := (held_elim _) $$ HSig14
  icases Hx with ⟨Htb, Hc1, Hc2⟩
  sl_exec_parts
  iclear HIb Hrb Hq1 Hq2
  -- the barrier signal at offset 15: its token and the two landing slots 17 go to the device 15 positions after
  ihave #HIb := (inv_barp_15 (S1def m) (Y2def m) K c) $$ Hrec
  ihave #Hrb := (rch_barp_15 (S1def m) (Y2def m) K c) $$ Hrec
  ihave #Hq1 := (rch_r1_17 (S1def m) (Y2def m) K c) $$ Hrec
  ihave #Hq2 := (rch_r2_17 (S1def m) (Y2def m) K c) $$ Hrec
  ihave Hx := (held_elim _) $$ HSig15
  icases Hx with ⟨Htb, Hc1, Hc2⟩
  sl_exec_parts
  iclear HIb Hrb Hq1 Hq2
  -- the barrier signal at offset 16: its token and the two landing slots 16 go to the device 16 positions after
  ihave #HIb := (inv_barp_16 (S1def m) (Y2def m) K c) $$ Hrec
  ihave #Hrb := (rch_barp_16 (S1def m) (Y2def m) K c) $$ Hrec
  ihave #Hq1 := (rch_r1_16 (S1def m) (Y2def m) K c) $$ Hrec
  ihave #Hq2 := (rch_r2_16 (S1def m) (Y2def m) K c) $$ Hrec
  ihave Hx := (held_elim _) $$ HSig16
  icases Hx with ⟨Htb, Hc1, Hc2⟩
  sl_exec_parts
  iclear HIb Hrb Hq1 Hq2
  -- the barrier signal at offset 17: its token and the two landing slots 15 go to the device 17 positions after
  ihave #HIb := (inv_barp_17 (S1def m) (Y2def m) K c) $$ Hrec
  ihave #Hrb := (rch_barp_17 (S1def m) (Y2def m) K c) $$ Hrec
  ihave #Hq1 := (rch_r1_15 (S1def m) (Y2def m) K c) $$ Hrec
  ihave #Hq2 := (rch_r2_15 (S1def m) (Y2def m) K c) $$ Hrec
  ihave Hx := (held_elim _) $$ HSig17
  icases Hx with ⟨Htb, Hc1, Hc2⟩
  sl_exec_parts
  iclear HIb Hrb Hq1 Hq2
  -- the barrier signal at offset 18: its token and the two landing slots 14 go to the device 18 positions after
  ihave #HIb := (inv_barp_18 (S1def m) (Y2def m) K c) $$ Hrec
  ihave #Hrb := (rch_barp_18 (S1def m) (Y2def m) K c) $$ Hrec
  ihave #Hq1 := (rch_r1_14 (S1def m) (Y2def m) K c) $$ Hrec
  ihave #Hq2 := (rch_r2_14 (S1def m) (Y2def m) K c) $$ Hrec
  ihave Hx := (held_elim _) $$ HSig18
  icases Hx with ⟨Htb, Hc1, Hc2⟩
  sl_exec_parts
  iclear HIb Hrb Hq1 Hq2
  -- the barrier signal at offset 19: its token and the two landing slots 13 go to the device 19 positions after
  ihave #HIb := (inv_barp_19 (S1def m) (Y2def m) K c) $$ Hrec
  ihave #Hrb := (rch_barp_19 (S1def m) (Y2def m) K c) $$ Hrec
  ihave #Hq1 := (rch_r1_13 (S1def m) (Y2def m) K c) $$ Hrec
  ihave #Hq2 := (rch_r2_13 (S1def m) (Y2def m) K c) $$ Hrec
  ihave Hx := (held_elim _) $$ HSig19
  icases Hx with ⟨Htb, Hc1, Hc2⟩
  sl_exec_parts
  iclear HIb Hrb Hq1 Hq2
  -- the barrier signal at offset 20: its token and the two landing slots 12 go to the device 20 positions after
  ihave #HIb := (inv_barp_20 (S1def m) (Y2def m) K c) $$ Hrec
  ihave #Hrb := (rch_barp_20 (S1def m) (Y2def m) K c) $$ Hrec
  ihave #Hq1 := (rch_r1_12 (S1def m) (Y2def m) K c) $$ Hrec
  ihave #Hq2 := (rch_r2_12 (S1def m) (Y2def m) K c) $$ Hrec
  ihave Hx := (held_elim _) $$ HSig20
  icases Hx with ⟨Htb, Hc1, Hc2⟩
  sl_exec_parts
  iclear HIb Hrb Hq1 Hq2
  -- the barrier signal at offset 21: its token and the two landing slots 11 go to the device 21 positions after
  ihave #HIb := (inv_barp_21 (S1def m) (Y2def m) K c) $$ Hrec
  ihave #Hrb := (rch_barp_21 (S1def m) (Y2def m) K c) $$ Hrec
  ihave #Hq1 := (rch_r1_11 (S1def m) (Y2def m) K c) $$ Hrec
  ihave #Hq2 := (rch_r2_11 (S1def m) (Y2def m) K c) $$ Hrec
  ihave Hx := (held_elim _) $$ HSig21
  icases Hx with ⟨Htb, Hc1, Hc2⟩
  sl_exec_parts
  iclear HIb Hrb Hq1 Hq2
  -- the barrier signal at offset 22: its token and the two landing slots 10 go to the device 22 positions after
  ihave #HIb := (inv_barp_22 (S1def m) (Y2def m) K c) $$ Hrec
  ihave #Hrb := (rch_barp_22 (S1def m) (Y2def m) K c) $$ Hrec
  ihave #Hq1 := (rch_r1_10 (S1def m) (Y2def m) K c) $$ Hrec
  ihave #Hq2 := (rch_r2_10 (S1def m) (Y2def m) K c) $$ Hrec
  ihave Hx := (held_elim _) $$ HSig22
  icases Hx with ⟨Htb, Hc1, Hc2⟩
  sl_exec_parts
  iclear HIb Hrb Hq1 Hq2
  -- the barrier signal at offset 23: its token and the two landing slots 9 go to the device 23 positions after
  ihave #HIb := (inv_barp_23 (S1def m) (Y2def m) K c) $$ Hrec
  ihave #Hrb := (rch_barp_23 (S1def m) (Y2def m) K c) $$ Hrec
  ihave #Hq1 := (rch_r1_9 (S1def m) (Y2def m) K c) $$ Hrec
  ihave #Hq2 := (rch_r2_9 (S1def m) (Y2def m) K c) $$ Hrec
  ihave Hx := (held_elim _) $$ HSig23
  icases Hx with ⟨Htb, Hc1, Hc2⟩
  sl_exec_parts
  iclear HIb Hrb Hq1 Hq2
  -- the barrier signal at offset 24: its token and the two landing slots 8 go to the device 24 positions after
  ihave #HIb := (inv_barp_24 (S1def m) (Y2def m) K c) $$ Hrec
  ihave #Hrb := (rch_barp_24 (S1def m) (Y2def m) K c) $$ Hrec
  ihave #Hq1 := (rch_r1_8 (S1def m) (Y2def m) K c) $$ Hrec
  ihave #Hq2 := (rch_r2_8 (S1def m) (Y2def m) K c) $$ Hrec
  ihave Hx := (held_elim _) $$ HSig24
  icases Hx with ⟨Htb, Hc1, Hc2⟩
  sl_exec_parts
  iclear HIb Hrb Hq1 Hq2
  -- the barrier signal at offset 25: its token and the two landing slots 7 go to the device 25 positions after
  ihave #HIb := (inv_barp_25 (S1def m) (Y2def m) K c) $$ Hrec
  ihave #Hrb := (rch_barp_25 (S1def m) (Y2def m) K c) $$ Hrec
  ihave #Hq1 := (rch_r1_7 (S1def m) (Y2def m) K c) $$ Hrec
  ihave #Hq2 := (rch_r2_7 (S1def m) (Y2def m) K c) $$ Hrec
  ihave Hx := (held_elim _) $$ HSig25
  icases Hx with ⟨Htb, Hc1, Hc2⟩
  sl_exec_parts
  iclear HIb Hrb Hq1 Hq2
  -- the barrier signal at offset 26: its token and the two landing slots 6 go to the device 26 positions after
  ihave #HIb := (inv_barp_26 (S1def m) (Y2def m) K c) $$ Hrec
  ihave #Hrb := (rch_barp_26 (S1def m) (Y2def m) K c) $$ Hrec
  ihave #Hq1 := (rch_r1_6 (S1def m) (Y2def m) K c) $$ Hrec
  ihave #Hq2 := (rch_r2_6 (S1def m) (Y2def m) K c) $$ Hrec
  ihave Hx := (held_elim _) $$ HSig26
  icases Hx with ⟨Htb, Hc1, Hc2⟩
  sl_exec_parts
  iclear HIb Hrb Hq1 Hq2
  -- the barrier signal at offset 27: its token and the two landing slots 5 go to the device 27 positions after
  ihave #HIb := (inv_barp_27 (S1def m) (Y2def m) K c) $$ Hrec
  ihave #Hrb := (rch_barp_27 (S1def m) (Y2def m) K c) $$ Hrec
  ihave #Hq1 := (rch_r1_5 (S1def m) (Y2def m) K c) $$ Hrec
  ihave #Hq2 := (rch_r2_5 (S1def m) (Y2def m) K c) $$ Hrec
  ihave Hx := (held_elim _) $$ HSig27
  icases Hx with ⟨Htb, Hc1, Hc2⟩
  sl_exec_parts
  iclear HIb Hrb Hq1 Hq2
  -- the barrier signal at offset 28: its token and the two landing slots 4 go to the device 28 positions after
  ihave #HIb := (inv_barp_28 (S1def m) (Y2def m) K c) $$ Hrec
  ihave #Hrb := (rch_barp_28 (S1def m) (Y2def m) K c) $$ Hrec
  ihave #Hq1 := (rch_r1_4 (S1def m) (Y2def m) K c) $$ Hrec
  ihave #Hq2 := (rch_r2_4 (S1def m) (Y2def m) K c) $$ Hrec
  ihave Hx := (held_elim _) $$ HSig28
  icases Hx with ⟨Htb, Hc1, Hc2⟩
  sl_exec_parts
  iclear HIb Hrb Hq1 Hq2
  -- the barrier signal at offset 29: its token and the two landing slots 3 go to the device 29 positions after
  ihave #HIb := (inv_barp_29 (S1def m) (Y2def m) K c) $$ Hrec
  ihave #Hrb := (rch_barp_29 (S1def m) (Y2def m) K c) $$ Hrec
  ihave #Hq1 := (rch_r1_3 (S1def m) (Y2def m) K c) $$ Hrec
  ihave #Hq2 := (rch_r2_3 (S1def m) (Y2def m) K c) $$ Hrec
  ihave Hx := (held_elim _) $$ HSig29
  icases Hx with ⟨Htb, Hc1, Hc2⟩
  sl_exec_parts
  iclear HIb Hrb Hq1 Hq2
  -- the barrier signal at offset 30: its token and the two landing slots 2 go to the device 30 positions after
  ihave #HIb := (inv_barp_30 (S1def m) (Y2def m) K c) $$ Hrec
  ihave #Hrb := (rch_barp_30 (S1def m) (Y2def m) K c) $$ Hrec
  ihave #Hq1 := (rch_r1_2 (S1def m) (Y2def m) K c) $$ Hrec
  ihave #Hq2 := (rch_r2_2 (S1def m) (Y2def m) K c) $$ Hrec
  ihave Hx := (held_elim _) $$ HSig30
  icases Hx with ⟨Htb, Hc1, Hc2⟩
  sl_exec_parts
  iclear HIb Hrb Hq1 Hq2
  -- the barrier signal at offset 31: its token and the two landing slots 1 go to the device 31 positions after
  ihave #HIb := (inv_barp_31 (S1def m) (Y2def m) K c) $$ Hrec
  ihave #Hrb := (rch_barp_31 (S1def m) (Y2def m) K c) $$ Hrec
  ihave #Hq1 := (rch_r1_1 (S1def m) (Y2def m) K c) $$ Hrec
  ihave #Hq2 := (rch_r2_1 (S1def m) (Y2def m) K c) $$ Hrec
  ihave Hx := (held_elim _) $$ HSig31
  icases Hx with ⟨Htb, Hc1, Hc2⟩
  sl_exec_parts
  iclear HIb Hrb Hq1 Hq2
  -- the input copy's wait, the narrowing store, and the wait for the 31 barrier units
  ihave #HIbar := (inv_bar (S1def m) (Y2def m) K c) $$ Hrec
  have hmwIn := mayWait62 (F := F) c (.dma cc0_scratch6.sem) (by show (0 : ℕ) < 2; decide)
  have hmwBar := mayWait62 (F := F) c (.reg barS) (by show (1 : ℕ) < 2; decide)
  sl_exec_parts
  iclear HIbar
  -- what the 31 signals handed over: per peer, its two landing slots
  ihave Hp := (Entails.of_eq (icc_chain _)) $$ HaBar_pay1
  icases Hp with ⟨P1, P2, P3, P4, P5, P6, P7, P8, P9, P10, P11, P12, P13, P14, P15, P16, P17, P18, P19, P20, P21, P22, P23, P24, P25, P26, P27, P28, P29, P30, P31⟩
  ihave HP31 := (held_intro _) $$ P1
  ihave HP30 := (held_intro _) $$ P2
  ihave HP29 := (held_intro _) $$ P3
  ihave HP28 := (held_intro _) $$ P4
  ihave HP27 := (held_intro _) $$ P5
  ihave HP26 := (held_intro _) $$ P6
  ihave HP25 := (held_intro _) $$ P7
  ihave HP24 := (held_intro _) $$ P8
  ihave HP23 := (held_intro _) $$ P9
  ihave HP22 := (held_intro _) $$ P10
  ihave HP21 := (held_intro _) $$ P11
  ihave HP20 := (held_intro _) $$ P12
  ihave HP19 := (held_intro _) $$ P13
  ihave HP18 := (held_intro _) $$ P14
  ihave HP17 := (held_intro _) $$ P15
  ihave HP16 := (held_intro _) $$ P16
  ihave HP15 := (held_intro _) $$ P17
  ihave HP14 := (held_intro _) $$ P18
  ihave HP13 := (held_intro _) $$ P19
  ihave HP12 := (held_intro _) $$ P20
  ihave HP11 := (held_intro _) $$ P21
  ihave HP10 := (held_intro _) $$ P22
  ihave HP9 := (held_intro _) $$ P23
  ihave HP8 := (held_intro _) $$ P24
  ihave HP7 := (held_intro _) $$ P25
  ihave HP6 := (held_intro _) $$ P26
  ihave HP5 := (held_intro _) $$ P27
  ihave HP4 := (held_intro _) $$ P28
  ihave HP3 := (held_intro _) $$ P29
  ihave HP2 := (held_intro _) $$ P30
  ihave HP1 := (held_intro _) $$ P31
  -- the narrowed block, cut into the rows each transfer lends
  have hS1 : st1.view.writes (Elt F) f1 (body_run.sl.Hs1_1 c m f0) = S1def m c := st1_contents m c f0 f1
  rw [hS1]
  ihave Hrows := (st1_split (F := F) c (S1def m c)) $$ Hs1
  icases Hrows with ⟨HrowOwn, Hrow1, Hrow2, Hrow3, Hrow4, Hrow5, Hrow6, Hrow7, Hrow8, Hrow9, Hrow10, Hrow11, Hrow12, Hrow13, Hrow14, Hrow15, Hrow16, Hrow17, Hrow18, Hrow19, Hrow20, Hrow21, Hrow22, Hrow23, Hrow24, Hrow25, Hrow26, Hrow27, Hrow28, Hrow29, Hrow30, Hrow31⟩
  ihave Hx := (held_elim _) $$ HBAll
  icases Hx with ⟨HB1, HB2, HB3, HB4, HB5, HB6, HB7, HB8, HB9, HB10, HB11, HB12, HB13, HB14, HB15, HB16, HB17, HB18, HB19, HB20, HB21, HB22, HB23, HB24, HB25, HB26, HB27, HB28, HB29, HB30, HB31⟩
  -- the first exchange's transfer at offset 1
  ihave Px := ((held_elim _).trans (Entails.of_eq (pay_barown (S1def m) (Y2def m) c 31 hk_31 ho_1))) $$ HP1
  icases Px with ⟨⟨%fa1, Ha⟩, Hb, -, -⟩
  ihave HAccPb := (held_intro _) $$ Hb
  ihave Xx := (held_elim _) $$ HB1
  icases Xx with ⟨Hts1, Htr1p⟩
  ihave #HI1 := (inv_s1_1 (S1def m) (Y2def m) K c) $$ Hrec
  ihave #HI2 := (inv_r1p_1 (S1def m) (Y2def m) K c) $$ Hrec
  ihave #Hr1 := (rch_s1_1 (S1def m) (Y2def m) K c) $$ Hrec
  ihave #Hr2 := (rch_r1p_1 (S1def m) (Y2def m) K c) $$ Hrec
  iapply (wp_send1 (S1def m) (Y2def m) c _ 1 (dev32_eq c) hk_1 ho_1 _ _ (by rw [duties_0_1]; exact Finset.mem_singleton_self _) (by rw [duties_1_1]; exact Finset.mem_singleton_self _)
      (pay_0_1 (S1def m) (Y2def m) c 0 0) (pay_1_1 (S1def m) (Y2def m) (rot c 1) 0 0) fa1 _ _) $$ [Hrow1 Ha HO Hts1 Htr1p]
  · isplitr; · iexact HI1
    isplitr; · iexact HI2
    isplitl [Hrow1]; · iexact Hrow1
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_intro _) $$ Hcs
  iclear HI1 HI2 Hr1 Hr2
  sl_exec_parts
  -- the first exchange's transfer at offset 2
  ihave Px := ((held_elim _).trans (Entails.of_eq (pay_barown (S1def m) (Y2def m) c 30 hk_30 ho_2))) $$ HP2
  icases Px with ⟨⟨%fa2, Ha⟩, Hb, -, -⟩
  ihave HAccPb := (held_push _ _) $$ [Hb HAccPb]
  · isplitl [Hb]
    · iexact Hb
    · iexact HAccPb
  ihave Xx := (held_elim _) $$ HB2
  icases Xx with ⟨Hts1, Htr1p⟩
  ihave #HI1 := (inv_s1_2 (S1def m) (Y2def m) K c) $$ Hrec
  ihave #HI2 := (inv_r1p_2 (S1def m) (Y2def m) K c) $$ Hrec
  ihave #Hr1 := (rch_s1_2 (S1def m) (Y2def m) K c) $$ Hrec
  ihave #Hr2 := (rch_r1p_2 (S1def m) (Y2def m) K c) $$ Hrec
  iapply (wp_send1 (S1def m) (Y2def m) c _ 2 (dev33_eq c) hk_2 ho_2 _ _ (by rw [duties_0_2]; exact Finset.mem_singleton_self _) (by rw [duties_1_2]; exact Finset.mem_singleton_self _)
      (pay_0_2 (S1def m) (Y2def m) c 0 0) (pay_1_2 (S1def m) (Y2def m) (rot c 2) 0 0) fa2 _ _) $$ [Hrow2 Ha HO Hts1 Htr1p]
  · isplitr; · iexact HI1
    isplitr; · iexact HI2
    isplitl [Hrow2]; · iexact Hrow2
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 3
  ihave Px := ((held_elim _).trans (Entails.of_eq (pay_barown (S1def m) (Y2def m) c 29 hk_29 ho_3))) $$ HP3
  icases Px with ⟨⟨%fa3, Ha⟩, Hb, -, -⟩
  ihave HAccPb := (held_push _ _) $$ [Hb HAccPb]
  · isplitl [Hb]
    · iexact Hb
    · iexact HAccPb
  ihave Xx := (held_elim _) $$ HB3
  icases Xx with ⟨Hts1, Htr1p⟩
  ihave #HI1 := (inv_s1_3 (S1def m) (Y2def m) K c) $$ Hrec
  ihave #HI2 := (inv_r1p_3 (S1def m) (Y2def m) K c) $$ Hrec
  ihave #Hr1 := (rch_s1_3 (S1def m) (Y2def m) K c) $$ Hrec
  ihave #Hr2 := (rch_r1p_3 (S1def m) (Y2def m) K c) $$ Hrec
  iapply (wp_send1 (S1def m) (Y2def m) c _ 3 (dev34_eq c) hk_3 ho_3 _ _ (by rw [duties_0_3]; exact Finset.mem_singleton_self _) (by rw [duties_1_3]; exact Finset.mem_singleton_self _)
      (pay_0_3 (S1def m) (Y2def m) c 0 0) (pay_1_3 (S1def m) (Y2def m) (rot c 3) 0 0) fa3 _ _) $$ [Hrow3 Ha HO Hts1 Htr1p]
  · isplitr; · iexact HI1
    isplitr; · iexact HI2
    isplitl [Hrow3]; · iexact Hrow3
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 4
  ihave Px := ((held_elim _).trans (Entails.of_eq (pay_barown (S1def m) (Y2def m) c 28 hk_28 ho_4))) $$ HP4
  icases Px with ⟨⟨%fa4, Ha⟩, Hb, -, -⟩
  ihave HAccPb := (held_push _ _) $$ [Hb HAccPb]
  · isplitl [Hb]
    · iexact Hb
    · iexact HAccPb
  ihave Xx := (held_elim _) $$ HB4
  icases Xx with ⟨Hts1, Htr1p⟩
  ihave #HI1 := (inv_s1_4 (S1def m) (Y2def m) K c) $$ Hrec
  ihave #HI2 := (inv_r1p_4 (S1def m) (Y2def m) K c) $$ Hrec
  ihave #Hr1 := (rch_s1_4 (S1def m) (Y2def m) K c) $$ Hrec
  ihave #Hr2 := (rch_r1p_4 (S1def m) (Y2def m) K c) $$ Hrec
  iapply (wp_send1 (S1def m) (Y2def m) c _ 4 (dev35_eq c) hk_4 ho_4 _ _ (by rw [duties_0_4]; exact Finset.mem_singleton_self _) (by rw [duties_1_4]; exact Finset.mem_singleton_self _)
      (pay_0_4 (S1def m) (Y2def m) c 0 0) (pay_1_4 (S1def m) (Y2def m) (rot c 4) 0 0) fa4 _ _) $$ [Hrow4 Ha HO Hts1 Htr1p]
  · isplitr; · iexact HI1
    isplitr; · iexact HI2
    isplitl [Hrow4]; · iexact Hrow4
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 5
  ihave Px := ((held_elim _).trans (Entails.of_eq (pay_barown (S1def m) (Y2def m) c 27 hk_27 ho_5))) $$ HP5
  icases Px with ⟨⟨%fa5, Ha⟩, Hb, -, -⟩
  ihave HAccPb := (held_push _ _) $$ [Hb HAccPb]
  · isplitl [Hb]
    · iexact Hb
    · iexact HAccPb
  ihave Xx := (held_elim _) $$ HB5
  icases Xx with ⟨Hts1, Htr1p⟩
  ihave #HI1 := (inv_s1_5 (S1def m) (Y2def m) K c) $$ Hrec
  ihave #HI2 := (inv_r1p_5 (S1def m) (Y2def m) K c) $$ Hrec
  ihave #Hr1 := (rch_s1_5 (S1def m) (Y2def m) K c) $$ Hrec
  ihave #Hr2 := (rch_r1p_5 (S1def m) (Y2def m) K c) $$ Hrec
  iapply (wp_send1 (S1def m) (Y2def m) c _ 5 (dev36_eq c) hk_5 ho_5 _ _ (by rw [duties_0_5]; exact Finset.mem_singleton_self _) (by rw [duties_1_5]; exact Finset.mem_singleton_self _)
      (pay_0_5 (S1def m) (Y2def m) c 0 0) (pay_1_5 (S1def m) (Y2def m) (rot c 5) 0 0) fa5 _ _) $$ [Hrow5 Ha HO Hts1 Htr1p]
  · isplitr; · iexact HI1
    isplitr; · iexact HI2
    isplitl [Hrow5]; · iexact Hrow5
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 6
  ihave Px := ((held_elim _).trans (Entails.of_eq (pay_barown (S1def m) (Y2def m) c 26 hk_26 ho_6))) $$ HP6
  icases Px with ⟨⟨%fa6, Ha⟩, Hb, -, -⟩
  ihave HAccPb := (held_push _ _) $$ [Hb HAccPb]
  · isplitl [Hb]
    · iexact Hb
    · iexact HAccPb
  ihave Xx := (held_elim _) $$ HB6
  icases Xx with ⟨Hts1, Htr1p⟩
  ihave #HI1 := (inv_s1_6 (S1def m) (Y2def m) K c) $$ Hrec
  ihave #HI2 := (inv_r1p_6 (S1def m) (Y2def m) K c) $$ Hrec
  ihave #Hr1 := (rch_s1_6 (S1def m) (Y2def m) K c) $$ Hrec
  ihave #Hr2 := (rch_r1p_6 (S1def m) (Y2def m) K c) $$ Hrec
  iapply (wp_send1 (S1def m) (Y2def m) c _ 6 (dev37_eq c) hk_6 ho_6 _ _ (by rw [duties_0_6]; exact Finset.mem_singleton_self _) (by rw [duties_1_6]; exact Finset.mem_singleton_self _)
      (pay_0_6 (S1def m) (Y2def m) c 0 0) (pay_1_6 (S1def m) (Y2def m) (rot c 6) 0 0) fa6 _ _) $$ [Hrow6 Ha HO Hts1 Htr1p]
  · isplitr; · iexact HI1
    isplitr; · iexact HI2
    isplitl [Hrow6]; · iexact Hrow6
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 7
  ihave Px := ((held_elim _).trans (Entails.of_eq (pay_barown (S1def m) (Y2def m) c 25 hk_25 ho_7))) $$ HP7
  icases Px with ⟨⟨%fa7, Ha⟩, Hb, -, -⟩
  ihave HAccPb := (held_push _ _) $$ [Hb HAccPb]
  · isplitl [Hb]
    · iexact Hb
    · iexact HAccPb
  ihave Xx := (held_elim _) $$ HB7
  icases Xx with ⟨Hts1, Htr1p⟩
  ihave #HI1 := (inv_s1_7 (S1def m) (Y2def m) K c) $$ Hrec
  ihave #HI2 := (inv_r1p_7 (S1def m) (Y2def m) K c) $$ Hrec
  ihave #Hr1 := (rch_s1_7 (S1def m) (Y2def m) K c) $$ Hrec
  ihave #Hr2 := (rch_r1p_7 (S1def m) (Y2def m) K c) $$ Hrec
  iapply (wp_send1 (S1def m) (Y2def m) c _ 7 (dev38_eq c) hk_7 ho_7 _ _ (by rw [duties_0_7]; exact Finset.mem_singleton_self _) (by rw [duties_1_7]; exact Finset.mem_singleton_self _)
      (pay_0_7 (S1def m) (Y2def m) c 0 0) (pay_1_7 (S1def m) (Y2def m) (rot c 7) 0 0) fa7 _ _) $$ [Hrow7 Ha HO Hts1 Htr1p]
  · isplitr; · iexact HI1
    isplitr; · iexact HI2
    isplitl [Hrow7]; · iexact Hrow7
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 8
  ihave Px := ((held_elim _).trans (Entails.of_eq (pay_barown (S1def m) (Y2def m) c 24 hk_24 ho_8))) $$ HP8
  icases Px with ⟨⟨%fa8, Ha⟩, Hb, -, -⟩
  ihave HAccPb := (held_push _ _) $$ [Hb HAccPb]
  · isplitl [Hb]
    · iexact Hb
    · iexact HAccPb
  ihave Xx := (held_elim _) $$ HB8
  icases Xx with ⟨Hts1, Htr1p⟩
  ihave #HI1 := (inv_s1_8 (S1def m) (Y2def m) K c) $$ Hrec
  ihave #HI2 := (inv_r1p_8 (S1def m) (Y2def m) K c) $$ Hrec
  ihave #Hr1 := (rch_s1_8 (S1def m) (Y2def m) K c) $$ Hrec
  ihave #Hr2 := (rch_r1p_8 (S1def m) (Y2def m) K c) $$ Hrec
  iapply (wp_send1 (S1def m) (Y2def m) c _ 8 (dev39_eq c) hk_8 ho_8 _ _ (by rw [duties_0_8]; exact Finset.mem_singleton_self _) (by rw [duties_1_8]; exact Finset.mem_singleton_self _)
      (pay_0_8 (S1def m) (Y2def m) c 0 0) (pay_1_8 (S1def m) (Y2def m) (rot c 8) 0 0) fa8 _ _) $$ [Hrow8 Ha HO Hts1 Htr1p]
  · isplitr; · iexact HI1
    isplitr; · iexact HI2
    isplitl [Hrow8]; · iexact Hrow8
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 9
  ihave Px := ((held_elim _).trans (Entails.of_eq (pay_barown (S1def m) (Y2def m) c 23 hk_23 ho_9))) $$ HP9
  icases Px with ⟨⟨%fa9, Ha⟩, Hb, -, -⟩
  ihave HAccPb := (held_push _ _) $$ [Hb HAccPb]
  · isplitl [Hb]
    · iexact Hb
    · iexact HAccPb
  ihave Xx := (held_elim _) $$ HB9
  icases Xx with ⟨Hts1, Htr1p⟩
  ihave #HI1 := (inv_s1_9 (S1def m) (Y2def m) K c) $$ Hrec
  ihave #HI2 := (inv_r1p_9 (S1def m) (Y2def m) K c) $$ Hrec
  ihave #Hr1 := (rch_s1_9 (S1def m) (Y2def m) K c) $$ Hrec
  ihave #Hr2 := (rch_r1p_9 (S1def m) (Y2def m) K c) $$ Hrec
  iapply (wp_send1 (S1def m) (Y2def m) c _ 9 (dev40_eq c) hk_9 ho_9 _ _ (by rw [duties_0_9]; exact Finset.mem_singleton_self _) (by rw [duties_1_9]; exact Finset.mem_singleton_self _)
      (pay_0_9 (S1def m) (Y2def m) c 0 0) (pay_1_9 (S1def m) (Y2def m) (rot c 9) 0 0) fa9 _ _) $$ [Hrow9 Ha HO Hts1 Htr1p]
  · isplitr; · iexact HI1
    isplitr; · iexact HI2
    isplitl [Hrow9]; · iexact Hrow9
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 10
  ihave Px := ((held_elim _).trans (Entails.of_eq (pay_barown (S1def m) (Y2def m) c 22 hk_22 ho_10))) $$ HP10
  icases Px with ⟨⟨%fa10, Ha⟩, Hb, -, -⟩
  ihave HAccPb := (held_push _ _) $$ [Hb HAccPb]
  · isplitl [Hb]
    · iexact Hb
    · iexact HAccPb
  ihave Xx := (held_elim _) $$ HB10
  icases Xx with ⟨Hts1, Htr1p⟩
  ihave #HI1 := (inv_s1_10 (S1def m) (Y2def m) K c) $$ Hrec
  ihave #HI2 := (inv_r1p_10 (S1def m) (Y2def m) K c) $$ Hrec
  ihave #Hr1 := (rch_s1_10 (S1def m) (Y2def m) K c) $$ Hrec
  ihave #Hr2 := (rch_r1p_10 (S1def m) (Y2def m) K c) $$ Hrec
  iapply (wp_send1 (S1def m) (Y2def m) c _ 10 (dev41_eq c) hk_10 ho_10 _ _ (by rw [duties_0_10]; exact Finset.mem_singleton_self _) (by rw [duties_1_10]; exact Finset.mem_singleton_self _)
      (pay_0_10 (S1def m) (Y2def m) c 0 0) (pay_1_10 (S1def m) (Y2def m) (rot c 10) 0 0) fa10 _ _) $$ [Hrow10 Ha HO Hts1 Htr1p]
  · isplitr; · iexact HI1
    isplitr; · iexact HI2
    isplitl [Hrow10]; · iexact Hrow10
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 11
  ihave Px := ((held_elim _).trans (Entails.of_eq (pay_barown (S1def m) (Y2def m) c 21 hk_21 ho_11))) $$ HP11
  icases Px with ⟨⟨%fa11, Ha⟩, Hb, -, -⟩
  ihave HAccPb := (held_push _ _) $$ [Hb HAccPb]
  · isplitl [Hb]
    · iexact Hb
    · iexact HAccPb
  ihave Xx := (held_elim _) $$ HB11
  icases Xx with ⟨Hts1, Htr1p⟩
  ihave #HI1 := (inv_s1_11 (S1def m) (Y2def m) K c) $$ Hrec
  ihave #HI2 := (inv_r1p_11 (S1def m) (Y2def m) K c) $$ Hrec
  ihave #Hr1 := (rch_s1_11 (S1def m) (Y2def m) K c) $$ Hrec
  ihave #Hr2 := (rch_r1p_11 (S1def m) (Y2def m) K c) $$ Hrec
  iapply (wp_send1 (S1def m) (Y2def m) c _ 11 (dev42_eq c) hk_11 ho_11 _ _ (by rw [duties_0_11]; exact Finset.mem_singleton_self _) (by rw [duties_1_11]; exact Finset.mem_singleton_self _)
      (pay_0_11 (S1def m) (Y2def m) c 0 0) (pay_1_11 (S1def m) (Y2def m) (rot c 11) 0 0) fa11 _ _) $$ [Hrow11 Ha HO Hts1 Htr1p]
  · isplitr; · iexact HI1
    isplitr; · iexact HI2
    isplitl [Hrow11]; · iexact Hrow11
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 12
  ihave Px := ((held_elim _).trans (Entails.of_eq (pay_barown (S1def m) (Y2def m) c 20 hk_20 ho_12))) $$ HP12
  icases Px with ⟨⟨%fa12, Ha⟩, Hb, -, -⟩
  ihave HAccPb := (held_push _ _) $$ [Hb HAccPb]
  · isplitl [Hb]
    · iexact Hb
    · iexact HAccPb
  ihave Xx := (held_elim _) $$ HB12
  icases Xx with ⟨Hts1, Htr1p⟩
  ihave #HI1 := (inv_s1_12 (S1def m) (Y2def m) K c) $$ Hrec
  ihave #HI2 := (inv_r1p_12 (S1def m) (Y2def m) K c) $$ Hrec
  ihave #Hr1 := (rch_s1_12 (S1def m) (Y2def m) K c) $$ Hrec
  ihave #Hr2 := (rch_r1p_12 (S1def m) (Y2def m) K c) $$ Hrec
  iapply (wp_send1 (S1def m) (Y2def m) c _ 12 (dev43_eq c) hk_12 ho_12 _ _ (by rw [duties_0_12]; exact Finset.mem_singleton_self _) (by rw [duties_1_12]; exact Finset.mem_singleton_self _)
      (pay_0_12 (S1def m) (Y2def m) c 0 0) (pay_1_12 (S1def m) (Y2def m) (rot c 12) 0 0) fa12 _ _) $$ [Hrow12 Ha HO Hts1 Htr1p]
  · isplitr; · iexact HI1
    isplitr; · iexact HI2
    isplitl [Hrow12]; · iexact Hrow12
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 13
  ihave Px := ((held_elim _).trans (Entails.of_eq (pay_barown (S1def m) (Y2def m) c 19 hk_19 ho_13))) $$ HP13
  icases Px with ⟨⟨%fa13, Ha⟩, Hb, -, -⟩
  ihave HAccPb := (held_push _ _) $$ [Hb HAccPb]
  · isplitl [Hb]
    · iexact Hb
    · iexact HAccPb
  ihave Xx := (held_elim _) $$ HB13
  icases Xx with ⟨Hts1, Htr1p⟩
  ihave #HI1 := (inv_s1_13 (S1def m) (Y2def m) K c) $$ Hrec
  ihave #HI2 := (inv_r1p_13 (S1def m) (Y2def m) K c) $$ Hrec
  ihave #Hr1 := (rch_s1_13 (S1def m) (Y2def m) K c) $$ Hrec
  ihave #Hr2 := (rch_r1p_13 (S1def m) (Y2def m) K c) $$ Hrec
  iapply (wp_send1 (S1def m) (Y2def m) c _ 13 (dev44_eq c) hk_13 ho_13 _ _ (by rw [duties_0_13]; exact Finset.mem_singleton_self _) (by rw [duties_1_13]; exact Finset.mem_singleton_self _)
      (pay_0_13 (S1def m) (Y2def m) c 0 0) (pay_1_13 (S1def m) (Y2def m) (rot c 13) 0 0) fa13 _ _) $$ [Hrow13 Ha HO Hts1 Htr1p]
  · isplitr; · iexact HI1
    isplitr; · iexact HI2
    isplitl [Hrow13]; · iexact Hrow13
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 14
  ihave Px := ((held_elim _).trans (Entails.of_eq (pay_barown (S1def m) (Y2def m) c 18 hk_18 ho_14))) $$ HP14
  icases Px with ⟨⟨%fa14, Ha⟩, Hb, -, -⟩
  ihave HAccPb := (held_push _ _) $$ [Hb HAccPb]
  · isplitl [Hb]
    · iexact Hb
    · iexact HAccPb
  ihave Xx := (held_elim _) $$ HB14
  icases Xx with ⟨Hts1, Htr1p⟩
  ihave #HI1 := (inv_s1_14 (S1def m) (Y2def m) K c) $$ Hrec
  ihave #HI2 := (inv_r1p_14 (S1def m) (Y2def m) K c) $$ Hrec
  ihave #Hr1 := (rch_s1_14 (S1def m) (Y2def m) K c) $$ Hrec
  ihave #Hr2 := (rch_r1p_14 (S1def m) (Y2def m) K c) $$ Hrec
  iapply (wp_send1 (S1def m) (Y2def m) c _ 14 (dev45_eq c) hk_14 ho_14 _ _ (by rw [duties_0_14]; exact Finset.mem_singleton_self _) (by rw [duties_1_14]; exact Finset.mem_singleton_self _)
      (pay_0_14 (S1def m) (Y2def m) c 0 0) (pay_1_14 (S1def m) (Y2def m) (rot c 14) 0 0) fa14 _ _) $$ [Hrow14 Ha HO Hts1 Htr1p]
  · isplitr; · iexact HI1
    isplitr; · iexact HI2
    isplitl [Hrow14]; · iexact Hrow14
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 15
  ihave Px := ((held_elim _).trans (Entails.of_eq (pay_barown (S1def m) (Y2def m) c 17 hk_17 ho_15))) $$ HP15
  icases Px with ⟨⟨%fa15, Ha⟩, Hb, -, -⟩
  ihave HAccPb := (held_push _ _) $$ [Hb HAccPb]
  · isplitl [Hb]
    · iexact Hb
    · iexact HAccPb
  ihave Xx := (held_elim _) $$ HB15
  icases Xx with ⟨Hts1, Htr1p⟩
  ihave #HI1 := (inv_s1_15 (S1def m) (Y2def m) K c) $$ Hrec
  ihave #HI2 := (inv_r1p_15 (S1def m) (Y2def m) K c) $$ Hrec
  ihave #Hr1 := (rch_s1_15 (S1def m) (Y2def m) K c) $$ Hrec
  ihave #Hr2 := (rch_r1p_15 (S1def m) (Y2def m) K c) $$ Hrec
  iapply (wp_send1 (S1def m) (Y2def m) c _ 15 (dev46_eq c) hk_15 ho_15 _ _ (by rw [duties_0_15]; exact Finset.mem_singleton_self _) (by rw [duties_1_15]; exact Finset.mem_singleton_self _)
      (pay_0_15 (S1def m) (Y2def m) c 0 0) (pay_1_15 (S1def m) (Y2def m) (rot c 15) 0 0) fa15 _ _) $$ [Hrow15 Ha HO Hts1 Htr1p]
  · isplitr; · iexact HI1
    isplitr; · iexact HI2
    isplitl [Hrow15]; · iexact Hrow15
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 16
  ihave Px := ((held_elim _).trans (Entails.of_eq (pay_barown (S1def m) (Y2def m) c 16 hk_16 ho_16))) $$ HP16
  icases Px with ⟨⟨%fa16, Ha⟩, Hb, -, -⟩
  ihave HAccPb := (held_push _ _) $$ [Hb HAccPb]
  · isplitl [Hb]
    · iexact Hb
    · iexact HAccPb
  ihave Xx := (held_elim _) $$ HB16
  icases Xx with ⟨Hts1, Htr1p⟩
  ihave #HI1 := (inv_s1_16 (S1def m) (Y2def m) K c) $$ Hrec
  ihave #HI2 := (inv_r1p_16 (S1def m) (Y2def m) K c) $$ Hrec
  ihave #Hr1 := (rch_s1_16 (S1def m) (Y2def m) K c) $$ Hrec
  ihave #Hr2 := (rch_r1p_16 (S1def m) (Y2def m) K c) $$ Hrec
  iapply (wp_send1 (S1def m) (Y2def m) c _ 16 (dev47_eq c) hk_16 ho_16 _ _ (by rw [duties_0_16]; exact Finset.mem_singleton_self _) (by rw [duties_1_16]; exact Finset.mem_singleton_self _)
      (pay_0_16 (S1def m) (Y2def m) c 0 0) (pay_1_16 (S1def m) (Y2def m) (rot c 16) 0 0) fa16 _ _) $$ [Hrow16 Ha HO Hts1 Htr1p]
  · isplitr; · iexact HI1
    isplitr; · iexact HI2
    isplitl [Hrow16]; · iexact Hrow16
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 17
  ihave Px := ((held_elim _).trans (Entails.of_eq (pay_barown (S1def m) (Y2def m) c 15 hk_15 ho_17))) $$ HP17
  icases Px with ⟨⟨%fa17, Ha⟩, Hb, -, -⟩
  ihave HAccPb := (held_push _ _) $$ [Hb HAccPb]
  · isplitl [Hb]
    · iexact Hb
    · iexact HAccPb
  ihave Xx := (held_elim _) $$ HB17
  icases Xx with ⟨Hts1, Htr1p⟩
  ihave #HI1 := (inv_s1_17 (S1def m) (Y2def m) K c) $$ Hrec
  ihave #HI2 := (inv_r1p_17 (S1def m) (Y2def m) K c) $$ Hrec
  ihave #Hr1 := (rch_s1_17 (S1def m) (Y2def m) K c) $$ Hrec
  ihave #Hr2 := (rch_r1p_17 (S1def m) (Y2def m) K c) $$ Hrec
  iapply (wp_send1 (S1def m) (Y2def m) c _ 17 (dev48_eq c) hk_17 ho_17 _ _ (by rw [duties_0_17]; exact Finset.mem_singleton_self _) (by rw [duties_1_17]; exact Finset.mem_singleton_self _)
      (pay_0_17 (S1def m) (Y2def m) c 0 0) (pay_1_17 (S1def m) (Y2def m) (rot c 17) 0 0) fa17 _ _) $$ [Hrow17 Ha HO Hts1 Htr1p]
  · isplitr; · iexact HI1
    isplitr; · iexact HI2
    isplitl [Hrow17]; · iexact Hrow17
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 18
  ihave Px := ((held_elim _).trans (Entails.of_eq (pay_barown (S1def m) (Y2def m) c 14 hk_14 ho_18))) $$ HP18
  icases Px with ⟨⟨%fa18, Ha⟩, Hb, -, -⟩
  ihave HAccPb := (held_push _ _) $$ [Hb HAccPb]
  · isplitl [Hb]
    · iexact Hb
    · iexact HAccPb
  ihave Xx := (held_elim _) $$ HB18
  icases Xx with ⟨Hts1, Htr1p⟩
  ihave #HI1 := (inv_s1_18 (S1def m) (Y2def m) K c) $$ Hrec
  ihave #HI2 := (inv_r1p_18 (S1def m) (Y2def m) K c) $$ Hrec
  ihave #Hr1 := (rch_s1_18 (S1def m) (Y2def m) K c) $$ Hrec
  ihave #Hr2 := (rch_r1p_18 (S1def m) (Y2def m) K c) $$ Hrec
  iapply (wp_send1 (S1def m) (Y2def m) c _ 18 (dev49_eq c) hk_18 ho_18 _ _ (by rw [duties_0_18]; exact Finset.mem_singleton_self _) (by rw [duties_1_18]; exact Finset.mem_singleton_self _)
      (pay_0_18 (S1def m) (Y2def m) c 0 0) (pay_1_18 (S1def m) (Y2def m) (rot c 18) 0 0) fa18 _ _) $$ [Hrow18 Ha HO Hts1 Htr1p]
  · isplitr; · iexact HI1
    isplitr; · iexact HI2
    isplitl [Hrow18]; · iexact Hrow18
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 19
  ihave Px := ((held_elim _).trans (Entails.of_eq (pay_barown (S1def m) (Y2def m) c 13 hk_13 ho_19))) $$ HP19
  icases Px with ⟨⟨%fa19, Ha⟩, Hb, -, -⟩
  ihave HAccPb := (held_push _ _) $$ [Hb HAccPb]
  · isplitl [Hb]
    · iexact Hb
    · iexact HAccPb
  ihave Xx := (held_elim _) $$ HB19
  icases Xx with ⟨Hts1, Htr1p⟩
  ihave #HI1 := (inv_s1_19 (S1def m) (Y2def m) K c) $$ Hrec
  ihave #HI2 := (inv_r1p_19 (S1def m) (Y2def m) K c) $$ Hrec
  ihave #Hr1 := (rch_s1_19 (S1def m) (Y2def m) K c) $$ Hrec
  ihave #Hr2 := (rch_r1p_19 (S1def m) (Y2def m) K c) $$ Hrec
  iapply (wp_send1 (S1def m) (Y2def m) c _ 19 (dev50_eq c) hk_19 ho_19 _ _ (by rw [duties_0_19]; exact Finset.mem_singleton_self _) (by rw [duties_1_19]; exact Finset.mem_singleton_self _)
      (pay_0_19 (S1def m) (Y2def m) c 0 0) (pay_1_19 (S1def m) (Y2def m) (rot c 19) 0 0) fa19 _ _) $$ [Hrow19 Ha HO Hts1 Htr1p]
  · isplitr; · iexact HI1
    isplitr; · iexact HI2
    isplitl [Hrow19]; · iexact Hrow19
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 20
  ihave Px := ((held_elim _).trans (Entails.of_eq (pay_barown (S1def m) (Y2def m) c 12 hk_12 ho_20))) $$ HP20
  icases Px with ⟨⟨%fa20, Ha⟩, Hb, -, -⟩
  ihave HAccPb := (held_push _ _) $$ [Hb HAccPb]
  · isplitl [Hb]
    · iexact Hb
    · iexact HAccPb
  ihave Xx := (held_elim _) $$ HB20
  icases Xx with ⟨Hts1, Htr1p⟩
  ihave #HI1 := (inv_s1_20 (S1def m) (Y2def m) K c) $$ Hrec
  ihave #HI2 := (inv_r1p_20 (S1def m) (Y2def m) K c) $$ Hrec
  ihave #Hr1 := (rch_s1_20 (S1def m) (Y2def m) K c) $$ Hrec
  ihave #Hr2 := (rch_r1p_20 (S1def m) (Y2def m) K c) $$ Hrec
  iapply (wp_send1 (S1def m) (Y2def m) c _ 20 (dev51_eq c) hk_20 ho_20 _ _ (by rw [duties_0_20]; exact Finset.mem_singleton_self _) (by rw [duties_1_20]; exact Finset.mem_singleton_self _)
      (pay_0_20 (S1def m) (Y2def m) c 0 0) (pay_1_20 (S1def m) (Y2def m) (rot c 20) 0 0) fa20 _ _) $$ [Hrow20 Ha HO Hts1 Htr1p]
  · isplitr; · iexact HI1
    isplitr; · iexact HI2
    isplitl [Hrow20]; · iexact Hrow20
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 21
  ihave Px := ((held_elim _).trans (Entails.of_eq (pay_barown (S1def m) (Y2def m) c 11 hk_11 ho_21))) $$ HP21
  icases Px with ⟨⟨%fa21, Ha⟩, Hb, -, -⟩
  ihave HAccPb := (held_push _ _) $$ [Hb HAccPb]
  · isplitl [Hb]
    · iexact Hb
    · iexact HAccPb
  ihave Xx := (held_elim _) $$ HB21
  icases Xx with ⟨Hts1, Htr1p⟩
  ihave #HI1 := (inv_s1_21 (S1def m) (Y2def m) K c) $$ Hrec
  ihave #HI2 := (inv_r1p_21 (S1def m) (Y2def m) K c) $$ Hrec
  ihave #Hr1 := (rch_s1_21 (S1def m) (Y2def m) K c) $$ Hrec
  ihave #Hr2 := (rch_r1p_21 (S1def m) (Y2def m) K c) $$ Hrec
  iapply (wp_send1 (S1def m) (Y2def m) c _ 21 (dev52_eq c) hk_21 ho_21 _ _ (by rw [duties_0_21]; exact Finset.mem_singleton_self _) (by rw [duties_1_21]; exact Finset.mem_singleton_self _)
      (pay_0_21 (S1def m) (Y2def m) c 0 0) (pay_1_21 (S1def m) (Y2def m) (rot c 21) 0 0) fa21 _ _) $$ [Hrow21 Ha HO Hts1 Htr1p]
  · isplitr; · iexact HI1
    isplitr; · iexact HI2
    isplitl [Hrow21]; · iexact Hrow21
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 22
  ihave Px := ((held_elim _).trans (Entails.of_eq (pay_barown (S1def m) (Y2def m) c 10 hk_10 ho_22))) $$ HP22
  icases Px with ⟨⟨%fa22, Ha⟩, Hb, -, -⟩
  ihave HAccPb := (held_push _ _) $$ [Hb HAccPb]
  · isplitl [Hb]
    · iexact Hb
    · iexact HAccPb
  ihave Xx := (held_elim _) $$ HB22
  icases Xx with ⟨Hts1, Htr1p⟩
  ihave #HI1 := (inv_s1_22 (S1def m) (Y2def m) K c) $$ Hrec
  ihave #HI2 := (inv_r1p_22 (S1def m) (Y2def m) K c) $$ Hrec
  ihave #Hr1 := (rch_s1_22 (S1def m) (Y2def m) K c) $$ Hrec
  ihave #Hr2 := (rch_r1p_22 (S1def m) (Y2def m) K c) $$ Hrec
  iapply (wp_send1 (S1def m) (Y2def m) c _ 22 (dev53_eq c) hk_22 ho_22 _ _ (by rw [duties_0_22]; exact Finset.mem_singleton_self _) (by rw [duties_1_22]; exact Finset.mem_singleton_self _)
      (pay_0_22 (S1def m) (Y2def m) c 0 0) (pay_1_22 (S1def m) (Y2def m) (rot c 22) 0 0) fa22 _ _) $$ [Hrow22 Ha HO Hts1 Htr1p]
  · isplitr; · iexact HI1
    isplitr; · iexact HI2
    isplitl [Hrow22]; · iexact Hrow22
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 23
  ihave Px := ((held_elim _).trans (Entails.of_eq (pay_barown (S1def m) (Y2def m) c 9 hk_9 ho_23))) $$ HP23
  icases Px with ⟨⟨%fa23, Ha⟩, Hb, -, -⟩
  ihave HAccPb := (held_push _ _) $$ [Hb HAccPb]
  · isplitl [Hb]
    · iexact Hb
    · iexact HAccPb
  ihave Xx := (held_elim _) $$ HB23
  icases Xx with ⟨Hts1, Htr1p⟩
  ihave #HI1 := (inv_s1_23 (S1def m) (Y2def m) K c) $$ Hrec
  ihave #HI2 := (inv_r1p_23 (S1def m) (Y2def m) K c) $$ Hrec
  ihave #Hr1 := (rch_s1_23 (S1def m) (Y2def m) K c) $$ Hrec
  ihave #Hr2 := (rch_r1p_23 (S1def m) (Y2def m) K c) $$ Hrec
  iapply (wp_send1 (S1def m) (Y2def m) c _ 23 (dev54_eq c) hk_23 ho_23 _ _ (by rw [duties_0_23]; exact Finset.mem_singleton_self _) (by rw [duties_1_23]; exact Finset.mem_singleton_self _)
      (pay_0_23 (S1def m) (Y2def m) c 0 0) (pay_1_23 (S1def m) (Y2def m) (rot c 23) 0 0) fa23 _ _) $$ [Hrow23 Ha HO Hts1 Htr1p]
  · isplitr; · iexact HI1
    isplitr; · iexact HI2
    isplitl [Hrow23]; · iexact Hrow23
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 24
  ihave Px := ((held_elim _).trans (Entails.of_eq (pay_barown (S1def m) (Y2def m) c 8 hk_8 ho_24))) $$ HP24
  icases Px with ⟨⟨%fa24, Ha⟩, Hb, -, -⟩
  ihave HAccPb := (held_push _ _) $$ [Hb HAccPb]
  · isplitl [Hb]
    · iexact Hb
    · iexact HAccPb
  ihave Xx := (held_elim _) $$ HB24
  icases Xx with ⟨Hts1, Htr1p⟩
  ihave #HI1 := (inv_s1_24 (S1def m) (Y2def m) K c) $$ Hrec
  ihave #HI2 := (inv_r1p_24 (S1def m) (Y2def m) K c) $$ Hrec
  ihave #Hr1 := (rch_s1_24 (S1def m) (Y2def m) K c) $$ Hrec
  ihave #Hr2 := (rch_r1p_24 (S1def m) (Y2def m) K c) $$ Hrec
  iapply (wp_send1 (S1def m) (Y2def m) c _ 24 (dev55_eq c) hk_24 ho_24 _ _ (by rw [duties_0_24]; exact Finset.mem_singleton_self _) (by rw [duties_1_24]; exact Finset.mem_singleton_self _)
      (pay_0_24 (S1def m) (Y2def m) c 0 0) (pay_1_24 (S1def m) (Y2def m) (rot c 24) 0 0) fa24 _ _) $$ [Hrow24 Ha HO Hts1 Htr1p]
  · isplitr; · iexact HI1
    isplitr; · iexact HI2
    isplitl [Hrow24]; · iexact Hrow24
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 25
  ihave Px := ((held_elim _).trans (Entails.of_eq (pay_barown (S1def m) (Y2def m) c 7 hk_7 ho_25))) $$ HP25
  icases Px with ⟨⟨%fa25, Ha⟩, Hb, -, -⟩
  ihave HAccPb := (held_push _ _) $$ [Hb HAccPb]
  · isplitl [Hb]
    · iexact Hb
    · iexact HAccPb
  ihave Xx := (held_elim _) $$ HB25
  icases Xx with ⟨Hts1, Htr1p⟩
  ihave #HI1 := (inv_s1_25 (S1def m) (Y2def m) K c) $$ Hrec
  ihave #HI2 := (inv_r1p_25 (S1def m) (Y2def m) K c) $$ Hrec
  ihave #Hr1 := (rch_s1_25 (S1def m) (Y2def m) K c) $$ Hrec
  ihave #Hr2 := (rch_r1p_25 (S1def m) (Y2def m) K c) $$ Hrec
  iapply (wp_send1 (S1def m) (Y2def m) c _ 25 (dev56_eq c) hk_25 ho_25 _ _ (by rw [duties_0_25]; exact Finset.mem_singleton_self _) (by rw [duties_1_25]; exact Finset.mem_singleton_self _)
      (pay_0_25 (S1def m) (Y2def m) c 0 0) (pay_1_25 (S1def m) (Y2def m) (rot c 25) 0 0) fa25 _ _) $$ [Hrow25 Ha HO Hts1 Htr1p]
  · isplitr; · iexact HI1
    isplitr; · iexact HI2
    isplitl [Hrow25]; · iexact Hrow25
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 26
  ihave Px := ((held_elim _).trans (Entails.of_eq (pay_barown (S1def m) (Y2def m) c 6 hk_6 ho_26))) $$ HP26
  icases Px with ⟨⟨%fa26, Ha⟩, Hb, -, -⟩
  ihave HAccPb := (held_push _ _) $$ [Hb HAccPb]
  · isplitl [Hb]
    · iexact Hb
    · iexact HAccPb
  ihave Xx := (held_elim _) $$ HB26
  icases Xx with ⟨Hts1, Htr1p⟩
  ihave #HI1 := (inv_s1_26 (S1def m) (Y2def m) K c) $$ Hrec
  ihave #HI2 := (inv_r1p_26 (S1def m) (Y2def m) K c) $$ Hrec
  ihave #Hr1 := (rch_s1_26 (S1def m) (Y2def m) K c) $$ Hrec
  ihave #Hr2 := (rch_r1p_26 (S1def m) (Y2def m) K c) $$ Hrec
  iapply (wp_send1 (S1def m) (Y2def m) c _ 26 (dev57_eq c) hk_26 ho_26 _ _ (by rw [duties_0_26]; exact Finset.mem_singleton_self _) (by rw [duties_1_26]; exact Finset.mem_singleton_self _)
      (pay_0_26 (S1def m) (Y2def m) c 0 0) (pay_1_26 (S1def m) (Y2def m) (rot c 26) 0 0) fa26 _ _) $$ [Hrow26 Ha HO Hts1 Htr1p]
  · isplitr; · iexact HI1
    isplitr; · iexact HI2
    isplitl [Hrow26]; · iexact Hrow26
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 27
  ihave Px := ((held_elim _).trans (Entails.of_eq (pay_barown (S1def m) (Y2def m) c 5 hk_5 ho_27))) $$ HP27
  icases Px with ⟨⟨%fa27, Ha⟩, Hb, -, -⟩
  ihave HAccPb := (held_push _ _) $$ [Hb HAccPb]
  · isplitl [Hb]
    · iexact Hb
    · iexact HAccPb
  ihave Xx := (held_elim _) $$ HB27
  icases Xx with ⟨Hts1, Htr1p⟩
  ihave #HI1 := (inv_s1_27 (S1def m) (Y2def m) K c) $$ Hrec
  ihave #HI2 := (inv_r1p_27 (S1def m) (Y2def m) K c) $$ Hrec
  ihave #Hr1 := (rch_s1_27 (S1def m) (Y2def m) K c) $$ Hrec
  ihave #Hr2 := (rch_r1p_27 (S1def m) (Y2def m) K c) $$ Hrec
  iapply (wp_send1 (S1def m) (Y2def m) c _ 27 (dev58_eq c) hk_27 ho_27 _ _ (by rw [duties_0_27]; exact Finset.mem_singleton_self _) (by rw [duties_1_27]; exact Finset.mem_singleton_self _)
      (pay_0_27 (S1def m) (Y2def m) c 0 0) (pay_1_27 (S1def m) (Y2def m) (rot c 27) 0 0) fa27 _ _) $$ [Hrow27 Ha HO Hts1 Htr1p]
  · isplitr; · iexact HI1
    isplitr; · iexact HI2
    isplitl [Hrow27]; · iexact Hrow27
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 28
  ihave Px := ((held_elim _).trans (Entails.of_eq (pay_barown (S1def m) (Y2def m) c 4 hk_4 ho_28))) $$ HP28
  icases Px with ⟨⟨%fa28, Ha⟩, Hb, -, -⟩
  ihave HAccPb := (held_push _ _) $$ [Hb HAccPb]
  · isplitl [Hb]
    · iexact Hb
    · iexact HAccPb
  ihave Xx := (held_elim _) $$ HB28
  icases Xx with ⟨Hts1, Htr1p⟩
  ihave #HI1 := (inv_s1_28 (S1def m) (Y2def m) K c) $$ Hrec
  ihave #HI2 := (inv_r1p_28 (S1def m) (Y2def m) K c) $$ Hrec
  ihave #Hr1 := (rch_s1_28 (S1def m) (Y2def m) K c) $$ Hrec
  ihave #Hr2 := (rch_r1p_28 (S1def m) (Y2def m) K c) $$ Hrec
  iapply (wp_send1 (S1def m) (Y2def m) c _ 28 (dev59_eq c) hk_28 ho_28 _ _ (by rw [duties_0_28]; exact Finset.mem_singleton_self _) (by rw [duties_1_28]; exact Finset.mem_singleton_self _)
      (pay_0_28 (S1def m) (Y2def m) c 0 0) (pay_1_28 (S1def m) (Y2def m) (rot c 28) 0 0) fa28 _ _) $$ [Hrow28 Ha HO Hts1 Htr1p]
  · isplitr; · iexact HI1
    isplitr; · iexact HI2
    isplitl [Hrow28]; · iexact Hrow28
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 29
  ihave Px := ((held_elim _).trans (Entails.of_eq (pay_barown (S1def m) (Y2def m) c 3 hk_3 ho_29))) $$ HP29
  icases Px with ⟨⟨%fa29, Ha⟩, Hb, -, -⟩
  ihave HAccPb := (held_push _ _) $$ [Hb HAccPb]
  · isplitl [Hb]
    · iexact Hb
    · iexact HAccPb
  ihave Xx := (held_elim _) $$ HB29
  icases Xx with ⟨Hts1, Htr1p⟩
  ihave #HI1 := (inv_s1_29 (S1def m) (Y2def m) K c) $$ Hrec
  ihave #HI2 := (inv_r1p_29 (S1def m) (Y2def m) K c) $$ Hrec
  ihave #Hr1 := (rch_s1_29 (S1def m) (Y2def m) K c) $$ Hrec
  ihave #Hr2 := (rch_r1p_29 (S1def m) (Y2def m) K c) $$ Hrec
  iapply (wp_send1 (S1def m) (Y2def m) c _ 29 (dev60_eq c) hk_29 ho_29 _ _ (by rw [duties_0_29]; exact Finset.mem_singleton_self _) (by rw [duties_1_29]; exact Finset.mem_singleton_self _)
      (pay_0_29 (S1def m) (Y2def m) c 0 0) (pay_1_29 (S1def m) (Y2def m) (rot c 29) 0 0) fa29 _ _) $$ [Hrow29 Ha HO Hts1 Htr1p]
  · isplitr; · iexact HI1
    isplitr; · iexact HI2
    isplitl [Hrow29]; · iexact Hrow29
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 30
  ihave Px := ((held_elim _).trans (Entails.of_eq (pay_barown (S1def m) (Y2def m) c 2 hk_2 ho_30))) $$ HP30
  icases Px with ⟨⟨%fa30, Ha⟩, Hb, -, -⟩
  ihave HAccPb := (held_push _ _) $$ [Hb HAccPb]
  · isplitl [Hb]
    · iexact Hb
    · iexact HAccPb
  ihave Xx := (held_elim _) $$ HB30
  icases Xx with ⟨Hts1, Htr1p⟩
  ihave #HI1 := (inv_s1_30 (S1def m) (Y2def m) K c) $$ Hrec
  ihave #HI2 := (inv_r1p_30 (S1def m) (Y2def m) K c) $$ Hrec
  ihave #Hr1 := (rch_s1_30 (S1def m) (Y2def m) K c) $$ Hrec
  ihave #Hr2 := (rch_r1p_30 (S1def m) (Y2def m) K c) $$ Hrec
  iapply (wp_send1 (S1def m) (Y2def m) c _ 30 (dev61_eq c) hk_30 ho_30 _ _ (by rw [duties_0_30]; exact Finset.mem_singleton_self _) (by rw [duties_1_30]; exact Finset.mem_singleton_self _)
      (pay_0_30 (S1def m) (Y2def m) c 0 0) (pay_1_30 (S1def m) (Y2def m) (rot c 30) 0 0) fa30 _ _) $$ [Hrow30 Ha HO Hts1 Htr1p]
  · isplitr; · iexact HI1
    isplitr; · iexact HI2
    isplitl [Hrow30]; · iexact Hrow30
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 31
  ihave Px := ((held_elim _).trans (Entails.of_eq (pay_barown (S1def m) (Y2def m) c 1 hk_1 ho_31))) $$ HP31
  icases Px with ⟨⟨%fa31, Ha⟩, Hb, -, -⟩
  ihave HAccPb := (held_push _ _) $$ [Hb HAccPb]
  · isplitl [Hb]
    · iexact Hb
    · iexact HAccPb
  ihave Xx := (held_elim _) $$ HB31
  icases Xx with ⟨Hts1, Htr1p⟩
  ihave #HI1 := (inv_s1_31 (S1def m) (Y2def m) K c) $$ Hrec
  ihave #HI2 := (inv_r1p_31 (S1def m) (Y2def m) K c) $$ Hrec
  ihave #Hr1 := (rch_s1_31 (S1def m) (Y2def m) K c) $$ Hrec
  ihave #Hr2 := (rch_r1p_31 (S1def m) (Y2def m) K c) $$ Hrec
  iapply (wp_send1 (S1def m) (Y2def m) c _ 31 (dev62_eq c) hk_31 ho_31 _ _ (by rw [duties_0_31]; exact Finset.mem_singleton_self _) (by rw [duties_1_31]; exact Finset.mem_singleton_self _)
      (pay_0_31 (S1def m) (Y2def m) c 0 0) (pay_1_31 (S1def m) (Y2def m) (rot c 31) 0 0) fa31 _ _) $$ [Hrow31 Ha HO Hts1 Htr1p]
  · isplitr; · iexact HI1
    isplitr; · iexact HI2
    isplitl [Hrow31]; · iexact Hrow31
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's 31 receive waits; what landed is added up
  ihave Hx := (held_elim _) $$ HCAll
  icases Hx with ⟨HC1, HC2, HC3, HC4, HC5, HC6, HC7, HC8, HC9, HC10, HC11, HC12, HC13, HC14, HC15, HC16, HC17, HC18, HC19, HC20, HC21, HC22, HC23, HC24, HC25, HC26, HC27, HC28, HC29, HC30, HC31⟩
  -- the receive wait at offset 1, and the read of what landed in slot 1
  ihave Xx := (held_elim _) $$ HC1
  icases Xx with ⟨Har1, Hcr1⟩
  ihave #HI := (inv_r1_1 (S1def m) (Y2def m) K c) $$ Hrec
  have hmw := mayWait31 (F := F) c (.dma (semAt cc0_scratch8 1 ho_1)) (by show (2 : ℕ) < 3; decide)
  sl_exec_parts
  clear hmw
  imod (Rounds.cell_close ER (sched (F := F) (S1def m) (Y2def m)) (Set.mem_univ (K (c, some (1, ⟨0, by decide⟩)))) (fun h => h) (R := 0 + 1) (duties_later (S1def m) (Y2def m) (r1Cell c 1 ho_1))) $$ [Har1] with Hz
  · isplitr; · iexact HI
    iexact Har1
  ihave HAccZr1 := (held_intro _) $$ Hz
  ihave HAccL1 := (held_intro _) $$ Har1_pay1
  iclear HI Har1_reached
  -- the receive wait at offset 2, and the read of what landed in slot 2
  ihave Xx := (held_elim _) $$ HC2
  icases Xx with ⟨Har1, Hcr1⟩
  ihave #HI := (inv_r1_2 (S1def m) (Y2def m) K c) $$ Hrec
  have hmw := mayWait31 (F := F) c (.dma (semAt cc0_scratch8 2 ho_2)) (by show (2 : ℕ) < 3; decide)
  sl_exec_parts
  clear hmw
  imod (Rounds.cell_close ER (sched (F := F) (S1def m) (Y2def m)) (Set.mem_univ (K (c, some (1, ⟨1, by decide⟩)))) (fun h => h) (R := 0 + 1) (duties_later (S1def m) (Y2def m) (r1Cell c 2 ho_2))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 3, and the read of what landed in slot 3
  ihave Xx := (held_elim _) $$ HC3
  icases Xx with ⟨Har1, Hcr1⟩
  ihave #HI := (inv_r1_3 (S1def m) (Y2def m) K c) $$ Hrec
  have hmw := mayWait31 (F := F) c (.dma (semAt cc0_scratch8 3 ho_3)) (by show (2 : ℕ) < 3; decide)
  sl_exec_parts
  clear hmw
  imod (Rounds.cell_close ER (sched (F := F) (S1def m) (Y2def m)) (Set.mem_univ (K (c, some (1, ⟨2, by decide⟩)))) (fun h => h) (R := 0 + 1) (duties_later (S1def m) (Y2def m) (r1Cell c 3 ho_3))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 4, and the read of what landed in slot 4
  ihave Xx := (held_elim _) $$ HC4
  icases Xx with ⟨Har1, Hcr1⟩
  ihave #HI := (inv_r1_4 (S1def m) (Y2def m) K c) $$ Hrec
  have hmw := mayWait31 (F := F) c (.dma (semAt cc0_scratch8 4 ho_4)) (by show (2 : ℕ) < 3; decide)
  sl_exec_parts
  clear hmw
  imod (Rounds.cell_close ER (sched (F := F) (S1def m) (Y2def m)) (Set.mem_univ (K (c, some (1, ⟨3, by decide⟩)))) (fun h => h) (R := 0 + 1) (duties_later (S1def m) (Y2def m) (r1Cell c 4 ho_4))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 5, and the read of what landed in slot 5
  ihave Xx := (held_elim _) $$ HC5
  icases Xx with ⟨Har1, Hcr1⟩
  ihave #HI := (inv_r1_5 (S1def m) (Y2def m) K c) $$ Hrec
  have hmw := mayWait31 (F := F) c (.dma (semAt cc0_scratch8 5 ho_5)) (by show (2 : ℕ) < 3; decide)
  sl_exec_parts
  clear hmw
  imod (Rounds.cell_close ER (sched (F := F) (S1def m) (Y2def m)) (Set.mem_univ (K (c, some (1, ⟨4, by decide⟩)))) (fun h => h) (R := 0 + 1) (duties_later (S1def m) (Y2def m) (r1Cell c 5 ho_5))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 6, and the read of what landed in slot 6
  ihave Xx := (held_elim _) $$ HC6
  icases Xx with ⟨Har1, Hcr1⟩
  ihave #HI := (inv_r1_6 (S1def m) (Y2def m) K c) $$ Hrec
  have hmw := mayWait31 (F := F) c (.dma (semAt cc0_scratch8 6 ho_6)) (by show (2 : ℕ) < 3; decide)
  sl_exec_parts
  clear hmw
  imod (Rounds.cell_close ER (sched (F := F) (S1def m) (Y2def m)) (Set.mem_univ (K (c, some (1, ⟨5, by decide⟩)))) (fun h => h) (R := 0 + 1) (duties_later (S1def m) (Y2def m) (r1Cell c 6 ho_6))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 7, and the read of what landed in slot 7
  ihave Xx := (held_elim _) $$ HC7
  icases Xx with ⟨Har1, Hcr1⟩
  ihave #HI := (inv_r1_7 (S1def m) (Y2def m) K c) $$ Hrec
  have hmw := mayWait31 (F := F) c (.dma (semAt cc0_scratch8 7 ho_7)) (by show (2 : ℕ) < 3; decide)
  sl_exec_parts
  clear hmw
  imod (Rounds.cell_close ER (sched (F := F) (S1def m) (Y2def m)) (Set.mem_univ (K (c, some (1, ⟨6, by decide⟩)))) (fun h => h) (R := 0 + 1) (duties_later (S1def m) (Y2def m) (r1Cell c 7 ho_7))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 8, and the read of what landed in slot 8
  ihave Xx := (held_elim _) $$ HC8
  icases Xx with ⟨Har1, Hcr1⟩
  ihave #HI := (inv_r1_8 (S1def m) (Y2def m) K c) $$ Hrec
  have hmw := mayWait31 (F := F) c (.dma (semAt cc0_scratch8 8 ho_8)) (by show (2 : ℕ) < 3; decide)
  sl_exec_parts
  clear hmw
  imod (Rounds.cell_close ER (sched (F := F) (S1def m) (Y2def m)) (Set.mem_univ (K (c, some (1, ⟨7, by decide⟩)))) (fun h => h) (R := 0 + 1) (duties_later (S1def m) (Y2def m) (r1Cell c 8 ho_8))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 9, and the read of what landed in slot 9
  ihave Xx := (held_elim _) $$ HC9
  icases Xx with ⟨Har1, Hcr1⟩
  ihave #HI := (inv_r1_9 (S1def m) (Y2def m) K c) $$ Hrec
  have hmw := mayWait31 (F := F) c (.dma (semAt cc0_scratch8 9 ho_9)) (by show (2 : ℕ) < 3; decide)
  sl_exec_parts
  clear hmw
  imod (Rounds.cell_close ER (sched (F := F) (S1def m) (Y2def m)) (Set.mem_univ (K (c, some (1, ⟨8, by decide⟩)))) (fun h => h) (R := 0 + 1) (duties_later (S1def m) (Y2def m) (r1Cell c 9 ho_9))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 10, and the read of what landed in slot 10
  ihave Xx := (held_elim _) $$ HC10
  icases Xx with ⟨Har1, Hcr1⟩
  ihave #HI := (inv_r1_10 (S1def m) (Y2def m) K c) $$ Hrec
  have hmw := mayWait31 (F := F) c (.dma (semAt cc0_scratch8 10 ho_10)) (by show (2 : ℕ) < 3; decide)
  sl_exec_parts
  clear hmw
  imod (Rounds.cell_close ER (sched (F := F) (S1def m) (Y2def m)) (Set.mem_univ (K (c, some (1, ⟨9, by decide⟩)))) (fun h => h) (R := 0 + 1) (duties_later (S1def m) (Y2def m) (r1Cell c 10 ho_10))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 11, and the read of what landed in slot 11
  ihave Xx := (held_elim _) $$ HC11
  icases Xx with ⟨Har1, Hcr1⟩
  ihave #HI := (inv_r1_11 (S1def m) (Y2def m) K c) $$ Hrec
  have hmw := mayWait31 (F := F) c (.dma (semAt cc0_scratch8 11 ho_11)) (by show (2 : ℕ) < 3; decide)
  sl_exec_parts
  clear hmw
  imod (Rounds.cell_close ER (sched (F := F) (S1def m) (Y2def m)) (Set.mem_univ (K (c, some (1, ⟨10, by decide⟩)))) (fun h => h) (R := 0 + 1) (duties_later (S1def m) (Y2def m) (r1Cell c 11 ho_11))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 12, and the read of what landed in slot 12
  ihave Xx := (held_elim _) $$ HC12
  icases Xx with ⟨Har1, Hcr1⟩
  ihave #HI := (inv_r1_12 (S1def m) (Y2def m) K c) $$ Hrec
  have hmw := mayWait31 (F := F) c (.dma (semAt cc0_scratch8 12 ho_12)) (by show (2 : ℕ) < 3; decide)
  sl_exec_parts
  clear hmw
  imod (Rounds.cell_close ER (sched (F := F) (S1def m) (Y2def m)) (Set.mem_univ (K (c, some (1, ⟨11, by decide⟩)))) (fun h => h) (R := 0 + 1) (duties_later (S1def m) (Y2def m) (r1Cell c 12 ho_12))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 13, and the read of what landed in slot 13
  ihave Xx := (held_elim _) $$ HC13
  icases Xx with ⟨Har1, Hcr1⟩
  ihave #HI := (inv_r1_13 (S1def m) (Y2def m) K c) $$ Hrec
  have hmw := mayWait31 (F := F) c (.dma (semAt cc0_scratch8 13 ho_13)) (by show (2 : ℕ) < 3; decide)
  sl_exec_parts
  clear hmw
  imod (Rounds.cell_close ER (sched (F := F) (S1def m) (Y2def m)) (Set.mem_univ (K (c, some (1, ⟨12, by decide⟩)))) (fun h => h) (R := 0 + 1) (duties_later (S1def m) (Y2def m) (r1Cell c 13 ho_13))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 14, and the read of what landed in slot 14
  ihave Xx := (held_elim _) $$ HC14
  icases Xx with ⟨Har1, Hcr1⟩
  ihave #HI := (inv_r1_14 (S1def m) (Y2def m) K c) $$ Hrec
  have hmw := mayWait31 (F := F) c (.dma (semAt cc0_scratch8 14 ho_14)) (by show (2 : ℕ) < 3; decide)
  sl_exec_parts
  clear hmw
  imod (Rounds.cell_close ER (sched (F := F) (S1def m) (Y2def m)) (Set.mem_univ (K (c, some (1, ⟨13, by decide⟩)))) (fun h => h) (R := 0 + 1) (duties_later (S1def m) (Y2def m) (r1Cell c 14 ho_14))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 15, and the read of what landed in slot 15
  ihave Xx := (held_elim _) $$ HC15
  icases Xx with ⟨Har1, Hcr1⟩
  ihave #HI := (inv_r1_15 (S1def m) (Y2def m) K c) $$ Hrec
  have hmw := mayWait31 (F := F) c (.dma (semAt cc0_scratch8 15 ho_15)) (by show (2 : ℕ) < 3; decide)
  sl_exec_parts
  clear hmw
  imod (Rounds.cell_close ER (sched (F := F) (S1def m) (Y2def m)) (Set.mem_univ (K (c, some (1, ⟨14, by decide⟩)))) (fun h => h) (R := 0 + 1) (duties_later (S1def m) (Y2def m) (r1Cell c 15 ho_15))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 16, and the read of what landed in slot 16
  ihave Xx := (held_elim _) $$ HC16
  icases Xx with ⟨Har1, Hcr1⟩
  ihave #HI := (inv_r1_16 (S1def m) (Y2def m) K c) $$ Hrec
  have hmw := mayWait31 (F := F) c (.dma (semAt cc0_scratch8 16 ho_16)) (by show (2 : ℕ) < 3; decide)
  sl_exec_parts
  clear hmw
  imod (Rounds.cell_close ER (sched (F := F) (S1def m) (Y2def m)) (Set.mem_univ (K (c, some (1, ⟨15, by decide⟩)))) (fun h => h) (R := 0 + 1) (duties_later (S1def m) (Y2def m) (r1Cell c 16 ho_16))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 17, and the read of what landed in slot 17
  ihave Xx := (held_elim _) $$ HC17
  icases Xx with ⟨Har1, Hcr1⟩
  ihave #HI := (inv_r1_17 (S1def m) (Y2def m) K c) $$ Hrec
  have hmw := mayWait31 (F := F) c (.dma (semAt cc0_scratch8 17 ho_17)) (by show (2 : ℕ) < 3; decide)
  sl_exec_parts
  clear hmw
  imod (Rounds.cell_close ER (sched (F := F) (S1def m) (Y2def m)) (Set.mem_univ (K (c, some (1, ⟨16, by decide⟩)))) (fun h => h) (R := 0 + 1) (duties_later (S1def m) (Y2def m) (r1Cell c 17 ho_17))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 18, and the read of what landed in slot 18
  ihave Xx := (held_elim _) $$ HC18
  icases Xx with ⟨Har1, Hcr1⟩
  ihave #HI := (inv_r1_18 (S1def m) (Y2def m) K c) $$ Hrec
  have hmw := mayWait31 (F := F) c (.dma (semAt cc0_scratch8 18 ho_18)) (by show (2 : ℕ) < 3; decide)
  sl_exec_parts
  clear hmw
  imod (Rounds.cell_close ER (sched (F := F) (S1def m) (Y2def m)) (Set.mem_univ (K (c, some (1, ⟨17, by decide⟩)))) (fun h => h) (R := 0 + 1) (duties_later (S1def m) (Y2def m) (r1Cell c 18 ho_18))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 19, and the read of what landed in slot 19
  ihave Xx := (held_elim _) $$ HC19
  icases Xx with ⟨Har1, Hcr1⟩
  ihave #HI := (inv_r1_19 (S1def m) (Y2def m) K c) $$ Hrec
  have hmw := mayWait31 (F := F) c (.dma (semAt cc0_scratch8 19 ho_19)) (by show (2 : ℕ) < 3; decide)
  sl_exec_parts
  clear hmw
  imod (Rounds.cell_close ER (sched (F := F) (S1def m) (Y2def m)) (Set.mem_univ (K (c, some (1, ⟨18, by decide⟩)))) (fun h => h) (R := 0 + 1) (duties_later (S1def m) (Y2def m) (r1Cell c 19 ho_19))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 20, and the read of what landed in slot 20
  ihave Xx := (held_elim _) $$ HC20
  icases Xx with ⟨Har1, Hcr1⟩
  ihave #HI := (inv_r1_20 (S1def m) (Y2def m) K c) $$ Hrec
  have hmw := mayWait31 (F := F) c (.dma (semAt cc0_scratch8 20 ho_20)) (by show (2 : ℕ) < 3; decide)
  sl_exec_parts
  clear hmw
  imod (Rounds.cell_close ER (sched (F := F) (S1def m) (Y2def m)) (Set.mem_univ (K (c, some (1, ⟨19, by decide⟩)))) (fun h => h) (R := 0 + 1) (duties_later (S1def m) (Y2def m) (r1Cell c 20 ho_20))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 21, and the read of what landed in slot 21
  ihave Xx := (held_elim _) $$ HC21
  icases Xx with ⟨Har1, Hcr1⟩
  ihave #HI := (inv_r1_21 (S1def m) (Y2def m) K c) $$ Hrec
  have hmw := mayWait31 (F := F) c (.dma (semAt cc0_scratch8 21 ho_21)) (by show (2 : ℕ) < 3; decide)
  sl_exec_parts
  clear hmw
  imod (Rounds.cell_close ER (sched (F := F) (S1def m) (Y2def m)) (Set.mem_univ (K (c, some (1, ⟨20, by decide⟩)))) (fun h => h) (R := 0 + 1) (duties_later (S1def m) (Y2def m) (r1Cell c 21 ho_21))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 22, and the read of what landed in slot 22
  ihave Xx := (held_elim _) $$ HC22
  icases Xx with ⟨Har1, Hcr1⟩
  ihave #HI := (inv_r1_22 (S1def m) (Y2def m) K c) $$ Hrec
  have hmw := mayWait31 (F := F) c (.dma (semAt cc0_scratch8 22 ho_22)) (by show (2 : ℕ) < 3; decide)
  sl_exec_parts
  clear hmw
  imod (Rounds.cell_close ER (sched (F := F) (S1def m) (Y2def m)) (Set.mem_univ (K (c, some (1, ⟨21, by decide⟩)))) (fun h => h) (R := 0 + 1) (duties_later (S1def m) (Y2def m) (r1Cell c 22 ho_22))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 23, and the read of what landed in slot 23
  ihave Xx := (held_elim _) $$ HC23
  icases Xx with ⟨Har1, Hcr1⟩
  ihave #HI := (inv_r1_23 (S1def m) (Y2def m) K c) $$ Hrec
  have hmw := mayWait31 (F := F) c (.dma (semAt cc0_scratch8 23 ho_23)) (by show (2 : ℕ) < 3; decide)
  sl_exec_parts
  clear hmw
  imod (Rounds.cell_close ER (sched (F := F) (S1def m) (Y2def m)) (Set.mem_univ (K (c, some (1, ⟨22, by decide⟩)))) (fun h => h) (R := 0 + 1) (duties_later (S1def m) (Y2def m) (r1Cell c 23 ho_23))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 24, and the read of what landed in slot 24
  ihave Xx := (held_elim _) $$ HC24
  icases Xx with ⟨Har1, Hcr1⟩
  ihave #HI := (inv_r1_24 (S1def m) (Y2def m) K c) $$ Hrec
  have hmw := mayWait31 (F := F) c (.dma (semAt cc0_scratch8 24 ho_24)) (by show (2 : ℕ) < 3; decide)
  sl_exec_parts
  clear hmw
  imod (Rounds.cell_close ER (sched (F := F) (S1def m) (Y2def m)) (Set.mem_univ (K (c, some (1, ⟨23, by decide⟩)))) (fun h => h) (R := 0 + 1) (duties_later (S1def m) (Y2def m) (r1Cell c 24 ho_24))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 25, and the read of what landed in slot 25
  ihave Xx := (held_elim _) $$ HC25
  icases Xx with ⟨Har1, Hcr1⟩
  ihave #HI := (inv_r1_25 (S1def m) (Y2def m) K c) $$ Hrec
  have hmw := mayWait31 (F := F) c (.dma (semAt cc0_scratch8 25 ho_25)) (by show (2 : ℕ) < 3; decide)
  sl_exec_parts
  clear hmw
  imod (Rounds.cell_close ER (sched (F := F) (S1def m) (Y2def m)) (Set.mem_univ (K (c, some (1, ⟨24, by decide⟩)))) (fun h => h) (R := 0 + 1) (duties_later (S1def m) (Y2def m) (r1Cell c 25 ho_25))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 26, and the read of what landed in slot 26
  ihave Xx := (held_elim _) $$ HC26
  icases Xx with ⟨Har1, Hcr1⟩
  ihave #HI := (inv_r1_26 (S1def m) (Y2def m) K c) $$ Hrec
  have hmw := mayWait31 (F := F) c (.dma (semAt cc0_scratch8 26 ho_26)) (by show (2 : ℕ) < 3; decide)
  sl_exec_parts
  clear hmw
  imod (Rounds.cell_close ER (sched (F := F) (S1def m) (Y2def m)) (Set.mem_univ (K (c, some (1, ⟨25, by decide⟩)))) (fun h => h) (R := 0 + 1) (duties_later (S1def m) (Y2def m) (r1Cell c 26 ho_26))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 27, and the read of what landed in slot 27
  ihave Xx := (held_elim _) $$ HC27
  icases Xx with ⟨Har1, Hcr1⟩
  ihave #HI := (inv_r1_27 (S1def m) (Y2def m) K c) $$ Hrec
  have hmw := mayWait31 (F := F) c (.dma (semAt cc0_scratch8 27 ho_27)) (by show (2 : ℕ) < 3; decide)
  sl_exec_parts
  clear hmw
  imod (Rounds.cell_close ER (sched (F := F) (S1def m) (Y2def m)) (Set.mem_univ (K (c, some (1, ⟨26, by decide⟩)))) (fun h => h) (R := 0 + 1) (duties_later (S1def m) (Y2def m) (r1Cell c 27 ho_27))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 28, and the read of what landed in slot 28
  ihave Xx := (held_elim _) $$ HC28
  icases Xx with ⟨Har1, Hcr1⟩
  ihave #HI := (inv_r1_28 (S1def m) (Y2def m) K c) $$ Hrec
  have hmw := mayWait31 (F := F) c (.dma (semAt cc0_scratch8 28 ho_28)) (by show (2 : ℕ) < 3; decide)
  sl_exec_parts
  clear hmw
  imod (Rounds.cell_close ER (sched (F := F) (S1def m) (Y2def m)) (Set.mem_univ (K (c, some (1, ⟨27, by decide⟩)))) (fun h => h) (R := 0 + 1) (duties_later (S1def m) (Y2def m) (r1Cell c 28 ho_28))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 29, and the read of what landed in slot 29
  ihave Xx := (held_elim _) $$ HC29
  icases Xx with ⟨Har1, Hcr1⟩
  ihave #HI := (inv_r1_29 (S1def m) (Y2def m) K c) $$ Hrec
  have hmw := mayWait31 (F := F) c (.dma (semAt cc0_scratch8 29 ho_29)) (by show (2 : ℕ) < 3; decide)
  sl_exec_parts
  clear hmw
  imod (Rounds.cell_close ER (sched (F := F) (S1def m) (Y2def m)) (Set.mem_univ (K (c, some (1, ⟨28, by decide⟩)))) (fun h => h) (R := 0 + 1) (duties_later (S1def m) (Y2def m) (r1Cell c 29 ho_29))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 30, and the read of what landed in slot 30
  ihave Xx := (held_elim _) $$ HC30
  icases Xx with ⟨Har1, Hcr1⟩
  ihave #HI := (inv_r1_30 (S1def m) (Y2def m) K c) $$ Hrec
  have hmw := mayWait31 (F := F) c (.dma (semAt cc0_scratch8 30 ho_30)) (by show (2 : ℕ) < 3; decide)
  sl_exec_parts
  clear hmw
  imod (Rounds.cell_close ER (sched (F := F) (S1def m) (Y2def m)) (Set.mem_univ (K (c, some (1, ⟨29, by decide⟩)))) (fun h => h) (R := 0 + 1) (duties_later (S1def m) (Y2def m) (r1Cell c 30 ho_30))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 31, and the read of what landed in slot 31
  ihave Xx := (held_elim _) $$ HC31
  icases Xx with ⟨Har1, Hcr1⟩
  ihave #HI := (inv_r1_31 (S1def m) (Y2def m) K c) $$ Hrec
  have hmw := mayWait31 (F := F) c (.dma (semAt cc0_scratch8 31 ho_31)) (by show (2 : ℕ) < 3; decide)
  ihave Lx := (held_elim _) $$ HLoc
  icases Lx with ⟨HzOut0, Hc1_0, Hc2_0, Hz70, Hz80, Hz90, Hz100⟩
  ihave Ox := (out_split (F := F) c fO) $$ HOo
  icases Ox with ⟨HOb0, HOb1, HOb2, HOb3, HOb4, HOb5, HOb6, HOb7, HOb8, HOb9, HOb10, HOb11, HOb12, HOb13, HOb14, HOb15, HOb16, HOb17, HOb18, HOb19, HOb20, HOb21, HOb22, HOb23, HOb24, HOb25, HOb26, HOb27, HOb28, HOb29, HOb30, HOb31⟩
  sl_exec_parts
  clear hmw
  imod (Rounds.cell_close ER (sched (F := F) (S1def m) (Y2def m)) (Set.mem_univ (K (c, some (1, ⟨30, by decide⟩)))) (fun h => h) (R := 0 + 1) (duties_later (S1def m) (Y2def m) (r1Cell c 31 ho_31))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the 16 result rows, narrowed: one read share per transfer of the second exchange
  have htv := tv_contents m c f0
  have hacc : body_run.sl.r_12 c m f0 = accDef m c := by
    unfold body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.dma0
    rw [htv]
    rfl
  have hY2 : st2.view.writes (Elt F) f3 (body_run.sl.Hs3_1 c m f0) = (Y2def m) c := by
    unfold body_run.sl.Hs3_1
    rw [hacc]
    exact st2_whole_write c f3 _
  rw [hY2]
  ihave Hs3 := (Entails.of_eq (show (st2.view.loc (c : Thread nD τ) ↦{fullShare} (Y2def m) c : sProp 𝕄) = (st2.view.loc (c : Thread nD τ) ↦[st2.view.set]{fullShare} (Y2def m) c : sProp 𝕄) from by rw [View.set_whole])) $$ Hs3
  ihave Hsh := (st2_split (F := F) c ((Y2def m) c)) $$ Hs3
  icases Hsh with ⟨Hsh0, Hsh1, Hsh2, Hsh3, Hsh4, Hsh5, Hsh6, Hsh7, Hsh8, Hsh9, Hsh10, Hsh11, Hsh12, Hsh13, Hsh14, Hsh15, Hsh16, Hsh17, Hsh18, Hsh19, Hsh20, Hsh21, Hsh22, Hsh23, Hsh24, Hsh25, Hsh26, Hsh27, Hsh28, Hsh29, Hsh30, Hsh31⟩
  ihave Hx := (held_elim _) $$ HDAll
  icases Hx with ⟨HD1, HD2, HD3, HD4, HD5, HD6, HD7, HD8, HD9, HD10, HD11, HD12, HD13, HD14, HD15, HD16, HD17, HD18, HD19, HD20, HD21, HD22, HD23, HD24, HD25, HD26, HD27, HD28, HD29, HD30, HD31⟩
  ihave Xq := (held_pop _ _) $$ HAccPb
  icases Xq with ⟨Hb31, HAccPb⟩
  ihave Xq := (held_pop _ _) $$ HAccPb
  icases Xq with ⟨Hb30, HAccPb⟩
  ihave Xq := (held_pop _ _) $$ HAccPb
  icases Xq with ⟨Hb29, HAccPb⟩
  ihave Xq := (held_pop _ _) $$ HAccPb
  icases Xq with ⟨Hb28, HAccPb⟩
  ihave Xq := (held_pop _ _) $$ HAccPb
  icases Xq with ⟨Hb27, HAccPb⟩
  ihave Xq := (held_pop _ _) $$ HAccPb
  icases Xq with ⟨Hb26, HAccPb⟩
  ihave Xq := (held_pop _ _) $$ HAccPb
  icases Xq with ⟨Hb25, HAccPb⟩
  ihave Xq := (held_pop _ _) $$ HAccPb
  icases Xq with ⟨Hb24, HAccPb⟩
  ihave Xq := (held_pop _ _) $$ HAccPb
  icases Xq with ⟨Hb23, HAccPb⟩
  ihave Xq := (held_pop _ _) $$ HAccPb
  icases Xq with ⟨Hb22, HAccPb⟩
  ihave Xq := (held_pop _ _) $$ HAccPb
  icases Xq with ⟨Hb21, HAccPb⟩
  ihave Xq := (held_pop _ _) $$ HAccPb
  icases Xq with ⟨Hb20, HAccPb⟩
  ihave Xq := (held_pop _ _) $$ HAccPb
  icases Xq with ⟨Hb19, HAccPb⟩
  ihave Xq := (held_pop _ _) $$ HAccPb
  icases Xq with ⟨Hb18, HAccPb⟩
  ihave Xq := (held_pop _ _) $$ HAccPb
  icases Xq with ⟨Hb17, HAccPb⟩
  ihave Xq := (held_pop _ _) $$ HAccPb
  icases Xq with ⟨Hb16, HAccPb⟩
  ihave Xq := (held_pop _ _) $$ HAccPb
  icases Xq with ⟨Hb15, HAccPb⟩
  ihave Xq := (held_pop _ _) $$ HAccPb
  icases Xq with ⟨Hb14, HAccPb⟩
  ihave Xq := (held_pop _ _) $$ HAccPb
  icases Xq with ⟨Hb13, HAccPb⟩
  ihave Xq := (held_pop _ _) $$ HAccPb
  icases Xq with ⟨Hb12, HAccPb⟩
  ihave Xq := (held_pop _ _) $$ HAccPb
  icases Xq with ⟨Hb11, HAccPb⟩
  ihave Xq := (held_pop _ _) $$ HAccPb
  icases Xq with ⟨Hb10, HAccPb⟩
  ihave Xq := (held_pop _ _) $$ HAccPb
  icases Xq with ⟨Hb9, HAccPb⟩
  ihave Xq := (held_pop _ _) $$ HAccPb
  icases Xq with ⟨Hb8, HAccPb⟩
  ihave Xq := (held_pop _ _) $$ HAccPb
  icases Xq with ⟨Hb7, HAccPb⟩
  ihave Xq := (held_pop _ _) $$ HAccPb
  icases Xq with ⟨Hb6, HAccPb⟩
  ihave Xq := (held_pop _ _) $$ HAccPb
  icases Xq with ⟨Hb5, HAccPb⟩
  ihave Xq := (held_pop _ _) $$ HAccPb
  icases Xq with ⟨Hb4, HAccPb⟩
  ihave Xq := (held_pop _ _) $$ HAccPb
  icases Xq with ⟨Hb3, HAccPb⟩
  ihave Xq := (held_pop _ _) $$ HAccPb
  icases Xq with ⟨Hb2, HAccPb⟩
  ihave Hb1 := (held_elim _) $$ HAccPb
  -- the second exchange's transfer at offset 1
  icases Hb1 with ⟨%fb1, Hbs⟩
  ihave Xx := (held_elim _) $$ HD1
  icases Xx with ⟨Hts2, Htr2p⟩
  ihave #HI1 := (inv_s2_1 (S1def m) (Y2def m) K c) $$ Hrec
  ihave #HI2 := (inv_r2p_1 (S1def m) (Y2def m) K c) $$ Hrec
  ihave #Hr1 := (rch_s2_1 (S1def m) (Y2def m) K c) $$ Hrec
  ihave #Hr2 := (rch_r2p_1 (S1def m) (Y2def m) K c) $$ Hrec
  iapply (wp_send2 (S1def m) (Y2def m) c _ 1 (dev63_eq c) hk_1 ho_1 _ _ (by rw [duties_2_1]; exact Finset.mem_singleton_self _) (by rw [duties_3_1]; exact Finset.mem_singleton_self _)
      (pay_2_1 (S1def m) (Y2def m) c 0 0) (pay_3_1 (S1def m) (Y2def m) (rot c 1) 0 0) fb1 _ _) $$ [Hsh1 Hbs HO Hts2 Htr2p]
  · isplitr; · iexact HI1
    isplitr; · iexact HI2
    isplitl [Hsh1]; · iexact Hsh1
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_intro _) $$ Hcs
  iclear HI1 HI2 Hr1 Hr2
  sl_exec_parts
  -- the second exchange's transfer at offset 2
  icases Hb2 with ⟨%fb2, Hbs⟩
  ihave Xx := (held_elim _) $$ HD2
  icases Xx with ⟨Hts2, Htr2p⟩
  ihave #HI1 := (inv_s2_2 (S1def m) (Y2def m) K c) $$ Hrec
  ihave #HI2 := (inv_r2p_2 (S1def m) (Y2def m) K c) $$ Hrec
  ihave #Hr1 := (rch_s2_2 (S1def m) (Y2def m) K c) $$ Hrec
  ihave #Hr2 := (rch_r2p_2 (S1def m) (Y2def m) K c) $$ Hrec
  iapply (wp_send2 (S1def m) (Y2def m) c _ 2 (dev64_eq c) hk_2 ho_2 _ _ (by rw [duties_2_2]; exact Finset.mem_singleton_self _) (by rw [duties_3_2]; exact Finset.mem_singleton_self _)
      (pay_2_2 (S1def m) (Y2def m) c 0 0) (pay_3_2 (S1def m) (Y2def m) (rot c 2) 0 0) fb2 _ _) $$ [Hsh2 Hbs HO Hts2 Htr2p]
  · isplitr; · iexact HI1
    isplitr; · iexact HI2
    isplitl [Hsh2]; · iexact Hsh2
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 3
  icases Hb3 with ⟨%fb3, Hbs⟩
  ihave Xx := (held_elim _) $$ HD3
  icases Xx with ⟨Hts2, Htr2p⟩
  ihave #HI1 := (inv_s2_3 (S1def m) (Y2def m) K c) $$ Hrec
  ihave #HI2 := (inv_r2p_3 (S1def m) (Y2def m) K c) $$ Hrec
  ihave #Hr1 := (rch_s2_3 (S1def m) (Y2def m) K c) $$ Hrec
  ihave #Hr2 := (rch_r2p_3 (S1def m) (Y2def m) K c) $$ Hrec
  iapply (wp_send2 (S1def m) (Y2def m) c _ 3 (dev65_eq c) hk_3 ho_3 _ _ (by rw [duties_2_3]; exact Finset.mem_singleton_self _) (by rw [duties_3_3]; exact Finset.mem_singleton_self _)
      (pay_2_3 (S1def m) (Y2def m) c 0 0) (pay_3_3 (S1def m) (Y2def m) (rot c 3) 0 0) fb3 _ _) $$ [Hsh3 Hbs HO Hts2 Htr2p]
  · isplitr; · iexact HI1
    isplitr; · iexact HI2
    isplitl [Hsh3]; · iexact Hsh3
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 4
  icases Hb4 with ⟨%fb4, Hbs⟩
  ihave Xx := (held_elim _) $$ HD4
  icases Xx with ⟨Hts2, Htr2p⟩
  ihave #HI1 := (inv_s2_4 (S1def m) (Y2def m) K c) $$ Hrec
  ihave #HI2 := (inv_r2p_4 (S1def m) (Y2def m) K c) $$ Hrec
  ihave #Hr1 := (rch_s2_4 (S1def m) (Y2def m) K c) $$ Hrec
  ihave #Hr2 := (rch_r2p_4 (S1def m) (Y2def m) K c) $$ Hrec
  iapply (wp_send2 (S1def m) (Y2def m) c _ 4 (dev66_eq c) hk_4 ho_4 _ _ (by rw [duties_2_4]; exact Finset.mem_singleton_self _) (by rw [duties_3_4]; exact Finset.mem_singleton_self _)
      (pay_2_4 (S1def m) (Y2def m) c 0 0) (pay_3_4 (S1def m) (Y2def m) (rot c 4) 0 0) fb4 _ _) $$ [Hsh4 Hbs HO Hts2 Htr2p]
  · isplitr; · iexact HI1
    isplitr; · iexact HI2
    isplitl [Hsh4]; · iexact Hsh4
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 5
  icases Hb5 with ⟨%fb5, Hbs⟩
  ihave Xx := (held_elim _) $$ HD5
  icases Xx with ⟨Hts2, Htr2p⟩
  ihave #HI1 := (inv_s2_5 (S1def m) (Y2def m) K c) $$ Hrec
  ihave #HI2 := (inv_r2p_5 (S1def m) (Y2def m) K c) $$ Hrec
  ihave #Hr1 := (rch_s2_5 (S1def m) (Y2def m) K c) $$ Hrec
  ihave #Hr2 := (rch_r2p_5 (S1def m) (Y2def m) K c) $$ Hrec
  iapply (wp_send2 (S1def m) (Y2def m) c _ 5 (dev67_eq c) hk_5 ho_5 _ _ (by rw [duties_2_5]; exact Finset.mem_singleton_self _) (by rw [duties_3_5]; exact Finset.mem_singleton_self _)
      (pay_2_5 (S1def m) (Y2def m) c 0 0) (pay_3_5 (S1def m) (Y2def m) (rot c 5) 0 0) fb5 _ _) $$ [Hsh5 Hbs HO Hts2 Htr2p]
  · isplitr; · iexact HI1
    isplitr; · iexact HI2
    isplitl [Hsh5]; · iexact Hsh5
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 6
  icases Hb6 with ⟨%fb6, Hbs⟩
  ihave Xx := (held_elim _) $$ HD6
  icases Xx with ⟨Hts2, Htr2p⟩
  ihave #HI1 := (inv_s2_6 (S1def m) (Y2def m) K c) $$ Hrec
  ihave #HI2 := (inv_r2p_6 (S1def m) (Y2def m) K c) $$ Hrec
  ihave #Hr1 := (rch_s2_6 (S1def m) (Y2def m) K c) $$ Hrec
  ihave #Hr2 := (rch_r2p_6 (S1def m) (Y2def m) K c) $$ Hrec
  iapply (wp_send2 (S1def m) (Y2def m) c _ 6 (dev68_eq c) hk_6 ho_6 _ _ (by rw [duties_2_6]; exact Finset.mem_singleton_self _) (by rw [duties_3_6]; exact Finset.mem_singleton_self _)
      (pay_2_6 (S1def m) (Y2def m) c 0 0) (pay_3_6 (S1def m) (Y2def m) (rot c 6) 0 0) fb6 _ _) $$ [Hsh6 Hbs HO Hts2 Htr2p]
  · isplitr; · iexact HI1
    isplitr; · iexact HI2
    isplitl [Hsh6]; · iexact Hsh6
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 7
  icases Hb7 with ⟨%fb7, Hbs⟩
  ihave Xx := (held_elim _) $$ HD7
  icases Xx with ⟨Hts2, Htr2p⟩
  ihave #HI1 := (inv_s2_7 (S1def m) (Y2def m) K c) $$ Hrec
  ihave #HI2 := (inv_r2p_7 (S1def m) (Y2def m) K c) $$ Hrec
  ihave #Hr1 := (rch_s2_7 (S1def m) (Y2def m) K c) $$ Hrec
  ihave #Hr2 := (rch_r2p_7 (S1def m) (Y2def m) K c) $$ Hrec
  iapply (wp_send2 (S1def m) (Y2def m) c _ 7 (dev69_eq c) hk_7 ho_7 _ _ (by rw [duties_2_7]; exact Finset.mem_singleton_self _) (by rw [duties_3_7]; exact Finset.mem_singleton_self _)
      (pay_2_7 (S1def m) (Y2def m) c 0 0) (pay_3_7 (S1def m) (Y2def m) (rot c 7) 0 0) fb7 _ _) $$ [Hsh7 Hbs HO Hts2 Htr2p]
  · isplitr; · iexact HI1
    isplitr; · iexact HI2
    isplitl [Hsh7]; · iexact Hsh7
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 8
  icases Hb8 with ⟨%fb8, Hbs⟩
  ihave Xx := (held_elim _) $$ HD8
  icases Xx with ⟨Hts2, Htr2p⟩
  ihave #HI1 := (inv_s2_8 (S1def m) (Y2def m) K c) $$ Hrec
  ihave #HI2 := (inv_r2p_8 (S1def m) (Y2def m) K c) $$ Hrec
  ihave #Hr1 := (rch_s2_8 (S1def m) (Y2def m) K c) $$ Hrec
  ihave #Hr2 := (rch_r2p_8 (S1def m) (Y2def m) K c) $$ Hrec
  iapply (wp_send2 (S1def m) (Y2def m) c _ 8 (dev70_eq c) hk_8 ho_8 _ _ (by rw [duties_2_8]; exact Finset.mem_singleton_self _) (by rw [duties_3_8]; exact Finset.mem_singleton_self _)
      (pay_2_8 (S1def m) (Y2def m) c 0 0) (pay_3_8 (S1def m) (Y2def m) (rot c 8) 0 0) fb8 _ _) $$ [Hsh8 Hbs HO Hts2 Htr2p]
  · isplitr; · iexact HI1
    isplitr; · iexact HI2
    isplitl [Hsh8]; · iexact Hsh8
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 9
  icases Hb9 with ⟨%fb9, Hbs⟩
  ihave Xx := (held_elim _) $$ HD9
  icases Xx with ⟨Hts2, Htr2p⟩
  ihave #HI1 := (inv_s2_9 (S1def m) (Y2def m) K c) $$ Hrec
  ihave #HI2 := (inv_r2p_9 (S1def m) (Y2def m) K c) $$ Hrec
  ihave #Hr1 := (rch_s2_9 (S1def m) (Y2def m) K c) $$ Hrec
  ihave #Hr2 := (rch_r2p_9 (S1def m) (Y2def m) K c) $$ Hrec
  iapply (wp_send2 (S1def m) (Y2def m) c _ 9 (dev71_eq c) hk_9 ho_9 _ _ (by rw [duties_2_9]; exact Finset.mem_singleton_self _) (by rw [duties_3_9]; exact Finset.mem_singleton_self _)
      (pay_2_9 (S1def m) (Y2def m) c 0 0) (pay_3_9 (S1def m) (Y2def m) (rot c 9) 0 0) fb9 _ _) $$ [Hsh9 Hbs HO Hts2 Htr2p]
  · isplitr; · iexact HI1
    isplitr; · iexact HI2
    isplitl [Hsh9]; · iexact Hsh9
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 10
  icases Hb10 with ⟨%fb10, Hbs⟩
  ihave Xx := (held_elim _) $$ HD10
  icases Xx with ⟨Hts2, Htr2p⟩
  ihave #HI1 := (inv_s2_10 (S1def m) (Y2def m) K c) $$ Hrec
  ihave #HI2 := (inv_r2p_10 (S1def m) (Y2def m) K c) $$ Hrec
  ihave #Hr1 := (rch_s2_10 (S1def m) (Y2def m) K c) $$ Hrec
  ihave #Hr2 := (rch_r2p_10 (S1def m) (Y2def m) K c) $$ Hrec
  iapply (wp_send2 (S1def m) (Y2def m) c _ 10 (dev72_eq c) hk_10 ho_10 _ _ (by rw [duties_2_10]; exact Finset.mem_singleton_self _) (by rw [duties_3_10]; exact Finset.mem_singleton_self _)
      (pay_2_10 (S1def m) (Y2def m) c 0 0) (pay_3_10 (S1def m) (Y2def m) (rot c 10) 0 0) fb10 _ _) $$ [Hsh10 Hbs HO Hts2 Htr2p]
  · isplitr; · iexact HI1
    isplitr; · iexact HI2
    isplitl [Hsh10]; · iexact Hsh10
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 11
  icases Hb11 with ⟨%fb11, Hbs⟩
  ihave Xx := (held_elim _) $$ HD11
  icases Xx with ⟨Hts2, Htr2p⟩
  ihave #HI1 := (inv_s2_11 (S1def m) (Y2def m) K c) $$ Hrec
  ihave #HI2 := (inv_r2p_11 (S1def m) (Y2def m) K c) $$ Hrec
  ihave #Hr1 := (rch_s2_11 (S1def m) (Y2def m) K c) $$ Hrec
  ihave #Hr2 := (rch_r2p_11 (S1def m) (Y2def m) K c) $$ Hrec
  iapply (wp_send2 (S1def m) (Y2def m) c _ 11 (dev73_eq c) hk_11 ho_11 _ _ (by rw [duties_2_11]; exact Finset.mem_singleton_self _) (by rw [duties_3_11]; exact Finset.mem_singleton_self _)
      (pay_2_11 (S1def m) (Y2def m) c 0 0) (pay_3_11 (S1def m) (Y2def m) (rot c 11) 0 0) fb11 _ _) $$ [Hsh11 Hbs HO Hts2 Htr2p]
  · isplitr; · iexact HI1
    isplitr; · iexact HI2
    isplitl [Hsh11]; · iexact Hsh11
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 12
  icases Hb12 with ⟨%fb12, Hbs⟩
  ihave Xx := (held_elim _) $$ HD12
  icases Xx with ⟨Hts2, Htr2p⟩
  ihave #HI1 := (inv_s2_12 (S1def m) (Y2def m) K c) $$ Hrec
  ihave #HI2 := (inv_r2p_12 (S1def m) (Y2def m) K c) $$ Hrec
  ihave #Hr1 := (rch_s2_12 (S1def m) (Y2def m) K c) $$ Hrec
  ihave #Hr2 := (rch_r2p_12 (S1def m) (Y2def m) K c) $$ Hrec
  iapply (wp_send2 (S1def m) (Y2def m) c _ 12 (dev74_eq c) hk_12 ho_12 _ _ (by rw [duties_2_12]; exact Finset.mem_singleton_self _) (by rw [duties_3_12]; exact Finset.mem_singleton_self _)
      (pay_2_12 (S1def m) (Y2def m) c 0 0) (pay_3_12 (S1def m) (Y2def m) (rot c 12) 0 0) fb12 _ _) $$ [Hsh12 Hbs HO Hts2 Htr2p]
  · isplitr; · iexact HI1
    isplitr; · iexact HI2
    isplitl [Hsh12]; · iexact Hsh12
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 13
  icases Hb13 with ⟨%fb13, Hbs⟩
  ihave Xx := (held_elim _) $$ HD13
  icases Xx with ⟨Hts2, Htr2p⟩
  ihave #HI1 := (inv_s2_13 (S1def m) (Y2def m) K c) $$ Hrec
  ihave #HI2 := (inv_r2p_13 (S1def m) (Y2def m) K c) $$ Hrec
  ihave #Hr1 := (rch_s2_13 (S1def m) (Y2def m) K c) $$ Hrec
  ihave #Hr2 := (rch_r2p_13 (S1def m) (Y2def m) K c) $$ Hrec
  iapply (wp_send2 (S1def m) (Y2def m) c _ 13 (dev75_eq c) hk_13 ho_13 _ _ (by rw [duties_2_13]; exact Finset.mem_singleton_self _) (by rw [duties_3_13]; exact Finset.mem_singleton_self _)
      (pay_2_13 (S1def m) (Y2def m) c 0 0) (pay_3_13 (S1def m) (Y2def m) (rot c 13) 0 0) fb13 _ _) $$ [Hsh13 Hbs HO Hts2 Htr2p]
  · isplitr; · iexact HI1
    isplitr; · iexact HI2
    isplitl [Hsh13]; · iexact Hsh13
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 14
  icases Hb14 with ⟨%fb14, Hbs⟩
  ihave Xx := (held_elim _) $$ HD14
  icases Xx with ⟨Hts2, Htr2p⟩
  ihave #HI1 := (inv_s2_14 (S1def m) (Y2def m) K c) $$ Hrec
  ihave #HI2 := (inv_r2p_14 (S1def m) (Y2def m) K c) $$ Hrec
  ihave #Hr1 := (rch_s2_14 (S1def m) (Y2def m) K c) $$ Hrec
  ihave #Hr2 := (rch_r2p_14 (S1def m) (Y2def m) K c) $$ Hrec
  iapply (wp_send2 (S1def m) (Y2def m) c _ 14 (dev76_eq c) hk_14 ho_14 _ _ (by rw [duties_2_14]; exact Finset.mem_singleton_self _) (by rw [duties_3_14]; exact Finset.mem_singleton_self _)
      (pay_2_14 (S1def m) (Y2def m) c 0 0) (pay_3_14 (S1def m) (Y2def m) (rot c 14) 0 0) fb14 _ _) $$ [Hsh14 Hbs HO Hts2 Htr2p]
  · isplitr; · iexact HI1
    isplitr; · iexact HI2
    isplitl [Hsh14]; · iexact Hsh14
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 15
  icases Hb15 with ⟨%fb15, Hbs⟩
  ihave Xx := (held_elim _) $$ HD15
  icases Xx with ⟨Hts2, Htr2p⟩
  ihave #HI1 := (inv_s2_15 (S1def m) (Y2def m) K c) $$ Hrec
  ihave #HI2 := (inv_r2p_15 (S1def m) (Y2def m) K c) $$ Hrec
  ihave #Hr1 := (rch_s2_15 (S1def m) (Y2def m) K c) $$ Hrec
  ihave #Hr2 := (rch_r2p_15 (S1def m) (Y2def m) K c) $$ Hrec
  iapply (wp_send2 (S1def m) (Y2def m) c _ 15 (dev77_eq c) hk_15 ho_15 _ _ (by rw [duties_2_15]; exact Finset.mem_singleton_self _) (by rw [duties_3_15]; exact Finset.mem_singleton_self _)
      (pay_2_15 (S1def m) (Y2def m) c 0 0) (pay_3_15 (S1def m) (Y2def m) (rot c 15) 0 0) fb15 _ _) $$ [Hsh15 Hbs HO Hts2 Htr2p]
  · isplitr; · iexact HI1
    isplitr; · iexact HI2
    isplitl [Hsh15]; · iexact Hsh15
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 16
  icases Hb16 with ⟨%fb16, Hbs⟩
  ihave Xx := (held_elim _) $$ HD16
  icases Xx with ⟨Hts2, Htr2p⟩
  ihave #HI1 := (inv_s2_16 (S1def m) (Y2def m) K c) $$ Hrec
  ihave #HI2 := (inv_r2p_16 (S1def m) (Y2def m) K c) $$ Hrec
  ihave #Hr1 := (rch_s2_16 (S1def m) (Y2def m) K c) $$ Hrec
  ihave #Hr2 := (rch_r2p_16 (S1def m) (Y2def m) K c) $$ Hrec
  iapply (wp_send2 (S1def m) (Y2def m) c _ 16 (dev78_eq c) hk_16 ho_16 _ _ (by rw [duties_2_16]; exact Finset.mem_singleton_self _) (by rw [duties_3_16]; exact Finset.mem_singleton_self _)
      (pay_2_16 (S1def m) (Y2def m) c 0 0) (pay_3_16 (S1def m) (Y2def m) (rot c 16) 0 0) fb16 _ _) $$ [Hsh16 Hbs HO Hts2 Htr2p]
  · isplitr; · iexact HI1
    isplitr; · iexact HI2
    isplitl [Hsh16]; · iexact Hsh16
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 17
  icases Hb17 with ⟨%fb17, Hbs⟩
  ihave Xx := (held_elim _) $$ HD17
  icases Xx with ⟨Hts2, Htr2p⟩
  ihave #HI1 := (inv_s2_17 (S1def m) (Y2def m) K c) $$ Hrec
  ihave #HI2 := (inv_r2p_17 (S1def m) (Y2def m) K c) $$ Hrec
  ihave #Hr1 := (rch_s2_17 (S1def m) (Y2def m) K c) $$ Hrec
  ihave #Hr2 := (rch_r2p_17 (S1def m) (Y2def m) K c) $$ Hrec
  iapply (wp_send2 (S1def m) (Y2def m) c _ 17 (dev79_eq c) hk_17 ho_17 _ _ (by rw [duties_2_17]; exact Finset.mem_singleton_self _) (by rw [duties_3_17]; exact Finset.mem_singleton_self _)
      (pay_2_17 (S1def m) (Y2def m) c 0 0) (pay_3_17 (S1def m) (Y2def m) (rot c 17) 0 0) fb17 _ _) $$ [Hsh17 Hbs HO Hts2 Htr2p]
  · isplitr; · iexact HI1
    isplitr; · iexact HI2
    isplitl [Hsh17]; · iexact Hsh17
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 18
  icases Hb18 with ⟨%fb18, Hbs⟩
  ihave Xx := (held_elim _) $$ HD18
  icases Xx with ⟨Hts2, Htr2p⟩
  ihave #HI1 := (inv_s2_18 (S1def m) (Y2def m) K c) $$ Hrec
  ihave #HI2 := (inv_r2p_18 (S1def m) (Y2def m) K c) $$ Hrec
  ihave #Hr1 := (rch_s2_18 (S1def m) (Y2def m) K c) $$ Hrec
  ihave #Hr2 := (rch_r2p_18 (S1def m) (Y2def m) K c) $$ Hrec
  iapply (wp_send2 (S1def m) (Y2def m) c _ 18 (dev80_eq c) hk_18 ho_18 _ _ (by rw [duties_2_18]; exact Finset.mem_singleton_self _) (by rw [duties_3_18]; exact Finset.mem_singleton_self _)
      (pay_2_18 (S1def m) (Y2def m) c 0 0) (pay_3_18 (S1def m) (Y2def m) (rot c 18) 0 0) fb18 _ _) $$ [Hsh18 Hbs HO Hts2 Htr2p]
  · isplitr; · iexact HI1
    isplitr; · iexact HI2
    isplitl [Hsh18]; · iexact Hsh18
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 19
  icases Hb19 with ⟨%fb19, Hbs⟩
  ihave Xx := (held_elim _) $$ HD19
  icases Xx with ⟨Hts2, Htr2p⟩
  ihave #HI1 := (inv_s2_19 (S1def m) (Y2def m) K c) $$ Hrec
  ihave #HI2 := (inv_r2p_19 (S1def m) (Y2def m) K c) $$ Hrec
  ihave #Hr1 := (rch_s2_19 (S1def m) (Y2def m) K c) $$ Hrec
  ihave #Hr2 := (rch_r2p_19 (S1def m) (Y2def m) K c) $$ Hrec
  iapply (wp_send2 (S1def m) (Y2def m) c _ 19 (dev81_eq c) hk_19 ho_19 _ _ (by rw [duties_2_19]; exact Finset.mem_singleton_self _) (by rw [duties_3_19]; exact Finset.mem_singleton_self _)
      (pay_2_19 (S1def m) (Y2def m) c 0 0) (pay_3_19 (S1def m) (Y2def m) (rot c 19) 0 0) fb19 _ _) $$ [Hsh19 Hbs HO Hts2 Htr2p]
  · isplitr; · iexact HI1
    isplitr; · iexact HI2
    isplitl [Hsh19]; · iexact Hsh19
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 20
  icases Hb20 with ⟨%fb20, Hbs⟩
  ihave Xx := (held_elim _) $$ HD20
  icases Xx with ⟨Hts2, Htr2p⟩
  ihave #HI1 := (inv_s2_20 (S1def m) (Y2def m) K c) $$ Hrec
  ihave #HI2 := (inv_r2p_20 (S1def m) (Y2def m) K c) $$ Hrec
  ihave #Hr1 := (rch_s2_20 (S1def m) (Y2def m) K c) $$ Hrec
  ihave #Hr2 := (rch_r2p_20 (S1def m) (Y2def m) K c) $$ Hrec
  iapply (wp_send2 (S1def m) (Y2def m) c _ 20 (dev82_eq c) hk_20 ho_20 _ _ (by rw [duties_2_20]; exact Finset.mem_singleton_self _) (by rw [duties_3_20]; exact Finset.mem_singleton_self _)
      (pay_2_20 (S1def m) (Y2def m) c 0 0) (pay_3_20 (S1def m) (Y2def m) (rot c 20) 0 0) fb20 _ _) $$ [Hsh20 Hbs HO Hts2 Htr2p]
  · isplitr; · iexact HI1
    isplitr; · iexact HI2
    isplitl [Hsh20]; · iexact Hsh20
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 21
  icases Hb21 with ⟨%fb21, Hbs⟩
  ihave Xx := (held_elim _) $$ HD21
  icases Xx with ⟨Hts2, Htr2p⟩
  ihave #HI1 := (inv_s2_21 (S1def m) (Y2def m) K c) $$ Hrec
  ihave #HI2 := (inv_r2p_21 (S1def m) (Y2def m) K c) $$ Hrec
  ihave #Hr1 := (rch_s2_21 (S1def m) (Y2def m) K c) $$ Hrec
  ihave #Hr2 := (rch_r2p_21 (S1def m) (Y2def m) K c) $$ Hrec
  iapply (wp_send2 (S1def m) (Y2def m) c _ 21 (dev83_eq c) hk_21 ho_21 _ _ (by rw [duties_2_21]; exact Finset.mem_singleton_self _) (by rw [duties_3_21]; exact Finset.mem_singleton_self _)
      (pay_2_21 (S1def m) (Y2def m) c 0 0) (pay_3_21 (S1def m) (Y2def m) (rot c 21) 0 0) fb21 _ _) $$ [Hsh21 Hbs HO Hts2 Htr2p]
  · isplitr; · iexact HI1
    isplitr; · iexact HI2
    isplitl [Hsh21]; · iexact Hsh21
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 22
  icases Hb22 with ⟨%fb22, Hbs⟩
  ihave Xx := (held_elim _) $$ HD22
  icases Xx with ⟨Hts2, Htr2p⟩
  ihave #HI1 := (inv_s2_22 (S1def m) (Y2def m) K c) $$ Hrec
  ihave #HI2 := (inv_r2p_22 (S1def m) (Y2def m) K c) $$ Hrec
  ihave #Hr1 := (rch_s2_22 (S1def m) (Y2def m) K c) $$ Hrec
  ihave #Hr2 := (rch_r2p_22 (S1def m) (Y2def m) K c) $$ Hrec
  iapply (wp_send2 (S1def m) (Y2def m) c _ 22 (dev84_eq c) hk_22 ho_22 _ _ (by rw [duties_2_22]; exact Finset.mem_singleton_self _) (by rw [duties_3_22]; exact Finset.mem_singleton_self _)
      (pay_2_22 (S1def m) (Y2def m) c 0 0) (pay_3_22 (S1def m) (Y2def m) (rot c 22) 0 0) fb22 _ _) $$ [Hsh22 Hbs HO Hts2 Htr2p]
  · isplitr; · iexact HI1
    isplitr; · iexact HI2
    isplitl [Hsh22]; · iexact Hsh22
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 23
  icases Hb23 with ⟨%fb23, Hbs⟩
  ihave Xx := (held_elim _) $$ HD23
  icases Xx with ⟨Hts2, Htr2p⟩
  ihave #HI1 := (inv_s2_23 (S1def m) (Y2def m) K c) $$ Hrec
  ihave #HI2 := (inv_r2p_23 (S1def m) (Y2def m) K c) $$ Hrec
  ihave #Hr1 := (rch_s2_23 (S1def m) (Y2def m) K c) $$ Hrec
  ihave #Hr2 := (rch_r2p_23 (S1def m) (Y2def m) K c) $$ Hrec
  iapply (wp_send2 (S1def m) (Y2def m) c _ 23 (dev85_eq c) hk_23 ho_23 _ _ (by rw [duties_2_23]; exact Finset.mem_singleton_self _) (by rw [duties_3_23]; exact Finset.mem_singleton_self _)
      (pay_2_23 (S1def m) (Y2def m) c 0 0) (pay_3_23 (S1def m) (Y2def m) (rot c 23) 0 0) fb23 _ _) $$ [Hsh23 Hbs HO Hts2 Htr2p]
  · isplitr; · iexact HI1
    isplitr; · iexact HI2
    isplitl [Hsh23]; · iexact Hsh23
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 24
  icases Hb24 with ⟨%fb24, Hbs⟩
  ihave Xx := (held_elim _) $$ HD24
  icases Xx with ⟨Hts2, Htr2p⟩
  ihave #HI1 := (inv_s2_24 (S1def m) (Y2def m) K c) $$ Hrec
  ihave #HI2 := (inv_r2p_24 (S1def m) (Y2def m) K c) $$ Hrec
  ihave #Hr1 := (rch_s2_24 (S1def m) (Y2def m) K c) $$ Hrec
  ihave #Hr2 := (rch_r2p_24 (S1def m) (Y2def m) K c) $$ Hrec
  iapply (wp_send2 (S1def m) (Y2def m) c _ 24 (dev86_eq c) hk_24 ho_24 _ _ (by rw [duties_2_24]; exact Finset.mem_singleton_self _) (by rw [duties_3_24]; exact Finset.mem_singleton_self _)
      (pay_2_24 (S1def m) (Y2def m) c 0 0) (pay_3_24 (S1def m) (Y2def m) (rot c 24) 0 0) fb24 _ _) $$ [Hsh24 Hbs HO Hts2 Htr2p]
  · isplitr; · iexact HI1
    isplitr; · iexact HI2
    isplitl [Hsh24]; · iexact Hsh24
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 25
  icases Hb25 with ⟨%fb25, Hbs⟩
  ihave Xx := (held_elim _) $$ HD25
  icases Xx with ⟨Hts2, Htr2p⟩
  ihave #HI1 := (inv_s2_25 (S1def m) (Y2def m) K c) $$ Hrec
  ihave #HI2 := (inv_r2p_25 (S1def m) (Y2def m) K c) $$ Hrec
  ihave #Hr1 := (rch_s2_25 (S1def m) (Y2def m) K c) $$ Hrec
  ihave #Hr2 := (rch_r2p_25 (S1def m) (Y2def m) K c) $$ Hrec
  iapply (wp_send2 (S1def m) (Y2def m) c _ 25 (dev87_eq c) hk_25 ho_25 _ _ (by rw [duties_2_25]; exact Finset.mem_singleton_self _) (by rw [duties_3_25]; exact Finset.mem_singleton_self _)
      (pay_2_25 (S1def m) (Y2def m) c 0 0) (pay_3_25 (S1def m) (Y2def m) (rot c 25) 0 0) fb25 _ _) $$ [Hsh25 Hbs HO Hts2 Htr2p]
  · isplitr; · iexact HI1
    isplitr; · iexact HI2
    isplitl [Hsh25]; · iexact Hsh25
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 26
  icases Hb26 with ⟨%fb26, Hbs⟩
  ihave Xx := (held_elim _) $$ HD26
  icases Xx with ⟨Hts2, Htr2p⟩
  ihave #HI1 := (inv_s2_26 (S1def m) (Y2def m) K c) $$ Hrec
  ihave #HI2 := (inv_r2p_26 (S1def m) (Y2def m) K c) $$ Hrec
  ihave #Hr1 := (rch_s2_26 (S1def m) (Y2def m) K c) $$ Hrec
  ihave #Hr2 := (rch_r2p_26 (S1def m) (Y2def m) K c) $$ Hrec
  iapply (wp_send2 (S1def m) (Y2def m) c _ 26 (dev88_eq c) hk_26 ho_26 _ _ (by rw [duties_2_26]; exact Finset.mem_singleton_self _) (by rw [duties_3_26]; exact Finset.mem_singleton_self _)
      (pay_2_26 (S1def m) (Y2def m) c 0 0) (pay_3_26 (S1def m) (Y2def m) (rot c 26) 0 0) fb26 _ _) $$ [Hsh26 Hbs HO Hts2 Htr2p]
  · isplitr; · iexact HI1
    isplitr; · iexact HI2
    isplitl [Hsh26]; · iexact Hsh26
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 27
  icases Hb27 with ⟨%fb27, Hbs⟩
  ihave Xx := (held_elim _) $$ HD27
  icases Xx with ⟨Hts2, Htr2p⟩
  ihave #HI1 := (inv_s2_27 (S1def m) (Y2def m) K c) $$ Hrec
  ihave #HI2 := (inv_r2p_27 (S1def m) (Y2def m) K c) $$ Hrec
  ihave #Hr1 := (rch_s2_27 (S1def m) (Y2def m) K c) $$ Hrec
  ihave #Hr2 := (rch_r2p_27 (S1def m) (Y2def m) K c) $$ Hrec
  iapply (wp_send2 (S1def m) (Y2def m) c _ 27 (dev89_eq c) hk_27 ho_27 _ _ (by rw [duties_2_27]; exact Finset.mem_singleton_self _) (by rw [duties_3_27]; exact Finset.mem_singleton_self _)
      (pay_2_27 (S1def m) (Y2def m) c 0 0) (pay_3_27 (S1def m) (Y2def m) (rot c 27) 0 0) fb27 _ _) $$ [Hsh27 Hbs HO Hts2 Htr2p]
  · isplitr; · iexact HI1
    isplitr; · iexact HI2
    isplitl [Hsh27]; · iexact Hsh27
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 28
  icases Hb28 with ⟨%fb28, Hbs⟩
  ihave Xx := (held_elim _) $$ HD28
  icases Xx with ⟨Hts2, Htr2p⟩
  ihave #HI1 := (inv_s2_28 (S1def m) (Y2def m) K c) $$ Hrec
  ihave #HI2 := (inv_r2p_28 (S1def m) (Y2def m) K c) $$ Hrec
  ihave #Hr1 := (rch_s2_28 (S1def m) (Y2def m) K c) $$ Hrec
  ihave #Hr2 := (rch_r2p_28 (S1def m) (Y2def m) K c) $$ Hrec
  iapply (wp_send2 (S1def m) (Y2def m) c _ 28 (dev90_eq c) hk_28 ho_28 _ _ (by rw [duties_2_28]; exact Finset.mem_singleton_self _) (by rw [duties_3_28]; exact Finset.mem_singleton_self _)
      (pay_2_28 (S1def m) (Y2def m) c 0 0) (pay_3_28 (S1def m) (Y2def m) (rot c 28) 0 0) fb28 _ _) $$ [Hsh28 Hbs HO Hts2 Htr2p]
  · isplitr; · iexact HI1
    isplitr; · iexact HI2
    isplitl [Hsh28]; · iexact Hsh28
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 29
  icases Hb29 with ⟨%fb29, Hbs⟩
  ihave Xx := (held_elim _) $$ HD29
  icases Xx with ⟨Hts2, Htr2p⟩
  ihave #HI1 := (inv_s2_29 (S1def m) (Y2def m) K c) $$ Hrec
  ihave #HI2 := (inv_r2p_29 (S1def m) (Y2def m) K c) $$ Hrec
  ihave #Hr1 := (rch_s2_29 (S1def m) (Y2def m) K c) $$ Hrec
  ihave #Hr2 := (rch_r2p_29 (S1def m) (Y2def m) K c) $$ Hrec
  iapply (wp_send2 (S1def m) (Y2def m) c _ 29 (dev91_eq c) hk_29 ho_29 _ _ (by rw [duties_2_29]; exact Finset.mem_singleton_self _) (by rw [duties_3_29]; exact Finset.mem_singleton_self _)
      (pay_2_29 (S1def m) (Y2def m) c 0 0) (pay_3_29 (S1def m) (Y2def m) (rot c 29) 0 0) fb29 _ _) $$ [Hsh29 Hbs HO Hts2 Htr2p]
  · isplitr; · iexact HI1
    isplitr; · iexact HI2
    isplitl [Hsh29]; · iexact Hsh29
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 30
  icases Hb30 with ⟨%fb30, Hbs⟩
  ihave Xx := (held_elim _) $$ HD30
  icases Xx with ⟨Hts2, Htr2p⟩
  ihave #HI1 := (inv_s2_30 (S1def m) (Y2def m) K c) $$ Hrec
  ihave #HI2 := (inv_r2p_30 (S1def m) (Y2def m) K c) $$ Hrec
  ihave #Hr1 := (rch_s2_30 (S1def m) (Y2def m) K c) $$ Hrec
  ihave #Hr2 := (rch_r2p_30 (S1def m) (Y2def m) K c) $$ Hrec
  iapply (wp_send2 (S1def m) (Y2def m) c _ 30 (dev92_eq c) hk_30 ho_30 _ _ (by rw [duties_2_30]; exact Finset.mem_singleton_self _) (by rw [duties_3_30]; exact Finset.mem_singleton_self _)
      (pay_2_30 (S1def m) (Y2def m) c 0 0) (pay_3_30 (S1def m) (Y2def m) (rot c 30) 0 0) fb30 _ _) $$ [Hsh30 Hbs HO Hts2 Htr2p]
  · isplitr; · iexact HI1
    isplitr; · iexact HI2
    isplitl [Hsh30]; · iexact Hsh30
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 31
  icases Hb31 with ⟨%fb31, Hbs⟩
  ihave Xx := (held_elim _) $$ HD31
  icases Xx with ⟨Hts2, Htr2p⟩
  ihave #HI1 := (inv_s2_31 (S1def m) (Y2def m) K c) $$ Hrec
  ihave #HI2 := (inv_r2p_31 (S1def m) (Y2def m) K c) $$ Hrec
  ihave #Hr1 := (rch_s2_31 (S1def m) (Y2def m) K c) $$ Hrec
  ihave #Hr2 := (rch_r2p_31 (S1def m) (Y2def m) K c) $$ Hrec
  ihave HO := (Entails.of_eq (congrArg (fun O => (owes (c : Thread nD τ) O _ : sProp 𝕄)) (zero_add _).symm)) $$ HO
  iapply (wp_send2 (S1def m) (Y2def m) c _ 31 (dev93_eq c) hk_31 ho_31 _ _ (by rw [duties_2_31]; exact Finset.mem_singleton_self _) (by rw [duties_3_31]; exact Finset.mem_singleton_self _)
      (pay_2_31 (S1def m) (Y2def m) c 0 0) (pay_3_31 (S1def m) (Y2def m) (rot c 31) 0 0) fb31 _ _) $$ [Hsh31 Hbs HO Hts2 Htr2p]
  · isplitr; · iexact HI1
    isplitr; · iexact HI2
    isplitl [Hsh31]; · iexact Hsh31
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's 31 receive waits; each landed block is widened and copied to its rows of the result
  ihave Hx := (held_elim _) $$ HEAll
  icases Hx with ⟨HE1, HE2, HE3, HE4, HE5, HE6, HE7, HE8, HE9, HE10, HE11, HE12, HE13, HE14, HE15, HE16, HE17, HE18, HE19, HE20, HE21, HE22, HE23, HE24, HE25, HE26, HE27, HE28, HE29, HE30, HE31⟩
  -- the receive wait at offset 1, the widening of slot 1, and its output copy
  ihave Xx := (held_elim _) $$ HE1
  icases Xx with ⟨Har2, Hcr2, HzOut⟩
  ihave #HI := (inv_r2_1 (S1def m) (Y2def m) K c) $$ Hrec
  sl_exec_parts
  imod (Rounds.cell_close ER (sched (F := F) (S1def m) (Y2def m)) (Set.mem_univ (K (c, some (3, ⟨0, by decide⟩)))) (fun h => h) (R := 0 + 1) (duties_later (S1def m) (Y2def m) (r2Cell c 1 ho_1))) $$ [Har2] with Hz
  · isplitr; · iexact HI
    iexact Har2
  ihave HAccZr2 := (held_intro _) $$ Hz
  ihave HAccL2 := (held_intro _) $$ Har2_pay1
  ihave HAccFl := (held_intro _) $$ HzOut
  iclear HI Har2_reached
  -- the receive wait at offset 2, the widening of slot 2, and its output copy
  ihave Xx := (held_elim _) $$ HE2
  icases Xx with ⟨Har2, Hcr2, HzOut⟩
  ihave #HI := (inv_r2_2 (S1def m) (Y2def m) K c) $$ Hrec
  sl_exec_parts
  imod (Rounds.cell_close ER (sched (F := F) (S1def m) (Y2def m)) (Set.mem_univ (K (c, some (3, ⟨1, by decide⟩)))) (fun h => h) (R := 0 + 1) (duties_later (S1def m) (Y2def m) (r2Cell c 2 ho_2))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 3, the widening of slot 3, and its output copy
  ihave Xx := (held_elim _) $$ HE3
  icases Xx with ⟨Har2, Hcr2, HzOut⟩
  ihave #HI := (inv_r2_3 (S1def m) (Y2def m) K c) $$ Hrec
  sl_exec_parts
  imod (Rounds.cell_close ER (sched (F := F) (S1def m) (Y2def m)) (Set.mem_univ (K (c, some (3, ⟨2, by decide⟩)))) (fun h => h) (R := 0 + 1) (duties_later (S1def m) (Y2def m) (r2Cell c 3 ho_3))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 4, the widening of slot 4, and its output copy
  ihave Xx := (held_elim _) $$ HE4
  icases Xx with ⟨Har2, Hcr2, HzOut⟩
  ihave #HI := (inv_r2_4 (S1def m) (Y2def m) K c) $$ Hrec
  sl_exec_parts
  imod (Rounds.cell_close ER (sched (F := F) (S1def m) (Y2def m)) (Set.mem_univ (K (c, some (3, ⟨3, by decide⟩)))) (fun h => h) (R := 0 + 1) (duties_later (S1def m) (Y2def m) (r2Cell c 4 ho_4))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 5, the widening of slot 5, and its output copy
  ihave Xx := (held_elim _) $$ HE5
  icases Xx with ⟨Har2, Hcr2, HzOut⟩
  ihave #HI := (inv_r2_5 (S1def m) (Y2def m) K c) $$ Hrec
  sl_exec_parts
  imod (Rounds.cell_close ER (sched (F := F) (S1def m) (Y2def m)) (Set.mem_univ (K (c, some (3, ⟨4, by decide⟩)))) (fun h => h) (R := 0 + 1) (duties_later (S1def m) (Y2def m) (r2Cell c 5 ho_5))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 6, the widening of slot 6, and its output copy
  ihave Xx := (held_elim _) $$ HE6
  icases Xx with ⟨Har2, Hcr2, HzOut⟩
  ihave #HI := (inv_r2_6 (S1def m) (Y2def m) K c) $$ Hrec
  sl_exec_parts
  imod (Rounds.cell_close ER (sched (F := F) (S1def m) (Y2def m)) (Set.mem_univ (K (c, some (3, ⟨5, by decide⟩)))) (fun h => h) (R := 0 + 1) (duties_later (S1def m) (Y2def m) (r2Cell c 6 ho_6))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 7, the widening of slot 7, and its output copy
  ihave Xx := (held_elim _) $$ HE7
  icases Xx with ⟨Har2, Hcr2, HzOut⟩
  ihave #HI := (inv_r2_7 (S1def m) (Y2def m) K c) $$ Hrec
  sl_exec_parts
  imod (Rounds.cell_close ER (sched (F := F) (S1def m) (Y2def m)) (Set.mem_univ (K (c, some (3, ⟨6, by decide⟩)))) (fun h => h) (R := 0 + 1) (duties_later (S1def m) (Y2def m) (r2Cell c 7 ho_7))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 8, the widening of slot 8, and its output copy
  ihave Xx := (held_elim _) $$ HE8
  icases Xx with ⟨Har2, Hcr2, HzOut⟩
  ihave #HI := (inv_r2_8 (S1def m) (Y2def m) K c) $$ Hrec
  sl_exec_parts
  imod (Rounds.cell_close ER (sched (F := F) (S1def m) (Y2def m)) (Set.mem_univ (K (c, some (3, ⟨7, by decide⟩)))) (fun h => h) (R := 0 + 1) (duties_later (S1def m) (Y2def m) (r2Cell c 8 ho_8))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 9, the widening of slot 9, and its output copy
  ihave Xx := (held_elim _) $$ HE9
  icases Xx with ⟨Har2, Hcr2, HzOut⟩
  ihave #HI := (inv_r2_9 (S1def m) (Y2def m) K c) $$ Hrec
  sl_exec_parts
  imod (Rounds.cell_close ER (sched (F := F) (S1def m) (Y2def m)) (Set.mem_univ (K (c, some (3, ⟨8, by decide⟩)))) (fun h => h) (R := 0 + 1) (duties_later (S1def m) (Y2def m) (r2Cell c 9 ho_9))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 10, the widening of slot 10, and its output copy
  ihave Xx := (held_elim _) $$ HE10
  icases Xx with ⟨Har2, Hcr2, HzOut⟩
  ihave #HI := (inv_r2_10 (S1def m) (Y2def m) K c) $$ Hrec
  sl_exec_parts
  imod (Rounds.cell_close ER (sched (F := F) (S1def m) (Y2def m)) (Set.mem_univ (K (c, some (3, ⟨9, by decide⟩)))) (fun h => h) (R := 0 + 1) (duties_later (S1def m) (Y2def m) (r2Cell c 10 ho_10))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 11, the widening of slot 11, and its output copy
  ihave Xx := (held_elim _) $$ HE11
  icases Xx with ⟨Har2, Hcr2, HzOut⟩
  ihave #HI := (inv_r2_11 (S1def m) (Y2def m) K c) $$ Hrec
  sl_exec_parts
  imod (Rounds.cell_close ER (sched (F := F) (S1def m) (Y2def m)) (Set.mem_univ (K (c, some (3, ⟨10, by decide⟩)))) (fun h => h) (R := 0 + 1) (duties_later (S1def m) (Y2def m) (r2Cell c 11 ho_11))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 12, the widening of slot 12, and its output copy
  ihave Xx := (held_elim _) $$ HE12
  icases Xx with ⟨Har2, Hcr2, HzOut⟩
  ihave #HI := (inv_r2_12 (S1def m) (Y2def m) K c) $$ Hrec
  sl_exec_parts
  imod (Rounds.cell_close ER (sched (F := F) (S1def m) (Y2def m)) (Set.mem_univ (K (c, some (3, ⟨11, by decide⟩)))) (fun h => h) (R := 0 + 1) (duties_later (S1def m) (Y2def m) (r2Cell c 12 ho_12))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 13, the widening of slot 13, and its output copy
  ihave Xx := (held_elim _) $$ HE13
  icases Xx with ⟨Har2, Hcr2, HzOut⟩
  ihave #HI := (inv_r2_13 (S1def m) (Y2def m) K c) $$ Hrec
  sl_exec_parts
  imod (Rounds.cell_close ER (sched (F := F) (S1def m) (Y2def m)) (Set.mem_univ (K (c, some (3, ⟨12, by decide⟩)))) (fun h => h) (R := 0 + 1) (duties_later (S1def m) (Y2def m) (r2Cell c 13 ho_13))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 14, the widening of slot 14, and its output copy
  ihave Xx := (held_elim _) $$ HE14
  icases Xx with ⟨Har2, Hcr2, HzOut⟩
  ihave #HI := (inv_r2_14 (S1def m) (Y2def m) K c) $$ Hrec
  sl_exec_parts
  imod (Rounds.cell_close ER (sched (F := F) (S1def m) (Y2def m)) (Set.mem_univ (K (c, some (3, ⟨13, by decide⟩)))) (fun h => h) (R := 0 + 1) (duties_later (S1def m) (Y2def m) (r2Cell c 14 ho_14))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 15, the widening of slot 15, and its output copy
  ihave Xx := (held_elim _) $$ HE15
  icases Xx with ⟨Har2, Hcr2, HzOut⟩
  ihave #HI := (inv_r2_15 (S1def m) (Y2def m) K c) $$ Hrec
  sl_exec_parts
  imod (Rounds.cell_close ER (sched (F := F) (S1def m) (Y2def m)) (Set.mem_univ (K (c, some (3, ⟨14, by decide⟩)))) (fun h => h) (R := 0 + 1) (duties_later (S1def m) (Y2def m) (r2Cell c 15 ho_15))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 16, the widening of slot 16, and its output copy
  ihave Xx := (held_elim _) $$ HE16
  icases Xx with ⟨Har2, Hcr2, HzOut⟩
  ihave #HI := (inv_r2_16 (S1def m) (Y2def m) K c) $$ Hrec
  sl_exec_parts
  imod (Rounds.cell_close ER (sched (F := F) (S1def m) (Y2def m)) (Set.mem_univ (K (c, some (3, ⟨15, by decide⟩)))) (fun h => h) (R := 0 + 1) (duties_later (S1def m) (Y2def m) (r2Cell c 16 ho_16))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 17, the widening of slot 17, and its output copy
  ihave Xx := (held_elim _) $$ HE17
  icases Xx with ⟨Har2, Hcr2, HzOut⟩
  ihave #HI := (inv_r2_17 (S1def m) (Y2def m) K c) $$ Hrec
  sl_exec_parts
  imod (Rounds.cell_close ER (sched (F := F) (S1def m) (Y2def m)) (Set.mem_univ (K (c, some (3, ⟨16, by decide⟩)))) (fun h => h) (R := 0 + 1) (duties_later (S1def m) (Y2def m) (r2Cell c 17 ho_17))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 18, the widening of slot 18, and its output copy
  ihave Xx := (held_elim _) $$ HE18
  icases Xx with ⟨Har2, Hcr2, HzOut⟩
  ihave #HI := (inv_r2_18 (S1def m) (Y2def m) K c) $$ Hrec
  sl_exec_parts
  imod (Rounds.cell_close ER (sched (F := F) (S1def m) (Y2def m)) (Set.mem_univ (K (c, some (3, ⟨17, by decide⟩)))) (fun h => h) (R := 0 + 1) (duties_later (S1def m) (Y2def m) (r2Cell c 18 ho_18))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 19, the widening of slot 19, and its output copy
  ihave Xx := (held_elim _) $$ HE19
  icases Xx with ⟨Har2, Hcr2, HzOut⟩
  ihave #HI := (inv_r2_19 (S1def m) (Y2def m) K c) $$ Hrec
  sl_exec_parts
  imod (Rounds.cell_close ER (sched (F := F) (S1def m) (Y2def m)) (Set.mem_univ (K (c, some (3, ⟨18, by decide⟩)))) (fun h => h) (R := 0 + 1) (duties_later (S1def m) (Y2def m) (r2Cell c 19 ho_19))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 20, the widening of slot 20, and its output copy
  ihave Xx := (held_elim _) $$ HE20
  icases Xx with ⟨Har2, Hcr2, HzOut⟩
  ihave #HI := (inv_r2_20 (S1def m) (Y2def m) K c) $$ Hrec
  sl_exec_parts
  imod (Rounds.cell_close ER (sched (F := F) (S1def m) (Y2def m)) (Set.mem_univ (K (c, some (3, ⟨19, by decide⟩)))) (fun h => h) (R := 0 + 1) (duties_later (S1def m) (Y2def m) (r2Cell c 20 ho_20))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 21, the widening of slot 21, and its output copy
  ihave Xx := (held_elim _) $$ HE21
  icases Xx with ⟨Har2, Hcr2, HzOut⟩
  ihave #HI := (inv_r2_21 (S1def m) (Y2def m) K c) $$ Hrec
  sl_exec_parts
  imod (Rounds.cell_close ER (sched (F := F) (S1def m) (Y2def m)) (Set.mem_univ (K (c, some (3, ⟨20, by decide⟩)))) (fun h => h) (R := 0 + 1) (duties_later (S1def m) (Y2def m) (r2Cell c 21 ho_21))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 22, the widening of slot 22, and its output copy
  ihave Xx := (held_elim _) $$ HE22
  icases Xx with ⟨Har2, Hcr2, HzOut⟩
  ihave #HI := (inv_r2_22 (S1def m) (Y2def m) K c) $$ Hrec
  sl_exec_parts
  imod (Rounds.cell_close ER (sched (F := F) (S1def m) (Y2def m)) (Set.mem_univ (K (c, some (3, ⟨21, by decide⟩)))) (fun h => h) (R := 0 + 1) (duties_later (S1def m) (Y2def m) (r2Cell c 22 ho_22))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 23, the widening of slot 23, and its output copy
  ihave Xx := (held_elim _) $$ HE23
  icases Xx with ⟨Har2, Hcr2, HzOut⟩
  ihave #HI := (inv_r2_23 (S1def m) (Y2def m) K c) $$ Hrec
  sl_exec_parts
  imod (Rounds.cell_close ER (sched (F := F) (S1def m) (Y2def m)) (Set.mem_univ (K (c, some (3, ⟨22, by decide⟩)))) (fun h => h) (R := 0 + 1) (duties_later (S1def m) (Y2def m) (r2Cell c 23 ho_23))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 24, the widening of slot 24, and its output copy
  ihave Xx := (held_elim _) $$ HE24
  icases Xx with ⟨Har2, Hcr2, HzOut⟩
  ihave #HI := (inv_r2_24 (S1def m) (Y2def m) K c) $$ Hrec
  sl_exec_parts
  imod (Rounds.cell_close ER (sched (F := F) (S1def m) (Y2def m)) (Set.mem_univ (K (c, some (3, ⟨23, by decide⟩)))) (fun h => h) (R := 0 + 1) (duties_later (S1def m) (Y2def m) (r2Cell c 24 ho_24))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 25, the widening of slot 25, and its output copy
  ihave Xx := (held_elim _) $$ HE25
  icases Xx with ⟨Har2, Hcr2, HzOut⟩
  ihave #HI := (inv_r2_25 (S1def m) (Y2def m) K c) $$ Hrec
  sl_exec_parts
  imod (Rounds.cell_close ER (sched (F := F) (S1def m) (Y2def m)) (Set.mem_univ (K (c, some (3, ⟨24, by decide⟩)))) (fun h => h) (R := 0 + 1) (duties_later (S1def m) (Y2def m) (r2Cell c 25 ho_25))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 26, the widening of slot 26, and its output copy
  ihave Xx := (held_elim _) $$ HE26
  icases Xx with ⟨Har2, Hcr2, HzOut⟩
  ihave #HI := (inv_r2_26 (S1def m) (Y2def m) K c) $$ Hrec
  sl_exec_parts
  imod (Rounds.cell_close ER (sched (F := F) (S1def m) (Y2def m)) (Set.mem_univ (K (c, some (3, ⟨25, by decide⟩)))) (fun h => h) (R := 0 + 1) (duties_later (S1def m) (Y2def m) (r2Cell c 26 ho_26))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 27, the widening of slot 27, and its output copy
  ihave Xx := (held_elim _) $$ HE27
  icases Xx with ⟨Har2, Hcr2, HzOut⟩
  ihave #HI := (inv_r2_27 (S1def m) (Y2def m) K c) $$ Hrec
  sl_exec_parts
  imod (Rounds.cell_close ER (sched (F := F) (S1def m) (Y2def m)) (Set.mem_univ (K (c, some (3, ⟨26, by decide⟩)))) (fun h => h) (R := 0 + 1) (duties_later (S1def m) (Y2def m) (r2Cell c 27 ho_27))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 28, the widening of slot 28, and its output copy
  ihave Xx := (held_elim _) $$ HE28
  icases Xx with ⟨Har2, Hcr2, HzOut⟩
  ihave #HI := (inv_r2_28 (S1def m) (Y2def m) K c) $$ Hrec
  sl_exec_parts
  imod (Rounds.cell_close ER (sched (F := F) (S1def m) (Y2def m)) (Set.mem_univ (K (c, some (3, ⟨27, by decide⟩)))) (fun h => h) (R := 0 + 1) (duties_later (S1def m) (Y2def m) (r2Cell c 28 ho_28))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 29, the widening of slot 29, and its output copy
  ihave Xx := (held_elim _) $$ HE29
  icases Xx with ⟨Har2, Hcr2, HzOut⟩
  ihave #HI := (inv_r2_29 (S1def m) (Y2def m) K c) $$ Hrec
  sl_exec_parts
  imod (Rounds.cell_close ER (sched (F := F) (S1def m) (Y2def m)) (Set.mem_univ (K (c, some (3, ⟨28, by decide⟩)))) (fun h => h) (R := 0 + 1) (duties_later (S1def m) (Y2def m) (r2Cell c 29 ho_29))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 30, the widening of slot 30, and its output copy
  ihave Xx := (held_elim _) $$ HE30
  icases Xx with ⟨Har2, Hcr2, HzOut⟩
  ihave #HI := (inv_r2_30 (S1def m) (Y2def m) K c) $$ Hrec
  sl_exec_parts
  imod (Rounds.cell_close ER (sched (F := F) (S1def m) (Y2def m)) (Set.mem_univ (K (c, some (3, ⟨29, by decide⟩)))) (fun h => h) (R := 0 + 1) (duties_later (S1def m) (Y2def m) (r2Cell c 30 ho_30))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 31, the widening of slot 31, and its output copy
  ihave Xx := (held_elim _) $$ HE31
  icases Xx with ⟨Har2, Hcr2, HzOut⟩
  ihave #HI := (inv_r2_31 (S1def m) (Y2def m) K c) $$ Hrec
  sl_exec_parts
  imod (Rounds.cell_close ER (sched (F := F) (S1def m) (Y2def m)) (Set.mem_univ (K (c, some (3, ⟨30, by decide⟩)))) (fun h => h) (R := 0 + 1) (duties_later (S1def m) (Y2def m) (r2Cell c 31 ho_31))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the 32 output copies' waits
  ihave Xq := (held_pop _ _) $$ HAccFl
  icases Xq with ⟨HFl31, HAccFl⟩
  ihave Xq := (held_pop _ _) $$ HAccFl
  icases Xq with ⟨HFl30, HAccFl⟩
  ihave Xq := (held_pop _ _) $$ HAccFl
  icases Xq with ⟨HFl29, HAccFl⟩
  ihave Xq := (held_pop _ _) $$ HAccFl
  icases Xq with ⟨HFl28, HAccFl⟩
  ihave Xq := (held_pop _ _) $$ HAccFl
  icases Xq with ⟨HFl27, HAccFl⟩
  ihave Xq := (held_pop _ _) $$ HAccFl
  icases Xq with ⟨HFl26, HAccFl⟩
  ihave Xq := (held_pop _ _) $$ HAccFl
  icases Xq with ⟨HFl25, HAccFl⟩
  ihave Xq := (held_pop _ _) $$ HAccFl
  icases Xq with ⟨HFl24, HAccFl⟩
  ihave Xq := (held_pop _ _) $$ HAccFl
  icases Xq with ⟨HFl23, HAccFl⟩
  ihave Xq := (held_pop _ _) $$ HAccFl
  icases Xq with ⟨HFl22, HAccFl⟩
  ihave Xq := (held_pop _ _) $$ HAccFl
  icases Xq with ⟨HFl21, HAccFl⟩
  ihave Xq := (held_pop _ _) $$ HAccFl
  icases Xq with ⟨HFl20, HAccFl⟩
  ihave Xq := (held_pop _ _) $$ HAccFl
  icases Xq with ⟨HFl19, HAccFl⟩
  ihave Xq := (held_pop _ _) $$ HAccFl
  icases Xq with ⟨HFl18, HAccFl⟩
  ihave Xq := (held_pop _ _) $$ HAccFl
  icases Xq with ⟨HFl17, HAccFl⟩
  ihave Xq := (held_pop _ _) $$ HAccFl
  icases Xq with ⟨HFl16, HAccFl⟩
  ihave Xq := (held_pop _ _) $$ HAccFl
  icases Xq with ⟨HFl15, HAccFl⟩
  ihave Xq := (held_pop _ _) $$ HAccFl
  icases Xq with ⟨HFl14, HAccFl⟩
  ihave Xq := (held_pop _ _) $$ HAccFl
  icases Xq with ⟨HFl13, HAccFl⟩
  ihave Xq := (held_pop _ _) $$ HAccFl
  icases Xq with ⟨HFl12, HAccFl⟩
  ihave Xq := (held_pop _ _) $$ HAccFl
  icases Xq with ⟨HFl11, HAccFl⟩
  ihave Xq := (held_pop _ _) $$ HAccFl
  icases Xq with ⟨HFl10, HAccFl⟩
  ihave Xq := (held_pop _ _) $$ HAccFl
  icases Xq with ⟨HFl9, HAccFl⟩
  ihave Xq := (held_pop _ _) $$ HAccFl
  icases Xq with ⟨HFl8, HAccFl⟩
  ihave Xq := (held_pop _ _) $$ HAccFl
  icases Xq with ⟨HFl7, HAccFl⟩
  ihave Xq := (held_pop _ _) $$ HAccFl
  icases Xq with ⟨HFl6, HAccFl⟩
  ihave Xq := (held_pop _ _) $$ HAccFl
  icases Xq with ⟨HFl5, HAccFl⟩
  ihave Xq := (held_pop _ _) $$ HAccFl
  icases Xq with ⟨HFl4, HAccFl⟩
  ihave Xq := (held_pop _ _) $$ HAccFl
  icases Xq with ⟨HFl3, HAccFl⟩
  ihave Xq := (held_pop _ _) $$ HAccFl
  icases Xq with ⟨HFl2, HAccFl⟩
  ihave HFl1 := (held_elim _) $$ HAccFl
  sl_exec_parts
  -- the first exchange's 31 send waits: the rows each transfer lent come back
  ihave Hx := (held_elim _) $$ HFAll
  icases Hx with ⟨HF1, HF2, HF3, HF4, HF5, HF6, HF7, HF8, HF9, HF10, HF11, HF12, HF13, HF14, HF15, HF16, HF17, HF18, HF19, HF20, HF21, HF22, HF23, HF24, HF25, HF26, HF27, HF28, HF29, HF30, HF31⟩
  ihave Xq := (held_pop _ _) $$ HAccCr1
  icases Xq with ⟨Hcs1_31, HAccCr1⟩
  ihave Xq := (held_pop _ _) $$ HAccCr1
  icases Xq with ⟨Hcs1_30, HAccCr1⟩
  ihave Xq := (held_pop _ _) $$ HAccCr1
  icases Xq with ⟨Hcs1_29, HAccCr1⟩
  ihave Xq := (held_pop _ _) $$ HAccCr1
  icases Xq with ⟨Hcs1_28, HAccCr1⟩
  ihave Xq := (held_pop _ _) $$ HAccCr1
  icases Xq with ⟨Hcs1_27, HAccCr1⟩
  ihave Xq := (held_pop _ _) $$ HAccCr1
  icases Xq with ⟨Hcs1_26, HAccCr1⟩
  ihave Xq := (held_pop _ _) $$ HAccCr1
  icases Xq with ⟨Hcs1_25, HAccCr1⟩
  ihave Xq := (held_pop _ _) $$ HAccCr1
  icases Xq with ⟨Hcs1_24, HAccCr1⟩
  ihave Xq := (held_pop _ _) $$ HAccCr1
  icases Xq with ⟨Hcs1_23, HAccCr1⟩
  ihave Xq := (held_pop _ _) $$ HAccCr1
  icases Xq with ⟨Hcs1_22, HAccCr1⟩
  ihave Xq := (held_pop _ _) $$ HAccCr1
  icases Xq with ⟨Hcs1_21, HAccCr1⟩
  ihave Xq := (held_pop _ _) $$ HAccCr1
  icases Xq with ⟨Hcs1_20, HAccCr1⟩
  ihave Xq := (held_pop _ _) $$ HAccCr1
  icases Xq with ⟨Hcs1_19, HAccCr1⟩
  ihave Xq := (held_pop _ _) $$ HAccCr1
  icases Xq with ⟨Hcs1_18, HAccCr1⟩
  ihave Xq := (held_pop _ _) $$ HAccCr1
  icases Xq with ⟨Hcs1_17, HAccCr1⟩
  ihave Xq := (held_pop _ _) $$ HAccCr1
  icases Xq with ⟨Hcs1_16, HAccCr1⟩
  ihave Xq := (held_pop _ _) $$ HAccCr1
  icases Xq with ⟨Hcs1_15, HAccCr1⟩
  ihave Xq := (held_pop _ _) $$ HAccCr1
  icases Xq with ⟨Hcs1_14, HAccCr1⟩
  ihave Xq := (held_pop _ _) $$ HAccCr1
  icases Xq with ⟨Hcs1_13, HAccCr1⟩
  ihave Xq := (held_pop _ _) $$ HAccCr1
  icases Xq with ⟨Hcs1_12, HAccCr1⟩
  ihave Xq := (held_pop _ _) $$ HAccCr1
  icases Xq with ⟨Hcs1_11, HAccCr1⟩
  ihave Xq := (held_pop _ _) $$ HAccCr1
  icases Xq with ⟨Hcs1_10, HAccCr1⟩
  ihave Xq := (held_pop _ _) $$ HAccCr1
  icases Xq with ⟨Hcs1_9, HAccCr1⟩
  ihave Xq := (held_pop _ _) $$ HAccCr1
  icases Xq with ⟨Hcs1_8, HAccCr1⟩
  ihave Xq := (held_pop _ _) $$ HAccCr1
  icases Xq with ⟨Hcs1_7, HAccCr1⟩
  ihave Xq := (held_pop _ _) $$ HAccCr1
  icases Xq with ⟨Hcs1_6, HAccCr1⟩
  ihave Xq := (held_pop _ _) $$ HAccCr1
  icases Xq with ⟨Hcs1_5, HAccCr1⟩
  ihave Xq := (held_pop _ _) $$ HAccCr1
  icases Xq with ⟨Hcs1_4, HAccCr1⟩
  ihave Xq := (held_pop _ _) $$ HAccCr1
  icases Xq with ⟨Hcs1_3, HAccCr1⟩
  ihave Xq := (held_pop _ _) $$ HAccCr1
  icases Xq with ⟨Hcs1_2, HAccCr1⟩
  ihave Hcs1_1 := (held_elim _) $$ HAccCr1
  ihave Xx := (held_elim _) $$ HF1
  icases Xx with ⟨Has1, Has2⟩
  ihave HAccAs2 := (held_intro _) $$ Has2
  ihave #HI := (inv_s1_1 (S1def m) (Y2def m) K c) $$ Hrec
  sl_exec_parts
  imod (Rounds.cell_close ER (sched (F := F) (S1def m) (Y2def m)) (Set.mem_univ (K (c, some (0, ⟨0, by decide⟩)))) (fun h => h) (R := 0 + 1) (duties_later (S1def m) (Y2def m) (s1Cell c 1 ho_1))) $$ [Has1] with Hz
  · isplitr; · iexact HI
    iexact Has1
  ihave HAccZs1 := (held_intro _) $$ Hz
  ihave HAccRows := (held_intro _) $$ Has1_pay1
  iclear HI Has1_reached
  ihave Xx := (held_elim _) $$ HF2
  icases Xx with ⟨Has1, Has2⟩
  ihave HAccAs2 := (held_push _ _) $$ [Has2 HAccAs2]
  · isplitl [Has2]
    · iexact Has2
    · iexact HAccAs2
  ihave #HI := (inv_s1_2 (S1def m) (Y2def m) K c) $$ Hrec
  sl_exec_parts
  imod (Rounds.cell_close ER (sched (F := F) (S1def m) (Y2def m)) (Set.mem_univ (K (c, some (0, ⟨1, by decide⟩)))) (fun h => h) (R := 0 + 1) (duties_later (S1def m) (Y2def m) (s1Cell c 2 ho_2))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF3
  icases Xx with ⟨Has1, Has2⟩
  ihave HAccAs2 := (held_push _ _) $$ [Has2 HAccAs2]
  · isplitl [Has2]
    · iexact Has2
    · iexact HAccAs2
  ihave #HI := (inv_s1_3 (S1def m) (Y2def m) K c) $$ Hrec
  sl_exec_parts
  imod (Rounds.cell_close ER (sched (F := F) (S1def m) (Y2def m)) (Set.mem_univ (K (c, some (0, ⟨2, by decide⟩)))) (fun h => h) (R := 0 + 1) (duties_later (S1def m) (Y2def m) (s1Cell c 3 ho_3))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF4
  icases Xx with ⟨Has1, Has2⟩
  ihave HAccAs2 := (held_push _ _) $$ [Has2 HAccAs2]
  · isplitl [Has2]
    · iexact Has2
    · iexact HAccAs2
  ihave #HI := (inv_s1_4 (S1def m) (Y2def m) K c) $$ Hrec
  sl_exec_parts
  imod (Rounds.cell_close ER (sched (F := F) (S1def m) (Y2def m)) (Set.mem_univ (K (c, some (0, ⟨3, by decide⟩)))) (fun h => h) (R := 0 + 1) (duties_later (S1def m) (Y2def m) (s1Cell c 4 ho_4))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF5
  icases Xx with ⟨Has1, Has2⟩
  ihave HAccAs2 := (held_push _ _) $$ [Has2 HAccAs2]
  · isplitl [Has2]
    · iexact Has2
    · iexact HAccAs2
  ihave #HI := (inv_s1_5 (S1def m) (Y2def m) K c) $$ Hrec
  sl_exec_parts
  imod (Rounds.cell_close ER (sched (F := F) (S1def m) (Y2def m)) (Set.mem_univ (K (c, some (0, ⟨4, by decide⟩)))) (fun h => h) (R := 0 + 1) (duties_later (S1def m) (Y2def m) (s1Cell c 5 ho_5))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF6
  icases Xx with ⟨Has1, Has2⟩
  ihave HAccAs2 := (held_push _ _) $$ [Has2 HAccAs2]
  · isplitl [Has2]
    · iexact Has2
    · iexact HAccAs2
  ihave #HI := (inv_s1_6 (S1def m) (Y2def m) K c) $$ Hrec
  sl_exec_parts
  imod (Rounds.cell_close ER (sched (F := F) (S1def m) (Y2def m)) (Set.mem_univ (K (c, some (0, ⟨5, by decide⟩)))) (fun h => h) (R := 0 + 1) (duties_later (S1def m) (Y2def m) (s1Cell c 6 ho_6))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF7
  icases Xx with ⟨Has1, Has2⟩
  ihave HAccAs2 := (held_push _ _) $$ [Has2 HAccAs2]
  · isplitl [Has2]
    · iexact Has2
    · iexact HAccAs2
  ihave #HI := (inv_s1_7 (S1def m) (Y2def m) K c) $$ Hrec
  sl_exec_parts
  imod (Rounds.cell_close ER (sched (F := F) (S1def m) (Y2def m)) (Set.mem_univ (K (c, some (0, ⟨6, by decide⟩)))) (fun h => h) (R := 0 + 1) (duties_later (S1def m) (Y2def m) (s1Cell c 7 ho_7))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF8
  icases Xx with ⟨Has1, Has2⟩
  ihave HAccAs2 := (held_push _ _) $$ [Has2 HAccAs2]
  · isplitl [Has2]
    · iexact Has2
    · iexact HAccAs2
  ihave #HI := (inv_s1_8 (S1def m) (Y2def m) K c) $$ Hrec
  sl_exec_parts
  imod (Rounds.cell_close ER (sched (F := F) (S1def m) (Y2def m)) (Set.mem_univ (K (c, some (0, ⟨7, by decide⟩)))) (fun h => h) (R := 0 + 1) (duties_later (S1def m) (Y2def m) (s1Cell c 8 ho_8))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF9
  icases Xx with ⟨Has1, Has2⟩
  ihave HAccAs2 := (held_push _ _) $$ [Has2 HAccAs2]
  · isplitl [Has2]
    · iexact Has2
    · iexact HAccAs2
  ihave #HI := (inv_s1_9 (S1def m) (Y2def m) K c) $$ Hrec
  sl_exec_parts
  imod (Rounds.cell_close ER (sched (F := F) (S1def m) (Y2def m)) (Set.mem_univ (K (c, some (0, ⟨8, by decide⟩)))) (fun h => h) (R := 0 + 1) (duties_later (S1def m) (Y2def m) (s1Cell c 9 ho_9))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF10
  icases Xx with ⟨Has1, Has2⟩
  ihave HAccAs2 := (held_push _ _) $$ [Has2 HAccAs2]
  · isplitl [Has2]
    · iexact Has2
    · iexact HAccAs2
  ihave #HI := (inv_s1_10 (S1def m) (Y2def m) K c) $$ Hrec
  sl_exec_parts
  imod (Rounds.cell_close ER (sched (F := F) (S1def m) (Y2def m)) (Set.mem_univ (K (c, some (0, ⟨9, by decide⟩)))) (fun h => h) (R := 0 + 1) (duties_later (S1def m) (Y2def m) (s1Cell c 10 ho_10))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF11
  icases Xx with ⟨Has1, Has2⟩
  ihave HAccAs2 := (held_push _ _) $$ [Has2 HAccAs2]
  · isplitl [Has2]
    · iexact Has2
    · iexact HAccAs2
  ihave #HI := (inv_s1_11 (S1def m) (Y2def m) K c) $$ Hrec
  sl_exec_parts
  imod (Rounds.cell_close ER (sched (F := F) (S1def m) (Y2def m)) (Set.mem_univ (K (c, some (0, ⟨10, by decide⟩)))) (fun h => h) (R := 0 + 1) (duties_later (S1def m) (Y2def m) (s1Cell c 11 ho_11))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF12
  icases Xx with ⟨Has1, Has2⟩
  ihave HAccAs2 := (held_push _ _) $$ [Has2 HAccAs2]
  · isplitl [Has2]
    · iexact Has2
    · iexact HAccAs2
  ihave #HI := (inv_s1_12 (S1def m) (Y2def m) K c) $$ Hrec
  sl_exec_parts
  imod (Rounds.cell_close ER (sched (F := F) (S1def m) (Y2def m)) (Set.mem_univ (K (c, some (0, ⟨11, by decide⟩)))) (fun h => h) (R := 0 + 1) (duties_later (S1def m) (Y2def m) (s1Cell c 12 ho_12))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF13
  icases Xx with ⟨Has1, Has2⟩
  ihave HAccAs2 := (held_push _ _) $$ [Has2 HAccAs2]
  · isplitl [Has2]
    · iexact Has2
    · iexact HAccAs2
  ihave #HI := (inv_s1_13 (S1def m) (Y2def m) K c) $$ Hrec
  sl_exec_parts
  imod (Rounds.cell_close ER (sched (F := F) (S1def m) (Y2def m)) (Set.mem_univ (K (c, some (0, ⟨12, by decide⟩)))) (fun h => h) (R := 0 + 1) (duties_later (S1def m) (Y2def m) (s1Cell c 13 ho_13))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF14
  icases Xx with ⟨Has1, Has2⟩
  ihave HAccAs2 := (held_push _ _) $$ [Has2 HAccAs2]
  · isplitl [Has2]
    · iexact Has2
    · iexact HAccAs2
  ihave #HI := (inv_s1_14 (S1def m) (Y2def m) K c) $$ Hrec
  sl_exec_parts
  imod (Rounds.cell_close ER (sched (F := F) (S1def m) (Y2def m)) (Set.mem_univ (K (c, some (0, ⟨13, by decide⟩)))) (fun h => h) (R := 0 + 1) (duties_later (S1def m) (Y2def m) (s1Cell c 14 ho_14))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF15
  icases Xx with ⟨Has1, Has2⟩
  ihave HAccAs2 := (held_push _ _) $$ [Has2 HAccAs2]
  · isplitl [Has2]
    · iexact Has2
    · iexact HAccAs2
  ihave #HI := (inv_s1_15 (S1def m) (Y2def m) K c) $$ Hrec
  sl_exec_parts
  imod (Rounds.cell_close ER (sched (F := F) (S1def m) (Y2def m)) (Set.mem_univ (K (c, some (0, ⟨14, by decide⟩)))) (fun h => h) (R := 0 + 1) (duties_later (S1def m) (Y2def m) (s1Cell c 15 ho_15))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF16
  icases Xx with ⟨Has1, Has2⟩
  ihave HAccAs2 := (held_push _ _) $$ [Has2 HAccAs2]
  · isplitl [Has2]
    · iexact Has2
    · iexact HAccAs2
  ihave #HI := (inv_s1_16 (S1def m) (Y2def m) K c) $$ Hrec
  sl_exec_parts
  imod (Rounds.cell_close ER (sched (F := F) (S1def m) (Y2def m)) (Set.mem_univ (K (c, some (0, ⟨15, by decide⟩)))) (fun h => h) (R := 0 + 1) (duties_later (S1def m) (Y2def m) (s1Cell c 16 ho_16))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF17
  icases Xx with ⟨Has1, Has2⟩
  ihave HAccAs2 := (held_push _ _) $$ [Has2 HAccAs2]
  · isplitl [Has2]
    · iexact Has2
    · iexact HAccAs2
  ihave #HI := (inv_s1_17 (S1def m) (Y2def m) K c) $$ Hrec
  sl_exec_parts
  imod (Rounds.cell_close ER (sched (F := F) (S1def m) (Y2def m)) (Set.mem_univ (K (c, some (0, ⟨16, by decide⟩)))) (fun h => h) (R := 0 + 1) (duties_later (S1def m) (Y2def m) (s1Cell c 17 ho_17))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF18
  icases Xx with ⟨Has1, Has2⟩
  ihave HAccAs2 := (held_push _ _) $$ [Has2 HAccAs2]
  · isplitl [Has2]
    · iexact Has2
    · iexact HAccAs2
  ihave #HI := (inv_s1_18 (S1def m) (Y2def m) K c) $$ Hrec
  sl_exec_parts
  imod (Rounds.cell_close ER (sched (F := F) (S1def m) (Y2def m)) (Set.mem_univ (K (c, some (0, ⟨17, by decide⟩)))) (fun h => h) (R := 0 + 1) (duties_later (S1def m) (Y2def m) (s1Cell c 18 ho_18))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF19
  icases Xx with ⟨Has1, Has2⟩
  ihave HAccAs2 := (held_push _ _) $$ [Has2 HAccAs2]
  · isplitl [Has2]
    · iexact Has2
    · iexact HAccAs2
  ihave #HI := (inv_s1_19 (S1def m) (Y2def m) K c) $$ Hrec
  sl_exec_parts
  imod (Rounds.cell_close ER (sched (F := F) (S1def m) (Y2def m)) (Set.mem_univ (K (c, some (0, ⟨18, by decide⟩)))) (fun h => h) (R := 0 + 1) (duties_later (S1def m) (Y2def m) (s1Cell c 19 ho_19))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF20
  icases Xx with ⟨Has1, Has2⟩
  ihave HAccAs2 := (held_push _ _) $$ [Has2 HAccAs2]
  · isplitl [Has2]
    · iexact Has2
    · iexact HAccAs2
  ihave #HI := (inv_s1_20 (S1def m) (Y2def m) K c) $$ Hrec
  sl_exec_parts
  imod (Rounds.cell_close ER (sched (F := F) (S1def m) (Y2def m)) (Set.mem_univ (K (c, some (0, ⟨19, by decide⟩)))) (fun h => h) (R := 0 + 1) (duties_later (S1def m) (Y2def m) (s1Cell c 20 ho_20))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF21
  icases Xx with ⟨Has1, Has2⟩
  ihave HAccAs2 := (held_push _ _) $$ [Has2 HAccAs2]
  · isplitl [Has2]
    · iexact Has2
    · iexact HAccAs2
  ihave #HI := (inv_s1_21 (S1def m) (Y2def m) K c) $$ Hrec
  sl_exec_parts
  imod (Rounds.cell_close ER (sched (F := F) (S1def m) (Y2def m)) (Set.mem_univ (K (c, some (0, ⟨20, by decide⟩)))) (fun h => h) (R := 0 + 1) (duties_later (S1def m) (Y2def m) (s1Cell c 21 ho_21))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF22
  icases Xx with ⟨Has1, Has2⟩
  ihave HAccAs2 := (held_push _ _) $$ [Has2 HAccAs2]
  · isplitl [Has2]
    · iexact Has2
    · iexact HAccAs2
  ihave #HI := (inv_s1_22 (S1def m) (Y2def m) K c) $$ Hrec
  sl_exec_parts
  imod (Rounds.cell_close ER (sched (F := F) (S1def m) (Y2def m)) (Set.mem_univ (K (c, some (0, ⟨21, by decide⟩)))) (fun h => h) (R := 0 + 1) (duties_later (S1def m) (Y2def m) (s1Cell c 22 ho_22))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF23
  icases Xx with ⟨Has1, Has2⟩
  ihave HAccAs2 := (held_push _ _) $$ [Has2 HAccAs2]
  · isplitl [Has2]
    · iexact Has2
    · iexact HAccAs2
  ihave #HI := (inv_s1_23 (S1def m) (Y2def m) K c) $$ Hrec
  sl_exec_parts
  imod (Rounds.cell_close ER (sched (F := F) (S1def m) (Y2def m)) (Set.mem_univ (K (c, some (0, ⟨22, by decide⟩)))) (fun h => h) (R := 0 + 1) (duties_later (S1def m) (Y2def m) (s1Cell c 23 ho_23))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF24
  icases Xx with ⟨Has1, Has2⟩
  ihave HAccAs2 := (held_push _ _) $$ [Has2 HAccAs2]
  · isplitl [Has2]
    · iexact Has2
    · iexact HAccAs2
  ihave #HI := (inv_s1_24 (S1def m) (Y2def m) K c) $$ Hrec
  sl_exec_parts
  imod (Rounds.cell_close ER (sched (F := F) (S1def m) (Y2def m)) (Set.mem_univ (K (c, some (0, ⟨23, by decide⟩)))) (fun h => h) (R := 0 + 1) (duties_later (S1def m) (Y2def m) (s1Cell c 24 ho_24))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF25
  icases Xx with ⟨Has1, Has2⟩
  ihave HAccAs2 := (held_push _ _) $$ [Has2 HAccAs2]
  · isplitl [Has2]
    · iexact Has2
    · iexact HAccAs2
  ihave #HI := (inv_s1_25 (S1def m) (Y2def m) K c) $$ Hrec
  sl_exec_parts
  imod (Rounds.cell_close ER (sched (F := F) (S1def m) (Y2def m)) (Set.mem_univ (K (c, some (0, ⟨24, by decide⟩)))) (fun h => h) (R := 0 + 1) (duties_later (S1def m) (Y2def m) (s1Cell c 25 ho_25))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF26
  icases Xx with ⟨Has1, Has2⟩
  ihave HAccAs2 := (held_push _ _) $$ [Has2 HAccAs2]
  · isplitl [Has2]
    · iexact Has2
    · iexact HAccAs2
  ihave #HI := (inv_s1_26 (S1def m) (Y2def m) K c) $$ Hrec
  sl_exec_parts
  imod (Rounds.cell_close ER (sched (F := F) (S1def m) (Y2def m)) (Set.mem_univ (K (c, some (0, ⟨25, by decide⟩)))) (fun h => h) (R := 0 + 1) (duties_later (S1def m) (Y2def m) (s1Cell c 26 ho_26))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF27
  icases Xx with ⟨Has1, Has2⟩
  ihave HAccAs2 := (held_push _ _) $$ [Has2 HAccAs2]
  · isplitl [Has2]
    · iexact Has2
    · iexact HAccAs2
  ihave #HI := (inv_s1_27 (S1def m) (Y2def m) K c) $$ Hrec
  sl_exec_parts
  imod (Rounds.cell_close ER (sched (F := F) (S1def m) (Y2def m)) (Set.mem_univ (K (c, some (0, ⟨26, by decide⟩)))) (fun h => h) (R := 0 + 1) (duties_later (S1def m) (Y2def m) (s1Cell c 27 ho_27))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF28
  icases Xx with ⟨Has1, Has2⟩
  ihave HAccAs2 := (held_push _ _) $$ [Has2 HAccAs2]
  · isplitl [Has2]
    · iexact Has2
    · iexact HAccAs2
  ihave #HI := (inv_s1_28 (S1def m) (Y2def m) K c) $$ Hrec
  sl_exec_parts
  imod (Rounds.cell_close ER (sched (F := F) (S1def m) (Y2def m)) (Set.mem_univ (K (c, some (0, ⟨27, by decide⟩)))) (fun h => h) (R := 0 + 1) (duties_later (S1def m) (Y2def m) (s1Cell c 28 ho_28))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF29
  icases Xx with ⟨Has1, Has2⟩
  ihave HAccAs2 := (held_push _ _) $$ [Has2 HAccAs2]
  · isplitl [Has2]
    · iexact Has2
    · iexact HAccAs2
  ihave #HI := (inv_s1_29 (S1def m) (Y2def m) K c) $$ Hrec
  sl_exec_parts
  imod (Rounds.cell_close ER (sched (F := F) (S1def m) (Y2def m)) (Set.mem_univ (K (c, some (0, ⟨28, by decide⟩)))) (fun h => h) (R := 0 + 1) (duties_later (S1def m) (Y2def m) (s1Cell c 29 ho_29))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF30
  icases Xx with ⟨Has1, Has2⟩
  ihave HAccAs2 := (held_push _ _) $$ [Has2 HAccAs2]
  · isplitl [Has2]
    · iexact Has2
    · iexact HAccAs2
  ihave #HI := (inv_s1_30 (S1def m) (Y2def m) K c) $$ Hrec
  sl_exec_parts
  imod (Rounds.cell_close ER (sched (F := F) (S1def m) (Y2def m)) (Set.mem_univ (K (c, some (0, ⟨29, by decide⟩)))) (fun h => h) (R := 0 + 1) (duties_later (S1def m) (Y2def m) (s1Cell c 30 ho_30))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF31
  icases Xx with ⟨Has1, Has2⟩
  ihave HAccAs2 := (held_push _ _) $$ [Has2 HAccAs2]
  · isplitl [Has2]
    · iexact Has2
    · iexact HAccAs2
  ihave #HI := (inv_s1_31 (S1def m) (Y2def m) K c) $$ Hrec
  sl_exec_parts
  imod (Rounds.cell_close ER (sched (F := F) (S1def m) (Y2def m)) (Set.mem_univ (K (c, some (0, ⟨30, by decide⟩)))) (fun h => h) (R := 0 + 1) (duties_later (S1def m) (Y2def m) (s1Cell c 31 ho_31))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  -- the second exchange's 31 send waits: the read shares come back
  ihave Xq := (held_pop _ _) $$ HAccAs2
  icases Xq with ⟨Has2_31, HAccAs2⟩
  ihave Xq := (held_pop _ _) $$ HAccAs2
  icases Xq with ⟨Has2_30, HAccAs2⟩
  ihave Xq := (held_pop _ _) $$ HAccAs2
  icases Xq with ⟨Has2_29, HAccAs2⟩
  ihave Xq := (held_pop _ _) $$ HAccAs2
  icases Xq with ⟨Has2_28, HAccAs2⟩
  ihave Xq := (held_pop _ _) $$ HAccAs2
  icases Xq with ⟨Has2_27, HAccAs2⟩
  ihave Xq := (held_pop _ _) $$ HAccAs2
  icases Xq with ⟨Has2_26, HAccAs2⟩
  ihave Xq := (held_pop _ _) $$ HAccAs2
  icases Xq with ⟨Has2_25, HAccAs2⟩
  ihave Xq := (held_pop _ _) $$ HAccAs2
  icases Xq with ⟨Has2_24, HAccAs2⟩
  ihave Xq := (held_pop _ _) $$ HAccAs2
  icases Xq with ⟨Has2_23, HAccAs2⟩
  ihave Xq := (held_pop _ _) $$ HAccAs2
  icases Xq with ⟨Has2_22, HAccAs2⟩
  ihave Xq := (held_pop _ _) $$ HAccAs2
  icases Xq with ⟨Has2_21, HAccAs2⟩
  ihave Xq := (held_pop _ _) $$ HAccAs2
  icases Xq with ⟨Has2_20, HAccAs2⟩
  ihave Xq := (held_pop _ _) $$ HAccAs2
  icases Xq with ⟨Has2_19, HAccAs2⟩
  ihave Xq := (held_pop _ _) $$ HAccAs2
  icases Xq with ⟨Has2_18, HAccAs2⟩
  ihave Xq := (held_pop _ _) $$ HAccAs2
  icases Xq with ⟨Has2_17, HAccAs2⟩
  ihave Xq := (held_pop _ _) $$ HAccAs2
  icases Xq with ⟨Has2_16, HAccAs2⟩
  ihave Xq := (held_pop _ _) $$ HAccAs2
  icases Xq with ⟨Has2_15, HAccAs2⟩
  ihave Xq := (held_pop _ _) $$ HAccAs2
  icases Xq with ⟨Has2_14, HAccAs2⟩
  ihave Xq := (held_pop _ _) $$ HAccAs2
  icases Xq with ⟨Has2_13, HAccAs2⟩
  ihave Xq := (held_pop _ _) $$ HAccAs2
  icases Xq with ⟨Has2_12, HAccAs2⟩
  ihave Xq := (held_pop _ _) $$ HAccAs2
  icases Xq with ⟨Has2_11, HAccAs2⟩
  ihave Xq := (held_pop _ _) $$ HAccAs2
  icases Xq with ⟨Has2_10, HAccAs2⟩
  ihave Xq := (held_pop _ _) $$ HAccAs2
  icases Xq with ⟨Has2_9, HAccAs2⟩
  ihave Xq := (held_pop _ _) $$ HAccAs2
  icases Xq with ⟨Has2_8, HAccAs2⟩
  ihave Xq := (held_pop _ _) $$ HAccAs2
  icases Xq with ⟨Has2_7, HAccAs2⟩
  ihave Xq := (held_pop _ _) $$ HAccAs2
  icases Xq with ⟨Has2_6, HAccAs2⟩
  ihave Xq := (held_pop _ _) $$ HAccAs2
  icases Xq with ⟨Has2_5, HAccAs2⟩
  ihave Xq := (held_pop _ _) $$ HAccAs2
  icases Xq with ⟨Has2_4, HAccAs2⟩
  ihave Xq := (held_pop _ _) $$ HAccAs2
  icases Xq with ⟨Has2_3, HAccAs2⟩
  ihave Xq := (held_pop _ _) $$ HAccAs2
  icases Xq with ⟨Has2_2, HAccAs2⟩
  ihave Has2_1 := (held_elim _) $$ HAccAs2
  ihave Xq := (held_pop _ _) $$ HAccCr2
  icases Xq with ⟨Hcs2_31, HAccCr2⟩
  ihave Xq := (held_pop _ _) $$ HAccCr2
  icases Xq with ⟨Hcs2_30, HAccCr2⟩
  ihave Xq := (held_pop _ _) $$ HAccCr2
  icases Xq with ⟨Hcs2_29, HAccCr2⟩
  ihave Xq := (held_pop _ _) $$ HAccCr2
  icases Xq with ⟨Hcs2_28, HAccCr2⟩
  ihave Xq := (held_pop _ _) $$ HAccCr2
  icases Xq with ⟨Hcs2_27, HAccCr2⟩
  ihave Xq := (held_pop _ _) $$ HAccCr2
  icases Xq with ⟨Hcs2_26, HAccCr2⟩
  ihave Xq := (held_pop _ _) $$ HAccCr2
  icases Xq with ⟨Hcs2_25, HAccCr2⟩
  ihave Xq := (held_pop _ _) $$ HAccCr2
  icases Xq with ⟨Hcs2_24, HAccCr2⟩
  ihave Xq := (held_pop _ _) $$ HAccCr2
  icases Xq with ⟨Hcs2_23, HAccCr2⟩
  ihave Xq := (held_pop _ _) $$ HAccCr2
  icases Xq with ⟨Hcs2_22, HAccCr2⟩
  ihave Xq := (held_pop _ _) $$ HAccCr2
  icases Xq with ⟨Hcs2_21, HAccCr2⟩
  ihave Xq := (held_pop _ _) $$ HAccCr2
  icases Xq with ⟨Hcs2_20, HAccCr2⟩
  ihave Xq := (held_pop _ _) $$ HAccCr2
  icases Xq with ⟨Hcs2_19, HAccCr2⟩
  ihave Xq := (held_pop _ _) $$ HAccCr2
  icases Xq with ⟨Hcs2_18, HAccCr2⟩
  ihave Xq := (held_pop _ _) $$ HAccCr2
  icases Xq with ⟨Hcs2_17, HAccCr2⟩
  ihave Xq := (held_pop _ _) $$ HAccCr2
  icases Xq with ⟨Hcs2_16, HAccCr2⟩
  ihave Xq := (held_pop _ _) $$ HAccCr2
  icases Xq with ⟨Hcs2_15, HAccCr2⟩
  ihave Xq := (held_pop _ _) $$ HAccCr2
  icases Xq with ⟨Hcs2_14, HAccCr2⟩
  ihave Xq := (held_pop _ _) $$ HAccCr2
  icases Xq with ⟨Hcs2_13, HAccCr2⟩
  ihave Xq := (held_pop _ _) $$ HAccCr2
  icases Xq with ⟨Hcs2_12, HAccCr2⟩
  ihave Xq := (held_pop _ _) $$ HAccCr2
  icases Xq with ⟨Hcs2_11, HAccCr2⟩
  ihave Xq := (held_pop _ _) $$ HAccCr2
  icases Xq with ⟨Hcs2_10, HAccCr2⟩
  ihave Xq := (held_pop _ _) $$ HAccCr2
  icases Xq with ⟨Hcs2_9, HAccCr2⟩
  ihave Xq := (held_pop _ _) $$ HAccCr2
  icases Xq with ⟨Hcs2_8, HAccCr2⟩
  ihave Xq := (held_pop _ _) $$ HAccCr2
  icases Xq with ⟨Hcs2_7, HAccCr2⟩
  ihave Xq := (held_pop _ _) $$ HAccCr2
  icases Xq with ⟨Hcs2_6, HAccCr2⟩
  ihave Xq := (held_pop _ _) $$ HAccCr2
  icases Xq with ⟨Hcs2_5, HAccCr2⟩
  ihave Xq := (held_pop _ _) $$ HAccCr2
  icases Xq with ⟨Hcs2_4, HAccCr2⟩
  ihave Xq := (held_pop _ _) $$ HAccCr2
  icases Xq with ⟨Hcs2_3, HAccCr2⟩
  ihave Xq := (held_pop _ _) $$ HAccCr2
  icases Xq with ⟨Hcs2_2, HAccCr2⟩
  ihave Hcs2_1 := (held_elim _) $$ HAccCr2
  ihave #HI := (inv_s2_1 (S1def m) (Y2def m) K c) $$ Hrec
  sl_exec_parts
  imod (Rounds.cell_close ER (sched (F := F) (S1def m) (Y2def m)) (Set.mem_univ (K (c, some (2, ⟨0, by decide⟩)))) (fun h => h) (R := 0 + 1) (duties_later (S1def m) (Y2def m) (s2Cell c 1 ho_1))) $$ [Has2_1] with Hz
  · isplitr; · iexact HI
    iexact Has2_1
  ihave HAccZs2 := (held_intro _) $$ Hz
  ihave HAccSh := (held_intro _) $$ Has2_1_pay1
  iclear HI Has2_1_reached
  ihave #HI := (inv_s2_2 (S1def m) (Y2def m) K c) $$ Hrec
  sl_exec_parts
  imod (Rounds.cell_close ER (sched (F := F) (S1def m) (Y2def m)) (Set.mem_univ (K (c, some (2, ⟨1, by decide⟩)))) (fun h => h) (R := 0 + 1) (duties_later (S1def m) (Y2def m) (s2Cell c 2 ho_2))) $$ [Has2_2] with Hz
  · isplitr; · iexact HI
    iexact Has2_2
  ihave HAccZs2 := (held_push _ _) $$ [Hz HAccZs2]
  · isplitl [Hz]
    · iexact Hz
    · iexact HAccZs2
  ihave HAccSh := (held_push _ _) $$ [Has2_2_pay1 HAccSh]
  · isplitl [Has2_2_pay1]
    · iexact Has2_2_pay1
    · iexact HAccSh
  iclear HI Has2_2_reached
  ihave #HI := (inv_s2_3 (S1def m) (Y2def m) K c) $$ Hrec
  sl_exec_parts
  imod (Rounds.cell_close ER (sched (F := F) (S1def m) (Y2def m)) (Set.mem_univ (K (c, some (2, ⟨2, by decide⟩)))) (fun h => h) (R := 0 + 1) (duties_later (S1def m) (Y2def m) (s2Cell c 3 ho_3))) $$ [Has2_3] with Hz
  · isplitr; · iexact HI
    iexact Has2_3
  ihave HAccZs2 := (held_push _ _) $$ [Hz HAccZs2]
  · isplitl [Hz]
    · iexact Hz
    · iexact HAccZs2
  ihave HAccSh := (held_push _ _) $$ [Has2_3_pay1 HAccSh]
  · isplitl [Has2_3_pay1]
    · iexact Has2_3_pay1
    · iexact HAccSh
  iclear HI Has2_3_reached
  ihave #HI := (inv_s2_4 (S1def m) (Y2def m) K c) $$ Hrec
  sl_exec_parts
  imod (Rounds.cell_close ER (sched (F := F) (S1def m) (Y2def m)) (Set.mem_univ (K (c, some (2, ⟨3, by decide⟩)))) (fun h => h) (R := 0 + 1) (duties_later (S1def m) (Y2def m) (s2Cell c 4 ho_4))) $$ [Has2_4] with Hz
  · isplitr; · iexact HI
    iexact Has2_4
  ihave HAccZs2 := (held_push _ _) $$ [Hz HAccZs2]
  · isplitl [Hz]
    · iexact Hz
    · iexact HAccZs2
  ihave HAccSh := (held_push _ _) $$ [Has2_4_pay1 HAccSh]
  · isplitl [Has2_4_pay1]
    · iexact Has2_4_pay1
    · iexact HAccSh
  iclear HI Has2_4_reached
  ihave #HI := (inv_s2_5 (S1def m) (Y2def m) K c) $$ Hrec
  sl_exec_parts
  imod (Rounds.cell_close ER (sched (F := F) (S1def m) (Y2def m)) (Set.mem_univ (K (c, some (2, ⟨4, by decide⟩)))) (fun h => h) (R := 0 + 1) (duties_later (S1def m) (Y2def m) (s2Cell c 5 ho_5))) $$ [Has2_5] with Hz
  · isplitr; · iexact HI
    iexact Has2_5
  ihave HAccZs2 := (held_push _ _) $$ [Hz HAccZs2]
  · isplitl [Hz]
    · iexact Hz
    · iexact HAccZs2
  ihave HAccSh := (held_push _ _) $$ [Has2_5_pay1 HAccSh]
  · isplitl [Has2_5_pay1]
    · iexact Has2_5_pay1
    · iexact HAccSh
  iclear HI Has2_5_reached
  ihave #HI := (inv_s2_6 (S1def m) (Y2def m) K c) $$ Hrec
  sl_exec_parts
  imod (Rounds.cell_close ER (sched (F := F) (S1def m) (Y2def m)) (Set.mem_univ (K (c, some (2, ⟨5, by decide⟩)))) (fun h => h) (R := 0 + 1) (duties_later (S1def m) (Y2def m) (s2Cell c 6 ho_6))) $$ [Has2_6] with Hz
  · isplitr; · iexact HI
    iexact Has2_6
  ihave HAccZs2 := (held_push _ _) $$ [Hz HAccZs2]
  · isplitl [Hz]
    · iexact Hz
    · iexact HAccZs2
  ihave HAccSh := (held_push _ _) $$ [Has2_6_pay1 HAccSh]
  · isplitl [Has2_6_pay1]
    · iexact Has2_6_pay1
    · iexact HAccSh
  iclear HI Has2_6_reached
  ihave #HI := (inv_s2_7 (S1def m) (Y2def m) K c) $$ Hrec
  sl_exec_parts
  imod (Rounds.cell_close ER (sched (F := F) (S1def m) (Y2def m)) (Set.mem_univ (K (c, some (2, ⟨6, by decide⟩)))) (fun h => h) (R := 0 + 1) (duties_later (S1def m) (Y2def m) (s2Cell c 7 ho_7))) $$ [Has2_7] with Hz
  · isplitr; · iexact HI
    iexact Has2_7
  ihave HAccZs2 := (held_push _ _) $$ [Hz HAccZs2]
  · isplitl [Hz]
    · iexact Hz
    · iexact HAccZs2
  ihave HAccSh := (held_push _ _) $$ [Has2_7_pay1 HAccSh]
  · isplitl [Has2_7_pay1]
    · iexact Has2_7_pay1
    · iexact HAccSh
  iclear HI Has2_7_reached
  ihave #HI := (inv_s2_8 (S1def m) (Y2def m) K c) $$ Hrec
  sl_exec_parts
  imod (Rounds.cell_close ER (sched (F := F) (S1def m) (Y2def m)) (Set.mem_univ (K (c, some (2, ⟨7, by decide⟩)))) (fun h => h) (R := 0 + 1) (duties_later (S1def m) (Y2def m) (s2Cell c 8 ho_8))) $$ [Has2_8] with Hz
  · isplitr; · iexact HI
    iexact Has2_8
  ihave HAccZs2 := (held_push _ _) $$ [Hz HAccZs2]
  · isplitl [Hz]
    · iexact Hz
    · iexact HAccZs2
  ihave HAccSh := (held_push _ _) $$ [Has2_8_pay1 HAccSh]
  · isplitl [Has2_8_pay1]
    · iexact Has2_8_pay1
    · iexact HAccSh
  iclear HI Has2_8_reached
  ihave #HI := (inv_s2_9 (S1def m) (Y2def m) K c) $$ Hrec
  sl_exec_parts
  imod (Rounds.cell_close ER (sched (F := F) (S1def m) (Y2def m)) (Set.mem_univ (K (c, some (2, ⟨8, by decide⟩)))) (fun h => h) (R := 0 + 1) (duties_later (S1def m) (Y2def m) (s2Cell c 9 ho_9))) $$ [Has2_9] with Hz
  · isplitr; · iexact HI
    iexact Has2_9
  ihave HAccZs2 := (held_push _ _) $$ [Hz HAccZs2]
  · isplitl [Hz]
    · iexact Hz
    · iexact HAccZs2
  ihave HAccSh := (held_push _ _) $$ [Has2_9_pay1 HAccSh]
  · isplitl [Has2_9_pay1]
    · iexact Has2_9_pay1
    · iexact HAccSh
  iclear HI Has2_9_reached
  ihave #HI := (inv_s2_10 (S1def m) (Y2def m) K c) $$ Hrec
  sl_exec_parts
  imod (Rounds.cell_close ER (sched (F := F) (S1def m) (Y2def m)) (Set.mem_univ (K (c, some (2, ⟨9, by decide⟩)))) (fun h => h) (R := 0 + 1) (duties_later (S1def m) (Y2def m) (s2Cell c 10 ho_10))) $$ [Has2_10] with Hz
  · isplitr; · iexact HI
    iexact Has2_10
  ihave HAccZs2 := (held_push _ _) $$ [Hz HAccZs2]
  · isplitl [Hz]
    · iexact Hz
    · iexact HAccZs2
  ihave HAccSh := (held_push _ _) $$ [Has2_10_pay1 HAccSh]
  · isplitl [Has2_10_pay1]
    · iexact Has2_10_pay1
    · iexact HAccSh
  iclear HI Has2_10_reached
  ihave #HI := (inv_s2_11 (S1def m) (Y2def m) K c) $$ Hrec
  sl_exec_parts
  imod (Rounds.cell_close ER (sched (F := F) (S1def m) (Y2def m)) (Set.mem_univ (K (c, some (2, ⟨10, by decide⟩)))) (fun h => h) (R := 0 + 1) (duties_later (S1def m) (Y2def m) (s2Cell c 11 ho_11))) $$ [Has2_11] with Hz
  · isplitr; · iexact HI
    iexact Has2_11
  ihave HAccZs2 := (held_push _ _) $$ [Hz HAccZs2]
  · isplitl [Hz]
    · iexact Hz
    · iexact HAccZs2
  ihave HAccSh := (held_push _ _) $$ [Has2_11_pay1 HAccSh]
  · isplitl [Has2_11_pay1]
    · iexact Has2_11_pay1
    · iexact HAccSh
  iclear HI Has2_11_reached
  ihave #HI := (inv_s2_12 (S1def m) (Y2def m) K c) $$ Hrec
  sl_exec_parts
  imod (Rounds.cell_close ER (sched (F := F) (S1def m) (Y2def m)) (Set.mem_univ (K (c, some (2, ⟨11, by decide⟩)))) (fun h => h) (R := 0 + 1) (duties_later (S1def m) (Y2def m) (s2Cell c 12 ho_12))) $$ [Has2_12] with Hz
  · isplitr; · iexact HI
    iexact Has2_12
  ihave HAccZs2 := (held_push _ _) $$ [Hz HAccZs2]
  · isplitl [Hz]
    · iexact Hz
    · iexact HAccZs2
  ihave HAccSh := (held_push _ _) $$ [Has2_12_pay1 HAccSh]
  · isplitl [Has2_12_pay1]
    · iexact Has2_12_pay1
    · iexact HAccSh
  iclear HI Has2_12_reached
  ihave #HI := (inv_s2_13 (S1def m) (Y2def m) K c) $$ Hrec
  sl_exec_parts
  imod (Rounds.cell_close ER (sched (F := F) (S1def m) (Y2def m)) (Set.mem_univ (K (c, some (2, ⟨12, by decide⟩)))) (fun h => h) (R := 0 + 1) (duties_later (S1def m) (Y2def m) (s2Cell c 13 ho_13))) $$ [Has2_13] with Hz
  · isplitr; · iexact HI
    iexact Has2_13
  ihave HAccZs2 := (held_push _ _) $$ [Hz HAccZs2]
  · isplitl [Hz]
    · iexact Hz
    · iexact HAccZs2
  ihave HAccSh := (held_push _ _) $$ [Has2_13_pay1 HAccSh]
  · isplitl [Has2_13_pay1]
    · iexact Has2_13_pay1
    · iexact HAccSh
  iclear HI Has2_13_reached
  ihave #HI := (inv_s2_14 (S1def m) (Y2def m) K c) $$ Hrec
  sl_exec_parts
  imod (Rounds.cell_close ER (sched (F := F) (S1def m) (Y2def m)) (Set.mem_univ (K (c, some (2, ⟨13, by decide⟩)))) (fun h => h) (R := 0 + 1) (duties_later (S1def m) (Y2def m) (s2Cell c 14 ho_14))) $$ [Has2_14] with Hz
  · isplitr; · iexact HI
    iexact Has2_14
  ihave HAccZs2 := (held_push _ _) $$ [Hz HAccZs2]
  · isplitl [Hz]
    · iexact Hz
    · iexact HAccZs2
  ihave HAccSh := (held_push _ _) $$ [Has2_14_pay1 HAccSh]
  · isplitl [Has2_14_pay1]
    · iexact Has2_14_pay1
    · iexact HAccSh
  iclear HI Has2_14_reached
  ihave #HI := (inv_s2_15 (S1def m) (Y2def m) K c) $$ Hrec
  sl_exec_parts
  imod (Rounds.cell_close ER (sched (F := F) (S1def m) (Y2def m)) (Set.mem_univ (K (c, some (2, ⟨14, by decide⟩)))) (fun h => h) (R := 0 + 1) (duties_later (S1def m) (Y2def m) (s2Cell c 15 ho_15))) $$ [Has2_15] with Hz
  · isplitr; · iexact HI
    iexact Has2_15
  ihave HAccZs2 := (held_push _ _) $$ [Hz HAccZs2]
  · isplitl [Hz]
    · iexact Hz
    · iexact HAccZs2
  ihave HAccSh := (held_push _ _) $$ [Has2_15_pay1 HAccSh]
  · isplitl [Has2_15_pay1]
    · iexact Has2_15_pay1
    · iexact HAccSh
  iclear HI Has2_15_reached
  ihave #HI := (inv_s2_16 (S1def m) (Y2def m) K c) $$ Hrec
  sl_exec_parts
  imod (Rounds.cell_close ER (sched (F := F) (S1def m) (Y2def m)) (Set.mem_univ (K (c, some (2, ⟨15, by decide⟩)))) (fun h => h) (R := 0 + 1) (duties_later (S1def m) (Y2def m) (s2Cell c 16 ho_16))) $$ [Has2_16] with Hz
  · isplitr; · iexact HI
    iexact Has2_16
  ihave HAccZs2 := (held_push _ _) $$ [Hz HAccZs2]
  · isplitl [Hz]
    · iexact Hz
    · iexact HAccZs2
  ihave HAccSh := (held_push _ _) $$ [Has2_16_pay1 HAccSh]
  · isplitl [Has2_16_pay1]
    · iexact Has2_16_pay1
    · iexact HAccSh
  iclear HI Has2_16_reached
  ihave #HI := (inv_s2_17 (S1def m) (Y2def m) K c) $$ Hrec
  sl_exec_parts
  imod (Rounds.cell_close ER (sched (F := F) (S1def m) (Y2def m)) (Set.mem_univ (K (c, some (2, ⟨16, by decide⟩)))) (fun h => h) (R := 0 + 1) (duties_later (S1def m) (Y2def m) (s2Cell c 17 ho_17))) $$ [Has2_17] with Hz
  · isplitr; · iexact HI
    iexact Has2_17
  ihave HAccZs2 := (held_push _ _) $$ [Hz HAccZs2]
  · isplitl [Hz]
    · iexact Hz
    · iexact HAccZs2
  ihave HAccSh := (held_push _ _) $$ [Has2_17_pay1 HAccSh]
  · isplitl [Has2_17_pay1]
    · iexact Has2_17_pay1
    · iexact HAccSh
  iclear HI Has2_17_reached
  ihave #HI := (inv_s2_18 (S1def m) (Y2def m) K c) $$ Hrec
  sl_exec_parts
  imod (Rounds.cell_close ER (sched (F := F) (S1def m) (Y2def m)) (Set.mem_univ (K (c, some (2, ⟨17, by decide⟩)))) (fun h => h) (R := 0 + 1) (duties_later (S1def m) (Y2def m) (s2Cell c 18 ho_18))) $$ [Has2_18] with Hz
  · isplitr; · iexact HI
    iexact Has2_18
  ihave HAccZs2 := (held_push _ _) $$ [Hz HAccZs2]
  · isplitl [Hz]
    · iexact Hz
    · iexact HAccZs2
  ihave HAccSh := (held_push _ _) $$ [Has2_18_pay1 HAccSh]
  · isplitl [Has2_18_pay1]
    · iexact Has2_18_pay1
    · iexact HAccSh
  iclear HI Has2_18_reached
  ihave #HI := (inv_s2_19 (S1def m) (Y2def m) K c) $$ Hrec
  sl_exec_parts
  imod (Rounds.cell_close ER (sched (F := F) (S1def m) (Y2def m)) (Set.mem_univ (K (c, some (2, ⟨18, by decide⟩)))) (fun h => h) (R := 0 + 1) (duties_later (S1def m) (Y2def m) (s2Cell c 19 ho_19))) $$ [Has2_19] with Hz
  · isplitr; · iexact HI
    iexact Has2_19
  ihave HAccZs2 := (held_push _ _) $$ [Hz HAccZs2]
  · isplitl [Hz]
    · iexact Hz
    · iexact HAccZs2
  ihave HAccSh := (held_push _ _) $$ [Has2_19_pay1 HAccSh]
  · isplitl [Has2_19_pay1]
    · iexact Has2_19_pay1
    · iexact HAccSh
  iclear HI Has2_19_reached
  ihave #HI := (inv_s2_20 (S1def m) (Y2def m) K c) $$ Hrec
  sl_exec_parts
  imod (Rounds.cell_close ER (sched (F := F) (S1def m) (Y2def m)) (Set.mem_univ (K (c, some (2, ⟨19, by decide⟩)))) (fun h => h) (R := 0 + 1) (duties_later (S1def m) (Y2def m) (s2Cell c 20 ho_20))) $$ [Has2_20] with Hz
  · isplitr; · iexact HI
    iexact Has2_20
  ihave HAccZs2 := (held_push _ _) $$ [Hz HAccZs2]
  · isplitl [Hz]
    · iexact Hz
    · iexact HAccZs2
  ihave HAccSh := (held_push _ _) $$ [Has2_20_pay1 HAccSh]
  · isplitl [Has2_20_pay1]
    · iexact Has2_20_pay1
    · iexact HAccSh
  iclear HI Has2_20_reached
  ihave #HI := (inv_s2_21 (S1def m) (Y2def m) K c) $$ Hrec
  sl_exec_parts
  imod (Rounds.cell_close ER (sched (F := F) (S1def m) (Y2def m)) (Set.mem_univ (K (c, some (2, ⟨20, by decide⟩)))) (fun h => h) (R := 0 + 1) (duties_later (S1def m) (Y2def m) (s2Cell c 21 ho_21))) $$ [Has2_21] with Hz
  · isplitr; · iexact HI
    iexact Has2_21
  ihave HAccZs2 := (held_push _ _) $$ [Hz HAccZs2]
  · isplitl [Hz]
    · iexact Hz
    · iexact HAccZs2
  ihave HAccSh := (held_push _ _) $$ [Has2_21_pay1 HAccSh]
  · isplitl [Has2_21_pay1]
    · iexact Has2_21_pay1
    · iexact HAccSh
  iclear HI Has2_21_reached
  ihave #HI := (inv_s2_22 (S1def m) (Y2def m) K c) $$ Hrec
  sl_exec_parts
  imod (Rounds.cell_close ER (sched (F := F) (S1def m) (Y2def m)) (Set.mem_univ (K (c, some (2, ⟨21, by decide⟩)))) (fun h => h) (R := 0 + 1) (duties_later (S1def m) (Y2def m) (s2Cell c 22 ho_22))) $$ [Has2_22] with Hz
  · isplitr; · iexact HI
    iexact Has2_22
  ihave HAccZs2 := (held_push _ _) $$ [Hz HAccZs2]
  · isplitl [Hz]
    · iexact Hz
    · iexact HAccZs2
  ihave HAccSh := (held_push _ _) $$ [Has2_22_pay1 HAccSh]
  · isplitl [Has2_22_pay1]
    · iexact Has2_22_pay1
    · iexact HAccSh
  iclear HI Has2_22_reached
  ihave #HI := (inv_s2_23 (S1def m) (Y2def m) K c) $$ Hrec
  sl_exec_parts
  imod (Rounds.cell_close ER (sched (F := F) (S1def m) (Y2def m)) (Set.mem_univ (K (c, some (2, ⟨22, by decide⟩)))) (fun h => h) (R := 0 + 1) (duties_later (S1def m) (Y2def m) (s2Cell c 23 ho_23))) $$ [Has2_23] with Hz
  · isplitr; · iexact HI
    iexact Has2_23
  ihave HAccZs2 := (held_push _ _) $$ [Hz HAccZs2]
  · isplitl [Hz]
    · iexact Hz
    · iexact HAccZs2
  ihave HAccSh := (held_push _ _) $$ [Has2_23_pay1 HAccSh]
  · isplitl [Has2_23_pay1]
    · iexact Has2_23_pay1
    · iexact HAccSh
  iclear HI Has2_23_reached
  ihave #HI := (inv_s2_24 (S1def m) (Y2def m) K c) $$ Hrec
  sl_exec_parts
  imod (Rounds.cell_close ER (sched (F := F) (S1def m) (Y2def m)) (Set.mem_univ (K (c, some (2, ⟨23, by decide⟩)))) (fun h => h) (R := 0 + 1) (duties_later (S1def m) (Y2def m) (s2Cell c 24 ho_24))) $$ [Has2_24] with Hz
  · isplitr; · iexact HI
    iexact Has2_24
  ihave HAccZs2 := (held_push _ _) $$ [Hz HAccZs2]
  · isplitl [Hz]
    · iexact Hz
    · iexact HAccZs2
  ihave HAccSh := (held_push _ _) $$ [Has2_24_pay1 HAccSh]
  · isplitl [Has2_24_pay1]
    · iexact Has2_24_pay1
    · iexact HAccSh
  iclear HI Has2_24_reached
  ihave #HI := (inv_s2_25 (S1def m) (Y2def m) K c) $$ Hrec
  sl_exec_parts
  imod (Rounds.cell_close ER (sched (F := F) (S1def m) (Y2def m)) (Set.mem_univ (K (c, some (2, ⟨24, by decide⟩)))) (fun h => h) (R := 0 + 1) (duties_later (S1def m) (Y2def m) (s2Cell c 25 ho_25))) $$ [Has2_25] with Hz
  · isplitr; · iexact HI
    iexact Has2_25
  ihave HAccZs2 := (held_push _ _) $$ [Hz HAccZs2]
  · isplitl [Hz]
    · iexact Hz
    · iexact HAccZs2
  ihave HAccSh := (held_push _ _) $$ [Has2_25_pay1 HAccSh]
  · isplitl [Has2_25_pay1]
    · iexact Has2_25_pay1
    · iexact HAccSh
  iclear HI Has2_25_reached
  ihave #HI := (inv_s2_26 (S1def m) (Y2def m) K c) $$ Hrec
  sl_exec_parts
  imod (Rounds.cell_close ER (sched (F := F) (S1def m) (Y2def m)) (Set.mem_univ (K (c, some (2, ⟨25, by decide⟩)))) (fun h => h) (R := 0 + 1) (duties_later (S1def m) (Y2def m) (s2Cell c 26 ho_26))) $$ [Has2_26] with Hz
  · isplitr; · iexact HI
    iexact Has2_26
  ihave HAccZs2 := (held_push _ _) $$ [Hz HAccZs2]
  · isplitl [Hz]
    · iexact Hz
    · iexact HAccZs2
  ihave HAccSh := (held_push _ _) $$ [Has2_26_pay1 HAccSh]
  · isplitl [Has2_26_pay1]
    · iexact Has2_26_pay1
    · iexact HAccSh
  iclear HI Has2_26_reached
  ihave #HI := (inv_s2_27 (S1def m) (Y2def m) K c) $$ Hrec
  sl_exec_parts
  imod (Rounds.cell_close ER (sched (F := F) (S1def m) (Y2def m)) (Set.mem_univ (K (c, some (2, ⟨26, by decide⟩)))) (fun h => h) (R := 0 + 1) (duties_later (S1def m) (Y2def m) (s2Cell c 27 ho_27))) $$ [Has2_27] with Hz
  · isplitr; · iexact HI
    iexact Has2_27
  ihave HAccZs2 := (held_push _ _) $$ [Hz HAccZs2]
  · isplitl [Hz]
    · iexact Hz
    · iexact HAccZs2
  ihave HAccSh := (held_push _ _) $$ [Has2_27_pay1 HAccSh]
  · isplitl [Has2_27_pay1]
    · iexact Has2_27_pay1
    · iexact HAccSh
  iclear HI Has2_27_reached
  ihave #HI := (inv_s2_28 (S1def m) (Y2def m) K c) $$ Hrec
  sl_exec_parts
  imod (Rounds.cell_close ER (sched (F := F) (S1def m) (Y2def m)) (Set.mem_univ (K (c, some (2, ⟨27, by decide⟩)))) (fun h => h) (R := 0 + 1) (duties_later (S1def m) (Y2def m) (s2Cell c 28 ho_28))) $$ [Has2_28] with Hz
  · isplitr; · iexact HI
    iexact Has2_28
  ihave HAccZs2 := (held_push _ _) $$ [Hz HAccZs2]
  · isplitl [Hz]
    · iexact Hz
    · iexact HAccZs2
  ihave HAccSh := (held_push _ _) $$ [Has2_28_pay1 HAccSh]
  · isplitl [Has2_28_pay1]
    · iexact Has2_28_pay1
    · iexact HAccSh
  iclear HI Has2_28_reached
  ihave #HI := (inv_s2_29 (S1def m) (Y2def m) K c) $$ Hrec
  sl_exec_parts
  imod (Rounds.cell_close ER (sched (F := F) (S1def m) (Y2def m)) (Set.mem_univ (K (c, some (2, ⟨28, by decide⟩)))) (fun h => h) (R := 0 + 1) (duties_later (S1def m) (Y2def m) (s2Cell c 29 ho_29))) $$ [Has2_29] with Hz
  · isplitr; · iexact HI
    iexact Has2_29
  ihave HAccZs2 := (held_push _ _) $$ [Hz HAccZs2]
  · isplitl [Hz]
    · iexact Hz
    · iexact HAccZs2
  ihave HAccSh := (held_push _ _) $$ [Has2_29_pay1 HAccSh]
  · isplitl [Has2_29_pay1]
    · iexact Has2_29_pay1
    · iexact HAccSh
  iclear HI Has2_29_reached
  ihave #HI := (inv_s2_30 (S1def m) (Y2def m) K c) $$ Hrec
  sl_exec_parts
  imod (Rounds.cell_close ER (sched (F := F) (S1def m) (Y2def m)) (Set.mem_univ (K (c, some (2, ⟨29, by decide⟩)))) (fun h => h) (R := 0 + 1) (duties_later (S1def m) (Y2def m) (s2Cell c 30 ho_30))) $$ [Has2_30] with Hz
  · isplitr; · iexact HI
    iexact Has2_30
  ihave HAccZs2 := (held_push _ _) $$ [Hz HAccZs2]
  · isplitl [Hz]
    · iexact Hz
    · iexact HAccZs2
  ihave HAccSh := (held_push _ _) $$ [Has2_30_pay1 HAccSh]
  · isplitl [Has2_30_pay1]
    · iexact Has2_30_pay1
    · iexact HAccSh
  iclear HI Has2_30_reached
  ihave #HI := (inv_s2_31 (S1def m) (Y2def m) K c) $$ Hrec
  sl_exec_parts
  imod (Rounds.cell_close ER (sched (F := F) (S1def m) (Y2def m)) (Set.mem_univ (K (c, some (2, ⟨30, by decide⟩)))) (fun h => h) (R := 0 + 1) (duties_later (S1def m) (Y2def m) (s2Cell c 31 ho_31))) $$ [Has2_31] with Hz
  · isplitr; · iexact HI
    iexact Has2_31
  ihave HAccZs2 := (held_push _ _) $$ [Hz HAccZs2]
  · isplitl [Hz]
    · iexact Hz
    · iexact HAccZs2
  ihave HAccSh := (held_push _ _) $$ [Has2_31_pay1 HAccSh]
  · isplitl [Has2_31_pay1]
    · iexact Has2_31_pay1
    · iexact HAccSh
  iclear HI Has2_31_reached
  -- the kernel returns
  sl_step
  iapply Hk
  ihave Xq := (held_pop _ _) $$ HAccZr1
  icases Xq with ⟨Zr1_31, HAccZr1⟩
  ihave Xq := (held_pop _ _) $$ HAccZr1
  icases Xq with ⟨Zr1_30, HAccZr1⟩
  ihave Xq := (held_pop _ _) $$ HAccZr1
  icases Xq with ⟨Zr1_29, HAccZr1⟩
  ihave Xq := (held_pop _ _) $$ HAccZr1
  icases Xq with ⟨Zr1_28, HAccZr1⟩
  ihave Xq := (held_pop _ _) $$ HAccZr1
  icases Xq with ⟨Zr1_27, HAccZr1⟩
  ihave Xq := (held_pop _ _) $$ HAccZr1
  icases Xq with ⟨Zr1_26, HAccZr1⟩
  ihave Xq := (held_pop _ _) $$ HAccZr1
  icases Xq with ⟨Zr1_25, HAccZr1⟩
  ihave Xq := (held_pop _ _) $$ HAccZr1
  icases Xq with ⟨Zr1_24, HAccZr1⟩
  ihave Xq := (held_pop _ _) $$ HAccZr1
  icases Xq with ⟨Zr1_23, HAccZr1⟩
  ihave Xq := (held_pop _ _) $$ HAccZr1
  icases Xq with ⟨Zr1_22, HAccZr1⟩
  ihave Xq := (held_pop _ _) $$ HAccZr1
  icases Xq with ⟨Zr1_21, HAccZr1⟩
  ihave Xq := (held_pop _ _) $$ HAccZr1
  icases Xq with ⟨Zr1_20, HAccZr1⟩
  ihave Xq := (held_pop _ _) $$ HAccZr1
  icases Xq with ⟨Zr1_19, HAccZr1⟩
  ihave Xq := (held_pop _ _) $$ HAccZr1
  icases Xq with ⟨Zr1_18, HAccZr1⟩
  ihave Xq := (held_pop _ _) $$ HAccZr1
  icases Xq with ⟨Zr1_17, HAccZr1⟩
  ihave Xq := (held_pop _ _) $$ HAccZr1
  icases Xq with ⟨Zr1_16, HAccZr1⟩
  ihave Xq := (held_pop _ _) $$ HAccZr1
  icases Xq with ⟨Zr1_15, HAccZr1⟩
  ihave Xq := (held_pop _ _) $$ HAccZr1
  icases Xq with ⟨Zr1_14, HAccZr1⟩
  ihave Xq := (held_pop _ _) $$ HAccZr1
  icases Xq with ⟨Zr1_13, HAccZr1⟩
  ihave Xq := (held_pop _ _) $$ HAccZr1
  icases Xq with ⟨Zr1_12, HAccZr1⟩
  ihave Xq := (held_pop _ _) $$ HAccZr1
  icases Xq with ⟨Zr1_11, HAccZr1⟩
  ihave Xq := (held_pop _ _) $$ HAccZr1
  icases Xq with ⟨Zr1_10, HAccZr1⟩
  ihave Xq := (held_pop _ _) $$ HAccZr1
  icases Xq with ⟨Zr1_9, HAccZr1⟩
  ihave Xq := (held_pop _ _) $$ HAccZr1
  icases Xq with ⟨Zr1_8, HAccZr1⟩
  ihave Xq := (held_pop _ _) $$ HAccZr1
  icases Xq with ⟨Zr1_7, HAccZr1⟩
  ihave Xq := (held_pop _ _) $$ HAccZr1
  icases Xq with ⟨Zr1_6, HAccZr1⟩
  ihave Xq := (held_pop _ _) $$ HAccZr1
  icases Xq with ⟨Zr1_5, HAccZr1⟩
  ihave Xq := (held_pop _ _) $$ HAccZr1
  icases Xq with ⟨Zr1_4, HAccZr1⟩
  ihave Xq := (held_pop _ _) $$ HAccZr1
  icases Xq with ⟨Zr1_3, HAccZr1⟩
  ihave Xq := (held_pop _ _) $$ HAccZr1
  icases Xq with ⟨Zr1_2, HAccZr1⟩
  ihave Zr1_1 := (held_elim _) $$ HAccZr1
  ihave Xq := (held_pop _ _) $$ HAccZs1
  icases Xq with ⟨Zs1_31, HAccZs1⟩
  ihave Xq := (held_pop _ _) $$ HAccZs1
  icases Xq with ⟨Zs1_30, HAccZs1⟩
  ihave Xq := (held_pop _ _) $$ HAccZs1
  icases Xq with ⟨Zs1_29, HAccZs1⟩
  ihave Xq := (held_pop _ _) $$ HAccZs1
  icases Xq with ⟨Zs1_28, HAccZs1⟩
  ihave Xq := (held_pop _ _) $$ HAccZs1
  icases Xq with ⟨Zs1_27, HAccZs1⟩
  ihave Xq := (held_pop _ _) $$ HAccZs1
  icases Xq with ⟨Zs1_26, HAccZs1⟩
  ihave Xq := (held_pop _ _) $$ HAccZs1
  icases Xq with ⟨Zs1_25, HAccZs1⟩
  ihave Xq := (held_pop _ _) $$ HAccZs1
  icases Xq with ⟨Zs1_24, HAccZs1⟩
  ihave Xq := (held_pop _ _) $$ HAccZs1
  icases Xq with ⟨Zs1_23, HAccZs1⟩
  ihave Xq := (held_pop _ _) $$ HAccZs1
  icases Xq with ⟨Zs1_22, HAccZs1⟩
  ihave Xq := (held_pop _ _) $$ HAccZs1
  icases Xq with ⟨Zs1_21, HAccZs1⟩
  ihave Xq := (held_pop _ _) $$ HAccZs1
  icases Xq with ⟨Zs1_20, HAccZs1⟩
  ihave Xq := (held_pop _ _) $$ HAccZs1
  icases Xq with ⟨Zs1_19, HAccZs1⟩
  ihave Xq := (held_pop _ _) $$ HAccZs1
  icases Xq with ⟨Zs1_18, HAccZs1⟩
  ihave Xq := (held_pop _ _) $$ HAccZs1
  icases Xq with ⟨Zs1_17, HAccZs1⟩
  ihave Xq := (held_pop _ _) $$ HAccZs1
  icases Xq with ⟨Zs1_16, HAccZs1⟩
  ihave Xq := (held_pop _ _) $$ HAccZs1
  icases Xq with ⟨Zs1_15, HAccZs1⟩
  ihave Xq := (held_pop _ _) $$ HAccZs1
  icases Xq with ⟨Zs1_14, HAccZs1⟩
  ihave Xq := (held_pop _ _) $$ HAccZs1
  icases Xq with ⟨Zs1_13, HAccZs1⟩
  ihave Xq := (held_pop _ _) $$ HAccZs1
  icases Xq with ⟨Zs1_12, HAccZs1⟩
  ihave Xq := (held_pop _ _) $$ HAccZs1
  icases Xq with ⟨Zs1_11, HAccZs1⟩
  ihave Xq := (held_pop _ _) $$ HAccZs1
  icases Xq with ⟨Zs1_10, HAccZs1⟩
  ihave Xq := (held_pop _ _) $$ HAccZs1
  icases Xq with ⟨Zs1_9, HAccZs1⟩
  ihave Xq := (held_pop _ _) $$ HAccZs1
  icases Xq with ⟨Zs1_8, HAccZs1⟩
  ihave Xq := (held_pop _ _) $$ HAccZs1
  icases Xq with ⟨Zs1_7, HAccZs1⟩
  ihave Xq := (held_pop _ _) $$ HAccZs1
  icases Xq with ⟨Zs1_6, HAccZs1⟩
  ihave Xq := (held_pop _ _) $$ HAccZs1
  icases Xq with ⟨Zs1_5, HAccZs1⟩
  ihave Xq := (held_pop _ _) $$ HAccZs1
  icases Xq with ⟨Zs1_4, HAccZs1⟩
  ihave Xq := (held_pop _ _) $$ HAccZs1
  icases Xq with ⟨Zs1_3, HAccZs1⟩
  ihave Xq := (held_pop _ _) $$ HAccZs1
  icases Xq with ⟨Zs1_2, HAccZs1⟩
  ihave Zs1_1 := (held_elim _) $$ HAccZs1
  ihave Xq := (held_pop _ _) $$ HAccZr2
  icases Xq with ⟨Zr2_31, HAccZr2⟩
  ihave Xq := (held_pop _ _) $$ HAccZr2
  icases Xq with ⟨Zr2_30, HAccZr2⟩
  ihave Xq := (held_pop _ _) $$ HAccZr2
  icases Xq with ⟨Zr2_29, HAccZr2⟩
  ihave Xq := (held_pop _ _) $$ HAccZr2
  icases Xq with ⟨Zr2_28, HAccZr2⟩
  ihave Xq := (held_pop _ _) $$ HAccZr2
  icases Xq with ⟨Zr2_27, HAccZr2⟩
  ihave Xq := (held_pop _ _) $$ HAccZr2
  icases Xq with ⟨Zr2_26, HAccZr2⟩
  ihave Xq := (held_pop _ _) $$ HAccZr2
  icases Xq with ⟨Zr2_25, HAccZr2⟩
  ihave Xq := (held_pop _ _) $$ HAccZr2
  icases Xq with ⟨Zr2_24, HAccZr2⟩
  ihave Xq := (held_pop _ _) $$ HAccZr2
  icases Xq with ⟨Zr2_23, HAccZr2⟩
  ihave Xq := (held_pop _ _) $$ HAccZr2
  icases Xq with ⟨Zr2_22, HAccZr2⟩
  ihave Xq := (held_pop _ _) $$ HAccZr2
  icases Xq with ⟨Zr2_21, HAccZr2⟩
  ihave Xq := (held_pop _ _) $$ HAccZr2
  icases Xq with ⟨Zr2_20, HAccZr2⟩
  ihave Xq := (held_pop _ _) $$ HAccZr2
  icases Xq with ⟨Zr2_19, HAccZr2⟩
  ihave Xq := (held_pop _ _) $$ HAccZr2
  icases Xq with ⟨Zr2_18, HAccZr2⟩
  ihave Xq := (held_pop _ _) $$ HAccZr2
  icases Xq with ⟨Zr2_17, HAccZr2⟩
  ihave Xq := (held_pop _ _) $$ HAccZr2
  icases Xq with ⟨Zr2_16, HAccZr2⟩
  ihave Xq := (held_pop _ _) $$ HAccZr2
  icases Xq with ⟨Zr2_15, HAccZr2⟩
  ihave Xq := (held_pop _ _) $$ HAccZr2
  icases Xq with ⟨Zr2_14, HAccZr2⟩
  ihave Xq := (held_pop _ _) $$ HAccZr2
  icases Xq with ⟨Zr2_13, HAccZr2⟩
  ihave Xq := (held_pop _ _) $$ HAccZr2
  icases Xq with ⟨Zr2_12, HAccZr2⟩
  ihave Xq := (held_pop _ _) $$ HAccZr2
  icases Xq with ⟨Zr2_11, HAccZr2⟩
  ihave Xq := (held_pop _ _) $$ HAccZr2
  icases Xq with ⟨Zr2_10, HAccZr2⟩
  ihave Xq := (held_pop _ _) $$ HAccZr2
  icases Xq with ⟨Zr2_9, HAccZr2⟩
  ihave Xq := (held_pop _ _) $$ HAccZr2
  icases Xq with ⟨Zr2_8, HAccZr2⟩
  ihave Xq := (held_pop _ _) $$ HAccZr2
  icases Xq with ⟨Zr2_7, HAccZr2⟩
  ihave Xq := (held_pop _ _) $$ HAccZr2
  icases Xq with ⟨Zr2_6, HAccZr2⟩
  ihave Xq := (held_pop _ _) $$ HAccZr2
  icases Xq with ⟨Zr2_5, HAccZr2⟩
  ihave Xq := (held_pop _ _) $$ HAccZr2
  icases Xq with ⟨Zr2_4, HAccZr2⟩
  ihave Xq := (held_pop _ _) $$ HAccZr2
  icases Xq with ⟨Zr2_3, HAccZr2⟩
  ihave Xq := (held_pop _ _) $$ HAccZr2
  icases Xq with ⟨Zr2_2, HAccZr2⟩
  ihave Zr2_1 := (held_elim _) $$ HAccZr2
  ihave Xq := (held_pop _ _) $$ HAccZs2
  icases Xq with ⟨Zs2_31, HAccZs2⟩
  ihave Xq := (held_pop _ _) $$ HAccZs2
  icases Xq with ⟨Zs2_30, HAccZs2⟩
  ihave Xq := (held_pop _ _) $$ HAccZs2
  icases Xq with ⟨Zs2_29, HAccZs2⟩
  ihave Xq := (held_pop _ _) $$ HAccZs2
  icases Xq with ⟨Zs2_28, HAccZs2⟩
  ihave Xq := (held_pop _ _) $$ HAccZs2
  icases Xq with ⟨Zs2_27, HAccZs2⟩
  ihave Xq := (held_pop _ _) $$ HAccZs2
  icases Xq with ⟨Zs2_26, HAccZs2⟩
  ihave Xq := (held_pop _ _) $$ HAccZs2
  icases Xq with ⟨Zs2_25, HAccZs2⟩
  ihave Xq := (held_pop _ _) $$ HAccZs2
  icases Xq with ⟨Zs2_24, HAccZs2⟩
  ihave Xq := (held_pop _ _) $$ HAccZs2
  icases Xq with ⟨Zs2_23, HAccZs2⟩
  ihave Xq := (held_pop _ _) $$ HAccZs2
  icases Xq with ⟨Zs2_22, HAccZs2⟩
  ihave Xq := (held_pop _ _) $$ HAccZs2
  icases Xq with ⟨Zs2_21, HAccZs2⟩
  ihave Xq := (held_pop _ _) $$ HAccZs2
  icases Xq with ⟨Zs2_20, HAccZs2⟩
  ihave Xq := (held_pop _ _) $$ HAccZs2
  icases Xq with ⟨Zs2_19, HAccZs2⟩
  ihave Xq := (held_pop _ _) $$ HAccZs2
  icases Xq with ⟨Zs2_18, HAccZs2⟩
  ihave Xq := (held_pop _ _) $$ HAccZs2
  icases Xq with ⟨Zs2_17, HAccZs2⟩
  ihave Xq := (held_pop _ _) $$ HAccZs2
  icases Xq with ⟨Zs2_16, HAccZs2⟩
  ihave Xq := (held_pop _ _) $$ HAccZs2
  icases Xq with ⟨Zs2_15, HAccZs2⟩
  ihave Xq := (held_pop _ _) $$ HAccZs2
  icases Xq with ⟨Zs2_14, HAccZs2⟩
  ihave Xq := (held_pop _ _) $$ HAccZs2
  icases Xq with ⟨Zs2_13, HAccZs2⟩
  ihave Xq := (held_pop _ _) $$ HAccZs2
  icases Xq with ⟨Zs2_12, HAccZs2⟩
  ihave Xq := (held_pop _ _) $$ HAccZs2
  icases Xq with ⟨Zs2_11, HAccZs2⟩
  ihave Xq := (held_pop _ _) $$ HAccZs2
  icases Xq with ⟨Zs2_10, HAccZs2⟩
  ihave Xq := (held_pop _ _) $$ HAccZs2
  icases Xq with ⟨Zs2_9, HAccZs2⟩
  ihave Xq := (held_pop _ _) $$ HAccZs2
  icases Xq with ⟨Zs2_8, HAccZs2⟩
  ihave Xq := (held_pop _ _) $$ HAccZs2
  icases Xq with ⟨Zs2_7, HAccZs2⟩
  ihave Xq := (held_pop _ _) $$ HAccZs2
  icases Xq with ⟨Zs2_6, HAccZs2⟩
  ihave Xq := (held_pop _ _) $$ HAccZs2
  icases Xq with ⟨Zs2_5, HAccZs2⟩
  ihave Xq := (held_pop _ _) $$ HAccZs2
  icases Xq with ⟨Zs2_4, HAccZs2⟩
  ihave Xq := (held_pop _ _) $$ HAccZs2
  icases Xq with ⟨Zs2_3, HAccZs2⟩
  ihave Xq := (held_pop _ _) $$ HAccZs2
  icases Xq with ⟨Zs2_2, HAccZs2⟩
  ihave Zs2_1 := (held_elim _) $$ HAccZs2
  ihave Xq := (held_pop _ _) $$ HAccL1
  icases Xq with ⟨L1_31, HAccL1⟩
  ihave Xq := (held_pop _ _) $$ HAccL1
  icases Xq with ⟨L1_30, HAccL1⟩
  ihave Xq := (held_pop _ _) $$ HAccL1
  icases Xq with ⟨L1_29, HAccL1⟩
  ihave Xq := (held_pop _ _) $$ HAccL1
  icases Xq with ⟨L1_28, HAccL1⟩
  ihave Xq := (held_pop _ _) $$ HAccL1
  icases Xq with ⟨L1_27, HAccL1⟩
  ihave Xq := (held_pop _ _) $$ HAccL1
  icases Xq with ⟨L1_26, HAccL1⟩
  ihave Xq := (held_pop _ _) $$ HAccL1
  icases Xq with ⟨L1_25, HAccL1⟩
  ihave Xq := (held_pop _ _) $$ HAccL1
  icases Xq with ⟨L1_24, HAccL1⟩
  ihave Xq := (held_pop _ _) $$ HAccL1
  icases Xq with ⟨L1_23, HAccL1⟩
  ihave Xq := (held_pop _ _) $$ HAccL1
  icases Xq with ⟨L1_22, HAccL1⟩
  ihave Xq := (held_pop _ _) $$ HAccL1
  icases Xq with ⟨L1_21, HAccL1⟩
  ihave Xq := (held_pop _ _) $$ HAccL1
  icases Xq with ⟨L1_20, HAccL1⟩
  ihave Xq := (held_pop _ _) $$ HAccL1
  icases Xq with ⟨L1_19, HAccL1⟩
  ihave Xq := (held_pop _ _) $$ HAccL1
  icases Xq with ⟨L1_18, HAccL1⟩
  ihave Xq := (held_pop _ _) $$ HAccL1
  icases Xq with ⟨L1_17, HAccL1⟩
  ihave Xq := (held_pop _ _) $$ HAccL1
  icases Xq with ⟨L1_16, HAccL1⟩
  ihave Xq := (held_pop _ _) $$ HAccL1
  icases Xq with ⟨L1_15, HAccL1⟩
  ihave Xq := (held_pop _ _) $$ HAccL1
  icases Xq with ⟨L1_14, HAccL1⟩
  ihave Xq := (held_pop _ _) $$ HAccL1
  icases Xq with ⟨L1_13, HAccL1⟩
  ihave Xq := (held_pop _ _) $$ HAccL1
  icases Xq with ⟨L1_12, HAccL1⟩
  ihave Xq := (held_pop _ _) $$ HAccL1
  icases Xq with ⟨L1_11, HAccL1⟩
  ihave Xq := (held_pop _ _) $$ HAccL1
  icases Xq with ⟨L1_10, HAccL1⟩
  ihave Xq := (held_pop _ _) $$ HAccL1
  icases Xq with ⟨L1_9, HAccL1⟩
  ihave Xq := (held_pop _ _) $$ HAccL1
  icases Xq with ⟨L1_8, HAccL1⟩
  ihave Xq := (held_pop _ _) $$ HAccL1
  icases Xq with ⟨L1_7, HAccL1⟩
  ihave Xq := (held_pop _ _) $$ HAccL1
  icases Xq with ⟨L1_6, HAccL1⟩
  ihave Xq := (held_pop _ _) $$ HAccL1
  icases Xq with ⟨L1_5, HAccL1⟩
  ihave Xq := (held_pop _ _) $$ HAccL1
  icases Xq with ⟨L1_4, HAccL1⟩
  ihave Xq := (held_pop _ _) $$ HAccL1
  icases Xq with ⟨L1_3, HAccL1⟩
  ihave Xq := (held_pop _ _) $$ HAccL1
  icases Xq with ⟨L1_2, HAccL1⟩
  ihave L1_1 := (held_elim _) $$ HAccL1
  ihave Xq := (held_pop _ _) $$ HAccL2
  icases Xq with ⟨L2_31, HAccL2⟩
  ihave Xq := (held_pop _ _) $$ HAccL2
  icases Xq with ⟨L2_30, HAccL2⟩
  ihave Xq := (held_pop _ _) $$ HAccL2
  icases Xq with ⟨L2_29, HAccL2⟩
  ihave Xq := (held_pop _ _) $$ HAccL2
  icases Xq with ⟨L2_28, HAccL2⟩
  ihave Xq := (held_pop _ _) $$ HAccL2
  icases Xq with ⟨L2_27, HAccL2⟩
  ihave Xq := (held_pop _ _) $$ HAccL2
  icases Xq with ⟨L2_26, HAccL2⟩
  ihave Xq := (held_pop _ _) $$ HAccL2
  icases Xq with ⟨L2_25, HAccL2⟩
  ihave Xq := (held_pop _ _) $$ HAccL2
  icases Xq with ⟨L2_24, HAccL2⟩
  ihave Xq := (held_pop _ _) $$ HAccL2
  icases Xq with ⟨L2_23, HAccL2⟩
  ihave Xq := (held_pop _ _) $$ HAccL2
  icases Xq with ⟨L2_22, HAccL2⟩
  ihave Xq := (held_pop _ _) $$ HAccL2
  icases Xq with ⟨L2_21, HAccL2⟩
  ihave Xq := (held_pop _ _) $$ HAccL2
  icases Xq with ⟨L2_20, HAccL2⟩
  ihave Xq := (held_pop _ _) $$ HAccL2
  icases Xq with ⟨L2_19, HAccL2⟩
  ihave Xq := (held_pop _ _) $$ HAccL2
  icases Xq with ⟨L2_18, HAccL2⟩
  ihave Xq := (held_pop _ _) $$ HAccL2
  icases Xq with ⟨L2_17, HAccL2⟩
  ihave Xq := (held_pop _ _) $$ HAccL2
  icases Xq with ⟨L2_16, HAccL2⟩
  ihave Xq := (held_pop _ _) $$ HAccL2
  icases Xq with ⟨L2_15, HAccL2⟩
  ihave Xq := (held_pop _ _) $$ HAccL2
  icases Xq with ⟨L2_14, HAccL2⟩
  ihave Xq := (held_pop _ _) $$ HAccL2
  icases Xq with ⟨L2_13, HAccL2⟩
  ihave Xq := (held_pop _ _) $$ HAccL2
  icases Xq with ⟨L2_12, HAccL2⟩
  ihave Xq := (held_pop _ _) $$ HAccL2
  icases Xq with ⟨L2_11, HAccL2⟩
  ihave Xq := (held_pop _ _) $$ HAccL2
  icases Xq with ⟨L2_10, HAccL2⟩
  ihave Xq := (held_pop _ _) $$ HAccL2
  icases Xq with ⟨L2_9, HAccL2⟩
  ihave Xq := (held_pop _ _) $$ HAccL2
  icases Xq with ⟨L2_8, HAccL2⟩
  ihave Xq := (held_pop _ _) $$ HAccL2
  icases Xq with ⟨L2_7, HAccL2⟩
  ihave Xq := (held_pop _ _) $$ HAccL2
  icases Xq with ⟨L2_6, HAccL2⟩
  ihave Xq := (held_pop _ _) $$ HAccL2
  icases Xq with ⟨L2_5, HAccL2⟩
  ihave Xq := (held_pop _ _) $$ HAccL2
  icases Xq with ⟨L2_4, HAccL2⟩
  ihave Xq := (held_pop _ _) $$ HAccL2
  icases Xq with ⟨L2_3, HAccL2⟩
  ihave Xq := (held_pop _ _) $$ HAccL2
  icases Xq with ⟨L2_2, HAccL2⟩
  ihave L2_1 := (held_elim _) $$ HAccL2
  ihave Xq := (held_pop _ _) $$ HAccRows
  icases Xq with ⟨Rw_31, HAccRows⟩
  ihave Xq := (held_pop _ _) $$ HAccRows
  icases Xq with ⟨Rw_30, HAccRows⟩
  ihave Xq := (held_pop _ _) $$ HAccRows
  icases Xq with ⟨Rw_29, HAccRows⟩
  ihave Xq := (held_pop _ _) $$ HAccRows
  icases Xq with ⟨Rw_28, HAccRows⟩
  ihave Xq := (held_pop _ _) $$ HAccRows
  icases Xq with ⟨Rw_27, HAccRows⟩
  ihave Xq := (held_pop _ _) $$ HAccRows
  icases Xq with ⟨Rw_26, HAccRows⟩
  ihave Xq := (held_pop _ _) $$ HAccRows
  icases Xq with ⟨Rw_25, HAccRows⟩
  ihave Xq := (held_pop _ _) $$ HAccRows
  icases Xq with ⟨Rw_24, HAccRows⟩
  ihave Xq := (held_pop _ _) $$ HAccRows
  icases Xq with ⟨Rw_23, HAccRows⟩
  ihave Xq := (held_pop _ _) $$ HAccRows
  icases Xq with ⟨Rw_22, HAccRows⟩
  ihave Xq := (held_pop _ _) $$ HAccRows
  icases Xq with ⟨Rw_21, HAccRows⟩
  ihave Xq := (held_pop _ _) $$ HAccRows
  icases Xq with ⟨Rw_20, HAccRows⟩
  ihave Xq := (held_pop _ _) $$ HAccRows
  icases Xq with ⟨Rw_19, HAccRows⟩
  ihave Xq := (held_pop _ _) $$ HAccRows
  icases Xq with ⟨Rw_18, HAccRows⟩
  ihave Xq := (held_pop _ _) $$ HAccRows
  icases Xq with ⟨Rw_17, HAccRows⟩
  ihave Xq := (held_pop _ _) $$ HAccRows
  icases Xq with ⟨Rw_16, HAccRows⟩
  ihave Xq := (held_pop _ _) $$ HAccRows
  icases Xq with ⟨Rw_15, HAccRows⟩
  ihave Xq := (held_pop _ _) $$ HAccRows
  icases Xq with ⟨Rw_14, HAccRows⟩
  ihave Xq := (held_pop _ _) $$ HAccRows
  icases Xq with ⟨Rw_13, HAccRows⟩
  ihave Xq := (held_pop _ _) $$ HAccRows
  icases Xq with ⟨Rw_12, HAccRows⟩
  ihave Xq := (held_pop _ _) $$ HAccRows
  icases Xq with ⟨Rw_11, HAccRows⟩
  ihave Xq := (held_pop _ _) $$ HAccRows
  icases Xq with ⟨Rw_10, HAccRows⟩
  ihave Xq := (held_pop _ _) $$ HAccRows
  icases Xq with ⟨Rw_9, HAccRows⟩
  ihave Xq := (held_pop _ _) $$ HAccRows
  icases Xq with ⟨Rw_8, HAccRows⟩
  ihave Xq := (held_pop _ _) $$ HAccRows
  icases Xq with ⟨Rw_7, HAccRows⟩
  ihave Xq := (held_pop _ _) $$ HAccRows
  icases Xq with ⟨Rw_6, HAccRows⟩
  ihave Xq := (held_pop _ _) $$ HAccRows
  icases Xq with ⟨Rw_5, HAccRows⟩
  ihave Xq := (held_pop _ _) $$ HAccRows
  icases Xq with ⟨Rw_4, HAccRows⟩
  ihave Xq := (held_pop _ _) $$ HAccRows
  icases Xq with ⟨Rw_3, HAccRows⟩
  ihave Xq := (held_pop _ _) $$ HAccRows
  icases Xq with ⟨Rw_2, HAccRows⟩
  ihave Rw_1 := (held_elim _) $$ HAccRows
  ihave Xq := (held_pop _ _) $$ HAccSh
  icases Xq with ⟨Sh_31, HAccSh⟩
  ihave Xq := (held_pop _ _) $$ HAccSh
  icases Xq with ⟨Sh_30, HAccSh⟩
  ihave Xq := (held_pop _ _) $$ HAccSh
  icases Xq with ⟨Sh_29, HAccSh⟩
  ihave Xq := (held_pop _ _) $$ HAccSh
  icases Xq with ⟨Sh_28, HAccSh⟩
  ihave Xq := (held_pop _ _) $$ HAccSh
  icases Xq with ⟨Sh_27, HAccSh⟩
  ihave Xq := (held_pop _ _) $$ HAccSh
  icases Xq with ⟨Sh_26, HAccSh⟩
  ihave Xq := (held_pop _ _) $$ HAccSh
  icases Xq with ⟨Sh_25, HAccSh⟩
  ihave Xq := (held_pop _ _) $$ HAccSh
  icases Xq with ⟨Sh_24, HAccSh⟩
  ihave Xq := (held_pop _ _) $$ HAccSh
  icases Xq with ⟨Sh_23, HAccSh⟩
  ihave Xq := (held_pop _ _) $$ HAccSh
  icases Xq with ⟨Sh_22, HAccSh⟩
  ihave Xq := (held_pop _ _) $$ HAccSh
  icases Xq with ⟨Sh_21, HAccSh⟩
  ihave Xq := (held_pop _ _) $$ HAccSh
  icases Xq with ⟨Sh_20, HAccSh⟩
  ihave Xq := (held_pop _ _) $$ HAccSh
  icases Xq with ⟨Sh_19, HAccSh⟩
  ihave Xq := (held_pop _ _) $$ HAccSh
  icases Xq with ⟨Sh_18, HAccSh⟩
  ihave Xq := (held_pop _ _) $$ HAccSh
  icases Xq with ⟨Sh_17, HAccSh⟩
  ihave Xq := (held_pop _ _) $$ HAccSh
  icases Xq with ⟨Sh_16, HAccSh⟩
  ihave Xq := (held_pop _ _) $$ HAccSh
  icases Xq with ⟨Sh_15, HAccSh⟩
  ihave Xq := (held_pop _ _) $$ HAccSh
  icases Xq with ⟨Sh_14, HAccSh⟩
  ihave Xq := (held_pop _ _) $$ HAccSh
  icases Xq with ⟨Sh_13, HAccSh⟩
  ihave Xq := (held_pop _ _) $$ HAccSh
  icases Xq with ⟨Sh_12, HAccSh⟩
  ihave Xq := (held_pop _ _) $$ HAccSh
  icases Xq with ⟨Sh_11, HAccSh⟩
  ihave Xq := (held_pop _ _) $$ HAccSh
  icases Xq with ⟨Sh_10, HAccSh⟩
  ihave Xq := (held_pop _ _) $$ HAccSh
  icases Xq with ⟨Sh_9, HAccSh⟩
  ihave Xq := (held_pop _ _) $$ HAccSh
  icases Xq with ⟨Sh_8, HAccSh⟩
  ihave Xq := (held_pop _ _) $$ HAccSh
  icases Xq with ⟨Sh_7, HAccSh⟩
  ihave Xq := (held_pop _ _) $$ HAccSh
  icases Xq with ⟨Sh_6, HAccSh⟩
  ihave Xq := (held_pop _ _) $$ HAccSh
  icases Xq with ⟨Sh_5, HAccSh⟩
  ihave Xq := (held_pop _ _) $$ HAccSh
  icases Xq with ⟨Sh_4, HAccSh⟩
  ihave Xq := (held_pop _ _) $$ HAccSh
  icases Xq with ⟨Sh_3, HAccSh⟩
  ihave Xq := (held_pop _ _) $$ HAccSh
  icases Xq with ⟨Sh_2, HAccSh⟩
  ihave Sh_1 := (held_elim _) $$ HAccSh
  -- the read shares of the narrowed result rows join
  ihave Hst2 := (st2_join (F := F) c ((Y2def m) c)) $$ [Hsh0 Sh_1 Sh_2 Sh_3 Sh_4 Sh_5 Sh_6 Sh_7 Sh_8 Sh_9 Sh_10 Sh_11 Sh_12 Sh_13 Sh_14 Sh_15 Sh_16 Sh_17 Sh_18 Sh_19 Sh_20 Sh_21 Sh_22 Sh_23 Sh_24 Sh_25 Sh_26 Sh_27 Sh_28 Sh_29 Sh_30 Sh_31]
  · isplitl [Hsh0]; · iexact Hsh0
    isplitl [Sh_1]; · iexact Sh_1
    isplitl [Sh_2]; · iexact Sh_2
    isplitl [Sh_3]; · iexact Sh_3
    isplitl [Sh_4]; · iexact Sh_4
    isplitl [Sh_5]; · iexact Sh_5
    isplitl [Sh_6]; · iexact Sh_6
    isplitl [Sh_7]; · iexact Sh_7
    isplitl [Sh_8]; · iexact Sh_8
    isplitl [Sh_9]; · iexact Sh_9
    isplitl [Sh_10]; · iexact Sh_10
    isplitl [Sh_11]; · iexact Sh_11
    isplitl [Sh_12]; · iexact Sh_12
    isplitl [Sh_13]; · iexact Sh_13
    isplitl [Sh_14]; · iexact Sh_14
    isplitl [Sh_15]; · iexact Sh_15
    isplitl [Sh_16]; · iexact Sh_16
    isplitl [Sh_17]; · iexact Sh_17
    isplitl [Sh_18]; · iexact Sh_18
    isplitl [Sh_19]; · iexact Sh_19
    isplitl [Sh_20]; · iexact Sh_20
    isplitl [Sh_21]; · iexact Sh_21
    isplitl [Sh_22]; · iexact Sh_22
    isplitl [Sh_23]; · iexact Sh_23
    isplitl [Sh_24]; · iexact Sh_24
    isplitl [Sh_25]; · iexact Sh_25
    isplitl [Sh_26]; · iexact Sh_26
    isplitl [Sh_27]; · iexact Sh_27
    isplitl [Sh_28]; · iexact Sh_28
    isplitl [Sh_29]; · iexact Sh_29
    isplitl [Sh_30]; · iexact Sh_30
    iexact Sh_31
  -- the output staging buffer's slots join
  ihave Hsto := (sto_rejoin16 (F := F) c) $$ [Hs5 Hs5_2 Hs5_3 Hs5_4 Hs5_5 Hs5_6 Hs5_7 Hs5_8 Hs5_9 Hs5_10 Hs5_11 Hs5_12 Hs5_13 Hs5_14 Hs5_15 Hs5_16 Hs5_17]
  · isplitl [Hs5]; · iexists _; iexact Hs5
    isplitl [Hs5_2]; · iexists _; iexact Hs5_2
    isplitl [Hs5_3]; · iexists _; iexact Hs5_3
    isplitl [Hs5_4]; · iexists _; iexact Hs5_4
    isplitl [Hs5_5]; · iexists _; iexact Hs5_5
    isplitl [Hs5_6]; · iexists _; iexact Hs5_6
    isplitl [Hs5_7]; · iexists _; iexact Hs5_7
    isplitl [Hs5_8]; · iexists _; iexact Hs5_8
    isplitl [Hs5_9]; · iexists _; iexact Hs5_9
    isplitl [Hs5_10]; · iexists _; iexact Hs5_10
    isplitl [Hs5_11]; · iexists _; iexact Hs5_11
    isplitl [Hs5_12]; · iexists _; iexact Hs5_12
    isplitl [Hs5_13]; · iexists _; iexact Hs5_13
    isplitl [Hs5_14]; · iexists _; iexact Hs5_14
    isplitl [Hs5_15]; · iexists _; iexact Hs5_15
    isplitl [Hs5_16]; · iexists _; iexact Hs5_16
    iexists _; iexact Hs5_17
  -- the 32 row blocks of the result, each at its closed form, join
  have hw0 : body_run.sl.dma5 c m f0 f5 = outVec m c 0 := by
    unfold body_run.sl.dma5 body_run.sl.Hs5_1
    rw [hacc]
    exact sto_slot_read c 0 ho_0 f5 _ _
  ihave HOb0 := (Entails.of_eq (pointsTo_congr (out_block0_agree (F := F) m c fO _ hw0))) $$ HOb0
  have hw1 : body_run.sl.dma3 c m f0 f5 = outVec m c 1 := by
    unfold body_run.sl.dma3 body_run.sl.Hs5_2
    exact sto_slot_read c 1 ho_1 f5 _ _
  ihave HOb1 := (Entails.of_eq (pointsTo_congr (out_block_agree (F := F) m c 1 hk_1 ho_1 fO _ hw1))) $$ HOb1
  have hw2 : body_run.sl.dma3_1 c m f0 f5 = outVec m c 2 := by
    unfold body_run.sl.dma3_1 body_run.sl.Hs5_3
    exact sto_slot_read c 2 ho_2 f5 _ _
  ihave HOb2 := (Entails.of_eq (pointsTo_congr (out_block_agree (F := F) m c 2 hk_2 ho_2 fO _ hw2))) $$ HOb2
  have hw3 : body_run.sl.dma3_2 c m f0 f5 = outVec m c 3 := by
    unfold body_run.sl.dma3_2 body_run.sl.Hs5_4
    exact sto_slot_read c 3 ho_3 f5 _ _
  ihave HOb3 := (Entails.of_eq (pointsTo_congr (out_block_agree (F := F) m c 3 hk_3 ho_3 fO _ hw3))) $$ HOb3
  have hw4 : body_run.sl.dma3_3 c m f0 f5 = outVec m c 4 := by
    unfold body_run.sl.dma3_3 body_run.sl.Hs5_5
    exact sto_slot_read c 4 ho_4 f5 _ _
  ihave HOb4 := (Entails.of_eq (pointsTo_congr (out_block_agree (F := F) m c 4 hk_4 ho_4 fO _ hw4))) $$ HOb4
  have hw5 : body_run.sl.dma3_4 c m f0 f5 = outVec m c 5 := by
    unfold body_run.sl.dma3_4 body_run.sl.Hs5_6
    exact sto_slot_read c 5 ho_5 f5 _ _
  ihave HOb5 := (Entails.of_eq (pointsTo_congr (out_block_agree (F := F) m c 5 hk_5 ho_5 fO _ hw5))) $$ HOb5
  have hw6 : body_run.sl.dma3_5 c m f0 f5 = outVec m c 6 := by
    unfold body_run.sl.dma3_5 body_run.sl.Hs5_7
    exact sto_slot_read c 6 ho_6 f5 _ _
  ihave HOb6 := (Entails.of_eq (pointsTo_congr (out_block_agree (F := F) m c 6 hk_6 ho_6 fO _ hw6))) $$ HOb6
  have hw7 : body_run.sl.dma3_6 c m f0 f5 = outVec m c 7 := by
    unfold body_run.sl.dma3_6 body_run.sl.Hs5_8
    exact sto_slot_read c 7 ho_7 f5 _ _
  ihave HOb7 := (Entails.of_eq (pointsTo_congr (out_block_agree (F := F) m c 7 hk_7 ho_7 fO _ hw7))) $$ HOb7
  have hw8 : body_run.sl.dma3_7 c m f0 f5 = outVec m c 8 := by
    unfold body_run.sl.dma3_7 body_run.sl.Hs5_9
    exact sto_slot_read c 8 ho_8 f5 _ _
  ihave HOb8 := (Entails.of_eq (pointsTo_congr (out_block_agree (F := F) m c 8 hk_8 ho_8 fO _ hw8))) $$ HOb8
  have hw9 : body_run.sl.dma3_8 c m f0 f5 = outVec m c 9 := by
    unfold body_run.sl.dma3_8 body_run.sl.Hs5_10
    exact sto_slot_read c 9 ho_9 f5 _ _
  ihave HOb9 := (Entails.of_eq (pointsTo_congr (out_block_agree (F := F) m c 9 hk_9 ho_9 fO _ hw9))) $$ HOb9
  have hw10 : body_run.sl.dma3_9 c m f0 f5 = outVec m c 10 := by
    unfold body_run.sl.dma3_9 body_run.sl.Hs5_11
    exact sto_slot_read c 10 ho_10 f5 _ _
  ihave HOb10 := (Entails.of_eq (pointsTo_congr (out_block_agree (F := F) m c 10 hk_10 ho_10 fO _ hw10))) $$ HOb10
  have hw11 : body_run.sl.dma3_10 c m f0 f5 = outVec m c 11 := by
    unfold body_run.sl.dma3_10 body_run.sl.Hs5_12
    exact sto_slot_read c 11 ho_11 f5 _ _
  ihave HOb11 := (Entails.of_eq (pointsTo_congr (out_block_agree (F := F) m c 11 hk_11 ho_11 fO _ hw11))) $$ HOb11
  have hw12 : body_run.sl.dma3_11 c m f0 f5 = outVec m c 12 := by
    unfold body_run.sl.dma3_11 body_run.sl.Hs5_13
    exact sto_slot_read c 12 ho_12 f5 _ _
  ihave HOb12 := (Entails.of_eq (pointsTo_congr (out_block_agree (F := F) m c 12 hk_12 ho_12 fO _ hw12))) $$ HOb12
  have hw13 : body_run.sl.dma3_12 c m f0 f5 = outVec m c 13 := by
    unfold body_run.sl.dma3_12 body_run.sl.Hs5_14
    exact sto_slot_read c 13 ho_13 f5 _ _
  ihave HOb13 := (Entails.of_eq (pointsTo_congr (out_block_agree (F := F) m c 13 hk_13 ho_13 fO _ hw13))) $$ HOb13
  have hw14 : body_run.sl.dma3_13 c m f0 f5 = outVec m c 14 := by
    unfold body_run.sl.dma3_13 body_run.sl.Hs5_15
    exact sto_slot_read c 14 ho_14 f5 _ _
  ihave HOb14 := (Entails.of_eq (pointsTo_congr (out_block_agree (F := F) m c 14 hk_14 ho_14 fO _ hw14))) $$ HOb14
  have hw15 : body_run.sl.dma3_14 c m f0 f5 = outVec m c 15 := by
    unfold body_run.sl.dma3_14 body_run.sl.Hs5_16
    exact sto_slot_read c 15 ho_15 f5 _ _
  ihave HOb15 := (Entails.of_eq (pointsTo_congr (out_block_agree (F := F) m c 15 hk_15 ho_15 fO _ hw15))) $$ HOb15
  have hw16 : body_run.sl.dma3_15 c m f0 f5 = outVec m c 16 := by
    unfold body_run.sl.dma3_15 body_run.sl.Hs5_17
    exact sto_slot_read c 16 ho_16 f5 _ _
  ihave HOb16 := (Entails.of_eq (pointsTo_congr (out_block_agree (F := F) m c 16 hk_16 ho_16 fO _ hw16))) $$ HOb16
  have hw17 : body_run.sl.dma3_16 c m f0 f5 = outVec m c 17 := by
    unfold body_run.sl.dma3_16 body_run.sl.Hs5_18
    exact sto_slot_read c 17 ho_17 f5 _ _
  ihave HOb17 := (Entails.of_eq (pointsTo_congr (out_block_agree (F := F) m c 17 hk_17 ho_17 fO _ hw17))) $$ HOb17
  have hw18 : body_run.sl.dma3_17 c m f0 f5 = outVec m c 18 := by
    unfold body_run.sl.dma3_17 body_run.sl.Hs5_19
    exact sto_slot_read c 18 ho_18 f5 _ _
  ihave HOb18 := (Entails.of_eq (pointsTo_congr (out_block_agree (F := F) m c 18 hk_18 ho_18 fO _ hw18))) $$ HOb18
  have hw19 : body_run.sl.dma3_18 c m f0 f5 = outVec m c 19 := by
    unfold body_run.sl.dma3_18 body_run.sl.Hs5_20
    exact sto_slot_read c 19 ho_19 f5 _ _
  ihave HOb19 := (Entails.of_eq (pointsTo_congr (out_block_agree (F := F) m c 19 hk_19 ho_19 fO _ hw19))) $$ HOb19
  have hw20 : body_run.sl.dma3_19 c m f0 f5 = outVec m c 20 := by
    unfold body_run.sl.dma3_19 body_run.sl.Hs5_21
    exact sto_slot_read c 20 ho_20 f5 _ _
  ihave HOb20 := (Entails.of_eq (pointsTo_congr (out_block_agree (F := F) m c 20 hk_20 ho_20 fO _ hw20))) $$ HOb20
  have hw21 : body_run.sl.dma3_20 c m f0 f5 = outVec m c 21 := by
    unfold body_run.sl.dma3_20 body_run.sl.Hs5_22
    exact sto_slot_read c 21 ho_21 f5 _ _
  ihave HOb21 := (Entails.of_eq (pointsTo_congr (out_block_agree (F := F) m c 21 hk_21 ho_21 fO _ hw21))) $$ HOb21
  have hw22 : body_run.sl.dma3_21 c m f0 f5 = outVec m c 22 := by
    unfold body_run.sl.dma3_21 body_run.sl.Hs5_23
    exact sto_slot_read c 22 ho_22 f5 _ _
  ihave HOb22 := (Entails.of_eq (pointsTo_congr (out_block_agree (F := F) m c 22 hk_22 ho_22 fO _ hw22))) $$ HOb22
  have hw23 : body_run.sl.dma3_22 c m f0 f5 = outVec m c 23 := by
    unfold body_run.sl.dma3_22 body_run.sl.Hs5_24
    exact sto_slot_read c 23 ho_23 f5 _ _
  ihave HOb23 := (Entails.of_eq (pointsTo_congr (out_block_agree (F := F) m c 23 hk_23 ho_23 fO _ hw23))) $$ HOb23
  have hw24 : body_run.sl.dma3_23 c m f0 f5 = outVec m c 24 := by
    unfold body_run.sl.dma3_23 body_run.sl.Hs5_25
    exact sto_slot_read c 24 ho_24 f5 _ _
  ihave HOb24 := (Entails.of_eq (pointsTo_congr (out_block_agree (F := F) m c 24 hk_24 ho_24 fO _ hw24))) $$ HOb24
  have hw25 : body_run.sl.dma3_24 c m f0 f5 = outVec m c 25 := by
    unfold body_run.sl.dma3_24 body_run.sl.Hs5_26
    exact sto_slot_read c 25 ho_25 f5 _ _
  ihave HOb25 := (Entails.of_eq (pointsTo_congr (out_block_agree (F := F) m c 25 hk_25 ho_25 fO _ hw25))) $$ HOb25
  have hw26 : body_run.sl.dma3_25 c m f0 f5 = outVec m c 26 := by
    unfold body_run.sl.dma3_25 body_run.sl.Hs5_27
    exact sto_slot_read c 26 ho_26 f5 _ _
  ihave HOb26 := (Entails.of_eq (pointsTo_congr (out_block_agree (F := F) m c 26 hk_26 ho_26 fO _ hw26))) $$ HOb26
  have hw27 : body_run.sl.dma3_26 c m f0 f5 = outVec m c 27 := by
    unfold body_run.sl.dma3_26 body_run.sl.Hs5_28
    exact sto_slot_read c 27 ho_27 f5 _ _
  ihave HOb27 := (Entails.of_eq (pointsTo_congr (out_block_agree (F := F) m c 27 hk_27 ho_27 fO _ hw27))) $$ HOb27
  have hw28 : body_run.sl.dma3_27 c m f0 f5 = outVec m c 28 := by
    unfold body_run.sl.dma3_27 body_run.sl.Hs5_29
    exact sto_slot_read c 28 ho_28 f5 _ _
  ihave HOb28 := (Entails.of_eq (pointsTo_congr (out_block_agree (F := F) m c 28 hk_28 ho_28 fO _ hw28))) $$ HOb28
  have hw29 : body_run.sl.dma3_28 c m f0 f5 = outVec m c 29 := by
    unfold body_run.sl.dma3_28 body_run.sl.Hs5_30
    exact sto_slot_read c 29 ho_29 f5 _ _
  ihave HOb29 := (Entails.of_eq (pointsTo_congr (out_block_agree (F := F) m c 29 hk_29 ho_29 fO _ hw29))) $$ HOb29
  have hw30 : body_run.sl.dma3_29 c m f0 f5 = outVec m c 30 := by
    unfold body_run.sl.dma3_29 body_run.sl.Hs5_31
    exact sto_slot_read c 30 ho_30 f5 _ _
  ihave HOb30 := (Entails.of_eq (pointsTo_congr (out_block_agree (F := F) m c 30 hk_30 ho_30 fO _ hw30))) $$ HOb30
  have hw31 : body_run.sl.dma3_30 c m f0 f5 = outVec m c 31 := by
    unfold body_run.sl.dma3_30 body_run.sl.Hs5_32
    exact sto_slot_read c 31 ho_31 f5 _ _
  ihave HOb31 := (Entails.of_eq (pointsTo_congr (out_block_agree (F := F) m c 31 hk_31 ho_31 fO _ hw31))) $$ HOb31
  ihave Hout := (out_join_glue (F := F) c (fsOut m c)) $$ [HOb0 HOb1 HOb2 HOb3 HOb4 HOb5 HOb6 HOb7 HOb8 HOb9 HOb10 HOb11 HOb12 HOb13 HOb14 HOb15 HOb16 HOb17 HOb18 HOb19 HOb20 HOb21 HOb22 HOb23 HOb24 HOb25 HOb26 HOb27 HOb28 HOb29 HOb30 HOb31]
  · isplitl [HOb0]; · iexact HOb0
    isplitl [HOb1]; · iexact HOb1
    isplitl [HOb2]; · iexact HOb2
    isplitl [HOb3]; · iexact HOb3
    isplitl [HOb4]; · iexact HOb4
    isplitl [HOb5]; · iexact HOb5
    isplitl [HOb6]; · iexact HOb6
    isplitl [HOb7]; · iexact HOb7
    isplitl [HOb8]; · iexact HOb8
    isplitl [HOb9]; · iexact HOb9
    isplitl [HOb10]; · iexact HOb10
    isplitl [HOb11]; · iexact HOb11
    isplitl [HOb12]; · iexact HOb12
    isplitl [HOb13]; · iexact HOb13
    isplitl [HOb14]; · iexact HOb14
    isplitl [HOb15]; · iexact HOb15
    isplitl [HOb16]; · iexact HOb16
    isplitl [HOb17]; · iexact HOb17
    isplitl [HOb18]; · iexact HOb18
    isplitl [HOb19]; · iexact HOb19
    isplitl [HOb20]; · iexact HOb20
    isplitl [HOb21]; · iexact HOb21
    isplitl [HOb22]; · iexact HOb22
    isplitl [HOb23]; · iexact HOb23
    isplitl [HOb24]; · iexact HOb24
    isplitl [HOb25]; · iexact HOb25
    isplitl [HOb26]; · iexact HOb26
    isplitl [HOb27]; · iexact HOb27
    isplitl [HOb28]; · iexact HOb28
    isplitl [HOb29]; · iexact HOb29
    isplitl [HOb30]; · iexact HOb30
    iexact HOb31
  iexists _
  unfold bodyEnd
  isplitl [HO]; · iexact HO
  isplitl [HT]; · iexact HT
  isplitl [Hout]; · iexact Hout
  isplitl [Hs0]; · iexists _; iexact Hs0
  isplitl [Hst2]
  · iexists _
    iapply (Entails.of_eq (show (st2.view.loc (c : Thread nD τ) ↦[st2.view.set]{fullShare} (Y2def m) c : sProp 𝕄) = (st2.view.loc (c : Thread nD τ) ↦{fullShare} (Y2def m) c : sProp 𝕄) from by rw [View.set_whole]))
    iexact Hst2
  isplitl [Hsto]; · iexact Hsto
  isplitl [HrowOwn Rw_1 Rw_2 Rw_3 Rw_4 Rw_5 Rw_6 Rw_7 Rw_8 Rw_9 Rw_10 Rw_11 Rw_12 Rw_13 Rw_14 Rw_15 Rw_16 Rw_17 Rw_18 Rw_19 Rw_20 Rw_21 Rw_22 Rw_23 Rw_24 Rw_25 Rw_26 Rw_27 Rw_28 Rw_29 Rw_30 Rw_31]
  · isplitl [HrowOwn]; · iexists _; iexact HrowOwn
    isplitl [Rw_1]; · iexists _; iexact Rw_1
    isplitl [Rw_2]; · iexists _; iexact Rw_2
    isplitl [Rw_3]; · iexists _; iexact Rw_3
    isplitl [Rw_4]; · iexists _; iexact Rw_4
    isplitl [Rw_5]; · iexists _; iexact Rw_5
    isplitl [Rw_6]; · iexists _; iexact Rw_6
    isplitl [Rw_7]; · iexists _; iexact Rw_7
    isplitl [Rw_8]; · iexists _; iexact Rw_8
    isplitl [Rw_9]; · iexists _; iexact Rw_9
    isplitl [Rw_10]; · iexists _; iexact Rw_10
    isplitl [Rw_11]; · iexists _; iexact Rw_11
    isplitl [Rw_12]; · iexists _; iexact Rw_12
    isplitl [Rw_13]; · iexists _; iexact Rw_13
    isplitl [Rw_14]; · iexists _; iexact Rw_14
    isplitl [Rw_15]; · iexists _; iexact Rw_15
    isplitl [Rw_16]; · iexists _; iexact Rw_16
    isplitl [Rw_17]; · iexists _; iexact Rw_17
    isplitl [Rw_18]; · iexists _; iexact Rw_18
    isplitl [Rw_19]; · iexists _; iexact Rw_19
    isplitl [Rw_20]; · iexists _; iexact Rw_20
    isplitl [Rw_21]; · iexists _; iexact Rw_21
    isplitl [Rw_22]; · iexists _; iexact Rw_22
    isplitl [Rw_23]; · iexists _; iexact Rw_23
    isplitl [Rw_24]; · iexists _; iexact Rw_24
    isplitl [Rw_25]; · iexists _; iexact Rw_25
    isplitl [Rw_26]; · iexists _; iexact Rw_26
    isplitl [Rw_27]; · iexists _; iexact Rw_27
    isplitl [Rw_28]; · iexists _; iexact Rw_28
    isplitl [Rw_29]; · iexists _; iexact Rw_29
    isplitl [Rw_30]; · iexists _; iexact Rw_30
    iexists _; iexact Rw_31
  isplitl [Hc1_0 L1_1 L1_2 L1_3 L1_4 L1_5 L1_6 L1_7 L1_8 L1_9 L1_10 L1_11 L1_12 L1_13 L1_14 L1_15 L1_16 L1_17 L1_18 L1_19 L1_20 L1_21 L1_22 L1_23 L1_24 L1_25 L1_26 L1_27 L1_28 L1_29 L1_30 L1_31]
  · isplitl [Hc1_0]; · iexists _; iexact Hc1_0
    isplitl [L1_1]; · iexists _; iexact L1_1
    isplitl [L1_2]; · iexists _; iexact L1_2
    isplitl [L1_3]; · iexists _; iexact L1_3
    isplitl [L1_4]; · iexists _; iexact L1_4
    isplitl [L1_5]; · iexists _; iexact L1_5
    isplitl [L1_6]; · iexists _; iexact L1_6
    isplitl [L1_7]; · iexists _; iexact L1_7
    isplitl [L1_8]; · iexists _; iexact L1_8
    isplitl [L1_9]; · iexists _; iexact L1_9
    isplitl [L1_10]; · iexists _; iexact L1_10
    isplitl [L1_11]; · iexists _; iexact L1_11
    isplitl [L1_12]; · iexists _; iexact L1_12
    isplitl [L1_13]; · iexists _; iexact L1_13
    isplitl [L1_14]; · iexists _; iexact L1_14
    isplitl [L1_15]; · iexists _; iexact L1_15
    isplitl [L1_16]; · iexists _; iexact L1_16
    isplitl [L1_17]; · iexists _; iexact L1_17
    isplitl [L1_18]; · iexists _; iexact L1_18
    isplitl [L1_19]; · iexists _; iexact L1_19
    isplitl [L1_20]; · iexists _; iexact L1_20
    isplitl [L1_21]; · iexists _; iexact L1_21
    isplitl [L1_22]; · iexists _; iexact L1_22
    isplitl [L1_23]; · iexists _; iexact L1_23
    isplitl [L1_24]; · iexists _; iexact L1_24
    isplitl [L1_25]; · iexists _; iexact L1_25
    isplitl [L1_26]; · iexists _; iexact L1_26
    isplitl [L1_27]; · iexists _; iexact L1_27
    isplitl [L1_28]; · iexists _; iexact L1_28
    isplitl [L1_29]; · iexists _; iexact L1_29
    isplitl [L1_30]; · iexists _; iexact L1_30
    iexists _; iexact L1_31
  isplitl [Hc2_0 L2_1 L2_2 L2_3 L2_4 L2_5 L2_6 L2_7 L2_8 L2_9 L2_10 L2_11 L2_12 L2_13 L2_14 L2_15 L2_16 L2_17 L2_18 L2_19 L2_20 L2_21 L2_22 L2_23 L2_24 L2_25 L2_26 L2_27 L2_28 L2_29 L2_30 L2_31]
  · isplitl [Hc2_0]; · iexists _; iexact Hc2_0
    isplitl [L2_1]; · iexists _; iexact L2_1
    isplitl [L2_2]; · iexists _; iexact L2_2
    isplitl [L2_3]; · iexists _; iexact L2_3
    isplitl [L2_4]; · iexists _; iexact L2_4
    isplitl [L2_5]; · iexists _; iexact L2_5
    isplitl [L2_6]; · iexists _; iexact L2_6
    isplitl [L2_7]; · iexists _; iexact L2_7
    isplitl [L2_8]; · iexists _; iexact L2_8
    isplitl [L2_9]; · iexists _; iexact L2_9
    isplitl [L2_10]; · iexists _; iexact L2_10
    isplitl [L2_11]; · iexists _; iexact L2_11
    isplitl [L2_12]; · iexists _; iexact L2_12
    isplitl [L2_13]; · iexists _; iexact L2_13
    isplitl [L2_14]; · iexists _; iexact L2_14
    isplitl [L2_15]; · iexists _; iexact L2_15
    isplitl [L2_16]; · iexists _; iexact L2_16
    isplitl [L2_17]; · iexists _; iexact L2_17
    isplitl [L2_18]; · iexists _; iexact L2_18
    isplitl [L2_19]; · iexists _; iexact L2_19
    isplitl [L2_20]; · iexists _; iexact L2_20
    isplitl [L2_21]; · iexists _; iexact L2_21
    isplitl [L2_22]; · iexists _; iexact L2_22
    isplitl [L2_23]; · iexists _; iexact L2_23
    isplitl [L2_24]; · iexists _; iexact L2_24
    isplitl [L2_25]; · iexists _; iexact L2_25
    isplitl [L2_26]; · iexists _; iexact L2_26
    isplitl [L2_27]; · iexists _; iexact L2_27
    isplitl [L2_28]; · iexists _; iexact L2_28
    isplitl [L2_29]; · iexists _; iexact L2_29
    isplitl [L2_30]; · iexists _; iexact L2_30
    iexists _; iexact L2_31
  isplitl [HzIn]; · iexact HzIn
  isplitl [HzOut0 HFl1 HFl2 HFl3 HFl4 HFl5 HFl6 HFl7 HFl8 HFl9 HFl10 HFl11 HFl12 HFl13 HFl14 HFl15 HFl16 HFl17 HFl18 HFl19 HFl20 HFl21 HFl22 HFl23 HFl24 HFl25 HFl26 HFl27 HFl28 HFl29 HFl30 HFl31]
  · isplitl [HzOut0]; · iexact HzOut0
    isplitl [HFl1]; · iexact HFl1
    isplitl [HFl2]; · iexact HFl2
    isplitl [HFl3]; · iexact HFl3
    isplitl [HFl4]; · iexact HFl4
    isplitl [HFl5]; · iexact HFl5
    isplitl [HFl6]; · iexact HFl6
    isplitl [HFl7]; · iexact HFl7
    isplitl [HFl8]; · iexact HFl8
    isplitl [HFl9]; · iexact HFl9
    isplitl [HFl10]; · iexact HFl10
    isplitl [HFl11]; · iexact HFl11
    isplitl [HFl12]; · iexact HFl12
    isplitl [HFl13]; · iexact HFl13
    isplitl [HFl14]; · iexact HFl14
    isplitl [HFl15]; · iexact HFl15
    isplitl [HFl16]; · iexact HFl16
    isplitl [HFl17]; · iexact HFl17
    isplitl [HFl18]; · iexact HFl18
    isplitl [HFl19]; · iexact HFl19
    isplitl [HFl20]; · iexact HFl20
    isplitl [HFl21]; · iexact HFl21
    isplitl [HFl22]; · iexact HFl22
    isplitl [HFl23]; · iexact HFl23
    isplitl [HFl24]; · iexact HFl24
    isplitl [HFl25]; · iexact HFl25
    isplitl [HFl26]; · iexact HFl26
    isplitl [HFl27]; · iexact HFl27
    isplitl [HFl28]; · iexact HFl28
    isplitl [HFl29]; · iexact HFl29
    isplitl [HFl30]; · iexact HFl30
    iexact HFl31
  isplitl [Hz70]; · iexact Hz70
  isplitl [Hz80]; · iexact Hz80
  isplitl [Hz90]; · iexact Hz90
  isplitl [Hz100]; · iexact Hz100
  isplitl [Zs1_1 Zr1_1 Zs2_1 Zr2_1]
  · isplitl [Zs1_1]; · iexact Zs1_1
    isplitl [Zr1_1]; · iexact Zr1_1
    isplitl [Zs2_1]; · iexact Zs2_1
    iexact Zr2_1
  isplitl [Zs1_2 Zr1_2 Zs2_2 Zr2_2]
  · isplitl [Zs1_2]; · iexact Zs1_2
    isplitl [Zr1_2]; · iexact Zr1_2
    isplitl [Zs2_2]; · iexact Zs2_2
    iexact Zr2_2
  isplitl [Zs1_3 Zr1_3 Zs2_3 Zr2_3]
  · isplitl [Zs1_3]; · iexact Zs1_3
    isplitl [Zr1_3]; · iexact Zr1_3
    isplitl [Zs2_3]; · iexact Zs2_3
    iexact Zr2_3
  isplitl [Zs1_4 Zr1_4 Zs2_4 Zr2_4]
  · isplitl [Zs1_4]; · iexact Zs1_4
    isplitl [Zr1_4]; · iexact Zr1_4
    isplitl [Zs2_4]; · iexact Zs2_4
    iexact Zr2_4
  isplitl [Zs1_5 Zr1_5 Zs2_5 Zr2_5]
  · isplitl [Zs1_5]; · iexact Zs1_5
    isplitl [Zr1_5]; · iexact Zr1_5
    isplitl [Zs2_5]; · iexact Zs2_5
    iexact Zr2_5
  isplitl [Zs1_6 Zr1_6 Zs2_6 Zr2_6]
  · isplitl [Zs1_6]; · iexact Zs1_6
    isplitl [Zr1_6]; · iexact Zr1_6
    isplitl [Zs2_6]; · iexact Zs2_6
    iexact Zr2_6
  isplitl [Zs1_7 Zr1_7 Zs2_7 Zr2_7]
  · isplitl [Zs1_7]; · iexact Zs1_7
    isplitl [Zr1_7]; · iexact Zr1_7
    isplitl [Zs2_7]; · iexact Zs2_7
    iexact Zr2_7
  isplitl [Zs1_8 Zr1_8 Zs2_8 Zr2_8]
  · isplitl [Zs1_8]; · iexact Zs1_8
    isplitl [Zr1_8]; · iexact Zr1_8
    isplitl [Zs2_8]; · iexact Zs2_8
    iexact Zr2_8
  isplitl [Zs1_9 Zr1_9 Zs2_9 Zr2_9]
  · isplitl [Zs1_9]; · iexact Zs1_9
    isplitl [Zr1_9]; · iexact Zr1_9
    isplitl [Zs2_9]; · iexact Zs2_9
    iexact Zr2_9
  isplitl [Zs1_10 Zr1_10 Zs2_10 Zr2_10]
  · isplitl [Zs1_10]; · iexact Zs1_10
    isplitl [Zr1_10]; · iexact Zr1_10
    isplitl [Zs2_10]; · iexact Zs2_10
    iexact Zr2_10
  isplitl [Zs1_11 Zr1_11 Zs2_11 Zr2_11]
  · isplitl [Zs1_11]; · iexact Zs1_11
    isplitl [Zr1_11]; · iexact Zr1_11
    isplitl [Zs2_11]; · iexact Zs2_11
    iexact Zr2_11
  isplitl [Zs1_12 Zr1_12 Zs2_12 Zr2_12]
  · isplitl [Zs1_12]; · iexact Zs1_12
    isplitl [Zr1_12]; · iexact Zr1_12
    isplitl [Zs2_12]; · iexact Zs2_12
    iexact Zr2_12
  isplitl [Zs1_13 Zr1_13 Zs2_13 Zr2_13]
  · isplitl [Zs1_13]; · iexact Zs1_13
    isplitl [Zr1_13]; · iexact Zr1_13
    isplitl [Zs2_13]; · iexact Zs2_13
    iexact Zr2_13
  isplitl [Zs1_14 Zr1_14 Zs2_14 Zr2_14]
  · isplitl [Zs1_14]; · iexact Zs1_14
    isplitl [Zr1_14]; · iexact Zr1_14
    isplitl [Zs2_14]; · iexact Zs2_14
    iexact Zr2_14
  isplitl [Zs1_15 Zr1_15 Zs2_15 Zr2_15]
  · isplitl [Zs1_15]; · iexact Zs1_15
    isplitl [Zr1_15]; · iexact Zr1_15
    isplitl [Zs2_15]; · iexact Zs2_15
    iexact Zr2_15
  isplitl [Zs1_16 Zr1_16 Zs2_16 Zr2_16]
  · isplitl [Zs1_16]; · iexact Zs1_16
    isplitl [Zr1_16]; · iexact Zr1_16
    isplitl [Zs2_16]; · iexact Zs2_16
    iexact Zr2_16
  isplitl [Zs1_17 Zr1_17 Zs2_17 Zr2_17]
  · isplitl [Zs1_17]; · iexact Zs1_17
    isplitl [Zr1_17]; · iexact Zr1_17
    isplitl [Zs2_17]; · iexact Zs2_17
    iexact Zr2_17
  isplitl [Zs1_18 Zr1_18 Zs2_18 Zr2_18]
  · isplitl [Zs1_18]; · iexact Zs1_18
    isplitl [Zr1_18]; · iexact Zr1_18
    isplitl [Zs2_18]; · iexact Zs2_18
    iexact Zr2_18
  isplitl [Zs1_19 Zr1_19 Zs2_19 Zr2_19]
  · isplitl [Zs1_19]; · iexact Zs1_19
    isplitl [Zr1_19]; · iexact Zr1_19
    isplitl [Zs2_19]; · iexact Zs2_19
    iexact Zr2_19
  isplitl [Zs1_20 Zr1_20 Zs2_20 Zr2_20]
  · isplitl [Zs1_20]; · iexact Zs1_20
    isplitl [Zr1_20]; · iexact Zr1_20
    isplitl [Zs2_20]; · iexact Zs2_20
    iexact Zr2_20
  isplitl [Zs1_21 Zr1_21 Zs2_21 Zr2_21]
  · isplitl [Zs1_21]; · iexact Zs1_21
    isplitl [Zr1_21]; · iexact Zr1_21
    isplitl [Zs2_21]; · iexact Zs2_21
    iexact Zr2_21
  isplitl [Zs1_22 Zr1_22 Zs2_22 Zr2_22]
  · isplitl [Zs1_22]; · iexact Zs1_22
    isplitl [Zr1_22]; · iexact Zr1_22
    isplitl [Zs2_22]; · iexact Zs2_22
    iexact Zr2_22
  isplitl [Zs1_23 Zr1_23 Zs2_23 Zr2_23]
  · isplitl [Zs1_23]; · iexact Zs1_23
    isplitl [Zr1_23]; · iexact Zr1_23
    isplitl [Zs2_23]; · iexact Zs2_23
    iexact Zr2_23
  isplitl [Zs1_24 Zr1_24 Zs2_24 Zr2_24]
  · isplitl [Zs1_24]; · iexact Zs1_24
    isplitl [Zr1_24]; · iexact Zr1_24
    isplitl [Zs2_24]; · iexact Zs2_24
    iexact Zr2_24
  isplitl [Zs1_25 Zr1_25 Zs2_25 Zr2_25]
  · isplitl [Zs1_25]; · iexact Zs1_25
    isplitl [Zr1_25]; · iexact Zr1_25
    isplitl [Zs2_25]; · iexact Zs2_25
    iexact Zr2_25
  isplitl [Zs1_26 Zr1_26 Zs2_26 Zr2_26]
  · isplitl [Zs1_26]; · iexact Zs1_26
    isplitl [Zr1_26]; · iexact Zr1_26
    isplitl [Zs2_26]; · iexact Zs2_26
    iexact Zr2_26
  isplitl [Zs1_27 Zr1_27 Zs2_27 Zr2_27]
  · isplitl [Zs1_27]; · iexact Zs1_27
    isplitl [Zr1_27]; · iexact Zr1_27
    isplitl [Zs2_27]; · iexact Zs2_27
    iexact Zr2_27
  isplitl [Zs1_28 Zr1_28 Zs2_28 Zr2_28]
  · isplitl [Zs1_28]; · iexact Zs1_28
    isplitl [Zr1_28]; · iexact Zr1_28
    isplitl [Zs2_28]; · iexact Zs2_28
    iexact Zr2_28
  isplitl [Zs1_29 Zr1_29 Zs2_29 Zr2_29]
  · isplitl [Zs1_29]; · iexact Zs1_29
    isplitl [Zr1_29]; · iexact Zr1_29
    isplitl [Zs2_29]; · iexact Zs2_29
    iexact Zr2_29
  isplitl [Zs1_30 Zr1_30 Zs2_30 Zr2_30]
  · isplitl [Zs1_30]; · iexact Zs1_30
    isplitl [Zr1_30]; · iexact Zr1_30
    isplitl [Zs2_30]; · iexact Zs2_30
    iexact Zr2_30
  isplitl [Zs1_31]; · iexact Zs1_31
  isplitl [Zr1_31]; · iexact Zr1_31
  isplitl [Zs2_31]; · iexact Zs2_31
  iexact Zr2_31

/-- The kernel's text, run on device `c` from the body's starting state, ends in what the body leaves. -/
theorem sound_body (m : (ℓ : Loc nD τ sig) → Buf (Elt F) ℓ) :
    ∀ (c : Dev nD) K W fO f0 f1 f3 f5 g1 g2 (Kt : PUnit → sProp 𝕄),
      iprop(bodyStart (F := F) (S1def m) (Y2def m) c g1 g2 K W fO f0 f1 f3 f5 m ∗ ((∃ W', bodyEnd (F := F) c (OUTdef m) m W') -∗ Kt ⟨⟩))
        ⊢ wp frame (wpE (defs₀ (F := F)) 𝒱₀ (c : Thread nD τ) none) Set.univ
            (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Kt :=
  fun c K W fO f0 f1 f3 f5 g1 g2 Kt => body_run K c W m fO f0 f1 f3 f5 g1 g2 Kt

end Cert.KernelIdealProto
end
-- ==== Proof.KernelLevels.lean ====
import proofs.«900784_g7700000000000785_dist_f_of_ar_i_m512_n256_v7x_i32_bf16_1_alg».proof.Proof.KernelTables

noncomputable section

namespace Cert.KernelProto

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A wait is below everything still owed -/

theorem pos_add {P : GSem nD τ sig → Unit → Prop} {A B : CellTallies nD τ sig Unit}
    (hA : ∀ g i, 0 < A g i → P g i) (hB : ∀ g i, 0 < B g i → P g i) : ∀ g i, 0 < (A + B) g i → P g i :=
  fun g i h => (Pipeline.add_pos_cases h).elim (hA g i) (hB g i)
theorem pos_tally {P : GSem nD τ sig → Unit → Prop} (cell : GSem nD τ sig) (n : ℕ) (hP : P cell ()) :
    ∀ g i, 0 < tallyAt cell () n g i → P g i := by
  intro g i h
  rw [tallyAt_apply] at h
  by_cases hh : g = cell ∧ i = ()
  · obtain ⟨rfl, rfl⟩ := hh; exact hP
  · rw [if_neg hh] at h; exact absurd h (Nat.lt_irrefl 0)

/-- While a device still owes both exchanges' receive credits it may wait on any of its cells below level 2. -/
theorem mayWait62 (c : Dev nD) (sm : SemLoc sig) (h : lv ((c : Thread nD τ), sm) () < 2) :
    (levAts L lv : sProp 𝕄) ⊢ MayWait (c : Thread nD τ) sm () (tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX + tallyAt (r1Cell (rot c 31) 31 ho_31) () NX + tallyAt (r1Cell (rot c 30) 30 ho_30) () NX + tallyAt (r1Cell (rot c 29) 29 ho_29) () NX + tallyAt (r1Cell (rot c 28) 28 ho_28) () NX + tallyAt (r1Cell (rot c 27) 27 ho_27) () NX + tallyAt (r1Cell (rot c 26) 26 ho_26) () NX + tallyAt (r1Cell (rot c 25) 25 ho_25) () NX + tallyAt (r1Cell (rot c 24) 24 ho_24) () NX + tallyAt (r1Cell (rot c 23) 23 ho_23) () NX + tallyAt (r1Cell (rot c 22) 22 ho_22) () NX + tallyAt (r1Cell (rot c 21) 21 ho_21) () NX + tallyAt (r1Cell (rot c 20) 20 ho_20) () NX + tallyAt (r1Cell (rot c 19) 19 ho_19) () NX + tallyAt (r1Cell (rot c 18) 18 ho_18) () NX + tallyAt (r1Cell (rot c 17) 17 ho_17) () NX + tallyAt (r1Cell (rot c 16) 16 ho_16) () NX + tallyAt (r1Cell (rot c 15) 15 ho_15) () NX + tallyAt (r1Cell (rot c 14) 14 ho_14) () NX + tallyAt (r1Cell (rot c 13) 13 ho_13) () NX + tallyAt (r1Cell (rot c 12) 12 ho_12) () NX + tallyAt (r1Cell (rot c 11) 11 ho_11) () NX + tallyAt (r1Cell (rot c 10) 10 ho_10) () NX + tallyAt (r1Cell (rot c 9) 9 ho_9) () NX + tallyAt (r1Cell (rot c 8) 8 ho_8) () NX + tallyAt (r1Cell (rot c 7) 7 ho_7) () NX + tallyAt (r1Cell (rot c 6) 6 ho_6) () NX + tallyAt (r1Cell (rot c 5) 5 ho_5) () NX + tallyAt (r1Cell (rot c 4) 4 ho_4) () NX + tallyAt (r1Cell (rot c 3) 3 ho_3) () NX + tallyAt (r1Cell (rot c 2) 2 ho_2) () NX + tallyAt (r1Cell (rot c 1) 1 ho_1) () NX) :=
  Pipeline.mayWait_of_levAts (by rw [L_tc]; exact Finset.mem_singleton_self _) (by
    repeat' (first | apply pos_add | apply pos_tally)
    all_goals
      refine ⟨by rw [L_tc]; exact Finset.mem_singleton_self _, ?_⟩
      first
        | (show _ < 2; exact h)
        | (show _ < 3; omega))
/-- While it still owes the second exchange's receive credits it may wait on any of its cells below level 3. -/
theorem mayWait31 (c : Dev nD) (sm : SemLoc sig) (h : lv ((c : Thread nD τ), sm) () < 3) :
    (levAts L lv : sProp 𝕄) ⊢ MayWait (c : Thread nD τ) sm () (tallyAt (r2Cell (rot c 31) 31 ho_31) () NX + tallyAt (r2Cell (rot c 30) 30 ho_30) () NX + tallyAt (r2Cell (rot c 29) 29 ho_29) () NX + tallyAt (r2Cell (rot c 28) 28 ho_28) () NX + tallyAt (r2Cell (rot c 27) 27 ho_27) () NX + tallyAt (r2Cell (rot c 26) 26 ho_26) () NX + tallyAt (r2Cell (rot c 25) 25 ho_25) () NX + tallyAt (r2Cell (rot c 24) 24 ho_24) () NX + tallyAt (r2Cell (rot c 23) 23 ho_23) () NX + tallyAt (r2Cell (rot c 22) 22 ho_22) () NX + tallyAt (r2Cell (rot c 21) 21 ho_21) () NX + tallyAt (r2Cell (rot c 20) 20 ho_20) () NX + tallyAt (r2Cell (rot c 19) 19 ho_19) () NX + tallyAt (r2Cell (rot c 18) 18 ho_18) () NX + tallyAt (r2Cell (rot c 17) 17 ho_17) () NX + tallyAt (r2Cell (rot c 16) 16 ho_16) () NX + tallyAt (r2Cell (rot c 15) 15 ho_15) () NX + tallyAt (r2Cell (rot c 14) 14 ho_14) () NX + tallyAt (r2Cell (rot c 13) 13 ho_13) () NX + tallyAt (r2Cell (rot c 12) 12 ho_12) () NX + tallyAt (r2Cell (rot c 11) 11 ho_11) () NX + tallyAt (r2Cell (rot c 10) 10 ho_10) () NX + tallyAt (r2Cell (rot c 9) 9 ho_9) () NX + tallyAt (r2Cell (rot c 8) 8 ho_8) () NX + tallyAt (r2Cell (rot c 7) 7 ho_7) () NX + tallyAt (r2Cell (rot c 6) 6 ho_6) () NX + tallyAt (r2Cell (rot c 5) 5 ho_5) () NX + tallyAt (r2Cell (rot c 4) 4 ho_4) () NX + tallyAt (r2Cell (rot c 3) 3 ho_3) () NX + tallyAt (r2Cell (rot c 2) 2 ho_2) () NX + tallyAt (r2Cell (rot c 1) 1 ho_1) () NX) :=
  Pipeline.mayWait_of_levAts (by rw [L_tc]; exact Finset.mem_singleton_self _) (by
    repeat' (first | apply pos_add | apply pos_tally)
    all_goals
      refine ⟨by rw [L_tc]; exact Finset.mem_singleton_self _, ?_⟩
      first
        | (show _ < 2; exact h)
        | (show _ < 3; omega))

end Cert.KernelProto
end
-- ==== Proof.KernelSends.lean ====
import proofs.«900784_g7700000000000785_dist_f_of_ar_i_m512_n256_v7x_i32_bf16_1_alg».proof.Proof.KernelTables

noncomputable section

namespace Cert.KernelProto

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (S1c : (c : Dev nD) → Buf (Elt F) (st1.view.loc (c : Thread nD τ)))
variable (Y2c : (c : Dev nD) → Buf (Elt F) (st2.view.loc (c : Thread nD τ)))

/-! ## A transfer's landing, stated from the sender's side -/

omit [FloatOps F] in
/-- Over the elements a view owns, what a whole write leaves does not depend on what was there before. -/
theorem write_rebase {κ : Kind} {sp : Space} {s : Shape} {e : EltTy} (v : View sig κ sp s e)
    (f g : v.ty.Contents (Elt F)) (w : s.Idx → Elt F e) : ∀ i ∈ v.set, v.write (Elt F) f w Finset.univ i = v.write (Elt F) g w Finset.univ i := by
  intro i hi
  obtain ⟨z, -, rfl⟩ := Finset.mem_map.mp hi
  rw [View.write_emb_of_mem _ _ (Finset.mem_univ _), View.write_emb_of_mem _ _ (Finset.mem_univ _)]

/-- What lands in slot `k` of the device `k` positions after `c` is what `c` sends there: the two ends of one transfer. -/
theorem land1_rot (c : Dev nD) (k : ℕ) (hk : 1 ≤ k ∧ k ≤ 31) :
    land1 S1c (rot c k) k hk = (slotM cm1 k (by omega)).view.write (Elt F) (slotM cm1 k (by omega)).view.junk
      ((srcM1 c k hk).view.read (Elt F) (S1c c)) Finset.univ := by
  unfold land1
  have h := rot_rot_sub c k hk
  exact congrArg (fun s : Dev nD => (slotM cm1 k (by omega)).view.write (Elt F) (slotM cm1 k (by omega)).view.junk
      ((srcM1 s k hk).view.read (Elt F) (S1c s)) Finset.univ) h
theorem land2_rot (c : Dev nD) (k : ℕ) (hk : 1 ≤ k ∧ k ≤ 31) :
    land2 Y2c (rot c k) k hk = (slotM cm2 k (by omega)).view.write (Elt F) (slotM cm2 k (by omega)).view.junk
      (st2.view.read (Elt F) (Y2c c)) Finset.univ := by
  unfold land2
  have h := rot_rot_sub c k hk
  exact congrArg (fun s : Dev nD => (slotM cm2 k (by omega)).view.write (Elt F) (slotM cm2 k (by omega)).view.junk
      (st2.view.read (Elt F) (Y2c s)) Finset.univ) h

/-- The first exchange's transfer at offset `k`: device `c` lends the rows it sends, writes slot `k` of the device `k`
    positions after it, pays that device's receive duty off what it owes and takes its own send cell's credit. -/
theorem wp_send1 (c n : Dev nD) (k : ℕ) (hn : n = rot c k) (hk : 1 ≤ k ∧ k ≤ 31) (ho : k < 32) (κ₁ κ₂ : ℕ)
    (hd₁ : 0 ∈ (sched (F := F) S1c Y2c).duties (s1Cell c k ho) 0) (hd₂ : 0 ∈ (sched (F := F) S1c Y2c).duties (r1Cell (rot c k) k ho) 0)
    (hp₁ : (sched (F := F) S1c Y2c).payload (s1Cell c k ho) 0 0
      = ((srcM1 c k hk).view.loc (c : Thread nD τ) ↦[(srcM1 c k hk).view.set]{fullShare} S1c c : sProp 𝕄))
    (hp₂ : (sched (F := F) S1c Y2c).payload (r1Cell (rot c k) k ho) 0 0
      = ((slotM cm1 k ho).view.loc (rot c k : Thread nD τ) ↦[(slotM cm1 k ho).view.set]{fullShare} land1 S1c (rot c k) k hk : sProp 𝕄))
    {hsc : (slotM cm1 k ho : Memref sig (Dev.tc n : Thread nD τ).2.kind .vmem S16x256 .bf16).view.ref.isScScratch = false}
    {hsrc : (srcM1 c k hk).view.WordExact} {hdst : (slotM cm1 k ho).view.WordExact}
    {hsem : DmaTarget.Typed .vmem (.dma (semAt cc0_scratch8 k ho)) (.remote (Dev.tc n : Thread nD τ) (slotM cm1 k ho) (.dma (semAt cc0_scratch7 k ho)) hsc)}
    {α : Type} {Q : α → sProp 𝕄} {k' : PUnit → Prog (TpuEff nD τ sig (Elt F) Λ₀ .tc) α}
    (fd : Buf (Elt F) ((slotM cm1 k ho).view.loc (rot c k : Thread nD τ))) (W : Waits sig Unit) (O : CellTallies nD τ sig Unit) :
    iprop(cellInv ER (sched (F := F) S1c Y2c) κ₁ (s1Cell c k ho) ∗ cellInv ER (sched (F := F) S1c Y2c) κ₂ (r1Cell (rot c k) k ho)
        ∗ ((srcM1 c k hk).view.loc (c : Thread nD τ) ↦[(srcM1 c k hk).view.set]{fullShare} S1c c)
        ∗ ((slotM cm1 k ho).view.loc (rot c k : Thread nD τ) ↦[(slotM cm1 k ho).view.set]{fullShare} fd)
        ∗ owes (c : Thread nD τ) (O + tallyAt (r1Cell (rot c k) k ho) () NX) W
        ∗ dutyTok ER (s1Cell c k ho) 0 0 ∗ reached ER (s1Cell c k ho) 0
        ∗ dutyTok ER (r1Cell (rot c k) k ho) 0 0 ∗ reached ER (r1Cell (rot c k) k ho) 0)
      ⊢ iprop(((cred (tallyAt (s1Cell c k ho) () NX) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (srcM1 c k hk) (.remote (Dev.tc n : Thread nD τ) (slotM cm1 k ho) (.dma (semAt cc0_scratch7 k ho)) hsc) (.dma (semAt cc0_scratch8 k ho)) hsrc hdst hsem) k') Q) := by
  subst hn
  exact Rounds.wp_send_pointsTo 𝒱₀ ER (sched (F := F) S1c Y2c) (c : Thread nD τ) none (κ₁ := κ₁) (κ₂ := κ₂)
    (r₁ := 0) (r₂ := 0) (d₁ := 0) (d₂ := 0) (fd := fd) hd₁ hd₂ () () NX rfl (amount_dma S1c Y2c c _ 0 0) (amount_dma S1c Y2c (rot c k) _ 0 0) O rfl (W := W)
    (by rw [hp₁])
    (by
      rw [hp₂, land1_rot]
      refine Entails.of_eq (pointsTo_congr fun i hi => ?_)
      exact write_rebase (F := F) (slotM cm1 k ho).view _ _ _ i hi)

/-- The second exchange's transfer at offset `k`: device `c` lends one read share of its 16 result rows and writes slot
    `k` of the second landing buffer of the device `k` positions after it. -/
theorem wp_send2 (c n : Dev nD) (k : ℕ) (hn : n = rot c k) (hk : 1 ≤ k ∧ k ≤ 31) (ho : k < 32) (κ₁ κ₂ : ℕ)
    (hd₁ : 0 ∈ (sched (F := F) S1c Y2c).duties (s2Cell c k ho) 0) (hd₂ : 0 ∈ (sched (F := F) S1c Y2c).duties (r2Cell (rot c k) k ho) 0)
    (hp₁ : (sched (F := F) S1c Y2c).payload (s2Cell c k ho) 0 0
      = (st2.view.loc (c : Thread nD τ) ↦[st2.view.set]{Transfers.shareTokN fullShare (k - 1)} Y2c c : sProp 𝕄))
    (hp₂ : (sched (F := F) S1c Y2c).payload (r2Cell (rot c k) k ho) 0 0
      = ((slotM cm2 k ho).view.loc (rot c k : Thread nD τ) ↦[(slotM cm2 k ho).view.set]{fullShare} land2 Y2c (rot c k) k hk : sProp 𝕄))
    {hsc : (slotM cm2 k ho : Memref sig (Dev.tc n : Thread nD τ).2.kind .vmem S16x256 .bf16).view.ref.isScScratch = false}
    {hsrc : st2.view.WordExact} {hdst : (slotM cm2 k ho).view.WordExact}
    {hsem : DmaTarget.Typed .vmem (.dma (semAt cc0_scratch10 k ho)) (.remote (Dev.tc n : Thread nD τ) (slotM cm2 k ho) (.dma (semAt cc0_scratch9 k ho)) hsc)}
    {α : Type} {Q : α → sProp 𝕄} {k' : PUnit → Prog (TpuEff nD τ sig (Elt F) Λ₀ .tc) α}
    (fd : Buf (Elt F) ((slotM cm2 k ho).view.loc (rot c k : Thread nD τ))) (W : Waits sig Unit) (O : CellTallies nD τ sig Unit) :
    iprop(cellInv ER (sched (F := F) S1c Y2c) κ₁ (s2Cell c k ho) ∗ cellInv ER (sched (F := F) S1c Y2c) κ₂ (r2Cell (rot c k) k ho)
        ∗ (st2.view.loc (c : Thread nD τ) ↦[st2.view.set]{Transfers.shareTokN fullShare (k - 1)} Y2c c)
        ∗ ((slotM cm2 k ho).view.loc (rot c k : Thread nD τ) ↦[(slotM cm2 k ho).view.set]{fullShare} fd)
        ∗ owes (c : Thread nD τ) (O + tallyAt (r2Cell (rot c k) k ho) () NX) W
        ∗ dutyTok ER (s2Cell c k ho) 0 0 ∗ reached ER (s2Cell c k ho) 0
        ∗ dutyTok ER (r2Cell (rot c k) k ho) 0 0 ∗ reached ER (r2Cell (rot c k) k ho) 0)
      ⊢ iprop(((cred (tallyAt (s2Cell c k ho) () NX) ∗ owes (c : Thread nD τ) O W) -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma st2 (.remote (Dev.tc n : Thread nD τ) (slotM cm2 k ho) (.dma (semAt cc0_scratch9 k ho)) hsc) (.dma (semAt cc0_scratch10 k ho)) hsrc hdst hsem) k') Q) := by
  subst hn
  exact Rounds.wp_send_pointsTo 𝒱₀ ER (sched (F := F) S1c Y2c) (c : Thread nD τ) none (κ₁ := κ₁) (κ₂ := κ₂)
    (r₁ := 0) (r₂ := 0) (d₁ := 0) (d₂ := 0) (fd := fd) hd₁ hd₂ () () NX rfl (amount_dma S1c Y2c c _ 0 0) (amount_dma S1c Y2c (rot c k) _ 0 0) O rfl (W := W)
    (by rw [hp₁])
    (by
      rw [hp₂, land2_rot]
      refine Entails.of_eq (pointsTo_congr fun i hi => ?_)
      exact write_rebase (F := F) (slotM cm2 k ho).view _ _ _ i hi)

end Cert.KernelProto
end
-- ==== Proof.KernelAccess.lean ====
import proofs.«900784_g7700000000000785_dist_f_of_ar_i_m512_n256_v7x_i32_bf16_1_alg».proof.Proof.KernelTables

/-!
# One cell's record out of the records of all

The launch leaves every device the invariant of every cell of the mesh, each under the name it was allocated at, and the
fact that every cell stands at round 0. Here: the record of the device's own barrier cell, and for each offset k = 1 … 31
those of its own four exchange cells at that offset and of the barrier cell and the two receive cells of the device
k positions after it, each stated at the cell as the kernel's text spells it.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Access
variable (S1c : (c : Dev nD) → Buf (Elt F) (st1.view.loc (c : Thread nD τ)))
variable (Y2c : (c : Dev nD) → Buf (Elt F) (st2.view.loc (c : Thread nD τ)))
variable (K : Dev nD × CK → ℕ)

theorem inv_pick (ck : Dev nD × CK) :
    (bigSep Finset.univ fun ck : Dev nD × CK => (cellInv ER (sched (F := F) S1c Y2c) (K ck) (kcell ck) : sProp 𝕄)) ⊢ cellInv ER (sched (F := F) S1c Y2c) (K ck) (kcell ck) :=
  bigSep_elim (Finset.mem_univ ck)
omit [FloatOps F] in
theorem rch_pick (ck : Dev nD × CK) :
    (bigSep Finset.univ fun ck : Dev nD × CK => (reached ER (kcell ck) 0 : sProp 𝕄)) ⊢ reached ER (kcell ck) 0 :=
  bigSep_elim (Finset.mem_univ ck)
/-- One cell's invariant out of the records. -/
theorem inv_at (ck : Dev nD × CK) : records (F := F) S1c Y2c K ⊢ cellInv ER (sched (F := F) S1c Y2c) (K ck) (kcell ck) := by
  unfold records
  iintro ⟨#HI, -⟩
  iapply (inv_pick S1c Y2c K ck)
  iexact HI
/-- That one cell stands at round 0, out of the records. -/
theorem rch_at (ck : Dev nD × CK) : records (F := F) S1c Y2c K ⊢ reached ER (kcell ck) 0 := by
  unfold records
  iintro ⟨-, #HR⟩
  iapply (rch_pick (F := F) ck)
  iexact HR

/-! ## The device's own barrier cell -/

theorem inv_bar (c : Dev nD) : records (F := F) S1c Y2c K ⊢ cellInv ER (sched (F := F) S1c Y2c) (K (c, none)) (barCell c) := inv_at S1c Y2c K (c, none)
theorem rch_bar (c : Dev nD) : records (F := F) S1c Y2c K ⊢ reached ER (barCell c) 0 := rch_at S1c Y2c K (c, none)

/-! ## Offset 1 -/

theorem inv_barp_1 (c : Dev nD) : records (F := F) S1c Y2c K ⊢ cellInv ER (sched (F := F) S1c Y2c) (K (rot c 1, none)) (barCell (rot c 1)) := inv_at S1c Y2c K (rot c 1, none)
theorem rch_barp_1 (c : Dev nD) : records (F := F) S1c Y2c K ⊢ reached ER (barCell (rot c 1)) 0 := rch_at S1c Y2c K (rot c 1, none)
theorem inv_s1_1 (c : Dev nD) : records (F := F) S1c Y2c K ⊢ cellInv ER (sched (F := F) S1c Y2c) (K (c, some (0, (⟨0, by decide⟩ : Fin 31)))) (s1Cell c 1 ho_1) := inv_at S1c Y2c K (c, some (0, (⟨0, by decide⟩ : Fin 31)))
theorem rch_s1_1 (c : Dev nD) : records (F := F) S1c Y2c K ⊢ reached ER (s1Cell c 1 ho_1) 0 := rch_at S1c Y2c K (c, some (0, (⟨0, by decide⟩ : Fin 31)))
theorem inv_r1_1 (c : Dev nD) : records (F := F) S1c Y2c K ⊢ cellInv ER (sched (F := F) S1c Y2c) (K (c, some (1, (⟨0, by decide⟩ : Fin 31)))) (r1Cell c 1 ho_1) := inv_at S1c Y2c K (c, some (1, (⟨0, by decide⟩ : Fin 31)))
theorem rch_r1_1 (c : Dev nD) : records (F := F) S1c Y2c K ⊢ reached ER (r1Cell c 1 ho_1) 0 := rch_at S1c Y2c K (c, some (1, (⟨0, by decide⟩ : Fin 31)))
theorem inv_s2_1 (c : Dev nD) : records (F := F) S1c Y2c K ⊢ cellInv ER (sched (F := F) S1c Y2c) (K (c, some (2, (⟨0, by decide⟩ : Fin 31)))) (s2Cell c 1 ho_1) := inv_at S1c Y2c K (c, some (2, (⟨0, by decide⟩ : Fin 31)))
theorem rch_s2_1 (c : Dev nD) : records (F := F) S1c Y2c K ⊢ reached ER (s2Cell c 1 ho_1) 0 := rch_at S1c Y2c K (c, some (2, (⟨0, by decide⟩ : Fin 31)))
theorem inv_r2_1 (c : Dev nD) : records (F := F) S1c Y2c K ⊢ cellInv ER (sched (F := F) S1c Y2c) (K (c, some (3, (⟨0, by decide⟩ : Fin 31)))) (r2Cell c 1 ho_1) := inv_at S1c Y2c K (c, some (3, (⟨0, by decide⟩ : Fin 31)))
theorem rch_r2_1 (c : Dev nD) : records (F := F) S1c Y2c K ⊢ reached ER (r2Cell c 1 ho_1) 0 := rch_at S1c Y2c K (c, some (3, (⟨0, by decide⟩ : Fin 31)))
theorem inv_r1p_1 (c : Dev nD) : records (F := F) S1c Y2c K ⊢ cellInv ER (sched (F := F) S1c Y2c) (K (rot c 1, some (1, (⟨0, by decide⟩ : Fin 31)))) (r1Cell (rot c 1) 1 ho_1) := inv_at S1c Y2c K (rot c 1, some (1, (⟨0, by decide⟩ : Fin 31)))
theorem rch_r1p_1 (c : Dev nD) : records (F := F) S1c Y2c K ⊢ reached ER (r1Cell (rot c 1) 1 ho_1) 0 := rch_at S1c Y2c K (rot c 1, some (1, (⟨0, by decide⟩ : Fin 31)))
theorem inv_r2p_1 (c : Dev nD) : records (F := F) S1c Y2c K ⊢ cellInv ER (sched (F := F) S1c Y2c) (K (rot c 1, some (3, (⟨0, by decide⟩ : Fin 31)))) (r2Cell (rot c 1) 1 ho_1) := inv_at S1c Y2c K (rot c 1, some (3, (⟨0, by decide⟩ : Fin 31)))
theorem rch_r2p_1 (c : Dev nD) : records (F := F) S1c Y2c K ⊢ reached ER (r2Cell (rot c 1) 1 ho_1) 0 := rch_at S1c Y2c K (rot c 1, some (3, (⟨0, by decide⟩ : Fin 31)))

/-! ## Offset 2 -/

theorem inv_barp_2 (c : Dev nD) : records (F := F) S1c Y2c K ⊢ cellInv ER (sched (F := F) S1c Y2c) (K (rot c 2, none)) (barCell (rot c 2)) := inv_at S1c Y2c K (rot c 2, none)
theorem rch_barp_2 (c : Dev nD) : records (F := F) S1c Y2c K ⊢ reached ER (barCell (rot c 2)) 0 := rch_at S1c Y2c K (rot c 2, none)
theorem inv_s1_2 (c : Dev nD) : records (F := F) S1c Y2c K ⊢ cellInv ER (sched (F := F) S1c Y2c) (K (c, some (0, (⟨1, by decide⟩ : Fin 31)))) (s1Cell c 2 ho_2) := inv_at S1c Y2c K (c, some (0, (⟨1, by decide⟩ : Fin 31)))
theorem rch_s1_2 (c : Dev nD) : records (F := F) S1c Y2c K ⊢ reached ER (s1Cell c 2 ho_2) 0 := rch_at S1c Y2c K (c, some (0, (⟨1, by decide⟩ : Fin 31)))
theorem inv_r1_2 (c : Dev nD) : records (F := F) S1c Y2c K ⊢ cellInv ER (sched (F := F) S1c Y2c) (K (c, some (1, (⟨1, by decide⟩ : Fin 31)))) (r1Cell c 2 ho_2) := inv_at S1c Y2c K (c, some (1, (⟨1, by decide⟩ : Fin 31)))
theorem rch_r1_2 (c : Dev nD) : records (F := F) S1c Y2c K ⊢ reached ER (r1Cell c 2 ho_2) 0 := rch_at S1c Y2c K (c, some (1, (⟨1, by decide⟩ : Fin 31)))
theorem inv_s2_2 (c : Dev nD) : records (F := F) S1c Y2c K ⊢ cellInv ER (sched (F := F) S1c Y2c) (K (c, some (2, (⟨1, by decide⟩ : Fin 31)))) (s2Cell c 2 ho_2) := inv_at S1c Y2c K (c, some (2, (⟨1, by decide⟩ : Fin 31)))
theorem rch_s2_2 (c : Dev nD) : records (F := F) S1c Y2c K ⊢ reached ER (s2Cell c 2 ho_2) 0 := rch_at S1c Y2c K (c, some (2, (⟨1, by decide⟩ : Fin 31)))
theorem inv_r2_2 (c : Dev nD) : records (F := F) S1c Y2c K ⊢ cellInv ER (sched (F := F) S1c Y2c) (K (c, some (3, (⟨1, by decide⟩ : Fin 31)))) (r2Cell c 2 ho_2) := inv_at S1c Y2c K (c, some (3, (⟨1, by decide⟩ : Fin 31)))
theorem rch_r2_2 (c : Dev nD) : records (F := F) S1c Y2c K ⊢ reached ER (r2Cell c 2 ho_2) 0 := rch_at S1c Y2c K (c, some (3, (⟨1, by decide⟩ : Fin 31)))
theorem inv_r1p_2 (c : Dev nD) : records (F := F) S1c Y2c K ⊢ cellInv ER (sched (F := F) S1c Y2c) (K (rot c 2, some (1, (⟨1, by decide⟩ : Fin 31)))) (r1Cell (rot c 2) 2 ho_2) := inv_at S1c Y2c K (rot c 2, some (1, (⟨1, by decide⟩ : Fin 31)))
theorem rch_r1p_2 (c : Dev nD) : records (F := F) S1c Y2c K ⊢ reached ER (r1Cell (rot c 2) 2 ho_2) 0 := rch_at S1c Y2c K (rot c 2, some (1, (⟨1, by decide⟩ : Fin 31)))
theorem inv_r2p_2 (c : Dev nD) : records (F := F) S1c Y2c K ⊢ cellInv ER (sched (F := F) S1c Y2c) (K (rot c 2, some (3, (⟨1, by decide⟩ : Fin 31)))) (r2Cell (rot c 2) 2 ho_2) := inv_at S1c Y2c K (rot c 2, some (3, (⟨1, by decide⟩ : Fin 31)))
theorem rch_r2p_2 (c : Dev nD) : records (F := F) S1c Y2c K ⊢ reached ER (r2Cell (rot c 2) 2 ho_2) 0 := rch_at S1c Y2c K (rot c 2, some (3, (⟨1, by decide⟩ : Fin 31)))

/-! ## Offset 3 -/

theorem inv_barp_3 (c : Dev nD) : records (F := F) S1c Y2c K ⊢ cellInv ER (sched (F := F) S1c Y2c) (K (rot c 3, none)) (barCell (rot c 3)) := inv_at S1c Y2c K (rot c 3, none)
theorem rch_barp_3 (c : Dev nD) : records (F := F) S1c Y2c K ⊢ reached ER (barCell (rot c 3)) 0 := rch_at S1c Y2c K (rot c 3, none)
theorem inv_s1_3 (c : Dev nD) : records (F := F) S1c Y2c K ⊢ cellInv ER (sched (F := F) S1c Y2c) (K (c, some (0, (⟨2, by decide⟩ : Fin 31)))) (s1Cell c 3 ho_3) := inv_at S1c Y2c K (c, some (0, (⟨2, by decide⟩ : Fin 31)))
theorem rch_s1_3 (c : Dev nD) : records (F := F) S1c Y2c K ⊢ reached ER (s1Cell c 3 ho_3) 0 := rch_at S1c Y2c K (c, some (0, (⟨2, by decide⟩ : Fin 31)))
theorem inv_r1_3 (c : Dev nD) : records (F := F) S1c Y2c K ⊢ cellInv ER (sched (F := F) S1c Y2c) (K (c, some (1, (⟨2, by decide⟩ : Fin 31)))) (r1Cell c 3 ho_3) := inv_at S1c Y2c K (c, some (1, (⟨2, by decide⟩ : Fin 31)))
theorem rch_r1_3 (c : Dev nD) : records (F := F) S1c Y2c K ⊢ reached ER (r1Cell c 3 ho_3) 0 := rch_at S1c Y2c K (c, some (1, (⟨2, by decide⟩ : Fin 31)))
theorem inv_s2_3 (c : Dev nD) : records (F := F) S1c Y2c K ⊢ cellInv ER (sched (F := F) S1c Y2c) (K (c, some (2, (⟨2, by decide⟩ : Fin 31)))) (s2Cell c 3 ho_3) := inv_at S1c Y2c K (c, some (2, (⟨2, by decide⟩ : Fin 31)))
theorem rch_s2_3 (c : Dev nD) : records (F := F) S1c Y2c K ⊢ reached ER (s2Cell c 3 ho_3) 0 := rch_at S1c Y2c K (c, some (2, (⟨2, by decide⟩ : Fin 31)))
theorem inv_r2_3 (c : Dev nD) : records (F := F) S1c Y2c K ⊢ cellInv ER (sched (F := F) S1c Y2c) (K (c, some (3, (⟨2, by decide⟩ : Fin 31)))) (r2Cell c 3 ho_3) := inv_at S1c Y2c K (c, some (3, (⟨2, by decide⟩ : Fin 31)))
theorem rch_r2_3 (c : Dev nD) : records (F := F) S1c Y2c K ⊢ reached ER (r2Cell c 3 ho_3) 0 := rch_at S1c Y2c K (c, some (3, (⟨2, by decide⟩ : Fin 31)))
theorem inv_r1p_3 (c : Dev nD) : records (F := F) S1c Y2c K ⊢ cellInv ER (sched (F := F) S1c Y2c) (K (rot c 3, some (1, (⟨2, by decide⟩ : Fin 31)))) (r1Cell (rot c 3) 3 ho_3) := inv_at S1c Y2c K (rot c 3, some (1, (⟨2, by decide⟩ : Fin 31)))
theorem rch_r1p_3 (c : Dev nD) : records (F := F) S1c Y2c K ⊢ reached ER (r1Cell (rot c 3) 3 ho_3) 0 := rch_at S1c Y2c K (rot c 3, some (1, (⟨2, by decide⟩ : Fin 31)))
theorem inv_r2p_3 (c : Dev nD) : records (F := F) S1c Y2c K ⊢ cellInv ER (sched (F := F) S1c Y2c) (K (rot c 3, some (3, (⟨2, by decide⟩ : Fin 31)))) (r2Cell (rot c 3) 3 ho_3) := inv_at S1c Y2c K (rot c 3, some (3, (⟨2, by decide⟩ : Fin 31)))
theorem rch_r2p_3 (c : Dev nD) : records (F := F) S1c Y2c K ⊢ reached ER (r2Cell (rot c 3) 3 ho_3) 0 := rch_at S1c Y2c K (rot c 3, some (3, (⟨2, by decide⟩ : Fin 31)))

/-! ## Offset 4 -/

theorem inv_barp_4 (c : Dev nD) : records (F := F) S1c Y2c K ⊢ cellInv ER (sched (F := F) S1c Y2c) (K (rot c 4, none)) (barCell (rot c 4)) := inv_at S1c Y2c K (rot c 4, none)
theorem rch_barp_4 (c : Dev nD) : records (F := F) S1c Y2c K ⊢ reached ER (barCell (rot c 4)) 0 := rch_at S1c Y2c K (rot c 4, none)
theorem inv_s1_4 (c : Dev nD) : records (F := F) S1c Y2c K ⊢ cellInv ER (sched (F := F) S1c Y2c) (K (c, some (0, (⟨3, by decide⟩ : Fin 31)))) (s1Cell c 4 ho_4) := inv_at S1c Y2c K (c, some (0, (⟨3, by decide⟩ : Fin 31)))
theorem rch_s1_4 (c : Dev nD) : records (F := F) S1c Y2c K ⊢ reached ER (s1Cell c 4 ho_4) 0 := rch_at S1c Y2c K (c, some (0, (⟨3, by decide⟩ : Fin 31)))
theorem inv_r1_4 (c : Dev nD) : records (F := F) S1c Y2c K ⊢ cellInv ER (sched (F := F) S1c Y2c) (K (c, some (1, (⟨3, by decide⟩ : Fin 31)))) (r1Cell c 4 ho_4) := inv_at S1c Y2c K (c, some (1, (⟨3, by decide⟩ : Fin 31)))
theorem rch_r1_4 (c : Dev nD) : records (F := F) S1c Y2c K ⊢ reached ER (r1Cell c 4 ho_4) 0 := rch_at S1c Y2c K (c, some (1, (⟨3, by decide⟩ : Fin 31)))
theorem inv_s2_4 (c : Dev nD) : records (F := F) S1c Y2c K ⊢ cellInv ER (sched (F := F) S1c Y2c) (K (c, some (2, (⟨3, by decide⟩ : Fin 31)))) (s2Cell c 4 ho_4) := inv_at S1c Y2c K (c, some (2, (⟨3, by decide⟩ : Fin 31)))
theorem rch_s2_4 (c : Dev nD) : records (F := F) S1c Y2c K ⊢ reached ER (s2Cell c 4 ho_4) 0 := rch_at S1c Y2c K (c, some (2, (⟨3, by decide⟩ : Fin 31)))
theorem inv_r2_4 (c : Dev nD) : records (F := F) S1c Y2c K ⊢ cellInv ER (sched (F := F) S1c Y2c) (K (c, some (3, (⟨3, by decide⟩ : Fin 31)))) (r2Cell c 4 ho_4) := inv_at S1c Y2c K (c, some (3, (⟨3, by decide⟩ : Fin 31)))
theorem rch_r2_4 (c : Dev nD) : records (F := F) S1c Y2c K ⊢ reached ER (r2Cell c 4 ho_4) 0 := rch_at S1c Y2c K (c, some (3, (⟨3, by decide⟩ : Fin 31)))
theorem inv_r1p_4 (c : Dev nD) : records (F := F) S1c Y2c K ⊢ cellInv ER (sched (F := F) S1c Y2c) (K (rot c 4, some (1, (⟨3, by decide⟩ : Fin 31)))) (r1Cell (rot c 4) 4 ho_4) := inv_at S1c Y2c K (rot c 4, some (1, (⟨3, by decide⟩ : Fin 31)))
theorem rch_r1p_4 (c : Dev nD) : records (F := F) S1c Y2c K ⊢ reached ER (r1Cell (rot c 4) 4 ho_4) 0 := rch_at S1c Y2c K (rot c 4, some (1, (⟨3, by decide⟩ : Fin 31)))
theorem inv_r2p_4 (c : Dev nD) : records (F := F) S1c Y2c K ⊢ cellInv ER (sched (F := F) S1c Y2c) (K (rot c 4, some (3, (⟨3, by decide⟩ : Fin 31)))) (r2Cell (rot c 4) 4 ho_4) := inv_at S1c Y2c K (rot c 4, some (3, (⟨3, by decide⟩ : Fin 31)))
theorem rch_r2p_4 (c : Dev nD) : records (F := F) S1c Y2c K ⊢ reached ER (r2Cell (rot c 4) 4 ho_4) 0 := rch_at S1c Y2c K (rot c 4, some (3, (⟨3, by decide⟩ : Fin 31)))

/-! ## Offset 5 -/

theorem inv_barp_5 (c : Dev nD) : records (F := F) S1c Y2c K ⊢ cellInv ER (sched (F := F) S1c Y2c) (K (rot c 5, none)) (barCell (rot c 5)) := inv_at S1c Y2c K (rot c 5, none)
theorem rch_barp_5 (c : Dev nD) : records (F := F) S1c Y2c K ⊢ reached ER (barCell (rot c 5)) 0 := rch_at S1c Y2c K (rot c 5, none)
theorem inv_s1_5 (c : Dev nD) : records (F := F) S1c Y2c K ⊢ cellInv ER (sched (F := F) S1c Y2c) (K (c, some (0, (⟨4, by decide⟩ : Fin 31)))) (s1Cell c 5 ho_5) := inv_at S1c Y2c K (c, some (0, (⟨4, by decide⟩ : Fin 31)))
theorem rch_s1_5 (c : Dev nD) : records (F := F) S1c Y2c K ⊢ reached ER (s1Cell c 5 ho_5) 0 := rch_at S1c Y2c K (c, some (0, (⟨4, by decide⟩ : Fin 31)))
theorem inv_r1_5 (c : Dev nD) : records (F := F) S1c Y2c K ⊢ cellInv ER (sched (F := F) S1c Y2c) (K (c, some (1, (⟨4, by decide⟩ : Fin 31)))) (r1Cell c 5 ho_5) := inv_at S1c Y2c K (c, some (1, (⟨4, by decide⟩ : Fin 31)))
theorem rch_r1_5 (c : Dev nD) : records (F := F) S1c Y2c K ⊢ reached ER (r1Cell c 5 ho_5) 0 := rch_at S1c Y2c K (c, some (1, (⟨4, by decide⟩ : Fin 31)))
theorem inv_s2_5 (c : Dev nD) : records (F := F) S1c Y2c K ⊢ cellInv ER (sched (F := F) S1c Y2c) (K (c, some (2, (⟨4, by decide⟩ : Fin 31)))) (s2Cell c 5 ho_5) := inv_at S1c Y2c K (c, some (2, (⟨4, by decide⟩ : Fin 31)))
theorem rch_s2_5 (c : Dev nD) : records (F := F) S1c Y2c K ⊢ reached ER (s2Cell c 5 ho_5) 0 := rch_at S1c Y2c K (c, some (2, (⟨4, by decide⟩ : Fin 31)))
theorem inv_r2_5 (c : Dev nD) : records (F := F) S1c Y2c K ⊢ cellInv ER (sched (F := F) S1c Y2c) (K (c, some (3, (⟨4, by decide⟩ : Fin 31)))) (r2Cell c 5 ho_5) := inv_at S1c Y2c K (c, some (3, (⟨4, by decide⟩ : Fin 31)))
theorem rch_r2_5 (c : Dev nD) : records (F := F) S1c Y2c K ⊢ reached ER (r2Cell c 5 ho_5) 0 := rch_at S1c Y2c K (c, some (3, (⟨4, by decide⟩ : Fin 31)))
theorem inv_r1p_5 (c : Dev nD) : records (F := F) S1c Y2c K ⊢ cellInv ER (sched (F := F) S1c Y2c) (K (rot c 5, some (1, (⟨4, by decide⟩ : Fin 31)))) (r1Cell (rot c 5) 5 ho_5) := inv_at S1c Y2c K (rot c 5, some (1, (⟨4, by decide⟩ : Fin 31)))
theorem rch_r1p_5 (c : Dev nD) : records (F := F) S1c Y2c K ⊢ reached ER (r1Cell (rot c 5) 5 ho_5) 0 := rch_at S1c Y2c K (rot c 5, some (1, (⟨4, by decide⟩ : Fin 31)))
theorem inv_r2p_5 (c : Dev nD) : records (F := F) S1c Y2c K ⊢ cellInv ER (sched (F := F) S1c Y2c) (K (rot c 5, some (3, (⟨4, by decide⟩ : Fin 31)))) (r2Cell (rot c 5) 5 ho_5) := inv_at S1c Y2c K (rot c 5, some (3, (⟨4, by decide⟩ : Fin 31)))
theorem rch_r2p_5 (c : Dev nD) : records (F := F) S1c Y2c K ⊢ reached ER (r2Cell (rot c 5) 5 ho_5) 0 := rch_at S1c Y2c K (rot c 5, some (3, (⟨4, by decide⟩ : Fin 31)))

/-! ## Offset 6 -/

theorem inv_barp_6 (c : Dev nD) : records (F := F) S1c Y2c K ⊢ cellInv ER (sched (F := F) S1c Y2c) (K (rot c 6, none)) (barCell (rot c 6)) := inv_at S1c Y2c K (rot c 6, none)
theorem rch_barp_6 (c : Dev nD) : records (F := F) S1c Y2c K ⊢ reached ER (barCell (rot c 6)) 0 := rch_at S1c Y2c K (rot c 6, none)
theorem inv_s1_6 (c : Dev nD) : records (F := F) S1c Y2c K ⊢ cellInv ER (sched (F := F) S1c Y2c) (K (c, some (0, (⟨5, by decide⟩ : Fin 31)))) (s1Cell c 6 ho_6) := inv_at S1c Y2c K (c, some (0, (⟨5, by decide⟩ : Fin 31)))
theorem rch_s1_6 (c : Dev nD) : records (F := F) S1c Y2c K ⊢ reached ER (s1Cell c 6 ho_6) 0 := rch_at S1c Y2c K (c, some (0, (⟨5, by decide⟩ : Fin 31)))
theorem inv_r1_6 (c : Dev nD) : records (F := F) S1c Y2c K ⊢ cellInv ER (sched (F := F) S1c Y2c) (K (c, some (1, (⟨5, by decide⟩ : Fin 31)))) (r1Cell c 6 ho_6) := inv_at S1c Y2c K (c, some (1, (⟨5, by decide⟩ : Fin 31)))
theorem rch_r1_6 (c : Dev nD) : records (F := F) S1c Y2c K ⊢ reached ER (r1Cell c 6 ho_6) 0 := rch_at S1c Y2c K (c, some (1, (⟨5, by decide⟩ : Fin 31)))
theorem inv_s2_6 (c : Dev nD) : records (F := F) S1c Y2c K ⊢ cellInv ER (sched (F := F) S1c Y2c) (K (c, some (2, (⟨5, by decide⟩ : Fin 31)))) (s2Cell c 6 ho_6) := inv_at S1c Y2c K (c, some (2, (⟨5, by decide⟩ : Fin 31)))
theorem rch_s2_6 (c : Dev nD) : records (F := F) S1c Y2c K ⊢ reached ER (s2Cell c 6 ho_6) 0 := rch_at S1c Y2c K (c, some (2, (⟨5, by decide⟩ : Fin 31)))
theorem inv_r2_6 (c : Dev nD) : records (F := F) S1c Y2c K ⊢ cellInv ER (sched (F := F) S1c Y2c) (K (c, some (3, (⟨5, by decide⟩ : Fin 31)))) (r2Cell c 6 ho_6) := inv_at S1c Y2c K (c, some (3, (⟨5, by decide⟩ : Fin 31)))
theorem rch_r2_6 (c : Dev nD) : records (F := F) S1c Y2c K ⊢ reached ER (r2Cell c 6 ho_6) 0 := rch_at S1c Y2c K (c, some (3, (⟨5, by decide⟩ : Fin 31)))
theorem inv_r1p_6 (c : Dev nD) : records (F := F) S1c Y2c K ⊢ cellInv ER (sched (F := F) S1c Y2c) (K (rot c 6, some (1, (⟨5, by decide⟩ : Fin 31)))) (r1Cell (rot c 6) 6 ho_6) := inv_at S1c Y2c K (rot c 6, some (1, (⟨5, by decide⟩ : Fin 31)))
theorem rch_r1p_6 (c : Dev nD) : records (F := F) S1c Y2c K ⊢ reached ER (r1Cell (rot c 6) 6 ho_6) 0 := rch_at S1c Y2c K (rot c 6, some (1, (⟨5, by decide⟩ : Fin 31)))
theorem inv_r2p_6 (c : Dev nD) : records (F := F) S1c Y2c K ⊢ cellInv ER (sched (F := F) S1c Y2c) (K (rot c 6, some (3, (⟨5, by decide⟩ : Fin 31)))) (r2Cell (rot c 6) 6 ho_6) := inv_at S1c Y2c K (rot c 6, some (3, (⟨5, by decide⟩ : Fin 31)))
theorem rch_r2p_6 (c : Dev nD) : records (F := F) S1c Y2c K ⊢ reached ER (r2Cell (rot c 6) 6 ho_6) 0 := rch_at S1c Y2c K (rot c 6, some (3, (⟨5, by decide⟩ : Fin 31)))

/-! ## Offset 7 -/

theorem inv_barp_7 (c : Dev nD) : records (F := F) S1c Y2c K ⊢ cellInv ER (sched (F := F) S1c Y2c) (K (rot c 7, none)) (barCell (rot c 7)) := inv_at S1c Y2c K (rot c 7, none)
theorem rch_barp_7 (c : Dev nD) : records (F := F) S1c Y2c K ⊢ reached ER (barCell (rot c 7)) 0 := rch_at S1c Y2c K (rot c 7, none)
theorem inv_s1_7 (c : Dev nD) : records (F := F) S1c Y2c K ⊢ cellInv ER (sched (F := F) S1c Y2c) (K (c, some (0, (⟨6, by decide⟩ : Fin 31)))) (s1Cell c 7 ho_7) := inv_at S1c Y2c K (c, some (0, (⟨6, by decide⟩ : Fin 31)))
theorem rch_s1_7 (c : Dev nD) : records (F := F) S1c Y2c K ⊢ reached ER (s1Cell c 7 ho_7) 0 := rch_at S1c Y2c K (c, some (0, (⟨6, by decide⟩ : Fin 31)))
theorem inv_r1_7 (c : Dev nD) : records (F := F) S1c Y2c K ⊢ cellInv ER (sched (F := F) S1c Y2c) (K (c, some (1, (⟨6, by decide⟩ : Fin 31)))) (r1Cell c 7 ho_7) := inv_at S1c Y2c K (c, some (1, (⟨6, by decide⟩ : Fin 31)))
theorem rch_r1_7 (c : Dev nD) : records (F := F) S1c Y2c K ⊢ reached ER (r1Cell c 7 ho_7) 0 := rch_at S1c Y2c K (c, some (1, (⟨6, by decide⟩ : Fin 31)))
theorem inv_s2_7 (c : Dev nD) : records (F := F) S1c Y2c K ⊢ cellInv ER (sched (F := F) S1c Y2c) (K (c, some (2, (⟨6, by decide⟩ : Fin 31)))) (s2Cell c 7 ho_7) := inv_at S1c Y2c K (c, some (2, (⟨6, by decide⟩ : Fin 31)))
theorem rch_s2_7 (c : Dev nD) : records (F := F) S1c Y2c K ⊢ reached ER (s2Cell c 7 ho_7) 0 := rch_at S1c Y2c K (c, some (2, (⟨6, by decide⟩ : Fin 31)))
theorem inv_r2_7 (c : Dev nD) : records (F := F) S1c Y2c K ⊢ cellInv ER (sched (F := F) S1c Y2c) (K (c, some (3, (⟨6, by decide⟩ : Fin 31)))) (r2Cell c 7 ho_7) := inv_at S1c Y2c K (c, some (3, (⟨6, by decide⟩ : Fin 31)))
theorem rch_r2_7 (c : Dev nD) : records (F := F) S1c Y2c K ⊢ reached ER (r2Cell c 7 ho_7) 0 := rch_at S1c Y2c K (c, some (3, (⟨6, by decide⟩ : Fin 31)))
theorem inv_r1p_7 (c : Dev nD) : records (F := F) S1c Y2c K ⊢ cellInv ER (sched (F := F) S1c Y2c) (K (rot c 7, some (1, (⟨6, by decide⟩ : Fin 31)))) (r1Cell (rot c 7) 7 ho_7) := inv_at S1c Y2c K (rot c 7, some (1, (⟨6, by decide⟩ : Fin 31)))
theorem rch_r1p_7 (c : Dev nD) : records (F := F) S1c Y2c K ⊢ reached ER (r1Cell (rot c 7) 7 ho_7) 0 := rch_at S1c Y2c K (rot c 7, some (1, (⟨6, by decide⟩ : Fin 31)))
theorem inv_r2p_7 (c : Dev nD) : records (F := F) S1c Y2c K ⊢ cellInv ER (sched (F := F) S1c Y2c) (K (rot c 7, some (3, (⟨6, by decide⟩ : Fin 31)))) (r2Cell (rot c 7) 7 ho_7) := inv_at S1c Y2c K (rot c 7, some (3, (⟨6, by decide⟩ : Fin 31)))
theorem rch_r2p_7 (c : Dev nD) : records (F := F) S1c Y2c K ⊢ reached ER (r2Cell (rot c 7) 7 ho_7) 0 := rch_at S1c Y2c K (rot c 7, some (3, (⟨6, by decide⟩ : Fin 31)))

/-! ## Offset 8 -/

theorem inv_barp_8 (c : Dev nD) : records (F := F) S1c Y2c K ⊢ cellInv ER (sched (F := F) S1c Y2c) (K (rot c 8, none)) (barCell (rot c 8)) := inv_at S1c Y2c K (rot c 8, none)
theorem rch_barp_8 (c : Dev nD) : records (F := F) S1c Y2c K ⊢ reached ER (barCell (rot c 8)) 0 := rch_at S1c Y2c K (rot c 8, none)
theorem inv_s1_8 (c : Dev nD) : records (F := F) S1c Y2c K ⊢ cellInv ER (sched (F := F) S1c Y2c) (K (c, some (0, (⟨7, by decide⟩ : Fin 31)))) (s1Cell c 8 ho_8) := inv_at S1c Y2c K (c, some (0, (⟨7, by decide⟩ : Fin 31)))
theorem rch_s1_8 (c : Dev nD) : records (F := F) S1c Y2c K ⊢ reached ER (s1Cell c 8 ho_8) 0 := rch_at S1c Y2c K (c, some (0, (⟨7, by decide⟩ : Fin 31)))
theorem inv_r1_8 (c : Dev nD) : records (F := F) S1c Y2c K ⊢ cellInv ER (sched (F := F) S1c Y2c) (K (c, some (1, (⟨7, by decide⟩ : Fin 31)))) (r1Cell c 8 ho_8) := inv_at S1c Y2c K (c, some (1, (⟨7, by decide⟩ : Fin 31)))
theorem rch_r1_8 (c : Dev nD) : records (F := F) S1c Y2c K ⊢ reached ER (r1Cell c 8 ho_8) 0 := rch_at S1c Y2c K (c, some (1, (⟨7, by decide⟩ : Fin 31)))
theorem inv_s2_8 (c : Dev nD) : records (F := F) S1c Y2c K ⊢ cellInv ER (sched (F := F) S1c Y2c) (K (c, some (2, (⟨7, by decide⟩ : Fin 31)))) (s2Cell c 8 ho_8) := inv_at S1c Y2c K (c, some (2, (⟨7, by decide⟩ : Fin 31)))
theorem rch_s2_8 (c : Dev nD) : records (F := F) S1c Y2c K ⊢ reached ER (s2Cell c 8 ho_8) 0 := rch_at S1c Y2c K (c, some (2, (⟨7, by decide⟩ : Fin 31)))
theorem inv_r2_8 (c : Dev nD) : records (F := F) S1c Y2c K ⊢ cellInv ER (sched (F := F) S1c Y2c) (K (c, some (3, (⟨7, by decide⟩ : Fin 31)))) (r2Cell c 8 ho_8) := inv_at S1c Y2c K (c, some (3, (⟨7, by decide⟩ : Fin 31)))
theorem rch_r2_8 (c : Dev nD) : records (F := F) S1c Y2c K ⊢ reached ER (r2Cell c 8 ho_8) 0 := rch_at S1c Y2c K (c, some (3, (⟨7, by decide⟩ : Fin 31)))
theorem inv_r1p_8 (c : Dev nD) : records (F := F) S1c Y2c K ⊢ cellInv ER (sched (F := F) S1c Y2c) (K (rot c 8, some (1, (⟨7, by decide⟩ : Fin 31)))) (r1Cell (rot c 8) 8 ho_8) := inv_at S1c Y2c K (rot c 8, some (1, (⟨7, by decide⟩ : Fin 31)))
theorem rch_r1p_8 (c : Dev nD) : records (F := F) S1c Y2c K ⊢ reached ER (r1Cell (rot c 8) 8 ho_8) 0 := rch_at S1c Y2c K (rot c 8, some (1, (⟨7, by decide⟩ : Fin 31)))
theorem inv_r2p_8 (c : Dev nD) : records (F := F) S1c Y2c K ⊢ cellInv ER (sched (F := F) S1c Y2c) (K (rot c 8, some (3, (⟨7, by decide⟩ : Fin 31)))) (r2Cell (rot c 8) 8 ho_8) := inv_at S1c Y2c K (rot c 8, some (3, (⟨7, by decide⟩ : Fin 31)))
theorem rch_r2p_8 (c : Dev nD) : records (F := F) S1c Y2c K ⊢ reached ER (r2Cell (rot c 8) 8 ho_8) 0 := rch_at S1c Y2c K (rot c 8, some (3, (⟨7, by decide⟩ : Fin 31)))

/-! ## Offset 9 -/

theorem inv_barp_9 (c : Dev nD) : records (F := F) S1c Y2c K ⊢ cellInv ER (sched (F := F) S1c Y2c) (K (rot c 9, none)) (barCell (rot c 9)) := inv_at S1c Y2c K (rot c 9, none)
theorem rch_barp_9 (c : Dev nD) : records (F := F) S1c Y2c K ⊢ reached ER (barCell (rot c 9)) 0 := rch_at S1c Y2c K (rot c 9, none)
theorem inv_s1_9 (c : Dev nD) : records (F := F) S1c Y2c K ⊢ cellInv ER (sched (F := F) S1c Y2c) (K (c, some (0, (⟨8, by decide⟩ : Fin 31)))) (s1Cell c 9 ho_9) := inv_at S1c Y2c K (c, some (0, (⟨8, by decide⟩ : Fin 31)))
theorem rch_s1_9 (c : Dev nD) : records (F := F) S1c Y2c K ⊢ reached ER (s1Cell c 9 ho_9) 0 := rch_at S1c Y2c K (c, some (0, (⟨8, by decide⟩ : Fin 31)))
theorem inv_r1_9 (c : Dev nD) : records (F := F) S1c Y2c K ⊢ cellInv ER (sched (F := F) S1c Y2c) (K (c, some (1, (⟨8, by decide⟩ : Fin 31)))) (r1Cell c 9 ho_9) := inv_at S1c Y2c K (c, some (1, (⟨8, by decide⟩ : Fin 31)))
theorem rch_r1_9 (c : Dev nD) : records (F := F) S1c Y2c K ⊢ reached ER (r1Cell c 9 ho_9) 0 := rch_at S1c Y2c K (c, some (1, (⟨8, by decide⟩ : Fin 31)))
theorem inv_s2_9 (c : Dev nD) : records (F := F) S1c Y2c K ⊢ cellInv ER (sched (F := F) S1c Y2c) (K (c, some (2, (⟨8, by decide⟩ : Fin 31)))) (s2Cell c 9 ho_9) := inv_at S1c Y2c K (c, some (2, (⟨8, by decide⟩ : Fin 31)))
theorem rch_s2_9 (c : Dev nD) : records (F := F) S1c Y2c K ⊢ reached ER (s2Cell c 9 ho_9) 0 := rch_at S1c Y2c K (c, some (2, (⟨8, by decide⟩ : Fin 31)))
theorem inv_r2_9 (c : Dev nD) : records (F := F) S1c Y2c K ⊢ cellInv ER (sched (F := F) S1c Y2c) (K (c, some (3, (⟨8, by decide⟩ : Fin 31)))) (r2Cell c 9 ho_9) := inv_at S1c Y2c K (c, some (3, (⟨8, by decide⟩ : Fin 31)))
theorem rch_r2_9 (c : Dev nD) : records (F := F) S1c Y2c K ⊢ reached ER (r2Cell c 9 ho_9) 0 := rch_at S1c Y2c K (c, some (3, (⟨8, by decide⟩ : Fin 31)))
theorem inv_r1p_9 (c : Dev nD) : records (F := F) S1c Y2c K ⊢ cellInv ER (sched (F := F) S1c Y2c) (K (rot c 9, some (1, (⟨8, by decide⟩ : Fin 31)))) (r1Cell (rot c 9) 9 ho_9) := inv_at S1c Y2c K (rot c 9, some (1, (⟨8, by decide⟩ : Fin 31)))
theorem rch_r1p_9 (c : Dev nD) : records (F := F) S1c Y2c K ⊢ reached ER (r1Cell (rot c 9) 9 ho_9) 0 := rch_at S1c Y2c K (rot c 9, some (1, (⟨8, by decide⟩ : Fin 31)))
theorem inv_r2p_9 (c : Dev nD) : records (F := F) S1c Y2c K ⊢ cellInv ER (sched (F := F) S1c Y2c) (K (rot c 9, some (3, (⟨8, by decide⟩ : Fin 31)))) (r2Cell (rot c 9) 9 ho_9) := inv_at S1c Y2c K (rot c 9, some (3, (⟨8, by decide⟩ : Fin 31)))
theorem rch_r2p_9 (c : Dev nD) : records (F := F) S1c Y2c K ⊢ reached ER (r2Cell (rot c 9) 9 ho_9) 0 := rch_at S1c Y2c K (rot c 9, some (3, (⟨8, by decide⟩ : Fin 31)))

/-! ## Offset 10 -/

theorem inv_barp_10 (c : Dev nD) : records (F := F) S1c Y2c K ⊢ cellInv ER (sched (F := F) S1c Y2c) (K (rot c 10, none)) (barCell (rot c 10)) := inv_at S1c Y2c K (rot c 10, none)
theorem rch_barp_10 (c : Dev nD) : records (F := F) S1c Y2c K ⊢ reached ER (barCell (rot c 10)) 0 := rch_at S1c Y2c K (rot c 10, none)
theorem inv_s1_10 (c : Dev nD) : records (F := F) S1c Y2c K ⊢ cellInv ER (sched (F := F) S1c Y2c) (K (c, some (0, (⟨9, by decide⟩ : Fin 31)))) (s1Cell c 10 ho_10) := inv_at S1c Y2c K (c, some (0, (⟨9, by decide⟩ : Fin 31)))
theorem rch_s1_10 (c : Dev nD) : records (F := F) S1c Y2c K ⊢ reached ER (s1Cell c 10 ho_10) 0 := rch_at S1c Y2c K (c, some (0, (⟨9, by decide⟩ : Fin 31)))
theorem inv_r1_10 (c : Dev nD) : records (F := F) S1c Y2c K ⊢ cellInv ER (sched (F := F) S1c Y2c) (K (c, some (1, (⟨9, by decide⟩ : Fin 31)))) (r1Cell c 10 ho_10) := inv_at S1c Y2c K (c, some (1, (⟨9, by decide⟩ : Fin 31)))
theorem rch_r1_10 (c : Dev nD) : records (F := F) S1c Y2c K ⊢ reached ER (r1Cell c 10 ho_10) 0 := rch_at S1c Y2c K (c, some (1, (⟨9, by decide⟩ : Fin 31)))
theorem inv_s2_10 (c : Dev nD) : records (F := F) S1c Y2c K ⊢ cellInv ER (sched (F := F) S1c Y2c) (K (c, some (2, (⟨9, by decide⟩ : Fin 31)))) (s2Cell c 10 ho_10) := inv_at S1c Y2c K (c, some (2, (⟨9, by decide⟩ : Fin 31)))
theorem rch_s2_10 (c : Dev nD) : records (F := F) S1c Y2c K ⊢ reached ER (s2Cell c 10 ho_10) 0 := rch_at S1c Y2c K (c, some (2, (⟨9, by decide⟩ : Fin 31)))
theorem inv_r2_10 (c : Dev nD) : records (F := F) S1c Y2c K ⊢ cellInv ER (sched (F := F) S1c Y2c) (K (c, some (3, (⟨9, by decide⟩ : Fin 31)))) (r2Cell c 10 ho_10) := inv_at S1c Y2c K (c, some (3, (⟨9, by decide⟩ : Fin 31)))
theorem rch_r2_10 (c : Dev nD) : records (F := F) S1c Y2c K ⊢ reached ER (r2Cell c 10 ho_10) 0 := rch_at S1c Y2c K (c, some (3, (⟨9, by decide⟩ : Fin 31)))
theorem inv_r1p_10 (c : Dev nD) : records (F := F) S1c Y2c K ⊢ cellInv ER (sched (F := F) S1c Y2c) (K (rot c 10, some (1, (⟨9, by decide⟩ : Fin 31)))) (r1Cell (rot c 10) 10 ho_10) := inv_at S1c Y2c K (rot c 10, some (1, (⟨9, by decide⟩ : Fin 31)))
theorem rch_r1p_10 (c : Dev nD) : records (F := F) S1c Y2c K ⊢ reached ER (r1Cell (rot c 10) 10 ho_10) 0 := rch_at S1c Y2c K (rot c 10, some (1, (⟨9, by decide⟩ : Fin 31)))
theorem inv_r2p_10 (c : Dev nD) : records (F := F) S1c Y2c K ⊢ cellInv ER (sched (F := F) S1c Y2c) (K (rot c 10, some (3, (⟨9, by decide⟩ : Fin 31)))) (r2Cell (rot c 10) 10 ho_10) := inv_at S1c Y2c K (rot c 10, some (3, (⟨9, by decide⟩ : Fin 31)))
theorem rch_r2p_10 (c : Dev nD) : records (F := F) S1c Y2c K ⊢ reached ER (r2Cell (rot c 10) 10 ho_10) 0 := rch_at S1c Y2c K (rot c 10, some (3, (⟨9, by decide⟩ : Fin 31)))

/-! ## Offset 11 -/

theorem inv_barp_11 (c : Dev nD) : records (F := F) S1c Y2c K ⊢ cellInv ER (sched (F := F) S1c Y2c) (K (rot c 11, none)) (barCell (rot c 11)) := inv_at S1c Y2c K (rot c 11, none)
theorem rch_barp_11 (c : Dev nD) : records (F := F) S1c Y2c K ⊢ reached ER (barCell (rot c 11)) 0 := rch_at S1c Y2c K (rot c 11, none)
theorem inv_s1_11 (c : Dev nD) : records (F := F) S1c Y2c K ⊢ cellInv ER (sched (F := F) S1c Y2c) (K (c, some (0, (⟨10, by decide⟩ : Fin 31)))) (s1Cell c 11 ho_11) := inv_at S1c Y2c K (c, some (0, (⟨10, by decide⟩ : Fin 31)))
theorem rch_s1_11 (c : Dev nD) : records (F := F) S1c Y2c K ⊢ reached ER (s1Cell c 11 ho_11) 0 := rch_at S1c Y2c K (c, some (0, (⟨10, by decide⟩ : Fin 31)))
theorem inv_r1_11 (c : Dev nD) : records (F := F) S1c Y2c K ⊢ cellInv ER (sched (F := F) S1c Y2c) (K (c, some (1, (⟨10, by decide⟩ : Fin 31)))) (r1Cell c 11 ho_11) := inv_at S1c Y2c K (c, some (1, (⟨10, by decide⟩ : Fin 31)))
theorem rch_r1_11 (c : Dev nD) : records (F := F) S1c Y2c K ⊢ reached ER (r1Cell c 11 ho_11) 0 := rch_at S1c Y2c K (c, some (1, (⟨10, by decide⟩ : Fin 31)))
theorem inv_s2_11 (c : Dev nD) : records (F := F) S1c Y2c K ⊢ cellInv ER (sched (F := F) S1c Y2c) (K (c, some (2, (⟨10, by decide⟩ : Fin 31)))) (s2Cell c 11 ho_11) := inv_at S1c Y2c K (c, some (2, (⟨10, by decide⟩ : Fin 31)))
theorem rch_s2_11 (c : Dev nD) : records (F := F) S1c Y2c K ⊢ reached ER (s2Cell c 11 ho_11) 0 := rch_at S1c Y2c K (c, some (2, (⟨10, by decide⟩ : Fin 31)))
theorem inv_r2_11 (c : Dev nD) : records (F := F) S1c Y2c K ⊢ cellInv ER (sched (F := F) S1c Y2c) (K (c, some (3, (⟨10, by decide⟩ : Fin 31)))) (r2Cell c 11 ho_11) := inv_at S1c Y2c K (c, some (3, (⟨10, by decide⟩ : Fin 31)))
theorem rch_r2_11 (c : Dev nD) : records (F := F) S1c Y2c K ⊢ reached ER (r2Cell c 11 ho_11) 0 := rch_at S1c Y2c K (c, some (3, (⟨10, by decide⟩ : Fin 31)))
theorem inv_r1p_11 (c : Dev nD) : records (F := F) S1c Y2c K ⊢ cellInv ER (sched (F := F) S1c Y2c) (K (rot c 11, some (1, (⟨10, by decide⟩ : Fin 31)))) (r1Cell (rot c 11) 11 ho_11) := inv_at S1c Y2c K (rot c 11, some (1, (⟨10, by decide⟩ : Fin 31)))
theorem rch_r1p_11 (c : Dev nD) : records (F := F) S1c Y2c K ⊢ reached ER (r1Cell (rot c 11) 11 ho_11) 0 := rch_at S1c Y2c K (rot c 11, some (1, (⟨10, by decide⟩ : Fin 31)))
theorem inv_r2p_11 (c : Dev nD) : records (F := F) S1c Y2c K ⊢ cellInv ER (sched (F := F) S1c Y2c) (K (rot c 11, some (3, (⟨10, by decide⟩ : Fin 31)))) (r2Cell (rot c 11) 11 ho_11) := inv_at S1c Y2c K (rot c 11, some (3, (⟨10, by decide⟩ : Fin 31)))
theorem rch_r2p_11 (c : Dev nD) : records (F := F) S1c Y2c K ⊢ reached ER (r2Cell (rot c 11) 11 ho_11) 0 := rch_at S1c Y2c K (rot c 11, some (3, (⟨10, by decide⟩ : Fin 31)))

/-! ## Offset 12 -/

theorem inv_barp_12 (c : Dev nD) : records (F := F) S1c Y2c K ⊢ cellInv ER (sched (F := F) S1c Y2c) (K (rot c 12, none)) (barCell (rot c 12)) := inv_at S1c Y2c K (rot c 12, none)
theorem rch_barp_12 (c : Dev nD) : records (F := F) S1c Y2c K ⊢ reached ER (barCell (rot c 12)) 0 := rch_at S1c Y2c K (rot c 12, none)
theorem inv_s1_12 (c : Dev nD) : records (F := F) S1c Y2c K ⊢ cellInv ER (sched (F := F) S1c Y2c) (K (c, some (0, (⟨11, by decide⟩ : Fin 31)))) (s1Cell c 12 ho_12) := inv_at S1c Y2c K (c, some (0, (⟨11, by decide⟩ : Fin 31)))
theorem rch_s1_12 (c : Dev nD) : records (F := F) S1c Y2c K ⊢ reached ER (s1Cell c 12 ho_12) 0 := rch_at S1c Y2c K (c, some (0, (⟨11, by decide⟩ : Fin 31)))
theorem inv_r1_12 (c : Dev nD) : records (F := F) S1c Y2c K ⊢ cellInv ER (sched (F := F) S1c Y2c) (K (c, some (1, (⟨11, by decide⟩ : Fin 31)))) (r1Cell c 12 ho_12) := inv_at S1c Y2c K (c, some (1, (⟨11, by decide⟩ : Fin 31)))
theorem rch_r1_12 (c : Dev nD) : records (F := F) S1c Y2c K ⊢ reached ER (r1Cell c 12 ho_12) 0 := rch_at S1c Y2c K (c, some (1, (⟨11, by decide⟩ : Fin 31)))
theorem inv_s2_12 (c : Dev nD) : records (F := F) S1c Y2c K ⊢ cellInv ER (sched (F := F) S1c Y2c) (K (c, some (2, (⟨11, by decide⟩ : Fin 31)))) (s2Cell c 12 ho_12) := inv_at S1c Y2c K (c, some (2, (⟨11, by decide⟩ : Fin 31)))
theorem rch_s2_12 (c : Dev nD) : records (F := F) S1c Y2c K ⊢ reached ER (s2Cell c 12 ho_12) 0 := rch_at S1c Y2c K (c, some (2, (⟨11, by decide⟩ : Fin 31)))
theorem inv_r2_12 (c : Dev nD) : records (F := F) S1c Y2c K ⊢ cellInv ER (sched (F := F) S1c Y2c) (K (c, some (3, (⟨11, by decide⟩ : Fin 31)))) (r2Cell c 12 ho_12) := inv_at S1c Y2c K (c, some (3, (⟨11, by decide⟩ : Fin 31)))
theorem rch_r2_12 (c : Dev nD) : records (F := F) S1c Y2c K ⊢ reached ER (r2Cell c 12 ho_12) 0 := rch_at S1c Y2c K (c, some (3, (⟨11, by decide⟩ : Fin 31)))
theorem inv_r1p_12 (c : Dev nD) : records (F := F) S1c Y2c K ⊢ cellInv ER (sched (F := F) S1c Y2c) (K (rot c 12, some (1, (⟨11, by decide⟩ : Fin 31)))) (r1Cell (rot c 12) 12 ho_12) := inv_at S1c Y2c K (rot c 12, some (1, (⟨11, by decide⟩ : Fin 31)))
theorem rch_r1p_12 (c : Dev nD) : records (F := F) S1c Y2c K ⊢ reached ER (r1Cell (rot c 12) 12 ho_12) 0 := rch_at S1c Y2c K (rot c 12, some (1, (⟨11, by decide⟩ : Fin 31)))
theorem inv_r2p_12 (c : Dev nD) : records (F := F) S1c Y2c K ⊢ cellInv ER (sched (F := F) S1c Y2c) (K (rot c 12, some (3, (⟨11, by decide⟩ : Fin 31)))) (r2Cell (rot c 12) 12 ho_12) := inv_at S1c Y2c K (rot c 12, some (3, (⟨11, by decide⟩ : Fin 31)))
theorem rch_r2p_12 (c : Dev nD) : records (F := F) S1c Y2c K ⊢ reached ER (r2Cell (rot c 12) 12 ho_12) 0 := rch_at S1c Y2c K (rot c 12, some (3, (⟨11, by decide⟩ : Fin 31)))

/-! ## Offset 13 -/

theorem inv_barp_13 (c : Dev nD) : records (F := F) S1c Y2c K ⊢ cellInv ER (sched (F := F) S1c Y2c) (K (rot c 13, none)) (barCell (rot c 13)) := inv_at S1c Y2c K (rot c 13, none)
theorem rch_barp_13 (c : Dev nD) : records (F := F) S1c Y2c K ⊢ reached ER (barCell (rot c 13)) 0 := rch_at S1c Y2c K (rot c 13, none)
theorem inv_s1_13 (c : Dev nD) : records (F := F) S1c Y2c K ⊢ cellInv ER (sched (F := F) S1c Y2c) (K (c, some (0, (⟨12, by decide⟩ : Fin 31)))) (s1Cell c 13 ho_13) := inv_at S1c Y2c K (c, some (0, (⟨12, by decide⟩ : Fin 31)))
theorem rch_s1_13 (c : Dev nD) : records (F := F) S1c Y2c K ⊢ reached ER (s1Cell c 13 ho_13) 0 := rch_at S1c Y2c K (c, some (0, (⟨12, by decide⟩ : Fin 31)))
theorem inv_r1_13 (c : Dev nD) : records (F := F) S1c Y2c K ⊢ cellInv ER (sched (F := F) S1c Y2c) (K (c, some (1, (⟨12, by decide⟩ : Fin 31)))) (r1Cell c 13 ho_13) := inv_at S1c Y2c K (c, some (1, (⟨12, by decide⟩ : Fin 31)))
theorem rch_r1_13 (c : Dev nD) : records (F := F) S1c Y2c K ⊢ reached ER (r1Cell c 13 ho_13) 0 := rch_at S1c Y2c K (c, some (1, (⟨12, by decide⟩ : Fin 31)))
theorem inv_s2_13 (c : Dev nD) : records (F := F) S1c Y2c K ⊢ cellInv ER (sched (F := F) S1c Y2c) (K (c, some (2, (⟨12, by decide⟩ : Fin 31)))) (s2Cell c 13 ho_13) := inv_at S1c Y2c K (c, some (2, (⟨12, by decide⟩ : Fin 31)))
theorem rch_s2_13 (c : Dev nD) : records (F := F) S1c Y2c K ⊢ reached ER (s2Cell c 13 ho_13) 0 := rch_at S1c Y2c K (c, some (2, (⟨12, by decide⟩ : Fin 31)))
theorem inv_r2_13 (c : Dev nD) : records (F := F) S1c Y2c K ⊢ cellInv ER (sched (F := F) S1c Y2c) (K (c, some (3, (⟨12, by decide⟩ : Fin 31)))) (r2Cell c 13 ho_13) := inv_at S1c Y2c K (c, some (3, (⟨12, by decide⟩ : Fin 31)))
theorem rch_r2_13 (c : Dev nD) : records (F := F) S1c Y2c K ⊢ reached ER (r2Cell c 13 ho_13) 0 := rch_at S1c Y2c K (c, some (3, (⟨12, by decide⟩ : Fin 31)))
theorem inv_r1p_13 (c : Dev nD) : records (F := F) S1c Y2c K ⊢ cellInv ER (sched (F := F) S1c Y2c) (K (rot c 13, some (1, (⟨12, by decide⟩ : Fin 31)))) (r1Cell (rot c 13) 13 ho_13) := inv_at S1c Y2c K (rot c 13, some (1, (⟨12, by decide⟩ : Fin 31)))
theorem rch_r1p_13 (c : Dev nD) : records (F := F) S1c Y2c K ⊢ reached ER (r1Cell (rot c 13) 13 ho_13) 0 := rch_at S1c Y2c K (rot c 13, some (1, (⟨12, by decide⟩ : Fin 31)))
theorem inv_r2p_13 (c : Dev nD) : records (F := F) S1c Y2c K ⊢ cellInv ER (sched (F := F) S1c Y2c) (K (rot c 13, some (3, (⟨12, by decide⟩ : Fin 31)))) (r2Cell (rot c 13) 13 ho_13) := inv_at S1c Y2c K (rot c 13, some (3, (⟨12, by decide⟩ : Fin 31)))
theorem rch_r2p_13 (c : Dev nD) : records (F := F) S1c Y2c K ⊢ reached ER (r2Cell (rot c 13) 13 ho_13) 0 := rch_at S1c Y2c K (rot c 13, some (3, (⟨12, by decide⟩ : Fin 31)))

/-! ## Offset 14 -/

theorem inv_barp_14 (c : Dev nD) : records (F := F) S1c Y2c K ⊢ cellInv ER (sched (F := F) S1c Y2c) (K (rot c 14, none)) (barCell (rot c 14)) := inv_at S1c Y2c K (rot c 14, none)
theorem rch_barp_14 (c : Dev nD) : records (F := F) S1c Y2c K ⊢ reached ER (barCell (rot c 14)) 0 := rch_at S1c Y2c K (rot c 14, none)
theorem inv_s1_14 (c : Dev nD) : records (F := F) S1c Y2c K ⊢ cellInv ER (sched (F := F) S1c Y2c) (K (c, some (0, (⟨13, by decide⟩ : Fin 31)))) (s1Cell c 14 ho_14) := inv_at S1c Y2c K (c, some (0, (⟨13, by decide⟩ : Fin 31)))
theorem rch_s1_14 (c : Dev nD) : records (F := F) S1c Y2c K ⊢ reached ER (s1Cell c 14 ho_14) 0 := rch_at S1c Y2c K (c, some (0, (⟨13, by decide⟩ : Fin 31)))
theorem inv_r1_14 (c : Dev nD) : records (F := F) S1c Y2c K ⊢ cellInv ER (sched (F := F) S1c Y2c) (K (c, some (1, (⟨13, by decide⟩ : Fin 31)))) (r1Cell c 14 ho_14) := inv_at S1c Y2c K (c, some (1, (⟨13, by decide⟩ : Fin 31)))
theorem rch_r1_14 (c : Dev nD) : records (F := F) S1c Y2c K ⊢ reached ER (r1Cell c 14 ho_14) 0 := rch_at S1c Y2c K (c, some (1, (⟨13, by decide⟩ : Fin 31)))
theorem inv_s2_14 (c : Dev nD) : records (F := F) S1c Y2c K ⊢ cellInv ER (sched (F := F) S1c Y2c) (K (c, some (2, (⟨13, by decide⟩ : Fin 31)))) (s2Cell c 14 ho_14) := inv_at S1c Y2c K (c, some (2, (⟨13, by decide⟩ : Fin 31)))
theorem rch_s2_14 (c : Dev nD) : records (F := F) S1c Y2c K ⊢ reached ER (s2Cell c 14 ho_14) 0 := rch_at S1c Y2c K (c, some (2, (⟨13, by decide⟩ : Fin 31)))
theorem inv_r2_14 (c : Dev nD) : records (F := F) S1c Y2c K ⊢ cellInv ER (sched (F := F) S1c Y2c) (K (c, some (3, (⟨13, by decide⟩ : Fin 31)))) (r2Cell c 14 ho_14) := inv_at S1c Y2c K (c, some (3, (⟨13, by decide⟩ : Fin 31)))
theorem rch_r2_14 (c : Dev nD) : records (F := F) S1c Y2c K ⊢ reached ER (r2Cell c 14 ho_14) 0 := rch_at S1c Y2c K (c, some (3, (⟨13, by decide⟩ : Fin 31)))
theorem inv_r1p_14 (c : Dev nD) : records (F := F) S1c Y2c K ⊢ cellInv ER (sched (F := F) S1c Y2c) (K (rot c 14, some (1, (⟨13, by decide⟩ : Fin 31)))) (r1Cell (rot c 14) 14 ho_14) := inv_at S1c Y2c K (rot c 14, some (1, (⟨13, by decide⟩ : Fin 31)))
theorem rch_r1p_14 (c : Dev nD) : records (F := F) S1c Y2c K ⊢ reached ER (r1Cell (rot c 14) 14 ho_14) 0 := rch_at S1c Y2c K (rot c 14, some (1, (⟨13, by decide⟩ : Fin 31)))
theorem inv_r2p_14 (c : Dev nD) : records (F := F) S1c Y2c K ⊢ cellInv ER (sched (F := F) S1c Y2c) (K (rot c 14, some (3, (⟨13, by decide⟩ : Fin 31)))) (r2Cell (rot c 14) 14 ho_14) := inv_at S1c Y2c K (rot c 14, some (3, (⟨13, by decide⟩ : Fin 31)))
theorem rch_r2p_14 (c : Dev nD) : records (F := F) S1c Y2c K ⊢ reached ER (r2Cell (rot c 14) 14 ho_14) 0 := rch_at S1c Y2c K (rot c 14, some (3, (⟨13, by decide⟩ : Fin 31)))

/-! ## Offset 15 -/

theorem inv_barp_15 (c : Dev nD) : records (F := F) S1c Y2c K ⊢ cellInv ER (sched (F := F) S1c Y2c) (K (rot c 15, none)) (barCell (rot c 15)) := inv_at S1c Y2c K (rot c 15, none)
theorem rch_barp_15 (c : Dev nD) : records (F := F) S1c Y2c K ⊢ reached ER (barCell (rot c 15)) 0 := rch_at S1c Y2c K (rot c 15, none)
theorem inv_s1_15 (c : Dev nD) : records (F := F) S1c Y2c K ⊢ cellInv ER (sched (F := F) S1c Y2c) (K (c, some (0, (⟨14, by decide⟩ : Fin 31)))) (s1Cell c 15 ho_15) := inv_at S1c Y2c K (c, some (0, (⟨14, by decide⟩ : Fin 31)))
theorem rch_s1_15 (c : Dev nD) : records (F := F) S1c Y2c K ⊢ reached ER (s1Cell c 15 ho_15) 0 := rch_at S1c Y2c K (c, some (0, (⟨14, by decide⟩ : Fin 31)))
theorem inv_r1_15 (c : Dev nD) : records (F := F) S1c Y2c K ⊢ cellInv ER (sched (F := F) S1c Y2c) (K (c, some (1, (⟨14, by decide⟩ : Fin 31)))) (r1Cell c 15 ho_15) := inv_at S1c Y2c K (c, some (1, (⟨14, by decide⟩ : Fin 31)))
theorem rch_r1_15 (c : Dev nD) : records (F := F) S1c Y2c K ⊢ reached ER (r1Cell c 15 ho_15) 0 := rch_at S1c Y2c K (c, some (1, (⟨14, by decide⟩ : Fin 31)))
theorem inv_s2_15 (c : Dev nD) : records (F := F) S1c Y2c K ⊢ cellInv ER (sched (F := F) S1c Y2c) (K (c, some (2, (⟨14, by decide⟩ : Fin 31)))) (s2Cell c 15 ho_15) := inv_at S1c Y2c K (c, some (2, (⟨14, by decide⟩ : Fin 31)))
theorem rch_s2_15 (c : Dev nD) : records (F := F) S1c Y2c K ⊢ reached ER (s2Cell c 15 ho_15) 0 := rch_at S1c Y2c K (c, some (2, (⟨14, by decide⟩ : Fin 31)))
theorem inv_r2_15 (c : Dev nD) : records (F := F) S1c Y2c K ⊢ cellInv ER (sched (F := F) S1c Y2c) (K (c, some (3, (⟨14, by decide⟩ : Fin 31)))) (r2Cell c 15 ho_15) := inv_at S1c Y2c K (c, some (3, (⟨14, by decide⟩ : Fin 31)))
theorem rch_r2_15 (c : Dev nD) : records (F := F) S1c Y2c K ⊢ reached ER (r2Cell c 15 ho_15) 0 := rch_at S1c Y2c K (c, some (3, (⟨14, by decide⟩ : Fin 31)))
theorem inv_r1p_15 (c : Dev nD) : records (F := F) S1c Y2c K ⊢ cellInv ER (sched (F := F) S1c Y2c) (K (rot c 15, some (1, (⟨14, by decide⟩ : Fin 31)))) (r1Cell (rot c 15) 15 ho_15) := inv_at S1c Y2c K (rot c 15, some (1, (⟨14, by decide⟩ : Fin 31)))
theorem rch_r1p_15 (c : Dev nD) : records (F := F) S1c Y2c K ⊢ reached ER (r1Cell (rot c 15) 15 ho_15) 0 := rch_at S1c Y2c K (rot c 15, some (1, (⟨14, by decide⟩ : Fin 31)))
theorem inv_r2p_15 (c : Dev nD) : records (F := F) S1c Y2c K ⊢ cellInv ER (sched (F := F) S1c Y2c) (K (rot c 15, some (3, (⟨14, by decide⟩ : Fin 31)))) (r2Cell (rot c 15) 15 ho_15) := inv_at S1c Y2c K (rot c 15, some (3, (⟨14, by decide⟩ : Fin 31)))
theorem rch_r2p_15 (c : Dev nD) : records (F := F) S1c Y2c K ⊢ reached ER (r2Cell (rot c 15) 15 ho_15) 0 := rch_at S1c Y2c K (rot c 15, some (3, (⟨14, by decide⟩ : Fin 31)))

/-! ## Offset 16 -/

theorem inv_barp_16 (c : Dev nD) : records (F := F) S1c Y2c K ⊢ cellInv ER (sched (F := F) S1c Y2c) (K (rot c 16, none)) (barCell (rot c 16)) := inv_at S1c Y2c K (rot c 16, none)
theorem rch_barp_16 (c : Dev nD) : records (F := F) S1c Y2c K ⊢ reached ER (barCell (rot c 16)) 0 := rch_at S1c Y2c K (rot c 16, none)
theorem inv_s1_16 (c : Dev nD) : records (F := F) S1c Y2c K ⊢ cellInv ER (sched (F := F) S1c Y2c) (K (c, some (0, (⟨15, by decide⟩ : Fin 31)))) (s1Cell c 16 ho_16) := inv_at S1c Y2c K (c, some (0, (⟨15, by decide⟩ : Fin 31)))
theorem rch_s1_16 (c : Dev nD) : records (F := F) S1c Y2c K ⊢ reached ER (s1Cell c 16 ho_16) 0 := rch_at S1c Y2c K (c, some (0, (⟨15, by decide⟩ : Fin 31)))
theorem inv_r1_16 (c : Dev nD) : records (F := F) S1c Y2c K ⊢ cellInv ER (sched (F := F) S1c Y2c) (K (c, some (1, (⟨15, by decide⟩ : Fin 31)))) (r1Cell c 16 ho_16) := inv_at S1c Y2c K (c, some (1, (⟨15, by decide⟩ : Fin 31)))
theorem rch_r1_16 (c : Dev nD) : records (F := F) S1c Y2c K ⊢ reached ER (r1Cell c 16 ho_16) 0 := rch_at S1c Y2c K (c, some (1, (⟨15, by decide⟩ : Fin 31)))
theorem inv_s2_16 (c : Dev nD) : records (F := F) S1c Y2c K ⊢ cellInv ER (sched (F := F) S1c Y2c) (K (c, some (2, (⟨15, by decide⟩ : Fin 31)))) (s2Cell c 16 ho_16) := inv_at S1c Y2c K (c, some (2, (⟨15, by decide⟩ : Fin 31)))
theorem rch_s2_16 (c : Dev nD) : records (F := F) S1c Y2c K ⊢ reached ER (s2Cell c 16 ho_16) 0 := rch_at S1c Y2c K (c, some (2, (⟨15, by decide⟩ : Fin 31)))
theorem inv_r2_16 (c : Dev nD) : records (F := F) S1c Y2c K ⊢ cellInv ER (sched (F := F) S1c Y2c) (K (c, some (3, (⟨15, by decide⟩ : Fin 31)))) (r2Cell c 16 ho_16) := inv_at S1c Y2c K (c, some (3, (⟨15, by decide⟩ : Fin 31)))
theorem rch_r2_16 (c : Dev nD) : records (F := F) S1c Y2c K ⊢ reached ER (r2Cell c 16 ho_16) 0 := rch_at S1c Y2c K (c, some (3, (⟨15, by decide⟩ : Fin 31)))
theorem inv_r1p_16 (c : Dev nD) : records (F := F) S1c Y2c K ⊢ cellInv ER (sched (F := F) S1c Y2c) (K (rot c 16, some (1, (⟨15, by decide⟩ : Fin 31)))) (r1Cell (rot c 16) 16 ho_16) := inv_at S1c Y2c K (rot c 16, some (1, (⟨15, by decide⟩ : Fin 31)))
theorem rch_r1p_16 (c : Dev nD) : records (F := F) S1c Y2c K ⊢ reached ER (r1Cell (rot c 16) 16 ho_16) 0 := rch_at S1c Y2c K (rot c 16, some (1, (⟨15, by decide⟩ : Fin 31)))
theorem inv_r2p_16 (c : Dev nD) : records (F := F) S1c Y2c K ⊢ cellInv ER (sched (F := F) S1c Y2c) (K (rot c 16, some (3, (⟨15, by decide⟩ : Fin 31)))) (r2Cell (rot c 16) 16 ho_16) := inv_at S1c Y2c K (rot c 16, some (3, (⟨15, by decide⟩ : Fin 31)))
theorem rch_r2p_16 (c : Dev nD) : records (F := F) S1c Y2c K ⊢ reached ER (r2Cell (rot c 16) 16 ho_16) 0 := rch_at S1c Y2c K (rot c 16, some (3, (⟨15, by decide⟩ : Fin 31)))

/-! ## Offset 17 -/

theorem inv_barp_17 (c : Dev nD) : records (F := F) S1c Y2c K ⊢ cellInv ER (sched (F := F) S1c Y2c) (K (rot c 17, none)) (barCell (rot c 17)) := inv_at S1c Y2c K (rot c 17, none)
theorem rch_barp_17 (c : Dev nD) : records (F := F) S1c Y2c K ⊢ reached ER (barCell (rot c 17)) 0 := rch_at S1c Y2c K (rot c 17, none)
theorem inv_s1_17 (c : Dev nD) : records (F := F) S1c Y2c K ⊢ cellInv ER (sched (F := F) S1c Y2c) (K (c, some (0, (⟨16, by decide⟩ : Fin 31)))) (s1Cell c 17 ho_17) := inv_at S1c Y2c K (c, some (0, (⟨16, by decide⟩ : Fin 31)))
theorem rch_s1_17 (c : Dev nD) : records (F := F) S1c Y2c K ⊢ reached ER (s1Cell c 17 ho_17) 0 := rch_at S1c Y2c K (c, some (0, (⟨16, by decide⟩ : Fin 31)))
theorem inv_r1_17 (c : Dev nD) : records (F := F) S1c Y2c K ⊢ cellInv ER (sched (F := F) S1c Y2c) (K (c, some (1, (⟨16, by decide⟩ : Fin 31)))) (r1Cell c 17 ho_17) := inv_at S1c Y2c K (c, some (1, (⟨16, by decide⟩ : Fin 31)))
theorem rch_r1_17 (c : Dev nD) : records (F := F) S1c Y2c K ⊢ reached ER (r1Cell c 17 ho_17) 0 := rch_at S1c Y2c K (c, some (1, (⟨16, by decide⟩ : Fin 31)))
theorem inv_s2_17 (c : Dev nD) : records (F := F) S1c Y2c K ⊢ cellInv ER (sched (F := F) S1c Y2c) (K (c, some (2, (⟨16, by decide⟩ : Fin 31)))) (s2Cell c 17 ho_17) := inv_at S1c Y2c K (c, some (2, (⟨16, by decide⟩ : Fin 31)))
theorem rch_s2_17 (c : Dev nD) : records (F := F) S1c Y2c K ⊢ reached ER (s2Cell c 17 ho_17) 0 := rch_at S1c Y2c K (c, some (2, (⟨16, by decide⟩ : Fin 31)))
theorem inv_r2_17 (c : Dev nD) : records (F := F) S1c Y2c K ⊢ cellInv ER (sched (F := F) S1c Y2c) (K (c, some (3, (⟨16, by decide⟩ : Fin 31)))) (r2Cell c 17 ho_17) := inv_at S1c Y2c K (c, some (3, (⟨16, by decide⟩ : Fin 31)))
theorem rch_r2_17 (c : Dev nD) : records (F := F) S1c Y2c K ⊢ reached ER (r2Cell c 17 ho_17) 0 := rch_at S1c Y2c K (c, some (3, (⟨16, by decide⟩ : Fin 31)))
theorem inv_r1p_17 (c : Dev nD) : records (F := F) S1c Y2c K ⊢ cellInv ER (sched (F := F) S1c Y2c) (K (rot c 17, some (1, (⟨16, by decide⟩ : Fin 31)))) (r1Cell (rot c 17) 17 ho_17) := inv_at S1c Y2c K (rot c 17, some (1, (⟨16, by decide⟩ : Fin 31)))
theorem rch_r1p_17 (c : Dev nD) : records (F := F) S1c Y2c K ⊢ reached ER (r1Cell (rot c 17) 17 ho_17) 0 := rch_at S1c Y2c K (rot c 17, some (1, (⟨16, by decide⟩ : Fin 31)))
theorem inv_r2p_17 (c : Dev nD) : records (F := F) S1c Y2c K ⊢ cellInv ER (sched (F := F) S1c Y2c) (K (rot c 17, some (3, (⟨16, by decide⟩ : Fin 31)))) (r2Cell (rot c 17) 17 ho_17) := inv_at S1c Y2c K (rot c 17, some (3, (⟨16, by decide⟩ : Fin 31)))
theorem rch_r2p_17 (c : Dev nD) : records (F := F) S1c Y2c K ⊢ reached ER (r2Cell (rot c 17) 17 ho_17) 0 := rch_at S1c Y2c K (rot c 17, some (3, (⟨16, by decide⟩ : Fin 31)))

/-! ## Offset 18 -/

theorem inv_barp_18 (c : Dev nD) : records (F := F) S1c Y2c K ⊢ cellInv ER (sched (F := F) S1c Y2c) (K (rot c 18, none)) (barCell (rot c 18)) := inv_at S1c Y2c K (rot c 18, none)
theorem rch_barp_18 (c : Dev nD) : records (F := F) S1c Y2c K ⊢ reached ER (barCell (rot c 18)) 0 := rch_at S1c Y2c K (rot c 18, none)
theorem inv_s1_18 (c : Dev nD) : records (F := F) S1c Y2c K ⊢ cellInv ER (sched (F := F) S1c Y2c) (K (c, some (0, (⟨17, by decide⟩ : Fin 31)))) (s1Cell c 18 ho_18) := inv_at S1c Y2c K (c, some (0, (⟨17, by decide⟩ : Fin 31)))
theorem rch_s1_18 (c : Dev nD) : records (F := F) S1c Y2c K ⊢ reached ER (s1Cell c 18 ho_18) 0 := rch_at S1c Y2c K (c, some (0, (⟨17, by decide⟩ : Fin 31)))
theorem inv_r1_18 (c : Dev nD) : records (F := F) S1c Y2c K ⊢ cellInv ER (sched (F := F) S1c Y2c) (K (c, some (1, (⟨17, by decide⟩ : Fin 31)))) (r1Cell c 18 ho_18) := inv_at S1c Y2c K (c, some (1, (⟨17, by decide⟩ : Fin 31)))
theorem rch_r1_18 (c : Dev nD) : records (F := F) S1c Y2c K ⊢ reached ER (r1Cell c 18 ho_18) 0 := rch_at S1c Y2c K (c, some (1, (⟨17, by decide⟩ : Fin 31)))
theorem inv_s2_18 (c : Dev nD) : records (F := F) S1c Y2c K ⊢ cellInv ER (sched (F := F) S1c Y2c) (K (c, some (2, (⟨17, by decide⟩ : Fin 31)))) (s2Cell c 18 ho_18) := inv_at S1c Y2c K (c, some (2, (⟨17, by decide⟩ : Fin 31)))
theorem rch_s2_18 (c : Dev nD) : records (F := F) S1c Y2c K ⊢ reached ER (s2Cell c 18 ho_18) 0 := rch_at S1c Y2c K (c, some (2, (⟨17, by decide⟩ : Fin 31)))
theorem inv_r2_18 (c : Dev nD) : records (F := F) S1c Y2c K ⊢ cellInv ER (sched (F := F) S1c Y2c) (K (c, some (3, (⟨17, by decide⟩ : Fin 31)))) (r2Cell c 18 ho_18) := inv_at S1c Y2c K (c, some (3, (⟨17, by decide⟩ : Fin 31)))
theorem rch_r2_18 (c : Dev nD) : records (F := F) S1c Y2c K ⊢ reached ER (r2Cell c 18 ho_18) 0 := rch_at S1c Y2c K (c, some (3, (⟨17, by decide⟩ : Fin 31)))
theorem inv_r1p_18 (c : Dev nD) : records (F := F) S1c Y2c K ⊢ cellInv ER (sched (F := F) S1c Y2c) (K (rot c 18, some (1, (⟨17, by decide⟩ : Fin 31)))) (r1Cell (rot c 18) 18 ho_18) := inv_at S1c Y2c K (rot c 18, some (1, (⟨17, by decide⟩ : Fin 31)))
theorem rch_r1p_18 (c : Dev nD) : records (F := F) S1c Y2c K ⊢ reached ER (r1Cell (rot c 18) 18 ho_18) 0 := rch_at S1c Y2c K (rot c 18, some (1, (⟨17, by decide⟩ : Fin 31)))
theorem inv_r2p_18 (c : Dev nD) : records (F := F) S1c Y2c K ⊢ cellInv ER (sched (F := F) S1c Y2c) (K (rot c 18, some (3, (⟨17, by decide⟩ : Fin 31)))) (r2Cell (rot c 18) 18 ho_18) := inv_at S1c Y2c K (rot c 18, some (3, (⟨17, by decide⟩ : Fin 31)))
theorem rch_r2p_18 (c : Dev nD) : records (F := F) S1c Y2c K ⊢ reached ER (r2Cell (rot c 18) 18 ho_18) 0 := rch_at S1c Y2c K (rot c 18, some (3, (⟨17, by decide⟩ : Fin 31)))

/-! ## Offset 19 -/

theorem inv_barp_19 (c : Dev nD) : records (F := F) S1c Y2c K ⊢ cellInv ER (sched (F := F) S1c Y2c) (K (rot c 19, none)) (barCell (rot c 19)) := inv_at S1c Y2c K (rot c 19, none)
theorem rch_barp_19 (c : Dev nD) : records (F := F) S1c Y2c K ⊢ reached ER (barCell (rot c 19)) 0 := rch_at S1c Y2c K (rot c 19, none)
theorem inv_s1_19 (c : Dev nD) : records (F := F) S1c Y2c K ⊢ cellInv ER (sched (F := F) S1c Y2c) (K (c, some (0, (⟨18, by decide⟩ : Fin 31)))) (s1Cell c 19 ho_19) := inv_at S1c Y2c K (c, some (0, (⟨18, by decide⟩ : Fin 31)))
theorem rch_s1_19 (c : Dev nD) : records (F := F) S1c Y2c K ⊢ reached ER (s1Cell c 19 ho_19) 0 := rch_at S1c Y2c K (c, some (0, (⟨18, by decide⟩ : Fin 31)))
theorem inv_r1_19 (c : Dev nD) : records (F := F) S1c Y2c K ⊢ cellInv ER (sched (F := F) S1c Y2c) (K (c, some (1, (⟨18, by decide⟩ : Fin 31)))) (r1Cell c 19 ho_19) := inv_at S1c Y2c K (c, some (1, (⟨18, by decide⟩ : Fin 31)))
theorem rch_r1_19 (c : Dev nD) : records (F := F) S1c Y2c K ⊢ reached ER (r1Cell c 19 ho_19) 0 := rch_at S1c Y2c K (c, some (1, (⟨18, by decide⟩ : Fin 31)))
theorem inv_s2_19 (c : Dev nD) : records (F := F) S1c Y2c K ⊢ cellInv ER (sched (F := F) S1c Y2c) (K (c, some (2, (⟨18, by decide⟩ : Fin 31)))) (s2Cell c 19 ho_19) := inv_at S1c Y2c K (c, some (2, (⟨18, by decide⟩ : Fin 31)))
theorem rch_s2_19 (c : Dev nD) : records (F := F) S1c Y2c K ⊢ reached ER (s2Cell c 19 ho_19) 0 := rch_at S1c Y2c K (c, some (2, (⟨18, by decide⟩ : Fin 31)))
theorem inv_r2_19 (c : Dev nD) : records (F := F) S1c Y2c K ⊢ cellInv ER (sched (F := F) S1c Y2c) (K (c, some (3, (⟨18, by decide⟩ : Fin 31)))) (r2Cell c 19 ho_19) := inv_at S1c Y2c K (c, some (3, (⟨18, by decide⟩ : Fin 31)))
theorem rch_r2_19 (c : Dev nD) : records (F := F) S1c Y2c K ⊢ reached ER (r2Cell c 19 ho_19) 0 := rch_at S1c Y2c K (c, some (3, (⟨18, by decide⟩ : Fin 31)))
theorem inv_r1p_19 (c : Dev nD) : records (F := F) S1c Y2c K ⊢ cellInv ER (sched (F := F) S1c Y2c) (K (rot c 19, some (1, (⟨18, by decide⟩ : Fin 31)))) (r1Cell (rot c 19) 19 ho_19) := inv_at S1c Y2c K (rot c 19, some (1, (⟨18, by decide⟩ : Fin 31)))
theorem rch_r1p_19 (c : Dev nD) : records (F := F) S1c Y2c K ⊢ reached ER (r1Cell (rot c 19) 19 ho_19) 0 := rch_at S1c Y2c K (rot c 19, some (1, (⟨18, by decide⟩ : Fin 31)))
theorem inv_r2p_19 (c : Dev nD) : records (F := F) S1c Y2c K ⊢ cellInv ER (sched (F := F) S1c Y2c) (K (rot c 19, some (3, (⟨18, by decide⟩ : Fin 31)))) (r2Cell (rot c 19) 19 ho_19) := inv_at S1c Y2c K (rot c 19, some (3, (⟨18, by decide⟩ : Fin 31)))
theorem rch_r2p_19 (c : Dev nD) : records (F := F) S1c Y2c K ⊢ reached ER (r2Cell (rot c 19) 19 ho_19) 0 := rch_at S1c Y2c K (rot c 19, some (3, (⟨18, by decide⟩ : Fin 31)))

/-! ## Offset 20 -/

theorem inv_barp_20 (c : Dev nD) : records (F := F) S1c Y2c K ⊢ cellInv ER (sched (F := F) S1c Y2c) (K (rot c 20, none)) (barCell (rot c 20)) := inv_at S1c Y2c K (rot c 20, none)
theorem rch_barp_20 (c : Dev nD) : records (F := F) S1c Y2c K ⊢ reached ER (barCell (rot c 20)) 0 := rch_at S1c Y2c K (rot c 20, none)
theorem inv_s1_20 (c : Dev nD) : records (F := F) S1c Y2c K ⊢ cellInv ER (sched (F := F) S1c Y2c) (K (c, some (0, (⟨19, by decide⟩ : Fin 31)))) (s1Cell c 20 ho_20) := inv_at S1c Y2c K (c, some (0, (⟨19, by decide⟩ : Fin 31)))
theorem rch_s1_20 (c : Dev nD) : records (F := F) S1c Y2c K ⊢ reached ER (s1Cell c 20 ho_20) 0 := rch_at S1c Y2c K (c, some (0, (⟨19, by decide⟩ : Fin 31)))
theorem inv_r1_20 (c : Dev nD) : records (F := F) S1c Y2c K ⊢ cellInv ER (sched (F := F) S1c Y2c) (K (c, some (1, (⟨19, by decide⟩ : Fin 31)))) (r1Cell c 20 ho_20) := inv_at S1c Y2c K (c, some (1, (⟨19, by decide⟩ : Fin 31)))
theorem rch_r1_20 (c : Dev nD) : records (F := F) S1c Y2c K ⊢ reached ER (r1Cell c 20 ho_20) 0 := rch_at S1c Y2c K (c, some (1, (⟨19, by decide⟩ : Fin 31)))
theorem inv_s2_20 (c : Dev nD) : records (F := F) S1c Y2c K ⊢ cellInv ER (sched (F := F) S1c Y2c) (K (c, some (2, (⟨19, by decide⟩ : Fin 31)))) (s2Cell c 20 ho_20) := inv_at S1c Y2c K (c, some (2, (⟨19, by decide⟩ : Fin 31)))
theorem rch_s2_20 (c : Dev nD) : records (F := F) S1c Y2c K ⊢ reached ER (s2Cell c 20 ho_20) 0 := rch_at S1c Y2c K (c, some (2, (⟨19, by decide⟩ : Fin 31)))
theorem inv_r2_20 (c : Dev nD) : records (F := F) S1c Y2c K ⊢ cellInv ER (sched (F := F) S1c Y2c) (K (c, some (3, (⟨19, by decide⟩ : Fin 31)))) (r2Cell c 20 ho_20) := inv_at S1c Y2c K (c, some (3, (⟨19, by decide⟩ : Fin 31)))
theorem rch_r2_20 (c : Dev nD) : records (F := F) S1c Y2c K ⊢ reached ER (r2Cell c 20 ho_20) 0 := rch_at S1c Y2c K (c, some (3, (⟨19, by decide⟩ : Fin 31)))
theorem inv_r1p_20 (c : Dev nD) : records (F := F) S1c Y2c K ⊢ cellInv ER (sched (F := F) S1c Y2c) (K (rot c 20, some (1, (⟨19, by decide⟩ : Fin 31)))) (r1Cell (rot c 20) 20 ho_20) := inv_at S1c Y2c K (rot c 20, some (1, (⟨19, by decide⟩ : Fin 31)))
theorem rch_r1p_20 (c : Dev nD) : records (F := F) S1c Y2c K ⊢ reached ER (r1Cell (rot c 20) 20 ho_20) 0 := rch_at S1c Y2c K (rot c 20, some (1, (⟨19, by decide⟩ : Fin 31)))
theorem inv_r2p_20 (c : Dev nD) : records (F := F) S1c Y2c K ⊢ cellInv ER (sched (F := F) S1c Y2c) (K (rot c 20, some (3, (⟨19, by decide⟩ : Fin 31)))) (r2Cell (rot c 20) 20 ho_20) := inv_at S1c Y2c K (rot c 20, some (3, (⟨19, by decide⟩ : Fin 31)))
theorem rch_r2p_20 (c : Dev nD) : records (F := F) S1c Y2c K ⊢ reached ER (r2Cell (rot c 20) 20 ho_20) 0 := rch_at S1c Y2c K (rot c 20, some (3, (⟨19, by decide⟩ : Fin 31)))

/-! ## Offset 21 -/

theorem inv_barp_21 (c : Dev nD) : records (F := F) S1c Y2c K ⊢ cellInv ER (sched (F := F) S1c Y2c) (K (rot c 21, none)) (barCell (rot c 21)) := inv_at S1c Y2c K (rot c 21, none)
theorem rch_barp_21 (c : Dev nD) : records (F := F) S1c Y2c K ⊢ reached ER (barCell (rot c 21)) 0 := rch_at S1c Y2c K (rot c 21, none)
theorem inv_s1_21 (c : Dev nD) : records (F := F) S1c Y2c K ⊢ cellInv ER (sched (F := F) S1c Y2c) (K (c, some (0, (⟨20, by decide⟩ : Fin 31)))) (s1Cell c 21 ho_21) := inv_at S1c Y2c K (c, some (0, (⟨20, by decide⟩ : Fin 31)))
theorem rch_s1_21 (c : Dev nD) : records (F := F) S1c Y2c K ⊢ reached ER (s1Cell c 21 ho_21) 0 := rch_at S1c Y2c K (c, some (0, (⟨20, by decide⟩ : Fin 31)))
theorem inv_r1_21 (c : Dev nD) : records (F := F) S1c Y2c K ⊢ cellInv ER (sched (F := F) S1c Y2c) (K (c, some (1, (⟨20, by decide⟩ : Fin 31)))) (r1Cell c 21 ho_21) := inv_at S1c Y2c K (c, some (1, (⟨20, by decide⟩ : Fin 31)))
theorem rch_r1_21 (c : Dev nD) : records (F := F) S1c Y2c K ⊢ reached ER (r1Cell c 21 ho_21) 0 := rch_at S1c Y2c K (c, some (1, (⟨20, by decide⟩ : Fin 31)))
theorem inv_s2_21 (c : Dev nD) : records (F := F) S1c Y2c K ⊢ cellInv ER (sched (F := F) S1c Y2c) (K (c, some (2, (⟨20, by decide⟩ : Fin 31)))) (s2Cell c 21 ho_21) := inv_at S1c Y2c K (c, some (2, (⟨20, by decide⟩ : Fin 31)))
theorem rch_s2_21 (c : Dev nD) : records (F := F) S1c Y2c K ⊢ reached ER (s2Cell c 21 ho_21) 0 := rch_at S1c Y2c K (c, some (2, (⟨20, by decide⟩ : Fin 31)))
theorem inv_r2_21 (c : Dev nD) : records (F := F) S1c Y2c K ⊢ cellInv ER (sched (F := F) S1c Y2c) (K (c, some (3, (⟨20, by decide⟩ : Fin 31)))) (r2Cell c 21 ho_21) := inv_at S1c Y2c K (c, some (3, (⟨20, by decide⟩ : Fin 31)))
theorem rch_r2_21 (c : Dev nD) : records (F := F) S1c Y2c K ⊢ reached ER (r2Cell c 21 ho_21) 0 := rch_at S1c Y2c K (c, some (3, (⟨20, by decide⟩ : Fin 31)))
theorem inv_r1p_21 (c : Dev nD) : records (F := F) S1c Y2c K ⊢ cellInv ER (sched (F := F) S1c Y2c) (K (rot c 21, some (1, (⟨20, by decide⟩ : Fin 31)))) (r1Cell (rot c 21) 21 ho_21) := inv_at S1c Y2c K (rot c 21, some (1, (⟨20, by decide⟩ : Fin 31)))
theorem rch_r1p_21 (c : Dev nD) : records (F := F) S1c Y2c K ⊢ reached ER (r1Cell (rot c 21) 21 ho_21) 0 := rch_at S1c Y2c K (rot c 21, some (1, (⟨20, by decide⟩ : Fin 31)))
theorem inv_r2p_21 (c : Dev nD) : records (F := F) S1c Y2c K ⊢ cellInv ER (sched (F := F) S1c Y2c) (K (rot c 21, some (3, (⟨20, by decide⟩ : Fin 31)))) (r2Cell (rot c 21) 21 ho_21) := inv_at S1c Y2c K (rot c 21, some (3, (⟨20, by decide⟩ : Fin 31)))
theorem rch_r2p_21 (c : Dev nD) : records (F := F) S1c Y2c K ⊢ reached ER (r2Cell (rot c 21) 21 ho_21) 0 := rch_at S1c Y2c K (rot c 21, some (3, (⟨20, by decide⟩ : Fin 31)))

/-! ## Offset 22 -/

theorem inv_barp_22 (c : Dev nD) : records (F := F) S1c Y2c K ⊢ cellInv ER (sched (F := F) S1c Y2c) (K (rot c 22, none)) (barCell (rot c 22)) := inv_at S1c Y2c K (rot c 22, none)
theorem rch_barp_22 (c : Dev nD) : records (F := F) S1c Y2c K ⊢ reached ER (barCell (rot c 22)) 0 := rch_at S1c Y2c K (rot c 22, none)
theorem inv_s1_22 (c : Dev nD) : records (F := F) S1c Y2c K ⊢ cellInv ER (sched (F := F) S1c Y2c) (K (c, some (0, (⟨21, by decide⟩ : Fin 31)))) (s1Cell c 22 ho_22) := inv_at S1c Y2c K (c, some (0, (⟨21, by decide⟩ : Fin 31)))
theorem rch_s1_22 (c : Dev nD) : records (F := F) S1c Y2c K ⊢ reached ER (s1Cell c 22 ho_22) 0 := rch_at S1c Y2c K (c, some (0, (⟨21, by decide⟩ : Fin 31)))
theorem inv_r1_22 (c : Dev nD) : records (F := F) S1c Y2c K ⊢ cellInv ER (sched (F := F) S1c Y2c) (K (c, some (1, (⟨21, by decide⟩ : Fin 31)))) (r1Cell c 22 ho_22) := inv_at S1c Y2c K (c, some (1, (⟨21, by decide⟩ : Fin 31)))
theorem rch_r1_22 (c : Dev nD) : records (F := F) S1c Y2c K ⊢ reached ER (r1Cell c 22 ho_22) 0 := rch_at S1c Y2c K (c, some (1, (⟨21, by decide⟩ : Fin 31)))
theorem inv_s2_22 (c : Dev nD) : records (F := F) S1c Y2c K ⊢ cellInv ER (sched (F := F) S1c Y2c) (K (c, some (2, (⟨21, by decide⟩ : Fin 31)))) (s2Cell c 22 ho_22) := inv_at S1c Y2c K (c, some (2, (⟨21, by decide⟩ : Fin 31)))
theorem rch_s2_22 (c : Dev nD) : records (F := F) S1c Y2c K ⊢ reached ER (s2Cell c 22 ho_22) 0 := rch_at S1c Y2c K (c, some (2, (⟨21, by decide⟩ : Fin 31)))
theorem inv_r2_22 (c : Dev nD) : records (F := F) S1c Y2c K ⊢ cellInv ER (sched (F := F) S1c Y2c) (K (c, some (3, (⟨21, by decide⟩ : Fin 31)))) (r2Cell c 22 ho_22) := inv_at S1c Y2c K (c, some (3, (⟨21, by decide⟩ : Fin 31)))
theorem rch_r2_22 (c : Dev nD) : records (F := F) S1c Y2c K ⊢ reached ER (r2Cell c 22 ho_22) 0 := rch_at S1c Y2c K (c, some (3, (⟨21, by decide⟩ : Fin 31)))
theorem inv_r1p_22 (c : Dev nD) : records (F := F) S1c Y2c K ⊢ cellInv ER (sched (F := F) S1c Y2c) (K (rot c 22, some (1, (⟨21, by decide⟩ : Fin 31)))) (r1Cell (rot c 22) 22 ho_22) := inv_at S1c Y2c K (rot c 22, some (1, (⟨21, by decide⟩ : Fin 31)))
theorem rch_r1p_22 (c : Dev nD) : records (F := F) S1c Y2c K ⊢ reached ER (r1Cell (rot c 22) 22 ho_22) 0 := rch_at S1c Y2c K (rot c 22, some (1, (⟨21, by decide⟩ : Fin 31)))
theorem inv_r2p_22 (c : Dev nD) : records (F := F) S1c Y2c K ⊢ cellInv ER (sched (F := F) S1c Y2c) (K (rot c 22, some (3, (⟨21, by decide⟩ : Fin 31)))) (r2Cell (rot c 22) 22 ho_22) := inv_at S1c Y2c K (rot c 22, some (3, (⟨21, by decide⟩ : Fin 31)))
theorem rch_r2p_22 (c : Dev nD) : records (F := F) S1c Y2c K ⊢ reached ER (r2Cell (rot c 22) 22 ho_22) 0 := rch_at S1c Y2c K (rot c 22, some (3, (⟨21, by decide⟩ : Fin 31)))

/-! ## Offset 23 -/

theorem inv_barp_23 (c : Dev nD) : records (F := F) S1c Y2c K ⊢ cellInv ER (sched (F := F) S1c Y2c) (K (rot c 23, none)) (barCell (rot c 23)) := inv_at S1c Y2c K (rot c 23, none)
theorem rch_barp_23 (c : Dev nD) : records (F := F) S1c Y2c K ⊢ reached ER (barCell (rot c 23)) 0 := rch_at S1c Y2c K (rot c 23, none)
theorem inv_s1_23 (c : Dev nD) : records (F := F) S1c Y2c K ⊢ cellInv ER (sched (F := F) S1c Y2c) (K (c, some (0, (⟨22, by decide⟩ : Fin 31)))) (s1Cell c 23 ho_23) := inv_at S1c Y2c K (c, some (0, (⟨22, by decide⟩ : Fin 31)))
theorem rch_s1_23 (c : Dev nD) : records (F := F) S1c Y2c K ⊢ reached ER (s1Cell c 23 ho_23) 0 := rch_at S1c Y2c K (c, some (0, (⟨22, by decide⟩ : Fin 31)))
theorem inv_r1_23 (c : Dev nD) : records (F := F) S1c Y2c K ⊢ cellInv ER (sched (F := F) S1c Y2c) (K (c, some (1, (⟨22, by decide⟩ : Fin 31)))) (r1Cell c 23 ho_23) := inv_at S1c Y2c K (c, some (1, (⟨22, by decide⟩ : Fin 31)))
theorem rch_r1_23 (c : Dev nD) : records (F := F) S1c Y2c K ⊢ reached ER (r1Cell c 23 ho_23) 0 := rch_at S1c Y2c K (c, some (1, (⟨22, by decide⟩ : Fin 31)))
theorem inv_s2_23 (c : Dev nD) : records (F := F) S1c Y2c K ⊢ cellInv ER (sched (F := F) S1c Y2c) (K (c, some (2, (⟨22, by decide⟩ : Fin 31)))) (s2Cell c 23 ho_23) := inv_at S1c Y2c K (c, some (2, (⟨22, by decide⟩ : Fin 31)))
theorem rch_s2_23 (c : Dev nD) : records (F := F) S1c Y2c K ⊢ reached ER (s2Cell c 23 ho_23) 0 := rch_at S1c Y2c K (c, some (2, (⟨22, by decide⟩ : Fin 31)))
theorem inv_r2_23 (c : Dev nD) : records (F := F) S1c Y2c K ⊢ cellInv ER (sched (F := F) S1c Y2c) (K (c, some (3, (⟨22, by decide⟩ : Fin 31)))) (r2Cell c 23 ho_23) := inv_at S1c Y2c K (c, some (3, (⟨22, by decide⟩ : Fin 31)))
theorem rch_r2_23 (c : Dev nD) : records (F := F) S1c Y2c K ⊢ reached ER (r2Cell c 23 ho_23) 0 := rch_at S1c Y2c K (c, some (3, (⟨22, by decide⟩ : Fin 31)))
theorem inv_r1p_23 (c : Dev nD) : records (F := F) S1c Y2c K ⊢ cellInv ER (sched (F := F) S1c Y2c) (K (rot c 23, some (1, (⟨22, by decide⟩ : Fin 31)))) (r1Cell (rot c 23) 23 ho_23) := inv_at S1c Y2c K (rot c 23, some (1, (⟨22, by decide⟩ : Fin 31)))
theorem rch_r1p_23 (c : Dev nD) : records (F := F) S1c Y2c K ⊢ reached ER (r1Cell (rot c 23) 23 ho_23) 0 := rch_at S1c Y2c K (rot c 23, some (1, (⟨22, by decide⟩ : Fin 31)))
theorem inv_r2p_23 (c : Dev nD) : records (F := F) S1c Y2c K ⊢ cellInv ER (sched (F := F) S1c Y2c) (K (rot c 23, some (3, (⟨22, by decide⟩ : Fin 31)))) (r2Cell (rot c 23) 23 ho_23) := inv_at S1c Y2c K (rot c 23, some (3, (⟨22, by decide⟩ : Fin 31)))
theorem rch_r2p_23 (c : Dev nD) : records (F := F) S1c Y2c K ⊢ reached ER (r2Cell (rot c 23) 23 ho_23) 0 := rch_at S1c Y2c K (rot c 23, some (3, (⟨22, by decide⟩ : Fin 31)))

/-! ## Offset 24 -/

theorem inv_barp_24 (c : Dev nD) : records (F := F) S1c Y2c K ⊢ cellInv ER (sched (F := F) S1c Y2c) (K (rot c 24, none)) (barCell (rot c 24)) := inv_at S1c Y2c K (rot c 24, none)
theorem rch_barp_24 (c : Dev nD) : records (F := F) S1c Y2c K ⊢ reached ER (barCell (rot c 24)) 0 := rch_at S1c Y2c K (rot c 24, none)
theorem inv_s1_24 (c : Dev nD) : records (F := F) S1c Y2c K ⊢ cellInv ER (sched (F := F) S1c Y2c) (K (c, some (0, (⟨23, by decide⟩ : Fin 31)))) (s1Cell c 24 ho_24) := inv_at S1c Y2c K (c, some (0, (⟨23, by decide⟩ : Fin 31)))
theorem rch_s1_24 (c : Dev nD) : records (F := F) S1c Y2c K ⊢ reached ER (s1Cell c 24 ho_24) 0 := rch_at S1c Y2c K (c, some (0, (⟨23, by decide⟩ : Fin 31)))
theorem inv_r1_24 (c : Dev nD) : records (F := F) S1c Y2c K ⊢ cellInv ER (sched (F := F) S1c Y2c) (K (c, some (1, (⟨23, by decide⟩ : Fin 31)))) (r1Cell c 24 ho_24) := inv_at S1c Y2c K (c, some (1, (⟨23, by decide⟩ : Fin 31)))
theorem rch_r1_24 (c : Dev nD) : records (F := F) S1c Y2c K ⊢ reached ER (r1Cell c 24 ho_24) 0 := rch_at S1c Y2c K (c, some (1, (⟨23, by decide⟩ : Fin 31)))
theorem inv_s2_24 (c : Dev nD) : records (F := F) S1c Y2c K ⊢ cellInv ER (sched (F := F) S1c Y2c) (K (c, some (2, (⟨23, by decide⟩ : Fin 31)))) (s2Cell c 24 ho_24) := inv_at S1c Y2c K (c, some (2, (⟨23, by decide⟩ : Fin 31)))
theorem rch_s2_24 (c : Dev nD) : records (F := F) S1c Y2c K ⊢ reached ER (s2Cell c 24 ho_24) 0 := rch_at S1c Y2c K (c, some (2, (⟨23, by decide⟩ : Fin 31)))
theorem inv_r2_24 (c : Dev nD) : records (F := F) S1c Y2c K ⊢ cellInv ER (sched (F := F) S1c Y2c) (K (c, some (3, (⟨23, by decide⟩ : Fin 31)))) (r2Cell c 24 ho_24) := inv_at S1c Y2c K (c, some (3, (⟨23, by decide⟩ : Fin 31)))
theorem rch_r2_24 (c : Dev nD) : records (F := F) S1c Y2c K ⊢ reached ER (r2Cell c 24 ho_24) 0 := rch_at S1c Y2c K (c, some (3, (⟨23, by decide⟩ : Fin 31)))
theorem inv_r1p_24 (c : Dev nD) : records (F := F) S1c Y2c K ⊢ cellInv ER (sched (F := F) S1c Y2c) (K (rot c 24, some (1, (⟨23, by decide⟩ : Fin 31)))) (r1Cell (rot c 24) 24 ho_24) := inv_at S1c Y2c K (rot c 24, some (1, (⟨23, by decide⟩ : Fin 31)))
theorem rch_r1p_24 (c : Dev nD) : records (F := F) S1c Y2c K ⊢ reached ER (r1Cell (rot c 24) 24 ho_24) 0 := rch_at S1c Y2c K (rot c 24, some (1, (⟨23, by decide⟩ : Fin 31)))
theorem inv_r2p_24 (c : Dev nD) : records (F := F) S1c Y2c K ⊢ cellInv ER (sched (F := F) S1c Y2c) (K (rot c 24, some (3, (⟨23, by decide⟩ : Fin 31)))) (r2Cell (rot c 24) 24 ho_24) := inv_at S1c Y2c K (rot c 24, some (3, (⟨23, by decide⟩ : Fin 31)))
theorem rch_r2p_24 (c : Dev nD) : records (F := F) S1c Y2c K ⊢ reached ER (r2Cell (rot c 24) 24 ho_24) 0 := rch_at S1c Y2c K (rot c 24, some (3, (⟨23, by decide⟩ : Fin 31)))

/-! ## Offset 25 -/

theorem inv_barp_25 (c : Dev nD) : records (F := F) S1c Y2c K ⊢ cellInv ER (sched (F := F) S1c Y2c) (K (rot c 25, none)) (barCell (rot c 25)) := inv_at S1c Y2c K (rot c 25, none)
theorem rch_barp_25 (c : Dev nD) : records (F := F) S1c Y2c K ⊢ reached ER (barCell (rot c 25)) 0 := rch_at S1c Y2c K (rot c 25, none)
theorem inv_s1_25 (c : Dev nD) : records (F := F) S1c Y2c K ⊢ cellInv ER (sched (F := F) S1c Y2c) (K (c, some (0, (⟨24, by decide⟩ : Fin 31)))) (s1Cell c 25 ho_25) := inv_at S1c Y2c K (c, some (0, (⟨24, by decide⟩ : Fin 31)))
theorem rch_s1_25 (c : Dev nD) : records (F := F) S1c Y2c K ⊢ reached ER (s1Cell c 25 ho_25) 0 := rch_at S1c Y2c K (c, some (0, (⟨24, by decide⟩ : Fin 31)))
theorem inv_r1_25 (c : Dev nD) : records (F := F) S1c Y2c K ⊢ cellInv ER (sched (F := F) S1c Y2c) (K (c, some (1, (⟨24, by decide⟩ : Fin 31)))) (r1Cell c 25 ho_25) := inv_at S1c Y2c K (c, some (1, (⟨24, by decide⟩ : Fin 31)))
theorem rch_r1_25 (c : Dev nD) : records (F := F) S1c Y2c K ⊢ reached ER (r1Cell c 25 ho_25) 0 := rch_at S1c Y2c K (c, some (1, (⟨24, by decide⟩ : Fin 31)))
theorem inv_s2_25 (c : Dev nD) : records (F := F) S1c Y2c K ⊢ cellInv ER (sched (F := F) S1c Y2c) (K (c, some (2, (⟨24, by decide⟩ : Fin 31)))) (s2Cell c 25 ho_25) := inv_at S1c Y2c K (c, some (2, (⟨24, by decide⟩ : Fin 31)))
theorem rch_s2_25 (c : Dev nD) : records (F := F) S1c Y2c K ⊢ reached ER (s2Cell c 25 ho_25) 0 := rch_at S1c Y2c K (c, some (2, (⟨24, by decide⟩ : Fin 31)))
theorem inv_r2_25 (c : Dev nD) : records (F := F) S1c Y2c K ⊢ cellInv ER (sched (F := F) S1c Y2c) (K (c, some (3, (⟨24, by decide⟩ : Fin 31)))) (r2Cell c 25 ho_25) := inv_at S1c Y2c K (c, some (3, (⟨24, by decide⟩ : Fin 31)))
theorem rch_r2_25 (c : Dev nD) : records (F := F) S1c Y2c K ⊢ reached ER (r2Cell c 25 ho_25) 0 := rch_at S1c Y2c K (c, some (3, (⟨24, by decide⟩ : Fin 31)))
theorem inv_r1p_25 (c : Dev nD) : records (F := F) S1c Y2c K ⊢ cellInv ER (sched (F := F) S1c Y2c) (K (rot c 25, some (1, (⟨24, by decide⟩ : Fin 31)))) (r1Cell (rot c 25) 25 ho_25) := inv_at S1c Y2c K (rot c 25, some (1, (⟨24, by decide⟩ : Fin 31)))
theorem rch_r1p_25 (c : Dev nD) : records (F := F) S1c Y2c K ⊢ reached ER (r1Cell (rot c 25) 25 ho_25) 0 := rch_at S1c Y2c K (rot c 25, some (1, (⟨24, by decide⟩ : Fin 31)))
theorem inv_r2p_25 (c : Dev nD) : records (F := F) S1c Y2c K ⊢ cellInv ER (sched (F := F) S1c Y2c) (K (rot c 25, some (3, (⟨24, by decide⟩ : Fin 31)))) (r2Cell (rot c 25) 25 ho_25) := inv_at S1c Y2c K (rot c 25, some (3, (⟨24, by decide⟩ : Fin 31)))
theorem rch_r2p_25 (c : Dev nD) : records (F := F) S1c Y2c K ⊢ reached ER (r2Cell (rot c 25) 25 ho_25) 0 := rch_at S1c Y2c K (rot c 25, some (3, (⟨24, by decide⟩ : Fin 31)))

/-! ## Offset 26 -/

theorem inv_barp_26 (c : Dev nD) : records (F := F) S1c Y2c K ⊢ cellInv ER (sched (F := F) S1c Y2c) (K (rot c 26, none)) (barCell (rot c 26)) := inv_at S1c Y2c K (rot c 26, none)
theorem rch_barp_26 (c : Dev nD) : records (F := F) S1c Y2c K ⊢ reached ER (barCell (rot c 26)) 0 := rch_at S1c Y2c K (rot c 26, none)
theorem inv_s1_26 (c : Dev nD) : records (F := F) S1c Y2c K ⊢ cellInv ER (sched (F := F) S1c Y2c) (K (c, some (0, (⟨25, by decide⟩ : Fin 31)))) (s1Cell c 26 ho_26) := inv_at S1c Y2c K (c, some (0, (⟨25, by decide⟩ : Fin 31)))
theorem rch_s1_26 (c : Dev nD) : records (F := F) S1c Y2c K ⊢ reached ER (s1Cell c 26 ho_26) 0 := rch_at S1c Y2c K (c, some (0, (⟨25, by decide⟩ : Fin 31)))
theorem inv_r1_26 (c : Dev nD) : records (F := F) S1c Y2c K ⊢ cellInv ER (sched (F := F) S1c Y2c) (K (c, some (1, (⟨25, by decide⟩ : Fin 31)))) (r1Cell c 26 ho_26) := inv_at S1c Y2c K (c, some (1, (⟨25, by decide⟩ : Fin 31)))
theorem rch_r1_26 (c : Dev nD) : records (F := F) S1c Y2c K ⊢ reached ER (r1Cell c 26 ho_26) 0 := rch_at S1c Y2c K (c, some (1, (⟨25, by decide⟩ : Fin 31)))
theorem inv_s2_26 (c : Dev nD) : records (F := F) S1c Y2c K ⊢ cellInv ER (sched (F := F) S1c Y2c) (K (c, some (2, (⟨25, by decide⟩ : Fin 31)))) (s2Cell c 26 ho_26) := inv_at S1c Y2c K (c, some (2, (⟨25, by decide⟩ : Fin 31)))
theorem rch_s2_26 (c : Dev nD) : records (F := F) S1c Y2c K ⊢ reached ER (s2Cell c 26 ho_26) 0 := rch_at S1c Y2c K (c, some (2, (⟨25, by decide⟩ : Fin 31)))
theorem inv_r2_26 (c : Dev nD) : records (F := F) S1c Y2c K ⊢ cellInv ER (sched (F := F) S1c Y2c) (K (c, some (3, (⟨25, by decide⟩ : Fin 31)))) (r2Cell c 26 ho_26) := inv_at S1c Y2c K (c, some (3, (⟨25, by decide⟩ : Fin 31)))
theorem rch_r2_26 (c : Dev nD) : records (F := F) S1c Y2c K ⊢ reached ER (r2Cell c 26 ho_26) 0 := rch_at S1c Y2c K (c, some (3, (⟨25, by decide⟩ : Fin 31)))
theorem inv_r1p_26 (c : Dev nD) : records (F := F) S1c Y2c K ⊢ cellInv ER (sched (F := F) S1c Y2c) (K (rot c 26, some (1, (⟨25, by decide⟩ : Fin 31)))) (r1Cell (rot c 26) 26 ho_26) := inv_at S1c Y2c K (rot c 26, some (1, (⟨25, by decide⟩ : Fin 31)))
theorem rch_r1p_26 (c : Dev nD) : records (F := F) S1c Y2c K ⊢ reached ER (r1Cell (rot c 26) 26 ho_26) 0 := rch_at S1c Y2c K (rot c 26, some (1, (⟨25, by decide⟩ : Fin 31)))
theorem inv_r2p_26 (c : Dev nD) : records (F := F) S1c Y2c K ⊢ cellInv ER (sched (F := F) S1c Y2c) (K (rot c 26, some (3, (⟨25, by decide⟩ : Fin 31)))) (r2Cell (rot c 26) 26 ho_26) := inv_at S1c Y2c K (rot c 26, some (3, (⟨25, by decide⟩ : Fin 31)))
theorem rch_r2p_26 (c : Dev nD) : records (F := F) S1c Y2c K ⊢ reached ER (r2Cell (rot c 26) 26 ho_26) 0 := rch_at S1c Y2c K (rot c 26, some (3, (⟨25, by decide⟩ : Fin 31)))

/-! ## Offset 27 -/

theorem inv_barp_27 (c : Dev nD) : records (F := F) S1c Y2c K ⊢ cellInv ER (sched (F := F) S1c Y2c) (K (rot c 27, none)) (barCell (rot c 27)) := inv_at S1c Y2c K (rot c 27, none)
theorem rch_barp_27 (c : Dev nD) : records (F := F) S1c Y2c K ⊢ reached ER (barCell (rot c 27)) 0 := rch_at S1c Y2c K (rot c 27, none)
theorem inv_s1_27 (c : Dev nD) : records (F := F) S1c Y2c K ⊢ cellInv ER (sched (F := F) S1c Y2c) (K (c, some (0, (⟨26, by decide⟩ : Fin 31)))) (s1Cell c 27 ho_27) := inv_at S1c Y2c K (c, some (0, (⟨26, by decide⟩ : Fin 31)))
theorem rch_s1_27 (c : Dev nD) : records (F := F) S1c Y2c K ⊢ reached ER (s1Cell c 27 ho_27) 0 := rch_at S1c Y2c K (c, some (0, (⟨26, by decide⟩ : Fin 31)))
theorem inv_r1_27 (c : Dev nD) : records (F := F) S1c Y2c K ⊢ cellInv ER (sched (F := F) S1c Y2c) (K (c, some (1, (⟨26, by decide⟩ : Fin 31)))) (r1Cell c 27 ho_27) := inv_at S1c Y2c K (c, some (1, (⟨26, by decide⟩ : Fin 31)))
theorem rch_r1_27 (c : Dev nD) : records (F := F) S1c Y2c K ⊢ reached ER (r1Cell c 27 ho_27) 0 := rch_at S1c Y2c K (c, some (1, (⟨26, by decide⟩ : Fin 31)))
theorem inv_s2_27 (c : Dev nD) : records (F := F) S1c Y2c K ⊢ cellInv ER (sched (F := F) S1c Y2c) (K (c, some (2, (⟨26, by decide⟩ : Fin 31)))) (s2Cell c 27 ho_27) := inv_at S1c Y2c K (c, some (2, (⟨26, by decide⟩ : Fin 31)))
theorem rch_s2_27 (c : Dev nD) : records (F := F) S1c Y2c K ⊢ reached ER (s2Cell c 27 ho_27) 0 := rch_at S1c Y2c K (c, some (2, (⟨26, by decide⟩ : Fin 31)))
theorem inv_r2_27 (c : Dev nD) : records (F := F) S1c Y2c K ⊢ cellInv ER (sched (F := F) S1c Y2c) (K (c, some (3, (⟨26, by decide⟩ : Fin 31)))) (r2Cell c 27 ho_27) := inv_at S1c Y2c K (c, some (3, (⟨26, by decide⟩ : Fin 31)))
theorem rch_r2_27 (c : Dev nD) : records (F := F) S1c Y2c K ⊢ reached ER (r2Cell c 27 ho_27) 0 := rch_at S1c Y2c K (c, some (3, (⟨26, by decide⟩ : Fin 31)))
theorem inv_r1p_27 (c : Dev nD) : records (F := F) S1c Y2c K ⊢ cellInv ER (sched (F := F) S1c Y2c) (K (rot c 27, some (1, (⟨26, by decide⟩ : Fin 31)))) (r1Cell (rot c 27) 27 ho_27) := inv_at S1c Y2c K (rot c 27, some (1, (⟨26, by decide⟩ : Fin 31)))
theorem rch_r1p_27 (c : Dev nD) : records (F := F) S1c Y2c K ⊢ reached ER (r1Cell (rot c 27) 27 ho_27) 0 := rch_at S1c Y2c K (rot c 27, some (1, (⟨26, by decide⟩ : Fin 31)))
theorem inv_r2p_27 (c : Dev nD) : records (F := F) S1c Y2c K ⊢ cellInv ER (sched (F := F) S1c Y2c) (K (rot c 27, some (3, (⟨26, by decide⟩ : Fin 31)))) (r2Cell (rot c 27) 27 ho_27) := inv_at S1c Y2c K (rot c 27, some (3, (⟨26, by decide⟩ : Fin 31)))
theorem rch_r2p_27 (c : Dev nD) : records (F := F) S1c Y2c K ⊢ reached ER (r2Cell (rot c 27) 27 ho_27) 0 := rch_at S1c Y2c K (rot c 27, some (3, (⟨26, by decide⟩ : Fin 31)))

/-! ## Offset 28 -/

theorem inv_barp_28 (c : Dev nD) : records (F := F) S1c Y2c K ⊢ cellInv ER (sched (F := F) S1c Y2c) (K (rot c 28, none)) (barCell (rot c 28)) := inv_at S1c Y2c K (rot c 28, none)
theorem rch_barp_28 (c : Dev nD) : records (F := F) S1c Y2c K ⊢ reached ER (barCell (rot c 28)) 0 := rch_at S1c Y2c K (rot c 28, none)
theorem inv_s1_28 (c : Dev nD) : records (F := F) S1c Y2c K ⊢ cellInv ER (sched (F := F) S1c Y2c) (K (c, some (0, (⟨27, by decide⟩ : Fin 31)))) (s1Cell c 28 ho_28) := inv_at S1c Y2c K (c, some (0, (⟨27, by decide⟩ : Fin 31)))
theorem rch_s1_28 (c : Dev nD) : records (F := F) S1c Y2c K ⊢ reached ER (s1Cell c 28 ho_28) 0 := rch_at S1c Y2c K (c, some (0, (⟨27, by decide⟩ : Fin 31)))
theorem inv_r1_28 (c : Dev nD) : records (F := F) S1c Y2c K ⊢ cellInv ER (sched (F := F) S1c Y2c) (K (c, some (1, (⟨27, by decide⟩ : Fin 31)))) (r1Cell c 28 ho_28) := inv_at S1c Y2c K (c, some (1, (⟨27, by decide⟩ : Fin 31)))
theorem rch_r1_28 (c : Dev nD) : records (F := F) S1c Y2c K ⊢ reached ER (r1Cell c 28 ho_28) 0 := rch_at S1c Y2c K (c, some (1, (⟨27, by decide⟩ : Fin 31)))
theorem inv_s2_28 (c : Dev nD) : records (F := F) S1c Y2c K ⊢ cellInv ER (sched (F := F) S1c Y2c) (K (c, some (2, (⟨27, by decide⟩ : Fin 31)))) (s2Cell c 28 ho_28) := inv_at S1c Y2c K (c, some (2, (⟨27, by decide⟩ : Fin 31)))
theorem rch_s2_28 (c : Dev nD) : records (F := F) S1c Y2c K ⊢ reached ER (s2Cell c 28 ho_28) 0 := rch_at S1c Y2c K (c, some (2, (⟨27, by decide⟩ : Fin 31)))
theorem inv_r2_28 (c : Dev nD) : records (F := F) S1c Y2c K ⊢ cellInv ER (sched (F := F) S1c Y2c) (K (c, some (3, (⟨27, by decide⟩ : Fin 31)))) (r2Cell c 28 ho_28) := inv_at S1c Y2c K (c, some (3, (⟨27, by decide⟩ : Fin 31)))
theorem rch_r2_28 (c : Dev nD) : records (F := F) S1c Y2c K ⊢ reached ER (r2Cell c 28 ho_28) 0 := rch_at S1c Y2c K (c, some (3, (⟨27, by decide⟩ : Fin 31)))
theorem inv_r1p_28 (c : Dev nD) : records (F := F) S1c Y2c K ⊢ cellInv ER (sched (F := F) S1c Y2c) (K (rot c 28, some (1, (⟨27, by decide⟩ : Fin 31)))) (r1Cell (rot c 28) 28 ho_28) := inv_at S1c Y2c K (rot c 28, some (1, (⟨27, by decide⟩ : Fin 31)))
theorem rch_r1p_28 (c : Dev nD) : records (F := F) S1c Y2c K ⊢ reached ER (r1Cell (rot c 28) 28 ho_28) 0 := rch_at S1c Y2c K (rot c 28, some (1, (⟨27, by decide⟩ : Fin 31)))
theorem inv_r2p_28 (c : Dev nD) : records (F := F) S1c Y2c K ⊢ cellInv ER (sched (F := F) S1c Y2c) (K (rot c 28, some (3, (⟨27, by decide⟩ : Fin 31)))) (r2Cell (rot c 28) 28 ho_28) := inv_at S1c Y2c K (rot c 28, some (3, (⟨27, by decide⟩ : Fin 31)))
theorem rch_r2p_28 (c : Dev nD) : records (F := F) S1c Y2c K ⊢ reached ER (r2Cell (rot c 28) 28 ho_28) 0 := rch_at S1c Y2c K (rot c 28, some (3, (⟨27, by decide⟩ : Fin 31)))

/-! ## Offset 29 -/

theorem inv_barp_29 (c : Dev nD) : records (F := F) S1c Y2c K ⊢ cellInv ER (sched (F := F) S1c Y2c) (K (rot c 29, none)) (barCell (rot c 29)) := inv_at S1c Y2c K (rot c 29, none)
theorem rch_barp_29 (c : Dev nD) : records (F := F) S1c Y2c K ⊢ reached ER (barCell (rot c 29)) 0 := rch_at S1c Y2c K (rot c 29, none)
theorem inv_s1_29 (c : Dev nD) : records (F := F) S1c Y2c K ⊢ cellInv ER (sched (F := F) S1c Y2c) (K (c, some (0, (⟨28, by decide⟩ : Fin 31)))) (s1Cell c 29 ho_29) := inv_at S1c Y2c K (c, some (0, (⟨28, by decide⟩ : Fin 31)))
theorem rch_s1_29 (c : Dev nD) : records (F := F) S1c Y2c K ⊢ reached ER (s1Cell c 29 ho_29) 0 := rch_at S1c Y2c K (c, some (0, (⟨28, by decide⟩ : Fin 31)))
theorem inv_r1_29 (c : Dev nD) : records (F := F) S1c Y2c K ⊢ cellInv ER (sched (F := F) S1c Y2c) (K (c, some (1, (⟨28, by decide⟩ : Fin 31)))) (r1Cell c 29 ho_29) := inv_at S1c Y2c K (c, some (1, (⟨28, by decide⟩ : Fin 31)))
theorem rch_r1_29 (c : Dev nD) : records (F := F) S1c Y2c K ⊢ reached ER (r1Cell c 29 ho_29) 0 := rch_at S1c Y2c K (c, some (1, (⟨28, by decide⟩ : Fin 31)))
theorem inv_s2_29 (c : Dev nD) : records (F := F) S1c Y2c K ⊢ cellInv ER (sched (F := F) S1c Y2c) (K (c, some (2, (⟨28, by decide⟩ : Fin 31)))) (s2Cell c 29 ho_29) := inv_at S1c Y2c K (c, some (2, (⟨28, by decide⟩ : Fin 31)))
theorem rch_s2_29 (c : Dev nD) : records (F := F) S1c Y2c K ⊢ reached ER (s2Cell c 29 ho_29) 0 := rch_at S1c Y2c K (c, some (2, (⟨28, by decide⟩ : Fin 31)))
theorem inv_r2_29 (c : Dev nD) : records (F := F) S1c Y2c K ⊢ cellInv ER (sched (F := F) S1c Y2c) (K (c, some (3, (⟨28, by decide⟩ : Fin 31)))) (r2Cell c 29 ho_29) := inv_at S1c Y2c K (c, some (3, (⟨28, by decide⟩ : Fin 31)))
theorem rch_r2_29 (c : Dev nD) : records (F := F) S1c Y2c K ⊢ reached ER (r2Cell c 29 ho_29) 0 := rch_at S1c Y2c K (c, some (3, (⟨28, by decide⟩ : Fin 31)))
theorem inv_r1p_29 (c : Dev nD) : records (F := F) S1c Y2c K ⊢ cellInv ER (sched (F := F) S1c Y2c) (K (rot c 29, some (1, (⟨28, by decide⟩ : Fin 31)))) (r1Cell (rot c 29) 29 ho_29) := inv_at S1c Y2c K (rot c 29, some (1, (⟨28, by decide⟩ : Fin 31)))
theorem rch_r1p_29 (c : Dev nD) : records (F := F) S1c Y2c K ⊢ reached ER (r1Cell (rot c 29) 29 ho_29) 0 := rch_at S1c Y2c K (rot c 29, some (1, (⟨28, by decide⟩ : Fin 31)))
theorem inv_r2p_29 (c : Dev nD) : records (F := F) S1c Y2c K ⊢ cellInv ER (sched (F := F) S1c Y2c) (K (rot c 29, some (3, (⟨28, by decide⟩ : Fin 31)))) (r2Cell (rot c 29) 29 ho_29) := inv_at S1c Y2c K (rot c 29, some (3, (⟨28, by decide⟩ : Fin 31)))
theorem rch_r2p_29 (c : Dev nD) : records (F := F) S1c Y2c K ⊢ reached ER (r2Cell (rot c 29) 29 ho_29) 0 := rch_at S1c Y2c K (rot c 29, some (3, (⟨28, by decide⟩ : Fin 31)))

/-! ## Offset 30 -/

theorem inv_barp_30 (c : Dev nD) : records (F := F) S1c Y2c K ⊢ cellInv ER (sched (F := F) S1c Y2c) (K (rot c 30, none)) (barCell (rot c 30)) := inv_at S1c Y2c K (rot c 30, none)
theorem rch_barp_30 (c : Dev nD) : records (F := F) S1c Y2c K ⊢ reached ER (barCell (rot c 30)) 0 := rch_at S1c Y2c K (rot c 30, none)
theorem inv_s1_30 (c : Dev nD) : records (F := F) S1c Y2c K ⊢ cellInv ER (sched (F := F) S1c Y2c) (K (c, some (0, (⟨29, by decide⟩ : Fin 31)))) (s1Cell c 30 ho_30) := inv_at S1c Y2c K (c, some (0, (⟨29, by decide⟩ : Fin 31)))
theorem rch_s1_30 (c : Dev nD) : records (F := F) S1c Y2c K ⊢ reached ER (s1Cell c 30 ho_30) 0 := rch_at S1c Y2c K (c, some (0, (⟨29, by decide⟩ : Fin 31)))
theorem inv_r1_30 (c : Dev nD) : records (F := F) S1c Y2c K ⊢ cellInv ER (sched (F := F) S1c Y2c) (K (c, some (1, (⟨29, by decide⟩ : Fin 31)))) (r1Cell c 30 ho_30) := inv_at S1c Y2c K (c, some (1, (⟨29, by decide⟩ : Fin 31)))
theorem rch_r1_30 (c : Dev nD) : records (F := F) S1c Y2c K ⊢ reached ER (r1Cell c 30 ho_30) 0 := rch_at S1c Y2c K (c, some (1, (⟨29, by decide⟩ : Fin 31)))
theorem inv_s2_30 (c : Dev nD) : records (F := F) S1c Y2c K ⊢ cellInv ER (sched (F := F) S1c Y2c) (K (c, some (2, (⟨29, by decide⟩ : Fin 31)))) (s2Cell c 30 ho_30) := inv_at S1c Y2c K (c, some (2, (⟨29, by decide⟩ : Fin 31)))
theorem rch_s2_30 (c : Dev nD) : records (F := F) S1c Y2c K ⊢ reached ER (s2Cell c 30 ho_30) 0 := rch_at S1c Y2c K (c, some (2, (⟨29, by decide⟩ : Fin 31)))
theorem inv_r2_30 (c : Dev nD) : records (F := F) S1c Y2c K ⊢ cellInv ER (sched (F := F) S1c Y2c) (K (c, some (3, (⟨29, by decide⟩ : Fin 31)))) (r2Cell c 30 ho_30) := inv_at S1c Y2c K (c, some (3, (⟨29, by decide⟩ : Fin 31)))
theorem rch_r2_30 (c : Dev nD) : records (F := F) S1c Y2c K ⊢ reached ER (r2Cell c 30 ho_30) 0 := rch_at S1c Y2c K (c, some (3, (⟨29, by decide⟩ : Fin 31)))
theorem inv_r1p_30 (c : Dev nD) : records (F := F) S1c Y2c K ⊢ cellInv ER (sched (F := F) S1c Y2c) (K (rot c 30, some (1, (⟨29, by decide⟩ : Fin 31)))) (r1Cell (rot c 30) 30 ho_30) := inv_at S1c Y2c K (rot c 30, some (1, (⟨29, by decide⟩ : Fin 31)))
theorem rch_r1p_30 (c : Dev nD) : records (F := F) S1c Y2c K ⊢ reached ER (r1Cell (rot c 30) 30 ho_30) 0 := rch_at S1c Y2c K (rot c 30, some (1, (⟨29, by decide⟩ : Fin 31)))
theorem inv_r2p_30 (c : Dev nD) : records (F := F) S1c Y2c K ⊢ cellInv ER (sched (F := F) S1c Y2c) (K (rot c 30, some (3, (⟨29, by decide⟩ : Fin 31)))) (r2Cell (rot c 30) 30 ho_30) := inv_at S1c Y2c K (rot c 30, some (3, (⟨29, by decide⟩ : Fin 31)))
theorem rch_r2p_30 (c : Dev nD) : records (F := F) S1c Y2c K ⊢ reached ER (r2Cell (rot c 30) 30 ho_30) 0 := rch_at S1c Y2c K (rot c 30, some (3, (⟨29, by decide⟩ : Fin 31)))

/-! ## Offset 31 -/

theorem inv_barp_31 (c : Dev nD) : records (F := F) S1c Y2c K ⊢ cellInv ER (sched (F := F) S1c Y2c) (K (rot c 31, none)) (barCell (rot c 31)) := inv_at S1c Y2c K (rot c 31, none)
theorem rch_barp_31 (c : Dev nD) : records (F := F) S1c Y2c K ⊢ reached ER (barCell (rot c 31)) 0 := rch_at S1c Y2c K (rot c 31, none)
theorem inv_s1_31 (c : Dev nD) : records (F := F) S1c Y2c K ⊢ cellInv ER (sched (F := F) S1c Y2c) (K (c, some (0, (⟨30, by decide⟩ : Fin 31)))) (s1Cell c 31 ho_31) := inv_at S1c Y2c K (c, some (0, (⟨30, by decide⟩ : Fin 31)))
theorem rch_s1_31 (c : Dev nD) : records (F := F) S1c Y2c K ⊢ reached ER (s1Cell c 31 ho_31) 0 := rch_at S1c Y2c K (c, some (0, (⟨30, by decide⟩ : Fin 31)))
theorem inv_r1_31 (c : Dev nD) : records (F := F) S1c Y2c K ⊢ cellInv ER (sched (F := F) S1c Y2c) (K (c, some (1, (⟨30, by decide⟩ : Fin 31)))) (r1Cell c 31 ho_31) := inv_at S1c Y2c K (c, some (1, (⟨30, by decide⟩ : Fin 31)))
theorem rch_r1_31 (c : Dev nD) : records (F := F) S1c Y2c K ⊢ reached ER (r1Cell c 31 ho_31) 0 := rch_at S1c Y2c K (c, some (1, (⟨30, by decide⟩ : Fin 31)))
theorem inv_s2_31 (c : Dev nD) : records (F := F) S1c Y2c K ⊢ cellInv ER (sched (F := F) S1c Y2c) (K (c, some (2, (⟨30, by decide⟩ : Fin 31)))) (s2Cell c 31 ho_31) := inv_at S1c Y2c K (c, some (2, (⟨30, by decide⟩ : Fin 31)))
theorem rch_s2_31 (c : Dev nD) : records (F := F) S1c Y2c K ⊢ reached ER (s2Cell c 31 ho_31) 0 := rch_at S1c Y2c K (c, some (2, (⟨30, by decide⟩ : Fin 31)))
theorem inv_r2_31 (c : Dev nD) : records (F := F) S1c Y2c K ⊢ cellInv ER (sched (F := F) S1c Y2c) (K (c, some (3, (⟨30, by decide⟩ : Fin 31)))) (r2Cell c 31 ho_31) := inv_at S1c Y2c K (c, some (3, (⟨30, by decide⟩ : Fin 31)))
theorem rch_r2_31 (c : Dev nD) : records (F := F) S1c Y2c K ⊢ reached ER (r2Cell c 31 ho_31) 0 := rch_at S1c Y2c K (c, some (3, (⟨30, by decide⟩ : Fin 31)))
theorem inv_r1p_31 (c : Dev nD) : records (F := F) S1c Y2c K ⊢ cellInv ER (sched (F := F) S1c Y2c) (K (rot c 31, some (1, (⟨30, by decide⟩ : Fin 31)))) (r1Cell (rot c 31) 31 ho_31) := inv_at S1c Y2c K (rot c 31, some (1, (⟨30, by decide⟩ : Fin 31)))
theorem rch_r1p_31 (c : Dev nD) : records (F := F) S1c Y2c K ⊢ reached ER (r1Cell (rot c 31) 31 ho_31) 0 := rch_at S1c Y2c K (rot c 31, some (1, (⟨30, by decide⟩ : Fin 31)))
theorem inv_r2p_31 (c : Dev nD) : records (F := F) S1c Y2c K ⊢ cellInv ER (sched (F := F) S1c Y2c) (K (rot c 31, some (3, (⟨30, by decide⟩ : Fin 31)))) (r2Cell (rot c 31) 31 ho_31) := inv_at S1c Y2c K (rot c 31, some (3, (⟨30, by decide⟩ : Fin 31)))
theorem rch_r2p_31 (c : Dev nD) : records (F := F) S1c Y2c K ⊢ reached ER (r2Cell (rot c 31) 31 ho_31) 0 := rch_at S1c Y2c K (rot c 31, some (3, (⟨30, by decide⟩ : Fin 31)))

end Access

end Cert.KernelProto

end
-- ==== Proof.KernelContents.lean ====
import proofs.«900784_g7700000000000785_dist_f_of_ar_i_m512_n256_v7x_i32_bf16_1_alg».proof.Proof.KernelBodyDefs

/-!
# The narrowed block's contents

After the input copy has filled the f32 scratch block with the device's block of the argument, and the store has
written its narrowing over the whole bf16 scratch block, the bf16 block holds the narrowing of the argument's block,
element by element, whatever either scratch block held before.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The narrowed block on device `c`: its block of the argument, every element narrowed. -/
def S1def (m : (ℓ : Loc nD τ sig) → Buf (Elt F) ℓ) (c : Dev nD) : Buf (Elt F) (st1.view.loc (c : Thread nD τ)) :=
  k0_pay1 (F := F) (m ((c : Thread nD τ).loc main_arg0))

omit [FloatOps F] in
theorem zeros2 : (![0, 0] : Fin 2 → Nat) = fun _ => 0 := funext fun a => by fin_cases a <;> rfl

/-- After the input copy the f32 scratch block holds the device's block of the argument, whatever it held before. -/
theorem tv_contents (m : (ℓ : Loc nD τ sig) → Buf (Elt F) ℓ) (c : Dev nD) (f0 : Buf (Elt F) (tV.view.loc (c : Thread nD τ))) :
    View.write (Elt F) (Memref.whole cc0_scratch0).view f0
      (ReadAs.same.apply (View.read (Elt F) (Memref.whole main_arg0).view (m ((c : Thread nD τ).loc main_arg0)))) Finset.univ
      = m ((c : Thread nD τ).loc main_arg0) :=
  View.write_whole_univ cc0_scratch0 f0 _

/-- A store over the whole 16-row block replaces its contents. -/
theorem st2_whole_write (c : Dev nD) (f3 : Buf (Elt F) (st2.view.loc (c : Thread nD τ))) (w : FVec F S16x256 .bf16) :
    st2.view.writes (Elt F) f3 [⟨Rect.unit ![0, 0] S16x256.size inb_S16x256_S16x256_0_0, w⟩] = w := by
  rw [View.writes_singleton]
  exact Memref.write_access_unit_zero_univ (Elt F) cc0_scratch3 zeros2 _ f3 w

/-- A view written whole and read back through a reshaping of it: the payload, re-indexed. -/
theorem read_reshape_write {sig' : RefSig} {κ : Kind} {sp : Space} {s s' : Shape} {e : EltTy} {Val : EltTy → Type}
    (v : View sig' κ sp s e) (h : s'.numel = s.numel) (f : v.ty.Contents Val) (w : s.Idx → Val e) (y : s'.Idx) :
    (v.reshape s' h).read Val (v.write Val f w Finset.univ) y = w (Shape.reshapeEquiv h y) :=
  View.read_write_of_mem (v := v) f w (Finset.mem_univ _)

/-- A slot of the f32 output staging buffer written whole, then read back through the slot as a 16 × 256 block: the
    payload written, whatever was written before, slot `(0, r, q)` at block `(r, q)`. -/
theorem sto_slot_read (c : Dev nD) (k : ℕ) (hk : k < 32) (f5 : Buf (Elt F) (sto.view.loc (c : Thread nD τ)))
    (w : FVec F S1x16x256 .f32) (L : List (View.Piece (Elt F) S32x16x256 .f32)) :
    View.read (Elt F) (((Memref.whole cc0_scratch5).slice (Rect.unit ![k, 0, 0] S1x16x256.size (slot_inb k hk)) (fun _ => rfl)).squeeze S16x256 squeezes_S1x16x256_S16x256).view
        (sto.view.writes (Elt F) f5 (⟨Rect.unit ![k, 0, 0] S1x16x256.size (slot_inb k hk), w⟩ :: L))
      = fun y => w (Shape.reshapeEquiv squeezes_S1x16x256_S16x256.numel_eq y) :=
  funext fun y => read_reshape_write (sto.view.slice (Rect.unit ![k, 0, 0] S1x16x256.size (slot_inb k hk))) squeezes_S1x16x256_S16x256.numel_eq
    (sto.view.writes (Elt F) f5 L) w y

/-- What the copy and the store leave in the narrowed block. -/
theorem st1_contents (m : (ℓ : Loc nD τ sig) → Buf (Elt F) ℓ) (c : Dev nD) (f0 : Buf (Elt F) (tV.view.loc (c : Thread nD τ)))
    (f1 : Buf (Elt F) (st1.view.loc (c : Thread nD τ))) :
    st1.view.writes (Elt F) f1 [⟨Rect.unit ![0, 0] S512x256.size inb_S512x256_S512x256_0_0,
      k0_pay1 (View.readAt (Elt F) tV.view (Rect.unit ![0, 0] S512x256.size inb_S512x256_S512x256_0_0).toLoadRect
        (View.write (Elt F) (Memref.whole cc0_scratch0).view f0
          (ReadAs.same.apply (View.read (Elt F) (Memref.whole main_arg0).view (m ((c : Thread nD τ).loc main_arg0)))) Finset.univ))⟩] = S1def m c := by
  have h1 : View.write (Elt F) (Memref.whole cc0_scratch0).view f0
      (ReadAs.same.apply (View.read (Elt F) (Memref.whole main_arg0).view (m ((c : Thread nD τ).loc main_arg0)))) Finset.univ
      = m ((c : Thread nD τ).loc main_arg0) :=
    View.write_whole_univ cc0_scratch0 f0 _
  have h2 : View.readAt (Elt F) tV.view (Rect.unit ![0, 0] S512x256.size inb_S512x256_S512x256_0_0).toLoadRect (m ((c : Thread nD τ).loc main_arg0))
      = m ((c : Thread nD τ).loc main_arg0) :=
    Memref.readAt_unit_zero (Elt F) cc0_scratch0 zeros2 _ _
  rw [View.writes_singleton, h1, h2]
  exact Memref.write_access_unit_zero_univ (Elt F) cc0_scratch1 zeros2 _ f1 _

end Cert.KernelProto

end
-- ==== Proof.KernelY2.lean ====
import proofs.«900784_g7700000000000785_dist_f_of_ar_i_m512_n256_v7x_i32_bf16_1_alg».proof.Proof.KernelContents
import proofs.«900784_g7700000000000785_dist_f_of_ar_i_m512_n256_v7x_i32_bf16_1_alg».proof.Proof.KernelSends

/-!
# What a device adds up and sends on

The accumulated rows of a device: its own 16 rows of its f32 block plus what landed in the 31 slots of its first
landing buffer, in slot order (the generated payloads cut the unrolled accumulation into groups of one to three
slots; the nest below is that cut); then the pointwise function of the sum, kept at f32 for the device's own rows
of the result and narrowed for the second exchange.
-/

noncomputable section

namespace Cert.KernelProto

open Cert.Kernel Cert.Kernel.Gen
open Idealize.ShloMosaic
open Idealize.ShloMosaic.TcCoe
open Idealize.SL Idealize.SL.Sem

variable {F : FTy → Type} [FloatOps F]

variable (m : (ℓ : Loc nD τ sig) → Buf (Elt F) ℓ) (c : Dev nD)

/-- the device's own 16 rows of its f32 block, as the accumulation loads them -/
def ownRd : Vec F S16x256 .f32 :=
  tV.view.readAt (Elt F) (Rect.unit (s := S512x256) (k0_off2 c) S16x256.size (k0_off2_inb c)).toLoadRect (m ((c : Thread nD τ).loc main_arg0))
/-- what the load of slot `j` of the first landing buffer reads once the slot's transfer has landed -/
def slotRd (j : ℕ) (hj : 1 ≤ j ∧ j ≤ 31) (ho : j < 32) : Vec F S1x16x256 .bf16 :=
  cm1.view.readAt (Elt F) (Rect.unit (s := S32x16x256) ![j, 0, 0] S1x16x256.size (slot_inb j ho)).toLoadRect (land1 (S1def m) c j hj)
/-- the sum of the own rows and slots 1 … 30 -/
def accDef : FVec F S16x256 .f32 :=
  (k0_pay14 (F := F) (k0_pay13 (F := F) (k0_pay12 (F := F) (k0_pay11 (F := F) (k0_pay10 (F := F) (k0_pay9 (F := F) (k0_pay8 (F := F) (k0_pay7 (F := F) (k0_pay6 (F := F) (k0_pay5 (F := F) (k0_pay3 (F := F) (k0_pay2 (F := F) (ownRd m c) (slotRd m c 1 hk_1 ho_1)) (slotRd m c 2 hk_2 ho_2) (slotRd m c 3 hk_3 ho_3)) (k0_pay4 (F := F) (slotRd m c 4 hk_4 ho_4)) (slotRd m c 5 hk_5 ho_5) (slotRd m c 6 hk_6 ho_6)) (slotRd m c 7 hk_7 ho_7) (slotRd m c 8 hk_8 ho_8) (slotRd m c 9 hk_9 ho_9)) (slotRd m c 10 hk_10 ho_10) (slotRd m c 11 hk_11 ho_11)) (slotRd m c 12 hk_12 ho_12) (slotRd m c 13 hk_13 ho_13) (slotRd m c 14 hk_14 ho_14)) (slotRd m c 15 hk_15 ho_15) (slotRd m c 16 hk_16 ho_16) (slotRd m c 17 hk_17 ho_17)) (slotRd m c 18 hk_18 ho_18) (slotRd m c 19 hk_19 ho_19)) (slotRd m c 20 hk_20 ho_20) (slotRd m c 21 hk_21 ho_21) (slotRd m c 22 hk_22 ho_22)) (slotRd m c 23 hk_23 ho_23) (slotRd m c 24 hk_24 ho_24)) (slotRd m c 25 hk_25 ho_25) (slotRd m c 26 hk_26 ho_26) (slotRd m c 27 hk_27 ho_27)) (slotRd m c 28 hk_28 ho_28) (slotRd m c 29 hk_29 ho_29) (slotRd m c 30 hk_30 ho_30))
/-- the 16 result rows narrowed: what the second exchange sends -/
def Y2def : Buf (Elt F) (st2.view.loc (c : Thread nD τ)) := k0_pay17 (F := F) (accDef m c) (slotRd m c 31 hk_31 ho_31)
/-- the 16 result rows at f32, as a slot of the output staging buffer -/
def Y0def : FVec F S1x16x256 .f32 := k0_pay16 (F := F) (accDef m c) (slotRd m c 31 hk_31 ho_31)

end Cert.KernelProto
end
-- ==== Proof.KernelCutsOut.lean ====
import proofs.«900784_g7700000000000785_dist_f_of_ar_i_m512_n256_v7x_i32_bf16_1_alg».proof.Proof.KernelCutsRows

/-!
# An array of 512 rows as thirty-two blocks of sixteen rows, in any order, and the result array so cut

For a whole buffer of 512 rows and 256 columns and an injective (hence bijective) renumbering `π` of the thirty-two
row blocks, the blocks `π 0, …, π 31` are pairwise disjoint and cover the buffer: a points-to on the whole buffer is
the separating conjunction of the points-tos on the blocks, and blocks held at contents of their own join to the whole
buffer at contents that agree with each block's on that block.

The result array is written in that way: the device's own sixteen result rows go to row block `c`, and the rows that
came from the device `k` places before it, `k = 1 … 31`, go to row block `(c - k) mod 32`. The program computes each
block's first row from the device's number; the computations' values are `16 · c` and `16 · ((c + 32 - k) mod 32)`.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any whole buffer of 512 × 256, its row blocks renumbered -/

section Rows

variable {sp : Space} {e : EltTy}

/-- Row block `π k`'s elements, among the buffer's on device `c`. -/
def rowsSet (M : Memref sig .tc sp S512x256 e) (c : Dev nD) (π : Fin 32 → Fin 32) (k : Fin 32) :
    Finset (Idx (M.view.loc (c : Thread nD τ))) :=
  sliceSet M (rowR (π k))

theorem rowsSet_disjoint (M : Memref sig .tc sp S512x256 e) (c : Dev nD) (π : Fin 32 → Fin 32) (hπ : Function.Injective π)
    (k k' : Fin 32) (h : k ≠ k') : Disjoint (rowsSet M c π k) (rowsSet M c π k') :=
  slices_disjoint M rowR rowR_disjoint _ _ (fun e => h (hπ e))

theorem rowsSet_cover (M : Memref sig .tc sp S512x256 e) (hM : M.IsWhole) (c : Dev nD) (π : Fin 32 → Fin 32)
    (hπ : Function.Injective π) : Finset.univ.biUnion (rowsSet M c π) = Finset.univ := by
  have hs : Function.Surjective π := Finite.surjective_of_injective hπ
  ext i
  simp only [Finset.mem_biUnion, Finset.mem_univ, true_and, iff_true]
  have hi : i ∈ Finset.univ.biUnion (fun b => sliceSet M (rowR b)) :=
    (slices_cover M hM rowR rowR_cover) ▸ Finset.mem_univ i
  obtain ⟨b, -, hb⟩ := Finset.mem_biUnion.mp hi
  obtain ⟨k, rfl⟩ := hs b
  exact ⟨k, hb⟩

/-- The whole buffer at `f` is its thirty-two row blocks at `f`. -/
theorem rows_split_eq (M : Memref sig .tc sp S512x256 e) (hM : M.IsWhole) (c : Dev nD) (π : Fin 32 → Fin 32)
    (hπ : Function.Injective π) (f : Buf (Elt F) (M.view.loc (c : Thread nD τ))) :
    (M.view.loc (c : Thread nD τ) ↦{fullShare} f : sProp 𝕄)
      = bigSep Finset.univ fun k : Fin 32 => (M.view.loc (c : Thread nD τ) ↦[rowsSet M c π k]{fullShare} f : sProp 𝕄) :=
  Ring.pointsTo_blocks (ℓ := M.view.loc (c : Thread nD τ)) (Ix := Unit) (Name := ℕ) (U := UU) (Lvl := ℕ)
    (rowsSet M c π) (rowsSet_disjoint M c π hπ) (rowsSet_cover M hM c π hπ) f

/-- The thirty-two row blocks, block `k` at contents `fs k`, are the whole buffer at contents that agree with `fs k`
    on block `k`, for every `k`. -/
theorem rows_join_agree (M : Memref sig .tc sp S512x256 e) (hM : M.IsWhole) (c : Dev nD) (π : Fin 32 → Fin 32)
    (hπ : Function.Injective π) (fs : Fin 32 → Buf (Elt F) (M.view.loc (c : Thread nD τ))) :
    bigSep Finset.univ (fun k : Fin 32 => (M.view.loc (c : Thread nD τ) ↦[rowsSet M c π k]{fullShare} fs k : sProp 𝕄))
      ⊢ iprop(∃ g, ⌜∀ k : Fin 32, ∀ i ∈ rowsSet M c π k, g i = fs k i⌝
          ∗ (M.view.loc (c : Thread nD τ) ↦{fullShare} g : sProp 𝕄)) := by
  refine (pointsTo_biUnion_join (ℓ := M.view.loc (c : Thread nD τ)) (Ix := Unit) (Name := ℕ) (U := UU) (Lvl := ℕ)
    (q := fullShare) Finset.univ (rowsSet M c π) fs (M.view.junk (Val := Elt F))
    (fun k _ k' _ h => rowsSet_disjoint M c π hπ k k' h)).trans ?_
  rw [rowsSet_cover M hM c π hπ]
  iintro ⟨%g, %hg, H⟩
  iexists g
  isplitr
  · ipureintro; exact fun k => hg k (Finset.mem_univ k)
  · iexact H

end Rows

/-! ## The result array -/

/-- The row block of the device `k` places before `c`. -/
def ringO (c : Dev nD) (k : Fin 32) : Fin 32 := ⟨(c.val + 32 - k.val) % 32, Nat.mod_lt _ (by decide)⟩

theorem ringO_val (c : Dev nD) (k : Fin 32) : (ringO c k).val = (c.val + 32 - k.val) % 32 := rfl

theorem ringO_injective (c : Dev nD) : Function.Injective (ringO c) := by
  intro k k' h
  have h1 := congrArg Fin.val h
  simp only [ringO_val] at h1
  apply Fin.ext; have hc : c.val < 32 := c.isLt; have := k.isLt; have := k'.isLt; omega

theorem off4_inb (c : Dev nD) (k : ℕ) (hk : 1 ≤ k ∧ k ≤ 31) :
    ∀ a, (k0_off4 c (BitVec.ofNat 32 k)) a + S16x256.size a ≤ S512x256.size a := by
  have := k0_off4_inb c ⟨k - 1, by omega⟩
  have e : 1 + (k - 1) = k := by omega
  simpa only [e] using this

/-- The rows the first output copy writes, as the program spells the copy's destination; -/
abbrev dstO0 (c : Dev nD) : Memref sig .tc .hbm S16x256 .f32 :=
  oR.slice (Rect.unit (s := S512x256) (k0_off3 c) S16x256.size (k0_off3_inb c)) (fun _ => rfl)

/-- the rows the output copy at offset `k` writes. -/
abbrev dstO (c : Dev nD) (k : ℕ) (hk : 1 ≤ k ∧ k ≤ 31) : Memref sig .tc .hbm S16x256 .f32 :=
  oR.slice (Rect.unit (s := S512x256) (k0_off4 c (BitVec.ofNat 32 k)) S16x256.size (off4_inb c k hk)) (fun _ => rfl)

/-- The first row of the block written at offset `1 + r`, as the program computes it from the device's number, and
    the column offset: checked case by case over the thirty-two devices and thirty-one offsets. -/
theorem off4_closed : ∀ d0 : Dev nD, ∀ r : Fin 31,
    k0_off4 d0 (BitVec.ofNat 32 (1 + r.val)) 0 = 16 * ((d0.val + 32 - (1 + r.val)) % 32)
      ∧ k0_off4 d0 (BitVec.ofNat 32 (1 + r.val)) 1 = 0 := by decide +kernel

theorem off4_eq (c : Dev nD) (k : ℕ) (hk : 1 ≤ k ∧ k ≤ 31) :
    k0_off4 c (BitVec.ofNat 32 k) = ![16 * ((c.val + 32 - k) % 32), 0] := by
  have h := off4_closed c ⟨k - 1, by omega⟩
  have e : 1 + (k - 1) = k := by omega
  simp only [e] at h
  funext a
  fin_cases a
  · exact h.1
  · exact h.2

/-- At offset 0 the block is the one the first output copy writes; -/
theorem dst0_set (c : Dev nD) (h0 : 0 < 32) : rowsSet oR c (ringO c) ⟨0, h0⟩ = (dstO0 c).view.set := by
  have hc : (c.val + 32 - 0) % 32 = c.val := by have : c.val < 32 := c.isLt; omega
  refine (sliceSet_unit_congr oR ?_ _ _).symm
  rw [k0_off3_eq c]
  show (![16 * c.val, 0] : Fin 2 → Nat) = ![16 * ((c.val + 32 - 0) % 32), 0]
  rw [hc]

/-- at offset `k = 1 … 31` the one the output copy at that offset writes. -/
theorem dst_set (c : Dev nD) (k : ℕ) (hk : 1 ≤ k ∧ k ≤ 31) (hlt : k < 32) :
    rowsSet oR c (ringO c) ⟨k, hlt⟩ = (dstO c k hk).view.set :=
  (sliceSet_unit_congr oR (off4_eq c k hk) _ _).symm

theorem dst0_pt (c : Dev nD) (g : Buf (Elt F) (oR.view.loc (c : Thread nD τ))) (h0 : 0 < 32) :
    (oR.view.loc (c : Thread nD τ) ↦[rowsSet oR c (ringO c) ⟨0, h0⟩]{fullShare} g : sProp 𝕄) = ((dstO0 c).view.loc (c : Thread nD τ) ↦[(dstO0 c).view.set]{fullShare} g : sProp 𝕄) := by
  rw [dst0_set c h0]

theorem dst_pt (c : Dev nD) (g : Buf (Elt F) (oR.view.loc (c : Thread nD τ))) (k : ℕ) (hk : 1 ≤ k ∧ k ≤ 31) (hlt : k < 32) :
    (oR.view.loc (c : Thread nD τ) ↦[rowsSet oR c (ringO c) ⟨k, hlt⟩]{fullShare} g : sProp 𝕄)
      = ((dstO c k hk).view.loc (c : Thread nD τ) ↦[(dstO c k hk).view.set]{fullShare} g : sProp 𝕄) := by
  rw [dst_set c k hk hlt]

/-- The blocks written out, block `k` at contents `fs k`: the first output copy's rows, then offsets 1 … 31. -/
theorem out_chain_eq (c : Dev nD) (fs : Fin 32 → Buf (Elt F) (oR.view.loc (c : Thread nD τ))) :
    bigSepL offs32 (fun k : Fin 32 => (oR.view.loc (c : Thread nD τ) ↦[rowsSet oR c (ringO c) k]{fullShare} fs k : sProp 𝕄))
      = iprop(((dstO0 c).view.loc (c : Thread nD τ) ↦[(dstO0 c).view.set]{fullShare} fs ⟨0, ho_0⟩ : sProp 𝕄)
        ∗ ((dstO c 1 hk_1).view.loc (c : Thread nD τ) ↦[(dstO c 1 hk_1).view.set]{fullShare} fs ⟨1, ho_1⟩ : sProp 𝕄)
        ∗ ((dstO c 2 hk_2).view.loc (c : Thread nD τ) ↦[(dstO c 2 hk_2).view.set]{fullShare} fs ⟨2, ho_2⟩ : sProp 𝕄)
        ∗ ((dstO c 3 hk_3).view.loc (c : Thread nD τ) ↦[(dstO c 3 hk_3).view.set]{fullShare} fs ⟨3, ho_3⟩ : sProp 𝕄)
        ∗ ((dstO c 4 hk_4).view.loc (c : Thread nD τ) ↦[(dstO c 4 hk_4).view.set]{fullShare} fs ⟨4, ho_4⟩ : sProp 𝕄)
        ∗ ((dstO c 5 hk_5).view.loc (c : Thread nD τ) ↦[(dstO c 5 hk_5).view.set]{fullShare} fs ⟨5, ho_5⟩ : sProp 𝕄)
        ∗ ((dstO c 6 hk_6).view.loc (c : Thread nD τ) ↦[(dstO c 6 hk_6).view.set]{fullShare} fs ⟨6, ho_6⟩ : sProp 𝕄)
        ∗ ((dstO c 7 hk_7).view.loc (c : Thread nD τ) ↦[(dstO c 7 hk_7).view.set]{fullShare} fs ⟨7, ho_7⟩ : sProp 𝕄)
        ∗ ((dstO c 8 hk_8).view.loc (c : Thread nD τ) ↦[(dstO c 8 hk_8).view.set]{fullShare} fs ⟨8, ho_8⟩ : sProp 𝕄)
        ∗ ((dstO c 9 hk_9).view.loc (c : Thread nD τ) ↦[(dstO c 9 hk_9).view.set]{fullShare} fs ⟨9, ho_9⟩ : sProp 𝕄)
        ∗ ((dstO c 10 hk_10).view.loc (c : Thread nD τ) ↦[(dstO c 10 hk_10).view.set]{fullShare} fs ⟨10, ho_10⟩ : sProp 𝕄)
        ∗ ((dstO c 11 hk_11).view.loc (c : Thread nD τ) ↦[(dstO c 11 hk_11).view.set]{fullShare} fs ⟨11, ho_11⟩ : sProp 𝕄)
        ∗ ((dstO c 12 hk_12).view.loc (c : Thread nD τ) ↦[(dstO c 12 hk_12).view.set]{fullShare} fs ⟨12, ho_12⟩ : sProp 𝕄)
        ∗ ((dstO c 13 hk_13).view.loc (c : Thread nD τ) ↦[(dstO c 13 hk_13).view.set]{fullShare} fs ⟨13, ho_13⟩ : sProp 𝕄)
        ∗ ((dstO c 14 hk_14).view.loc (c : Thread nD τ) ↦[(dstO c 14 hk_14).view.set]{fullShare} fs ⟨14, ho_14⟩ : sProp 𝕄)
        ∗ ((dstO c 15 hk_15).view.loc (c : Thread nD τ) ↦[(dstO c 15 hk_15).view.set]{fullShare} fs ⟨15, ho_15⟩ : sProp 𝕄)
        ∗ ((dstO c 16 hk_16).view.loc (c : Thread nD τ) ↦[(dstO c 16 hk_16).view.set]{fullShare} fs ⟨16, ho_16⟩ : sProp 𝕄)
        ∗ ((dstO c 17 hk_17).view.loc (c : Thread nD τ) ↦[(dstO c 17 hk_17).view.set]{fullShare} fs ⟨17, ho_17⟩ : sProp 𝕄)
        ∗ ((dstO c 18 hk_18).view.loc (c : Thread nD τ) ↦[(dstO c 18 hk_18).view.set]{fullShare} fs ⟨18, ho_18⟩ : sProp 𝕄)
        ∗ ((dstO c 19 hk_19).view.loc (c : Thread nD τ) ↦[(dstO c 19 hk_19).view.set]{fullShare} fs ⟨19, ho_19⟩ : sProp 𝕄)
        ∗ ((dstO c 20 hk_20).view.loc (c : Thread nD τ) ↦[(dstO c 20 hk_20).view.set]{fullShare} fs ⟨20, ho_20⟩ : sProp 𝕄)
        ∗ ((dstO c 21 hk_21).view.loc (c : Thread nD τ) ↦[(dstO c 21 hk_21).view.set]{fullShare} fs ⟨21, ho_21⟩ : sProp 𝕄)
        ∗ ((dstO c 22 hk_22).view.loc (c : Thread nD τ) ↦[(dstO c 22 hk_22).view.set]{fullShare} fs ⟨22, ho_22⟩ : sProp 𝕄)
        ∗ ((dstO c 23 hk_23).view.loc (c : Thread nD τ) ↦[(dstO c 23 hk_23).view.set]{fullShare} fs ⟨23, ho_23⟩ : sProp 𝕄)
        ∗ ((dstO c 24 hk_24).view.loc (c : Thread nD τ) ↦[(dstO c 24 hk_24).view.set]{fullShare} fs ⟨24, ho_24⟩ : sProp 𝕄)
        ∗ ((dstO c 25 hk_25).view.loc (c : Thread nD τ) ↦[(dstO c 25 hk_25).view.set]{fullShare} fs ⟨25, ho_25⟩ : sProp 𝕄)
        ∗ ((dstO c 26 hk_26).view.loc (c : Thread nD τ) ↦[(dstO c 26 hk_26).view.set]{fullShare} fs ⟨26, ho_26⟩ : sProp 𝕄)
        ∗ ((dstO c 27 hk_27).view.loc (c : Thread nD τ) ↦[(dstO c 27 hk_27).view.set]{fullShare} fs ⟨27, ho_27⟩ : sProp 𝕄)
        ∗ ((dstO c 28 hk_28).view.loc (c : Thread nD τ) ↦[(dstO c 28 hk_28).view.set]{fullShare} fs ⟨28, ho_28⟩ : sProp 𝕄)
        ∗ ((dstO c 29 hk_29).view.loc (c : Thread nD τ) ↦[(dstO c 29 hk_29).view.set]{fullShare} fs ⟨29, ho_29⟩ : sProp 𝕄)
        ∗ ((dstO c 30 hk_30).view.loc (c : Thread nD τ) ↦[(dstO c 30 hk_30).view.set]{fullShare} fs ⟨30, ho_30⟩ : sProp 𝕄)
        ∗ ((dstO c 31 hk_31).view.loc (c : Thread nD τ) ↦[(dstO c 31 hk_31).view.set]{fullShare} fs ⟨31, ho_31⟩ : sProp 𝕄)) :=
  sep_congr (dst0_pt c (fs ⟨0, ho_0⟩) ho_0) (sep_congr (dst_pt c (fs ⟨1, ho_1⟩) 1 hk_1 ho_1) (sep_congr (dst_pt c (fs ⟨2, ho_2⟩) 2 hk_2 ho_2) (sep_congr (dst_pt c (fs ⟨3, ho_3⟩) 3 hk_3 ho_3) (sep_congr (dst_pt c (fs ⟨4, ho_4⟩) 4 hk_4 ho_4) (sep_congr (dst_pt c (fs ⟨5, ho_5⟩) 5 hk_5 ho_5) (sep_congr (dst_pt c (fs ⟨6, ho_6⟩) 6 hk_6 ho_6) (sep_congr (dst_pt c (fs ⟨7, ho_7⟩) 7 hk_7 ho_7) (sep_congr (dst_pt c (fs ⟨8, ho_8⟩) 8 hk_8 ho_8) (sep_congr (dst_pt c (fs ⟨9, ho_9⟩) 9 hk_9 ho_9) (sep_congr (dst_pt c (fs ⟨10, ho_10⟩) 10 hk_10 ho_10) (sep_congr (dst_pt c (fs ⟨11, ho_11⟩) 11 hk_11 ho_11) (sep_congr (dst_pt c (fs ⟨12, ho_12⟩) 12 hk_12 ho_12) (sep_congr (dst_pt c (fs ⟨13, ho_13⟩) 13 hk_13 ho_13) (sep_congr (dst_pt c (fs ⟨14, ho_14⟩) 14 hk_14 ho_14) (sep_congr (dst_pt c (fs ⟨15, ho_15⟩) 15 hk_15 ho_15) (sep_congr (dst_pt c (fs ⟨16, ho_16⟩) 16 hk_16 ho_16) (sep_congr (dst_pt c (fs ⟨17, ho_17⟩) 17 hk_17 ho_17) (sep_congr (dst_pt c (fs ⟨18, ho_18⟩) 18 hk_18 ho_18) (sep_congr (dst_pt c (fs ⟨19, ho_19⟩) 19 hk_19 ho_19) (sep_congr (dst_pt c (fs ⟨20, ho_20⟩) 20 hk_20 ho_20) (sep_congr (dst_pt c (fs ⟨21, ho_21⟩) 21 hk_21 ho_21) (sep_congr (dst_pt c (fs ⟨22, ho_22⟩) 22 hk_22 ho_22) (sep_congr (dst_pt c (fs ⟨23, ho_23⟩) 23 hk_23 ho_23) (sep_congr (dst_pt c (fs ⟨24, ho_24⟩) 24 hk_24 ho_24) (sep_congr (dst_pt c (fs ⟨25, ho_25⟩) 25 hk_25 ho_25) (sep_congr (dst_pt c (fs ⟨26, ho_26⟩) 26 hk_26 ho_26) (sep_congr (dst_pt c (fs ⟨27, ho_27⟩) 27 hk_27 ho_27) (sep_congr (dst_pt c (fs ⟨28, ho_28⟩) 28 hk_28 ho_28) (sep_congr (dst_pt c (fs ⟨29, ho_29⟩) 29 hk_29 ho_29) (sep_congr (dst_pt c (fs ⟨30, ho_30⟩) 30 hk_30 ho_30) (dst_pt c (fs ⟨31, ho_31⟩) 31 hk_31 ho_31)))))))))))))))))))))))))))))))

/-- The result array held whole at `f` is the first output copy's rows and those of the copies at offsets 1 … 31, all at `f`. -/
theorem out_split (c : Dev nD) (f : Buf (Elt F) (oR.view.loc (c : Thread nD τ))) :
    (oR.view.loc (c : Thread nD τ) ↦{fullShare} f : sProp 𝕄)
      ⊢ iprop(((dstO0 c).view.loc (c : Thread nD τ) ↦[(dstO0 c).view.set]{fullShare} f : sProp 𝕄)
        ∗ ((dstO c 1 hk_1).view.loc (c : Thread nD τ) ↦[(dstO c 1 hk_1).view.set]{fullShare} f : sProp 𝕄)
        ∗ ((dstO c 2 hk_2).view.loc (c : Thread nD τ) ↦[(dstO c 2 hk_2).view.set]{fullShare} f : sProp 𝕄)
        ∗ ((dstO c 3 hk_3).view.loc (c : Thread nD τ) ↦[(dstO c 3 hk_3).view.set]{fullShare} f : sProp 𝕄)
        ∗ ((dstO c 4 hk_4).view.loc (c : Thread nD τ) ↦[(dstO c 4 hk_4).view.set]{fullShare} f : sProp 𝕄)
        ∗ ((dstO c 5 hk_5).view.loc (c : Thread nD τ) ↦[(dstO c 5 hk_5).view.set]{fullShare} f : sProp 𝕄)
        ∗ ((dstO c 6 hk_6).view.loc (c : Thread nD τ) ↦[(dstO c 6 hk_6).view.set]{fullShare} f : sProp 𝕄)
        ∗ ((dstO c 7 hk_7).view.loc (c : Thread nD τ) ↦[(dstO c 7 hk_7).view.set]{fullShare} f : sProp 𝕄)
        ∗ ((dstO c 8 hk_8).view.loc (c : Thread nD τ) ↦[(dstO c 8 hk_8).view.set]{fullShare} f : sProp 𝕄)
        ∗ ((dstO c 9 hk_9).view.loc (c : Thread nD τ) ↦[(dstO c 9 hk_9).view.set]{fullShare} f : sProp 𝕄)
        ∗ ((dstO c 10 hk_10).view.loc (c : Thread nD τ) ↦[(dstO c 10 hk_10).view.set]{fullShare} f : sProp 𝕄)
        ∗ ((dstO c 11 hk_11).view.loc (c : Thread nD τ) ↦[(dstO c 11 hk_11).view.set]{fullShare} f : sProp 𝕄)
        ∗ ((dstO c 12 hk_12).view.loc (c : Thread nD τ) ↦[(dstO c 12 hk_12).view.set]{fullShare} f : sProp 𝕄)
        ∗ ((dstO c 13 hk_13).view.loc (c : Thread nD τ) ↦[(dstO c 13 hk_13).view.set]{fullShare} f : sProp 𝕄)
        ∗ ((dstO c 14 hk_14).view.loc (c : Thread nD τ) ↦[(dstO c 14 hk_14).view.set]{fullShare} f : sProp 𝕄)
        ∗ ((dstO c 15 hk_15).view.loc (c : Thread nD τ) ↦[(dstO c 15 hk_15).view.set]{fullShare} f : sProp 𝕄)
        ∗ ((dstO c 16 hk_16).view.loc (c : Thread nD τ) ↦[(dstO c 16 hk_16).view.set]{fullShare} f : sProp 𝕄)
        ∗ ((dstO c 17 hk_17).view.loc (c : Thread nD τ) ↦[(dstO c 17 hk_17).view.set]{fullShare} f : sProp 𝕄)
        ∗ ((dstO c 18 hk_18).view.loc (c : Thread nD τ) ↦[(dstO c 18 hk_18).view.set]{fullShare} f : sProp 𝕄)
        ∗ ((dstO c 19 hk_19).view.loc (c : Thread nD τ) ↦[(dstO c 19 hk_19).view.set]{fullShare} f : sProp 𝕄)
        ∗ ((dstO c 20 hk_20).view.loc (c : Thread nD τ) ↦[(dstO c 20 hk_20).view.set]{fullShare} f : sProp 𝕄)
        ∗ ((dstO c 21 hk_21).view.loc (c : Thread nD τ) ↦[(dstO c 21 hk_21).view.set]{fullShare} f : sProp 𝕄)
        ∗ ((dstO c 22 hk_22).view.loc (c : Thread nD τ) ↦[(dstO c 22 hk_22).view.set]{fullShare} f : sProp 𝕄)
        ∗ ((dstO c 23 hk_23).view.loc (c : Thread nD τ) ↦[(dstO c 23 hk_23).view.set]{fullShare} f : sProp 𝕄)
        ∗ ((dstO c 24 hk_24).view.loc (c : Thread nD τ) ↦[(dstO c 24 hk_24).view.set]{fullShare} f : sProp 𝕄)
        ∗ ((dstO c 25 hk_25).view.loc (c : Thread nD τ) ↦[(dstO c 25 hk_25).view.set]{fullShare} f : sProp 𝕄)
        ∗ ((dstO c 26 hk_26).view.loc (c : Thread nD τ) ↦[(dstO c 26 hk_26).view.set]{fullShare} f : sProp 𝕄)
        ∗ ((dstO c 27 hk_27).view.loc (c : Thread nD τ) ↦[(dstO c 27 hk_27).view.set]{fullShare} f : sProp 𝕄)
        ∗ ((dstO c 28 hk_28).view.loc (c : Thread nD τ) ↦[(dstO c 28 hk_28).view.set]{fullShare} f : sProp 𝕄)
        ∗ ((dstO c 29 hk_29).view.loc (c : Thread nD τ) ↦[(dstO c 29 hk_29).view.set]{fullShare} f : sProp 𝕄)
        ∗ ((dstO c 30 hk_30).view.loc (c : Thread nD τ) ↦[(dstO c 30 hk_30).view.set]{fullShare} f : sProp 𝕄)
        ∗ ((dstO c 31 hk_31).view.loc (c : Thread nD τ) ↦[(dstO c 31 hk_31).view.set]{fullShare} f : sProp 𝕄)) :=
  Entails.of_eq ((rows_split_eq oR (Memref.isWhole_whole _) c (ringO c) (ringO_injective c) f).trans
    ((bigSep_univ_eq_bigSepL offs32 offs32_univ offs32_nodup _).trans (out_chain_eq c (fun _ => f))))

/-- The thirty-two blocks of the result array, block `k` at contents `fs ⟨k, _⟩`, are the whole array at contents that
    agree with `fs k` on block `k`, for every `k`. -/
theorem out_join (c : Dev nD) (fs : Fin 32 → Buf (Elt F) (oR.view.loc (c : Thread nD τ))) :
    iprop(((dstO0 c).view.loc (c : Thread nD τ) ↦[(dstO0 c).view.set]{fullShare} fs ⟨0, ho_0⟩ : sProp 𝕄)
        ∗ ((dstO c 1 hk_1).view.loc (c : Thread nD τ) ↦[(dstO c 1 hk_1).view.set]{fullShare} fs ⟨1, ho_1⟩ : sProp 𝕄)
        ∗ ((dstO c 2 hk_2).view.loc (c : Thread nD τ) ↦[(dstO c 2 hk_2).view.set]{fullShare} fs ⟨2, ho_2⟩ : sProp 𝕄)
        ∗ ((dstO c 3 hk_3).view.loc (c : Thread nD τ) ↦[(dstO c 3 hk_3).view.set]{fullShare} fs ⟨3, ho_3⟩ : sProp 𝕄)
        ∗ ((dstO c 4 hk_4).view.loc (c : Thread nD τ) ↦[(dstO c 4 hk_4).view.set]{fullShare} fs ⟨4, ho_4⟩ : sProp 𝕄)
        ∗ ((dstO c 5 hk_5).view.loc (c : Thread nD τ) ↦[(dstO c 5 hk_5).view.set]{fullShare} fs ⟨5, ho_5⟩ : sProp 𝕄)
        ∗ ((dstO c 6 hk_6).view.loc (c : Thread nD τ) ↦[(dstO c 6 hk_6).view.set]{fullShare} fs ⟨6, ho_6⟩ : sProp 𝕄)
        ∗ ((dstO c 7 hk_7).view.loc (c : Thread nD τ) ↦[(dstO c 7 hk_7).view.set]{fullShare} fs ⟨7, ho_7⟩ : sProp 𝕄)
        ∗ ((dstO c 8 hk_8).view.loc (c : Thread nD τ) ↦[(dstO c 8 hk_8).view.set]{fullShare} fs ⟨8, ho_8⟩ : sProp 𝕄)
        ∗ ((dstO c 9 hk_9).view.loc (c : Thread nD τ) ↦[(dstO c 9 hk_9).view.set]{fullShare} fs ⟨9, ho_9⟩ : sProp 𝕄)
        ∗ ((dstO c 10 hk_10).view.loc (c : Thread nD τ) ↦[(dstO c 10 hk_10).view.set]{fullShare} fs ⟨10, ho_10⟩ : sProp 𝕄)
        ∗ ((dstO c 11 hk_11).view.loc (c : Thread nD τ) ↦[(dstO c 11 hk_11).view.set]{fullShare} fs ⟨11, ho_11⟩ : sProp 𝕄)
        ∗ ((dstO c 12 hk_12).view.loc (c : Thread nD τ) ↦[(dstO c 12 hk_12).view.set]{fullShare} fs ⟨12, ho_12⟩ : sProp 𝕄)
        ∗ ((dstO c 13 hk_13).view.loc (c : Thread nD τ) ↦[(dstO c 13 hk_13).view.set]{fullShare} fs ⟨13, ho_13⟩ : sProp 𝕄)
        ∗ ((dstO c 14 hk_14).view.loc (c : Thread nD τ) ↦[(dstO c 14 hk_14).view.set]{fullShare} fs ⟨14, ho_14⟩ : sProp 𝕄)
        ∗ ((dstO c 15 hk_15).view.loc (c : Thread nD τ) ↦[(dstO c 15 hk_15).view.set]{fullShare} fs ⟨15, ho_15⟩ : sProp 𝕄)
        ∗ ((dstO c 16 hk_16).view.loc (c : Thread nD τ) ↦[(dstO c 16 hk_16).view.set]{fullShare} fs ⟨16, ho_16⟩ : sProp 𝕄)
        ∗ ((dstO c 17 hk_17).view.loc (c : Thread nD τ) ↦[(dstO c 17 hk_17).view.set]{fullShare} fs ⟨17, ho_17⟩ : sProp 𝕄)
        ∗ ((dstO c 18 hk_18).view.loc (c : Thread nD τ) ↦[(dstO c 18 hk_18).view.set]{fullShare} fs ⟨18, ho_18⟩ : sProp 𝕄)
        ∗ ((dstO c 19 hk_19).view.loc (c : Thread nD τ) ↦[(dstO c 19 hk_19).view.set]{fullShare} fs ⟨19, ho_19⟩ : sProp 𝕄)
        ∗ ((dstO c 20 hk_20).view.loc (c : Thread nD τ) ↦[(dstO c 20 hk_20).view.set]{fullShare} fs ⟨20, ho_20⟩ : sProp 𝕄)
        ∗ ((dstO c 21 hk_21).view.loc (c : Thread nD τ) ↦[(dstO c 21 hk_21).view.set]{fullShare} fs ⟨21, ho_21⟩ : sProp 𝕄)
        ∗ ((dstO c 22 hk_22).view.loc (c : Thread nD τ) ↦[(dstO c 22 hk_22).view.set]{fullShare} fs ⟨22, ho_22⟩ : sProp 𝕄)
        ∗ ((dstO c 23 hk_23).view.loc (c : Thread nD τ) ↦[(dstO c 23 hk_23).view.set]{fullShare} fs ⟨23, ho_23⟩ : sProp 𝕄)
        ∗ ((dstO c 24 hk_24).view.loc (c : Thread nD τ) ↦[(dstO c 24 hk_24).view.set]{fullShare} fs ⟨24, ho_24⟩ : sProp 𝕄)
        ∗ ((dstO c 25 hk_25).view.loc (c : Thread nD τ) ↦[(dstO c 25 hk_25).view.set]{fullShare} fs ⟨25, ho_25⟩ : sProp 𝕄)
        ∗ ((dstO c 26 hk_26).view.loc (c : Thread nD τ) ↦[(dstO c 26 hk_26).view.set]{fullShare} fs ⟨26, ho_26⟩ : sProp 𝕄)
        ∗ ((dstO c 27 hk_27).view.loc (c : Thread nD τ) ↦[(dstO c 27 hk_27).view.set]{fullShare} fs ⟨27, ho_27⟩ : sProp 𝕄)
        ∗ ((dstO c 28 hk_28).view.loc (c : Thread nD τ) ↦[(dstO c 28 hk_28).view.set]{fullShare} fs ⟨28, ho_28⟩ : sProp 𝕄)
        ∗ ((dstO c 29 hk_29).view.loc (c : Thread nD τ) ↦[(dstO c 29 hk_29).view.set]{fullShare} fs ⟨29, ho_29⟩ : sProp 𝕄)
        ∗ ((dstO c 30 hk_30).view.loc (c : Thread nD τ) ↦[(dstO c 30 hk_30).view.set]{fullShare} fs ⟨30, ho_30⟩ : sProp 𝕄)
        ∗ ((dstO c 31 hk_31).view.loc (c : Thread nD τ) ↦[(dstO c 31 hk_31).view.set]{fullShare} fs ⟨31, ho_31⟩ : sProp 𝕄))
      ⊢ iprop(∃ g, ⌜∀ k : Fin 32, ∀ i ∈ rowsSet oR c (ringO c) k, g i = fs k i⌝
          ∗ (oR.view.loc (c : Thread nD τ) ↦{fullShare} g : sProp 𝕄)) :=
  (Entails.of_eq ((bigSep_univ_eq_bigSepL offs32 offs32_univ offs32_nodup _).trans (out_chain_eq c fs)).symm).trans
    (rows_join_agree oR (Memref.isWhole_whole _) c (ringO c) (ringO_injective c) fs)

/-- info: 'Cert.KernelProto.out_split' depends on axioms: [propext, Classical.choice, Quot.sound] -/
#guard_msgs in #print axioms out_split

/-- info: 'Cert.KernelProto.out_join' depends on axioms: [propext, Classical.choice, Quot.sound] -/
#guard_msgs in #print axioms out_join

end Cert.KernelProto

end
-- ==== Proof.KernelCutsOutFun.lean ====
import proofs.«900784_g7700000000000785_dist_f_of_ar_i_m512_n256_v7x_i32_bf16_1_alg».proof.Proof.KernelCutsOut
import Idealize.ShloMosaic.Lib.ValueIdx

/-!
# The result array's blocks joined to one named contents

The thirty-two row blocks of the result array are pairwise disjoint and cover it, so every element lies in exactly one
block. Contents given block by block, `fs k` on the block at offset `k`, therefore glue to ONE contents of the whole
array: at an element, the value of the `fs k` whose block holds it. The blocks held each at its own `fs k` are the
whole array held at the glued contents. The block at offset `k` is row block `(c - k) mod 32`, and `k ↦ (c - k) mod 32`
undoes itself, so the element in row `16·b + r` is read from `fs ((c - b) mod 32)`.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element of the result array lies in one of the thirty-two row blocks. -/
theorem exists_block (c : Dev nD) (i : Idx (oR.view.loc (c : Thread nD τ))) :
    ∃ k : Fin 32, i ∈ rowsSet oR c (ringO c) k := by
  have hi : i ∈ Finset.univ.biUnion (rowsSet oR c (ringO c)) :=
    (rowsSet_cover oR (Memref.isWhole_whole _) c (ringO c) (ringO_injective c)) ▸ Finset.mem_univ i
  obtain ⟨k, -, hk⟩ := Finset.mem_biUnion.mp hi
  exact ⟨k, hk⟩

/-- The offset whose row block holds the element `i`. -/
def kOfRow (c : Dev nD) (i : Idx (oR.view.loc (c : Thread nD τ))) : Fin 32 := Classical.choose (exists_block c i)

theorem kOfRow_mem (c : Dev nD) (i : Idx (oR.view.loc (c : Thread nD τ))) : i ∈ rowsSet oR c (ringO c) (kOfRow c i) :=
  Classical.choose_spec (exists_block c i)

/-- An element lies in one block only. -/
theorem kOfRow_eq (c : Dev nD) (k : Fin 32) (i : Idx (oR.view.loc (c : Thread nD τ))) (hi : i ∈ rowsSet oR c (ringO c) k) :
    kOfRow c i = k := by
  by_contra h
  exact Finset.disjoint_left.mp (rowsSet_disjoint oR c (ringO c) (ringO_injective c) _ _ h) (kOfRow_mem c i) hi

/-- Contents given block by block, glued: at an element, the contents given for the block that holds it. -/
def glueO (c : Dev nD) (fs : Fin 32 → Buf (Elt F) (oR.view.loc (c : Thread nD τ))) :
    Buf (Elt F) (oR.view.loc (c : Thread nD τ)) :=
  fun i => fs (kOfRow c i) i

theorem glueO_on (c : Dev nD) (fs : Fin 32 → Buf (Elt F) (oR.view.loc (c : Thread nD τ))) (k : Fin 32) :
    ∀ i ∈ rowsSet oR c (ringO c) k, glueO c fs i = fs k i := by
  intro i hi
  show fs (kOfRow c i) i = fs k i
  rw [kOfRow_eq c k i hi]

/-- The thirty-two blocks of the result array, block `k` at contents `fs ⟨k, _⟩`, are the whole array at the glued contents. -/
theorem out_join_glue (c : Dev nD) (fs : Fin 32 → Buf (Elt F) (oR.view.loc (c : Thread nD τ))) :
    iprop(((dstO0 c).view.loc (c : Thread nD τ) ↦[(dstO0 c).view.set]{fullShare} fs ⟨0, ho_0⟩ : sProp 𝕄)
        ∗ ((dstO c 1 hk_1).view.loc (c : Thread nD τ) ↦[(dstO c 1 hk_1).view.set]{fullShare} fs ⟨1, ho_1⟩ : sProp 𝕄)
        ∗ ((dstO c 2 hk_2).view.loc (c : Thread nD τ) ↦[(dstO c 2 hk_2).view.set]{fullShare} fs ⟨2, ho_2⟩ : sProp 𝕄)
        ∗ ((dstO c 3 hk_3).view.loc (c : Thread nD τ) ↦[(dstO c 3 hk_3).view.set]{fullShare} fs ⟨3, ho_3⟩ : sProp 𝕄)
        ∗ ((dstO c 4 hk_4).view.loc (c : Thread nD τ) ↦[(dstO c 4 hk_4).view.set]{fullShare} fs ⟨4, ho_4⟩ : sProp 𝕄)
        ∗ ((dstO c 5 hk_5).view.loc (c : Thread nD τ) ↦[(dstO c 5 hk_5).view.set]{fullShare} fs ⟨5, ho_5⟩ : sProp 𝕄)
        ∗ ((dstO c 6 hk_6).view.loc (c : Thread nD τ) ↦[(dstO c 6 hk_6).view.set]{fullShare} fs ⟨6, ho_6⟩ : sProp 𝕄)
        ∗ ((dstO c 7 hk_7).view.loc (c : Thread nD τ) ↦[(dstO c 7 hk_7).view.set]{fullShare} fs ⟨7, ho_7⟩ : sProp 𝕄)
        ∗ ((dstO c 8 hk_8).view.loc (c : Thread nD τ) ↦[(dstO c 8 hk_8).view.set]{fullShare} fs ⟨8, ho_8⟩ : sProp 𝕄)
        ∗ ((dstO c 9 hk_9).view.loc (c : Thread nD τ) ↦[(dstO c 9 hk_9).view.set]{fullShare} fs ⟨9, ho_9⟩ : sProp 𝕄)
        ∗ ((dstO c 10 hk_10).view.loc (c : Thread nD τ) ↦[(dstO c 10 hk_10).view.set]{fullShare} fs ⟨10, ho_10⟩ : sProp 𝕄)
        ∗ ((dstO c 11 hk_11).view.loc (c : Thread nD τ) ↦[(dstO c 11 hk_11).view.set]{fullShare} fs ⟨11, ho_11⟩ : sProp 𝕄)
        ∗ ((dstO c 12 hk_12).view.loc (c : Thread nD τ) ↦[(dstO c 12 hk_12).view.set]{fullShare} fs ⟨12, ho_12⟩ : sProp 𝕄)
        ∗ ((dstO c 13 hk_13).view.loc (c : Thread nD τ) ↦[(dstO c 13 hk_13).view.set]{fullShare} fs ⟨13, ho_13⟩ : sProp 𝕄)
        ∗ ((dstO c 14 hk_14).view.loc (c : Thread nD τ) ↦[(dstO c 14 hk_14).view.set]{fullShare} fs ⟨14, ho_14⟩ : sProp 𝕄)
        ∗ ((dstO c 15 hk_15).view.loc (c : Thread nD τ) ↦[(dstO c 15 hk_15).view.set]{fullShare} fs ⟨15, ho_15⟩ : sProp 𝕄)
        ∗ ((dstO c 16 hk_16).view.loc (c : Thread nD τ) ↦[(dstO c 16 hk_16).view.set]{fullShare} fs ⟨16, ho_16⟩ : sProp 𝕄)
        ∗ ((dstO c 17 hk_17).view.loc (c : Thread nD τ) ↦[(dstO c 17 hk_17).view.set]{fullShare} fs ⟨17, ho_17⟩ : sProp 𝕄)
        ∗ ((dstO c 18 hk_18).view.loc (c : Thread nD τ) ↦[(dstO c 18 hk_18).view.set]{fullShare} fs ⟨18, ho_18⟩ : sProp 𝕄)
        ∗ ((dstO c 19 hk_19).view.loc (c : Thread nD τ) ↦[(dstO c 19 hk_19).view.set]{fullShare} fs ⟨19, ho_19⟩ : sProp 𝕄)
        ∗ ((dstO c 20 hk_20).view.loc (c : Thread nD τ) ↦[(dstO c 20 hk_20).view.set]{fullShare} fs ⟨20, ho_20⟩ : sProp 𝕄)
        ∗ ((dstO c 21 hk_21).view.loc (c : Thread nD τ) ↦[(dstO c 21 hk_21).view.set]{fullShare} fs ⟨21, ho_21⟩ : sProp 𝕄)
        ∗ ((dstO c 22 hk_22).view.loc (c : Thread nD τ) ↦[(dstO c 22 hk_22).view.set]{fullShare} fs ⟨22, ho_22⟩ : sProp 𝕄)
        ∗ ((dstO c 23 hk_23).view.loc (c : Thread nD τ) ↦[(dstO c 23 hk_23).view.set]{fullShare} fs ⟨23, ho_23⟩ : sProp 𝕄)
        ∗ ((dstO c 24 hk_24).view.loc (c : Thread nD τ) ↦[(dstO c 24 hk_24).view.set]{fullShare} fs ⟨24, ho_24⟩ : sProp 𝕄)
        ∗ ((dstO c 25 hk_25).view.loc (c : Thread nD τ) ↦[(dstO c 25 hk_25).view.set]{fullShare} fs ⟨25, ho_25⟩ : sProp 𝕄)
        ∗ ((dstO c 26 hk_26).view.loc (c : Thread nD τ) ↦[(dstO c 26 hk_26).view.set]{fullShare} fs ⟨26, ho_26⟩ : sProp 𝕄)
        ∗ ((dstO c 27 hk_27).view.loc (c : Thread nD τ) ↦[(dstO c 27 hk_27).view.set]{fullShare} fs ⟨27, ho_27⟩ : sProp 𝕄)
        ∗ ((dstO c 28 hk_28).view.loc (c : Thread nD τ) ↦[(dstO c 28 hk_28).view.set]{fullShare} fs ⟨28, ho_28⟩ : sProp 𝕄)
        ∗ ((dstO c 29 hk_29).view.loc (c : Thread nD τ) ↦[(dstO c 29 hk_29).view.set]{fullShare} fs ⟨29, ho_29⟩ : sProp 𝕄)
        ∗ ((dstO c 30 hk_30).view.loc (c : Thread nD τ) ↦[(dstO c 30 hk_30).view.set]{fullShare} fs ⟨30, ho_30⟩ : sProp 𝕄)
        ∗ ((dstO c 31 hk_31).view.loc (c : Thread nD τ) ↦[(dstO c 31 hk_31).view.set]{fullShare} fs ⟨31, ho_31⟩ : sProp 𝕄))
      ⊢ (oR.view.loc (c : Thread nD τ) ↦{fullShare} glueO c fs : sProp 𝕄) := by
  refine (out_join c fs).trans ?_
  iintro ⟨%g, %hg, H⟩
  have e : (oR.view.loc (c : Thread nD τ) ↦{fullShare} g : sProp 𝕄)
      = (oR.view.loc (c : Thread nD τ) ↦{fullShare} glueO c fs : sProp 𝕄) :=
    pointsTo_congr (fun i _ => hg (kOfRow c i) i (kOfRow_mem c i))
  iapply (Entails.of_eq e)
  iexact H

/-! ## The glued contents read at a row and a column -/

/-- Going `k` places back from `c` and then that many places back again returns to the start. -/
theorem ringO_ringO (c : Dev nD) (b : Fin 32) : ringO c (ringO c b) = b := by
  apply Fin.ext
  have hc : c.val < 32 := c.isLt
  have := b.isLt
  simp only [ringO_val]
  omega

/-- The element in row `a`, column `q` of the result array on device `c`. -/
def outIdx (c : Dev nD) (a : Fin 512) (q : Fin 256) : Idx (oR.view.loc (c : Thread nD τ)) := ValueIdx.ix2 a q

/-- Row `16·b + r` lies in row block `b`, the block at offset `(c - b) mod 32`. -/
theorem outIdx_mem (c : Dev nD) (b : Fin 32) (r : Fin 16) (q : Fin 256) :
    outIdx c ⟨16 * b.val + r.val, by have := b.isLt; have := r.isLt; omega⟩ q ∈ rowsSet oR c (ringO c) (ringO c b) := by
  unfold rowsSet
  rw [ringO_ringO]
  show _ ∈ ((View.whole main_v1).slice (rowR b)).set
  rw [View.set_slice_whole]
  refine Rect.mem_set_unit.mpr (fun a => ?_)
  have := r.isLt
  have := q.isLt
  fin_cases a
  · show 16 * b.val ≤ 16 * b.val + r.val ∧ 16 * b.val + r.val < 16 * b.val + 16
    omega
  · show 0 ≤ q.val ∧ q.val < 0 + 256
    omega

/-- The glued contents at row `16·b + r`, column `q`: the contents given for the block at offset `(c - b) mod 32`. -/
theorem glueO_apply (c : Dev nD) (fs : Fin 32 → Buf (Elt F) (oR.view.loc (c : Thread nD τ))) (b : Fin 32) (r : Fin 16) (q : Fin 256) :
    glueO c fs (outIdx c ⟨16 * b.val + r.val, by have := b.isLt; have := r.isLt; omega⟩ q)
      = fs (ringO c b) (outIdx c ⟨16 * b.val + r.val, by have := b.isLt; have := r.isLt; omega⟩ q) :=
  glueO_on c fs (ringO c b) _ (outIdx_mem c b r q)

/-- info: 'Cert.KernelProto.out_join_glue' depends on axioms: [propext, Classical.choice, Quot.sound] -/
#guard_msgs in #print axioms out_join_glue

/-- info: 'Cert.KernelProto.glueO_apply' depends on axioms: [propext, Classical.choice, Quot.sound] -/
#guard_msgs in #print axioms glueO_apply

end Cert.KernelProto

end
-- ==== Proof.KernelOutDef.lean ====
import proofs.«900784_g7700000000000785_dist_f_of_ar_i_m512_n256_v7x_i32_bf16_1_alg».proof.Proof.KernelY2
import proofs.«900784_g7700000000000785_dist_f_of_ar_i_m512_n256_v7x_i32_bf16_1_alg».proof.Proof.KernelCutsOutFun

/-!
# The result array on a device, row block by row block

Row block `c` of device `c`'s result is its own 16 result rows at f32. Row block `(c - k) mod 32`, `k = 1 … 31`, is what
landed in slot `k` of the second landing buffer — the narrowed result rows of the device `k` positions before — widened
again (the generated payloads k0_pay18 … k0_pay51 are that widening, slot by slot), staged in slot `k` of the output
staging buffer and copied to its rows.
-/

noncomputable section

namespace Cert.KernelProto

open Cert.Kernel Cert.Kernel.Gen
open Idealize.ShloMosaic
open Idealize.ShloMosaic.TcCoe
open Idealize.SL Idealize.SL.Sem

variable {F : FTy → Type} [FloatOps F]

variable (m : (ℓ : Loc nD τ sig) → Buf (Elt F) ℓ) (c : Dev nD)

/-- what the load of slot `j` of the second landing buffer reads once the slot's transfer has landed -/
def slot2Rd (j : ℕ) (hj : 1 ≤ j ∧ j ≤ 31) (ho : j < 32) : Vec F S1x16x256 .bf16 :=
  cm2.view.readAt (Elt F) (Rect.unit (s := S32x16x256) ![j, 0, 0] S1x16x256.size (slot_inb j ho)).toLoadRect (land2 (Y2def m) c j hj)

/-- what is stored in slot `k` of the output staging buffer -/
def stoSlot : (k : ℕ) → FVec F S1x16x256 .f32
  | 0 => Y0def m c
  | 1 => k0_pay18 (F := F) (slot2Rd m c 1 hk_1 ho_1)
  | 2 => k0_pay19 (F := F) (slot2Rd m c 2 hk_2 ho_2)
  | 3 => k0_pay20 (F := F) (slot2Rd m c 3 hk_3 ho_3)
  | 4 => k0_pay21 (F := F) (slot2Rd m c 4 hk_4 ho_4)
  | 5 => k0_pay22 (F := F) (slot2Rd m c 5 hk_5 ho_5)
  | 6 => k0_pay24 (F := F) (k0_pay23 (F := F) (slot2Rd m c 6 hk_6 ho_6))
  | 7 => k0_pay26 (F := F) (k0_pay25 (F := F) (slot2Rd m c 7 hk_7 ho_7))
  | 8 => k0_pay28 (F := F) (k0_pay27 (F := F) (slot2Rd m c 8 hk_8 ho_8))
  | 9 => k0_pay29 (F := F) (slot2Rd m c 9 hk_9 ho_9)
  | 10 => k0_pay30 (F := F) (slot2Rd m c 10 hk_10 ho_10)
  | 11 => k0_pay31 (F := F) (slot2Rd m c 11 hk_11 ho_11)
  | 12 => k0_pay32 (F := F) (slot2Rd m c 12 hk_12 ho_12)
  | 13 => k0_pay33 (F := F) (slot2Rd m c 13 hk_13 ho_13)
  | 14 => k0_pay34 (F := F) (slot2Rd m c 14 hk_14 ho_14)
  | 15 => k0_pay35 (F := F) (slot2Rd m c 15 hk_15 ho_15)
  | 16 => k0_pay36 (F := F) (slot2Rd m c 16 hk_16 ho_16)
  | 17 => k0_pay37 (F := F) (slot2Rd m c 17 hk_17 ho_17)
  | 18 => k0_pay38 (F := F) (slot2Rd m c 18 hk_18 ho_18)
  | 19 => k0_pay39 (F := F) (slot2Rd m c 19 hk_19 ho_19)
  | 20 => k0_pay40 (F := F) (slot2Rd m c 20 hk_20 ho_20)
  | 21 => k0_pay41 (F := F) (slot2Rd m c 21 hk_21 ho_21)
  | 22 => k0_pay42 (F := F) (slot2Rd m c 22 hk_22 ho_22)
  | 23 => k0_pay43 (F := F) (slot2Rd m c 23 hk_23 ho_23)
  | 24 => k0_pay44 (F := F) (slot2Rd m c 24 hk_24 ho_24)
  | 25 => k0_pay45 (F := F) (slot2Rd m c 25 hk_25 ho_25)
  | 26 => k0_pay46 (F := F) (slot2Rd m c 26 hk_26 ho_26)
  | 27 => k0_pay47 (F := F) (slot2Rd m c 27 hk_27 ho_27)
  | 28 => k0_pay48 (F := F) (slot2Rd m c 28 hk_28 ho_28)
  | 29 => k0_pay49 (F := F) (slot2Rd m c 29 hk_29 ho_29)
  | 30 => k0_pay50 (F := F) (slot2Rd m c 30 hk_30 ho_30)
  | 31 => k0_pay51 (F := F) (slot2Rd m c 31 hk_31 ho_31)
  | _ + 32 => Y0def m c

/-- the 16 × 256 block the output copy at offset `k` carries: slot `k` of the staging buffer with its unit axis dropped -/
def outVec (k : ℕ) : S16x256.Idx → Elt F .f32 :=
  fun y => stoSlot m c k (Shape.reshapeEquiv squeezes_S1x16x256_S16x256.numel_eq y)

/-- the row block the output copy at offset `k` leaves, as contents of the result array (what is outside the block is not used) -/
def fsOutAt (k : ℕ) (hk : 1 ≤ k ∧ k ≤ 31) : Buf (Elt F) (oR.view.loc (c : Thread nD τ)) :=
  (dstO c k hk).view.write (Elt F) (dstO c k hk).view.junk (outVec m c k) Finset.univ
def fsOut0 : Buf (Elt F) (oR.view.loc (c : Thread nD τ)) :=
  (dstO0 c).view.write (Elt F) (dstO0 c).view.junk (outVec m c 0) Finset.univ
def fsOut (k : Fin 32) : Buf (Elt F) (oR.view.loc (c : Thread nD τ)) :=
  if h : 1 ≤ k.val then fsOutAt m c k.val ⟨h, Nat.lt_succ_iff.mp k.isLt⟩ else fsOut0 m c

/-- the result array of device `c` after the kernel -/
def OUTdef : Buf (Elt F) ((c : Thread nD τ).loc main_v1) := glueO c (fsOut m c)

end Cert.KernelProto
end
-- ==== Proof.KernelOutAgree.lean ====
import proofs.«900784_g7700000000000785_dist_f_of_ar_i_m512_n256_v7x_i32_bf16_1_alg».proof.Proof.KernelOutDef
import proofs.«900784_g7700000000000785_dist_f_of_ar_i_m512_n256_v7x_i32_bf16_1_alg».proof.Proof.KernelSends

/-!
# A copied row block, at the closed form

What an output copy leaves in its row block — a whole write over whatever the result array held — is, on the block's
own elements, the closed form `fsOut` of `KernelOutDef.lean`.
-/

noncomputable section

namespace Cert.KernelProto

open Cert.Kernel Cert.Kernel.Gen
open Idealize.ShloMosaic
open Idealize.ShloMosaic.TcCoe
open Idealize.SL Idealize.SL.Sem

variable {F : FTy → Type} [FloatOps F]

variable (m : (ℓ : Loc nD τ sig) → Buf (Elt F) ℓ) (c : Dev nD)

theorem out_block_agree (k : ℕ) (hk : 1 ≤ k ∧ k ≤ 31) (ho : k < 32) (fO : Buf (Elt F) (oR.view.loc (c : Thread nD τ)))
    (w : S16x256.Idx → Elt F .f32) (hw : w = outVec m c k) :
    ∀ i ∈ (dstO c k hk).view.set, (dstO c k hk).view.writes (Elt F) fO [⟨Rect.whole S16x256, w⟩] i = fsOut m c ⟨k, ho⟩ i := by
  subst hw
  have e : fsOut m c ⟨k, ho⟩ = fsOutAt m c k hk := dif_pos hk.1
  rw [e]; unfold fsOutAt
  intro i hi
  rw [← View.write_univ_eq_writes_whole, View.writes_nil]
  exact write_rebase (F := F) (dstO c k hk).view _ _ _ i hi

theorem out_block0_agree (fO : Buf (Elt F) (oR.view.loc (c : Thread nD τ)))
    (w : S16x256.Idx → Elt F .f32) (hw : w = outVec m c 0) :
    ∀ i ∈ (dstO0 c).view.set, (dstO0 c).view.writes (Elt F) fO [⟨Rect.whole S16x256, w⟩] i = fsOut m c ⟨0, by decide⟩ i := by
  subst hw
  have e : fsOut m c ⟨0, by decide⟩ = fsOut0 m c := dif_neg (by decide)
  rw [e]; unfold fsOut0
  intro i hi
  rw [← View.write_univ_eq_writes_whole, View.writes_nil]
  exact write_rebase (F := F) (dstO0 c).view _ _ _ i hi

end Cert.KernelProto
end
-- ==== Proof.KernelCutsSto.lean ====
import proofs.«900784_g7700000000000785_dist_f_of_ar_i_m512_n256_v7x_i32_bf16_1_alg».proof.Proof.KernelCuts

/-!
# A buffer held as a rest and the pieces carved out of it, joined back

Pairwise disjoint pieces `A₀, A₁, …` carved one after the other out of a set `X` of a buffer's elements leave the rest
`((X \ A₀) \ A₁) \ …`. The rest and the pieces, each held at some contents, are `X` held at some contents: putting
the last piece back gives the rest before it was carved, and so on back to `X`. For the output staging buffer, held at
the end as the rest after its first sixteen slots and those sixteen slots apart, this gives the buffer whole.
-/

noncomputable section

namespace Cert.KernelProto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece put back into the set it was carved out of, each at some contents. -/
theorem join_sdiff {ℓ : Loc nD τ sig} {q : PosShare TreeShare} (X A : Finset (Idx ℓ)) (h : A ⊆ X) :
    iprop((∃ g, (ℓ ↦[X \ A]{q} g : sProp 𝕄)) ∗ (∃ g, (ℓ ↦[A]{q} g : sProp 𝕄))) ⊢ iprop(∃ g, (ℓ ↦[X]{q} g : sProp 𝕄)) := by
  iintro ⟨⟨%f, Hf⟩, ⟨%g, Hg⟩⟩
  iexists (A.piecewise g f)
  iapply (pointsTo_join_subset h)
  isplitl [Hg]
  · iexact Hg
  · iexact Hf

/-- Pairwise disjoint pieces carved one after the other out of `X`, and the rest, each at some contents, are `X` at some
    contents. -/
theorem rejoin_sdiff {ℓ : Loc nD τ sig} {q : PosShare TreeShare} :
    ∀ (l : List (Finset (Idx ℓ))) (X : Finset (Idx ℓ)), (∀ A ∈ l, A ⊆ X) → l.Pairwise Disjoint →
      (iprop((∃ g, (ℓ ↦[l.foldl (· \ ·) X]{q} g : sProp 𝕄)) ∗ bigSepL l (fun A => iprop(∃ g, (ℓ ↦[A]{q} g : sProp 𝕄))))
        ⊢ iprop(∃ g, (ℓ ↦[X]{q} g : sProp 𝕄)))
  | [], X, _, _ => Laws.sep_emp.mp
  | A :: l, X, hX, hd => by
    rw [bigSepL_cons, List.foldl_cons]
    have hA : A ⊆ X := hX A List.mem_cons_self
    have hd' := List.pairwise_cons.mp hd
    have hX' : ∀ B ∈ l, B ⊆ X \ A := fun B hB =>
      Finset.subset_sdiff.mpr ⟨hX B (List.mem_cons_of_mem _ hB), (hd'.1 B hB).symm⟩
    have ih := rejoin_sdiff (q := q) l (X \ A) hX' hd'.2
    refine (show iprop((∃ g, (ℓ ↦[l.foldl (· \ ·) (X \ A)]{q} g : sProp 𝕄)) ∗ (∃ g, (ℓ ↦[A]{q} g : sProp 𝕄))
        ∗ bigSepL l (fun A => iprop(∃ g, (ℓ ↦[A]{q} g : sProp 𝕄)))) ⊢ _ from ?_)
    iintro ⟨HR, HA, HL⟩
    iapply (join_sdiff X A hA)
    isplitl [HR HL]
    · iapply ih
      isplitl [HR]
      · iexact HR
      · iexact HL
    · iexact HA

/-- The first sixteen slots of a landing or staging buffer, listed. -/
abbrev slots16 : List (Fin 32) := [⟨0, ho_0⟩, ⟨1, ho_1⟩, ⟨2, ho_2⟩, ⟨3, ho_3⟩, ⟨4, ho_4⟩, ⟨5, ho_5⟩, ⟨6, ho_6⟩, ⟨7, ho_7⟩, ⟨8, ho_8⟩, ⟨9, ho_9⟩, ⟨10, ho_10⟩, ⟨11, ho_11⟩, ⟨12, ho_12⟩, ⟨13, ho_13⟩, ⟨14, ho_14⟩, ⟨15, ho_15⟩]

theorem slots16_nodup : slots16.Nodup := by decide

/-- The first sixteen slots carved out of a buffer of thirty-two, and the rest, each at some contents, are the buffer
    at some contents. -/
theorem rejoin16 {e : EltTy} (M : Memref sig .tc .vmem S32x16x256 e) (c : Dev nD) :
    iprop((∃ g, (M.view.loc (c : Thread nD τ) ↦[(slots16.map (slotSet M c)).foldl (· \ ·) Finset.univ]{fullShare} g : sProp 𝕄))
        ∗ bigSepL (slots16.map (slotSet M c)) (fun A => iprop(∃ g, (M.view.loc (c : Thread nD τ) ↦[A]{fullShare} g : sProp 𝕄))))
      ⊢ iprop(∃ g, (M.view.loc (c : Thread nD τ) ↦{fullShare} g : sProp 𝕄)) :=
  rejoin_sdiff (slots16.map (slotSet M c)) Finset.univ (fun A _ => Finset.subset_univ A)
    (List.pairwise_map.mpr (slots16_nodup.imp (fun h => slot_disjoint M c _ _ h)))

/-- The output staging buffer, held as the rest after its first sixteen slots and those sixteen slots apart, each at
    some contents, is the buffer whole at some contents. -/
theorem sto_rejoin16 (c : Dev nD) :
    iprop((∃ g, (sto.view.loc (c : Thread nD τ) ↦[((((((((((((((((Finset.univ \ (slotM sto 0 ho_0).view.set) \ (slotM sto 1 ho_1).view.set) \ (slotM sto 2 ho_2).view.set) \ (slotM sto 3 ho_3).view.set) \ (slotM sto 4 ho_4).view.set) \ (slotM sto 5 ho_5).view.set) \ (slotM sto 6 ho_6).view.set) \ (slotM sto 7 ho_7).view.set) \ (slotM sto 8 ho_8).view.set) \ (slotM sto 9 ho_9).view.set) \ (slotM sto 10 ho_10).view.set) \ (slotM sto 11 ho_11).view.set) \ (slotM sto 12 ho_12).view.set) \ (slotM sto 13 ho_13).view.set) \ (slotM sto 14 ho_14).view.set) \ (slotM sto 15 ho_15).view.set)]{fullShare} g : sProp 𝕄))
        ∗ (∃ g, (sto.view.loc (c : Thread nD τ) ↦[(slotM sto 0 ho_0).view.set]{fullShare} g : sProp 𝕄))
        ∗ (∃ g, (sto.view.loc (c : Thread nD τ) ↦[(slotM sto 1 ho_1).view.set]{fullShare} g : sProp 𝕄))
        ∗ (∃ g, (sto.view.loc (c : Thread nD τ) ↦[(slotM sto 2 ho_2).view.set]{fullShare} g : sProp 𝕄))
        ∗ (∃ g, (sto.view.loc (c : Thread nD τ) ↦[(slotM sto 3 ho_3).view.set]{fullShare} g : sProp 𝕄))
        ∗ (∃ g, (sto.view.loc (c : Thread nD τ) ↦[(slotM sto 4 ho_4).view.set]{fullShare} g : sProp 𝕄))
        ∗ (∃ g, (sto.view.loc (c : Thread nD τ) ↦[(slotM sto 5 ho_5).view.set]{fullShare} g : sProp 𝕄))
        ∗ (∃ g, (sto.view.loc (c : Thread nD τ) ↦[(slotM sto 6 ho_6).view.set]{fullShare} g : sProp 𝕄))
        ∗ (∃ g, (sto.view.loc (c : Thread nD τ) ↦[(slotM sto 7 ho_7).view.set]{fullShare} g : sProp 𝕄))
        ∗ (∃ g, (sto.view.loc (c : Thread nD τ) ↦[(slotM sto 8 ho_8).view.set]{fullShare} g : sProp 𝕄))
        ∗ (∃ g, (sto.view.loc (c : Thread nD τ) ↦[(slotM sto 9 ho_9).view.set]{fullShare} g : sProp 𝕄))
        ∗ (∃ g, (sto.view.loc (c : Thread nD τ) ↦[(slotM sto 10 ho_10).view.set]{fullShare} g : sProp 𝕄))
        ∗ (∃ g, (sto.view.loc (c : Thread nD τ) ↦[(slotM sto 11 ho_11).view.set]{fullShare} g : sProp 𝕄))
        ∗ (∃ g, (sto.view.loc (c : Thread nD τ) ↦[(slotM sto 12 ho_12).view.set]{fullShare} g : sProp 𝕄))
        ∗ (∃ g, (sto.view.loc (c : Thread nD τ) ↦[(slotM sto 13 ho_13).view.set]{fullShare} g : sProp 𝕄))
        ∗ (∃ g, (sto.view.loc (c : Thread nD τ) ↦[(slotM sto 14 ho_14).view.set]{fullShare} g : sProp 𝕄))
        ∗ (∃ g, (sto.view.loc (c : Thread nD τ) ↦[(slotM sto 15 ho_15).view.set]{fullShare} g : sProp 𝕄)))
      ⊢ iprop(∃ g, (sto.view.loc (c : Thread nD τ) ↦{fullShare} g : sProp 𝕄)) :=
  rejoin16 (F := F) sto c

/-- info: 'Cert.KernelProto.sto_rejoin16' depends on axioms: [propext, Classical.choice, Quot.sound] -/
#guard_msgs in #print axioms sto_rejoin16

end Cert.KernelProto

end
-- ==== Proof.KernelBody.lean ====
import proofs.«900784_g7700000000000785_dist_f_of_ar_i_m512_n256_v7x_i32_bf16_1_alg».proof.Proof.KernelBodyDefs
import proofs.«900784_g7700000000000785_dist_f_of_ar_i_m512_n256_v7x_i32_bf16_1_alg».proof.Proof.KernelLevels
import proofs.«900784_g7700000000000785_dist_f_of_ar_i_m512_n256_v7x_i32_bf16_1_alg».proof.Proof.KernelSends
import proofs.«900784_g7700000000000785_dist_f_of_ar_i_m512_n256_v7x_i32_bf16_1_alg».proof.Proof.KernelAccess
import proofs.«900784_g7700000000000785_dist_f_of_ar_i_m512_n256_v7x_i32_bf16_1_alg».proof.Proof.KernelOutAgree
import proofs.«900784_g7700000000000785_dist_f_of_ar_i_m512_n256_v7x_i32_bf16_1_alg».proof.Proof.KernelCutsSto

/-!
# The kernel's text, run on one device

From the body's starting state to what it leaves, in the order of the text. The 31 barrier signals, each handing the
signalled device this device's two landing slots for it; the input copy's wait and the narrowing of the block; the wait for
the 31 barrier units, which hands this device its 31 peers' landing slots; the first exchange's 31 transfers, each lending
the 16 rows it sends; its 31 receive waits, what landed being added to the device's own rows; the result rows, kept at f32
for the device's own row block of the result and narrowed for the second exchange; the second exchange's 31 transfers, each
lending one read share of the narrowed rows; its 31 receive waits, each landed block widened, staged and copied to its row
block of the result; the waits of the 32 output copies and of the 62 sends, which bring back what was lent. A resource
not in use at a stage is held aside and opened when its stage begins; each cell is closed as soon as its wait is done, which
returns its semaphore at zero. At the end the pieces are joined into the whole buffers the kernel started from.
-/

noncomputable section

namespace Cert.KernelProto

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Setting a resource aside, and taking it back -/

omit [FloatOps F] in
theorem held_push (A B : sProp 𝕄) : iprop(A ∗ Held B) ⊢ Held (iprop(A ∗ B)) :=
  (sep_mono_right (held_elim B)).trans (held_intro _)
omit [FloatOps F] in
theorem held_pop (A B : sProp 𝕄) : Held (iprop(A ∗ B)) ⊢ iprop(A ∗ Held B) :=
  (held_elim _).trans (sep_mono_right (held_intro B))
omit [FloatOps F] in
/-- The 31 barrier duties' payloads, one by one. -/
theorem icc_chain (Φ : ℕ → sProp 𝕄) : bigSep (Finset.Icc 1 31) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) := by
  rw [bigSep_eq_bigSepL_of_eq [1, 2, 3, 4, 5, 6, 7, 8, 9, 10, 11, 12, 13, 14, 15, 16, 17, 18, 19, 20, 21, 22, 23, 24, 25, 26, 27, 28, 29, 30, 31] (by decide) (by decide)]; rfl
/-- What the barrier duty `o` of device `c` hands `c`: the two landing slots `32 - o` of the device that paid it. -/
theorem pay_barown (S1c : (c : Dev nD) → Buf (Elt F) (st1.view.loc (c : Thread nD τ))) (Y2c : (c : Dev nD) → Buf (Elt F) (st2.view.loc (c : Thread nD τ)))
    (c : Dev nD) (o : ℕ) (ho : 1 ≤ o ∧ o ≤ 31) (h32 : 32 - o < 32) : (sched (F := F) S1c Y2c).payload (barCell c) 0 o
    = iprop((∃ fa, ((slotM cm1 (32 - o) h32).view.loc (rot c (32 - o) : Thread nD τ) ↦[(slotM cm1 (32 - o) h32).view.set]{fullShare} fa : sProp 𝕄))
      ∗ (∃ fb, ((slotM cm2 (32 - o) h32).view.loc (rot c (32 - o) : Thread nD τ) ↦[(slotM cm2 (32 - o) h32).view.set]{fullShare} fb : sProp 𝕄))
      ∗ reached ER (r1Cell (rot c (32 - o)) (32 - o) h32) 0 ∗ reached ER (r2Cell (rot c (32 - o)) (32 - o) h32) 0) := by
  dsimp only [sched]; rw [dif_pos ⟨rfl, ho⟩]; rfl

/-! ## The run -/

set_option maxHeartbeats 32000000 in
set_option maxRecDepth 65536 in
theorem body_run (K : Dev nD × CK → ℕ) (c : Dev nD) (W : Waits sig Unit) (m : (ℓ : Loc nD τ sig) → Buf (Elt F) ℓ)
    (fO : Buf (Elt F) (oR.view.loc (c : Thread nD τ))) (f0 : Buf (Elt F) (tV.view.loc (c : Thread nD τ)))
    (f1 : Buf (Elt F) (st1.view.loc (c : Thread nD τ))) (f3 : Buf (Elt F) (st2.view.loc (c : Thread nD τ)))
    (f5 : Buf (Elt F) (sto.view.loc (c : Thread nD τ)))
    (g1 : Buf (Elt F) (cm1.view.loc (c : Thread nD τ))) (g2 : Buf (Elt F) (cm2.view.loc (c : Thread nD τ)))
    (Kt : PUnit → sProp 𝕄) :
    iprop(bodyStart (F := F) (S1def m) (Y2def m) c g1 g2 K W fO f0 f1 f3 f5 m ∗ ((∃ W', bodyEnd (F := F) c (OUTdef m) m W') -∗ Kt ⟨⟩))
      ⊢ wp frame (wpE (defs₀ (F := F)) 𝒱₀ (c : Thread nD τ) none) Set.univ
          (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Kt := by
  unfold bodyStart owed93
  iintro ⟨⟨#Hrec, #Hlev, HO, HzIn, HT, HOo, Hs0, Hs1, Hs3, Hs5, HaBar, HcBar, HLoc, HSigAll, HBAll, HCAll, HDAll, HEAll, HFAll⟩, Hk⟩
  -- the 31 barrier signals
  ihave Hx := (held_elim _) $$ HSigAll
  icases Hx with ⟨HSig1, HSig2, HSig3, HSig4, HSig5, HSig6, HSig7, HSig8, HSig9, HSig10, HSig11, HSig12, HSig13, HSig14, HSig15, HSig16, HSig17, HSig18, HSig19, HSig20, HSig21, HSig22, HSig23, HSig24, HSig25, HSig26, HSig27, HSig28, HSig29, HSig30, HSig31⟩
  -- the barrier signal at offset 1: its token and the two landing slots 31 go to the device 1 positions after
  ihave #HIb := (inv_barp_1 (S1def m) (Y2def m) K c) $$ Hrec
  ihave #Hrb := (rch_barp_1 (S1def m) (Y2def m) K c) $$ Hrec
  ihave #Hq1 := (rch_r1_31 (S1def m) (Y2def m) K c) $$ Hrec
  ihave #Hq2 := (rch_r2_31 (S1def m) (Y2def m) K c) $$ Hrec
  ihave Hx := (held_elim _) $$ HSig1
  icases Hx with ⟨Htb, Hc1, Hc2⟩
  sl_exec_parts
  iclear HIb Hrb Hq1 Hq2
  -- the barrier signal at offset 2: its token and the two landing slots 30 go to the device 2 positions after
  ihave #HIb := (inv_barp_2 (S1def m) (Y2def m) K c) $$ Hrec
  ihave #Hrb := (rch_barp_2 (S1def m) (Y2def m) K c) $$ Hrec
  ihave #Hq1 := (rch_r1_30 (S1def m) (Y2def m) K c) $$ Hrec
  ihave #Hq2 := (rch_r2_30 (S1def m) (Y2def m) K c) $$ Hrec
  ihave Hx := (held_elim _) $$ HSig2
  icases Hx with ⟨Htb, Hc1, Hc2⟩
  sl_exec_parts
  iclear HIb Hrb Hq1 Hq2
  -- the barrier signal at offset 3: its token and the two landing slots 29 go to the device 3 positions after
  ihave #HIb := (inv_barp_3 (S1def m) (Y2def m) K c) $$ Hrec
  ihave #Hrb := (rch_barp_3 (S1def m) (Y2def m) K c) $$ Hrec
  ihave #Hq1 := (rch_r1_29 (S1def m) (Y2def m) K c) $$ Hrec
  ihave #Hq2 := (rch_r2_29 (S1def m) (Y2def m) K c) $$ Hrec
  ihave Hx := (held_elim _) $$ HSig3
  icases Hx with ⟨Htb, Hc1, Hc2⟩
  sl_exec_parts
  iclear HIb Hrb Hq1 Hq2
  -- the barrier signal at offset 4: its token and the two landing slots 28 go to the device 4 positions after
  ihave #HIb := (inv_barp_4 (S1def m) (Y2def m) K c) $$ Hrec
  ihave #Hrb := (rch_barp_4 (S1def m) (Y2def m) K c) $$ Hrec
  ihave #Hq1 := (rch_r1_28 (S1def m) (Y2def m) K c) $$ Hrec
  ihave #Hq2 := (rch_r2_28 (S1def m) (Y2def m) K c) $$ Hrec
  ihave Hx := (held_elim _) $$ HSig4
  icases Hx with ⟨Htb, Hc1, Hc2⟩
  sl_exec_parts
  iclear HIb Hrb Hq1 Hq2
  -- the barrier signal at offset 5: its token and the two landing slots 27 go to the device 5 positions after
  ihave #HIb := (inv_barp_5 (S1def m) (Y2def m) K c) $$ Hrec
  ihave #Hrb := (rch_barp_5 (S1def m) (Y2def m) K c) $$ Hrec
  ihave #Hq1 := (rch_r1_27 (S1def m) (Y2def m) K c) $$ Hrec
  ihave #Hq2 := (rch_r2_27 (S1def m) (Y2def m) K c) $$ Hrec
  ihave Hx := (held_elim _) $$ HSig5
  icases Hx with ⟨Htb, Hc1, Hc2⟩
  sl_exec_parts
  iclear HIb Hrb Hq1 Hq2
  -- the barrier signal at offset 6: its token and the two landing slots 26 go to the device 6 positions after
  ihave #HIb := (inv_barp_6 (S1def m) (Y2def m) K c) $$ Hrec
  ihave #Hrb := (rch_barp_6 (S1def m) (Y2def m) K c) $$ Hrec
  ihave #Hq1 := (rch_r1_26 (S1def m) (Y2def m) K c) $$ Hrec
  ihave #Hq2 := (rch_r2_26 (S1def m) (Y2def m) K c) $$ Hrec
  ihave Hx := (held_elim _) $$ HSig6
  icases Hx with ⟨Htb, Hc1, Hc2⟩
  sl_exec_parts
  iclear HIb Hrb Hq1 Hq2
  -- the barrier signal at offset 7: its token and the two landing slots 25 go to the device 7 positions after
  ihave #HIb := (inv_barp_7 (S1def m) (Y2def m) K c) $$ Hrec
  ihave #Hrb := (rch_barp_7 (S1def m) (Y2def m) K c) $$ Hrec
  ihave #Hq1 := (rch_r1_25 (S1def m) (Y2def m) K c) $$ Hrec
  ihave #Hq2 := (rch_r2_25 (S1def m) (Y2def m) K c) $$ Hrec
  ihave Hx := (held_elim _) $$ HSig7
  icases Hx with ⟨Htb, Hc1, Hc2⟩
  sl_exec_parts
  iclear HIb Hrb Hq1 Hq2
  -- the barrier signal at offset 8: its token and the two landing slots 24 go to the device 8 positions after
  ihave #HIb := (inv_barp_8 (S1def m) (Y2def m) K c) $$ Hrec
  ihave #Hrb := (rch_barp_8 (S1def m) (Y2def m) K c) $$ Hrec
  ihave #Hq1 := (rch_r1_24 (S1def m) (Y2def m) K c) $$ Hrec
  ihave #Hq2 := (rch_r2_24 (S1def m) (Y2def m) K c) $$ Hrec
  ihave Hx := (held_elim _) $$ HSig8
  icases Hx with ⟨Htb, Hc1, Hc2⟩
  sl_exec_parts
  iclear HIb Hrb Hq1 Hq2
  -- the barrier signal at offset 9: its token and the two landing slots 23 go to the device 9 positions after
  ihave #HIb := (inv_barp_9 (S1def m) (Y2def m) K c) $$ Hrec
  ihave #Hrb := (rch_barp_9 (S1def m) (Y2def m) K c) $$ Hrec
  ihave #Hq1 := (rch_r1_23 (S1def m) (Y2def m) K c) $$ Hrec
  ihave #Hq2 := (rch_r2_23 (S1def m) (Y2def m) K c) $$ Hrec
  ihave Hx := (held_elim _) $$ HSig9
  icases Hx with ⟨Htb, Hc1, Hc2⟩
  sl_exec_parts
  iclear HIb Hrb Hq1 Hq2
  -- the barrier signal at offset 10: its token and the two landing slots 22 go to the device 10 positions after
  ihave #HIb := (inv_barp_10 (S1def m) (Y2def m) K c) $$ Hrec
  ihave #Hrb := (rch_barp_10 (S1def m) (Y2def m) K c) $$ Hrec
  ihave #Hq1 := (rch_r1_22 (S1def m) (Y2def m) K c) $$ Hrec
  ihave #Hq2 := (rch_r2_22 (S1def m) (Y2def m) K c) $$ Hrec
  ihave Hx := (held_elim _) $$ HSig10
  icases Hx with ⟨Htb, Hc1, Hc2⟩
  sl_exec_parts
  iclear HIb Hrb Hq1 Hq2
  -- the barrier signal at offset 11: its token and the two landing slots 21 go to the device 11 positions after
  ihave #HIb := (inv_barp_11 (S1def m) (Y2def m) K c) $$ Hrec
  ihave #Hrb := (rch_barp_11 (S1def m) (Y2def m) K c) $$ Hrec
  ihave #Hq1 := (rch_r1_21 (S1def m) (Y2def m) K c) $$ Hrec
  ihave #Hq2 := (rch_r2_21 (S1def m) (Y2def m) K c) $$ Hrec
  ihave Hx := (held_elim _) $$ HSig11
  icases Hx with ⟨Htb, Hc1, Hc2⟩
  sl_exec_parts
  iclear HIb Hrb Hq1 Hq2
  -- the barrier signal at offset 12: its token and the two landing slots 20 go to the device 12 positions after
  ihave #HIb := (inv_barp_12 (S1def m) (Y2def m) K c) $$ Hrec
  ihave #Hrb := (rch_barp_12 (S1def m) (Y2def m) K c) $$ Hrec
  ihave #Hq1 := (rch_r1_20 (S1def m) (Y2def m) K c) $$ Hrec
  ihave #Hq2 := (rch_r2_20 (S1def m) (Y2def m) K c) $$ Hrec
  ihave Hx := (held_elim _) $$ HSig12
  icases Hx with ⟨Htb, Hc1, Hc2⟩
  sl_exec_parts
  iclear HIb Hrb Hq1 Hq2
  -- the barrier signal at offset 13: its token and the two landing slots 19 go to the device 13 positions after
  ihave #HIb := (inv_barp_13 (S1def m) (Y2def m) K c) $$ Hrec
  ihave #Hrb := (rch_barp_13 (S1def m) (Y2def m) K c) $$ Hrec
  ihave #Hq1 := (rch_r1_19 (S1def m) (Y2def m) K c) $$ Hrec
  ihave #Hq2 := (rch_r2_19 (S1def m) (Y2def m) K c) $$ Hrec
  ihave Hx := (held_elim _) $$ HSig13
  icases Hx with ⟨Htb, Hc1, Hc2⟩
  sl_exec_parts
  iclear HIb Hrb Hq1 Hq2
  -- the barrier signal at offset 14: its token and the two landing slots 18 go to the device 14 positions after
  ihave #HIb := (inv_barp_14 (S1def m) (Y2def m) K c) $$ Hrec
  ihave #Hrb := (rch_barp_14 (S1def m) (Y2def m) K c) $$ Hrec
  ihave #Hq1 := (rch_r1_18 (S1def m) (Y2def m) K c) $$ Hrec
  ihave #Hq2 := (rch_r2_18 (S1def m) (Y2def m) K c) $$ Hrec
  ihave Hx := (held_elim _) $$ HSig14
  icases Hx with ⟨Htb, Hc1, Hc2⟩
  sl_exec_parts
  iclear HIb Hrb Hq1 Hq2
  -- the barrier signal at offset 15: its token and the two landing slots 17 go to the device 15 positions after
  ihave #HIb := (inv_barp_15 (S1def m) (Y2def m) K c) $$ Hrec
  ihave #Hrb := (rch_barp_15 (S1def m) (Y2def m) K c) $$ Hrec
  ihave #Hq1 := (rch_r1_17 (S1def m) (Y2def m) K c) $$ Hrec
  ihave #Hq2 := (rch_r2_17 (S1def m) (Y2def m) K c) $$ Hrec
  ihave Hx := (held_elim _) $$ HSig15
  icases Hx with ⟨Htb, Hc1, Hc2⟩
  sl_exec_parts
  iclear HIb Hrb Hq1 Hq2
  -- the barrier signal at offset 16: its token and the two landing slots 16 go to the device 16 positions after
  ihave #HIb := (inv_barp_16 (S1def m) (Y2def m) K c) $$ Hrec
  ihave #Hrb := (rch_barp_16 (S1def m) (Y2def m) K c) $$ Hrec
  ihave #Hq1 := (rch_r1_16 (S1def m) (Y2def m) K c) $$ Hrec
  ihave #Hq2 := (rch_r2_16 (S1def m) (Y2def m) K c) $$ Hrec
  ihave Hx := (held_elim _) $$ HSig16
  icases Hx with ⟨Htb, Hc1, Hc2⟩
  sl_exec_parts
  iclear HIb Hrb Hq1 Hq2
  -- the barrier signal at offset 17: its token and the two landing slots 15 go to the device 17 positions after
  ihave #HIb := (inv_barp_17 (S1def m) (Y2def m) K c) $$ Hrec
  ihave #Hrb := (rch_barp_17 (S1def m) (Y2def m) K c) $$ Hrec
  ihave #Hq1 := (rch_r1_15 (S1def m) (Y2def m) K c) $$ Hrec
  ihave #Hq2 := (rch_r2_15 (S1def m) (Y2def m) K c) $$ Hrec
  ihave Hx := (held_elim _) $$ HSig17
  icases Hx with ⟨Htb, Hc1, Hc2⟩
  sl_exec_parts
  iclear HIb Hrb Hq1 Hq2
  -- the barrier signal at offset 18: its token and the two landing slots 14 go to the device 18 positions after
  ihave #HIb := (inv_barp_18 (S1def m) (Y2def m) K c) $$ Hrec
  ihave #Hrb := (rch_barp_18 (S1def m) (Y2def m) K c) $$ Hrec
  ihave #Hq1 := (rch_r1_14 (S1def m) (Y2def m) K c) $$ Hrec
  ihave #Hq2 := (rch_r2_14 (S1def m) (Y2def m) K c) $$ Hrec
  ihave Hx := (held_elim _) $$ HSig18
  icases Hx with ⟨Htb, Hc1, Hc2⟩
  sl_exec_parts
  iclear HIb Hrb Hq1 Hq2
  -- the barrier signal at offset 19: its token and the two landing slots 13 go to the device 19 positions after
  ihave #HIb := (inv_barp_19 (S1def m) (Y2def m) K c) $$ Hrec
  ihave #Hrb := (rch_barp_19 (S1def m) (Y2def m) K c) $$ Hrec
  ihave #Hq1 := (rch_r1_13 (S1def m) (Y2def m) K c) $$ Hrec
  ihave #Hq2 := (rch_r2_13 (S1def m) (Y2def m) K c) $$ Hrec
  ihave Hx := (held_elim _) $$ HSig19
  icases Hx with ⟨Htb, Hc1, Hc2⟩
  sl_exec_parts
  iclear HIb Hrb Hq1 Hq2
  -- the barrier signal at offset 20: its token and the two landing slots 12 go to the device 20 positions after
  ihave #HIb := (inv_barp_20 (S1def m) (Y2def m) K c) $$ Hrec
  ihave #Hrb := (rch_barp_20 (S1def m) (Y2def m) K c) $$ Hrec
  ihave #Hq1 := (rch_r1_12 (S1def m) (Y2def m) K c) $$ Hrec
  ihave #Hq2 := (rch_r2_12 (S1def m) (Y2def m) K c) $$ Hrec
  ihave Hx := (held_elim _) $$ HSig20
  icases Hx with ⟨Htb, Hc1, Hc2⟩
  sl_exec_parts
  iclear HIb Hrb Hq1 Hq2
  -- the barrier signal at offset 21: its token and the two landing slots 11 go to the device 21 positions after
  ihave #HIb := (inv_barp_21 (S1def m) (Y2def m) K c) $$ Hrec
  ihave #Hrb := (rch_barp_21 (S1def m) (Y2def m) K c) $$ Hrec
  ihave #Hq1 := (rch_r1_11 (S1def m) (Y2def m) K c) $$ Hrec
  ihave #Hq2 := (rch_r2_11 (S1def m) (Y2def m) K c) $$ Hrec
  ihave Hx := (held_elim _) $$ HSig21
  icases Hx with ⟨Htb, Hc1, Hc2⟩
  sl_exec_parts
  iclear HIb Hrb Hq1 Hq2
  -- the barrier signal at offset 22: its token and the two landing slots 10 go to the device 22 positions after
  ihave #HIb := (inv_barp_22 (S1def m) (Y2def m) K c) $$ Hrec
  ihave #Hrb := (rch_barp_22 (S1def m) (Y2def m) K c) $$ Hrec
  ihave #Hq1 := (rch_r1_10 (S1def m) (Y2def m) K c) $$ Hrec
  ihave #Hq2 := (rch_r2_10 (S1def m) (Y2def m) K c) $$ Hrec
  ihave Hx := (held_elim _) $$ HSig22
  icases Hx with ⟨Htb, Hc1, Hc2⟩
  sl_exec_parts
  iclear HIb Hrb Hq1 Hq2
  -- the barrier signal at offset 23: its token and the two landing slots 9 go to the device 23 positions after
  ihave #HIb := (inv_barp_23 (S1def m) (Y2def m) K c) $$ Hrec
  ihave #Hrb := (rch_barp_23 (S1def m) (Y2def m) K c) $$ Hrec
  ihave #Hq1 := (rch_r1_9 (S1def m) (Y2def m) K c) $$ Hrec
  ihave #Hq2 := (rch_r2_9 (S1def m) (Y2def m) K c) $$ Hrec
  ihave Hx := (held_elim _) $$ HSig23
  icases Hx with ⟨Htb, Hc1, Hc2⟩
  sl_exec_parts
  iclear HIb Hrb Hq1 Hq2
  -- the barrier signal at offset 24: its token and the two landing slots 8 go to the device 24 positions after
  ihave #HIb := (inv_barp_24 (S1def m) (Y2def m) K c) $$ Hrec
  ihave #Hrb := (rch_barp_24 (S1def m) (Y2def m) K c) $$ Hrec
  ihave #Hq1 := (rch_r1_8 (S1def m) (Y2def m) K c) $$ Hrec
  ihave #Hq2 := (rch_r2_8 (S1def m) (Y2def m) K c) $$ Hrec
  ihave Hx := (held_elim _) $$ HSig24
  icases Hx with ⟨Htb, Hc1, Hc2⟩
  sl_exec_parts
  iclear HIb Hrb Hq1 Hq2
  -- the barrier signal at offset 25: its token and the two landing slots 7 go to the device 25 positions after
  ihave #HIb := (inv_barp_25 (S1def m) (Y2def m) K c) $$ Hrec
  ihave #Hrb := (rch_barp_25 (S1def m) (Y2def m) K c) $$ Hrec
  ihave #Hq1 := (rch_r1_7 (S1def m) (Y2def m) K c) $$ Hrec
  ihave #Hq2 := (rch_r2_7 (S1def m) (Y2def m) K c) $$ Hrec
  ihave Hx := (held_elim _) $$ HSig25
  icases Hx with ⟨Htb, Hc1, Hc2⟩
  sl_exec_parts
  iclear HIb Hrb Hq1 Hq2
  -- the barrier signal at offset 26: its token and the two landing slots 6 go to the device 26 positions after
  ihave #HIb := (inv_barp_26 (S1def m) (Y2def m) K c) $$ Hrec
  ihave #Hrb := (rch_barp_26 (S1def m) (Y2def m) K c) $$ Hrec
  ihave #Hq1 := (rch_r1_6 (S1def m) (Y2def m) K c) $$ Hrec
  ihave #Hq2 := (rch_r2_6 (S1def m) (Y2def m) K c) $$ Hrec
  ihave Hx := (held_elim _) $$ HSig26
  icases Hx with ⟨Htb, Hc1, Hc2⟩
  sl_exec_parts
  iclear HIb Hrb Hq1 Hq2
  -- the barrier signal at offset 27: its token and the two landing slots 5 go to the device 27 positions after
  ihave #HIb := (inv_barp_27 (S1def m) (Y2def m) K c) $$ Hrec
  ihave #Hrb := (rch_barp_27 (S1def m) (Y2def m) K c) $$ Hrec
  ihave #Hq1 := (rch_r1_5 (S1def m) (Y2def m) K c) $$ Hrec
  ihave #Hq2 := (rch_r2_5 (S1def m) (Y2def m) K c) $$ Hrec
  ihave Hx := (held_elim _) $$ HSig27
  icases Hx with ⟨Htb, Hc1, Hc2⟩
  sl_exec_parts
  iclear HIb Hrb Hq1 Hq2
  -- the barrier signal at offset 28: its token and the two landing slots 4 go to the device 28 positions after
  ihave #HIb := (inv_barp_28 (S1def m) (Y2def m) K c) $$ Hrec
  ihave #Hrb := (rch_barp_28 (S1def m) (Y2def m) K c) $$ Hrec
  ihave #Hq1 := (rch_r1_4 (S1def m) (Y2def m) K c) $$ Hrec
  ihave #Hq2 := (rch_r2_4 (S1def m) (Y2def m) K c) $$ Hrec
  ihave Hx := (held_elim _) $$ HSig28
  icases Hx with ⟨Htb, Hc1, Hc2⟩
  sl_exec_parts
  iclear HIb Hrb Hq1 Hq2
  -- the barrier signal at offset 29: its token and the two landing slots 3 go to the device 29 positions after
  ihave #HIb := (inv_barp_29 (S1def m) (Y2def m) K c) $$ Hrec
  ihave #Hrb := (rch_barp_29 (S1def m) (Y2def m) K c) $$ Hrec
  ihave #Hq1 := (rch_r1_3 (S1def m) (Y2def m) K c) $$ Hrec
  ihave #Hq2 := (rch_r2_3 (S1def m) (Y2def m) K c) $$ Hrec
  ihave Hx := (held_elim _) $$ HSig29
  icases Hx with ⟨Htb, Hc1, Hc2⟩
  sl_exec_parts
  iclear HIb Hrb Hq1 Hq2
  -- the barrier signal at offset 30: its token and the two landing slots 2 go to the device 30 positions after
  ihave #HIb := (inv_barp_30 (S1def m) (Y2def m) K c) $$ Hrec
  ihave #Hrb := (rch_barp_30 (S1def m) (Y2def m) K c) $$ Hrec
  ihave #Hq1 := (rch_r1_2 (S1def m) (Y2def m) K c) $$ Hrec
  ihave #Hq2 := (rch_r2_2 (S1def m) (Y2def m) K c) $$ Hrec
  ihave Hx := (held_elim _) $$ HSig30
  icases Hx with ⟨Htb, Hc1, Hc2⟩
  sl_exec_parts
  iclear HIb Hrb Hq1 Hq2
  -- the barrier signal at offset 31: its token and the two landing slots 1 go to the device 31 positions after
  ihave #HIb := (inv_barp_31 (S1def m) (Y2def m) K c) $$ Hrec
  ihave #Hrb := (rch_barp_31 (S1def m) (Y2def m) K c) $$ Hrec
  ihave #Hq1 := (rch_r1_1 (S1def m) (Y2def m) K c) $$ Hrec
  ihave #Hq2 := (rch_r2_1 (S1def m) (Y2def m) K c) $$ Hrec
  ihave Hx := (held_elim _) $$ HSig31
  icases Hx with ⟨Htb, Hc1, Hc2⟩
  sl_exec_parts
  iclear HIb Hrb Hq1 Hq2
  -- the input copy's wait, the narrowing store, and the wait for the 31 barrier units
  ihave #HIbar := (inv_bar (S1def m) (Y2def m) K c) $$ Hrec
  have hmwIn := mayWait62 (F := F) c (.dma cc0_scratch6.sem) (by show (0 : ℕ) < 2; decide)
  have hmwBar := mayWait62 (F := F) c (.reg barS) (by show (1 : ℕ) < 2; decide)
  sl_exec_parts
  iclear HIbar
  -- what the 31 signals handed over: per peer, its two landing slots
  ihave Hp := (Entails.of_eq (icc_chain _)) $$ HaBar_pay1
  icases Hp with ⟨P1, P2, P3, P4, P5, P6, P7, P8, P9, P10, P11, P12, P13, P14, P15, P16, P17, P18, P19, P20, P21, P22, P23, P24, P25, P26, P27, P28, P29, P30, P31⟩
  ihave HP31 := (held_intro _) $$ P1
  ihave HP30 := (held_intro _) $$ P2
  ihave HP29 := (held_intro _) $$ P3
  ihave HP28 := (held_intro _) $$ P4
  ihave HP27 := (held_intro _) $$ P5
  ihave HP26 := (held_intro _) $$ P6
  ihave HP25 := (held_intro _) $$ P7
  ihave HP24 := (held_intro _) $$ P8
  ihave HP23 := (held_intro _) $$ P9
  ihave HP22 := (held_intro _) $$ P10
  ihave HP21 := (held_intro _) $$ P11
  ihave HP20 := (held_intro _) $$ P12
  ihave HP19 := (held_intro _) $$ P13
  ihave HP18 := (held_intro _) $$ P14
  ihave HP17 := (held_intro _) $$ P15
  ihave HP16 := (held_intro _) $$ P16
  ihave HP15 := (held_intro _) $$ P17
  ihave HP14 := (held_intro _) $$ P18
  ihave HP13 := (held_intro _) $$ P19
  ihave HP12 := (held_intro _) $$ P20
  ihave HP11 := (held_intro _) $$ P21
  ihave HP10 := (held_intro _) $$ P22
  ihave HP9 := (held_intro _) $$ P23
  ihave HP8 := (held_intro _) $$ P24
  ihave HP7 := (held_intro _) $$ P25
  ihave HP6 := (held_intro _) $$ P26
  ihave HP5 := (held_intro _) $$ P27
  ihave HP4 := (held_intro _) $$ P28
  ihave HP3 := (held_intro _) $$ P29
  ihave HP2 := (held_intro _) $$ P30
  ihave HP1 := (held_intro _) $$ P31
  -- the narrowed block, cut into the rows each transfer lends
  have hS1 : st1.view.writes (Elt F) f1 (body_run.sl.Hs1_1 c m f0) = S1def m c := st1_contents m c f0 f1
  rw [hS1]
  ihave Hrows := (st1_split (F := F) c (S1def m c)) $$ Hs1
  icases Hrows with ⟨HrowOwn, Hrow1, Hrow2, Hrow3, Hrow4, Hrow5, Hrow6, Hrow7, Hrow8, Hrow9, Hrow10, Hrow11, Hrow12, Hrow13, Hrow14, Hrow15, Hrow16, Hrow17, Hrow18, Hrow19, Hrow20, Hrow21, Hrow22, Hrow23, Hrow24, Hrow25, Hrow26, Hrow27, Hrow28, Hrow29, Hrow30, Hrow31⟩
  ihave Hx := (held_elim _) $$ HBAll
  icases Hx with ⟨HB1, HB2, HB3, HB4, HB5, HB6, HB7, HB8, HB9, HB10, HB11, HB12, HB13, HB14, HB15, HB16, HB17, HB18, HB19, HB20, HB21, HB22, HB23, HB24, HB25, HB26, HB27, HB28, HB29, HB30, HB31⟩
  -- the first exchange's transfer at offset 1
  ihave Px := ((held_elim _).trans (Entails.of_eq (pay_barown (S1def m) (Y2def m) c 31 hk_31 ho_1))) $$ HP1
  icases Px with ⟨⟨%fa1, Ha⟩, Hb, -, -⟩
  ihave HAccPb := (held_intro _) $$ Hb
  ihave Xx := (held_elim _) $$ HB1
  icases Xx with ⟨Hts1, Htr1p⟩
  ihave #HI1 := (inv_s1_1 (S1def m) (Y2def m) K c) $$ Hrec
  ihave #HI2 := (inv_r1p_1 (S1def m) (Y2def m) K c) $$ Hrec
  ihave #Hr1 := (rch_s1_1 (S1def m) (Y2def m) K c) $$ Hrec
  ihave #Hr2 := (rch_r1p_1 (S1def m) (Y2def m) K c) $$ Hrec
  iapply (wp_send1 (S1def m) (Y2def m) c _ 1 (dev32_eq c) hk_1 ho_1 _ _ (by rw [duties_0_1]; exact Finset.mem_singleton_self _) (by rw [duties_1_1]; exact Finset.mem_singleton_self _)
      (pay_0_1 (S1def m) (Y2def m) c 0 0) (pay_1_1 (S1def m) (Y2def m) (rot c 1) 0 0) fa1 _ _) $$ [Hrow1 Ha HO Hts1 Htr1p]
  · isplitr; · iexact HI1
    isplitr; · iexact HI2
    isplitl [Hrow1]; · iexact Hrow1
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_intro _) $$ Hcs
  iclear HI1 HI2 Hr1 Hr2
  sl_exec_parts
  -- the first exchange's transfer at offset 2
  ihave Px := ((held_elim _).trans (Entails.of_eq (pay_barown (S1def m) (Y2def m) c 30 hk_30 ho_2))) $$ HP2
  icases Px with ⟨⟨%fa2, Ha⟩, Hb, -, -⟩
  ihave HAccPb := (held_push _ _) $$ [Hb HAccPb]
  · isplitl [Hb]
    · iexact Hb
    · iexact HAccPb
  ihave Xx := (held_elim _) $$ HB2
  icases Xx with ⟨Hts1, Htr1p⟩
  ihave #HI1 := (inv_s1_2 (S1def m) (Y2def m) K c) $$ Hrec
  ihave #HI2 := (inv_r1p_2 (S1def m) (Y2def m) K c) $$ Hrec
  ihave #Hr1 := (rch_s1_2 (S1def m) (Y2def m) K c) $$ Hrec
  ihave #Hr2 := (rch_r1p_2 (S1def m) (Y2def m) K c) $$ Hrec
  iapply (wp_send1 (S1def m) (Y2def m) c _ 2 (dev33_eq c) hk_2 ho_2 _ _ (by rw [duties_0_2]; exact Finset.mem_singleton_self _) (by rw [duties_1_2]; exact Finset.mem_singleton_self _)
      (pay_0_2 (S1def m) (Y2def m) c 0 0) (pay_1_2 (S1def m) (Y2def m) (rot c 2) 0 0) fa2 _ _) $$ [Hrow2 Ha HO Hts1 Htr1p]
  · isplitr; · iexact HI1
    isplitr; · iexact HI2
    isplitl [Hrow2]; · iexact Hrow2
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 3
  ihave Px := ((held_elim _).trans (Entails.of_eq (pay_barown (S1def m) (Y2def m) c 29 hk_29 ho_3))) $$ HP3
  icases Px with ⟨⟨%fa3, Ha⟩, Hb, -, -⟩
  ihave HAccPb := (held_push _ _) $$ [Hb HAccPb]
  · isplitl [Hb]
    · iexact Hb
    · iexact HAccPb
  ihave Xx := (held_elim _) $$ HB3
  icases Xx with ⟨Hts1, Htr1p⟩
  ihave #HI1 := (inv_s1_3 (S1def m) (Y2def m) K c) $$ Hrec
  ihave #HI2 := (inv_r1p_3 (S1def m) (Y2def m) K c) $$ Hrec
  ihave #Hr1 := (rch_s1_3 (S1def m) (Y2def m) K c) $$ Hrec
  ihave #Hr2 := (rch_r1p_3 (S1def m) (Y2def m) K c) $$ Hrec
  iapply (wp_send1 (S1def m) (Y2def m) c _ 3 (dev34_eq c) hk_3 ho_3 _ _ (by rw [duties_0_3]; exact Finset.mem_singleton_self _) (by rw [duties_1_3]; exact Finset.mem_singleton_self _)
      (pay_0_3 (S1def m) (Y2def m) c 0 0) (pay_1_3 (S1def m) (Y2def m) (rot c 3) 0 0) fa3 _ _) $$ [Hrow3 Ha HO Hts1 Htr1p]
  · isplitr; · iexact HI1
    isplitr; · iexact HI2
    isplitl [Hrow3]; · iexact Hrow3
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 4
  ihave Px := ((held_elim _).trans (Entails.of_eq (pay_barown (S1def m) (Y2def m) c 28 hk_28 ho_4))) $$ HP4
  icases Px with ⟨⟨%fa4, Ha⟩, Hb, -, -⟩
  ihave HAccPb := (held_push _ _) $$ [Hb HAccPb]
  · isplitl [Hb]
    · iexact Hb
    · iexact HAccPb
  ihave Xx := (held_elim _) $$ HB4
  icases Xx with ⟨Hts1, Htr1p⟩
  ihave #HI1 := (inv_s1_4 (S1def m) (Y2def m) K c) $$ Hrec
  ihave #HI2 := (inv_r1p_4 (S1def m) (Y2def m) K c) $$ Hrec
  ihave #Hr1 := (rch_s1_4 (S1def m) (Y2def m) K c) $$ Hrec
  ihave #Hr2 := (rch_r1p_4 (S1def m) (Y2def m) K c) $$ Hrec
  iapply (wp_send1 (S1def m) (Y2def m) c _ 4 (dev35_eq c) hk_4 ho_4 _ _ (by rw [duties_0_4]; exact Finset.mem_singleton_self _) (by rw [duties_1_4]; exact Finset.mem_singleton_self _)
      (pay_0_4 (S1def m) (Y2def m) c 0 0) (pay_1_4 (S1def m) (Y2def m) (rot c 4) 0 0) fa4 _ _) $$ [Hrow4 Ha HO Hts1 Htr1p]
  · isplitr; · iexact HI1
    isplitr; · iexact HI2
    isplitl [Hrow4]; · iexact Hrow4
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 5
  ihave Px := ((held_elim _).trans (Entails.of_eq (pay_barown (S1def m) (Y2def m) c 27 hk_27 ho_5))) $$ HP5
  icases Px with ⟨⟨%fa5, Ha⟩, Hb, -, -⟩
  ihave HAccPb := (held_push _ _) $$ [Hb HAccPb]
  · isplitl [Hb]
    · iexact Hb
    · iexact HAccPb
  ihave Xx := (held_elim _) $$ HB5
  icases Xx with ⟨Hts1, Htr1p⟩
  ihave #HI1 := (inv_s1_5 (S1def m) (Y2def m) K c) $$ Hrec
  ihave #HI2 := (inv_r1p_5 (S1def m) (Y2def m) K c) $$ Hrec
  ihave #Hr1 := (rch_s1_5 (S1def m) (Y2def m) K c) $$ Hrec
  ihave #Hr2 := (rch_r1p_5 (S1def m) (Y2def m) K c) $$ Hrec
  iapply (wp_send1 (S1def m) (Y2def m) c _ 5 (dev36_eq c) hk_5 ho_5 _ _ (by rw [duties_0_5]; exact Finset.mem_singleton_self _) (by rw [duties_1_5]; exact Finset.mem_singleton_self _)
      (pay_0_5 (S1def m) (Y2def m) c 0 0) (pay_1_5 (S1def m) (Y2def m) (rot c 5) 0 0) fa5 _ _) $$ [Hrow5 Ha HO Hts1 Htr1p]
  · isplitr; · iexact HI1
    isplitr; · iexact HI2
    isplitl [Hrow5]; · iexact Hrow5
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 6
  ihave Px := ((held_elim _).trans (Entails.of_eq (pay_barown (S1def m) (Y2def m) c 26 hk_26 ho_6))) $$ HP6
  icases Px with ⟨⟨%fa6, Ha⟩, Hb, -, -⟩
  ihave HAccPb := (held_push _ _) $$ [Hb HAccPb]
  · isplitl [Hb]
    · iexact Hb
    · iexact HAccPb
  ihave Xx := (held_elim _) $$ HB6
  icases Xx with ⟨Hts1, Htr1p⟩
  ihave #HI1 := (inv_s1_6 (S1def m) (Y2def m) K c) $$ Hrec
  ihave #HI2 := (inv_r1p_6 (S1def m) (Y2def m) K c) $$ Hrec
  ihave #Hr1 := (rch_s1_6 (S1def m) (Y2def m) K c) $$ Hrec
  ihave #Hr2 := (rch_r1p_6 (S1def m) (Y2def m) K c) $$ Hrec
  iapply (wp_send1 (S1def m) (Y2def m) c _ 6 (dev37_eq c) hk_6 ho_6 _ _ (by rw [duties_0_6]; exact Finset.mem_singleton_self _) (by rw [duties_1_6]; exact Finset.mem_singleton_self _)
      (pay_0_6 (S1def m) (Y2def m) c 0 0) (pay_1_6 (S1def m) (Y2def m) (rot c 6) 0 0) fa6 _ _) $$ [Hrow6 Ha HO Hts1 Htr1p]
  · isplitr; · iexact HI1
    isplitr; · iexact HI2
    isplitl [Hrow6]; · iexact Hrow6
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 7
  ihave Px := ((held_elim _).trans (Entails.of_eq (pay_barown (S1def m) (Y2def m) c 25 hk_25 ho_7))) $$ HP7
  icases Px with ⟨⟨%fa7, Ha⟩, Hb, -, -⟩
  ihave HAccPb := (held_push _ _) $$ [Hb HAccPb]
  · isplitl [Hb]
    · iexact Hb
    · iexact HAccPb
  ihave Xx := (held_elim _) $$ HB7
  icases Xx with ⟨Hts1, Htr1p⟩
  ihave #HI1 := (inv_s1_7 (S1def m) (Y2def m) K c) $$ Hrec
  ihave #HI2 := (inv_r1p_7 (S1def m) (Y2def m) K c) $$ Hrec
  ihave #Hr1 := (rch_s1_7 (S1def m) (Y2def m) K c) $$ Hrec
  ihave #Hr2 := (rch_r1p_7 (S1def m) (Y2def m) K c) $$ Hrec
  iapply (wp_send1 (S1def m) (Y2def m) c _ 7 (dev38_eq c) hk_7 ho_7 _ _ (by rw [duties_0_7]; exact Finset.mem_singleton_self _) (by rw [duties_1_7]; exact Finset.mem_singleton_self _)
      (pay_0_7 (S1def m) (Y2def m) c 0 0) (pay_1_7 (S1def m) (Y2def m) (rot c 7) 0 0) fa7 _ _) $$ [Hrow7 Ha HO Hts1 Htr1p]
  · isplitr; · iexact HI1
    isplitr; · iexact HI2
    isplitl [Hrow7]; · iexact Hrow7
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 8
  ihave Px := ((held_elim _).trans (Entails.of_eq (pay_barown (S1def m) (Y2def m) c 24 hk_24 ho_8))) $$ HP8
  icases Px with ⟨⟨%fa8, Ha⟩, Hb, -, -⟩
  ihave HAccPb := (held_push _ _) $$ [Hb HAccPb]
  · isplitl [Hb]
    · iexact Hb
    · iexact HAccPb
  ihave Xx := (held_elim _) $$ HB8
  icases Xx with ⟨Hts1, Htr1p⟩
  ihave #HI1 := (inv_s1_8 (S1def m) (Y2def m) K c) $$ Hrec
  ihave #HI2 := (inv_r1p_8 (S1def m) (Y2def m) K c) $$ Hrec
  ihave #Hr1 := (rch_s1_8 (S1def m) (Y2def m) K c) $$ Hrec
  ihave #Hr2 := (rch_r1p_8 (S1def m) (Y2def m) K c) $$ Hrec
  iapply (wp_send1 (S1def m) (Y2def m) c _ 8 (dev39_eq c) hk_8 ho_8 _ _ (by rw [duties_0_8]; exact Finset.mem_singleton_self _) (by rw [duties_1_8]; exact Finset.mem_singleton_self _)
      (pay_0_8 (S1def m) (Y2def m) c 0 0) (pay_1_8 (S1def m) (Y2def m) (rot c 8) 0 0) fa8 _ _) $$ [Hrow8 Ha HO Hts1 Htr1p]
  · isplitr; · iexact HI1
    isplitr; · iexact HI2
    isplitl [Hrow8]; · iexact Hrow8
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 9
  ihave Px := ((held_elim _).trans (Entails.of_eq (pay_barown (S1def m) (Y2def m) c 23 hk_23 ho_9))) $$ HP9
  icases Px with ⟨⟨%fa9, Ha⟩, Hb, -, -⟩
  ihave HAccPb := (held_push _ _) $$ [Hb HAccPb]
  · isplitl [Hb]
    · iexact Hb
    · iexact HAccPb
  ihave Xx := (held_elim _) $$ HB9
  icases Xx with ⟨Hts1, Htr1p⟩
  ihave #HI1 := (inv_s1_9 (S1def m) (Y2def m) K c) $$ Hrec
  ihave #HI2 := (inv_r1p_9 (S1def m) (Y2def m) K c) $$ Hrec
  ihave #Hr1 := (rch_s1_9 (S1def m) (Y2def m) K c) $$ Hrec
  ihave #Hr2 := (rch_r1p_9 (S1def m) (Y2def m) K c) $$ Hrec
  iapply (wp_send1 (S1def m) (Y2def m) c _ 9 (dev40_eq c) hk_9 ho_9 _ _ (by rw [duties_0_9]; exact Finset.mem_singleton_self _) (by rw [duties_1_9]; exact Finset.mem_singleton_self _)
      (pay_0_9 (S1def m) (Y2def m) c 0 0) (pay_1_9 (S1def m) (Y2def m) (rot c 9) 0 0) fa9 _ _) $$ [Hrow9 Ha HO Hts1 Htr1p]
  · isplitr; · iexact HI1
    isplitr; · iexact HI2
    isplitl [Hrow9]; · iexact Hrow9
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 10
  ihave Px := ((held_elim _).trans (Entails.of_eq (pay_barown (S1def m) (Y2def m) c 22 hk_22 ho_10))) $$ HP10
  icases Px with ⟨⟨%fa10, Ha⟩, Hb, -, -⟩
  ihave HAccPb := (held_push _ _) $$ [Hb HAccPb]
  · isplitl [Hb]
    · iexact Hb
    · iexact HAccPb
  ihave Xx := (held_elim _) $$ HB10
  icases Xx with ⟨Hts1, Htr1p⟩
  ihave #HI1 := (inv_s1_10 (S1def m) (Y2def m) K c) $$ Hrec
  ihave #HI2 := (inv_r1p_10 (S1def m) (Y2def m) K c) $$ Hrec
  ihave #Hr1 := (rch_s1_10 (S1def m) (Y2def m) K c) $$ Hrec
  ihave #Hr2 := (rch_r1p_10 (S1def m) (Y2def m) K c) $$ Hrec
  iapply (wp_send1 (S1def m) (Y2def m) c _ 10 (dev41_eq c) hk_10 ho_10 _ _ (by rw [duties_0_10]; exact Finset.mem_singleton_self _) (by rw [duties_1_10]; exact Finset.mem_singleton_self _)
      (pay_0_10 (S1def m) (Y2def m) c 0 0) (pay_1_10 (S1def m) (Y2def m) (rot c 10) 0 0) fa10 _ _) $$ [Hrow10 Ha HO Hts1 Htr1p]
  · isplitr; · iexact HI1
    isplitr; · iexact HI2
    isplitl [Hrow10]; · iexact Hrow10
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 11
  ihave Px := ((held_elim _).trans (Entails.of_eq (pay_barown (S1def m) (Y2def m) c 21 hk_21 ho_11))) $$ HP11
  icases Px with ⟨⟨%fa11, Ha⟩, Hb, -, -⟩
  ihave HAccPb := (held_push _ _) $$ [Hb HAccPb]
  · isplitl [Hb]
    · iexact Hb
    · iexact HAccPb
  ihave Xx := (held_elim _) $$ HB11
  icases Xx with ⟨Hts1, Htr1p⟩
  ihave #HI1 := (inv_s1_11 (S1def m) (Y2def m) K c) $$ Hrec
  ihave #HI2 := (inv_r1p_11 (S1def m) (Y2def m) K c) $$ Hrec
  ihave #Hr1 := (rch_s1_11 (S1def m) (Y2def m) K c) $$ Hrec
  ihave #Hr2 := (rch_r1p_11 (S1def m) (Y2def m) K c) $$ Hrec
  iapply (wp_send1 (S1def m) (Y2def m) c _ 11 (dev42_eq c) hk_11 ho_11 _ _ (by rw [duties_0_11]; exact Finset.mem_singleton_self _) (by rw [duties_1_11]; exact Finset.mem_singleton_self _)
      (pay_0_11 (S1def m) (Y2def m) c 0 0) (pay_1_11 (S1def m) (Y2def m) (rot c 11) 0 0) fa11 _ _) $$ [Hrow11 Ha HO Hts1 Htr1p]
  · isplitr; · iexact HI1
    isplitr; · iexact HI2
    isplitl [Hrow11]; · iexact Hrow11
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 12
  ihave Px := ((held_elim _).trans (Entails.of_eq (pay_barown (S1def m) (Y2def m) c 20 hk_20 ho_12))) $$ HP12
  icases Px with ⟨⟨%fa12, Ha⟩, Hb, -, -⟩
  ihave HAccPb := (held_push _ _) $$ [Hb HAccPb]
  · isplitl [Hb]
    · iexact Hb
    · iexact HAccPb
  ihave Xx := (held_elim _) $$ HB12
  icases Xx with ⟨Hts1, Htr1p⟩
  ihave #HI1 := (inv_s1_12 (S1def m) (Y2def m) K c) $$ Hrec
  ihave #HI2 := (inv_r1p_12 (S1def m) (Y2def m) K c) $$ Hrec
  ihave #Hr1 := (rch_s1_12 (S1def m) (Y2def m) K c) $$ Hrec
  ihave #Hr2 := (rch_r1p_12 (S1def m) (Y2def m) K c) $$ Hrec
  iapply (wp_send1 (S1def m) (Y2def m) c _ 12 (dev43_eq c) hk_12 ho_12 _ _ (by rw [duties_0_12]; exact Finset.mem_singleton_self _) (by rw [duties_1_12]; exact Finset.mem_singleton_self _)
      (pay_0_12 (S1def m) (Y2def m) c 0 0) (pay_1_12 (S1def m) (Y2def m) (rot c 12) 0 0) fa12 _ _) $$ [Hrow12 Ha HO Hts1 Htr1p]
  · isplitr; · iexact HI1
    isplitr; · iexact HI2
    isplitl [Hrow12]; · iexact Hrow12
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 13
  ihave Px := ((held_elim _).trans (Entails.of_eq (pay_barown (S1def m) (Y2def m) c 19 hk_19 ho_13))) $$ HP13
  icases Px with ⟨⟨%fa13, Ha⟩, Hb, -, -⟩
  ihave HAccPb := (held_push _ _) $$ [Hb HAccPb]
  · isplitl [Hb]
    · iexact Hb
    · iexact HAccPb
  ihave Xx := (held_elim _) $$ HB13
  icases Xx with ⟨Hts1, Htr1p⟩
  ihave #HI1 := (inv_s1_13 (S1def m) (Y2def m) K c) $$ Hrec
  ihave #HI2 := (inv_r1p_13 (S1def m) (Y2def m) K c) $$ Hrec
  ihave #Hr1 := (rch_s1_13 (S1def m) (Y2def m) K c) $$ Hrec
  ihave #Hr2 := (rch_r1p_13 (S1def m) (Y2def m) K c) $$ Hrec
  iapply (wp_send1 (S1def m) (Y2def m) c _ 13 (dev44_eq c) hk_13 ho_13 _ _ (by rw [duties_0_13]; exact Finset.mem_singleton_self _) (by rw [duties_1_13]; exact Finset.mem_singleton_self _)
      (pay_0_13 (S1def m) (Y2def m) c 0 0) (pay_1_13 (S1def m) (Y2def m) (rot c 13) 0 0) fa13 _ _) $$ [Hrow13 Ha HO Hts1 Htr1p]
  · isplitr; · iexact HI1
    isplitr; · iexact HI2
    isplitl [Hrow13]; · iexact Hrow13
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 14
  ihave Px := ((held_elim _).trans (Entails.of_eq (pay_barown (S1def m) (Y2def m) c 18 hk_18 ho_14))) $$ HP14
  icases Px with ⟨⟨%fa14, Ha⟩, Hb, -, -⟩
  ihave HAccPb := (held_push _ _) $$ [Hb HAccPb]
  · isplitl [Hb]
    · iexact Hb
    · iexact HAccPb
  ihave Xx := (held_elim _) $$ HB14
  icases Xx with ⟨Hts1, Htr1p⟩
  ihave #HI1 := (inv_s1_14 (S1def m) (Y2def m) K c) $$ Hrec
  ihave #HI2 := (inv_r1p_14 (S1def m) (Y2def m) K c) $$ Hrec
  ihave #Hr1 := (rch_s1_14 (S1def m) (Y2def m) K c) $$ Hrec
  ihave #Hr2 := (rch_r1p_14 (S1def m) (Y2def m) K c) $$ Hrec
  iapply (wp_send1 (S1def m) (Y2def m) c _ 14 (dev45_eq c) hk_14 ho_14 _ _ (by rw [duties_0_14]; exact Finset.mem_singleton_self _) (by rw [duties_1_14]; exact Finset.mem_singleton_self _)
      (pay_0_14 (S1def m) (Y2def m) c 0 0) (pay_1_14 (S1def m) (Y2def m) (rot c 14) 0 0) fa14 _ _) $$ [Hrow14 Ha HO Hts1 Htr1p]
  · isplitr; · iexact HI1
    isplitr; · iexact HI2
    isplitl [Hrow14]; · iexact Hrow14
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 15
  ihave Px := ((held_elim _).trans (Entails.of_eq (pay_barown (S1def m) (Y2def m) c 17 hk_17 ho_15))) $$ HP15
  icases Px with ⟨⟨%fa15, Ha⟩, Hb, -, -⟩
  ihave HAccPb := (held_push _ _) $$ [Hb HAccPb]
  · isplitl [Hb]
    · iexact Hb
    · iexact HAccPb
  ihave Xx := (held_elim _) $$ HB15
  icases Xx with ⟨Hts1, Htr1p⟩
  ihave #HI1 := (inv_s1_15 (S1def m) (Y2def m) K c) $$ Hrec
  ihave #HI2 := (inv_r1p_15 (S1def m) (Y2def m) K c) $$ Hrec
  ihave #Hr1 := (rch_s1_15 (S1def m) (Y2def m) K c) $$ Hrec
  ihave #Hr2 := (rch_r1p_15 (S1def m) (Y2def m) K c) $$ Hrec
  iapply (wp_send1 (S1def m) (Y2def m) c _ 15 (dev46_eq c) hk_15 ho_15 _ _ (by rw [duties_0_15]; exact Finset.mem_singleton_self _) (by rw [duties_1_15]; exact Finset.mem_singleton_self _)
      (pay_0_15 (S1def m) (Y2def m) c 0 0) (pay_1_15 (S1def m) (Y2def m) (rot c 15) 0 0) fa15 _ _) $$ [Hrow15 Ha HO Hts1 Htr1p]
  · isplitr; · iexact HI1
    isplitr; · iexact HI2
    isplitl [Hrow15]; · iexact Hrow15
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 16
  ihave Px := ((held_elim _).trans (Entails.of_eq (pay_barown (S1def m) (Y2def m) c 16 hk_16 ho_16))) $$ HP16
  icases Px with ⟨⟨%fa16, Ha⟩, Hb, -, -⟩
  ihave HAccPb := (held_push _ _) $$ [Hb HAccPb]
  · isplitl [Hb]
    · iexact Hb
    · iexact HAccPb
  ihave Xx := (held_elim _) $$ HB16
  icases Xx with ⟨Hts1, Htr1p⟩
  ihave #HI1 := (inv_s1_16 (S1def m) (Y2def m) K c) $$ Hrec
  ihave #HI2 := (inv_r1p_16 (S1def m) (Y2def m) K c) $$ Hrec
  ihave #Hr1 := (rch_s1_16 (S1def m) (Y2def m) K c) $$ Hrec
  ihave #Hr2 := (rch_r1p_16 (S1def m) (Y2def m) K c) $$ Hrec
  iapply (wp_send1 (S1def m) (Y2def m) c _ 16 (dev47_eq c) hk_16 ho_16 _ _ (by rw [duties_0_16]; exact Finset.mem_singleton_self _) (by rw [duties_1_16]; exact Finset.mem_singleton_self _)
      (pay_0_16 (S1def m) (Y2def m) c 0 0) (pay_1_16 (S1def m) (Y2def m) (rot c 16) 0 0) fa16 _ _) $$ [Hrow16 Ha HO Hts1 Htr1p]
  · isplitr; · iexact HI1
    isplitr; · iexact HI2
    isplitl [Hrow16]; · iexact Hrow16
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 17
  ihave Px := ((held_elim _).trans (Entails.of_eq (pay_barown (S1def m) (Y2def m) c 15 hk_15 ho_17))) $$ HP17
  icases Px with ⟨⟨%fa17, Ha⟩, Hb, -, -⟩
  ihave HAccPb := (held_push _ _) $$ [Hb HAccPb]
  · isplitl [Hb]
    · iexact Hb
    · iexact HAccPb
  ihave Xx := (held_elim _) $$ HB17
  icases Xx with ⟨Hts1, Htr1p⟩
  ihave #HI1 := (inv_s1_17 (S1def m) (Y2def m) K c) $$ Hrec
  ihave #HI2 := (inv_r1p_17 (S1def m) (Y2def m) K c) $$ Hrec
  ihave #Hr1 := (rch_s1_17 (S1def m) (Y2def m) K c) $$ Hrec
  ihave #Hr2 := (rch_r1p_17 (S1def m) (Y2def m) K c) $$ Hrec
  iapply (wp_send1 (S1def m) (Y2def m) c _ 17 (dev48_eq c) hk_17 ho_17 _ _ (by rw [duties_0_17]; exact Finset.mem_singleton_self _) (by rw [duties_1_17]; exact Finset.mem_singleton_self _)
      (pay_0_17 (S1def m) (Y2def m) c 0 0) (pay_1_17 (S1def m) (Y2def m) (rot c 17) 0 0) fa17 _ _) $$ [Hrow17 Ha HO Hts1 Htr1p]
  · isplitr; · iexact HI1
    isplitr; · iexact HI2
    isplitl [Hrow17]; · iexact Hrow17
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 18
  ihave Px := ((held_elim _).trans (Entails.of_eq (pay_barown (S1def m) (Y2def m) c 14 hk_14 ho_18))) $$ HP18
  icases Px with ⟨⟨%fa18, Ha⟩, Hb, -, -⟩
  ihave HAccPb := (held_push _ _) $$ [Hb HAccPb]
  · isplitl [Hb]
    · iexact Hb
    · iexact HAccPb
  ihave Xx := (held_elim _) $$ HB18
  icases Xx with ⟨Hts1, Htr1p⟩
  ihave #HI1 := (inv_s1_18 (S1def m) (Y2def m) K c) $$ Hrec
  ihave #HI2 := (inv_r1p_18 (S1def m) (Y2def m) K c) $$ Hrec
  ihave #Hr1 := (rch_s1_18 (S1def m) (Y2def m) K c) $$ Hrec
  ihave #Hr2 := (rch_r1p_18 (S1def m) (Y2def m) K c) $$ Hrec
  iapply (wp_send1 (S1def m) (Y2def m) c _ 18 (dev49_eq c) hk_18 ho_18 _ _ (by rw [duties_0_18]; exact Finset.mem_singleton_self _) (by rw [duties_1_18]; exact Finset.mem_singleton_self _)
      (pay_0_18 (S1def m) (Y2def m) c 0 0) (pay_1_18 (S1def m) (Y2def m) (rot c 18) 0 0) fa18 _ _) $$ [Hrow18 Ha HO Hts1 Htr1p]
  · isplitr; · iexact HI1
    isplitr; · iexact HI2
    isplitl [Hrow18]; · iexact Hrow18
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 19
  ihave Px := ((held_elim _).trans (Entails.of_eq (pay_barown (S1def m) (Y2def m) c 13 hk_13 ho_19))) $$ HP19
  icases Px with ⟨⟨%fa19, Ha⟩, Hb, -, -⟩
  ihave HAccPb := (held_push _ _) $$ [Hb HAccPb]
  · isplitl [Hb]
    · iexact Hb
    · iexact HAccPb
  ihave Xx := (held_elim _) $$ HB19
  icases Xx with ⟨Hts1, Htr1p⟩
  ihave #HI1 := (inv_s1_19 (S1def m) (Y2def m) K c) $$ Hrec
  ihave #HI2 := (inv_r1p_19 (S1def m) (Y2def m) K c) $$ Hrec
  ihave #Hr1 := (rch_s1_19 (S1def m) (Y2def m) K c) $$ Hrec
  ihave #Hr2 := (rch_r1p_19 (S1def m) (Y2def m) K c) $$ Hrec
  iapply (wp_send1 (S1def m) (Y2def m) c _ 19 (dev50_eq c) hk_19 ho_19 _ _ (by rw [duties_0_19]; exact Finset.mem_singleton_self _) (by rw [duties_1_19]; exact Finset.mem_singleton_self _)
      (pay_0_19 (S1def m) (Y2def m) c 0 0) (pay_1_19 (S1def m) (Y2def m) (rot c 19) 0 0) fa19 _ _) $$ [Hrow19 Ha HO Hts1 Htr1p]
  · isplitr; · iexact HI1
    isplitr; · iexact HI2
    isplitl [Hrow19]; · iexact Hrow19
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 20
  ihave Px := ((held_elim _).trans (Entails.of_eq (pay_barown (S1def m) (Y2def m) c 12 hk_12 ho_20))) $$ HP20
  icases Px with ⟨⟨%fa20, Ha⟩, Hb, -, -⟩
  ihave HAccPb := (held_push _ _) $$ [Hb HAccPb]
  · isplitl [Hb]
    · iexact Hb
    · iexact HAccPb
  ihave Xx := (held_elim _) $$ HB20
  icases Xx with ⟨Hts1, Htr1p⟩
  ihave #HI1 := (inv_s1_20 (S1def m) (Y2def m) K c) $$ Hrec
  ihave #HI2 := (inv_r1p_20 (S1def m) (Y2def m) K c) $$ Hrec
  ihave #Hr1 := (rch_s1_20 (S1def m) (Y2def m) K c) $$ Hrec
  ihave #Hr2 := (rch_r1p_20 (S1def m) (Y2def m) K c) $$ Hrec
  iapply (wp_send1 (S1def m) (Y2def m) c _ 20 (dev51_eq c) hk_20 ho_20 _ _ (by rw [duties_0_20]; exact Finset.mem_singleton_self _) (by rw [duties_1_20]; exact Finset.mem_singleton_self _)
      (pay_0_20 (S1def m) (Y2def m) c 0 0) (pay_1_20 (S1def m) (Y2def m) (rot c 20) 0 0) fa20 _ _) $$ [Hrow20 Ha HO Hts1 Htr1p]
  · isplitr; · iexact HI1
    isplitr; · iexact HI2
    isplitl [Hrow20]; · iexact Hrow20
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 21
  ihave Px := ((held_elim _).trans (Entails.of_eq (pay_barown (S1def m) (Y2def m) c 11 hk_11 ho_21))) $$ HP21
  icases Px with ⟨⟨%fa21, Ha⟩, Hb, -, -⟩
  ihave HAccPb := (held_push _ _) $$ [Hb HAccPb]
  · isplitl [Hb]
    · iexact Hb
    · iexact HAccPb
  ihave Xx := (held_elim _) $$ HB21
  icases Xx with ⟨Hts1, Htr1p⟩
  ihave #HI1 := (inv_s1_21 (S1def m) (Y2def m) K c) $$ Hrec
  ihave #HI2 := (inv_r1p_21 (S1def m) (Y2def m) K c) $$ Hrec
  ihave #Hr1 := (rch_s1_21 (S1def m) (Y2def m) K c) $$ Hrec
  ihave #Hr2 := (rch_r1p_21 (S1def m) (Y2def m) K c) $$ Hrec
  iapply (wp_send1 (S1def m) (Y2def m) c _ 21 (dev52_eq c) hk_21 ho_21 _ _ (by rw [duties_0_21]; exact Finset.mem_singleton_self _) (by rw [duties_1_21]; exact Finset.mem_singleton_self _)
      (pay_0_21 (S1def m) (Y2def m) c 0 0) (pay_1_21 (S1def m) (Y2def m) (rot c 21) 0 0) fa21 _ _) $$ [Hrow21 Ha HO Hts1 Htr1p]
  · isplitr; · iexact HI1
    isplitr; · iexact HI2
    isplitl [Hrow21]; · iexact Hrow21
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 22
  ihave Px := ((held_elim _).trans (Entails.of_eq (pay_barown (S1def m) (Y2def m) c 10 hk_10 ho_22))) $$ HP22
  icases Px with ⟨⟨%fa22, Ha⟩, Hb, -, -⟩
  ihave HAccPb := (held_push _ _) $$ [Hb HAccPb]
  · isplitl [Hb]
    · iexact Hb
    · iexact HAccPb
  ihave Xx := (held_elim _) $$ HB22
  icases Xx with ⟨Hts1, Htr1p⟩
  ihave #HI1 := (inv_s1_22 (S1def m) (Y2def m) K c) $$ Hrec
  ihave #HI2 := (inv_r1p_22 (S1def m) (Y2def m) K c) $$ Hrec
  ihave #Hr1 := (rch_s1_22 (S1def m) (Y2def m) K c) $$ Hrec
  ihave #Hr2 := (rch_r1p_22 (S1def m) (Y2def m) K c) $$ Hrec
  iapply (wp_send1 (S1def m) (Y2def m) c _ 22 (dev53_eq c) hk_22 ho_22 _ _ (by rw [duties_0_22]; exact Finset.mem_singleton_self _) (by rw [duties_1_22]; exact Finset.mem_singleton_self _)
      (pay_0_22 (S1def m) (Y2def m) c 0 0) (pay_1_22 (S1def m) (Y2def m) (rot c 22) 0 0) fa22 _ _) $$ [Hrow22 Ha HO Hts1 Htr1p]
  · isplitr; · iexact HI1
    isplitr; · iexact HI2
    isplitl [Hrow22]; · iexact Hrow22
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 23
  ihave Px := ((held_elim _).trans (Entails.of_eq (pay_barown (S1def m) (Y2def m) c 9 hk_9 ho_23))) $$ HP23
  icases Px with ⟨⟨%fa23, Ha⟩, Hb, -, -⟩
  ihave HAccPb := (held_push _ _) $$ [Hb HAccPb]
  · isplitl [Hb]
    · iexact Hb
    · iexact HAccPb
  ihave Xx := (held_elim _) $$ HB23
  icases Xx with ⟨Hts1, Htr1p⟩
  ihave #HI1 := (inv_s1_23 (S1def m) (Y2def m) K c) $$ Hrec
  ihave #HI2 := (inv_r1p_23 (S1def m) (Y2def m) K c) $$ Hrec
  ihave #Hr1 := (rch_s1_23 (S1def m) (Y2def m) K c) $$ Hrec
  ihave #Hr2 := (rch_r1p_23 (S1def m) (Y2def m) K c) $$ Hrec
  iapply (wp_send1 (S1def m) (Y2def m) c _ 23 (dev54_eq c) hk_23 ho_23 _ _ (by rw [duties_0_23]; exact Finset.mem_singleton_self _) (by rw [duties_1_23]; exact Finset.mem_singleton_self _)
      (pay_0_23 (S1def m) (Y2def m) c 0 0) (pay_1_23 (S1def m) (Y2def m) (rot c 23) 0 0) fa23 _ _) $$ [Hrow23 Ha HO Hts1 Htr1p]
  · isplitr; · iexact HI1
    isplitr; · iexact HI2
    isplitl [Hrow23]; · iexact Hrow23
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 24
  ihave Px := ((held_elim _).trans (Entails.of_eq (pay_barown (S1def m) (Y2def m) c 8 hk_8 ho_24))) $$ HP24
  icases Px with ⟨⟨%fa24, Ha⟩, Hb, -, -⟩
  ihave HAccPb := (held_push _ _) $$ [Hb HAccPb]
  · isplitl [Hb]
    · iexact Hb
    · iexact HAccPb
  ihave Xx := (held_elim _) $$ HB24
  icases Xx with ⟨Hts1, Htr1p⟩
  ihave #HI1 := (inv_s1_24 (S1def m) (Y2def m) K c) $$ Hrec
  ihave #HI2 := (inv_r1p_24 (S1def m) (Y2def m) K c) $$ Hrec
  ihave #Hr1 := (rch_s1_24 (S1def m) (Y2def m) K c) $$ Hrec
  ihave #Hr2 := (rch_r1p_24 (S1def m) (Y2def m) K c) $$ Hrec
  iapply (wp_send1 (S1def m) (Y2def m) c _ 24 (dev55_eq c) hk_24 ho_24 _ _ (by rw [duties_0_24]; exact Finset.mem_singleton_self _) (by rw [duties_1_24]; exact Finset.mem_singleton_self _)
      (pay_0_24 (S1def m) (Y2def m) c 0 0) (pay_1_24 (S1def m) (Y2def m) (rot c 24) 0 0) fa24 _ _) $$ [Hrow24 Ha HO Hts1 Htr1p]
  · isplitr; · iexact HI1
    isplitr; · iexact HI2
    isplitl [Hrow24]; · iexact Hrow24
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 25
  ihave Px := ((held_elim _).trans (Entails.of_eq (pay_barown (S1def m) (Y2def m) c 7 hk_7 ho_25))) $$ HP25
  icases Px with ⟨⟨%fa25, Ha⟩, Hb, -, -⟩
  ihave HAccPb := (held_push _ _) $$ [Hb HAccPb]
  · isplitl [Hb]
    · iexact Hb
    · iexact HAccPb
  ihave Xx := (held_elim _) $$ HB25
  icases Xx with ⟨Hts1, Htr1p⟩
  ihave #HI1 := (inv_s1_25 (S1def m) (Y2def m) K c) $$ Hrec
  ihave #HI2 := (inv_r1p_25 (S1def m) (Y2def m) K c) $$ Hrec
  ihave #Hr1 := (rch_s1_25 (S1def m) (Y2def m) K c) $$ Hrec
  ihave #Hr2 := (rch_r1p_25 (S1def m) (Y2def m) K c) $$ Hrec
  iapply (wp_send1 (S1def m) (Y2def m) c _ 25 (dev56_eq c) hk_25 ho_25 _ _ (by rw [duties_0_25]; exact Finset.mem_singleton_self _) (by rw [duties_1_25]; exact Finset.mem_singleton_self _)
      (pay_0_25 (S1def m) (Y2def m) c 0 0) (pay_1_25 (S1def m) (Y2def m) (rot c 25) 0 0) fa25 _ _) $$ [Hrow25 Ha HO Hts1 Htr1p]
  · isplitr; · iexact HI1
    isplitr; · iexact HI2
    isplitl [Hrow25]; · iexact Hrow25
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 26
  ihave Px := ((held_elim _).trans (Entails.of_eq (pay_barown (S1def m) (Y2def m) c 6 hk_6 ho_26))) $$ HP26
  icases Px with ⟨⟨%fa26, Ha⟩, Hb, -, -⟩
  ihave HAccPb := (held_push _ _) $$ [Hb HAccPb]
  · isplitl [Hb]
    · iexact Hb
    · iexact HAccPb
  ihave Xx := (held_elim _) $$ HB26
  icases Xx with ⟨Hts1, Htr1p⟩
  ihave #HI1 := (inv_s1_26 (S1def m) (Y2def m) K c) $$ Hrec
  ihave #HI2 := (inv_r1p_26 (S1def m) (Y2def m) K c) $$ Hrec
  ihave #Hr1 := (rch_s1_26 (S1def m) (Y2def m) K c) $$ Hrec
  ihave #Hr2 := (rch_r1p_26 (S1def m) (Y2def m) K c) $$ Hrec
  iapply (wp_send1 (S1def m) (Y2def m) c _ 26 (dev57_eq c) hk_26 ho_26 _ _ (by rw [duties_0_26]; exact Finset.mem_singleton_self _) (by rw [duties_1_26]; exact Finset.mem_singleton_self _)
      (pay_0_26 (S1def m) (Y2def m) c 0 0) (pay_1_26 (S1def m) (Y2def m) (rot c 26) 0 0) fa26 _ _) $$ [Hrow26 Ha HO Hts1 Htr1p]
  · isplitr; · iexact HI1
    isplitr; · iexact HI2
    isplitl [Hrow26]; · iexact Hrow26
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 27
  ihave Px := ((held_elim _).trans (Entails.of_eq (pay_barown (S1def m) (Y2def m) c 5 hk_5 ho_27))) $$ HP27
  icases Px with ⟨⟨%fa27, Ha⟩, Hb, -, -⟩
  ihave HAccPb := (held_push _ _) $$ [Hb HAccPb]
  · isplitl [Hb]
    · iexact Hb
    · iexact HAccPb
  ihave Xx := (held_elim _) $$ HB27
  icases Xx with ⟨Hts1, Htr1p⟩
  ihave #HI1 := (inv_s1_27 (S1def m) (Y2def m) K c) $$ Hrec
  ihave #HI2 := (inv_r1p_27 (S1def m) (Y2def m) K c) $$ Hrec
  ihave #Hr1 := (rch_s1_27 (S1def m) (Y2def m) K c) $$ Hrec
  ihave #Hr2 := (rch_r1p_27 (S1def m) (Y2def m) K c) $$ Hrec
  iapply (wp_send1 (S1def m) (Y2def m) c _ 27 (dev58_eq c) hk_27 ho_27 _ _ (by rw [duties_0_27]; exact Finset.mem_singleton_self _) (by rw [duties_1_27]; exact Finset.mem_singleton_self _)
      (pay_0_27 (S1def m) (Y2def m) c 0 0) (pay_1_27 (S1def m) (Y2def m) (rot c 27) 0 0) fa27 _ _) $$ [Hrow27 Ha HO Hts1 Htr1p]
  · isplitr; · iexact HI1
    isplitr; · iexact HI2
    isplitl [Hrow27]; · iexact Hrow27
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 28
  ihave Px := ((held_elim _).trans (Entails.of_eq (pay_barown (S1def m) (Y2def m) c 4 hk_4 ho_28))) $$ HP28
  icases Px with ⟨⟨%fa28, Ha⟩, Hb, -, -⟩
  ihave HAccPb := (held_push _ _) $$ [Hb HAccPb]
  · isplitl [Hb]
    · iexact Hb
    · iexact HAccPb
  ihave Xx := (held_elim _) $$ HB28
  icases Xx with ⟨Hts1, Htr1p⟩
  ihave #HI1 := (inv_s1_28 (S1def m) (Y2def m) K c) $$ Hrec
  ihave #HI2 := (inv_r1p_28 (S1def m) (Y2def m) K c) $$ Hrec
  ihave #Hr1 := (rch_s1_28 (S1def m) (Y2def m) K c) $$ Hrec
  ihave #Hr2 := (rch_r1p_28 (S1def m) (Y2def m) K c) $$ Hrec
  iapply (wp_send1 (S1def m) (Y2def m) c _ 28 (dev59_eq c) hk_28 ho_28 _ _ (by rw [duties_0_28]; exact Finset.mem_singleton_self _) (by rw [duties_1_28]; exact Finset.mem_singleton_self _)
      (pay_0_28 (S1def m) (Y2def m) c 0 0) (pay_1_28 (S1def m) (Y2def m) (rot c 28) 0 0) fa28 _ _) $$ [Hrow28 Ha HO Hts1 Htr1p]
  · isplitr; · iexact HI1
    isplitr; · iexact HI2
    isplitl [Hrow28]; · iexact Hrow28
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 29
  ihave Px := ((held_elim _).trans (Entails.of_eq (pay_barown (S1def m) (Y2def m) c 3 hk_3 ho_29))) $$ HP29
  icases Px with ⟨⟨%fa29, Ha⟩, Hb, -, -⟩
  ihave HAccPb := (held_push _ _) $$ [Hb HAccPb]
  · isplitl [Hb]
    · iexact Hb
    · iexact HAccPb
  ihave Xx := (held_elim _) $$ HB29
  icases Xx with ⟨Hts1, Htr1p⟩
  ihave #HI1 := (inv_s1_29 (S1def m) (Y2def m) K c) $$ Hrec
  ihave #HI2 := (inv_r1p_29 (S1def m) (Y2def m) K c) $$ Hrec
  ihave #Hr1 := (rch_s1_29 (S1def m) (Y2def m) K c) $$ Hrec
  ihave #Hr2 := (rch_r1p_29 (S1def m) (Y2def m) K c) $$ Hrec
  iapply (wp_send1 (S1def m) (Y2def m) c _ 29 (dev60_eq c) hk_29 ho_29 _ _ (by rw [duties_0_29]; exact Finset.mem_singleton_self _) (by rw [duties_1_29]; exact Finset.mem_singleton_self _)
      (pay_0_29 (S1def m) (Y2def m) c 0 0) (pay_1_29 (S1def m) (Y2def m) (rot c 29) 0 0) fa29 _ _) $$ [Hrow29 Ha HO Hts1 Htr1p]
  · isplitr; · iexact HI1
    isplitr; · iexact HI2
    isplitl [Hrow29]; · iexact Hrow29
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 30
  ihave Px := ((held_elim _).trans (Entails.of_eq (pay_barown (S1def m) (Y2def m) c 2 hk_2 ho_30))) $$ HP30
  icases Px with ⟨⟨%fa30, Ha⟩, Hb, -, -⟩
  ihave HAccPb := (held_push _ _) $$ [Hb HAccPb]
  · isplitl [Hb]
    · iexact Hb
    · iexact HAccPb
  ihave Xx := (held_elim _) $$ HB30
  icases Xx with ⟨Hts1, Htr1p⟩
  ihave #HI1 := (inv_s1_30 (S1def m) (Y2def m) K c) $$ Hrec
  ihave #HI2 := (inv_r1p_30 (S1def m) (Y2def m) K c) $$ Hrec
  ihave #Hr1 := (rch_s1_30 (S1def m) (Y2def m) K c) $$ Hrec
  ihave #Hr2 := (rch_r1p_30 (S1def m) (Y2def m) K c) $$ Hrec
  iapply (wp_send1 (S1def m) (Y2def m) c _ 30 (dev61_eq c) hk_30 ho_30 _ _ (by rw [duties_0_30]; exact Finset.mem_singleton_self _) (by rw [duties_1_30]; exact Finset.mem_singleton_self _)
      (pay_0_30 (S1def m) (Y2def m) c 0 0) (pay_1_30 (S1def m) (Y2def m) (rot c 30) 0 0) fa30 _ _) $$ [Hrow30 Ha HO Hts1 Htr1p]
  · isplitr; · iexact HI1
    isplitr; · iexact HI2
    isplitl [Hrow30]; · iexact Hrow30
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's transfer at offset 31
  ihave Px := ((held_elim _).trans (Entails.of_eq (pay_barown (S1def m) (Y2def m) c 1 hk_1 ho_31))) $$ HP31
  icases Px with ⟨⟨%fa31, Ha⟩, Hb, -, -⟩
  ihave HAccPb := (held_push _ _) $$ [Hb HAccPb]
  · isplitl [Hb]
    · iexact Hb
    · iexact HAccPb
  ihave Xx := (held_elim _) $$ HB31
  icases Xx with ⟨Hts1, Htr1p⟩
  ihave #HI1 := (inv_s1_31 (S1def m) (Y2def m) K c) $$ Hrec
  ihave #HI2 := (inv_r1p_31 (S1def m) (Y2def m) K c) $$ Hrec
  ihave #Hr1 := (rch_s1_31 (S1def m) (Y2def m) K c) $$ Hrec
  ihave #Hr2 := (rch_r1p_31 (S1def m) (Y2def m) K c) $$ Hrec
  iapply (wp_send1 (S1def m) (Y2def m) c _ 31 (dev62_eq c) hk_31 ho_31 _ _ (by rw [duties_0_31]; exact Finset.mem_singleton_self _) (by rw [duties_1_31]; exact Finset.mem_singleton_self _)
      (pay_0_31 (S1def m) (Y2def m) c 0 0) (pay_1_31 (S1def m) (Y2def m) (rot c 31) 0 0) fa31 _ _) $$ [Hrow31 Ha HO Hts1 Htr1p]
  · isplitr; · iexact HI1
    isplitr; · iexact HI2
    isplitl [Hrow31]; · iexact Hrow31
    isplitl [Ha]; · iexact Ha
    isplitl [HO]; · iexact HO
    isplitl [Hts1]; · iexact Hts1
    isplitr; · iexact Hr1
    isplitl [Htr1p]; · iexact Htr1p
    iexact Hr2
  iintro ⟨Hcs, HO⟩
  ihave HAccCr1 := (held_push _ _) $$ [Hcs HAccCr1]
  · isplitl [Hcs]
    · iexact Hcs
    · iexact HAccCr1
  iclear HI1 HI2 Hr1 Hr2
  sl_exec_parts
  -- the first exchange's 31 receive waits; what landed is added up
  ihave Hx := (held_elim _) $$ HCAll
  icases Hx with ⟨HC1, HC2, HC3, HC4, HC5, HC6, HC7, HC8, HC9, HC10, HC11, HC12, HC13, HC14, HC15, HC16, HC17, HC18, HC19, HC20, HC21, HC22, HC23, HC24, HC25, HC26, HC27, HC28, HC29, HC30, HC31⟩
  -- the receive wait at offset 1, and the read of what landed in slot 1
  ihave Xx := (held_elim _) $$ HC1
  icases Xx with ⟨Har1, Hcr1⟩
  ihave #HI := (inv_r1_1 (S1def m) (Y2def m) K c) $$ Hrec
  have hmw := mayWait31 (F := F) c (.dma (semAt cc0_scratch8 1 ho_1)) (by show (2 : ℕ) < 3; decide)
  sl_exec_parts
  clear hmw
  imod (Rounds.cell_close ER (sched (F := F) (S1def m) (Y2def m)) (Set.mem_univ (K (c, some (1, ⟨0, by decide⟩)))) (fun h => h) (R := 0 + 1) (duties_later (S1def m) (Y2def m) (r1Cell c 1 ho_1))) $$ [Har1] with Hz
  · isplitr; · iexact HI
    iexact Har1
  ihave HAccZr1 := (held_intro _) $$ Hz
  ihave HAccL1 := (held_intro _) $$ Har1_pay1
  iclear HI Har1_reached
  -- the receive wait at offset 2, and the read of what landed in slot 2
  ihave Xx := (held_elim _) $$ HC2
  icases Xx with ⟨Har1, Hcr1⟩
  ihave #HI := (inv_r1_2 (S1def m) (Y2def m) K c) $$ Hrec
  have hmw := mayWait31 (F := F) c (.dma (semAt cc0_scratch8 2 ho_2)) (by show (2 : ℕ) < 3; decide)
  sl_exec_parts
  clear hmw
  imod (Rounds.cell_close ER (sched (F := F) (S1def m) (Y2def m)) (Set.mem_univ (K (c, some (1, ⟨1, by decide⟩)))) (fun h => h) (R := 0 + 1) (duties_later (S1def m) (Y2def m) (r1Cell c 2 ho_2))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 3, and the read of what landed in slot 3
  ihave Xx := (held_elim _) $$ HC3
  icases Xx with ⟨Har1, Hcr1⟩
  ihave #HI := (inv_r1_3 (S1def m) (Y2def m) K c) $$ Hrec
  have hmw := mayWait31 (F := F) c (.dma (semAt cc0_scratch8 3 ho_3)) (by show (2 : ℕ) < 3; decide)
  sl_exec_parts
  clear hmw
  imod (Rounds.cell_close ER (sched (F := F) (S1def m) (Y2def m)) (Set.mem_univ (K (c, some (1, ⟨2, by decide⟩)))) (fun h => h) (R := 0 + 1) (duties_later (S1def m) (Y2def m) (r1Cell c 3 ho_3))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 4, and the read of what landed in slot 4
  ihave Xx := (held_elim _) $$ HC4
  icases Xx with ⟨Har1, Hcr1⟩
  ihave #HI := (inv_r1_4 (S1def m) (Y2def m) K c) $$ Hrec
  have hmw := mayWait31 (F := F) c (.dma (semAt cc0_scratch8 4 ho_4)) (by show (2 : ℕ) < 3; decide)
  sl_exec_parts
  clear hmw
  imod (Rounds.cell_close ER (sched (F := F) (S1def m) (Y2def m)) (Set.mem_univ (K (c, some (1, ⟨3, by decide⟩)))) (fun h => h) (R := 0 + 1) (duties_later (S1def m) (Y2def m) (r1Cell c 4 ho_4))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 5, and the read of what landed in slot 5
  ihave Xx := (held_elim _) $$ HC5
  icases Xx with ⟨Har1, Hcr1⟩
  ihave #HI := (inv_r1_5 (S1def m) (Y2def m) K c) $$ Hrec
  have hmw := mayWait31 (F := F) c (.dma (semAt cc0_scratch8 5 ho_5)) (by show (2 : ℕ) < 3; decide)
  sl_exec_parts
  clear hmw
  imod (Rounds.cell_close ER (sched (F := F) (S1def m) (Y2def m)) (Set.mem_univ (K (c, some (1, ⟨4, by decide⟩)))) (fun h => h) (R := 0 + 1) (duties_later (S1def m) (Y2def m) (r1Cell c 5 ho_5))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 6, and the read of what landed in slot 6
  ihave Xx := (held_elim _) $$ HC6
  icases Xx with ⟨Har1, Hcr1⟩
  ihave #HI := (inv_r1_6 (S1def m) (Y2def m) K c) $$ Hrec
  have hmw := mayWait31 (F := F) c (.dma (semAt cc0_scratch8 6 ho_6)) (by show (2 : ℕ) < 3; decide)
  sl_exec_parts
  clear hmw
  imod (Rounds.cell_close ER (sched (F := F) (S1def m) (Y2def m)) (Set.mem_univ (K (c, some (1, ⟨5, by decide⟩)))) (fun h => h) (R := 0 + 1) (duties_later (S1def m) (Y2def m) (r1Cell c 6 ho_6))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 7, and the read of what landed in slot 7
  ihave Xx := (held_elim _) $$ HC7
  icases Xx with ⟨Har1, Hcr1⟩
  ihave #HI := (inv_r1_7 (S1def m) (Y2def m) K c) $$ Hrec
  have hmw := mayWait31 (F := F) c (.dma (semAt cc0_scratch8 7 ho_7)) (by show (2 : ℕ) < 3; decide)
  sl_exec_parts
  clear hmw
  imod (Rounds.cell_close ER (sched (F := F) (S1def m) (Y2def m)) (Set.mem_univ (K (c, some (1, ⟨6, by decide⟩)))) (fun h => h) (R := 0 + 1) (duties_later (S1def m) (Y2def m) (r1Cell c 7 ho_7))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 8, and the read of what landed in slot 8
  ihave Xx := (held_elim _) $$ HC8
  icases Xx with ⟨Har1, Hcr1⟩
  ihave #HI := (inv_r1_8 (S1def m) (Y2def m) K c) $$ Hrec
  have hmw := mayWait31 (F := F) c (.dma (semAt cc0_scratch8 8 ho_8)) (by show (2 : ℕ) < 3; decide)
  sl_exec_parts
  clear hmw
  imod (Rounds.cell_close ER (sched (F := F) (S1def m) (Y2def m)) (Set.mem_univ (K (c, some (1, ⟨7, by decide⟩)))) (fun h => h) (R := 0 + 1) (duties_later (S1def m) (Y2def m) (r1Cell c 8 ho_8))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 9, and the read of what landed in slot 9
  ihave Xx := (held_elim _) $$ HC9
  icases Xx with ⟨Har1, Hcr1⟩
  ihave #HI := (inv_r1_9 (S1def m) (Y2def m) K c) $$ Hrec
  have hmw := mayWait31 (F := F) c (.dma (semAt cc0_scratch8 9 ho_9)) (by show (2 : ℕ) < 3; decide)
  sl_exec_parts
  clear hmw
  imod (Rounds.cell_close ER (sched (F := F) (S1def m) (Y2def m)) (Set.mem_univ (K (c, some (1, ⟨8, by decide⟩)))) (fun h => h) (R := 0 + 1) (duties_later (S1def m) (Y2def m) (r1Cell c 9 ho_9))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 10, and the read of what landed in slot 10
  ihave Xx := (held_elim _) $$ HC10
  icases Xx with ⟨Har1, Hcr1⟩
  ihave #HI := (inv_r1_10 (S1def m) (Y2def m) K c) $$ Hrec
  have hmw := mayWait31 (F := F) c (.dma (semAt cc0_scratch8 10 ho_10)) (by show (2 : ℕ) < 3; decide)
  sl_exec_parts
  clear hmw
  imod (Rounds.cell_close ER (sched (F := F) (S1def m) (Y2def m)) (Set.mem_univ (K (c, some (1, ⟨9, by decide⟩)))) (fun h => h) (R := 0 + 1) (duties_later (S1def m) (Y2def m) (r1Cell c 10 ho_10))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 11, and the read of what landed in slot 11
  ihave Xx := (held_elim _) $$ HC11
  icases Xx with ⟨Har1, Hcr1⟩
  ihave #HI := (inv_r1_11 (S1def m) (Y2def m) K c) $$ Hrec
  have hmw := mayWait31 (F := F) c (.dma (semAt cc0_scratch8 11 ho_11)) (by show (2 : ℕ) < 3; decide)
  sl_exec_parts
  clear hmw
  imod (Rounds.cell_close ER (sched (F := F) (S1def m) (Y2def m)) (Set.mem_univ (K (c, some (1, ⟨10, by decide⟩)))) (fun h => h) (R := 0 + 1) (duties_later (S1def m) (Y2def m) (r1Cell c 11 ho_11))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 12, and the read of what landed in slot 12
  ihave Xx := (held_elim _) $$ HC12
  icases Xx with ⟨Har1, Hcr1⟩
  ihave #HI := (inv_r1_12 (S1def m) (Y2def m) K c) $$ Hrec
  have hmw := mayWait31 (F := F) c (.dma (semAt cc0_scratch8 12 ho_12)) (by show (2 : ℕ) < 3; decide)
  sl_exec_parts
  clear hmw
  imod (Rounds.cell_close ER (sched (F := F) (S1def m) (Y2def m)) (Set.mem_univ (K (c, some (1, ⟨11, by decide⟩)))) (fun h => h) (R := 0 + 1) (duties_later (S1def m) (Y2def m) (r1Cell c 12 ho_12))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 13, and the read of what landed in slot 13
  ihave Xx := (held_elim _) $$ HC13
  icases Xx with ⟨Har1, Hcr1⟩
  ihave #HI := (inv_r1_13 (S1def m) (Y2def m) K c) $$ Hrec
  have hmw := mayWait31 (F := F) c (.dma (semAt cc0_scratch8 13 ho_13)) (by show (2 : ℕ) < 3; decide)
  sl_exec_parts
  clear hmw
  imod (Rounds.cell_close ER (sched (F := F) (S1def m) (Y2def m)) (Set.mem_univ (K (c, some (1, ⟨12, by decide⟩)))) (fun h => h) (R := 0 + 1) (duties_later (S1def m) (Y2def m) (r1Cell c 13 ho_13))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 14, and the read of what landed in slot 14
  ihave Xx := (held_elim _) $$ HC14
  icases Xx with ⟨Har1, Hcr1⟩
  ihave #HI := (inv_r1_14 (S1def m) (Y2def m) K c) $$ Hrec
  have hmw := mayWait31 (F := F) c (.dma (semAt cc0_scratch8 14 ho_14)) (by show (2 : ℕ) < 3; decide)
  sl_exec_parts
  clear hmw
  imod (Rounds.cell_close ER (sched (F := F) (S1def m) (Y2def m)) (Set.mem_univ (K (c, some (1, ⟨13, by decide⟩)))) (fun h => h) (R := 0 + 1) (duties_later (S1def m) (Y2def m) (r1Cell c 14 ho_14))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 15, and the read of what landed in slot 15
  ihave Xx := (held_elim _) $$ HC15
  icases Xx with ⟨Har1, Hcr1⟩
  ihave #HI := (inv_r1_15 (S1def m) (Y2def m) K c) $$ Hrec
  have hmw := mayWait31 (F := F) c (.dma (semAt cc0_scratch8 15 ho_15)) (by show (2 : ℕ) < 3; decide)
  sl_exec_parts
  clear hmw
  imod (Rounds.cell_close ER (sched (F := F) (S1def m) (Y2def m)) (Set.mem_univ (K (c, some (1, ⟨14, by decide⟩)))) (fun h => h) (R := 0 + 1) (duties_later (S1def m) (Y2def m) (r1Cell c 15 ho_15))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 16, and the read of what landed in slot 16
  ihave Xx := (held_elim _) $$ HC16
  icases Xx with ⟨Har1, Hcr1⟩
  ihave #HI := (inv_r1_16 (S1def m) (Y2def m) K c) $$ Hrec
  have hmw := mayWait31 (F := F) c (.dma (semAt cc0_scratch8 16 ho_16)) (by show (2 : ℕ) < 3; decide)
  sl_exec_parts
  clear hmw
  imod (Rounds.cell_close ER (sched (F := F) (S1def m) (Y2def m)) (Set.mem_univ (K (c, some (1, ⟨15, by decide⟩)))) (fun h => h) (R := 0 + 1) (duties_later (S1def m) (Y2def m) (r1Cell c 16 ho_16))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 17, and the read of what landed in slot 17
  ihave Xx := (held_elim _) $$ HC17
  icases Xx with ⟨Har1, Hcr1⟩
  ihave #HI := (inv_r1_17 (S1def m) (Y2def m) K c) $$ Hrec
  have hmw := mayWait31 (F := F) c (.dma (semAt cc0_scratch8 17 ho_17)) (by show (2 : ℕ) < 3; decide)
  sl_exec_parts
  clear hmw
  imod (Rounds.cell_close ER (sched (F := F) (S1def m) (Y2def m)) (Set.mem_univ (K (c, some (1, ⟨16, by decide⟩)))) (fun h => h) (R := 0 + 1) (duties_later (S1def m) (Y2def m) (r1Cell c 17 ho_17))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 18, and the read of what landed in slot 18
  ihave Xx := (held_elim _) $$ HC18
  icases Xx with ⟨Har1, Hcr1⟩
  ihave #HI := (inv_r1_18 (S1def m) (Y2def m) K c) $$ Hrec
  have hmw := mayWait31 (F := F) c (.dma (semAt cc0_scratch8 18 ho_18)) (by show (2 : ℕ) < 3; decide)
  sl_exec_parts
  clear hmw
  imod (Rounds.cell_close ER (sched (F := F) (S1def m) (Y2def m)) (Set.mem_univ (K (c, some (1, ⟨17, by decide⟩)))) (fun h => h) (R := 0 + 1) (duties_later (S1def m) (Y2def m) (r1Cell c 18 ho_18))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 19, and the read of what landed in slot 19
  ihave Xx := (held_elim _) $$ HC19
  icases Xx with ⟨Har1, Hcr1⟩
  ihave #HI := (inv_r1_19 (S1def m) (Y2def m) K c) $$ Hrec
  have hmw := mayWait31 (F := F) c (.dma (semAt cc0_scratch8 19 ho_19)) (by show (2 : ℕ) < 3; decide)
  sl_exec_parts
  clear hmw
  imod (Rounds.cell_close ER (sched (F := F) (S1def m) (Y2def m)) (Set.mem_univ (K (c, some (1, ⟨18, by decide⟩)))) (fun h => h) (R := 0 + 1) (duties_later (S1def m) (Y2def m) (r1Cell c 19 ho_19))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 20, and the read of what landed in slot 20
  ihave Xx := (held_elim _) $$ HC20
  icases Xx with ⟨Har1, Hcr1⟩
  ihave #HI := (inv_r1_20 (S1def m) (Y2def m) K c) $$ Hrec
  have hmw := mayWait31 (F := F) c (.dma (semAt cc0_scratch8 20 ho_20)) (by show (2 : ℕ) < 3; decide)
  sl_exec_parts
  clear hmw
  imod (Rounds.cell_close ER (sched (F := F) (S1def m) (Y2def m)) (Set.mem_univ (K (c, some (1, ⟨19, by decide⟩)))) (fun h => h) (R := 0 + 1) (duties_later (S1def m) (Y2def m) (r1Cell c 20 ho_20))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 21, and the read of what landed in slot 21
  ihave Xx := (held_elim _) $$ HC21
  icases Xx with ⟨Har1, Hcr1⟩
  ihave #HI := (inv_r1_21 (S1def m) (Y2def m) K c) $$ Hrec
  have hmw := mayWait31 (F := F) c (.dma (semAt cc0_scratch8 21 ho_21)) (by show (2 : ℕ) < 3; decide)
  sl_exec_parts
  clear hmw
  imod (Rounds.cell_close ER (sched (F := F) (S1def m) (Y2def m)) (Set.mem_univ (K (c, some (1, ⟨20, by decide⟩)))) (fun h => h) (R := 0 + 1) (duties_later (S1def m) (Y2def m) (r1Cell c 21 ho_21))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 22, and the read of what landed in slot 22
  ihave Xx := (held_elim _) $$ HC22
  icases Xx with ⟨Har1, Hcr1⟩
  ihave #HI := (inv_r1_22 (S1def m) (Y2def m) K c) $$ Hrec
  have hmw := mayWait31 (F := F) c (.dma (semAt cc0_scratch8 22 ho_22)) (by show (2 : ℕ) < 3; decide)
  sl_exec_parts
  clear hmw
  imod (Rounds.cell_close ER (sched (F := F) (S1def m) (Y2def m)) (Set.mem_univ (K (c, some (1, ⟨21, by decide⟩)))) (fun h => h) (R := 0 + 1) (duties_later (S1def m) (Y2def m) (r1Cell c 22 ho_22))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 23, and the read of what landed in slot 23
  ihave Xx := (held_elim _) $$ HC23
  icases Xx with ⟨Har1, Hcr1⟩
  ihave #HI := (inv_r1_23 (S1def m) (Y2def m) K c) $$ Hrec
  have hmw := mayWait31 (F := F) c (.dma (semAt cc0_scratch8 23 ho_23)) (by show (2 : ℕ) < 3; decide)
  sl_exec_parts
  clear hmw
  imod (Rounds.cell_close ER (sched (F := F) (S1def m) (Y2def m)) (Set.mem_univ (K (c, some (1, ⟨22, by decide⟩)))) (fun h => h) (R := 0 + 1) (duties_later (S1def m) (Y2def m) (r1Cell c 23 ho_23))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 24, and the read of what landed in slot 24
  ihave Xx := (held_elim _) $$ HC24
  icases Xx with ⟨Har1, Hcr1⟩
  ihave #HI := (inv_r1_24 (S1def m) (Y2def m) K c) $$ Hrec
  have hmw := mayWait31 (F := F) c (.dma (semAt cc0_scratch8 24 ho_24)) (by show (2 : ℕ) < 3; decide)
  sl_exec_parts
  clear hmw
  imod (Rounds.cell_close ER (sched (F := F) (S1def m) (Y2def m)) (Set.mem_univ (K (c, some (1, ⟨23, by decide⟩)))) (fun h => h) (R := 0 + 1) (duties_later (S1def m) (Y2def m) (r1Cell c 24 ho_24))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 25, and the read of what landed in slot 25
  ihave Xx := (held_elim _) $$ HC25
  icases Xx with ⟨Har1, Hcr1⟩
  ihave #HI := (inv_r1_25 (S1def m) (Y2def m) K c) $$ Hrec
  have hmw := mayWait31 (F := F) c (.dma (semAt cc0_scratch8 25 ho_25)) (by show (2 : ℕ) < 3; decide)
  sl_exec_parts
  clear hmw
  imod (Rounds.cell_close ER (sched (F := F) (S1def m) (Y2def m)) (Set.mem_univ (K (c, some (1, ⟨24, by decide⟩)))) (fun h => h) (R := 0 + 1) (duties_later (S1def m) (Y2def m) (r1Cell c 25 ho_25))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 26, and the read of what landed in slot 26
  ihave Xx := (held_elim _) $$ HC26
  icases Xx with ⟨Har1, Hcr1⟩
  ihave #HI := (inv_r1_26 (S1def m) (Y2def m) K c) $$ Hrec
  have hmw := mayWait31 (F := F) c (.dma (semAt cc0_scratch8 26 ho_26)) (by show (2 : ℕ) < 3; decide)
  sl_exec_parts
  clear hmw
  imod (Rounds.cell_close ER (sched (F := F) (S1def m) (Y2def m)) (Set.mem_univ (K (c, some (1, ⟨25, by decide⟩)))) (fun h => h) (R := 0 + 1) (duties_later (S1def m) (Y2def m) (r1Cell c 26 ho_26))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 27, and the read of what landed in slot 27
  ihave Xx := (held_elim _) $$ HC27
  icases Xx with ⟨Har1, Hcr1⟩
  ihave #HI := (inv_r1_27 (S1def m) (Y2def m) K c) $$ Hrec
  have hmw := mayWait31 (F := F) c (.dma (semAt cc0_scratch8 27 ho_27)) (by show (2 : ℕ) < 3; decide)
  sl_exec_parts
  clear hmw
  imod (Rounds.cell_close ER (sched (F := F) (S1def m) (Y2def m)) (Set.mem_univ (K (c, some (1, ⟨26, by decide⟩)))) (fun h => h) (R := 0 + 1) (duties_later (S1def m) (Y2def m) (r1Cell c 27 ho_27))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 28, and the read of what landed in slot 28
  ihave Xx := (held_elim _) $$ HC28
  icases Xx with ⟨Har1, Hcr1⟩
  ihave #HI := (inv_r1_28 (S1def m) (Y2def m) K c) $$ Hrec
  have hmw := mayWait31 (F := F) c (.dma (semAt cc0_scratch8 28 ho_28)) (by show (2 : ℕ) < 3; decide)
  sl_exec_parts
  clear hmw
  imod (Rounds.cell_close ER (sched (F := F) (S1def m) (Y2def m)) (Set.mem_univ (K (c, some (1, ⟨27, by decide⟩)))) (fun h => h) (R := 0 + 1) (duties_later (S1def m) (Y2def m) (r1Cell c 28 ho_28))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 29, and the read of what landed in slot 29
  ihave Xx := (held_elim _) $$ HC29
  icases Xx with ⟨Har1, Hcr1⟩
  ihave #HI := (inv_r1_29 (S1def m) (Y2def m) K c) $$ Hrec
  have hmw := mayWait31 (F := F) c (.dma (semAt cc0_scratch8 29 ho_29)) (by show (2 : ℕ) < 3; decide)
  sl_exec_parts
  clear hmw
  imod (Rounds.cell_close ER (sched (F := F) (S1def m) (Y2def m)) (Set.mem_univ (K (c, some (1, ⟨28, by decide⟩)))) (fun h => h) (R := 0 + 1) (duties_later (S1def m) (Y2def m) (r1Cell c 29 ho_29))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 30, and the read of what landed in slot 30
  ihave Xx := (held_elim _) $$ HC30
  icases Xx with ⟨Har1, Hcr1⟩
  ihave #HI := (inv_r1_30 (S1def m) (Y2def m) K c) $$ Hrec
  have hmw := mayWait31 (F := F) c (.dma (semAt cc0_scratch8 30 ho_30)) (by show (2 : ℕ) < 3; decide)
  sl_exec_parts
  clear hmw
  imod (Rounds.cell_close ER (sched (F := F) (S1def m) (Y2def m)) (Set.mem_univ (K (c, some (1, ⟨29, by decide⟩)))) (fun h => h) (R := 0 + 1) (duties_later (S1def m) (Y2def m) (r1Cell c 30 ho_30))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the receive wait at offset 31, and the read of what landed in slot 31
  ihave Xx := (held_elim _) $$ HC31
  icases Xx with ⟨Har1, Hcr1⟩
  ihave #HI := (inv_r1_31 (S1def m) (Y2def m) K c) $$ Hrec
  have hmw := mayWait31 (F := F) c (.dma (semAt cc0_scratch8 31 ho_31)) (by show (2 : ℕ) < 3; decide)
  ihave Lx := (held_elim _) $$ HLoc
  icases Lx with ⟨HzOut0, Hc1_0, Hc2_0, Hz70, Hz80, Hz90, Hz100⟩
  ihave Ox := (out_split (F := F) c fO) $$ HOo
  icases Ox with ⟨HOb0, HOb1, HOb2, HOb3, HOb4, HOb5, HOb6, HOb7, HOb8, HOb9, HOb10, HOb11, HOb12, HOb13, HOb14, HOb15, HOb16, HOb17, HOb18, HOb19, HOb20, HOb21, HOb22, HOb23, HOb24, HOb25, HOb26, HOb27, HOb28, HOb29, HOb30, HOb31⟩
  sl_exec_parts
  clear hmw
  imod (Rounds.cell_close ER (sched (F := F) (S1def m) (Y2def m)) (Set.mem_univ (K (c, some (1, ⟨30, by decide⟩)))) (fun h => h) (R := 0 + 1) (duties_later (S1def m) (Y2def m) (r1Cell c 31 ho_31))) $$ [Har1] with Hz
  · isplitr; · iexact HI
    iexact Har1
  ihave HAccZr1 := (held_push _ _) $$ [Hz HAccZr1]
  · isplitl [Hz]
    · iexact Hz
    · iexact HAccZr1
  ihave HAccL1 := (held_push _ _) $$ [Har1_pay1 HAccL1]
  · isplitl [Har1_pay1]
    · iexact Har1_pay1
    · iexact HAccL1
  iclear HI Har1_reached
  -- the 16 result rows, narrowed: one read share per transfer of the second exchange
  have htv := tv_contents m c f0
  have hacc : body_run.sl.r_12 c m f0 = accDef m c := by
    unfold body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.dma0
    rw [htv]
    rfl
  have hY2 : st2.view.writes (Elt F) f3 (body_run.sl.Hs3_1 c m f0) = (Y2def m) c := by
    unfold body_run.sl.Hs3_1
    rw [hacc]
    exact st2_whole_write c f3 _
  rw [hY2]
  ihave Hs3 := (Entails.of_eq (show (st2.view.loc (c : Thread nD τ) ↦{fullShare} (Y2def m) c : sProp 𝕄) = (st2.view.loc (c : Thread nD τ) ↦[st2.view.set]{fullShare} (Y2def m) c : sProp 𝕄) from by rw [View.set_whole])) $$ Hs3
  ihave Hsh := (st2_split (F := F) c ((Y2def m) c)) $$ Hs3
  icases Hsh with ⟨Hsh0, Hsh1, Hsh2, Hsh3, Hsh4, Hsh5, Hsh6, Hsh7, Hsh8, Hsh9, Hsh10, Hsh11, Hsh12, Hsh13, Hsh14, Hsh15, Hsh16, Hsh17, Hsh18, Hsh19, Hsh20, Hsh21, Hsh22, Hsh23, Hsh24, Hsh25, Hsh26, Hsh27, Hsh28, Hsh29, Hsh30, Hsh31⟩
  ihave Hx := (held_elim _) $$ HDAll
  icases Hx with ⟨HD1, HD2, HD3, HD4, HD5, HD6, HD7, HD8, HD9, HD10, HD11, HD12, HD13, HD14, HD15, HD16, HD17, HD18, HD19, HD20, HD21, HD22, HD23, HD24, HD25, HD26, HD27, HD28, HD29, HD30, HD31⟩
  ihave Xq := (held_pop _ _) $$ HAccPb
  icases Xq with ⟨Hb31, HAccPb⟩
  ihave Xq := (held_pop _ _) $$ HAccPb
  icases Xq with ⟨Hb30, HAccPb⟩
  ihave Xq := (held_pop _ _) $$ HAccPb
  icases Xq with ⟨Hb29, HAccPb⟩
  ihave Xq := (held_pop _ _) $$ HAccPb
  icases Xq with ⟨Hb28, HAccPb⟩
  ihave Xq := (held_pop _ _) $$ HAccPb
  icases Xq with ⟨Hb27, HAccPb⟩
  ihave Xq := (held_pop _ _) $$ HAccPb
  icases Xq with ⟨Hb26, HAccPb⟩
  ihave Xq := (held_pop _ _) $$ HAccPb
  icases Xq with ⟨Hb25, HAccPb⟩
  ihave Xq := (held_pop _ _) $$ HAccPb
  icases Xq with ⟨Hb24, HAccPb⟩
  ihave Xq := (held_pop _ _) $$ HAccPb
  icases Xq with ⟨Hb23, HAccPb⟩
  ihave Xq := (held_pop _ _) $$ HAccPb
  icases Xq with ⟨Hb22, HAccPb⟩
  ihave Xq := (held_pop _ _) $$ HAccPb
  icases Xq with ⟨Hb21, HAccPb⟩
  ihave Xq := (held_pop _ _) $$ HAccPb
  icases Xq with ⟨Hb20, HAccPb⟩
  ihave Xq := (held_pop _ _) $$ HAccPb
  icases Xq with ⟨Hb19, HAccPb⟩
  ihave Xq := (held_pop _ _) $$ HAccPb
  icases Xq with ⟨Hb18, HAccPb⟩
  ihave Xq := (held_pop _ _) $$ HAccPb
  icases Xq with ⟨Hb17, HAccPb⟩
  ihave Xq := (held_pop _ _) $$ HAccPb
  icases Xq with ⟨Hb16, HAccPb⟩
  ihave Xq := (held_pop _ _) $$ HAccPb
  icases Xq with ⟨Hb15, HAccPb⟩
  ihave Xq := (held_pop _ _) $$ HAccPb
  icases Xq with ⟨Hb14, HAccPb⟩
  ihave Xq := (held_pop _ _) $$ HAccPb
  icases Xq with ⟨Hb13, HAccPb⟩
  ihave Xq := (held_pop _ _) $$ HAccPb
  icases Xq with ⟨Hb12, HAccPb⟩
  ihave Xq := (held_pop _ _) $$ HAccPb
  icases Xq with ⟨Hb11, HAccPb⟩
  ihave Xq := (held_pop _ _) $$ HAccPb
  icases Xq with ⟨Hb10, HAccPb⟩
  ihave Xq := (held_pop _ _) $$ HAccPb
  icases Xq with ⟨Hb9, HAccPb⟩
  ihave Xq := (held_pop _ _) $$ HAccPb
  icases Xq with ⟨Hb8, HAccPb⟩
  ihave Xq := (held_pop _ _) $$ HAccPb
  icases Xq with ⟨Hb7, HAccPb⟩
  ihave Xq := (held_pop _ _) $$ HAccPb
  icases Xq with ⟨Hb6, HAccPb⟩
  ihave Xq := (held_pop _ _) $$ HAccPb
  icases Xq with ⟨Hb5, HAccPb⟩
  ihave Xq := (held_pop _ _) $$ HAccPb
  icases Xq with ⟨Hb4, HAccPb⟩
  ihave Xq := (held_pop _ _) $$ HAccPb
  icases Xq with ⟨Hb3, HAccPb⟩
  ihave Xq := (held_pop _ _) $$ HAccPb
  icases Xq with ⟨Hb2, HAccPb⟩
  ihave Hb1 := (held_elim _) $$ HAccPb
  -- the second exchange's transfer at offset 1
  icases Hb1 with ⟨%fb1, Hbs⟩
  ihave Xx := (held_elim _) $$ HD1
  icases Xx with ⟨Hts2, Htr2p⟩
  ihave #HI1 := (inv_s2_1 (S1def m) (Y2def m) K c) $$ Hrec
  ihave #HI2 := (inv_r2p_1 (S1def m) (Y2def m) K c) $$ Hrec
  ihave #Hr1 := (rch_s2_1 (S1def m) (Y2def m) K c) $$ Hrec
  ihave #Hr2 := (rch_r2p_1 (S1def m) (Y2def m) K c) $$ Hrec
  iapply (wp_send2 (S1def m) (Y2def m) c _ 1 (dev63_eq c) hk_1 ho_1 _ _ (by rw [duties_2_1]; exact Finset.mem_singleton_self _) (by rw [duties_3_1]; exact Finset.mem_singleton_self _)
      (pay_2_1 (S1def m) (Y2def m) c 0 0) (pay_3_1 (S1def m) (Y2def m) (rot c 1) 0 0) fb1 _ _) $$ [Hsh1 Hbs HO Hts2 Htr2p]
  · isplitr; · iexact HI1
    isplitr; · iexact HI2
    isplitl [Hsh1]; · iexact Hsh1
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_intro _) $$ Hcs
  iclear HI1 HI2 Hr1 Hr2
  sl_exec_parts
  -- the second exchange's transfer at offset 2
  icases Hb2 with ⟨%fb2, Hbs⟩
  ihave Xx := (held_elim _) $$ HD2
  icases Xx with ⟨Hts2, Htr2p⟩
  ihave #HI1 := (inv_s2_2 (S1def m) (Y2def m) K c) $$ Hrec
  ihave #HI2 := (inv_r2p_2 (S1def m) (Y2def m) K c) $$ Hrec
  ihave #Hr1 := (rch_s2_2 (S1def m) (Y2def m) K c) $$ Hrec
  ihave #Hr2 := (rch_r2p_2 (S1def m) (Y2def m) K c) $$ Hrec
  iapply (wp_send2 (S1def m) (Y2def m) c _ 2 (dev64_eq c) hk_2 ho_2 _ _ (by rw [duties_2_2]; exact Finset.mem_singleton_self _) (by rw [duties_3_2]; exact Finset.mem_singleton_self _)
      (pay_2_2 (S1def m) (Y2def m) c 0 0) (pay_3_2 (S1def m) (Y2def m) (rot c 2) 0 0) fb2 _ _) $$ [Hsh2 Hbs HO Hts2 Htr2p]
  · isplitr; · iexact HI1
    isplitr; · iexact HI2
    isplitl [Hsh2]; · iexact Hsh2
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 3
  icases Hb3 with ⟨%fb3, Hbs⟩
  ihave Xx := (held_elim _) $$ HD3
  icases Xx with ⟨Hts2, Htr2p⟩
  ihave #HI1 := (inv_s2_3 (S1def m) (Y2def m) K c) $$ Hrec
  ihave #HI2 := (inv_r2p_3 (S1def m) (Y2def m) K c) $$ Hrec
  ihave #Hr1 := (rch_s2_3 (S1def m) (Y2def m) K c) $$ Hrec
  ihave #Hr2 := (rch_r2p_3 (S1def m) (Y2def m) K c) $$ Hrec
  iapply (wp_send2 (S1def m) (Y2def m) c _ 3 (dev65_eq c) hk_3 ho_3 _ _ (by rw [duties_2_3]; exact Finset.mem_singleton_self _) (by rw [duties_3_3]; exact Finset.mem_singleton_self _)
      (pay_2_3 (S1def m) (Y2def m) c 0 0) (pay_3_3 (S1def m) (Y2def m) (rot c 3) 0 0) fb3 _ _) $$ [Hsh3 Hbs HO Hts2 Htr2p]
  · isplitr; · iexact HI1
    isplitr; · iexact HI2
    isplitl [Hsh3]; · iexact Hsh3
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 4
  icases Hb4 with ⟨%fb4, Hbs⟩
  ihave Xx := (held_elim _) $$ HD4
  icases Xx with ⟨Hts2, Htr2p⟩
  ihave #HI1 := (inv_s2_4 (S1def m) (Y2def m) K c) $$ Hrec
  ihave #HI2 := (inv_r2p_4 (S1def m) (Y2def m) K c) $$ Hrec
  ihave #Hr1 := (rch_s2_4 (S1def m) (Y2def m) K c) $$ Hrec
  ihave #Hr2 := (rch_r2p_4 (S1def m) (Y2def m) K c) $$ Hrec
  iapply (wp_send2 (S1def m) (Y2def m) c _ 4 (dev66_eq c) hk_4 ho_4 _ _ (by rw [duties_2_4]; exact Finset.mem_singleton_self _) (by rw [duties_3_4]; exact Finset.mem_singleton_self _)
      (pay_2_4 (S1def m) (Y2def m) c 0 0) (pay_3_4 (S1def m) (Y2def m) (rot c 4) 0 0) fb4 _ _) $$ [Hsh4 Hbs HO Hts2 Htr2p]
  · isplitr; · iexact HI1
    isplitr; · iexact HI2
    isplitl [Hsh4]; · iexact Hsh4
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 5
  icases Hb5 with ⟨%fb5, Hbs⟩
  ihave Xx := (held_elim _) $$ HD5
  icases Xx with ⟨Hts2, Htr2p⟩
  ihave #HI1 := (inv_s2_5 (S1def m) (Y2def m) K c) $$ Hrec
  ihave #HI2 := (inv_r2p_5 (S1def m) (Y2def m) K c) $$ Hrec
  ihave #Hr1 := (rch_s2_5 (S1def m) (Y2def m) K c) $$ Hrec
  ihave #Hr2 := (rch_r2p_5 (S1def m) (Y2def m) K c) $$ Hrec
  iapply (wp_send2 (S1def m) (Y2def m) c _ 5 (dev67_eq c) hk_5 ho_5 _ _ (by rw [duties_2_5]; exact Finset.mem_singleton_self _) (by rw [duties_3_5]; exact Finset.mem_singleton_self _)
      (pay_2_5 (S1def m) (Y2def m) c 0 0) (pay_3_5 (S1def m) (Y2def m) (rot c 5) 0 0) fb5 _ _) $$ [Hsh5 Hbs HO Hts2 Htr2p]
  · isplitr; · iexact HI1
    isplitr; · iexact HI2
    isplitl [Hsh5]; · iexact Hsh5
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 6
  icases Hb6 with ⟨%fb6, Hbs⟩
  ihave Xx := (held_elim _) $$ HD6
  icases Xx with ⟨Hts2, Htr2p⟩
  ihave #HI1 := (inv_s2_6 (S1def m) (Y2def m) K c) $$ Hrec
  ihave #HI2 := (inv_r2p_6 (S1def m) (Y2def m) K c) $$ Hrec
  ihave #Hr1 := (rch_s2_6 (S1def m) (Y2def m) K c) $$ Hrec
  ihave #Hr2 := (rch_r2p_6 (S1def m) (Y2def m) K c) $$ Hrec
  iapply (wp_send2 (S1def m) (Y2def m) c _ 6 (dev68_eq c) hk_6 ho_6 _ _ (by rw [duties_2_6]; exact Finset.mem_singleton_self _) (by rw [duties_3_6]; exact Finset.mem_singleton_self _)
      (pay_2_6 (S1def m) (Y2def m) c 0 0) (pay_3_6 (S1def m) (Y2def m) (rot c 6) 0 0) fb6 _ _) $$ [Hsh6 Hbs HO Hts2 Htr2p]
  · isplitr; · iexact HI1
    isplitr; · iexact HI2
    isplitl [Hsh6]; · iexact Hsh6
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 7
  icases Hb7 with ⟨%fb7, Hbs⟩
  ihave Xx := (held_elim _) $$ HD7
  icases Xx with ⟨Hts2, Htr2p⟩
  ihave #HI1 := (inv_s2_7 (S1def m) (Y2def m) K c) $$ Hrec
  ihave #HI2 := (inv_r2p_7 (S1def m) (Y2def m) K c) $$ Hrec
  ihave #Hr1 := (rch_s2_7 (S1def m) (Y2def m) K c) $$ Hrec
  ihave #Hr2 := (rch_r2p_7 (S1def m) (Y2def m) K c) $$ Hrec
  iapply (wp_send2 (S1def m) (Y2def m) c _ 7 (dev69_eq c) hk_7 ho_7 _ _ (by rw [duties_2_7]; exact Finset.mem_singleton_self _) (by rw [duties_3_7]; exact Finset.mem_singleton_self _)
      (pay_2_7 (S1def m) (Y2def m) c 0 0) (pay_3_7 (S1def m) (Y2def m) (rot c 7) 0 0) fb7 _ _) $$ [Hsh7 Hbs HO Hts2 Htr2p]
  · isplitr; · iexact HI1
    isplitr; · iexact HI2
    isplitl [Hsh7]; · iexact Hsh7
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 8
  icases Hb8 with ⟨%fb8, Hbs⟩
  ihave Xx := (held_elim _) $$ HD8
  icases Xx with ⟨Hts2, Htr2p⟩
  ihave #HI1 := (inv_s2_8 (S1def m) (Y2def m) K c) $$ Hrec
  ihave #HI2 := (inv_r2p_8 (S1def m) (Y2def m) K c) $$ Hrec
  ihave #Hr1 := (rch_s2_8 (S1def m) (Y2def m) K c) $$ Hrec
  ihave #Hr2 := (rch_r2p_8 (S1def m) (Y2def m) K c) $$ Hrec
  iapply (wp_send2 (S1def m) (Y2def m) c _ 8 (dev70_eq c) hk_8 ho_8 _ _ (by rw [duties_2_8]; exact Finset.mem_singleton_self _) (by rw [duties_3_8]; exact Finset.mem_singleton_self _)
      (pay_2_8 (S1def m) (Y2def m) c 0 0) (pay_3_8 (S1def m) (Y2def m) (rot c 8) 0 0) fb8 _ _) $$ [Hsh8 Hbs HO Hts2 Htr2p]
  · isplitr; · iexact HI1
    isplitr; · iexact HI2
    isplitl [Hsh8]; · iexact Hsh8
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 9
  icases Hb9 with ⟨%fb9, Hbs⟩
  ihave Xx := (held_elim _) $$ HD9
  icases Xx with ⟨Hts2, Htr2p⟩
  ihave #HI1 := (inv_s2_9 (S1def m) (Y2def m) K c) $$ Hrec
  ihave #HI2 := (inv_r2p_9 (S1def m) (Y2def m) K c) $$ Hrec
  ihave #Hr1 := (rch_s2_9 (S1def m) (Y2def m) K c) $$ Hrec
  ihave #Hr2 := (rch_r2p_9 (S1def m) (Y2def m) K c) $$ Hrec
  iapply (wp_send2 (S1def m) (Y2def m) c _ 9 (dev71_eq c) hk_9 ho_9 _ _ (by rw [duties_2_9]; exact Finset.mem_singleton_self _) (by rw [duties_3_9]; exact Finset.mem_singleton_self _)
      (pay_2_9 (S1def m) (Y2def m) c 0 0) (pay_3_9 (S1def m) (Y2def m) (rot c 9) 0 0) fb9 _ _) $$ [Hsh9 Hbs HO Hts2 Htr2p]
  · isplitr; · iexact HI1
    isplitr; · iexact HI2
    isplitl [Hsh9]; · iexact Hsh9
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 10
  icases Hb10 with ⟨%fb10, Hbs⟩
  ihave Xx := (held_elim _) $$ HD10
  icases Xx with ⟨Hts2, Htr2p⟩
  ihave #HI1 := (inv_s2_10 (S1def m) (Y2def m) K c) $$ Hrec
  ihave #HI2 := (inv_r2p_10 (S1def m) (Y2def m) K c) $$ Hrec
  ihave #Hr1 := (rch_s2_10 (S1def m) (Y2def m) K c) $$ Hrec
  ihave #Hr2 := (rch_r2p_10 (S1def m) (Y2def m) K c) $$ Hrec
  iapply (wp_send2 (S1def m) (Y2def m) c _ 10 (dev72_eq c) hk_10 ho_10 _ _ (by rw [duties_2_10]; exact Finset.mem_singleton_self _) (by rw [duties_3_10]; exact Finset.mem_singleton_self _)
      (pay_2_10 (S1def m) (Y2def m) c 0 0) (pay_3_10 (S1def m) (Y2def m) (rot c 10) 0 0) fb10 _ _) $$ [Hsh10 Hbs HO Hts2 Htr2p]
  · isplitr; · iexact HI1
    isplitr; · iexact HI2
    isplitl [Hsh10]; · iexact Hsh10
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 11
  icases Hb11 with ⟨%fb11, Hbs⟩
  ihave Xx := (held_elim _) $$ HD11
  icases Xx with ⟨Hts2, Htr2p⟩
  ihave #HI1 := (inv_s2_11 (S1def m) (Y2def m) K c) $$ Hrec
  ihave #HI2 := (inv_r2p_11 (S1def m) (Y2def m) K c) $$ Hrec
  ihave #Hr1 := (rch_s2_11 (S1def m) (Y2def m) K c) $$ Hrec
  ihave #Hr2 := (rch_r2p_11 (S1def m) (Y2def m) K c) $$ Hrec
  iapply (wp_send2 (S1def m) (Y2def m) c _ 11 (dev73_eq c) hk_11 ho_11 _ _ (by rw [duties_2_11]; exact Finset.mem_singleton_self _) (by rw [duties_3_11]; exact Finset.mem_singleton_self _)
      (pay_2_11 (S1def m) (Y2def m) c 0 0) (pay_3_11 (S1def m) (Y2def m) (rot c 11) 0 0) fb11 _ _) $$ [Hsh11 Hbs HO Hts2 Htr2p]
  · isplitr; · iexact HI1
    isplitr; · iexact HI2
    isplitl [Hsh11]; · iexact Hsh11
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 12
  icases Hb12 with ⟨%fb12, Hbs⟩
  ihave Xx := (held_elim _) $$ HD12
  icases Xx with ⟨Hts2, Htr2p⟩
  ihave #HI1 := (inv_s2_12 (S1def m) (Y2def m) K c) $$ Hrec
  ihave #HI2 := (inv_r2p_12 (S1def m) (Y2def m) K c) $$ Hrec
  ihave #Hr1 := (rch_s2_12 (S1def m) (Y2def m) K c) $$ Hrec
  ihave #Hr2 := (rch_r2p_12 (S1def m) (Y2def m) K c) $$ Hrec
  iapply (wp_send2 (S1def m) (Y2def m) c _ 12 (dev74_eq c) hk_12 ho_12 _ _ (by rw [duties_2_12]; exact Finset.mem_singleton_self _) (by rw [duties_3_12]; exact Finset.mem_singleton_self _)
      (pay_2_12 (S1def m) (Y2def m) c 0 0) (pay_3_12 (S1def m) (Y2def m) (rot c 12) 0 0) fb12 _ _) $$ [Hsh12 Hbs HO Hts2 Htr2p]
  · isplitr; · iexact HI1
    isplitr; · iexact HI2
    isplitl [Hsh12]; · iexact Hsh12
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 13
  icases Hb13 with ⟨%fb13, Hbs⟩
  ihave Xx := (held_elim _) $$ HD13
  icases Xx with ⟨Hts2, Htr2p⟩
  ihave #HI1 := (inv_s2_13 (S1def m) (Y2def m) K c) $$ Hrec
  ihave #HI2 := (inv_r2p_13 (S1def m) (Y2def m) K c) $$ Hrec
  ihave #Hr1 := (rch_s2_13 (S1def m) (Y2def m) K c) $$ Hrec
  ihave #Hr2 := (rch_r2p_13 (S1def m) (Y2def m) K c) $$ Hrec
  iapply (wp_send2 (S1def m) (Y2def m) c _ 13 (dev75_eq c) hk_13 ho_13 _ _ (by rw [duties_2_13]; exact Finset.mem_singleton_self _) (by rw [duties_3_13]; exact Finset.mem_singleton_self _)
      (pay_2_13 (S1def m) (Y2def m) c 0 0) (pay_3_13 (S1def m) (Y2def m) (rot c 13) 0 0) fb13 _ _) $$ [Hsh13 Hbs HO Hts2 Htr2p]
  · isplitr; · iexact HI1
    isplitr; · iexact HI2
    isplitl [Hsh13]; · iexact Hsh13
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 14
  icases Hb14 with ⟨%fb14, Hbs⟩
  ihave Xx := (held_elim _) $$ HD14
  icases Xx with ⟨Hts2, Htr2p⟩
  ihave #HI1 := (inv_s2_14 (S1def m) (Y2def m) K c) $$ Hrec
  ihave #HI2 := (inv_r2p_14 (S1def m) (Y2def m) K c) $$ Hrec
  ihave #Hr1 := (rch_s2_14 (S1def m) (Y2def m) K c) $$ Hrec
  ihave #Hr2 := (rch_r2p_14 (S1def m) (Y2def m) K c) $$ Hrec
  iapply (wp_send2 (S1def m) (Y2def m) c _ 14 (dev76_eq c) hk_14 ho_14 _ _ (by rw [duties_2_14]; exact Finset.mem_singleton_self _) (by rw [duties_3_14]; exact Finset.mem_singleton_self _)
      (pay_2_14 (S1def m) (Y2def m) c 0 0) (pay_3_14 (S1def m) (Y2def m) (rot c 14) 0 0) fb14 _ _) $$ [Hsh14 Hbs HO Hts2 Htr2p]
  · isplitr; · iexact HI1
    isplitr; · iexact HI2
    isplitl [Hsh14]; · iexact Hsh14
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 15
  icases Hb15 with ⟨%fb15, Hbs⟩
  ihave Xx := (held_elim _) $$ HD15
  icases Xx with ⟨Hts2, Htr2p⟩
  ihave #HI1 := (inv_s2_15 (S1def m) (Y2def m) K c) $$ Hrec
  ihave #HI2 := (inv_r2p_15 (S1def m) (Y2def m) K c) $$ Hrec
  ihave #Hr1 := (rch_s2_15 (S1def m) (Y2def m) K c) $$ Hrec
  ihave #Hr2 := (rch_r2p_15 (S1def m) (Y2def m) K c) $$ Hrec
  iapply (wp_send2 (S1def m) (Y2def m) c _ 15 (dev77_eq c) hk_15 ho_15 _ _ (by rw [duties_2_15]; exact Finset.mem_singleton_self _) (by rw [duties_3_15]; exact Finset.mem_singleton_self _)
      (pay_2_15 (S1def m) (Y2def m) c 0 0) (pay_3_15 (S1def m) (Y2def m) (rot c 15) 0 0) fb15 _ _) $$ [Hsh15 Hbs HO Hts2 Htr2p]
  · isplitr; · iexact HI1
    isplitr; · iexact HI2
    isplitl [Hsh15]; · iexact Hsh15
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 16
  icases Hb16 with ⟨%fb16, Hbs⟩
  ihave Xx := (held_elim _) $$ HD16
  icases Xx with ⟨Hts2, Htr2p⟩
  ihave #HI1 := (inv_s2_16 (S1def m) (Y2def m) K c) $$ Hrec
  ihave #HI2 := (inv_r2p_16 (S1def m) (Y2def m) K c) $$ Hrec
  ihave #Hr1 := (rch_s2_16 (S1def m) (Y2def m) K c) $$ Hrec
  ihave #Hr2 := (rch_r2p_16 (S1def m) (Y2def m) K c) $$ Hrec
  iapply (wp_send2 (S1def m) (Y2def m) c _ 16 (dev78_eq c) hk_16 ho_16 _ _ (by rw [duties_2_16]; exact Finset.mem_singleton_self _) (by rw [duties_3_16]; exact Finset.mem_singleton_self _)
      (pay_2_16 (S1def m) (Y2def m) c 0 0) (pay_3_16 (S1def m) (Y2def m) (rot c 16) 0 0) fb16 _ _) $$ [Hsh16 Hbs HO Hts2 Htr2p]
  · isplitr; · iexact HI1
    isplitr; · iexact HI2
    isplitl [Hsh16]; · iexact Hsh16
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 17
  icases Hb17 with ⟨%fb17, Hbs⟩
  ihave Xx := (held_elim _) $$ HD17
  icases Xx with ⟨Hts2, Htr2p⟩
  ihave #HI1 := (inv_s2_17 (S1def m) (Y2def m) K c) $$ Hrec
  ihave #HI2 := (inv_r2p_17 (S1def m) (Y2def m) K c) $$ Hrec
  ihave #Hr1 := (rch_s2_17 (S1def m) (Y2def m) K c) $$ Hrec
  ihave #Hr2 := (rch_r2p_17 (S1def m) (Y2def m) K c) $$ Hrec
  iapply (wp_send2 (S1def m) (Y2def m) c _ 17 (dev79_eq c) hk_17 ho_17 _ _ (by rw [duties_2_17]; exact Finset.mem_singleton_self _) (by rw [duties_3_17]; exact Finset.mem_singleton_self _)
      (pay_2_17 (S1def m) (Y2def m) c 0 0) (pay_3_17 (S1def m) (Y2def m) (rot c 17) 0 0) fb17 _ _) $$ [Hsh17 Hbs HO Hts2 Htr2p]
  · isplitr; · iexact HI1
    isplitr; · iexact HI2
    isplitl [Hsh17]; · iexact Hsh17
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 18
  icases Hb18 with ⟨%fb18, Hbs⟩
  ihave Xx := (held_elim _) $$ HD18
  icases Xx with ⟨Hts2, Htr2p⟩
  ihave #HI1 := (inv_s2_18 (S1def m) (Y2def m) K c) $$ Hrec
  ihave #HI2 := (inv_r2p_18 (S1def m) (Y2def m) K c) $$ Hrec
  ihave #Hr1 := (rch_s2_18 (S1def m) (Y2def m) K c) $$ Hrec
  ihave #Hr2 := (rch_r2p_18 (S1def m) (Y2def m) K c) $$ Hrec
  iapply (wp_send2 (S1def m) (Y2def m) c _ 18 (dev80_eq c) hk_18 ho_18 _ _ (by rw [duties_2_18]; exact Finset.mem_singleton_self _) (by rw [duties_3_18]; exact Finset.mem_singleton_self _)
      (pay_2_18 (S1def m) (Y2def m) c 0 0) (pay_3_18 (S1def m) (Y2def m) (rot c 18) 0 0) fb18 _ _) $$ [Hsh18 Hbs HO Hts2 Htr2p]
  · isplitr; · iexact HI1
    isplitr; · iexact HI2
    isplitl [Hsh18]; · iexact Hsh18
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 19
  icases Hb19 with ⟨%fb19, Hbs⟩
  ihave Xx := (held_elim _) $$ HD19
  icases Xx with ⟨Hts2, Htr2p⟩
  ihave #HI1 := (inv_s2_19 (S1def m) (Y2def m) K c) $$ Hrec
  ihave #HI2 := (inv_r2p_19 (S1def m) (Y2def m) K c) $$ Hrec
  ihave #Hr1 := (rch_s2_19 (S1def m) (Y2def m) K c) $$ Hrec
  ihave #Hr2 := (rch_r2p_19 (S1def m) (Y2def m) K c) $$ Hrec
  iapply (wp_send2 (S1def m) (Y2def m) c _ 19 (dev81_eq c) hk_19 ho_19 _ _ (by rw [duties_2_19]; exact Finset.mem_singleton_self _) (by rw [duties_3_19]; exact Finset.mem_singleton_self _)
      (pay_2_19 (S1def m) (Y2def m) c 0 0) (pay_3_19 (S1def m) (Y2def m) (rot c 19) 0 0) fb19 _ _) $$ [Hsh19 Hbs HO Hts2 Htr2p]
  · isplitr; · iexact HI1
    isplitr; · iexact HI2
    isplitl [Hsh19]; · iexact Hsh19
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 20
  icases Hb20 with ⟨%fb20, Hbs⟩
  ihave Xx := (held_elim _) $$ HD20
  icases Xx with ⟨Hts2, Htr2p⟩
  ihave #HI1 := (inv_s2_20 (S1def m) (Y2def m) K c) $$ Hrec
  ihave #HI2 := (inv_r2p_20 (S1def m) (Y2def m) K c) $$ Hrec
  ihave #Hr1 := (rch_s2_20 (S1def m) (Y2def m) K c) $$ Hrec
  ihave #Hr2 := (rch_r2p_20 (S1def m) (Y2def m) K c) $$ Hrec
  iapply (wp_send2 (S1def m) (Y2def m) c _ 20 (dev82_eq c) hk_20 ho_20 _ _ (by rw [duties_2_20]; exact Finset.mem_singleton_self _) (by rw [duties_3_20]; exact Finset.mem_singleton_self _)
      (pay_2_20 (S1def m) (Y2def m) c 0 0) (pay_3_20 (S1def m) (Y2def m) (rot c 20) 0 0) fb20 _ _) $$ [Hsh20 Hbs HO Hts2 Htr2p]
  · isplitr; · iexact HI1
    isplitr; · iexact HI2
    isplitl [Hsh20]; · iexact Hsh20
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 21
  icases Hb21 with ⟨%fb21, Hbs⟩
  ihave Xx := (held_elim _) $$ HD21
  icases Xx with ⟨Hts2, Htr2p⟩
  ihave #HI1 := (inv_s2_21 (S1def m) (Y2def m) K c) $$ Hrec
  ihave #HI2 := (inv_r2p_21 (S1def m) (Y2def m) K c) $$ Hrec
  ihave #Hr1 := (rch_s2_21 (S1def m) (Y2def m) K c) $$ Hrec
  ihave #Hr2 := (rch_r2p_21 (S1def m) (Y2def m) K c) $$ Hrec
  iapply (wp_send2 (S1def m) (Y2def m) c _ 21 (dev83_eq c) hk_21 ho_21 _ _ (by rw [duties_2_21]; exact Finset.mem_singleton_self _) (by rw [duties_3_21]; exact Finset.mem_singleton_self _)
      (pay_2_21 (S1def m) (Y2def m) c 0 0) (pay_3_21 (S1def m) (Y2def m) (rot c 21) 0 0) fb21 _ _) $$ [Hsh21 Hbs HO Hts2 Htr2p]
  · isplitr; · iexact HI1
    isplitr; · iexact HI2
    isplitl [Hsh21]; · iexact Hsh21
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 22
  icases Hb22 with ⟨%fb22, Hbs⟩
  ihave Xx := (held_elim _) $$ HD22
  icases Xx with ⟨Hts2, Htr2p⟩
  ihave #HI1 := (inv_s2_22 (S1def m) (Y2def m) K c) $$ Hrec
  ihave #HI2 := (inv_r2p_22 (S1def m) (Y2def m) K c) $$ Hrec
  ihave #Hr1 := (rch_s2_22 (S1def m) (Y2def m) K c) $$ Hrec
  ihave #Hr2 := (rch_r2p_22 (S1def m) (Y2def m) K c) $$ Hrec
  iapply (wp_send2 (S1def m) (Y2def m) c _ 22 (dev84_eq c) hk_22 ho_22 _ _ (by rw [duties_2_22]; exact Finset.mem_singleton_self _) (by rw [duties_3_22]; exact Finset.mem_singleton_self _)
      (pay_2_22 (S1def m) (Y2def m) c 0 0) (pay_3_22 (S1def m) (Y2def m) (rot c 22) 0 0) fb22 _ _) $$ [Hsh22 Hbs HO Hts2 Htr2p]
  · isplitr; · iexact HI1
    isplitr; · iexact HI2
    isplitl [Hsh22]; · iexact Hsh22
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 23
  icases Hb23 with ⟨%fb23, Hbs⟩
  ihave Xx := (held_elim _) $$ HD23
  icases Xx with ⟨Hts2, Htr2p⟩
  ihave #HI1 := (inv_s2_23 (S1def m) (Y2def m) K c) $$ Hrec
  ihave #HI2 := (inv_r2p_23 (S1def m) (Y2def m) K c) $$ Hrec
  ihave #Hr1 := (rch_s2_23 (S1def m) (Y2def m) K c) $$ Hrec
  ihave #Hr2 := (rch_r2p_23 (S1def m) (Y2def m) K c) $$ Hrec
  iapply (wp_send2 (S1def m) (Y2def m) c _ 23 (dev85_eq c) hk_23 ho_23 _ _ (by rw [duties_2_23]; exact Finset.mem_singleton_self _) (by rw [duties_3_23]; exact Finset.mem_singleton_self _)
      (pay_2_23 (S1def m) (Y2def m) c 0 0) (pay_3_23 (S1def m) (Y2def m) (rot c 23) 0 0) fb23 _ _) $$ [Hsh23 Hbs HO Hts2 Htr2p]
  · isplitr; · iexact HI1
    isplitr; · iexact HI2
    isplitl [Hsh23]; · iexact Hsh23
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 24
  icases Hb24 with ⟨%fb24, Hbs⟩
  ihave Xx := (held_elim _) $$ HD24
  icases Xx with ⟨Hts2, Htr2p⟩
  ihave #HI1 := (inv_s2_24 (S1def m) (Y2def m) K c) $$ Hrec
  ihave #HI2 := (inv_r2p_24 (S1def m) (Y2def m) K c) $$ Hrec
  ihave #Hr1 := (rch_s2_24 (S1def m) (Y2def m) K c) $$ Hrec
  ihave #Hr2 := (rch_r2p_24 (S1def m) (Y2def m) K c) $$ Hrec
  iapply (wp_send2 (S1def m) (Y2def m) c _ 24 (dev86_eq c) hk_24 ho_24 _ _ (by rw [duties_2_24]; exact Finset.mem_singleton_self _) (by rw [duties_3_24]; exact Finset.mem_singleton_self _)
      (pay_2_24 (S1def m) (Y2def m) c 0 0) (pay_3_24 (S1def m) (Y2def m) (rot c 24) 0 0) fb24 _ _) $$ [Hsh24 Hbs HO Hts2 Htr2p]
  · isplitr; · iexact HI1
    isplitr; · iexact HI2
    isplitl [Hsh24]; · iexact Hsh24
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 25
  icases Hb25 with ⟨%fb25, Hbs⟩
  ihave Xx := (held_elim _) $$ HD25
  icases Xx with ⟨Hts2, Htr2p⟩
  ihave #HI1 := (inv_s2_25 (S1def m) (Y2def m) K c) $$ Hrec
  ihave #HI2 := (inv_r2p_25 (S1def m) (Y2def m) K c) $$ Hrec
  ihave #Hr1 := (rch_s2_25 (S1def m) (Y2def m) K c) $$ Hrec
  ihave #Hr2 := (rch_r2p_25 (S1def m) (Y2def m) K c) $$ Hrec
  iapply (wp_send2 (S1def m) (Y2def m) c _ 25 (dev87_eq c) hk_25 ho_25 _ _ (by rw [duties_2_25]; exact Finset.mem_singleton_self _) (by rw [duties_3_25]; exact Finset.mem_singleton_self _)
      (pay_2_25 (S1def m) (Y2def m) c 0 0) (pay_3_25 (S1def m) (Y2def m) (rot c 25) 0 0) fb25 _ _) $$ [Hsh25 Hbs HO Hts2 Htr2p]
  · isplitr; · iexact HI1
    isplitr; · iexact HI2
    isplitl [Hsh25]; · iexact Hsh25
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 26
  icases Hb26 with ⟨%fb26, Hbs⟩
  ihave Xx := (held_elim _) $$ HD26
  icases Xx with ⟨Hts2, Htr2p⟩
  ihave #HI1 := (inv_s2_26 (S1def m) (Y2def m) K c) $$ Hrec
  ihave #HI2 := (inv_r2p_26 (S1def m) (Y2def m) K c) $$ Hrec
  ihave #Hr1 := (rch_s2_26 (S1def m) (Y2def m) K c) $$ Hrec
  ihave #Hr2 := (rch_r2p_26 (S1def m) (Y2def m) K c) $$ Hrec
  iapply (wp_send2 (S1def m) (Y2def m) c _ 26 (dev88_eq c) hk_26 ho_26 _ _ (by rw [duties_2_26]; exact Finset.mem_singleton_self _) (by rw [duties_3_26]; exact Finset.mem_singleton_self _)
      (pay_2_26 (S1def m) (Y2def m) c 0 0) (pay_3_26 (S1def m) (Y2def m) (rot c 26) 0 0) fb26 _ _) $$ [Hsh26 Hbs HO Hts2 Htr2p]
  · isplitr; · iexact HI1
    isplitr; · iexact HI2
    isplitl [Hsh26]; · iexact Hsh26
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 27
  icases Hb27 with ⟨%fb27, Hbs⟩
  ihave Xx := (held_elim _) $$ HD27
  icases Xx with ⟨Hts2, Htr2p⟩
  ihave #HI1 := (inv_s2_27 (S1def m) (Y2def m) K c) $$ Hrec
  ihave #HI2 := (inv_r2p_27 (S1def m) (Y2def m) K c) $$ Hrec
  ihave #Hr1 := (rch_s2_27 (S1def m) (Y2def m) K c) $$ Hrec
  ihave #Hr2 := (rch_r2p_27 (S1def m) (Y2def m) K c) $$ Hrec
  iapply (wp_send2 (S1def m) (Y2def m) c _ 27 (dev89_eq c) hk_27 ho_27 _ _ (by rw [duties_2_27]; exact Finset.mem_singleton_self _) (by rw [duties_3_27]; exact Finset.mem_singleton_self _)
      (pay_2_27 (S1def m) (Y2def m) c 0 0) (pay_3_27 (S1def m) (Y2def m) (rot c 27) 0 0) fb27 _ _) $$ [Hsh27 Hbs HO Hts2 Htr2p]
  · isplitr; · iexact HI1
    isplitr; · iexact HI2
    isplitl [Hsh27]; · iexact Hsh27
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 28
  icases Hb28 with ⟨%fb28, Hbs⟩
  ihave Xx := (held_elim _) $$ HD28
  icases Xx with ⟨Hts2, Htr2p⟩
  ihave #HI1 := (inv_s2_28 (S1def m) (Y2def m) K c) $$ Hrec
  ihave #HI2 := (inv_r2p_28 (S1def m) (Y2def m) K c) $$ Hrec
  ihave #Hr1 := (rch_s2_28 (S1def m) (Y2def m) K c) $$ Hrec
  ihave #Hr2 := (rch_r2p_28 (S1def m) (Y2def m) K c) $$ Hrec
  iapply (wp_send2 (S1def m) (Y2def m) c _ 28 (dev90_eq c) hk_28 ho_28 _ _ (by rw [duties_2_28]; exact Finset.mem_singleton_self _) (by rw [duties_3_28]; exact Finset.mem_singleton_self _)
      (pay_2_28 (S1def m) (Y2def m) c 0 0) (pay_3_28 (S1def m) (Y2def m) (rot c 28) 0 0) fb28 _ _) $$ [Hsh28 Hbs HO Hts2 Htr2p]
  · isplitr; · iexact HI1
    isplitr; · iexact HI2
    isplitl [Hsh28]; · iexact Hsh28
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 29
  icases Hb29 with ⟨%fb29, Hbs⟩
  ihave Xx := (held_elim _) $$ HD29
  icases Xx with ⟨Hts2, Htr2p⟩
  ihave #HI1 := (inv_s2_29 (S1def m) (Y2def m) K c) $$ Hrec
  ihave #HI2 := (inv_r2p_29 (S1def m) (Y2def m) K c) $$ Hrec
  ihave #Hr1 := (rch_s2_29 (S1def m) (Y2def m) K c) $$ Hrec
  ihave #Hr2 := (rch_r2p_29 (S1def m) (Y2def m) K c) $$ Hrec
  iapply (wp_send2 (S1def m) (Y2def m) c _ 29 (dev91_eq c) hk_29 ho_29 _ _ (by rw [duties_2_29]; exact Finset.mem_singleton_self _) (by rw [duties_3_29]; exact Finset.mem_singleton_self _)
      (pay_2_29 (S1def m) (Y2def m) c 0 0) (pay_3_29 (S1def m) (Y2def m) (rot c 29) 0 0) fb29 _ _) $$ [Hsh29 Hbs HO Hts2 Htr2p]
  · isplitr; · iexact HI1
    isplitr; · iexact HI2
    isplitl [Hsh29]; · iexact Hsh29
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 30
  icases Hb30 with ⟨%fb30, Hbs⟩
  ihave Xx := (held_elim _) $$ HD30
  icases Xx with ⟨Hts2, Htr2p⟩
  ihave #HI1 := (inv_s2_30 (S1def m) (Y2def m) K c) $$ Hrec
  ihave #HI2 := (inv_r2p_30 (S1def m) (Y2def m) K c) $$ Hrec
  ihave #Hr1 := (rch_s2_30 (S1def m) (Y2def m) K c) $$ Hrec
  ihave #Hr2 := (rch_r2p_30 (S1def m) (Y2def m) K c) $$ Hrec
  iapply (wp_send2 (S1def m) (Y2def m) c _ 30 (dev92_eq c) hk_30 ho_30 _ _ (by rw [duties_2_30]; exact Finset.mem_singleton_self _) (by rw [duties_3_30]; exact Finset.mem_singleton_self _)
      (pay_2_30 (S1def m) (Y2def m) c 0 0) (pay_3_30 (S1def m) (Y2def m) (rot c 30) 0 0) fb30 _ _) $$ [Hsh30 Hbs HO Hts2 Htr2p]
  · isplitr; · iexact HI1
    isplitr; · iexact HI2
    isplitl [Hsh30]; · iexact Hsh30
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's transfer at offset 31
  icases Hb31 with ⟨%fb31, Hbs⟩
  ihave Xx := (held_elim _) $$ HD31
  icases Xx with ⟨Hts2, Htr2p⟩
  ihave #HI1 := (inv_s2_31 (S1def m) (Y2def m) K c) $$ Hrec
  ihave #HI2 := (inv_r2p_31 (S1def m) (Y2def m) K c) $$ Hrec
  ihave #Hr1 := (rch_s2_31 (S1def m) (Y2def m) K c) $$ Hrec
  ihave #Hr2 := (rch_r2p_31 (S1def m) (Y2def m) K c) $$ Hrec
  ihave HO := (Entails.of_eq (congrArg (fun O => (owes (c : Thread nD τ) O _ : sProp 𝕄)) (zero_add _).symm)) $$ HO
  iapply (wp_send2 (S1def m) (Y2def m) c _ 31 (dev93_eq c) hk_31 ho_31 _ _ (by rw [duties_2_31]; exact Finset.mem_singleton_self _) (by rw [duties_3_31]; exact Finset.mem_singleton_self _)
      (pay_2_31 (S1def m) (Y2def m) c 0 0) (pay_3_31 (S1def m) (Y2def m) (rot c 31) 0 0) fb31 _ _) $$ [Hsh31 Hbs HO Hts2 Htr2p]
  · isplitr; · iexact HI1
    isplitr; · iexact HI2
    isplitl [Hsh31]; · iexact Hsh31
    isplitl [Hbs]; · iexact Hbs
    isplitl [HO]; · iexact HO
    isplitl [Hts2]; · iexact Hts2
    isplitr; · iexact Hr1
    isplitl [Htr2p]; · iexact Htr2p
    iexact Hr2
  iintro ⟨Hcs, HO⟩
  ihave HAccCr2 := (held_push _ _) $$ [Hcs HAccCr2]
  · isplitl [Hcs]
    · iexact Hcs
    · iexact HAccCr2
  iclear HI1 HI2 Hr1 Hr2
  sl_exec_parts
  -- the second exchange's 31 receive waits; each landed block is widened and copied to its rows of the result
  ihave Hx := (held_elim _) $$ HEAll
  icases Hx with ⟨HE1, HE2, HE3, HE4, HE5, HE6, HE7, HE8, HE9, HE10, HE11, HE12, HE13, HE14, HE15, HE16, HE17, HE18, HE19, HE20, HE21, HE22, HE23, HE24, HE25, HE26, HE27, HE28, HE29, HE30, HE31⟩
  -- the receive wait at offset 1, the widening of slot 1, and its output copy
  ihave Xx := (held_elim _) $$ HE1
  icases Xx with ⟨Har2, Hcr2, HzOut⟩
  ihave #HI := (inv_r2_1 (S1def m) (Y2def m) K c) $$ Hrec
  sl_exec_parts
  imod (Rounds.cell_close ER (sched (F := F) (S1def m) (Y2def m)) (Set.mem_univ (K (c, some (3, ⟨0, by decide⟩)))) (fun h => h) (R := 0 + 1) (duties_later (S1def m) (Y2def m) (r2Cell c 1 ho_1))) $$ [Har2] with Hz
  · isplitr; · iexact HI
    iexact Har2
  ihave HAccZr2 := (held_intro _) $$ Hz
  ihave HAccL2 := (held_intro _) $$ Har2_pay1
  ihave HAccFl := (held_intro _) $$ HzOut
  iclear HI Har2_reached
  -- the receive wait at offset 2, the widening of slot 2, and its output copy
  ihave Xx := (held_elim _) $$ HE2
  icases Xx with ⟨Har2, Hcr2, HzOut⟩
  ihave #HI := (inv_r2_2 (S1def m) (Y2def m) K c) $$ Hrec
  sl_exec_parts
  imod (Rounds.cell_close ER (sched (F := F) (S1def m) (Y2def m)) (Set.mem_univ (K (c, some (3, ⟨1, by decide⟩)))) (fun h => h) (R := 0 + 1) (duties_later (S1def m) (Y2def m) (r2Cell c 2 ho_2))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 3, the widening of slot 3, and its output copy
  ihave Xx := (held_elim _) $$ HE3
  icases Xx with ⟨Har2, Hcr2, HzOut⟩
  ihave #HI := (inv_r2_3 (S1def m) (Y2def m) K c) $$ Hrec
  sl_exec_parts
  imod (Rounds.cell_close ER (sched (F := F) (S1def m) (Y2def m)) (Set.mem_univ (K (c, some (3, ⟨2, by decide⟩)))) (fun h => h) (R := 0 + 1) (duties_later (S1def m) (Y2def m) (r2Cell c 3 ho_3))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 4, the widening of slot 4, and its output copy
  ihave Xx := (held_elim _) $$ HE4
  icases Xx with ⟨Har2, Hcr2, HzOut⟩
  ihave #HI := (inv_r2_4 (S1def m) (Y2def m) K c) $$ Hrec
  sl_exec_parts
  imod (Rounds.cell_close ER (sched (F := F) (S1def m) (Y2def m)) (Set.mem_univ (K (c, some (3, ⟨3, by decide⟩)))) (fun h => h) (R := 0 + 1) (duties_later (S1def m) (Y2def m) (r2Cell c 4 ho_4))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 5, the widening of slot 5, and its output copy
  ihave Xx := (held_elim _) $$ HE5
  icases Xx with ⟨Har2, Hcr2, HzOut⟩
  ihave #HI := (inv_r2_5 (S1def m) (Y2def m) K c) $$ Hrec
  sl_exec_parts
  imod (Rounds.cell_close ER (sched (F := F) (S1def m) (Y2def m)) (Set.mem_univ (K (c, some (3, ⟨4, by decide⟩)))) (fun h => h) (R := 0 + 1) (duties_later (S1def m) (Y2def m) (r2Cell c 5 ho_5))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 6, the widening of slot 6, and its output copy
  ihave Xx := (held_elim _) $$ HE6
  icases Xx with ⟨Har2, Hcr2, HzOut⟩
  ihave #HI := (inv_r2_6 (S1def m) (Y2def m) K c) $$ Hrec
  sl_exec_parts
  imod (Rounds.cell_close ER (sched (F := F) (S1def m) (Y2def m)) (Set.mem_univ (K (c, some (3, ⟨5, by decide⟩)))) (fun h => h) (R := 0 + 1) (duties_later (S1def m) (Y2def m) (r2Cell c 6 ho_6))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 7, the widening of slot 7, and its output copy
  ihave Xx := (held_elim _) $$ HE7
  icases Xx with ⟨Har2, Hcr2, HzOut⟩
  ihave #HI := (inv_r2_7 (S1def m) (Y2def m) K c) $$ Hrec
  sl_exec_parts
  imod (Rounds.cell_close ER (sched (F := F) (S1def m) (Y2def m)) (Set.mem_univ (K (c, some (3, ⟨6, by decide⟩)))) (fun h => h) (R := 0 + 1) (duties_later (S1def m) (Y2def m) (r2Cell c 7 ho_7))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 8, the widening of slot 8, and its output copy
  ihave Xx := (held_elim _) $$ HE8
  icases Xx with ⟨Har2, Hcr2, HzOut⟩
  ihave #HI := (inv_r2_8 (S1def m) (Y2def m) K c) $$ Hrec
  sl_exec_parts
  imod (Rounds.cell_close ER (sched (F := F) (S1def m) (Y2def m)) (Set.mem_univ (K (c, some (3, ⟨7, by decide⟩)))) (fun h => h) (R := 0 + 1) (duties_later (S1def m) (Y2def m) (r2Cell c 8 ho_8))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 9, the widening of slot 9, and its output copy
  ihave Xx := (held_elim _) $$ HE9
  icases Xx with ⟨Har2, Hcr2, HzOut⟩
  ihave #HI := (inv_r2_9 (S1def m) (Y2def m) K c) $$ Hrec
  sl_exec_parts
  imod (Rounds.cell_close ER (sched (F := F) (S1def m) (Y2def m)) (Set.mem_univ (K (c, some (3, ⟨8, by decide⟩)))) (fun h => h) (R := 0 + 1) (duties_later (S1def m) (Y2def m) (r2Cell c 9 ho_9))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 10, the widening of slot 10, and its output copy
  ihave Xx := (held_elim _) $$ HE10
  icases Xx with ⟨Har2, Hcr2, HzOut⟩
  ihave #HI := (inv_r2_10 (S1def m) (Y2def m) K c) $$ Hrec
  sl_exec_parts
  imod (Rounds.cell_close ER (sched (F := F) (S1def m) (Y2def m)) (Set.mem_univ (K (c, some (3, ⟨9, by decide⟩)))) (fun h => h) (R := 0 + 1) (duties_later (S1def m) (Y2def m) (r2Cell c 10 ho_10))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 11, the widening of slot 11, and its output copy
  ihave Xx := (held_elim _) $$ HE11
  icases Xx with ⟨Har2, Hcr2, HzOut⟩
  ihave #HI := (inv_r2_11 (S1def m) (Y2def m) K c) $$ Hrec
  sl_exec_parts
  imod (Rounds.cell_close ER (sched (F := F) (S1def m) (Y2def m)) (Set.mem_univ (K (c, some (3, ⟨10, by decide⟩)))) (fun h => h) (R := 0 + 1) (duties_later (S1def m) (Y2def m) (r2Cell c 11 ho_11))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 12, the widening of slot 12, and its output copy
  ihave Xx := (held_elim _) $$ HE12
  icases Xx with ⟨Har2, Hcr2, HzOut⟩
  ihave #HI := (inv_r2_12 (S1def m) (Y2def m) K c) $$ Hrec
  sl_exec_parts
  imod (Rounds.cell_close ER (sched (F := F) (S1def m) (Y2def m)) (Set.mem_univ (K (c, some (3, ⟨11, by decide⟩)))) (fun h => h) (R := 0 + 1) (duties_later (S1def m) (Y2def m) (r2Cell c 12 ho_12))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 13, the widening of slot 13, and its output copy
  ihave Xx := (held_elim _) $$ HE13
  icases Xx with ⟨Har2, Hcr2, HzOut⟩
  ihave #HI := (inv_r2_13 (S1def m) (Y2def m) K c) $$ Hrec
  sl_exec_parts
  imod (Rounds.cell_close ER (sched (F := F) (S1def m) (Y2def m)) (Set.mem_univ (K (c, some (3, ⟨12, by decide⟩)))) (fun h => h) (R := 0 + 1) (duties_later (S1def m) (Y2def m) (r2Cell c 13 ho_13))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 14, the widening of slot 14, and its output copy
  ihave Xx := (held_elim _) $$ HE14
  icases Xx with ⟨Har2, Hcr2, HzOut⟩
  ihave #HI := (inv_r2_14 (S1def m) (Y2def m) K c) $$ Hrec
  sl_exec_parts
  imod (Rounds.cell_close ER (sched (F := F) (S1def m) (Y2def m)) (Set.mem_univ (K (c, some (3, ⟨13, by decide⟩)))) (fun h => h) (R := 0 + 1) (duties_later (S1def m) (Y2def m) (r2Cell c 14 ho_14))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 15, the widening of slot 15, and its output copy
  ihave Xx := (held_elim _) $$ HE15
  icases Xx with ⟨Har2, Hcr2, HzOut⟩
  ihave #HI := (inv_r2_15 (S1def m) (Y2def m) K c) $$ Hrec
  sl_exec_parts
  imod (Rounds.cell_close ER (sched (F := F) (S1def m) (Y2def m)) (Set.mem_univ (K (c, some (3, ⟨14, by decide⟩)))) (fun h => h) (R := 0 + 1) (duties_later (S1def m) (Y2def m) (r2Cell c 15 ho_15))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 16, the widening of slot 16, and its output copy
  ihave Xx := (held_elim _) $$ HE16
  icases Xx with ⟨Har2, Hcr2, HzOut⟩
  ihave #HI := (inv_r2_16 (S1def m) (Y2def m) K c) $$ Hrec
  sl_exec_parts
  imod (Rounds.cell_close ER (sched (F := F) (S1def m) (Y2def m)) (Set.mem_univ (K (c, some (3, ⟨15, by decide⟩)))) (fun h => h) (R := 0 + 1) (duties_later (S1def m) (Y2def m) (r2Cell c 16 ho_16))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 17, the widening of slot 17, and its output copy
  ihave Xx := (held_elim _) $$ HE17
  icases Xx with ⟨Har2, Hcr2, HzOut⟩
  ihave #HI := (inv_r2_17 (S1def m) (Y2def m) K c) $$ Hrec
  sl_exec_parts
  imod (Rounds.cell_close ER (sched (F := F) (S1def m) (Y2def m)) (Set.mem_univ (K (c, some (3, ⟨16, by decide⟩)))) (fun h => h) (R := 0 + 1) (duties_later (S1def m) (Y2def m) (r2Cell c 17 ho_17))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 18, the widening of slot 18, and its output copy
  ihave Xx := (held_elim _) $$ HE18
  icases Xx with ⟨Har2, Hcr2, HzOut⟩
  ihave #HI := (inv_r2_18 (S1def m) (Y2def m) K c) $$ Hrec
  sl_exec_parts
  imod (Rounds.cell_close ER (sched (F := F) (S1def m) (Y2def m)) (Set.mem_univ (K (c, some (3, ⟨17, by decide⟩)))) (fun h => h) (R := 0 + 1) (duties_later (S1def m) (Y2def m) (r2Cell c 18 ho_18))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 19, the widening of slot 19, and its output copy
  ihave Xx := (held_elim _) $$ HE19
  icases Xx with ⟨Har2, Hcr2, HzOut⟩
  ihave #HI := (inv_r2_19 (S1def m) (Y2def m) K c) $$ Hrec
  sl_exec_parts
  imod (Rounds.cell_close ER (sched (F := F) (S1def m) (Y2def m)) (Set.mem_univ (K (c, some (3, ⟨18, by decide⟩)))) (fun h => h) (R := 0 + 1) (duties_later (S1def m) (Y2def m) (r2Cell c 19 ho_19))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 20, the widening of slot 20, and its output copy
  ihave Xx := (held_elim _) $$ HE20
  icases Xx with ⟨Har2, Hcr2, HzOut⟩
  ihave #HI := (inv_r2_20 (S1def m) (Y2def m) K c) $$ Hrec
  sl_exec_parts
  imod (Rounds.cell_close ER (sched (F := F) (S1def m) (Y2def m)) (Set.mem_univ (K (c, some (3, ⟨19, by decide⟩)))) (fun h => h) (R := 0 + 1) (duties_later (S1def m) (Y2def m) (r2Cell c 20 ho_20))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 21, the widening of slot 21, and its output copy
  ihave Xx := (held_elim _) $$ HE21
  icases Xx with ⟨Har2, Hcr2, HzOut⟩
  ihave #HI := (inv_r2_21 (S1def m) (Y2def m) K c) $$ Hrec
  sl_exec_parts
  imod (Rounds.cell_close ER (sched (F := F) (S1def m) (Y2def m)) (Set.mem_univ (K (c, some (3, ⟨20, by decide⟩)))) (fun h => h) (R := 0 + 1) (duties_later (S1def m) (Y2def m) (r2Cell c 21 ho_21))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 22, the widening of slot 22, and its output copy
  ihave Xx := (held_elim _) $$ HE22
  icases Xx with ⟨Har2, Hcr2, HzOut⟩
  ihave #HI := (inv_r2_22 (S1def m) (Y2def m) K c) $$ Hrec
  sl_exec_parts
  imod (Rounds.cell_close ER (sched (F := F) (S1def m) (Y2def m)) (Set.mem_univ (K (c, some (3, ⟨21, by decide⟩)))) (fun h => h) (R := 0 + 1) (duties_later (S1def m) (Y2def m) (r2Cell c 22 ho_22))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 23, the widening of slot 23, and its output copy
  ihave Xx := (held_elim _) $$ HE23
  icases Xx with ⟨Har2, Hcr2, HzOut⟩
  ihave #HI := (inv_r2_23 (S1def m) (Y2def m) K c) $$ Hrec
  sl_exec_parts
  imod (Rounds.cell_close ER (sched (F := F) (S1def m) (Y2def m)) (Set.mem_univ (K (c, some (3, ⟨22, by decide⟩)))) (fun h => h) (R := 0 + 1) (duties_later (S1def m) (Y2def m) (r2Cell c 23 ho_23))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 24, the widening of slot 24, and its output copy
  ihave Xx := (held_elim _) $$ HE24
  icases Xx with ⟨Har2, Hcr2, HzOut⟩
  ihave #HI := (inv_r2_24 (S1def m) (Y2def m) K c) $$ Hrec
  sl_exec_parts
  imod (Rounds.cell_close ER (sched (F := F) (S1def m) (Y2def m)) (Set.mem_univ (K (c, some (3, ⟨23, by decide⟩)))) (fun h => h) (R := 0 + 1) (duties_later (S1def m) (Y2def m) (r2Cell c 24 ho_24))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 25, the widening of slot 25, and its output copy
  ihave Xx := (held_elim _) $$ HE25
  icases Xx with ⟨Har2, Hcr2, HzOut⟩
  ihave #HI := (inv_r2_25 (S1def m) (Y2def m) K c) $$ Hrec
  sl_exec_parts
  imod (Rounds.cell_close ER (sched (F := F) (S1def m) (Y2def m)) (Set.mem_univ (K (c, some (3, ⟨24, by decide⟩)))) (fun h => h) (R := 0 + 1) (duties_later (S1def m) (Y2def m) (r2Cell c 25 ho_25))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 26, the widening of slot 26, and its output copy
  ihave Xx := (held_elim _) $$ HE26
  icases Xx with ⟨Har2, Hcr2, HzOut⟩
  ihave #HI := (inv_r2_26 (S1def m) (Y2def m) K c) $$ Hrec
  sl_exec_parts
  imod (Rounds.cell_close ER (sched (F := F) (S1def m) (Y2def m)) (Set.mem_univ (K (c, some (3, ⟨25, by decide⟩)))) (fun h => h) (R := 0 + 1) (duties_later (S1def m) (Y2def m) (r2Cell c 26 ho_26))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 27, the widening of slot 27, and its output copy
  ihave Xx := (held_elim _) $$ HE27
  icases Xx with ⟨Har2, Hcr2, HzOut⟩
  ihave #HI := (inv_r2_27 (S1def m) (Y2def m) K c) $$ Hrec
  sl_exec_parts
  imod (Rounds.cell_close ER (sched (F := F) (S1def m) (Y2def m)) (Set.mem_univ (K (c, some (3, ⟨26, by decide⟩)))) (fun h => h) (R := 0 + 1) (duties_later (S1def m) (Y2def m) (r2Cell c 27 ho_27))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 28, the widening of slot 28, and its output copy
  ihave Xx := (held_elim _) $$ HE28
  icases Xx with ⟨Har2, Hcr2, HzOut⟩
  ihave #HI := (inv_r2_28 (S1def m) (Y2def m) K c) $$ Hrec
  sl_exec_parts
  imod (Rounds.cell_close ER (sched (F := F) (S1def m) (Y2def m)) (Set.mem_univ (K (c, some (3, ⟨27, by decide⟩)))) (fun h => h) (R := 0 + 1) (duties_later (S1def m) (Y2def m) (r2Cell c 28 ho_28))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 29, the widening of slot 29, and its output copy
  ihave Xx := (held_elim _) $$ HE29
  icases Xx with ⟨Har2, Hcr2, HzOut⟩
  ihave #HI := (inv_r2_29 (S1def m) (Y2def m) K c) $$ Hrec
  sl_exec_parts
  imod (Rounds.cell_close ER (sched (F := F) (S1def m) (Y2def m)) (Set.mem_univ (K (c, some (3, ⟨28, by decide⟩)))) (fun h => h) (R := 0 + 1) (duties_later (S1def m) (Y2def m) (r2Cell c 29 ho_29))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 30, the widening of slot 30, and its output copy
  ihave Xx := (held_elim _) $$ HE30
  icases Xx with ⟨Har2, Hcr2, HzOut⟩
  ihave #HI := (inv_r2_30 (S1def m) (Y2def m) K c) $$ Hrec
  sl_exec_parts
  imod (Rounds.cell_close ER (sched (F := F) (S1def m) (Y2def m)) (Set.mem_univ (K (c, some (3, ⟨29, by decide⟩)))) (fun h => h) (R := 0 + 1) (duties_later (S1def m) (Y2def m) (r2Cell c 30 ho_30))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the receive wait at offset 31, the widening of slot 31, and its output copy
  ihave Xx := (held_elim _) $$ HE31
  icases Xx with ⟨Har2, Hcr2, HzOut⟩
  ihave #HI := (inv_r2_31 (S1def m) (Y2def m) K c) $$ Hrec
  sl_exec_parts
  imod (Rounds.cell_close ER (sched (F := F) (S1def m) (Y2def m)) (Set.mem_univ (K (c, some (3, ⟨30, by decide⟩)))) (fun h => h) (R := 0 + 1) (duties_later (S1def m) (Y2def m) (r2Cell c 31 ho_31))) $$ [Har2] with Hz
  · isplitr; · iexact HI
    iexact Har2
  ihave HAccZr2 := (held_push _ _) $$ [Hz HAccZr2]
  · isplitl [Hz]
    · iexact Hz
    · iexact HAccZr2
  ihave HAccL2 := (held_push _ _) $$ [Har2_pay1 HAccL2]
  · isplitl [Har2_pay1]
    · iexact Har2_pay1
    · iexact HAccL2
  ihave HAccFl := (held_push _ _) $$ [HzOut HAccFl]
  · isplitl [HzOut]
    · iexact HzOut
    · iexact HAccFl
  iclear HI Har2_reached
  -- the 32 output copies' waits
  ihave Xq := (held_pop _ _) $$ HAccFl
  icases Xq with ⟨HFl31, HAccFl⟩
  ihave Xq := (held_pop _ _) $$ HAccFl
  icases Xq with ⟨HFl30, HAccFl⟩
  ihave Xq := (held_pop _ _) $$ HAccFl
  icases Xq with ⟨HFl29, HAccFl⟩
  ihave Xq := (held_pop _ _) $$ HAccFl
  icases Xq with ⟨HFl28, HAccFl⟩
  ihave Xq := (held_pop _ _) $$ HAccFl
  icases Xq with ⟨HFl27, HAccFl⟩
  ihave Xq := (held_pop _ _) $$ HAccFl
  icases Xq with ⟨HFl26, HAccFl⟩
  ihave Xq := (held_pop _ _) $$ HAccFl
  icases Xq with ⟨HFl25, HAccFl⟩
  ihave Xq := (held_pop _ _) $$ HAccFl
  icases Xq with ⟨HFl24, HAccFl⟩
  ihave Xq := (held_pop _ _) $$ HAccFl
  icases Xq with ⟨HFl23, HAccFl⟩
  ihave Xq := (held_pop _ _) $$ HAccFl
  icases Xq with ⟨HFl22, HAccFl⟩
  ihave Xq := (held_pop _ _) $$ HAccFl
  icases Xq with ⟨HFl21, HAccFl⟩
  ihave Xq := (held_pop _ _) $$ HAccFl
  icases Xq with ⟨HFl20, HAccFl⟩
  ihave Xq := (held_pop _ _) $$ HAccFl
  icases Xq with ⟨HFl19, HAccFl⟩
  ihave Xq := (held_pop _ _) $$ HAccFl
  icases Xq with ⟨HFl18, HAccFl⟩
  ihave Xq := (held_pop _ _) $$ HAccFl
  icases Xq with ⟨HFl17, HAccFl⟩
  ihave Xq := (held_pop _ _) $$ HAccFl
  icases Xq with ⟨HFl16, HAccFl⟩
  ihave Xq := (held_pop _ _) $$ HAccFl
  icases Xq with ⟨HFl15, HAccFl⟩
  ihave Xq := (held_pop _ _) $$ HAccFl
  icases Xq with ⟨HFl14, HAccFl⟩
  ihave Xq := (held_pop _ _) $$ HAccFl
  icases Xq with ⟨HFl13, HAccFl⟩
  ihave Xq := (held_pop _ _) $$ HAccFl
  icases Xq with ⟨HFl12, HAccFl⟩
  ihave Xq := (held_pop _ _) $$ HAccFl
  icases Xq with ⟨HFl11, HAccFl⟩
  ihave Xq := (held_pop _ _) $$ HAccFl
  icases Xq with ⟨HFl10, HAccFl⟩
  ihave Xq := (held_pop _ _) $$ HAccFl
  icases Xq with ⟨HFl9, HAccFl⟩
  ihave Xq := (held_pop _ _) $$ HAccFl
  icases Xq with ⟨HFl8, HAccFl⟩
  ihave Xq := (held_pop _ _) $$ HAccFl
  icases Xq with ⟨HFl7, HAccFl⟩
  ihave Xq := (held_pop _ _) $$ HAccFl
  icases Xq with ⟨HFl6, HAccFl⟩
  ihave Xq := (held_pop _ _) $$ HAccFl
  icases Xq with ⟨HFl5, HAccFl⟩
  ihave Xq := (held_pop _ _) $$ HAccFl
  icases Xq with ⟨HFl4, HAccFl⟩
  ihave Xq := (held_pop _ _) $$ HAccFl
  icases Xq with ⟨HFl3, HAccFl⟩
  ihave Xq := (held_pop _ _) $$ HAccFl
  icases Xq with ⟨HFl2, HAccFl⟩
  ihave HFl1 := (held_elim _) $$ HAccFl
  sl_exec_parts
  -- the first exchange's 31 send waits: the rows each transfer lent come back
  ihave Hx := (held_elim _) $$ HFAll
  icases Hx with ⟨HF1, HF2, HF3, HF4, HF5, HF6, HF7, HF8, HF9, HF10, HF11, HF12, HF13, HF14, HF15, HF16, HF17, HF18, HF19, HF20, HF21, HF22, HF23, HF24, HF25, HF26, HF27, HF28, HF29, HF30, HF31⟩
  ihave Xq := (held_pop _ _) $$ HAccCr1
  icases Xq with ⟨Hcs1_31, HAccCr1⟩
  ihave Xq := (held_pop _ _) $$ HAccCr1
  icases Xq with ⟨Hcs1_30, HAccCr1⟩
  ihave Xq := (held_pop _ _) $$ HAccCr1
  icases Xq with ⟨Hcs1_29, HAccCr1⟩
  ihave Xq := (held_pop _ _) $$ HAccCr1
  icases Xq with ⟨Hcs1_28, HAccCr1⟩
  ihave Xq := (held_pop _ _) $$ HAccCr1
  icases Xq with ⟨Hcs1_27, HAccCr1⟩
  ihave Xq := (held_pop _ _) $$ HAccCr1
  icases Xq with ⟨Hcs1_26, HAccCr1⟩
  ihave Xq := (held_pop _ _) $$ HAccCr1
  icases Xq with ⟨Hcs1_25, HAccCr1⟩
  ihave Xq := (held_pop _ _) $$ HAccCr1
  icases Xq with ⟨Hcs1_24, HAccCr1⟩
  ihave Xq := (held_pop _ _) $$ HAccCr1
  icases Xq with ⟨Hcs1_23, HAccCr1⟩
  ihave Xq := (held_pop _ _) $$ HAccCr1
  icases Xq with ⟨Hcs1_22, HAccCr1⟩
  ihave Xq := (held_pop _ _) $$ HAccCr1
  icases Xq with ⟨Hcs1_21, HAccCr1⟩
  ihave Xq := (held_pop _ _) $$ HAccCr1
  icases Xq with ⟨Hcs1_20, HAccCr1⟩
  ihave Xq := (held_pop _ _) $$ HAccCr1
  icases Xq with ⟨Hcs1_19, HAccCr1⟩
  ihave Xq := (held_pop _ _) $$ HAccCr1
  icases Xq with ⟨Hcs1_18, HAccCr1⟩
  ihave Xq := (held_pop _ _) $$ HAccCr1
  icases Xq with ⟨Hcs1_17, HAccCr1⟩
  ihave Xq := (held_pop _ _) $$ HAccCr1
  icases Xq with ⟨Hcs1_16, HAccCr1⟩
  ihave Xq := (held_pop _ _) $$ HAccCr1
  icases Xq with ⟨Hcs1_15, HAccCr1⟩
  ihave Xq := (held_pop _ _) $$ HAccCr1
  icases Xq with ⟨Hcs1_14, HAccCr1⟩
  ihave Xq := (held_pop _ _) $$ HAccCr1
  icases Xq with ⟨Hcs1_13, HAccCr1⟩
  ihave Xq := (held_pop _ _) $$ HAccCr1
  icases Xq with ⟨Hcs1_12, HAccCr1⟩
  ihave Xq := (held_pop _ _) $$ HAccCr1
  icases Xq with ⟨Hcs1_11, HAccCr1⟩
  ihave Xq := (held_pop _ _) $$ HAccCr1
  icases Xq with ⟨Hcs1_10, HAccCr1⟩
  ihave Xq := (held_pop _ _) $$ HAccCr1
  icases Xq with ⟨Hcs1_9, HAccCr1⟩
  ihave Xq := (held_pop _ _) $$ HAccCr1
  icases Xq with ⟨Hcs1_8, HAccCr1⟩
  ihave Xq := (held_pop _ _) $$ HAccCr1
  icases Xq with ⟨Hcs1_7, HAccCr1⟩
  ihave Xq := (held_pop _ _) $$ HAccCr1
  icases Xq with ⟨Hcs1_6, HAccCr1⟩
  ihave Xq := (held_pop _ _) $$ HAccCr1
  icases Xq with ⟨Hcs1_5, HAccCr1⟩
  ihave Xq := (held_pop _ _) $$ HAccCr1
  icases Xq with ⟨Hcs1_4, HAccCr1⟩
  ihave Xq := (held_pop _ _) $$ HAccCr1
  icases Xq with ⟨Hcs1_3, HAccCr1⟩
  ihave Xq := (held_pop _ _) $$ HAccCr1
  icases Xq with ⟨Hcs1_2, HAccCr1⟩
  ihave Hcs1_1 := (held_elim _) $$ HAccCr1
  ihave Xx := (held_elim _) $$ HF1
  icases Xx with ⟨Has1, Has2⟩
  ihave HAccAs2 := (held_intro _) $$ Has2
  ihave #HI := (inv_s1_1 (S1def m) (Y2def m) K c) $$ Hrec
  sl_exec_parts
  imod (Rounds.cell_close ER (sched (F := F) (S1def m) (Y2def m)) (Set.mem_univ (K (c, some (0, ⟨0, by decide⟩)))) (fun h => h) (R := 0 + 1) (duties_later (S1def m) (Y2def m) (s1Cell c 1 ho_1))) $$ [Has1] with Hz
  · isplitr; · iexact HI
    iexact Has1
  ihave HAccZs1 := (held_intro _) $$ Hz
  ihave HAccRows := (held_intro _) $$ Has1_pay1
  iclear HI Has1_reached
  ihave Xx := (held_elim _) $$ HF2
  icases Xx with ⟨Has1, Has2⟩
  ihave HAccAs2 := (held_push _ _) $$ [Has2 HAccAs2]
  · isplitl [Has2]
    · iexact Has2
    · iexact HAccAs2
  ihave #HI := (inv_s1_2 (S1def m) (Y2def m) K c) $$ Hrec
  sl_exec_parts
  imod (Rounds.cell_close ER (sched (F := F) (S1def m) (Y2def m)) (Set.mem_univ (K (c, some (0, ⟨1, by decide⟩)))) (fun h => h) (R := 0 + 1) (duties_later (S1def m) (Y2def m) (s1Cell c 2 ho_2))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF3
  icases Xx with ⟨Has1, Has2⟩
  ihave HAccAs2 := (held_push _ _) $$ [Has2 HAccAs2]
  · isplitl [Has2]
    · iexact Has2
    · iexact HAccAs2
  ihave #HI := (inv_s1_3 (S1def m) (Y2def m) K c) $$ Hrec
  sl_exec_parts
  imod (Rounds.cell_close ER (sched (F := F) (S1def m) (Y2def m)) (Set.mem_univ (K (c, some (0, ⟨2, by decide⟩)))) (fun h => h) (R := 0 + 1) (duties_later (S1def m) (Y2def m) (s1Cell c 3 ho_3))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF4
  icases Xx with ⟨Has1, Has2⟩
  ihave HAccAs2 := (held_push _ _) $$ [Has2 HAccAs2]
  · isplitl [Has2]
    · iexact Has2
    · iexact HAccAs2
  ihave #HI := (inv_s1_4 (S1def m) (Y2def m) K c) $$ Hrec
  sl_exec_parts
  imod (Rounds.cell_close ER (sched (F := F) (S1def m) (Y2def m)) (Set.mem_univ (K (c, some (0, ⟨3, by decide⟩)))) (fun h => h) (R := 0 + 1) (duties_later (S1def m) (Y2def m) (s1Cell c 4 ho_4))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF5
  icases Xx with ⟨Has1, Has2⟩
  ihave HAccAs2 := (held_push _ _) $$ [Has2 HAccAs2]
  · isplitl [Has2]
    · iexact Has2
    · iexact HAccAs2
  ihave #HI := (inv_s1_5 (S1def m) (Y2def m) K c) $$ Hrec
  sl_exec_parts
  imod (Rounds.cell_close ER (sched (F := F) (S1def m) (Y2def m)) (Set.mem_univ (K (c, some (0, ⟨4, by decide⟩)))) (fun h => h) (R := 0 + 1) (duties_later (S1def m) (Y2def m) (s1Cell c 5 ho_5))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF6
  icases Xx with ⟨Has1, Has2⟩
  ihave HAccAs2 := (held_push _ _) $$ [Has2 HAccAs2]
  · isplitl [Has2]
    · iexact Has2
    · iexact HAccAs2
  ihave #HI := (inv_s1_6 (S1def m) (Y2def m) K c) $$ Hrec
  sl_exec_parts
  imod (Rounds.cell_close ER (sched (F := F) (S1def m) (Y2def m)) (Set.mem_univ (K (c, some (0, ⟨5, by decide⟩)))) (fun h => h) (R := 0 + 1) (duties_later (S1def m) (Y2def m) (s1Cell c 6 ho_6))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF7
  icases Xx with ⟨Has1, Has2⟩
  ihave HAccAs2 := (held_push _ _) $$ [Has2 HAccAs2]
  · isplitl [Has2]
    · iexact Has2
    · iexact HAccAs2
  ihave #HI := (inv_s1_7 (S1def m) (Y2def m) K c) $$ Hrec
  sl_exec_parts
  imod (Rounds.cell_close ER (sched (F := F) (S1def m) (Y2def m)) (Set.mem_univ (K (c, some (0, ⟨6, by decide⟩)))) (fun h => h) (R := 0 + 1) (duties_later (S1def m) (Y2def m) (s1Cell c 7 ho_7))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF8
  icases Xx with ⟨Has1, Has2⟩
  ihave HAccAs2 := (held_push _ _) $$ [Has2 HAccAs2]
  · isplitl [Has2]
    · iexact Has2
    · iexact HAccAs2
  ihave #HI := (inv_s1_8 (S1def m) (Y2def m) K c) $$ Hrec
  sl_exec_parts
  imod (Rounds.cell_close ER (sched (F := F) (S1def m) (Y2def m)) (Set.mem_univ (K (c, some (0, ⟨7, by decide⟩)))) (fun h => h) (R := 0 + 1) (duties_later (S1def m) (Y2def m) (s1Cell c 8 ho_8))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF9
  icases Xx with ⟨Has1, Has2⟩
  ihave HAccAs2 := (held_push _ _) $$ [Has2 HAccAs2]
  · isplitl [Has2]
    · iexact Has2
    · iexact HAccAs2
  ihave #HI := (inv_s1_9 (S1def m) (Y2def m) K c) $$ Hrec
  sl_exec_parts
  imod (Rounds.cell_close ER (sched (F := F) (S1def m) (Y2def m)) (Set.mem_univ (K (c, some (0, ⟨8, by decide⟩)))) (fun h => h) (R := 0 + 1) (duties_later (S1def m) (Y2def m) (s1Cell c 9 ho_9))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF10
  icases Xx with ⟨Has1, Has2⟩
  ihave HAccAs2 := (held_push _ _) $$ [Has2 HAccAs2]
  · isplitl [Has2]
    · iexact Has2
    · iexact HAccAs2
  ihave #HI := (inv_s1_10 (S1def m) (Y2def m) K c) $$ Hrec
  sl_exec_parts
  imod (Rounds.cell_close ER (sched (F := F) (S1def m) (Y2def m)) (Set.mem_univ (K (c, some (0, ⟨9, by decide⟩)))) (fun h => h) (R := 0 + 1) (duties_later (S1def m) (Y2def m) (s1Cell c 10 ho_10))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF11
  icases Xx with ⟨Has1, Has2⟩
  ihave HAccAs2 := (held_push _ _) $$ [Has2 HAccAs2]
  · isplitl [Has2]
    · iexact Has2
    · iexact HAccAs2
  ihave #HI := (inv_s1_11 (S1def m) (Y2def m) K c) $$ Hrec
  sl_exec_parts
  imod (Rounds.cell_close ER (sched (F := F) (S1def m) (Y2def m)) (Set.mem_univ (K (c, some (0, ⟨10, by decide⟩)))) (fun h => h) (R := 0 + 1) (duties_later (S1def m) (Y2def m) (s1Cell c 11 ho_11))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF12
  icases Xx with ⟨Has1, Has2⟩
  ihave HAccAs2 := (held_push _ _) $$ [Has2 HAccAs2]
  · isplitl [Has2]
    · iexact Has2
    · iexact HAccAs2
  ihave #HI := (inv_s1_12 (S1def m) (Y2def m) K c) $$ Hrec
  sl_exec_parts
  imod (Rounds.cell_close ER (sched (F := F) (S1def m) (Y2def m)) (Set.mem_univ (K (c, some (0, ⟨11, by decide⟩)))) (fun h => h) (R := 0 + 1) (duties_later (S1def m) (Y2def m) (s1Cell c 12 ho_12))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF13
  icases Xx with ⟨Has1, Has2⟩
  ihave HAccAs2 := (held_push _ _) $$ [Has2 HAccAs2]
  · isplitl [Has2]
    · iexact Has2
    · iexact HAccAs2
  ihave #HI := (inv_s1_13 (S1def m) (Y2def m) K c) $$ Hrec
  sl_exec_parts
  imod (Rounds.cell_close ER (sched (F := F) (S1def m) (Y2def m)) (Set.mem_univ (K (c, some (0, ⟨12, by decide⟩)))) (fun h => h) (R := 0 + 1) (duties_later (S1def m) (Y2def m) (s1Cell c 13 ho_13))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF14
  icases Xx with ⟨Has1, Has2⟩
  ihave HAccAs2 := (held_push _ _) $$ [Has2 HAccAs2]
  · isplitl [Has2]
    · iexact Has2
    · iexact HAccAs2
  ihave #HI := (inv_s1_14 (S1def m) (Y2def m) K c) $$ Hrec
  sl_exec_parts
  imod (Rounds.cell_close ER (sched (F := F) (S1def m) (Y2def m)) (Set.mem_univ (K (c, some (0, ⟨13, by decide⟩)))) (fun h => h) (R := 0 + 1) (duties_later (S1def m) (Y2def m) (s1Cell c 14 ho_14))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF15
  icases Xx with ⟨Has1, Has2⟩
  ihave HAccAs2 := (held_push _ _) $$ [Has2 HAccAs2]
  · isplitl [Has2]
    · iexact Has2
    · iexact HAccAs2
  ihave #HI := (inv_s1_15 (S1def m) (Y2def m) K c) $$ Hrec
  sl_exec_parts
  imod (Rounds.cell_close ER (sched (F := F) (S1def m) (Y2def m)) (Set.mem_univ (K (c, some (0, ⟨14, by decide⟩)))) (fun h => h) (R := 0 + 1) (duties_later (S1def m) (Y2def m) (s1Cell c 15 ho_15))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF16
  icases Xx with ⟨Has1, Has2⟩
  ihave HAccAs2 := (held_push _ _) $$ [Has2 HAccAs2]
  · isplitl [Has2]
    · iexact Has2
    · iexact HAccAs2
  ihave #HI := (inv_s1_16 (S1def m) (Y2def m) K c) $$ Hrec
  sl_exec_parts
  imod (Rounds.cell_close ER (sched (F := F) (S1def m) (Y2def m)) (Set.mem_univ (K (c, some (0, ⟨15, by decide⟩)))) (fun h => h) (R := 0 + 1) (duties_later (S1def m) (Y2def m) (s1Cell c 16 ho_16))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF17
  icases Xx with ⟨Has1, Has2⟩
  ihave HAccAs2 := (held_push _ _) $$ [Has2 HAccAs2]
  · isplitl [Has2]
    · iexact Has2
    · iexact HAccAs2
  ihave #HI := (inv_s1_17 (S1def m) (Y2def m) K c) $$ Hrec
  sl_exec_parts
  imod (Rounds.cell_close ER (sched (F := F) (S1def m) (Y2def m)) (Set.mem_univ (K (c, some (0, ⟨16, by decide⟩)))) (fun h => h) (R := 0 + 1) (duties_later (S1def m) (Y2def m) (s1Cell c 17 ho_17))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF18
  icases Xx with ⟨Has1, Has2⟩
  ihave HAccAs2 := (held_push _ _) $$ [Has2 HAccAs2]
  · isplitl [Has2]
    · iexact Has2
    · iexact HAccAs2
  ihave #HI := (inv_s1_18 (S1def m) (Y2def m) K c) $$ Hrec
  sl_exec_parts
  imod (Rounds.cell_close ER (sched (F := F) (S1def m) (Y2def m)) (Set.mem_univ (K (c, some (0, ⟨17, by decide⟩)))) (fun h => h) (R := 0 + 1) (duties_later (S1def m) (Y2def m) (s1Cell c 18 ho_18))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF19
  icases Xx with ⟨Has1, Has2⟩
  ihave HAccAs2 := (held_push _ _) $$ [Has2 HAccAs2]
  · isplitl [Has2]
    · iexact Has2
    · iexact HAccAs2
  ihave #HI := (inv_s1_19 (S1def m) (Y2def m) K c) $$ Hrec
  sl_exec_parts
  imod (Rounds.cell_close ER (sched (F := F) (S1def m) (Y2def m)) (Set.mem_univ (K (c, some (0, ⟨18, by decide⟩)))) (fun h => h) (R := 0 + 1) (duties_later (S1def m) (Y2def m) (s1Cell c 19 ho_19))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF20
  icases Xx with ⟨Has1, Has2⟩
  ihave HAccAs2 := (held_push _ _) $$ [Has2 HAccAs2]
  · isplitl [Has2]
    · iexact Has2
    · iexact HAccAs2
  ihave #HI := (inv_s1_20 (S1def m) (Y2def m) K c) $$ Hrec
  sl_exec_parts
  imod (Rounds.cell_close ER (sched (F := F) (S1def m) (Y2def m)) (Set.mem_univ (K (c, some (0, ⟨19, by decide⟩)))) (fun h => h) (R := 0 + 1) (duties_later (S1def m) (Y2def m) (s1Cell c 20 ho_20))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF21
  icases Xx with ⟨Has1, Has2⟩
  ihave HAccAs2 := (held_push _ _) $$ [Has2 HAccAs2]
  · isplitl [Has2]
    · iexact Has2
    · iexact HAccAs2
  ihave #HI := (inv_s1_21 (S1def m) (Y2def m) K c) $$ Hrec
  sl_exec_parts
  imod (Rounds.cell_close ER (sched (F := F) (S1def m) (Y2def m)) (Set.mem_univ (K (c, some (0, ⟨20, by decide⟩)))) (fun h => h) (R := 0 + 1) (duties_later (S1def m) (Y2def m) (s1Cell c 21 ho_21))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF22
  icases Xx with ⟨Has1, Has2⟩
  ihave HAccAs2 := (held_push _ _) $$ [Has2 HAccAs2]
  · isplitl [Has2]
    · iexact Has2
    · iexact HAccAs2
  ihave #HI := (inv_s1_22 (S1def m) (Y2def m) K c) $$ Hrec
  sl_exec_parts
  imod (Rounds.cell_close ER (sched (F := F) (S1def m) (Y2def m)) (Set.mem_univ (K (c, some (0, ⟨21, by decide⟩)))) (fun h => h) (R := 0 + 1) (duties_later (S1def m) (Y2def m) (s1Cell c 22 ho_22))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF23
  icases Xx with ⟨Has1, Has2⟩
  ihave HAccAs2 := (held_push _ _) $$ [Has2 HAccAs2]
  · isplitl [Has2]
    · iexact Has2
    · iexact HAccAs2
  ihave #HI := (inv_s1_23 (S1def m) (Y2def m) K c) $$ Hrec
  sl_exec_parts
  imod (Rounds.cell_close ER (sched (F := F) (S1def m) (Y2def m)) (Set.mem_univ (K (c, some (0, ⟨22, by decide⟩)))) (fun h => h) (R := 0 + 1) (duties_later (S1def m) (Y2def m) (s1Cell c 23 ho_23))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF24
  icases Xx with ⟨Has1, Has2⟩
  ihave HAccAs2 := (held_push _ _) $$ [Has2 HAccAs2]
  · isplitl [Has2]
    · iexact Has2
    · iexact HAccAs2
  ihave #HI := (inv_s1_24 (S1def m) (Y2def m) K c) $$ Hrec
  sl_exec_parts
  imod (Rounds.cell_close ER (sched (F := F) (S1def m) (Y2def m)) (Set.mem_univ (K (c, some (0, ⟨23, by decide⟩)))) (fun h => h) (R := 0 + 1) (duties_later (S1def m) (Y2def m) (s1Cell c 24 ho_24))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF25
  icases Xx with ⟨Has1, Has2⟩
  ihave HAccAs2 := (held_push _ _) $$ [Has2 HAccAs2]
  · isplitl [Has2]
    · iexact Has2
    · iexact HAccAs2
  ihave #HI := (inv_s1_25 (S1def m) (Y2def m) K c) $$ Hrec
  sl_exec_parts
  imod (Rounds.cell_close ER (sched (F := F) (S1def m) (Y2def m)) (Set.mem_univ (K (c, some (0, ⟨24, by decide⟩)))) (fun h => h) (R := 0 + 1) (duties_later (S1def m) (Y2def m) (s1Cell c 25 ho_25))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF26
  icases Xx with ⟨Has1, Has2⟩
  ihave HAccAs2 := (held_push _ _) $$ [Has2 HAccAs2]
  · isplitl [Has2]
    · iexact Has2
    · iexact HAccAs2
  ihave #HI := (inv_s1_26 (S1def m) (Y2def m) K c) $$ Hrec
  sl_exec_parts
  imod (Rounds.cell_close ER (sched (F := F) (S1def m) (Y2def m)) (Set.mem_univ (K (c, some (0, ⟨25, by decide⟩)))) (fun h => h) (R := 0 + 1) (duties_later (S1def m) (Y2def m) (s1Cell c 26 ho_26))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF27
  icases Xx with ⟨Has1, Has2⟩
  ihave HAccAs2 := (held_push _ _) $$ [Has2 HAccAs2]
  · isplitl [Has2]
    · iexact Has2
    · iexact HAccAs2
  ihave #HI := (inv_s1_27 (S1def m) (Y2def m) K c) $$ Hrec
  sl_exec_parts
  imod (Rounds.cell_close ER (sched (F := F) (S1def m) (Y2def m)) (Set.mem_univ (K (c, some (0, ⟨26, by decide⟩)))) (fun h => h) (R := 0 + 1) (duties_later (S1def m) (Y2def m) (s1Cell c 27 ho_27))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF28
  icases Xx with ⟨Has1, Has2⟩
  ihave HAccAs2 := (held_push _ _) $$ [Has2 HAccAs2]
  · isplitl [Has2]
    · iexact Has2
    · iexact HAccAs2
  ihave #HI := (inv_s1_28 (S1def m) (Y2def m) K c) $$ Hrec
  sl_exec_parts
  imod (Rounds.cell_close ER (sched (F := F) (S1def m) (Y2def m)) (Set.mem_univ (K (c, some (0, ⟨27, by decide⟩)))) (fun h => h) (R := 0 + 1) (duties_later (S1def m) (Y2def m) (s1Cell c 28 ho_28))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF29
  icases Xx with ⟨Has1, Has2⟩
  ihave HAccAs2 := (held_push _ _) $$ [Has2 HAccAs2]
  · isplitl [Has2]
    · iexact Has2
    · iexact HAccAs2
  ihave #HI := (inv_s1_29 (S1def m) (Y2def m) K c) $$ Hrec
  sl_exec_parts
  imod (Rounds.cell_close ER (sched (F := F) (S1def m) (Y2def m)) (Set.mem_univ (K (c, some (0, ⟨28, by decide⟩)))) (fun h => h) (R := 0 + 1) (duties_later (S1def m) (Y2def m) (s1Cell c 29 ho_29))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF30
  icases Xx with ⟨Has1, Has2⟩
  ihave HAccAs2 := (held_push _ _) $$ [Has2 HAccAs2]
  · isplitl [Has2]
    · iexact Has2
    · iexact HAccAs2
  ihave #HI := (inv_s1_30 (S1def m) (Y2def m) K c) $$ Hrec
  sl_exec_parts
  imod (Rounds.cell_close ER (sched (F := F) (S1def m) (Y2def m)) (Set.mem_univ (K (c, some (0, ⟨29, by decide⟩)))) (fun h => h) (R := 0 + 1) (duties_later (S1def m) (Y2def m) (s1Cell c 30 ho_30))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  ihave Xx := (held_elim _) $$ HF31
  icases Xx with ⟨Has1, Has2⟩
  ihave HAccAs2 := (held_push _ _) $$ [Has2 HAccAs2]
  · isplitl [Has2]
    · iexact Has2
    · iexact HAccAs2
  ihave #HI := (inv_s1_31 (S1def m) (Y2def m) K c) $$ Hrec
  sl_exec_parts
  imod (Rounds.cell_close ER (sched (F := F) (S1def m) (Y2def m)) (Set.mem_univ (K (c, some (0, ⟨30, by decide⟩)))) (fun h => h) (R := 0 + 1) (duties_later (S1def m) (Y2def m) (s1Cell c 31 ho_31))) $$ [Has1] with Hz
  · isplitr; · iexact HI
    iexact Has1
  ihave HAccZs1 := (held_push _ _) $$ [Hz HAccZs1]
  · isplitl [Hz]
    · iexact Hz
    · iexact HAccZs1
  ihave HAccRows := (held_push _ _) $$ [Has1_pay1 HAccRows]
  · isplitl [Has1_pay1]
    · iexact Has1_pay1
    · iexact HAccRows
  iclear HI Has1_reached
  -- the second exchange's 31 send waits: the read shares come back
  ihave Xq := (held_pop _ _) $$ HAccAs2
  icases Xq with ⟨Has2_31, HAccAs2⟩
  ihave Xq := (held_pop _ _) $$ HAccAs2
  icases Xq with ⟨Has2_30, HAccAs2⟩
  ihave Xq := (held_pop _ _) $$ HAccAs2
  icases Xq with ⟨Has2_29, HAccAs2⟩
  ihave Xq := (held_pop _ _) $$ HAccAs2
  icases Xq with ⟨Has2_28, HAccAs2⟩
  ihave Xq := (held_pop _ _) $$ HAccAs2
  icases Xq with ⟨Has2_27, HAccAs2⟩
  ihave Xq := (held_pop _ _) $$ HAccAs2
  icases Xq with ⟨Has2_26, HAccAs2⟩
  ihave Xq := (held_pop _ _) $$ HAccAs2
  icases Xq with ⟨Has2_25, HAccAs2⟩
  ihave Xq := (held_pop _ _) $$ HAccAs2
  icases Xq with ⟨Has2_24, HAccAs2⟩
  ihave Xq := (held_pop _ _) $$ HAccAs2
  icases Xq with ⟨Has2_23, HAccAs2⟩
  ihave Xq := (held_pop _ _) $$ HAccAs2
  icases Xq with ⟨Has2_22, HAccAs2⟩
  ihave Xq := (held_pop _ _) $$ HAccAs2
  icases Xq with ⟨Has2_21, HAccAs2⟩
  ihave Xq := (held_pop _ _) $$ HAccAs2
  icases Xq with ⟨Has2_20, HAccAs2⟩
  ihave Xq := (held_pop _ _) $$ HAccAs2
  icases Xq with ⟨Has2_19, HAccAs2⟩
  ihave Xq := (held_pop _ _) $$ HAccAs2
  icases Xq with ⟨Has2_18, HAccAs2⟩
  ihave Xq := (held_pop _ _) $$ HAccAs2
  icases Xq with ⟨Has2_17, HAccAs2⟩
  ihave Xq := (held_pop _ _) $$ HAccAs2
  icases Xq with ⟨Has2_16, HAccAs2⟩
  ihave Xq := (held_pop _ _) $$ HAccAs2
  icases Xq with ⟨Has2_15, HAccAs2⟩
  ihave Xq := (held_pop _ _) $$ HAccAs2
  icases Xq with ⟨Has2_14, HAccAs2⟩
  ihave Xq := (held_pop _ _) $$ HAccAs2
  icases Xq with ⟨Has2_13, HAccAs2⟩
  ihave Xq := (held_pop _ _) $$ HAccAs2
  icases Xq with ⟨Has2_12, HAccAs2⟩
  ihave Xq := (held_pop _ _) $$ HAccAs2
  icases Xq with ⟨Has2_11, HAccAs2⟩
  ihave Xq := (held_pop _ _) $$ HAccAs2
  icases Xq with ⟨Has2_10, HAccAs2⟩
  ihave Xq := (held_pop _ _) $$ HAccAs2
  icases Xq with ⟨Has2_9, HAccAs2⟩
  ihave Xq := (held_pop _ _) $$ HAccAs2
  icases Xq with ⟨Has2_8, HAccAs2⟩
  ihave Xq := (held_pop _ _) $$ HAccAs2
  icases Xq with ⟨Has2_7, HAccAs2⟩
  ihave Xq := (held_pop _ _) $$ HAccAs2
  icases Xq with ⟨Has2_6, HAccAs2⟩
  ihave Xq := (held_pop _ _) $$ HAccAs2
  icases Xq with ⟨Has2_5, HAccAs2⟩
  ihave Xq := (held_pop _ _) $$ HAccAs2
  icases Xq with ⟨Has2_4, HAccAs2⟩
  ihave Xq := (held_pop _ _) $$ HAccAs2
  icases Xq with ⟨Has2_3, HAccAs2⟩
  ihave Xq := (held_pop _ _) $$ HAccAs2
  icases Xq with ⟨Has2_2, HAccAs2⟩
  ihave Has2_1 := (held_elim _) $$ HAccAs2
  ihave Xq := (held_pop _ _) $$ HAccCr2
  icases Xq with ⟨Hcs2_31, HAccCr2⟩
  ihave Xq := (held_pop _ _) $$ HAccCr2
  icases Xq with ⟨Hcs2_30, HAccCr2⟩
  ihave Xq := (held_pop _ _) $$ HAccCr2
  icases Xq with ⟨Hcs2_29, HAccCr2⟩
  ihave Xq := (held_pop _ _) $$ HAccCr2
  icases Xq with ⟨Hcs2_28, HAccCr2⟩
  ihave Xq := (held_pop _ _) $$ HAccCr2
  icases Xq with ⟨Hcs2_27, HAccCr2⟩
  ihave Xq := (held_pop _ _) $$ HAccCr2
  icases Xq with ⟨Hcs2_26, HAccCr2⟩
  ihave Xq := (held_pop _ _) $$ HAccCr2
  icases Xq with ⟨Hcs2_25, HAccCr2⟩
  ihave Xq := (held_pop _ _) $$ HAccCr2
  icases Xq with ⟨Hcs2_24, HAccCr2⟩
  ihave Xq := (held_pop _ _) $$ HAccCr2
  icases Xq with ⟨Hcs2_23, HAccCr2⟩
  ihave Xq := (held_pop _ _) $$ HAccCr2
  icases Xq with ⟨Hcs2_22, HAccCr2⟩
  ihave Xq := (held_pop _ _) $$ HAccCr2
  icases Xq with ⟨Hcs2_21, HAccCr2⟩
  ihave Xq := (held_pop _ _) $$ HAccCr2
  icases Xq with ⟨Hcs2_20, HAccCr2⟩
  ihave Xq := (held_pop _ _) $$ HAccCr2
  icases Xq with ⟨Hcs2_19, HAccCr2⟩
  ihave Xq := (held_pop _ _) $$ HAccCr2
  icases Xq with ⟨Hcs2_18, HAccCr2⟩
  ihave Xq := (held_pop _ _) $$ HAccCr2
  icases Xq with ⟨Hcs2_17, HAccCr2⟩
  ihave Xq := (held_pop _ _) $$ HAccCr2
  icases Xq with ⟨Hcs2_16, HAccCr2⟩
  ihave Xq := (held_pop _ _) $$ HAccCr2
  icases Xq with ⟨Hcs2_15, HAccCr2⟩
  ihave Xq := (held_pop _ _) $$ HAccCr2
  icases Xq with ⟨Hcs2_14, HAccCr2⟩
  ihave Xq := (held_pop _ _) $$ HAccCr2
  icases Xq with ⟨Hcs2_13, HAccCr2⟩
  ihave Xq := (held_pop _ _) $$ HAccCr2
  icases Xq with ⟨Hcs2_12, HAccCr2⟩
  ihave Xq := (held_pop _ _) $$ HAccCr2
  icases Xq with ⟨Hcs2_11, HAccCr2⟩
  ihave Xq := (held_pop _ _) $$ HAccCr2
  icases Xq with ⟨Hcs2_10, HAccCr2⟩
  ihave Xq := (held_pop _ _) $$ HAccCr2
  icases Xq with ⟨Hcs2_9, HAccCr2⟩
  ihave Xq := (held_pop _ _) $$ HAccCr2
  icases Xq with ⟨Hcs2_8, HAccCr2⟩
  ihave Xq := (held_pop _ _) $$ HAccCr2
  icases Xq with ⟨Hcs2_7, HAccCr2⟩
  ihave Xq := (held_pop _ _) $$ HAccCr2
  icases Xq with ⟨Hcs2_6, HAccCr2⟩
  ihave Xq := (held_pop _ _) $$ HAccCr2
  icases Xq with ⟨Hcs2_5, HAccCr2⟩
  ihave Xq := (held_pop _ _) $$ HAccCr2
  icases Xq with ⟨Hcs2_4, HAccCr2⟩
  ihave Xq := (held_pop _ _) $$ HAccCr2
  icases Xq with ⟨Hcs2_3, HAccCr2⟩
  ihave Xq := (held_pop _ _) $$ HAccCr2
  icases Xq with ⟨Hcs2_2, HAccCr2⟩
  ihave Hcs2_1 := (held_elim _) $$ HAccCr2
  ihave #HI := (inv_s2_1 (S1def m) (Y2def m) K c) $$ Hrec
  sl_exec_parts
  imod (Rounds.cell_close ER (sched (F := F) (S1def m) (Y2def m)) (Set.mem_univ (K (c, some (2, ⟨0, by decide⟩)))) (fun h => h) (R := 0 + 1) (duties_later (S1def m) (Y2def m) (s2Cell c 1 ho_1))) $$ [Has2_1] with Hz
  · isplitr; · iexact HI
    iexact Has2_1
  ihave HAccZs2 := (held_intro _) $$ Hz
  ihave HAccSh := (held_intro _) $$ Has2_1_pay1
  iclear HI Has2_1_reached
  ihave #HI := (inv_s2_2 (S1def m) (Y2def m) K c) $$ Hrec
  sl_exec_parts
  imod (Rounds.cell_close ER (sched (F := F) (S1def m) (Y2def m)) (Set.mem_univ (K (c, some (2, ⟨1, by decide⟩)))) (fun h => h) (R := 0 + 1) (duties_later (S1def m) (Y2def m) (s2Cell c 2 ho_2))) $$ [Has2_2] with Hz
  · isplitr; · iexact HI
    iexact Has2_2
  ihave HAccZs2 := (held_push _ _) $$ [Hz HAccZs2]
  · isplitl [Hz]
    · iexact Hz
    · iexact HAccZs2
  ihave HAccSh := (held_push _ _) $$ [Has2_2_pay1 HAccSh]
  · isplitl [Has2_2_pay1]
    · iexact Has2_2_pay1
    · iexact HAccSh
  iclear HI Has2_2_reached
  ihave #HI := (inv_s2_3 (S1def m) (Y2def m) K c) $$ Hrec
  sl_exec_parts
  imod (Rounds.cell_close ER (sched (F := F) (S1def m) (Y2def m)) (Set.mem_univ (K (c, some (2, ⟨2, by decide⟩)))) (fun h => h) (R := 0 + 1) (duties_later (S1def m) (Y2def m) (s2Cell c 3 ho_3))) $$ [Has2_3] with Hz
  · isplitr; · iexact HI
    iexact Has2_3
  ihave HAccZs2 := (held_push _ _) $$ [Hz HAccZs2]
  · isplitl [Hz]
    · iexact Hz
    · iexact HAccZs2
  ihave HAccSh := (held_push _ _) $$ [Has2_3_pay1 HAccSh]
  · isplitl [Has2_3_pay1]
    · iexact Has2_3_pay1
    · iexact HAccSh
  iclear HI Has2_3_reached
  ihave #HI := (inv_s2_4 (S1def m) (Y2def m) K c) $$ Hrec
  sl_exec_parts
  imod (Rounds.cell_close ER (sched (F := F) (S1def m) (Y2def m)) (Set.mem_univ (K (c, some (2, ⟨3, by decide⟩)))) (fun h => h) (R := 0 + 1) (duties_later (S1def m) (Y2def m) (s2Cell c 4 ho_4))) $$ [Has2_4] with Hz
  · isplitr; · iexact HI
    iexact Has2_4
  ihave HAccZs2 := (held_push _ _) $$ [Hz HAccZs2]
  · isplitl [Hz]
    · iexact Hz
    · iexact HAccZs2
  ihave HAccSh := (held_push _ _) $$ [Has2_4_pay1 HAccSh]
  · isplitl [Has2_4_pay1]
    · iexact Has2_4_pay1
    · iexact HAccSh
  iclear HI Has2_4_reached
  ihave #HI := (inv_s2_5 (S1def m) (Y2def m) K c) $$ Hrec
  sl_exec_parts
  imod (Rounds.cell_close ER (sched (F := F) (S1def m) (Y2def m)) (Set.mem_univ (K (c, some (2, ⟨4, by decide⟩)))) (fun h => h) (R := 0 + 1) (duties_later (S1def m) (Y2def m) (s2Cell c 5 ho_5))) $$ [Has2_5] with Hz
  · isplitr; · iexact HI
    iexact Has2_5
  ihave HAccZs2 := (held_push _ _) $$ [Hz HAccZs2]
  · isplitl [Hz]
    · iexact Hz
    · iexact HAccZs2
  ihave HAccSh := (held_push _ _) $$ [Has2_5_pay1 HAccSh]
  · isplitl [Has2_5_pay1]
    · iexact Has2_5_pay1
    · iexact HAccSh
  iclear HI Has2_5_reached
  ihave #HI := (inv_s2_6 (S1def m) (Y2def m) K c) $$ Hrec
  sl_exec_parts
  imod (Rounds.cell_close ER (sched (F := F) (S1def m) (Y2def m)) (Set.mem_univ (K (c, some (2, ⟨5, by decide⟩)))) (fun h => h) (R := 0 + 1) (duties_later (S1def m) (Y2def m) (s2Cell c 6 ho_6))) $$ [Has2_6] with Hz
  · isplitr; · iexact HI
    iexact Has2_6
  ihave HAccZs2 := (held_push _ _) $$ [Hz HAccZs2]
  · isplitl [Hz]
    · iexact Hz
    · iexact HAccZs2
  ihave HAccSh := (held_push _ _) $$ [Has2_6_pay1 HAccSh]
  · isplitl [Has2_6_pay1]
    · iexact Has2_6_pay1
    · iexact HAccSh
  iclear HI Has2_6_reached
  ihave #HI := (inv_s2_7 (S1def m) (Y2def m) K c) $$ Hrec
  sl_exec_parts
  imod (Rounds.cell_close ER (sched (F := F) (S1def m) (Y2def m)) (Set.mem_univ (K (c, some (2, ⟨6, by decide⟩)))) (fun h => h) (R := 0 + 1) (duties_later (S1def m) (Y2def m) (s2Cell c 7 ho_7))) $$ [Has2_7] with Hz
  · isplitr; · iexact HI
    iexact Has2_7
  ihave HAccZs2 := (held_push _ _) $$ [Hz HAccZs2]
  · isplitl [Hz]
    · iexact Hz
    · iexact HAccZs2
  ihave HAccSh := (held_push _ _) $$ [Has2_7_pay1 HAccSh]
  · isplitl [Has2_7_pay1]
    · iexact Has2_7_pay1
    · iexact HAccSh
  iclear HI Has2_7_reached
  ihave #HI := (inv_s2_8 (S1def m) (Y2def m) K c) $$ Hrec
  sl_exec_parts
  imod (Rounds.cell_close ER (sched (F := F) (S1def m) (Y2def m)) (Set.mem_univ (K (c, some (2, ⟨7, by decide⟩)))) (fun h => h) (R := 0 + 1) (duties_later (S1def m) (Y2def m) (s2Cell c 8 ho_8))) $$ [Has2_8] with Hz
  · isplitr; · iexact HI
    iexact Has2_8
  ihave HAccZs2 := (held_push _ _) $$ [Hz HAccZs2]
  · isplitl [Hz]
    · iexact Hz
    · iexact HAccZs2
  ihave HAccSh := (held_push _ _) $$ [Has2_8_pay1 HAccSh]
  · isplitl [Has2_8_pay1]
    · iexact Has2_8_pay1
    · iexact HAccSh
  iclear HI Has2_8_reached
  ihave #HI := (inv_s2_9 (S1def m) (Y2def m) K c) $$ Hrec
  sl_exec_parts
  imod (Rounds.cell_close ER (sched (F := F) (S1def m) (Y2def m)) (Set.mem_univ (K (c, some (2, ⟨8, by decide⟩)))) (fun h => h) (R := 0 + 1) (duties_later (S1def m) (Y2def m) (s2Cell c 9 ho_9))) $$ [Has2_9] with Hz
  · isplitr; · iexact HI
    iexact Has2_9
  ihave HAccZs2 := (held_push _ _) $$ [Hz HAccZs2]
  · isplitl [Hz]
    · iexact Hz
    · iexact HAccZs2
  ihave HAccSh := (held_push _ _) $$ [Has2_9_pay1 HAccSh]
  · isplitl [Has2_9_pay1]
    · iexact Has2_9_pay1
    · iexact HAccSh
  iclear HI Has2_9_reached
  ihave #HI := (inv_s2_10 (S1def m) (Y2def m) K c) $$ Hrec
  sl_exec_parts
  imod (Rounds.cell_close ER (sched (F := F) (S1def m) (Y2def m)) (Set.mem_univ (K (c, some (2, ⟨9, by decide⟩)))) (fun h => h) (R := 0 + 1) (duties_later (S1def m) (Y2def m) (s2Cell c 10 ho_10))) $$ [Has2_10] with Hz
  · isplitr; · iexact HI
    iexact Has2_10
  ihave HAccZs2 := (held_push _ _) $$ [Hz HAccZs2]
  · isplitl [Hz]
    · iexact Hz
    · iexact HAccZs2
  ihave HAccSh := (held_push _ _) $$ [Has2_10_pay1 HAccSh]
  · isplitl [Has2_10_pay1]
    · iexact Has2_10_pay1
    · iexact HAccSh
  iclear HI Has2_10_reached
  ihave #HI := (inv_s2_11 (S1def m) (Y2def m) K c) $$ Hrec
  sl_exec_parts
  imod (Rounds.cell_close ER (sched (F := F) (S1def m) (Y2def m)) (Set.mem_univ (K (c, some (2, ⟨10, by decide⟩)))) (fun h => h) (R := 0 + 1) (duties_later (S1def m) (Y2def m) (s2Cell c 11 ho_11))) $$ [Has2_11] with Hz
  · isplitr; · iexact HI
    iexact Has2_11
  ihave HAccZs2 := (held_push _ _) $$ [Hz HAccZs2]
  · isplitl [Hz]
    · iexact Hz
    · iexact HAccZs2
  ihave HAccSh := (held_push _ _) $$ [Has2_11_pay1 HAccSh]
  · isplitl [Has2_11_pay1]
    · iexact Has2_11_pay1
    · iexact HAccSh
  iclear HI Has2_11_reached
  ihave #HI := (inv_s2_12 (S1def m) (Y2def m) K c) $$ Hrec
  sl_exec_parts
  imod (Rounds.cell_close ER (sched (F := F) (S1def m) (Y2def m)) (Set.mem_univ (K (c, some (2, ⟨11, by decide⟩)))) (fun h => h) (R := 0 + 1) (duties_later (S1def m) (Y2def m) (s2Cell c 12 ho_12))) $$ [Has2_12] with Hz
  · isplitr; · iexact HI
    iexact Has2_12
  ihave HAccZs2 := (held_push _ _) $$ [Hz HAccZs2]
  · isplitl [Hz]
    · iexact Hz
    · iexact HAccZs2
  ihave HAccSh := (held_push _ _) $$ [Has2_12_pay1 HAccSh]
  · isplitl [Has2_12_pay1]
    · iexact Has2_12_pay1
    · iexact HAccSh
  iclear HI Has2_12_reached
  ihave #HI := (inv_s2_13 (S1def m) (Y2def m) K c) $$ Hrec
  sl_exec_parts
  imod (Rounds.cell_close ER (sched (F := F) (S1def m) (Y2def m)) (Set.mem_univ (K (c, some (2, ⟨12, by decide⟩)))) (fun h => h) (R := 0 + 1) (duties_later (S1def m) (Y2def m) (s2Cell c 13 ho_13))) $$ [Has2_13] with Hz
  · isplitr; · iexact HI
    iexact Has2_13
  ihave HAccZs2 := (held_push _ _) $$ [Hz HAccZs2]
  · isplitl [Hz]
    · iexact Hz
    · iexact HAccZs2
  ihave HAccSh := (held_push _ _) $$ [Has2_13_pay1 HAccSh]
  · isplitl [Has2_13_pay1]
    · iexact Has2_13_pay1
    · iexact HAccSh
  iclear HI Has2_13_reached
  ihave #HI := (inv_s2_14 (S1def m) (Y2def m) K c) $$ Hrec
  sl_exec_parts
  imod (Rounds.cell_close ER (sched (F := F) (S1def m) (Y2def m)) (Set.mem_univ (K (c, some (2, ⟨13, by decide⟩)))) (fun h => h) (R := 0 + 1) (duties_later (S1def m) (Y2def m) (s2Cell c 14 ho_14))) $$ [Has2_14] with Hz
  · isplitr; · iexact HI
    iexact Has2_14
  ihave HAccZs2 := (held_push _ _) $$ [Hz HAccZs2]
  · isplitl [Hz]
    · iexact Hz
    · iexact HAccZs2
  ihave HAccSh := (held_push _ _) $$ [Has2_14_pay1 HAccSh]
  · isplitl [Has2_14_pay1]
    · iexact Has2_14_pay1
    · iexact HAccSh
  iclear HI Has2_14_reached
  ihave #HI := (inv_s2_15 (S1def m) (Y2def m) K c) $$ Hrec
  sl_exec_parts
  imod (Rounds.cell_close ER (sched (F := F) (S1def m) (Y2def m)) (Set.mem_univ (K (c, some (2, ⟨14, by decide⟩)))) (fun h => h) (R := 0 + 1) (duties_later (S1def m) (Y2def m) (s2Cell c 15 ho_15))) $$ [Has2_15] with Hz
  · isplitr; · iexact HI
    iexact Has2_15
  ihave HAccZs2 := (held_push _ _) $$ [Hz HAccZs2]
  · isplitl [Hz]
    · iexact Hz
    · iexact HAccZs2
  ihave HAccSh := (held_push _ _) $$ [Has2_15_pay1 HAccSh]
  · isplitl [Has2_15_pay1]
    · iexact Has2_15_pay1
    · iexact HAccSh
  iclear HI Has2_15_reached
  ihave #HI := (inv_s2_16 (S1def m) (Y2def m) K c) $$ Hrec
  sl_exec_parts
  imod (Rounds.cell_close ER (sched (F := F) (S1def m) (Y2def m)) (Set.mem_univ (K (c, some (2, ⟨15, by decide⟩)))) (fun h => h) (R := 0 + 1) (duties_later (S1def m) (Y2def m) (s2Cell c 16 ho_16))) $$ [Has2_16] with Hz
  · isplitr; · iexact HI
    iexact Has2_16
  ihave HAccZs2 := (held_push _ _) $$ [Hz HAccZs2]
  · isplitl [Hz]
    · iexact Hz
    · iexact HAccZs2
  ihave HAccSh := (held_push _ _) $$ [Has2_16_pay1 HAccSh]
  · isplitl [Has2_16_pay1]
    · iexact Has2_16_pay1
    · iexact HAccSh
  iclear HI Has2_16_reached
  ihave #HI := (inv_s2_17 (S1def m) (Y2def m) K c) $$ Hrec
  sl_exec_parts
  imod (Rounds.cell_close ER (sched (F := F) (S1def m) (Y2def m)) (Set.mem_univ (K (c, some (2, ⟨16, by decide⟩)))) (fun h => h) (R := 0 + 1) (duties_later (S1def m) (Y2def m) (s2Cell c 17 ho_17))) $$ [Has2_17] with Hz
  · isplitr; · iexact HI
    iexact Has2_17
  ihave HAccZs2 := (held_push _ _) $$ [Hz HAccZs2]
  · isplitl [Hz]
    · iexact Hz
    · iexact HAccZs2
  ihave HAccSh := (held_push _ _) $$ [Has2_17_pay1 HAccSh]
  · isplitl [Has2_17_pay1]
    · iexact Has2_17_pay1
    · iexact HAccSh
  iclear HI Has2_17_reached
  ihave #HI := (inv_s2_18 (S1def m) (Y2def m) K c) $$ Hrec
  sl_exec_parts
  imod (Rounds.cell_close ER (sched (F := F) (S1def m) (Y2def m)) (Set.mem_univ (K (c, some (2, ⟨17, by decide⟩)))) (fun h => h) (R := 0 + 1) (duties_later (S1def m) (Y2def m) (s2Cell c 18 ho_18))) $$ [Has2_18] with Hz
  · isplitr; · iexact HI
    iexact Has2_18
  ihave HAccZs2 := (held_push _ _) $$ [Hz HAccZs2]
  · isplitl [Hz]
    · iexact Hz
    · iexact HAccZs2
  ihave HAccSh := (held_push _ _) $$ [Has2_18_pay1 HAccSh]
  · isplitl [Has2_18_pay1]
    · iexact Has2_18_pay1
    · iexact HAccSh
  iclear HI Has2_18_reached
  ihave #HI := (inv_s2_19 (S1def m) (Y2def m) K c) $$ Hrec
  sl_exec_parts
  imod (Rounds.cell_close ER (sched (F := F) (S1def m) (Y2def m)) (Set.mem_univ (K (c, some (2, ⟨18, by decide⟩)))) (fun h => h) (R := 0 + 1) (duties_later (S1def m) (Y2def m) (s2Cell c 19 ho_19))) $$ [Has2_19] with Hz
  · isplitr; · iexact HI
    iexact Has2_19
  ihave HAccZs2 := (held_push _ _) $$ [Hz HAccZs2]
  · isplitl [Hz]
    · iexact Hz
    · iexact HAccZs2
  ihave HAccSh := (held_push _ _) $$ [Has2_19_pay1 HAccSh]
  · isplitl [Has2_19_pay1]
    · iexact Has2_19_pay1
    · iexact HAccSh
  iclear HI Has2_19_reached
  ihave #HI := (inv_s2_20 (S1def m) (Y2def m) K c) $$ Hrec
  sl_exec_parts
  imod (Rounds.cell_close ER (sched (F := F) (S1def m) (Y2def m)) (Set.mem_univ (K (c, some (2, ⟨19, by decide⟩)))) (fun h => h) (R := 0 + 1) (duties_later (S1def m) (Y2def m) (s2Cell c 20 ho_20))) $$ [Has2_20] with Hz
  · isplitr; · iexact HI
    iexact Has2_20
  ihave HAccZs2 := (held_push _ _) $$ [Hz HAccZs2]
  · isplitl [Hz]
    · iexact Hz
    · iexact HAccZs2
  ihave HAccSh := (held_push _ _) $$ [Has2_20_pay1 HAccSh]
  · isplitl [Has2_20_pay1]
    · iexact Has2_20_pay1
    · iexact HAccSh
  iclear HI Has2_20_reached
  ihave #HI := (inv_s2_21 (S1def m) (Y2def m) K c) $$ Hrec
  sl_exec_parts
  imod (Rounds.cell_close ER (sched (F := F) (S1def m) (Y2def m)) (Set.mem_univ (K (c, some (2, ⟨20, by decide⟩)))) (fun h => h) (R := 0 + 1) (duties_later (S1def m) (Y2def m) (s2Cell c 21 ho_21))) $$ [Has2_21] with Hz
  · isplitr; · iexact HI
    iexact Has2_21
  ihave HAccZs2 := (held_push _ _) $$ [Hz HAccZs2]
  · isplitl [Hz]
    · iexact Hz
    · iexact HAccZs2
  ihave HAccSh := (held_push _ _) $$ [Has2_21_pay1 HAccSh]
  · isplitl [Has2_21_pay1]
    · iexact Has2_21_pay1
    · iexact HAccSh
  iclear HI Has2_21_reached
  ihave #HI := (inv_s2_22 (S1def m) (Y2def m) K c) $$ Hrec
  sl_exec_parts
  imod (Rounds.cell_close ER (sched (F := F) (S1def m) (Y2def m)) (Set.mem_univ (K (c, some (2, ⟨21, by decide⟩)))) (fun h => h) (R := 0 + 1) (duties_later (S1def m) (Y2def m) (s2Cell c 22 ho_22))) $$ [Has2_22] with Hz
  · isplitr; · iexact HI
    iexact Has2_22
  ihave HAccZs2 := (held_push _ _) $$ [Hz HAccZs2]
  · isplitl [Hz]
    · iexact Hz
    · iexact HAccZs2
  ihave HAccSh := (held_push _ _) $$ [Has2_22_pay1 HAccSh]
  · isplitl [Has2_22_pay1]
    · iexact Has2_22_pay1
    · iexact HAccSh
  iclear HI Has2_22_reached
  ihave #HI := (inv_s2_23 (S1def m) (Y2def m) K c) $$ Hrec
  sl_exec_parts
  imod (Rounds.cell_close ER (sched (F := F) (S1def m) (Y2def m)) (Set.mem_univ (K (c, some (2, ⟨22, by decide⟩)))) (fun h => h) (R := 0 + 1) (duties_later (S1def m) (Y2def m) (s2Cell c 23 ho_23))) $$ [Has2_23] with Hz
  · isplitr; · iexact HI
    iexact Has2_23
  ihave HAccZs2 := (held_push _ _) $$ [Hz HAccZs2]
  · isplitl [Hz]
    · iexact Hz
    · iexact HAccZs2
  ihave HAccSh := (held_push _ _) $$ [Has2_23_pay1 HAccSh]
  · isplitl [Has2_23_pay1]
    · iexact Has2_23_pay1
    · iexact HAccSh
  iclear HI Has2_23_reached
  ihave #HI := (inv_s2_24 (S1def m) (Y2def m) K c) $$ Hrec
  sl_exec_parts
  imod (Rounds.cell_close ER (sched (F := F) (S1def m) (Y2def m)) (Set.mem_univ (K (c, some (2, ⟨23, by decide⟩)))) (fun h => h) (R := 0 + 1) (duties_later (S1def m) (Y2def m) (s2Cell c 24 ho_24))) $$ [Has2_24] with Hz
  · isplitr; · iexact HI
    iexact Has2_24
  ihave HAccZs2 := (held_push _ _) $$ [Hz HAccZs2]
  · isplitl [Hz]
    · iexact Hz
    · iexact HAccZs2
  ihave HAccSh := (held_push _ _) $$ [Has2_24_pay1 HAccSh]
  · isplitl [Has2_24_pay1]
    · iexact Has2_24_pay1
    · iexact HAccSh
  iclear HI Has2_24_reached
  ihave #HI := (inv_s2_25 (S1def m) (Y2def m) K c) $$ Hrec
  sl_exec_parts
  imod (Rounds.cell_close ER (sched (F := F) (S1def m) (Y2def m)) (Set.mem_univ (K (c, some (2, ⟨24, by decide⟩)))) (fun h => h) (R := 0 + 1) (duties_later (S1def m) (Y2def m) (s2Cell c 25 ho_25))) $$ [Has2_25] with Hz
  · isplitr; · iexact HI
    iexact Has2_25
  ihave HAccZs2 := (held_push _ _) $$ [Hz HAccZs2]
  · isplitl [Hz]
    · iexact Hz
    · iexact HAccZs2
  ihave HAccSh := (held_push _ _) $$ [Has2_25_pay1 HAccSh]
  · isplitl [Has2_25_pay1]
    · iexact Has2_25_pay1
    · iexact HAccSh
  iclear HI Has2_25_reached
  ihave #HI := (inv_s2_26 (S1def m) (Y2def m) K c) $$ Hrec
  sl_exec_parts
  imod (Rounds.cell_close ER (sched (F := F) (S1def m) (Y2def m)) (Set.mem_univ (K (c, some (2, ⟨25, by decide⟩)))) (fun h => h) (R := 0 + 1) (duties_later (S1def m) (Y2def m) (s2Cell c 26 ho_26))) $$ [Has2_26] with Hz
  · isplitr; · iexact HI
    iexact Has2_26
  ihave HAccZs2 := (held_push _ _) $$ [Hz HAccZs2]
  · isplitl [Hz]
    · iexact Hz
    · iexact HAccZs2
  ihave HAccSh := (held_push _ _) $$ [Has2_26_pay1 HAccSh]
  · isplitl [Has2_26_pay1]
    · iexact Has2_26_pay1
    · iexact HAccSh
  iclear HI Has2_26_reached
  ihave #HI := (inv_s2_27 (S1def m) (Y2def m) K c) $$ Hrec
  sl_exec_parts
  imod (Rounds.cell_close ER (sched (F := F) (S1def m) (Y2def m)) (Set.mem_univ (K (c, some (2, ⟨26, by decide⟩)))) (fun h => h) (R := 0 + 1) (duties_later (S1def m) (Y2def m) (s2Cell c 27 ho_27))) $$ [Has2_27] with Hz
  · isplitr; · iexact HI
    iexact Has2_27
  ihave HAccZs2 := (held_push _ _) $$ [Hz HAccZs2]
  · isplitl [Hz]
    · iexact Hz
    · iexact HAccZs2
  ihave HAccSh := (held_push _ _) $$ [Has2_27_pay1 HAccSh]
  · isplitl [Has2_27_pay1]
    · iexact Has2_27_pay1
    · iexact HAccSh
  iclear HI Has2_27_reached
  ihave #HI := (inv_s2_28 (S1def m) (Y2def m) K c) $$ Hrec
  sl_exec_parts
  imod (Rounds.cell_close ER (sched (F := F) (S1def m) (Y2def m)) (Set.mem_univ (K (c, some (2, ⟨27, by decide⟩)))) (fun h => h) (R := 0 + 1) (duties_later (S1def m) (Y2def m) (s2Cell c 28 ho_28))) $$ [Has2_28] with Hz
  · isplitr; · iexact HI
    iexact Has2_28
  ihave HAccZs2 := (held_push _ _) $$ [Hz HAccZs2]
  · isplitl [Hz]
    · iexact Hz
    · iexact HAccZs2
  ihave HAccSh := (held_push _ _) $$ [Has2_28_pay1 HAccSh]
  · isplitl [Has2_28_pay1]
    · iexact Has2_28_pay1
    · iexact HAccSh
  iclear HI Has2_28_reached
  ihave #HI := (inv_s2_29 (S1def m) (Y2def m) K c) $$ Hrec
  sl_exec_parts
  imod (Rounds.cell_close ER (sched (F := F) (S1def m) (Y2def m)) (Set.mem_univ (K (c, some (2, ⟨28, by decide⟩)))) (fun h => h) (R := 0 + 1) (duties_later (S1def m) (Y2def m) (s2Cell c 29 ho_29))) $$ [Has2_29] with Hz
  · isplitr; · iexact HI
    iexact Has2_29
  ihave HAccZs2 := (held_push _ _) $$ [Hz HAccZs2]
  · isplitl [Hz]
    · iexact Hz
    · iexact HAccZs2
  ihave HAccSh := (held_push _ _) $$ [Has2_29_pay1 HAccSh]
  · isplitl [Has2_29_pay1]
    · iexact Has2_29_pay1
    · iexact HAccSh
  iclear HI Has2_29_reached
  ihave #HI := (inv_s2_30 (S1def m) (Y2def m) K c) $$ Hrec
  sl_exec_parts
  imod (Rounds.cell_close ER (sched (F := F) (S1def m) (Y2def m)) (Set.mem_univ (K (c, some (2, ⟨29, by decide⟩)))) (fun h => h) (R := 0 + 1) (duties_later (S1def m) (Y2def m) (s2Cell c 30 ho_30))) $$ [Has2_30] with Hz
  · isplitr; · iexact HI
    iexact Has2_30
  ihave HAccZs2 := (held_push _ _) $$ [Hz HAccZs2]
  · isplitl [Hz]
    · iexact Hz
    · iexact HAccZs2
  ihave HAccSh := (held_push _ _) $$ [Has2_30_pay1 HAccSh]
  · isplitl [Has2_30_pay1]
    · iexact Has2_30_pay1
    · iexact HAccSh
  iclear HI Has2_30_reached
  ihave #HI := (inv_s2_31 (S1def m) (Y2def m) K c) $$ Hrec
  sl_exec_parts
  imod (Rounds.cell_close ER (sched (F := F) (S1def m) (Y2def m)) (Set.mem_univ (K (c, some (2, ⟨30, by decide⟩)))) (fun h => h) (R := 0 + 1) (duties_later (S1def m) (Y2def m) (s2Cell c 31 ho_31))) $$ [Has2_31] with Hz
  · isplitr; · iexact HI
    iexact Has2_31
  ihave HAccZs2 := (held_push _ _) $$ [Hz HAccZs2]
  · isplitl [Hz]
    · iexact Hz
    · iexact HAccZs2
  ihave HAccSh := (held_push _ _) $$ [Has2_31_pay1 HAccSh]
  · isplitl [Has2_31_pay1]
    · iexact Has2_31_pay1
    · iexact HAccSh
  iclear HI Has2_31_reached
  -- the kernel returns
  sl_step
  iapply Hk
  ihave Xq := (held_pop _ _) $$ HAccZr1
  icases Xq with ⟨Zr1_31, HAccZr1⟩
  ihave Xq := (held_pop _ _) $$ HAccZr1
  icases Xq with ⟨Zr1_30, HAccZr1⟩
  ihave Xq := (held_pop _ _) $$ HAccZr1
  icases Xq with ⟨Zr1_29, HAccZr1⟩
  ihave Xq := (held_pop _ _) $$ HAccZr1
  icases Xq with ⟨Zr1_28, HAccZr1⟩
  ihave Xq := (held_pop _ _) $$ HAccZr1
  icases Xq with ⟨Zr1_27, HAccZr1⟩
  ihave Xq := (held_pop _ _) $$ HAccZr1
  icases Xq with ⟨Zr1_26, HAccZr1⟩
  ihave Xq := (held_pop _ _) $$ HAccZr1
  icases Xq with ⟨Zr1_25, HAccZr1⟩
  ihave Xq := (held_pop _ _) $$ HAccZr1
  icases Xq with ⟨Zr1_24, HAccZr1⟩
  ihave Xq := (held_pop _ _) $$ HAccZr1
  icases Xq with ⟨Zr1_23, HAccZr1⟩
  ihave Xq := (held_pop _ _) $$ HAccZr1
  icases Xq with ⟨Zr1_22, HAccZr1⟩
  ihave Xq := (held_pop _ _) $$ HAccZr1
  icases Xq with ⟨Zr1_21, HAccZr1⟩
  ihave Xq := (held_pop _ _) $$ HAccZr1
  icases Xq with ⟨Zr1_20, HAccZr1⟩
  ihave Xq := (held_pop _ _) $$ HAccZr1
  icases Xq with ⟨Zr1_19, HAccZr1⟩
  ihave Xq := (held_pop _ _) $$ HAccZr1
  icases Xq with ⟨Zr1_18, HAccZr1⟩
  ihave Xq := (held_pop _ _) $$ HAccZr1
  icases Xq with ⟨Zr1_17, HAccZr1⟩
  ihave Xq := (held_pop _ _) $$ HAccZr1
  icases Xq with ⟨Zr1_16, HAccZr1⟩
  ihave Xq := (held_pop _ _) $$ HAccZr1
  icases Xq with ⟨Zr1_15, HAccZr1⟩
  ihave Xq := (held_pop _ _) $$ HAccZr1
  icases Xq with ⟨Zr1_14, HAccZr1⟩
  ihave Xq := (held_pop _ _) $$ HAccZr1
  icases Xq with ⟨Zr1_13, HAccZr1⟩
  ihave Xq := (held_pop _ _) $$ HAccZr1
  icases Xq with ⟨Zr1_12, HAccZr1⟩
  ihave Xq := (held_pop _ _) $$ HAccZr1
  icases Xq with ⟨Zr1_11, HAccZr1⟩
  ihave Xq := (held_pop _ _) $$ HAccZr1
  icases Xq with ⟨Zr1_10, HAccZr1⟩
  ihave Xq := (held_pop _ _) $$ HAccZr1
  icases Xq with ⟨Zr1_9, HAccZr1⟩
  ihave Xq := (held_pop _ _) $$ HAccZr1
  icases Xq with ⟨Zr1_8, HAccZr1⟩
  ihave Xq := (held_pop _ _) $$ HAccZr1
  icases Xq with ⟨Zr1_7, HAccZr1⟩
  ihave Xq := (held_pop _ _) $$ HAccZr1
  icases Xq with ⟨Zr1_6, HAccZr1⟩
  ihave Xq := (held_pop _ _) $$ HAccZr1
  icases Xq with ⟨Zr1_5, HAccZr1⟩
  ihave Xq := (held_pop _ _) $$ HAccZr1
  icases Xq with ⟨Zr1_4, HAccZr1⟩
  ihave Xq := (held_pop _ _) $$ HAccZr1
  icases Xq with ⟨Zr1_3, HAccZr1⟩
  ihave Xq := (held_pop _ _) $$ HAccZr1
  icases Xq with ⟨Zr1_2, HAccZr1⟩
  ihave Zr1_1 := (held_elim _) $$ HAccZr1
  ihave Xq := (held_pop _ _) $$ HAccZs1
  icases Xq with ⟨Zs1_31, HAccZs1⟩
  ihave Xq := (held_pop _ _) $$ HAccZs1
  icases Xq with ⟨Zs1_30, HAccZs1⟩
  ihave Xq := (held_pop _ _) $$ HAccZs1
  icases Xq with ⟨Zs1_29, HAccZs1⟩
  ihave Xq := (held_pop _ _) $$ HAccZs1
  icases Xq with ⟨Zs1_28, HAccZs1⟩
  ihave Xq := (held_pop _ _) $$ HAccZs1
  icases Xq with ⟨Zs1_27, HAccZs1⟩
  ihave Xq := (held_pop _ _) $$ HAccZs1
  icases Xq with ⟨Zs1_26, HAccZs1⟩
  ihave Xq := (held_pop _ _) $$ HAccZs1
  icases Xq with ⟨Zs1_25, HAccZs1⟩
  ihave Xq := (held_pop _ _) $$ HAccZs1
  icases Xq with ⟨Zs1_24, HAccZs1⟩
  ihave Xq := (held_pop _ _) $$ HAccZs1
  icases Xq with ⟨Zs1_23, HAccZs1⟩
  ihave Xq := (held_pop _ _) $$ HAccZs1
  icases Xq with ⟨Zs1_22, HAccZs1⟩
  ihave Xq := (held_pop _ _) $$ HAccZs1
  icases Xq with ⟨Zs1_21, HAccZs1⟩
  ihave Xq := (held_pop _ _) $$ HAccZs1
  icases Xq with ⟨Zs1_20, HAccZs1⟩
  ihave Xq := (held_pop _ _) $$ HAccZs1
  icases Xq with ⟨Zs1_19, HAccZs1⟩
  ihave Xq := (held_pop _ _) $$ HAccZs1
  icases Xq with ⟨Zs1_18, HAccZs1⟩
  ihave Xq := (held_pop _ _) $$ HAccZs1
  icases Xq with ⟨Zs1_17, HAccZs1⟩
  ihave Xq := (held_pop _ _) $$ HAccZs1
  icases Xq with ⟨Zs1_16, HAccZs1⟩
  ihave Xq := (held_pop _ _) $$ HAccZs1
  icases Xq with ⟨Zs1_15, HAccZs1⟩
  ihave Xq := (held_pop _ _) $$ HAccZs1
  icases Xq with ⟨Zs1_14, HAccZs1⟩
  ihave Xq := (held_pop _ _) $$ HAccZs1
  icases Xq with ⟨Zs1_13, HAccZs1⟩
  ihave Xq := (held_pop _ _) $$ HAccZs1
  icases Xq with ⟨Zs1_12, HAccZs1⟩
  ihave Xq := (held_pop _ _) $$ HAccZs1
  icases Xq with ⟨Zs1_11, HAccZs1⟩
  ihave Xq := (held_pop _ _) $$ HAccZs1
  icases Xq with ⟨Zs1_10, HAccZs1⟩
  ihave Xq := (held_pop _ _) $$ HAccZs1
  icases Xq with ⟨Zs1_9, HAccZs1⟩
  ihave Xq := (held_pop _ _) $$ HAccZs1
  icases Xq with ⟨Zs1_8, HAccZs1⟩
  ihave Xq := (held_pop _ _) $$ HAccZs1
  icases Xq with ⟨Zs1_7, HAccZs1⟩
  ihave Xq := (held_pop _ _) $$ HAccZs1
  icases Xq with ⟨Zs1_6, HAccZs1⟩
  ihave Xq := (held_pop _ _) $$ HAccZs1
  icases Xq with ⟨Zs1_5, HAccZs1⟩
  ihave Xq := (held_pop _ _) $$ HAccZs1
  icases Xq with ⟨Zs1_4, HAccZs1⟩
  ihave Xq := (held_pop _ _) $$ HAccZs1
  icases Xq with ⟨Zs1_3, HAccZs1⟩
  ihave Xq := (held_pop _ _) $$ HAccZs1
  icases Xq with ⟨Zs1_2, HAccZs1⟩
  ihave Zs1_1 := (held_elim _) $$ HAccZs1
  ihave Xq := (held_pop _ _) $$ HAccZr2
  icases Xq with ⟨Zr2_31, HAccZr2⟩
  ihave Xq := (held_pop _ _) $$ HAccZr2
  icases Xq with ⟨Zr2_30, HAccZr2⟩
  ihave Xq := (held_pop _ _) $$ HAccZr2
  icases Xq with ⟨Zr2_29, HAccZr2⟩
  ihave Xq := (held_pop _ _) $$ HAccZr2
  icases Xq with ⟨Zr2_28, HAccZr2⟩
  ihave Xq := (held_pop _ _) $$ HAccZr2
  icases Xq with ⟨Zr2_27, HAccZr2⟩
  ihave Xq := (held_pop _ _) $$ HAccZr2
  icases Xq with ⟨Zr2_26, HAccZr2⟩
  ihave Xq := (held_pop _ _) $$ HAccZr2
  icases Xq with ⟨Zr2_25, HAccZr2⟩
  ihave Xq := (held_pop _ _) $$ HAccZr2
  icases Xq with ⟨Zr2_24, HAccZr2⟩
  ihave Xq := (held_pop _ _) $$ HAccZr2
  icases Xq with ⟨Zr2_23, HAccZr2⟩
  ihave Xq := (held_pop _ _) $$ HAccZr2
  icases Xq with ⟨Zr2_22, HAccZr2⟩
  ihave Xq := (held_pop _ _) $$ HAccZr2
  icases Xq with ⟨Zr2_21, HAccZr2⟩
  ihave Xq := (held_pop _ _) $$ HAccZr2
  icases Xq with ⟨Zr2_20, HAccZr2⟩
  ihave Xq := (held_pop _ _) $$ HAccZr2
  icases Xq with ⟨Zr2_19, HAccZr2⟩
  ihave Xq := (held_pop _ _) $$ HAccZr2
  icases Xq with ⟨Zr2_18, HAccZr2⟩
  ihave Xq := (held_pop _ _) $$ HAccZr2
  icases Xq with ⟨Zr2_17, HAccZr2⟩
  ihave Xq := (held_pop _ _) $$ HAccZr2
  icases Xq with ⟨Zr2_16, HAccZr2⟩
  ihave Xq := (held_pop _ _) $$ HAccZr2
  icases Xq with ⟨Zr2_15, HAccZr2⟩
  ihave Xq := (held_pop _ _) $$ HAccZr2
  icases Xq with ⟨Zr2_14, HAccZr2⟩
  ihave Xq := (held_pop _ _) $$ HAccZr2
  icases Xq with ⟨Zr2_13, HAccZr2⟩
  ihave Xq := (held_pop _ _) $$ HAccZr2
  icases Xq with ⟨Zr2_12, HAccZr2⟩
  ihave Xq := (held_pop _ _) $$ HAccZr2
  icases Xq with ⟨Zr2_11, HAccZr2⟩
  ihave Xq := (held_pop _ _) $$ HAccZr2
  icases Xq with ⟨Zr2_10, HAccZr2⟩
  ihave Xq := (held_pop _ _) $$ HAccZr2
  icases Xq with ⟨Zr2_9, HAccZr2⟩
  ihave Xq := (held_pop _ _) $$ HAccZr2
  icases Xq with ⟨Zr2_8, HAccZr2⟩
  ihave Xq := (held_pop _ _) $$ HAccZr2
  icases Xq with ⟨Zr2_7, HAccZr2⟩
  ihave Xq := (held_pop _ _) $$ HAccZr2
  icases Xq with ⟨Zr2_6, HAccZr2⟩
  ihave Xq := (held_pop _ _) $$ HAccZr2
  icases Xq with ⟨Zr2_5, HAccZr2⟩
  ihave Xq := (held_pop _ _) $$ HAccZr2
  icases Xq with ⟨Zr2_4, HAccZr2⟩
  ihave Xq := (held_pop _ _) $$ HAccZr2
  icases Xq with ⟨Zr2_3, HAccZr2⟩
  ihave Xq := (held_pop _ _) $$ HAccZr2
  icases Xq with ⟨Zr2_2, HAccZr2⟩
  ihave Zr2_1 := (held_elim _) $$ HAccZr2
  ihave Xq := (held_pop _ _) $$ HAccZs2
  icases Xq with ⟨Zs2_31, HAccZs2⟩
  ihave Xq := (held_pop _ _) $$ HAccZs2
  icases Xq with ⟨Zs2_30, HAccZs2⟩
  ihave Xq := (held_pop _ _) $$ HAccZs2
  icases Xq with ⟨Zs2_29, HAccZs2⟩
  ihave Xq := (held_pop _ _) $$ HAccZs2
  icases Xq with ⟨Zs2_28, HAccZs2⟩
  ihave Xq := (held_pop _ _) $$ HAccZs2
  icases Xq with ⟨Zs2_27, HAccZs2⟩
  ihave Xq := (held_pop _ _) $$ HAccZs2
  icases Xq with ⟨Zs2_26, HAccZs2⟩
  ihave Xq := (held_pop _ _) $$ HAccZs2
  icases Xq with ⟨Zs2_25, HAccZs2⟩
  ihave Xq := (held_pop _ _) $$ HAccZs2
  icases Xq with ⟨Zs2_24, HAccZs2⟩
  ihave Xq := (held_pop _ _) $$ HAccZs2
  icases Xq with ⟨Zs2_23, HAccZs2⟩
  ihave Xq := (held_pop _ _) $$ HAccZs2
  icases Xq with ⟨Zs2_22, HAccZs2⟩
  ihave Xq := (held_pop _ _) $$ HAccZs2
  icases Xq with ⟨Zs2_21, HAccZs2⟩
  ihave Xq := (held_pop _ _) $$ HAccZs2
  icases Xq with ⟨Zs2_20, HAccZs2⟩
  ihave Xq := (held_pop _ _) $$ HAccZs2
  icases Xq with ⟨Zs2_19, HAccZs2⟩
  ihave Xq := (held_pop _ _) $$ HAccZs2
  icases Xq with ⟨Zs2_18, HAccZs2⟩
  ihave Xq := (held_pop _ _) $$ HAccZs2
  icases Xq with ⟨Zs2_17, HAccZs2⟩
  ihave Xq := (held_pop _ _) $$ HAccZs2
  icases Xq with ⟨Zs2_16, HAccZs2⟩
  ihave Xq := (held_pop _ _) $$ HAccZs2
  icases Xq with ⟨Zs2_15, HAccZs2⟩
  ihave Xq := (held_pop _ _) $$ HAccZs2
  icases Xq with ⟨Zs2_14, HAccZs2⟩
  ihave Xq := (held_pop _ _) $$ HAccZs2
  icases Xq with ⟨Zs2_13, HAccZs2⟩
  ihave Xq := (held_pop _ _) $$ HAccZs2
  icases Xq with ⟨Zs2_12, HAccZs2⟩
  ihave Xq := (held_pop _ _) $$ HAccZs2
  icases Xq with ⟨Zs2_11, HAccZs2⟩
  ihave Xq := (held_pop _ _) $$ HAccZs2
  icases Xq with ⟨Zs2_10, HAccZs2⟩
  ihave Xq := (held_pop _ _) $$ HAccZs2
  icases Xq with ⟨Zs2_9, HAccZs2⟩
  ihave Xq := (held_pop _ _) $$ HAccZs2
  icases Xq with ⟨Zs2_8, HAccZs2⟩
  ihave Xq := (held_pop _ _) $$ HAccZs2
  icases Xq with ⟨Zs2_7, HAccZs2⟩
  ihave Xq := (held_pop _ _) $$ HAccZs2
  icases Xq with ⟨Zs2_6, HAccZs2⟩
  ihave Xq := (held_pop _ _) $$ HAccZs2
  icases Xq with ⟨Zs2_5, HAccZs2⟩
  ihave Xq := (held_pop _ _) $$ HAccZs2
  icases Xq with ⟨Zs2_4, HAccZs2⟩
  ihave Xq := (held_pop _ _) $$ HAccZs2
  icases Xq with ⟨Zs2_3, HAccZs2⟩
  ihave Xq := (held_pop _ _) $$ HAccZs2
  icases Xq with ⟨Zs2_2, HAccZs2⟩
  ihave Zs2_1 := (held_elim _) $$ HAccZs2
  ihave Xq := (held_pop _ _) $$ HAccL1
  icases Xq with ⟨L1_31, HAccL1⟩
  ihave Xq := (held_pop _ _) $$ HAccL1
  icases Xq with ⟨L1_30, HAccL1⟩
  ihave Xq := (held_pop _ _) $$ HAccL1
  icases Xq with ⟨L1_29, HAccL1⟩
  ihave Xq := (held_pop _ _) $$ HAccL1
  icases Xq with ⟨L1_28, HAccL1⟩
  ihave Xq := (held_pop _ _) $$ HAccL1
  icases Xq with ⟨L1_27, HAccL1⟩
  ihave Xq := (held_pop _ _) $$ HAccL1
  icases Xq with ⟨L1_26, HAccL1⟩
  ihave Xq := (held_pop _ _) $$ HAccL1
  icases Xq with ⟨L1_25, HAccL1⟩
  ihave Xq := (held_pop _ _) $$ HAccL1
  icases Xq with ⟨L1_24, HAccL1⟩
  ihave Xq := (held_pop _ _) $$ HAccL1
  icases Xq with ⟨L1_23, HAccL1⟩
  ihave Xq := (held_pop _ _) $$ HAccL1
  icases Xq with ⟨L1_22, HAccL1⟩
  ihave Xq := (held_pop _ _) $$ HAccL1
  icases Xq with ⟨L1_21, HAccL1⟩
  ihave Xq := (held_pop _ _) $$ HAccL1
  icases Xq with ⟨L1_20, HAccL1⟩
  ihave Xq := (held_pop _ _) $$ HAccL1
  icases Xq with ⟨L1_19, HAccL1⟩
  ihave Xq := (held_pop _ _) $$ HAccL1
  icases Xq with ⟨L1_18, HAccL1⟩
  ihave Xq := (held_pop _ _) $$ HAccL1
  icases Xq with ⟨L1_17, HAccL1⟩
  ihave Xq := (held_pop _ _) $$ HAccL1
  icases Xq with ⟨L1_16, HAccL1⟩
  ihave Xq := (held_pop _ _) $$ HAccL1
  icases Xq with ⟨L1_15, HAccL1⟩
  ihave Xq := (held_pop _ _) $$ HAccL1
  icases Xq with ⟨L1_14, HAccL1⟩
  ihave Xq := (held_pop _ _) $$ HAccL1
  icases Xq with ⟨L1_13, HAccL1⟩
  ihave Xq := (held_pop _ _) $$ HAccL1
  icases Xq with ⟨L1_12, HAccL1⟩
  ihave Xq := (held_pop _ _) $$ HAccL1
  icases Xq with ⟨L1_11, HAccL1⟩
  ihave Xq := (held_pop _ _) $$ HAccL1
  icases Xq with ⟨L1_10, HAccL1⟩
  ihave Xq := (held_pop _ _) $$ HAccL1
  icases Xq with ⟨L1_9, HAccL1⟩
  ihave Xq := (held_pop _ _) $$ HAccL1
  icases Xq with ⟨L1_8, HAccL1⟩
  ihave Xq := (held_pop _ _) $$ HAccL1
  icases Xq with ⟨L1_7, HAccL1⟩
  ihave Xq := (held_pop _ _) $$ HAccL1
  icases Xq with ⟨L1_6, HAccL1⟩
  ihave Xq := (held_pop _ _) $$ HAccL1
  icases Xq with ⟨L1_5, HAccL1⟩
  ihave Xq := (held_pop _ _) $$ HAccL1
  icases Xq with ⟨L1_4, HAccL1⟩
  ihave Xq := (held_pop _ _) $$ HAccL1
  icases Xq with ⟨L1_3, HAccL1⟩
  ihave Xq := (held_pop _ _) $$ HAccL1
  icases Xq with ⟨L1_2, HAccL1⟩
  ihave L1_1 := (held_elim _) $$ HAccL1
  ihave Xq := (held_pop _ _) $$ HAccL2
  icases Xq with ⟨L2_31, HAccL2⟩
  ihave Xq := (held_pop _ _) $$ HAccL2
  icases Xq with ⟨L2_30, HAccL2⟩
  ihave Xq := (held_pop _ _) $$ HAccL2
  icases Xq with ⟨L2_29, HAccL2⟩
  ihave Xq := (held_pop _ _) $$ HAccL2
  icases Xq with ⟨L2_28, HAccL2⟩
  ihave Xq := (held_pop _ _) $$ HAccL2
  icases Xq with ⟨L2_27, HAccL2⟩
  ihave Xq := (held_pop _ _) $$ HAccL2
  icases Xq with ⟨L2_26, HAccL2⟩
  ihave Xq := (held_pop _ _) $$ HAccL2
  icases Xq with ⟨L2_25, HAccL2⟩
  ihave Xq := (held_pop _ _) $$ HAccL2
  icases Xq with ⟨L2_24, HAccL2⟩
  ihave Xq := (held_pop _ _) $$ HAccL2
  icases Xq with ⟨L2_23, HAccL2⟩
  ihave Xq := (held_pop _ _) $$ HAccL2
  icases Xq with ⟨L2_22, HAccL2⟩
  ihave Xq := (held_pop _ _) $$ HAccL2
  icases Xq with ⟨L2_21, HAccL2⟩
  ihave Xq := (held_pop _ _) $$ HAccL2
  icases Xq with ⟨L2_20, HAccL2⟩
  ihave Xq := (held_pop _ _) $$ HAccL2
  icases Xq with ⟨L2_19, HAccL2⟩
  ihave Xq := (held_pop _ _) $$ HAccL2
  icases Xq with ⟨L2_18, HAccL2⟩
  ihave Xq := (held_pop _ _) $$ HAccL2
  icases Xq with ⟨L2_17, HAccL2⟩
  ihave Xq := (held_pop _ _) $$ HAccL2
  icases Xq with ⟨L2_16, HAccL2⟩
  ihave Xq := (held_pop _ _) $$ HAccL2
  icases Xq with ⟨L2_15, HAccL2⟩
  ihave Xq := (held_pop _ _) $$ HAccL2
  icases Xq with ⟨L2_14, HAccL2⟩
  ihave Xq := (held_pop _ _) $$ HAccL2
  icases Xq with ⟨L2_13, HAccL2⟩
  ihave Xq := (held_pop _ _) $$ HAccL2
  icases Xq with ⟨L2_12, HAccL2⟩
  ihave Xq := (held_pop _ _) $$ HAccL2
  icases Xq with ⟨L2_11, HAccL2⟩
  ihave Xq := (held_pop _ _) $$ HAccL2
  icases Xq with ⟨L2_10, HAccL2⟩
  ihave Xq := (held_pop _ _) $$ HAccL2
  icases Xq with ⟨L2_9, HAccL2⟩
  ihave Xq := (held_pop _ _) $$ HAccL2
  icases Xq with ⟨L2_8, HAccL2⟩
  ihave Xq := (held_pop _ _) $$ HAccL2
  icases Xq with ⟨L2_7, HAccL2⟩
  ihave Xq := (held_pop _ _) $$ HAccL2
  icases Xq with ⟨L2_6, HAccL2⟩
  ihave Xq := (held_pop _ _) $$ HAccL2
  icases Xq with ⟨L2_5, HAccL2⟩
  ihave Xq := (held_pop _ _) $$ HAccL2
  icases Xq with ⟨L2_4, HAccL2⟩
  ihave Xq := (held_pop _ _) $$ HAccL2
  icases Xq with ⟨L2_3, HAccL2⟩
  ihave Xq := (held_pop _ _) $$ HAccL2
  icases Xq with ⟨L2_2, HAccL2⟩
  ihave L2_1 := (held_elim _) $$ HAccL2
  ihave Xq := (held_pop _ _) $$ HAccRows
  icases Xq with ⟨Rw_31, HAccRows⟩
  ihave Xq := (held_pop _ _) $$ HAccRows
  icases Xq with ⟨Rw_30, HAccRows⟩
  ihave Xq := (held_pop _ _) $$ HAccRows
  icases Xq with ⟨Rw_29, HAccRows⟩
  ihave Xq := (held_pop _ _) $$ HAccRows
  icases Xq with ⟨Rw_28, HAccRows⟩
  ihave Xq := (held_pop _ _) $$ HAccRows
  icases Xq with ⟨Rw_27, HAccRows⟩
  ihave Xq := (held_pop _ _) $$ HAccRows
  icases Xq with ⟨Rw_26, HAccRows⟩
  ihave Xq := (held_pop _ _) $$ HAccRows
  icases Xq with ⟨Rw_25, HAccRows⟩
  ihave Xq := (held_pop _ _) $$ HAccRows
  icases Xq with ⟨Rw_24, HAccRows⟩
  ihave Xq := (held_pop _ _) $$ HAccRows
  icases Xq with ⟨Rw_23, HAccRows⟩
  ihave Xq := (held_pop _ _) $$ HAccRows
  icases Xq with ⟨Rw_22, HAccRows⟩
  ihave Xq := (held_pop _ _) $$ HAccRows
  icases Xq with ⟨Rw_21, HAccRows⟩
  ihave Xq := (held_pop _ _) $$ HAccRows
  icases Xq with ⟨Rw_20, HAccRows⟩
  ihave Xq := (held_pop _ _) $$ HAccRows
  icases Xq with ⟨Rw_19, HAccRows⟩
  ihave Xq := (held_pop _ _) $$ HAccRows
  icases Xq with ⟨Rw_18, HAccRows⟩
  ihave Xq := (held_pop _ _) $$ HAccRows
  icases Xq with ⟨Rw_17, HAccRows⟩
  ihave Xq := (held_pop _ _) $$ HAccRows
  icases Xq with ⟨Rw_16, HAccRows⟩
  ihave Xq := (held_pop _ _) $$ HAccRows
  icases Xq with ⟨Rw_15, HAccRows⟩
  ihave Xq := (held_pop _ _) $$ HAccRows
  icases Xq with ⟨Rw_14, HAccRows⟩
  ihave Xq := (held_pop _ _) $$ HAccRows
  icases Xq with ⟨Rw_13, HAccRows⟩
  ihave Xq := (held_pop _ _) $$ HAccRows
  icases Xq with ⟨Rw_12, HAccRows⟩
  ihave Xq := (held_pop _ _) $$ HAccRows
  icases Xq with ⟨Rw_11, HAccRows⟩
  ihave Xq := (held_pop _ _) $$ HAccRows
  icases Xq with ⟨Rw_10, HAccRows⟩
  ihave Xq := (held_pop _ _) $$ HAccRows
  icases Xq with ⟨Rw_9, HAccRows⟩
  ihave Xq := (held_pop _ _) $$ HAccRows
  icases Xq with ⟨Rw_8, HAccRows⟩
  ihave Xq := (held_pop _ _) $$ HAccRows
  icases Xq with ⟨Rw_7, HAccRows⟩
  ihave Xq := (held_pop _ _) $$ HAccRows
  icases Xq with ⟨Rw_6, HAccRows⟩
  ihave Xq := (held_pop _ _) $$ HAccRows
  icases Xq with ⟨Rw_5, HAccRows⟩
  ihave Xq := (held_pop _ _) $$ HAccRows
  icases Xq with ⟨Rw_4, HAccRows⟩
  ihave Xq := (held_pop _ _) $$ HAccRows
  icases Xq with ⟨Rw_3, HAccRows⟩
  ihave Xq := (held_pop _ _) $$ HAccRows
  icases Xq with ⟨Rw_2, HAccRows⟩
  ihave Rw_1 := (held_elim _) $$ HAccRows
  ihave Xq := (held_pop _ _) $$ HAccSh
  icases Xq with ⟨Sh_31, HAccSh⟩
  ihave Xq := (held_pop _ _) $$ HAccSh
  icases Xq with ⟨Sh_30, HAccSh⟩
  ihave Xq := (held_pop _ _) $$ HAccSh
  icases Xq with ⟨Sh_29, HAccSh⟩
  ihave Xq := (held_pop _ _) $$ HAccSh
  icases Xq with ⟨Sh_28, HAccSh⟩
  ihave Xq := (held_pop _ _) $$ HAccSh
  icases Xq with ⟨Sh_27, HAccSh⟩
  ihave Xq := (held_pop _ _) $$ HAccSh
  icases Xq with ⟨Sh_26, HAccSh⟩
  ihave Xq := (held_pop _ _) $$ HAccSh
  icases Xq with ⟨Sh_25, HAccSh⟩
  ihave Xq := (held_pop _ _) $$ HAccSh
  icases Xq with ⟨Sh_24, HAccSh⟩
  ihave Xq := (held_pop _ _) $$ HAccSh
  icases Xq with ⟨Sh_23, HAccSh⟩
  ihave Xq := (held_pop _ _) $$ HAccSh
  icases Xq with ⟨Sh_22, HAccSh⟩
  ihave Xq := (held_pop _ _) $$ HAccSh
  icases Xq with ⟨Sh_21, HAccSh⟩
  ihave Xq := (held_pop _ _) $$ HAccSh
  icases Xq with ⟨Sh_20, HAccSh⟩
  ihave Xq := (held_pop _ _) $$ HAccSh
  icases Xq with ⟨Sh_19, HAccSh⟩
  ihave Xq := (held_pop _ _) $$ HAccSh
  icases Xq with ⟨Sh_18, HAccSh⟩
  ihave Xq := (held_pop _ _) $$ HAccSh
  icases Xq with ⟨Sh_17, HAccSh⟩
  ihave Xq := (held_pop _ _) $$ HAccSh
  icases Xq with ⟨Sh_16, HAccSh⟩
  ihave Xq := (held_pop _ _) $$ HAccSh
  icases Xq with ⟨Sh_15, HAccSh⟩
  ihave Xq := (held_pop _ _) $$ HAccSh
  icases Xq with ⟨Sh_14, HAccSh⟩
  ihave Xq := (held_pop _ _) $$ HAccSh
  icases Xq with ⟨Sh_13, HAccSh⟩
  ihave Xq := (held_pop _ _) $$ HAccSh
  icases Xq with ⟨Sh_12, HAccSh⟩
  ihave Xq := (held_pop _ _) $$ HAccSh
  icases Xq with ⟨Sh_11, HAccSh⟩
  ihave Xq := (held_pop _ _) $$ HAccSh
  icases Xq with ⟨Sh_10, HAccSh⟩
  ihave Xq := (held_pop _ _) $$ HAccSh
  icases Xq with ⟨Sh_9, HAccSh⟩
  ihave Xq := (held_pop _ _) $$ HAccSh
  icases Xq with ⟨Sh_8, HAccSh⟩
  ihave Xq := (held_pop _ _) $$ HAccSh
  icases Xq with ⟨Sh_7, HAccSh⟩
  ihave Xq := (held_pop _ _) $$ HAccSh
  icases Xq with ⟨Sh_6, HAccSh⟩
  ihave Xq := (held_pop _ _) $$ HAccSh
  icases Xq with ⟨Sh_5, HAccSh⟩
  ihave Xq := (held_pop _ _) $$ HAccSh
  icases Xq with ⟨Sh_4, HAccSh⟩
  ihave Xq := (held_pop _ _) $$ HAccSh
  icases Xq with ⟨Sh_3, HAccSh⟩
  ihave Xq := (held_pop _ _) $$ HAccSh
  icases Xq with ⟨Sh_2, HAccSh⟩
  ihave Sh_1 := (held_elim _) $$ HAccSh
  -- the read shares of the narrowed result rows join
  ihave Hst2 := (st2_join (F := F) c ((Y2def m) c)) $$ [Hsh0 Sh_1 Sh_2 Sh_3 Sh_4 Sh_5 Sh_6 Sh_7 Sh_8 Sh_9 Sh_10 Sh_11 Sh_12 Sh_13 Sh_14 Sh_15 Sh_16 Sh_17 Sh_18 Sh_19 Sh_20 Sh_21 Sh_22 Sh_23 Sh_24 Sh_25 Sh_26 Sh_27 Sh_28 Sh_29 Sh_30 Sh_31]
  · isplitl [Hsh0]; · iexact Hsh0
    isplitl [Sh_1]; · iexact Sh_1
    isplitl [Sh_2]; · iexact Sh_2
    isplitl [Sh_3]; · iexact Sh_3
    isplitl [Sh_4]; · iexact Sh_4
    isplitl [Sh_5]; · iexact Sh_5
    isplitl [Sh_6]; · iexact Sh_6
    isplitl [Sh_7]; · iexact Sh_7
    isplitl [Sh_8]; · iexact Sh_8
    isplitl [Sh_9]; · iexact Sh_9
    isplitl [Sh_10]; · iexact Sh_10
    isplitl [Sh_11]; · iexact Sh_11
    isplitl [Sh_12]; · iexact Sh_12
    isplitl [Sh_13]; · iexact Sh_13
    isplitl [Sh_14]; · iexact Sh_14
    isplitl [Sh_15]; · iexact Sh_15
    isplitl [Sh_16]; · iexact Sh_16
    isplitl [Sh_17]; · iexact Sh_17
    isplitl [Sh_18]; · iexact Sh_18
    isplitl [Sh_19]; · iexact Sh_19
    isplitl [Sh_20]; · iexact Sh_20
    isplitl [Sh_21]; · iexact Sh_21
    isplitl [Sh_22]; · iexact Sh_22
    isplitl [Sh_23]; · iexact Sh_23
    isplitl [Sh_24]; · iexact Sh_24
    isplitl [Sh_25]; · iexact Sh_25
    isplitl [Sh_26]; · iexact Sh_26
    isplitl [Sh_27]; · iexact Sh_27
    isplitl [Sh_28]; · iexact Sh_28
    isplitl [Sh_29]; · iexact Sh_29
    isplitl [Sh_30]; · iexact Sh_30
    iexact Sh_31
  -- the output staging buffer's slots join
  ihave Hsto := (sto_rejoin16 (F := F) c) $$ [Hs5 Hs5_2 Hs5_3 Hs5_4 Hs5_5 Hs5_6 Hs5_7 Hs5_8 Hs5_9 Hs5_10 Hs5_11 Hs5_12 Hs5_13 Hs5_14 Hs5_15 Hs5_16 Hs5_17]
  · isplitl [Hs5]; · iexists _; iexact Hs5
    isplitl [Hs5_2]; · iexists _; iexact Hs5_2
    isplitl [Hs5_3]; · iexists _; iexact Hs5_3
    isplitl [Hs5_4]; · iexists _; iexact Hs5_4
    isplitl [Hs5_5]; · iexists _; iexact Hs5_5
    isplitl [Hs5_6]; · iexists _; iexact Hs5_6
    isplitl [Hs5_7]; · iexists _; iexact Hs5_7
    isplitl [Hs5_8]; · iexists _; iexact Hs5_8
    isplitl [Hs5_9]; · iexists _; iexact Hs5_9
    isplitl [Hs5_10]; · iexists _; iexact Hs5_10
    isplitl [Hs5_11]; · iexists _; iexact Hs5_11
    isplitl [Hs5_12]; · iexists _; iexact Hs5_12
    isplitl [Hs5_13]; · iexists _; iexact Hs5_13
    isplitl [Hs5_14]; · iexists _; iexact Hs5_14
    isplitl [Hs5_15]; · iexists _; iexact Hs5_15
    isplitl [Hs5_16]; · iexists _; iexact Hs5_16
    iexists _; iexact Hs5_17
  -- the 32 row blocks of the result, each at its closed form, join
  have hw0 : body_run.sl.dma5 c m f0 f5 = outVec m c 0 := by
    unfold body_run.sl.dma5 body_run.sl.Hs5_1
    rw [hacc]
    exact sto_slot_read c 0 ho_0 f5 _ _
  ihave HOb0 := (Entails.of_eq (pointsTo_congr (out_block0_agree (F := F) m c fO _ hw0))) $$ HOb0
  have hw1 : body_run.sl.dma3 c m f0 f5 = outVec m c 1 := by
    unfold body_run.sl.dma3 body_run.sl.Hs5_2
    exact sto_slot_read c 1 ho_1 f5 _ _
  ihave HOb1 := (Entails.of_eq (pointsTo_congr (out_block_agree (F := F) m c 1 hk_1 ho_1 fO _ hw1))) $$ HOb1
  have hw2 : body_run.sl.dma3_1 c m f0 f5 = outVec m c 2 := by
    unfold body_run.sl.dma3_1 body_run.sl.Hs5_3
    exact sto_slot_read c 2 ho_2 f5 _ _
  ihave HOb2 := (Entails.of_eq (pointsTo_congr (out_block_agree (F := F) m c 2 hk_2 ho_2 fO _ hw2))) $$ HOb2
  have hw3 : body_run.sl.dma3_2 c m f0 f5 = outVec m c 3 := by
    unfold body_run.sl.dma3_2 body_run.sl.Hs5_4
    exact sto_slot_read c 3 ho_3 f5 _ _
  ihave HOb3 := (Entails.of_eq (pointsTo_congr (out_block_agree (F := F) m c 3 hk_3 ho_3 fO _ hw3))) $$ HOb3
  have hw4 : body_run.sl.dma3_3 c m f0 f5 = outVec m c 4 := by
    unfold body_run.sl.dma3_3 body_run.sl.Hs5_5
    exact sto_slot_read c 4 ho_4 f5 _ _
  ihave HOb4 := (Entails.of_eq (pointsTo_congr (out_block_agree (F := F) m c 4 hk_4 ho_4 fO _ hw4))) $$ HOb4
  have hw5 : body_run.sl.dma3_4 c m f0 f5 = outVec m c 5 := by
    unfold body_run.sl.dma3_4 body_run.sl.Hs5_6
    exact sto_slot_read c 5 ho_5 f5 _ _
  ihave HOb5 := (Entails.of_eq (pointsTo_congr (out_block_agree (F := F) m c 5 hk_5 ho_5 fO _ hw5))) $$ HOb5
  have hw6 : body_run.sl.dma3_5 c m f0 f5 = outVec m c 6 := by
    unfold body_run.sl.dma3_5 body_run.sl.Hs5_7
    exact sto_slot_read c 6 ho_6 f5 _ _
  ihave HOb6 := (Entails.of_eq (pointsTo_congr (out_block_agree (F := F) m c 6 hk_6 ho_6 fO _ hw6))) $$ HOb6
  have hw7 : body_run.sl.dma3_6 c m f0 f5 = outVec m c 7 := by
    unfold body_run.sl.dma3_6 body_run.sl.Hs5_8
    exact sto_slot_read c 7 ho_7 f5 _ _
  ihave HOb7 := (Entails.of_eq (pointsTo_congr (out_block_agree (F := F) m c 7 hk_7 ho_7 fO _ hw7))) $$ HOb7
  have hw8 : body_run.sl.dma3_7 c m f0 f5 = outVec m c 8 := by
    unfold body_run.sl.dma3_7 body_run.sl.Hs5_9
    exact sto_slot_read c 8 ho_8 f5 _ _
  ihave HOb8 := (Entails.of_eq (pointsTo_congr (out_block_agree (F := F) m c 8 hk_8 ho_8 fO _ hw8))) $$ HOb8
  have hw9 : body_run.sl.dma3_8 c m f0 f5 = outVec m c 9 := by
    unfold body_run.sl.dma3_8 body_run.sl.Hs5_10
    exact sto_slot_read c 9 ho_9 f5 _ _
  ihave HOb9 := (Entails.of_eq (pointsTo_congr (out_block_agree (F := F) m c 9 hk_9 ho_9 fO _ hw9))) $$ HOb9
  have hw10 : body_run.sl.dma3_9 c m f0 f5 = outVec m c 10 := by
    unfold body_run.sl.dma3_9 body_run.sl.Hs5_11
    exact sto_slot_read c 10 ho_10 f5 _ _
  ihave HOb10 := (Entails.of_eq (pointsTo_congr (out_block_agree (F := F) m c 10 hk_10 ho_10 fO _ hw10))) $$ HOb10
  have hw11 : body_run.sl.dma3_10 c m f0 f5 = outVec m c 11 := by
    unfold body_run.sl.dma3_10 body_run.sl.Hs5_12
    exact sto_slot_read c 11 ho_11 f5 _ _
  ihave HOb11 := (Entails.of_eq (pointsTo_congr (out_block_agree (F := F) m c 11 hk_11 ho_11 fO _ hw11))) $$ HOb11
  have hw12 : body_run.sl.dma3_11 c m f0 f5 = outVec m c 12 := by
    unfold body_run.sl.dma3_11 body_run.sl.Hs5_13
    exact sto_slot_read c 12 ho_12 f5 _ _
  ihave HOb12 := (Entails.of_eq (pointsTo_congr (out_block_agree (F := F) m c 12 hk_12 ho_12 fO _ hw12))) $$ HOb12
  have hw13 : body_run.sl.dma3_12 c m f0 f5 = outVec m c 13 := by
    unfold body_run.sl.dma3_12 body_run.sl.Hs5_14
    exact sto_slot_read c 13 ho_13 f5 _ _
  ihave HOb13 := (Entails.of_eq (pointsTo_congr (out_block_agree (F := F) m c 13 hk_13 ho_13 fO _ hw13))) $$ HOb13
  have hw14 : body_run.sl.dma3_13 c m f0 f5 = outVec m c 14 := by
    unfold body_run.sl.dma3_13 body_run.sl.Hs5_15
    exact sto_slot_read c 14 ho_14 f5 _ _
  ihave HOb14 := (Entails.of_eq (pointsTo_congr (out_block_agree (F := F) m c 14 hk_14 ho_14 fO _ hw14))) $$ HOb14
  have hw15 : body_run.sl.dma3_14 c m f0 f5 = outVec m c 15 := by
    unfold body_run.sl.dma3_14 body_run.sl.Hs5_16
    exact sto_slot_read c 15 ho_15 f5 _ _
  ihave HOb15 := (Entails.of_eq (pointsTo_congr (out_block_agree (F := F) m c 15 hk_15 ho_15 fO _ hw15))) $$ HOb15
  have hw16 : body_run.sl.dma3_15 c m f0 f5 = outVec m c 16 := by
    unfold body_run.sl.dma3_15 body_run.sl.Hs5_17
    exact sto_slot_read c 16 ho_16 f5 _ _
  ihave HOb16 := (Entails.of_eq (pointsTo_congr (out_block_agree (F := F) m c 16 hk_16 ho_16 fO _ hw16))) $$ HOb16
  have hw17 : body_run.sl.dma3_16 c m f0 f5 = outVec m c 17 := by
    unfold body_run.sl.dma3_16 body_run.sl.Hs5_18
    exact sto_slot_read c 17 ho_17 f5 _ _
  ihave HOb17 := (Entails.of_eq (pointsTo_congr (out_block_agree (F := F) m c 17 hk_17 ho_17 fO _ hw17))) $$ HOb17
  have hw18 : body_run.sl.dma3_17 c m f0 f5 = outVec m c 18 := by
    unfold body_run.sl.dma3_17 body_run.sl.Hs5_19
    exact sto_slot_read c 18 ho_18 f5 _ _
  ihave HOb18 := (Entails.of_eq (pointsTo_congr (out_block_agree (F := F) m c 18 hk_18 ho_18 fO _ hw18))) $$ HOb18
  have hw19 : body_run.sl.dma3_18 c m f0 f5 = outVec m c 19 := by
    unfold body_run.sl.dma3_18 body_run.sl.Hs5_20
    exact sto_slot_read c 19 ho_19 f5 _ _
  ihave HOb19 := (Entails.of_eq (pointsTo_congr (out_block_agree (F := F) m c 19 hk_19 ho_19 fO _ hw19))) $$ HOb19
  have hw20 : body_run.sl.dma3_19 c m f0 f5 = outVec m c 20 := by
    unfold body_run.sl.dma3_19 body_run.sl.Hs5_21
    exact sto_slot_read c 20 ho_20 f5 _ _
  ihave HOb20 := (Entails.of_eq (pointsTo_congr (out_block_agree (F := F) m c 20 hk_20 ho_20 fO _ hw20))) $$ HOb20
  have hw21 : body_run.sl.dma3_20 c m f0 f5 = outVec m c 21 := by
    unfold body_run.sl.dma3_20 body_run.sl.Hs5_22
    exact sto_slot_read c 21 ho_21 f5 _ _
  ihave HOb21 := (Entails.of_eq (pointsTo_congr (out_block_agree (F := F) m c 21 hk_21 ho_21 fO _ hw21))) $$ HOb21
  have hw22 : body_run.sl.dma3_21 c m f0 f5 = outVec m c 22 := by
    unfold body_run.sl.dma3_21 body_run.sl.Hs5_23
    exact sto_slot_read c 22 ho_22 f5 _ _
  ihave HOb22 := (Entails.of_eq (pointsTo_congr (out_block_agree (F := F) m c 22 hk_22 ho_22 fO _ hw22))) $$ HOb22
  have hw23 : body_run.sl.dma3_22 c m f0 f5 = outVec m c 23 := by
    unfold body_run.sl.dma3_22 body_run.sl.Hs5_24
    exact sto_slot_read c 23 ho_23 f5 _ _
  ihave HOb23 := (Entails.of_eq (pointsTo_congr (out_block_agree (F := F) m c 23 hk_23 ho_23 fO _ hw23))) $$ HOb23
  have hw24 : body_run.sl.dma3_23 c m f0 f5 = outVec m c 24 := by
    unfold body_run.sl.dma3_23 body_run.sl.Hs5_25
    exact sto_slot_read c 24 ho_24 f5 _ _
  ihave HOb24 := (Entails.of_eq (pointsTo_congr (out_block_agree (F := F) m c 24 hk_24 ho_24 fO _ hw24))) $$ HOb24
  have hw25 : body_run.sl.dma3_24 c m f0 f5 = outVec m c 25 := by
    unfold body_run.sl.dma3_24 body_run.sl.Hs5_26
    exact sto_slot_read c 25 ho_25 f5 _ _
  ihave HOb25 := (Entails.of_eq (pointsTo_congr (out_block_agree (F := F) m c 25 hk_25 ho_25 fO _ hw25))) $$ HOb25
  have hw26 : body_run.sl.dma3_25 c m f0 f5 = outVec m c 26 := by
    unfold body_run.sl.dma3_25 body_run.sl.Hs5_27
    exact sto_slot_read c 26 ho_26 f5 _ _
  ihave HOb26 := (Entails.of_eq (pointsTo_congr (out_block_agree (F := F) m c 26 hk_26 ho_26 fO _ hw26))) $$ HOb26
  have hw27 : body_run.sl.dma3_26 c m f0 f5 = outVec m c 27 := by
    unfold body_run.sl.dma3_26 body_run.sl.Hs5_28
    exact sto_slot_read c 27 ho_27 f5 _ _
  ihave HOb27 := (Entails.of_eq (pointsTo_congr (out_block_agree (F := F) m c 27 hk_27 ho_27 fO _ hw27))) $$ HOb27
  have hw28 : body_run.sl.dma3_27 c m f0 f5 = outVec m c 28 := by
    unfold body_run.sl.dma3_27 body_run.sl.Hs5_29
    exact sto_slot_read c 28 ho_28 f5 _ _
  ihave HOb28 := (Entails.of_eq (pointsTo_congr (out_block_agree (F := F) m c 28 hk_28 ho_28 fO _ hw28))) $$ HOb28
  have hw29 : body_run.sl.dma3_28 c m f0 f5 = outVec m c 29 := by
    unfold body_run.sl.dma3_28 body_run.sl.Hs5_30
    exact sto_slot_read c 29 ho_29 f5 _ _
  ihave HOb29 := (Entails.of_eq (pointsTo_congr (out_block_agree (F := F) m c 29 hk_29 ho_29 fO _ hw29))) $$ HOb29
  have hw30 : body_run.sl.dma3_29 c m f0 f5 = outVec m c 30 := by
    unfold body_run.sl.dma3_29 body_run.sl.Hs5_31
    exact sto_slot_read c 30 ho_30 f5 _ _
  ihave HOb30 := (Entails.of_eq (pointsTo_congr (out_block_agree (F := F) m c 30 hk_30 ho_30 fO _ hw30))) $$ HOb30
  have hw31 : body_run.sl.dma3_30 c m f0 f5 = outVec m c 31 := by
    unfold body_run.sl.dma3_30 body_run.sl.Hs5_32
    exact sto_slot_read c 31 ho_31 f5 _ _
  ihave HOb31 := (Entails.of_eq (pointsTo_congr (out_block_agree (F := F) m c 31 hk_31 ho_31 fO _ hw31))) $$ HOb31
  ihave Hout := (out_join_glue (F := F) c (fsOut m c)) $$ [HOb0 HOb1 HOb2 HOb3 HOb4 HOb5 HOb6 HOb7 HOb8 HOb9 HOb10 HOb11 HOb12 HOb13 HOb14 HOb15 HOb16 HOb17 HOb18 HOb19 HOb20 HOb21 HOb22 HOb23 HOb24 HOb25 HOb26 HOb27 HOb28 HOb29 HOb30 HOb31]
  · isplitl [HOb0]; · iexact HOb0
    isplitl [HOb1]; · iexact HOb1
    isplitl [HOb2]; · iexact HOb2
    isplitl [HOb3]; · iexact HOb3
    isplitl [HOb4]; · iexact HOb4
    isplitl [HOb5]; · iexact HOb5
    isplitl [HOb6]; · iexact HOb6
    isplitl [HOb7]; · iexact HOb7
    isplitl [HOb8]; · iexact HOb8
    isplitl [HOb9]; · iexact HOb9
    isplitl [HOb10]; · iexact HOb10
    isplitl [HOb11]; · iexact HOb11
    isplitl [HOb12]; · iexact HOb12
    isplitl [HOb13]; · iexact HOb13
    isplitl [HOb14]; · iexact HOb14
    isplitl [HOb15]; · iexact HOb15
    isplitl [HOb16]; · iexact HOb16
    isplitl [HOb17]; · iexact HOb17
    isplitl [HOb18]; · iexact HOb18
    isplitl [HOb19]; · iexact HOb19
    isplitl [HOb20]; · iexact HOb20
    isplitl [HOb21]; · iexact HOb21
    isplitl [HOb22]; · iexact HOb22
    isplitl [HOb23]; · iexact HOb23
    isplitl [HOb24]; · iexact HOb24
    isplitl [HOb25]; · iexact HOb25
    isplitl [HOb26]; · iexact HOb26
    isplitl [HOb27]; · iexact HOb27
    isplitl [HOb28]; · iexact HOb28
    isplitl [HOb29]; · iexact HOb29
    isplitl [HOb30]; · iexact HOb30
    iexact HOb31
  iexists _
  unfold bodyEnd
  isplitl [HO]; · iexact HO
  isplitl [HT]; · iexact HT
  isplitl [Hout]; · iexact Hout
  isplitl [Hs0]; · iexists _; iexact Hs0
  isplitl [Hst2]
  · iexists _
    iapply (Entails.of_eq (show (st2.view.loc (c : Thread nD τ) ↦[st2.view.set]{fullShare} (Y2def m) c : sProp 𝕄) = (st2.view.loc (c : Thread nD τ) ↦{fullShare} (Y2def m) c : sProp 𝕄) from by rw [View.set_whole]))
    iexact Hst2
  isplitl [Hsto]; · iexact Hsto
  isplitl [HrowOwn Rw_1 Rw_2 Rw_3 Rw_4 Rw_5 Rw_6 Rw_7 Rw_8 Rw_9 Rw_10 Rw_11 Rw_12 Rw_13 Rw_14 Rw_15 Rw_16 Rw_17 Rw_18 Rw_19 Rw_20 Rw_21 Rw_22 Rw_23 Rw_24 Rw_25 Rw_26 Rw_27 Rw_28 Rw_29 Rw_30 Rw_31]
  · isplitl [HrowOwn]; · iexists _; iexact HrowOwn
    isplitl [Rw_1]; · iexists _; iexact Rw_1
    isplitl [Rw_2]; · iexists _; iexact Rw_2
    isplitl [Rw_3]; · iexists _; iexact Rw_3
    isplitl [Rw_4]; · iexists _; iexact Rw_4
    isplitl [Rw_5]; · iexists _; iexact Rw_5
    isplitl [Rw_6]; · iexists _; iexact Rw_6
    isplitl [Rw_7]; · iexists _; iexact Rw_7
    isplitl [Rw_8]; · iexists _; iexact Rw_8
    isplitl [Rw_9]; · iexists _; iexact Rw_9
    isplitl [Rw_10]; · iexists _; iexact Rw_10
    isplitl [Rw_11]; · iexists _; iexact Rw_11
    isplitl [Rw_12]; · iexists _; iexact Rw_12
    isplitl [Rw_13]; · iexists _; iexact Rw_13
    isplitl [Rw_14]; · iexists _; iexact Rw_14
    isplitl [Rw_15]; · iexists _; iexact Rw_15
    isplitl [Rw_16]; · iexists _; iexact Rw_16
    isplitl [Rw_17]; · iexists _; iexact Rw_17
    isplitl [Rw_18]; · iexists _; iexact Rw_18
    isplitl [Rw_19]; · iexists _; iexact Rw_19
    isplitl [Rw_20]; · iexists _; iexact Rw_20
    isplitl [Rw_21]; · iexists _; iexact Rw_21
    isplitl [Rw_22]; · iexists _; iexact Rw_22
    isplitl [Rw_23]; · iexists _; iexact Rw_23
    isplitl [Rw_24]; · iexists _; iexact Rw_24
    isplitl [Rw_25]; · iexists _; iexact Rw_25
    isplitl [Rw_26]; · iexists _; iexact Rw_26
    isplitl [Rw_27]; · iexists _; iexact Rw_27
    isplitl [Rw_28]; · iexists _; iexact Rw_28
    isplitl [Rw_29]; · iexists _; iexact Rw_29
    isplitl [Rw_30]; · iexists _; iexact Rw_30
    iexists _; iexact Rw_31
  isplitl [Hc1_0 L1_1 L1_2 L1_3 L1_4 L1_5 L1_6 L1_7 L1_8 L1_9 L1_10 L1_11 L1_12 L1_13 L1_14 L1_15 L1_16 L1_17 L1_18 L1_19 L1_20 L1_21 L1_22 L1_23 L1_24 L1_25 L1_26 L1_27 L1_28 L1_29 L1_30 L1_31]
  · isplitl [Hc1_0]; · iexists _; iexact Hc1_0
    isplitl [L1_1]; · iexists _; iexact L1_1
    isplitl [L1_2]; · iexists _; iexact L1_2
    isplitl [L1_3]; · iexists _; iexact L1_3
    isplitl [L1_4]; · iexists _; iexact L1_4
    isplitl [L1_5]; · iexists _; iexact L1_5
    isplitl [L1_6]; · iexists _; iexact L1_6
    isplitl [L1_7]; · iexists _; iexact L1_7
    isplitl [L1_8]; · iexists _; iexact L1_8
    isplitl [L1_9]; · iexists _; iexact L1_9
    isplitl [L1_10]; · iexists _; iexact L1_10
    isplitl [L1_11]; · iexists _; iexact L1_11
    isplitl [L1_12]; · iexists _; iexact L1_12
    isplitl [L1_13]; · iexists _; iexact L1_13
    isplitl [L1_14]; · iexists _; iexact L1_14
    isplitl [L1_15]; · iexists _; iexact L1_15
    isplitl [L1_16]; · iexists _; iexact L1_16
    isplitl [L1_17]; · iexists _; iexact L1_17
    isplitl [L1_18]; · iexists _; iexact L1_18
    isplitl [L1_19]; · iexists _; iexact L1_19
    isplitl [L1_20]; · iexists _; iexact L1_20
    isplitl [L1_21]; · iexists _; iexact L1_21
    isplitl [L1_22]; · iexists _; iexact L1_22
    isplitl [L1_23]; · iexists _; iexact L1_23
    isplitl [L1_24]; · iexists _; iexact L1_24
    isplitl [L1_25]; · iexists _; iexact L1_25
    isplitl [L1_26]; · iexists _; iexact L1_26
    isplitl [L1_27]; · iexists _; iexact L1_27
    isplitl [L1_28]; · iexists _; iexact L1_28
    isplitl [L1_29]; · iexists _; iexact L1_29
    isplitl [L1_30]; · iexists _; iexact L1_30
    iexists _; iexact L1_31
  isplitl [Hc2_0 L2_1 L2_2 L2_3 L2_4 L2_5 L2_6 L2_7 L2_8 L2_9 L2_10 L2_11 L2_12 L2_13 L2_14 L2_15 L2_16 L2_17 L2_18 L2_19 L2_20 L2_21 L2_22 L2_23 L2_24 L2_25 L2_26 L2_27 L2_28 L2_29 L2_30 L2_31]
  · isplitl [Hc2_0]; · iexists _; iexact Hc2_0
    isplitl [L2_1]; · iexists _; iexact L2_1
    isplitl [L2_2]; · iexists _; iexact L2_2
    isplitl [L2_3]; · iexists _; iexact L2_3
    isplitl [L2_4]; · iexists _; iexact L2_4
    isplitl [L2_5]; · iexists _; iexact L2_5
    isplitl [L2_6]; · iexists _; iexact L2_6
    isplitl [L2_7]; · iexists _; iexact L2_7
    isplitl [L2_8]; · iexists _; iexact L2_8
    isplitl [L2_9]; · iexists _; iexact L2_9
    isplitl [L2_10]; · iexists _; iexact L2_10
    isplitl [L2_11]; · iexists _; iexact L2_11
    isplitl [L2_12]; · iexists _; iexact L2_12
    isplitl [L2_13]; · iexists _; iexact L2_13
    isplitl [L2_14]; · iexists _; iexact L2_14
    isplitl [L2_15]; · iexists _; iexact L2_15
    isplitl [L2_16]; · iexists _; iexact L2_16
    isplitl [L2_17]; · iexists _; iexact L2_17
    isplitl [L2_18]; · iexists _; iexact L2_18
    isplitl [L2_19]; · iexists _; iexact L2_19
    isplitl [L2_20]; · iexists _; iexact L2_20
    isplitl [L2_21]; · iexists _; iexact L2_21
    isplitl [L2_22]; · iexists _; iexact L2_22
    isplitl [L2_23]; · iexists _; iexact L2_23
    isplitl [L2_24]; · iexists _; iexact L2_24
    isplitl [L2_25]; · iexists _; iexact L2_25
    isplitl [L2_26]; · iexists _; iexact L2_26
    isplitl [L2_27]; · iexists _; iexact L2_27
    isplitl [L2_28]; · iexists _; iexact L2_28
    isplitl [L2_29]; · iexists _; iexact L2_29
    isplitl [L2_30]; · iexists _; iexact L2_30
    iexists _; iexact L2_31
  isplitl [HzIn]; · iexact HzIn
  isplitl [HzOut0 HFl1 HFl2 HFl3 HFl4 HFl5 HFl6 HFl7 HFl8 HFl9 HFl10 HFl11 HFl12 HFl13 HFl14 HFl15 HFl16 HFl17 HFl18 HFl19 HFl20 HFl21 HFl22 HFl23 HFl24 HFl25 HFl26 HFl27 HFl28 HFl29 HFl30 HFl31]
  · isplitl [HzOut0]; · iexact HzOut0
    isplitl [HFl1]; · iexact HFl1
    isplitl [HFl2]; · iexact HFl2
    isplitl [HFl3]; · iexact HFl3
    isplitl [HFl4]; · iexact HFl4
    isplitl [HFl5]; · iexact HFl5
    isplitl [HFl6]; · iexact HFl6
    isplitl [HFl7]; · iexact HFl7
    isplitl [HFl8]; · iexact HFl8
    isplitl [HFl9]; · iexact HFl9
    isplitl [HFl10]; · iexact HFl10
    isplitl [HFl11]; · iexact HFl11
    isplitl [HFl12]; · iexact HFl12
    isplitl [HFl13]; · iexact HFl13
    isplitl [HFl14]; · iexact HFl14
    isplitl [HFl15]; · iexact HFl15
    isplitl [HFl16]; · iexact HFl16
    isplitl [HFl17]; · iexact HFl17
    isplitl [HFl18]; · iexact HFl18
    isplitl [HFl19]; · iexact HFl19
    isplitl [HFl20]; · iexact HFl20
    isplitl [HFl21]; · iexact HFl21
    isplitl [HFl22]; · iexact HFl22
    isplitl [HFl23]; · iexact HFl23
    isplitl [HFl24]; · iexact HFl24
    isplitl [HFl25]; · iexact HFl25
    isplitl [HFl26]; · iexact HFl26
    isplitl [HFl27]; · iexact HFl27
    isplitl [HFl28]; · iexact HFl28
    isplitl [HFl29]; · iexact HFl29
    isplitl [HFl30]; · iexact HFl30
    iexact HFl31
  isplitl [Hz70]; · iexact Hz70
  isplitl [Hz80]; · iexact Hz80
  isplitl [Hz90]; · iexact Hz90
  isplitl [Hz100]; · iexact Hz100
  isplitl [Zs1_1 Zr1_1 Zs2_1 Zr2_1]
  · isplitl [Zs1_1]; · iexact Zs1_1
    isplitl [Zr1_1]; · iexact Zr1_1
    isplitl [Zs2_1]; · iexact Zs2_1
    iexact Zr2_1
  isplitl [Zs1_2 Zr1_2 Zs2_2 Zr2_2]
  · isplitl [Zs1_2]; · iexact Zs1_2
    isplitl [Zr1_2]; · iexact Zr1_2
    isplitl [Zs2_2]; · iexact Zs2_2
    iexact Zr2_2
  isplitl [Zs1_3 Zr1_3 Zs2_3 Zr2_3]
  · isplitl [Zs1_3]; · iexact Zs1_3
    isplitl [Zr1_3]; · iexact Zr1_3
    isplitl [Zs2_3]; · iexact Zs2_3
    iexact Zr2_3
  isplitl [Zs1_4 Zr1_4 Zs2_4 Zr2_4]
  · isplitl [Zs1_4]; · iexact Zs1_4
    isplitl [Zr1_4]; · iexact Zr1_4
    isplitl [Zs2_4]; · iexact Zs2_4
    iexact Zr2_4
  isplitl [Zs1_5 Zr1_5 Zs2_5 Zr2_5]
  · isplitl [Zs1_5]; · iexact Zs1_5
    isplitl [Zr1_5]; · iexact Zr1_5
    isplitl [Zs2_5]; · iexact Zs2_5
    iexact Zr2_5
  isplitl [Zs1_6 Zr1_6 Zs2_6 Zr2_6]
  · isplitl [Zs1_6]; · iexact Zs1_6
    isplitl [Zr1_6]; · iexact Zr1_6
    isplitl [Zs2_6]; · iexact Zs2_6
    iexact Zr2_6
  isplitl [Zs1_7 Zr1_7 Zs2_7 Zr2_7]
  · isplitl [Zs1_7]; · iexact Zs1_7
    isplitl [Zr1_7]; · iexact Zr1_7
    isplitl [Zs2_7]; · iexact Zs2_7
    iexact Zr2_7
  isplitl [Zs1_8 Zr1_8 Zs2_8 Zr2_8]
  · isplitl [Zs1_8]; · iexact Zs1_8
    isplitl [Zr1_8]; · iexact Zr1_8
    isplitl [Zs2_8]; · iexact Zs2_8
    iexact Zr2_8
  isplitl [Zs1_9 Zr1_9 Zs2_9 Zr2_9]
  · isplitl [Zs1_9]; · iexact Zs1_9
    isplitl [Zr1_9]; · iexact Zr1_9
    isplitl [Zs2_9]; · iexact Zs2_9
    iexact Zr2_9
  isplitl [Zs1_10 Zr1_10 Zs2_10 Zr2_10]
  · isplitl [Zs1_10]; · iexact Zs1_10
    isplitl [Zr1_10]; · iexact Zr1_10
    isplitl [Zs2_10]; · iexact Zs2_10
    iexact Zr2_10
  isplitl [Zs1_11 Zr1_11 Zs2_11 Zr2_11]
  · isplitl [Zs1_11]; · iexact Zs1_11
    isplitl [Zr1_11]; · iexact Zr1_11
    isplitl [Zs2_11]; · iexact Zs2_11
    iexact Zr2_11
  isplitl [Zs1_12 Zr1_12 Zs2_12 Zr2_12]
  · isplitl [Zs1_12]; · iexact Zs1_12
    isplitl [Zr1_12]; · iexact Zr1_12
    isplitl [Zs2_12]; · iexact Zs2_12
    iexact Zr2_12
  isplitl [Zs1_13 Zr1_13 Zs2_13 Zr2_13]
  · isplitl [Zs1_13]; · iexact Zs1_13
    isplitl [Zr1_13]; · iexact Zr1_13
    isplitl [Zs2_13]; · iexact Zs2_13
    iexact Zr2_13
  isplitl [Zs1_14 Zr1_14 Zs2_14 Zr2_14]
  · isplitl [Zs1_14]; · iexact Zs1_14
    isplitl [Zr1_14]; · iexact Zr1_14
    isplitl [Zs2_14]; · iexact Zs2_14
    iexact Zr2_14
  isplitl [Zs1_15 Zr1_15 Zs2_15 Zr2_15]
  · isplitl [Zs1_15]; · iexact Zs1_15
    isplitl [Zr1_15]; · iexact Zr1_15
    isplitl [Zs2_15]; · iexact Zs2_15
    iexact Zr2_15
  isplitl [Zs1_16 Zr1_16 Zs2_16 Zr2_16]
  · isplitl [Zs1_16]; · iexact Zs1_16
    isplitl [Zr1_16]; · iexact Zr1_16
    isplitl [Zs2_16]; · iexact Zs2_16
    iexact Zr2_16
  isplitl [Zs1_17 Zr1_17 Zs2_17 Zr2_17]
  · isplitl [Zs1_17]; · iexact Zs1_17
    isplitl [Zr1_17]; · iexact Zr1_17
    isplitl [Zs2_17]; · iexact Zs2_17
    iexact Zr2_17
  isplitl [Zs1_18 Zr1_18 Zs2_18 Zr2_18]
  · isplitl [Zs1_18]; · iexact Zs1_18
    isplitl [Zr1_18]; · iexact Zr1_18
    isplitl [Zs2_18]; · iexact Zs2_18
    iexact Zr2_18
  isplitl [Zs1_19 Zr1_19 Zs2_19 Zr2_19]
  · isplitl [Zs1_19]; · iexact Zs1_19
    isplitl [Zr1_19]; · iexact Zr1_19
    isplitl [Zs2_19]; · iexact Zs2_19
    iexact Zr2_19
  isplitl [Zs1_20 Zr1_20 Zs2_20 Zr2_20]
  · isplitl [Zs1_20]; · iexact Zs1_20
    isplitl [Zr1_20]; · iexact Zr1_20
    isplitl [Zs2_20]; · iexact Zs2_20
    iexact Zr2_20
  isplitl [Zs1_21 Zr1_21 Zs2_21 Zr2_21]
  · isplitl [Zs1_21]; · iexact Zs1_21
    isplitl [Zr1_21]; · iexact Zr1_21
    isplitl [Zs2_21]; · iexact Zs2_21
    iexact Zr2_21
  isplitl [Zs1_22 Zr1_22 Zs2_22 Zr2_22]
  · isplitl [Zs1_22]; · iexact Zs1_22
    isplitl [Zr1_22]; · iexact Zr1_22
    isplitl [Zs2_22]; · iexact Zs2_22
    iexact Zr2_22
  isplitl [Zs1_23 Zr1_23 Zs2_23 Zr2_23]
  · isplitl [Zs1_23]; · iexact Zs1_23
    isplitl [Zr1_23]; · iexact Zr1_23
    isplitl [Zs2_23]; · iexact Zs2_23
    iexact Zr2_23
  isplitl [Zs1_24 Zr1_24 Zs2_24 Zr2_24]
  · isplitl [Zs1_24]; · iexact Zs1_24
    isplitl [Zr1_24]; · iexact Zr1_24
    isplitl [Zs2_24]; · iexact Zs2_24
    iexact Zr2_24
  isplitl [Zs1_25 Zr1_25 Zs2_25 Zr2_25]
  · isplitl [Zs1_25]; · iexact Zs1_25
    isplitl [Zr1_25]; · iexact Zr1_25
    isplitl [Zs2_25]; · iexact Zs2_25
    iexact Zr2_25
  isplitl [Zs1_26 Zr1_26 Zs2_26 Zr2_26]
  · isplitl [Zs1_26]; · iexact Zs1_26
    isplitl [Zr1_26]; · iexact Zr1_26
    isplitl [Zs2_26]; · iexact Zs2_26
    iexact Zr2_26
  isplitl [Zs1_27 Zr1_27 Zs2_27 Zr2_27]
  · isplitl [Zs1_27]; · iexact Zs1_27
    isplitl [Zr1_27]; · iexact Zr1_27
    isplitl [Zs2_27]; · iexact Zs2_27
    iexact Zr2_27
  isplitl [Zs1_28 Zr1_28 Zs2_28 Zr2_28]
  · isplitl [Zs1_28]; · iexact Zs1_28
    isplitl [Zr1_28]; · iexact Zr1_28
    isplitl [Zs2_28]; · iexact Zs2_28
    iexact Zr2_28
  isplitl [Zs1_29 Zr1_29 Zs2_29 Zr2_29]
  · isplitl [Zs1_29]; · iexact Zs1_29
    isplitl [Zr1_29]; · iexact Zr1_29
    isplitl [Zs2_29]; · iexact Zs2_29
    iexact Zr2_29
  isplitl [Zs1_30 Zr1_30 Zs2_30 Zr2_30]
  · isplitl [Zs1_30]; · iexact Zs1_30
    isplitl [Zr1_30]; · iexact Zr1_30
    isplitl [Zs2_30]; · iexact Zs2_30
    iexact Zr2_30
  isplitl [Zs1_31]; · iexact Zs1_31
  isplitl [Zr1_31]; · iexact Zr1_31
  isplitl [Zs2_31]; · iexact Zs2_31
  iexact Zr2_31

/-- The kernel's text, run on device `c` from the body's starting state, ends in what the body leaves. -/
theorem sound_body (m : (ℓ : Loc nD τ sig) → Buf (Elt F) ℓ) :
    ∀ (c : Dev nD) K W fO f0 f1 f3 f5 g1 g2 (Kt : PUnit → sProp 𝕄),
      iprop(bodyStart (F := F) (S1def m) (Y2def m) c g1 g2 K W fO f0 f1 f3 f5 m ∗ ((∃ W', bodyEnd (F := F) c (OUTdef m) m W') -∗ Kt ⟨⟩))
        ⊢ wp frame (wpE (defs₀ (F := F)) 𝒱₀ (c : Thread nD τ) none) Set.univ
            (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Kt :=
  fun c K W fO f0 f1 f3 f5 g1 g2 Kt => body_run K c W m fO f0 f1 f3 f5 g1 g2 Kt

end Cert.KernelProto
end
-- ==== Proof.Pending.lean ====
import proofs.«900784_g7700000000000785_dist_f_of_ar_i_m512_n256_v7x_i32_bf16_1_alg».proof.Proof.KernelIdealBody
import proofs.«900784_g7700000000000785_dist_f_of_ar_i_m512_n256_v7x_i32_bf16_1_alg».proof.Proof.KernelBody

/-!
# The two runs of the kernel's text

`Cert.KernelIdealProto.sound_body` and `Cert.KernelProto.sound_body`: the run of the kernel's text on one device, from the
body's starting state to what it leaves, for the idealized program and for the word-level one. Both are proved in the two
modules imported here; the proof of the claim takes them from this one.
-/
-- ==== Proof.KernelIdealReads.lean ====
import proofs.«900784_g7700000000000785_dist_f_of_ar_i_m512_n256_v7x_i32_bf16_1_alg».proof.Proof.KernelIdealCutsOutFun
import proofs.«900784_g7700000000000785_dist_f_of_ar_i_m512_n256_v7x_i32_bf16_1_alg».proof.Proof.KernelIdealSends
import Idealize.ShloMosaic.Lib.ValueIdx
import Idealize.ShloMosaic.Lib.Pipeline.Value

/-!
# What the body's loads read

Three reads the value of the result goes through, each a pure movement of data.
The accumulation starts from the device's own sixteen rows of its block: a load through the block at the rectangle of
rows `[16·c, 16·c + 16)` reads, at `(r, q)`, the block's element `(16·c + r, q)`.
A landed slot is read through the landing buffer that encloses it, at the slot's rectangle: the slot holds what the
transfer wrote, and the transfer wrote what its source view read on the sending device. For the first exchange the
sender `s`, the device `j` places before `c`, sent its rows `[16·((s + j) mod 32), …)`, which are rows `[16·c, …)`
of its narrowed block; for the second it sent its sixteen result rows.
-/

noncomputable section

namespace Cert.KernelIdealProto

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Indices -/

/-- The 16 × 256 index `(r, q)` and the slot index `(0, r, q)` are at the same row-major position. -/
theorem reshape_ix2 (h : S16x256.numel = S1x16x256.numel) (r : Fin 16) (q : Fin 256) :
    Shape.reshapeEquiv h (ix2 r q : S16x256.Idx) = (ix3 0 r q : S1x16x256.Idx) :=
  Shape.reshapeEquiv_eq_of_rowMajor h (by
    rw [Shape.rowMajor_val_three, Shape.rowMajor_val_two]
    show ((0 : Fin 1).val * 16 + r.val) * 256 + q.val = r.val * 256 + q.val
    simp)

/-- Row `r`, column `q` of the sixteen rows that start at row `16·n` is row `16·n + r`, column `q` of the 512. -/
theorem rows_emb (off : Fin 2 → ℕ) (n : ℕ) (h : off = ![16 * n, 0])
    (inb : ∀ a, off a + S16x256.size a ≤ S512x256.size a) (r : Fin 16) (q : Fin 256) (hlt : 16 * n + r.val < 512) :
    (Rect.unit (s := S512x256) off S16x256.size inb).emb (ix2 r q) = (ix2 ⟨16 * n + r.val, hlt⟩ q : S512x256.Idx) := by
  subst h
  funext a
  apply Fin.ext
  fin_cases a
  · show 16 * n + 1 * r.val = 16 * n + r.val
    omega
  · show 0 + 1 * q.val = q.val
    omega

/-! ## A slot read through the buffer that encloses it -/

/-- A load through a landing buffer at slot `j`'s rectangle, off contents written whole through the slot, reads the
    payload written: at `(0, r, q)` its element `(r, q)`. -/
theorem slot_read_write {Val : EltTy → Type} {e : EltTy} (M : Memref sig .tc .vmem S32x16x256 e) (j : ℕ) (hj : j < 32)
    (f : (slotM M j hj).view.ty.Contents Val) (w : S16x256.Idx → Val e) (r : Fin 16) (q : Fin 256) :
    M.view.readAt Val (Rect.unit (s := S32x16x256) ![j, 0, 0] S1x16x256.size (slot_inb j hj)).toLoadRect
        ((slotM M j hj).view.write Val f w Finset.univ) (ix3 0 r q) = w (ix2 r q) := by
  have h1 : (slotM M j hj).view.read Val ((slotM M j hj).view.write Val f w Finset.univ) (ix2 r q) = w (ix2 r q) :=
    View.read_write_of_mem f w (Finset.mem_univ _)
  rw [← h1, View.readAt_rect]
  exact (congrArg ((M.view.slice (Rect.unit (s := S32x16x256) ![j, 0, 0] S1x16x256.size (slot_inb j hj))).read Val _)
    (reshape_ix2 _ r q)).symm

/-! ## The three reads -/

/-- The device's own sixteen rows of its block. -/
theorem read_own_rows (c : Dev nD) (T : Buf (Elt F) (tV.view.loc (c : Thread nD τ))) (r : Fin 16) (q : Fin 256) :
    tV.view.readAt (Elt F) (Rect.unit (s := S512x256) (k0_off2 c) S16x256.size (k0_off2_inb c)).toLoadRect T (ix2 r q)
      = T (ix2 ⟨16 * c.val + r.val, by have : c.val < 32 := c.isLt; have := r.isLt; omega⟩ q) := by
  show T ((Rect.unit (s := S512x256) (k0_off2 c) S16x256.size (k0_off2_inb c)).emb (ix2 r q)) = _
  rw [rows_emb (k0_off2 c) c.val (k0_off2_eq c)]

/-- Slot `j` of the first landing buffer once landed: the sender's narrowed block at row `16·c + r`. -/
theorem read_land1 (S1 : (d : Dev nD) → Buf (Elt F) (st1.view.loc (d : Thread nD τ))) (c : Dev nD) (j : ℕ)
    (hj : 1 ≤ j ∧ j ≤ 31) (hlt : j < 32) (r : Fin 16) (q : Fin 256) :
    cm1.view.readAt (Elt F) (Rect.unit (s := S32x16x256) ![j, 0, 0] S1x16x256.size (slot_inb j hlt)).toLoadRect
        (land1 S1 c j hj) (ix3 0 r q)
      = S1 (rot c (32 - j)) (ix2 ⟨16 * c.val + r.val, by have : c.val < 32 := c.isLt; have := r.isLt; omega⟩ q) := by
  unfold land1
  rw [slot_read_write]
  show S1 (rot c (32 - j)) ((Rect.unit (s := S512x256) (k0_off1 (rot c (32 - j)) (BitVec.ofNat 32 j)) S16x256.size _).emb (ix2 r q)) = _
  have hc : ((rot c (32 - j)).val + j) % 32 = c.val := by
    rw [rot_val]; have : c.val < 32 := c.isLt; omega
  rw [rows_emb _ c.val ((off1_eq (rot c (32 - j)) j hj).trans (by rw [hc]))]

/-- Slot `j` of the second landing buffer once landed: the sender's result rows. -/
theorem read_land2 (Y2 : (d : Dev nD) → Buf (Elt F) (st2.view.loc (d : Thread nD τ))) (c : Dev nD) (j : ℕ)
    (hj : 1 ≤ j ∧ j ≤ 31) (hlt : j < 32) (r : Fin 16) (q : Fin 256) :
    cm2.view.readAt (Elt F) (Rect.unit (s := S32x16x256) ![j, 0, 0] S1x16x256.size (slot_inb j hlt)).toLoadRect
        (land2 Y2 c j hj) (ix3 0 r q)
      = Y2 (rot c (32 - j)) (ix2 r q) := by
  unfold land2
  rw [slot_read_write]
  rfl

/-- info: 'Cert.KernelIdealProto.read_own_rows' depends on axioms: [propext, Classical.choice, Quot.sound] -/
#guard_msgs in #print axioms read_own_rows

/-- info: 'Cert.KernelIdealProto.read_land1' depends on axioms: [propext, Classical.choice, Quot.sound] -/
#guard_msgs in #print axioms read_land1

/-- info: 'Cert.KernelIdealProto.read_land2' depends on axioms: [propext, Classical.choice, Quot.sound] -/
#guard_msgs in #print axioms read_land2

end Cert.KernelIdealProto

end
-- ==== Proof.KernelIdealPayloads.lean ====
import proofs.«900784_g7700000000000785_dist_f_of_ar_i_m512_n256_v7x_i32_bf16_1_alg».proof.Proof.Gen.KernelIdeal.Skeleton
import proofs.«900784_g7700000000000785_dist_f_of_ar_i_m512_n256_v7x_i32_bf16_1_alg».proof.Proof.Spec
import Idealize.ShloMosaic.PureOps.Ideal.Laws
import Idealize.ShloMosaic.Lib.ValueIdx
import Idealize.ShloMosaic.Lib.Pipeline.Value
import Idealize.ShloMosaic.Lib.ValueLayout

/-!
# The kernel's arithmetic, element by element, on the extended reals

Each pure value the kernel's body computes is read here at an index in terms of the values it is computed from, at
indices. On the extended reals a change of float format is the identity, so narrowing the block and widening a landed
slot change no element; a slot of shape 1 × 16 × 256 and the 16 × 256 array of its rows hold the same elements,
element `(0, r, q)` of the one being element `(r, q)` of the other. The accumulation adds the landed slots to the
device's own rows one after the other, from the left. The result is `f` of the accumulated sum, `f` the function of
the specification: `tanh s · s · s + max s 0 · max s 0 · max s 0`.
-/

noncomputable section

namespace Cert.KernelIdealValue

open Cert.KernelIdeal Cert.KernelIdeal.Gen
open Idealize.ShloMosaic Idealize.ShloMosaic.ValueIdx

/-- A slot of shape 1 × 16 × 256 read as 16 × 256: element `(r, q)` is the slot's element `(0, r, q)`. -/
theorem drop_apply {α : Type} (v : S1x16x256.Idx → α) (h : S1x16x256.ShapeCasts S16x256) (r : Fin 16) (q : Fin 256) :
    shapeCast S16x256 v h (ix2 r q) = v (ix3 0 r q) :=
  shapeCast_apply v h (ix2 r q) (ix3 0 r q) (by
    rw [Shape.rowMajor_val_three, Shape.rowMajor_val_two]
    show ((0 : Fin 1).val * 16 + r.val) * 256 + q.val = r.val * 256 + q.val
    simp)

/-- 16 × 256 read as a slot of shape 1 × 16 × 256: element `(0, r, q)` is element `(r, q)`. -/
theorem add_apply {α : Type} (v : S16x256.Idx → α) (h : S16x256.ShapeCasts S1x16x256) (r : Fin 16) (q : Fin 256) :
    shapeCast S1x16x256 v h (ix3 0 r q) = v (ix2 r q) :=
  shapeCast_apply v h (ix3 0 r q) (ix2 r q) (by
    rw [Shape.rowMajor_val_three, Shape.rowMajor_val_two]
    show r.val * 256 + q.val = ((0 : Fin 1).val * 16 + r.val) * 256 + q.val
    simp)

/-- The block narrowed, at `(a, q)`: narrowing changes no extended real. -/
theorem pay1_apply (v407 : Vec Ideal S512x256 .f32) (a : Fin 512) (q : Fin 256) :
    k0_pay1 (F := Ideal) v407 (ix2 a q) = v407 (ix2 a q) := by
  unfold k0_pay1
  simp only [shapeCast_self]
  rfl

/-- The accumulated sum at `(r, q)` with one landed slot added from the left; a slot's element is its `(0, r, q)`. -/
theorem pay2_apply (v1065 : Vec Ideal S16x256 .f32) (v1073 : Vec Ideal S1x16x256 .bf16) (r : Fin 16) (q : Fin 256) :
    k0_pay2 (F := Ideal) v1065 v1073 (ix2 r q) = (v1065 (ix2 r q) + v1073 (ix3 0 r q) : EReal) := by
  unfold k0_pay2
  simp only [addf_apply, extf_apply, drop_apply]

/-- The accumulated sum at `(r, q)` with two landed slots added from the left; a slot's element is its `(0, r, q)`. -/
theorem pay3_apply (v1076 : FVec Ideal S16x256 .f32) (v1084 : Vec Ideal S1x16x256 .bf16) (v1095 : Vec Ideal S1x16x256 .bf16) (r : Fin 16) (q : Fin 256) :
    k0_pay3 (F := Ideal) v1076 v1084 v1095 (ix2 r q) = (v1076 (ix2 r q) + v1084 (ix3 0 r q) + v1095 (ix3 0 r q) : EReal) := by
  unfold k0_pay3
  simp only [addf_apply, extf_apply, drop_apply]

/-- A landed slot widened, as 16 × 256, at `(r, q)`: the slot's element `(0, r, q)`. -/
theorem pay4_apply (v1106 : Vec Ideal S1x16x256 .bf16) (r : Fin 16) (q : Fin 256) :
    k0_pay4 (F := Ideal) v1106 (ix2 r q) = v1106 (ix3 0 r q) := by
  unfold k0_pay4
  exact drop_apply _ _ r q

/-- The accumulated sum at `(r, q)` with two landed slots added, after the widened slot carried in, from the left; a slot's element is its `(0, r, q)`. -/
theorem pay5_apply (v1098 : FVec Ideal S16x256 .f32) (v1108 : FVec Ideal S16x256 .f32) (v1117 : Vec Ideal S1x16x256 .bf16) (v1128 : Vec Ideal S1x16x256 .bf16) (r : Fin 16) (q : Fin 256) :
    k0_pay5 (F := Ideal) v1098 v1108 v1117 v1128 (ix2 r q) = (v1098 (ix2 r q) + v1108 (ix2 r q) + v1117 (ix3 0 r q) + v1128 (ix3 0 r q) : EReal) := by
  unfold k0_pay5
  simp only [addf_apply, extf_apply, drop_apply]

/-- The accumulated sum at `(r, q)` with three landed slots added from the left; a slot's element is its `(0, r, q)`. -/
theorem pay6_apply (v1131 : FVec Ideal S16x256 .f32) (v1139 : Vec Ideal S1x16x256 .bf16) (v1150 : Vec Ideal S1x16x256 .bf16) (v1161 : Vec Ideal S1x16x256 .bf16) (r : Fin 16) (q : Fin 256) :
    k0_pay6 (F := Ideal) v1131 v1139 v1150 v1161 (ix2 r q) = (v1131 (ix2 r q) + v1139 (ix3 0 r q) + v1150 (ix3 0 r q) + v1161 (ix3 0 r q) : EReal) := by
  unfold k0_pay6
  simp only [addf_apply, extf_apply, drop_apply]

/-- The accumulated sum at `(r, q)` with two landed slots added from the left; a slot's element is its `(0, r, q)`. -/
theorem pay7_apply (v1164 : FVec Ideal S16x256 .f32) (v1172 : Vec Ideal S1x16x256 .bf16) (v1183 : Vec Ideal S1x16x256 .bf16) (r : Fin 16) (q : Fin 256) :
    k0_pay7 (F := Ideal) v1164 v1172 v1183 (ix2 r q) = (v1164 (ix2 r q) + v1172 (ix3 0 r q) + v1183 (ix3 0 r q) : EReal) := by
  unfold k0_pay7
  simp only [addf_apply, extf_apply, drop_apply]

/-- The accumulated sum at `(r, q)` with three landed slots added from the left; a slot's element is its `(0, r, q)`. -/
theorem pay8_apply (v1186 : FVec Ideal S16x256 .f32) (v1194 : Vec Ideal S1x16x256 .bf16) (v1205 : Vec Ideal S1x16x256 .bf16) (v1216 : Vec Ideal S1x16x256 .bf16) (r : Fin 16) (q : Fin 256) :
    k0_pay8 (F := Ideal) v1186 v1194 v1205 v1216 (ix2 r q) = (v1186 (ix2 r q) + v1194 (ix3 0 r q) + v1205 (ix3 0 r q) + v1216 (ix3 0 r q) : EReal) := by
  unfold k0_pay8
  simp only [addf_apply, extf_apply, drop_apply]

/-- The accumulated sum at `(r, q)` with three landed slots added from the left; a slot's element is its `(0, r, q)`. -/
theorem pay9_apply (v1219 : FVec Ideal S16x256 .f32) (v1227 : Vec Ideal S1x16x256 .bf16) (v1238 : Vec Ideal S1x16x256 .bf16) (v1249 : Vec Ideal S1x16x256 .bf16) (r : Fin 16) (q : Fin 256) :
    k0_pay9 (F := Ideal) v1219 v1227 v1238 v1249 (ix2 r q) = (v1219 (ix2 r q) + v1227 (ix3 0 r q) + v1238 (ix3 0 r q) + v1249 (ix3 0 r q) : EReal) := by
  unfold k0_pay9
  simp only [addf_apply, extf_apply, drop_apply]

/-- The accumulated sum at `(r, q)` with two landed slots added from the left; a slot's element is its `(0, r, q)`. -/
theorem pay10_apply (v1252 : FVec Ideal S16x256 .f32) (v1260 : Vec Ideal S1x16x256 .bf16) (v1271 : Vec Ideal S1x16x256 .bf16) (r : Fin 16) (q : Fin 256) :
    k0_pay10 (F := Ideal) v1252 v1260 v1271 (ix2 r q) = (v1252 (ix2 r q) + v1260 (ix3 0 r q) + v1271 (ix3 0 r q) : EReal) := by
  unfold k0_pay10
  simp only [addf_apply, extf_apply, drop_apply]

/-- The accumulated sum at `(r, q)` with three landed slots added from the left; a slot's element is its `(0, r, q)`. -/
theorem pay11_apply (v1274 : FVec Ideal S16x256 .f32) (v1282 : Vec Ideal S1x16x256 .bf16) (v1293 : Vec Ideal S1x16x256 .bf16) (v1304 : Vec Ideal S1x16x256 .bf16) (r : Fin 16) (q : Fin 256) :
    k0_pay11 (F := Ideal) v1274 v1282 v1293 v1304 (ix2 r q) = (v1274 (ix2 r q) + v1282 (ix3 0 r q) + v1293 (ix3 0 r q) + v1304 (ix3 0 r q) : EReal) := by
  unfold k0_pay11
  simp only [addf_apply, extf_apply, drop_apply]

/-- The accumulated sum at `(r, q)` with two landed slots added from the left; a slot's element is its `(0, r, q)`. -/
theorem pay12_apply (v1307 : FVec Ideal S16x256 .f32) (v1315 : Vec Ideal S1x16x256 .bf16) (v1326 : Vec Ideal S1x16x256 .bf16) (r : Fin 16) (q : Fin 256) :
    k0_pay12 (F := Ideal) v1307 v1315 v1326 (ix2 r q) = (v1307 (ix2 r q) + v1315 (ix3 0 r q) + v1326 (ix3 0 r q) : EReal) := by
  unfold k0_pay12
  simp only [addf_apply, extf_apply, drop_apply]

/-- The accumulated sum at `(r, q)` with three landed slots added from the left; a slot's element is its `(0, r, q)`. -/
theorem pay13_apply (v1329 : FVec Ideal S16x256 .f32) (v1337 : Vec Ideal S1x16x256 .bf16) (v1348 : Vec Ideal S1x16x256 .bf16) (v1359 : Vec Ideal S1x16x256 .bf16) (r : Fin 16) (q : Fin 256) :
    k0_pay13 (F := Ideal) v1329 v1337 v1348 v1359 (ix2 r q) = (v1329 (ix2 r q) + v1337 (ix3 0 r q) + v1348 (ix3 0 r q) + v1359 (ix3 0 r q) : EReal) := by
  unfold k0_pay13
  simp only [addf_apply, extf_apply, drop_apply]

/-- The accumulated sum at `(r, q)` with three landed slots added from the left; a slot's element is its `(0, r, q)`. -/
theorem pay14_apply (v1362 : FVec Ideal S16x256 .f32) (v1370 : Vec Ideal S1x16x256 .bf16) (v1381 : Vec Ideal S1x16x256 .bf16) (v1392 : Vec Ideal S1x16x256 .bf16) (r : Fin 16) (q : Fin 256) :
    k0_pay14 (F := Ideal) v1362 v1370 v1381 v1392 (ix2 r q) = (v1362 (ix2 r q) + v1370 (ix3 0 r q) + v1381 (ix3 0 r q) + v1392 (ix3 0 r q) : EReal) := by
  unfold k0_pay14
  simp only [addf_apply, extf_apply, drop_apply]

/-- The result rows at `(r, q)`: `f` of the accumulated sum with the last landed slot added; the zero the maximum is taken against is the extended real zero. -/
theorem pay15_apply (v1395 : FVec Ideal S16x256 .f32) (v1403 : Vec Ideal S1x16x256 .bf16) (r : Fin 16) (q : Fin 256) :
    k0_pay15 (F := Ideal) v1395 v1403 (ix2 r q) = Cert.Spec.f (v1395 (ix2 r q) + v1403 (ix3 0 r q)) := by
  show (Ideal.tanh (v1395 (ix2 r q) + shapeCast S16x256 v1403 shapeCasts_S1x16x256_S16x256 (ix2 r q)) * (v1395 (ix2 r q) + shapeCast S16x256 v1403 shapeCasts_S1x16x256_S16x256 (ix2 r q)) * (v1395 (ix2 r q) + shapeCast S16x256 v1403 shapeCasts_S1x16x256_S16x256 (ix2 r q))
      + max (v1395 (ix2 r q) + shapeCast S16x256 v1403 shapeCasts_S1x16x256_S16x256 (ix2 r q)) (Ideal.ofBits .f32 0x00000000#32) * max (v1395 (ix2 r q) + shapeCast S16x256 v1403 shapeCasts_S1x16x256_S16x256 (ix2 r q)) (Ideal.ofBits .f32 0x00000000#32) * max (v1395 (ix2 r q) + shapeCast S16x256 v1403 shapeCasts_S1x16x256_S16x256 (ix2 r q)) (Ideal.ofBits .f32 0x00000000#32) : EReal) = _
  rw [drop_apply, Ideal.ofBits_zero_f32]
  rfl

/-- The result rows as a slot of shape 1 × 16 × 256, at `(0, r, q)`: the result at `(r, q)`. -/
theorem pay16_apply (v1395 : FVec Ideal S16x256 .f32) (v1403 : Vec Ideal S1x16x256 .bf16) (r : Fin 16) (q : Fin 256) :
    k0_pay16 (F := Ideal) v1395 v1403 (ix3 0 r q) = Cert.Spec.f (v1395 (ix2 r q) + v1403 (ix3 0 r q)) := by
  unfold k0_pay16
  exact (add_apply _ _ r q).trans (pay15_apply v1395 v1403 r q)

/-- The result rows narrowed, at `(r, q)`: narrowing changes no extended real. -/
theorem pay17_apply (v1395 : FVec Ideal S16x256 .f32) (v1403 : Vec Ideal S1x16x256 .bf16) (r : Fin 16) (q : Fin 256) :
    k0_pay17 (F := Ideal) v1395 v1403 (ix2 r q) = Cert.Spec.f (v1395 (ix2 r q) + v1403 (ix3 0 r q)) := by
  unfold k0_pay17
  simp only [shapeCast_self]
  exact pay15_apply v1395 v1403 r q

/-- A landed slot widened, at `(0, r, q)`: the slot's element there. -/
theorem pay18_apply (v2034 : Vec Ideal S1x16x256 .bf16) (r : Fin 16) (q : Fin 256) :
    k0_pay18 (F := Ideal) v2034 (ix3 0 r q) = v2034 (ix3 0 r q) := by
  unfold k0_pay18
  exact (add_apply _ _ r q).trans (drop_apply _ _ r q)

/-- A landed slot widened, at `(0, r, q)`: the slot's element there. -/
theorem pay19_apply (v2063 : Vec Ideal S1x16x256 .bf16) (r : Fin 16) (q : Fin 256) :
    k0_pay19 (F := Ideal) v2063 (ix3 0 r q) = v2063 (ix3 0 r q) := by
  unfold k0_pay19
  exact (add_apply _ _ r q).trans (drop_apply _ _ r q)

/-- A landed slot widened, at `(0, r, q)`: the slot's element there. -/
theorem pay20_apply (v2092 : Vec Ideal S1x16x256 .bf16) (r : Fin 16) (q : Fin 256) :
    k0_pay20 (F := Ideal) v2092 (ix3 0 r q) = v2092 (ix3 0 r q) := by
  unfold k0_pay20
  exact (add_apply _ _ r q).trans (drop_apply _ _ r q)

/-- A landed slot widened, at `(0, r, q)`: the slot's element there. -/
theorem pay21_apply (v2121 : Vec Ideal S1x16x256 .bf16) (r : Fin 16) (q : Fin 256) :
    k0_pay21 (F := Ideal) v2121 (ix3 0 r q) = v2121 (ix3 0 r q) := by
  unfold k0_pay21
  exact (add_apply _ _ r q).trans (drop_apply _ _ r q)

/-- A landed slot widened, at `(0, r, q)`: the slot's element there. -/
theorem pay22_apply (v2150 : Vec Ideal S1x16x256 .bf16) (r : Fin 16) (q : Fin 256) :
    k0_pay22 (F := Ideal) v2150 (ix3 0 r q) = v2150 (ix3 0 r q) := by
  unfold k0_pay22
  exact (add_apply _ _ r q).trans (drop_apply _ _ r q)

/-- A landed slot widened, as 16 × 256, at `(r, q)`: the slot's element `(0, r, q)`. -/
theorem pay23_apply (v2179 : Vec Ideal S1x16x256 .bf16) (r : Fin 16) (q : Fin 256) :
    k0_pay23 (F := Ideal) v2179 (ix2 r q) = v2179 (ix3 0 r q) := by
  unfold k0_pay23
  exact drop_apply _ _ r q

/-- 16 × 256 rows as a slot of shape 1 × 16 × 256, at `(0, r, q)`: the rows' element `(r, q)`. -/
theorem pay24_apply (v2181 : FVec Ideal S16x256 .f32) (r : Fin 16) (q : Fin 256) :
    k0_pay24 (F := Ideal) v2181 (ix3 0 r q) = v2181 (ix2 r q) := by
  unfold k0_pay24
  exact add_apply _ _ r q

/-- A landed slot widened, as 16 × 256, at `(r, q)`: the slot's element `(0, r, q)`. -/
theorem pay25_apply (v2208 : Vec Ideal S1x16x256 .bf16) (r : Fin 16) (q : Fin 256) :
    k0_pay25 (F := Ideal) v2208 (ix2 r q) = v2208 (ix3 0 r q) := by
  unfold k0_pay25
  exact drop_apply _ _ r q

/-- 16 × 256 rows as a slot of shape 1 × 16 × 256, at `(0, r, q)`: the rows' element `(r, q)`. -/
theorem pay26_apply (v2210 : FVec Ideal S16x256 .f32) (r : Fin 16) (q : Fin 256) :
    k0_pay26 (F := Ideal) v2210 (ix3 0 r q) = v2210 (ix2 r q) := by
  unfold k0_pay26
  exact add_apply _ _ r q

/-- A landed slot widened, as 16 × 256, at `(r, q)`: the slot's element `(0, r, q)`. -/
theorem pay27_apply (v2237 : Vec Ideal S1x16x256 .bf16) (r : Fin 16) (q : Fin 256) :
    k0_pay27 (F := Ideal) v2237 (ix2 r q) = v2237 (ix3 0 r q) := by
  unfold k0_pay27
  exact drop_apply _ _ r q

/-- 16 × 256 rows as a slot of shape 1 × 16 × 256, at `(0, r, q)`: the rows' element `(r, q)`. -/
theorem pay28_apply (v2239 : FVec Ideal S16x256 .f32) (r : Fin 16) (q : Fin 256) :
    k0_pay28 (F := Ideal) v2239 (ix3 0 r q) = v2239 (ix2 r q) := by
  unfold k0_pay28
  exact add_apply _ _ r q

/-- A landed slot widened, at `(0, r, q)`: the slot's element there. -/
theorem pay29_apply (v2266 : Vec Ideal S1x16x256 .bf16) (r : Fin 16) (q : Fin 256) :
    k0_pay29 (F := Ideal) v2266 (ix3 0 r q) = v2266 (ix3 0 r q) := by
  unfold k0_pay29
  exact (add_apply _ _ r q).trans (drop_apply _ _ r q)

/-- A landed slot widened, at `(0, r, q)`: the slot's element there. -/
theorem pay30_apply (v2295 : Vec Ideal S1x16x256 .bf16) (r : Fin 16) (q : Fin 256) :
    k0_pay30 (F := Ideal) v2295 (ix3 0 r q) = v2295 (ix3 0 r q) := by
  unfold k0_pay30
  exact (add_apply _ _ r q).trans (drop_apply _ _ r q)

/-- A landed slot widened, at `(0, r, q)`: the slot's element there. -/
theorem pay31_apply (v2324 : Vec Ideal S1x16x256 .bf16) (r : Fin 16) (q : Fin 256) :
    k0_pay31 (F := Ideal) v2324 (ix3 0 r q) = v2324 (ix3 0 r q) := by
  unfold k0_pay31
  exact (add_apply _ _ r q).trans (drop_apply _ _ r q)

/-- A landed slot widened, at `(0, r, q)`: the slot's element there. -/
theorem pay32_apply (v2353 : Vec Ideal S1x16x256 .bf16) (r : Fin 16) (q : Fin 256) :
    k0_pay32 (F := Ideal) v2353 (ix3 0 r q) = v2353 (ix3 0 r q) := by
  unfold k0_pay32
  exact (add_apply _ _ r q).trans (drop_apply _ _ r q)

/-- A landed slot widened, at `(0, r, q)`: the slot's element there. -/
theorem pay33_apply (v2382 : Vec Ideal S1x16x256 .bf16) (r : Fin 16) (q : Fin 256) :
    k0_pay33 (F := Ideal) v2382 (ix3 0 r q) = v2382 (ix3 0 r q) := by
  unfold k0_pay33
  exact (add_apply _ _ r q).trans (drop_apply _ _ r q)

/-- A landed slot widened, at `(0, r, q)`: the slot's element there. -/
theorem pay34_apply (v2411 : Vec Ideal S1x16x256 .bf16) (r : Fin 16) (q : Fin 256) :
    k0_pay34 (F := Ideal) v2411 (ix3 0 r q) = v2411 (ix3 0 r q) := by
  unfold k0_pay34
  exact (add_apply _ _ r q).trans (drop_apply _ _ r q)

/-- A landed slot widened, at `(0, r, q)`: the slot's element there. -/
theorem pay35_apply (v2440 : Vec Ideal S1x16x256 .bf16) (r : Fin 16) (q : Fin 256) :
    k0_pay35 (F := Ideal) v2440 (ix3 0 r q) = v2440 (ix3 0 r q) := by
  unfold k0_pay35
  exact (add_apply _ _ r q).trans (drop_apply _ _ r q)

/-- A landed slot widened, at `(0, r, q)`: the slot's element there. -/
theorem pay36_apply (v2469 : Vec Ideal S1x16x256 .bf16) (r : Fin 16) (q : Fin 256) :
    k0_pay36 (F := Ideal) v2469 (ix3 0 r q) = v2469 (ix3 0 r q) := by
  unfold k0_pay36
  exact (add_apply _ _ r q).trans (drop_apply _ _ r q)

/-- A landed slot widened, at `(0, r, q)`: the slot's element there. -/
theorem pay37_apply (v2498 : Vec Ideal S1x16x256 .bf16) (r : Fin 16) (q : Fin 256) :
    k0_pay37 (F := Ideal) v2498 (ix3 0 r q) = v2498 (ix3 0 r q) := by
  unfold k0_pay37
  exact (add_apply _ _ r q).trans (drop_apply _ _ r q)

/-- A landed slot widened, at `(0, r, q)`: the slot's element there. -/
theorem pay38_apply (v2527 : Vec Ideal S1x16x256 .bf16) (r : Fin 16) (q : Fin 256) :
    k0_pay38 (F := Ideal) v2527 (ix3 0 r q) = v2527 (ix3 0 r q) := by
  unfold k0_pay38
  exact (add_apply _ _ r q).trans (drop_apply _ _ r q)

/-- A landed slot widened, at `(0, r, q)`: the slot's element there. -/
theorem pay39_apply (v2556 : Vec Ideal S1x16x256 .bf16) (r : Fin 16) (q : Fin 256) :
    k0_pay39 (F := Ideal) v2556 (ix3 0 r q) = v2556 (ix3 0 r q) := by
  unfold k0_pay39
  exact (add_apply _ _ r q).trans (drop_apply _ _ r q)

/-- A landed slot widened, at `(0, r, q)`: the slot's element there. -/
theorem pay40_apply (v2585 : Vec Ideal S1x16x256 .bf16) (r : Fin 16) (q : Fin 256) :
    k0_pay40 (F := Ideal) v2585 (ix3 0 r q) = v2585 (ix3 0 r q) := by
  unfold k0_pay40
  exact (add_apply _ _ r q).trans (drop_apply _ _ r q)

/-- A landed slot widened, at `(0, r, q)`: the slot's element there. -/
theorem pay41_apply (v2614 : Vec Ideal S1x16x256 .bf16) (r : Fin 16) (q : Fin 256) :
    k0_pay41 (F := Ideal) v2614 (ix3 0 r q) = v2614 (ix3 0 r q) := by
  unfold k0_pay41
  exact (add_apply _ _ r q).trans (drop_apply _ _ r q)

/-- A landed slot widened, at `(0, r, q)`: the slot's element there. -/
theorem pay42_apply (v2643 : Vec Ideal S1x16x256 .bf16) (r : Fin 16) (q : Fin 256) :
    k0_pay42 (F := Ideal) v2643 (ix3 0 r q) = v2643 (ix3 0 r q) := by
  unfold k0_pay42
  exact (add_apply _ _ r q).trans (drop_apply _ _ r q)

/-- A landed slot widened, at `(0, r, q)`: the slot's element there. -/
theorem pay43_apply (v2672 : Vec Ideal S1x16x256 .bf16) (r : Fin 16) (q : Fin 256) :
    k0_pay43 (F := Ideal) v2672 (ix3 0 r q) = v2672 (ix3 0 r q) := by
  unfold k0_pay43
  exact (add_apply _ _ r q).trans (drop_apply _ _ r q)

/-- A landed slot widened, at `(0, r, q)`: the slot's element there. -/
theorem pay44_apply (v2701 : Vec Ideal S1x16x256 .bf16) (r : Fin 16) (q : Fin 256) :
    k0_pay44 (F := Ideal) v2701 (ix3 0 r q) = v2701 (ix3 0 r q) := by
  unfold k0_pay44
  exact (add_apply _ _ r q).trans (drop_apply _ _ r q)

/-- A landed slot widened, at `(0, r, q)`: the slot's element there. -/
theorem pay45_apply (v2730 : Vec Ideal S1x16x256 .bf16) (r : Fin 16) (q : Fin 256) :
    k0_pay45 (F := Ideal) v2730 (ix3 0 r q) = v2730 (ix3 0 r q) := by
  unfold k0_pay45
  exact (add_apply _ _ r q).trans (drop_apply _ _ r q)

/-- A landed slot widened, at `(0, r, q)`: the slot's element there. -/
theorem pay46_apply (v2759 : Vec Ideal S1x16x256 .bf16) (r : Fin 16) (q : Fin 256) :
    k0_pay46 (F := Ideal) v2759 (ix3 0 r q) = v2759 (ix3 0 r q) := by
  unfold k0_pay46
  exact (add_apply _ _ r q).trans (drop_apply _ _ r q)

/-- A landed slot widened, at `(0, r, q)`: the slot's element there. -/
theorem pay47_apply (v2788 : Vec Ideal S1x16x256 .bf16) (r : Fin 16) (q : Fin 256) :
    k0_pay47 (F := Ideal) v2788 (ix3 0 r q) = v2788 (ix3 0 r q) := by
  unfold k0_pay47
  exact (add_apply _ _ r q).trans (drop_apply _ _ r q)

/-- A landed slot widened, at `(0, r, q)`: the slot's element there. -/
theorem pay48_apply (v2817 : Vec Ideal S1x16x256 .bf16) (r : Fin 16) (q : Fin 256) :
    k0_pay48 (F := Ideal) v2817 (ix3 0 r q) = v2817 (ix3 0 r q) := by
  unfold k0_pay48
  exact (add_apply _ _ r q).trans (drop_apply _ _ r q)

/-- A landed slot widened, at `(0, r, q)`: the slot's element there. -/
theorem pay49_apply (v2846 : Vec Ideal S1x16x256 .bf16) (r : Fin 16) (q : Fin 256) :
    k0_pay49 (F := Ideal) v2846 (ix3 0 r q) = v2846 (ix3 0 r q) := by
  unfold k0_pay49
  exact (add_apply _ _ r q).trans (drop_apply _ _ r q)

/-- A landed slot widened, at `(0, r, q)`: the slot's element there. -/
theorem pay50_apply (v2875 : Vec Ideal S1x16x256 .bf16) (r : Fin 16) (q : Fin 256) :
    k0_pay50 (F := Ideal) v2875 (ix3 0 r q) = v2875 (ix3 0 r q) := by
  unfold k0_pay50
  exact (add_apply _ _ r q).trans (drop_apply _ _ r q)

/-- A landed slot widened, at `(0, r, q)`: the slot's element there. -/
theorem pay51_apply (v2904 : Vec Ideal S1x16x256 .bf16) (r : Fin 16) (q : Fin 256) :
    k0_pay51 (F := Ideal) v2904 (ix3 0 r q) = v2904 (ix3 0 r q) := by
  unfold k0_pay51
  exact (add_apply _ _ r q).trans (drop_apply _ _ r q)

/-- info: 'Cert.KernelIdealValue.pay15_apply' depends on axioms: [propext, Classical.choice, Quot.sound] -/
#guard_msgs in #print axioms pay15_apply

end Cert.KernelIdealValue

end
-- ==== Proof.KernelIdealValueY.lean ====
import proofs.«900784_g7700000000000785_dist_f_of_ar_i_m512_n256_v7x_i32_bf16_1_alg».proof.Proof.KernelIdealY2
import proofs.«900784_g7700000000000785_dist_f_of_ar_i_m512_n256_v7x_i32_bf16_1_alg».proof.Proof.KernelIdealReads
import proofs.«900784_g7700000000000785_dist_f_of_ar_i_m512_n256_v7x_i32_bf16_1_alg».proof.Proof.KernelIdealPayloads
import proofs.«900784_g7700000000000785_dist_f_of_ar_i_m512_n256_v7x_i32_bf16_1_alg».proof.Proof.Spec

/-!
# The value of a device's result rows

On the extended reals, the sixteen result rows of device `c` are, element by element, `f` of the sum over all
thirty-two devices of their blocks' rows `16·c … 16·c + 15`. The device adds its own rows of its block and the
thirty-one landed slots in slot order. Slot `j` holds what the device `j` places before `c` sent: rows
`16·c … 16·c + 15` of that device's block, narrowed (which changes no extended real). So the accumulated sum at
`(r, q)` is the blocks' elements `(16·c + r, q)` added in the order `c, c - 1, …, c - 31` around the ring, which
is their sum in any order.
-/

noncomputable section

namespace Cert.KernelIdealValue

open Cert.KernelIdeal Cert.KernelIdeal.Gen Cert.KernelIdealProto
open Idealize.ShloMosaic Idealize.ShloMosaic.ValueIdx
open Idealize.ShloMosaic.TcCoe
open Idealize.SL Idealize.SL.Sem
open scoped BigOperators

/-! ## The accumulation, over any rows and slots -/

/-- The accumulation's thirty steps, grouped as the program groups them, add the thirty slots to the rows it starts
    from, one after the other from the left. -/
theorem nest_apply (own : Vec Ideal S16x256 .f32) (s1 s2 s3 s4 s5 s6 s7 s8 s9 s10 s11 s12 s13 s14 s15 s16 s17 s18 s19 s20 s21 s22 s23 s24 s25 s26 s27 s28 s29 s30 : Vec Ideal S1x16x256 .bf16) (r : Fin 16) (q : Fin 256) :
    (k0_pay14 (F := Ideal) (k0_pay13 (F := Ideal) (k0_pay12 (F := Ideal) (k0_pay11 (F := Ideal) (k0_pay10 (F := Ideal) (k0_pay9 (F := Ideal) (k0_pay8 (F := Ideal) (k0_pay7 (F := Ideal) (k0_pay6 (F := Ideal) (k0_pay5 (F := Ideal) (k0_pay3 (F := Ideal) (k0_pay2 (F := Ideal) own s1) s2 s3) (k0_pay4 (F := Ideal) s4) s5 s6) s7 s8 s9) s10 s11) s12 s13 s14) s15 s16 s17) s18 s19) s20 s21 s22) s23 s24) s25 s26 s27) s28 s29 s30) (ix2 r q)
      = (own (ix2 r q) + s1 (ix3 0 r q) + s2 (ix3 0 r q) + s3 (ix3 0 r q) + s4 (ix3 0 r q) + s5 (ix3 0 r q) + s6 (ix3 0 r q) + s7 (ix3 0 r q) + s8 (ix3 0 r q) + s9 (ix3 0 r q) + s10 (ix3 0 r q) + s11 (ix3 0 r q) + s12 (ix3 0 r q) + s13 (ix3 0 r q) + s14 (ix3 0 r q) + s15 (ix3 0 r q) + s16 (ix3 0 r q) + s17 (ix3 0 r q) + s18 (ix3 0 r q) + s19 (ix3 0 r q) + s20 (ix3 0 r q) + s21 (ix3 0 r q) + s22 (ix3 0 r q) + s23 (ix3 0 r q) + s24 (ix3 0 r q) + s25 (ix3 0 r q) + s26 (ix3 0 r q) + s27 (ix3 0 r q) + s28 (ix3 0 r q) + s29 (ix3 0 r q) + s30 (ix3 0 r q) : EReal) := by
  rw [pay14_apply, pay13_apply, pay12_apply, pay11_apply, pay10_apply, pay9_apply, pay8_apply, pay7_apply, pay6_apply,
    pay5_apply, pay4_apply, pay3_apply, pay2_apply]

/-- Thirty-two extended reals that are a family's values at `c`, one place before `c`, …, thirty-one places before
    `c`, added from the left, are the family's sum. -/
theorem ring_sum (x : Fin 32 → EReal) (c : Fin 32) (own s1 s2 s3 s4 s5 s6 s7 s8 s9 s10 s11 s12 s13 s14 s15 s16 s17 s18 s19 s20 s21 s22 s23 s24 s25 s26 s27 s28 s29 s30 s31 : EReal) (h0 : own = x c)
    (h1 : s1 = x (Spec.rot c 1)) (h2 : s2 = x (Spec.rot c 2)) (h3 : s3 = x (Spec.rot c 3)) (h4 : s4 = x (Spec.rot c 4)) (h5 : s5 = x (Spec.rot c 5)) (h6 : s6 = x (Spec.rot c 6)) (h7 : s7 = x (Spec.rot c 7)) (h8 : s8 = x (Spec.rot c 8)) (h9 : s9 = x (Spec.rot c 9)) (h10 : s10 = x (Spec.rot c 10)) (h11 : s11 = x (Spec.rot c 11)) (h12 : s12 = x (Spec.rot c 12)) (h13 : s13 = x (Spec.rot c 13)) (h14 : s14 = x (Spec.rot c 14)) (h15 : s15 = x (Spec.rot c 15)) (h16 : s16 = x (Spec.rot c 16)) (h17 : s17 = x (Spec.rot c 17)) (h18 : s18 = x (Spec.rot c 18)) (h19 : s19 = x (Spec.rot c 19)) (h20 : s20 = x (Spec.rot c 20)) (h21 : s21 = x (Spec.rot c 21)) (h22 : s22 = x (Spec.rot c 22)) (h23 : s23 = x (Spec.rot c 23)) (h24 : s24 = x (Spec.rot c 24)) (h25 : s25 = x (Spec.rot c 25)) (h26 : s26 = x (Spec.rot c 26)) (h27 : s27 = x (Spec.rot c 27)) (h28 : s28 = x (Spec.rot c 28)) (h29 : s29 = x (Spec.rot c 29)) (h30 : s30 = x (Spec.rot c 30)) (h31 : s31 = x (Spec.rot c 31)) :
    own + s1 + s2 + s3 + s4 + s5 + s6 + s7 + s8 + s9 + s10 + s11 + s12 + s13 + s14 + s15 + s16 + s17 + s18 + s19 + s20 + s21 + s22 + s23 + s24 + s25 + s26 + s27 + s28 + s29 + s30 + s31 = ∑ k : Fin 32, x k := by
  subst h0 h1 h2 h3 h4 h5 h6 h7 h8 h9 h10 h11 h12 h13 h14 h15 h16 h17 h18 h19 h20 h21 h22 h23 h24 h25 h26 h27 h28 h29 h30 h31
  exact Spec.sum_rot_nested c x

/-! ## What the loads read, in terms of the devices' blocks -/

/-- The device `32 - j` places after `c` is the device `j` places before it. -/
theorem rot_eq (c : Dev nD) (j : ℕ) (hj : 1 ≤ j ∧ j ≤ 31) : Cert.KernelIdealProto.rot c (32 - j) = Spec.rot c j := by
  apply Fin.ext
  rw [Cert.KernelIdealProto.rot_val, Spec.rot_val]
  have : c.val < 32 := c.isLt
  omega

variable (m : (ℓ : Loc nD τ sig) → Buf (Elt Ideal) ℓ) (c : Dev nD)

/-- Device `k`'s block of the argument. -/
def blk (k : Fin 32) : Vec Ideal S512x256 .f32 := m (((k : Dev nD) : Thread nD τ).loc main_arg0)

/-- The rows the accumulation starts from: the device's own block at row `16·c + r`. -/
theorem ownRd_apply (r : Fin 16) (q : Fin 256) :
    ownRd m c (ix2 r q) = blk m c (ix2 ⟨16 * c.val + r.val, by have : c.val < 32 := c.isLt; have := r.isLt; omega⟩ q) :=
  read_own_rows c (m ((c : Thread nD τ).loc main_arg0)) r q

/-- Slot `j` once landed: the block of the device `j` places before `c`, at row `16·c + r`. -/
theorem slotRd_apply (j : ℕ) (hj : 1 ≤ j ∧ j ≤ 31) (ho : j < 32) (r : Fin 16) (q : Fin 256) :
    slotRd m c j hj ho (ix3 0 r q) = blk m (Spec.rot c j) (ix2 ⟨16 * c.val + r.val, by have : c.val < 32 := c.isLt; have := r.isLt; omega⟩ q) := by
  unfold slotRd
  refine (read_land1 (S1def m) c j hj ho r q).trans ?_
  rw [rot_eq c j hj]
  exact pay1_apply (m (((Spec.rot c j : Dev nD) : Thread nD τ).loc main_arg0)) _ q

/-- The accumulated sum of the own rows and slots 1 … 30. -/
theorem accDef_apply (r : Fin 16) (q : Fin 256) :
    accDef m c (ix2 r q)
      = (ownRd m c (ix2 r q) + slotRd m c 1 hk_1 ho_1 (ix3 0 r q)
        + slotRd m c 2 hk_2 ho_2 (ix3 0 r q)
        + slotRd m c 3 hk_3 ho_3 (ix3 0 r q)
        + slotRd m c 4 hk_4 ho_4 (ix3 0 r q)
        + slotRd m c 5 hk_5 ho_5 (ix3 0 r q)
        + slotRd m c 6 hk_6 ho_6 (ix3 0 r q)
        + slotRd m c 7 hk_7 ho_7 (ix3 0 r q)
        + slotRd m c 8 hk_8 ho_8 (ix3 0 r q)
        + slotRd m c 9 hk_9 ho_9 (ix3 0 r q)
        + slotRd m c 10 hk_10 ho_10 (ix3 0 r q)
        + slotRd m c 11 hk_11 ho_11 (ix3 0 r q)
        + slotRd m c 12 hk_12 ho_12 (ix3 0 r q)
        + slotRd m c 13 hk_13 ho_13 (ix3 0 r q)
        + slotRd m c 14 hk_14 ho_14 (ix3 0 r q)
        + slotRd m c 15 hk_15 ho_15 (ix3 0 r q)
        + slotRd m c 16 hk_16 ho_16 (ix3 0 r q)
        + slotRd m c 17 hk_17 ho_17 (ix3 0 r q)
        + slotRd m c 18 hk_18 ho_18 (ix3 0 r q)
        + slotRd m c 19 hk_19 ho_19 (ix3 0 r q)
        + slotRd m c 20 hk_20 ho_20 (ix3 0 r q)
        + slotRd m c 21 hk_21 ho_21 (ix3 0 r q)
        + slotRd m c 22 hk_22 ho_22 (ix3 0 r q)
        + slotRd m c 23 hk_23 ho_23 (ix3 0 r q)
        + slotRd m c 24 hk_24 ho_24 (ix3 0 r q)
        + slotRd m c 25 hk_25 ho_25 (ix3 0 r q)
        + slotRd m c 26 hk_26 ho_26 (ix3 0 r q)
        + slotRd m c 27 hk_27 ho_27 (ix3 0 r q)
        + slotRd m c 28 hk_28 ho_28 (ix3 0 r q)
        + slotRd m c 29 hk_29 ho_29 (ix3 0 r q)
        + slotRd m c 30 hk_30 ho_30 (ix3 0 r q) : EReal) :=
  nest_apply (ownRd m c) (slotRd m c 1 hk_1 ho_1) (slotRd m c 2 hk_2 ho_2) (slotRd m c 3 hk_3 ho_3) (slotRd m c 4 hk_4 ho_4) (slotRd m c 5 hk_5 ho_5) (slotRd m c 6 hk_6 ho_6) (slotRd m c 7 hk_7 ho_7) (slotRd m c 8 hk_8 ho_8) (slotRd m c 9 hk_9 ho_9) (slotRd m c 10 hk_10 ho_10) (slotRd m c 11 hk_11 ho_11) (slotRd m c 12 hk_12 ho_12) (slotRd m c 13 hk_13 ho_13) (slotRd m c 14 hk_14 ho_14) (slotRd m c 15 hk_15 ho_15) (slotRd m c 16 hk_16 ho_16) (slotRd m c 17 hk_17 ho_17) (slotRd m c 18 hk_18 ho_18) (slotRd m c 19 hk_19 ho_19) (slotRd m c 20 hk_20 ho_20) (slotRd m c 21 hk_21 ho_21) (slotRd m c 22 hk_22 ho_22) (slotRd m c 23 hk_23 ho_23) (slotRd m c 24 hk_24 ho_24) (slotRd m c 25 hk_25 ho_25) (slotRd m c 26 hk_26 ho_26) (slotRd m c 27 hk_27 ho_27) (slotRd m c 28 hk_28 ho_28) (slotRd m c 29 hk_29 ho_29) (slotRd m c 30 hk_30 ho_30) r q

/-- The accumulated sum with the last slot added is the sum of the thirty-two blocks at row `16·c + r`. -/
theorem total_apply (r : Fin 16) (q : Fin 256) :
    (accDef m c (ix2 r q) + slotRd m c 31 hk_31 ho_31 (ix3 0 r q) : EReal)
      = ∑ k : Fin 32, blk m k (ix2 ⟨16 * c.val + r.val, by have : c.val < 32 := c.isLt; have := r.isLt; omega⟩ q) := by
  rw [accDef_apply]
  exact ring_sum (fun k => blk m k (ix2 ⟨16 * c.val + r.val, by have : c.val < 32 := c.isLt; have := r.isLt; omega⟩ q)) c _ _ _ _ _ _ _ _ _ _ _ _ _ _ _ _ _ _ _ _ _ _ _ _ _ _ _ _ _ _ _ _
    (ownRd_apply m c r q) (slotRd_apply m c 1 hk_1 ho_1 r q) (slotRd_apply m c 2 hk_2 ho_2 r q) (slotRd_apply m c 3 hk_3 ho_3 r q) (slotRd_apply m c 4 hk_4 ho_4 r q) (slotRd_apply m c 5 hk_5 ho_5 r q) (slotRd_apply m c 6 hk_6 ho_6 r q) (slotRd_apply m c 7 hk_7 ho_7 r q) (slotRd_apply m c 8 hk_8 ho_8 r q) (slotRd_apply m c 9 hk_9 ho_9 r q) (slotRd_apply m c 10 hk_10 ho_10 r q) (slotRd_apply m c 11 hk_11 ho_11 r q) (slotRd_apply m c 12 hk_12 ho_12 r q) (slotRd_apply m c 13 hk_13 ho_13 r q) (slotRd_apply m c 14 hk_14 ho_14 r q) (slotRd_apply m c 15 hk_15 ho_15 r q) (slotRd_apply m c 16 hk_16 ho_16 r q) (slotRd_apply m c 17 hk_17 ho_17 r q) (slotRd_apply m c 18 hk_18 ho_18 r q) (slotRd_apply m c 19 hk_19 ho_19 r q) (slotRd_apply m c 20 hk_20 ho_20 r q) (slotRd_apply m c 21 hk_21 ho_21 r q) (slotRd_apply m c 22 hk_22 ho_22 r q) (slotRd_apply m c 23 hk_23 ho_23 r q) (slotRd_apply m c 24 hk_24 ho_24 r q) (slotRd_apply m c 25 hk_25 ho_25 r q) (slotRd_apply m c 26 hk_26 ho_26 r q) (slotRd_apply m c 27 hk_27 ho_27 r q) (slotRd_apply m c 28 hk_28 ho_28 r q) (slotRd_apply m c 29 hk_29 ho_29 r q) (slotRd_apply m c 30 hk_30 ho_30 r q) (slotRd_apply m c 31 hk_31 ho_31 r q)

/-! ## The result rows -/

/-- The result rows narrowed, what the second exchange sends: `f` of the sum of the thirty-two blocks. -/
theorem Y2def_apply (r : Fin 16) (q : Fin 256) :
    Cert.KernelIdealProto.Y2def (F := Ideal) m c (ix2 r q)
      = Cert.Spec.f (∑ k : Fin 32, m (((k : Dev nD) : Thread nD τ).loc main_arg0) (ix2 ⟨16 * c.val + r.val, by have : c.val < 32 := c.isLt; have := r.isLt; omega⟩ q)) := by
  unfold Y2def
  rw [pay17_apply, total_apply]
  rfl

/-- The result rows as a slot of the output staging buffer: the same. -/
theorem Y0def_apply (r : Fin 16) (q : Fin 256) :
    Cert.KernelIdealProto.Y0def (F := Ideal) m c (ix3 0 r q)
      = Cert.Spec.f (∑ k : Fin 32, m (((k : Dev nD) : Thread nD τ).loc main_arg0) (ix2 ⟨16 * c.val + r.val, by have : c.val < 32 := c.isLt; have := r.isLt; omega⟩ q)) := by
  unfold Y0def
  rw [pay16_apply, total_apply]
  rfl

/-- info: 'Cert.KernelIdealValue.Y2def_apply' depends on axioms: [propext, Classical.choice, Quot.sound] -/
#guard_msgs in #print axioms Y2def_apply

/-- info: 'Cert.KernelIdealValue.Y0def_apply' depends on axioms: [propext, Classical.choice, Quot.sound] -/
#guard_msgs in #print axioms Y0def_apply

end Cert.KernelIdealValue

end
-- ==== Proof.KernelIdealValueOut.lean ====
import proofs.«900784_g7700000000000785_dist_f_of_ar_i_m512_n256_v7x_i32_bf16_1_alg».proof.Proof.KernelIdealOutDef
import proofs.«900784_g7700000000000785_dist_f_of_ar_i_m512_n256_v7x_i32_bf16_1_alg».proof.Proof.KernelIdealValueY
import proofs.«900784_g7700000000000785_dist_f_of_ar_i_m512_n256_v7x_i32_bf16_1_alg».proof.Proof.Spec

/-!
# The value of the result array

On the extended reals the result array of every device is `f` of the sum of the thirty-two blocks, place by place.
The array is held row block by row block. Row block `c` holds the device's own result rows. Row block `b ≠ c` was
written by the output copy at offset `k = (c - b) mod 32`: it holds what landed in slot `k` of the second landing
buffer, widened (which changes no extended real), and what landed there is the narrowed result rows of the device
`k` places before `c`, which is device `b`. Device `b`'s result rows are `f` of the sum of the blocks' rows
`16·b … 16·b + 15`. So the element in row `16·b + r`, column `q` is `f` of the sum of the blocks' elements there, on
every device.
-/

noncomputable section

namespace Cert.KernelIdealValue

open Cert.KernelIdeal Cert.KernelIdeal.Gen Cert.KernelIdealProto
open Idealize.ShloMosaic Idealize.ShloMosaic.ValueIdx
open Idealize.ShloMosaic.TcCoe
open Idealize.SL Idealize.SL.Sem
open scoped BigOperators

variable (m : (ℓ : Loc nD τ sig) → Buf (Elt Ideal) ℓ) (c : Dev nD)

/-! ## A row block written whole, read at one of its elements -/

/-- Contents written whole through the sixteen rows of the result array that start at row `16·n` hold, in row
    `16·n + r`, column `q`, the payload's element `(r, q)`. -/
theorem write_rows_apply (off : Fin 2 → ℕ) (n : ℕ) (h : off = ![16 * n, 0])
    (inb : ∀ a, off a + S16x256.size a ≤ S512x256.size a) (f : Buf (Elt Ideal) (oR.view.loc (c : Thread nD τ)))
    (w : S16x256.Idx → Elt Ideal .f32) (r : Fin 16) (q : Fin 256) (hlt : 16 * n + r.val < 512) :
    (oR.view.slice (Rect.unit (s := S512x256) off S16x256.size inb)).write (Elt Ideal) f w Finset.univ (outIdx c ⟨16 * n + r.val, hlt⟩ q)
      = w (ix2 r q) := by
  have e := View.write_emb_of_mem (v := oR.view.slice (Rect.unit (s := S512x256) off S16x256.size inb)) (Val := Elt Ideal) f w
    (M := Finset.univ) (x := ix2 r q) (Finset.mem_univ _)
  have he : (oR.view.slice (Rect.unit (s := S512x256) off S16x256.size inb)).emb (ix2 r q) = outIdx c ⟨16 * n + r.val, hlt⟩ q :=
    rows_emb off n h inb r q hlt
  rw [he] at e
  exact e

/-! ## The staging slots -/

/-- The block an output copy carries, at `(r, q)`: the staging slot's element `(0, r, q)`. -/
theorem outVec_apply (k : ℕ) (r : Fin 16) (q : Fin 256) : outVec m c k (ix2 r q) = stoSlot m c k (ix3 0 r q) :=
  congrArg (stoSlot m c k) (reshape_ix2 _ r q)

/-- Staging slot `k = 1 … 31` holds what was read off slot `k` of the second landing buffer: widening changes no
    extended real. -/
theorem stoSlot_apply : (k : ℕ) → (hk : 1 ≤ k ∧ k ≤ 31) → (ho : k < 32) → (r : Fin 16) → (q : Fin 256) →
    stoSlot m c k (ix3 0 r q) = slot2Rd m c k hk ho (ix3 0 r q)
  | 0, hk, _, _, _ => absurd hk.1 (by decide)
  | 1, hk, ho, r, q => pay18_apply (slot2Rd m c 1 hk ho) r q
  | 2, hk, ho, r, q => pay19_apply (slot2Rd m c 2 hk ho) r q
  | 3, hk, ho, r, q => pay20_apply (slot2Rd m c 3 hk ho) r q
  | 4, hk, ho, r, q => pay21_apply (slot2Rd m c 4 hk ho) r q
  | 5, hk, ho, r, q => pay22_apply (slot2Rd m c 5 hk ho) r q
  | 6, hk, ho, r, q => (pay24_apply (k0_pay23 (F := Ideal) (slot2Rd m c 6 hk ho)) r q).trans (pay23_apply (slot2Rd m c 6 hk ho) r q)
  | 7, hk, ho, r, q => (pay26_apply (k0_pay25 (F := Ideal) (slot2Rd m c 7 hk ho)) r q).trans (pay25_apply (slot2Rd m c 7 hk ho) r q)
  | 8, hk, ho, r, q => (pay28_apply (k0_pay27 (F := Ideal) (slot2Rd m c 8 hk ho)) r q).trans (pay27_apply (slot2Rd m c 8 hk ho) r q)
  | 9, hk, ho, r, q => pay29_apply (slot2Rd m c 9 hk ho) r q
  | 10, hk, ho, r, q => pay30_apply (slot2Rd m c 10 hk ho) r q
  | 11, hk, ho, r, q => pay31_apply (slot2Rd m c 11 hk ho) r q
  | 12, hk, ho, r, q => pay32_apply (slot2Rd m c 12 hk ho) r q
  | 13, hk, ho, r, q => pay33_apply (slot2Rd m c 13 hk ho) r q
  | 14, hk, ho, r, q => pay34_apply (slot2Rd m c 14 hk ho) r q
  | 15, hk, ho, r, q => pay35_apply (slot2Rd m c 15 hk ho) r q
  | 16, hk, ho, r, q => pay36_apply (slot2Rd m c 16 hk ho) r q
  | 17, hk, ho, r, q => pay37_apply (slot2Rd m c 17 hk ho) r q
  | 18, hk, ho, r, q => pay38_apply (slot2Rd m c 18 hk ho) r q
  | 19, hk, ho, r, q => pay39_apply (slot2Rd m c 19 hk ho) r q
  | 20, hk, ho, r, q => pay40_apply (slot2Rd m c 20 hk ho) r q
  | 21, hk, ho, r, q => pay41_apply (slot2Rd m c 21 hk ho) r q
  | 22, hk, ho, r, q => pay42_apply (slot2Rd m c 22 hk ho) r q
  | 23, hk, ho, r, q => pay43_apply (slot2Rd m c 23 hk ho) r q
  | 24, hk, ho, r, q => pay44_apply (slot2Rd m c 24 hk ho) r q
  | 25, hk, ho, r, q => pay45_apply (slot2Rd m c 25 hk ho) r q
  | 26, hk, ho, r, q => pay46_apply (slot2Rd m c 26 hk ho) r q
  | 27, hk, ho, r, q => pay47_apply (slot2Rd m c 27 hk ho) r q
  | 28, hk, ho, r, q => pay48_apply (slot2Rd m c 28 hk ho) r q
  | 29, hk, ho, r, q => pay49_apply (slot2Rd m c 29 hk ho) r q
  | 30, hk, ho, r, q => pay50_apply (slot2Rd m c 30 hk ho) r q
  | 31, hk, ho, r, q => pay51_apply (slot2Rd m c 31 hk ho) r q
  | _ + 32, hk, _, _, _ => absurd hk.2 (by omega)

/-! ## The devices' result rows at a row of the blocks -/

/-- Device `s`'s result rows, narrowed, at `(r, q)`, with the row of the blocks named. -/
theorem Y2def_at (s : Dev nD) (n : ℕ) (hn : s.val = n) (r : Fin 16) (q : Fin 256) (hlt : 16 * n + r.val < 512) :
    Y2def (F := Ideal) m s (ix2 r q) = Cert.Spec.f (∑ k : Fin 32, blk m k (ix2 ⟨16 * n + r.val, hlt⟩ q)) := by
  subst hn
  exact Y2def_apply m s r q

theorem Y0def_at (n : ℕ) (hn : c.val = n) (r : Fin 16) (q : Fin 256) (hlt : 16 * n + r.val < 512) :
    Y0def (F := Ideal) m c (ix3 0 r q) = Cert.Spec.f (∑ k : Fin 32, blk m k (ix2 ⟨16 * n + r.val, hlt⟩ q)) := by
  subst hn
  exact Y0def_apply m c r q

/-! ## A row block's contents -/

/-- The row block written at offset `k`, which is row block `n = (c - k) mod 32`, holds in its row `r`, column `q`
    `f` of the sum of the thirty-two blocks at row `16·n + r`. -/
theorem fsOut_at (k : Fin 32) (n : ℕ) (hn : (ringO c k).val = n) (r : Fin 16) (q : Fin 256) (hlt : 16 * n + r.val < 512) :
    fsOut m c k (outIdx c ⟨16 * n + r.val, hlt⟩ q) = Cert.Spec.f (∑ k' : Fin 32, blk m k' (ix2 ⟨16 * n + r.val, hlt⟩ q)) := by
  have hc : c.val < 32 := c.isLt
  have hk32 : k.val < 32 := k.isLt
  rw [ringO_val] at hn
  unfold fsOut
  by_cases h : 1 ≤ k.val
  · rw [dif_pos h]
    have hk : 1 ≤ k.val ∧ k.val ≤ 31 := ⟨h, Nat.lt_succ_iff.mp k.isLt⟩
    unfold fsOutAt
    refine (write_rows_apply c (k0_off4 c (BitVec.ofNat 32 k.val)) n ((off4_eq c k.val hk).trans (by rw [hn])) _ _ _ r q hlt).trans ?_
    rw [outVec_apply, stoSlot_apply m c k.val hk k.isLt r q]
    unfold slot2Rd
    rw [read_land2 (Y2def m) c k.val hk k.isLt r q]
    refine Y2def_at m (Cert.KernelIdealProto.rot c (32 - k.val)) n ?_ r q hlt
    rw [Cert.KernelIdealProto.rot_val]
    omega
  · rw [dif_neg h]
    have hk0 : k.val = 0 := by omega
    have hcn : c.val = n := by rw [hk0] at hn; omega
    unfold fsOut0
    refine (write_rows_apply c (k0_off3 c) n ((k0_off3_eq c).trans (by rw [hcn])) _ _ _ r q hlt).trans ?_
    rw [outVec_apply]
    exact Y0def_at m c n hcn r q hlt

/-! ## The result array -/

/-- The result array at row `16·b + r`, column `q`. -/
theorem out_at (b : Fin 32) (r : Fin 16) (q : Fin 256) (hlt : 16 * b.val + r.val < 512) :
    OUTdef (F := Ideal) m c (outIdx c ⟨16 * b.val + r.val, hlt⟩ q)
      = Cert.Spec.f (∑ k' : Fin 32, blk m k' (ix2 ⟨16 * b.val + r.val, hlt⟩ q)) := by
  unfold OUTdef
  rw [glueO_apply c (fsOut m c) b r q]
  exact fsOut_at m c (ringO c b) b.val (congrArg Fin.val (ringO_ringO c b)) r q hlt

/-- At the ideal instance the result on every device is `f` of the sum of the thirty-two blocks, place by place. -/
theorem out_value (m : (ℓ : Loc nD τ sig) → Buf (Elt Ideal) ℓ) (c : Dev nD) :
    Cert.KernelIdealProto.OUTdef (F := Ideal) m c
      = Cert.Spec.K (fun k : Fin 32 => m (((k : Dev nD) : Thread nD τ).loc main_arg0)) := by
  funext i
  obtain ⟨a, q, rfl⟩ : ∃ (a : Fin 512) (q : Fin 256), i = outIdx c a q := ⟨i 0, i 1, eq_ix2 i⟩
  have ha : a.val < 512 := a.isLt
  have hb : a.val / 16 < 32 := by omega
  have hr : a.val % 16 < 16 := Nat.mod_lt _ (by decide)
  have hlt : 16 * (⟨a.val / 16, hb⟩ : Fin 32).val + (⟨a.val % 16, hr⟩ : Fin 16).val < 512 := by
    show 16 * (a.val / 16) + a.val % 16 < 512
    omega
  have e : a = ⟨16 * (⟨a.val / 16, hb⟩ : Fin 32).val + (⟨a.val % 16, hr⟩ : Fin 16).val, hlt⟩ := by
    apply Fin.ext
    show a.val = 16 * (a.val / 16) + a.val % 16
    omega
  rw [e]
  exact out_at m c ⟨a.val / 16, hb⟩ ⟨a.val % 16, hr⟩ q hlt

/-- info: 'Cert.KernelIdealValue.out_value' depends on axioms: [propext, Classical.choice, Quot.sound] -/
#guard_msgs in #print axioms out_value

end Cert.KernelIdealValue

end
-- ==== Proof.lean ====
/- The proof of `Cert.Claim`.

   WHAT IS COMPUTED. Thirty-two devices each hold one block of 512 rows of an array of 16384 rows and 256 columns.
   Every device ends with the same 512 × 256 result: at each place, `f` of the sum of the thirty-two blocks there,
   `f s = tanh s · s · s + (max s 0)³`. The reference computes it on one device from the whole array; the kernel in
   two all-to-all exchanges among the thirty-two.

   THE PROTOCOL. Each device signals every other device's barrier semaphore once and waits for its own thirty-one
   units, so that no transfer reaches a device that has not entered the kernel. In the first exchange device `c` sends
   rows `16·d … 16·d + 15` of its (narrowed) block to device `d`, for every other `d`, and adds what the thirty-one
   others send it to its own rows `16·c … 16·c + 15`: it then holds rows `16·c … 16·c + 15` of the sum, applies `f`,
   and in the second exchange sends those sixteen result rows to every other device, so that each collects all
   thirty-two row groups of the result. Every wait is for units owed to a cell strictly below everything the waiter
   itself still owes, which is why no interleaving of the thirty-two can stall.

   THE LAW THAT JOINS THE TWO SIDES. Device `c` adds the blocks in ring order — its own, then the block of the device
   one place before it, two places before it, … — and the reference in the order of the devices' numbers, starting
   from zero. The two sums agree by commutativity and associativity of `+` on the extended reals (and `0 + s = s`),
   which hold without exception there; at the ideal instance narrowing and widening change no value. So the
   precondition (every input finite) is never opened: the claims hold of all inputs.

   The three frames are the runs with the value dropped; the idealization rewrote no operation. -/
import proofs.«900784_g7700000000000785_dist_f_of_ar_i_m512_n256_v7x_i32_bf16_1_alg».proof.Defs
import proofs.«900784_g7700000000000785_dist_f_of_ar_i_m512_n256_v7x_i32_bf16_1_alg».proof.Proof.Gen.Kernel
import proofs.«900784_g7700000000000785_dist_f_of_ar_i_m512_n256_v7x_i32_bf16_1_alg».proof.Proof.Gen.Kernel.Skeleton
import proofs.«900784_g7700000000000785_dist_f_of_ar_i_m512_n256_v7x_i32_bf16_1_alg».proof.Proof.Gen.Kernel.Launch
import proofs.«900784_g7700000000000785_dist_f_of_ar_i_m512_n256_v7x_i32_bf16_1_alg».proof.Proof.Gen.Kernel.Points
import proofs.«900784_g7700000000000785_dist_f_of_ar_i_m512_n256_v7x_i32_bf16_1_alg».proof.Proof.Gen.Kernel.Frame
import proofs.«900784_g7700000000000785_dist_f_of_ar_i_m512_n256_v7x_i32_bf16_1_alg».proof.Proof.Gen.KernelIdeal
import proofs.«900784_g7700000000000785_dist_f_of_ar_i_m512_n256_v7x_i32_bf16_1_alg».proof.Proof.Gen.KernelIdeal.Skeleton
import proofs.«900784_g7700000000000785_dist_f_of_ar_i_m512_n256_v7x_i32_bf16_1_alg».proof.Proof.Gen.KernelIdeal.Launch
import proofs.«900784_g7700000000000785_dist_f_of_ar_i_m512_n256_v7x_i32_bf16_1_alg».proof.Proof.Gen.KernelIdeal.Points
import proofs.«900784_g7700000000000785_dist_f_of_ar_i_m512_n256_v7x_i32_bf16_1_alg».proof.Proof.Gen.KernelIdeal.Frame
import proofs.«900784_g7700000000000785_dist_f_of_ar_i_m512_n256_v7x_i32_bf16_1_alg».proof.Proof.Gen.ReferenceIdeal
import proofs.«900784_g7700000000000785_dist_f_of_ar_i_m512_n256_v7x_i32_bf16_1_alg».proof.Proof.Gen.Pre_finite_inputs_Kernel
import proofs.«900784_g7700000000000785_dist_f_of_ar_i_m512_n256_v7x_i32_bf16_1_alg».proof.Proof.Gen.Pre_finite_inputs_ReferenceIdeal
import proofs.«900784_g7700000000000785_dist_f_of_ar_i_m512_n256_v7x_i32_bf16_1_alg».proof.Proof.RefValue
import proofs.«900784_g7700000000000785_dist_f_of_ar_i_m512_n256_v7x_i32_bf16_1_alg».proof.Proof.KernelIdealLaunch
import proofs.«900784_g7700000000000785_dist_f_of_ar_i_m512_n256_v7x_i32_bf16_1_alg».proof.Proof.KernelLaunch
import proofs.«900784_g7700000000000785_dist_f_of_ar_i_m512_n256_v7x_i32_bf16_1_alg».proof.Proof.KernelIdealGlueEnd
import proofs.«900784_g7700000000000785_dist_f_of_ar_i_m512_n256_v7x_i32_bf16_1_alg».proof.Proof.KernelGlueEnd
import proofs.«900784_g7700000000000785_dist_f_of_ar_i_m512_n256_v7x_i32_bf16_1_alg».proof.Proof.Pending
import proofs.«900784_g7700000000000785_dist_f_of_ar_i_m512_n256_v7x_i32_bf16_1_alg».proof.Proof.KernelIdealValueOut
import Idealize.ShloMosaic.Adequacy
import Idealize.ShloMosaic.Init

noncomputable section

namespace Cert.Proof

open Idealize.ShloMosaic Idealize.SL.Sem

/-- The word-level kernel on the thirty-two devices runs to the end, nothing faulting, from any memory: every
    device's result at its closed form, its argument unchanged. -/
theorem run_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_v1) = Cert.KernelProto.OUTdef (F := Bits) m c
      ∧ r.2.mem ((c.tc : Thread Cert.Kernel.nD Cert.Kernel.τ).loc Cert.Kernel.main_arg0) = m ((c.tc : Thread Cert.Kernel.nD Cert.Kernel.τ).loc Cert.Kernel.main_arg0)) :=
  Cert.KernelProto.run_main (F := Bits) (Cert.KernelProto.S1def m) (Cert.KernelProto.Y2def m) (Cert.KernelProto.OUTdef m) m g
    (Cert.KernelProto.body_obligation (F := Bits) (Cert.KernelProto.S1def m) (Cert.KernelProto.Y2def m) (Cert.KernelProto.OUTdef m) m
      (Cert.KernelProto.sound_body (F := Bits) m))

/-- The same of the idealized kernel, at any float instance. -/
theorem run_kernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Cert.KernelIdealProto.OUTdef (F := Ideal) m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  Cert.KernelIdealProto.run_main (F := Ideal) (Cert.KernelIdealProto.S1def m) (Cert.KernelIdealProto.Y2def m) (Cert.KernelIdealProto.OUTdef m) m g
    (Cert.KernelIdealProto.body_obligation (F := Ideal) (Cert.KernelIdealProto.S1def m) (Cert.KernelIdealProto.Y2def m) (Cert.KernelIdealProto.OUTdef m) m
      (Cert.KernelIdealProto.sound_body (F := Ideal) m))

/-- The word-level kernel's frame: its run with the value dropped. -/
theorem frame_k : Cert.frame_Kernel := fun m g _ =>
  (θ_run Cert.Kernel.defs _ _).mono (fun _ h c => (h c).2) (run_kernel m g)

/-- The idealized kernel's frame. -/
theorem frame_ki : Cert.frame_KernelIdeal := fun m g _ =>
  (θ_run Cert.KernelIdeal.defs _ _).mono (fun _ h c => (h c).2) (run_kernelIdeal m g)

/-- The two sides: both run, the reference's result is the specification of the blocks of its array, and every
    device's result of the kernel is the specification of the devices' blocks, which are those blocks. -/
theorem algebraic : Cert.algebraic_KernelIdeal_ReferenceIdeal := fun m g m' g' _ hagree =>
  ⟨Cert.Spec.K (fun k => Layout.block ⟨2, ![512, 256]⟩ ⟨2, ![16384, 256]⟩ 0 32 k
      (m' (((0 : Dev Cert.ReferenceIdeal.nD).tc : Thread Cert.ReferenceIdeal.nD Cert.ReferenceIdeal.τ).loc Cert.ReferenceIdeal.main_arg0))),
    (θ_run Cert.KernelIdeal.defs _ _).mono
      (fun _ h c => ⟨(h c).1.trans ((Cert.KernelIdealValue.out_value m c).trans (congrArg Cert.Spec.K (funext fun k => hagree k))), (h c).2⟩)
      (run_kernelIdeal m g),
    Cert.RefValue.ref_run m' g'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefValue.frame_ri, trivial, algebraic⟩

end Cert.Proof

end
